-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3664) = v0 c
          ∧ r.2.mem ((c.tc : Thread Cert.ReferenceIdeal.nD Cert.ReferenceIdeal.τ).loc Cert.ReferenceIdeal.main_v3673) = v1 c
          ∧ r.2.mem ((c.tc : Thread Cert.ReferenceIdeal.nD Cert.ReferenceIdeal.τ).loc Cert.ReferenceIdeal.main_v3682) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x1024 : Shape := ⟨3, ![512, 128, 1024]⟩
abbrev S8x512x1024 : Shape := ⟨3, ![8, 512, 1024]⟩
abbrev S8x1024x1024 : Shape := ⟨3, ![8, 1024, 1024]⟩
abbrev S8x1024 : Shape := ⟨2, ![8, 1024]⟩
abbrev S1024x1024 : Shape := ⟨2, ![1024, 1024]⟩
abbrev S1024 : Shape := ⟨1, ![1024]⟩
abbrev S_ : Shape := ⟨0, ![]⟩

class Facts : Prop where
  bcast_S_S512x128x1024 : S_.BroadcastsInDim S512x128x1024 (![] : Fin 0 → Fin S512x128x1024.rank)
  reducesTo_S512x128x1024_S_d0_1_2 : S512x128x1024.ReducesTo [0, 1, 2] S_
  h_S_ : 0 < S_.numel
  bcast_S_S8x512x1024 : S_.BroadcastsInDim S8x512x1024 (![] : Fin 0 → Fin S8x512x1024.rank)
  reducesTo_S8x512x1024_S_d0_1_2 : S8x512x1024.ReducesTo [0, 1, 2] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024x1024 .f32) (main_arg12 : FVec F S1024 .f32) (main_v48 : IVec S_ 1) (main_v49 : FVec F S8x1024 .f32) (main_v50 : FVec F S8x1024 .f32) : IVec S_ 1 :=
  let main_v51 : IVec S8x1024 1 := cmpf .olt main_v49 main_v50
  let main_c_19 : IVec S_ 1 := constantI S_ 1 1#1
  let main_v52 : IVec S_ 1 := (fun x v => Host.reduce IntOp.andi x v reducesTo_S8x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S8x1024 .f32) (main_arg8 : FVec F S8x1024x1024 .f32) (main_arg9 : FVec F S8x1024x1024 .f32) (main_arg10 : FVec F S8x1024 .f32) (main_arg11 : FVec F S1024x1024 .f32) (main_arg12 : FVec F S1024 .f32) (main_v33 : IVec S_ 1) : IVec S_ 1 :=
  let main_v34 : FVec F S8x1024 .f32 := Host.absf main_arg7
  let main_cst_12 : FVec F S_ .f32 := constant S_ .f32 0x7F800000#32
  let main_v35 : FVec F S8x1024 .f32 := broadcastInDim S8x1024 ![] bcast_S_S8x1024 main_cst_12
  let main_v36 : IVec S8x1024 1 := cmpf .olt main_v34 main_v35
  let main_c_13 : IVec S_ 1 := constantI S_ 1 1#1
  let main_v37 : IVec S_ 1 := (fun x v => Host.reduce IntOp.andi x v reducesTo_S8x1024_S_d0_1 h_S_) main_v36 main_c_13
  let main_v38 : IVec S_ 1 := andi main_v33 main_v37
  let main_v39 : FVec F S8x1024x1024 .f32 := Host.absf main_arg8
  let main_cst_14 : FVec F S_ .f32 := constant S_ .f32 0x7F800000#32
  let main_v40 : FVec F S8x1024x1024 .f32 := broadcastInDim S8x1024x1024 ![] bcast_S_S8x1024x1024 main_cst_14
  let main_v41 : IVec S8x1024x1024 1 := cmpf .olt main_v39 main_v40
  let main_c_15 : IVec S_ 1 := constantI S_ 1 1#1
  let main_v42 : IVec S_ 1 := (fun x v => Host.reduce IntOp.andi x v reducesTo_S8x1024x1024_S_d0_1_2 h_S_) main_v41 main_c_15
  let main_v43 : IVec S_ 1 := andi main_v38 main_v42
  let main_v44 : FVec F S8x1024x1024 .f32 := Host.absf main_arg9
  let main_cst_16 : FVec F S_ .f32 := constant S_ .f32 0x7F800000#32
  let main_v45 : FVec F S8x1024x1024 .f32 := broadcastInDim S8x1024x1024 ![] bcast_S_S8x1024x1024 main_cst_16
  let main_v46 : IVec S8x1024x1024 1 := cmpf .olt main_v44 main_v45
  let main_c_17 : IVec S_ 1 := constantI S_ 1 1#1
  let main_v47 : IVec S_ 1 := (fun x v => Host.reduce IntOp.andi x v reducesTo_S8x1024x1024_S_d0_1_2 h_S_) main_v46 main_c_17
  let main_v48 : IVec S_ 1 := andi main_v43 main_v47
  let main_v49 : FVec F S8x1024 .f32 := Host.absf main_arg10
  let main_cst_18 : FVec F S_ .f32 := constant S_ .f32 0x7F800000#32
  let main_v50 : FVec F S8x1024 .f32 := broadcastInDim S8x1024 ![] bcast_S_S8x1024 main_cst_18
  fn_part3 (F := F) main_arg11 main_arg12 main_v48 main_v49 main_v50

def fn_part1 {F : FTy → Type} [FloatOps F] (main_arg4 : FVec F S8x1024 .f32) (main_arg5 : FVec F S8x1024x1024 .f32) (main_arg6 : FVec F S8x1024x1024 .f32) (main_arg7 : FVec F S8x1024 .f32) (main_arg8 : FVec F S8x1024x1024 .f32) (main_arg9 : FVec F S8x1024x1024 .f32) (main_arg10 : FVec F S8x1024 .f32) (main_arg11 : FVec F S1024x1024 .f32) (main_arg12 : FVec F S1024 .f32) (main_v13 : IVec S_ 1) (main_v16 : IVec S8x1024x1024 1) : IVec S_ 1 :=
  let main_c_5 : IVec S_ 1 := constantI S_ 1 1#1
  let main_v17 : IVec S_ 1 := (fun x v => Host.reduce IntOp.andi x v reducesTo_S8x1024x1024_S_d0_1_2 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  let main_v24 : FVec F S8x1024x1024 .f32 := Host.absf main_arg5
  let main_cst_8 : FVec F S_ .f32 := constant S_ .f32 0x7F800000#32
  let main_v25 : FVec F S8x1024x1024 .f32 := broadcastInDim S8x1024x1024 ![] bcast_S_S8x1024x1024 main_cst_8
  let main_v26 : IVec S8x1024x1024 1 := cmpf .olt main_v24 main_v25
  let main_c_9 : IVec S_ 1 := constantI S_ 1 1#1
  let main_v27 : IVec S_ 1 := (fun x v => Host.reduce IntOp.andi x v reducesTo_S8x1024x1024_S_d0_1_2 h_S_) main_v26 main_c_9
  let main_v28 : IVec S_ 1 := andi main_v23 main_v27
  let main_v29 : FVec F S8x1024x1024 .f32 := Host.absf main_arg6
  let main_cst_10 : FVec F S_ .f32 := constant S_ .f32 0x7F800000#32
  let main_v30 : FVec F S8x1024x1024 .f32 := broadcastInDim S8x1024x1024 ![] bcast_S_S8x1024x1024 main_cst_10
  let main_v31 : IVec S8x1024x1024 1 := cmpf .olt main_v29 main_v30
  let main_c_11 : IVec S_ 1 := constantI S_ 1 1#1
  let main_v32 : IVec S_ 1 := (fun x v => Host.reduce IntOp.andi x v reducesTo_S8x1024x1024_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S512x128x1024 .f32) (main_arg1 : FVec F S8x512x1024 .f32) (main_arg2 : FVec F S8x1024x1024 .f32) (main_arg3 : FVec F S8x1024x1024 .f32) (main_arg4 : FVec F S8x1024 .f32) (main_arg5 : FVec F S8x1024x1024 .f32) (main_arg6 : FVec F S8x1024x1024 .f32) (main_arg7 : FVec F S8x1024 .f32) (main_arg8 : FVec F S8x1024x1024 .f32) (main_arg9 : FVec F S8x1024x1024 .f32) (main_arg10 : FVec F S8x1024 .f32) (main_arg11 : FVec F S1024x1024 .f32) (main_arg12 : FVec F S1024 .f32) : IVec S_ 1 :=
  let main_v0 : FVec F S512x128x1024 .f32 := Host.absf main_arg0
  let main_cst : FVec F S_ .f32 := constant S_ .f32 0x7F800000#32
  let main_v1 : FVec F S512x128x1024 .f32 := broadcastInDim S512x128x1024 ![] bcast_S_S512x128x1024 main_cst
  let main_v2 : IVec S512x128x1024 1 := cmpf .olt main_v0 main_v1
  let main_c : IVec S_ 1 := constantI S_ 1 1#1
  let main_v3 : IVec S_ 1 := (fun x v => Host.reduce IntOp.andi x v reducesTo_S512x128x1024_S_d0_1_2 h_S_) main_v2 main_c
  let main_v4 : FVec F S8x512x1024 .f32 := Host.absf main_arg1
  let main_cst_0 : FVec F S_ .f32 := constant S_ .f32 0x7F800000#32
  let main_v5 : FVec F S8x512x1024 .f32 := broadcastInDim S8x512x1024 ![] bcast_S_S8x512x1024 main_cst_0
  let main_v6 : IVec S8x512x1024 1 := cmpf .olt main_v4 main_v5
  let main_c_1 : IVec S_ 1 := constantI S_ 1 1#1
  let main_v7 : IVec S_ 1 := (fun x v => Host.reduce IntOp.andi x v reducesTo_S8x512x1024_S_d0_1_2 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S8x1024x1024 .f32 := Host.absf main_arg3
  let main_cst_4 : FVec F S_ .f32 := constant S_ .f32 0x7F800000#32
  let main_v15 : FVec F S8x1024x1024 .f32 := broadcastInDim S8x1024x1024 ![] bcast_S_S8x1024x1024 main_cst_4
  let main_v16 : IVec S8x1024x1024 1 := cmpf .olt main_v14 main_v15
  fn_part1 (F := F) main_arg4 main_arg5 main_arg6 main_arg7 main_arg8 main_arg9 main_arg10 main_arg11 main_arg12 main_v13 main_v16
-- ==== Kernel.lean ====
abbrev S512x128x1024 : Shape := ⟨3, ![512, 128, 1024]⟩
abbrev S8x512x1024 : Shape := ⟨3, ![8, 512, 1024]⟩
abbrev S8x1024x1024 : Shape := ⟨3, ![8, 1024, 1024]⟩
abbrev S8x1024 : Shape := ⟨2, ![8, 1024]⟩
abbrev S1024x1024 : Shape := ⟨2, ![1024, 1024]⟩
abbrev S1024 : Shape := ⟨1, ![1024]⟩
abbrev S512x8x1024 : Shape := ⟨3, ![512, 8, 1024]⟩
abbrev S8x1024x3072 : Shape := ⟨3, ![8, 1024, 3072]⟩
abbrev S8x1024x2048 : Shape := ⟨3, ![8, 1024, 2048]⟩
abbrev S8x1x1024 : Shape := ⟨3, ![8, 1, 1024]⟩
abbrev S1x1024 : Shape := ⟨2, ![1, 1024]⟩
abbrev S512x1024 : Shape := ⟨2, ![512, 1024]⟩
abbrev S8x128x1024 : Shape := ⟨3, ![8, 128, 1024]⟩
abbrev S1x128x1024 : Shape := ⟨3, ![1, 128, 1024]⟩
abbrev S1x1024x3072 : Shape := ⟨3, ![1, 1024, 3072]⟩
abbrev S1x1024x2048 : Shape := ⟨3, ![1, 1024, 2048]⟩
abbrev S1x1024x1024 : Shape := ⟨3, ![1, 1024, 1024]⟩
abbrev S1x1x1024 : Shape := ⟨3, ![1, 1, 1024]⟩
abbrev S128x1024 : Shape := ⟨2, ![128, 1024]⟩
abbrev S1024x3072 : Shape := ⟨2, ![1024, 3072]⟩
abbrev S128x3072 : Shape := ⟨2, ![128, 3072]⟩
abbrev S1024x2048 : Shape := ⟨2, ![1024, 2048]⟩
abbrev S128x2048 : Shape := ⟨2, ![128, 2048]⟩
abbrev S8x64x1024 : Shape := ⟨3, ![8, 64, 1024]⟩
abbrev S1x64x1024 : Shape := ⟨3, ![1, 64, 1024]⟩
abbrev S64x1024 : Shape := ⟨2, ![64, 1024]⟩
abbrev S512x3072 : Shape := ⟨2, ![512, 3072]⟩
abbrev S64x3072 : Shape := ⟨2, ![64, 3072]⟩
abbrev S64x2048 : Shape := ⟨2, ![64, 2048]⟩
abbrev S1x8x512x1024 : Shape := ⟨4, ![1, 8, 512, 1024]⟩
abbrev S8x8x512x1024 : Shape := ⟨4, ![8, 8, 512, 1024]⟩
abbrev S1x512x1024 : Shape := ⟨3, ![1, 512, 1024]⟩

abbrev nBuf : Space → Nat
  | .hbm => 64
  | .vmem => 124
  | .smem => 0
  | _ => 0

abbrev bufTy : (tb : Table) → Fin (tcTables nBuf tb) → BufTy
  | .hbm, ⟨0, _⟩ => ⟨S512x128x1024, .f32⟩
  | .hbm, ⟨1, _⟩ => ⟨S8x512x1024, .f32⟩
  | .hbm, ⟨2, _⟩ => ⟨S8x1024x1024, .f32⟩
  | .hbm, ⟨3, _⟩ => ⟨S8x1024x1024, .f32⟩
  | .hbm, ⟨4, _⟩ => ⟨S8x1024, .f32⟩
  | .hbm, ⟨5, _⟩ => ⟨S8x1024x1024, .f32⟩
  | .hbm, ⟨6, _⟩ => ⟨S8x1024x1024, .f32⟩
  | .hbm, ⟨7, _⟩ => ⟨S8x1024, .f32⟩
  | .hbm, ⟨8, _⟩ => ⟨S8x1024x1024, .f32⟩
  | .hbm, ⟨9, _⟩ => ⟨S8x1024x1024, .f32⟩
  | .hbm, ⟨10, _⟩ => ⟨S8x1024, .f32⟩
  | .hbm, ⟨11, _⟩ => ⟨S1024x1024, .f32⟩
  | .hbm, ⟨12, _⟩ => ⟨S1024, .f32⟩
  | .hbm, ⟨13, _⟩ => ⟨S512x8x1024, .f32⟩
  | .hbm, ⟨14, _⟩ => ⟨S8x512x1024, .f32⟩
  | .hbm, ⟨15, _⟩ => ⟨S8x1024x1024, .bf16⟩
  | .hbm, ⟨16, _⟩ => ⟨S8x1024x1024, .bf16⟩
  | .hbm, ⟨17, _⟩ => ⟨S8x1024x1024, .bf16⟩
  | .hbm, ⟨18, _⟩ => ⟨S8x1024x3072, .bf16⟩
  | .hbm, ⟨19, _⟩ => ⟨S8x1024x1024, .bf16⟩
  | .hbm, ⟨20, _⟩ => ⟨S8x1024x1024, .bf16⟩
  | .hbm, ⟨21, _⟩ => ⟨S8x1024x2048, .bf16⟩
  | .hbm, ⟨22, _⟩ => ⟨S8x1024x1024, .bf16⟩
  | .hbm, ⟨23, _⟩ => ⟨S1024x1024, .bf16⟩
  | .hbm, ⟨24, _⟩ => ⟨S8x1x1024, .f32⟩
  | .hbm, ⟨25, _⟩ => ⟨S8x1x1024, .f32⟩
  | .hbm, ⟨26, _⟩ => ⟨S8x1x1024, .f32⟩
  | .hbm, ⟨27, _⟩ => ⟨S1x1024, .f32⟩
  | .hbm, ⟨28, _⟩ => ⟨S8x512x1024, .f32⟩
  | .hbm, ⟨29, _⟩ => ⟨S512x1024, .f32⟩
  | .hbm, ⟨30, _⟩ => ⟨S8x512x1024, .f32⟩
  | .hbm, ⟨31, _⟩ => ⟨S512x1024, .f32⟩
  | .hbm, ⟨32, _⟩ => ⟨S8x512x1024, .f32⟩
  | .hbm, ⟨33, _⟩ => ⟨S512x1024, .f32⟩
  | .hbm, ⟨34, _⟩ => ⟨S8x512x1024, .f32⟩
  | .hbm, ⟨35, _⟩ => ⟨S512x1024, .f32⟩
  | .hbm, ⟨36, _⟩ => ⟨S8x512x1024, .f32⟩
  | .hbm, ⟨37, _⟩ => ⟨S512x1024, .f32⟩
  | .hbm, ⟨38, _⟩ => ⟨S8x512x1024, .f32⟩
  | .hbm, ⟨39, _⟩ => ⟨S512x1024, .f32⟩
  | .hbm, ⟨40, _⟩ => ⟨S8x512x1024, .f32⟩
  | .hbm, ⟨41, _⟩ => ⟨S512x1024, .f32⟩
  | .hbm, ⟨42, _⟩ => ⟨S8x512x1024, .f32⟩
  | .hbm, ⟨43, _⟩ => ⟨S512x1024, .f32⟩
  | .hbm, ⟨44, _⟩ => ⟨S8x512x1024, .f32⟩
  | .hbm, ⟨45, _⟩ => ⟨S512x8x1024, .f32⟩
  | .hbm, ⟨46, _⟩ => ⟨S1x8x512x1024, .f32⟩
  | .hbm, ⟨47, _⟩ => ⟨S1x8x512x1024, .f32⟩
  | .hbm, ⟨48, _⟩ => ⟨S1x8x512x1024, .f32⟩
  | .hbm, ⟨49, _⟩ => ⟨S1x8x512x1024, .f32⟩
  | .hbm, ⟨50, _⟩ => ⟨S1x8x512x1024, .f32⟩
  | .hbm, ⟨51, _⟩ => ⟨S1x8x512x1024, .f32⟩
  | .hbm, ⟨52, _⟩ => ⟨S1x8x512x1024, .f32⟩
  | .hbm, ⟨53, _⟩ => ⟨S1x8x512x1024, .f32⟩
  | .hbm, ⟨54, _⟩ => ⟨S8x8x512x1024, .f32⟩
  | .hbm, ⟨55, _⟩ => ⟨S1x512x1024, .f32⟩
  | .hbm, ⟨56, _⟩ => ⟨S1x512x1024, .f32⟩
  | .hbm, ⟨57, _⟩ => ⟨S1x512x1024, .f32⟩
  | .hbm, ⟨58, _⟩ => ⟨S1x512x1024, .f32⟩
  | .hbm, ⟨59, _⟩ => ⟨S1x512x1024, .f32⟩
  | .hbm, ⟨60, _⟩ => ⟨S1x512x1024, .f32⟩
  | .hbm, ⟨61, _⟩ => ⟨S1x512x1024, .f32⟩
  | .hbm, ⟨62, _⟩ => ⟨S1x512x1024, .f32⟩
  | .hbm, ⟨63, _⟩ => ⟨S8x512x1024, .f32⟩
  | .local _ .vmem, ⟨0, _⟩ => ⟨S8x128x1024, .f32⟩
  | .local _ .vmem, ⟨1, _⟩ => ⟨S8x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x1024x3072, .bf16⟩
  | .local _ .vmem, ⟨5, _⟩ => ⟨S1x1024x2048, .bf16⟩
  | .local _ .vmem, ⟨6, _⟩ => ⟨S1x1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S8x128x1024, .f32⟩
  | .local _ .vmem, ⟨11, _⟩ => ⟨S8x128x1024, .f32⟩
  | .local _ .vmem, ⟨12, _⟩ => ⟨S128x1024, .f32⟩
  | .local _ .vmem, ⟨13, _⟩ => ⟨S128x1024, .f32⟩
  | .local _ .vmem, ⟨14, _⟩ => ⟨S1024x3072, .bf16⟩
  | .local _ .vmem, ⟨15, _⟩ => ⟨S8x128x1024, .f32⟩
  | .local _ .vmem, ⟨16, _⟩ => ⟨S8x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x1024x3072, .bf16⟩
  | .local _ .vmem, ⟨20, _⟩ => ⟨S1x1024x2048, .bf16⟩
  | .local _ .vmem, ⟨21, _⟩ => ⟨S1x1024x1024, .bf16⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S8x128x1024, .f32⟩
  | .local _ .vmem, ⟨26, _⟩ => ⟨S8x128x1024, .f32⟩
  | .local _ .vmem, ⟨27, _⟩ => ⟨S128x1024, .f32⟩
  | .local _ .vmem, ⟨28, _⟩ => ⟨S128x1024, .f32⟩
  | .local _ .vmem, ⟨29, _⟩ => ⟨S1024x3072, .bf16⟩
  | .local _ .vmem, ⟨30, _⟩ => ⟨S8x128x1024, .f32⟩
  | .local _ .vmem, ⟨31, _⟩ => ⟨S8x128x1024, .f32⟩
  | .local _ .vmem, ⟨32, _⟩ => ⟨S1x128x1024, .f32⟩
  | .local _ .vmem, ⟨33, _⟩ => ⟨S1x128x1024, .f32⟩
  | .local _ .vmem, ⟨34, _⟩ => ⟨S1x1024x3072, .bf16⟩
  | .local _ .vmem, ⟨35, _⟩ => ⟨S1x1024x2048, .bf16⟩
  | .local _ .vmem, ⟨36, _⟩ => ⟨S1x1024x1024, .bf16⟩
  | .local _ .vmem, ⟨37, _⟩ => ⟨S1x1x1024, .f32⟩
  | .local _ .vmem, ⟨38, _⟩ => ⟨S1x1x1024, .f32⟩
  | .local _ .vmem, ⟨39, _⟩ => ⟨S1x1x1024, .f32⟩
  | .local _ .vmem, ⟨40, _⟩ => ⟨S8x128x1024, .f32⟩
  | .local _ .vmem, ⟨41, _⟩ => ⟨S8x128x1024, .f32⟩
  | .local _ .vmem, ⟨42, _⟩ => ⟨S128x1024, .f32⟩
  | .local _ .vmem, ⟨43, _⟩ => ⟨S128x1024, .f32⟩
  | .local _ .vmem, ⟨44, _⟩ => ⟨S1024x3072, .bf16⟩
  | .local _ .vmem, ⟨45, _⟩ => ⟨S8x128x1024, .f32⟩
  | .local _ .vmem, ⟨46, _⟩ => ⟨S8x128x1024, .f32⟩
  | .local _ .vmem, ⟨47, _⟩ => ⟨S1x128x1024, .f32⟩
  | .local _ .vmem, ⟨48, _⟩ => ⟨S1x128x1024, .f32⟩
  | .local _ .vmem, ⟨49, _⟩ => ⟨S1x1024x3072, .bf16⟩
  | .local _ .vmem, ⟨50, _⟩ => ⟨S1x1024x2048, .bf16⟩
  | .local _ .vmem, ⟨51, _⟩ => ⟨S1x1024x1024, .bf16⟩
  | .local _ .vmem, ⟨52, _⟩ => ⟨S1x1x1024, .f32⟩
  | .local _ .vmem, ⟨53, _⟩ => ⟨S1x1x1024, .f32⟩
  | .local _ .vmem, ⟨54, _⟩ => ⟨S1x1x1024, .f32⟩
  | .local _ .vmem, ⟨55, _⟩ => ⟨S8x128x1024, .f32⟩
  | .local _ .vmem, ⟨56, _⟩ => ⟨S8x128x1024, .f32⟩
  | .local _ .vmem, ⟨57, _⟩ => ⟨S128x1024, .f32⟩
  | .local _ .vmem, ⟨58, _⟩ => ⟨S128x1024, .f32⟩
  | .local _ .vmem, ⟨59, _⟩ => ⟨S1024x3072, .bf16⟩
  | .local _ .vmem, ⟨60, _⟩ => ⟨S8x128x1024, .f32⟩
  | .local _ .vmem, ⟨61, _⟩ => ⟨S8x128x1024, .f32⟩
  | .local _ .vmem, ⟨62, _⟩ => ⟨S1x128x1024, .f32⟩
  | .local _ .vmem, ⟨63, _⟩ => ⟨S1x128x1024, .f32⟩
  | .local _ .vmem, ⟨64, _⟩ => ⟨S1x1024x3072, .bf16⟩
  | .local _ .vmem, ⟨65, _⟩ => ⟨S1x1024x2048, .bf16⟩
  | .local _ .vmem, ⟨66, _⟩ => ⟨S1x1024x1024, .bf16⟩
  | .local _ .vmem, ⟨67, _⟩ => ⟨S1x1x1024, .f32⟩
  | .local _ .vmem, ⟨68, _⟩ => ⟨S1x1x1024, .f32⟩
  | .local _ .vmem, ⟨69, _⟩ => ⟨S1x1x1024, .f32⟩
  | .local _ .vmem, ⟨70, _⟩ => ⟨S8x128x1024, .f32⟩
  | .local _ .vmem, ⟨71, _⟩ => ⟨S8x128x1024, .f32⟩
  | .local _ .vmem, ⟨72, _⟩ => ⟨S128x1024, .f32⟩
  | .local _ .vmem, ⟨73, _⟩ => ⟨S128x1024, .f32⟩
  | .local _ .vmem, ⟨74, _⟩ => ⟨S1024x3072, .bf16⟩
  | .local _ .vmem, ⟨75, _⟩ => ⟨S8x128x1024, .f32⟩
  | .local _ .vmem, ⟨76, _⟩ => ⟨S8x128x1024, .f32⟩
  | .local _ .vmem, ⟨77, _⟩ => ⟨S1x128x1024, .f32⟩
  | .local _ .vmem, ⟨78, _⟩ => ⟨S1x128x1024, .f32⟩
  | .local _ .vmem, ⟨79, _⟩ => ⟨S1x1024x3072, .bf16⟩
  | .local _ .vmem, ⟨80, _⟩ => ⟨S1x1024x2048, .bf16⟩
  | .local _ .vmem, ⟨81, _⟩ => ⟨S1x1024x1024, .bf16⟩
  | .local _ .vmem, ⟨82, _⟩ => ⟨S1x1x1024, .f32⟩
  | .local _ .vmem, ⟨83, _⟩ => ⟨S1x1x1024, .f32⟩
  | .local _ .vmem, ⟨84, _⟩ => ⟨S1x1x1024, .f32⟩
  | .local _ .vmem, ⟨85, _⟩ => ⟨S8x128x1024, .f32⟩
  | .local _ .vmem, ⟨86, _⟩ => ⟨S8x128x1024, .f32⟩
  | .local _ .vmem, ⟨87, _⟩ => ⟨S128x1024, .f32⟩
  | .local _ .vmem, ⟨88, _⟩ => ⟨S128x1024, .f32⟩
  | .local _ .vmem, ⟨89, _⟩ => ⟨S1024x3072, .bf16⟩
  | .local _ .vmem, ⟨90, _⟩ => ⟨S8x128x1024, .f32⟩
  | .local _ .vmem, ⟨91, _⟩ => ⟨S8x128x1024, .f32⟩
  | .local _ .vmem, ⟨92, _⟩ => ⟨S1x128x1024, .f32⟩
  | .local _ .vmem, ⟨93, _⟩ => ⟨S1x128x1024, .f32⟩
  | .local _ .vmem, ⟨94, _⟩ => ⟨S1x1024x3072, .bf16⟩
  | .local _ .vmem, ⟨95, _⟩ => ⟨S1x1024x2048, .bf16⟩
  | .local _ .vmem, ⟨96, _⟩ => ⟨S1x1024x1024, .bf16⟩
  | .local _ .vmem, ⟨97, _⟩ => ⟨S1x1x1024, .f32⟩
  | .local _ .vmem, ⟨98, _⟩ => ⟨S1x1x1024, .f32⟩
  | .local _ .vmem, ⟨99, _⟩ => ⟨S1x1x1024, .f32⟩
  | .local _ .vmem, ⟨100, _⟩ => ⟨S8x128x1024, .f32⟩
  | .local _ .vmem, ⟨101, _⟩ => ⟨S8x128x1024, .f32⟩
  | .local _ .vmem, ⟨102, _⟩ => ⟨S128x1024, .f32⟩
  | .local _ .vmem, ⟨103, _⟩ => ⟨S128x1024, .f32⟩
  | .local _ .vmem, ⟨104, _⟩ => ⟨S1024x3072, .bf16⟩
  | .local _ .vmem, ⟨105, _⟩ => ⟨S8x64x1024, .f32⟩
  | .local _ .vmem, ⟨106, _⟩ => ⟨S8x64x1024, .f32⟩
  | .local _ .vmem, ⟨107, _⟩ => ⟨S1x64x1024, .f32⟩
  | .local _ .vmem, ⟨108, _⟩ => ⟨S1x64x1024, .f32⟩
  | .local _ .vmem, ⟨109, _⟩ => ⟨S1x1024x3072, .bf16⟩
  | .local _ .vmem, ⟨110, _⟩ => ⟨S1x1024x2048, .bf16⟩
  | .local _ .vmem, ⟨111, _⟩ => ⟨S1x1024x1024, .bf16⟩
  | .local _ .vmem, ⟨112, _⟩ => ⟨S1x1x1024, .f32⟩
  | .local _ .vmem, ⟨113, _⟩ => ⟨S1x1x1024, .f32⟩
  | .local _ .vmem, ⟨114, _⟩ => ⟨S1x1x1024, .f32⟩
  | .local _ .vmem, ⟨115, _⟩ => ⟨S1024x1024, .bf16⟩
  | .local _ .vmem, ⟨116, _⟩ => ⟨S1x1024, .f32⟩
  | .local _ .vmem, ⟨117, _⟩ => ⟨S8x64x1024, .f32⟩
  | .local _ .vmem, ⟨118, _⟩ => ⟨S8x64x1024, .f32⟩
  | .local _ .vmem, ⟨119, _⟩ => ⟨S64x1024, .f32⟩
  | .local _ .vmem, ⟨120, _⟩ => ⟨S64x1024, .f32⟩
  | .local _ .vmem, ⟨121, _⟩ => ⟨S8x64x1024, .f32⟩
  | .local _ .vmem, ⟨122, _⟩ => ⟨S8x64x1024, .f32⟩
  | .local _ .vmem, ⟨123, _⟩ => ⟨S512x3072, .bf16⟩
  | _, _ => ⟨S512x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v16_0 : Ref sig .tc := ⟨.hbm, 30, rfl⟩
abbrev main_v16_1 : Ref sig .tc := ⟨.hbm, 31, rfl⟩
abbrev main_v17_0 : Ref sig .tc := ⟨.hbm, 32, rfl⟩
abbrev main_v17_1 : Ref sig .tc := ⟨.hbm, 33, rfl⟩
abbrev main_v18_0 : Ref sig .tc := ⟨.hbm, 34, rfl⟩
abbrev main_v18_1 : Ref sig .tc := ⟨.hbm, 35, rfl⟩
abbrev main_v19_0 : Ref sig .tc := ⟨.hbm, 36, rfl⟩
abbrev main_v19_1 : Ref sig .tc := ⟨.hbm, 37, rfl⟩
abbrev main_v20_0 : Ref sig .tc := ⟨.hbm, 38, rfl⟩
abbrev main_v20_1 : Ref sig .tc := ⟨.hbm, 39, rfl⟩
abbrev main_v21_0 : Ref sig .tc := ⟨.hbm, 40, rfl⟩
abbrev main_v21_1 : Ref sig .tc := ⟨.hbm, 41, rfl⟩
abbrev main_v22_0 : Ref sig .tc := ⟨.hbm, 42, rfl⟩
abbrev main_v22_1 : Ref sig .tc := ⟨.hbm, 43, rfl⟩
abbrev main_v22_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_scratch0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg8_1 : Ref sig .tc := ⟨.vmem, 41, rfl⟩
abbrev cc2_stg9_0 : Ref sig .tc := ⟨.vmem, 42, rfl⟩
abbrev cc2_stg9_1 : Ref sig .tc := ⟨.vmem, 43, rfl⟩
abbrev cc2_scratch0 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg3_0 : Ref sig .tc := ⟨.vmem, 50, rfl⟩
abbrev cc3_stg4_0 : Ref sig .tc := ⟨.vmem, 51, rfl⟩
abbrev cc3_stg5_0 : Ref sig .tc := ⟨.vmem, 52, rfl⟩
abbrev cc3_stg6_0 : Ref sig .tc := ⟨.vmem, 53, rfl⟩
abbrev cc3_stg7_0 : Ref sig .tc := ⟨.vmem, 54, rfl⟩
abbrev cc3_stg8_0 : Ref sig .tc := ⟨.vmem, 55, rfl⟩
abbrev cc3_stg8_1 : Ref sig .tc := ⟨.vmem, 56, rfl⟩
abbrev cc3_stg9_0 : Ref sig .tc := ⟨.vmem, 57, rfl⟩
abbrev cc3_stg9_1 : Ref sig .tc := ⟨.vmem, 58, rfl⟩
abbrev cc3_scratch0 : Ref sig .tc := ⟨.vmem, 59, rfl⟩
abbrev cc4_stg0_0 : Ref sig .tc := ⟨.vmem, 60, rfl⟩
abbrev cc4_stg0_1 : Ref sig .tc := ⟨.vmem, 61, rfl⟩
abbrev cc4_stg1_0 : Ref sig .tc := ⟨.vmem, 62, rfl⟩
abbrev cc4_stg1_1 : Ref sig .tc := ⟨.vmem, 63, rfl⟩
abbrev cc4_stg2_0 : Ref sig .tc := ⟨.vmem, 64, rfl⟩
abbrev cc4_stg3_0 : Ref sig .tc := ⟨.vmem, 65, rfl⟩
abbrev cc4_stg4_0 : Ref sig .tc := ⟨.vmem, 66, rfl⟩
abbrev cc4_stg5_0 : Ref sig .tc := ⟨.vmem, 67, rfl⟩
abbrev cc4_stg6_0 : Ref sig .tc := ⟨.vmem, 68, rfl⟩
abbrev cc4_stg7_0 : Ref sig .tc := ⟨.vmem, 69, rfl⟩
abbrev cc4_stg8_0 : Ref sig .tc := ⟨.vmem, 70, rfl⟩
abbrev cc4_stg8_1 : Ref sig .tc := ⟨.vmem, 71, rfl⟩
abbrev cc4_stg9_0 : Ref sig .tc := ⟨.vmem, 72, rfl⟩
abbrev cc4_stg9_1 : Ref sig .tc := ⟨.vmem, 73, rfl⟩
abbrev cc4_scratch0 : Ref sig .tc := ⟨.vmem, 74, rfl⟩
abbrev cc5_stg0_0 : Ref sig .tc := ⟨.vmem, 75, rfl⟩
abbrev cc5_stg0_1 : Ref sig .tc := ⟨.vmem, 76, rfl⟩
abbrev cc5_stg1_0 : Ref sig .tc := ⟨.vmem, 77, rfl⟩
abbrev cc5_stg1_1 : Ref sig .tc := ⟨.vmem, 78, rfl⟩
abbrev cc5_stg2_0 : Ref sig .tc := ⟨.vmem, 79, rfl⟩
abbrev cc5_stg3_0 : Ref sig .tc := ⟨.vmem, 80, rfl⟩
abbrev cc5_stg4_0 : Ref sig .tc := ⟨.vmem, 81, rfl⟩
abbrev cc5_stg5_0 : Ref sig .tc := ⟨.vmem, 82, rfl⟩
abbrev cc5_stg6_0 : Ref sig .tc := ⟨.vmem, 83, rfl⟩
abbrev cc5_stg7_0 : Ref sig .tc := ⟨.vmem, 84, rfl⟩
abbrev cc5_stg8_0 : Ref sig .tc := ⟨.vmem, 85, rfl⟩
abbrev cc5_stg8_1 : Ref sig .tc := ⟨.vmem, 86, rfl⟩
abbrev cc5_stg9_0 : Ref sig .tc := ⟨.vmem, 87, rfl⟩
abbrev cc5_stg9_1 : Ref sig .tc := ⟨.vmem, 88, rfl⟩
abbrev cc5_scratch0 : Ref sig .tc := ⟨.vmem, 89, rfl⟩
abbrev cc6_stg0_0 : Ref sig .tc := ⟨.vmem, 90, rfl⟩
abbrev cc6_stg0_1 : Ref sig .tc := ⟨.vmem, 91, rfl⟩
abbrev cc6_stg1_0 : Ref sig .tc := ⟨.vmem, 92, rfl⟩
abbrev cc6_stg1_1 : Ref sig .tc := ⟨.vmem, 93, rfl⟩
abbrev cc6_stg2_0 : Ref sig .tc := ⟨.vmem, 94, rfl⟩
abbrev cc6_stg3_0 : Ref sig .tc := ⟨.vmem, 95, rfl⟩
abbrev cc6_stg4_0 : Ref sig .tc := ⟨.vmem, 96, rfl⟩
abbrev cc6_stg5_0 : Ref sig .tc := ⟨.vmem, 97, rfl⟩
abbrev cc6_stg6_0 : Ref sig .tc := ⟨.vmem, 98, rfl⟩
abbrev cc6_stg7_0 : Ref sig .tc := ⟨.vmem, 99, rfl⟩
abbrev cc6_stg8_0 : Ref sig .tc := ⟨.vmem, 100, rfl⟩
abbrev cc6_stg8_1 : Ref sig .tc := ⟨.vmem, 101, rfl⟩
abbrev cc6_stg9_0 : Ref sig .tc := ⟨.vmem, 102, rfl⟩
abbrev cc6_stg9_1 : Ref sig .tc := ⟨.vmem, 103, rfl⟩
abbrev cc6_scratch0 : Ref sig .tc := ⟨.vmem, 104, rfl⟩
abbrev cc7_stg0_0 : Ref sig .tc := ⟨.vmem, 105, rfl⟩
abbrev cc7_stg0_1 : Ref sig .tc := ⟨.vmem, 106, rfl⟩
abbrev cc7_stg1_0 : Ref sig .tc := ⟨.vmem, 107, rfl⟩
abbrev cc7_stg1_1 : Ref sig .tc := ⟨.vmem, 108, rfl⟩
abbrev cc7_stg2_0 : Ref sig .tc := ⟨.vmem, 109, rfl⟩
abbrev cc7_stg3_0 : Ref sig .tc := ⟨.vmem, 110, rfl⟩
abbrev cc7_stg4_0 : Ref sig .tc := ⟨.vmem, 111, rfl⟩
abbrev cc7_stg5_0 : Ref sig .tc := ⟨.vmem, 112, rfl⟩
abbrev cc7_stg6_0 : Ref sig .tc := ⟨.vmem, 113, rfl⟩
abbrev cc7_stg7_0 : Ref sig .tc := ⟨.vmem, 114, rfl⟩
abbrev cc7_stg8_0 : Ref sig .tc := ⟨.vmem, 115, rfl⟩
abbrev cc7_stg9_0 : Ref sig .tc := ⟨.vmem, 116, rfl⟩
abbrev cc7_stg10_0 : Ref sig .tc := ⟨.vmem, 117, rfl⟩
abbrev cc7_stg10_1 : Ref sig .tc := ⟨.vmem, 118, rfl⟩
abbrev cc7_stg11_0 : Ref sig .tc := ⟨.vmem, 119, rfl⟩
abbrev cc7_stg11_1 : Ref sig .tc := ⟨.vmem, 120, rfl⟩
abbrev cc7_stg12_0 : Ref sig .tc := ⟨.vmem, 121, rfl⟩
abbrev cc7_stg12_1 : Ref sig .tc := ⟨.vmem, 122, rfl⟩
abbrev cc7_scratch0 : Ref sig .tc := ⟨.vmem, 123, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem8_1 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem8_1 : DmaSem sig := 53
abbrev cc3_sem9_0 : DmaSem sig := 54
abbrev cc3_sem9_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem3_0 : DmaSem sig := 61
abbrev cc4_sem4_0 : DmaSem sig := 62
abbrev cc4_sem5_0 : DmaSem sig := 63
abbrev cc4_sem6_0 : DmaSem sig := 64
abbrev cc4_sem7_0 : DmaSem sig := 65
abbrev cc4_sem8_0 : DmaSem sig := 66
abbrev cc4_sem8_1 : DmaSem sig := 67
abbrev cc4_sem9_0 : DmaSem sig := 68
abbrev cc4_sem9_1 : DmaSem sig := 69
abbrev cc5_sem0_0 : DmaSem sig := 70
abbrev cc5_sem0_1 : DmaSem sig := 71
abbrev cc5_sem1_0 : DmaSem sig := 72
abbrev cc5_sem1_1 : DmaSem sig := 73
abbrev cc5_sem2_0 : DmaSem sig := 74
abbrev cc5_sem3_0 : DmaSem sig := 75
abbrev cc5_sem4_0 : DmaSem sig := 76
abbrev cc5_sem5_0 : DmaSem sig := 77
abbrev cc5_sem6_0 : DmaSem sig := 78
abbrev cc5_sem7_0 : DmaSem sig := 79
abbrev cc5_sem8_0 : DmaSem sig := 80
abbrev cc5_sem8_1 : DmaSem sig := 81
abbrev cc5_sem9_0 : DmaSem sig := 82
abbrev cc5_sem9_1 : DmaSem sig := 83
abbrev cc6_sem0_0 : DmaSem sig := 84
abbrev cc6_sem0_1 : DmaSem sig := 85
abbrev cc6_sem1_0 : DmaSem sig := 86
abbrev cc6_sem1_1 : DmaSem sig := 87
abbrev cc6_sem2_0 : DmaSem sig := 88
abbrev cc6_sem3_0 : DmaSem sig := 89
abbrev cc6_sem4_0 : DmaSem sig := 90
abbrev cc6_sem5_0 : DmaSem sig := 91
abbrev cc6_sem6_0 : DmaSem sig := 92
abbrev cc6_sem7_0 : DmaSem sig := 93
abbrev cc6_sem8_0 : DmaSem sig := 94
abbrev cc6_sem8_1 : DmaSem sig := 95
abbrev cc6_sem9_0 : DmaSem sig := 96
abbrev cc6_sem9_1 : DmaSem sig := 97
abbrev cc7_sem0_0 : DmaSem sig := 98
abbrev cc7_sem0_1 : DmaSem sig := 99
abbrev cc7_sem1_0 : DmaSem sig := 100
abbrev cc7_sem1_1 : DmaSem sig := 101
abbrev cc7_sem2_0 : DmaSem sig := 102
abbrev cc7_sem3_0 : DmaSem sig := 103
abbrev cc7_sem4_0 : DmaSem sig := 104
abbrev cc7_sem5_0 : DmaSem sig := 105
abbrev cc7_sem6_0 : DmaSem sig := 106
abbrev cc7_sem7_0 : DmaSem sig := 107
abbrev cc7_sem8_0 : DmaSem sig := 108
abbrev cc7_sem9_0 : DmaSem sig := 109
abbrev cc7_sem10_0 : DmaSem sig := 110
abbrev cc7_sem10_1 : DmaSem sig := 111
abbrev cc7_sem11_0 : DmaSem sig := 112
abbrev cc7_sem11_1 : DmaSem sig := 113
abbrev cc7_sem12_0 : DmaSem sig := 114
abbrev cc7_sem12_1 : DmaSem sig := 115

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_6 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_7 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024x3072 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S8x128x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc2_transform_2 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_3 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_4 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_5 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_6 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_7 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024x3072 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S8x128x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S128x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc3_transform_2 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc3_transform_3 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc3_transform_4 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc3_transform_5 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc3_transform_6 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc3_transform_7 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1024x3072 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024x2048 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S8x128x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S128x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc4_transform_2 (i : grid4.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc4_transform_3 (i : grid4.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc4_transform_4 (i : grid4.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc4_transform_5 (i : grid4.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc4_transform_6 (i : grid4.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc4_transform_7 (i : grid4.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8x128x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x128x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1024x3072 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1024x2048 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1024x1024 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S8x128x1024 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S128x1024 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![4], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc5_transform_2 (i : grid5.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc5_transform_3 (i : grid5.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc5_transform_4 (i : grid5.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc5_transform_5 (i : grid5.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc5_transform_6 (i : grid5.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc5_transform_7 (i : grid5.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8x128x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x128x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1024x3072 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1024x2048 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1024x1024 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x1x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S8x128x1024 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S128x1024 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![4], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc6_transform_2 (i : grid6.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc6_transform_3 (i : grid6.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc6_transform_4 (i : grid6.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc6_transform_5 (i : grid6.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc6_transform_6 (i : grid6.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc6_transform_7 (i : grid6.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc6_transform_8 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8x128x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x128x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1024x3072 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1024x2048 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1024x1024 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x1x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S8x128x1024 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S128x1024 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![8], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc7_transform_2 (i : grid7.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc7_transform_3 (i : grid7.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc7_transform_4 (i : grid7.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc7_transform_5 (i : grid7.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc7_transform_6 (i : grid7.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc7_transform_7 (i : grid7.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_12 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage7_0 : Fin 2 → Memref sig .tc .vmem S8x64x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x64x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x1024x3072 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1024x2048 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1024x1024 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x1x1024 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x1x1024 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1024x1024 .bf16 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x1024 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 2 → Memref sig .tc .vmem S8x64x1024 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev stage7_11 : Fin 2 → Memref sig .tc .vmem S64x1024 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true]

abbrev stage7_12 : Fin 2 → Memref sig .tc .vmem S8x64x1024 .f32 := fun | 0 => Memref.whole cc7_stg12_0 | 1 => Memref.whole cc7_stg12_1 | ⟨_ + 2, h⟩ => absurd h (Nat.not_lt.2 (Nat.le_add_left _ _))
abbrev sem7_12 : Fin 2 → DmaSem sig := fun | 0 => cc7_sem12_0 | 1 => cc7_sem12_1 | ⟨_ + 2, h⟩ => absurd h (Nat.not_lt.2 (Nat.le_add_left _ _))
abbrev reads7_12 : Fin grid7.rank → Bool := ![true]

class Facts₀ : Prop where
  slices_S512x128x1024_S512x8x1024_0_0_0 : S512x128x1024.Slices ![0, 0, 0] S512x8x1024
  transposes_S512x8x1024_S8x512x1024_1_0_2 : S512x8x1024.Transposes [1, 0, 2] S8x512x1024
  bitsLt_bf16_f32 : FTy.bits .bf16 < FTy.bits .f32
  concatenates_S8x1024x1024_S8x1024x1024_S8x1024x1024_S8x1024x3072_d2 : Shape.Concatenates [S8x1024x1024, S8x1024x1024, S8x1024x1024] S8x1024x3072 2
  concatenates_S8x1024x1024_S8x1024x1024_S8x1024x2048_d2 : Shape.Concatenates [S8x1024x1024, S8x1024x1024] S8x1024x2048 2
  bcast_S8x1024_S8x1x1024_0_2 : S8x1024.BroadcastsInDim S8x1x1024 (![0, 2] : Fin 2 → Fin S8x1x1024.rank)
  shapeCasts_S1024_S1x1024 : S1024.ShapeCasts S1x1024
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  shapeCasts_S8x128x1024_S1024x1024 : S8x128x1024.ShapeCasts S1024x1024
  inb_S1x1024x3072_S1x1024x3072_0_0_0 : ∀ a, (![0, 0, 0] : Fin 3 → Nat) a + S1x1024x3072.size a ≤ S1x1024x3072.size a
  h_S1x1024x3072 : 0 < S1x1024x3072.numel
  shapeCasts_S1x1024x3072_S1024x3072 : S1x1024x3072.ShapeCasts S1024x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  packedbf16_S1024x3072_S1024x3072_0_0 : (Rect.unit (s := S1024x3072) ![0, 0] S1024x3072.size inb_S1024x3072_S1024x3072_0_0).PackedRows (EltTy.packing .bf16)
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024x3072_S128x3072_0_0 : ∀ a, (![0, 0] : Fin 2 → Nat) a + S128x3072.size a ≤ S1024x3072.size a
  h_S128x3072 : 0 < S128x3072.numel
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  slices_S128x2048_o0_0_S128x1024 : S128x2048.Slices ![0, 0] S128x1024
  slices_S128x2048_o0_1024_S128x1024 : S128x2048.Slices ![0, 1024] S128x1024
  broadcasts_S1x1024_S128x1024 : S1x1024.Broadcasts S128x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S8x128x1024_S1x128x1024_0_0_0 : ∀ a, (![0, 0, 0] : Fin 3 → Nat) a + S1x128x1024.size a ≤ S8x128x1024.size a
  shapeCasts_S128x1024_S1x128x1024 : S128x1024.ShapeCasts S1x128x1024
  inb_S1024x3072_S128x3072_128_0 : ∀ a, (![128, 0] : Fin 2 → Nat) a + S128x3072.size a ≤ S1024x3072.size a
  inb_S8x128x1024_S1x128x1024_1_0_0 : ∀ a, (![1, 0, 0] : Fin 3 → Nat) a + S1x128x1024.size a ≤ S8x128x1024.size a
  inb_S1024x3072_S128x3072_256_0 : ∀ a, (![256, 0] : Fin 2 → Nat) a + S128x3072.size a ≤ S1024x3072.size a
  inb_S8x128x1024_S1x128x1024_2_0_0 : ∀ a, (![2, 0, 0] : Fin 3 → Nat) a + S1x128x1024.size a ≤ S8x128x1024.size a
  inb_S1024x3072_S128x3072_384_0 : ∀ a, (![384, 0] : Fin 2 → Nat) a + S128x3072.size a ≤ S1024x3072.size a
  inb_S8x128x1024_S1x128x1024_3_0_0 : ∀ a, (![3, 0, 0] : Fin 3 → Nat) a + S1x128x1024.size a ≤ S8x128x1024.size a
  inb_S1024x3072_S128x3072_512_0 : ∀ a, (![512, 0] : Fin 2 → Nat) a + S128x3072.size a ≤ S1024x3072.size a
  inb_S8x128x1024_S1x128x1024_4_0_0 : ∀ a, (![4, 0, 0] : Fin 3 → Nat) a + S1x128x1024.size a ≤ S8x128x1024.size a
  inb_S1024x3072_S128x3072_640_0 : ∀ a, (![640, 0] : Fin 2 → Nat) a + S128x3072.size a ≤ S1024x3072.size a
  inb_S8x128x1024_S1x128x1024_5_0_0 : ∀ a, (![5, 0, 0] : Fin 3 → Nat) a + S1x128x1024.size a ≤ S8x128x1024.size a
  inb_S1024x3072_S128x3072_768_0 : ∀ a, (![768, 0] : Fin 2 → Nat) a + S128x3072.size a ≤ S1024x3072.size a
  inb_S8x128x1024_S1x128x1024_6_0_0 : ∀ a, (![6, 0, 0] : Fin 3 → Nat) a + S1x128x1024.size a ≤ S8x128x1024.size a
  inb_S1024x3072_S128x3072_896_0 : ∀ a, (![896, 0] : Fin 2 → Nat) a + S128x3072.size a ≤ S1024x3072.size a
  inb_S8x128x1024_S1x128x1024_7_0_0 : ∀ a, (![7, 0, 0] : Fin 3 → Nat) a + S1x128x1024.size a ≤ S8x128x1024.size a
  inb_S128x1024_S128x1024_0_0 : ∀ a, (![0, 0] : Fin 2 → Nat) a + S128x1024.size a ≤ S128x1024.size a
  h_S128x1024 : 0 < S128x1024.numel
  inb_S8x64x1024_S8x64x1024_0_0_0 : ∀ a, (![0, 0, 0] : Fin 3 → Nat) a + S8x64x1024.size a ≤ S8x64x1024.size a
  h_S8x64x1024 : 0 < S8x64x1024.numel
  shapeCasts_S8x64x1024_S8x64x1024 : S8x64x1024.ShapeCasts S8x64x1024
  shapeCasts_S8x64x1024_S512x1024 : S8x64x1024.ShapeCasts S512x1024
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  packedbf16_S512x3072_S512x3072_0_0 : (Rect.unit (s := S512x3072) ![0, 0] S512x3072.size inb_S512x3072_S512x3072_0_0).PackedRows (EltTy.packing .bf16)
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S512x3072_S64x3072_0_0 : ∀ a, (![0, 0] : Fin 2 → Nat) a + S64x3072.size a ≤ S512x3072.size a
  h_S64x3072 : 0 < S64x3072.numel
  slices_S64x3072_o0_0_S64x1024 : S64x3072.Slices ![0, 0] S64x1024
  slices_S64x3072_o0_1024_S64x1024 : S64x3072.Slices ![0, 1024] S64x1024
  slices_S64x3072_o0_2048_S64x1024 : S64x3072.Slices ![0, 2048] S64x1024
  slices_S64x2048_o0_0_S64x1024 : S64x2048.Slices ![0, 0] S64x1024
  slices_S64x2048_o0_1024_S64x1024 : S64x2048.Slices ![0, 1024] S64x1024
  broadcasts_S1x1024_S64x1024 : S1x1024.Broadcasts S64x1024
  inb_S8x64x1024_S1x64x1024_0_0_0 : ∀ a, (![0, 0, 0] : Fin 3 → Nat) a + S1x64x1024.size a ≤ S8x64x1024.size a
  shapeCasts_S64x1024_S1x64x1024 : S64x1024.ShapeCasts S1x64x1024
  inb_S512x3072_S64x3072_64_0 : ∀ a, (![64, 0] : Fin 2 → Nat) a + S64x3072.size a ≤ S512x3072.size a
  inb_S8x64x1024_S1x64x1024_1_0_0 : ∀ a, (![1, 0, 0] : Fin 3 → Nat) a + S1x64x1024.size a ≤ S8x64x1024.size a
  inb_S512x3072_S64x3072_128_0 : ∀ a, (![128, 0] : Fin 2 → Nat) a + S64x3072.size a ≤ S512x3072.size a
  inb_S8x64x1024_S1x64x1024_2_0_0 : ∀ a, (![2, 0, 0] : Fin 3 → Nat) a + S1x64x1024.size a ≤ S8x64x1024.size a
  inb_S512x3072_S64x3072_192_0 : ∀ a, (![192, 0] : Fin 2 → Nat) a + S64x3072.size a ≤ S512x3072.size a
  inb_S8x64x1024_S1x64x1024_3_0_0 : ∀ a, (![3, 0, 0] : Fin 3 → Nat) a + S1x64x1024.size a ≤ S8x64x1024.size a
  inb_S512x3072_S64x3072_256_0 : ∀ a, (![256, 0] : Fin 2 → Nat) a + S64x3072.size a ≤ S512x3072.size a
  inb_S8x64x1024_S1x64x1024_4_0_0 : ∀ a, (![4, 0, 0] : Fin 3 → Nat) a + S1x64x1024.size a ≤ S8x64x1024.size a
  inb_S512x3072_S64x3072_320_0 : ∀ a, (![320, 0] : Fin 2 → Nat) a + S64x3072.size a ≤ S512x3072.size a
  inb_S8x64x1024_S1x64x1024_5_0_0 : ∀ a, (![5, 0, 0] : Fin 3 → Nat) a + S1x64x1024.size a ≤ S8x64x1024.size a
  inb_S512x3072_S64x3072_384_0 : ∀ a, (![384, 0] : Fin 2 → Nat) a + S64x3072.size a ≤ S512x3072.size a
  inb_S8x64x1024_S1x64x1024_6_0_0 : ∀ a, (![6, 0, 0] : Fin 3 → Nat) a + S1x64x1024.size a ≤ S8x64x1024.size a
  inb_S512x3072_S64x3072_448_0 : ∀ a, (![448, 0] : Fin 2 → Nat) a + S64x3072.size a ≤ S512x3072.size a
  inb_S8x64x1024_S1x64x1024_7_0_0 : ∀ a, (![7, 0, 0] : Fin 3 → Nat) a + S1x64x1024.size a ≤ S8x64x1024.size a
  inb_S64x1024_S64x1024_0_0 : ∀ a, (![0, 0] : Fin 2 → Nat) a + S64x1024.size a ≤ S64x1024.size a
  h_S64x1024 : 0 < S64x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S8x64x1024 : S512x1024.ShapeCasts S8x64x1024
  transposes_S8x512x1024_S512x8x1024_1_0_2 : S8x512x1024.Transposes [1, 0, 2] S512x8x1024
  bcast_S8x512x1024_S1x8x512x1024_1_2_3 : S8x512x1024.BroadcastsInDim S1x8x512x1024 (![1, 2, 3] : Fin 3 → Fin S1x8x512x1024.rank)
  concatenates_S1x8x512x1024_S1x8x512x1024_S1x8x512x1024_S1x8x512x1024_S1x8x512x1024_S1x8x512x1024_S1x8x512x1024_S1x8x512x1024_S8x8x512x1024_d0 : Shape.Concatenates [S1x8x512x1024, S1x8x512x1024, S1x8x512x1024, S1x8x512x1024, S1x8x512x1024, S1x8x512x1024, S1x8x512x1024, S1x8x512x1024] S8x8x512x1024 0
  bcast_S512x1024_S1x512x1024_1_2 : S512x1024.BroadcastsInDim S1x512x1024 (![1, 2] : Fin 2 → Fin S1x512x1024.rank)
  concatenates_S1x512x1024_S1x512x1024_S1x512x1024_S1x512x1024_S1x512x1024_S1x512x1024_S1x512x1024_S1x512x1024_S8x512x1024_d0 : Shape.Concatenates [S1x512x1024, S1x512x1024, S1x512x1024, S1x512x1024, S1x512x1024, S1x512x1024, S1x512x1024, S1x512x1024] S8x512x1024 0
  dot_S1024x1024_S1024x3072_S1024x3072_1_0_0_1_n_n_wf : DotDims.WF S1024x1024 S1024x3072 S1024x3072 [1] [0] [0] [1] [] []
  dot_S128x1024_S1024x2048_S128x2048_1_0_0_1_n_n_wf : DotDims.WF S128x1024 S1024x2048 S128x2048 [1] [0] [0] [1] [] []
  dot_S128x1024_S1024x1024_S128x1024_1_0_0_1_n_n_wf : DotDims.WF S128x1024 S1024x1024 S128x1024 [1] [0] [0] [1] [] []
  dot_S512x1024_S1024x3072_S512x3072_1_0_0_1_n_n_wf : DotDims.WF S512x1024 S1024x3072 S512x3072 [1] [0] [0] [1] [] []
  dot_S64x1024_S1024x2048_S64x2048_1_0_0_1_n_n_wf : DotDims.WF S64x1024 S1024x2048 S64x2048 [1] [0] [0] [1] [] []
  dot_S64x1024_S1024x1024_S64x1024_1_0_0_1_n_n_wf : DotDims.WF S64x1024 S1024x1024 S64x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S8x512x1024.size a
  hwx0_0 : ∀ i : grid0.Coords, EltTy.bits .f32 = 32 ∨ (Rect.block (s := S8x512x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S8x512x1024.size a
  hwx0_1 : ∀ i : grid0.Coords, EltTy.bits .f32 = 32 ∨ (Rect.block (s := S8x512x1024) S1x128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024x3072.size a ≤ S8x1024x3072.size a
  hwx0_2 : ∀ i : grid0.Coords, EltTy.bits .bf16 = 32 ∨ (Rect.block (s := S8x1024x3072) S1x1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x1024x2048.size a
  hwx0_3 : ∀ i : grid0.Coords, EltTy.bits .bf16 = 32 ∨ (Rect.block (s := S8x1024x2048) S1x1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x1024x1024.size a
  hwx0_4 : ∀ i : grid0.Coords, EltTy.bits .bf16 = 32 ∨ (Rect.block (s := S8x1024x1024) S1x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S8x1x1024.size a
  hwx0_5 : ∀ i : grid0.Coords, EltTy.bits .f32 = 32 ∨ (Rect.block (s := S8x1x1024) S1x1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S8x1x1024.size a
  hwx0_6 : ∀ i : grid0.Coords, EltTy.bits .f32 = 32 ∨ (Rect.block (s := S8x1x1024) S1x1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S8x1x1024.size a
  hwx0_7 : ∀ i : grid0.Coords, EltTy.bits .f32 = 32 ∨ (Rect.block (s := S8x1x1024) S1x1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128x1024.size a ≤ S8x512x1024.size a
  hwx0_8 : ∀ i : grid0.Coords, EltTy.bits .f32 = 32 ∨ (Rect.block (s := S8x512x1024) S8x128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S512x1024.size a
  hwx0_9 : ∀ i : grid0.Coords, EltTy.bits .f32 = 32 ∨ (Rect.block (s := S512x1024) S128x1024.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x1024.size a ≤ S8x512x1024.size a
  hwx1_0 : ∀ i : grid1.Coords, EltTy.bits .f32 = 32 ∨ (Rect.block (s := S8x512x1024) S8x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x1024.size a ≤ S8x512x1024.size a
  hwx1_1 : ∀ i : grid1.Coords, EltTy.bits .f32 = 32 ∨ (Rect.block (s := S8x512x1024) S1x128x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024x3072.size a ≤ S8x1024x3072.size a
  hwx1_2 : ∀ i : grid1.Coords, EltTy.bits .bf16 = 32 ∨ (Rect.block (s := S8x1024x3072) S1x1024x3072.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024x2048.size a ≤ S8x1024x2048.size a
  hwx1_3 : ∀ i : grid1.Coords, EltTy.bits .bf16 = 32 ∨ (Rect.block (s := S8x1024x2048) S1x1024x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S8x1024x1024.size a
  hwx1_4 : ∀ i : grid1.Coords, EltTy.bits .bf16 = 32 ∨ (Rect.block (s := S8x1024x1024) S1x1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1x1024.size a ≤ S8x1x1024.size a
  hwx1_5 : ∀ i : grid1.Coords, EltTy.bits .f32 = 32 ∨ (Rect.block (s := S8x1x1024) S1x1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1x1024.size a ≤ S8x1x1024.size a
  hwx1_6 : ∀ i : grid1.Coords, EltTy.bits .f32 = 32 ∨ (Rect.block (s := S8x1x1024) S1x1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1x1024.size a ≤ S8x1x1024.size a
  hwx1_7 : ∀ i : grid1.Coords, EltTy.bits .f32 = 32 ∨ (Rect.block (s := S8x1x1024) S1x1x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x128x1024.size a ≤ S8x512x1024.size a
  hwx1_8 : ∀ i : grid1.Coords, EltTy.bits .f32 = 32 ∨ (Rect.block (s := S8x512x1024) S8x128x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x1024.size a ≤ S512x1024.size a
  hwx1_9 : ∀ i : grid1.Coords, EltTy.bits .f32 = 32 ∨ (Rect.block (s := S512x1024) S128x1024.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x128x1024.size a ≤ S8x512x1024.size a
  hwx2_0 : ∀ i : grid2.Coords, EltTy.bits .f32 = 32 ∨ (Rect.block (s := S8x512x1024) S8x128x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x1024.size a ≤ S8x512x1024.size a
  hwx2_1 : ∀ i : grid2.Coords, EltTy.bits .f32 = 32 ∨ (Rect.block (s := S8x512x1024) S1x128x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024x3072.size a ≤ S8x1024x3072.size a
  hwx2_2 : ∀ i : grid2.Coords, EltTy.bits .bf16 = 32 ∨ (Rect.block (s := S8x1024x3072) S1x1024x3072.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024x2048.size a ≤ S8x1024x2048.size a
  hwx2_3 : ∀ i : grid2.Coords, EltTy.bits .bf16 = 32 ∨ (Rect.block (s := S8x1024x2048) S1x1024x2048.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024x1024.size a ≤ S8x1024x1024.size a
  hwx2_4 : ∀ i : grid2.Coords, EltTy.bits .bf16 = 32 ∨ (Rect.block (s := S8x1024x1024) S1x1024x1024.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1x1024.size a ≤ S8x1x1024.size a
  hwx2_5 : ∀ i : grid2.Coords, EltTy.bits .f32 = 32 ∨ (Rect.block (s := S8x1x1024) S1x1x1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1x1024.size a ≤ S8x1x1024.size a
  hwx2_6 : ∀ i : grid2.Coords, EltTy.bits .f32 = 32 ∨ (Rect.block (s := S8x1x1024) S1x1x1024.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1x1024.size a ≤ S8x1x1024.size a
  hwx2_7 : ∀ i : grid2.Coords, EltTy.bits .f32 = 32 ∨ (Rect.block (s := S8x1x1024) S1x1x1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x128x1024.size a ≤ S8x512x1024.size a
  hwx2_8 : ∀ i : grid2.Coords, EltTy.bits .f32 = 32 ∨ (Rect.block (s := S8x512x1024) S8x128x1024.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S128x1024.size a ≤ S512x1024.size a
  hwx2_9 : ∀ i : grid2.Coords, EltTy.bits .f32 = 32 ∨ (Rect.block (s := S512x1024) S128x1024.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x128x1024.size a ≤ S8x512x1024.size a
  hwx3_0 : ∀ i : grid3.Coords, EltTy.bits .f32 = 32 ∨ (Rect.block (s := S8x512x1024) S8x128x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x128x1024.size a ≤ S8x512x1024.size a
  hwx3_1 : ∀ i : grid3.Coords, EltTy.bits .f32 = 32 ∨ (Rect.block (s := S8x512x1024) S1x128x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024x3072.size a ≤ S8x1024x3072.size a
  hwx3_2 : ∀ i : grid3.Coords, EltTy.bits .bf16 = 32 ∨ (Rect.block (s := S8x1024x3072) S1x1024x3072.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024x2048.size a ≤ S8x1024x2048.size a
  hwx3_3 : ∀ i : grid3.Coords, EltTy.bits .bf16 = 32 ∨ (Rect.block (s := S8x1024x2048) S1x1024x2048.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024x1024.size a ≤ S8x1024x1024.size a
  hwx3_4 : ∀ i : grid3.Coords, EltTy.bits .bf16 = 32 ∨ (Rect.block (s := S8x1024x1024) S1x1024x1024.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1x1024.size a ≤ S8x1x1024.size a
  hwx3_5 : ∀ i : grid3.Coords, EltTy.bits .f32 = 32 ∨ (Rect.block (s := S8x1x1024) S1x1x1024.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1x1024.size a ≤ S8x1x1024.size a
  hwx3_6 : ∀ i : grid3.Coords, EltTy.bits .f32 = 32 ∨ (Rect.block (s := S8x1x1024) S1x1x1024.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1x1024.size a ≤ S8x1x1024.size a
  hwx3_7 : ∀ i : grid3.Coords, EltTy.bits .f32 = 32 ∨ (Rect.block (s := S8x1x1024) S1x1x1024.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S8x128x1024.size a ≤ S8x512x1024.size a
  hwx3_8 : ∀ i : grid3.Coords, EltTy.bits .f32 = 32 ∨ (Rect.block (s := S8x512x1024) S8x128x1024.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S128x1024.size a ≤ S512x1024.size a
  hwx3_9 : ∀ i : grid3.Coords, EltTy.bits .f32 = 32 ∨ (Rect.block (s := S512x1024) S128x1024.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x128x1024.size a ≤ S8x512x1024.size a
  hwx4_0 : ∀ i : grid4.Coords, EltTy.bits .f32 = 32 ∨ (Rect.block (s := S8x512x1024) S8x128x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x128x1024.size a ≤ S8x512x1024.size a
  hwx4_1 : ∀ i : grid4.Coords, EltTy.bits .f32 = 32 ∨ (Rect.block (s := S8x512x1024) S1x128x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024x3072.size a ≤ S8x1024x3072.size a
  hwx4_2 : ∀ i : grid4.Coords, EltTy.bits .bf16 = 32 ∨ (Rect.block (s := S8x1024x3072) S1x1024x3072.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1024x2048.size a ≤ S8x1024x2048.size a
  hwx4_3 : ∀ i : grid4.Coords, EltTy.bits .bf16 = 32 ∨ (Rect.block (s := S8x1024x2048) S1x1024x2048.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1024x1024.size a ≤ S8x1024x1024.size a
  hwx4_4 : ∀ i : grid4.Coords, EltTy.bits .bf16 = 32 ∨ (Rect.block (s := S8x1024x1024) S1x1024x1024.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1x1024.size a ≤ S8x1x1024.size a
  hwx4_5 : ∀ i : grid4.Coords, EltTy.bits .f32 = 32 ∨ (Rect.block (s := S8x1x1024) S1x1x1024.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1x1024.size a ≤ S8x1x1024.size a
  hwx4_6 : ∀ i : grid4.Coords, EltTy.bits .f32 = 32 ∨ (Rect.block (s := S8x1x1024) S1x1x1024.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1x1024.size a ≤ S8x1x1024.size a
  hwx4_7 : ∀ i : grid4.Coords, EltTy.bits .f32 = 32 ∨ (Rect.block (s := S8x1x1024) S1x1x1024.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S8x128x1024.size a ≤ S8x512x1024.size a
  hwx4_8 : ∀ i : grid4.Coords, EltTy.bits .f32 = 32 ∨ (Rect.block (s := S8x512x1024) S8x128x1024.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S128x1024.size a ≤ S512x1024.size a
  hwx4_9 : ∀ i : grid4.Coords, EltTy.bits .f32 = 32 ∨ (Rect.block (s := S512x1024) S128x1024.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8x128x1024.size a ≤ S8x512x1024.size a
  hwx5_0 : ∀ i : grid5.Coords, EltTy.bits .f32 = 32 ∨ (Rect.block (s := S8x512x1024) S8x128x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x128x1024.size a ≤ S8x512x1024.size a
  hwx5_1 : ∀ i : grid5.Coords, EltTy.bits .f32 = 32 ∨ (Rect.block (s := S8x512x1024) S1x128x1024.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024x3072.size a ≤ S8x1024x3072.size a
  hwx5_2 : ∀ i : grid5.Coords, EltTy.bits .bf16 = 32 ∨ (Rect.block (s := S8x1024x3072) S1x1024x3072.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1024x2048.size a ≤ S8x1024x2048.size a
  hwx5_3 : ∀ i : grid5.Coords, EltTy.bits .bf16 = 32 ∨ (Rect.block (s := S8x1024x2048) S1x1024x2048.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1024x1024.size a ≤ S8x1024x1024.size a
  hwx5_4 : ∀ i : grid5.Coords, EltTy.bits .bf16 = 32 ∨ (Rect.block (s := S8x1024x1024) S1x1024x1024.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1x1024.size a ≤ S8x1x1024.size a
  hwx5_5 : ∀ i : grid5.Coords, EltTy.bits .f32 = 32 ∨ (Rect.block (s := S8x1x1024) S1x1x1024.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1x1024.size a ≤ S8x1x1024.size a
  hwx5_6 : ∀ i : grid5.Coords, EltTy.bits .f32 = 32 ∨ (Rect.block (s := S8x1x1024) S1x1x1024.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x1x1024.size a ≤ S8x1x1024.size a
  hwx5_7 : ∀ i : grid5.Coords, EltTy.bits .f32 = 32 ∨ (Rect.block (s := S8x1x1024) S1x1x1024.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S8x128x1024.size a ≤ S8x512x1024.size a
  hwx5_8 : ∀ i : grid5.Coords, EltTy.bits .f32 = 32 ∨ (Rect.block (s := S8x512x1024) S8x128x1024.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S128x1024.size a ≤ S512x1024.size a
  hwx5_9 : ∀ i : grid5.Coords, EltTy.bits .f32 = 32 ∨ (Rect.block (s := S512x1024) S128x1024.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8x128x1024.size a ≤ S8x512x1024.size a
  hwx6_0 : ∀ i : grid6.Coords, EltTy.bits .f32 = 32 ∨ (Rect.block (s := S8x512x1024) S8x128x1024.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x128x1024.size a ≤ S8x512x1024.size a
  hwx6_1 : ∀ i : grid6.Coords, EltTy.bits .f32 = 32 ∨ (Rect.block (s := S8x512x1024) S1x128x1024.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1024x3072.size a ≤ S8x1024x3072.size a
  hwx6_2 : ∀ i : grid6.Coords, EltTy.bits .bf16 = 32 ∨ (Rect.block (s := S8x1024x3072) S1x1024x3072.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1024x2048.size a ≤ S8x1024x2048.size a
  hwx6_3 : ∀ i : grid6.Coords, EltTy.bits .bf16 = 32 ∨ (Rect.block (s := S8x1024x2048) S1x1024x2048.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1024x1024.size a ≤ S8x1024x1024.size a
  hwx6_4 : ∀ i : grid6.Coords, EltTy.bits .bf16 = 32 ∨ (Rect.block (s := S8x1024x1024) S1x1024x1024.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x1x1024.size a ≤ S8x1x1024.size a
  hwx6_5 : ∀ i : grid6.Coords, EltTy.bits .f32 = 32 ∨ (Rect.block (s := S8x1x1024) S1x1x1024.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1x1024.size a ≤ S8x1x1024.size a
  hwx6_6 : ∀ i : grid6.Coords, EltTy.bits .f32 = 32 ∨ (Rect.block (s := S8x1x1024) S1x1x1024.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x1x1024.size a ≤ S8x1x1024.size a
  hwx6_7 : ∀ i : grid6.Coords, EltTy.bits .f32 = 32 ∨ (Rect.block (s := S8x1x1024) S1x1x1024.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S8x128x1024.size a ≤ S8x512x1024.size a
  hwx6_8 : ∀ i : grid6.Coords, EltTy.bits .f32 = 32 ∨ (Rect.block (s := S8x512x1024) S8x128x1024.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S128x1024.size a ≤ S512x1024.size a
  hwx6_9 : ∀ i : grid6.Coords, EltTy.bits .f32 = 32 ∨ (Rect.block (s := S512x1024) S128x1024.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8x64x1024.size a ≤ S8x512x1024.size a
  hwx7_0 : ∀ i : grid7.Coords, EltTy.bits .f32 = 32 ∨ (Rect.block (s := S8x512x1024) S8x64x1024.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x64x1024.size a ≤ S8x512x1024.size a
  hwx7_1 : ∀ i : grid7.Coords, EltTy.bits .f32 = 32 ∨ (Rect.block (s := S8x512x1024) S1x64x1024.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1024x3072.size a ≤ S8x1024x3072.size a
  hwx7_2 : ∀ i : grid7.Coords, EltTy.bits .bf16 = 32 ∨ (Rect.block (s := S8x1024x3072) S1x1024x3072.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1024x2048.size a ≤ S8x1024x2048.size a
  hwx7_3 : ∀ i : grid7.Coords, EltTy.bits .bf16 = 32 ∨ (Rect.block (s := S8x1024x2048) S1x1024x2048.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1024x1024.size a ≤ S8x1024x1024.size a
  hwx7_4 : ∀ i : grid7.Coords, EltTy.bits .bf16 = 32 ∨ (Rect.block (s := S8x1024x1024) S1x1024x1024.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x1x1024.size a ≤ S8x1x1024.size a
  hwx7_5 : ∀ i : grid7.Coords, EltTy.bits .f32 = 32 ∨ (Rect.block (s := S8x1x1024) S1x1x1024.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x1x1024.size a ≤ S8x1x1024.size a
  hwx7_6 : ∀ i : grid7.Coords, EltTy.bits .f32 = 32 ∨ (Rect.block (s := S8x1x1024) S1x1x1024.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x1x1024.size a ≤ S8x1x1024.size a
  hwx7_7 : ∀ i : grid7.Coords, EltTy.bits .f32 = 32 ∨ (Rect.block (s := S8x1x1024) S1x1x1024.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1024x1024.size a ≤ S1024x1024.size a
  hwx7_8 : ∀ i : grid7.Coords, EltTy.bits .bf16 = 32 ∨ (Rect.block (s := S1024x1024) S1024x1024.size (cc7_transform_8 i) (hinb7_8 i)).WholeWords (EltTy.packing .bf16)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x1024.size a ≤ S1x1024.size a
  hwx7_9 : ∀ i : grid7.Coords, EltTy.bits .f32 = 32 ∨ (Rect.block (s := S1x1024) S1x1024.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S8x64x1024.size a ≤ S8x512x1024.size a
  hwx7_10 : ∀ i : grid7.Coords, EltTy.bits .f32 = 32 ∨ (Rect.block (s := S8x512x1024) S8x64x1024.size (cc7_transform_10 i) (hinb7_10 i)).WholeWords (EltTy.packing .f32)
  hstage7_11 : ∀ j, (stage7_11 j).IsWhole
  nbuf7_11 : grid7.bufCount reads7_11 false = 2
  hreads7_11 : ∀ i i' : grid7.Coords, (∀ a, reads7_11 a = true → i a = i' a) → cc7_transform_11 i = cc7_transform_11 i'
  hinb7_11 : ∀ (i : grid7.Coords) a, (cc7_transform_11 i a + 1) * S64x1024.size a ≤ S512x1024.size a
  hwx7_11 : ∀ i : grid7.Coords, EltTy.bits .f32 = 32 ∨ (Rect.block (s := S512x1024) S64x1024.size (cc7_transform_11 i) (hinb7_11 i)).WholeWords (EltTy.packing .f32)
  hstage7_12 : ∀ j, (stage7_12 j).IsWhole
  nbuf7_12 : grid7.bufCount reads7_12 false = 2
  hreads7_12 : ∀ i i' : grid7.Coords, (∀ a, reads7_12 a = true → i a = i' a) → cc7_transform_12 i = cc7_transform_12 i'
  hinb7_12 : ∀ (i : grid7.Coords) a, (cc7_transform_12 i a + 1) * S8x64x1024.size a ≤ S8x512x1024.size a
  hwx7_12 : ∀ i : grid7.Coords, EltTy.bits .f32 = 32 ∨ (Rect.block (s := S8x512x1024) S8x64x1024.size (cc7_transform_12 i) (hinb7_12 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15_0) S8x128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v15_1) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v15_0) S8x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x3072.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1x1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16_0) S8x128x1024.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v16_1) S128x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v16_0) S8x128x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1x128x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x1024x3072.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x1024x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x1024x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1x1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S1x1x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v13) S1x1x1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v17_0) S8x128x1024.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v17_1) S128x1024.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v17_0) S8x128x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S1x128x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x1024x3072.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S1x1024x2048.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v9) S1x1024x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11) S1x1x1024.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v12) S1x1x1024.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v13) S1x1x1024.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v18_0) S8x128x1024.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v18_1) S128x1024.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v18_0) S8x128x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S1x128x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v5) S1x1024x3072.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v8) S1x1024x2048.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v9) S1x1024x1024.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v11) S1x1x1024.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v12) S1x1x1024.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v13) S1x1x1024.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v19_0) S8x128x1024.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v19_1) S128x1024.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v19_0) S8x128x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg1) S1x128x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S1x1024x3072.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v8) S1x1024x2048.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v9) S1x1024x1024.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v11) S1x1x1024.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v12) S1x1x1024.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v13) S1x1x1024.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v20_0) S8x128x1024.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v20_1) S128x1024.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v20_0) S8x128x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S1x128x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v5) S1x1024x3072.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v8) S1x1024x2048.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v9) S1x1024x1024.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v11) S1x1x1024.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v12) S1x1x1024.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v13) S1x1x1024.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v21_0) S8x128x1024.size cc6_transform_8 reads6_8 true false 2 stage6_8 sem6_8
    hrank6 hreads6_8 hinb6_8 nbuf6_8 (Memref.isWhole_whole _) hwx6_8 hstage6_8

abbrev win6_9 : Pipeline.Window sig grid6 :=
  Pipeline.Window.ofSpec (Memref.whole main_v21_1) S128x1024.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v21_0) S8x64x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg1) S1x64x1024.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v5) S1x1024x3072.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v8) S1x1024x2048.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v9) S1x1024x1024.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v11) S1x1x1024.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v12) S1x1x1024.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v13) S1x1x1024.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v10) S1024x1024.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v14) S1x1024.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v22_0) S8x64x1024.size cc7_transform_10 reads7_10 true false 2 stage7_10 sem7_10
    hrank7 hreads7_10 hinb7_10 nbuf7_10 (Memref.isWhole_whole _) hwx7_10 hstage7_10

abbrev win7_11 : Pipeline.Window sig grid7 :=
  Pipeline.Window.ofSpec (Memref.whole main_v22_1) S64x1024.size cc7_transform_11 reads7_11 true false 2 stage7_11 sem7_11
    hrank7 hreads7_11 hinb7_11 nbuf7_11 (Memref.isWhole_whole _) hwx7_11 hstage7_11

abbrev win7_12 : Pipeline.Window sig grid7 :=
  Pipeline.Window.ofSpec (Memref.whole main_v22_2) S8x64x1024.size cc7_transform_12 reads7_12 true false 2 stage7_12 sem7_12
    hrank7 hreads7_12 hinb7_12 nbuf7_12 (Memref.isWhole_whole _) hwx7_12 hstage7_12

abbrev win7 : Fin 13 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | ⟨_ + 13, h⟩ => absurd h (Nat.not_lt.2 (Nat.le_add_left _ _))
abbrev spec7 : Fin 13 → Pipeline.WinSpec sig grid7.rank := fun w => (win7 w).toWinSpec

class Facts : Prop extends Facts₀ where

variable [Facts]
-- ==== ReferenceIdeal.lean ====
abbrev S512x128x1024 : Shape := ⟨3, ![512, 128, 1024]⟩
abbrev S8x512x1024 : Shape := ⟨3, ![8, 512, 1024]⟩
abbrev S8x1024x1024 : Shape := ⟨3, ![8, 1024, 1024]⟩
abbrev S8x1024 : Shape := ⟨2, ![8, 1024]⟩
abbrev S1024x1024 : Shape := ⟨2, ![1024, 1024]⟩
abbrev S1024 : Shape := ⟨1, ![1024]⟩
abbrev S1x512x1024 : Shape := ⟨3, ![1, 512, 1024]⟩
abbrev S512x1024 : Shape := ⟨2, ![512, 1024]⟩
abbrev S512x1x1024 : Shape := ⟨3, ![512, 1, 1024]⟩
abbrev S1x1024x1024 : Shape := ⟨3, ![1, 1024, 1024]⟩
abbrev S1x1024 : Shape := ⟨2, ![1, 1024]⟩
abbrev S_ : Shape := ⟨0, ![]⟩
abbrev S512x8x1024 : Shape := ⟨3, ![512, 8, 1024]⟩
abbrev S8x1x512x1024 : Shape := ⟨4, ![8, 1, 512, 1024]⟩
abbrev S8x8x512x1024 : Shape := ⟨4, ![8, 8, 512, 1024]⟩

abbrev nBuf : Space → Nat
  | .hbm => 4016
  | .vmem => 0
  | .smem => 0
  | _ => 0

abbrev hbmTy0_0 (i : Nat) : BufTy := match i % 128 with
  | 0 => ⟨S512x128x1024, .f32⟩
  | 1 => ⟨S8x512x1024, .f32⟩
  | 2 => ⟨S8x1024x1024, .f32⟩
  | 3 => ⟨S8x1024x1024, .f32⟩
  | 4 => ⟨S8x1024, .f32⟩
  | 5 => ⟨S8x1024x1024, .f32⟩
  | 6 => ⟨S8x1024x1024, .f32⟩
  | 7 => ⟨S8x1024, .f32⟩
  | 8 => ⟨S8x1024x1024, .f32⟩
  | 9 => ⟨S8x1024x1024, .f32⟩
  | 10 => ⟨S8x1024, .f32⟩
  | 11 => ⟨S1024x1024, .f32⟩
  | 12 => ⟨S1024, .f32⟩
  | 13 => ⟨S1x512x1024, .f32⟩
  | 14 => ⟨S512x1024, .f32⟩
  | 15 => ⟨S1x512x1024, .f32⟩
  | 16 => ⟨S512x1024, .f32⟩
  | 17 => ⟨S1x512x1024, .f32⟩
  | 18 => ⟨S512x1024, .f32⟩
  | 19 => ⟨S1x512x1024, .f32⟩
  | 20 => ⟨S512x1024, .f32⟩
  | 21 => ⟨S1x512x1024, .f32⟩
  | 22 => ⟨S512x1024, .f32⟩
  | 23 => ⟨S1x512x1024, .f32⟩
  | 24 => ⟨S512x1024, .f32⟩
  | 25 => ⟨S1x512x1024, .f32⟩
  | 26 => ⟨S512x1024, .f32⟩
  | 27 => ⟨S1x512x1024, .f32⟩
  | 28 => ⟨S512x1024, .f32⟩
  | 29 => ⟨S512x1x1024, .f32⟩
  | 30 => ⟨S512x1024, .f32⟩
  | 31 => ⟨S1x1024x1024, .f32⟩
  | 32 => ⟨S1024x1024, .f32⟩
  | 33 => ⟨S512x1024, .f32⟩
  | 34 => ⟨S1x1024x1024, .f32⟩
  | 35 => ⟨S1024x1024, .f32⟩
  | 36 => ⟨S512x1024, .f32⟩
  | 37 => ⟨S512x1024, .f32⟩
  | 38 => ⟨S1x1024, .f32⟩
  | 39 => ⟨S1024, .f32⟩
  | 40 => ⟨S1x1024, .f32⟩
  | 41 => ⟨S512x1024, .f32⟩
  | 42 => ⟨S512x1024, .f32⟩
  | 43 => ⟨S512x1024, .f32⟩
  | 44 => ⟨S512x1024, .f32⟩
  | 45 => ⟨S_, .f32⟩
  | 46 => ⟨S512x1024, .f32⟩
  | 47 => ⟨S512x1024, .f32⟩
  | 48 => ⟨S_, .f32⟩
  | 49 => ⟨S512x1024, .f32⟩
  | 50 => ⟨S512x1024, .f32⟩
  | 51 => ⟨S1x1024x1024, .f32⟩
  | 52 => ⟨S1024x1024, .f32⟩
  | 53 => ⟨S512x1024, .f32⟩
  | 54 => ⟨S1x1024x1024, .f32⟩
  | 55 => ⟨S1024x1024, .f32⟩
  | 56 => ⟨S512x1024, .f32⟩
  | 57 => ⟨S512x1024, .f32⟩
  | 58 => ⟨S1x1024, .f32⟩
  | 59 => ⟨S1024, .f32⟩
  | 60 => ⟨S1x1024, .f32⟩
  | 61 => ⟨S512x1024, .f32⟩
  | 62 => ⟨S512x1024, .f32⟩
  | 63 => ⟨S512x1024, .f32⟩
  | 64 => ⟨S512x1024, .f32⟩
  | 65 => ⟨S_, .f32⟩
  | 66 => ⟨S512x1024, .f32⟩
  | 67 => ⟨S512x1024, .f32⟩
  | 68 => ⟨S_, .f32⟩
  | 69 => ⟨S512x1024, .f32⟩
  | 70 => ⟨S512x1024, .f32⟩
  | 71 => ⟨S1x1024x1024, .f32⟩
  | 72 => ⟨S1024x1024, .f32⟩
  | 73 => ⟨S512x1024, .f32⟩
  | 74 => ⟨S512x1024, .f32⟩
  | 75 => ⟨S1x1024x1024, .f32⟩
  | 76 => ⟨S1024x1024, .f32⟩
  | 77 => ⟨S512x1024, .f32⟩
  | 78 => ⟨S512x1024, .f32⟩
  | 79 => ⟨S1x1024, .f32⟩
  | 80 => ⟨S1024, .f32⟩
  | 81 => ⟨S1x1024, .f32⟩
  | 82 => ⟨S512x1024, .f32⟩
  | 83 => ⟨S512x1024, .f32⟩
  | 84 => ⟨S512x1024, .f32⟩
  | 85 => ⟨S_, .f32⟩
  | 86 => ⟨S512x1024, .f32⟩
  | 87 => ⟨S512x1024, .f32⟩
  | 88 => ⟨S512x1024, .f32⟩
  | 89 => ⟨S512x1024, .f32⟩
  | 90 => ⟨S512x1024, .f32⟩
  | 91 => ⟨S1x1024x1024, .f32⟩
  | 92 => ⟨S1024x1024, .f32⟩
  | 93 => ⟨S512x1024, .f32⟩
  | 94 => ⟨S1x1024x1024, .f32⟩
  | 95 => ⟨S1024x1024, .f32⟩
  | 96 => ⟨S512x1024, .f32⟩
  | 97 => ⟨S512x1024, .f32⟩
  | 98 => ⟨S1x1024, .f32⟩
  | 99 => ⟨S1024, .f32⟩
  | 100 => ⟨S1x1024, .f32⟩
  | 101 => ⟨S512x1024, .f32⟩
  | 102 => ⟨S512x1024, .f32⟩
  | 103 => ⟨S512x1024, .f32⟩
  | 104 => ⟨S512x1024, .f32⟩
  | 105 => ⟨S_, .f32⟩
  | 106 => ⟨S512x1024, .f32⟩
  | 107 => ⟨S512x1024, .f32⟩
  | 108 => ⟨S_, .f32⟩
  | 109 => ⟨S512x1024, .f32⟩
  | 110 => ⟨S512x1024, .f32⟩
  | 111 => ⟨S1x1024x1024, .f32⟩
  | 112 => ⟨S1024x1024, .f32⟩
  | 113 => ⟨S512x1024, .f32⟩
  | 114 => ⟨S1x1024x1024, .f32⟩
  | 115 => ⟨S1024x1024, .f32⟩
  | 116 => ⟨S512x1024, .f32⟩
  | 117 => ⟨S512x1024, .f32⟩
  | 118 => ⟨S1x1024, .f32⟩
  | 119 => ⟨S1024, .f32⟩
  | 120 => ⟨S1x1024, .f32⟩
  | 121 => ⟨S512x1024, .f32⟩
  | 122 => ⟨S512x1024, .f32⟩
  | 123 => ⟨S512x1024, .f32⟩
  | 124 => ⟨S512x1024, .f32⟩
  | 125 => ⟨S_, .f32⟩
  | 126 => ⟨S512x1024, .f32⟩
  | 127 => ⟨S512x1024, .f32⟩
  | _ => ⟨S512x128x1024, .f32⟩

abbrev hbmTy0_1 (i : Nat) : BufTy := match i % 128 with
  | 0 => ⟨S_, .f32⟩
  | 1 => ⟨S512x1024, .f32⟩
  | 2 => ⟨S512x1024, .f32⟩
  | 3 => ⟨S1x1024x1024, .f32⟩
  | 4 => ⟨S1024x1024, .f32⟩
  | 5 => ⟨S512x1024, .f32⟩
  | 6 => ⟨S512x1024, .f32⟩
  | 7 => ⟨S1x1024x1024, .f32⟩
  | 8 => ⟨S1024x1024, .f32⟩
  | 9 => ⟨S512x1024, .f32⟩
  | 10 => ⟨S512x1024, .f32⟩
  | 11 => ⟨S1x1024, .f32⟩
  | 12 => ⟨S1024, .f32⟩
  | 13 => ⟨S1x1024, .f32⟩
  | 14 => ⟨S512x1024, .f32⟩
  | 15 => ⟨S512x1024, .f32⟩
  | 16 => ⟨S512x1024, .f32⟩
  | 17 => ⟨S_, .f32⟩
  | 18 => ⟨S512x1024, .f32⟩
  | 19 => ⟨S512x1024, .f32⟩
  | 20 => ⟨S512x1024, .f32⟩
  | 21 => ⟨S512x1024, .f32⟩
  | 22 => ⟨S512x1024, .f32⟩
  | 23 => ⟨S1x1024x1024, .f32⟩
  | 24 => ⟨S1024x1024, .f32⟩
  | 25 => ⟨S512x1024, .f32⟩
  | 26 => ⟨S1x1024x1024, .f32⟩
  | 27 => ⟨S1024x1024, .f32⟩
  | 28 => ⟨S512x1024, .f32⟩
  | 29 => ⟨S512x1024, .f32⟩
  | 30 => ⟨S1x1024, .f32⟩
  | 31 => ⟨S1024, .f32⟩
  | 32 => ⟨S1x1024, .f32⟩
  | 33 => ⟨S512x1024, .f32⟩
  | 34 => ⟨S512x1024, .f32⟩
  | 35 => ⟨S512x1024, .f32⟩
  | 36 => ⟨S512x1024, .f32⟩
  | 37 => ⟨S_, .f32⟩
  | 38 => ⟨S512x1024, .f32⟩
  | 39 => ⟨S512x1024, .f32⟩
  | 40 => ⟨S_, .f32⟩
  | 41 => ⟨S512x1024, .f32⟩
  | 42 => ⟨S512x1024, .f32⟩
  | 43 => ⟨S1x1024x1024, .f32⟩
  | 44 => ⟨S1024x1024, .f32⟩
  | 45 => ⟨S512x1024, .f32⟩
  | 46 => ⟨S1x1024x1024, .f32⟩
  | 47 => ⟨S1024x1024, .f32⟩
  | 48 => ⟨S512x1024, .f32⟩
  | 49 => ⟨S512x1024, .f32⟩
  | 50 => ⟨S1x1024, .f32⟩
  | 51 => ⟨S1024, .f32⟩
  | 52 => ⟨S1x1024, .f32⟩
  | 53 => ⟨S512x1024, .f32⟩
  | 54 => ⟨S512x1024, .f32⟩
  | 55 => ⟨S512x1024, .f32⟩
  | 56 => ⟨S512x1024, .f32⟩
  | 57 => ⟨S_, .f32⟩
  | 58 => ⟨S512x1024, .f32⟩
  | 59 => ⟨S512x1024, .f32⟩
  | 60 => ⟨S_, .f32⟩
  | 61 => ⟨S512x1024, .f32⟩
  | 62 => ⟨S512x1024, .f32⟩
  | 63 => ⟨S1x1024x1024, .f32⟩
  | 64 => ⟨S1024x1024, .f32⟩
  | 65 => ⟨S512x1024, .f32⟩
  | 66 => ⟨S512x1024, .f32⟩
  | 67 => ⟨S1x1024x1024, .f32⟩
  | 68 => ⟨S1024x1024, .f32⟩
  | 69 => ⟨S512x1024, .f32⟩
  | 70 => ⟨S512x1024, .f32⟩
  | 71 => ⟨S1x1024, .f32⟩
  | 72 => ⟨S1024, .f32⟩
  | 73 => ⟨S1x1024, .f32⟩
  | 74 => ⟨S512x1024, .f32⟩
  | 75 => ⟨S512x1024, .f32⟩
  | 76 => ⟨S512x1024, .f32⟩
  | 77 => ⟨S_, .f32⟩
  | 78 => ⟨S512x1024, .f32⟩
  | 79 => ⟨S512x1024, .f32⟩
  | 80 => ⟨S512x1024, .f32⟩
  | 81 => ⟨S512x1024, .f32⟩
  | 82 => ⟨S512x1024, .f32⟩
  | 83 => ⟨S1x1024x1024, .f32⟩
  | 84 => ⟨S1024x1024, .f32⟩
  | 85 => ⟨S512x1024, .f32⟩
  | 86 => ⟨S1x1024x1024, .f32⟩
  | 87 => ⟨S1024x1024, .f32⟩
  | 88 => ⟨S512x1024, .f32⟩
  | 89 => ⟨S512x1024, .f32⟩
  | 90 => ⟨S1x1024, .f32⟩
  | 91 => ⟨S1024, .f32⟩
  | 92 => ⟨S1x1024, .f32⟩
  | 93 => ⟨S512x1024, .f32⟩
  | 94 => ⟨S512x1024, .f32⟩
  | 95 => ⟨S512x1024, .f32⟩
  | 96 => ⟨S512x1024, .f32⟩
  | 97 => ⟨S_, .f32⟩
  | 98 => ⟨S512x1024, .f32⟩
  | 99 => ⟨S512x1024, .f32⟩
  | 100 => ⟨S_, .f32⟩
  | 101 => ⟨S512x1024, .f32⟩
  | 102 => ⟨S512x1024, .f32⟩
  | 103 => ⟨S1x1024x1024, .f32⟩
  | 104 => ⟨S1024x1024, .f32⟩
  | 105 => ⟨S512x1024, .f32⟩
  | 106 => ⟨S1x1024x1024, .f32⟩
  | 107 => ⟨S1024x1024, .f32⟩
  | 108 => ⟨S512x1024, .f32⟩
  | 109 => ⟨S512x1024, .f32⟩
  | 110 => ⟨S1x1024, .f32⟩
  | 111 => ⟨S1024, .f32⟩
  | 112 => ⟨S1x1024, .f32⟩
  | 113 => ⟨S512x1024, .f32⟩
  | 114 => ⟨S512x1024, .f32⟩
  | 115 => ⟨S512x1024, .f32⟩
  | 116 => ⟨S512x1024, .f32⟩
  | 117 => ⟨S_, .f32⟩
  | 118 => ⟨S512x1024, .f32⟩
  | 119 => ⟨S512x1024, .f32⟩
  | 120 => ⟨S_, .f32⟩
  | 121 => ⟨S512x1024, .f32⟩
  | 122 => ⟨S512x1024, .f32⟩
  | 123 => ⟨S1x1024x1024, .f32⟩
  | 124 => ⟨S1024x1024, .f32⟩
  | 125 => ⟨S512x1024, .f32⟩
  | 126 => ⟨S512x1024, .f32⟩
  | 127 => ⟨S1x1024x1024, .f32⟩
  | _ => ⟨S512x128x1024, .f32⟩

abbrev hbmTy0_2 (i : Nat) : BufTy := match i % 128 with
  | 0 => ⟨S1024x1024, .f32⟩
  | 1 => ⟨S512x1024, .f32⟩
  | 2 => ⟨S512x1024, .f32⟩
  | 3 => ⟨S1x1024, .f32⟩
  | 4 => ⟨S1024, .f32⟩
  | 5 => ⟨S1x1024, .f32⟩
  | 6 => ⟨S512x1024, .f32⟩
  | 7 => ⟨S512x1024, .f32⟩
  | 8 => ⟨S512x1024, .f32⟩
  | 9 => ⟨S_, .f32⟩
  | 10 => ⟨S512x1024, .f32⟩
  | 11 => ⟨S512x1024, .f32⟩
  | 12 => ⟨S512x1024, .f32⟩
  | 13 => ⟨S512x1024, .f32⟩
  | 14 => ⟨S512x1024, .f32⟩
  | 15 => ⟨S1x1024x1024, .f32⟩
  | 16 => ⟨S1024x1024, .f32⟩
  | 17 => ⟨S512x1024, .f32⟩
  | 18 => ⟨S1x1024x1024, .f32⟩
  | 19 => ⟨S1024x1024, .f32⟩
  | 20 => ⟨S512x1024, .f32⟩
  | 21 => ⟨S512x1024, .f32⟩
  | 22 => ⟨S1x1024, .f32⟩
  | 23 => ⟨S1024, .f32⟩
  | 24 => ⟨S1x1024, .f32⟩
  | 25 => ⟨S512x1024, .f32⟩
  | 26 => ⟨S512x1024, .f32⟩
  | 27 => ⟨S512x1024, .f32⟩
  | 28 => ⟨S512x1024, .f32⟩
  | 29 => ⟨S_, .f32⟩
  | 30 => ⟨S512x1024, .f32⟩
  | 31 => ⟨S512x1024, .f32⟩
  | 32 => ⟨S_, .f32⟩
  | 33 => ⟨S512x1024, .f32⟩
  | 34 => ⟨S512x1024, .f32⟩
  | 35 => ⟨S1x1024x1024, .f32⟩
  | 36 => ⟨S1024x1024, .f32⟩
  | 37 => ⟨S512x1024, .f32⟩
  | 38 => ⟨S1x1024x1024, .f32⟩
  | 39 => ⟨S1024x1024, .f32⟩
  | 40 => ⟨S512x1024, .f32⟩
  | 41 => ⟨S512x1024, .f32⟩
  | 42 => ⟨S1x1024, .f32⟩
  | 43 => ⟨S1024, .f32⟩
  | 44 => ⟨S1x1024, .f32⟩
  | 45 => ⟨S512x1024, .f32⟩
  | 46 => ⟨S512x1024, .f32⟩
  | 47 => ⟨S512x1024, .f32⟩
  | 48 => ⟨S512x1024, .f32⟩
  | 49 => ⟨S_, .f32⟩
  | 50 => ⟨S512x1024, .f32⟩
  | 51 => ⟨S512x1024, .f32⟩
  | 52 => ⟨S_, .f32⟩
  | 53 => ⟨S512x1024, .f32⟩
  | 54 => ⟨S512x1024, .f32⟩
  | 55 => ⟨S1x1024x1024, .f32⟩
  | 56 => ⟨S1024x1024, .f32⟩
  | 57 => ⟨S512x1024, .f32⟩
  | 58 => ⟨S512x1024, .f32⟩
  | 59 => ⟨S1x1024x1024, .f32⟩
  | 60 => ⟨S1024x1024, .f32⟩
  | 61 => ⟨S512x1024, .f32⟩
  | 62 => ⟨S512x1024, .f32⟩
  | 63 => ⟨S1x1024, .f32⟩
  | 64 => ⟨S1024, .f32⟩
  | 65 => ⟨S1x1024, .f32⟩
  | 66 => ⟨S512x1024, .f32⟩
  | 67 => ⟨S512x1024, .f32⟩
  | 68 => ⟨S512x1024, .f32⟩
  | 69 => ⟨S_, .f32⟩
  | 70 => ⟨S512x1024, .f32⟩
  | 71 => ⟨S512x1024, .f32⟩
  | 72 => ⟨S512x1024, .f32⟩
  | 73 => ⟨S512x1024, .f32⟩
  | 74 => ⟨S512x1024, .f32⟩
  | 75 => ⟨S1x1024x1024, .f32⟩
  | 76 => ⟨S1024x1024, .f32⟩
  | 77 => ⟨S512x1024, .f32⟩
  | 78 => ⟨S1x1024x1024, .f32⟩
  | 79 => ⟨S1024x1024, .f32⟩
  | 80 => ⟨S512x1024, .f32⟩
  | 81 => ⟨S512x1024, .f32⟩
  | 82 => ⟨S1x1024, .f32⟩
  | 83 => ⟨S1024, .f32⟩
  | 84 => ⟨S1x1024, .f32⟩
  | 85 => ⟨S512x1024, .f32⟩
  | 86 => ⟨S512x1024, .f32⟩
  | 87 => ⟨S512x1024, .f32⟩
  | 88 => ⟨S512x1024, .f32⟩
  | 89 => ⟨S_, .f32⟩
  | 90 => ⟨S512x1024, .f32⟩
  | 91 => ⟨S512x1024, .f32⟩
  | 92 => ⟨S_, .f32⟩
  | 93 => ⟨S512x1024, .f32⟩
  | 94 => ⟨S512x1024, .f32⟩
  | 95 => ⟨S1x1024x1024, .f32⟩
  | 96 => ⟨S1024x1024, .f32⟩
  | 97 => ⟨S512x1024, .f32⟩
  | 98 => ⟨S1x1024x1024, .f32⟩
  | 99 => ⟨S1024x1024, .f32⟩
  | 100 => ⟨S512x1024, .f32⟩
  | 101 => ⟨S512x1024, .f32⟩
  | 102 => ⟨S1x1024, .f32⟩
  | 103 => ⟨S1024, .f32⟩
  | 104 => ⟨S1x1024, .f32⟩
  | 105 => ⟨S512x1024, .f32⟩
  | 106 => ⟨S512x1024, .f32⟩
  | 107 => ⟨S512x1024, .f32⟩
  | 108 => ⟨S512x1024, .f32⟩
  | 109 => ⟨S_, .f32⟩
  | 110 => ⟨S512x1024, .f32⟩
  | 111 => ⟨S512x1024, .f32⟩
  | 112 => ⟨S_, .f32⟩
  | 113 => ⟨S512x1024, .f32⟩
  | 114 => ⟨S512x1024, .f32⟩
  | 115 => ⟨S1x1024x1024, .f32⟩
  | 116 => ⟨S1024x1024, .f32⟩
  | 117 => ⟨S512x1024, .f32⟩
  | 118 => ⟨S512x1024, .f32⟩
  | 119 => ⟨S1x1024x1024, .f32⟩
  | 120 => ⟨S1024x1024, .f32⟩
  | 121 => ⟨S512x1024, .f32⟩
  | 122 => ⟨S512x1024, .f32⟩
  | 123 => ⟨S1x1024, .f32⟩
  | 124 => ⟨S1024, .f32⟩
  | 125 => ⟨S1x1024, .f32⟩
  | 126 => ⟨S512x1024, .f32⟩
  | 127 => ⟨S512x1024, .f32⟩
  | _ => ⟨S512x128x1024, .f32⟩

abbrev hbmTy0_3 (i : Nat) : BufTy := match i % 128 with
  | 0 => ⟨S512x1024, .f32⟩
  | 1 => ⟨S_, .f32⟩
  | 2 => ⟨S512x1024, .f32⟩
  | 3 => ⟨S512x1024, .f32⟩
  | 4 => ⟨S512x1024, .f32⟩
  | 5 => ⟨S512x1024, .f32⟩
  | 6 => ⟨S512x1024, .f32⟩
  | 7 => ⟨S1x1024x1024, .f32⟩
  | 8 => ⟨S1024x1024, .f32⟩
  | 9 => ⟨S512x1024, .f32⟩
  | 10 => ⟨S1x1024x1024, .f32⟩
  | 11 => ⟨S1024x1024, .f32⟩
  | 12 => ⟨S512x1024, .f32⟩
  | 13 => ⟨S512x1024, .f32⟩
  | 14 => ⟨S1x1024, .f32⟩
  | 15 => ⟨S1024, .f32⟩
  | 16 => ⟨S1x1024, .f32⟩
  | 17 => ⟨S512x1024, .f32⟩
  | 18 => ⟨S512x1024, .f32⟩
  | 19 => ⟨S512x1024, .f32⟩
  | 20 => ⟨S512x1024, .f32⟩
  | 21 => ⟨S_, .f32⟩
  | 22 => ⟨S512x1024, .f32⟩
  | 23 => ⟨S512x1024, .f32⟩
  | 24 => ⟨S_, .f32⟩
  | 25 => ⟨S512x1024, .f32⟩
  | 26 => ⟨S512x1024, .f32⟩
  | 27 => ⟨S1x1024x1024, .f32⟩
  | 28 => ⟨S1024x1024, .f32⟩
  | 29 => ⟨S512x1024, .f32⟩
  | 30 => ⟨S1x1024x1024, .f32⟩
  | 31 => ⟨S1024x1024, .f32⟩
  | 32 => ⟨S512x1024, .f32⟩
  | 33 => ⟨S512x1024, .f32⟩
  | 34 => ⟨S1x1024, .f32⟩
  | 35 => ⟨S1024, .f32⟩
  | 36 => ⟨S1x1024, .f32⟩
  | 37 => ⟨S512x1024, .f32⟩
  | 38 => ⟨S512x1024, .f32⟩
  | 39 => ⟨S512x1024, .f32⟩
  | 40 => ⟨S512x1024, .f32⟩
  | 41 => ⟨S_, .f32⟩
  | 42 => ⟨S512x1024, .f32⟩
  | 43 => ⟨S512x1024, .f32⟩
  | 44 => ⟨S_, .f32⟩
  | 45 => ⟨S512x1024, .f32⟩
  | 46 => ⟨S512x1024, .f32⟩
  | 47 => ⟨S1x1024x1024, .f32⟩
  | 48 => ⟨S1024x1024, .f32⟩
  | 49 => ⟨S512x1024, .f32⟩
  | 50 => ⟨S512x1024, .f32⟩
  | 51 => ⟨S1x1024x1024, .f32⟩
  | 52 => ⟨S1024x1024, .f32⟩
  | 53 => ⟨S512x1024, .f32⟩
  | 54 => ⟨S512x1024, .f32⟩
  | 55 => ⟨S1x1024, .f32⟩
  | 56 => ⟨S1024, .f32⟩
  | 57 => ⟨S1x1024, .f32⟩
  | 58 => ⟨S512x1024, .f32⟩
  | 59 => ⟨S512x1024, .f32⟩
  | 60 => ⟨S512x1024, .f32⟩
  | 61 => ⟨S_, .f32⟩
  | 62 => ⟨S512x1024, .f32⟩
  | 63 => ⟨S512x1024, .f32⟩
  | 64 => ⟨S512x1024, .f32⟩
  | 65 => ⟨S512x1024, .f32⟩
  | 66 => ⟨S512x1024, .f32⟩
  | 67 => ⟨S1x1024x1024, .f32⟩
  | 68 => ⟨S1024x1024, .f32⟩
  | 69 => ⟨S512x1024, .f32⟩
  | 70 => ⟨S1x1024x1024, .f32⟩
  | 71 => ⟨S1024x1024, .f32⟩
  | 72 => ⟨S512x1024, .f32⟩
  | 73 => ⟨S512x1024, .f32⟩
  | 74 => ⟨S1x1024, .f32⟩
  | 75 => ⟨S1024, .f32⟩
  | 76 => ⟨S1x1024, .f32⟩
  | 77 => ⟨S512x1024, .f32⟩
  | 78 => ⟨S512x1024, .f32⟩
  | 79 => ⟨S512x1024, .f32⟩
  | 80 => ⟨S512x1024, .f32⟩
  | 81 => ⟨S_, .f32⟩
  | 82 => ⟨S512x1024, .f32⟩
  | 83 => ⟨S512x1024, .f32⟩
  | 84 => ⟨S_, .f32⟩
  | 85 => ⟨S512x1024, .f32⟩
  | 86 => ⟨S512x1024, .f32⟩
  | 87 => ⟨S1x1024x1024, .f32⟩
  | 88 => ⟨S1024x1024, .f32⟩
  | 89 => ⟨S512x1024, .f32⟩
  | 90 => ⟨S1x1024x1024, .f32⟩
  | 91 => ⟨S1024x1024, .f32⟩
  | 92 => ⟨S512x1024, .f32⟩
  | 93 => ⟨S512x1024, .f32⟩
  | 94 => ⟨S1x1024, .f32⟩
  | 95 => ⟨S1024, .f32⟩
  | 96 => ⟨S1x1024, .f32⟩
  | 97 => ⟨S512x1024, .f32⟩
  | 98 => ⟨S512x1024, .f32⟩
  | 99 => ⟨S512x1024, .f32⟩
  | 100 => ⟨S512x1024, .f32⟩
  | 101 => ⟨S_, .f32⟩
  | 102 => ⟨S512x1024, .f32⟩
  | 103 => ⟨S512x1024, .f32⟩
  | 104 => ⟨S_, .f32⟩
  | 105 => ⟨S512x1024, .f32⟩
  | 106 => ⟨S512x1024, .f32⟩
  | 107 => ⟨S1x1024x1024, .f32⟩
  | 108 => ⟨S1024x1024, .f32⟩
  | 109 => ⟨S512x1024, .f32⟩
  | 110 => ⟨S512x1024, .f32⟩
  | 111 => ⟨S1x1024x1024, .f32⟩
  | 112 => ⟨S1024x1024, .f32⟩
  | 113 => ⟨S512x1024, .f32⟩
  | 114 => ⟨S512x1024, .f32⟩
  | 115 => ⟨S1x1024, .f32⟩
  | 116 => ⟨S1024, .f32⟩
  | 117 => ⟨S1x1024, .f32⟩
  | 118 => ⟨S512x1024, .f32⟩
  | 119 => ⟨S512x1024, .f32⟩
  | 120 => ⟨S512x1024, .f32⟩
  | 121 => ⟨S_, .f32⟩
  | 122 => ⟨S512x1024, .f32⟩
  | 123 => ⟨S512x1024, .f32⟩
  | 124 => ⟨S512x1024, .f32⟩
  | 125 => ⟨S512x1024, .f32⟩
  | 126 => ⟨S512x1024, .f32⟩
  | 127 => ⟨S512x1024, .f32⟩
  | _ => ⟨S512x128x1024, .f32⟩

abbrev hbmTy0_4 (i : Nat) : BufTy := match i % 128 with
  | 0 => ⟨S1x1024, .f32⟩
  | 1 => ⟨S512x1024, .f32⟩
  | 2 => ⟨S512x1024, .f32⟩
  | 3 => ⟨S1x512x1024, .f32⟩
  | 4 => ⟨S1x512x1024, .f32⟩
  | 5 => ⟨S1x512x1024, .f32⟩
  | 6 => ⟨S1x512x1024, .f32⟩
  | 7 => ⟨S1x512x1024, .f32⟩
  | 8 => ⟨S1x512x1024, .f32⟩
  | 9 => ⟨S1x512x1024, .f32⟩
  | 10 => ⟨S1x512x1024, .f32⟩
  | 11 => ⟨S8x512x1024, .f32⟩
  | 12 => ⟨S512x1x1024, .f32⟩
  | 13 => ⟨S512x1024, .f32⟩
  | 14 => ⟨S1x1024x1024, .f32⟩
  | 15 => ⟨S1024x1024, .f32⟩
  | 16 => ⟨S512x1024, .f32⟩
  | 17 => ⟨S1x1024x1024, .f32⟩
  | 18 => ⟨S1024x1024, .f32⟩
  | 19 => ⟨S512x1024, .f32⟩
  | 20 => ⟨S512x1024, .f32⟩
  | 21 => ⟨S1x1024, .f32⟩
  | 22 => ⟨S1024, .f32⟩
  | 23 => ⟨S1x1024, .f32⟩
  | 24 => ⟨S512x1024, .f32⟩
  | 25 => ⟨S512x1024, .f32⟩
  | 26 => ⟨S512x1024, .f32⟩
  | 27 => ⟨S512x1024, .f32⟩
  | 28 => ⟨S_, .f32⟩
  | 29 => ⟨S512x1024, .f32⟩
  | 30 => ⟨S512x1024, .f32⟩
  | 31 => ⟨S_, .f32⟩
  | 32 => ⟨S512x1024, .f32⟩
  | 33 => ⟨S512x1024, .f32⟩
  | 34 => ⟨S1x1024x1024, .f32⟩
  | 35 => ⟨S1024x1024, .f32⟩
  | 36 => ⟨S512x1024, .f32⟩
  | 37 => ⟨S1x1024x1024, .f32⟩
  | 38 => ⟨S1024x1024, .f32⟩
  | 39 => ⟨S512x1024, .f32⟩
  | 40 => ⟨S512x1024, .f32⟩
  | 41 => ⟨S1x1024, .f32⟩
  | 42 => ⟨S1024, .f32⟩
  | 43 => ⟨S1x1024, .f32⟩
  | 44 => ⟨S512x1024, .f32⟩
  | 45 => ⟨S512x1024, .f32⟩
  | 46 => ⟨S512x1024, .f32⟩
  | 47 => ⟨S512x1024, .f32⟩
  | 48 => ⟨S_, .f32⟩
  | 49 => ⟨S512x1024, .f32⟩
  | 50 => ⟨S512x1024, .f32⟩
  | 51 => ⟨S_, .f32⟩
  | 52 => ⟨S512x1024, .f32⟩
  | 53 => ⟨S512x1024, .f32⟩
  | 54 => ⟨S1x1024x1024, .f32⟩
  | 55 => ⟨S1024x1024, .f32⟩
  | 56 => ⟨S512x1024, .f32⟩
  | 57 => ⟨S512x1024, .f32⟩
  | 58 => ⟨S1x1024x1024, .f32⟩
  | 59 => ⟨S1024x1024, .f32⟩
  | 60 => ⟨S512x1024, .f32⟩
  | 61 => ⟨S512x1024, .f32⟩
  | 62 => ⟨S1x1024, .f32⟩
  | 63 => ⟨S1024, .f32⟩
  | 64 => ⟨S1x1024, .f32⟩
  | 65 => ⟨S512x1024, .f32⟩
  | 66 => ⟨S512x1024, .f32⟩
  | 67 => ⟨S512x1024, .f32⟩
  | 68 => ⟨S_, .f32⟩
  | 69 => ⟨S512x1024, .f32⟩
  | 70 => ⟨S512x1024, .f32⟩
  | 71 => ⟨S512x1024, .f32⟩
  | 72 => ⟨S512x1024, .f32⟩
  | 73 => ⟨S512x1024, .f32⟩
  | 74 => ⟨S1x1024x1024, .f32⟩
  | 75 => ⟨S1024x1024, .f32⟩
  | 76 => ⟨S512x1024, .f32⟩
  | 77 => ⟨S1x1024x1024, .f32⟩
  | 78 => ⟨S1024x1024, .f32⟩
  | 79 => ⟨S512x1024, .f32⟩
  | 80 => ⟨S512x1024, .f32⟩
  | 81 => ⟨S1x1024, .f32⟩
  | 82 => ⟨S1024, .f32⟩
  | 83 => ⟨S1x1024, .f32⟩
  | 84 => ⟨S512x1024, .f32⟩
  | 85 => ⟨S512x1024, .f32⟩
  | 86 => ⟨S512x1024, .f32⟩
  | 87 => ⟨S512x1024, .f32⟩
  | 88 => ⟨S_, .f32⟩
  | 89 => ⟨S512x1024, .f32⟩
  | 90 => ⟨S512x1024, .f32⟩
  | 91 => ⟨S_, .f32⟩
  | 92 => ⟨S512x1024, .f32⟩
  | 93 => ⟨S512x1024, .f32⟩
  | 94 => ⟨S1x1024x1024, .f32⟩
  | 95 => ⟨S1024x1024, .f32⟩
  | 96 => ⟨S512x1024, .f32⟩
  | 97 => ⟨S1x1024x1024, .f32⟩
  | 98 => ⟨S1024x1024, .f32⟩
  | 99 => ⟨S512x1024, .f32⟩
  | 100 => ⟨S512x1024, .f32⟩
  | 101 => ⟨S1x1024, .f32⟩
  | 102 => ⟨S1024, .f32⟩
  | 103 => ⟨S1x1024, .f32⟩
  | 104 => ⟨S512x1024, .f32⟩
  | 105 => ⟨S512x1024, .f32⟩
  | 106 => ⟨S512x1024, .f32⟩
  | 107 => ⟨S512x1024, .f32⟩
  | 108 => ⟨S_, .f32⟩
  | 109 => ⟨S512x1024, .f32⟩
  | 110 => ⟨S512x1024, .f32⟩
  | 111 => ⟨S_, .f32⟩
  | 112 => ⟨S512x1024, .f32⟩
  | 113 => ⟨S512x1024, .f32⟩
  | 114 => ⟨S1x1024x1024, .f32⟩
  | 115 => ⟨S1024x1024, .f32⟩
  | 116 => ⟨S512x1024, .f32⟩
  | 117 => ⟨S512x1024, .f32⟩
  | 118 => ⟨S1x1024x1024, .f32⟩
  | 119 => ⟨S1024x1024, .f32⟩
  | 120 => ⟨S512x1024, .f32⟩
  | 121 => ⟨S512x1024, .f32⟩
  | 122 => ⟨S1x1024, .f32⟩
  | 123 => ⟨S1024, .f32⟩
  | 124 => ⟨S1x1024, .f32⟩
  | 125 => ⟨S512x1024, .f32⟩
  | 126 => ⟨S512x1024, .f32⟩
  | 127 => ⟨S512x1024, .f32⟩
  | _ => ⟨S512x128x1024, .f32⟩

abbrev hbmTy0_5 (i : Nat) : BufTy := match i % 128 with
  | 0 => ⟨S_, .f32⟩
  | 1 => ⟨S512x1024, .f32⟩
  | 2 => ⟨S512x1024, .f32⟩
  | 3 => ⟨S512x1024, .f32⟩
  | 4 => ⟨S512x1024, .f32⟩
  | 5 => ⟨S512x1024, .f32⟩
  | 6 => ⟨S1x1024x1024, .f32⟩
  | 7 => ⟨S1024x1024, .f32⟩
  | 8 => ⟨S512x1024, .f32⟩
  | 9 => ⟨S1x1024x1024, .f32⟩
  | 10 => ⟨S1024x1024, .f32⟩
  | 11 => ⟨S512x1024, .f32⟩
  | 12 => ⟨S512x1024, .f32⟩
  | 13 => ⟨S1x1024, .f32⟩
  | 14 => ⟨S1024, .f32⟩
  | 15 => ⟨S1x1024, .f32⟩
  | 16 => ⟨S512x1024, .f32⟩
  | 17 => ⟨S512x1024, .f32⟩
  | 18 => ⟨S512x1024, .f32⟩
  | 19 => ⟨S512x1024, .f32⟩
  | 20 => ⟨S_, .f32⟩
  | 21 => ⟨S512x1024, .f32⟩
  | 22 => ⟨S512x1024, .f32⟩
  | 23 => ⟨S_, .f32⟩
  | 24 => ⟨S512x1024, .f32⟩
  | 25 => ⟨S512x1024, .f32⟩
  | 26 => ⟨S1x1024x1024, .f32⟩
  | 27 => ⟨S1024x1024, .f32⟩
  | 28 => ⟨S512x1024, .f32⟩
  | 29 => ⟨S1x1024x1024, .f32⟩
  | 30 => ⟨S1024x1024, .f32⟩
  | 31 => ⟨S512x1024, .f32⟩
  | 32 => ⟨S512x1024, .f32⟩
  | 33 => ⟨S1x1024, .f32⟩
  | 34 => ⟨S1024, .f32⟩
  | 35 => ⟨S1x1024, .f32⟩
  | 36 => ⟨S512x1024, .f32⟩
  | 37 => ⟨S512x1024, .f32⟩
  | 38 => ⟨S512x1024, .f32⟩
  | 39 => ⟨S512x1024, .f32⟩
  | 40 => ⟨S_, .f32⟩
  | 41 => ⟨S512x1024, .f32⟩
  | 42 => ⟨S512x1024, .f32⟩
  | 43 => ⟨S_, .f32⟩
  | 44 => ⟨S512x1024, .f32⟩
  | 45 => ⟨S512x1024, .f32⟩
  | 46 => ⟨S1x1024x1024, .f32⟩
  | 47 => ⟨S1024x1024, .f32⟩
  | 48 => ⟨S512x1024, .f32⟩
  | 49 => ⟨S512x1024, .f32⟩
  | 50 => ⟨S1x1024x1024, .f32⟩
  | 51 => ⟨S1024x1024, .f32⟩
  | 52 => ⟨S512x1024, .f32⟩
  | 53 => ⟨S512x1024, .f32⟩
  | 54 => ⟨S1x1024, .f32⟩
  | 55 => ⟨S1024, .f32⟩
  | 56 => ⟨S1x1024, .f32⟩
  | 57 => ⟨S512x1024, .f32⟩
  | 58 => ⟨S512x1024, .f32⟩
  | 59 => ⟨S512x1024, .f32⟩
  | 60 => ⟨S_, .f32⟩
  | 61 => ⟨S512x1024, .f32⟩
  | 62 => ⟨S512x1024, .f32⟩
  | 63 => ⟨S512x1024, .f32⟩
  | 64 => ⟨S512x1024, .f32⟩
  | 65 => ⟨S512x1024, .f32⟩
  | 66 => ⟨S1x1024x1024, .f32⟩
  | 67 => ⟨S1024x1024, .f32⟩
  | 68 => ⟨S512x1024, .f32⟩
  | 69 => ⟨S1x1024x1024, .f32⟩
  | 70 => ⟨S1024x1024, .f32⟩
  | 71 => ⟨S512x1024, .f32⟩
  | 72 => ⟨S512x1024, .f32⟩
  | 73 => ⟨S1x1024, .f32⟩
  | 74 => ⟨S1024, .f32⟩
  | 75 => ⟨S1x1024, .f32⟩
  | 76 => ⟨S512x1024, .f32⟩
  | 77 => ⟨S512x1024, .f32⟩
  | 78 => ⟨S512x1024, .f32⟩
  | 79 => ⟨S512x1024, .f32⟩
  | 80 => ⟨S_, .f32⟩
  | 81 => ⟨S512x1024, .f32⟩
  | 82 => ⟨S512x1024, .f32⟩
  | 83 => ⟨S_, .f32⟩
  | 84 => ⟨S512x1024, .f32⟩
  | 85 => ⟨S512x1024, .f32⟩
  | 86 => ⟨S1x1024x1024, .f32⟩
  | 87 => ⟨S1024x1024, .f32⟩
  | 88 => ⟨S512x1024, .f32⟩
  | 89 => ⟨S1x1024x1024, .f32⟩
  | 90 => ⟨S1024x1024, .f32⟩
  | 91 => ⟨S512x1024, .f32⟩
  | 92 => ⟨S512x1024, .f32⟩
  | 93 => ⟨S1x1024, .f32⟩
  | 94 => ⟨S1024, .f32⟩
  | 95 => ⟨S1x1024, .f32⟩
  | 96 => ⟨S512x1024, .f32⟩
  | 97 => ⟨S512x1024, .f32⟩
  | 98 => ⟨S512x1024, .f32⟩
  | 99 => ⟨S512x1024, .f32⟩
  | 100 => ⟨S_, .f32⟩
  | 101 => ⟨S512x1024, .f32⟩
  | 102 => ⟨S512x1024, .f32⟩
  | 103 => ⟨S_, .f32⟩
  | 104 => ⟨S512x1024, .f32⟩
  | 105 => ⟨S512x1024, .f32⟩
  | 106 => ⟨S1x1024x1024, .f32⟩
  | 107 => ⟨S1024x1024, .f32⟩
  | 108 => ⟨S512x1024, .f32⟩
  | 109 => ⟨S512x1024, .f32⟩
  | 110 => ⟨S1x1024x1024, .f32⟩
  | 111 => ⟨S1024x1024, .f32⟩
  | 112 => ⟨S512x1024, .f32⟩
  | 113 => ⟨S512x1024, .f32⟩
  | 114 => ⟨S1x1024, .f32⟩
  | 115 => ⟨S1024, .f32⟩
  | 116 => ⟨S1x1024, .f32⟩
  | 117 => ⟨S512x1024, .f32⟩
  | 118 => ⟨S512x1024, .f32⟩
  | 119 => ⟨S512x1024, .f32⟩
  | 120 => ⟨S_, .f32⟩
  | 121 => ⟨S512x1024, .f32⟩
  | 122 => ⟨S512x1024, .f32⟩
  | 123 => ⟨S512x1024, .f32⟩
  | 124 => ⟨S512x1024, .f32⟩
  | 125 => ⟨S512x1024, .f32⟩
  | 126 => ⟨S1x1024x1024, .f32⟩
  | 127 => ⟨S1024x1024, .f32⟩
  | _ => ⟨S512x128x1024, .f32⟩

abbrev hbmTy0_6 (i : Nat) : BufTy := match i % 128 with
  | 0 => ⟨S512x1024, .f32⟩
  | 1 => ⟨S1x1024x1024, .f32⟩
  | 2 => ⟨S1024x1024, .f32⟩
  | 3 => ⟨S512x1024, .f32⟩
  | 4 => ⟨S512x1024, .f32⟩
  | 5 => ⟨S1x1024, .f32⟩
  | 6 => ⟨S1024, .f32⟩
  | 7 => ⟨S1x1024, .f32⟩
  | 8 => ⟨S512x1024, .f32⟩
  | 9 => ⟨S512x1024, .f32⟩
  | 10 => ⟨S512x1024, .f32⟩
  | 11 => ⟨S512x1024, .f32⟩
  | 12 => ⟨S_, .f32⟩
  | 13 => ⟨S512x1024, .f32⟩
  | 14 => ⟨S512x1024, .f32⟩
  | 15 => ⟨S_, .f32⟩
  | 16 => ⟨S512x1024, .f32⟩
  | 17 => ⟨S512x1024, .f32⟩
  | 18 => ⟨S1x1024x1024, .f32⟩
  | 19 => ⟨S1024x1024, .f32⟩
  | 20 => ⟨S512x1024, .f32⟩
  | 21 => ⟨S1x1024x1024, .f32⟩
  | 22 => ⟨S1024x1024, .f32⟩
  | 23 => ⟨S512x1024, .f32⟩
  | 24 => ⟨S512x1024, .f32⟩
  | 25 => ⟨S1x1024, .f32⟩
  | 26 => ⟨S1024, .f32⟩
  | 27 => ⟨S1x1024, .f32⟩
  | 28 => ⟨S512x1024, .f32⟩
  | 29 => ⟨S512x1024, .f32⟩
  | 30 => ⟨S512x1024, .f32⟩
  | 31 => ⟨S512x1024, .f32⟩
  | 32 => ⟨S_, .f32⟩
  | 33 => ⟨S512x1024, .f32⟩
  | 34 => ⟨S512x1024, .f32⟩
  | 35 => ⟨S_, .f32⟩
  | 36 => ⟨S512x1024, .f32⟩
  | 37 => ⟨S512x1024, .f32⟩
  | 38 => ⟨S1x1024x1024, .f32⟩
  | 39 => ⟨S1024x1024, .f32⟩
  | 40 => ⟨S512x1024, .f32⟩
  | 41 => ⟨S512x1024, .f32⟩
  | 42 => ⟨S1x1024x1024, .f32⟩
  | 43 => ⟨S1024x1024, .f32⟩
  | 44 => ⟨S512x1024, .f32⟩
  | 45 => ⟨S512x1024, .f32⟩
  | 46 => ⟨S1x1024, .f32⟩
  | 47 => ⟨S1024, .f32⟩
  | 48 => ⟨S1x1024, .f32⟩
  | 49 => ⟨S512x1024, .f32⟩
  | 50 => ⟨S512x1024, .f32⟩
  | 51 => ⟨S512x1024, .f32⟩
  | 52 => ⟨S_, .f32⟩
  | 53 => ⟨S512x1024, .f32⟩
  | 54 => ⟨S512x1024, .f32⟩
  | 55 => ⟨S512x1024, .f32⟩
  | 56 => ⟨S512x1024, .f32⟩
  | 57 => ⟨S512x1024, .f32⟩
  | 58 => ⟨S1x1024x1024, .f32⟩
  | 59 => ⟨S1024x1024, .f32⟩
  | 60 => ⟨S512x1024, .f32⟩
  | 61 => ⟨S1x1024x1024, .f32⟩
  | 62 => ⟨S1024x1024, .f32⟩
  | 63 => ⟨S512x1024, .f32⟩
  | 64 => ⟨S512x1024, .f32⟩
  | 65 => ⟨S1x1024, .f32⟩
  | 66 => ⟨S1024, .f32⟩
  | 67 => ⟨S1x1024, .f32⟩
  | 68 => ⟨S512x1024, .f32⟩
  | 69 => ⟨S512x1024, .f32⟩
  | 70 => ⟨S512x1024, .f32⟩
  | 71 => ⟨S512x1024, .f32⟩
  | 72 => ⟨S_, .f32⟩
  | 73 => ⟨S512x1024, .f32⟩
  | 74 => ⟨S512x1024, .f32⟩
  | 75 => ⟨S_, .f32⟩
  | 76 => ⟨S512x1024, .f32⟩
  | 77 => ⟨S512x1024, .f32⟩
  | 78 => ⟨S1x1024x1024, .f32⟩
  | 79 => ⟨S1024x1024, .f32⟩
  | 80 => ⟨S512x1024, .f32⟩
  | 81 => ⟨S1x1024x1024, .f32⟩
  | 82 => ⟨S1024x1024, .f32⟩
  | 83 => ⟨S512x1024, .f32⟩
  | 84 => ⟨S512x1024, .f32⟩
  | 85 => ⟨S1x1024, .f32⟩
  | 86 => ⟨S1024, .f32⟩
  | 87 => ⟨S1x1024, .f32⟩
  | 88 => ⟨S512x1024, .f32⟩
  | 89 => ⟨S512x1024, .f32⟩
  | 90 => ⟨S512x1024, .f32⟩
  | 91 => ⟨S512x1024, .f32⟩
  | 92 => ⟨S_, .f32⟩
  | 93 => ⟨S512x1024, .f32⟩
  | 94 => ⟨S512x1024, .f32⟩
  | 95 => ⟨S_, .f32⟩
  | 96 => ⟨S512x1024, .f32⟩
  | 97 => ⟨S512x1024, .f32⟩
  | 98 => ⟨S1x1024x1024, .f32⟩
  | 99 => ⟨S1024x1024, .f32⟩
  | 100 => ⟨S512x1024, .f32⟩
  | 101 => ⟨S512x1024, .f32⟩
  | 102 => ⟨S1x1024x1024, .f32⟩
  | 103 => ⟨S1024x1024, .f32⟩
  | 104 => ⟨S512x1024, .f32⟩
  | 105 => ⟨S512x1024, .f32⟩
  | 106 => ⟨S1x1024, .f32⟩
  | 107 => ⟨S1024, .f32⟩
  | 108 => ⟨S1x1024, .f32⟩
  | 109 => ⟨S512x1024, .f32⟩
  | 110 => ⟨S512x1024, .f32⟩
  | 111 => ⟨S512x1024, .f32⟩
  | 112 => ⟨S_, .f32⟩
  | 113 => ⟨S512x1024, .f32⟩
  | 114 => ⟨S512x1024, .f32⟩
  | 115 => ⟨S512x1024, .f32⟩
  | 116 => ⟨S512x1024, .f32⟩
  | 117 => ⟨S512x1024, .f32⟩
  | 118 => ⟨S1x1024x1024, .f32⟩
  | 119 => ⟨S1024x1024, .f32⟩
  | 120 => ⟨S512x1024, .f32⟩
  | 121 => ⟨S1x1024x1024, .f32⟩
  | 122 => ⟨S1024x1024, .f32⟩
  | 123 => ⟨S512x1024, .f32⟩
  | 124 => ⟨S512x1024, .f32⟩
  | 125 => ⟨S1x1024, .f32⟩
  | 126 => ⟨S1024, .f32⟩
  | 127 => ⟨S1x1024, .f32⟩
  | _ => ⟨S512x128x1024, .f32⟩

abbrev hbmTy0_7 (i : Nat) : BufTy := match i % 128 with
  | 0 => ⟨S512x1024, .f32⟩
  | 1 => ⟨S512x1024, .f32⟩
  | 2 => ⟨S512x1024, .f32⟩
  | 3 => ⟨S512x1024, .f32⟩
  | 4 => ⟨S_, .f32⟩
  | 5 => ⟨S512x1024, .f32⟩
  | 6 => ⟨S512x1024, .f32⟩
  | 7 => ⟨S_, .f32⟩
  | 8 => ⟨S512x1024, .f32⟩
  | 9 => ⟨S512x1024, .f32⟩
  | 10 => ⟨S1x1024x1024, .f32⟩
  | 11 => ⟨S1024x1024, .f32⟩
  | 12 => ⟨S512x1024, .f32⟩
  | 13 => ⟨S1x1024x1024, .f32⟩
  | 14 => ⟨S1024x1024, .f32⟩
  | 15 => ⟨S512x1024, .f32⟩
  | 16 => ⟨S512x1024, .f32⟩
  | 17 => ⟨S1x1024, .f32⟩
  | 18 => ⟨S1024, .f32⟩
  | 19 => ⟨S1x1024, .f32⟩
  | 20 => ⟨S512x1024, .f32⟩
  | 21 => ⟨S512x1024, .f32⟩
  | 22 => ⟨S512x1024, .f32⟩
  | 23 => ⟨S512x1024, .f32⟩
  | 24 => ⟨S_, .f32⟩
  | 25 => ⟨S512x1024, .f32⟩
  | 26 => ⟨S512x1024, .f32⟩
  | 27 => ⟨S_, .f32⟩
  | 28 => ⟨S512x1024, .f32⟩
  | 29 => ⟨S512x1024, .f32⟩
  | 30 => ⟨S1x1024x1024, .f32⟩
  | 31 => ⟨S1024x1024, .f32⟩
  | 32 => ⟨S512x1024, .f32⟩
  | 33 => ⟨S512x1024, .f32⟩
  | 34 => ⟨S1x1024x1024, .f32⟩
  | 35 => ⟨S1024x1024, .f32⟩
  | 36 => ⟨S512x1024, .f32⟩
  | 37 => ⟨S512x1024, .f32⟩
  | 38 => ⟨S1x1024, .f32⟩
  | 39 => ⟨S1024, .f32⟩
  | 40 => ⟨S1x1024, .f32⟩
  | 41 => ⟨S512x1024, .f32⟩
  | 42 => ⟨S512x1024, .f32⟩
  | 43 => ⟨S512x1024, .f32⟩
  | 44 => ⟨S_, .f32⟩
  | 45 => ⟨S512x1024, .f32⟩
  | 46 => ⟨S512x1024, .f32⟩
  | 47 => ⟨S512x1024, .f32⟩
  | 48 => ⟨S512x1024, .f32⟩
  | 49 => ⟨S512x1024, .f32⟩
  | 50 => ⟨S1x1024x1024, .f32⟩
  | 51 => ⟨S1024x1024, .f32⟩
  | 52 => ⟨S512x1024, .f32⟩
  | 53 => ⟨S1x1024x1024, .f32⟩
  | 54 => ⟨S1024x1024, .f32⟩
  | 55 => ⟨S512x1024, .f32⟩
  | 56 => ⟨S512x1024, .f32⟩
  | 57 => ⟨S1x1024, .f32⟩
  | 58 => ⟨S1024, .f32⟩
  | 59 => ⟨S1x1024, .f32⟩
  | 60 => ⟨S512x1024, .f32⟩
  | 61 => ⟨S512x1024, .f32⟩
  | 62 => ⟨S512x1024, .f32⟩
  | 63 => ⟨S512x1024, .f32⟩
  | 64 => ⟨S_, .f32⟩
  | 65 => ⟨S512x1024, .f32⟩
  | 66 => ⟨S512x1024, .f32⟩
  | 67 => ⟨S_, .f32⟩
  | 68 => ⟨S512x1024, .f32⟩
  | 69 => ⟨S512x1024, .f32⟩
  | 70 => ⟨S1x1024x1024, .f32⟩
  | 71 => ⟨S1024x1024, .f32⟩
  | 72 => ⟨S512x1024, .f32⟩
  | 73 => ⟨S1x1024x1024, .f32⟩
  | 74 => ⟨S1024x1024, .f32⟩
  | 75 => ⟨S512x1024, .f32⟩
  | 76 => ⟨S512x1024, .f32⟩
  | 77 => ⟨S1x1024, .f32⟩
  | 78 => ⟨S1024, .f32⟩
  | 79 => ⟨S1x1024, .f32⟩
  | 80 => ⟨S512x1024, .f32⟩
  | 81 => ⟨S512x1024, .f32⟩
  | 82 => ⟨S512x1024, .f32⟩
  | 83 => ⟨S512x1024, .f32⟩
  | 84 => ⟨S_, .f32⟩
  | 85 => ⟨S512x1024, .f32⟩
  | 86 => ⟨S512x1024, .f32⟩
  | 87 => ⟨S_, .f32⟩
  | 88 => ⟨S512x1024, .f32⟩
  | 89 => ⟨S512x1024, .f32⟩
  | 90 => ⟨S1x1024x1024, .f32⟩
  | 91 => ⟨S1024x1024, .f32⟩
  | 92 => ⟨S512x1024, .f32⟩
  | 93 => ⟨S512x1024, .f32⟩
  | 94 => ⟨S1x1024x1024, .f32⟩
  | 95 => ⟨S1024x1024, .f32⟩
  | 96 => ⟨S512x1024, .f32⟩
  | 97 => ⟨S512x1024, .f32⟩
  | 98 => ⟨S1x1024, .f32⟩
  | 99 => ⟨S1024, .f32⟩
  | 100 => ⟨S1x1024, .f32⟩
  | 101 => ⟨S512x1024, .f32⟩
  | 102 => ⟨S512x1024, .f32⟩
  | 103 => ⟨S512x1024, .f32⟩
  | 104 => ⟨S_, .f32⟩
  | 105 => ⟨S512x1024, .f32⟩
  | 106 => ⟨S512x1024, .f32⟩
  | 107 => ⟨S512x1024, .f32⟩
  | 108 => ⟨S512x1024, .f32⟩
  | 109 => ⟨S512x1024, .f32⟩
  | 110 => ⟨S512x1024, .f32⟩
  | 111 => ⟨S1x1024, .f32⟩
  | 112 => ⟨S512x1024, .f32⟩
  | 113 => ⟨S512x1024, .f32⟩
  | 114 => ⟨S1x512x1024, .f32⟩
  | 115 => ⟨S1x512x1024, .f32⟩
  | 116 => ⟨S1x512x1024, .f32⟩
  | 117 => ⟨S1x512x1024, .f32⟩
  | 118 => ⟨S1x512x1024, .f32⟩
  | 119 => ⟨S1x512x1024, .f32⟩
  | 120 => ⟨S1x512x1024, .f32⟩
  | 121 => ⟨S1x512x1024, .f32⟩
  | 122 => ⟨S8x512x1024, .f32⟩
  | 123 => ⟨S512x1x1024, .f32⟩
  | 124 => ⟨S512x1024, .f32⟩
  | 125 => ⟨S1x1024x1024, .f32⟩
  | 126 => ⟨S1024x1024, .f32⟩
  | 127 => ⟨S512x1024, .f32⟩
  | _ => ⟨S512x128x1024, .f32⟩

abbrev hbmTy0_8 (i : Nat) : BufTy := match i % 128 with
  | 0 => ⟨S1x1024x1024, .f32⟩
  | 1 => ⟨S1024x1024, .f32⟩
  | 2 => ⟨S512x1024, .f32⟩
  | 3 => ⟨S512x1024, .f32⟩
  | 4 => ⟨S1x1024, .f32⟩
  | 5 => ⟨S1024, .f32⟩
  | 6 => ⟨S1x1024, .f32⟩
  | 7 => ⟨S512x1024, .f32⟩
  | 8 => ⟨S512x1024, .f32⟩
  | 9 => ⟨S512x1024, .f32⟩
  | 10 => ⟨S512x1024, .f32⟩
  | 11 => ⟨S_, .f32⟩
  | 12 => ⟨S512x1024, .f32⟩
  | 13 => ⟨S512x1024, .f32⟩
  | 14 => ⟨S_, .f32⟩
  | 15 => ⟨S512x1024, .f32⟩
  | 16 => ⟨S512x1024, .f32⟩
  | 17 => ⟨S1x1024x1024, .f32⟩
  | 18 => ⟨S1024x1024, .f32⟩
  | 19 => ⟨S512x1024, .f32⟩
  | 20 => ⟨S1x1024x1024, .f32⟩
  | 21 => ⟨S1024x1024, .f32⟩
  | 22 => ⟨S512x1024, .f32⟩
  | 23 => ⟨S512x1024, .f32⟩
  | 24 => ⟨S1x1024, .f32⟩
  | 25 => ⟨S1024, .f32⟩
  | 26 => ⟨S1x1024, .f32⟩
  | 27 => ⟨S512x1024, .f32⟩
  | 28 => ⟨S512x1024, .f32⟩
  | 29 => ⟨S512x1024, .f32⟩
  | 30 => ⟨S512x1024, .f32⟩
  | 31 => ⟨S_, .f32⟩
  | 32 => ⟨S512x1024, .f32⟩
  | 33 => ⟨S512x1024, .f32⟩
  | 34 => ⟨S_, .f32⟩
  | 35 => ⟨S512x1024, .f32⟩
  | 36 => ⟨S512x1024, .f32⟩
  | 37 => ⟨S1x1024x1024, .f32⟩
  | 38 => ⟨S1024x1024, .f32⟩
  | 39 => ⟨S512x1024, .f32⟩
  | 40 => ⟨S512x1024, .f32⟩
  | 41 => ⟨S1x1024x1024, .f32⟩
  | 42 => ⟨S1024x1024, .f32⟩
  | 43 => ⟨S512x1024, .f32⟩
  | 44 => ⟨S512x1024, .f32⟩
  | 45 => ⟨S1x1024, .f32⟩
  | 46 => ⟨S1024, .f32⟩
  | 47 => ⟨S1x1024, .f32⟩
  | 48 => ⟨S512x1024, .f32⟩
  | 49 => ⟨S512x1024, .f32⟩
  | 50 => ⟨S512x1024, .f32⟩
  | 51 => ⟨S_, .f32⟩
  | 52 => ⟨S512x1024, .f32⟩
  | 53 => ⟨S512x1024, .f32⟩
  | 54 => ⟨S512x1024, .f32⟩
  | 55 => ⟨S512x1024, .f32⟩
  | 56 => ⟨S512x1024, .f32⟩
  | 57 => ⟨S1x1024x1024, .f32⟩
  | 58 => ⟨S1024x1024, .f32⟩
  | 59 => ⟨S512x1024, .f32⟩
  | 60 => ⟨S1x1024x1024, .f32⟩
  | 61 => ⟨S1024x1024, .f32⟩
  | 62 => ⟨S512x1024, .f32⟩
  | 63 => ⟨S512x1024, .f32⟩
  | 64 => ⟨S1x1024, .f32⟩
  | 65 => ⟨S1024, .f32⟩
  | 66 => ⟨S1x1024, .f32⟩
  | 67 => ⟨S512x1024, .f32⟩
  | 68 => ⟨S512x1024, .f32⟩
  | 69 => ⟨S512x1024, .f32⟩
  | 70 => ⟨S512x1024, .f32⟩
  | 71 => ⟨S_, .f32⟩
  | 72 => ⟨S512x1024, .f32⟩
  | 73 => ⟨S512x1024, .f32⟩
  | 74 => ⟨S_, .f32⟩
  | 75 => ⟨S512x1024, .f32⟩
  | 76 => ⟨S512x1024, .f32⟩
  | 77 => ⟨S1x1024x1024, .f32⟩
  | 78 => ⟨S1024x1024, .f32⟩
  | 79 => ⟨S512x1024, .f32⟩
  | 80 => ⟨S1x1024x1024, .f32⟩
  | 81 => ⟨S1024x1024, .f32⟩
  | 82 => ⟨S512x1024, .f32⟩
  | 83 => ⟨S512x1024, .f32⟩
  | 84 => ⟨S1x1024, .f32⟩
  | 85 => ⟨S1024, .f32⟩
  | 86 => ⟨S1x1024, .f32⟩
  | 87 => ⟨S512x1024, .f32⟩
  | 88 => ⟨S512x1024, .f32⟩
  | 89 => ⟨S512x1024, .f32⟩
  | 90 => ⟨S512x1024, .f32⟩
  | 91 => ⟨S_, .f32⟩
  | 92 => ⟨S512x1024, .f32⟩
  | 93 => ⟨S512x1024, .f32⟩
  | 94 => ⟨S_, .f32⟩
  | 95 => ⟨S512x1024, .f32⟩
  | 96 => ⟨S512x1024, .f32⟩
  | 97 => ⟨S1x1024x1024, .f32⟩
  | 98 => ⟨S1024x1024, .f32⟩
  | 99 => ⟨S512x1024, .f32⟩
  | 100 => ⟨S512x1024, .f32⟩
  | 101 => ⟨S1x1024x1024, .f32⟩
  | 102 => ⟨S1024x1024, .f32⟩
  | 103 => ⟨S512x1024, .f32⟩
  | 104 => ⟨S512x1024, .f32⟩
  | 105 => ⟨S1x1024, .f32⟩
  | 106 => ⟨S1024, .f32⟩
  | 107 => ⟨S1x1024, .f32⟩
  | 108 => ⟨S512x1024, .f32⟩
  | 109 => ⟨S512x1024, .f32⟩
  | 110 => ⟨S512x1024, .f32⟩
  | 111 => ⟨S_, .f32⟩
  | 112 => ⟨S512x1024, .f32⟩
  | 113 => ⟨S512x1024, .f32⟩
  | 114 => ⟨S512x1024, .f32⟩
  | 115 => ⟨S512x1024, .f32⟩
  | 116 => ⟨S512x1024, .f32⟩
  | 117 => ⟨S1x1024x1024, .f32⟩
  | 118 => ⟨S1024x1024, .f32⟩
  | 119 => ⟨S512x1024, .f32⟩
  | 120 => ⟨S1x1024x1024, .f32⟩
  | 121 => ⟨S1024x1024, .f32⟩
  | 122 => ⟨S512x1024, .f32⟩
  | 123 => ⟨S512x1024, .f32⟩
  | 124 => ⟨S1x1024, .f32⟩
  | 125 => ⟨S1024, .f32⟩
  | 126 => ⟨S1x1024, .f32⟩
  | 127 => ⟨S512x1024, .f32⟩
  | _ => ⟨S512x128x1024, .f32⟩

abbrev hbmTy0_9 (i : Nat) : BufTy := match i % 128 with
  | 0 => ⟨S512x1024, .f32⟩
  | 1 => ⟨S512x1024, .f32⟩
  | 2 => ⟨S512x1024, .f32⟩
  | 3 => ⟨S_, .f32⟩
  | 4 => ⟨S512x1024, .f32⟩
  | 5 => ⟨S512x1024, .f32⟩
  | 6 => ⟨S_, .f32⟩
  | 7 => ⟨S512x1024, .f32⟩
  | 8 => ⟨S512x1024, .f32⟩
  | 9 => ⟨S1x1024x1024, .f32⟩
  | 10 => ⟨S1024x1024, .f32⟩
  | 11 => ⟨S512x1024, .f32⟩
  | 12 => ⟨S1x1024x1024, .f32⟩
  | 13 => ⟨S1024x1024, .f32⟩
  | 14 => ⟨S512x1024, .f32⟩
  | 15 => ⟨S512x1024, .f32⟩
  | 16 => ⟨S1x1024, .f32⟩
  | 17 => ⟨S1024, .f32⟩
  | 18 => ⟨S1x1024, .f32⟩
  | 19 => ⟨S512x1024, .f32⟩
  | 20 => ⟨S512x1024, .f32⟩
  | 21 => ⟨S512x1024, .f32⟩
  | 22 => ⟨S512x1024, .f32⟩
  | 23 => ⟨S_, .f32⟩
  | 24 => ⟨S512x1024, .f32⟩
  | 25 => ⟨S512x1024, .f32⟩
  | 26 => ⟨S_, .f32⟩
  | 27 => ⟨S512x1024, .f32⟩
  | 28 => ⟨S512x1024, .f32⟩
  | 29 => ⟨S1x1024x1024, .f32⟩
  | 30 => ⟨S1024x1024, .f32⟩
  | 31 => ⟨S512x1024, .f32⟩
  | 32 => ⟨S512x1024, .f32⟩
  | 33 => ⟨S1x1024x1024, .f32⟩
  | 34 => ⟨S1024x1024, .f32⟩
  | 35 => ⟨S512x1024, .f32⟩
  | 36 => ⟨S512x1024, .f32⟩
  | 37 => ⟨S1x1024, .f32⟩
  | 38 => ⟨S1024, .f32⟩
  | 39 => ⟨S1x1024, .f32⟩
  | 40 => ⟨S512x1024, .f32⟩
  | 41 => ⟨S512x1024, .f32⟩
  | 42 => ⟨S512x1024, .f32⟩
  | 43 => ⟨S_, .f32⟩
  | 44 => ⟨S512x1024, .f32⟩
  | 45 => ⟨S512x1024, .f32⟩
  | 46 => ⟨S512x1024, .f32⟩
  | 47 => ⟨S512x1024, .f32⟩
  | 48 => ⟨S512x1024, .f32⟩
  | 49 => ⟨S1x1024x1024, .f32⟩
  | 50 => ⟨S1024x1024, .f32⟩
  | 51 => ⟨S512x1024, .f32⟩
  | 52 => ⟨S1x1024x1024, .f32⟩
  | 53 => ⟨S1024x1024, .f32⟩
  | 54 => ⟨S512x1024, .f32⟩
  | 55 => ⟨S512x1024, .f32⟩
  | 56 => ⟨S1x1024, .f32⟩
  | 57 => ⟨S1024, .f32⟩
  | 58 => ⟨S1x1024, .f32⟩
  | 59 => ⟨S512x1024, .f32⟩
  | 60 => ⟨S512x1024, .f32⟩
  | 61 => ⟨S512x1024, .f32⟩
  | 62 => ⟨S512x1024, .f32⟩
  | 63 => ⟨S_, .f32⟩
  | 64 => ⟨S512x1024, .f32⟩
  | 65 => ⟨S512x1024, .f32⟩
  | 66 => ⟨S_, .f32⟩
  | 67 => ⟨S512x1024, .f32⟩
  | 68 => ⟨S512x1024, .f32⟩
  | 69 => ⟨S1x1024x1024, .f32⟩
  | 70 => ⟨S1024x1024, .f32⟩
  | 71 => ⟨S512x1024, .f32⟩
  | 72 => ⟨S1x1024x1024, .f32⟩
  | 73 => ⟨S1024x1024, .f32⟩
  | 74 => ⟨S512x1024, .f32⟩
  | 75 => ⟨S512x1024, .f32⟩
  | 76 => ⟨S1x1024, .f32⟩
  | 77 => ⟨S1024, .f32⟩
  | 78 => ⟨S1x1024, .f32⟩
  | 79 => ⟨S512x1024, .f32⟩
  | 80 => ⟨S512x1024, .f32⟩
  | 81 => ⟨S512x1024, .f32⟩
  | 82 => ⟨S512x1024, .f32⟩
  | 83 => ⟨S_, .f32⟩
  | 84 => ⟨S512x1024, .f32⟩
  | 85 => ⟨S512x1024, .f32⟩
  | 86 => ⟨S_, .f32⟩
  | 87 => ⟨S512x1024, .f32⟩
  | 88 => ⟨S512x1024, .f32⟩
  | 89 => ⟨S1x1024x1024, .f32⟩
  | 90 => ⟨S1024x1024, .f32⟩
  | 91 => ⟨S512x1024, .f32⟩
  | 92 => ⟨S512x1024, .f32⟩
  | 93 => ⟨S1x1024x1024, .f32⟩
  | 94 => ⟨S1024x1024, .f32⟩
  | 95 => ⟨S512x1024, .f32⟩
  | 96 => ⟨S512x1024, .f32⟩
  | 97 => ⟨S1x1024, .f32⟩
  | 98 => ⟨S1024, .f32⟩
  | 99 => ⟨S1x1024, .f32⟩
  | 100 => ⟨S512x1024, .f32⟩
  | 101 => ⟨S512x1024, .f32⟩
  | 102 => ⟨S512x1024, .f32⟩
  | 103 => ⟨S_, .f32⟩
  | 104 => ⟨S512x1024, .f32⟩
  | 105 => ⟨S512x1024, .f32⟩
  | 106 => ⟨S512x1024, .f32⟩
  | 107 => ⟨S512x1024, .f32⟩
  | 108 => ⟨S512x1024, .f32⟩
  | 109 => ⟨S1x1024x1024, .f32⟩
  | 110 => ⟨S1024x1024, .f32⟩
  | 111 => ⟨S512x1024, .f32⟩
  | 112 => ⟨S1x1024x1024, .f32⟩
  | 113 => ⟨S1024x1024, .f32⟩
  | 114 => ⟨S512x1024, .f32⟩
  | 115 => ⟨S512x1024, .f32⟩
  | 116 => ⟨S1x1024, .f32⟩
  | 117 => ⟨S1024, .f32⟩
  | 118 => ⟨S1x1024, .f32⟩
  | 119 => ⟨S512x1024, .f32⟩
  | 120 => ⟨S512x1024, .f32⟩
  | 121 => ⟨S512x1024, .f32⟩
  | 122 => ⟨S512x1024, .f32⟩
  | 123 => ⟨S_, .f32⟩
  | 124 => ⟨S512x1024, .f32⟩
  | 125 => ⟨S512x1024, .f32⟩
  | 126 => ⟨S_, .f32⟩
  | 127 => ⟨S512x1024, .f32⟩
  | _ => ⟨S512x128x1024, .f32⟩

abbrev hbmTy0_10 (i : Nat) : BufTy := match i % 128 with
  | 0 => ⟨S512x1024, .f32⟩
  | 1 => ⟨S1x1024x1024, .f32⟩
  | 2 => ⟨S1024x1024, .f32⟩
  | 3 => ⟨S512x1024, .f32⟩
  | 4 => ⟨S1x1024x1024, .f32⟩
  | 5 => ⟨S1024x1024, .f32⟩
  | 6 => ⟨S512x1024, .f32⟩
  | 7 => ⟨S512x1024, .f32⟩
  | 8 => ⟨S1x1024, .f32⟩
  | 9 => ⟨S1024, .f32⟩
  | 10 => ⟨S1x1024, .f32⟩
  | 11 => ⟨S512x1024, .f32⟩
  | 12 => ⟨S512x1024, .f32⟩
  | 13 => ⟨S512x1024, .f32⟩
  | 14 => ⟨S512x1024, .f32⟩
  | 15 => ⟨S_, .f32⟩
  | 16 => ⟨S512x1024, .f32⟩
  | 17 => ⟨S512x1024, .f32⟩
  | 18 => ⟨S_, .f32⟩
  | 19 => ⟨S512x1024, .f32⟩
  | 20 => ⟨S512x1024, .f32⟩
  | 21 => ⟨S1x1024x1024, .f32⟩
  | 22 => ⟨S1024x1024, .f32⟩
  | 23 => ⟨S512x1024, .f32⟩
  | 24 => ⟨S512x1024, .f32⟩
  | 25 => ⟨S1x1024x1024, .f32⟩
  | 26 => ⟨S1024x1024, .f32⟩
  | 27 => ⟨S512x1024, .f32⟩
  | 28 => ⟨S512x1024, .f32⟩
  | 29 => ⟨S1x1024, .f32⟩
  | 30 => ⟨S1024, .f32⟩
  | 31 => ⟨S1x1024, .f32⟩
  | 32 => ⟨S512x1024, .f32⟩
  | 33 => ⟨S512x1024, .f32⟩
  | 34 => ⟨S512x1024, .f32⟩
  | 35 => ⟨S_, .f32⟩
  | 36 => ⟨S512x1024, .f32⟩
  | 37 => ⟨S512x1024, .f32⟩
  | 38 => ⟨S512x1024, .f32⟩
  | 39 => ⟨S512x1024, .f32⟩
  | 40 => ⟨S512x1024, .f32⟩
  | 41 => ⟨S1x1024x1024, .f32⟩
  | 42 => ⟨S1024x1024, .f32⟩
  | 43 => ⟨S512x1024, .f32⟩
  | 44 => ⟨S1x1024x1024, .f32⟩
  | 45 => ⟨S1024x1024, .f32⟩
  | 46 => ⟨S512x1024, .f32⟩
  | 47 => ⟨S512x1024, .f32⟩
  | 48 => ⟨S1x1024, .f32⟩
  | 49 => ⟨S1024, .f32⟩
  | 50 => ⟨S1x1024, .f32⟩
  | 51 => ⟨S512x1024, .f32⟩
  | 52 => ⟨S512x1024, .f32⟩
  | 53 => ⟨S512x1024, .f32⟩
  | 54 => ⟨S512x1024, .f32⟩
  | 55 => ⟨S_, .f32⟩
  | 56 => ⟨S512x1024, .f32⟩
  | 57 => ⟨S512x1024, .f32⟩
  | 58 => ⟨S_, .f32⟩
  | 59 => ⟨S512x1024, .f32⟩
  | 60 => ⟨S512x1024, .f32⟩
  | 61 => ⟨S1x1024x1024, .f32⟩
  | 62 => ⟨S1024x1024, .f32⟩
  | 63 => ⟨S512x1024, .f32⟩
  | 64 => ⟨S1x1024x1024, .f32⟩
  | 65 => ⟨S1024x1024, .f32⟩
  | 66 => ⟨S512x1024, .f32⟩
  | 67 => ⟨S512x1024, .f32⟩
  | 68 => ⟨S1x1024, .f32⟩
  | 69 => ⟨S1024, .f32⟩
  | 70 => ⟨S1x1024, .f32⟩
  | 71 => ⟨S512x1024, .f32⟩
  | 72 => ⟨S512x1024, .f32⟩
  | 73 => ⟨S512x1024, .f32⟩
  | 74 => ⟨S512x1024, .f32⟩
  | 75 => ⟨S_, .f32⟩
  | 76 => ⟨S512x1024, .f32⟩
  | 77 => ⟨S512x1024, .f32⟩
  | 78 => ⟨S_, .f32⟩
  | 79 => ⟨S512x1024, .f32⟩
  | 80 => ⟨S512x1024, .f32⟩
  | 81 => ⟨S1x1024x1024, .f32⟩
  | 82 => ⟨S1024x1024, .f32⟩
  | 83 => ⟨S512x1024, .f32⟩
  | 84 => ⟨S512x1024, .f32⟩
  | 85 => ⟨S1x1024x1024, .f32⟩
  | 86 => ⟨S1024x1024, .f32⟩
  | 87 => ⟨S512x1024, .f32⟩
  | 88 => ⟨S512x1024, .f32⟩
  | 89 => ⟨S1x1024, .f32⟩
  | 90 => ⟨S1024, .f32⟩
  | 91 => ⟨S1x1024, .f32⟩
  | 92 => ⟨S512x1024, .f32⟩
  | 93 => ⟨S512x1024, .f32⟩
  | 94 => ⟨S512x1024, .f32⟩
  | 95 => ⟨S_, .f32⟩
  | 96 => ⟨S512x1024, .f32⟩
  | 97 => ⟨S512x1024, .f32⟩
  | 98 => ⟨S512x1024, .f32⟩
  | 99 => ⟨S512x1024, .f32⟩
  | 100 => ⟨S512x1024, .f32⟩
  | 101 => ⟨S1x1024x1024, .f32⟩
  | 102 => ⟨S1024x1024, .f32⟩
  | 103 => ⟨S512x1024, .f32⟩
  | 104 => ⟨S1x1024x1024, .f32⟩
  | 105 => ⟨S1024x1024, .f32⟩
  | 106 => ⟨S512x1024, .f32⟩
  | 107 => ⟨S512x1024, .f32⟩
  | 108 => ⟨S1x1024, .f32⟩
  | 109 => ⟨S1024, .f32⟩
  | 110 => ⟨S1x1024, .f32⟩
  | 111 => ⟨S512x1024, .f32⟩
  | 112 => ⟨S512x1024, .f32⟩
  | 113 => ⟨S512x1024, .f32⟩
  | 114 => ⟨S512x1024, .f32⟩
  | 115 => ⟨S_, .f32⟩
  | 116 => ⟨S512x1024, .f32⟩
  | 117 => ⟨S512x1024, .f32⟩
  | 118 => ⟨S_, .f32⟩
  | 119 => ⟨S512x1024, .f32⟩
  | 120 => ⟨S512x1024, .f32⟩
  | 121 => ⟨S1x1024x1024, .f32⟩
  | 122 => ⟨S1024x1024, .f32⟩
  | 123 => ⟨S512x1024, .f32⟩
  | 124 => ⟨S1x1024x1024, .f32⟩
  | 125 => ⟨S1024x1024, .f32⟩
  | 126 => ⟨S512x1024, .f32⟩
  | 127 => ⟨S512x1024, .f32⟩
  | _ => ⟨S512x128x1024, .f32⟩

abbrev hbmTy0_11 (i : Nat) : BufTy := match i % 128 with
  | 0 => ⟨S1x1024, .f32⟩
  | 1 => ⟨S1024, .f32⟩
  | 2 => ⟨S1x1024, .f32⟩
  | 3 => ⟨S512x1024, .f32⟩
  | 4 => ⟨S512x1024, .f32⟩
  | 5 => ⟨S512x1024, .f32⟩
  | 6 => ⟨S512x1024, .f32⟩
  | 7 => ⟨S_, .f32⟩
  | 8 => ⟨S512x1024, .f32⟩
  | 9 => ⟨S512x1024, .f32⟩
  | 10 => ⟨S_, .f32⟩
  | 11 => ⟨S512x1024, .f32⟩
  | 12 => ⟨S512x1024, .f32⟩
  | 13 => ⟨S1x1024x1024, .f32⟩
  | 14 => ⟨S1024x1024, .f32⟩
  | 15 => ⟨S512x1024, .f32⟩
  | 16 => ⟨S512x1024, .f32⟩
  | 17 => ⟨S1x1024x1024, .f32⟩
  | 18 => ⟨S1024x1024, .f32⟩
  | 19 => ⟨S512x1024, .f32⟩
  | 20 => ⟨S512x1024, .f32⟩
  | 21 => ⟨S1x1024, .f32⟩
  | 22 => ⟨S1024, .f32⟩
  | 23 => ⟨S1x1024, .f32⟩
  | 24 => ⟨S512x1024, .f32⟩
  | 25 => ⟨S512x1024, .f32⟩
  | 26 => ⟨S512x1024, .f32⟩
  | 27 => ⟨S_, .f32⟩
  | 28 => ⟨S512x1024, .f32⟩
  | 29 => ⟨S512x1024, .f32⟩
  | 30 => ⟨S512x1024, .f32⟩
  | 31 => ⟨S512x1024, .f32⟩
  | 32 => ⟨S512x1024, .f32⟩
  | 33 => ⟨S1x1024x1024, .f32⟩
  | 34 => ⟨S1024x1024, .f32⟩
  | 35 => ⟨S512x1024, .f32⟩
  | 36 => ⟨S1x1024x1024, .f32⟩
  | 37 => ⟨S1024x1024, .f32⟩
  | 38 => ⟨S512x1024, .f32⟩
  | 39 => ⟨S512x1024, .f32⟩
  | 40 => ⟨S1x1024, .f32⟩
  | 41 => ⟨S1024, .f32⟩
  | 42 => ⟨S1x1024, .f32⟩
  | 43 => ⟨S512x1024, .f32⟩
  | 44 => ⟨S512x1024, .f32⟩
  | 45 => ⟨S512x1024, .f32⟩
  | 46 => ⟨S512x1024, .f32⟩
  | 47 => ⟨S_, .f32⟩
  | 48 => ⟨S512x1024, .f32⟩
  | 49 => ⟨S512x1024, .f32⟩
  | 50 => ⟨S_, .f32⟩
  | 51 => ⟨S512x1024, .f32⟩
  | 52 => ⟨S512x1024, .f32⟩
  | 53 => ⟨S1x1024x1024, .f32⟩
  | 54 => ⟨S1024x1024, .f32⟩
  | 55 => ⟨S512x1024, .f32⟩
  | 56 => ⟨S1x1024x1024, .f32⟩
  | 57 => ⟨S1024x1024, .f32⟩
  | 58 => ⟨S512x1024, .f32⟩
  | 59 => ⟨S512x1024, .f32⟩
  | 60 => ⟨S1x1024, .f32⟩
  | 61 => ⟨S1024, .f32⟩
  | 62 => ⟨S1x1024, .f32⟩
  | 63 => ⟨S512x1024, .f32⟩
  | 64 => ⟨S512x1024, .f32⟩
  | 65 => ⟨S512x1024, .f32⟩
  | 66 => ⟨S512x1024, .f32⟩
  | 67 => ⟨S_, .f32⟩
  | 68 => ⟨S512x1024, .f32⟩
  | 69 => ⟨S512x1024, .f32⟩
  | 70 => ⟨S_, .f32⟩
  | 71 => ⟨S512x1024, .f32⟩
  | 72 => ⟨S512x1024, .f32⟩
  | 73 => ⟨S1x1024x1024, .f32⟩
  | 74 => ⟨S1024x1024, .f32⟩
  | 75 => ⟨S512x1024, .f32⟩
  | 76 => ⟨S512x1024, .f32⟩
  | 77 => ⟨S1x1024x1024, .f32⟩
  | 78 => ⟨S1024x1024, .f32⟩
  | 79 => ⟨S512x1024, .f32⟩
  | 80 => ⟨S512x1024, .f32⟩
  | 81 => ⟨S1x1024, .f32⟩
  | 82 => ⟨S1024, .f32⟩
  | 83 => ⟨S1x1024, .f32⟩
  | 84 => ⟨S512x1024, .f32⟩
  | 85 => ⟨S512x1024, .f32⟩
  | 86 => ⟨S512x1024, .f32⟩
  | 87 => ⟨S_, .f32⟩
  | 88 => ⟨S512x1024, .f32⟩
  | 89 => ⟨S512x1024, .f32⟩
  | 90 => ⟨S512x1024, .f32⟩
  | 91 => ⟨S512x1024, .f32⟩
  | 92 => ⟨S512x1024, .f32⟩
  | 93 => ⟨S512x1024, .f32⟩
  | 94 => ⟨S1x1024, .f32⟩
  | 95 => ⟨S512x1024, .f32⟩
  | 96 => ⟨S512x1024, .f32⟩
  | 97 => ⟨S1x512x1024, .f32⟩
  | 98 => ⟨S1x512x1024, .f32⟩
  | 99 => ⟨S1x512x1024, .f32⟩
  | 100 => ⟨S1x512x1024, .f32⟩
  | 101 => ⟨S1x512x1024, .f32⟩
  | 102 => ⟨S1x512x1024, .f32⟩
  | 103 => ⟨S1x512x1024, .f32⟩
  | 104 => ⟨S1x512x1024, .f32⟩
  | 105 => ⟨S8x512x1024, .f32⟩
  | 106 => ⟨S512x1x1024, .f32⟩
  | 107 => ⟨S512x1024, .f32⟩
  | 108 => ⟨S1x1024x1024, .f32⟩
  | 109 => ⟨S1024x1024, .f32⟩
  | 110 => ⟨S512x1024, .f32⟩
  | 111 => ⟨S1x1024x1024, .f32⟩
  | 112 => ⟨S1024x1024, .f32⟩
  | 113 => ⟨S512x1024, .f32⟩
  | 114 => ⟨S512x1024, .f32⟩
  | 115 => ⟨S1x1024, .f32⟩
  | 116 => ⟨S1024, .f32⟩
  | 117 => ⟨S1x1024, .f32⟩
  | 118 => ⟨S512x1024, .f32⟩
  | 119 => ⟨S512x1024, .f32⟩
  | 120 => ⟨S512x1024, .f32⟩
  | 121 => ⟨S512x1024, .f32⟩
  | 122 => ⟨S_, .f32⟩
  | 123 => ⟨S512x1024, .f32⟩
  | 124 => ⟨S512x1024, .f32⟩
  | 125 => ⟨S_, .f32⟩
  | 126 => ⟨S512x1024, .f32⟩
  | 127 => ⟨S512x1024, .f32⟩
  | _ => ⟨S512x128x1024, .f32⟩

abbrev hbmTy0_12 (i : Nat) : BufTy := match i % 128 with
  | 0 => ⟨S1x1024x1024, .f32⟩
  | 1 => ⟨S1024x1024, .f32⟩
  | 2 => ⟨S512x1024, .f32⟩
  | 3 => ⟨S1x1024x1024, .f32⟩
  | 4 => ⟨S1024x1024, .f32⟩
  | 5 => ⟨S512x1024, .f32⟩
  | 6 => ⟨S512x1024, .f32⟩
  | 7 => ⟨S1x1024, .f32⟩
  | 8 => ⟨S1024, .f32⟩
  | 9 => ⟨S1x1024, .f32⟩
  | 10 => ⟨S512x1024, .f32⟩
  | 11 => ⟨S512x1024, .f32⟩
  | 12 => ⟨S512x1024, .f32⟩
  | 13 => ⟨S512x1024, .f32⟩
  | 14 => ⟨S_, .f32⟩
  | 15 => ⟨S512x1024, .f32⟩
  | 16 => ⟨S512x1024, .f32⟩
  | 17 => ⟨S_, .f32⟩
  | 18 => ⟨S512x1024, .f32⟩
  | 19 => ⟨S512x1024, .f32⟩
  | 20 => ⟨S1x1024x1024, .f32⟩
  | 21 => ⟨S1024x1024, .f32⟩
  | 22 => ⟨S512x1024, .f32⟩
  | 23 => ⟨S512x1024, .f32⟩
  | 24 => ⟨S1x1024x1024, .f32⟩
  | 25 => ⟨S1024x1024, .f32⟩
  | 26 => ⟨S512x1024, .f32⟩
  | 27 => ⟨S512x1024, .f32⟩
  | 28 => ⟨S1x1024, .f32⟩
  | 29 => ⟨S1024, .f32⟩
  | 30 => ⟨S1x1024, .f32⟩
  | 31 => ⟨S512x1024, .f32⟩
  | 32 => ⟨S512x1024, .f32⟩
  | 33 => ⟨S512x1024, .f32⟩
  | 34 => ⟨S_, .f32⟩
  | 35 => ⟨S512x1024, .f32⟩
  | 36 => ⟨S512x1024, .f32⟩
  | 37 => ⟨S512x1024, .f32⟩
  | 38 => ⟨S512x1024, .f32⟩
  | 39 => ⟨S512x1024, .f32⟩
  | 40 => ⟨S1x1024x1024, .f32⟩
  | 41 => ⟨S1024x1024, .f32⟩
  | 42 => ⟨S512x1024, .f32⟩
  | 43 => ⟨S1x1024x1024, .f32⟩
  | 44 => ⟨S1024x1024, .f32⟩
  | 45 => ⟨S512x1024, .f32⟩
  | 46 => ⟨S512x1024, .f32⟩
  | 47 => ⟨S1x1024, .f32⟩
  | 48 => ⟨S1024, .f32⟩
  | 49 => ⟨S1x1024, .f32⟩
  | 50 => ⟨S512x1024, .f32⟩
  | 51 => ⟨S512x1024, .f32⟩
  | 52 => ⟨S512x1024, .f32⟩
  | 53 => ⟨S512x1024, .f32⟩
  | 54 => ⟨S_, .f32⟩
  | 55 => ⟨S512x1024, .f32⟩
  | 56 => ⟨S512x1024, .f32⟩
  | 57 => ⟨S_, .f32⟩
  | 58 => ⟨S512x1024, .f32⟩
  | 59 => ⟨S512x1024, .f32⟩
  | 60 => ⟨S1x1024x1024, .f32⟩
  | 61 => ⟨S1024x1024, .f32⟩
  | 62 => ⟨S512x1024, .f32⟩
  | 63 => ⟨S1x1024x1024, .f32⟩
  | 64 => ⟨S1024x1024, .f32⟩
  | 65 => ⟨S512x1024, .f32⟩
  | 66 => ⟨S512x1024, .f32⟩
  | 67 => ⟨S1x1024, .f32⟩
  | 68 => ⟨S1024, .f32⟩
  | 69 => ⟨S1x1024, .f32⟩
  | 70 => ⟨S512x1024, .f32⟩
  | 71 => ⟨S512x1024, .f32⟩
  | 72 => ⟨S512x1024, .f32⟩
  | 73 => ⟨S512x1024, .f32⟩
  | 74 => ⟨S_, .f32⟩
  | 75 => ⟨S512x1024, .f32⟩
  | 76 => ⟨S512x1024, .f32⟩
  | 77 => ⟨S_, .f32⟩
  | 78 => ⟨S512x1024, .f32⟩
  | 79 => ⟨S512x1024, .f32⟩
  | 80 => ⟨S1x1024x1024, .f32⟩
  | 81 => ⟨S1024x1024, .f32⟩
  | 82 => ⟨S512x1024, .f32⟩
  | 83 => ⟨S512x1024, .f32⟩
  | 84 => ⟨S1x1024x1024, .f32⟩
  | 85 => ⟨S1024x1024, .f32⟩
  | 86 => ⟨S512x1024, .f32⟩
  | 87 => ⟨S512x1024, .f32⟩
  | 88 => ⟨S1x1024, .f32⟩
  | 89 => ⟨S1024, .f32⟩
  | 90 => ⟨S1x1024, .f32⟩
  | 91 => ⟨S512x1024, .f32⟩
  | 92 => ⟨S512x1024, .f32⟩
  | 93 => ⟨S512x1024, .f32⟩
  | 94 => ⟨S_, .f32⟩
  | 95 => ⟨S512x1024, .f32⟩
  | 96 => ⟨S512x1024, .f32⟩
  | 97 => ⟨S512x1024, .f32⟩
  | 98 => ⟨S512x1024, .f32⟩
  | 99 => ⟨S512x1024, .f32⟩
  | 100 => ⟨S1x1024x1024, .f32⟩
  | 101 => ⟨S1024x1024, .f32⟩
  | 102 => ⟨S512x1024, .f32⟩
  | 103 => ⟨S1x1024x1024, .f32⟩
  | 104 => ⟨S1024x1024, .f32⟩
  | 105 => ⟨S512x1024, .f32⟩
  | 106 => ⟨S512x1024, .f32⟩
  | 107 => ⟨S1x1024, .f32⟩
  | 108 => ⟨S1024, .f32⟩
  | 109 => ⟨S1x1024, .f32⟩
  | 110 => ⟨S512x1024, .f32⟩
  | 111 => ⟨S512x1024, .f32⟩
  | 112 => ⟨S512x1024, .f32⟩
  | 113 => ⟨S512x1024, .f32⟩
  | 114 => ⟨S_, .f32⟩
  | 115 => ⟨S512x1024, .f32⟩
  | 116 => ⟨S512x1024, .f32⟩
  | 117 => ⟨S_, .f32⟩
  | 118 => ⟨S512x1024, .f32⟩
  | 119 => ⟨S512x1024, .f32⟩
  | 120 => ⟨S1x1024x1024, .f32⟩
  | 121 => ⟨S1024x1024, .f32⟩
  | 122 => ⟨S512x1024, .f32⟩
  | 123 => ⟨S1x1024x1024, .f32⟩
  | 124 => ⟨S1024x1024, .f32⟩
  | 125 => ⟨S512x1024, .f32⟩
  | 126 => ⟨S512x1024, .f32⟩
  | 127 => ⟨S1x1024, .f32⟩
  | _ => ⟨S512x128x1024, .f32⟩

abbrev hbmTy0_13 (i : Nat) : BufTy := match i % 128 with
  | 0 => ⟨S1024, .f32⟩
  | 1 => ⟨S1x1024, .f32⟩
  | 2 => ⟨S512x1024, .f32⟩
  | 3 => ⟨S512x1024, .f32⟩
  | 4 => ⟨S512x1024, .f32⟩
  | 5 => ⟨S512x1024, .f32⟩
  | 6 => ⟨S_, .f32⟩
  | 7 => ⟨S512x1024, .f32⟩
  | 8 => ⟨S512x1024, .f32⟩
  | 9 => ⟨S_, .f32⟩
  | 10 => ⟨S512x1024, .f32⟩
  | 11 => ⟨S512x1024, .f32⟩
  | 12 => ⟨S1x1024x1024, .f32⟩
  | 13 => ⟨S1024x1024, .f32⟩
  | 14 => ⟨S512x1024, .f32⟩
  | 15 => ⟨S512x1024, .f32⟩
  | 16 => ⟨S1x1024x1024, .f32⟩
  | 17 => ⟨S1024x1024, .f32⟩
  | 18 => ⟨S512x1024, .f32⟩
  | 19 => ⟨S512x1024, .f32⟩
  | 20 => ⟨S1x1024, .f32⟩
  | 21 => ⟨S1024, .f32⟩
  | 22 => ⟨S1x1024, .f32⟩
  | 23 => ⟨S512x1024, .f32⟩
  | 24 => ⟨S512x1024, .f32⟩
  | 25 => ⟨S512x1024, .f32⟩
  | 26 => ⟨S_, .f32⟩
  | 27 => ⟨S512x1024, .f32⟩
  | 28 => ⟨S512x1024, .f32⟩
  | 29 => ⟨S512x1024, .f32⟩
  | 30 => ⟨S512x1024, .f32⟩
  | 31 => ⟨S512x1024, .f32⟩
  | 32 => ⟨S1x1024x1024, .f32⟩
  | 33 => ⟨S1024x1024, .f32⟩
  | 34 => ⟨S512x1024, .f32⟩
  | 35 => ⟨S1x1024x1024, .f32⟩
  | 36 => ⟨S1024x1024, .f32⟩
  | 37 => ⟨S512x1024, .f32⟩
  | 38 => ⟨S512x1024, .f32⟩
  | 39 => ⟨S1x1024, .f32⟩
  | 40 => ⟨S1024, .f32⟩
  | 41 => ⟨S1x1024, .f32⟩
  | 42 => ⟨S512x1024, .f32⟩
  | 43 => ⟨S512x1024, .f32⟩
  | 44 => ⟨S512x1024, .f32⟩
  | 45 => ⟨S512x1024, .f32⟩
  | 46 => ⟨S_, .f32⟩
  | 47 => ⟨S512x1024, .f32⟩
  | 48 => ⟨S512x1024, .f32⟩
  | 49 => ⟨S_, .f32⟩
  | 50 => ⟨S512x1024, .f32⟩
  | 51 => ⟨S512x1024, .f32⟩
  | 52 => ⟨S1x1024x1024, .f32⟩
  | 53 => ⟨S1024x1024, .f32⟩
  | 54 => ⟨S512x1024, .f32⟩
  | 55 => ⟨S1x1024x1024, .f32⟩
  | 56 => ⟨S1024x1024, .f32⟩
  | 57 => ⟨S512x1024, .f32⟩
  | 58 => ⟨S512x1024, .f32⟩
  | 59 => ⟨S1x1024, .f32⟩
  | 60 => ⟨S1024, .f32⟩
  | 61 => ⟨S1x1024, .f32⟩
  | 62 => ⟨S512x1024, .f32⟩
  | 63 => ⟨S512x1024, .f32⟩
  | 64 => ⟨S512x1024, .f32⟩
  | 65 => ⟨S512x1024, .f32⟩
  | 66 => ⟨S_, .f32⟩
  | 67 => ⟨S512x1024, .f32⟩
  | 68 => ⟨S512x1024, .f32⟩
  | 69 => ⟨S_, .f32⟩
  | 70 => ⟨S512x1024, .f32⟩
  | 71 => ⟨S512x1024, .f32⟩
  | 72 => ⟨S1x1024x1024, .f32⟩
  | 73 => ⟨S1024x1024, .f32⟩
  | 74 => ⟨S512x1024, .f32⟩
  | 75 => ⟨S512x1024, .f32⟩
  | 76 => ⟨S1x1024x1024, .f32⟩
  | 77 => ⟨S1024x1024, .f32⟩
  | 78 => ⟨S512x1024, .f32⟩
  | 79 => ⟨S512x1024, .f32⟩
  | 80 => ⟨S1x1024, .f32⟩
  | 81 => ⟨S1024, .f32⟩
  | 82 => ⟨S1x1024, .f32⟩
  | 83 => ⟨S512x1024, .f32⟩
  | 84 => ⟨S512x1024, .f32⟩
  | 85 => ⟨S512x1024, .f32⟩
  | 86 => ⟨S_, .f32⟩
  | 87 => ⟨S512x1024, .f32⟩
  | 88 => ⟨S512x1024, .f32⟩
  | 89 => ⟨S512x1024, .f32⟩
  | 90 => ⟨S512x1024, .f32⟩
  | 91 => ⟨S512x1024, .f32⟩
  | 92 => ⟨S1x1024x1024, .f32⟩
  | 93 => ⟨S1024x1024, .f32⟩
  | 94 => ⟨S512x1024, .f32⟩
  | 95 => ⟨S1x1024x1024, .f32⟩
  | 96 => ⟨S1024x1024, .f32⟩
  | 97 => ⟨S512x1024, .f32⟩
  | 98 => ⟨S512x1024, .f32⟩
  | 99 => ⟨S1x1024, .f32⟩
  | 100 => ⟨S1024, .f32⟩
  | 101 => ⟨S1x1024, .f32⟩
  | 102 => ⟨S512x1024, .f32⟩
  | 103 => ⟨S512x1024, .f32⟩
  | 104 => ⟨S512x1024, .f32⟩
  | 105 => ⟨S512x1024, .f32⟩
  | 106 => ⟨S_, .f32⟩
  | 107 => ⟨S512x1024, .f32⟩
  | 108 => ⟨S512x1024, .f32⟩
  | 109 => ⟨S_, .f32⟩
  | 110 => ⟨S512x1024, .f32⟩
  | 111 => ⟨S512x1024, .f32⟩
  | 112 => ⟨S1x1024x1024, .f32⟩
  | 113 => ⟨S1024x1024, .f32⟩
  | 114 => ⟨S512x1024, .f32⟩
  | 115 => ⟨S1x1024x1024, .f32⟩
  | 116 => ⟨S1024x1024, .f32⟩
  | 117 => ⟨S512x1024, .f32⟩
  | 118 => ⟨S512x1024, .f32⟩
  | 119 => ⟨S1x1024, .f32⟩
  | 120 => ⟨S1024, .f32⟩
  | 121 => ⟨S1x1024, .f32⟩
  | 122 => ⟨S512x1024, .f32⟩
  | 123 => ⟨S512x1024, .f32⟩
  | 124 => ⟨S512x1024, .f32⟩
  | 125 => ⟨S512x1024, .f32⟩
  | 126 => ⟨S_, .f32⟩
  | 127 => ⟨S512x1024, .f32⟩
  | _ => ⟨S512x128x1024, .f32⟩

abbrev hbmTy0_14 (i : Nat) : BufTy := match i % 128 with
  | 0 => ⟨S512x1024, .f32⟩
  | 1 => ⟨S_, .f32⟩
  | 2 => ⟨S512x1024, .f32⟩
  | 3 => ⟨S512x1024, .f32⟩
  | 4 => ⟨S1x1024x1024, .f32⟩
  | 5 => ⟨S1024x1024, .f32⟩
  | 6 => ⟨S512x1024, .f32⟩
  | 7 => ⟨S512x1024, .f32⟩
  | 8 => ⟨S1x1024x1024, .f32⟩
  | 9 => ⟨S1024x1024, .f32⟩
  | 10 => ⟨S512x1024, .f32⟩
  | 11 => ⟨S512x1024, .f32⟩
  | 12 => ⟨S1x1024, .f32⟩
  | 13 => ⟨S1024, .f32⟩
  | 14 => ⟨S1x1024, .f32⟩
  | 15 => ⟨S512x1024, .f32⟩
  | 16 => ⟨S512x1024, .f32⟩
  | 17 => ⟨S512x1024, .f32⟩
  | 18 => ⟨S_, .f32⟩
  | 19 => ⟨S512x1024, .f32⟩
  | 20 => ⟨S512x1024, .f32⟩
  | 21 => ⟨S512x1024, .f32⟩
  | 22 => ⟨S512x1024, .f32⟩
  | 23 => ⟨S512x1024, .f32⟩
  | 24 => ⟨S1x1024x1024, .f32⟩
  | 25 => ⟨S1024x1024, .f32⟩
  | 26 => ⟨S512x1024, .f32⟩
  | 27 => ⟨S1x1024x1024, .f32⟩
  | 28 => ⟨S1024x1024, .f32⟩
  | 29 => ⟨S512x1024, .f32⟩
  | 30 => ⟨S512x1024, .f32⟩
  | 31 => ⟨S1x1024, .f32⟩
  | 32 => ⟨S1024, .f32⟩
  | 33 => ⟨S1x1024, .f32⟩
  | 34 => ⟨S512x1024, .f32⟩
  | 35 => ⟨S512x1024, .f32⟩
  | 36 => ⟨S512x1024, .f32⟩
  | 37 => ⟨S512x1024, .f32⟩
  | 38 => ⟨S_, .f32⟩
  | 39 => ⟨S512x1024, .f32⟩
  | 40 => ⟨S512x1024, .f32⟩
  | 41 => ⟨S_, .f32⟩
  | 42 => ⟨S512x1024, .f32⟩
  | 43 => ⟨S512x1024, .f32⟩
  | 44 => ⟨S1x1024x1024, .f32⟩
  | 45 => ⟨S1024x1024, .f32⟩
  | 46 => ⟨S512x1024, .f32⟩
  | 47 => ⟨S1x1024x1024, .f32⟩
  | 48 => ⟨S1024x1024, .f32⟩
  | 49 => ⟨S512x1024, .f32⟩
  | 50 => ⟨S512x1024, .f32⟩
  | 51 => ⟨S1x1024, .f32⟩
  | 52 => ⟨S1024, .f32⟩
  | 53 => ⟨S1x1024, .f32⟩
  | 54 => ⟨S512x1024, .f32⟩
  | 55 => ⟨S512x1024, .f32⟩
  | 56 => ⟨S512x1024, .f32⟩
  | 57 => ⟨S512x1024, .f32⟩
  | 58 => ⟨S_, .f32⟩
  | 59 => ⟨S512x1024, .f32⟩
  | 60 => ⟨S512x1024, .f32⟩
  | 61 => ⟨S_, .f32⟩
  | 62 => ⟨S512x1024, .f32⟩
  | 63 => ⟨S512x1024, .f32⟩
  | 64 => ⟨S1x1024x1024, .f32⟩
  | 65 => ⟨S1024x1024, .f32⟩
  | 66 => ⟨S512x1024, .f32⟩
  | 67 => ⟨S512x1024, .f32⟩
  | 68 => ⟨S1x1024x1024, .f32⟩
  | 69 => ⟨S1024x1024, .f32⟩
  | 70 => ⟨S512x1024, .f32⟩
  | 71 => ⟨S512x1024, .f32⟩
  | 72 => ⟨S1x1024, .f32⟩
  | 73 => ⟨S1024, .f32⟩
  | 74 => ⟨S1x1024, .f32⟩
  | 75 => ⟨S512x1024, .f32⟩
  | 76 => ⟨S512x1024, .f32⟩
  | 77 => ⟨S512x1024, .f32⟩
  | 78 => ⟨S_, .f32⟩
  | 79 => ⟨S512x1024, .f32⟩
  | 80 => ⟨S512x1024, .f32⟩
  | 81 => ⟨S512x1024, .f32⟩
  | 82 => ⟨S512x1024, .f32⟩
  | 83 => ⟨S512x1024, .f32⟩
  | 84 => ⟨S1x1024x1024, .f32⟩
  | 85 => ⟨S1024x1024, .f32⟩
  | 86 => ⟨S512x1024, .f32⟩
  | 87 => ⟨S1x1024x1024, .f32⟩
  | 88 => ⟨S1024x1024, .f32⟩
  | 89 => ⟨S512x1024, .f32⟩
  | 90 => ⟨S512x1024, .f32⟩
  | 91 => ⟨S1x1024, .f32⟩
  | 92 => ⟨S1024, .f32⟩
  | 93 => ⟨S1x1024, .f32⟩
  | 94 => ⟨S512x1024, .f32⟩
  | 95 => ⟨S512x1024, .f32⟩
  | 96 => ⟨S512x1024, .f32⟩
  | 97 => ⟨S512x1024, .f32⟩
  | 98 => ⟨S_, .f32⟩
  | 99 => ⟨S512x1024, .f32⟩
  | 100 => ⟨S512x1024, .f32⟩
  | 101 => ⟨S_, .f32⟩
  | 102 => ⟨S512x1024, .f32⟩
  | 103 => ⟨S512x1024, .f32⟩
  | 104 => ⟨S1x1024x1024, .f32⟩
  | 105 => ⟨S1024x1024, .f32⟩
  | 106 => ⟨S512x1024, .f32⟩
  | 107 => ⟨S1x1024x1024, .f32⟩
  | 108 => ⟨S1024x1024, .f32⟩
  | 109 => ⟨S512x1024, .f32⟩
  | 110 => ⟨S512x1024, .f32⟩
  | 111 => ⟨S1x1024, .f32⟩
  | 112 => ⟨S1024, .f32⟩
  | 113 => ⟨S1x1024, .f32⟩
  | 114 => ⟨S512x1024, .f32⟩
  | 115 => ⟨S512x1024, .f32⟩
  | 116 => ⟨S512x1024, .f32⟩
  | 117 => ⟨S512x1024, .f32⟩
  | 118 => ⟨S_, .f32⟩
  | 119 => ⟨S512x1024, .f32⟩
  | 120 => ⟨S512x1024, .f32⟩
  | 121 => ⟨S_, .f32⟩
  | 122 => ⟨S512x1024, .f32⟩
  | 123 => ⟨S512x1024, .f32⟩
  | 124 => ⟨S1x1024x1024, .f32⟩
  | 125 => ⟨S1024x1024, .f32⟩
  | 126 => ⟨S512x1024, .f32⟩
  | 127 => ⟨S512x1024, .f32⟩
  | _ => ⟨S512x128x1024, .f32⟩

abbrev hbmTy0_15 (i : Nat) : BufTy := match i % 128 with
  | 0 => ⟨S1x1024x1024, .f32⟩
  | 1 => ⟨S1024x1024, .f32⟩
  | 2 => ⟨S512x1024, .f32⟩
  | 3 => ⟨S512x1024, .f32⟩
  | 4 => ⟨S1x1024, .f32⟩
  | 5 => ⟨S1024, .f32⟩
  | 6 => ⟨S1x1024, .f32⟩
  | 7 => ⟨S512x1024, .f32⟩
  | 8 => ⟨S512x1024, .f32⟩
  | 9 => ⟨S512x1024, .f32⟩
  | 10 => ⟨S_, .f32⟩
  | 11 => ⟨S512x1024, .f32⟩
  | 12 => ⟨S512x1024, .f32⟩
  | 13 => ⟨S512x1024, .f32⟩
  | 14 => ⟨S512x1024, .f32⟩
  | 15 => ⟨S512x1024, .f32⟩
  | 16 => ⟨S1x1024x1024, .f32⟩
  | 17 => ⟨S1024x1024, .f32⟩
  | 18 => ⟨S512x1024, .f32⟩
  | 19 => ⟨S1x1024x1024, .f32⟩
  | 20 => ⟨S1024x1024, .f32⟩
  | 21 => ⟨S512x1024, .f32⟩
  | 22 => ⟨S512x1024, .f32⟩
  | 23 => ⟨S1x1024, .f32⟩
  | 24 => ⟨S1024, .f32⟩
  | 25 => ⟨S1x1024, .f32⟩
  | 26 => ⟨S512x1024, .f32⟩
  | 27 => ⟨S512x1024, .f32⟩
  | 28 => ⟨S512x1024, .f32⟩
  | 29 => ⟨S512x1024, .f32⟩
  | 30 => ⟨S_, .f32⟩
  | 31 => ⟨S512x1024, .f32⟩
  | 32 => ⟨S512x1024, .f32⟩
  | 33 => ⟨S_, .f32⟩
  | 34 => ⟨S512x1024, .f32⟩
  | 35 => ⟨S512x1024, .f32⟩
  | 36 => ⟨S1x1024x1024, .f32⟩
  | 37 => ⟨S1024x1024, .f32⟩
  | 38 => ⟨S512x1024, .f32⟩
  | 39 => ⟨S1x1024x1024, .f32⟩
  | 40 => ⟨S1024x1024, .f32⟩
  | 41 => ⟨S512x1024, .f32⟩
  | 42 => ⟨S512x1024, .f32⟩
  | 43 => ⟨S1x1024, .f32⟩
  | 44 => ⟨S1024, .f32⟩
  | 45 => ⟨S1x1024, .f32⟩
  | 46 => ⟨S512x1024, .f32⟩
  | 47 => ⟨S512x1024, .f32⟩
  | 48 => ⟨S512x1024, .f32⟩
  | 49 => ⟨S512x1024, .f32⟩
  | 50 => ⟨S_, .f32⟩
  | 51 => ⟨S512x1024, .f32⟩
  | 52 => ⟨S512x1024, .f32⟩
  | 53 => ⟨S_, .f32⟩
  | 54 => ⟨S512x1024, .f32⟩
  | 55 => ⟨S512x1024, .f32⟩
  | 56 => ⟨S1x1024x1024, .f32⟩
  | 57 => ⟨S1024x1024, .f32⟩
  | 58 => ⟨S512x1024, .f32⟩
  | 59 => ⟨S512x1024, .f32⟩
  | 60 => ⟨S1x1024x1024, .f32⟩
  | 61 => ⟨S1024x1024, .f32⟩
  | 62 => ⟨S512x1024, .f32⟩
  | 63 => ⟨S512x1024, .f32⟩
  | 64 => ⟨S1x1024, .f32⟩
  | 65 => ⟨S1024, .f32⟩
  | 66 => ⟨S1x1024, .f32⟩
  | 67 => ⟨S512x1024, .f32⟩
  | 68 => ⟨S512x1024, .f32⟩
  | 69 => ⟨S512x1024, .f32⟩
  | 70 => ⟨S_, .f32⟩
  | 71 => ⟨S512x1024, .f32⟩
  | 72 => ⟨S512x1024, .f32⟩
  | 73 => ⟨S512x1024, .f32⟩
  | 74 => ⟨S512x1024, .f32⟩
  | 75 => ⟨S512x1024, .f32⟩
  | 76 => ⟨S512x1024, .f32⟩
  | 77 => ⟨S1x1024, .f32⟩
  | 78 => ⟨S512x1024, .f32⟩
  | 79 => ⟨S512x1024, .f32⟩
  | 80 => ⟨S1x512x1024, .f32⟩
  | 81 => ⟨S1x512x1024, .f32⟩
  | 82 => ⟨S1x512x1024, .f32⟩
  | 83 => ⟨S1x512x1024, .f32⟩
  | 84 => ⟨S1x512x1024, .f32⟩
  | 85 => ⟨S1x512x1024, .f32⟩
  | 86 => ⟨S1x512x1024, .f32⟩
  | 87 => ⟨S1x512x1024, .f32⟩
  | 88 => ⟨S8x512x1024, .f32⟩
  | 89 => ⟨S512x1x1024, .f32⟩
  | 90 => ⟨S512x1024, .f32⟩
  | 91 => ⟨S1x1024x1024, .f32⟩
  | 92 => ⟨S1024x1024, .f32⟩
  | 93 => ⟨S512x1024, .f32⟩
  | 94 => ⟨S1x1024x1024, .f32⟩
  | 95 => ⟨S1024x1024, .f32⟩
  | 96 => ⟨S512x1024, .f32⟩
  | 97 => ⟨S512x1024, .f32⟩
  | 98 => ⟨S1x1024, .f32⟩
  | 99 => ⟨S1024, .f32⟩
  | 100 => ⟨S1x1024, .f32⟩
  | 101 => ⟨S512x1024, .f32⟩
  | 102 => ⟨S512x1024, .f32⟩
  | 103 => ⟨S512x1024, .f32⟩
  | 104 => ⟨S512x1024, .f32⟩
  | 105 => ⟨S_, .f32⟩
  | 106 => ⟨S512x1024, .f32⟩
  | 107 => ⟨S512x1024, .f32⟩
  | 108 => ⟨S_, .f32⟩
  | 109 => ⟨S512x1024, .f32⟩
  | 110 => ⟨S512x1024, .f32⟩
  | 111 => ⟨S1x1024x1024, .f32⟩
  | 112 => ⟨S1024x1024, .f32⟩
  | 113 => ⟨S512x1024, .f32⟩
  | 114 => ⟨S1x1024x1024, .f32⟩
  | 115 => ⟨S1024x1024, .f32⟩
  | 116 => ⟨S512x1024, .f32⟩
  | 117 => ⟨S512x1024, .f32⟩
  | 118 => ⟨S1x1024, .f32⟩
  | 119 => ⟨S1024, .f32⟩
  | 120 => ⟨S1x1024, .f32⟩
  | 121 => ⟨S512x1024, .f32⟩
  | 122 => ⟨S512x1024, .f32⟩
  | 123 => ⟨S512x1024, .f32⟩
  | 124 => ⟨S512x1024, .f32⟩
  | 125 => ⟨S_, .f32⟩
  | 126 => ⟨S512x1024, .f32⟩
  | 127 => ⟨S512x1024, .f32⟩
  | _ => ⟨S512x128x1024, .f32⟩

abbrev hbmTy0_16 (i : Nat) : BufTy := match i % 128 with
  | 0 => ⟨S_, .f32⟩
  | 1 => ⟨S512x1024, .f32⟩
  | 2 => ⟨S512x1024, .f32⟩
  | 3 => ⟨S1x1024x1024, .f32⟩
  | 4 => ⟨S1024x1024, .f32⟩
  | 5 => ⟨S512x1024, .f32⟩
  | 6 => ⟨S512x1024, .f32⟩
  | 7 => ⟨S1x1024x1024, .f32⟩
  | 8 => ⟨S1024x1024, .f32⟩
  | 9 => ⟨S512x1024, .f32⟩
  | 10 => ⟨S512x1024, .f32⟩
  | 11 => ⟨S1x1024, .f32⟩
  | 12 => ⟨S1024, .f32⟩
  | 13 => ⟨S1x1024, .f32⟩
  | 14 => ⟨S512x1024, .f32⟩
  | 15 => ⟨S512x1024, .f32⟩
  | 16 => ⟨S512x1024, .f32⟩
  | 17 => ⟨S_, .f32⟩
  | 18 => ⟨S512x1024, .f32⟩
  | 19 => ⟨S512x1024, .f32⟩
  | 20 => ⟨S512x1024, .f32⟩
  | 21 => ⟨S512x1024, .f32⟩
  | 22 => ⟨S512x1024, .f32⟩
  | 23 => ⟨S1x1024x1024, .f32⟩
  | 24 => ⟨S1024x1024, .f32⟩
  | 25 => ⟨S512x1024, .f32⟩
  | 26 => ⟨S1x1024x1024, .f32⟩
  | 27 => ⟨S1024x1024, .f32⟩
  | 28 => ⟨S512x1024, .f32⟩
  | 29 => ⟨S512x1024, .f32⟩
  | 30 => ⟨S1x1024, .f32⟩
  | 31 => ⟨S1024, .f32⟩
  | 32 => ⟨S1x1024, .f32⟩
  | 33 => ⟨S512x1024, .f32⟩
  | 34 => ⟨S512x1024, .f32⟩
  | 35 => ⟨S512x1024, .f32⟩
  | 36 => ⟨S512x1024, .f32⟩
  | 37 => ⟨S_, .f32⟩
  | 38 => ⟨S512x1024, .f32⟩
  | 39 => ⟨S512x1024, .f32⟩
  | 40 => ⟨S_, .f32⟩
  | 41 => ⟨S512x1024, .f32⟩
  | 42 => ⟨S512x1024, .f32⟩
  | 43 => ⟨S1x1024x1024, .f32⟩
  | 44 => ⟨S1024x1024, .f32⟩
  | 45 => ⟨S512x1024, .f32⟩
  | 46 => ⟨S1x1024x1024, .f32⟩
  | 47 => ⟨S1024x1024, .f32⟩
  | 48 => ⟨S512x1024, .f32⟩
  | 49 => ⟨S512x1024, .f32⟩
  | 50 => ⟨S1x1024, .f32⟩
  | 51 => ⟨S1024, .f32⟩
  | 52 => ⟨S1x1024, .f32⟩
  | 53 => ⟨S512x1024, .f32⟩
  | 54 => ⟨S512x1024, .f32⟩
  | 55 => ⟨S512x1024, .f32⟩
  | 56 => ⟨S512x1024, .f32⟩
  | 57 => ⟨S_, .f32⟩
  | 58 => ⟨S512x1024, .f32⟩
  | 59 => ⟨S512x1024, .f32⟩
  | 60 => ⟨S_, .f32⟩
  | 61 => ⟨S512x1024, .f32⟩
  | 62 => ⟨S512x1024, .f32⟩
  | 63 => ⟨S1x1024x1024, .f32⟩
  | 64 => ⟨S1024x1024, .f32⟩
  | 65 => ⟨S512x1024, .f32⟩
  | 66 => ⟨S512x1024, .f32⟩
  | 67 => ⟨S1x1024x1024, .f32⟩
  | 68 => ⟨S1024x1024, .f32⟩
  | 69 => ⟨S512x1024, .f32⟩
  | 70 => ⟨S512x1024, .f32⟩
  | 71 => ⟨S1x1024, .f32⟩
  | 72 => ⟨S1024, .f32⟩
  | 73 => ⟨S1x1024, .f32⟩
  | 74 => ⟨S512x1024, .f32⟩
  | 75 => ⟨S512x1024, .f32⟩
  | 76 => ⟨S512x1024, .f32⟩
  | 77 => ⟨S_, .f32⟩
  | 78 => ⟨S512x1024, .f32⟩
  | 79 => ⟨S512x1024, .f32⟩
  | 80 => ⟨S512x1024, .f32⟩
  | 81 => ⟨S512x1024, .f32⟩
  | 82 => ⟨S512x1024, .f32⟩
  | 83 => ⟨S1x1024x1024, .f32⟩
  | 84 => ⟨S1024x1024, .f32⟩
  | 85 => ⟨S512x1024, .f32⟩
  | 86 => ⟨S1x1024x1024, .f32⟩
  | 87 => ⟨S1024x1024, .f32⟩
  | 88 => ⟨S512x1024, .f32⟩
  | 89 => ⟨S512x1024, .f32⟩
  | 90 => ⟨S1x1024, .f32⟩
  | 91 => ⟨S1024, .f32⟩
  | 92 => ⟨S1x1024, .f32⟩
  | 93 => ⟨S512x1024, .f32⟩
  | 94 => ⟨S512x1024, .f32⟩
  | 95 => ⟨S512x1024, .f32⟩
  | 96 => ⟨S512x1024, .f32⟩
  | 97 => ⟨S_, .f32⟩
  | 98 => ⟨S512x1024, .f32⟩
  | 99 => ⟨S512x1024, .f32⟩
  | 100 => ⟨S_, .f32⟩
  | 101 => ⟨S512x1024, .f32⟩
  | 102 => ⟨S512x1024, .f32⟩
  | 103 => ⟨S1x1024x1024, .f32⟩
  | 104 => ⟨S1024x1024, .f32⟩
  | 105 => ⟨S512x1024, .f32⟩
  | 106 => ⟨S1x1024x1024, .f32⟩
  | 107 => ⟨S1024x1024, .f32⟩
  | 108 => ⟨S512x1024, .f32⟩
  | 109 => ⟨S512x1024, .f32⟩
  | 110 => ⟨S1x1024, .f32⟩
  | 111 => ⟨S1024, .f32⟩
  | 112 => ⟨S1x1024, .f32⟩
  | 113 => ⟨S512x1024, .f32⟩
  | 114 => ⟨S512x1024, .f32⟩
  | 115 => ⟨S512x1024, .f32⟩
  | 116 => ⟨S512x1024, .f32⟩
  | 117 => ⟨S_, .f32⟩
  | 118 => ⟨S512x1024, .f32⟩
  | 119 => ⟨S512x1024, .f32⟩
  | 120 => ⟨S_, .f32⟩
  | 121 => ⟨S512x1024, .f32⟩
  | 122 => ⟨S512x1024, .f32⟩
  | 123 => ⟨S1x1024x1024, .f32⟩
  | 124 => ⟨S1024x1024, .f32⟩
  | 125 => ⟨S512x1024, .f32⟩
  | 126 => ⟨S512x1024, .f32⟩
  | 127 => ⟨S1x1024x1024, .f32⟩
  | _ => ⟨S512x128x1024, .f32⟩

abbrev hbmTy0_17 (i : Nat) : BufTy := match i % 128 with
  | 0 => ⟨S1024x1024, .f32⟩
  | 1 => ⟨S512x1024, .f32⟩
  | 2 => ⟨S512x1024, .f32⟩
  | 3 => ⟨S1x1024, .f32⟩
  | 4 => ⟨S1024, .f32⟩
  | 5 => ⟨S1x1024, .f32⟩
  | 6 => ⟨S512x1024, .f32⟩
  | 7 => ⟨S512x1024, .f32⟩
  | 8 => ⟨S512x1024, .f32⟩
  | 9 => ⟨S_, .f32⟩
  | 10 => ⟨S512x1024, .f32⟩
  | 11 => ⟨S512x1024, .f32⟩
  | 12 => ⟨S512x1024, .f32⟩
  | 13 => ⟨S512x1024, .f32⟩
  | 14 => ⟨S512x1024, .f32⟩
  | 15 => ⟨S1x1024x1024, .f32⟩
  | 16 => ⟨S1024x1024, .f32⟩
  | 17 => ⟨S512x1024, .f32⟩
  | 18 => ⟨S1x1024x1024, .f32⟩
  | 19 => ⟨S1024x1024, .f32⟩
  | 20 => ⟨S512x1024, .f32⟩
  | 21 => ⟨S512x1024, .f32⟩
  | 22 => ⟨S1x1024, .f32⟩
  | 23 => ⟨S1024, .f32⟩
  | 24 => ⟨S1x1024, .f32⟩
  | 25 => ⟨S512x1024, .f32⟩
  | 26 => ⟨S512x1024, .f32⟩
  | 27 => ⟨S512x1024, .f32⟩
  | 28 => ⟨S512x1024, .f32⟩
  | 29 => ⟨S_, .f32⟩
  | 30 => ⟨S512x1024, .f32⟩
  | 31 => ⟨S512x1024, .f32⟩
  | 32 => ⟨S_, .f32⟩
  | 33 => ⟨S512x1024, .f32⟩
  | 34 => ⟨S512x1024, .f32⟩
  | 35 => ⟨S1x1024x1024, .f32⟩
  | 36 => ⟨S1024x1024, .f32⟩
  | 37 => ⟨S512x1024, .f32⟩
  | 38 => ⟨S1x1024x1024, .f32⟩
  | 39 => ⟨S1024x1024, .f32⟩
  | 40 => ⟨S512x1024, .f32⟩
  | 41 => ⟨S512x1024, .f32⟩
  | 42 => ⟨S1x1024, .f32⟩
  | 43 => ⟨S1024, .f32⟩
  | 44 => ⟨S1x1024, .f32⟩
  | 45 => ⟨S512x1024, .f32⟩
  | 46 => ⟨S512x1024, .f32⟩
  | 47 => ⟨S512x1024, .f32⟩
  | 48 => ⟨S512x1024, .f32⟩
  | 49 => ⟨S_, .f32⟩
  | 50 => ⟨S512x1024, .f32⟩
  | 51 => ⟨S512x1024, .f32⟩
  | 52 => ⟨S_, .f32⟩
  | 53 => ⟨S512x1024, .f32⟩
  | 54 => ⟨S512x1024, .f32⟩
  | 55 => ⟨S1x1024x1024, .f32⟩
  | 56 => ⟨S1024x1024, .f32⟩
  | 57 => ⟨S512x1024, .f32⟩
  | 58 => ⟨S512x1024, .f32⟩
  | 59 => ⟨S1x1024x1024, .f32⟩
  | 60 => ⟨S1024x1024, .f32⟩
  | 61 => ⟨S512x1024, .f32⟩
  | 62 => ⟨S512x1024, .f32⟩
  | 63 => ⟨S1x1024, .f32⟩
  | 64 => ⟨S1024, .f32⟩
  | 65 => ⟨S1x1024, .f32⟩
  | 66 => ⟨S512x1024, .f32⟩
  | 67 => ⟨S512x1024, .f32⟩
  | 68 => ⟨S512x1024, .f32⟩
  | 69 => ⟨S_, .f32⟩
  | 70 => ⟨S512x1024, .f32⟩
  | 71 => ⟨S512x1024, .f32⟩
  | 72 => ⟨S512x1024, .f32⟩
  | 73 => ⟨S512x1024, .f32⟩
  | 74 => ⟨S512x1024, .f32⟩
  | 75 => ⟨S1x1024x1024, .f32⟩
  | 76 => ⟨S1024x1024, .f32⟩
  | 77 => ⟨S512x1024, .f32⟩
  | 78 => ⟨S1x1024x1024, .f32⟩
  | 79 => ⟨S1024x1024, .f32⟩
  | 80 => ⟨S512x1024, .f32⟩
  | 81 => ⟨S512x1024, .f32⟩
  | 82 => ⟨S1x1024, .f32⟩
  | 83 => ⟨S1024, .f32⟩
  | 84 => ⟨S1x1024, .f32⟩
  | 85 => ⟨S512x1024, .f32⟩
  | 86 => ⟨S512x1024, .f32⟩
  | 87 => ⟨S512x1024, .f32⟩
  | 88 => ⟨S512x1024, .f32⟩
  | 89 => ⟨S_, .f32⟩
  | 90 => ⟨S512x1024, .f32⟩
  | 91 => ⟨S512x1024, .f32⟩
  | 92 => ⟨S_, .f32⟩
  | 93 => ⟨S512x1024, .f32⟩
  | 94 => ⟨S512x1024, .f32⟩
  | 95 => ⟨S1x1024x1024, .f32⟩
  | 96 => ⟨S1024x1024, .f32⟩
  | 97 => ⟨S512x1024, .f32⟩
  | 98 => ⟨S1x1024x1024, .f32⟩
  | 99 => ⟨S1024x1024, .f32⟩
  | 100 => ⟨S512x1024, .f32⟩
  | 101 => ⟨S512x1024, .f32⟩
  | 102 => ⟨S1x1024, .f32⟩
  | 103 => ⟨S1024, .f32⟩
  | 104 => ⟨S1x1024, .f32⟩
  | 105 => ⟨S512x1024, .f32⟩
  | 106 => ⟨S512x1024, .f32⟩
  | 107 => ⟨S512x1024, .f32⟩
  | 108 => ⟨S512x1024, .f32⟩
  | 109 => ⟨S_, .f32⟩
  | 110 => ⟨S512x1024, .f32⟩
  | 111 => ⟨S512x1024, .f32⟩
  | 112 => ⟨S_, .f32⟩
  | 113 => ⟨S512x1024, .f32⟩
  | 114 => ⟨S512x1024, .f32⟩
  | 115 => ⟨S1x1024x1024, .f32⟩
  | 116 => ⟨S1024x1024, .f32⟩
  | 117 => ⟨S512x1024, .f32⟩
  | 118 => ⟨S512x1024, .f32⟩
  | 119 => ⟨S1x1024x1024, .f32⟩
  | 120 => ⟨S1024x1024, .f32⟩
  | 121 => ⟨S512x1024, .f32⟩
  | 122 => ⟨S512x1024, .f32⟩
  | 123 => ⟨S1x1024, .f32⟩
  | 124 => ⟨S1024, .f32⟩
  | 125 => ⟨S1x1024, .f32⟩
  | 126 => ⟨S512x1024, .f32⟩
  | 127 => ⟨S512x1024, .f32⟩
  | _ => ⟨S512x128x1024, .f32⟩

abbrev hbmTy0_18 (i : Nat) : BufTy := match i % 128 with
  | 0 => ⟨S512x1024, .f32⟩
  | 1 => ⟨S_, .f32⟩
  | 2 => ⟨S512x1024, .f32⟩
  | 3 => ⟨S512x1024, .f32⟩
  | 4 => ⟨S512x1024, .f32⟩
  | 5 => ⟨S512x1024, .f32⟩
  | 6 => ⟨S512x1024, .f32⟩
  | 7 => ⟨S1x1024x1024, .f32⟩
  | 8 => ⟨S1024x1024, .f32⟩
  | 9 => ⟨S512x1024, .f32⟩
  | 10 => ⟨S1x1024x1024, .f32⟩
  | 11 => ⟨S1024x1024, .f32⟩
  | 12 => ⟨S512x1024, .f32⟩
  | 13 => ⟨S512x1024, .f32⟩
  | 14 => ⟨S1x1024, .f32⟩
  | 15 => ⟨S1024, .f32⟩
  | 16 => ⟨S1x1024, .f32⟩
  | 17 => ⟨S512x1024, .f32⟩
  | 18 => ⟨S512x1024, .f32⟩
  | 19 => ⟨S512x1024, .f32⟩
  | 20 => ⟨S512x1024, .f32⟩
  | 21 => ⟨S_, .f32⟩
  | 22 => ⟨S512x1024, .f32⟩
  | 23 => ⟨S512x1024, .f32⟩
  | 24 => ⟨S_, .f32⟩
  | 25 => ⟨S512x1024, .f32⟩
  | 26 => ⟨S512x1024, .f32⟩
  | 27 => ⟨S1x1024x1024, .f32⟩
  | 28 => ⟨S1024x1024, .f32⟩
  | 29 => ⟨S512x1024, .f32⟩
  | 30 => ⟨S1x1024x1024, .f32⟩
  | 31 => ⟨S1024x1024, .f32⟩
  | 32 => ⟨S512x1024, .f32⟩
  | 33 => ⟨S512x1024, .f32⟩
  | 34 => ⟨S1x1024, .f32⟩
  | 35 => ⟨S1024, .f32⟩
  | 36 => ⟨S1x1024, .f32⟩
  | 37 => ⟨S512x1024, .f32⟩
  | 38 => ⟨S512x1024, .f32⟩
  | 39 => ⟨S512x1024, .f32⟩
  | 40 => ⟨S512x1024, .f32⟩
  | 41 => ⟨S_, .f32⟩
  | 42 => ⟨S512x1024, .f32⟩
  | 43 => ⟨S512x1024, .f32⟩
  | 44 => ⟨S_, .f32⟩
  | 45 => ⟨S512x1024, .f32⟩
  | 46 => ⟨S512x1024, .f32⟩
  | 47 => ⟨S1x1024x1024, .f32⟩
  | 48 => ⟨S1024x1024, .f32⟩
  | 49 => ⟨S512x1024, .f32⟩
  | 50 => ⟨S512x1024, .f32⟩
  | 51 => ⟨S1x1024x1024, .f32⟩
  | 52 => ⟨S1024x1024, .f32⟩
  | 53 => ⟨S512x1024, .f32⟩
  | 54 => ⟨S512x1024, .f32⟩
  | 55 => ⟨S1x1024, .f32⟩
  | 56 => ⟨S1024, .f32⟩
  | 57 => ⟨S1x1024, .f32⟩
  | 58 => ⟨S512x1024, .f32⟩
  | 59 => ⟨S512x1024, .f32⟩
  | 60 => ⟨S512x1024, .f32⟩
  | 61 => ⟨S_, .f32⟩
  | 62 => ⟨S512x1024, .f32⟩
  | 63 => ⟨S512x1024, .f32⟩
  | 64 => ⟨S512x1024, .f32⟩
  | 65 => ⟨S512x1024, .f32⟩
  | 66 => ⟨S512x1024, .f32⟩
  | 67 => ⟨S1x1024x1024, .f32⟩
  | 68 => ⟨S1024x1024, .f32⟩
  | 69 => ⟨S512x1024, .f32⟩
  | 70 => ⟨S1x1024x1024, .f32⟩
  | 71 => ⟨S1024x1024, .f32⟩
  | 72 => ⟨S512x1024, .f32⟩
  | 73 => ⟨S512x1024, .f32⟩
  | 74 => ⟨S1x1024, .f32⟩
  | 75 => ⟨S1024, .f32⟩
  | 76 => ⟨S1x1024, .f32⟩
  | 77 => ⟨S512x1024, .f32⟩
  | 78 => ⟨S512x1024, .f32⟩
  | 79 => ⟨S512x1024, .f32⟩
  | 80 => ⟨S512x1024, .f32⟩
  | 81 => ⟨S_, .f32⟩
  | 82 => ⟨S512x1024, .f32⟩
  | 83 => ⟨S512x1024, .f32⟩
  | 84 => ⟨S_, .f32⟩
  | 85 => ⟨S512x1024, .f32⟩
  | 86 => ⟨S512x1024, .f32⟩
  | 87 => ⟨S1x1024x1024, .f32⟩
  | 88 => ⟨S1024x1024, .f32⟩
  | 89 => ⟨S512x1024, .f32⟩
  | 90 => ⟨S1x1024x1024, .f32⟩
  | 91 => ⟨S1024x1024, .f32⟩
  | 92 => ⟨S512x1024, .f32⟩
  | 93 => ⟨S512x1024, .f32⟩
  | 94 => ⟨S1x1024, .f32⟩
  | 95 => ⟨S1024, .f32⟩
  | 96 => ⟨S1x1024, .f32⟩
  | 97 => ⟨S512x1024, .f32⟩
  | 98 => ⟨S512x1024, .f32⟩
  | 99 => ⟨S512x1024, .f32⟩
  | 100 => ⟨S512x1024, .f32⟩
  | 101 => ⟨S_, .f32⟩
  | 102 => ⟨S512x1024, .f32⟩
  | 103 => ⟨S512x1024, .f32⟩
  | 104 => ⟨S_, .f32⟩
  | 105 => ⟨S512x1024, .f32⟩
  | 106 => ⟨S512x1024, .f32⟩
  | 107 => ⟨S1x1024x1024, .f32⟩
  | 108 => ⟨S1024x1024, .f32⟩
  | 109 => ⟨S512x1024, .f32⟩
  | 110 => ⟨S512x1024, .f32⟩
  | 111 => ⟨S1x1024x1024, .f32⟩
  | 112 => ⟨S1024x1024, .f32⟩
  | 113 => ⟨S512x1024, .f32⟩
  | 114 => ⟨S512x1024, .f32⟩
  | 115 => ⟨S1x1024, .f32⟩
  | 116 => ⟨S1024, .f32⟩
  | 117 => ⟨S1x1024, .f32⟩
  | 118 => ⟨S512x1024, .f32⟩
  | 119 => ⟨S512x1024, .f32⟩
  | 120 => ⟨S512x1024, .f32⟩
  | 121 => ⟨S_, .f32⟩
  | 122 => ⟨S512x1024, .f32⟩
  | 123 => ⟨S512x1024, .f32⟩
  | 124 => ⟨S512x1024, .f32⟩
  | 125 => ⟨S512x1024, .f32⟩
  | 126 => ⟨S512x1024, .f32⟩
  | 127 => ⟨S1x1024x1024, .f32⟩
  | _ => ⟨S512x128x1024, .f32⟩

abbrev hbmTy0_19 (i : Nat) : BufTy := match i % 128 with
  | 0 => ⟨S1024x1024, .f32⟩
  | 1 => ⟨S512x1024, .f32⟩
  | 2 => ⟨S1x1024x1024, .f32⟩
  | 3 => ⟨S1024x1024, .f32⟩
  | 4 => ⟨S512x1024, .f32⟩
  | 5 => ⟨S512x1024, .f32⟩
  | 6 => ⟨S1x1024, .f32⟩
  | 7 => ⟨S1024, .f32⟩
  | 8 => ⟨S1x1024, .f32⟩
  | 9 => ⟨S512x1024, .f32⟩
  | 10 => ⟨S512x1024, .f32⟩
  | 11 => ⟨S512x1024, .f32⟩
  | 12 => ⟨S512x1024, .f32⟩
  | 13 => ⟨S_, .f32⟩
  | 14 => ⟨S512x1024, .f32⟩
  | 15 => ⟨S512x1024, .f32⟩
  | 16 => ⟨S_, .f32⟩
  | 17 => ⟨S512x1024, .f32⟩
  | 18 => ⟨S512x1024, .f32⟩
  | 19 => ⟨S1x1024x1024, .f32⟩
  | 20 => ⟨S1024x1024, .f32⟩
  | 21 => ⟨S512x1024, .f32⟩
  | 22 => ⟨S1x1024x1024, .f32⟩
  | 23 => ⟨S1024x1024, .f32⟩
  | 24 => ⟨S512x1024, .f32⟩
  | 25 => ⟨S512x1024, .f32⟩
  | 26 => ⟨S1x1024, .f32⟩
  | 27 => ⟨S1024, .f32⟩
  | 28 => ⟨S1x1024, .f32⟩
  | 29 => ⟨S512x1024, .f32⟩
  | 30 => ⟨S512x1024, .f32⟩
  | 31 => ⟨S512x1024, .f32⟩
  | 32 => ⟨S512x1024, .f32⟩
  | 33 => ⟨S_, .f32⟩
  | 34 => ⟨S512x1024, .f32⟩
  | 35 => ⟨S512x1024, .f32⟩
  | 36 => ⟨S_, .f32⟩
  | 37 => ⟨S512x1024, .f32⟩
  | 38 => ⟨S512x1024, .f32⟩
  | 39 => ⟨S1x1024x1024, .f32⟩
  | 40 => ⟨S1024x1024, .f32⟩
  | 41 => ⟨S512x1024, .f32⟩
  | 42 => ⟨S512x1024, .f32⟩
  | 43 => ⟨S1x1024x1024, .f32⟩
  | 44 => ⟨S1024x1024, .f32⟩
  | 45 => ⟨S512x1024, .f32⟩
  | 46 => ⟨S512x1024, .f32⟩
  | 47 => ⟨S1x1024, .f32⟩
  | 48 => ⟨S1024, .f32⟩
  | 49 => ⟨S1x1024, .f32⟩
  | 50 => ⟨S512x1024, .f32⟩
  | 51 => ⟨S512x1024, .f32⟩
  | 52 => ⟨S512x1024, .f32⟩
  | 53 => ⟨S_, .f32⟩
  | 54 => ⟨S512x1024, .f32⟩
  | 55 => ⟨S512x1024, .f32⟩
  | 56 => ⟨S512x1024, .f32⟩
  | 57 => ⟨S512x1024, .f32⟩
  | 58 => ⟨S512x1024, .f32⟩
  | 59 => ⟨S512x1024, .f32⟩
  | 60 => ⟨S1x1024, .f32⟩
  | 61 => ⟨S512x1024, .f32⟩
  | 62 => ⟨S512x1024, .f32⟩
  | 63 => ⟨S1x512x1024, .f32⟩
  | 64 => ⟨S1x512x1024, .f32⟩
  | 65 => ⟨S1x512x1024, .f32⟩
  | 66 => ⟨S1x512x1024, .f32⟩
  | 67 => ⟨S1x512x1024, .f32⟩
  | 68 => ⟨S1x512x1024, .f32⟩
  | 69 => ⟨S1x512x1024, .f32⟩
  | 70 => ⟨S1x512x1024, .f32⟩
  | 71 => ⟨S8x512x1024, .f32⟩
  | 72 => ⟨S512x1x1024, .f32⟩
  | 73 => ⟨S512x1024, .f32⟩
  | 74 => ⟨S1x1024x1024, .f32⟩
  | 75 => ⟨S1024x1024, .f32⟩
  | 76 => ⟨S512x1024, .f32⟩
  | 77 => ⟨S1x1024x1024, .f32⟩
  | 78 => ⟨S1024x1024, .f32⟩
  | 79 => ⟨S512x1024, .f32⟩
  | 80 => ⟨S512x1024, .f32⟩
  | 81 => ⟨S1x1024, .f32⟩
  | 82 => ⟨S1024, .f32⟩
  | 83 => ⟨S1x1024, .f32⟩
  | 84 => ⟨S512x1024, .f32⟩
  | 85 => ⟨S512x1024, .f32⟩
  | 86 => ⟨S512x1024, .f32⟩
  | 87 => ⟨S512x1024, .f32⟩
  | 88 => ⟨S_, .f32⟩
  | 89 => ⟨S512x1024, .f32⟩
  | 90 => ⟨S512x1024, .f32⟩
  | 91 => ⟨S_, .f32⟩
  | 92 => ⟨S512x1024, .f32⟩
  | 93 => ⟨S512x1024, .f32⟩
  | 94 => ⟨S1x1024x1024, .f32⟩
  | 95 => ⟨S1024x1024, .f32⟩
  | 96 => ⟨S512x1024, .f32⟩
  | 97 => ⟨S1x1024x1024, .f32⟩
  | 98 => ⟨S1024x1024, .f32⟩
  | 99 => ⟨S512x1024, .f32⟩
  | 100 => ⟨S512x1024, .f32⟩
  | 101 => ⟨S1x1024, .f32⟩
  | 102 => ⟨S1024, .f32⟩
  | 103 => ⟨S1x1024, .f32⟩
  | 104 => ⟨S512x1024, .f32⟩
  | 105 => ⟨S512x1024, .f32⟩
  | 106 => ⟨S512x1024, .f32⟩
  | 107 => ⟨S512x1024, .f32⟩
  | 108 => ⟨S_, .f32⟩
  | 109 => ⟨S512x1024, .f32⟩
  | 110 => ⟨S512x1024, .f32⟩
  | 111 => ⟨S_, .f32⟩
  | 112 => ⟨S512x1024, .f32⟩
  | 113 => ⟨S512x1024, .f32⟩
  | 114 => ⟨S1x1024x1024, .f32⟩
  | 115 => ⟨S1024x1024, .f32⟩
  | 116 => ⟨S512x1024, .f32⟩
  | 117 => ⟨S512x1024, .f32⟩
  | 118 => ⟨S1x1024x1024, .f32⟩
  | 119 => ⟨S1024x1024, .f32⟩
  | 120 => ⟨S512x1024, .f32⟩
  | 121 => ⟨S512x1024, .f32⟩
  | 122 => ⟨S1x1024, .f32⟩
  | 123 => ⟨S1024, .f32⟩
  | 124 => ⟨S1x1024, .f32⟩
  | 125 => ⟨S512x1024, .f32⟩
  | 126 => ⟨S512x1024, .f32⟩
  | 127 => ⟨S512x1024, .f32⟩
  | _ => ⟨S512x128x1024, .f32⟩

abbrev hbmTy0_20 (i : Nat) : BufTy := match i % 128 with
  | 0 => ⟨S_, .f32⟩
  | 1 => ⟨S512x1024, .f32⟩
  | 2 => ⟨S512x1024, .f32⟩
  | 3 => ⟨S512x1024, .f32⟩
  | 4 => ⟨S512x1024, .f32⟩
  | 5 => ⟨S512x1024, .f32⟩
  | 6 => ⟨S1x1024x1024, .f32⟩
  | 7 => ⟨S1024x1024, .f32⟩
  | 8 => ⟨S512x1024, .f32⟩
  | 9 => ⟨S1x1024x1024, .f32⟩
  | 10 => ⟨S1024x1024, .f32⟩
  | 11 => ⟨S512x1024, .f32⟩
  | 12 => ⟨S512x1024, .f32⟩
  | 13 => ⟨S1x1024, .f32⟩
  | 14 => ⟨S1024, .f32⟩
  | 15 => ⟨S1x1024, .f32⟩
  | 16 => ⟨S512x1024, .f32⟩
  | 17 => ⟨S512x1024, .f32⟩
  | 18 => ⟨S512x1024, .f32⟩
  | 19 => ⟨S512x1024, .f32⟩
  | 20 => ⟨S_, .f32⟩
  | 21 => ⟨S512x1024, .f32⟩
  | 22 => ⟨S512x1024, .f32⟩
  | 23 => ⟨S_, .f32⟩
  | 24 => ⟨S512x1024, .f32⟩
  | 25 => ⟨S512x1024, .f32⟩
  | 26 => ⟨S1x1024x1024, .f32⟩
  | 27 => ⟨S1024x1024, .f32⟩
  | 28 => ⟨S512x1024, .f32⟩
  | 29 => ⟨S1x1024x1024, .f32⟩
  | 30 => ⟨S1024x1024, .f32⟩
  | 31 => ⟨S512x1024, .f32⟩
  | 32 => ⟨S512x1024, .f32⟩
  | 33 => ⟨S1x1024, .f32⟩
  | 34 => ⟨S1024, .f32⟩
  | 35 => ⟨S1x1024, .f32⟩
  | 36 => ⟨S512x1024, .f32⟩
  | 37 => ⟨S512x1024, .f32⟩
  | 38 => ⟨S512x1024, .f32⟩
  | 39 => ⟨S512x1024, .f32⟩
  | 40 => ⟨S_, .f32⟩
  | 41 => ⟨S512x1024, .f32⟩
  | 42 => ⟨S512x1024, .f32⟩
  | 43 => ⟨S_, .f32⟩
  | 44 => ⟨S512x1024, .f32⟩
  | 45 => ⟨S512x1024, .f32⟩
  | 46 => ⟨S1x1024x1024, .f32⟩
  | 47 => ⟨S1024x1024, .f32⟩
  | 48 => ⟨S512x1024, .f32⟩
  | 49 => ⟨S512x1024, .f32⟩
  | 50 => ⟨S1x1024x1024, .f32⟩
  | 51 => ⟨S1024x1024, .f32⟩
  | 52 => ⟨S512x1024, .f32⟩
  | 53 => ⟨S512x1024, .f32⟩
  | 54 => ⟨S1x1024, .f32⟩
  | 55 => ⟨S1024, .f32⟩
  | 56 => ⟨S1x1024, .f32⟩
  | 57 => ⟨S512x1024, .f32⟩
  | 58 => ⟨S512x1024, .f32⟩
  | 59 => ⟨S512x1024, .f32⟩
  | 60 => ⟨S_, .f32⟩
  | 61 => ⟨S512x1024, .f32⟩
  | 62 => ⟨S512x1024, .f32⟩
  | 63 => ⟨S512x1024, .f32⟩
  | 64 => ⟨S512x1024, .f32⟩
  | 65 => ⟨S512x1024, .f32⟩
  | 66 => ⟨S1x1024x1024, .f32⟩
  | 67 => ⟨S1024x1024, .f32⟩
  | 68 => ⟨S512x1024, .f32⟩
  | 69 => ⟨S1x1024x1024, .f32⟩
  | 70 => ⟨S1024x1024, .f32⟩
  | 71 => ⟨S512x1024, .f32⟩
  | 72 => ⟨S512x1024, .f32⟩
  | 73 => ⟨S1x1024, .f32⟩
  | 74 => ⟨S1024, .f32⟩
  | 75 => ⟨S1x1024, .f32⟩
  | 76 => ⟨S512x1024, .f32⟩
  | 77 => ⟨S512x1024, .f32⟩
  | 78 => ⟨S512x1024, .f32⟩
  | 79 => ⟨S512x1024, .f32⟩
  | 80 => ⟨S_, .f32⟩
  | 81 => ⟨S512x1024, .f32⟩
  | 82 => ⟨S512x1024, .f32⟩
  | 83 => ⟨S_, .f32⟩
  | 84 => ⟨S512x1024, .f32⟩
  | 85 => ⟨S512x1024, .f32⟩
  | 86 => ⟨S1x1024x1024, .f32⟩
  | 87 => ⟨S1024x1024, .f32⟩
  | 88 => ⟨S512x1024, .f32⟩
  | 89 => ⟨S1x1024x1024, .f32⟩
  | 90 => ⟨S1024x1024, .f32⟩
  | 91 => ⟨S512x1024, .f32⟩
  | 92 => ⟨S512x1024, .f32⟩
  | 93 => ⟨S1x1024, .f32⟩
  | 94 => ⟨S1024, .f32⟩
  | 95 => ⟨S1x1024, .f32⟩
  | 96 => ⟨S512x1024, .f32⟩
  | 97 => ⟨S512x1024, .f32⟩
  | 98 => ⟨S512x1024, .f32⟩
  | 99 => ⟨S512x1024, .f32⟩
  | 100 => ⟨S_, .f32⟩
  | 101 => ⟨S512x1024, .f32⟩
  | 102 => ⟨S512x1024, .f32⟩
  | 103 => ⟨S_, .f32⟩
  | 104 => ⟨S512x1024, .f32⟩
  | 105 => ⟨S512x1024, .f32⟩
  | 106 => ⟨S1x1024x1024, .f32⟩
  | 107 => ⟨S1024x1024, .f32⟩
  | 108 => ⟨S512x1024, .f32⟩
  | 109 => ⟨S512x1024, .f32⟩
  | 110 => ⟨S1x1024x1024, .f32⟩
  | 111 => ⟨S1024x1024, .f32⟩
  | 112 => ⟨S512x1024, .f32⟩
  | 113 => ⟨S512x1024, .f32⟩
  | 114 => ⟨S1x1024, .f32⟩
  | 115 => ⟨S1024, .f32⟩
  | 116 => ⟨S1x1024, .f32⟩
  | 117 => ⟨S512x1024, .f32⟩
  | 118 => ⟨S512x1024, .f32⟩
  | 119 => ⟨S512x1024, .f32⟩
  | 120 => ⟨S_, .f32⟩
  | 121 => ⟨S512x1024, .f32⟩
  | 122 => ⟨S512x1024, .f32⟩
  | 123 => ⟨S512x1024, .f32⟩
  | 124 => ⟨S512x1024, .f32⟩
  | 125 => ⟨S512x1024, .f32⟩
  | 126 => ⟨S1x1024x1024, .f32⟩
  | 127 => ⟨S1024x1024, .f32⟩
  | _ => ⟨S512x128x1024, .f32⟩

abbrev hbmTy0_21 (i : Nat) : BufTy := match i % 128 with
  | 0 => ⟨S512x1024, .f32⟩
  | 1 => ⟨S1x1024x1024, .f32⟩
  | 2 => ⟨S1024x1024, .f32⟩
  | 3 => ⟨S512x1024, .f32⟩
  | 4 => ⟨S512x1024, .f32⟩
  | 5 => ⟨S1x1024, .f32⟩
  | 6 => ⟨S1024, .f32⟩
  | 7 => ⟨S1x1024, .f32⟩
  | 8 => ⟨S512x1024, .f32⟩
  | 9 => ⟨S512x1024, .f32⟩
  | 10 => ⟨S512x1024, .f32⟩
  | 11 => ⟨S512x1024, .f32⟩
  | 12 => ⟨S_, .f32⟩
  | 13 => ⟨S512x1024, .f32⟩
  | 14 => ⟨S512x1024, .f32⟩
  | 15 => ⟨S_, .f32⟩
  | 16 => ⟨S512x1024, .f32⟩
  | 17 => ⟨S512x1024, .f32⟩
  | 18 => ⟨S1x1024x1024, .f32⟩
  | 19 => ⟨S1024x1024, .f32⟩
  | 20 => ⟨S512x1024, .f32⟩
  | 21 => ⟨S1x1024x1024, .f32⟩
  | 22 => ⟨S1024x1024, .f32⟩
  | 23 => ⟨S512x1024, .f32⟩
  | 24 => ⟨S512x1024, .f32⟩
  | 25 => ⟨S1x1024, .f32⟩
  | 26 => ⟨S1024, .f32⟩
  | 27 => ⟨S1x1024, .f32⟩
  | 28 => ⟨S512x1024, .f32⟩
  | 29 => ⟨S512x1024, .f32⟩
  | 30 => ⟨S512x1024, .f32⟩
  | 31 => ⟨S512x1024, .f32⟩
  | 32 => ⟨S_, .f32⟩
  | 33 => ⟨S512x1024, .f32⟩
  | 34 => ⟨S512x1024, .f32⟩
  | 35 => ⟨S_, .f32⟩
  | 36 => ⟨S512x1024, .f32⟩
  | 37 => ⟨S512x1024, .f32⟩
  | 38 => ⟨S1x1024x1024, .f32⟩
  | 39 => ⟨S1024x1024, .f32⟩
  | 40 => ⟨S512x1024, .f32⟩
  | 41 => ⟨S512x1024, .f32⟩
  | 42 => ⟨S1x1024x1024, .f32⟩
  | 43 => ⟨S1024x1024, .f32⟩
  | 44 => ⟨S512x1024, .f32⟩
  | 45 => ⟨S512x1024, .f32⟩
  | 46 => ⟨S1x1024, .f32⟩
  | 47 => ⟨S1024, .f32⟩
  | 48 => ⟨S1x1024, .f32⟩
  | 49 => ⟨S512x1024, .f32⟩
  | 50 => ⟨S512x1024, .f32⟩
  | 51 => ⟨S512x1024, .f32⟩
  | 52 => ⟨S_, .f32⟩
  | 53 => ⟨S512x1024, .f32⟩
  | 54 => ⟨S512x1024, .f32⟩
  | 55 => ⟨S512x1024, .f32⟩
  | 56 => ⟨S512x1024, .f32⟩
  | 57 => ⟨S512x1024, .f32⟩
  | 58 => ⟨S1x1024x1024, .f32⟩
  | 59 => ⟨S1024x1024, .f32⟩
  | 60 => ⟨S512x1024, .f32⟩
  | 61 => ⟨S1x1024x1024, .f32⟩
  | 62 => ⟨S1024x1024, .f32⟩
  | 63 => ⟨S512x1024, .f32⟩
  | 64 => ⟨S512x1024, .f32⟩
  | 65 => ⟨S1x1024, .f32⟩
  | 66 => ⟨S1024, .f32⟩
  | 67 => ⟨S1x1024, .f32⟩
  | 68 => ⟨S512x1024, .f32⟩
  | 69 => ⟨S512x1024, .f32⟩
  | 70 => ⟨S512x1024, .f32⟩
  | 71 => ⟨S512x1024, .f32⟩
  | 72 => ⟨S_, .f32⟩
  | 73 => ⟨S512x1024, .f32⟩
  | 74 => ⟨S512x1024, .f32⟩
  | 75 => ⟨S_, .f32⟩
  | 76 => ⟨S512x1024, .f32⟩
  | 77 => ⟨S512x1024, .f32⟩
  | 78 => ⟨S1x1024x1024, .f32⟩
  | 79 => ⟨S1024x1024, .f32⟩
  | 80 => ⟨S512x1024, .f32⟩
  | 81 => ⟨S1x1024x1024, .f32⟩
  | 82 => ⟨S1024x1024, .f32⟩
  | 83 => ⟨S512x1024, .f32⟩
  | 84 => ⟨S512x1024, .f32⟩
  | 85 => ⟨S1x1024, .f32⟩
  | 86 => ⟨S1024, .f32⟩
  | 87 => ⟨S1x1024, .f32⟩
  | 88 => ⟨S512x1024, .f32⟩
  | 89 => ⟨S512x1024, .f32⟩
  | 90 => ⟨S512x1024, .f32⟩
  | 91 => ⟨S512x1024, .f32⟩
  | 92 => ⟨S_, .f32⟩
  | 93 => ⟨S512x1024, .f32⟩
  | 94 => ⟨S512x1024, .f32⟩
  | 95 => ⟨S_, .f32⟩
  | 96 => ⟨S512x1024, .f32⟩
  | 97 => ⟨S512x1024, .f32⟩
  | 98 => ⟨S1x1024x1024, .f32⟩
  | 99 => ⟨S1024x1024, .f32⟩
  | 100 => ⟨S512x1024, .f32⟩
  | 101 => ⟨S512x1024, .f32⟩
  | 102 => ⟨S1x1024x1024, .f32⟩
  | 103 => ⟨S1024x1024, .f32⟩
  | 104 => ⟨S512x1024, .f32⟩
  | 105 => ⟨S512x1024, .f32⟩
  | 106 => ⟨S1x1024, .f32⟩
  | 107 => ⟨S1024, .f32⟩
  | 108 => ⟨S1x1024, .f32⟩
  | 109 => ⟨S512x1024, .f32⟩
  | 110 => ⟨S512x1024, .f32⟩
  | 111 => ⟨S512x1024, .f32⟩
  | 112 => ⟨S_, .f32⟩
  | 113 => ⟨S512x1024, .f32⟩
  | 114 => ⟨S512x1024, .f32⟩
  | 115 => ⟨S512x1024, .f32⟩
  | 116 => ⟨S512x1024, .f32⟩
  | 117 => ⟨S512x1024, .f32⟩
  | 118 => ⟨S1x1024x1024, .f32⟩
  | 119 => ⟨S1024x1024, .f32⟩
  | 120 => ⟨S512x1024, .f32⟩
  | 121 => ⟨S1x1024x1024, .f32⟩
  | 122 => ⟨S1024x1024, .f32⟩
  | 123 => ⟨S512x1024, .f32⟩
  | 124 => ⟨S512x1024, .f32⟩
  | 125 => ⟨S1x1024, .f32⟩
  | 126 => ⟨S1024, .f32⟩
  | 127 => ⟨S1x1024, .f32⟩
  | _ => ⟨S512x128x1024, .f32⟩

abbrev hbmTy0_22 (i : Nat) : BufTy := match i % 128 with
  | 0 => ⟨S512x1024, .f32⟩
  | 1 => ⟨S512x1024, .f32⟩
  | 2 => ⟨S512x1024, .f32⟩
  | 3 => ⟨S512x1024, .f32⟩
  | 4 => ⟨S_, .f32⟩
  | 5 => ⟨S512x1024, .f32⟩
  | 6 => ⟨S512x1024, .f32⟩
  | 7 => ⟨S_, .f32⟩
  | 8 => ⟨S512x1024, .f32⟩
  | 9 => ⟨S512x1024, .f32⟩
  | 10 => ⟨S1x1024x1024, .f32⟩
  | 11 => ⟨S1024x1024, .f32⟩
  | 12 => ⟨S512x1024, .f32⟩
  | 13 => ⟨S1x1024x1024, .f32⟩
  | 14 => ⟨S1024x1024, .f32⟩
  | 15 => ⟨S512x1024, .f32⟩
  | 16 => ⟨S512x1024, .f32⟩
  | 17 => ⟨S1x1024, .f32⟩
  | 18 => ⟨S1024, .f32⟩
  | 19 => ⟨S1x1024, .f32⟩
  | 20 => ⟨S512x1024, .f32⟩
  | 21 => ⟨S512x1024, .f32⟩
  | 22 => ⟨S512x1024, .f32⟩
  | 23 => ⟨S512x1024, .f32⟩
  | 24 => ⟨S_, .f32⟩
  | 25 => ⟨S512x1024, .f32⟩
  | 26 => ⟨S512x1024, .f32⟩
  | 27 => ⟨S_, .f32⟩
  | 28 => ⟨S512x1024, .f32⟩
  | 29 => ⟨S512x1024, .f32⟩
  | 30 => ⟨S1x1024x1024, .f32⟩
  | 31 => ⟨S1024x1024, .f32⟩
  | 32 => ⟨S512x1024, .f32⟩
  | 33 => ⟨S512x1024, .f32⟩
  | 34 => ⟨S1x1024x1024, .f32⟩
  | 35 => ⟨S1024x1024, .f32⟩
  | 36 => ⟨S512x1024, .f32⟩
  | 37 => ⟨S512x1024, .f32⟩
  | 38 => ⟨S1x1024, .f32⟩
  | 39 => ⟨S1024, .f32⟩
  | 40 => ⟨S1x1024, .f32⟩
  | 41 => ⟨S512x1024, .f32⟩
  | 42 => ⟨S512x1024, .f32⟩
  | 43 => ⟨S512x1024, .f32⟩
  | 44 => ⟨S_, .f32⟩
  | 45 => ⟨S512x1024, .f32⟩
  | 46 => ⟨S512x1024, .f32⟩
  | 47 => ⟨S512x1024, .f32⟩
  | 48 => ⟨S512x1024, .f32⟩
  | 49 => ⟨S512x1024, .f32⟩
  | 50 => ⟨S1x1024x1024, .f32⟩
  | 51 => ⟨S1024x1024, .f32⟩
  | 52 => ⟨S512x1024, .f32⟩
  | 53 => ⟨S1x1024x1024, .f32⟩
  | 54 => ⟨S1024x1024, .f32⟩
  | 55 => ⟨S512x1024, .f32⟩
  | 56 => ⟨S512x1024, .f32⟩
  | 57 => ⟨S1x1024, .f32⟩
  | 58 => ⟨S1024, .f32⟩
  | 59 => ⟨S1x1024, .f32⟩
  | 60 => ⟨S512x1024, .f32⟩
  | 61 => ⟨S512x1024, .f32⟩
  | 62 => ⟨S512x1024, .f32⟩
  | 63 => ⟨S512x1024, .f32⟩
  | 64 => ⟨S_, .f32⟩
  | 65 => ⟨S512x1024, .f32⟩
  | 66 => ⟨S512x1024, .f32⟩
  | 67 => ⟨S_, .f32⟩
  | 68 => ⟨S512x1024, .f32⟩
  | 69 => ⟨S512x1024, .f32⟩
  | 70 => ⟨S1x1024x1024, .f32⟩
  | 71 => ⟨S1024x1024, .f32⟩
  | 72 => ⟨S512x1024, .f32⟩
  | 73 => ⟨S1x1024x1024, .f32⟩
  | 74 => ⟨S1024x1024, .f32⟩
  | 75 => ⟨S512x1024, .f32⟩
  | 76 => ⟨S512x1024, .f32⟩
  | 77 => ⟨S1x1024, .f32⟩
  | 78 => ⟨S1024, .f32⟩
  | 79 => ⟨S1x1024, .f32⟩
  | 80 => ⟨S512x1024, .f32⟩
  | 81 => ⟨S512x1024, .f32⟩
  | 82 => ⟨S512x1024, .f32⟩
  | 83 => ⟨S512x1024, .f32⟩
  | 84 => ⟨S_, .f32⟩
  | 85 => ⟨S512x1024, .f32⟩
  | 86 => ⟨S512x1024, .f32⟩
  | 87 => ⟨S_, .f32⟩
  | 88 => ⟨S512x1024, .f32⟩
  | 89 => ⟨S512x1024, .f32⟩
  | 90 => ⟨S1x1024x1024, .f32⟩
  | 91 => ⟨S1024x1024, .f32⟩
  | 92 => ⟨S512x1024, .f32⟩
  | 93 => ⟨S512x1024, .f32⟩
  | 94 => ⟨S1x1024x1024, .f32⟩
  | 95 => ⟨S1024x1024, .f32⟩
  | 96 => ⟨S512x1024, .f32⟩
  | 97 => ⟨S512x1024, .f32⟩
  | 98 => ⟨S1x1024, .f32⟩
  | 99 => ⟨S1024, .f32⟩
  | 100 => ⟨S1x1024, .f32⟩
  | 101 => ⟨S512x1024, .f32⟩
  | 102 => ⟨S512x1024, .f32⟩
  | 103 => ⟨S512x1024, .f32⟩
  | 104 => ⟨S_, .f32⟩
  | 105 => ⟨S512x1024, .f32⟩
  | 106 => ⟨S512x1024, .f32⟩
  | 107 => ⟨S512x1024, .f32⟩
  | 108 => ⟨S512x1024, .f32⟩
  | 109 => ⟨S512x1024, .f32⟩
  | 110 => ⟨S1x1024x1024, .f32⟩
  | 111 => ⟨S1024x1024, .f32⟩
  | 112 => ⟨S512x1024, .f32⟩
  | 113 => ⟨S1x1024x1024, .f32⟩
  | 114 => ⟨S1024x1024, .f32⟩
  | 115 => ⟨S512x1024, .f32⟩
  | 116 => ⟨S512x1024, .f32⟩
  | 117 => ⟨S1x1024, .f32⟩
  | 118 => ⟨S1024, .f32⟩
  | 119 => ⟨S1x1024, .f32⟩
  | 120 => ⟨S512x1024, .f32⟩
  | 121 => ⟨S512x1024, .f32⟩
  | 122 => ⟨S512x1024, .f32⟩
  | 123 => ⟨S512x1024, .f32⟩
  | 124 => ⟨S_, .f32⟩
  | 125 => ⟨S512x1024, .f32⟩
  | 126 => ⟨S512x1024, .f32⟩
  | 127 => ⟨S_, .f32⟩
  | _ => ⟨S512x128x1024, .f32⟩

abbrev hbmTy0_23 (i : Nat) : BufTy := match i % 128 with
  | 0 => ⟨S512x1024, .f32⟩
  | 1 => ⟨S512x1024, .f32⟩
  | 2 => ⟨S1x1024x1024, .f32⟩
  | 3 => ⟨S1024x1024, .f32⟩
  | 4 => ⟨S512x1024, .f32⟩
  | 5 => ⟨S1x1024x1024, .f32⟩
  | 6 => ⟨S1024x1024, .f32⟩
  | 7 => ⟨S512x1024, .f32⟩
  | 8 => ⟨S512x1024, .f32⟩
  | 9 => ⟨S1x1024, .f32⟩
  | 10 => ⟨S1024, .f32⟩
  | 11 => ⟨S1x1024, .f32⟩
  | 12 => ⟨S512x1024, .f32⟩
  | 13 => ⟨S512x1024, .f32⟩
  | 14 => ⟨S512x1024, .f32⟩
  | 15 => ⟨S512x1024, .f32⟩
  | 16 => ⟨S_, .f32⟩
  | 17 => ⟨S512x1024, .f32⟩
  | 18 => ⟨S512x1024, .f32⟩
  | 19 => ⟨S_, .f32⟩
  | 20 => ⟨S512x1024, .f32⟩
  | 21 => ⟨S512x1024, .f32⟩
  | 22 => ⟨S1x1024x1024, .f32⟩
  | 23 => ⟨S1024x1024, .f32⟩
  | 24 => ⟨S512x1024, .f32⟩
  | 25 => ⟨S512x1024, .f32⟩
  | 26 => ⟨S1x1024x1024, .f32⟩
  | 27 => ⟨S1024x1024, .f32⟩
  | 28 => ⟨S512x1024, .f32⟩
  | 29 => ⟨S512x1024, .f32⟩
  | 30 => ⟨S1x1024, .f32⟩
  | 31 => ⟨S1024, .f32⟩
  | 32 => ⟨S1x1024, .f32⟩
  | 33 => ⟨S512x1024, .f32⟩
  | 34 => ⟨S512x1024, .f32⟩
  | 35 => ⟨S512x1024, .f32⟩
  | 36 => ⟨S_, .f32⟩
  | 37 => ⟨S512x1024, .f32⟩
  | 38 => ⟨S512x1024, .f32⟩
  | 39 => ⟨S512x1024, .f32⟩
  | 40 => ⟨S512x1024, .f32⟩
  | 41 => ⟨S512x1024, .f32⟩
  | 42 => ⟨S512x1024, .f32⟩
  | 43 => ⟨S1x1024, .f32⟩
  | 44 => ⟨S512x1024, .f32⟩
  | 45 => ⟨S512x1024, .f32⟩
  | 46 => ⟨S1x512x1024, .f32⟩
  | 47 => ⟨S1x512x1024, .f32⟩
  | 48 => ⟨S1x512x1024, .f32⟩
  | 49 => ⟨S1x512x1024, .f32⟩
  | 50 => ⟨S1x512x1024, .f32⟩
  | 51 => ⟨S1x512x1024, .f32⟩
  | 52 => ⟨S1x512x1024, .f32⟩
  | 53 => ⟨S1x512x1024, .f32⟩
  | 54 => ⟨S8x512x1024, .f32⟩
  | 55 => ⟨S512x1x1024, .f32⟩
  | 56 => ⟨S512x1024, .f32⟩
  | 57 => ⟨S1x1024x1024, .f32⟩
  | 58 => ⟨S1024x1024, .f32⟩
  | 59 => ⟨S512x1024, .f32⟩
  | 60 => ⟨S1x1024x1024, .f32⟩
  | 61 => ⟨S1024x1024, .f32⟩
  | 62 => ⟨S512x1024, .f32⟩
  | 63 => ⟨S512x1024, .f32⟩
  | 64 => ⟨S1x1024, .f32⟩
  | 65 => ⟨S1024, .f32⟩
  | 66 => ⟨S1x1024, .f32⟩
  | 67 => ⟨S512x1024, .f32⟩
  | 68 => ⟨S512x1024, .f32⟩
  | 69 => ⟨S512x1024, .f32⟩
  | 70 => ⟨S512x1024, .f32⟩
  | 71 => ⟨S_, .f32⟩
  | 72 => ⟨S512x1024, .f32⟩
  | 73 => ⟨S512x1024, .f32⟩
  | 74 => ⟨S_, .f32⟩
  | 75 => ⟨S512x1024, .f32⟩
  | 76 => ⟨S512x1024, .f32⟩
  | 77 => ⟨S1x1024x1024, .f32⟩
  | 78 => ⟨S1024x1024, .f32⟩
  | 79 => ⟨S512x1024, .f32⟩
  | 80 => ⟨S1x1024x1024, .f32⟩
  | 81 => ⟨S1024x1024, .f32⟩
  | 82 => ⟨S512x1024, .f32⟩
  | 83 => ⟨S512x1024, .f32⟩
  | 84 => ⟨S1x1024, .f32⟩
  | 85 => ⟨S1024, .f32⟩
  | 86 => ⟨S1x1024, .f32⟩
  | 87 => ⟨S512x1024, .f32⟩
  | 88 => ⟨S512x1024, .f32⟩
  | 89 => ⟨S512x1024, .f32⟩
  | 90 => ⟨S512x1024, .f32⟩
  | 91 => ⟨S_, .f32⟩
  | 92 => ⟨S512x1024, .f32⟩
  | 93 => ⟨S512x1024, .f32⟩
  | 94 => ⟨S_, .f32⟩
  | 95 => ⟨S512x1024, .f32⟩
  | 96 => ⟨S512x1024, .f32⟩
  | 97 => ⟨S1x1024x1024, .f32⟩
  | 98 => ⟨S1024x1024, .f32⟩
  | 99 => ⟨S512x1024, .f32⟩
  | 100 => ⟨S512x1024, .f32⟩
  | 101 => ⟨S1x1024x1024, .f32⟩
  | 102 => ⟨S1024x1024, .f32⟩
  | 103 => ⟨S512x1024, .f32⟩
  | 104 => ⟨S512x1024, .f32⟩
  | 105 => ⟨S1x1024, .f32⟩
  | 106 => ⟨S1024, .f32⟩
  | 107 => ⟨S1x1024, .f32⟩
  | 108 => ⟨S512x1024, .f32⟩
  | 109 => ⟨S512x1024, .f32⟩
  | 110 => ⟨S512x1024, .f32⟩
  | 111 => ⟨S_, .f32⟩
  | 112 => ⟨S512x1024, .f32⟩
  | 113 => ⟨S512x1024, .f32⟩
  | 114 => ⟨S512x1024, .f32⟩
  | 115 => ⟨S512x1024, .f32⟩
  | 116 => ⟨S512x1024, .f32⟩
  | 117 => ⟨S1x1024x1024, .f32⟩
  | 118 => ⟨S1024x1024, .f32⟩
  | 119 => ⟨S512x1024, .f32⟩
  | 120 => ⟨S1x1024x1024, .f32⟩
  | 121 => ⟨S1024x1024, .f32⟩
  | 122 => ⟨S512x1024, .f32⟩
  | 123 => ⟨S512x1024, .f32⟩
  | 124 => ⟨S1x1024, .f32⟩
  | 125 => ⟨S1024, .f32⟩
  | 126 => ⟨S1x1024, .f32⟩
  | 127 => ⟨S512x1024, .f32⟩
  | _ => ⟨S512x128x1024, .f32⟩

abbrev hbmTy0_24 (i : Nat) : BufTy := match i % 128 with
  | 0 => ⟨S512x1024, .f32⟩
  | 1 => ⟨S512x1024, .f32⟩
  | 2 => ⟨S512x1024, .f32⟩
  | 3 => ⟨S_, .f32⟩
  | 4 => ⟨S512x1024, .f32⟩
  | 5 => ⟨S512x1024, .f32⟩
  | 6 => ⟨S_, .f32⟩
  | 7 => ⟨S512x1024, .f32⟩
  | 8 => ⟨S512x1024, .f32⟩
  | 9 => ⟨S1x1024x1024, .f32⟩
  | 10 => ⟨S1024x1024, .f32⟩
  | 11 => ⟨S512x1024, .f32⟩
  | 12 => ⟨S1x1024x1024, .f32⟩
  | 13 => ⟨S1024x1024, .f32⟩
  | 14 => ⟨S512x1024, .f32⟩
  | 15 => ⟨S512x1024, .f32⟩
  | 16 => ⟨S1x1024, .f32⟩
  | 17 => ⟨S1024, .f32⟩
  | 18 => ⟨S1x1024, .f32⟩
  | 19 => ⟨S512x1024, .f32⟩
  | 20 => ⟨S512x1024, .f32⟩
  | 21 => ⟨S512x1024, .f32⟩
  | 22 => ⟨S512x1024, .f32⟩
  | 23 => ⟨S_, .f32⟩
  | 24 => ⟨S512x1024, .f32⟩
  | 25 => ⟨S512x1024, .f32⟩
  | 26 => ⟨S_, .f32⟩
  | 27 => ⟨S512x1024, .f32⟩
  | 28 => ⟨S512x1024, .f32⟩
  | 29 => ⟨S1x1024x1024, .f32⟩
  | 30 => ⟨S1024x1024, .f32⟩
  | 31 => ⟨S512x1024, .f32⟩
  | 32 => ⟨S512x1024, .f32⟩
  | 33 => ⟨S1x1024x1024, .f32⟩
  | 34 => ⟨S1024x1024, .f32⟩
  | 35 => ⟨S512x1024, .f32⟩
  | 36 => ⟨S512x1024, .f32⟩
  | 37 => ⟨S1x1024, .f32⟩
  | 38 => ⟨S1024, .f32⟩
  | 39 => ⟨S1x1024, .f32⟩
  | 40 => ⟨S512x1024, .f32⟩
  | 41 => ⟨S512x1024, .f32⟩
  | 42 => ⟨S512x1024, .f32⟩
  | 43 => ⟨S_, .f32⟩
  | 44 => ⟨S512x1024, .f32⟩
  | 45 => ⟨S512x1024, .f32⟩
  | 46 => ⟨S512x1024, .f32⟩
  | 47 => ⟨S512x1024, .f32⟩
  | 48 => ⟨S512x1024, .f32⟩
  | 49 => ⟨S1x1024x1024, .f32⟩
  | 50 => ⟨S1024x1024, .f32⟩
  | 51 => ⟨S512x1024, .f32⟩
  | 52 => ⟨S1x1024x1024, .f32⟩
  | 53 => ⟨S1024x1024, .f32⟩
  | 54 => ⟨S512x1024, .f32⟩
  | 55 => ⟨S512x1024, .f32⟩
  | 56 => ⟨S1x1024, .f32⟩
  | 57 => ⟨S1024, .f32⟩
  | 58 => ⟨S1x1024, .f32⟩
  | 59 => ⟨S512x1024, .f32⟩
  | 60 => ⟨S512x1024, .f32⟩
  | 61 => ⟨S512x1024, .f32⟩
  | 62 => ⟨S512x1024, .f32⟩
  | 63 => ⟨S_, .f32⟩
  | 64 => ⟨S512x1024, .f32⟩
  | 65 => ⟨S512x1024, .f32⟩
  | 66 => ⟨S_, .f32⟩
  | 67 => ⟨S512x1024, .f32⟩
  | 68 => ⟨S512x1024, .f32⟩
  | 69 => ⟨S1x1024x1024, .f32⟩
  | 70 => ⟨S1024x1024, .f32⟩
  | 71 => ⟨S512x1024, .f32⟩
  | 72 => ⟨S1x1024x1024, .f32⟩
  | 73 => ⟨S1024x1024, .f32⟩
  | 74 => ⟨S512x1024, .f32⟩
  | 75 => ⟨S512x1024, .f32⟩
  | 76 => ⟨S1x1024, .f32⟩
  | 77 => ⟨S1024, .f32⟩
  | 78 => ⟨S1x1024, .f32⟩
  | 79 => ⟨S512x1024, .f32⟩
  | 80 => ⟨S512x1024, .f32⟩
  | 81 => ⟨S512x1024, .f32⟩
  | 82 => ⟨S512x1024, .f32⟩
  | 83 => ⟨S_, .f32⟩
  | 84 => ⟨S512x1024, .f32⟩
  | 85 => ⟨S512x1024, .f32⟩
  | 86 => ⟨S_, .f32⟩
  | 87 => ⟨S512x1024, .f32⟩
  | 88 => ⟨S512x1024, .f32⟩
  | 89 => ⟨S1x1024x1024, .f32⟩
  | 90 => ⟨S1024x1024, .f32⟩
  | 91 => ⟨S512x1024, .f32⟩
  | 92 => ⟨S512x1024, .f32⟩
  | 93 => ⟨S1x1024x1024, .f32⟩
  | 94 => ⟨S1024x1024, .f32⟩
  | 95 => ⟨S512x1024, .f32⟩
  | 96 => ⟨S512x1024, .f32⟩
  | 97 => ⟨S1x1024, .f32⟩
  | 98 => ⟨S1024, .f32⟩
  | 99 => ⟨S1x1024, .f32⟩
  | 100 => ⟨S512x1024, .f32⟩
  | 101 => ⟨S512x1024, .f32⟩
  | 102 => ⟨S512x1024, .f32⟩
  | 103 => ⟨S_, .f32⟩
  | 104 => ⟨S512x1024, .f32⟩
  | 105 => ⟨S512x1024, .f32⟩
  | 106 => ⟨S512x1024, .f32⟩
  | 107 => ⟨S512x1024, .f32⟩
  | 108 => ⟨S512x1024, .f32⟩
  | 109 => ⟨S1x1024x1024, .f32⟩
  | 110 => ⟨S1024x1024, .f32⟩
  | 111 => ⟨S512x1024, .f32⟩
  | 112 => ⟨S1x1024x1024, .f32⟩
  | 113 => ⟨S1024x1024, .f32⟩
  | 114 => ⟨S512x1024, .f32⟩
  | 115 => ⟨S512x1024, .f32⟩
  | 116 => ⟨S1x1024, .f32⟩
  | 117 => ⟨S1024, .f32⟩
  | 118 => ⟨S1x1024, .f32⟩
  | 119 => ⟨S512x1024, .f32⟩
  | 120 => ⟨S512x1024, .f32⟩
  | 121 => ⟨S512x1024, .f32⟩
  | 122 => ⟨S512x1024, .f32⟩
  | 123 => ⟨S_, .f32⟩
  | 124 => ⟨S512x1024, .f32⟩
  | 125 => ⟨S512x1024, .f32⟩
  | 126 => ⟨S_, .f32⟩
  | 127 => ⟨S512x1024, .f32⟩
  | _ => ⟨S512x128x1024, .f32⟩

abbrev hbmTy0_25 (i : Nat) : BufTy := match i % 128 with
  | 0 => ⟨S512x1024, .f32⟩
  | 1 => ⟨S1x1024x1024, .f32⟩
  | 2 => ⟨S1024x1024, .f32⟩
  | 3 => ⟨S512x1024, .f32⟩
  | 4 => ⟨S1x1024x1024, .f32⟩
  | 5 => ⟨S1024x1024, .f32⟩
  | 6 => ⟨S512x1024, .f32⟩
  | 7 => ⟨S512x1024, .f32⟩
  | 8 => ⟨S1x1024, .f32⟩
  | 9 => ⟨S1024, .f32⟩
  | 10 => ⟨S1x1024, .f32⟩
  | 11 => ⟨S512x1024, .f32⟩
  | 12 => ⟨S512x1024, .f32⟩
  | 13 => ⟨S512x1024, .f32⟩
  | 14 => ⟨S512x1024, .f32⟩
  | 15 => ⟨S_, .f32⟩
  | 16 => ⟨S512x1024, .f32⟩
  | 17 => ⟨S512x1024, .f32⟩
  | 18 => ⟨S_, .f32⟩
  | 19 => ⟨S512x1024, .f32⟩
  | 20 => ⟨S512x1024, .f32⟩
  | 21 => ⟨S1x1024x1024, .f32⟩
  | 22 => ⟨S1024x1024, .f32⟩
  | 23 => ⟨S512x1024, .f32⟩
  | 24 => ⟨S512x1024, .f32⟩
  | 25 => ⟨S1x1024x1024, .f32⟩
  | 26 => ⟨S1024x1024, .f32⟩
  | 27 => ⟨S512x1024, .f32⟩
  | 28 => ⟨S512x1024, .f32⟩
  | 29 => ⟨S1x1024, .f32⟩
  | 30 => ⟨S1024, .f32⟩
  | 31 => ⟨S1x1024, .f32⟩
  | 32 => ⟨S512x1024, .f32⟩
  | 33 => ⟨S512x1024, .f32⟩
  | 34 => ⟨S512x1024, .f32⟩
  | 35 => ⟨S_, .f32⟩
  | 36 => ⟨S512x1024, .f32⟩
  | 37 => ⟨S512x1024, .f32⟩
  | 38 => ⟨S512x1024, .f32⟩
  | 39 => ⟨S512x1024, .f32⟩
  | 40 => ⟨S512x1024, .f32⟩
  | 41 => ⟨S1x1024x1024, .f32⟩
  | 42 => ⟨S1024x1024, .f32⟩
  | 43 => ⟨S512x1024, .f32⟩
  | 44 => ⟨S1x1024x1024, .f32⟩
  | 45 => ⟨S1024x1024, .f32⟩
  | 46 => ⟨S512x1024, .f32⟩
  | 47 => ⟨S512x1024, .f32⟩
  | 48 => ⟨S1x1024, .f32⟩
  | 49 => ⟨S1024, .f32⟩
  | 50 => ⟨S1x1024, .f32⟩
  | 51 => ⟨S512x1024, .f32⟩
  | 52 => ⟨S512x1024, .f32⟩
  | 53 => ⟨S512x1024, .f32⟩
  | 54 => ⟨S512x1024, .f32⟩
  | 55 => ⟨S_, .f32⟩
  | 56 => ⟨S512x1024, .f32⟩
  | 57 => ⟨S512x1024, .f32⟩
  | 58 => ⟨S_, .f32⟩
  | 59 => ⟨S512x1024, .f32⟩
  | 60 => ⟨S512x1024, .f32⟩
  | 61 => ⟨S1x1024x1024, .f32⟩
  | 62 => ⟨S1024x1024, .f32⟩
  | 63 => ⟨S512x1024, .f32⟩
  | 64 => ⟨S1x1024x1024, .f32⟩
  | 65 => ⟨S1024x1024, .f32⟩
  | 66 => ⟨S512x1024, .f32⟩
  | 67 => ⟨S512x1024, .f32⟩
  | 68 => ⟨S1x1024, .f32⟩
  | 69 => ⟨S1024, .f32⟩
  | 70 => ⟨S1x1024, .f32⟩
  | 71 => ⟨S512x1024, .f32⟩
  | 72 => ⟨S512x1024, .f32⟩
  | 73 => ⟨S512x1024, .f32⟩
  | 74 => ⟨S512x1024, .f32⟩
  | 75 => ⟨S_, .f32⟩
  | 76 => ⟨S512x1024, .f32⟩
  | 77 => ⟨S512x1024, .f32⟩
  | 78 => ⟨S_, .f32⟩
  | 79 => ⟨S512x1024, .f32⟩
  | 80 => ⟨S512x1024, .f32⟩
  | 81 => ⟨S1x1024x1024, .f32⟩
  | 82 => ⟨S1024x1024, .f32⟩
  | 83 => ⟨S512x1024, .f32⟩
  | 84 => ⟨S512x1024, .f32⟩
  | 85 => ⟨S1x1024x1024, .f32⟩
  | 86 => ⟨S1024x1024, .f32⟩
  | 87 => ⟨S512x1024, .f32⟩
  | 88 => ⟨S512x1024, .f32⟩
  | 89 => ⟨S1x1024, .f32⟩
  | 90 => ⟨S1024, .f32⟩
  | 91 => ⟨S1x1024, .f32⟩
  | 92 => ⟨S512x1024, .f32⟩
  | 93 => ⟨S512x1024, .f32⟩
  | 94 => ⟨S512x1024, .f32⟩
  | 95 => ⟨S_, .f32⟩
  | 96 => ⟨S512x1024, .f32⟩
  | 97 => ⟨S512x1024, .f32⟩
  | 98 => ⟨S512x1024, .f32⟩
  | 99 => ⟨S512x1024, .f32⟩
  | 100 => ⟨S512x1024, .f32⟩
  | 101 => ⟨S1x1024x1024, .f32⟩
  | 102 => ⟨S1024x1024, .f32⟩
  | 103 => ⟨S512x1024, .f32⟩
  | 104 => ⟨S1x1024x1024, .f32⟩
  | 105 => ⟨S1024x1024, .f32⟩
  | 106 => ⟨S512x1024, .f32⟩
  | 107 => ⟨S512x1024, .f32⟩
  | 108 => ⟨S1x1024, .f32⟩
  | 109 => ⟨S1024, .f32⟩
  | 110 => ⟨S1x1024, .f32⟩
  | 111 => ⟨S512x1024, .f32⟩
  | 112 => ⟨S512x1024, .f32⟩
  | 113 => ⟨S512x1024, .f32⟩
  | 114 => ⟨S512x1024, .f32⟩
  | 115 => ⟨S_, .f32⟩
  | 116 => ⟨S512x1024, .f32⟩
  | 117 => ⟨S512x1024, .f32⟩
  | 118 => ⟨S_, .f32⟩
  | 119 => ⟨S512x1024, .f32⟩
  | 120 => ⟨S512x1024, .f32⟩
  | 121 => ⟨S1x1024x1024, .f32⟩
  | 122 => ⟨S1024x1024, .f32⟩
  | 123 => ⟨S512x1024, .f32⟩
  | 124 => ⟨S1x1024x1024, .f32⟩
  | 125 => ⟨S1024x1024, .f32⟩
  | 126 => ⟨S512x1024, .f32⟩
  | 127 => ⟨S512x1024, .f32⟩
  | _ => ⟨S512x128x1024, .f32⟩

abbrev hbmTy0_26 (i : Nat) : BufTy := match i % 128 with
  | 0 => ⟨S1x1024, .f32⟩
  | 1 => ⟨S1024, .f32⟩
  | 2 => ⟨S1x1024, .f32⟩
  | 3 => ⟨S512x1024, .f32⟩
  | 4 => ⟨S512x1024, .f32⟩
  | 5 => ⟨S512x1024, .f32⟩
  | 6 => ⟨S512x1024, .f32⟩
  | 7 => ⟨S_, .f32⟩
  | 8 => ⟨S512x1024, .f32⟩
  | 9 => ⟨S512x1024, .f32⟩
  | 10 => ⟨S_, .f32⟩
  | 11 => ⟨S512x1024, .f32⟩
  | 12 => ⟨S512x1024, .f32⟩
  | 13 => ⟨S1x1024x1024, .f32⟩
  | 14 => ⟨S1024x1024, .f32⟩
  | 15 => ⟨S512x1024, .f32⟩
  | 16 => ⟨S512x1024, .f32⟩
  | 17 => ⟨S1x1024x1024, .f32⟩
  | 18 => ⟨S1024x1024, .f32⟩
  | 19 => ⟨S512x1024, .f32⟩
  | 20 => ⟨S512x1024, .f32⟩
  | 21 => ⟨S1x1024, .f32⟩
  | 22 => ⟨S1024, .f32⟩
  | 23 => ⟨S1x1024, .f32⟩
  | 24 => ⟨S512x1024, .f32⟩
  | 25 => ⟨S512x1024, .f32⟩
  | 26 => ⟨S512x1024, .f32⟩
  | 27 => ⟨S_, .f32⟩
  | 28 => ⟨S512x1024, .f32⟩
  | 29 => ⟨S512x1024, .f32⟩
  | 30 => ⟨S512x1024, .f32⟩
  | 31 => ⟨S512x1024, .f32⟩
  | 32 => ⟨S512x1024, .f32⟩
  | 33 => ⟨S1x1024x1024, .f32⟩
  | 34 => ⟨S1024x1024, .f32⟩
  | 35 => ⟨S512x1024, .f32⟩
  | 36 => ⟨S1x1024x1024, .f32⟩
  | 37 => ⟨S1024x1024, .f32⟩
  | 38 => ⟨S512x1024, .f32⟩
  | 39 => ⟨S512x1024, .f32⟩
  | 40 => ⟨S1x1024, .f32⟩
  | 41 => ⟨S1024, .f32⟩
  | 42 => ⟨S1x1024, .f32⟩
  | 43 => ⟨S512x1024, .f32⟩
  | 44 => ⟨S512x1024, .f32⟩
  | 45 => ⟨S512x1024, .f32⟩
  | 46 => ⟨S512x1024, .f32⟩
  | 47 => ⟨S_, .f32⟩
  | 48 => ⟨S512x1024, .f32⟩
  | 49 => ⟨S512x1024, .f32⟩
  | 50 => ⟨S_, .f32⟩
  | 51 => ⟨S512x1024, .f32⟩
  | 52 => ⟨S512x1024, .f32⟩
  | 53 => ⟨S1x1024x1024, .f32⟩
  | 54 => ⟨S1024x1024, .f32⟩
  | 55 => ⟨S512x1024, .f32⟩
  | 56 => ⟨S1x1024x1024, .f32⟩
  | 57 => ⟨S1024x1024, .f32⟩
  | 58 => ⟨S512x1024, .f32⟩
  | 59 => ⟨S512x1024, .f32⟩
  | 60 => ⟨S1x1024, .f32⟩
  | 61 => ⟨S1024, .f32⟩
  | 62 => ⟨S1x1024, .f32⟩
  | 63 => ⟨S512x1024, .f32⟩
  | 64 => ⟨S512x1024, .f32⟩
  | 65 => ⟨S512x1024, .f32⟩
  | 66 => ⟨S512x1024, .f32⟩
  | 67 => ⟨S_, .f32⟩
  | 68 => ⟨S512x1024, .f32⟩
  | 69 => ⟨S512x1024, .f32⟩
  | 70 => ⟨S_, .f32⟩
  | 71 => ⟨S512x1024, .f32⟩
  | 72 => ⟨S512x1024, .f32⟩
  | 73 => ⟨S1x1024x1024, .f32⟩
  | 74 => ⟨S1024x1024, .f32⟩
  | 75 => ⟨S512x1024, .f32⟩
  | 76 => ⟨S512x1024, .f32⟩
  | 77 => ⟨S1x1024x1024, .f32⟩
  | 78 => ⟨S1024x1024, .f32⟩
  | 79 => ⟨S512x1024, .f32⟩
  | 80 => ⟨S512x1024, .f32⟩
  | 81 => ⟨S1x1024, .f32⟩
  | 82 => ⟨S1024, .f32⟩
  | 83 => ⟨S1x1024, .f32⟩
  | 84 => ⟨S512x1024, .f32⟩
  | 85 => ⟨S512x1024, .f32⟩
  | 86 => ⟨S512x1024, .f32⟩
  | 87 => ⟨S_, .f32⟩
  | 88 => ⟨S512x1024, .f32⟩
  | 89 => ⟨S512x1024, .f32⟩
  | 90 => ⟨S512x1024, .f32⟩
  | 91 => ⟨S512x1024, .f32⟩
  | 92 => ⟨S512x1024, .f32⟩
  | 93 => ⟨S1x1024x1024, .f32⟩
  | 94 => ⟨S1024x1024, .f32⟩
  | 95 => ⟨S512x1024, .f32⟩
  | 96 => ⟨S1x1024x1024, .f32⟩
  | 97 => ⟨S1024x1024, .f32⟩
  | 98 => ⟨S512x1024, .f32⟩
  | 99 => ⟨S512x1024, .f32⟩
  | 100 => ⟨S1x1024, .f32⟩
  | 101 => ⟨S1024, .f32⟩
  | 102 => ⟨S1x1024, .f32⟩
  | 103 => ⟨S512x1024, .f32⟩
  | 104 => ⟨S512x1024, .f32⟩
  | 105 => ⟨S512x1024, .f32⟩
  | 106 => ⟨S512x1024, .f32⟩
  | 107 => ⟨S_, .f32⟩
  | 108 => ⟨S512x1024, .f32⟩
  | 109 => ⟨S512x1024, .f32⟩
  | 110 => ⟨S_, .f32⟩
  | 111 => ⟨S512x1024, .f32⟩
  | 112 => ⟨S512x1024, .f32⟩
  | 113 => ⟨S1x1024x1024, .f32⟩
  | 114 => ⟨S1024x1024, .f32⟩
  | 115 => ⟨S512x1024, .f32⟩
  | 116 => ⟨S1x1024x1024, .f32⟩
  | 117 => ⟨S1024x1024, .f32⟩
  | 118 => ⟨S512x1024, .f32⟩
  | 119 => ⟨S512x1024, .f32⟩
  | 120 => ⟨S1x1024, .f32⟩
  | 121 => ⟨S1024, .f32⟩
  | 122 => ⟨S1x1024, .f32⟩
  | 123 => ⟨S512x1024, .f32⟩
  | 124 => ⟨S512x1024, .f32⟩
  | 125 => ⟨S512x1024, .f32⟩
  | 126 => ⟨S512x1024, .f32⟩
  | 127 => ⟨S_, .f32⟩
  | _ => ⟨S512x128x1024, .f32⟩

abbrev hbmTy0_27 (i : Nat) : BufTy := match i % 128 with
  | 0 => ⟨S512x1024, .f32⟩
  | 1 => ⟨S512x1024, .f32⟩
  | 2 => ⟨S_, .f32⟩
  | 3 => ⟨S512x1024, .f32⟩
  | 4 => ⟨S512x1024, .f32⟩
  | 5 => ⟨S1x1024x1024, .f32⟩
  | 6 => ⟨S1024x1024, .f32⟩
  | 7 => ⟨S512x1024, .f32⟩
  | 8 => ⟨S512x1024, .f32⟩
  | 9 => ⟨S1x1024x1024, .f32⟩
  | 10 => ⟨S1024x1024, .f32⟩
  | 11 => ⟨S512x1024, .f32⟩
  | 12 => ⟨S512x1024, .f32⟩
  | 13 => ⟨S1x1024, .f32⟩
  | 14 => ⟨S1024, .f32⟩
  | 15 => ⟨S1x1024, .f32⟩
  | 16 => ⟨S512x1024, .f32⟩
  | 17 => ⟨S512x1024, .f32⟩
  | 18 => ⟨S512x1024, .f32⟩
  | 19 => ⟨S_, .f32⟩
  | 20 => ⟨S512x1024, .f32⟩
  | 21 => ⟨S512x1024, .f32⟩
  | 22 => ⟨S512x1024, .f32⟩
  | 23 => ⟨S512x1024, .f32⟩
  | 24 => ⟨S512x1024, .f32⟩
  | 25 => ⟨S512x1024, .f32⟩
  | 26 => ⟨S1x1024, .f32⟩
  | 27 => ⟨S512x1024, .f32⟩
  | 28 => ⟨S512x1024, .f32⟩
  | 29 => ⟨S1x512x1024, .f32⟩
  | 30 => ⟨S1x512x1024, .f32⟩
  | 31 => ⟨S1x512x1024, .f32⟩
  | 32 => ⟨S1x512x1024, .f32⟩
  | 33 => ⟨S1x512x1024, .f32⟩
  | 34 => ⟨S1x512x1024, .f32⟩
  | 35 => ⟨S1x512x1024, .f32⟩
  | 36 => ⟨S1x512x1024, .f32⟩
  | 37 => ⟨S8x512x1024, .f32⟩
  | 38 => ⟨S512x1x1024, .f32⟩
  | 39 => ⟨S512x1024, .f32⟩
  | 40 => ⟨S1x1024x1024, .f32⟩
  | 41 => ⟨S1024x1024, .f32⟩
  | 42 => ⟨S512x1024, .f32⟩
  | 43 => ⟨S1x1024x1024, .f32⟩
  | 44 => ⟨S1024x1024, .f32⟩
  | 45 => ⟨S512x1024, .f32⟩
  | 46 => ⟨S512x1024, .f32⟩
  | 47 => ⟨S1x1024, .f32⟩
  | 48 => ⟨S1024, .f32⟩
  | 49 => ⟨S1x1024, .f32⟩
  | 50 => ⟨S512x1024, .f32⟩
  | 51 => ⟨S512x1024, .f32⟩
  | 52 => ⟨S512x1024, .f32⟩
  | 53 => ⟨S512x1024, .f32⟩
  | 54 => ⟨S_, .f32⟩
  | 55 => ⟨S512x1024, .f32⟩
  | 56 => ⟨S512x1024, .f32⟩
  | 57 => ⟨S_, .f32⟩
  | 58 => ⟨S512x1024, .f32⟩
  | 59 => ⟨S512x1024, .f32⟩
  | 60 => ⟨S1x1024x1024, .f32⟩
  | 61 => ⟨S1024x1024, .f32⟩
  | 62 => ⟨S512x1024, .f32⟩
  | 63 => ⟨S1x1024x1024, .f32⟩
  | 64 => ⟨S1024x1024, .f32⟩
  | 65 => ⟨S512x1024, .f32⟩
  | 66 => ⟨S512x1024, .f32⟩
  | 67 => ⟨S1x1024, .f32⟩
  | 68 => ⟨S1024, .f32⟩
  | 69 => ⟨S1x1024, .f32⟩
  | 70 => ⟨S512x1024, .f32⟩
  | 71 => ⟨S512x1024, .f32⟩
  | 72 => ⟨S512x1024, .f32⟩
  | 73 => ⟨S512x1024, .f32⟩
  | 74 => ⟨S_, .f32⟩
  | 75 => ⟨S512x1024, .f32⟩
  | 76 => ⟨S512x1024, .f32⟩
  | 77 => ⟨S_, .f32⟩
  | 78 => ⟨S512x1024, .f32⟩
  | 79 => ⟨S512x1024, .f32⟩
  | 80 => ⟨S1x1024x1024, .f32⟩
  | 81 => ⟨S1024x1024, .f32⟩
  | 82 => ⟨S512x1024, .f32⟩
  | 83 => ⟨S512x1024, .f32⟩
  | 84 => ⟨S1x1024x1024, .f32⟩
  | 85 => ⟨S1024x1024, .f32⟩
  | 86 => ⟨S512x1024, .f32⟩
  | 87 => ⟨S512x1024, .f32⟩
  | 88 => ⟨S1x1024, .f32⟩
  | 89 => ⟨S1024, .f32⟩
  | 90 => ⟨S1x1024, .f32⟩
  | 91 => ⟨S512x1024, .f32⟩
  | 92 => ⟨S512x1024, .f32⟩
  | 93 => ⟨S512x1024, .f32⟩
  | 94 => ⟨S_, .f32⟩
  | 95 => ⟨S512x1024, .f32⟩
  | 96 => ⟨S512x1024, .f32⟩
  | 97 => ⟨S512x1024, .f32⟩
  | 98 => ⟨S512x1024, .f32⟩
  | 99 => ⟨S512x1024, .f32⟩
  | 100 => ⟨S1x1024x1024, .f32⟩
  | 101 => ⟨S1024x1024, .f32⟩
  | 102 => ⟨S512x1024, .f32⟩
  | 103 => ⟨S1x1024x1024, .f32⟩
  | 104 => ⟨S1024x1024, .f32⟩
  | 105 => ⟨S512x1024, .f32⟩
  | 106 => ⟨S512x1024, .f32⟩
  | 107 => ⟨S1x1024, .f32⟩
  | 108 => ⟨S1024, .f32⟩
  | 109 => ⟨S1x1024, .f32⟩
  | 110 => ⟨S512x1024, .f32⟩
  | 111 => ⟨S512x1024, .f32⟩
  | 112 => ⟨S512x1024, .f32⟩
  | 113 => ⟨S512x1024, .f32⟩
  | 114 => ⟨S_, .f32⟩
  | 115 => ⟨S512x1024, .f32⟩
  | 116 => ⟨S512x1024, .f32⟩
  | 117 => ⟨S_, .f32⟩
  | 118 => ⟨S512x1024, .f32⟩
  | 119 => ⟨S512x1024, .f32⟩
  | 120 => ⟨S1x1024x1024, .f32⟩
  | 121 => ⟨S1024x1024, .f32⟩
  | 122 => ⟨S512x1024, .f32⟩
  | 123 => ⟨S1x1024x1024, .f32⟩
  | 124 => ⟨S1024x1024, .f32⟩
  | 125 => ⟨S512x1024, .f32⟩
  | 126 => ⟨S512x1024, .f32⟩
  | 127 => ⟨S1x1024, .f32⟩
  | _ => ⟨S512x128x1024, .f32⟩

abbrev hbmTy0_28 (i : Nat) : BufTy := match i % 128 with
  | 0 => ⟨S1024, .f32⟩
  | 1 => ⟨S1x1024, .f32⟩
  | 2 => ⟨S512x1024, .f32⟩
  | 3 => ⟨S512x1024, .f32⟩
  | 4 => ⟨S512x1024, .f32⟩
  | 5 => ⟨S512x1024, .f32⟩
  | 6 => ⟨S_, .f32⟩
  | 7 => ⟨S512x1024, .f32⟩
  | 8 => ⟨S512x1024, .f32⟩
  | 9 => ⟨S_, .f32⟩
  | 10 => ⟨S512x1024, .f32⟩
  | 11 => ⟨S512x1024, .f32⟩
  | 12 => ⟨S1x1024x1024, .f32⟩
  | 13 => ⟨S1024x1024, .f32⟩
  | 14 => ⟨S512x1024, .f32⟩
  | 15 => ⟨S512x1024, .f32⟩
  | 16 => ⟨S1x1024x1024, .f32⟩
  | 17 => ⟨S1024x1024, .f32⟩
  | 18 => ⟨S512x1024, .f32⟩
  | 19 => ⟨S512x1024, .f32⟩
  | 20 => ⟨S1x1024, .f32⟩
  | 21 => ⟨S1024, .f32⟩
  | 22 => ⟨S1x1024, .f32⟩
  | 23 => ⟨S512x1024, .f32⟩
  | 24 => ⟨S512x1024, .f32⟩
  | 25 => ⟨S512x1024, .f32⟩
  | 26 => ⟨S_, .f32⟩
  | 27 => ⟨S512x1024, .f32⟩
  | 28 => ⟨S512x1024, .f32⟩
  | 29 => ⟨S512x1024, .f32⟩
  | 30 => ⟨S512x1024, .f32⟩
  | 31 => ⟨S512x1024, .f32⟩
  | 32 => ⟨S1x1024x1024, .f32⟩
  | 33 => ⟨S1024x1024, .f32⟩
  | 34 => ⟨S512x1024, .f32⟩
  | 35 => ⟨S1x1024x1024, .f32⟩
  | 36 => ⟨S1024x1024, .f32⟩
  | 37 => ⟨S512x1024, .f32⟩
  | 38 => ⟨S512x1024, .f32⟩
  | 39 => ⟨S1x1024, .f32⟩
  | 40 => ⟨S1024, .f32⟩
  | 41 => ⟨S1x1024, .f32⟩
  | 42 => ⟨S512x1024, .f32⟩
  | 43 => ⟨S512x1024, .f32⟩
  | 44 => ⟨S512x1024, .f32⟩
  | 45 => ⟨S512x1024, .f32⟩
  | 46 => ⟨S_, .f32⟩
  | 47 => ⟨S512x1024, .f32⟩
  | 48 => ⟨S512x1024, .f32⟩
  | 49 => ⟨S_, .f32⟩
  | 50 => ⟨S512x1024, .f32⟩
  | 51 => ⟨S512x1024, .f32⟩
  | 52 => ⟨S1x1024x1024, .f32⟩
  | 53 => ⟨S1024x1024, .f32⟩
  | 54 => ⟨S512x1024, .f32⟩
  | 55 => ⟨S1x1024x1024, .f32⟩
  | 56 => ⟨S1024x1024, .f32⟩
  | 57 => ⟨S512x1024, .f32⟩
  | 58 => ⟨S512x1024, .f32⟩
  | 59 => ⟨S1x1024, .f32⟩
  | 60 => ⟨S1024, .f32⟩
  | 61 => ⟨S1x1024, .f32⟩
  | 62 => ⟨S512x1024, .f32⟩
  | 63 => ⟨S512x1024, .f32⟩
  | 64 => ⟨S512x1024, .f32⟩
  | 65 => ⟨S512x1024, .f32⟩
  | 66 => ⟨S_, .f32⟩
  | 67 => ⟨S512x1024, .f32⟩
  | 68 => ⟨S512x1024, .f32⟩
  | 69 => ⟨S_, .f32⟩
  | 70 => ⟨S512x1024, .f32⟩
  | 71 => ⟨S512x1024, .f32⟩
  | 72 => ⟨S1x1024x1024, .f32⟩
  | 73 => ⟨S1024x1024, .f32⟩
  | 74 => ⟨S512x1024, .f32⟩
  | 75 => ⟨S512x1024, .f32⟩
  | 76 => ⟨S1x1024x1024, .f32⟩
  | 77 => ⟨S1024x1024, .f32⟩
  | 78 => ⟨S512x1024, .f32⟩
  | 79 => ⟨S512x1024, .f32⟩
  | 80 => ⟨S1x1024, .f32⟩
  | 81 => ⟨S1024, .f32⟩
  | 82 => ⟨S1x1024, .f32⟩
  | 83 => ⟨S512x1024, .f32⟩
  | 84 => ⟨S512x1024, .f32⟩
  | 85 => ⟨S512x1024, .f32⟩
  | 86 => ⟨S_, .f32⟩
  | 87 => ⟨S512x1024, .f32⟩
  | 88 => ⟨S512x1024, .f32⟩
  | 89 => ⟨S512x1024, .f32⟩
  | 90 => ⟨S512x1024, .f32⟩
  | 91 => ⟨S512x1024, .f32⟩
  | 92 => ⟨S1x1024x1024, .f32⟩
  | 93 => ⟨S1024x1024, .f32⟩
  | 94 => ⟨S512x1024, .f32⟩
  | 95 => ⟨S1x1024x1024, .f32⟩
  | 96 => ⟨S1024x1024, .f32⟩
  | 97 => ⟨S512x1024, .f32⟩
  | 98 => ⟨S512x1024, .f32⟩
  | 99 => ⟨S1x1024, .f32⟩
  | 100 => ⟨S1024, .f32⟩
  | 101 => ⟨S1x1024, .f32⟩
  | 102 => ⟨S512x1024, .f32⟩
  | 103 => ⟨S512x1024, .f32⟩
  | 104 => ⟨S512x1024, .f32⟩
  | 105 => ⟨S512x1024, .f32⟩
  | 106 => ⟨S_, .f32⟩
  | 107 => ⟨S512x1024, .f32⟩
  | 108 => ⟨S512x1024, .f32⟩
  | 109 => ⟨S_, .f32⟩
  | 110 => ⟨S512x1024, .f32⟩
  | 111 => ⟨S512x1024, .f32⟩
  | 112 => ⟨S1x1024x1024, .f32⟩
  | 113 => ⟨S1024x1024, .f32⟩
  | 114 => ⟨S512x1024, .f32⟩
  | 115 => ⟨S1x1024x1024, .f32⟩
  | 116 => ⟨S1024x1024, .f32⟩
  | 117 => ⟨S512x1024, .f32⟩
  | 118 => ⟨S512x1024, .f32⟩
  | 119 => ⟨S1x1024, .f32⟩
  | 120 => ⟨S1024, .f32⟩
  | 121 => ⟨S1x1024, .f32⟩
  | 122 => ⟨S512x1024, .f32⟩
  | 123 => ⟨S512x1024, .f32⟩
  | 124 => ⟨S512x1024, .f32⟩
  | 125 => ⟨S512x1024, .f32⟩
  | 126 => ⟨S_, .f32⟩
  | 127 => ⟨S512x1024, .f32⟩
  | _ => ⟨S512x128x1024, .f32⟩

abbrev hbmTy0_29 (i : Nat) : BufTy := match i % 128 with
  | 0 => ⟨S512x1024, .f32⟩
  | 1 => ⟨S_, .f32⟩
  | 2 => ⟨S512x1024, .f32⟩
  | 3 => ⟨S512x1024, .f32⟩
  | 4 => ⟨S1x1024x1024, .f32⟩
  | 5 => ⟨S1024x1024, .f32⟩
  | 6 => ⟨S512x1024, .f32⟩
  | 7 => ⟨S512x1024, .f32⟩
  | 8 => ⟨S1x1024x1024, .f32⟩
  | 9 => ⟨S1024x1024, .f32⟩
  | 10 => ⟨S512x1024, .f32⟩
  | 11 => ⟨S512x1024, .f32⟩
  | 12 => ⟨S1x1024, .f32⟩
  | 13 => ⟨S1024, .f32⟩
  | 14 => ⟨S1x1024, .f32⟩
  | 15 => ⟨S512x1024, .f32⟩
  | 16 => ⟨S512x1024, .f32⟩
  | 17 => ⟨S512x1024, .f32⟩
  | 18 => ⟨S_, .f32⟩
  | 19 => ⟨S512x1024, .f32⟩
  | 20 => ⟨S512x1024, .f32⟩
  | 21 => ⟨S512x1024, .f32⟩
  | 22 => ⟨S512x1024, .f32⟩
  | 23 => ⟨S512x1024, .f32⟩
  | 24 => ⟨S1x1024x1024, .f32⟩
  | 25 => ⟨S1024x1024, .f32⟩
  | 26 => ⟨S512x1024, .f32⟩
  | 27 => ⟨S1x1024x1024, .f32⟩
  | 28 => ⟨S1024x1024, .f32⟩
  | 29 => ⟨S512x1024, .f32⟩
  | 30 => ⟨S512x1024, .f32⟩
  | 31 => ⟨S1x1024, .f32⟩
  | 32 => ⟨S1024, .f32⟩
  | 33 => ⟨S1x1024, .f32⟩
  | 34 => ⟨S512x1024, .f32⟩
  | 35 => ⟨S512x1024, .f32⟩
  | 36 => ⟨S512x1024, .f32⟩
  | 37 => ⟨S512x1024, .f32⟩
  | 38 => ⟨S_, .f32⟩
  | 39 => ⟨S512x1024, .f32⟩
  | 40 => ⟨S512x1024, .f32⟩
  | 41 => ⟨S_, .f32⟩
  | 42 => ⟨S512x1024, .f32⟩
  | 43 => ⟨S512x1024, .f32⟩
  | 44 => ⟨S1x1024x1024, .f32⟩
  | 45 => ⟨S1024x1024, .f32⟩
  | 46 => ⟨S512x1024, .f32⟩
  | 47 => ⟨S1x1024x1024, .f32⟩
  | 48 => ⟨S1024x1024, .f32⟩
  | 49 => ⟨S512x1024, .f32⟩
  | 50 => ⟨S512x1024, .f32⟩
  | 51 => ⟨S1x1024, .f32⟩
  | 52 => ⟨S1024, .f32⟩
  | 53 => ⟨S1x1024, .f32⟩
  | 54 => ⟨S512x1024, .f32⟩
  | 55 => ⟨S512x1024, .f32⟩
  | 56 => ⟨S512x1024, .f32⟩
  | 57 => ⟨S512x1024, .f32⟩
  | 58 => ⟨S_, .f32⟩
  | 59 => ⟨S512x1024, .f32⟩
  | 60 => ⟨S512x1024, .f32⟩
  | 61 => ⟨S_, .f32⟩
  | 62 => ⟨S512x1024, .f32⟩
  | 63 => ⟨S512x1024, .f32⟩
  | 64 => ⟨S1x1024x1024, .f32⟩
  | 65 => ⟨S1024x1024, .f32⟩
  | 66 => ⟨S512x1024, .f32⟩
  | 67 => ⟨S512x1024, .f32⟩
  | 68 => ⟨S1x1024x1024, .f32⟩
  | 69 => ⟨S1024x1024, .f32⟩
  | 70 => ⟨S512x1024, .f32⟩
  | 71 => ⟨S512x1024, .f32⟩
  | 72 => ⟨S1x1024, .f32⟩
  | 73 => ⟨S1024, .f32⟩
  | 74 => ⟨S1x1024, .f32⟩
  | 75 => ⟨S512x1024, .f32⟩
  | 76 => ⟨S512x1024, .f32⟩
  | 77 => ⟨S512x1024, .f32⟩
  | 78 => ⟨S_, .f32⟩
  | 79 => ⟨S512x1024, .f32⟩
  | 80 => ⟨S512x1024, .f32⟩
  | 81 => ⟨S512x1024, .f32⟩
  | 82 => ⟨S512x1024, .f32⟩
  | 83 => ⟨S512x1024, .f32⟩
  | 84 => ⟨S1x1024x1024, .f32⟩
  | 85 => ⟨S1024x1024, .f32⟩
  | 86 => ⟨S512x1024, .f32⟩
  | 87 => ⟨S1x1024x1024, .f32⟩
  | 88 => ⟨S1024x1024, .f32⟩
  | 89 => ⟨S512x1024, .f32⟩
  | 90 => ⟨S512x1024, .f32⟩
  | 91 => ⟨S1x1024, .f32⟩
  | 92 => ⟨S1024, .f32⟩
  | 93 => ⟨S1x1024, .f32⟩
  | 94 => ⟨S512x1024, .f32⟩
  | 95 => ⟨S512x1024, .f32⟩
  | 96 => ⟨S512x1024, .f32⟩
  | 97 => ⟨S512x1024, .f32⟩
  | 98 => ⟨S_, .f32⟩
  | 99 => ⟨S512x1024, .f32⟩
  | 100 => ⟨S512x1024, .f32⟩
  | 101 => ⟨S_, .f32⟩
  | 102 => ⟨S512x1024, .f32⟩
  | 103 => ⟨S512x1024, .f32⟩
  | 104 => ⟨S1x1024x1024, .f32⟩
  | 105 => ⟨S1024x1024, .f32⟩
  | 106 => ⟨S512x1024, .f32⟩
  | 107 => ⟨S1x1024x1024, .f32⟩
  | 108 => ⟨S1024x1024, .f32⟩
  | 109 => ⟨S512x1024, .f32⟩
  | 110 => ⟨S512x1024, .f32⟩
  | 111 => ⟨S1x1024, .f32⟩
  | 112 => ⟨S1024, .f32⟩
  | 113 => ⟨S1x1024, .f32⟩
  | 114 => ⟨S512x1024, .f32⟩
  | 115 => ⟨S512x1024, .f32⟩
  | 116 => ⟨S512x1024, .f32⟩
  | 117 => ⟨S512x1024, .f32⟩
  | 118 => ⟨S_, .f32⟩
  | 119 => ⟨S512x1024, .f32⟩
  | 120 => ⟨S512x1024, .f32⟩
  | 121 => ⟨S_, .f32⟩
  | 122 => ⟨S512x1024, .f32⟩
  | 123 => ⟨S512x1024, .f32⟩
  | 124 => ⟨S1x1024x1024, .f32⟩
  | 125 => ⟨S1024x1024, .f32⟩
  | 126 => ⟨S512x1024, .f32⟩
  | 127 => ⟨S512x1024, .f32⟩
  | _ => ⟨S512x128x1024, .f32⟩

abbrev hbmTy0_30 (i : Nat) : BufTy := match i % 128 with
  | 0 => ⟨S1x1024x1024, .f32⟩
  | 1 => ⟨S1024x1024, .f32⟩
  | 2 => ⟨S512x1024, .f32⟩
  | 3 => ⟨S512x1024, .f32⟩
  | 4 => ⟨S1x1024, .f32⟩
  | 5 => ⟨S1024, .f32⟩
  | 6 => ⟨S1x1024, .f32⟩
  | 7 => ⟨S512x1024, .f32⟩
  | 8 => ⟨S512x1024, .f32⟩
  | 9 => ⟨S512x1024, .f32⟩
  | 10 => ⟨S_, .f32⟩
  | 11 => ⟨S512x1024, .f32⟩
  | 12 => ⟨S512x1024, .f32⟩
  | 13 => ⟨S512x1024, .f32⟩
  | 14 => ⟨S512x1024, .f32⟩
  | 15 => ⟨S512x1024, .f32⟩
  | 16 => ⟨S1x1024x1024, .f32⟩
  | 17 => ⟨S1024x1024, .f32⟩
  | 18 => ⟨S512x1024, .f32⟩
  | 19 => ⟨S1x1024x1024, .f32⟩
  | 20 => ⟨S1024x1024, .f32⟩
  | 21 => ⟨S512x1024, .f32⟩
  | 22 => ⟨S512x1024, .f32⟩
  | 23 => ⟨S1x1024, .f32⟩
  | 24 => ⟨S1024, .f32⟩
  | 25 => ⟨S1x1024, .f32⟩
  | 26 => ⟨S512x1024, .f32⟩
  | 27 => ⟨S512x1024, .f32⟩
  | 28 => ⟨S512x1024, .f32⟩
  | 29 => ⟨S512x1024, .f32⟩
  | 30 => ⟨S_, .f32⟩
  | 31 => ⟨S512x1024, .f32⟩
  | 32 => ⟨S512x1024, .f32⟩
  | 33 => ⟨S_, .f32⟩
  | 34 => ⟨S512x1024, .f32⟩
  | 35 => ⟨S512x1024, .f32⟩
  | 36 => ⟨S1x1024x1024, .f32⟩
  | 37 => ⟨S1024x1024, .f32⟩
  | 38 => ⟨S512x1024, .f32⟩
  | 39 => ⟨S1x1024x1024, .f32⟩
  | 40 => ⟨S1024x1024, .f32⟩
  | 41 => ⟨S512x1024, .f32⟩
  | 42 => ⟨S512x1024, .f32⟩
  | 43 => ⟨S1x1024, .f32⟩
  | 44 => ⟨S1024, .f32⟩
  | 45 => ⟨S1x1024, .f32⟩
  | 46 => ⟨S512x1024, .f32⟩
  | 47 => ⟨S512x1024, .f32⟩
  | 48 => ⟨S512x1024, .f32⟩
  | 49 => ⟨S512x1024, .f32⟩
  | 50 => ⟨S_, .f32⟩
  | 51 => ⟨S512x1024, .f32⟩
  | 52 => ⟨S512x1024, .f32⟩
  | 53 => ⟨S_, .f32⟩
  | 54 => ⟨S512x1024, .f32⟩
  | 55 => ⟨S512x1024, .f32⟩
  | 56 => ⟨S1x1024x1024, .f32⟩
  | 57 => ⟨S1024x1024, .f32⟩
  | 58 => ⟨S512x1024, .f32⟩
  | 59 => ⟨S512x1024, .f32⟩
  | 60 => ⟨S1x1024x1024, .f32⟩
  | 61 => ⟨S1024x1024, .f32⟩
  | 62 => ⟨S512x1024, .f32⟩
  | 63 => ⟨S512x1024, .f32⟩
  | 64 => ⟨S1x1024, .f32⟩
  | 65 => ⟨S1024, .f32⟩
  | 66 => ⟨S1x1024, .f32⟩
  | 67 => ⟨S512x1024, .f32⟩
  | 68 => ⟨S512x1024, .f32⟩
  | 69 => ⟨S512x1024, .f32⟩
  | 70 => ⟨S_, .f32⟩
  | 71 => ⟨S512x1024, .f32⟩
  | 72 => ⟨S512x1024, .f32⟩
  | 73 => ⟨S512x1024, .f32⟩
  | 74 => ⟨S512x1024, .f32⟩
  | 75 => ⟨S512x1024, .f32⟩
  | 76 => ⟨S1x1024x1024, .f32⟩
  | 77 => ⟨S1024x1024, .f32⟩
  | 78 => ⟨S512x1024, .f32⟩
  | 79 => ⟨S1x1024x1024, .f32⟩
  | 80 => ⟨S1024x1024, .f32⟩
  | 81 => ⟨S512x1024, .f32⟩
  | 82 => ⟨S512x1024, .f32⟩
  | 83 => ⟨S1x1024, .f32⟩
  | 84 => ⟨S1024, .f32⟩
  | 85 => ⟨S1x1024, .f32⟩
  | 86 => ⟨S512x1024, .f32⟩
  | 87 => ⟨S512x1024, .f32⟩
  | 88 => ⟨S512x1024, .f32⟩
  | 89 => ⟨S512x1024, .f32⟩
  | 90 => ⟨S_, .f32⟩
  | 91 => ⟨S512x1024, .f32⟩
  | 92 => ⟨S512x1024, .f32⟩
  | 93 => ⟨S_, .f32⟩
  | 94 => ⟨S512x1024, .f32⟩
  | 95 => ⟨S512x1024, .f32⟩
  | 96 => ⟨S1x1024x1024, .f32⟩
  | 97 => ⟨S1024x1024, .f32⟩
  | 98 => ⟨S512x1024, .f32⟩
  | 99 => ⟨S1x1024x1024, .f32⟩
  | 100 => ⟨S1024x1024, .f32⟩
  | 101 => ⟨S512x1024, .f32⟩
  | 102 => ⟨S512x1024, .f32⟩
  | 103 => ⟨S1x1024, .f32⟩
  | 104 => ⟨S1024, .f32⟩
  | 105 => ⟨S1x1024, .f32⟩
  | 106 => ⟨S512x1024, .f32⟩
  | 107 => ⟨S512x1024, .f32⟩
  | 108 => ⟨S512x1024, .f32⟩
  | 109 => ⟨S512x1024, .f32⟩
  | 110 => ⟨S_, .f32⟩
  | 111 => ⟨S512x1024, .f32⟩
  | 112 => ⟨S512x1024, .f32⟩
  | 113 => ⟨S_, .f32⟩
  | 114 => ⟨S512x1024, .f32⟩
  | 115 => ⟨S512x1024, .f32⟩
  | 116 => ⟨S1x1024x1024, .f32⟩
  | 117 => ⟨S1024x1024, .f32⟩
  | 118 => ⟨S512x1024, .f32⟩
  | 119 => ⟨S512x1024, .f32⟩
  | 120 => ⟨S1x1024x1024, .f32⟩
  | 121 => ⟨S1024x1024, .f32⟩
  | 122 => ⟨S512x1024, .f32⟩
  | 123 => ⟨S512x1024, .f32⟩
  | 124 => ⟨S1x1024, .f32⟩
  | 125 => ⟨S1024, .f32⟩
  | 126 => ⟨S1x1024, .f32⟩
  | 127 => ⟨S512x1024, .f32⟩
  | _ => ⟨S512x128x1024, .f32⟩

abbrev hbmTy0_31 (i : Nat) : BufTy := match i % 128 with
  | 0 => ⟨S512x1024, .f32⟩
  | 1 => ⟨S512x1024, .f32⟩
  | 2 => ⟨S_, .f32⟩
  | 3 => ⟨S512x1024, .f32⟩
  | 4 => ⟨S512x1024, .f32⟩
  | 5 => ⟨S512x1024, .f32⟩
  | 6 => ⟨S512x1024, .f32⟩
  | 7 => ⟨S512x1024, .f32⟩
  | 8 => ⟨S512x1024, .f32⟩
  | 9 => ⟨S1x1024, .f32⟩
  | 10 => ⟨S512x1024, .f32⟩
  | 11 => ⟨S512x1024, .f32⟩
  | 12 => ⟨S1x512x1024, .f32⟩
  | 13 => ⟨S1x512x1024, .f32⟩
  | 14 => ⟨S1x512x1024, .f32⟩
  | 15 => ⟨S1x512x1024, .f32⟩
  | 16 => ⟨S1x512x1024, .f32⟩
  | 17 => ⟨S1x512x1024, .f32⟩
  | 18 => ⟨S1x512x1024, .f32⟩
  | 19 => ⟨S1x512x1024, .f32⟩
  | 20 => ⟨S8x512x1024, .f32⟩
  | 21 => ⟨S512x1x1024, .f32⟩
  | 22 => ⟨S512x1x1024, .f32⟩
  | 23 => ⟨S512x1x1024, .f32⟩
  | 24 => ⟨S512x1x1024, .f32⟩
  | 25 => ⟨S512x1x1024, .f32⟩
  | 26 => ⟨S512x1x1024, .f32⟩
  | 27 => ⟨S512x1x1024, .f32⟩
  | 28 => ⟨S512x1x1024, .f32⟩
  | 29 => ⟨S512x8x1024, .f32⟩
  | 30 => ⟨S8x1x512x1024, .f32⟩
  | 31 => ⟨S8x1x512x1024, .f32⟩
  | 32 => ⟨S8x1x512x1024, .f32⟩
  | 33 => ⟨S8x1x512x1024, .f32⟩
  | 34 => ⟨S8x1x512x1024, .f32⟩
  | 35 => ⟨S8x1x512x1024, .f32⟩
  | 36 => ⟨S8x1x512x1024, .f32⟩
  | 37 => ⟨S8x1x512x1024, .f32⟩
  | 38 => ⟨S8x8x512x1024, .f32⟩
  | 39 => ⟨S1x512x1024, .f32⟩
  | 40 => ⟨S1x512x1024, .f32⟩
  | 41 => ⟨S1x512x1024, .f32⟩
  | 42 => ⟨S1x512x1024, .f32⟩
  | 43 => ⟨S1x512x1024, .f32⟩
  | 44 => ⟨S1x512x1024, .f32⟩
  | 45 => ⟨S1x512x1024, .f32⟩
  | 46 => ⟨S1x512x1024, .f32⟩
  | 47 => ⟨S8x512x1024, .f32⟩
  | _ => ⟨S512x128x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | _ => ⟨S512x128x1024, .f32⟩

abbrev bufTy : (tb : Table) → Fin (tcTables nBuf tb) → BufTy
  | .hbm, ⟨i, _⟩ => hbmTy i
  | _, _ => ⟨S512x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_cst_0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_1 : Ref sig .tc := ⟨.hbm, 65, rfl⟩
abbrev main_v50 : Ref sig .tc := ⟨.hbm, 66, rfl⟩
abbrev main_v51 : Ref sig .tc := ⟨.hbm, 67, rfl⟩
abbrev main_cst_2 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_3 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_cst_4 : Ref sig .tc := ⟨.hbm, 105, rfl⟩
abbrev main_v87 : Ref sig .tc := ⟨.hbm, 106, rfl⟩
abbrev main_v88 : Ref sig .tc := ⟨.hbm, 107, rfl⟩
abbrev main_cst_5 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_6 : Ref sig .tc := ⟨.hbm, 125, rfl⟩
abbrev main_v105 : Ref sig .tc := ⟨.hbm, 126, rfl⟩
abbrev main_v106 : Ref sig .tc := ⟨.hbm, 127, rfl⟩
abbrev main_cst_7 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_cst_8 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_cst_9 : Ref sig .tc := ⟨.hbm, 165, rfl⟩
abbrev main_v142 : Ref sig .tc := ⟨.hbm, 166, rfl⟩
abbrev main_v143 : Ref sig .tc := ⟨.hbm, 167, rfl⟩
abbrev main_cst_10 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_cst_11 : Ref sig .tc := ⟨.hbm, 185, rfl⟩
abbrev main_v160 : Ref sig .tc := ⟨.hbm, 186, rfl⟩
abbrev main_v161 : Ref sig .tc := ⟨.hbm, 187, rfl⟩
abbrev main_cst_12 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_cst_13 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_cst_14 : Ref sig .tc := ⟨.hbm, 225, rfl⟩
abbrev main_v197 : Ref sig .tc := ⟨.hbm, 226, rfl⟩
abbrev main_v198 : Ref sig .tc := ⟨.hbm, 227, rfl⟩
abbrev main_cst_15 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_cst_16 : Ref sig .tc := ⟨.hbm, 245, rfl⟩
abbrev main_v215 : Ref sig .tc := ⟨.hbm, 246, rfl⟩
abbrev main_v216 : Ref sig .tc := ⟨.hbm, 247, rfl⟩
abbrev main_cst_17 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_cst_18 : Ref sig .tc := ⟨.hbm, 265, rfl⟩
abbrev main_v233 : Ref sig .tc := ⟨.hbm, 266, rfl⟩
abbrev main_v234 : Ref sig .tc := ⟨.hbm, 267, rfl⟩
abbrev main_v235 : Ref sig .tc := ⟨.hbm, 268, rfl⟩
abbrev main_v236 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_cst_19 : Ref sig .tc := ⟨.hbm, 285, rfl⟩
abbrev main_v252 : Ref sig .tc := ⟨.hbm, 286, rfl⟩
abbrev main_v253 : Ref sig .tc := ⟨.hbm, 287, rfl⟩
abbrev main_cst_20 : Ref sig .tc := ⟨.hbm, 288, rfl⟩
abbrev main_v254 : Ref sig .tc := ⟨.hbm, 289, rfl⟩
abbrev main_v255 : Ref sig .tc := ⟨.hbm, 290, rfl⟩
abbrev main_v256 : Ref sig .tc := ⟨.hbm, 291, rfl⟩
abbrev main_v257 : Ref sig .tc := ⟨.hbm, 292, rfl⟩
abbrev main_v258 : Ref sig .tc := ⟨.hbm, 293, rfl⟩
abbrev main_v259 : Ref sig .tc := ⟨.hbm, 294, rfl⟩
abbrev main_v260 : Ref sig .tc := ⟨.hbm, 295, rfl⟩
abbrev main_v261 : Ref sig .tc := ⟨.hbm, 296, rfl⟩
abbrev main_v262 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_v266 : Ref sig .tc := ⟨.hbm, 301, rfl⟩
abbrev main_v267 : Ref sig .tc := ⟨.hbm, 302, rfl⟩
abbrev main_v268 : Ref sig .tc := ⟨.hbm, 303, rfl⟩
abbrev main_v269 : Ref sig .tc := ⟨.hbm, 304, rfl⟩
abbrev main_cst_21 : Ref sig .tc := ⟨.hbm, 305, rfl⟩
abbrev main_v270 : Ref sig .tc := ⟨.hbm, 306, rfl⟩
abbrev main_v271 : Ref sig .tc := ⟨.hbm, 307, rfl⟩
abbrev main_cst_22 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280 : Ref sig .tc := ⟨.hbm, 317, rfl⟩
abbrev main_v281 : Ref sig .tc := ⟨.hbm, 318, rfl⟩
abbrev main_v282 : Ref sig .tc := ⟨.hbm, 319, rfl⟩
abbrev main_v283 : Ref sig .tc := ⟨.hbm, 320, rfl⟩
abbrev main_v284 : Ref sig .tc := ⟨.hbm, 321, rfl⟩
abbrev main_v285 : Ref sig .tc := ⟨.hbm, 322, rfl⟩
abbrev main_v286 : Ref sig .tc := ⟨.hbm, 323, rfl⟩
abbrev main_v287 : Ref sig .tc := ⟨.hbm, 324, rfl⟩
abbrev main_cst_23 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_cst_24 : Ref sig .tc := ⟨.hbm, 345, rfl⟩
abbrev main_v307 : Ref sig .tc := ⟨.hbm, 346, rfl⟩
abbrev main_v308 : Ref sig .tc := ⟨.hbm, 347, rfl⟩
abbrev main_cst_25 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_v322 : Ref sig .tc := ⟨.hbm, 362, rfl⟩
abbrev main_v323 : Ref sig .tc := ⟨.hbm, 363, rfl⟩
abbrev main_v324 : Ref sig .tc := ⟨.hbm, 364, rfl⟩
abbrev main_cst_26 : Ref sig .tc := ⟨.hbm, 365, rfl⟩
abbrev main_v325 : Ref sig .tc := ⟨.hbm, 366, rfl⟩
abbrev main_v326 : Ref sig .tc := ⟨.hbm, 367, rfl⟩
abbrev main_cst_27 : Ref sig .tc := ⟨.hbm, 368, rfl⟩
abbrev main_v327 : Ref sig .tc := ⟨.hbm, 369, rfl⟩
abbrev main_v328 : Ref sig .tc := ⟨.hbm, 370, rfl⟩
abbrev main_v329 : Ref sig .tc := ⟨.hbm, 371, rfl⟩
abbrev main_v330 : Ref sig .tc := ⟨.hbm, 372, rfl⟩
abbrev main_v331 : Ref sig .tc := ⟨.hbm, 373, rfl⟩
abbrev main_v332 : Ref sig .tc := ⟨.hbm, 374, rfl⟩
abbrev main_v333 : Ref sig .tc := ⟨.hbm, 375, rfl⟩
abbrev main_v334 : Ref sig .tc := ⟨.hbm, 376, rfl⟩
abbrev main_v335 : Ref sig .tc := ⟨.hbm, 377, rfl⟩
abbrev main_v336 : Ref sig .tc := ⟨.hbm, 378, rfl⟩
abbrev main_v337 : Ref sig .tc := ⟨.hbm, 379, rfl⟩
abbrev main_v338 : Ref sig .tc := ⟨.hbm, 380, rfl⟩
abbrev main_v339 : Ref sig .tc := ⟨.hbm, 381, rfl⟩
abbrev main_v340 : Ref sig .tc := ⟨.hbm, 382, rfl⟩
abbrev main_v341 : Ref sig .tc := ⟨.hbm, 383, rfl⟩
abbrev main_v342 : Ref sig .tc := ⟨.hbm, 384, rfl⟩
abbrev main_cst_28 : Ref sig .tc := ⟨.hbm, 385, rfl⟩
abbrev main_v343 : Ref sig .tc := ⟨.hbm, 386, rfl⟩
abbrev main_v344 : Ref sig .tc := ⟨.hbm, 387, rfl⟩
abbrev main_v345 : Ref sig .tc := ⟨.hbm, 388, rfl⟩
abbrev main_v346 : Ref sig .tc := ⟨.hbm, 389, rfl⟩
abbrev main_v347 : Ref sig .tc := ⟨.hbm, 390, rfl⟩
abbrev main_v348 : Ref sig .tc := ⟨.hbm, 391, rfl⟩
abbrev main_v349 : Ref sig .tc := ⟨.hbm, 392, rfl⟩
abbrev main_v350 : Ref sig .tc := ⟨.hbm, 393, rfl⟩
abbrev main_v351 : Ref sig .tc := ⟨.hbm, 394, rfl⟩
abbrev main_v352 : Ref sig .tc := ⟨.hbm, 395, rfl⟩
abbrev main_v353 : Ref sig .tc := ⟨.hbm, 396, rfl⟩
abbrev main_v354 : Ref sig .tc := ⟨.hbm, 397, rfl⟩
abbrev main_v355 : Ref sig .tc := ⟨.hbm, 398, rfl⟩
abbrev main_v356 : Ref sig .tc := ⟨.hbm, 399, rfl⟩
abbrev main_v357 : Ref sig .tc := ⟨.hbm, 400, rfl⟩
abbrev main_v358 : Ref sig .tc := ⟨.hbm, 401, rfl⟩
abbrev main_v359 : Ref sig .tc := ⟨.hbm, 402, rfl⟩
abbrev main_v360 : Ref sig .tc := ⟨.hbm, 403, rfl⟩
abbrev main_v361 : Ref sig .tc := ⟨.hbm, 404, rfl⟩
abbrev main_cst_29 : Ref sig .tc := ⟨.hbm, 405, rfl⟩
abbrev main_v362 : Ref sig .tc := ⟨.hbm, 406, rfl⟩
abbrev main_v363 : Ref sig .tc := ⟨.hbm, 407, rfl⟩
abbrev main_cst_30 : Ref sig .tc := ⟨.hbm, 408, rfl⟩
abbrev main_v364 : Ref sig .tc := ⟨.hbm, 409, rfl⟩
abbrev main_v365 : Ref sig .tc := ⟨.hbm, 410, rfl⟩
abbrev main_v366 : Ref sig .tc := ⟨.hbm, 411, rfl⟩
abbrev main_v367 : Ref sig .tc := ⟨.hbm, 412, rfl⟩
abbrev main_v368 : Ref sig .tc := ⟨.hbm, 413, rfl⟩
abbrev main_v369 : Ref sig .tc := ⟨.hbm, 414, rfl⟩
abbrev main_v370 : Ref sig .tc := ⟨.hbm, 415, rfl⟩
abbrev main_v371 : Ref sig .tc := ⟨.hbm, 416, rfl⟩
abbrev main_v372 : Ref sig .tc := ⟨.hbm, 417, rfl⟩
abbrev main_v373 : Ref sig .tc := ⟨.hbm, 418, rfl⟩
abbrev main_v374 : Ref sig .tc := ⟨.hbm, 419, rfl⟩
abbrev main_v375 : Ref sig .tc := ⟨.hbm, 420, rfl⟩
abbrev main_v376 : Ref sig .tc := ⟨.hbm, 421, rfl⟩
abbrev main_v377 : Ref sig .tc := ⟨.hbm, 422, rfl⟩
abbrev main_v378 : Ref sig .tc := ⟨.hbm, 423, rfl⟩
abbrev main_v379 : Ref sig .tc := ⟨.hbm, 424, rfl⟩
abbrev main_cst_31 : Ref sig .tc := ⟨.hbm, 425, rfl⟩
abbrev main_v380 : Ref sig .tc := ⟨.hbm, 426, rfl⟩
abbrev main_v381 : Ref sig .tc := ⟨.hbm, 427, rfl⟩
abbrev main_cst_32 : Ref sig .tc := ⟨.hbm, 428, rfl⟩
abbrev main_v382 : Ref sig .tc := ⟨.hbm, 429, rfl⟩
abbrev main_v383 : Ref sig .tc := ⟨.hbm, 430, rfl⟩
abbrev main_v384 : Ref sig .tc := ⟨.hbm, 431, rfl⟩
abbrev main_v385 : Ref sig .tc := ⟨.hbm, 432, rfl⟩
abbrev main_v386 : Ref sig .tc := ⟨.hbm, 433, rfl⟩
abbrev main_v387 : Ref sig .tc := ⟨.hbm, 434, rfl⟩
abbrev main_v388 : Ref sig .tc := ⟨.hbm, 435, rfl⟩
abbrev main_v389 : Ref sig .tc := ⟨.hbm, 436, rfl⟩
abbrev main_v390 : Ref sig .tc := ⟨.hbm, 437, rfl⟩
abbrev main_v391 : Ref sig .tc := ⟨.hbm, 438, rfl⟩
abbrev main_v392 : Ref sig .tc := ⟨.hbm, 439, rfl⟩
abbrev main_v393 : Ref sig .tc := ⟨.hbm, 440, rfl⟩
abbrev main_v394 : Ref sig .tc := ⟨.hbm, 441, rfl⟩
abbrev main_v395 : Ref sig .tc := ⟨.hbm, 442, rfl⟩
abbrev main_v396 : Ref sig .tc := ⟨.hbm, 443, rfl⟩
abbrev main_v397 : Ref sig .tc := ⟨.hbm, 444, rfl⟩
abbrev main_cst_33 : Ref sig .tc := ⟨.hbm, 445, rfl⟩
abbrev main_v398 : Ref sig .tc := ⟨.hbm, 446, rfl⟩
abbrev main_v399 : Ref sig .tc := ⟨.hbm, 447, rfl⟩
abbrev main_v400 : Ref sig .tc := ⟨.hbm, 448, rfl⟩
abbrev main_v401 : Ref sig .tc := ⟨.hbm, 449, rfl⟩
abbrev main_v402 : Ref sig .tc := ⟨.hbm, 450, rfl⟩
abbrev main_v403 : Ref sig .tc := ⟨.hbm, 451, rfl⟩
abbrev main_v404 : Ref sig .tc := ⟨.hbm, 452, rfl⟩
abbrev main_v405 : Ref sig .tc := ⟨.hbm, 453, rfl⟩
abbrev main_v406 : Ref sig .tc := ⟨.hbm, 454, rfl⟩
abbrev main_v407 : Ref sig .tc := ⟨.hbm, 455, rfl⟩
abbrev main_v408 : Ref sig .tc := ⟨.hbm, 456, rfl⟩
abbrev main_v409 : Ref sig .tc := ⟨.hbm, 457, rfl⟩
abbrev main_v410 : Ref sig .tc := ⟨.hbm, 458, rfl⟩
abbrev main_v411 : Ref sig .tc := ⟨.hbm, 459, rfl⟩
abbrev main_v412 : Ref sig .tc := ⟨.hbm, 460, rfl⟩
abbrev main_v413 : Ref sig .tc := ⟨.hbm, 461, rfl⟩
abbrev main_v414 : Ref sig .tc := ⟨.hbm, 462, rfl⟩
abbrev main_v415 : Ref sig .tc := ⟨.hbm, 463, rfl⟩
abbrev main_v416 : Ref sig .tc := ⟨.hbm, 464, rfl⟩
abbrev main_cst_34 : Ref sig .tc := ⟨.hbm, 465, rfl⟩
abbrev main_v417 : Ref sig .tc := ⟨.hbm, 466, rfl⟩
abbrev main_v418 : Ref sig .tc := ⟨.hbm, 467, rfl⟩
abbrev main_cst_35 : Ref sig .tc := ⟨.hbm, 468, rfl⟩
abbrev main_v419 : Ref sig .tc := ⟨.hbm, 469, rfl⟩
abbrev main_v420 : Ref sig .tc := ⟨.hbm, 470, rfl⟩
abbrev main_v421 : Ref sig .tc := ⟨.hbm, 471, rfl⟩
abbrev main_v422 : Ref sig .tc := ⟨.hbm, 472, rfl⟩
abbrev main_v423 : Ref sig .tc := ⟨.hbm, 473, rfl⟩
abbrev main_v424 : Ref sig .tc := ⟨.hbm, 474, rfl⟩
abbrev main_v425 : Ref sig .tc := ⟨.hbm, 475, rfl⟩
abbrev main_v426 : Ref sig .tc := ⟨.hbm, 476, rfl⟩
abbrev main_v427 : Ref sig .tc := ⟨.hbm, 477, rfl⟩
abbrev main_v428 : Ref sig .tc := ⟨.hbm, 478, rfl⟩
abbrev main_v429 : Ref sig .tc := ⟨.hbm, 479, rfl⟩
abbrev main_v430 : Ref sig .tc := ⟨.hbm, 480, rfl⟩
abbrev main_v431 : Ref sig .tc := ⟨.hbm, 481, rfl⟩
abbrev main_v432 : Ref sig .tc := ⟨.hbm, 482, rfl⟩
abbrev main_v433 : Ref sig .tc := ⟨.hbm, 483, rfl⟩
abbrev main_v434 : Ref sig .tc := ⟨.hbm, 484, rfl⟩
abbrev main_cst_36 : Ref sig .tc := ⟨.hbm, 485, rfl⟩
abbrev main_v435 : Ref sig .tc := ⟨.hbm, 486, rfl⟩
abbrev main_v436 : Ref sig .tc := ⟨.hbm, 487, rfl⟩
abbrev main_cst_37 : Ref sig .tc := ⟨.hbm, 488, rfl⟩
abbrev main_v437 : Ref sig .tc := ⟨.hbm, 489, rfl⟩
abbrev main_v438 : Ref sig .tc := ⟨.hbm, 490, rfl⟩
abbrev main_v439 : Ref sig .tc := ⟨.hbm, 491, rfl⟩
abbrev main_v440 : Ref sig .tc := ⟨.hbm, 492, rfl⟩
abbrev main_v441 : Ref sig .tc := ⟨.hbm, 493, rfl⟩
abbrev main_v442 : Ref sig .tc := ⟨.hbm, 494, rfl⟩
abbrev main_v443 : Ref sig .tc := ⟨.hbm, 495, rfl⟩
abbrev main_v444 : Ref sig .tc := ⟨.hbm, 496, rfl⟩
abbrev main_v445 : Ref sig .tc := ⟨.hbm, 497, rfl⟩
abbrev main_v446 : Ref sig .tc := ⟨.hbm, 498, rfl⟩
abbrev main_v447 : Ref sig .tc := ⟨.hbm, 499, rfl⟩
abbrev main_v448 : Ref sig .tc := ⟨.hbm, 500, rfl⟩
abbrev main_v449 : Ref sig .tc := ⟨.hbm, 501, rfl⟩
abbrev main_v450 : Ref sig .tc := ⟨.hbm, 502, rfl⟩
abbrev main_v451 : Ref sig .tc := ⟨.hbm, 503, rfl⟩
abbrev main_v452 : Ref sig .tc := ⟨.hbm, 504, rfl⟩
abbrev main_cst_38 : Ref sig .tc := ⟨.hbm, 505, rfl⟩
abbrev main_v453 : Ref sig .tc := ⟨.hbm, 506, rfl⟩
abbrev main_v454 : Ref sig .tc := ⟨.hbm, 507, rfl⟩
abbrev main_v455 : Ref sig .tc := ⟨.hbm, 508, rfl⟩
abbrev main_v456 : Ref sig .tc := ⟨.hbm, 509, rfl⟩
abbrev main_v457 : Ref sig .tc := ⟨.hbm, 510, rfl⟩
abbrev main_v458 : Ref sig .tc := ⟨.hbm, 511, rfl⟩
abbrev main_v459 : Ref sig .tc := ⟨.hbm, 512, rfl⟩
abbrev main_v460 : Ref sig .tc := ⟨.hbm, 513, rfl⟩
abbrev main_v461 : Ref sig .tc := ⟨.hbm, 514, rfl⟩
abbrev main_v462 : Ref sig .tc := ⟨.hbm, 515, rfl⟩
abbrev main_v463 : Ref sig .tc := ⟨.hbm, 516, rfl⟩
abbrev main_v464 : Ref sig .tc := ⟨.hbm, 517, rfl⟩
abbrev main_v465 : Ref sig .tc := ⟨.hbm, 518, rfl⟩
abbrev main_v466 : Ref sig .tc := ⟨.hbm, 519, rfl⟩
abbrev main_v467 : Ref sig .tc := ⟨.hbm, 520, rfl⟩
abbrev main_v468 : Ref sig .tc := ⟨.hbm, 521, rfl⟩
abbrev main_v469 : Ref sig .tc := ⟨.hbm, 522, rfl⟩
abbrev main_v470 : Ref sig .tc := ⟨.hbm, 523, rfl⟩
abbrev main_v471 : Ref sig .tc := ⟨.hbm, 524, rfl⟩
abbrev main_v472 : Ref sig .tc := ⟨.hbm, 525, rfl⟩
abbrev main_v473 : Ref sig .tc := ⟨.hbm, 526, rfl⟩
abbrev main_v474 : Ref sig .tc := ⟨.hbm, 527, rfl⟩
abbrev main_v475 : Ref sig .tc := ⟨.hbm, 528, rfl⟩
abbrev main_v476 : Ref sig .tc := ⟨.hbm, 529, rfl⟩
abbrev main_v477 : Ref sig .tc := ⟨.hbm, 530, rfl⟩
abbrev main_v478 : Ref sig .tc := ⟨.hbm, 531, rfl⟩
abbrev main_v479 : Ref sig .tc := ⟨.hbm, 532, rfl⟩
abbrev main_v480 : Ref sig .tc := ⟨.hbm, 533, rfl⟩
abbrev main_v481 : Ref sig .tc := ⟨.hbm, 534, rfl⟩
abbrev main_v482 : Ref sig .tc := ⟨.hbm, 535, rfl⟩
abbrev main_v483 : Ref sig .tc := ⟨.hbm, 536, rfl⟩
abbrev main_v484 : Ref sig .tc := ⟨.hbm, 537, rfl⟩
abbrev main_v485 : Ref sig .tc := ⟨.hbm, 538, rfl⟩
abbrev main_v486 : Ref sig .tc := ⟨.hbm, 539, rfl⟩
abbrev main_cst_39 : Ref sig .tc := ⟨.hbm, 540, rfl⟩
abbrev main_v487 : Ref sig .tc := ⟨.hbm, 541, rfl⟩
abbrev main_v488 : Ref sig .tc := ⟨.hbm, 542, rfl⟩
abbrev main_cst_40 : Ref sig .tc := ⟨.hbm, 543, rfl⟩
abbrev main_v489 : Ref sig .tc := ⟨.hbm, 544, rfl⟩
abbrev main_v490 : Ref sig .tc := ⟨.hbm, 545, rfl⟩
abbrev main_v491 : Ref sig .tc := ⟨.hbm, 546, rfl⟩
abbrev main_v492 : Ref sig .tc := ⟨.hbm, 547, rfl⟩
abbrev main_v493 : Ref sig .tc := ⟨.hbm, 548, rfl⟩
abbrev main_v494 : Ref sig .tc := ⟨.hbm, 549, rfl⟩
abbrev main_v495 : Ref sig .tc := ⟨.hbm, 550, rfl⟩
abbrev main_v496 : Ref sig .tc := ⟨.hbm, 551, rfl⟩
abbrev main_v497 : Ref sig .tc := ⟨.hbm, 552, rfl⟩
abbrev main_v498 : Ref sig .tc := ⟨.hbm, 553, rfl⟩
abbrev main_v499 : Ref sig .tc := ⟨.hbm, 554, rfl⟩
abbrev main_v500 : Ref sig .tc := ⟨.hbm, 555, rfl⟩
abbrev main_v501 : Ref sig .tc := ⟨.hbm, 556, rfl⟩
abbrev main_v502 : Ref sig .tc := ⟨.hbm, 557, rfl⟩
abbrev main_v503 : Ref sig .tc := ⟨.hbm, 558, rfl⟩
abbrev main_v504 : Ref sig .tc := ⟨.hbm, 559, rfl⟩
abbrev main_cst_41 : Ref sig .tc := ⟨.hbm, 560, rfl⟩
abbrev main_v505 : Ref sig .tc := ⟨.hbm, 561, rfl⟩
abbrev main_v506 : Ref sig .tc := ⟨.hbm, 562, rfl⟩
abbrev main_cst_42 : Ref sig .tc := ⟨.hbm, 563, rfl⟩
abbrev main_v507 : Ref sig .tc := ⟨.hbm, 564, rfl⟩
abbrev main_v508 : Ref sig .tc := ⟨.hbm, 565, rfl⟩
abbrev main_v509 : Ref sig .tc := ⟨.hbm, 566, rfl⟩
abbrev main_v510 : Ref sig .tc := ⟨.hbm, 567, rfl⟩
abbrev main_v511 : Ref sig .tc := ⟨.hbm, 568, rfl⟩
abbrev main_v512 : Ref sig .tc := ⟨.hbm, 569, rfl⟩
abbrev main_v513 : Ref sig .tc := ⟨.hbm, 570, rfl⟩
abbrev main_v514 : Ref sig .tc := ⟨.hbm, 571, rfl⟩
abbrev main_v515 : Ref sig .tc := ⟨.hbm, 572, rfl⟩
abbrev main_v516 : Ref sig .tc := ⟨.hbm, 573, rfl⟩
abbrev main_v517 : Ref sig .tc := ⟨.hbm, 574, rfl⟩
abbrev main_v518 : Ref sig .tc := ⟨.hbm, 575, rfl⟩
abbrev main_v519 : Ref sig .tc := ⟨.hbm, 576, rfl⟩
abbrev main_v520 : Ref sig .tc := ⟨.hbm, 577, rfl⟩
abbrev main_v521 : Ref sig .tc := ⟨.hbm, 578, rfl⟩
abbrev main_v522 : Ref sig .tc := ⟨.hbm, 579, rfl⟩
abbrev main_cst_43 : Ref sig .tc := ⟨.hbm, 580, rfl⟩
abbrev main_v523 : Ref sig .tc := ⟨.hbm, 581, rfl⟩
abbrev main_v524 : Ref sig .tc := ⟨.hbm, 582, rfl⟩
abbrev main_v525 : Ref sig .tc := ⟨.hbm, 583, rfl⟩
abbrev main_v526 : Ref sig .tc := ⟨.hbm, 584, rfl⟩
abbrev main_v527 : Ref sig .tc := ⟨.hbm, 585, rfl⟩
abbrev main_v528 : Ref sig .tc := ⟨.hbm, 586, rfl⟩
abbrev main_v529 : Ref sig .tc := ⟨.hbm, 587, rfl⟩
abbrev main_v530 : Ref sig .tc := ⟨.hbm, 588, rfl⟩
abbrev main_v531 : Ref sig .tc := ⟨.hbm, 589, rfl⟩
abbrev main_v532 : Ref sig .tc := ⟨.hbm, 590, rfl⟩
abbrev main_v533 : Ref sig .tc := ⟨.hbm, 591, rfl⟩
abbrev main_v534 : Ref sig .tc := ⟨.hbm, 592, rfl⟩
abbrev main_v535 : Ref sig .tc := ⟨.hbm, 593, rfl⟩
abbrev main_v536 : Ref sig .tc := ⟨.hbm, 594, rfl⟩
abbrev main_v537 : Ref sig .tc := ⟨.hbm, 595, rfl⟩
abbrev main_v538 : Ref sig .tc := ⟨.hbm, 596, rfl⟩
abbrev main_v539 : Ref sig .tc := ⟨.hbm, 597, rfl⟩
abbrev main_v540 : Ref sig .tc := ⟨.hbm, 598, rfl⟩
abbrev main_v541 : Ref sig .tc := ⟨.hbm, 599, rfl⟩
abbrev main_cst_44 : Ref sig .tc := ⟨.hbm, 600, rfl⟩
abbrev main_v542 : Ref sig .tc := ⟨.hbm, 601, rfl⟩
abbrev main_v543 : Ref sig .tc := ⟨.hbm, 602, rfl⟩
abbrev main_cst_45 : Ref sig .tc := ⟨.hbm, 603, rfl⟩
abbrev main_v544 : Ref sig .tc := ⟨.hbm, 604, rfl⟩
abbrev main_v545 : Ref sig .tc := ⟨.hbm, 605, rfl⟩
abbrev main_v546 : Ref sig .tc := ⟨.hbm, 606, rfl⟩
abbrev main_v547 : Ref sig .tc := ⟨.hbm, 607, rfl⟩
abbrev main_v548 : Ref sig .tc := ⟨.hbm, 608, rfl⟩
abbrev main_v549 : Ref sig .tc := ⟨.hbm, 609, rfl⟩
abbrev main_v550 : Ref sig .tc := ⟨.hbm, 610, rfl⟩
abbrev main_v551 : Ref sig .tc := ⟨.hbm, 611, rfl⟩
abbrev main_v552 : Ref sig .tc := ⟨.hbm, 612, rfl⟩
abbrev main_v553 : Ref sig .tc := ⟨.hbm, 613, rfl⟩
abbrev main_v554 : Ref sig .tc := ⟨.hbm, 614, rfl⟩
abbrev main_v555 : Ref sig .tc := ⟨.hbm, 615, rfl⟩
abbrev main_v556 : Ref sig .tc := ⟨.hbm, 616, rfl⟩
abbrev main_v557 : Ref sig .tc := ⟨.hbm, 617, rfl⟩
abbrev main_v558 : Ref sig .tc := ⟨.hbm, 618, rfl⟩
abbrev main_v559 : Ref sig .tc := ⟨.hbm, 619, rfl⟩
abbrev main_cst_46 : Ref sig .tc := ⟨.hbm, 620, rfl⟩
abbrev main_v560 : Ref sig .tc := ⟨.hbm, 621, rfl⟩
abbrev main_v561 : Ref sig .tc := ⟨.hbm, 622, rfl⟩
abbrev main_cst_47 : Ref sig .tc := ⟨.hbm, 623, rfl⟩
abbrev main_v562 : Ref sig .tc := ⟨.hbm, 624, rfl⟩
abbrev main_v563 : Ref sig .tc := ⟨.hbm, 625, rfl⟩
abbrev main_v564 : Ref sig .tc := ⟨.hbm, 626, rfl⟩
abbrev main_v565 : Ref sig .tc := ⟨.hbm, 627, rfl⟩
abbrev main_v566 : Ref sig .tc := ⟨.hbm, 628, rfl⟩
abbrev main_v567 : Ref sig .tc := ⟨.hbm, 629, rfl⟩
abbrev main_v568 : Ref sig .tc := ⟨.hbm, 630, rfl⟩
abbrev main_v569 : Ref sig .tc := ⟨.hbm, 631, rfl⟩
abbrev main_v570 : Ref sig .tc := ⟨.hbm, 632, rfl⟩
abbrev main_v571 : Ref sig .tc := ⟨.hbm, 633, rfl⟩
abbrev main_v572 : Ref sig .tc := ⟨.hbm, 634, rfl⟩
abbrev main_v573 : Ref sig .tc := ⟨.hbm, 635, rfl⟩
abbrev main_v574 : Ref sig .tc := ⟨.hbm, 636, rfl⟩
abbrev main_v575 : Ref sig .tc := ⟨.hbm, 637, rfl⟩
abbrev main_v576 : Ref sig .tc := ⟨.hbm, 638, rfl⟩
abbrev main_v577 : Ref sig .tc := ⟨.hbm, 639, rfl⟩
abbrev main_cst_48 : Ref sig .tc := ⟨.hbm, 640, rfl⟩
abbrev main_v578 : Ref sig .tc := ⟨.hbm, 641, rfl⟩
abbrev main_v579 : Ref sig .tc := ⟨.hbm, 642, rfl⟩
abbrev main_v580 : Ref sig .tc := ⟨.hbm, 643, rfl⟩
abbrev main_v581 : Ref sig .tc := ⟨.hbm, 644, rfl⟩
abbrev main_v582 : Ref sig .tc := ⟨.hbm, 645, rfl⟩
abbrev main_v583 : Ref sig .tc := ⟨.hbm, 646, rfl⟩
abbrev main_v584 : Ref sig .tc := ⟨.hbm, 647, rfl⟩
abbrev main_v585 : Ref sig .tc := ⟨.hbm, 648, rfl⟩
abbrev main_v586 : Ref sig .tc := ⟨.hbm, 649, rfl⟩
abbrev main_v587 : Ref sig .tc := ⟨.hbm, 650, rfl⟩
abbrev main_v588 : Ref sig .tc := ⟨.hbm, 651, rfl⟩
abbrev main_v589 : Ref sig .tc := ⟨.hbm, 652, rfl⟩
abbrev main_v590 : Ref sig .tc := ⟨.hbm, 653, rfl⟩
abbrev main_v591 : Ref sig .tc := ⟨.hbm, 654, rfl⟩
abbrev main_v592 : Ref sig .tc := ⟨.hbm, 655, rfl⟩
abbrev main_v593 : Ref sig .tc := ⟨.hbm, 656, rfl⟩
abbrev main_v594 : Ref sig .tc := ⟨.hbm, 657, rfl⟩
abbrev main_v595 : Ref sig .tc := ⟨.hbm, 658, rfl⟩
abbrev main_v596 : Ref sig .tc := ⟨.hbm, 659, rfl⟩
abbrev main_cst_49 : Ref sig .tc := ⟨.hbm, 660, rfl⟩
abbrev main_v597 : Ref sig .tc := ⟨.hbm, 661, rfl⟩
abbrev main_v598 : Ref sig .tc := ⟨.hbm, 662, rfl⟩
abbrev main_cst_50 : Ref sig .tc := ⟨.hbm, 663, rfl⟩
abbrev main_v599 : Ref sig .tc := ⟨.hbm, 664, rfl⟩
abbrev main_v600 : Ref sig .tc := ⟨.hbm, 665, rfl⟩
abbrev main_v601 : Ref sig .tc := ⟨.hbm, 666, rfl⟩
abbrev main_v602 : Ref sig .tc := ⟨.hbm, 667, rfl⟩
abbrev main_v603 : Ref sig .tc := ⟨.hbm, 668, rfl⟩
abbrev main_v604 : Ref sig .tc := ⟨.hbm, 669, rfl⟩
abbrev main_v605 : Ref sig .tc := ⟨.hbm, 670, rfl⟩
abbrev main_v606 : Ref sig .tc := ⟨.hbm, 671, rfl⟩
abbrev main_v607 : Ref sig .tc := ⟨.hbm, 672, rfl⟩
abbrev main_v608 : Ref sig .tc := ⟨.hbm, 673, rfl⟩
abbrev main_v609 : Ref sig .tc := ⟨.hbm, 674, rfl⟩
abbrev main_v610 : Ref sig .tc := ⟨.hbm, 675, rfl⟩
abbrev main_v611 : Ref sig .tc := ⟨.hbm, 676, rfl⟩
abbrev main_v612 : Ref sig .tc := ⟨.hbm, 677, rfl⟩
abbrev main_v613 : Ref sig .tc := ⟨.hbm, 678, rfl⟩
abbrev main_v614 : Ref sig .tc := ⟨.hbm, 679, rfl⟩
abbrev main_cst_51 : Ref sig .tc := ⟨.hbm, 680, rfl⟩
abbrev main_v615 : Ref sig .tc := ⟨.hbm, 681, rfl⟩
abbrev main_v616 : Ref sig .tc := ⟨.hbm, 682, rfl⟩
abbrev main_cst_52 : Ref sig .tc := ⟨.hbm, 683, rfl⟩
abbrev main_v617 : Ref sig .tc := ⟨.hbm, 684, rfl⟩
abbrev main_v618 : Ref sig .tc := ⟨.hbm, 685, rfl⟩
abbrev main_v619 : Ref sig .tc := ⟨.hbm, 686, rfl⟩
abbrev main_v620 : Ref sig .tc := ⟨.hbm, 687, rfl⟩
abbrev main_v621 : Ref sig .tc := ⟨.hbm, 688, rfl⟩
abbrev main_v622 : Ref sig .tc := ⟨.hbm, 689, rfl⟩
abbrev main_v623 : Ref sig .tc := ⟨.hbm, 690, rfl⟩
abbrev main_v624 : Ref sig .tc := ⟨.hbm, 691, rfl⟩
abbrev main_v625 : Ref sig .tc := ⟨.hbm, 692, rfl⟩
abbrev main_v626 : Ref sig .tc := ⟨.hbm, 693, rfl⟩
abbrev main_v627 : Ref sig .tc := ⟨.hbm, 694, rfl⟩
abbrev main_v628 : Ref sig .tc := ⟨.hbm, 695, rfl⟩
abbrev main_v629 : Ref sig .tc := ⟨.hbm, 696, rfl⟩
abbrev main_v630 : Ref sig .tc := ⟨.hbm, 697, rfl⟩
abbrev main_v631 : Ref sig .tc := ⟨.hbm, 698, rfl⟩
abbrev main_v632 : Ref sig .tc := ⟨.hbm, 699, rfl⟩
abbrev main_cst_53 : Ref sig .tc := ⟨.hbm, 700, rfl⟩
abbrev main_v633 : Ref sig .tc := ⟨.hbm, 701, rfl⟩
abbrev main_v634 : Ref sig .tc := ⟨.hbm, 702, rfl⟩
abbrev main_v635 : Ref sig .tc := ⟨.hbm, 703, rfl⟩
abbrev main_v636 : Ref sig .tc := ⟨.hbm, 704, rfl⟩
abbrev main_v637 : Ref sig .tc := ⟨.hbm, 705, rfl⟩
abbrev main_v638 : Ref sig .tc := ⟨.hbm, 706, rfl⟩
abbrev main_v639 : Ref sig .tc := ⟨.hbm, 707, rfl⟩
abbrev main_v640 : Ref sig .tc := ⟨.hbm, 708, rfl⟩
abbrev main_v641 : Ref sig .tc := ⟨.hbm, 709, rfl⟩
abbrev main_v642 : Ref sig .tc := ⟨.hbm, 710, rfl⟩
abbrev main_v643 : Ref sig .tc := ⟨.hbm, 711, rfl⟩
abbrev main_v644 : Ref sig .tc := ⟨.hbm, 712, rfl⟩
abbrev main_v645 : Ref sig .tc := ⟨.hbm, 713, rfl⟩
abbrev main_v646 : Ref sig .tc := ⟨.hbm, 714, rfl⟩
abbrev main_v647 : Ref sig .tc := ⟨.hbm, 715, rfl⟩
abbrev main_v648 : Ref sig .tc := ⟨.hbm, 716, rfl⟩
abbrev main_v649 : Ref sig .tc := ⟨.hbm, 717, rfl⟩
abbrev main_v650 : Ref sig .tc := ⟨.hbm, 718, rfl⟩
abbrev main_v651 : Ref sig .tc := ⟨.hbm, 719, rfl⟩
abbrev main_cst_54 : Ref sig .tc := ⟨.hbm, 720, rfl⟩
abbrev main_v652 : Ref sig .tc := ⟨.hbm, 721, rfl⟩
abbrev main_v653 : Ref sig .tc := ⟨.hbm, 722, rfl⟩
abbrev main_cst_55 : Ref sig .tc := ⟨.hbm, 723, rfl⟩
abbrev main_v654 : Ref sig .tc := ⟨.hbm, 724, rfl⟩
abbrev main_v655 : Ref sig .tc := ⟨.hbm, 725, rfl⟩
abbrev main_v656 : Ref sig .tc := ⟨.hbm, 726, rfl⟩
abbrev main_v657 : Ref sig .tc := ⟨.hbm, 727, rfl⟩
abbrev main_v658 : Ref sig .tc := ⟨.hbm, 728, rfl⟩
abbrev main_v659 : Ref sig .tc := ⟨.hbm, 729, rfl⟩
abbrev main_v660 : Ref sig .tc := ⟨.hbm, 730, rfl⟩
abbrev main_v661 : Ref sig .tc := ⟨.hbm, 731, rfl⟩
abbrev main_v662 : Ref sig .tc := ⟨.hbm, 732, rfl⟩
abbrev main_v663 : Ref sig .tc := ⟨.hbm, 733, rfl⟩
abbrev main_v664 : Ref sig .tc := ⟨.hbm, 734, rfl⟩
abbrev main_v665 : Ref sig .tc := ⟨.hbm, 735, rfl⟩
abbrev main_v666 : Ref sig .tc := ⟨.hbm, 736, rfl⟩
abbrev main_v667 : Ref sig .tc := ⟨.hbm, 737, rfl⟩
abbrev main_v668 : Ref sig .tc := ⟨.hbm, 738, rfl⟩
abbrev main_v669 : Ref sig .tc := ⟨.hbm, 739, rfl⟩
abbrev main_cst_56 : Ref sig .tc := ⟨.hbm, 740, rfl⟩
abbrev main_v670 : Ref sig .tc := ⟨.hbm, 741, rfl⟩
abbrev main_v671 : Ref sig .tc := ⟨.hbm, 742, rfl⟩
abbrev main_cst_57 : Ref sig .tc := ⟨.hbm, 743, rfl⟩
abbrev main_v672 : Ref sig .tc := ⟨.hbm, 744, rfl⟩
abbrev main_v673 : Ref sig .tc := ⟨.hbm, 745, rfl⟩
abbrev main_v674 : Ref sig .tc := ⟨.hbm, 746, rfl⟩
abbrev main_v675 : Ref sig .tc := ⟨.hbm, 747, rfl⟩
abbrev main_v676 : Ref sig .tc := ⟨.hbm, 748, rfl⟩
abbrev main_v677 : Ref sig .tc := ⟨.hbm, 749, rfl⟩
abbrev main_v678 : Ref sig .tc := ⟨.hbm, 750, rfl⟩
abbrev main_v679 : Ref sig .tc := ⟨.hbm, 751, rfl⟩
abbrev main_v680 : Ref sig .tc := ⟨.hbm, 752, rfl⟩
abbrev main_v681 : Ref sig .tc := ⟨.hbm, 753, rfl⟩
abbrev main_v682 : Ref sig .tc := ⟨.hbm, 754, rfl⟩
abbrev main_v683 : Ref sig .tc := ⟨.hbm, 755, rfl⟩
abbrev main_v684 : Ref sig .tc := ⟨.hbm, 756, rfl⟩
abbrev main_v685 : Ref sig .tc := ⟨.hbm, 757, rfl⟩
abbrev main_v686 : Ref sig .tc := ⟨.hbm, 758, rfl⟩
abbrev main_v687 : Ref sig .tc := ⟨.hbm, 759, rfl⟩
abbrev main_cst_58 : Ref sig .tc := ⟨.hbm, 760, rfl⟩
abbrev main_v688 : Ref sig .tc := ⟨.hbm, 761, rfl⟩
abbrev main_v689 : Ref sig .tc := ⟨.hbm, 762, rfl⟩
abbrev main_v690 : Ref sig .tc := ⟨.hbm, 763, rfl⟩
abbrev main_v691 : Ref sig .tc := ⟨.hbm, 764, rfl⟩
abbrev main_v692 : Ref sig .tc := ⟨.hbm, 765, rfl⟩
abbrev main_v693 : Ref sig .tc := ⟨.hbm, 766, rfl⟩
abbrev main_v694 : Ref sig .tc := ⟨.hbm, 767, rfl⟩
abbrev main_v695 : Ref sig .tc := ⟨.hbm, 768, rfl⟩
abbrev main_v696 : Ref sig .tc := ⟨.hbm, 769, rfl⟩
abbrev main_v697 : Ref sig .tc := ⟨.hbm, 770, rfl⟩
abbrev main_v698 : Ref sig .tc := ⟨.hbm, 771, rfl⟩
abbrev main_v699 : Ref sig .tc := ⟨.hbm, 772, rfl⟩
abbrev main_v700 : Ref sig .tc := ⟨.hbm, 773, rfl⟩
abbrev main_v701 : Ref sig .tc := ⟨.hbm, 774, rfl⟩
abbrev main_v702 : Ref sig .tc := ⟨.hbm, 775, rfl⟩
abbrev main_v703 : Ref sig .tc := ⟨.hbm, 776, rfl⟩
abbrev main_v704 : Ref sig .tc := ⟨.hbm, 777, rfl⟩
abbrev main_v705 : Ref sig .tc := ⟨.hbm, 778, rfl⟩
abbrev main_v706 : Ref sig .tc := ⟨.hbm, 779, rfl⟩
abbrev main_cst_59 : Ref sig .tc := ⟨.hbm, 780, rfl⟩
abbrev main_v707 : Ref sig .tc := ⟨.hbm, 781, rfl⟩
abbrev main_v708 : Ref sig .tc := ⟨.hbm, 782, rfl⟩
abbrev main_cst_60 : Ref sig .tc := ⟨.hbm, 783, rfl⟩
abbrev main_v709 : Ref sig .tc := ⟨.hbm, 784, rfl⟩
abbrev main_v710 : Ref sig .tc := ⟨.hbm, 785, rfl⟩
abbrev main_v711 : Ref sig .tc := ⟨.hbm, 786, rfl⟩
abbrev main_v712 : Ref sig .tc := ⟨.hbm, 787, rfl⟩
abbrev main_v713 : Ref sig .tc := ⟨.hbm, 788, rfl⟩
abbrev main_v714 : Ref sig .tc := ⟨.hbm, 789, rfl⟩
abbrev main_v715 : Ref sig .tc := ⟨.hbm, 790, rfl⟩
abbrev main_v716 : Ref sig .tc := ⟨.hbm, 791, rfl⟩
abbrev main_v717 : Ref sig .tc := ⟨.hbm, 792, rfl⟩
abbrev main_v718 : Ref sig .tc := ⟨.hbm, 793, rfl⟩
abbrev main_v719 : Ref sig .tc := ⟨.hbm, 794, rfl⟩
abbrev main_v720 : Ref sig .tc := ⟨.hbm, 795, rfl⟩
abbrev main_v721 : Ref sig .tc := ⟨.hbm, 796, rfl⟩
abbrev main_v722 : Ref sig .tc := ⟨.hbm, 797, rfl⟩
abbrev main_v723 : Ref sig .tc := ⟨.hbm, 798, rfl⟩
abbrev main_v724 : Ref sig .tc := ⟨.hbm, 799, rfl⟩
abbrev main_cst_61 : Ref sig .tc := ⟨.hbm, 800, rfl⟩
abbrev main_v725 : Ref sig .tc := ⟨.hbm, 801, rfl⟩
abbrev main_v726 : Ref sig .tc := ⟨.hbm, 802, rfl⟩
abbrev main_cst_62 : Ref sig .tc := ⟨.hbm, 803, rfl⟩
abbrev main_v727 : Ref sig .tc := ⟨.hbm, 804, rfl⟩
abbrev main_v728 : Ref sig .tc := ⟨.hbm, 805, rfl⟩
abbrev main_v729 : Ref sig .tc := ⟨.hbm, 806, rfl⟩
abbrev main_v730 : Ref sig .tc := ⟨.hbm, 807, rfl⟩
abbrev main_v731 : Ref sig .tc := ⟨.hbm, 808, rfl⟩
abbrev main_v732 : Ref sig .tc := ⟨.hbm, 809, rfl⟩
abbrev main_v733 : Ref sig .tc := ⟨.hbm, 810, rfl⟩
abbrev main_v734 : Ref sig .tc := ⟨.hbm, 811, rfl⟩
abbrev main_v735 : Ref sig .tc := ⟨.hbm, 812, rfl⟩
abbrev main_v736 : Ref sig .tc := ⟨.hbm, 813, rfl⟩
abbrev main_v737 : Ref sig .tc := ⟨.hbm, 814, rfl⟩
abbrev main_v738 : Ref sig .tc := ⟨.hbm, 815, rfl⟩
abbrev main_v739 : Ref sig .tc := ⟨.hbm, 816, rfl⟩
abbrev main_v740 : Ref sig .tc := ⟨.hbm, 817, rfl⟩
abbrev main_v741 : Ref sig .tc := ⟨.hbm, 818, rfl⟩
abbrev main_v742 : Ref sig .tc := ⟨.hbm, 819, rfl⟩
abbrev main_cst_63 : Ref sig .tc := ⟨.hbm, 820, rfl⟩
abbrev main_v743 : Ref sig .tc := ⟨.hbm, 821, rfl⟩
abbrev main_v744 : Ref sig .tc := ⟨.hbm, 822, rfl⟩
abbrev main_v745 : Ref sig .tc := ⟨.hbm, 823, rfl⟩
abbrev main_v746 : Ref sig .tc := ⟨.hbm, 824, rfl⟩
abbrev main_v747 : Ref sig .tc := ⟨.hbm, 825, rfl⟩
abbrev main_v748 : Ref sig .tc := ⟨.hbm, 826, rfl⟩
abbrev main_v749 : Ref sig .tc := ⟨.hbm, 827, rfl⟩
abbrev main_v750 : Ref sig .tc := ⟨.hbm, 828, rfl⟩
abbrev main_v751 : Ref sig .tc := ⟨.hbm, 829, rfl⟩
abbrev main_v752 : Ref sig .tc := ⟨.hbm, 830, rfl⟩
abbrev main_v753 : Ref sig .tc := ⟨.hbm, 831, rfl⟩
abbrev main_v754 : Ref sig .tc := ⟨.hbm, 832, rfl⟩
abbrev main_v755 : Ref sig .tc := ⟨.hbm, 833, rfl⟩
abbrev main_v756 : Ref sig .tc := ⟨.hbm, 834, rfl⟩
abbrev main_v757 : Ref sig .tc := ⟨.hbm, 835, rfl⟩
abbrev main_v758 : Ref sig .tc := ⟨.hbm, 836, rfl⟩
abbrev main_v759 : Ref sig .tc := ⟨.hbm, 837, rfl⟩
abbrev main_v760 : Ref sig .tc := ⟨.hbm, 838, rfl⟩
abbrev main_v761 : Ref sig .tc := ⟨.hbm, 839, rfl⟩
abbrev main_cst_64 : Ref sig .tc := ⟨.hbm, 840, rfl⟩
abbrev main_v762 : Ref sig .tc := ⟨.hbm, 841, rfl⟩
abbrev main_v763 : Ref sig .tc := ⟨.hbm, 842, rfl⟩
abbrev main_cst_65 : Ref sig .tc := ⟨.hbm, 843, rfl⟩
abbrev main_v764 : Ref sig .tc := ⟨.hbm, 844, rfl⟩
abbrev main_v765 : Ref sig .tc := ⟨.hbm, 845, rfl⟩
abbrev main_v766 : Ref sig .tc := ⟨.hbm, 846, rfl⟩
abbrev main_v767 : Ref sig .tc := ⟨.hbm, 847, rfl⟩
abbrev main_v768 : Ref sig .tc := ⟨.hbm, 848, rfl⟩
abbrev main_v769 : Ref sig .tc := ⟨.hbm, 849, rfl⟩
abbrev main_v770 : Ref sig .tc := ⟨.hbm, 850, rfl⟩
abbrev main_v771 : Ref sig .tc := ⟨.hbm, 851, rfl⟩
abbrev main_v772 : Ref sig .tc := ⟨.hbm, 852, rfl⟩
abbrev main_v773 : Ref sig .tc := ⟨.hbm, 853, rfl⟩
abbrev main_v774 : Ref sig .tc := ⟨.hbm, 854, rfl⟩
abbrev main_v775 : Ref sig .tc := ⟨.hbm, 855, rfl⟩
abbrev main_v776 : Ref sig .tc := ⟨.hbm, 856, rfl⟩
abbrev main_v777 : Ref sig .tc := ⟨.hbm, 857, rfl⟩
abbrev main_v778 : Ref sig .tc := ⟨.hbm, 858, rfl⟩
abbrev main_v779 : Ref sig .tc := ⟨.hbm, 859, rfl⟩
abbrev main_cst_66 : Ref sig .tc := ⟨.hbm, 860, rfl⟩
abbrev main_v780 : Ref sig .tc := ⟨.hbm, 861, rfl⟩
abbrev main_v781 : Ref sig .tc := ⟨.hbm, 862, rfl⟩
abbrev main_cst_67 : Ref sig .tc := ⟨.hbm, 863, rfl⟩
abbrev main_v782 : Ref sig .tc := ⟨.hbm, 864, rfl⟩
abbrev main_v783 : Ref sig .tc := ⟨.hbm, 865, rfl⟩
abbrev main_v784 : Ref sig .tc := ⟨.hbm, 866, rfl⟩
abbrev main_v785 : Ref sig .tc := ⟨.hbm, 867, rfl⟩
abbrev main_v786 : Ref sig .tc := ⟨.hbm, 868, rfl⟩
abbrev main_v787 : Ref sig .tc := ⟨.hbm, 869, rfl⟩
abbrev main_v788 : Ref sig .tc := ⟨.hbm, 870, rfl⟩
abbrev main_v789 : Ref sig .tc := ⟨.hbm, 871, rfl⟩
abbrev main_v790 : Ref sig .tc := ⟨.hbm, 872, rfl⟩
abbrev main_v791 : Ref sig .tc := ⟨.hbm, 873, rfl⟩
abbrev main_v792 : Ref sig .tc := ⟨.hbm, 874, rfl⟩
abbrev main_v793 : Ref sig .tc := ⟨.hbm, 875, rfl⟩
abbrev main_v794 : Ref sig .tc := ⟨.hbm, 876, rfl⟩
abbrev main_v795 : Ref sig .tc := ⟨.hbm, 877, rfl⟩
abbrev main_v796 : Ref sig .tc := ⟨.hbm, 878, rfl⟩
abbrev main_v797 : Ref sig .tc := ⟨.hbm, 879, rfl⟩
abbrev main_cst_68 : Ref sig .tc := ⟨.hbm, 880, rfl⟩
abbrev main_v798 : Ref sig .tc := ⟨.hbm, 881, rfl⟩
abbrev main_v799 : Ref sig .tc := ⟨.hbm, 882, rfl⟩
abbrev main_v800 : Ref sig .tc := ⟨.hbm, 883, rfl⟩
abbrev main_v801 : Ref sig .tc := ⟨.hbm, 884, rfl⟩
abbrev main_v802 : Ref sig .tc := ⟨.hbm, 885, rfl⟩
abbrev main_v803 : Ref sig .tc := ⟨.hbm, 886, rfl⟩
abbrev main_v804 : Ref sig .tc := ⟨.hbm, 887, rfl⟩
abbrev main_v805 : Ref sig .tc := ⟨.hbm, 888, rfl⟩
abbrev main_v806 : Ref sig .tc := ⟨.hbm, 889, rfl⟩
abbrev main_v807 : Ref sig .tc := ⟨.hbm, 890, rfl⟩
abbrev main_v808 : Ref sig .tc := ⟨.hbm, 891, rfl⟩
abbrev main_v809 : Ref sig .tc := ⟨.hbm, 892, rfl⟩
abbrev main_v810 : Ref sig .tc := ⟨.hbm, 893, rfl⟩
abbrev main_v811 : Ref sig .tc := ⟨.hbm, 894, rfl⟩
abbrev main_v812 : Ref sig .tc := ⟨.hbm, 895, rfl⟩
abbrev main_v813 : Ref sig .tc := ⟨.hbm, 896, rfl⟩
abbrev main_v814 : Ref sig .tc := ⟨.hbm, 897, rfl⟩
abbrev main_v815 : Ref sig .tc := ⟨.hbm, 898, rfl⟩
abbrev main_v816 : Ref sig .tc := ⟨.hbm, 899, rfl⟩
abbrev main_cst_69 : Ref sig .tc := ⟨.hbm, 900, rfl⟩
abbrev main_v817 : Ref sig .tc := ⟨.hbm, 901, rfl⟩
abbrev main_v818 : Ref sig .tc := ⟨.hbm, 902, rfl⟩
abbrev main_cst_70 : Ref sig .tc := ⟨.hbm, 903, rfl⟩
abbrev main_v819 : Ref sig .tc := ⟨.hbm, 904, rfl⟩
abbrev main_v820 : Ref sig .tc := ⟨.hbm, 905, rfl⟩
abbrev main_v821 : Ref sig .tc := ⟨.hbm, 906, rfl⟩
abbrev main_v822 : Ref sig .tc := ⟨.hbm, 907, rfl⟩
abbrev main_v823 : Ref sig .tc := ⟨.hbm, 908, rfl⟩
abbrev main_v824 : Ref sig .tc := ⟨.hbm, 909, rfl⟩
abbrev main_v825 : Ref sig .tc := ⟨.hbm, 910, rfl⟩
abbrev main_v826 : Ref sig .tc := ⟨.hbm, 911, rfl⟩
abbrev main_v827 : Ref sig .tc := ⟨.hbm, 912, rfl⟩
abbrev main_v828 : Ref sig .tc := ⟨.hbm, 913, rfl⟩
abbrev main_v829 : Ref sig .tc := ⟨.hbm, 914, rfl⟩
abbrev main_v830 : Ref sig .tc := ⟨.hbm, 915, rfl⟩
abbrev main_v831 : Ref sig .tc := ⟨.hbm, 916, rfl⟩
abbrev main_v832 : Ref sig .tc := ⟨.hbm, 917, rfl⟩
abbrev main_v833 : Ref sig .tc := ⟨.hbm, 918, rfl⟩
abbrev main_v834 : Ref sig .tc := ⟨.hbm, 919, rfl⟩
abbrev main_cst_71 : Ref sig .tc := ⟨.hbm, 920, rfl⟩
abbrev main_v835 : Ref sig .tc := ⟨.hbm, 921, rfl⟩
abbrev main_v836 : Ref sig .tc := ⟨.hbm, 922, rfl⟩
abbrev main_cst_72 : Ref sig .tc := ⟨.hbm, 923, rfl⟩
abbrev main_v837 : Ref sig .tc := ⟨.hbm, 924, rfl⟩
abbrev main_v838 : Ref sig .tc := ⟨.hbm, 925, rfl⟩
abbrev main_v839 : Ref sig .tc := ⟨.hbm, 926, rfl⟩
abbrev main_v840 : Ref sig .tc := ⟨.hbm, 927, rfl⟩
abbrev main_v841 : Ref sig .tc := ⟨.hbm, 928, rfl⟩
abbrev main_v842 : Ref sig .tc := ⟨.hbm, 929, rfl⟩
abbrev main_v843 : Ref sig .tc := ⟨.hbm, 930, rfl⟩
abbrev main_v844 : Ref sig .tc := ⟨.hbm, 931, rfl⟩
abbrev main_v845 : Ref sig .tc := ⟨.hbm, 932, rfl⟩
abbrev main_v846 : Ref sig .tc := ⟨.hbm, 933, rfl⟩
abbrev main_v847 : Ref sig .tc := ⟨.hbm, 934, rfl⟩
abbrev main_v848 : Ref sig .tc := ⟨.hbm, 935, rfl⟩
abbrev main_v849 : Ref sig .tc := ⟨.hbm, 936, rfl⟩
abbrev main_v850 : Ref sig .tc := ⟨.hbm, 937, rfl⟩
abbrev main_v851 : Ref sig .tc := ⟨.hbm, 938, rfl⟩
abbrev main_v852 : Ref sig .tc := ⟨.hbm, 939, rfl⟩
abbrev main_cst_73 : Ref sig .tc := ⟨.hbm, 940, rfl⟩
abbrev main_v853 : Ref sig .tc := ⟨.hbm, 941, rfl⟩
abbrev main_v854 : Ref sig .tc := ⟨.hbm, 942, rfl⟩
abbrev main_v855 : Ref sig .tc := ⟨.hbm, 943, rfl⟩
abbrev main_v856 : Ref sig .tc := ⟨.hbm, 944, rfl⟩
abbrev main_v857 : Ref sig .tc := ⟨.hbm, 945, rfl⟩
abbrev main_v858 : Ref sig .tc := ⟨.hbm, 946, rfl⟩
abbrev main_v859 : Ref sig .tc := ⟨.hbm, 947, rfl⟩
abbrev main_v860 : Ref sig .tc := ⟨.hbm, 948, rfl⟩
abbrev main_v861 : Ref sig .tc := ⟨.hbm, 949, rfl⟩
abbrev main_v862 : Ref sig .tc := ⟨.hbm, 950, rfl⟩
abbrev main_v863 : Ref sig .tc := ⟨.hbm, 951, rfl⟩
abbrev main_v864 : Ref sig .tc := ⟨.hbm, 952, rfl⟩
abbrev main_v865 : Ref sig .tc := ⟨.hbm, 953, rfl⟩
abbrev main_v866 : Ref sig .tc := ⟨.hbm, 954, rfl⟩
abbrev main_v867 : Ref sig .tc := ⟨.hbm, 955, rfl⟩
abbrev main_v868 : Ref sig .tc := ⟨.hbm, 956, rfl⟩
abbrev main_v869 : Ref sig .tc := ⟨.hbm, 957, rfl⟩
abbrev main_v870 : Ref sig .tc := ⟨.hbm, 958, rfl⟩
abbrev main_v871 : Ref sig .tc := ⟨.hbm, 959, rfl⟩
abbrev main_cst_74 : Ref sig .tc := ⟨.hbm, 960, rfl⟩
abbrev main_v872 : Ref sig .tc := ⟨.hbm, 961, rfl⟩
abbrev main_v873 : Ref sig .tc := ⟨.hbm, 962, rfl⟩
abbrev main_cst_75 : Ref sig .tc := ⟨.hbm, 963, rfl⟩
abbrev main_v874 : Ref sig .tc := ⟨.hbm, 964, rfl⟩
abbrev main_v875 : Ref sig .tc := ⟨.hbm, 965, rfl⟩
abbrev main_v876 : Ref sig .tc := ⟨.hbm, 966, rfl⟩
abbrev main_v877 : Ref sig .tc := ⟨.hbm, 967, rfl⟩
abbrev main_v878 : Ref sig .tc := ⟨.hbm, 968, rfl⟩
abbrev main_v879 : Ref sig .tc := ⟨.hbm, 969, rfl⟩
abbrev main_v880 : Ref sig .tc := ⟨.hbm, 970, rfl⟩
abbrev main_v881 : Ref sig .tc := ⟨.hbm, 971, rfl⟩
abbrev main_v882 : Ref sig .tc := ⟨.hbm, 972, rfl⟩
abbrev main_v883 : Ref sig .tc := ⟨.hbm, 973, rfl⟩
abbrev main_v884 : Ref sig .tc := ⟨.hbm, 974, rfl⟩
abbrev main_v885 : Ref sig .tc := ⟨.hbm, 975, rfl⟩
abbrev main_v886 : Ref sig .tc := ⟨.hbm, 976, rfl⟩
abbrev main_v887 : Ref sig .tc := ⟨.hbm, 977, rfl⟩
abbrev main_v888 : Ref sig .tc := ⟨.hbm, 978, rfl⟩
abbrev main_v889 : Ref sig .tc := ⟨.hbm, 979, rfl⟩
abbrev main_cst_76 : Ref sig .tc := ⟨.hbm, 980, rfl⟩
abbrev main_v890 : Ref sig .tc := ⟨.hbm, 981, rfl⟩
abbrev main_v891 : Ref sig .tc := ⟨.hbm, 982, rfl⟩
abbrev main_cst_77 : Ref sig .tc := ⟨.hbm, 983, rfl⟩
abbrev main_v892 : Ref sig .tc := ⟨.hbm, 984, rfl⟩
abbrev main_v893 : Ref sig .tc := ⟨.hbm, 985, rfl⟩
abbrev main_v894 : Ref sig .tc := ⟨.hbm, 986, rfl⟩
abbrev main_v895 : Ref sig .tc := ⟨.hbm, 987, rfl⟩
abbrev main_v896 : Ref sig .tc := ⟨.hbm, 988, rfl⟩
abbrev main_v897 : Ref sig .tc := ⟨.hbm, 989, rfl⟩
abbrev main_v898 : Ref sig .tc := ⟨.hbm, 990, rfl⟩
abbrev main_v899 : Ref sig .tc := ⟨.hbm, 991, rfl⟩
abbrev main_v900 : Ref sig .tc := ⟨.hbm, 992, rfl⟩
abbrev main_v901 : Ref sig .tc := ⟨.hbm, 993, rfl⟩
abbrev main_v902 : Ref sig .tc := ⟨.hbm, 994, rfl⟩
abbrev main_v903 : Ref sig .tc := ⟨.hbm, 995, rfl⟩
abbrev main_v904 : Ref sig .tc := ⟨.hbm, 996, rfl⟩
abbrev main_v905 : Ref sig .tc := ⟨.hbm, 997, rfl⟩
abbrev main_v906 : Ref sig .tc := ⟨.hbm, 998, rfl⟩
abbrev main_v907 : Ref sig .tc := ⟨.hbm, 999, rfl⟩
abbrev main_cst_78 : Ref sig .tc := ⟨.hbm, 1000, rfl⟩
abbrev main_v908 : Ref sig .tc := ⟨.hbm, 1001, rfl⟩
abbrev main_v909 : Ref sig .tc := ⟨.hbm, 1002, rfl⟩
abbrev main_v910 : Ref sig .tc := ⟨.hbm, 1003, rfl⟩
abbrev main_v911 : Ref sig .tc := ⟨.hbm, 1004, rfl⟩
abbrev main_v912 : Ref sig .tc := ⟨.hbm, 1005, rfl⟩
abbrev main_v913 : Ref sig .tc := ⟨.hbm, 1006, rfl⟩
abbrev main_v914 : Ref sig .tc := ⟨.hbm, 1007, rfl⟩
abbrev main_v915 : Ref sig .tc := ⟨.hbm, 1008, rfl⟩
abbrev main_v916 : Ref sig .tc := ⟨.hbm, 1009, rfl⟩
abbrev main_v917 : Ref sig .tc := ⟨.hbm, 1010, rfl⟩
abbrev main_v918 : Ref sig .tc := ⟨.hbm, 1011, rfl⟩
abbrev main_v919 : Ref sig .tc := ⟨.hbm, 1012, rfl⟩
abbrev main_v920 : Ref sig .tc := ⟨.hbm, 1013, rfl⟩
abbrev main_v921 : Ref sig .tc := ⟨.hbm, 1014, rfl⟩
abbrev main_v922 : Ref sig .tc := ⟨.hbm, 1015, rfl⟩
abbrev main_v923 : Ref sig .tc := ⟨.hbm, 1016, rfl⟩
abbrev main_v924 : Ref sig .tc := ⟨.hbm, 1017, rfl⟩
abbrev main_v925 : Ref sig .tc := ⟨.hbm, 1018, rfl⟩
abbrev main_v926 : Ref sig .tc := ⟨.hbm, 1019, rfl⟩
abbrev main_v927 : Ref sig .tc := ⟨.hbm, 1020, rfl⟩
abbrev main_v928 : Ref sig .tc := ⟨.hbm, 1021, rfl⟩
abbrev main_v929 : Ref sig .tc := ⟨.hbm, 1022, rfl⟩
abbrev main_v930 : Ref sig .tc := ⟨.hbm, 1023, rfl⟩
abbrev main_v931 : Ref sig .tc := ⟨.hbm, 1024, rfl⟩
abbrev main_v932 : Ref sig .tc := ⟨.hbm, 1025, rfl⟩
abbrev main_v933 : Ref sig .tc := ⟨.hbm, 1026, rfl⟩
abbrev main_v934 : Ref sig .tc := ⟨.hbm, 1027, rfl⟩
abbrev main_v935 : Ref sig .tc := ⟨.hbm, 1028, rfl⟩
abbrev main_v936 : Ref sig .tc := ⟨.hbm, 1029, rfl⟩
abbrev main_v937 : Ref sig .tc := ⟨.hbm, 1030, rfl⟩
abbrev main_v938 : Ref sig .tc := ⟨.hbm, 1031, rfl⟩
abbrev main_v939 : Ref sig .tc := ⟨.hbm, 1032, rfl⟩
abbrev main_v940 : Ref sig .tc := ⟨.hbm, 1033, rfl⟩
abbrev main_v941 : Ref sig .tc := ⟨.hbm, 1034, rfl⟩
abbrev main_cst_79 : Ref sig .tc := ⟨.hbm, 1035, rfl⟩
abbrev main_v942 : Ref sig .tc := ⟨.hbm, 1036, rfl⟩
abbrev main_v943 : Ref sig .tc := ⟨.hbm, 1037, rfl⟩
abbrev main_cst_80 : Ref sig .tc := ⟨.hbm, 1038, rfl⟩
abbrev main_v944 : Ref sig .tc := ⟨.hbm, 1039, rfl⟩
abbrev main_v945 : Ref sig .tc := ⟨.hbm, 1040, rfl⟩
abbrev main_v946 : Ref sig .tc := ⟨.hbm, 1041, rfl⟩
abbrev main_v947 : Ref sig .tc := ⟨.hbm, 1042, rfl⟩
abbrev main_v948 : Ref sig .tc := ⟨.hbm, 1043, rfl⟩
abbrev main_v949 : Ref sig .tc := ⟨.hbm, 1044, rfl⟩
abbrev main_v950 : Ref sig .tc := ⟨.hbm, 1045, rfl⟩
abbrev main_v951 : Ref sig .tc := ⟨.hbm, 1046, rfl⟩
abbrev main_v952 : Ref sig .tc := ⟨.hbm, 1047, rfl⟩
abbrev main_v953 : Ref sig .tc := ⟨.hbm, 1048, rfl⟩
abbrev main_v954 : Ref sig .tc := ⟨.hbm, 1049, rfl⟩
abbrev main_v955 : Ref sig .tc := ⟨.hbm, 1050, rfl⟩
abbrev main_v956 : Ref sig .tc := ⟨.hbm, 1051, rfl⟩
abbrev main_v957 : Ref sig .tc := ⟨.hbm, 1052, rfl⟩
abbrev main_v958 : Ref sig .tc := ⟨.hbm, 1053, rfl⟩
abbrev main_v959 : Ref sig .tc := ⟨.hbm, 1054, rfl⟩
abbrev main_cst_81 : Ref sig .tc := ⟨.hbm, 1055, rfl⟩
abbrev main_v960 : Ref sig .tc := ⟨.hbm, 1056, rfl⟩
abbrev main_v961 : Ref sig .tc := ⟨.hbm, 1057, rfl⟩
abbrev main_cst_82 : Ref sig .tc := ⟨.hbm, 1058, rfl⟩
abbrev main_v962 : Ref sig .tc := ⟨.hbm, 1059, rfl⟩
abbrev main_v963 : Ref sig .tc := ⟨.hbm, 1060, rfl⟩
abbrev main_v964 : Ref sig .tc := ⟨.hbm, 1061, rfl⟩
abbrev main_v965 : Ref sig .tc := ⟨.hbm, 1062, rfl⟩
abbrev main_v966 : Ref sig .tc := ⟨.hbm, 1063, rfl⟩
abbrev main_v967 : Ref sig .tc := ⟨.hbm, 1064, rfl⟩
abbrev main_v968 : Ref sig .tc := ⟨.hbm, 1065, rfl⟩
abbrev main_v969 : Ref sig .tc := ⟨.hbm, 1066, rfl⟩
abbrev main_v970 : Ref sig .tc := ⟨.hbm, 1067, rfl⟩
abbrev main_v971 : Ref sig .tc := ⟨.hbm, 1068, rfl⟩
abbrev main_v972 : Ref sig .tc := ⟨.hbm, 1069, rfl⟩
abbrev main_v973 : Ref sig .tc := ⟨.hbm, 1070, rfl⟩
abbrev main_v974 : Ref sig .tc := ⟨.hbm, 1071, rfl⟩
abbrev main_v975 : Ref sig .tc := ⟨.hbm, 1072, rfl⟩
abbrev main_v976 : Ref sig .tc := ⟨.hbm, 1073, rfl⟩
abbrev main_v977 : Ref sig .tc := ⟨.hbm, 1074, rfl⟩
abbrev main_cst_83 : Ref sig .tc := ⟨.hbm, 1075, rfl⟩
abbrev main_v978 : Ref sig .tc := ⟨.hbm, 1076, rfl⟩
abbrev main_v979 : Ref sig .tc := ⟨.hbm, 1077, rfl⟩
abbrev main_v980 : Ref sig .tc := ⟨.hbm, 1078, rfl⟩
abbrev main_v981 : Ref sig .tc := ⟨.hbm, 1079, rfl⟩
abbrev main_v982 : Ref sig .tc := ⟨.hbm, 1080, rfl⟩
abbrev main_v983 : Ref sig .tc := ⟨.hbm, 1081, rfl⟩
abbrev main_v984 : Ref sig .tc := ⟨.hbm, 1082, rfl⟩
abbrev main_v985 : Ref sig .tc := ⟨.hbm, 1083, rfl⟩
abbrev main_v986 : Ref sig .tc := ⟨.hbm, 1084, rfl⟩
abbrev main_v987 : Ref sig .tc := ⟨.hbm, 1085, rfl⟩
abbrev main_v988 : Ref sig .tc := ⟨.hbm, 1086, rfl⟩
abbrev main_v989 : Ref sig .tc := ⟨.hbm, 1087, rfl⟩
abbrev main_v990 : Ref sig .tc := ⟨.hbm, 1088, rfl⟩
abbrev main_v991 : Ref sig .tc := ⟨.hbm, 1089, rfl⟩
abbrev main_v992 : Ref sig .tc := ⟨.hbm, 1090, rfl⟩
abbrev main_v993 : Ref sig .tc := ⟨.hbm, 1091, rfl⟩
abbrev main_v994 : Ref sig .tc := ⟨.hbm, 1092, rfl⟩
abbrev main_v995 : Ref sig .tc := ⟨.hbm, 1093, rfl⟩
abbrev main_v996 : Ref sig .tc := ⟨.hbm, 1094, rfl⟩
abbrev main_cst_84 : Ref sig .tc := ⟨.hbm, 1095, rfl⟩
abbrev main_v997 : Ref sig .tc := ⟨.hbm, 1096, rfl⟩
abbrev main_v998 : Ref sig .tc := ⟨.hbm, 1097, rfl⟩
abbrev main_cst_85 : Ref sig .tc := ⟨.hbm, 1098, rfl⟩
abbrev main_v999 : Ref sig .tc := ⟨.hbm, 1099, rfl⟩
abbrev main_v1000 : Ref sig .tc := ⟨.hbm, 1100, rfl⟩
abbrev main_v1001 : Ref sig .tc := ⟨.hbm, 1101, rfl⟩
abbrev main_v1002 : Ref sig .tc := ⟨.hbm, 1102, rfl⟩
abbrev main_v1003 : Ref sig .tc := ⟨.hbm, 1103, rfl⟩
abbrev main_v1004 : Ref sig .tc := ⟨.hbm, 1104, rfl⟩
abbrev main_v1005 : Ref sig .tc := ⟨.hbm, 1105, rfl⟩
abbrev main_v1006 : Ref sig .tc := ⟨.hbm, 1106, rfl⟩
abbrev main_v1007 : Ref sig .tc := ⟨.hbm, 1107, rfl⟩
abbrev main_v1008 : Ref sig .tc := ⟨.hbm, 1108, rfl⟩
abbrev main_v1009 : Ref sig .tc := ⟨.hbm, 1109, rfl⟩
abbrev main_v1010 : Ref sig .tc := ⟨.hbm, 1110, rfl⟩
abbrev main_v1011 : Ref sig .tc := ⟨.hbm, 1111, rfl⟩
abbrev main_v1012 : Ref sig .tc := ⟨.hbm, 1112, rfl⟩
abbrev main_v1013 : Ref sig .tc := ⟨.hbm, 1113, rfl⟩
abbrev main_v1014 : Ref sig .tc := ⟨.hbm, 1114, rfl⟩
abbrev main_cst_86 : Ref sig .tc := ⟨.hbm, 1115, rfl⟩
abbrev main_v1015 : Ref sig .tc := ⟨.hbm, 1116, rfl⟩
abbrev main_v1016 : Ref sig .tc := ⟨.hbm, 1117, rfl⟩
abbrev main_cst_87 : Ref sig .tc := ⟨.hbm, 1118, rfl⟩
abbrev main_v1017 : Ref sig .tc := ⟨.hbm, 1119, rfl⟩
abbrev main_v1018 : Ref sig .tc := ⟨.hbm, 1120, rfl⟩
abbrev main_v1019 : Ref sig .tc := ⟨.hbm, 1121, rfl⟩
abbrev main_v1020 : Ref sig .tc := ⟨.hbm, 1122, rfl⟩
abbrev main_v1021 : Ref sig .tc := ⟨.hbm, 1123, rfl⟩
abbrev main_v1022 : Ref sig .tc := ⟨.hbm, 1124, rfl⟩
abbrev main_v1023 : Ref sig .tc := ⟨.hbm, 1125, rfl⟩
abbrev main_v1024 : Ref sig .tc := ⟨.hbm, 1126, rfl⟩
abbrev main_v1025 : Ref sig .tc := ⟨.hbm, 1127, rfl⟩
abbrev main_v1026 : Ref sig .tc := ⟨.hbm, 1128, rfl⟩
abbrev main_v1027 : Ref sig .tc := ⟨.hbm, 1129, rfl⟩
abbrev main_v1028 : Ref sig .tc := ⟨.hbm, 1130, rfl⟩
abbrev main_v1029 : Ref sig .tc := ⟨.hbm, 1131, rfl⟩
abbrev main_v1030 : Ref sig .tc := ⟨.hbm, 1132, rfl⟩
abbrev main_v1031 : Ref sig .tc := ⟨.hbm, 1133, rfl⟩
abbrev main_v1032 : Ref sig .tc := ⟨.hbm, 1134, rfl⟩
abbrev main_cst_88 : Ref sig .tc := ⟨.hbm, 1135, rfl⟩
abbrev main_v1033 : Ref sig .tc := ⟨.hbm, 1136, rfl⟩
abbrev main_v1034 : Ref sig .tc := ⟨.hbm, 1137, rfl⟩
abbrev main_v1035 : Ref sig .tc := ⟨.hbm, 1138, rfl⟩
abbrev main_v1036 : Ref sig .tc := ⟨.hbm, 1139, rfl⟩
abbrev main_v1037 : Ref sig .tc := ⟨.hbm, 1140, rfl⟩
abbrev main_v1038 : Ref sig .tc := ⟨.hbm, 1141, rfl⟩
abbrev main_v1039 : Ref sig .tc := ⟨.hbm, 1142, rfl⟩
abbrev main_v1040 : Ref sig .tc := ⟨.hbm, 1143, rfl⟩
abbrev main_v1041 : Ref sig .tc := ⟨.hbm, 1144, rfl⟩
abbrev main_v1042 : Ref sig .tc := ⟨.hbm, 1145, rfl⟩
abbrev main_v1043 : Ref sig .tc := ⟨.hbm, 1146, rfl⟩
abbrev main_v1044 : Ref sig .tc := ⟨.hbm, 1147, rfl⟩
abbrev main_v1045 : Ref sig .tc := ⟨.hbm, 1148, rfl⟩
abbrev main_v1046 : Ref sig .tc := ⟨.hbm, 1149, rfl⟩
abbrev main_v1047 : Ref sig .tc := ⟨.hbm, 1150, rfl⟩
abbrev main_v1048 : Ref sig .tc := ⟨.hbm, 1151, rfl⟩
abbrev main_v1049 : Ref sig .tc := ⟨.hbm, 1152, rfl⟩
abbrev main_v1050 : Ref sig .tc := ⟨.hbm, 1153, rfl⟩
abbrev main_v1051 : Ref sig .tc := ⟨.hbm, 1154, rfl⟩
abbrev main_cst_89 : Ref sig .tc := ⟨.hbm, 1155, rfl⟩
abbrev main_v1052 : Ref sig .tc := ⟨.hbm, 1156, rfl⟩
abbrev main_v1053 : Ref sig .tc := ⟨.hbm, 1157, rfl⟩
abbrev main_cst_90 : Ref sig .tc := ⟨.hbm, 1158, rfl⟩
abbrev main_v1054 : Ref sig .tc := ⟨.hbm, 1159, rfl⟩
abbrev main_v1055 : Ref sig .tc := ⟨.hbm, 1160, rfl⟩
abbrev main_v1056 : Ref sig .tc := ⟨.hbm, 1161, rfl⟩
abbrev main_v1057 : Ref sig .tc := ⟨.hbm, 1162, rfl⟩
abbrev main_v1058 : Ref sig .tc := ⟨.hbm, 1163, rfl⟩
abbrev main_v1059 : Ref sig .tc := ⟨.hbm, 1164, rfl⟩
abbrev main_v1060 : Ref sig .tc := ⟨.hbm, 1165, rfl⟩
abbrev main_v1061 : Ref sig .tc := ⟨.hbm, 1166, rfl⟩
abbrev main_v1062 : Ref sig .tc := ⟨.hbm, 1167, rfl⟩
abbrev main_v1063 : Ref sig .tc := ⟨.hbm, 1168, rfl⟩
abbrev main_v1064 : Ref sig .tc := ⟨.hbm, 1169, rfl⟩
abbrev main_v1065 : Ref sig .tc := ⟨.hbm, 1170, rfl⟩
abbrev main_v1066 : Ref sig .tc := ⟨.hbm, 1171, rfl⟩
abbrev main_v1067 : Ref sig .tc := ⟨.hbm, 1172, rfl⟩
abbrev main_v1068 : Ref sig .tc := ⟨.hbm, 1173, rfl⟩
abbrev main_v1069 : Ref sig .tc := ⟨.hbm, 1174, rfl⟩
abbrev main_cst_91 : Ref sig .tc := ⟨.hbm, 1175, rfl⟩
abbrev main_v1070 : Ref sig .tc := ⟨.hbm, 1176, rfl⟩
abbrev main_v1071 : Ref sig .tc := ⟨.hbm, 1177, rfl⟩
abbrev main_cst_92 : Ref sig .tc := ⟨.hbm, 1178, rfl⟩
abbrev main_v1072 : Ref sig .tc := ⟨.hbm, 1179, rfl⟩
abbrev main_v1073 : Ref sig .tc := ⟨.hbm, 1180, rfl⟩
abbrev main_v1074 : Ref sig .tc := ⟨.hbm, 1181, rfl⟩
abbrev main_v1075 : Ref sig .tc := ⟨.hbm, 1182, rfl⟩
abbrev main_v1076 : Ref sig .tc := ⟨.hbm, 1183, rfl⟩
abbrev main_v1077 : Ref sig .tc := ⟨.hbm, 1184, rfl⟩
abbrev main_v1078 : Ref sig .tc := ⟨.hbm, 1185, rfl⟩
abbrev main_v1079 : Ref sig .tc := ⟨.hbm, 1186, rfl⟩
abbrev main_v1080 : Ref sig .tc := ⟨.hbm, 1187, rfl⟩
abbrev main_v1081 : Ref sig .tc := ⟨.hbm, 1188, rfl⟩
abbrev main_v1082 : Ref sig .tc := ⟨.hbm, 1189, rfl⟩
abbrev main_v1083 : Ref sig .tc := ⟨.hbm, 1190, rfl⟩
abbrev main_v1084 : Ref sig .tc := ⟨.hbm, 1191, rfl⟩
abbrev main_v1085 : Ref sig .tc := ⟨.hbm, 1192, rfl⟩
abbrev main_v1086 : Ref sig .tc := ⟨.hbm, 1193, rfl⟩
abbrev main_v1087 : Ref sig .tc := ⟨.hbm, 1194, rfl⟩
abbrev main_cst_93 : Ref sig .tc := ⟨.hbm, 1195, rfl⟩
abbrev main_v1088 : Ref sig .tc := ⟨.hbm, 1196, rfl⟩
abbrev main_v1089 : Ref sig .tc := ⟨.hbm, 1197, rfl⟩
abbrev main_v1090 : Ref sig .tc := ⟨.hbm, 1198, rfl⟩
abbrev main_v1091 : Ref sig .tc := ⟨.hbm, 1199, rfl⟩
abbrev main_v1092 : Ref sig .tc := ⟨.hbm, 1200, rfl⟩
abbrev main_v1093 : Ref sig .tc := ⟨.hbm, 1201, rfl⟩
abbrev main_v1094 : Ref sig .tc := ⟨.hbm, 1202, rfl⟩
abbrev main_v1095 : Ref sig .tc := ⟨.hbm, 1203, rfl⟩
abbrev main_v1096 : Ref sig .tc := ⟨.hbm, 1204, rfl⟩
abbrev main_v1097 : Ref sig .tc := ⟨.hbm, 1205, rfl⟩
abbrev main_v1098 : Ref sig .tc := ⟨.hbm, 1206, rfl⟩
abbrev main_v1099 : Ref sig .tc := ⟨.hbm, 1207, rfl⟩
abbrev main_v1100 : Ref sig .tc := ⟨.hbm, 1208, rfl⟩
abbrev main_v1101 : Ref sig .tc := ⟨.hbm, 1209, rfl⟩
abbrev main_v1102 : Ref sig .tc := ⟨.hbm, 1210, rfl⟩
abbrev main_v1103 : Ref sig .tc := ⟨.hbm, 1211, rfl⟩
abbrev main_v1104 : Ref sig .tc := ⟨.hbm, 1212, rfl⟩
abbrev main_v1105 : Ref sig .tc := ⟨.hbm, 1213, rfl⟩
abbrev main_v1106 : Ref sig .tc := ⟨.hbm, 1214, rfl⟩
abbrev main_cst_94 : Ref sig .tc := ⟨.hbm, 1215, rfl⟩
abbrev main_v1107 : Ref sig .tc := ⟨.hbm, 1216, rfl⟩
abbrev main_v1108 : Ref sig .tc := ⟨.hbm, 1217, rfl⟩
abbrev main_cst_95 : Ref sig .tc := ⟨.hbm, 1218, rfl⟩
abbrev main_v1109 : Ref sig .tc := ⟨.hbm, 1219, rfl⟩
abbrev main_v1110 : Ref sig .tc := ⟨.hbm, 1220, rfl⟩
abbrev main_v1111 : Ref sig .tc := ⟨.hbm, 1221, rfl⟩
abbrev main_v1112 : Ref sig .tc := ⟨.hbm, 1222, rfl⟩
abbrev main_v1113 : Ref sig .tc := ⟨.hbm, 1223, rfl⟩
abbrev main_v1114 : Ref sig .tc := ⟨.hbm, 1224, rfl⟩
abbrev main_v1115 : Ref sig .tc := ⟨.hbm, 1225, rfl⟩
abbrev main_v1116 : Ref sig .tc := ⟨.hbm, 1226, rfl⟩
abbrev main_v1117 : Ref sig .tc := ⟨.hbm, 1227, rfl⟩
abbrev main_v1118 : Ref sig .tc := ⟨.hbm, 1228, rfl⟩
abbrev main_v1119 : Ref sig .tc := ⟨.hbm, 1229, rfl⟩
abbrev main_v1120 : Ref sig .tc := ⟨.hbm, 1230, rfl⟩
abbrev main_v1121 : Ref sig .tc := ⟨.hbm, 1231, rfl⟩
abbrev main_v1122 : Ref sig .tc := ⟨.hbm, 1232, rfl⟩
abbrev main_v1123 : Ref sig .tc := ⟨.hbm, 1233, rfl⟩
abbrev main_v1124 : Ref sig .tc := ⟨.hbm, 1234, rfl⟩
abbrev main_cst_96 : Ref sig .tc := ⟨.hbm, 1235, rfl⟩
abbrev main_v1125 : Ref sig .tc := ⟨.hbm, 1236, rfl⟩
abbrev main_v1126 : Ref sig .tc := ⟨.hbm, 1237, rfl⟩
abbrev main_cst_97 : Ref sig .tc := ⟨.hbm, 1238, rfl⟩
abbrev main_v1127 : Ref sig .tc := ⟨.hbm, 1239, rfl⟩
abbrev main_v1128 : Ref sig .tc := ⟨.hbm, 1240, rfl⟩
abbrev main_v1129 : Ref sig .tc := ⟨.hbm, 1241, rfl⟩
abbrev main_v1130 : Ref sig .tc := ⟨.hbm, 1242, rfl⟩
abbrev main_v1131 : Ref sig .tc := ⟨.hbm, 1243, rfl⟩
abbrev main_v1132 : Ref sig .tc := ⟨.hbm, 1244, rfl⟩
abbrev main_v1133 : Ref sig .tc := ⟨.hbm, 1245, rfl⟩
abbrev main_v1134 : Ref sig .tc := ⟨.hbm, 1246, rfl⟩
abbrev main_v1135 : Ref sig .tc := ⟨.hbm, 1247, rfl⟩
abbrev main_v1136 : Ref sig .tc := ⟨.hbm, 1248, rfl⟩
abbrev main_v1137 : Ref sig .tc := ⟨.hbm, 1249, rfl⟩
abbrev main_v1138 : Ref sig .tc := ⟨.hbm, 1250, rfl⟩
abbrev main_v1139 : Ref sig .tc := ⟨.hbm, 1251, rfl⟩
abbrev main_v1140 : Ref sig .tc := ⟨.hbm, 1252, rfl⟩
abbrev main_v1141 : Ref sig .tc := ⟨.hbm, 1253, rfl⟩
abbrev main_v1142 : Ref sig .tc := ⟨.hbm, 1254, rfl⟩
abbrev main_cst_98 : Ref sig .tc := ⟨.hbm, 1255, rfl⟩
abbrev main_v1143 : Ref sig .tc := ⟨.hbm, 1256, rfl⟩
abbrev main_v1144 : Ref sig .tc := ⟨.hbm, 1257, rfl⟩
abbrev main_v1145 : Ref sig .tc := ⟨.hbm, 1258, rfl⟩
abbrev main_v1146 : Ref sig .tc := ⟨.hbm, 1259, rfl⟩
abbrev main_v1147 : Ref sig .tc := ⟨.hbm, 1260, rfl⟩
abbrev main_v1148 : Ref sig .tc := ⟨.hbm, 1261, rfl⟩
abbrev main_v1149 : Ref sig .tc := ⟨.hbm, 1262, rfl⟩
abbrev main_v1150 : Ref sig .tc := ⟨.hbm, 1263, rfl⟩
abbrev main_v1151 : Ref sig .tc := ⟨.hbm, 1264, rfl⟩
abbrev main_v1152 : Ref sig .tc := ⟨.hbm, 1265, rfl⟩
abbrev main_v1153 : Ref sig .tc := ⟨.hbm, 1266, rfl⟩
abbrev main_v1154 : Ref sig .tc := ⟨.hbm, 1267, rfl⟩
abbrev main_v1155 : Ref sig .tc := ⟨.hbm, 1268, rfl⟩
abbrev main_v1156 : Ref sig .tc := ⟨.hbm, 1269, rfl⟩
abbrev main_v1157 : Ref sig .tc := ⟨.hbm, 1270, rfl⟩
abbrev main_v1158 : Ref sig .tc := ⟨.hbm, 1271, rfl⟩
abbrev main_v1159 : Ref sig .tc := ⟨.hbm, 1272, rfl⟩
abbrev main_v1160 : Ref sig .tc := ⟨.hbm, 1273, rfl⟩
abbrev main_v1161 : Ref sig .tc := ⟨.hbm, 1274, rfl⟩
abbrev main_cst_99 : Ref sig .tc := ⟨.hbm, 1275, rfl⟩
abbrev main_v1162 : Ref sig .tc := ⟨.hbm, 1276, rfl⟩
abbrev main_v1163 : Ref sig .tc := ⟨.hbm, 1277, rfl⟩
abbrev main_cst_100 : Ref sig .tc := ⟨.hbm, 1278, rfl⟩
abbrev main_v1164 : Ref sig .tc := ⟨.hbm, 1279, rfl⟩
abbrev main_v1165 : Ref sig .tc := ⟨.hbm, 1280, rfl⟩
abbrev main_v1166 : Ref sig .tc := ⟨.hbm, 1281, rfl⟩
abbrev main_v1167 : Ref sig .tc := ⟨.hbm, 1282, rfl⟩
abbrev main_v1168 : Ref sig .tc := ⟨.hbm, 1283, rfl⟩
abbrev main_v1169 : Ref sig .tc := ⟨.hbm, 1284, rfl⟩
abbrev main_v1170 : Ref sig .tc := ⟨.hbm, 1285, rfl⟩
abbrev main_v1171 : Ref sig .tc := ⟨.hbm, 1286, rfl⟩
abbrev main_v1172 : Ref sig .tc := ⟨.hbm, 1287, rfl⟩
abbrev main_v1173 : Ref sig .tc := ⟨.hbm, 1288, rfl⟩
abbrev main_v1174 : Ref sig .tc := ⟨.hbm, 1289, rfl⟩
abbrev main_v1175 : Ref sig .tc := ⟨.hbm, 1290, rfl⟩
abbrev main_v1176 : Ref sig .tc := ⟨.hbm, 1291, rfl⟩
abbrev main_v1177 : Ref sig .tc := ⟨.hbm, 1292, rfl⟩
abbrev main_v1178 : Ref sig .tc := ⟨.hbm, 1293, rfl⟩
abbrev main_v1179 : Ref sig .tc := ⟨.hbm, 1294, rfl⟩
abbrev main_cst_101 : Ref sig .tc := ⟨.hbm, 1295, rfl⟩
abbrev main_v1180 : Ref sig .tc := ⟨.hbm, 1296, rfl⟩
abbrev main_v1181 : Ref sig .tc := ⟨.hbm, 1297, rfl⟩
abbrev main_cst_102 : Ref sig .tc := ⟨.hbm, 1298, rfl⟩
abbrev main_v1182 : Ref sig .tc := ⟨.hbm, 1299, rfl⟩
abbrev main_v1183 : Ref sig .tc := ⟨.hbm, 1300, rfl⟩
abbrev main_v1184 : Ref sig .tc := ⟨.hbm, 1301, rfl⟩
abbrev main_v1185 : Ref sig .tc := ⟨.hbm, 1302, rfl⟩
abbrev main_v1186 : Ref sig .tc := ⟨.hbm, 1303, rfl⟩
abbrev main_v1187 : Ref sig .tc := ⟨.hbm, 1304, rfl⟩
abbrev main_v1188 : Ref sig .tc := ⟨.hbm, 1305, rfl⟩
abbrev main_v1189 : Ref sig .tc := ⟨.hbm, 1306, rfl⟩
abbrev main_v1190 : Ref sig .tc := ⟨.hbm, 1307, rfl⟩
abbrev main_v1191 : Ref sig .tc := ⟨.hbm, 1308, rfl⟩
abbrev main_v1192 : Ref sig .tc := ⟨.hbm, 1309, rfl⟩
abbrev main_v1193 : Ref sig .tc := ⟨.hbm, 1310, rfl⟩
abbrev main_v1194 : Ref sig .tc := ⟨.hbm, 1311, rfl⟩
abbrev main_v1195 : Ref sig .tc := ⟨.hbm, 1312, rfl⟩
abbrev main_v1196 : Ref sig .tc := ⟨.hbm, 1313, rfl⟩
abbrev main_v1197 : Ref sig .tc := ⟨.hbm, 1314, rfl⟩
abbrev main_cst_103 : Ref sig .tc := ⟨.hbm, 1315, rfl⟩
abbrev main_v1198 : Ref sig .tc := ⟨.hbm, 1316, rfl⟩
abbrev main_v1199 : Ref sig .tc := ⟨.hbm, 1317, rfl⟩
abbrev main_v1200 : Ref sig .tc := ⟨.hbm, 1318, rfl⟩
abbrev main_v1201 : Ref sig .tc := ⟨.hbm, 1319, rfl⟩
abbrev main_v1202 : Ref sig .tc := ⟨.hbm, 1320, rfl⟩
abbrev main_v1203 : Ref sig .tc := ⟨.hbm, 1321, rfl⟩
abbrev main_v1204 : Ref sig .tc := ⟨.hbm, 1322, rfl⟩
abbrev main_v1205 : Ref sig .tc := ⟨.hbm, 1323, rfl⟩
abbrev main_v1206 : Ref sig .tc := ⟨.hbm, 1324, rfl⟩
abbrev main_v1207 : Ref sig .tc := ⟨.hbm, 1325, rfl⟩
abbrev main_v1208 : Ref sig .tc := ⟨.hbm, 1326, rfl⟩
abbrev main_v1209 : Ref sig .tc := ⟨.hbm, 1327, rfl⟩
abbrev main_v1210 : Ref sig .tc := ⟨.hbm, 1328, rfl⟩
abbrev main_v1211 : Ref sig .tc := ⟨.hbm, 1329, rfl⟩
abbrev main_v1212 : Ref sig .tc := ⟨.hbm, 1330, rfl⟩
abbrev main_v1213 : Ref sig .tc := ⟨.hbm, 1331, rfl⟩
abbrev main_v1214 : Ref sig .tc := ⟨.hbm, 1332, rfl⟩
abbrev main_v1215 : Ref sig .tc := ⟨.hbm, 1333, rfl⟩
abbrev main_v1216 : Ref sig .tc := ⟨.hbm, 1334, rfl⟩
abbrev main_cst_104 : Ref sig .tc := ⟨.hbm, 1335, rfl⟩
abbrev main_v1217 : Ref sig .tc := ⟨.hbm, 1336, rfl⟩
abbrev main_v1218 : Ref sig .tc := ⟨.hbm, 1337, rfl⟩
abbrev main_cst_105 : Ref sig .tc := ⟨.hbm, 1338, rfl⟩
abbrev main_v1219 : Ref sig .tc := ⟨.hbm, 1339, rfl⟩
abbrev main_v1220 : Ref sig .tc := ⟨.hbm, 1340, rfl⟩
abbrev main_v1221 : Ref sig .tc := ⟨.hbm, 1341, rfl⟩
abbrev main_v1222 : Ref sig .tc := ⟨.hbm, 1342, rfl⟩
abbrev main_v1223 : Ref sig .tc := ⟨.hbm, 1343, rfl⟩
abbrev main_v1224 : Ref sig .tc := ⟨.hbm, 1344, rfl⟩
abbrev main_v1225 : Ref sig .tc := ⟨.hbm, 1345, rfl⟩
abbrev main_v1226 : Ref sig .tc := ⟨.hbm, 1346, rfl⟩
abbrev main_v1227 : Ref sig .tc := ⟨.hbm, 1347, rfl⟩
abbrev main_v1228 : Ref sig .tc := ⟨.hbm, 1348, rfl⟩
abbrev main_v1229 : Ref sig .tc := ⟨.hbm, 1349, rfl⟩
abbrev main_v1230 : Ref sig .tc := ⟨.hbm, 1350, rfl⟩
abbrev main_v1231 : Ref sig .tc := ⟨.hbm, 1351, rfl⟩
abbrev main_v1232 : Ref sig .tc := ⟨.hbm, 1352, rfl⟩
abbrev main_v1233 : Ref sig .tc := ⟨.hbm, 1353, rfl⟩
abbrev main_v1234 : Ref sig .tc := ⟨.hbm, 1354, rfl⟩
abbrev main_cst_106 : Ref sig .tc := ⟨.hbm, 1355, rfl⟩
abbrev main_v1235 : Ref sig .tc := ⟨.hbm, 1356, rfl⟩
abbrev main_v1236 : Ref sig .tc := ⟨.hbm, 1357, rfl⟩
abbrev main_cst_107 : Ref sig .tc := ⟨.hbm, 1358, rfl⟩
abbrev main_v1237 : Ref sig .tc := ⟨.hbm, 1359, rfl⟩
abbrev main_v1238 : Ref sig .tc := ⟨.hbm, 1360, rfl⟩
abbrev main_v1239 : Ref sig .tc := ⟨.hbm, 1361, rfl⟩
abbrev main_v1240 : Ref sig .tc := ⟨.hbm, 1362, rfl⟩
abbrev main_v1241 : Ref sig .tc := ⟨.hbm, 1363, rfl⟩
abbrev main_v1242 : Ref sig .tc := ⟨.hbm, 1364, rfl⟩
abbrev main_v1243 : Ref sig .tc := ⟨.hbm, 1365, rfl⟩
abbrev main_v1244 : Ref sig .tc := ⟨.hbm, 1366, rfl⟩
abbrev main_v1245 : Ref sig .tc := ⟨.hbm, 1367, rfl⟩
abbrev main_v1246 : Ref sig .tc := ⟨.hbm, 1368, rfl⟩
abbrev main_v1247 : Ref sig .tc := ⟨.hbm, 1369, rfl⟩
abbrev main_v1248 : Ref sig .tc := ⟨.hbm, 1370, rfl⟩
abbrev main_v1249 : Ref sig .tc := ⟨.hbm, 1371, rfl⟩
abbrev main_v1250 : Ref sig .tc := ⟨.hbm, 1372, rfl⟩
abbrev main_v1251 : Ref sig .tc := ⟨.hbm, 1373, rfl⟩
abbrev main_v1252 : Ref sig .tc := ⟨.hbm, 1374, rfl⟩
abbrev main_cst_108 : Ref sig .tc := ⟨.hbm, 1375, rfl⟩
abbrev main_v1253 : Ref sig .tc := ⟨.hbm, 1376, rfl⟩
abbrev main_v1254 : Ref sig .tc := ⟨.hbm, 1377, rfl⟩
abbrev main_v1255 : Ref sig .tc := ⟨.hbm, 1378, rfl⟩
abbrev main_v1256 : Ref sig .tc := ⟨.hbm, 1379, rfl⟩
abbrev main_v1257 : Ref sig .tc := ⟨.hbm, 1380, rfl⟩
abbrev main_v1258 : Ref sig .tc := ⟨.hbm, 1381, rfl⟩
abbrev main_v1259 : Ref sig .tc := ⟨.hbm, 1382, rfl⟩
abbrev main_v1260 : Ref sig .tc := ⟨.hbm, 1383, rfl⟩
abbrev main_v1261 : Ref sig .tc := ⟨.hbm, 1384, rfl⟩
abbrev main_v1262 : Ref sig .tc := ⟨.hbm, 1385, rfl⟩
abbrev main_v1263 : Ref sig .tc := ⟨.hbm, 1386, rfl⟩
abbrev main_v1264 : Ref sig .tc := ⟨.hbm, 1387, rfl⟩
abbrev main_v1265 : Ref sig .tc := ⟨.hbm, 1388, rfl⟩
abbrev main_v1266 : Ref sig .tc := ⟨.hbm, 1389, rfl⟩
abbrev main_v1267 : Ref sig .tc := ⟨.hbm, 1390, rfl⟩
abbrev main_v1268 : Ref sig .tc := ⟨.hbm, 1391, rfl⟩
abbrev main_v1269 : Ref sig .tc := ⟨.hbm, 1392, rfl⟩
abbrev main_v1270 : Ref sig .tc := ⟨.hbm, 1393, rfl⟩
abbrev main_v1271 : Ref sig .tc := ⟨.hbm, 1394, rfl⟩
abbrev main_cst_109 : Ref sig .tc := ⟨.hbm, 1395, rfl⟩
abbrev main_v1272 : Ref sig .tc := ⟨.hbm, 1396, rfl⟩
abbrev main_v1273 : Ref sig .tc := ⟨.hbm, 1397, rfl⟩
abbrev main_cst_110 : Ref sig .tc := ⟨.hbm, 1398, rfl⟩
abbrev main_v1274 : Ref sig .tc := ⟨.hbm, 1399, rfl⟩
abbrev main_v1275 : Ref sig .tc := ⟨.hbm, 1400, rfl⟩
abbrev main_v1276 : Ref sig .tc := ⟨.hbm, 1401, rfl⟩
abbrev main_v1277 : Ref sig .tc := ⟨.hbm, 1402, rfl⟩
abbrev main_v1278 : Ref sig .tc := ⟨.hbm, 1403, rfl⟩
abbrev main_v1279 : Ref sig .tc := ⟨.hbm, 1404, rfl⟩
abbrev main_v1280 : Ref sig .tc := ⟨.hbm, 1405, rfl⟩
abbrev main_v1281 : Ref sig .tc := ⟨.hbm, 1406, rfl⟩
abbrev main_v1282 : Ref sig .tc := ⟨.hbm, 1407, rfl⟩
abbrev main_v1283 : Ref sig .tc := ⟨.hbm, 1408, rfl⟩
abbrev main_v1284 : Ref sig .tc := ⟨.hbm, 1409, rfl⟩
abbrev main_v1285 : Ref sig .tc := ⟨.hbm, 1410, rfl⟩
abbrev main_v1286 : Ref sig .tc := ⟨.hbm, 1411, rfl⟩
abbrev main_v1287 : Ref sig .tc := ⟨.hbm, 1412, rfl⟩
abbrev main_v1288 : Ref sig .tc := ⟨.hbm, 1413, rfl⟩
abbrev main_v1289 : Ref sig .tc := ⟨.hbm, 1414, rfl⟩
abbrev main_cst_111 : Ref sig .tc := ⟨.hbm, 1415, rfl⟩
abbrev main_v1290 : Ref sig .tc := ⟨.hbm, 1416, rfl⟩
abbrev main_v1291 : Ref sig .tc := ⟨.hbm, 1417, rfl⟩
abbrev main_cst_112 : Ref sig .tc := ⟨.hbm, 1418, rfl⟩
abbrev main_v1292 : Ref sig .tc := ⟨.hbm, 1419, rfl⟩
abbrev main_v1293 : Ref sig .tc := ⟨.hbm, 1420, rfl⟩
abbrev main_v1294 : Ref sig .tc := ⟨.hbm, 1421, rfl⟩
abbrev main_v1295 : Ref sig .tc := ⟨.hbm, 1422, rfl⟩
abbrev main_v1296 : Ref sig .tc := ⟨.hbm, 1423, rfl⟩
abbrev main_v1297 : Ref sig .tc := ⟨.hbm, 1424, rfl⟩
abbrev main_v1298 : Ref sig .tc := ⟨.hbm, 1425, rfl⟩
abbrev main_v1299 : Ref sig .tc := ⟨.hbm, 1426, rfl⟩
abbrev main_v1300 : Ref sig .tc := ⟨.hbm, 1427, rfl⟩
abbrev main_v1301 : Ref sig .tc := ⟨.hbm, 1428, rfl⟩
abbrev main_v1302 : Ref sig .tc := ⟨.hbm, 1429, rfl⟩
abbrev main_v1303 : Ref sig .tc := ⟨.hbm, 1430, rfl⟩
abbrev main_v1304 : Ref sig .tc := ⟨.hbm, 1431, rfl⟩
abbrev main_v1305 : Ref sig .tc := ⟨.hbm, 1432, rfl⟩
abbrev main_v1306 : Ref sig .tc := ⟨.hbm, 1433, rfl⟩
abbrev main_v1307 : Ref sig .tc := ⟨.hbm, 1434, rfl⟩
abbrev main_cst_113 : Ref sig .tc := ⟨.hbm, 1435, rfl⟩
abbrev main_v1308 : Ref sig .tc := ⟨.hbm, 1436, rfl⟩
abbrev main_v1309 : Ref sig .tc := ⟨.hbm, 1437, rfl⟩
abbrev main_v1310 : Ref sig .tc := ⟨.hbm, 1438, rfl⟩
abbrev main_v1311 : Ref sig .tc := ⟨.hbm, 1439, rfl⟩
abbrev main_v1312 : Ref sig .tc := ⟨.hbm, 1440, rfl⟩
abbrev main_v1313 : Ref sig .tc := ⟨.hbm, 1441, rfl⟩
abbrev main_v1314 : Ref sig .tc := ⟨.hbm, 1442, rfl⟩
abbrev main_v1315 : Ref sig .tc := ⟨.hbm, 1443, rfl⟩
abbrev main_v1316 : Ref sig .tc := ⟨.hbm, 1444, rfl⟩
abbrev main_v1317 : Ref sig .tc := ⟨.hbm, 1445, rfl⟩
abbrev main_v1318 : Ref sig .tc := ⟨.hbm, 1446, rfl⟩
abbrev main_v1319 : Ref sig .tc := ⟨.hbm, 1447, rfl⟩
abbrev main_v1320 : Ref sig .tc := ⟨.hbm, 1448, rfl⟩
abbrev main_v1321 : Ref sig .tc := ⟨.hbm, 1449, rfl⟩
abbrev main_v1322 : Ref sig .tc := ⟨.hbm, 1450, rfl⟩
abbrev main_v1323 : Ref sig .tc := ⟨.hbm, 1451, rfl⟩
abbrev main_v1324 : Ref sig .tc := ⟨.hbm, 1452, rfl⟩
abbrev main_v1325 : Ref sig .tc := ⟨.hbm, 1453, rfl⟩
abbrev main_v1326 : Ref sig .tc := ⟨.hbm, 1454, rfl⟩
abbrev main_cst_114 : Ref sig .tc := ⟨.hbm, 1455, rfl⟩
abbrev main_v1327 : Ref sig .tc := ⟨.hbm, 1456, rfl⟩
abbrev main_v1328 : Ref sig .tc := ⟨.hbm, 1457, rfl⟩
abbrev main_cst_115 : Ref sig .tc := ⟨.hbm, 1458, rfl⟩
abbrev main_v1329 : Ref sig .tc := ⟨.hbm, 1459, rfl⟩
abbrev main_v1330 : Ref sig .tc := ⟨.hbm, 1460, rfl⟩
abbrev main_v1331 : Ref sig .tc := ⟨.hbm, 1461, rfl⟩
abbrev main_v1332 : Ref sig .tc := ⟨.hbm, 1462, rfl⟩
abbrev main_v1333 : Ref sig .tc := ⟨.hbm, 1463, rfl⟩
abbrev main_v1334 : Ref sig .tc := ⟨.hbm, 1464, rfl⟩
abbrev main_v1335 : Ref sig .tc := ⟨.hbm, 1465, rfl⟩
abbrev main_v1336 : Ref sig .tc := ⟨.hbm, 1466, rfl⟩
abbrev main_v1337 : Ref sig .tc := ⟨.hbm, 1467, rfl⟩
abbrev main_v1338 : Ref sig .tc := ⟨.hbm, 1468, rfl⟩
abbrev main_v1339 : Ref sig .tc := ⟨.hbm, 1469, rfl⟩
abbrev main_v1340 : Ref sig .tc := ⟨.hbm, 1470, rfl⟩
abbrev main_v1341 : Ref sig .tc := ⟨.hbm, 1471, rfl⟩
abbrev main_v1342 : Ref sig .tc := ⟨.hbm, 1472, rfl⟩
abbrev main_v1343 : Ref sig .tc := ⟨.hbm, 1473, rfl⟩
abbrev main_v1344 : Ref sig .tc := ⟨.hbm, 1474, rfl⟩
abbrev main_cst_116 : Ref sig .tc := ⟨.hbm, 1475, rfl⟩
abbrev main_v1345 : Ref sig .tc := ⟨.hbm, 1476, rfl⟩
abbrev main_v1346 : Ref sig .tc := ⟨.hbm, 1477, rfl⟩
abbrev main_cst_117 : Ref sig .tc := ⟨.hbm, 1478, rfl⟩
abbrev main_v1347 : Ref sig .tc := ⟨.hbm, 1479, rfl⟩
abbrev main_v1348 : Ref sig .tc := ⟨.hbm, 1480, rfl⟩
abbrev main_v1349 : Ref sig .tc := ⟨.hbm, 1481, rfl⟩
abbrev main_v1350 : Ref sig .tc := ⟨.hbm, 1482, rfl⟩
abbrev main_v1351 : Ref sig .tc := ⟨.hbm, 1483, rfl⟩
abbrev main_v1352 : Ref sig .tc := ⟨.hbm, 1484, rfl⟩
abbrev main_v1353 : Ref sig .tc := ⟨.hbm, 1485, rfl⟩
abbrev main_v1354 : Ref sig .tc := ⟨.hbm, 1486, rfl⟩
abbrev main_v1355 : Ref sig .tc := ⟨.hbm, 1487, rfl⟩
abbrev main_v1356 : Ref sig .tc := ⟨.hbm, 1488, rfl⟩
abbrev main_v1357 : Ref sig .tc := ⟨.hbm, 1489, rfl⟩
abbrev main_v1358 : Ref sig .tc := ⟨.hbm, 1490, rfl⟩
abbrev main_v1359 : Ref sig .tc := ⟨.hbm, 1491, rfl⟩
abbrev main_v1360 : Ref sig .tc := ⟨.hbm, 1492, rfl⟩
abbrev main_v1361 : Ref sig .tc := ⟨.hbm, 1493, rfl⟩
abbrev main_v1362 : Ref sig .tc := ⟨.hbm, 1494, rfl⟩
abbrev main_cst_118 : Ref sig .tc := ⟨.hbm, 1495, rfl⟩
abbrev main_v1363 : Ref sig .tc := ⟨.hbm, 1496, rfl⟩
abbrev main_v1364 : Ref sig .tc := ⟨.hbm, 1497, rfl⟩
abbrev main_v1365 : Ref sig .tc := ⟨.hbm, 1498, rfl⟩
abbrev main_v1366 : Ref sig .tc := ⟨.hbm, 1499, rfl⟩
abbrev main_v1367 : Ref sig .tc := ⟨.hbm, 1500, rfl⟩
abbrev main_v1368 : Ref sig .tc := ⟨.hbm, 1501, rfl⟩
abbrev main_v1369 : Ref sig .tc := ⟨.hbm, 1502, rfl⟩
abbrev main_v1370 : Ref sig .tc := ⟨.hbm, 1503, rfl⟩
abbrev main_v1371 : Ref sig .tc := ⟨.hbm, 1504, rfl⟩
abbrev main_v1372 : Ref sig .tc := ⟨.hbm, 1505, rfl⟩
abbrev main_v1373 : Ref sig .tc := ⟨.hbm, 1506, rfl⟩
abbrev main_v1374 : Ref sig .tc := ⟨.hbm, 1507, rfl⟩
abbrev main_v1375 : Ref sig .tc := ⟨.hbm, 1508, rfl⟩
abbrev main_v1376 : Ref sig .tc := ⟨.hbm, 1509, rfl⟩
abbrev main_v1377 : Ref sig .tc := ⟨.hbm, 1510, rfl⟩
abbrev main_v1378 : Ref sig .tc := ⟨.hbm, 1511, rfl⟩
abbrev main_v1379 : Ref sig .tc := ⟨.hbm, 1512, rfl⟩
abbrev main_v1380 : Ref sig .tc := ⟨.hbm, 1513, rfl⟩
abbrev main_v1381 : Ref sig .tc := ⟨.hbm, 1514, rfl⟩
abbrev main_v1382 : Ref sig .tc := ⟨.hbm, 1515, rfl⟩
abbrev main_v1383 : Ref sig .tc := ⟨.hbm, 1516, rfl⟩
abbrev main_v1384 : Ref sig .tc := ⟨.hbm, 1517, rfl⟩
abbrev main_v1385 : Ref sig .tc := ⟨.hbm, 1518, rfl⟩
abbrev main_v1386 : Ref sig .tc := ⟨.hbm, 1519, rfl⟩
abbrev main_v1387 : Ref sig .tc := ⟨.hbm, 1520, rfl⟩
abbrev main_v1388 : Ref sig .tc := ⟨.hbm, 1521, rfl⟩
abbrev main_v1389 : Ref sig .tc := ⟨.hbm, 1522, rfl⟩
abbrev main_v1390 : Ref sig .tc := ⟨.hbm, 1523, rfl⟩
abbrev main_v1391 : Ref sig .tc := ⟨.hbm, 1524, rfl⟩
abbrev main_v1392 : Ref sig .tc := ⟨.hbm, 1525, rfl⟩
abbrev main_v1393 : Ref sig .tc := ⟨.hbm, 1526, rfl⟩
abbrev main_v1394 : Ref sig .tc := ⟨.hbm, 1527, rfl⟩
abbrev main_v1395 : Ref sig .tc := ⟨.hbm, 1528, rfl⟩
abbrev main_v1396 : Ref sig .tc := ⟨.hbm, 1529, rfl⟩
abbrev main_cst_119 : Ref sig .tc := ⟨.hbm, 1530, rfl⟩
abbrev main_v1397 : Ref sig .tc := ⟨.hbm, 1531, rfl⟩
abbrev main_v1398 : Ref sig .tc := ⟨.hbm, 1532, rfl⟩
abbrev main_cst_120 : Ref sig .tc := ⟨.hbm, 1533, rfl⟩
abbrev main_v1399 : Ref sig .tc := ⟨.hbm, 1534, rfl⟩
abbrev main_v1400 : Ref sig .tc := ⟨.hbm, 1535, rfl⟩
abbrev main_v1401 : Ref sig .tc := ⟨.hbm, 1536, rfl⟩
abbrev main_v1402 : Ref sig .tc := ⟨.hbm, 1537, rfl⟩
abbrev main_v1403 : Ref sig .tc := ⟨.hbm, 1538, rfl⟩
abbrev main_v1404 : Ref sig .tc := ⟨.hbm, 1539, rfl⟩
abbrev main_v1405 : Ref sig .tc := ⟨.hbm, 1540, rfl⟩
abbrev main_v1406 : Ref sig .tc := ⟨.hbm, 1541, rfl⟩
abbrev main_v1407 : Ref sig .tc := ⟨.hbm, 1542, rfl⟩
abbrev main_v1408 : Ref sig .tc := ⟨.hbm, 1543, rfl⟩
abbrev main_v1409 : Ref sig .tc := ⟨.hbm, 1544, rfl⟩
abbrev main_v1410 : Ref sig .tc := ⟨.hbm, 1545, rfl⟩
abbrev main_v1411 : Ref sig .tc := ⟨.hbm, 1546, rfl⟩
abbrev main_v1412 : Ref sig .tc := ⟨.hbm, 1547, rfl⟩
abbrev main_v1413 : Ref sig .tc := ⟨.hbm, 1548, rfl⟩
abbrev main_v1414 : Ref sig .tc := ⟨.hbm, 1549, rfl⟩
abbrev main_cst_121 : Ref sig .tc := ⟨.hbm, 1550, rfl⟩
abbrev main_v1415 : Ref sig .tc := ⟨.hbm, 1551, rfl⟩
abbrev main_v1416 : Ref sig .tc := ⟨.hbm, 1552, rfl⟩
abbrev main_cst_122 : Ref sig .tc := ⟨.hbm, 1553, rfl⟩
abbrev main_v1417 : Ref sig .tc := ⟨.hbm, 1554, rfl⟩
abbrev main_v1418 : Ref sig .tc := ⟨.hbm, 1555, rfl⟩
abbrev main_v1419 : Ref sig .tc := ⟨.hbm, 1556, rfl⟩
abbrev main_v1420 : Ref sig .tc := ⟨.hbm, 1557, rfl⟩
abbrev main_v1421 : Ref sig .tc := ⟨.hbm, 1558, rfl⟩
abbrev main_v1422 : Ref sig .tc := ⟨.hbm, 1559, rfl⟩
abbrev main_v1423 : Ref sig .tc := ⟨.hbm, 1560, rfl⟩
abbrev main_v1424 : Ref sig .tc := ⟨.hbm, 1561, rfl⟩
abbrev main_v1425 : Ref sig .tc := ⟨.hbm, 1562, rfl⟩
abbrev main_v1426 : Ref sig .tc := ⟨.hbm, 1563, rfl⟩
abbrev main_v1427 : Ref sig .tc := ⟨.hbm, 1564, rfl⟩
abbrev main_v1428 : Ref sig .tc := ⟨.hbm, 1565, rfl⟩
abbrev main_v1429 : Ref sig .tc := ⟨.hbm, 1566, rfl⟩
abbrev main_v1430 : Ref sig .tc := ⟨.hbm, 1567, rfl⟩
abbrev main_v1431 : Ref sig .tc := ⟨.hbm, 1568, rfl⟩
abbrev main_v1432 : Ref sig .tc := ⟨.hbm, 1569, rfl⟩
abbrev main_cst_123 : Ref sig .tc := ⟨.hbm, 1570, rfl⟩
abbrev main_v1433 : Ref sig .tc := ⟨.hbm, 1571, rfl⟩
abbrev main_v1434 : Ref sig .tc := ⟨.hbm, 1572, rfl⟩
abbrev main_v1435 : Ref sig .tc := ⟨.hbm, 1573, rfl⟩
abbrev main_v1436 : Ref sig .tc := ⟨.hbm, 1574, rfl⟩
abbrev main_v1437 : Ref sig .tc := ⟨.hbm, 1575, rfl⟩
abbrev main_v1438 : Ref sig .tc := ⟨.hbm, 1576, rfl⟩
abbrev main_v1439 : Ref sig .tc := ⟨.hbm, 1577, rfl⟩
abbrev main_v1440 : Ref sig .tc := ⟨.hbm, 1578, rfl⟩
abbrev main_v1441 : Ref sig .tc := ⟨.hbm, 1579, rfl⟩
abbrev main_v1442 : Ref sig .tc := ⟨.hbm, 1580, rfl⟩
abbrev main_v1443 : Ref sig .tc := ⟨.hbm, 1581, rfl⟩
abbrev main_v1444 : Ref sig .tc := ⟨.hbm, 1582, rfl⟩
abbrev main_v1445 : Ref sig .tc := ⟨.hbm, 1583, rfl⟩
abbrev main_v1446 : Ref sig .tc := ⟨.hbm, 1584, rfl⟩
abbrev main_v1447 : Ref sig .tc := ⟨.hbm, 1585, rfl⟩
abbrev main_v1448 : Ref sig .tc := ⟨.hbm, 1586, rfl⟩
abbrev main_v1449 : Ref sig .tc := ⟨.hbm, 1587, rfl⟩
abbrev main_v1450 : Ref sig .tc := ⟨.hbm, 1588, rfl⟩
abbrev main_v1451 : Ref sig .tc := ⟨.hbm, 1589, rfl⟩
abbrev main_cst_124 : Ref sig .tc := ⟨.hbm, 1590, rfl⟩
abbrev main_v1452 : Ref sig .tc := ⟨.hbm, 1591, rfl⟩
abbrev main_v1453 : Ref sig .tc := ⟨.hbm, 1592, rfl⟩
abbrev main_cst_125 : Ref sig .tc := ⟨.hbm, 1593, rfl⟩
abbrev main_v1454 : Ref sig .tc := ⟨.hbm, 1594, rfl⟩
abbrev main_v1455 : Ref sig .tc := ⟨.hbm, 1595, rfl⟩
abbrev main_v1456 : Ref sig .tc := ⟨.hbm, 1596, rfl⟩
abbrev main_v1457 : Ref sig .tc := ⟨.hbm, 1597, rfl⟩
abbrev main_v1458 : Ref sig .tc := ⟨.hbm, 1598, rfl⟩
abbrev main_v1459 : Ref sig .tc := ⟨.hbm, 1599, rfl⟩
abbrev main_v1460 : Ref sig .tc := ⟨.hbm, 1600, rfl⟩
abbrev main_v1461 : Ref sig .tc := ⟨.hbm, 1601, rfl⟩
abbrev main_v1462 : Ref sig .tc := ⟨.hbm, 1602, rfl⟩
abbrev main_v1463 : Ref sig .tc := ⟨.hbm, 1603, rfl⟩
abbrev main_v1464 : Ref sig .tc := ⟨.hbm, 1604, rfl⟩
abbrev main_v1465 : Ref sig .tc := ⟨.hbm, 1605, rfl⟩
abbrev main_v1466 : Ref sig .tc := ⟨.hbm, 1606, rfl⟩
abbrev main_v1467 : Ref sig .tc := ⟨.hbm, 1607, rfl⟩
abbrev main_v1468 : Ref sig .tc := ⟨.hbm, 1608, rfl⟩
abbrev main_v1469 : Ref sig .tc := ⟨.hbm, 1609, rfl⟩
abbrev main_cst_126 : Ref sig .tc := ⟨.hbm, 1610, rfl⟩
abbrev main_v1470 : Ref sig .tc := ⟨.hbm, 1611, rfl⟩
abbrev main_v1471 : Ref sig .tc := ⟨.hbm, 1612, rfl⟩
abbrev main_cst_127 : Ref sig .tc := ⟨.hbm, 1613, rfl⟩
abbrev main_v1472 : Ref sig .tc := ⟨.hbm, 1614, rfl⟩
abbrev main_v1473 : Ref sig .tc := ⟨.hbm, 1615, rfl⟩
abbrev main_v1474 : Ref sig .tc := ⟨.hbm, 1616, rfl⟩
abbrev main_v1475 : Ref sig .tc := ⟨.hbm, 1617, rfl⟩
abbrev main_v1476 : Ref sig .tc := ⟨.hbm, 1618, rfl⟩
abbrev main_v1477 : Ref sig .tc := ⟨.hbm, 1619, rfl⟩
abbrev main_v1478 : Ref sig .tc := ⟨.hbm, 1620, rfl⟩
abbrev main_v1479 : Ref sig .tc := ⟨.hbm, 1621, rfl⟩
abbrev main_v1480 : Ref sig .tc := ⟨.hbm, 1622, rfl⟩
abbrev main_v1481 : Ref sig .tc := ⟨.hbm, 1623, rfl⟩
abbrev main_v1482 : Ref sig .tc := ⟨.hbm, 1624, rfl⟩
abbrev main_v1483 : Ref sig .tc := ⟨.hbm, 1625, rfl⟩
abbrev main_v1484 : Ref sig .tc := ⟨.hbm, 1626, rfl⟩
abbrev main_v1485 : Ref sig .tc := ⟨.hbm, 1627, rfl⟩
abbrev main_v1486 : Ref sig .tc := ⟨.hbm, 1628, rfl⟩
abbrev main_v1487 : Ref sig .tc := ⟨.hbm, 1629, rfl⟩
abbrev main_cst_128 : Ref sig .tc := ⟨.hbm, 1630, rfl⟩
abbrev main_v1488 : Ref sig .tc := ⟨.hbm, 1631, rfl⟩
abbrev main_v1489 : Ref sig .tc := ⟨.hbm, 1632, rfl⟩
abbrev main_v1490 : Ref sig .tc := ⟨.hbm, 1633, rfl⟩
abbrev main_v1491 : Ref sig .tc := ⟨.hbm, 1634, rfl⟩
abbrev main_v1492 : Ref sig .tc := ⟨.hbm, 1635, rfl⟩
abbrev main_v1493 : Ref sig .tc := ⟨.hbm, 1636, rfl⟩
abbrev main_v1494 : Ref sig .tc := ⟨.hbm, 1637, rfl⟩
abbrev main_v1495 : Ref sig .tc := ⟨.hbm, 1638, rfl⟩
abbrev main_v1496 : Ref sig .tc := ⟨.hbm, 1639, rfl⟩
abbrev main_v1497 : Ref sig .tc := ⟨.hbm, 1640, rfl⟩
abbrev main_v1498 : Ref sig .tc := ⟨.hbm, 1641, rfl⟩
abbrev main_v1499 : Ref sig .tc := ⟨.hbm, 1642, rfl⟩
abbrev main_v1500 : Ref sig .tc := ⟨.hbm, 1643, rfl⟩
abbrev main_v1501 : Ref sig .tc := ⟨.hbm, 1644, rfl⟩
abbrev main_v1502 : Ref sig .tc := ⟨.hbm, 1645, rfl⟩
abbrev main_v1503 : Ref sig .tc := ⟨.hbm, 1646, rfl⟩
abbrev main_v1504 : Ref sig .tc := ⟨.hbm, 1647, rfl⟩
abbrev main_v1505 : Ref sig .tc := ⟨.hbm, 1648, rfl⟩
abbrev main_v1506 : Ref sig .tc := ⟨.hbm, 1649, rfl⟩
abbrev main_cst_129 : Ref sig .tc := ⟨.hbm, 1650, rfl⟩
abbrev main_v1507 : Ref sig .tc := ⟨.hbm, 1651, rfl⟩
abbrev main_v1508 : Ref sig .tc := ⟨.hbm, 1652, rfl⟩
abbrev main_cst_130 : Ref sig .tc := ⟨.hbm, 1653, rfl⟩
abbrev main_v1509 : Ref sig .tc := ⟨.hbm, 1654, rfl⟩
abbrev main_v1510 : Ref sig .tc := ⟨.hbm, 1655, rfl⟩
abbrev main_v1511 : Ref sig .tc := ⟨.hbm, 1656, rfl⟩
abbrev main_v1512 : Ref sig .tc := ⟨.hbm, 1657, rfl⟩
abbrev main_v1513 : Ref sig .tc := ⟨.hbm, 1658, rfl⟩
abbrev main_v1514 : Ref sig .tc := ⟨.hbm, 1659, rfl⟩
abbrev main_v1515 : Ref sig .tc := ⟨.hbm, 1660, rfl⟩
abbrev main_v1516 : Ref sig .tc := ⟨.hbm, 1661, rfl⟩
abbrev main_v1517 : Ref sig .tc := ⟨.hbm, 1662, rfl⟩
abbrev main_v1518 : Ref sig .tc := ⟨.hbm, 1663, rfl⟩
abbrev main_v1519 : Ref sig .tc := ⟨.hbm, 1664, rfl⟩
abbrev main_v1520 : Ref sig .tc := ⟨.hbm, 1665, rfl⟩
abbrev main_v1521 : Ref sig .tc := ⟨.hbm, 1666, rfl⟩
abbrev main_v1522 : Ref sig .tc := ⟨.hbm, 1667, rfl⟩
abbrev main_v1523 : Ref sig .tc := ⟨.hbm, 1668, rfl⟩
abbrev main_v1524 : Ref sig .tc := ⟨.hbm, 1669, rfl⟩
abbrev main_cst_131 : Ref sig .tc := ⟨.hbm, 1670, rfl⟩
abbrev main_v1525 : Ref sig .tc := ⟨.hbm, 1671, rfl⟩
abbrev main_v1526 : Ref sig .tc := ⟨.hbm, 1672, rfl⟩
abbrev main_cst_132 : Ref sig .tc := ⟨.hbm, 1673, rfl⟩
abbrev main_v1527 : Ref sig .tc := ⟨.hbm, 1674, rfl⟩
abbrev main_v1528 : Ref sig .tc := ⟨.hbm, 1675, rfl⟩
abbrev main_v1529 : Ref sig .tc := ⟨.hbm, 1676, rfl⟩
abbrev main_v1530 : Ref sig .tc := ⟨.hbm, 1677, rfl⟩
abbrev main_v1531 : Ref sig .tc := ⟨.hbm, 1678, rfl⟩
abbrev main_v1532 : Ref sig .tc := ⟨.hbm, 1679, rfl⟩
abbrev main_v1533 : Ref sig .tc := ⟨.hbm, 1680, rfl⟩
abbrev main_v1534 : Ref sig .tc := ⟨.hbm, 1681, rfl⟩
abbrev main_v1535 : Ref sig .tc := ⟨.hbm, 1682, rfl⟩
abbrev main_v1536 : Ref sig .tc := ⟨.hbm, 1683, rfl⟩
abbrev main_v1537 : Ref sig .tc := ⟨.hbm, 1684, rfl⟩
abbrev main_v1538 : Ref sig .tc := ⟨.hbm, 1685, rfl⟩
abbrev main_v1539 : Ref sig .tc := ⟨.hbm, 1686, rfl⟩
abbrev main_v1540 : Ref sig .tc := ⟨.hbm, 1687, rfl⟩
abbrev main_v1541 : Ref sig .tc := ⟨.hbm, 1688, rfl⟩
abbrev main_v1542 : Ref sig .tc := ⟨.hbm, 1689, rfl⟩
abbrev main_cst_133 : Ref sig .tc := ⟨.hbm, 1690, rfl⟩
abbrev main_v1543 : Ref sig .tc := ⟨.hbm, 1691, rfl⟩
abbrev main_v1544 : Ref sig .tc := ⟨.hbm, 1692, rfl⟩
abbrev main_v1545 : Ref sig .tc := ⟨.hbm, 1693, rfl⟩
abbrev main_v1546 : Ref sig .tc := ⟨.hbm, 1694, rfl⟩
abbrev main_v1547 : Ref sig .tc := ⟨.hbm, 1695, rfl⟩
abbrev main_v1548 : Ref sig .tc := ⟨.hbm, 1696, rfl⟩
abbrev main_v1549 : Ref sig .tc := ⟨.hbm, 1697, rfl⟩
abbrev main_v1550 : Ref sig .tc := ⟨.hbm, 1698, rfl⟩
abbrev main_v1551 : Ref sig .tc := ⟨.hbm, 1699, rfl⟩
abbrev main_v1552 : Ref sig .tc := ⟨.hbm, 1700, rfl⟩
abbrev main_v1553 : Ref sig .tc := ⟨.hbm, 1701, rfl⟩
abbrev main_v1554 : Ref sig .tc := ⟨.hbm, 1702, rfl⟩
abbrev main_v1555 : Ref sig .tc := ⟨.hbm, 1703, rfl⟩
abbrev main_v1556 : Ref sig .tc := ⟨.hbm, 1704, rfl⟩
abbrev main_v1557 : Ref sig .tc := ⟨.hbm, 1705, rfl⟩
abbrev main_v1558 : Ref sig .tc := ⟨.hbm, 1706, rfl⟩
abbrev main_v1559 : Ref sig .tc := ⟨.hbm, 1707, rfl⟩
abbrev main_v1560 : Ref sig .tc := ⟨.hbm, 1708, rfl⟩
abbrev main_v1561 : Ref sig .tc := ⟨.hbm, 1709, rfl⟩
abbrev main_cst_134 : Ref sig .tc := ⟨.hbm, 1710, rfl⟩
abbrev main_v1562 : Ref sig .tc := ⟨.hbm, 1711, rfl⟩
abbrev main_v1563 : Ref sig .tc := ⟨.hbm, 1712, rfl⟩
abbrev main_cst_135 : Ref sig .tc := ⟨.hbm, 1713, rfl⟩
abbrev main_v1564 : Ref sig .tc := ⟨.hbm, 1714, rfl⟩
abbrev main_v1565 : Ref sig .tc := ⟨.hbm, 1715, rfl⟩
abbrev main_v1566 : Ref sig .tc := ⟨.hbm, 1716, rfl⟩
abbrev main_v1567 : Ref sig .tc := ⟨.hbm, 1717, rfl⟩
abbrev main_v1568 : Ref sig .tc := ⟨.hbm, 1718, rfl⟩
abbrev main_v1569 : Ref sig .tc := ⟨.hbm, 1719, rfl⟩
abbrev main_v1570 : Ref sig .tc := ⟨.hbm, 1720, rfl⟩
abbrev main_v1571 : Ref sig .tc := ⟨.hbm, 1721, rfl⟩
abbrev main_v1572 : Ref sig .tc := ⟨.hbm, 1722, rfl⟩
abbrev main_v1573 : Ref sig .tc := ⟨.hbm, 1723, rfl⟩
abbrev main_v1574 : Ref sig .tc := ⟨.hbm, 1724, rfl⟩
abbrev main_v1575 : Ref sig .tc := ⟨.hbm, 1725, rfl⟩
abbrev main_v1576 : Ref sig .tc := ⟨.hbm, 1726, rfl⟩
abbrev main_v1577 : Ref sig .tc := ⟨.hbm, 1727, rfl⟩
abbrev main_v1578 : Ref sig .tc := ⟨.hbm, 1728, rfl⟩
abbrev main_v1579 : Ref sig .tc := ⟨.hbm, 1729, rfl⟩
abbrev main_cst_136 : Ref sig .tc := ⟨.hbm, 1730, rfl⟩
abbrev main_v1580 : Ref sig .tc := ⟨.hbm, 1731, rfl⟩
abbrev main_v1581 : Ref sig .tc := ⟨.hbm, 1732, rfl⟩
abbrev main_cst_137 : Ref sig .tc := ⟨.hbm, 1733, rfl⟩
abbrev main_v1582 : Ref sig .tc := ⟨.hbm, 1734, rfl⟩
abbrev main_v1583 : Ref sig .tc := ⟨.hbm, 1735, rfl⟩
abbrev main_v1584 : Ref sig .tc := ⟨.hbm, 1736, rfl⟩
abbrev main_v1585 : Ref sig .tc := ⟨.hbm, 1737, rfl⟩
abbrev main_v1586 : Ref sig .tc := ⟨.hbm, 1738, rfl⟩
abbrev main_v1587 : Ref sig .tc := ⟨.hbm, 1739, rfl⟩
abbrev main_v1588 : Ref sig .tc := ⟨.hbm, 1740, rfl⟩
abbrev main_v1589 : Ref sig .tc := ⟨.hbm, 1741, rfl⟩
abbrev main_v1590 : Ref sig .tc := ⟨.hbm, 1742, rfl⟩
abbrev main_v1591 : Ref sig .tc := ⟨.hbm, 1743, rfl⟩
abbrev main_v1592 : Ref sig .tc := ⟨.hbm, 1744, rfl⟩
abbrev main_v1593 : Ref sig .tc := ⟨.hbm, 1745, rfl⟩
abbrev main_v1594 : Ref sig .tc := ⟨.hbm, 1746, rfl⟩
abbrev main_v1595 : Ref sig .tc := ⟨.hbm, 1747, rfl⟩
abbrev main_v1596 : Ref sig .tc := ⟨.hbm, 1748, rfl⟩
abbrev main_v1597 : Ref sig .tc := ⟨.hbm, 1749, rfl⟩
abbrev main_cst_138 : Ref sig .tc := ⟨.hbm, 1750, rfl⟩
abbrev main_v1598 : Ref sig .tc := ⟨.hbm, 1751, rfl⟩
abbrev main_v1599 : Ref sig .tc := ⟨.hbm, 1752, rfl⟩
abbrev main_v1600 : Ref sig .tc := ⟨.hbm, 1753, rfl⟩
abbrev main_v1601 : Ref sig .tc := ⟨.hbm, 1754, rfl⟩
abbrev main_v1602 : Ref sig .tc := ⟨.hbm, 1755, rfl⟩
abbrev main_v1603 : Ref sig .tc := ⟨.hbm, 1756, rfl⟩
abbrev main_v1604 : Ref sig .tc := ⟨.hbm, 1757, rfl⟩
abbrev main_v1605 : Ref sig .tc := ⟨.hbm, 1758, rfl⟩
abbrev main_v1606 : Ref sig .tc := ⟨.hbm, 1759, rfl⟩
abbrev main_v1607 : Ref sig .tc := ⟨.hbm, 1760, rfl⟩
abbrev main_v1608 : Ref sig .tc := ⟨.hbm, 1761, rfl⟩
abbrev main_v1609 : Ref sig .tc := ⟨.hbm, 1762, rfl⟩
abbrev main_v1610 : Ref sig .tc := ⟨.hbm, 1763, rfl⟩
abbrev main_v1611 : Ref sig .tc := ⟨.hbm, 1764, rfl⟩
abbrev main_v1612 : Ref sig .tc := ⟨.hbm, 1765, rfl⟩
abbrev main_v1613 : Ref sig .tc := ⟨.hbm, 1766, rfl⟩
abbrev main_v1614 : Ref sig .tc := ⟨.hbm, 1767, rfl⟩
abbrev main_v1615 : Ref sig .tc := ⟨.hbm, 1768, rfl⟩
abbrev main_v1616 : Ref sig .tc := ⟨.hbm, 1769, rfl⟩
abbrev main_cst_139 : Ref sig .tc := ⟨.hbm, 1770, rfl⟩
abbrev main_v1617 : Ref sig .tc := ⟨.hbm, 1771, rfl⟩
abbrev main_v1618 : Ref sig .tc := ⟨.hbm, 1772, rfl⟩
abbrev main_cst_140 : Ref sig .tc := ⟨.hbm, 1773, rfl⟩
abbrev main_v1619 : Ref sig .tc := ⟨.hbm, 1774, rfl⟩
abbrev main_v1620 : Ref sig .tc := ⟨.hbm, 1775, rfl⟩
abbrev main_v1621 : Ref sig .tc := ⟨.hbm, 1776, rfl⟩
abbrev main_v1622 : Ref sig .tc := ⟨.hbm, 1777, rfl⟩
abbrev main_v1623 : Ref sig .tc := ⟨.hbm, 1778, rfl⟩
abbrev main_v1624 : Ref sig .tc := ⟨.hbm, 1779, rfl⟩
abbrev main_v1625 : Ref sig .tc := ⟨.hbm, 1780, rfl⟩
abbrev main_v1626 : Ref sig .tc := ⟨.hbm, 1781, rfl⟩
abbrev main_v1627 : Ref sig .tc := ⟨.hbm, 1782, rfl⟩
abbrev main_v1628 : Ref sig .tc := ⟨.hbm, 1783, rfl⟩
abbrev main_v1629 : Ref sig .tc := ⟨.hbm, 1784, rfl⟩
abbrev main_v1630 : Ref sig .tc := ⟨.hbm, 1785, rfl⟩
abbrev main_v1631 : Ref sig .tc := ⟨.hbm, 1786, rfl⟩
abbrev main_v1632 : Ref sig .tc := ⟨.hbm, 1787, rfl⟩
abbrev main_v1633 : Ref sig .tc := ⟨.hbm, 1788, rfl⟩
abbrev main_v1634 : Ref sig .tc := ⟨.hbm, 1789, rfl⟩
abbrev main_cst_141 : Ref sig .tc := ⟨.hbm, 1790, rfl⟩
abbrev main_v1635 : Ref sig .tc := ⟨.hbm, 1791, rfl⟩
abbrev main_v1636 : Ref sig .tc := ⟨.hbm, 1792, rfl⟩
abbrev main_cst_142 : Ref sig .tc := ⟨.hbm, 1793, rfl⟩
abbrev main_v1637 : Ref sig .tc := ⟨.hbm, 1794, rfl⟩
abbrev main_v1638 : Ref sig .tc := ⟨.hbm, 1795, rfl⟩
abbrev main_v1639 : Ref sig .tc := ⟨.hbm, 1796, rfl⟩
abbrev main_v1640 : Ref sig .tc := ⟨.hbm, 1797, rfl⟩
abbrev main_v1641 : Ref sig .tc := ⟨.hbm, 1798, rfl⟩
abbrev main_v1642 : Ref sig .tc := ⟨.hbm, 1799, rfl⟩
abbrev main_v1643 : Ref sig .tc := ⟨.hbm, 1800, rfl⟩
abbrev main_v1644 : Ref sig .tc := ⟨.hbm, 1801, rfl⟩
abbrev main_v1645 : Ref sig .tc := ⟨.hbm, 1802, rfl⟩
abbrev main_v1646 : Ref sig .tc := ⟨.hbm, 1803, rfl⟩
abbrev main_v1647 : Ref sig .tc := ⟨.hbm, 1804, rfl⟩
abbrev main_v1648 : Ref sig .tc := ⟨.hbm, 1805, rfl⟩
abbrev main_v1649 : Ref sig .tc := ⟨.hbm, 1806, rfl⟩
abbrev main_v1650 : Ref sig .tc := ⟨.hbm, 1807, rfl⟩
abbrev main_v1651 : Ref sig .tc := ⟨.hbm, 1808, rfl⟩
abbrev main_v1652 : Ref sig .tc := ⟨.hbm, 1809, rfl⟩
abbrev main_cst_143 : Ref sig .tc := ⟨.hbm, 1810, rfl⟩
abbrev main_v1653 : Ref sig .tc := ⟨.hbm, 1811, rfl⟩
abbrev main_v1654 : Ref sig .tc := ⟨.hbm, 1812, rfl⟩
abbrev main_v1655 : Ref sig .tc := ⟨.hbm, 1813, rfl⟩
abbrev main_v1656 : Ref sig .tc := ⟨.hbm, 1814, rfl⟩
abbrev main_v1657 : Ref sig .tc := ⟨.hbm, 1815, rfl⟩
abbrev main_v1658 : Ref sig .tc := ⟨.hbm, 1816, rfl⟩
abbrev main_v1659 : Ref sig .tc := ⟨.hbm, 1817, rfl⟩
abbrev main_v1660 : Ref sig .tc := ⟨.hbm, 1818, rfl⟩
abbrev main_v1661 : Ref sig .tc := ⟨.hbm, 1819, rfl⟩
abbrev main_v1662 : Ref sig .tc := ⟨.hbm, 1820, rfl⟩
abbrev main_v1663 : Ref sig .tc := ⟨.hbm, 1821, rfl⟩
abbrev main_v1664 : Ref sig .tc := ⟨.hbm, 1822, rfl⟩
abbrev main_v1665 : Ref sig .tc := ⟨.hbm, 1823, rfl⟩
abbrev main_v1666 : Ref sig .tc := ⟨.hbm, 1824, rfl⟩
abbrev main_v1667 : Ref sig .tc := ⟨.hbm, 1825, rfl⟩
abbrev main_v1668 : Ref sig .tc := ⟨.hbm, 1826, rfl⟩
abbrev main_v1669 : Ref sig .tc := ⟨.hbm, 1827, rfl⟩
abbrev main_v1670 : Ref sig .tc := ⟨.hbm, 1828, rfl⟩
abbrev main_v1671 : Ref sig .tc := ⟨.hbm, 1829, rfl⟩
abbrev main_cst_144 : Ref sig .tc := ⟨.hbm, 1830, rfl⟩
abbrev main_v1672 : Ref sig .tc := ⟨.hbm, 1831, rfl⟩
abbrev main_v1673 : Ref sig .tc := ⟨.hbm, 1832, rfl⟩
abbrev main_cst_145 : Ref sig .tc := ⟨.hbm, 1833, rfl⟩
abbrev main_v1674 : Ref sig .tc := ⟨.hbm, 1834, rfl⟩
abbrev main_v1675 : Ref sig .tc := ⟨.hbm, 1835, rfl⟩
abbrev main_v1676 : Ref sig .tc := ⟨.hbm, 1836, rfl⟩
abbrev main_v1677 : Ref sig .tc := ⟨.hbm, 1837, rfl⟩
abbrev main_v1678 : Ref sig .tc := ⟨.hbm, 1838, rfl⟩
abbrev main_v1679 : Ref sig .tc := ⟨.hbm, 1839, rfl⟩
abbrev main_v1680 : Ref sig .tc := ⟨.hbm, 1840, rfl⟩
abbrev main_v1681 : Ref sig .tc := ⟨.hbm, 1841, rfl⟩
abbrev main_v1682 : Ref sig .tc := ⟨.hbm, 1842, rfl⟩
abbrev main_v1683 : Ref sig .tc := ⟨.hbm, 1843, rfl⟩
abbrev main_v1684 : Ref sig .tc := ⟨.hbm, 1844, rfl⟩
abbrev main_v1685 : Ref sig .tc := ⟨.hbm, 1845, rfl⟩
abbrev main_v1686 : Ref sig .tc := ⟨.hbm, 1846, rfl⟩
abbrev main_v1687 : Ref sig .tc := ⟨.hbm, 1847, rfl⟩
abbrev main_v1688 : Ref sig .tc := ⟨.hbm, 1848, rfl⟩
abbrev main_v1689 : Ref sig .tc := ⟨.hbm, 1849, rfl⟩
abbrev main_cst_146 : Ref sig .tc := ⟨.hbm, 1850, rfl⟩
abbrev main_v1690 : Ref sig .tc := ⟨.hbm, 1851, rfl⟩
abbrev main_v1691 : Ref sig .tc := ⟨.hbm, 1852, rfl⟩
abbrev main_cst_147 : Ref sig .tc := ⟨.hbm, 1853, rfl⟩
abbrev main_v1692 : Ref sig .tc := ⟨.hbm, 1854, rfl⟩
abbrev main_v1693 : Ref sig .tc := ⟨.hbm, 1855, rfl⟩
abbrev main_v1694 : Ref sig .tc := ⟨.hbm, 1856, rfl⟩
abbrev main_v1695 : Ref sig .tc := ⟨.hbm, 1857, rfl⟩
abbrev main_v1696 : Ref sig .tc := ⟨.hbm, 1858, rfl⟩
abbrev main_v1697 : Ref sig .tc := ⟨.hbm, 1859, rfl⟩
abbrev main_v1698 : Ref sig .tc := ⟨.hbm, 1860, rfl⟩
abbrev main_v1699 : Ref sig .tc := ⟨.hbm, 1861, rfl⟩
abbrev main_v1700 : Ref sig .tc := ⟨.hbm, 1862, rfl⟩
abbrev main_v1701 : Ref sig .tc := ⟨.hbm, 1863, rfl⟩
abbrev main_v1702 : Ref sig .tc := ⟨.hbm, 1864, rfl⟩
abbrev main_v1703 : Ref sig .tc := ⟨.hbm, 1865, rfl⟩
abbrev main_v1704 : Ref sig .tc := ⟨.hbm, 1866, rfl⟩
abbrev main_v1705 : Ref sig .tc := ⟨.hbm, 1867, rfl⟩
abbrev main_v1706 : Ref sig .tc := ⟨.hbm, 1868, rfl⟩
abbrev main_v1707 : Ref sig .tc := ⟨.hbm, 1869, rfl⟩
abbrev main_cst_148 : Ref sig .tc := ⟨.hbm, 1870, rfl⟩
abbrev main_v1708 : Ref sig .tc := ⟨.hbm, 1871, rfl⟩
abbrev main_v1709 : Ref sig .tc := ⟨.hbm, 1872, rfl⟩
abbrev main_v1710 : Ref sig .tc := ⟨.hbm, 1873, rfl⟩
abbrev main_v1711 : Ref sig .tc := ⟨.hbm, 1874, rfl⟩
abbrev main_v1712 : Ref sig .tc := ⟨.hbm, 1875, rfl⟩
abbrev main_v1713 : Ref sig .tc := ⟨.hbm, 1876, rfl⟩
abbrev main_v1714 : Ref sig .tc := ⟨.hbm, 1877, rfl⟩
abbrev main_v1715 : Ref sig .tc := ⟨.hbm, 1878, rfl⟩
abbrev main_v1716 : Ref sig .tc := ⟨.hbm, 1879, rfl⟩
abbrev main_v1717 : Ref sig .tc := ⟨.hbm, 1880, rfl⟩
abbrev main_v1718 : Ref sig .tc := ⟨.hbm, 1881, rfl⟩
abbrev main_v1719 : Ref sig .tc := ⟨.hbm, 1882, rfl⟩
abbrev main_v1720 : Ref sig .tc := ⟨.hbm, 1883, rfl⟩
abbrev main_v1721 : Ref sig .tc := ⟨.hbm, 1884, rfl⟩
abbrev main_v1722 : Ref sig .tc := ⟨.hbm, 1885, rfl⟩
abbrev main_v1723 : Ref sig .tc := ⟨.hbm, 1886, rfl⟩
abbrev main_v1724 : Ref sig .tc := ⟨.hbm, 1887, rfl⟩
abbrev main_v1725 : Ref sig .tc := ⟨.hbm, 1888, rfl⟩
abbrev main_v1726 : Ref sig .tc := ⟨.hbm, 1889, rfl⟩
abbrev main_cst_149 : Ref sig .tc := ⟨.hbm, 1890, rfl⟩
abbrev main_v1727 : Ref sig .tc := ⟨.hbm, 1891, rfl⟩
abbrev main_v1728 : Ref sig .tc := ⟨.hbm, 1892, rfl⟩
abbrev main_cst_150 : Ref sig .tc := ⟨.hbm, 1893, rfl⟩
abbrev main_v1729 : Ref sig .tc := ⟨.hbm, 1894, rfl⟩
abbrev main_v1730 : Ref sig .tc := ⟨.hbm, 1895, rfl⟩
abbrev main_v1731 : Ref sig .tc := ⟨.hbm, 1896, rfl⟩
abbrev main_v1732 : Ref sig .tc := ⟨.hbm, 1897, rfl⟩
abbrev main_v1733 : Ref sig .tc := ⟨.hbm, 1898, rfl⟩
abbrev main_v1734 : Ref sig .tc := ⟨.hbm, 1899, rfl⟩
abbrev main_v1735 : Ref sig .tc := ⟨.hbm, 1900, rfl⟩
abbrev main_v1736 : Ref sig .tc := ⟨.hbm, 1901, rfl⟩
abbrev main_v1737 : Ref sig .tc := ⟨.hbm, 1902, rfl⟩
abbrev main_v1738 : Ref sig .tc := ⟨.hbm, 1903, rfl⟩
abbrev main_v1739 : Ref sig .tc := ⟨.hbm, 1904, rfl⟩
abbrev main_v1740 : Ref sig .tc := ⟨.hbm, 1905, rfl⟩
abbrev main_v1741 : Ref sig .tc := ⟨.hbm, 1906, rfl⟩
abbrev main_v1742 : Ref sig .tc := ⟨.hbm, 1907, rfl⟩
abbrev main_v1743 : Ref sig .tc := ⟨.hbm, 1908, rfl⟩
abbrev main_v1744 : Ref sig .tc := ⟨.hbm, 1909, rfl⟩
abbrev main_cst_151 : Ref sig .tc := ⟨.hbm, 1910, rfl⟩
abbrev main_v1745 : Ref sig .tc := ⟨.hbm, 1911, rfl⟩
abbrev main_v1746 : Ref sig .tc := ⟨.hbm, 1912, rfl⟩
abbrev main_cst_152 : Ref sig .tc := ⟨.hbm, 1913, rfl⟩
abbrev main_v1747 : Ref sig .tc := ⟨.hbm, 1914, rfl⟩
abbrev main_v1748 : Ref sig .tc := ⟨.hbm, 1915, rfl⟩
abbrev main_v1749 : Ref sig .tc := ⟨.hbm, 1916, rfl⟩
abbrev main_v1750 : Ref sig .tc := ⟨.hbm, 1917, rfl⟩
abbrev main_v1751 : Ref sig .tc := ⟨.hbm, 1918, rfl⟩
abbrev main_v1752 : Ref sig .tc := ⟨.hbm, 1919, rfl⟩
abbrev main_v1753 : Ref sig .tc := ⟨.hbm, 1920, rfl⟩
abbrev main_v1754 : Ref sig .tc := ⟨.hbm, 1921, rfl⟩
abbrev main_v1755 : Ref sig .tc := ⟨.hbm, 1922, rfl⟩
abbrev main_v1756 : Ref sig .tc := ⟨.hbm, 1923, rfl⟩
abbrev main_v1757 : Ref sig .tc := ⟨.hbm, 1924, rfl⟩
abbrev main_v1758 : Ref sig .tc := ⟨.hbm, 1925, rfl⟩
abbrev main_v1759 : Ref sig .tc := ⟨.hbm, 1926, rfl⟩
abbrev main_v1760 : Ref sig .tc := ⟨.hbm, 1927, rfl⟩
abbrev main_v1761 : Ref sig .tc := ⟨.hbm, 1928, rfl⟩
abbrev main_v1762 : Ref sig .tc := ⟨.hbm, 1929, rfl⟩
abbrev main_cst_153 : Ref sig .tc := ⟨.hbm, 1930, rfl⟩
abbrev main_v1763 : Ref sig .tc := ⟨.hbm, 1931, rfl⟩
abbrev main_v1764 : Ref sig .tc := ⟨.hbm, 1932, rfl⟩
abbrev main_v1765 : Ref sig .tc := ⟨.hbm, 1933, rfl⟩
abbrev main_v1766 : Ref sig .tc := ⟨.hbm, 1934, rfl⟩
abbrev main_v1767 : Ref sig .tc := ⟨.hbm, 1935, rfl⟩
abbrev main_v1768 : Ref sig .tc := ⟨.hbm, 1936, rfl⟩
abbrev main_v1769 : Ref sig .tc := ⟨.hbm, 1937, rfl⟩
abbrev main_v1770 : Ref sig .tc := ⟨.hbm, 1938, rfl⟩
abbrev main_v1771 : Ref sig .tc := ⟨.hbm, 1939, rfl⟩
abbrev main_v1772 : Ref sig .tc := ⟨.hbm, 1940, rfl⟩
abbrev main_v1773 : Ref sig .tc := ⟨.hbm, 1941, rfl⟩
abbrev main_v1774 : Ref sig .tc := ⟨.hbm, 1942, rfl⟩
abbrev main_v1775 : Ref sig .tc := ⟨.hbm, 1943, rfl⟩
abbrev main_v1776 : Ref sig .tc := ⟨.hbm, 1944, rfl⟩
abbrev main_v1777 : Ref sig .tc := ⟨.hbm, 1945, rfl⟩
abbrev main_v1778 : Ref sig .tc := ⟨.hbm, 1946, rfl⟩
abbrev main_v1779 : Ref sig .tc := ⟨.hbm, 1947, rfl⟩
abbrev main_v1780 : Ref sig .tc := ⟨.hbm, 1948, rfl⟩
abbrev main_v1781 : Ref sig .tc := ⟨.hbm, 1949, rfl⟩
abbrev main_cst_154 : Ref sig .tc := ⟨.hbm, 1950, rfl⟩
abbrev main_v1782 : Ref sig .tc := ⟨.hbm, 1951, rfl⟩
abbrev main_v1783 : Ref sig .tc := ⟨.hbm, 1952, rfl⟩
abbrev main_cst_155 : Ref sig .tc := ⟨.hbm, 1953, rfl⟩
abbrev main_v1784 : Ref sig .tc := ⟨.hbm, 1954, rfl⟩
abbrev main_v1785 : Ref sig .tc := ⟨.hbm, 1955, rfl⟩
abbrev main_v1786 : Ref sig .tc := ⟨.hbm, 1956, rfl⟩
abbrev main_v1787 : Ref sig .tc := ⟨.hbm, 1957, rfl⟩
abbrev main_v1788 : Ref sig .tc := ⟨.hbm, 1958, rfl⟩
abbrev main_v1789 : Ref sig .tc := ⟨.hbm, 1959, rfl⟩
abbrev main_v1790 : Ref sig .tc := ⟨.hbm, 1960, rfl⟩
abbrev main_v1791 : Ref sig .tc := ⟨.hbm, 1961, rfl⟩
abbrev main_v1792 : Ref sig .tc := ⟨.hbm, 1962, rfl⟩
abbrev main_v1793 : Ref sig .tc := ⟨.hbm, 1963, rfl⟩
abbrev main_v1794 : Ref sig .tc := ⟨.hbm, 1964, rfl⟩
abbrev main_v1795 : Ref sig .tc := ⟨.hbm, 1965, rfl⟩
abbrev main_v1796 : Ref sig .tc := ⟨.hbm, 1966, rfl⟩
abbrev main_v1797 : Ref sig .tc := ⟨.hbm, 1967, rfl⟩
abbrev main_v1798 : Ref sig .tc := ⟨.hbm, 1968, rfl⟩
abbrev main_v1799 : Ref sig .tc := ⟨.hbm, 1969, rfl⟩
abbrev main_cst_156 : Ref sig .tc := ⟨.hbm, 1970, rfl⟩
abbrev main_v1800 : Ref sig .tc := ⟨.hbm, 1971, rfl⟩
abbrev main_v1801 : Ref sig .tc := ⟨.hbm, 1972, rfl⟩
abbrev main_cst_157 : Ref sig .tc := ⟨.hbm, 1973, rfl⟩
abbrev main_v1802 : Ref sig .tc := ⟨.hbm, 1974, rfl⟩
abbrev main_v1803 : Ref sig .tc := ⟨.hbm, 1975, rfl⟩
abbrev main_v1804 : Ref sig .tc := ⟨.hbm, 1976, rfl⟩
abbrev main_v1805 : Ref sig .tc := ⟨.hbm, 1977, rfl⟩
abbrev main_v1806 : Ref sig .tc := ⟨.hbm, 1978, rfl⟩
abbrev main_v1807 : Ref sig .tc := ⟨.hbm, 1979, rfl⟩
abbrev main_v1808 : Ref sig .tc := ⟨.hbm, 1980, rfl⟩
abbrev main_v1809 : Ref sig .tc := ⟨.hbm, 1981, rfl⟩
abbrev main_v1810 : Ref sig .tc := ⟨.hbm, 1982, rfl⟩
abbrev main_v1811 : Ref sig .tc := ⟨.hbm, 1983, rfl⟩
abbrev main_v1812 : Ref sig .tc := ⟨.hbm, 1984, rfl⟩
abbrev main_v1813 : Ref sig .tc := ⟨.hbm, 1985, rfl⟩
abbrev main_v1814 : Ref sig .tc := ⟨.hbm, 1986, rfl⟩
abbrev main_v1815 : Ref sig .tc := ⟨.hbm, 1987, rfl⟩
abbrev main_v1816 : Ref sig .tc := ⟨.hbm, 1988, rfl⟩
abbrev main_v1817 : Ref sig .tc := ⟨.hbm, 1989, rfl⟩
abbrev main_cst_158 : Ref sig .tc := ⟨.hbm, 1990, rfl⟩
abbrev main_v1818 : Ref sig .tc := ⟨.hbm, 1991, rfl⟩
abbrev main_v1819 : Ref sig .tc := ⟨.hbm, 1992, rfl⟩
abbrev main_v1820 : Ref sig .tc := ⟨.hbm, 1993, rfl⟩
abbrev main_v1821 : Ref sig .tc := ⟨.hbm, 1994, rfl⟩
abbrev main_v1822 : Ref sig .tc := ⟨.hbm, 1995, rfl⟩
abbrev main_v1823 : Ref sig .tc := ⟨.hbm, 1996, rfl⟩
abbrev main_v1824 : Ref sig .tc := ⟨.hbm, 1997, rfl⟩
abbrev main_v1825 : Ref sig .tc := ⟨.hbm, 1998, rfl⟩
abbrev main_v1826 : Ref sig .tc := ⟨.hbm, 1999, rfl⟩
abbrev main_v1827 : Ref sig .tc := ⟨.hbm, 2000, rfl⟩
abbrev main_v1828 : Ref sig .tc := ⟨.hbm, 2001, rfl⟩
abbrev main_v1829 : Ref sig .tc := ⟨.hbm, 2002, rfl⟩
abbrev main_v1830 : Ref sig .tc := ⟨.hbm, 2003, rfl⟩
abbrev main_v1831 : Ref sig .tc := ⟨.hbm, 2004, rfl⟩
abbrev main_v1832 : Ref sig .tc := ⟨.hbm, 2005, rfl⟩
abbrev main_v1833 : Ref sig .tc := ⟨.hbm, 2006, rfl⟩
abbrev main_v1834 : Ref sig .tc := ⟨.hbm, 2007, rfl⟩
abbrev main_v1835 : Ref sig .tc := ⟨.hbm, 2008, rfl⟩
abbrev main_v1836 : Ref sig .tc := ⟨.hbm, 2009, rfl⟩
abbrev main_v1837 : Ref sig .tc := ⟨.hbm, 2010, rfl⟩
abbrev main_v1838 : Ref sig .tc := ⟨.hbm, 2011, rfl⟩
abbrev main_v1839 : Ref sig .tc := ⟨.hbm, 2012, rfl⟩
abbrev main_v1840 : Ref sig .tc := ⟨.hbm, 2013, rfl⟩
abbrev main_v1841 : Ref sig .tc := ⟨.hbm, 2014, rfl⟩
abbrev main_v1842 : Ref sig .tc := ⟨.hbm, 2015, rfl⟩
abbrev main_v1843 : Ref sig .tc := ⟨.hbm, 2016, rfl⟩
abbrev main_v1844 : Ref sig .tc := ⟨.hbm, 2017, rfl⟩
abbrev main_v1845 : Ref sig .tc := ⟨.hbm, 2018, rfl⟩
abbrev main_v1846 : Ref sig .tc := ⟨.hbm, 2019, rfl⟩
abbrev main_v1847 : Ref sig .tc := ⟨.hbm, 2020, rfl⟩
abbrev main_v1848 : Ref sig .tc := ⟨.hbm, 2021, rfl⟩
abbrev main_v1849 : Ref sig .tc := ⟨.hbm, 2022, rfl⟩
abbrev main_v1850 : Ref sig .tc := ⟨.hbm, 2023, rfl⟩
abbrev main_v1851 : Ref sig .tc := ⟨.hbm, 2024, rfl⟩
abbrev main_cst_159 : Ref sig .tc := ⟨.hbm, 2025, rfl⟩
abbrev main_v1852 : Ref sig .tc := ⟨.hbm, 2026, rfl⟩
abbrev main_v1853 : Ref sig .tc := ⟨.hbm, 2027, rfl⟩
abbrev main_cst_160 : Ref sig .tc := ⟨.hbm, 2028, rfl⟩
abbrev main_v1854 : Ref sig .tc := ⟨.hbm, 2029, rfl⟩
abbrev main_v1855 : Ref sig .tc := ⟨.hbm, 2030, rfl⟩
abbrev main_v1856 : Ref sig .tc := ⟨.hbm, 2031, rfl⟩
abbrev main_v1857 : Ref sig .tc := ⟨.hbm, 2032, rfl⟩
abbrev main_v1858 : Ref sig .tc := ⟨.hbm, 2033, rfl⟩
abbrev main_v1859 : Ref sig .tc := ⟨.hbm, 2034, rfl⟩
abbrev main_v1860 : Ref sig .tc := ⟨.hbm, 2035, rfl⟩
abbrev main_v1861 : Ref sig .tc := ⟨.hbm, 2036, rfl⟩
abbrev main_v1862 : Ref sig .tc := ⟨.hbm, 2037, rfl⟩
abbrev main_v1863 : Ref sig .tc := ⟨.hbm, 2038, rfl⟩
abbrev main_v1864 : Ref sig .tc := ⟨.hbm, 2039, rfl⟩
abbrev main_v1865 : Ref sig .tc := ⟨.hbm, 2040, rfl⟩
abbrev main_v1866 : Ref sig .tc := ⟨.hbm, 2041, rfl⟩
abbrev main_v1867 : Ref sig .tc := ⟨.hbm, 2042, rfl⟩
abbrev main_v1868 : Ref sig .tc := ⟨.hbm, 2043, rfl⟩
abbrev main_v1869 : Ref sig .tc := ⟨.hbm, 2044, rfl⟩
abbrev main_cst_161 : Ref sig .tc := ⟨.hbm, 2045, rfl⟩
abbrev main_v1870 : Ref sig .tc := ⟨.hbm, 2046, rfl⟩
abbrev main_v1871 : Ref sig .tc := ⟨.hbm, 2047, rfl⟩
abbrev main_cst_162 : Ref sig .tc := ⟨.hbm, 2048, rfl⟩
abbrev main_v1872 : Ref sig .tc := ⟨.hbm, 2049, rfl⟩
abbrev main_v1873 : Ref sig .tc := ⟨.hbm, 2050, rfl⟩
abbrev main_v1874 : Ref sig .tc := ⟨.hbm, 2051, rfl⟩
abbrev main_v1875 : Ref sig .tc := ⟨.hbm, 2052, rfl⟩
abbrev main_v1876 : Ref sig .tc := ⟨.hbm, 2053, rfl⟩
abbrev main_v1877 : Ref sig .tc := ⟨.hbm, 2054, rfl⟩
abbrev main_v1878 : Ref sig .tc := ⟨.hbm, 2055, rfl⟩
abbrev main_v1879 : Ref sig .tc := ⟨.hbm, 2056, rfl⟩
abbrev main_v1880 : Ref sig .tc := ⟨.hbm, 2057, rfl⟩
abbrev main_v1881 : Ref sig .tc := ⟨.hbm, 2058, rfl⟩
abbrev main_v1882 : Ref sig .tc := ⟨.hbm, 2059, rfl⟩
abbrev main_v1883 : Ref sig .tc := ⟨.hbm, 2060, rfl⟩
abbrev main_v1884 : Ref sig .tc := ⟨.hbm, 2061, rfl⟩
abbrev main_v1885 : Ref sig .tc := ⟨.hbm, 2062, rfl⟩
abbrev main_v1886 : Ref sig .tc := ⟨.hbm, 2063, rfl⟩
abbrev main_v1887 : Ref sig .tc := ⟨.hbm, 2064, rfl⟩
abbrev main_cst_163 : Ref sig .tc := ⟨.hbm, 2065, rfl⟩
abbrev main_v1888 : Ref sig .tc := ⟨.hbm, 2066, rfl⟩
abbrev main_v1889 : Ref sig .tc := ⟨.hbm, 2067, rfl⟩
abbrev main_v1890 : Ref sig .tc := ⟨.hbm, 2068, rfl⟩
abbrev main_v1891 : Ref sig .tc := ⟨.hbm, 2069, rfl⟩
abbrev main_v1892 : Ref sig .tc := ⟨.hbm, 2070, rfl⟩
abbrev main_v1893 : Ref sig .tc := ⟨.hbm, 2071, rfl⟩
abbrev main_v1894 : Ref sig .tc := ⟨.hbm, 2072, rfl⟩
abbrev main_v1895 : Ref sig .tc := ⟨.hbm, 2073, rfl⟩
abbrev main_v1896 : Ref sig .tc := ⟨.hbm, 2074, rfl⟩
abbrev main_v1897 : Ref sig .tc := ⟨.hbm, 2075, rfl⟩
abbrev main_v1898 : Ref sig .tc := ⟨.hbm, 2076, rfl⟩
abbrev main_v1899 : Ref sig .tc := ⟨.hbm, 2077, rfl⟩
abbrev main_v1900 : Ref sig .tc := ⟨.hbm, 2078, rfl⟩
abbrev main_v1901 : Ref sig .tc := ⟨.hbm, 2079, rfl⟩
abbrev main_v1902 : Ref sig .tc := ⟨.hbm, 2080, rfl⟩
abbrev main_v1903 : Ref sig .tc := ⟨.hbm, 2081, rfl⟩
abbrev main_v1904 : Ref sig .tc := ⟨.hbm, 2082, rfl⟩
abbrev main_v1905 : Ref sig .tc := ⟨.hbm, 2083, rfl⟩
abbrev main_v1906 : Ref sig .tc := ⟨.hbm, 2084, rfl⟩
abbrev main_cst_164 : Ref sig .tc := ⟨.hbm, 2085, rfl⟩
abbrev main_v1907 : Ref sig .tc := ⟨.hbm, 2086, rfl⟩
abbrev main_v1908 : Ref sig .tc := ⟨.hbm, 2087, rfl⟩
abbrev main_cst_165 : Ref sig .tc := ⟨.hbm, 2088, rfl⟩
abbrev main_v1909 : Ref sig .tc := ⟨.hbm, 2089, rfl⟩
abbrev main_v1910 : Ref sig .tc := ⟨.hbm, 2090, rfl⟩
abbrev main_v1911 : Ref sig .tc := ⟨.hbm, 2091, rfl⟩
abbrev main_v1912 : Ref sig .tc := ⟨.hbm, 2092, rfl⟩
abbrev main_v1913 : Ref sig .tc := ⟨.hbm, 2093, rfl⟩
abbrev main_v1914 : Ref sig .tc := ⟨.hbm, 2094, rfl⟩
abbrev main_v1915 : Ref sig .tc := ⟨.hbm, 2095, rfl⟩
abbrev main_v1916 : Ref sig .tc := ⟨.hbm, 2096, rfl⟩
abbrev main_v1917 : Ref sig .tc := ⟨.hbm, 2097, rfl⟩
abbrev main_v1918 : Ref sig .tc := ⟨.hbm, 2098, rfl⟩
abbrev main_v1919 : Ref sig .tc := ⟨.hbm, 2099, rfl⟩
abbrev main_v1920 : Ref sig .tc := ⟨.hbm, 2100, rfl⟩
abbrev main_v1921 : Ref sig .tc := ⟨.hbm, 2101, rfl⟩
abbrev main_v1922 : Ref sig .tc := ⟨.hbm, 2102, rfl⟩
abbrev main_v1923 : Ref sig .tc := ⟨.hbm, 2103, rfl⟩
abbrev main_v1924 : Ref sig .tc := ⟨.hbm, 2104, rfl⟩
abbrev main_cst_166 : Ref sig .tc := ⟨.hbm, 2105, rfl⟩
abbrev main_v1925 : Ref sig .tc := ⟨.hbm, 2106, rfl⟩
abbrev main_v1926 : Ref sig .tc := ⟨.hbm, 2107, rfl⟩
abbrev main_cst_167 : Ref sig .tc := ⟨.hbm, 2108, rfl⟩
abbrev main_v1927 : Ref sig .tc := ⟨.hbm, 2109, rfl⟩
abbrev main_v1928 : Ref sig .tc := ⟨.hbm, 2110, rfl⟩
abbrev main_v1929 : Ref sig .tc := ⟨.hbm, 2111, rfl⟩
abbrev main_v1930 : Ref sig .tc := ⟨.hbm, 2112, rfl⟩
abbrev main_v1931 : Ref sig .tc := ⟨.hbm, 2113, rfl⟩
abbrev main_v1932 : Ref sig .tc := ⟨.hbm, 2114, rfl⟩
abbrev main_v1933 : Ref sig .tc := ⟨.hbm, 2115, rfl⟩
abbrev main_v1934 : Ref sig .tc := ⟨.hbm, 2116, rfl⟩
abbrev main_v1935 : Ref sig .tc := ⟨.hbm, 2117, rfl⟩
abbrev main_v1936 : Ref sig .tc := ⟨.hbm, 2118, rfl⟩
abbrev main_v1937 : Ref sig .tc := ⟨.hbm, 2119, rfl⟩
abbrev main_v1938 : Ref sig .tc := ⟨.hbm, 2120, rfl⟩
abbrev main_v1939 : Ref sig .tc := ⟨.hbm, 2121, rfl⟩
abbrev main_v1940 : Ref sig .tc := ⟨.hbm, 2122, rfl⟩
abbrev main_v1941 : Ref sig .tc := ⟨.hbm, 2123, rfl⟩
abbrev main_v1942 : Ref sig .tc := ⟨.hbm, 2124, rfl⟩
abbrev main_cst_168 : Ref sig .tc := ⟨.hbm, 2125, rfl⟩
abbrev main_v1943 : Ref sig .tc := ⟨.hbm, 2126, rfl⟩
abbrev main_v1944 : Ref sig .tc := ⟨.hbm, 2127, rfl⟩
abbrev main_v1945 : Ref sig .tc := ⟨.hbm, 2128, rfl⟩
abbrev main_v1946 : Ref sig .tc := ⟨.hbm, 2129, rfl⟩
abbrev main_v1947 : Ref sig .tc := ⟨.hbm, 2130, rfl⟩
abbrev main_v1948 : Ref sig .tc := ⟨.hbm, 2131, rfl⟩
abbrev main_v1949 : Ref sig .tc := ⟨.hbm, 2132, rfl⟩
abbrev main_v1950 : Ref sig .tc := ⟨.hbm, 2133, rfl⟩
abbrev main_v1951 : Ref sig .tc := ⟨.hbm, 2134, rfl⟩
abbrev main_v1952 : Ref sig .tc := ⟨.hbm, 2135, rfl⟩
abbrev main_v1953 : Ref sig .tc := ⟨.hbm, 2136, rfl⟩
abbrev main_v1954 : Ref sig .tc := ⟨.hbm, 2137, rfl⟩
abbrev main_v1955 : Ref sig .tc := ⟨.hbm, 2138, rfl⟩
abbrev main_v1956 : Ref sig .tc := ⟨.hbm, 2139, rfl⟩
abbrev main_v1957 : Ref sig .tc := ⟨.hbm, 2140, rfl⟩
abbrev main_v1958 : Ref sig .tc := ⟨.hbm, 2141, rfl⟩
abbrev main_v1959 : Ref sig .tc := ⟨.hbm, 2142, rfl⟩
abbrev main_v1960 : Ref sig .tc := ⟨.hbm, 2143, rfl⟩
abbrev main_v1961 : Ref sig .tc := ⟨.hbm, 2144, rfl⟩
abbrev main_cst_169 : Ref sig .tc := ⟨.hbm, 2145, rfl⟩
abbrev main_v1962 : Ref sig .tc := ⟨.hbm, 2146, rfl⟩
abbrev main_v1963 : Ref sig .tc := ⟨.hbm, 2147, rfl⟩
abbrev main_cst_170 : Ref sig .tc := ⟨.hbm, 2148, rfl⟩
abbrev main_v1964 : Ref sig .tc := ⟨.hbm, 2149, rfl⟩
abbrev main_v1965 : Ref sig .tc := ⟨.hbm, 2150, rfl⟩
abbrev main_v1966 : Ref sig .tc := ⟨.hbm, 2151, rfl⟩
abbrev main_v1967 : Ref sig .tc := ⟨.hbm, 2152, rfl⟩
abbrev main_v1968 : Ref sig .tc := ⟨.hbm, 2153, rfl⟩
abbrev main_v1969 : Ref sig .tc := ⟨.hbm, 2154, rfl⟩
abbrev main_v1970 : Ref sig .tc := ⟨.hbm, 2155, rfl⟩
abbrev main_v1971 : Ref sig .tc := ⟨.hbm, 2156, rfl⟩
abbrev main_v1972 : Ref sig .tc := ⟨.hbm, 2157, rfl⟩
abbrev main_v1973 : Ref sig .tc := ⟨.hbm, 2158, rfl⟩
abbrev main_v1974 : Ref sig .tc := ⟨.hbm, 2159, rfl⟩
abbrev main_v1975 : Ref sig .tc := ⟨.hbm, 2160, rfl⟩
abbrev main_v1976 : Ref sig .tc := ⟨.hbm, 2161, rfl⟩
abbrev main_v1977 : Ref sig .tc := ⟨.hbm, 2162, rfl⟩
abbrev main_v1978 : Ref sig .tc := ⟨.hbm, 2163, rfl⟩
abbrev main_v1979 : Ref sig .tc := ⟨.hbm, 2164, rfl⟩
abbrev main_cst_171 : Ref sig .tc := ⟨.hbm, 2165, rfl⟩
abbrev main_v1980 : Ref sig .tc := ⟨.hbm, 2166, rfl⟩
abbrev main_v1981 : Ref sig .tc := ⟨.hbm, 2167, rfl⟩
abbrev main_cst_172 : Ref sig .tc := ⟨.hbm, 2168, rfl⟩
abbrev main_v1982 : Ref sig .tc := ⟨.hbm, 2169, rfl⟩
abbrev main_v1983 : Ref sig .tc := ⟨.hbm, 2170, rfl⟩
abbrev main_v1984 : Ref sig .tc := ⟨.hbm, 2171, rfl⟩
abbrev main_v1985 : Ref sig .tc := ⟨.hbm, 2172, rfl⟩
abbrev main_v1986 : Ref sig .tc := ⟨.hbm, 2173, rfl⟩
abbrev main_v1987 : Ref sig .tc := ⟨.hbm, 2174, rfl⟩
abbrev main_v1988 : Ref sig .tc := ⟨.hbm, 2175, rfl⟩
abbrev main_v1989 : Ref sig .tc := ⟨.hbm, 2176, rfl⟩
abbrev main_v1990 : Ref sig .tc := ⟨.hbm, 2177, rfl⟩
abbrev main_v1991 : Ref sig .tc := ⟨.hbm, 2178, rfl⟩
abbrev main_v1992 : Ref sig .tc := ⟨.hbm, 2179, rfl⟩
abbrev main_v1993 : Ref sig .tc := ⟨.hbm, 2180, rfl⟩
abbrev main_v1994 : Ref sig .tc := ⟨.hbm, 2181, rfl⟩
abbrev main_v1995 : Ref sig .tc := ⟨.hbm, 2182, rfl⟩
abbrev main_v1996 : Ref sig .tc := ⟨.hbm, 2183, rfl⟩
abbrev main_v1997 : Ref sig .tc := ⟨.hbm, 2184, rfl⟩
abbrev main_cst_173 : Ref sig .tc := ⟨.hbm, 2185, rfl⟩
abbrev main_v1998 : Ref sig .tc := ⟨.hbm, 2186, rfl⟩
abbrev main_v1999 : Ref sig .tc := ⟨.hbm, 2187, rfl⟩
abbrev main_v2000 : Ref sig .tc := ⟨.hbm, 2188, rfl⟩
abbrev main_v2001 : Ref sig .tc := ⟨.hbm, 2189, rfl⟩
abbrev main_v2002 : Ref sig .tc := ⟨.hbm, 2190, rfl⟩
abbrev main_v2003 : Ref sig .tc := ⟨.hbm, 2191, rfl⟩
abbrev main_v2004 : Ref sig .tc := ⟨.hbm, 2192, rfl⟩
abbrev main_v2005 : Ref sig .tc := ⟨.hbm, 2193, rfl⟩
abbrev main_v2006 : Ref sig .tc := ⟨.hbm, 2194, rfl⟩
abbrev main_v2007 : Ref sig .tc := ⟨.hbm, 2195, rfl⟩
abbrev main_v2008 : Ref sig .tc := ⟨.hbm, 2196, rfl⟩
abbrev main_v2009 : Ref sig .tc := ⟨.hbm, 2197, rfl⟩
abbrev main_v2010 : Ref sig .tc := ⟨.hbm, 2198, rfl⟩
abbrev main_v2011 : Ref sig .tc := ⟨.hbm, 2199, rfl⟩
abbrev main_v2012 : Ref sig .tc := ⟨.hbm, 2200, rfl⟩
abbrev main_v2013 : Ref sig .tc := ⟨.hbm, 2201, rfl⟩
abbrev main_v2014 : Ref sig .tc := ⟨.hbm, 2202, rfl⟩
abbrev main_v2015 : Ref sig .tc := ⟨.hbm, 2203, rfl⟩
abbrev main_v2016 : Ref sig .tc := ⟨.hbm, 2204, rfl⟩
abbrev main_cst_174 : Ref sig .tc := ⟨.hbm, 2205, rfl⟩
abbrev main_v2017 : Ref sig .tc := ⟨.hbm, 2206, rfl⟩
abbrev main_v2018 : Ref sig .tc := ⟨.hbm, 2207, rfl⟩
abbrev main_cst_175 : Ref sig .tc := ⟨.hbm, 2208, rfl⟩
abbrev main_v2019 : Ref sig .tc := ⟨.hbm, 2209, rfl⟩
abbrev main_v2020 : Ref sig .tc := ⟨.hbm, 2210, rfl⟩
abbrev main_v2021 : Ref sig .tc := ⟨.hbm, 2211, rfl⟩
abbrev main_v2022 : Ref sig .tc := ⟨.hbm, 2212, rfl⟩
abbrev main_v2023 : Ref sig .tc := ⟨.hbm, 2213, rfl⟩
abbrev main_v2024 : Ref sig .tc := ⟨.hbm, 2214, rfl⟩
abbrev main_v2025 : Ref sig .tc := ⟨.hbm, 2215, rfl⟩
abbrev main_v2026 : Ref sig .tc := ⟨.hbm, 2216, rfl⟩
abbrev main_v2027 : Ref sig .tc := ⟨.hbm, 2217, rfl⟩
abbrev main_v2028 : Ref sig .tc := ⟨.hbm, 2218, rfl⟩
abbrev main_v2029 : Ref sig .tc := ⟨.hbm, 2219, rfl⟩
abbrev main_v2030 : Ref sig .tc := ⟨.hbm, 2220, rfl⟩
abbrev main_v2031 : Ref sig .tc := ⟨.hbm, 2221, rfl⟩
abbrev main_v2032 : Ref sig .tc := ⟨.hbm, 2222, rfl⟩
abbrev main_v2033 : Ref sig .tc := ⟨.hbm, 2223, rfl⟩
abbrev main_v2034 : Ref sig .tc := ⟨.hbm, 2224, rfl⟩
abbrev main_cst_176 : Ref sig .tc := ⟨.hbm, 2225, rfl⟩
abbrev main_v2035 : Ref sig .tc := ⟨.hbm, 2226, rfl⟩
abbrev main_v2036 : Ref sig .tc := ⟨.hbm, 2227, rfl⟩
abbrev main_cst_177 : Ref sig .tc := ⟨.hbm, 2228, rfl⟩
abbrev main_v2037 : Ref sig .tc := ⟨.hbm, 2229, rfl⟩
abbrev main_v2038 : Ref sig .tc := ⟨.hbm, 2230, rfl⟩
abbrev main_v2039 : Ref sig .tc := ⟨.hbm, 2231, rfl⟩
abbrev main_v2040 : Ref sig .tc := ⟨.hbm, 2232, rfl⟩
abbrev main_v2041 : Ref sig .tc := ⟨.hbm, 2233, rfl⟩
abbrev main_v2042 : Ref sig .tc := ⟨.hbm, 2234, rfl⟩
abbrev main_v2043 : Ref sig .tc := ⟨.hbm, 2235, rfl⟩
abbrev main_v2044 : Ref sig .tc := ⟨.hbm, 2236, rfl⟩
abbrev main_v2045 : Ref sig .tc := ⟨.hbm, 2237, rfl⟩
abbrev main_v2046 : Ref sig .tc := ⟨.hbm, 2238, rfl⟩
abbrev main_v2047 : Ref sig .tc := ⟨.hbm, 2239, rfl⟩
abbrev main_v2048 : Ref sig .tc := ⟨.hbm, 2240, rfl⟩
abbrev main_v2049 : Ref sig .tc := ⟨.hbm, 2241, rfl⟩
abbrev main_v2050 : Ref sig .tc := ⟨.hbm, 2242, rfl⟩
abbrev main_v2051 : Ref sig .tc := ⟨.hbm, 2243, rfl⟩
abbrev main_v2052 : Ref sig .tc := ⟨.hbm, 2244, rfl⟩
abbrev main_cst_178 : Ref sig .tc := ⟨.hbm, 2245, rfl⟩
abbrev main_v2053 : Ref sig .tc := ⟨.hbm, 2246, rfl⟩
abbrev main_v2054 : Ref sig .tc := ⟨.hbm, 2247, rfl⟩
abbrev main_v2055 : Ref sig .tc := ⟨.hbm, 2248, rfl⟩
abbrev main_v2056 : Ref sig .tc := ⟨.hbm, 2249, rfl⟩
abbrev main_v2057 : Ref sig .tc := ⟨.hbm, 2250, rfl⟩
abbrev main_v2058 : Ref sig .tc := ⟨.hbm, 2251, rfl⟩
abbrev main_v2059 : Ref sig .tc := ⟨.hbm, 2252, rfl⟩
abbrev main_v2060 : Ref sig .tc := ⟨.hbm, 2253, rfl⟩
abbrev main_v2061 : Ref sig .tc := ⟨.hbm, 2254, rfl⟩
abbrev main_v2062 : Ref sig .tc := ⟨.hbm, 2255, rfl⟩
abbrev main_v2063 : Ref sig .tc := ⟨.hbm, 2256, rfl⟩
abbrev main_v2064 : Ref sig .tc := ⟨.hbm, 2257, rfl⟩
abbrev main_v2065 : Ref sig .tc := ⟨.hbm, 2258, rfl⟩
abbrev main_v2066 : Ref sig .tc := ⟨.hbm, 2259, rfl⟩
abbrev main_v2067 : Ref sig .tc := ⟨.hbm, 2260, rfl⟩
abbrev main_v2068 : Ref sig .tc := ⟨.hbm, 2261, rfl⟩
abbrev main_v2069 : Ref sig .tc := ⟨.hbm, 2262, rfl⟩
abbrev main_v2070 : Ref sig .tc := ⟨.hbm, 2263, rfl⟩
abbrev main_v2071 : Ref sig .tc := ⟨.hbm, 2264, rfl⟩
abbrev main_cst_179 : Ref sig .tc := ⟨.hbm, 2265, rfl⟩
abbrev main_v2072 : Ref sig .tc := ⟨.hbm, 2266, rfl⟩
abbrev main_v2073 : Ref sig .tc := ⟨.hbm, 2267, rfl⟩
abbrev main_cst_180 : Ref sig .tc := ⟨.hbm, 2268, rfl⟩
abbrev main_v2074 : Ref sig .tc := ⟨.hbm, 2269, rfl⟩
abbrev main_v2075 : Ref sig .tc := ⟨.hbm, 2270, rfl⟩
abbrev main_v2076 : Ref sig .tc := ⟨.hbm, 2271, rfl⟩
abbrev main_v2077 : Ref sig .tc := ⟨.hbm, 2272, rfl⟩
abbrev main_v2078 : Ref sig .tc := ⟨.hbm, 2273, rfl⟩
abbrev main_v2079 : Ref sig .tc := ⟨.hbm, 2274, rfl⟩
abbrev main_v2080 : Ref sig .tc := ⟨.hbm, 2275, rfl⟩
abbrev main_v2081 : Ref sig .tc := ⟨.hbm, 2276, rfl⟩
abbrev main_v2082 : Ref sig .tc := ⟨.hbm, 2277, rfl⟩
abbrev main_v2083 : Ref sig .tc := ⟨.hbm, 2278, rfl⟩
abbrev main_v2084 : Ref sig .tc := ⟨.hbm, 2279, rfl⟩
abbrev main_v2085 : Ref sig .tc := ⟨.hbm, 2280, rfl⟩
abbrev main_v2086 : Ref sig .tc := ⟨.hbm, 2281, rfl⟩
abbrev main_v2087 : Ref sig .tc := ⟨.hbm, 2282, rfl⟩
abbrev main_v2088 : Ref sig .tc := ⟨.hbm, 2283, rfl⟩
abbrev main_v2089 : Ref sig .tc := ⟨.hbm, 2284, rfl⟩
abbrev main_cst_181 : Ref sig .tc := ⟨.hbm, 2285, rfl⟩
abbrev main_v2090 : Ref sig .tc := ⟨.hbm, 2286, rfl⟩
abbrev main_v2091 : Ref sig .tc := ⟨.hbm, 2287, rfl⟩
abbrev main_cst_182 : Ref sig .tc := ⟨.hbm, 2288, rfl⟩
abbrev main_v2092 : Ref sig .tc := ⟨.hbm, 2289, rfl⟩
abbrev main_v2093 : Ref sig .tc := ⟨.hbm, 2290, rfl⟩
abbrev main_v2094 : Ref sig .tc := ⟨.hbm, 2291, rfl⟩
abbrev main_v2095 : Ref sig .tc := ⟨.hbm, 2292, rfl⟩
abbrev main_v2096 : Ref sig .tc := ⟨.hbm, 2293, rfl⟩
abbrev main_v2097 : Ref sig .tc := ⟨.hbm, 2294, rfl⟩
abbrev main_v2098 : Ref sig .tc := ⟨.hbm, 2295, rfl⟩
abbrev main_v2099 : Ref sig .tc := ⟨.hbm, 2296, rfl⟩
abbrev main_v2100 : Ref sig .tc := ⟨.hbm, 2297, rfl⟩
abbrev main_v2101 : Ref sig .tc := ⟨.hbm, 2298, rfl⟩
abbrev main_v2102 : Ref sig .tc := ⟨.hbm, 2299, rfl⟩
abbrev main_v2103 : Ref sig .tc := ⟨.hbm, 2300, rfl⟩
abbrev main_v2104 : Ref sig .tc := ⟨.hbm, 2301, rfl⟩
abbrev main_v2105 : Ref sig .tc := ⟨.hbm, 2302, rfl⟩
abbrev main_v2106 : Ref sig .tc := ⟨.hbm, 2303, rfl⟩
abbrev main_v2107 : Ref sig .tc := ⟨.hbm, 2304, rfl⟩
abbrev main_cst_183 : Ref sig .tc := ⟨.hbm, 2305, rfl⟩
abbrev main_v2108 : Ref sig .tc := ⟨.hbm, 2306, rfl⟩
abbrev main_v2109 : Ref sig .tc := ⟨.hbm, 2307, rfl⟩
abbrev main_v2110 : Ref sig .tc := ⟨.hbm, 2308, rfl⟩
abbrev main_v2111 : Ref sig .tc := ⟨.hbm, 2309, rfl⟩
abbrev main_v2112 : Ref sig .tc := ⟨.hbm, 2310, rfl⟩
abbrev main_v2113 : Ref sig .tc := ⟨.hbm, 2311, rfl⟩
abbrev main_v2114 : Ref sig .tc := ⟨.hbm, 2312, rfl⟩
abbrev main_v2115 : Ref sig .tc := ⟨.hbm, 2313, rfl⟩
abbrev main_v2116 : Ref sig .tc := ⟨.hbm, 2314, rfl⟩
abbrev main_v2117 : Ref sig .tc := ⟨.hbm, 2315, rfl⟩
abbrev main_v2118 : Ref sig .tc := ⟨.hbm, 2316, rfl⟩
abbrev main_v2119 : Ref sig .tc := ⟨.hbm, 2317, rfl⟩
abbrev main_v2120 : Ref sig .tc := ⟨.hbm, 2318, rfl⟩
abbrev main_v2121 : Ref sig .tc := ⟨.hbm, 2319, rfl⟩
abbrev main_v2122 : Ref sig .tc := ⟨.hbm, 2320, rfl⟩
abbrev main_v2123 : Ref sig .tc := ⟨.hbm, 2321, rfl⟩
abbrev main_v2124 : Ref sig .tc := ⟨.hbm, 2322, rfl⟩
abbrev main_v2125 : Ref sig .tc := ⟨.hbm, 2323, rfl⟩
abbrev main_v2126 : Ref sig .tc := ⟨.hbm, 2324, rfl⟩
abbrev main_cst_184 : Ref sig .tc := ⟨.hbm, 2325, rfl⟩
abbrev main_v2127 : Ref sig .tc := ⟨.hbm, 2326, rfl⟩
abbrev main_v2128 : Ref sig .tc := ⟨.hbm, 2327, rfl⟩
abbrev main_cst_185 : Ref sig .tc := ⟨.hbm, 2328, rfl⟩
abbrev main_v2129 : Ref sig .tc := ⟨.hbm, 2329, rfl⟩
abbrev main_v2130 : Ref sig .tc := ⟨.hbm, 2330, rfl⟩
abbrev main_v2131 : Ref sig .tc := ⟨.hbm, 2331, rfl⟩
abbrev main_v2132 : Ref sig .tc := ⟨.hbm, 2332, rfl⟩
abbrev main_v2133 : Ref sig .tc := ⟨.hbm, 2333, rfl⟩
abbrev main_v2134 : Ref sig .tc := ⟨.hbm, 2334, rfl⟩
abbrev main_v2135 : Ref sig .tc := ⟨.hbm, 2335, rfl⟩
abbrev main_v2136 : Ref sig .tc := ⟨.hbm, 2336, rfl⟩
abbrev main_v2137 : Ref sig .tc := ⟨.hbm, 2337, rfl⟩
abbrev main_v2138 : Ref sig .tc := ⟨.hbm, 2338, rfl⟩
abbrev main_v2139 : Ref sig .tc := ⟨.hbm, 2339, rfl⟩
abbrev main_v2140 : Ref sig .tc := ⟨.hbm, 2340, rfl⟩
abbrev main_v2141 : Ref sig .tc := ⟨.hbm, 2341, rfl⟩
abbrev main_v2142 : Ref sig .tc := ⟨.hbm, 2342, rfl⟩
abbrev main_v2143 : Ref sig .tc := ⟨.hbm, 2343, rfl⟩
abbrev main_v2144 : Ref sig .tc := ⟨.hbm, 2344, rfl⟩
abbrev main_cst_186 : Ref sig .tc := ⟨.hbm, 2345, rfl⟩
abbrev main_v2145 : Ref sig .tc := ⟨.hbm, 2346, rfl⟩
abbrev main_v2146 : Ref sig .tc := ⟨.hbm, 2347, rfl⟩
abbrev main_cst_187 : Ref sig .tc := ⟨.hbm, 2348, rfl⟩
abbrev main_v2147 : Ref sig .tc := ⟨.hbm, 2349, rfl⟩
abbrev main_v2148 : Ref sig .tc := ⟨.hbm, 2350, rfl⟩
abbrev main_v2149 : Ref sig .tc := ⟨.hbm, 2351, rfl⟩
abbrev main_v2150 : Ref sig .tc := ⟨.hbm, 2352, rfl⟩
abbrev main_v2151 : Ref sig .tc := ⟨.hbm, 2353, rfl⟩
abbrev main_v2152 : Ref sig .tc := ⟨.hbm, 2354, rfl⟩
abbrev main_v2153 : Ref sig .tc := ⟨.hbm, 2355, rfl⟩
abbrev main_v2154 : Ref sig .tc := ⟨.hbm, 2356, rfl⟩
abbrev main_v2155 : Ref sig .tc := ⟨.hbm, 2357, rfl⟩
abbrev main_v2156 : Ref sig .tc := ⟨.hbm, 2358, rfl⟩
abbrev main_v2157 : Ref sig .tc := ⟨.hbm, 2359, rfl⟩
abbrev main_v2158 : Ref sig .tc := ⟨.hbm, 2360, rfl⟩
abbrev main_v2159 : Ref sig .tc := ⟨.hbm, 2361, rfl⟩
abbrev main_v2160 : Ref sig .tc := ⟨.hbm, 2362, rfl⟩
abbrev main_v2161 : Ref sig .tc := ⟨.hbm, 2363, rfl⟩
abbrev main_v2162 : Ref sig .tc := ⟨.hbm, 2364, rfl⟩
abbrev main_cst_188 : Ref sig .tc := ⟨.hbm, 2365, rfl⟩
abbrev main_v2163 : Ref sig .tc := ⟨.hbm, 2366, rfl⟩
abbrev main_v2164 : Ref sig .tc := ⟨.hbm, 2367, rfl⟩
abbrev main_v2165 : Ref sig .tc := ⟨.hbm, 2368, rfl⟩
abbrev main_v2166 : Ref sig .tc := ⟨.hbm, 2369, rfl⟩
abbrev main_v2167 : Ref sig .tc := ⟨.hbm, 2370, rfl⟩
abbrev main_v2168 : Ref sig .tc := ⟨.hbm, 2371, rfl⟩
abbrev main_v2169 : Ref sig .tc := ⟨.hbm, 2372, rfl⟩
abbrev main_v2170 : Ref sig .tc := ⟨.hbm, 2373, rfl⟩
abbrev main_v2171 : Ref sig .tc := ⟨.hbm, 2374, rfl⟩
abbrev main_v2172 : Ref sig .tc := ⟨.hbm, 2375, rfl⟩
abbrev main_v2173 : Ref sig .tc := ⟨.hbm, 2376, rfl⟩
abbrev main_v2174 : Ref sig .tc := ⟨.hbm, 2377, rfl⟩
abbrev main_v2175 : Ref sig .tc := ⟨.hbm, 2378, rfl⟩
abbrev main_v2176 : Ref sig .tc := ⟨.hbm, 2379, rfl⟩
abbrev main_v2177 : Ref sig .tc := ⟨.hbm, 2380, rfl⟩
abbrev main_v2178 : Ref sig .tc := ⟨.hbm, 2381, rfl⟩
abbrev main_v2179 : Ref sig .tc := ⟨.hbm, 2382, rfl⟩
abbrev main_v2180 : Ref sig .tc := ⟨.hbm, 2383, rfl⟩
abbrev main_v2181 : Ref sig .tc := ⟨.hbm, 2384, rfl⟩
abbrev main_cst_189 : Ref sig .tc := ⟨.hbm, 2385, rfl⟩
abbrev main_v2182 : Ref sig .tc := ⟨.hbm, 2386, rfl⟩
abbrev main_v2183 : Ref sig .tc := ⟨.hbm, 2387, rfl⟩
abbrev main_cst_190 : Ref sig .tc := ⟨.hbm, 2388, rfl⟩
abbrev main_v2184 : Ref sig .tc := ⟨.hbm, 2389, rfl⟩
abbrev main_v2185 : Ref sig .tc := ⟨.hbm, 2390, rfl⟩
abbrev main_v2186 : Ref sig .tc := ⟨.hbm, 2391, rfl⟩
abbrev main_v2187 : Ref sig .tc := ⟨.hbm, 2392, rfl⟩
abbrev main_v2188 : Ref sig .tc := ⟨.hbm, 2393, rfl⟩
abbrev main_v2189 : Ref sig .tc := ⟨.hbm, 2394, rfl⟩
abbrev main_v2190 : Ref sig .tc := ⟨.hbm, 2395, rfl⟩
abbrev main_v2191 : Ref sig .tc := ⟨.hbm, 2396, rfl⟩
abbrev main_v2192 : Ref sig .tc := ⟨.hbm, 2397, rfl⟩
abbrev main_v2193 : Ref sig .tc := ⟨.hbm, 2398, rfl⟩
abbrev main_v2194 : Ref sig .tc := ⟨.hbm, 2399, rfl⟩
abbrev main_v2195 : Ref sig .tc := ⟨.hbm, 2400, rfl⟩
abbrev main_v2196 : Ref sig .tc := ⟨.hbm, 2401, rfl⟩
abbrev main_v2197 : Ref sig .tc := ⟨.hbm, 2402, rfl⟩
abbrev main_v2198 : Ref sig .tc := ⟨.hbm, 2403, rfl⟩
abbrev main_v2199 : Ref sig .tc := ⟨.hbm, 2404, rfl⟩
abbrev main_cst_191 : Ref sig .tc := ⟨.hbm, 2405, rfl⟩
abbrev main_v2200 : Ref sig .tc := ⟨.hbm, 2406, rfl⟩
abbrev main_v2201 : Ref sig .tc := ⟨.hbm, 2407, rfl⟩
abbrev main_cst_192 : Ref sig .tc := ⟨.hbm, 2408, rfl⟩
abbrev main_v2202 : Ref sig .tc := ⟨.hbm, 2409, rfl⟩
abbrev main_v2203 : Ref sig .tc := ⟨.hbm, 2410, rfl⟩
abbrev main_v2204 : Ref sig .tc := ⟨.hbm, 2411, rfl⟩
abbrev main_v2205 : Ref sig .tc := ⟨.hbm, 2412, rfl⟩
abbrev main_v2206 : Ref sig .tc := ⟨.hbm, 2413, rfl⟩
abbrev main_v2207 : Ref sig .tc := ⟨.hbm, 2414, rfl⟩
abbrev main_v2208 : Ref sig .tc := ⟨.hbm, 2415, rfl⟩
abbrev main_v2209 : Ref sig .tc := ⟨.hbm, 2416, rfl⟩
abbrev main_v2210 : Ref sig .tc := ⟨.hbm, 2417, rfl⟩
abbrev main_v2211 : Ref sig .tc := ⟨.hbm, 2418, rfl⟩
abbrev main_v2212 : Ref sig .tc := ⟨.hbm, 2419, rfl⟩
abbrev main_v2213 : Ref sig .tc := ⟨.hbm, 2420, rfl⟩
abbrev main_v2214 : Ref sig .tc := ⟨.hbm, 2421, rfl⟩
abbrev main_v2215 : Ref sig .tc := ⟨.hbm, 2422, rfl⟩
abbrev main_v2216 : Ref sig .tc := ⟨.hbm, 2423, rfl⟩
abbrev main_v2217 : Ref sig .tc := ⟨.hbm, 2424, rfl⟩
abbrev main_cst_193 : Ref sig .tc := ⟨.hbm, 2425, rfl⟩
abbrev main_v2218 : Ref sig .tc := ⟨.hbm, 2426, rfl⟩
abbrev main_v2219 : Ref sig .tc := ⟨.hbm, 2427, rfl⟩
abbrev main_v2220 : Ref sig .tc := ⟨.hbm, 2428, rfl⟩
abbrev main_v2221 : Ref sig .tc := ⟨.hbm, 2429, rfl⟩
abbrev main_v2222 : Ref sig .tc := ⟨.hbm, 2430, rfl⟩
abbrev main_v2223 : Ref sig .tc := ⟨.hbm, 2431, rfl⟩
abbrev main_v2224 : Ref sig .tc := ⟨.hbm, 2432, rfl⟩
abbrev main_v2225 : Ref sig .tc := ⟨.hbm, 2433, rfl⟩
abbrev main_v2226 : Ref sig .tc := ⟨.hbm, 2434, rfl⟩
abbrev main_v2227 : Ref sig .tc := ⟨.hbm, 2435, rfl⟩
abbrev main_v2228 : Ref sig .tc := ⟨.hbm, 2436, rfl⟩
abbrev main_v2229 : Ref sig .tc := ⟨.hbm, 2437, rfl⟩
abbrev main_v2230 : Ref sig .tc := ⟨.hbm, 2438, rfl⟩
abbrev main_v2231 : Ref sig .tc := ⟨.hbm, 2439, rfl⟩
abbrev main_v2232 : Ref sig .tc := ⟨.hbm, 2440, rfl⟩
abbrev main_v2233 : Ref sig .tc := ⟨.hbm, 2441, rfl⟩
abbrev main_v2234 : Ref sig .tc := ⟨.hbm, 2442, rfl⟩
abbrev main_v2235 : Ref sig .tc := ⟨.hbm, 2443, rfl⟩
abbrev main_v2236 : Ref sig .tc := ⟨.hbm, 2444, rfl⟩
abbrev main_cst_194 : Ref sig .tc := ⟨.hbm, 2445, rfl⟩
abbrev main_v2237 : Ref sig .tc := ⟨.hbm, 2446, rfl⟩
abbrev main_v2238 : Ref sig .tc := ⟨.hbm, 2447, rfl⟩
abbrev main_cst_195 : Ref sig .tc := ⟨.hbm, 2448, rfl⟩
abbrev main_v2239 : Ref sig .tc := ⟨.hbm, 2449, rfl⟩
abbrev main_v2240 : Ref sig .tc := ⟨.hbm, 2450, rfl⟩
abbrev main_v2241 : Ref sig .tc := ⟨.hbm, 2451, rfl⟩
abbrev main_v2242 : Ref sig .tc := ⟨.hbm, 2452, rfl⟩
abbrev main_v2243 : Ref sig .tc := ⟨.hbm, 2453, rfl⟩
abbrev main_v2244 : Ref sig .tc := ⟨.hbm, 2454, rfl⟩
abbrev main_v2245 : Ref sig .tc := ⟨.hbm, 2455, rfl⟩
abbrev main_v2246 : Ref sig .tc := ⟨.hbm, 2456, rfl⟩
abbrev main_v2247 : Ref sig .tc := ⟨.hbm, 2457, rfl⟩
abbrev main_v2248 : Ref sig .tc := ⟨.hbm, 2458, rfl⟩
abbrev main_v2249 : Ref sig .tc := ⟨.hbm, 2459, rfl⟩
abbrev main_v2250 : Ref sig .tc := ⟨.hbm, 2460, rfl⟩
abbrev main_v2251 : Ref sig .tc := ⟨.hbm, 2461, rfl⟩
abbrev main_v2252 : Ref sig .tc := ⟨.hbm, 2462, rfl⟩
abbrev main_v2253 : Ref sig .tc := ⟨.hbm, 2463, rfl⟩
abbrev main_v2254 : Ref sig .tc := ⟨.hbm, 2464, rfl⟩
abbrev main_cst_196 : Ref sig .tc := ⟨.hbm, 2465, rfl⟩
abbrev main_v2255 : Ref sig .tc := ⟨.hbm, 2466, rfl⟩
abbrev main_v2256 : Ref sig .tc := ⟨.hbm, 2467, rfl⟩
abbrev main_cst_197 : Ref sig .tc := ⟨.hbm, 2468, rfl⟩
abbrev main_v2257 : Ref sig .tc := ⟨.hbm, 2469, rfl⟩
abbrev main_v2258 : Ref sig .tc := ⟨.hbm, 2470, rfl⟩
abbrev main_v2259 : Ref sig .tc := ⟨.hbm, 2471, rfl⟩
abbrev main_v2260 : Ref sig .tc := ⟨.hbm, 2472, rfl⟩
abbrev main_v2261 : Ref sig .tc := ⟨.hbm, 2473, rfl⟩
abbrev main_v2262 : Ref sig .tc := ⟨.hbm, 2474, rfl⟩
abbrev main_v2263 : Ref sig .tc := ⟨.hbm, 2475, rfl⟩
abbrev main_v2264 : Ref sig .tc := ⟨.hbm, 2476, rfl⟩
abbrev main_v2265 : Ref sig .tc := ⟨.hbm, 2477, rfl⟩
abbrev main_v2266 : Ref sig .tc := ⟨.hbm, 2478, rfl⟩
abbrev main_v2267 : Ref sig .tc := ⟨.hbm, 2479, rfl⟩
abbrev main_v2268 : Ref sig .tc := ⟨.hbm, 2480, rfl⟩
abbrev main_v2269 : Ref sig .tc := ⟨.hbm, 2481, rfl⟩
abbrev main_v2270 : Ref sig .tc := ⟨.hbm, 2482, rfl⟩
abbrev main_v2271 : Ref sig .tc := ⟨.hbm, 2483, rfl⟩
abbrev main_v2272 : Ref sig .tc := ⟨.hbm, 2484, rfl⟩
abbrev main_cst_198 : Ref sig .tc := ⟨.hbm, 2485, rfl⟩
abbrev main_v2273 : Ref sig .tc := ⟨.hbm, 2486, rfl⟩
abbrev main_v2274 : Ref sig .tc := ⟨.hbm, 2487, rfl⟩
abbrev main_v2275 : Ref sig .tc := ⟨.hbm, 2488, rfl⟩
abbrev main_v2276 : Ref sig .tc := ⟨.hbm, 2489, rfl⟩
abbrev main_v2277 : Ref sig .tc := ⟨.hbm, 2490, rfl⟩
abbrev main_v2278 : Ref sig .tc := ⟨.hbm, 2491, rfl⟩
abbrev main_v2279 : Ref sig .tc := ⟨.hbm, 2492, rfl⟩
abbrev main_v2280 : Ref sig .tc := ⟨.hbm, 2493, rfl⟩
abbrev main_v2281 : Ref sig .tc := ⟨.hbm, 2494, rfl⟩
abbrev main_v2282 : Ref sig .tc := ⟨.hbm, 2495, rfl⟩
abbrev main_v2283 : Ref sig .tc := ⟨.hbm, 2496, rfl⟩
abbrev main_v2284 : Ref sig .tc := ⟨.hbm, 2497, rfl⟩
abbrev main_v2285 : Ref sig .tc := ⟨.hbm, 2498, rfl⟩
abbrev main_v2286 : Ref sig .tc := ⟨.hbm, 2499, rfl⟩
abbrev main_v2287 : Ref sig .tc := ⟨.hbm, 2500, rfl⟩
abbrev main_v2288 : Ref sig .tc := ⟨.hbm, 2501, rfl⟩
abbrev main_v2289 : Ref sig .tc := ⟨.hbm, 2502, rfl⟩
abbrev main_v2290 : Ref sig .tc := ⟨.hbm, 2503, rfl⟩
abbrev main_v2291 : Ref sig .tc := ⟨.hbm, 2504, rfl⟩
abbrev main_v2292 : Ref sig .tc := ⟨.hbm, 2505, rfl⟩
abbrev main_v2293 : Ref sig .tc := ⟨.hbm, 2506, rfl⟩
abbrev main_v2294 : Ref sig .tc := ⟨.hbm, 2507, rfl⟩
abbrev main_v2295 : Ref sig .tc := ⟨.hbm, 2508, rfl⟩
abbrev main_v2296 : Ref sig .tc := ⟨.hbm, 2509, rfl⟩
abbrev main_v2297 : Ref sig .tc := ⟨.hbm, 2510, rfl⟩
abbrev main_v2298 : Ref sig .tc := ⟨.hbm, 2511, rfl⟩
abbrev main_v2299 : Ref sig .tc := ⟨.hbm, 2512, rfl⟩
abbrev main_v2300 : Ref sig .tc := ⟨.hbm, 2513, rfl⟩
abbrev main_v2301 : Ref sig .tc := ⟨.hbm, 2514, rfl⟩
abbrev main_v2302 : Ref sig .tc := ⟨.hbm, 2515, rfl⟩
abbrev main_v2303 : Ref sig .tc := ⟨.hbm, 2516, rfl⟩
abbrev main_v2304 : Ref sig .tc := ⟨.hbm, 2517, rfl⟩
abbrev main_v2305 : Ref sig .tc := ⟨.hbm, 2518, rfl⟩
abbrev main_v2306 : Ref sig .tc := ⟨.hbm, 2519, rfl⟩
abbrev main_cst_199 : Ref sig .tc := ⟨.hbm, 2520, rfl⟩
abbrev main_v2307 : Ref sig .tc := ⟨.hbm, 2521, rfl⟩
abbrev main_v2308 : Ref sig .tc := ⟨.hbm, 2522, rfl⟩
abbrev main_cst_200 : Ref sig .tc := ⟨.hbm, 2523, rfl⟩
abbrev main_v2309 : Ref sig .tc := ⟨.hbm, 2524, rfl⟩
abbrev main_v2310 : Ref sig .tc := ⟨.hbm, 2525, rfl⟩
abbrev main_v2311 : Ref sig .tc := ⟨.hbm, 2526, rfl⟩
abbrev main_v2312 : Ref sig .tc := ⟨.hbm, 2527, rfl⟩
abbrev main_v2313 : Ref sig .tc := ⟨.hbm, 2528, rfl⟩
abbrev main_v2314 : Ref sig .tc := ⟨.hbm, 2529, rfl⟩
abbrev main_v2315 : Ref sig .tc := ⟨.hbm, 2530, rfl⟩
abbrev main_v2316 : Ref sig .tc := ⟨.hbm, 2531, rfl⟩
abbrev main_v2317 : Ref sig .tc := ⟨.hbm, 2532, rfl⟩
abbrev main_v2318 : Ref sig .tc := ⟨.hbm, 2533, rfl⟩
abbrev main_v2319 : Ref sig .tc := ⟨.hbm, 2534, rfl⟩
abbrev main_v2320 : Ref sig .tc := ⟨.hbm, 2535, rfl⟩
abbrev main_v2321 : Ref sig .tc := ⟨.hbm, 2536, rfl⟩
abbrev main_v2322 : Ref sig .tc := ⟨.hbm, 2537, rfl⟩
abbrev main_v2323 : Ref sig .tc := ⟨.hbm, 2538, rfl⟩
abbrev main_v2324 : Ref sig .tc := ⟨.hbm, 2539, rfl⟩
abbrev main_cst_201 : Ref sig .tc := ⟨.hbm, 2540, rfl⟩
abbrev main_v2325 : Ref sig .tc := ⟨.hbm, 2541, rfl⟩
abbrev main_v2326 : Ref sig .tc := ⟨.hbm, 2542, rfl⟩
abbrev main_cst_202 : Ref sig .tc := ⟨.hbm, 2543, rfl⟩
abbrev main_v2327 : Ref sig .tc := ⟨.hbm, 2544, rfl⟩
abbrev main_v2328 : Ref sig .tc := ⟨.hbm, 2545, rfl⟩
abbrev main_v2329 : Ref sig .tc := ⟨.hbm, 2546, rfl⟩
abbrev main_v2330 : Ref sig .tc := ⟨.hbm, 2547, rfl⟩
abbrev main_v2331 : Ref sig .tc := ⟨.hbm, 2548, rfl⟩
abbrev main_v2332 : Ref sig .tc := ⟨.hbm, 2549, rfl⟩
abbrev main_v2333 : Ref sig .tc := ⟨.hbm, 2550, rfl⟩
abbrev main_v2334 : Ref sig .tc := ⟨.hbm, 2551, rfl⟩
abbrev main_v2335 : Ref sig .tc := ⟨.hbm, 2552, rfl⟩
abbrev main_v2336 : Ref sig .tc := ⟨.hbm, 2553, rfl⟩
abbrev main_v2337 : Ref sig .tc := ⟨.hbm, 2554, rfl⟩
abbrev main_v2338 : Ref sig .tc := ⟨.hbm, 2555, rfl⟩
abbrev main_v2339 : Ref sig .tc := ⟨.hbm, 2556, rfl⟩
abbrev main_v2340 : Ref sig .tc := ⟨.hbm, 2557, rfl⟩
abbrev main_v2341 : Ref sig .tc := ⟨.hbm, 2558, rfl⟩
abbrev main_v2342 : Ref sig .tc := ⟨.hbm, 2559, rfl⟩
abbrev main_cst_203 : Ref sig .tc := ⟨.hbm, 2560, rfl⟩
abbrev main_v2343 : Ref sig .tc := ⟨.hbm, 2561, rfl⟩
abbrev main_v2344 : Ref sig .tc := ⟨.hbm, 2562, rfl⟩
abbrev main_v2345 : Ref sig .tc := ⟨.hbm, 2563, rfl⟩
abbrev main_v2346 : Ref sig .tc := ⟨.hbm, 2564, rfl⟩
abbrev main_v2347 : Ref sig .tc := ⟨.hbm, 2565, rfl⟩
abbrev main_v2348 : Ref sig .tc := ⟨.hbm, 2566, rfl⟩
abbrev main_v2349 : Ref sig .tc := ⟨.hbm, 2567, rfl⟩
abbrev main_v2350 : Ref sig .tc := ⟨.hbm, 2568, rfl⟩
abbrev main_v2351 : Ref sig .tc := ⟨.hbm, 2569, rfl⟩
abbrev main_v2352 : Ref sig .tc := ⟨.hbm, 2570, rfl⟩
abbrev main_v2353 : Ref sig .tc := ⟨.hbm, 2571, rfl⟩
abbrev main_v2354 : Ref sig .tc := ⟨.hbm, 2572, rfl⟩
abbrev main_v2355 : Ref sig .tc := ⟨.hbm, 2573, rfl⟩
abbrev main_v2356 : Ref sig .tc := ⟨.hbm, 2574, rfl⟩
abbrev main_v2357 : Ref sig .tc := ⟨.hbm, 2575, rfl⟩
abbrev main_v2358 : Ref sig .tc := ⟨.hbm, 2576, rfl⟩
abbrev main_v2359 : Ref sig .tc := ⟨.hbm, 2577, rfl⟩
abbrev main_v2360 : Ref sig .tc := ⟨.hbm, 2578, rfl⟩
abbrev main_v2361 : Ref sig .tc := ⟨.hbm, 2579, rfl⟩
abbrev main_cst_204 : Ref sig .tc := ⟨.hbm, 2580, rfl⟩
abbrev main_v2362 : Ref sig .tc := ⟨.hbm, 2581, rfl⟩
abbrev main_v2363 : Ref sig .tc := ⟨.hbm, 2582, rfl⟩
abbrev main_cst_205 : Ref sig .tc := ⟨.hbm, 2583, rfl⟩
abbrev main_v2364 : Ref sig .tc := ⟨.hbm, 2584, rfl⟩
abbrev main_v2365 : Ref sig .tc := ⟨.hbm, 2585, rfl⟩
abbrev main_v2366 : Ref sig .tc := ⟨.hbm, 2586, rfl⟩
abbrev main_v2367 : Ref sig .tc := ⟨.hbm, 2587, rfl⟩
abbrev main_v2368 : Ref sig .tc := ⟨.hbm, 2588, rfl⟩
abbrev main_v2369 : Ref sig .tc := ⟨.hbm, 2589, rfl⟩
abbrev main_v2370 : Ref sig .tc := ⟨.hbm, 2590, rfl⟩
abbrev main_v2371 : Ref sig .tc := ⟨.hbm, 2591, rfl⟩
abbrev main_v2372 : Ref sig .tc := ⟨.hbm, 2592, rfl⟩
abbrev main_v2373 : Ref sig .tc := ⟨.hbm, 2593, rfl⟩
abbrev main_v2374 : Ref sig .tc := ⟨.hbm, 2594, rfl⟩
abbrev main_v2375 : Ref sig .tc := ⟨.hbm, 2595, rfl⟩
abbrev main_v2376 : Ref sig .tc := ⟨.hbm, 2596, rfl⟩
abbrev main_v2377 : Ref sig .tc := ⟨.hbm, 2597, rfl⟩
abbrev main_v2378 : Ref sig .tc := ⟨.hbm, 2598, rfl⟩
abbrev main_v2379 : Ref sig .tc := ⟨.hbm, 2599, rfl⟩
abbrev main_cst_206 : Ref sig .tc := ⟨.hbm, 2600, rfl⟩
abbrev main_v2380 : Ref sig .tc := ⟨.hbm, 2601, rfl⟩
abbrev main_v2381 : Ref sig .tc := ⟨.hbm, 2602, rfl⟩
abbrev main_cst_207 : Ref sig .tc := ⟨.hbm, 2603, rfl⟩
abbrev main_v2382 : Ref sig .tc := ⟨.hbm, 2604, rfl⟩
abbrev main_v2383 : Ref sig .tc := ⟨.hbm, 2605, rfl⟩
abbrev main_v2384 : Ref sig .tc := ⟨.hbm, 2606, rfl⟩
abbrev main_v2385 : Ref sig .tc := ⟨.hbm, 2607, rfl⟩
abbrev main_v2386 : Ref sig .tc := ⟨.hbm, 2608, rfl⟩
abbrev main_v2387 : Ref sig .tc := ⟨.hbm, 2609, rfl⟩
abbrev main_v2388 : Ref sig .tc := ⟨.hbm, 2610, rfl⟩
abbrev main_v2389 : Ref sig .tc := ⟨.hbm, 2611, rfl⟩
abbrev main_v2390 : Ref sig .tc := ⟨.hbm, 2612, rfl⟩
abbrev main_v2391 : Ref sig .tc := ⟨.hbm, 2613, rfl⟩
abbrev main_v2392 : Ref sig .tc := ⟨.hbm, 2614, rfl⟩
abbrev main_v2393 : Ref sig .tc := ⟨.hbm, 2615, rfl⟩
abbrev main_v2394 : Ref sig .tc := ⟨.hbm, 2616, rfl⟩
abbrev main_v2395 : Ref sig .tc := ⟨.hbm, 2617, rfl⟩
abbrev main_v2396 : Ref sig .tc := ⟨.hbm, 2618, rfl⟩
abbrev main_v2397 : Ref sig .tc := ⟨.hbm, 2619, rfl⟩
abbrev main_cst_208 : Ref sig .tc := ⟨.hbm, 2620, rfl⟩
abbrev main_v2398 : Ref sig .tc := ⟨.hbm, 2621, rfl⟩
abbrev main_v2399 : Ref sig .tc := ⟨.hbm, 2622, rfl⟩
abbrev main_v2400 : Ref sig .tc := ⟨.hbm, 2623, rfl⟩
abbrev main_v2401 : Ref sig .tc := ⟨.hbm, 2624, rfl⟩
abbrev main_v2402 : Ref sig .tc := ⟨.hbm, 2625, rfl⟩
abbrev main_v2403 : Ref sig .tc := ⟨.hbm, 2626, rfl⟩
abbrev main_v2404 : Ref sig .tc := ⟨.hbm, 2627, rfl⟩
abbrev main_v2405 : Ref sig .tc := ⟨.hbm, 2628, rfl⟩
abbrev main_v2406 : Ref sig .tc := ⟨.hbm, 2629, rfl⟩
abbrev main_v2407 : Ref sig .tc := ⟨.hbm, 2630, rfl⟩
abbrev main_v2408 : Ref sig .tc := ⟨.hbm, 2631, rfl⟩
abbrev main_v2409 : Ref sig .tc := ⟨.hbm, 2632, rfl⟩
abbrev main_v2410 : Ref sig .tc := ⟨.hbm, 2633, rfl⟩
abbrev main_v2411 : Ref sig .tc := ⟨.hbm, 2634, rfl⟩
abbrev main_v2412 : Ref sig .tc := ⟨.hbm, 2635, rfl⟩
abbrev main_v2413 : Ref sig .tc := ⟨.hbm, 2636, rfl⟩
abbrev main_v2414 : Ref sig .tc := ⟨.hbm, 2637, rfl⟩
abbrev main_v2415 : Ref sig .tc := ⟨.hbm, 2638, rfl⟩
abbrev main_v2416 : Ref sig .tc := ⟨.hbm, 2639, rfl⟩
abbrev main_cst_209 : Ref sig .tc := ⟨.hbm, 2640, rfl⟩
abbrev main_v2417 : Ref sig .tc := ⟨.hbm, 2641, rfl⟩
abbrev main_v2418 : Ref sig .tc := ⟨.hbm, 2642, rfl⟩
abbrev main_cst_210 : Ref sig .tc := ⟨.hbm, 2643, rfl⟩
abbrev main_v2419 : Ref sig .tc := ⟨.hbm, 2644, rfl⟩
abbrev main_v2420 : Ref sig .tc := ⟨.hbm, 2645, rfl⟩
abbrev main_v2421 : Ref sig .tc := ⟨.hbm, 2646, rfl⟩
abbrev main_v2422 : Ref sig .tc := ⟨.hbm, 2647, rfl⟩
abbrev main_v2423 : Ref sig .tc := ⟨.hbm, 2648, rfl⟩
abbrev main_v2424 : Ref sig .tc := ⟨.hbm, 2649, rfl⟩
abbrev main_v2425 : Ref sig .tc := ⟨.hbm, 2650, rfl⟩
abbrev main_v2426 : Ref sig .tc := ⟨.hbm, 2651, rfl⟩
abbrev main_v2427 : Ref sig .tc := ⟨.hbm, 2652, rfl⟩
abbrev main_v2428 : Ref sig .tc := ⟨.hbm, 2653, rfl⟩
abbrev main_v2429 : Ref sig .tc := ⟨.hbm, 2654, rfl⟩
abbrev main_v2430 : Ref sig .tc := ⟨.hbm, 2655, rfl⟩
abbrev main_v2431 : Ref sig .tc := ⟨.hbm, 2656, rfl⟩
abbrev main_v2432 : Ref sig .tc := ⟨.hbm, 2657, rfl⟩
abbrev main_v2433 : Ref sig .tc := ⟨.hbm, 2658, rfl⟩
abbrev main_v2434 : Ref sig .tc := ⟨.hbm, 2659, rfl⟩
abbrev main_cst_211 : Ref sig .tc := ⟨.hbm, 2660, rfl⟩
abbrev main_v2435 : Ref sig .tc := ⟨.hbm, 2661, rfl⟩
abbrev main_v2436 : Ref sig .tc := ⟨.hbm, 2662, rfl⟩
abbrev main_cst_212 : Ref sig .tc := ⟨.hbm, 2663, rfl⟩
abbrev main_v2437 : Ref sig .tc := ⟨.hbm, 2664, rfl⟩
abbrev main_v2438 : Ref sig .tc := ⟨.hbm, 2665, rfl⟩
abbrev main_v2439 : Ref sig .tc := ⟨.hbm, 2666, rfl⟩
abbrev main_v2440 : Ref sig .tc := ⟨.hbm, 2667, rfl⟩
abbrev main_v2441 : Ref sig .tc := ⟨.hbm, 2668, rfl⟩
abbrev main_v2442 : Ref sig .tc := ⟨.hbm, 2669, rfl⟩
abbrev main_v2443 : Ref sig .tc := ⟨.hbm, 2670, rfl⟩
abbrev main_v2444 : Ref sig .tc := ⟨.hbm, 2671, rfl⟩
abbrev main_v2445 : Ref sig .tc := ⟨.hbm, 2672, rfl⟩
abbrev main_v2446 : Ref sig .tc := ⟨.hbm, 2673, rfl⟩
abbrev main_v2447 : Ref sig .tc := ⟨.hbm, 2674, rfl⟩
abbrev main_v2448 : Ref sig .tc := ⟨.hbm, 2675, rfl⟩
abbrev main_v2449 : Ref sig .tc := ⟨.hbm, 2676, rfl⟩
abbrev main_v2450 : Ref sig .tc := ⟨.hbm, 2677, rfl⟩
abbrev main_v2451 : Ref sig .tc := ⟨.hbm, 2678, rfl⟩
abbrev main_v2452 : Ref sig .tc := ⟨.hbm, 2679, rfl⟩
abbrev main_cst_213 : Ref sig .tc := ⟨.hbm, 2680, rfl⟩
abbrev main_v2453 : Ref sig .tc := ⟨.hbm, 2681, rfl⟩
abbrev main_v2454 : Ref sig .tc := ⟨.hbm, 2682, rfl⟩
abbrev main_v2455 : Ref sig .tc := ⟨.hbm, 2683, rfl⟩
abbrev main_v2456 : Ref sig .tc := ⟨.hbm, 2684, rfl⟩
abbrev main_v2457 : Ref sig .tc := ⟨.hbm, 2685, rfl⟩
abbrev main_v2458 : Ref sig .tc := ⟨.hbm, 2686, rfl⟩
abbrev main_v2459 : Ref sig .tc := ⟨.hbm, 2687, rfl⟩
abbrev main_v2460 : Ref sig .tc := ⟨.hbm, 2688, rfl⟩
abbrev main_v2461 : Ref sig .tc := ⟨.hbm, 2689, rfl⟩
abbrev main_v2462 : Ref sig .tc := ⟨.hbm, 2690, rfl⟩
abbrev main_v2463 : Ref sig .tc := ⟨.hbm, 2691, rfl⟩
abbrev main_v2464 : Ref sig .tc := ⟨.hbm, 2692, rfl⟩
abbrev main_v2465 : Ref sig .tc := ⟨.hbm, 2693, rfl⟩
abbrev main_v2466 : Ref sig .tc := ⟨.hbm, 2694, rfl⟩
abbrev main_v2467 : Ref sig .tc := ⟨.hbm, 2695, rfl⟩
abbrev main_v2468 : Ref sig .tc := ⟨.hbm, 2696, rfl⟩
abbrev main_v2469 : Ref sig .tc := ⟨.hbm, 2697, rfl⟩
abbrev main_v2470 : Ref sig .tc := ⟨.hbm, 2698, rfl⟩
abbrev main_v2471 : Ref sig .tc := ⟨.hbm, 2699, rfl⟩
abbrev main_cst_214 : Ref sig .tc := ⟨.hbm, 2700, rfl⟩
abbrev main_v2472 : Ref sig .tc := ⟨.hbm, 2701, rfl⟩
abbrev main_v2473 : Ref sig .tc := ⟨.hbm, 2702, rfl⟩
abbrev main_cst_215 : Ref sig .tc := ⟨.hbm, 2703, rfl⟩
abbrev main_v2474 : Ref sig .tc := ⟨.hbm, 2704, rfl⟩
abbrev main_v2475 : Ref sig .tc := ⟨.hbm, 2705, rfl⟩
abbrev main_v2476 : Ref sig .tc := ⟨.hbm, 2706, rfl⟩
abbrev main_v2477 : Ref sig .tc := ⟨.hbm, 2707, rfl⟩
abbrev main_v2478 : Ref sig .tc := ⟨.hbm, 2708, rfl⟩
abbrev main_v2479 : Ref sig .tc := ⟨.hbm, 2709, rfl⟩
abbrev main_v2480 : Ref sig .tc := ⟨.hbm, 2710, rfl⟩
abbrev main_v2481 : Ref sig .tc := ⟨.hbm, 2711, rfl⟩
abbrev main_v2482 : Ref sig .tc := ⟨.hbm, 2712, rfl⟩
abbrev main_v2483 : Ref sig .tc := ⟨.hbm, 2713, rfl⟩
abbrev main_v2484 : Ref sig .tc := ⟨.hbm, 2714, rfl⟩
abbrev main_v2485 : Ref sig .tc := ⟨.hbm, 2715, rfl⟩
abbrev main_v2486 : Ref sig .tc := ⟨.hbm, 2716, rfl⟩
abbrev main_v2487 : Ref sig .tc := ⟨.hbm, 2717, rfl⟩
abbrev main_v2488 : Ref sig .tc := ⟨.hbm, 2718, rfl⟩
abbrev main_v2489 : Ref sig .tc := ⟨.hbm, 2719, rfl⟩
abbrev main_cst_216 : Ref sig .tc := ⟨.hbm, 2720, rfl⟩
abbrev main_v2490 : Ref sig .tc := ⟨.hbm, 2721, rfl⟩
abbrev main_v2491 : Ref sig .tc := ⟨.hbm, 2722, rfl⟩
abbrev main_cst_217 : Ref sig .tc := ⟨.hbm, 2723, rfl⟩
abbrev main_v2492 : Ref sig .tc := ⟨.hbm, 2724, rfl⟩
abbrev main_v2493 : Ref sig .tc := ⟨.hbm, 2725, rfl⟩
abbrev main_v2494 : Ref sig .tc := ⟨.hbm, 2726, rfl⟩
abbrev main_v2495 : Ref sig .tc := ⟨.hbm, 2727, rfl⟩
abbrev main_v2496 : Ref sig .tc := ⟨.hbm, 2728, rfl⟩
abbrev main_v2497 : Ref sig .tc := ⟨.hbm, 2729, rfl⟩
abbrev main_v2498 : Ref sig .tc := ⟨.hbm, 2730, rfl⟩
abbrev main_v2499 : Ref sig .tc := ⟨.hbm, 2731, rfl⟩
abbrev main_v2500 : Ref sig .tc := ⟨.hbm, 2732, rfl⟩
abbrev main_v2501 : Ref sig .tc := ⟨.hbm, 2733, rfl⟩
abbrev main_v2502 : Ref sig .tc := ⟨.hbm, 2734, rfl⟩
abbrev main_v2503 : Ref sig .tc := ⟨.hbm, 2735, rfl⟩
abbrev main_v2504 : Ref sig .tc := ⟨.hbm, 2736, rfl⟩
abbrev main_v2505 : Ref sig .tc := ⟨.hbm, 2737, rfl⟩
abbrev main_v2506 : Ref sig .tc := ⟨.hbm, 2738, rfl⟩
abbrev main_v2507 : Ref sig .tc := ⟨.hbm, 2739, rfl⟩
abbrev main_cst_218 : Ref sig .tc := ⟨.hbm, 2740, rfl⟩
abbrev main_v2508 : Ref sig .tc := ⟨.hbm, 2741, rfl⟩
abbrev main_v2509 : Ref sig .tc := ⟨.hbm, 2742, rfl⟩
abbrev main_v2510 : Ref sig .tc := ⟨.hbm, 2743, rfl⟩
abbrev main_v2511 : Ref sig .tc := ⟨.hbm, 2744, rfl⟩
abbrev main_v2512 : Ref sig .tc := ⟨.hbm, 2745, rfl⟩
abbrev main_v2513 : Ref sig .tc := ⟨.hbm, 2746, rfl⟩
abbrev main_v2514 : Ref sig .tc := ⟨.hbm, 2747, rfl⟩
abbrev main_v2515 : Ref sig .tc := ⟨.hbm, 2748, rfl⟩
abbrev main_v2516 : Ref sig .tc := ⟨.hbm, 2749, rfl⟩
abbrev main_v2517 : Ref sig .tc := ⟨.hbm, 2750, rfl⟩
abbrev main_v2518 : Ref sig .tc := ⟨.hbm, 2751, rfl⟩
abbrev main_v2519 : Ref sig .tc := ⟨.hbm, 2752, rfl⟩
abbrev main_v2520 : Ref sig .tc := ⟨.hbm, 2753, rfl⟩
abbrev main_v2521 : Ref sig .tc := ⟨.hbm, 2754, rfl⟩
abbrev main_v2522 : Ref sig .tc := ⟨.hbm, 2755, rfl⟩
abbrev main_v2523 : Ref sig .tc := ⟨.hbm, 2756, rfl⟩
abbrev main_v2524 : Ref sig .tc := ⟨.hbm, 2757, rfl⟩
abbrev main_v2525 : Ref sig .tc := ⟨.hbm, 2758, rfl⟩
abbrev main_v2526 : Ref sig .tc := ⟨.hbm, 2759, rfl⟩
abbrev main_cst_219 : Ref sig .tc := ⟨.hbm, 2760, rfl⟩
abbrev main_v2527 : Ref sig .tc := ⟨.hbm, 2761, rfl⟩
abbrev main_v2528 : Ref sig .tc := ⟨.hbm, 2762, rfl⟩
abbrev main_cst_220 : Ref sig .tc := ⟨.hbm, 2763, rfl⟩
abbrev main_v2529 : Ref sig .tc := ⟨.hbm, 2764, rfl⟩
abbrev main_v2530 : Ref sig .tc := ⟨.hbm, 2765, rfl⟩
abbrev main_v2531 : Ref sig .tc := ⟨.hbm, 2766, rfl⟩
abbrev main_v2532 : Ref sig .tc := ⟨.hbm, 2767, rfl⟩
abbrev main_v2533 : Ref sig .tc := ⟨.hbm, 2768, rfl⟩
abbrev main_v2534 : Ref sig .tc := ⟨.hbm, 2769, rfl⟩
abbrev main_v2535 : Ref sig .tc := ⟨.hbm, 2770, rfl⟩
abbrev main_v2536 : Ref sig .tc := ⟨.hbm, 2771, rfl⟩
abbrev main_v2537 : Ref sig .tc := ⟨.hbm, 2772, rfl⟩
abbrev main_v2538 : Ref sig .tc := ⟨.hbm, 2773, rfl⟩
abbrev main_v2539 : Ref sig .tc := ⟨.hbm, 2774, rfl⟩
abbrev main_v2540 : Ref sig .tc := ⟨.hbm, 2775, rfl⟩
abbrev main_v2541 : Ref sig .tc := ⟨.hbm, 2776, rfl⟩
abbrev main_v2542 : Ref sig .tc := ⟨.hbm, 2777, rfl⟩
abbrev main_v2543 : Ref sig .tc := ⟨.hbm, 2778, rfl⟩
abbrev main_v2544 : Ref sig .tc := ⟨.hbm, 2779, rfl⟩
abbrev main_cst_221 : Ref sig .tc := ⟨.hbm, 2780, rfl⟩
abbrev main_v2545 : Ref sig .tc := ⟨.hbm, 2781, rfl⟩
abbrev main_v2546 : Ref sig .tc := ⟨.hbm, 2782, rfl⟩
abbrev main_cst_222 : Ref sig .tc := ⟨.hbm, 2783, rfl⟩
abbrev main_v2547 : Ref sig .tc := ⟨.hbm, 2784, rfl⟩
abbrev main_v2548 : Ref sig .tc := ⟨.hbm, 2785, rfl⟩
abbrev main_v2549 : Ref sig .tc := ⟨.hbm, 2786, rfl⟩
abbrev main_v2550 : Ref sig .tc := ⟨.hbm, 2787, rfl⟩
abbrev main_v2551 : Ref sig .tc := ⟨.hbm, 2788, rfl⟩
abbrev main_v2552 : Ref sig .tc := ⟨.hbm, 2789, rfl⟩
abbrev main_v2553 : Ref sig .tc := ⟨.hbm, 2790, rfl⟩
abbrev main_v2554 : Ref sig .tc := ⟨.hbm, 2791, rfl⟩
abbrev main_v2555 : Ref sig .tc := ⟨.hbm, 2792, rfl⟩
abbrev main_v2556 : Ref sig .tc := ⟨.hbm, 2793, rfl⟩
abbrev main_v2557 : Ref sig .tc := ⟨.hbm, 2794, rfl⟩
abbrev main_v2558 : Ref sig .tc := ⟨.hbm, 2795, rfl⟩
abbrev main_v2559 : Ref sig .tc := ⟨.hbm, 2796, rfl⟩
abbrev main_v2560 : Ref sig .tc := ⟨.hbm, 2797, rfl⟩
abbrev main_v2561 : Ref sig .tc := ⟨.hbm, 2798, rfl⟩
abbrev main_v2562 : Ref sig .tc := ⟨.hbm, 2799, rfl⟩
abbrev main_cst_223 : Ref sig .tc := ⟨.hbm, 2800, rfl⟩
abbrev main_v2563 : Ref sig .tc := ⟨.hbm, 2801, rfl⟩
abbrev main_v2564 : Ref sig .tc := ⟨.hbm, 2802, rfl⟩
abbrev main_v2565 : Ref sig .tc := ⟨.hbm, 2803, rfl⟩
abbrev main_v2566 : Ref sig .tc := ⟨.hbm, 2804, rfl⟩
abbrev main_v2567 : Ref sig .tc := ⟨.hbm, 2805, rfl⟩
abbrev main_v2568 : Ref sig .tc := ⟨.hbm, 2806, rfl⟩
abbrev main_v2569 : Ref sig .tc := ⟨.hbm, 2807, rfl⟩
abbrev main_v2570 : Ref sig .tc := ⟨.hbm, 2808, rfl⟩
abbrev main_v2571 : Ref sig .tc := ⟨.hbm, 2809, rfl⟩
abbrev main_v2572 : Ref sig .tc := ⟨.hbm, 2810, rfl⟩
abbrev main_v2573 : Ref sig .tc := ⟨.hbm, 2811, rfl⟩
abbrev main_v2574 : Ref sig .tc := ⟨.hbm, 2812, rfl⟩
abbrev main_v2575 : Ref sig .tc := ⟨.hbm, 2813, rfl⟩
abbrev main_v2576 : Ref sig .tc := ⟨.hbm, 2814, rfl⟩
abbrev main_v2577 : Ref sig .tc := ⟨.hbm, 2815, rfl⟩
abbrev main_v2578 : Ref sig .tc := ⟨.hbm, 2816, rfl⟩
abbrev main_v2579 : Ref sig .tc := ⟨.hbm, 2817, rfl⟩
abbrev main_v2580 : Ref sig .tc := ⟨.hbm, 2818, rfl⟩
abbrev main_v2581 : Ref sig .tc := ⟨.hbm, 2819, rfl⟩
abbrev main_cst_224 : Ref sig .tc := ⟨.hbm, 2820, rfl⟩
abbrev main_v2582 : Ref sig .tc := ⟨.hbm, 2821, rfl⟩
abbrev main_v2583 : Ref sig .tc := ⟨.hbm, 2822, rfl⟩
abbrev main_cst_225 : Ref sig .tc := ⟨.hbm, 2823, rfl⟩
abbrev main_v2584 : Ref sig .tc := ⟨.hbm, 2824, rfl⟩
abbrev main_v2585 : Ref sig .tc := ⟨.hbm, 2825, rfl⟩
abbrev main_v2586 : Ref sig .tc := ⟨.hbm, 2826, rfl⟩
abbrev main_v2587 : Ref sig .tc := ⟨.hbm, 2827, rfl⟩
abbrev main_v2588 : Ref sig .tc := ⟨.hbm, 2828, rfl⟩
abbrev main_v2589 : Ref sig .tc := ⟨.hbm, 2829, rfl⟩
abbrev main_v2590 : Ref sig .tc := ⟨.hbm, 2830, rfl⟩
abbrev main_v2591 : Ref sig .tc := ⟨.hbm, 2831, rfl⟩
abbrev main_v2592 : Ref sig .tc := ⟨.hbm, 2832, rfl⟩
abbrev main_v2593 : Ref sig .tc := ⟨.hbm, 2833, rfl⟩
abbrev main_v2594 : Ref sig .tc := ⟨.hbm, 2834, rfl⟩
abbrev main_v2595 : Ref sig .tc := ⟨.hbm, 2835, rfl⟩
abbrev main_v2596 : Ref sig .tc := ⟨.hbm, 2836, rfl⟩
abbrev main_v2597 : Ref sig .tc := ⟨.hbm, 2837, rfl⟩
abbrev main_v2598 : Ref sig .tc := ⟨.hbm, 2838, rfl⟩
abbrev main_v2599 : Ref sig .tc := ⟨.hbm, 2839, rfl⟩
abbrev main_cst_226 : Ref sig .tc := ⟨.hbm, 2840, rfl⟩
abbrev main_v2600 : Ref sig .tc := ⟨.hbm, 2841, rfl⟩
abbrev main_v2601 : Ref sig .tc := ⟨.hbm, 2842, rfl⟩
abbrev main_cst_227 : Ref sig .tc := ⟨.hbm, 2843, rfl⟩
abbrev main_v2602 : Ref sig .tc := ⟨.hbm, 2844, rfl⟩
abbrev main_v2603 : Ref sig .tc := ⟨.hbm, 2845, rfl⟩
abbrev main_v2604 : Ref sig .tc := ⟨.hbm, 2846, rfl⟩
abbrev main_v2605 : Ref sig .tc := ⟨.hbm, 2847, rfl⟩
abbrev main_v2606 : Ref sig .tc := ⟨.hbm, 2848, rfl⟩
abbrev main_v2607 : Ref sig .tc := ⟨.hbm, 2849, rfl⟩
abbrev main_v2608 : Ref sig .tc := ⟨.hbm, 2850, rfl⟩
abbrev main_v2609 : Ref sig .tc := ⟨.hbm, 2851, rfl⟩
abbrev main_v2610 : Ref sig .tc := ⟨.hbm, 2852, rfl⟩
abbrev main_v2611 : Ref sig .tc := ⟨.hbm, 2853, rfl⟩
abbrev main_v2612 : Ref sig .tc := ⟨.hbm, 2854, rfl⟩
abbrev main_v2613 : Ref sig .tc := ⟨.hbm, 2855, rfl⟩
abbrev main_v2614 : Ref sig .tc := ⟨.hbm, 2856, rfl⟩
abbrev main_v2615 : Ref sig .tc := ⟨.hbm, 2857, rfl⟩
abbrev main_v2616 : Ref sig .tc := ⟨.hbm, 2858, rfl⟩
abbrev main_v2617 : Ref sig .tc := ⟨.hbm, 2859, rfl⟩
abbrev main_cst_228 : Ref sig .tc := ⟨.hbm, 2860, rfl⟩
abbrev main_v2618 : Ref sig .tc := ⟨.hbm, 2861, rfl⟩
abbrev main_v2619 : Ref sig .tc := ⟨.hbm, 2862, rfl⟩
abbrev main_v2620 : Ref sig .tc := ⟨.hbm, 2863, rfl⟩
abbrev main_v2621 : Ref sig .tc := ⟨.hbm, 2864, rfl⟩
abbrev main_v2622 : Ref sig .tc := ⟨.hbm, 2865, rfl⟩
abbrev main_v2623 : Ref sig .tc := ⟨.hbm, 2866, rfl⟩
abbrev main_v2624 : Ref sig .tc := ⟨.hbm, 2867, rfl⟩
abbrev main_v2625 : Ref sig .tc := ⟨.hbm, 2868, rfl⟩
abbrev main_v2626 : Ref sig .tc := ⟨.hbm, 2869, rfl⟩
abbrev main_v2627 : Ref sig .tc := ⟨.hbm, 2870, rfl⟩
abbrev main_v2628 : Ref sig .tc := ⟨.hbm, 2871, rfl⟩
abbrev main_v2629 : Ref sig .tc := ⟨.hbm, 2872, rfl⟩
abbrev main_v2630 : Ref sig .tc := ⟨.hbm, 2873, rfl⟩
abbrev main_v2631 : Ref sig .tc := ⟨.hbm, 2874, rfl⟩
abbrev main_v2632 : Ref sig .tc := ⟨.hbm, 2875, rfl⟩
abbrev main_v2633 : Ref sig .tc := ⟨.hbm, 2876, rfl⟩
abbrev main_v2634 : Ref sig .tc := ⟨.hbm, 2877, rfl⟩
abbrev main_v2635 : Ref sig .tc := ⟨.hbm, 2878, rfl⟩
abbrev main_v2636 : Ref sig .tc := ⟨.hbm, 2879, rfl⟩
abbrev main_cst_229 : Ref sig .tc := ⟨.hbm, 2880, rfl⟩
abbrev main_v2637 : Ref sig .tc := ⟨.hbm, 2881, rfl⟩
abbrev main_v2638 : Ref sig .tc := ⟨.hbm, 2882, rfl⟩
abbrev main_cst_230 : Ref sig .tc := ⟨.hbm, 2883, rfl⟩
abbrev main_v2639 : Ref sig .tc := ⟨.hbm, 2884, rfl⟩
abbrev main_v2640 : Ref sig .tc := ⟨.hbm, 2885, rfl⟩
abbrev main_v2641 : Ref sig .tc := ⟨.hbm, 2886, rfl⟩
abbrev main_v2642 : Ref sig .tc := ⟨.hbm, 2887, rfl⟩
abbrev main_v2643 : Ref sig .tc := ⟨.hbm, 2888, rfl⟩
abbrev main_v2644 : Ref sig .tc := ⟨.hbm, 2889, rfl⟩
abbrev main_v2645 : Ref sig .tc := ⟨.hbm, 2890, rfl⟩
abbrev main_v2646 : Ref sig .tc := ⟨.hbm, 2891, rfl⟩
abbrev main_v2647 : Ref sig .tc := ⟨.hbm, 2892, rfl⟩
abbrev main_v2648 : Ref sig .tc := ⟨.hbm, 2893, rfl⟩
abbrev main_v2649 : Ref sig .tc := ⟨.hbm, 2894, rfl⟩
abbrev main_v2650 : Ref sig .tc := ⟨.hbm, 2895, rfl⟩
abbrev main_v2651 : Ref sig .tc := ⟨.hbm, 2896, rfl⟩
abbrev main_v2652 : Ref sig .tc := ⟨.hbm, 2897, rfl⟩
abbrev main_v2653 : Ref sig .tc := ⟨.hbm, 2898, rfl⟩
abbrev main_v2654 : Ref sig .tc := ⟨.hbm, 2899, rfl⟩
abbrev main_cst_231 : Ref sig .tc := ⟨.hbm, 2900, rfl⟩
abbrev main_v2655 : Ref sig .tc := ⟨.hbm, 2901, rfl⟩
abbrev main_v2656 : Ref sig .tc := ⟨.hbm, 2902, rfl⟩
abbrev main_cst_232 : Ref sig .tc := ⟨.hbm, 2903, rfl⟩
abbrev main_v2657 : Ref sig .tc := ⟨.hbm, 2904, rfl⟩
abbrev main_v2658 : Ref sig .tc := ⟨.hbm, 2905, rfl⟩
abbrev main_v2659 : Ref sig .tc := ⟨.hbm, 2906, rfl⟩
abbrev main_v2660 : Ref sig .tc := ⟨.hbm, 2907, rfl⟩
abbrev main_v2661 : Ref sig .tc := ⟨.hbm, 2908, rfl⟩
abbrev main_v2662 : Ref sig .tc := ⟨.hbm, 2909, rfl⟩
abbrev main_v2663 : Ref sig .tc := ⟨.hbm, 2910, rfl⟩
abbrev main_v2664 : Ref sig .tc := ⟨.hbm, 2911, rfl⟩
abbrev main_v2665 : Ref sig .tc := ⟨.hbm, 2912, rfl⟩
abbrev main_v2666 : Ref sig .tc := ⟨.hbm, 2913, rfl⟩
abbrev main_v2667 : Ref sig .tc := ⟨.hbm, 2914, rfl⟩
abbrev main_v2668 : Ref sig .tc := ⟨.hbm, 2915, rfl⟩
abbrev main_v2669 : Ref sig .tc := ⟨.hbm, 2916, rfl⟩
abbrev main_v2670 : Ref sig .tc := ⟨.hbm, 2917, rfl⟩
abbrev main_v2671 : Ref sig .tc := ⟨.hbm, 2918, rfl⟩
abbrev main_v2672 : Ref sig .tc := ⟨.hbm, 2919, rfl⟩
abbrev main_cst_233 : Ref sig .tc := ⟨.hbm, 2920, rfl⟩
abbrev main_v2673 : Ref sig .tc := ⟨.hbm, 2921, rfl⟩
abbrev main_v2674 : Ref sig .tc := ⟨.hbm, 2922, rfl⟩
abbrev main_v2675 : Ref sig .tc := ⟨.hbm, 2923, rfl⟩
abbrev main_v2676 : Ref sig .tc := ⟨.hbm, 2924, rfl⟩
abbrev main_v2677 : Ref sig .tc := ⟨.hbm, 2925, rfl⟩
abbrev main_v2678 : Ref sig .tc := ⟨.hbm, 2926, rfl⟩
abbrev main_v2679 : Ref sig .tc := ⟨.hbm, 2927, rfl⟩
abbrev main_v2680 : Ref sig .tc := ⟨.hbm, 2928, rfl⟩
abbrev main_v2681 : Ref sig .tc := ⟨.hbm, 2929, rfl⟩
abbrev main_v2682 : Ref sig .tc := ⟨.hbm, 2930, rfl⟩
abbrev main_v2683 : Ref sig .tc := ⟨.hbm, 2931, rfl⟩
abbrev main_v2684 : Ref sig .tc := ⟨.hbm, 2932, rfl⟩
abbrev main_v2685 : Ref sig .tc := ⟨.hbm, 2933, rfl⟩
abbrev main_v2686 : Ref sig .tc := ⟨.hbm, 2934, rfl⟩
abbrev main_v2687 : Ref sig .tc := ⟨.hbm, 2935, rfl⟩
abbrev main_v2688 : Ref sig .tc := ⟨.hbm, 2936, rfl⟩
abbrev main_v2689 : Ref sig .tc := ⟨.hbm, 2937, rfl⟩
abbrev main_v2690 : Ref sig .tc := ⟨.hbm, 2938, rfl⟩
abbrev main_v2691 : Ref sig .tc := ⟨.hbm, 2939, rfl⟩
abbrev main_cst_234 : Ref sig .tc := ⟨.hbm, 2940, rfl⟩
abbrev main_v2692 : Ref sig .tc := ⟨.hbm, 2941, rfl⟩
abbrev main_v2693 : Ref sig .tc := ⟨.hbm, 2942, rfl⟩
abbrev main_cst_235 : Ref sig .tc := ⟨.hbm, 2943, rfl⟩
abbrev main_v2694 : Ref sig .tc := ⟨.hbm, 2944, rfl⟩
abbrev main_v2695 : Ref sig .tc := ⟨.hbm, 2945, rfl⟩
abbrev main_v2696 : Ref sig .tc := ⟨.hbm, 2946, rfl⟩
abbrev main_v2697 : Ref sig .tc := ⟨.hbm, 2947, rfl⟩
abbrev main_v2698 : Ref sig .tc := ⟨.hbm, 2948, rfl⟩
abbrev main_v2699 : Ref sig .tc := ⟨.hbm, 2949, rfl⟩
abbrev main_v2700 : Ref sig .tc := ⟨.hbm, 2950, rfl⟩
abbrev main_v2701 : Ref sig .tc := ⟨.hbm, 2951, rfl⟩
abbrev main_v2702 : Ref sig .tc := ⟨.hbm, 2952, rfl⟩
abbrev main_v2703 : Ref sig .tc := ⟨.hbm, 2953, rfl⟩
abbrev main_v2704 : Ref sig .tc := ⟨.hbm, 2954, rfl⟩
abbrev main_v2705 : Ref sig .tc := ⟨.hbm, 2955, rfl⟩
abbrev main_v2706 : Ref sig .tc := ⟨.hbm, 2956, rfl⟩
abbrev main_v2707 : Ref sig .tc := ⟨.hbm, 2957, rfl⟩
abbrev main_v2708 : Ref sig .tc := ⟨.hbm, 2958, rfl⟩
abbrev main_v2709 : Ref sig .tc := ⟨.hbm, 2959, rfl⟩
abbrev main_cst_236 : Ref sig .tc := ⟨.hbm, 2960, rfl⟩
abbrev main_v2710 : Ref sig .tc := ⟨.hbm, 2961, rfl⟩
abbrev main_v2711 : Ref sig .tc := ⟨.hbm, 2962, rfl⟩
abbrev main_cst_237 : Ref sig .tc := ⟨.hbm, 2963, rfl⟩
abbrev main_v2712 : Ref sig .tc := ⟨.hbm, 2964, rfl⟩
abbrev main_v2713 : Ref sig .tc := ⟨.hbm, 2965, rfl⟩
abbrev main_v2714 : Ref sig .tc := ⟨.hbm, 2966, rfl⟩
abbrev main_v2715 : Ref sig .tc := ⟨.hbm, 2967, rfl⟩
abbrev main_v2716 : Ref sig .tc := ⟨.hbm, 2968, rfl⟩
abbrev main_v2717 : Ref sig .tc := ⟨.hbm, 2969, rfl⟩
abbrev main_v2718 : Ref sig .tc := ⟨.hbm, 2970, rfl⟩
abbrev main_v2719 : Ref sig .tc := ⟨.hbm, 2971, rfl⟩
abbrev main_v2720 : Ref sig .tc := ⟨.hbm, 2972, rfl⟩
abbrev main_v2721 : Ref sig .tc := ⟨.hbm, 2973, rfl⟩
abbrev main_v2722 : Ref sig .tc := ⟨.hbm, 2974, rfl⟩
abbrev main_v2723 : Ref sig .tc := ⟨.hbm, 2975, rfl⟩
abbrev main_v2724 : Ref sig .tc := ⟨.hbm, 2976, rfl⟩
abbrev main_v2725 : Ref sig .tc := ⟨.hbm, 2977, rfl⟩
abbrev main_v2726 : Ref sig .tc := ⟨.hbm, 2978, rfl⟩
abbrev main_v2727 : Ref sig .tc := ⟨.hbm, 2979, rfl⟩
abbrev main_cst_238 : Ref sig .tc := ⟨.hbm, 2980, rfl⟩
abbrev main_v2728 : Ref sig .tc := ⟨.hbm, 2981, rfl⟩
abbrev main_v2729 : Ref sig .tc := ⟨.hbm, 2982, rfl⟩
abbrev main_v2730 : Ref sig .tc := ⟨.hbm, 2983, rfl⟩
abbrev main_v2731 : Ref sig .tc := ⟨.hbm, 2984, rfl⟩
abbrev main_v2732 : Ref sig .tc := ⟨.hbm, 2985, rfl⟩
abbrev main_v2733 : Ref sig .tc := ⟨.hbm, 2986, rfl⟩
abbrev main_v2734 : Ref sig .tc := ⟨.hbm, 2987, rfl⟩
abbrev main_v2735 : Ref sig .tc := ⟨.hbm, 2988, rfl⟩
abbrev main_v2736 : Ref sig .tc := ⟨.hbm, 2989, rfl⟩
abbrev main_v2737 : Ref sig .tc := ⟨.hbm, 2990, rfl⟩
abbrev main_v2738 : Ref sig .tc := ⟨.hbm, 2991, rfl⟩
abbrev main_v2739 : Ref sig .tc := ⟨.hbm, 2992, rfl⟩
abbrev main_v2740 : Ref sig .tc := ⟨.hbm, 2993, rfl⟩
abbrev main_v2741 : Ref sig .tc := ⟨.hbm, 2994, rfl⟩
abbrev main_v2742 : Ref sig .tc := ⟨.hbm, 2995, rfl⟩
abbrev main_v2743 : Ref sig .tc := ⟨.hbm, 2996, rfl⟩
abbrev main_v2744 : Ref sig .tc := ⟨.hbm, 2997, rfl⟩
abbrev main_v2745 : Ref sig .tc := ⟨.hbm, 2998, rfl⟩
abbrev main_v2746 : Ref sig .tc := ⟨.hbm, 2999, rfl⟩
abbrev main_v2747 : Ref sig .tc := ⟨.hbm, 3000, rfl⟩
abbrev main_v2748 : Ref sig .tc := ⟨.hbm, 3001, rfl⟩
abbrev main_v2749 : Ref sig .tc := ⟨.hbm, 3002, rfl⟩
abbrev main_v2750 : Ref sig .tc := ⟨.hbm, 3003, rfl⟩
abbrev main_v2751 : Ref sig .tc := ⟨.hbm, 3004, rfl⟩
abbrev main_v2752 : Ref sig .tc := ⟨.hbm, 3005, rfl⟩
abbrev main_v2753 : Ref sig .tc := ⟨.hbm, 3006, rfl⟩
abbrev main_v2754 : Ref sig .tc := ⟨.hbm, 3007, rfl⟩
abbrev main_v2755 : Ref sig .tc := ⟨.hbm, 3008, rfl⟩
abbrev main_v2756 : Ref sig .tc := ⟨.hbm, 3009, rfl⟩
abbrev main_v2757 : Ref sig .tc := ⟨.hbm, 3010, rfl⟩
abbrev main_v2758 : Ref sig .tc := ⟨.hbm, 3011, rfl⟩
abbrev main_v2759 : Ref sig .tc := ⟨.hbm, 3012, rfl⟩
abbrev main_v2760 : Ref sig .tc := ⟨.hbm, 3013, rfl⟩
abbrev main_v2761 : Ref sig .tc := ⟨.hbm, 3014, rfl⟩
abbrev main_cst_239 : Ref sig .tc := ⟨.hbm, 3015, rfl⟩
abbrev main_v2762 : Ref sig .tc := ⟨.hbm, 3016, rfl⟩
abbrev main_v2763 : Ref sig .tc := ⟨.hbm, 3017, rfl⟩
abbrev main_cst_240 : Ref sig .tc := ⟨.hbm, 3018, rfl⟩
abbrev main_v2764 : Ref sig .tc := ⟨.hbm, 3019, rfl⟩
abbrev main_v2765 : Ref sig .tc := ⟨.hbm, 3020, rfl⟩
abbrev main_v2766 : Ref sig .tc := ⟨.hbm, 3021, rfl⟩
abbrev main_v2767 : Ref sig .tc := ⟨.hbm, 3022, rfl⟩
abbrev main_v2768 : Ref sig .tc := ⟨.hbm, 3023, rfl⟩
abbrev main_v2769 : Ref sig .tc := ⟨.hbm, 3024, rfl⟩
abbrev main_v2770 : Ref sig .tc := ⟨.hbm, 3025, rfl⟩
abbrev main_v2771 : Ref sig .tc := ⟨.hbm, 3026, rfl⟩
abbrev main_v2772 : Ref sig .tc := ⟨.hbm, 3027, rfl⟩
abbrev main_v2773 : Ref sig .tc := ⟨.hbm, 3028, rfl⟩
abbrev main_v2774 : Ref sig .tc := ⟨.hbm, 3029, rfl⟩
abbrev main_v2775 : Ref sig .tc := ⟨.hbm, 3030, rfl⟩
abbrev main_v2776 : Ref sig .tc := ⟨.hbm, 3031, rfl⟩
abbrev main_v2777 : Ref sig .tc := ⟨.hbm, 3032, rfl⟩
abbrev main_v2778 : Ref sig .tc := ⟨.hbm, 3033, rfl⟩
abbrev main_v2779 : Ref sig .tc := ⟨.hbm, 3034, rfl⟩
abbrev main_cst_241 : Ref sig .tc := ⟨.hbm, 3035, rfl⟩
abbrev main_v2780 : Ref sig .tc := ⟨.hbm, 3036, rfl⟩
abbrev main_v2781 : Ref sig .tc := ⟨.hbm, 3037, rfl⟩
abbrev main_cst_242 : Ref sig .tc := ⟨.hbm, 3038, rfl⟩
abbrev main_v2782 : Ref sig .tc := ⟨.hbm, 3039, rfl⟩
abbrev main_v2783 : Ref sig .tc := ⟨.hbm, 3040, rfl⟩
abbrev main_v2784 : Ref sig .tc := ⟨.hbm, 3041, rfl⟩
abbrev main_v2785 : Ref sig .tc := ⟨.hbm, 3042, rfl⟩
abbrev main_v2786 : Ref sig .tc := ⟨.hbm, 3043, rfl⟩
abbrev main_v2787 : Ref sig .tc := ⟨.hbm, 3044, rfl⟩
abbrev main_v2788 : Ref sig .tc := ⟨.hbm, 3045, rfl⟩
abbrev main_v2789 : Ref sig .tc := ⟨.hbm, 3046, rfl⟩
abbrev main_v2790 : Ref sig .tc := ⟨.hbm, 3047, rfl⟩
abbrev main_v2791 : Ref sig .tc := ⟨.hbm, 3048, rfl⟩
abbrev main_v2792 : Ref sig .tc := ⟨.hbm, 3049, rfl⟩
abbrev main_v2793 : Ref sig .tc := ⟨.hbm, 3050, rfl⟩
abbrev main_v2794 : Ref sig .tc := ⟨.hbm, 3051, rfl⟩
abbrev main_v2795 : Ref sig .tc := ⟨.hbm, 3052, rfl⟩
abbrev main_v2796 : Ref sig .tc := ⟨.hbm, 3053, rfl⟩
abbrev main_v2797 : Ref sig .tc := ⟨.hbm, 3054, rfl⟩
abbrev main_cst_243 : Ref sig .tc := ⟨.hbm, 3055, rfl⟩
abbrev main_v2798 : Ref sig .tc := ⟨.hbm, 3056, rfl⟩
abbrev main_v2799 : Ref sig .tc := ⟨.hbm, 3057, rfl⟩
abbrev main_v2800 : Ref sig .tc := ⟨.hbm, 3058, rfl⟩
abbrev main_v2801 : Ref sig .tc := ⟨.hbm, 3059, rfl⟩
abbrev main_v2802 : Ref sig .tc := ⟨.hbm, 3060, rfl⟩
abbrev main_v2803 : Ref sig .tc := ⟨.hbm, 3061, rfl⟩
abbrev main_v2804 : Ref sig .tc := ⟨.hbm, 3062, rfl⟩
abbrev main_v2805 : Ref sig .tc := ⟨.hbm, 3063, rfl⟩
abbrev main_v2806 : Ref sig .tc := ⟨.hbm, 3064, rfl⟩
abbrev main_v2807 : Ref sig .tc := ⟨.hbm, 3065, rfl⟩
abbrev main_v2808 : Ref sig .tc := ⟨.hbm, 3066, rfl⟩
abbrev main_v2809 : Ref sig .tc := ⟨.hbm, 3067, rfl⟩
abbrev main_v2810 : Ref sig .tc := ⟨.hbm, 3068, rfl⟩
abbrev main_v2811 : Ref sig .tc := ⟨.hbm, 3069, rfl⟩
abbrev main_v2812 : Ref sig .tc := ⟨.hbm, 3070, rfl⟩
abbrev main_v2813 : Ref sig .tc := ⟨.hbm, 3071, rfl⟩
abbrev main_v2814 : Ref sig .tc := ⟨.hbm, 3072, rfl⟩
abbrev main_v2815 : Ref sig .tc := ⟨.hbm, 3073, rfl⟩
abbrev main_v2816 : Ref sig .tc := ⟨.hbm, 3074, rfl⟩
abbrev main_cst_244 : Ref sig .tc := ⟨.hbm, 3075, rfl⟩
abbrev main_v2817 : Ref sig .tc := ⟨.hbm, 3076, rfl⟩
abbrev main_v2818 : Ref sig .tc := ⟨.hbm, 3077, rfl⟩
abbrev main_cst_245 : Ref sig .tc := ⟨.hbm, 3078, rfl⟩
abbrev main_v2819 : Ref sig .tc := ⟨.hbm, 3079, rfl⟩
abbrev main_v2820 : Ref sig .tc := ⟨.hbm, 3080, rfl⟩
abbrev main_v2821 : Ref sig .tc := ⟨.hbm, 3081, rfl⟩
abbrev main_v2822 : Ref sig .tc := ⟨.hbm, 3082, rfl⟩
abbrev main_v2823 : Ref sig .tc := ⟨.hbm, 3083, rfl⟩
abbrev main_v2824 : Ref sig .tc := ⟨.hbm, 3084, rfl⟩
abbrev main_v2825 : Ref sig .tc := ⟨.hbm, 3085, rfl⟩
abbrev main_v2826 : Ref sig .tc := ⟨.hbm, 3086, rfl⟩
abbrev main_v2827 : Ref sig .tc := ⟨.hbm, 3087, rfl⟩
abbrev main_v2828 : Ref sig .tc := ⟨.hbm, 3088, rfl⟩
abbrev main_v2829 : Ref sig .tc := ⟨.hbm, 3089, rfl⟩
abbrev main_v2830 : Ref sig .tc := ⟨.hbm, 3090, rfl⟩
abbrev main_v2831 : Ref sig .tc := ⟨.hbm, 3091, rfl⟩
abbrev main_v2832 : Ref sig .tc := ⟨.hbm, 3092, rfl⟩
abbrev main_v2833 : Ref sig .tc := ⟨.hbm, 3093, rfl⟩
abbrev main_v2834 : Ref sig .tc := ⟨.hbm, 3094, rfl⟩
abbrev main_cst_246 : Ref sig .tc := ⟨.hbm, 3095, rfl⟩
abbrev main_v2835 : Ref sig .tc := ⟨.hbm, 3096, rfl⟩
abbrev main_v2836 : Ref sig .tc := ⟨.hbm, 3097, rfl⟩
abbrev main_cst_247 : Ref sig .tc := ⟨.hbm, 3098, rfl⟩
abbrev main_v2837 : Ref sig .tc := ⟨.hbm, 3099, rfl⟩
abbrev main_v2838 : Ref sig .tc := ⟨.hbm, 3100, rfl⟩
abbrev main_v2839 : Ref sig .tc := ⟨.hbm, 3101, rfl⟩
abbrev main_v2840 : Ref sig .tc := ⟨.hbm, 3102, rfl⟩
abbrev main_v2841 : Ref sig .tc := ⟨.hbm, 3103, rfl⟩
abbrev main_v2842 : Ref sig .tc := ⟨.hbm, 3104, rfl⟩
abbrev main_v2843 : Ref sig .tc := ⟨.hbm, 3105, rfl⟩
abbrev main_v2844 : Ref sig .tc := ⟨.hbm, 3106, rfl⟩
abbrev main_v2845 : Ref sig .tc := ⟨.hbm, 3107, rfl⟩
abbrev main_v2846 : Ref sig .tc := ⟨.hbm, 3108, rfl⟩
abbrev main_v2847 : Ref sig .tc := ⟨.hbm, 3109, rfl⟩
abbrev main_v2848 : Ref sig .tc := ⟨.hbm, 3110, rfl⟩
abbrev main_v2849 : Ref sig .tc := ⟨.hbm, 3111, rfl⟩
abbrev main_v2850 : Ref sig .tc := ⟨.hbm, 3112, rfl⟩
abbrev main_v2851 : Ref sig .tc := ⟨.hbm, 3113, rfl⟩
abbrev main_v2852 : Ref sig .tc := ⟨.hbm, 3114, rfl⟩
abbrev main_cst_248 : Ref sig .tc := ⟨.hbm, 3115, rfl⟩
abbrev main_v2853 : Ref sig .tc := ⟨.hbm, 3116, rfl⟩
abbrev main_v2854 : Ref sig .tc := ⟨.hbm, 3117, rfl⟩
abbrev main_v2855 : Ref sig .tc := ⟨.hbm, 3118, rfl⟩
abbrev main_v2856 : Ref sig .tc := ⟨.hbm, 3119, rfl⟩
abbrev main_v2857 : Ref sig .tc := ⟨.hbm, 3120, rfl⟩
abbrev main_v2858 : Ref sig .tc := ⟨.hbm, 3121, rfl⟩
abbrev main_v2859 : Ref sig .tc := ⟨.hbm, 3122, rfl⟩
abbrev main_v2860 : Ref sig .tc := ⟨.hbm, 3123, rfl⟩
abbrev main_v2861 : Ref sig .tc := ⟨.hbm, 3124, rfl⟩
abbrev main_v2862 : Ref sig .tc := ⟨.hbm, 3125, rfl⟩
abbrev main_v2863 : Ref sig .tc := ⟨.hbm, 3126, rfl⟩
abbrev main_v2864 : Ref sig .tc := ⟨.hbm, 3127, rfl⟩
abbrev main_v2865 : Ref sig .tc := ⟨.hbm, 3128, rfl⟩
abbrev main_v2866 : Ref sig .tc := ⟨.hbm, 3129, rfl⟩
abbrev main_v2867 : Ref sig .tc := ⟨.hbm, 3130, rfl⟩
abbrev main_v2868 : Ref sig .tc := ⟨.hbm, 3131, rfl⟩
abbrev main_v2869 : Ref sig .tc := ⟨.hbm, 3132, rfl⟩
abbrev main_v2870 : Ref sig .tc := ⟨.hbm, 3133, rfl⟩
abbrev main_v2871 : Ref sig .tc := ⟨.hbm, 3134, rfl⟩
abbrev main_cst_249 : Ref sig .tc := ⟨.hbm, 3135, rfl⟩
abbrev main_v2872 : Ref sig .tc := ⟨.hbm, 3136, rfl⟩
abbrev main_v2873 : Ref sig .tc := ⟨.hbm, 3137, rfl⟩
abbrev main_cst_250 : Ref sig .tc := ⟨.hbm, 3138, rfl⟩
abbrev main_v2874 : Ref sig .tc := ⟨.hbm, 3139, rfl⟩
abbrev main_v2875 : Ref sig .tc := ⟨.hbm, 3140, rfl⟩
abbrev main_v2876 : Ref sig .tc := ⟨.hbm, 3141, rfl⟩
abbrev main_v2877 : Ref sig .tc := ⟨.hbm, 3142, rfl⟩
abbrev main_v2878 : Ref sig .tc := ⟨.hbm, 3143, rfl⟩
abbrev main_v2879 : Ref sig .tc := ⟨.hbm, 3144, rfl⟩
abbrev main_v2880 : Ref sig .tc := ⟨.hbm, 3145, rfl⟩
abbrev main_v2881 : Ref sig .tc := ⟨.hbm, 3146, rfl⟩
abbrev main_v2882 : Ref sig .tc := ⟨.hbm, 3147, rfl⟩
abbrev main_v2883 : Ref sig .tc := ⟨.hbm, 3148, rfl⟩
abbrev main_v2884 : Ref sig .tc := ⟨.hbm, 3149, rfl⟩
abbrev main_v2885 : Ref sig .tc := ⟨.hbm, 3150, rfl⟩
abbrev main_v2886 : Ref sig .tc := ⟨.hbm, 3151, rfl⟩
abbrev main_v2887 : Ref sig .tc := ⟨.hbm, 3152, rfl⟩
abbrev main_v2888 : Ref sig .tc := ⟨.hbm, 3153, rfl⟩
abbrev main_v2889 : Ref sig .tc := ⟨.hbm, 3154, rfl⟩
abbrev main_cst_251 : Ref sig .tc := ⟨.hbm, 3155, rfl⟩
abbrev main_v2890 : Ref sig .tc := ⟨.hbm, 3156, rfl⟩
abbrev main_v2891 : Ref sig .tc := ⟨.hbm, 3157, rfl⟩
abbrev main_cst_252 : Ref sig .tc := ⟨.hbm, 3158, rfl⟩
abbrev main_v2892 : Ref sig .tc := ⟨.hbm, 3159, rfl⟩
abbrev main_v2893 : Ref sig .tc := ⟨.hbm, 3160, rfl⟩
abbrev main_v2894 : Ref sig .tc := ⟨.hbm, 3161, rfl⟩
abbrev main_v2895 : Ref sig .tc := ⟨.hbm, 3162, rfl⟩
abbrev main_v2896 : Ref sig .tc := ⟨.hbm, 3163, rfl⟩
abbrev main_v2897 : Ref sig .tc := ⟨.hbm, 3164, rfl⟩
abbrev main_v2898 : Ref sig .tc := ⟨.hbm, 3165, rfl⟩
abbrev main_v2899 : Ref sig .tc := ⟨.hbm, 3166, rfl⟩
abbrev main_v2900 : Ref sig .tc := ⟨.hbm, 3167, rfl⟩
abbrev main_v2901 : Ref sig .tc := ⟨.hbm, 3168, rfl⟩
abbrev main_v2902 : Ref sig .tc := ⟨.hbm, 3169, rfl⟩
abbrev main_v2903 : Ref sig .tc := ⟨.hbm, 3170, rfl⟩
abbrev main_v2904 : Ref sig .tc := ⟨.hbm, 3171, rfl⟩
abbrev main_v2905 : Ref sig .tc := ⟨.hbm, 3172, rfl⟩
abbrev main_v2906 : Ref sig .tc := ⟨.hbm, 3173, rfl⟩
abbrev main_v2907 : Ref sig .tc := ⟨.hbm, 3174, rfl⟩
abbrev main_cst_253 : Ref sig .tc := ⟨.hbm, 3175, rfl⟩
abbrev main_v2908 : Ref sig .tc := ⟨.hbm, 3176, rfl⟩
abbrev main_v2909 : Ref sig .tc := ⟨.hbm, 3177, rfl⟩
abbrev main_v2910 : Ref sig .tc := ⟨.hbm, 3178, rfl⟩
abbrev main_v2911 : Ref sig .tc := ⟨.hbm, 3179, rfl⟩
abbrev main_v2912 : Ref sig .tc := ⟨.hbm, 3180, rfl⟩
abbrev main_v2913 : Ref sig .tc := ⟨.hbm, 3181, rfl⟩
abbrev main_v2914 : Ref sig .tc := ⟨.hbm, 3182, rfl⟩
abbrev main_v2915 : Ref sig .tc := ⟨.hbm, 3183, rfl⟩
abbrev main_v2916 : Ref sig .tc := ⟨.hbm, 3184, rfl⟩
abbrev main_v2917 : Ref sig .tc := ⟨.hbm, 3185, rfl⟩
abbrev main_v2918 : Ref sig .tc := ⟨.hbm, 3186, rfl⟩
abbrev main_v2919 : Ref sig .tc := ⟨.hbm, 3187, rfl⟩
abbrev main_v2920 : Ref sig .tc := ⟨.hbm, 3188, rfl⟩
abbrev main_v2921 : Ref sig .tc := ⟨.hbm, 3189, rfl⟩
abbrev main_v2922 : Ref sig .tc := ⟨.hbm, 3190, rfl⟩
abbrev main_v2923 : Ref sig .tc := ⟨.hbm, 3191, rfl⟩
abbrev main_v2924 : Ref sig .tc := ⟨.hbm, 3192, rfl⟩
abbrev main_v2925 : Ref sig .tc := ⟨.hbm, 3193, rfl⟩
abbrev main_v2926 : Ref sig .tc := ⟨.hbm, 3194, rfl⟩
abbrev main_cst_254 : Ref sig .tc := ⟨.hbm, 3195, rfl⟩
abbrev main_v2927 : Ref sig .tc := ⟨.hbm, 3196, rfl⟩
abbrev main_v2928 : Ref sig .tc := ⟨.hbm, 3197, rfl⟩
abbrev main_cst_255 : Ref sig .tc := ⟨.hbm, 3198, rfl⟩
abbrev main_v2929 : Ref sig .tc := ⟨.hbm, 3199, rfl⟩
abbrev main_v2930 : Ref sig .tc := ⟨.hbm, 3200, rfl⟩
abbrev main_v2931 : Ref sig .tc := ⟨.hbm, 3201, rfl⟩
abbrev main_v2932 : Ref sig .tc := ⟨.hbm, 3202, rfl⟩
abbrev main_v2933 : Ref sig .tc := ⟨.hbm, 3203, rfl⟩
abbrev main_v2934 : Ref sig .tc := ⟨.hbm, 3204, rfl⟩
abbrev main_v2935 : Ref sig .tc := ⟨.hbm, 3205, rfl⟩
abbrev main_v2936 : Ref sig .tc := ⟨.hbm, 3206, rfl⟩
abbrev main_v2937 : Ref sig .tc := ⟨.hbm, 3207, rfl⟩
abbrev main_v2938 : Ref sig .tc := ⟨.hbm, 3208, rfl⟩
abbrev main_v2939 : Ref sig .tc := ⟨.hbm, 3209, rfl⟩
abbrev main_v2940 : Ref sig .tc := ⟨.hbm, 3210, rfl⟩
abbrev main_v2941 : Ref sig .tc := ⟨.hbm, 3211, rfl⟩
abbrev main_v2942 : Ref sig .tc := ⟨.hbm, 3212, rfl⟩
abbrev main_v2943 : Ref sig .tc := ⟨.hbm, 3213, rfl⟩
abbrev main_v2944 : Ref sig .tc := ⟨.hbm, 3214, rfl⟩
abbrev main_cst_256 : Ref sig .tc := ⟨.hbm, 3215, rfl⟩
abbrev main_v2945 : Ref sig .tc := ⟨.hbm, 3216, rfl⟩
abbrev main_v2946 : Ref sig .tc := ⟨.hbm, 3217, rfl⟩
abbrev main_cst_257 : Ref sig .tc := ⟨.hbm, 3218, rfl⟩
abbrev main_v2947 : Ref sig .tc := ⟨.hbm, 3219, rfl⟩
abbrev main_v2948 : Ref sig .tc := ⟨.hbm, 3220, rfl⟩
abbrev main_v2949 : Ref sig .tc := ⟨.hbm, 3221, rfl⟩
abbrev main_v2950 : Ref sig .tc := ⟨.hbm, 3222, rfl⟩
abbrev main_v2951 : Ref sig .tc := ⟨.hbm, 3223, rfl⟩
abbrev main_v2952 : Ref sig .tc := ⟨.hbm, 3224, rfl⟩
abbrev main_v2953 : Ref sig .tc := ⟨.hbm, 3225, rfl⟩
abbrev main_v2954 : Ref sig .tc := ⟨.hbm, 3226, rfl⟩
abbrev main_v2955 : Ref sig .tc := ⟨.hbm, 3227, rfl⟩
abbrev main_v2956 : Ref sig .tc := ⟨.hbm, 3228, rfl⟩
abbrev main_v2957 : Ref sig .tc := ⟨.hbm, 3229, rfl⟩
abbrev main_v2958 : Ref sig .tc := ⟨.hbm, 3230, rfl⟩
abbrev main_v2959 : Ref sig .tc := ⟨.hbm, 3231, rfl⟩
abbrev main_v2960 : Ref sig .tc := ⟨.hbm, 3232, rfl⟩
abbrev main_v2961 : Ref sig .tc := ⟨.hbm, 3233, rfl⟩
abbrev main_v2962 : Ref sig .tc := ⟨.hbm, 3234, rfl⟩
abbrev main_cst_258 : Ref sig .tc := ⟨.hbm, 3235, rfl⟩
abbrev main_v2963 : Ref sig .tc := ⟨.hbm, 3236, rfl⟩
abbrev main_v2964 : Ref sig .tc := ⟨.hbm, 3237, rfl⟩
abbrev main_v2965 : Ref sig .tc := ⟨.hbm, 3238, rfl⟩
abbrev main_v2966 : Ref sig .tc := ⟨.hbm, 3239, rfl⟩
abbrev main_v2967 : Ref sig .tc := ⟨.hbm, 3240, rfl⟩
abbrev main_v2968 : Ref sig .tc := ⟨.hbm, 3241, rfl⟩
abbrev main_v2969 : Ref sig .tc := ⟨.hbm, 3242, rfl⟩
abbrev main_v2970 : Ref sig .tc := ⟨.hbm, 3243, rfl⟩
abbrev main_v2971 : Ref sig .tc := ⟨.hbm, 3244, rfl⟩
abbrev main_v2972 : Ref sig .tc := ⟨.hbm, 3245, rfl⟩
abbrev main_v2973 : Ref sig .tc := ⟨.hbm, 3246, rfl⟩
abbrev main_v2974 : Ref sig .tc := ⟨.hbm, 3247, rfl⟩
abbrev main_v2975 : Ref sig .tc := ⟨.hbm, 3248, rfl⟩
abbrev main_v2976 : Ref sig .tc := ⟨.hbm, 3249, rfl⟩
abbrev main_v2977 : Ref sig .tc := ⟨.hbm, 3250, rfl⟩
abbrev main_v2978 : Ref sig .tc := ⟨.hbm, 3251, rfl⟩
abbrev main_v2979 : Ref sig .tc := ⟨.hbm, 3252, rfl⟩
abbrev main_v2980 : Ref sig .tc := ⟨.hbm, 3253, rfl⟩
abbrev main_v2981 : Ref sig .tc := ⟨.hbm, 3254, rfl⟩
abbrev main_cst_259 : Ref sig .tc := ⟨.hbm, 3255, rfl⟩
abbrev main_v2982 : Ref sig .tc := ⟨.hbm, 3256, rfl⟩
abbrev main_v2983 : Ref sig .tc := ⟨.hbm, 3257, rfl⟩
abbrev main_cst_260 : Ref sig .tc := ⟨.hbm, 3258, rfl⟩
abbrev main_v2984 : Ref sig .tc := ⟨.hbm, 3259, rfl⟩
abbrev main_v2985 : Ref sig .tc := ⟨.hbm, 3260, rfl⟩
abbrev main_v2986 : Ref sig .tc := ⟨.hbm, 3261, rfl⟩
abbrev main_v2987 : Ref sig .tc := ⟨.hbm, 3262, rfl⟩
abbrev main_v2988 : Ref sig .tc := ⟨.hbm, 3263, rfl⟩
abbrev main_v2989 : Ref sig .tc := ⟨.hbm, 3264, rfl⟩
abbrev main_v2990 : Ref sig .tc := ⟨.hbm, 3265, rfl⟩
abbrev main_v2991 : Ref sig .tc := ⟨.hbm, 3266, rfl⟩
abbrev main_v2992 : Ref sig .tc := ⟨.hbm, 3267, rfl⟩
abbrev main_v2993 : Ref sig .tc := ⟨.hbm, 3268, rfl⟩
abbrev main_v2994 : Ref sig .tc := ⟨.hbm, 3269, rfl⟩
abbrev main_v2995 : Ref sig .tc := ⟨.hbm, 3270, rfl⟩
abbrev main_v2996 : Ref sig .tc := ⟨.hbm, 3271, rfl⟩
abbrev main_v2997 : Ref sig .tc := ⟨.hbm, 3272, rfl⟩
abbrev main_v2998 : Ref sig .tc := ⟨.hbm, 3273, rfl⟩
abbrev main_v2999 : Ref sig .tc := ⟨.hbm, 3274, rfl⟩
abbrev main_cst_261 : Ref sig .tc := ⟨.hbm, 3275, rfl⟩
abbrev main_v3000 : Ref sig .tc := ⟨.hbm, 3276, rfl⟩
abbrev main_v3001 : Ref sig .tc := ⟨.hbm, 3277, rfl⟩
abbrev main_cst_262 : Ref sig .tc := ⟨.hbm, 3278, rfl⟩
abbrev main_v3002 : Ref sig .tc := ⟨.hbm, 3279, rfl⟩
abbrev main_v3003 : Ref sig .tc := ⟨.hbm, 3280, rfl⟩
abbrev main_v3004 : Ref sig .tc := ⟨.hbm, 3281, rfl⟩
abbrev main_v3005 : Ref sig .tc := ⟨.hbm, 3282, rfl⟩
abbrev main_v3006 : Ref sig .tc := ⟨.hbm, 3283, rfl⟩
abbrev main_v3007 : Ref sig .tc := ⟨.hbm, 3284, rfl⟩
abbrev main_v3008 : Ref sig .tc := ⟨.hbm, 3285, rfl⟩
abbrev main_v3009 : Ref sig .tc := ⟨.hbm, 3286, rfl⟩
abbrev main_v3010 : Ref sig .tc := ⟨.hbm, 3287, rfl⟩
abbrev main_v3011 : Ref sig .tc := ⟨.hbm, 3288, rfl⟩
abbrev main_v3012 : Ref sig .tc := ⟨.hbm, 3289, rfl⟩
abbrev main_v3013 : Ref sig .tc := ⟨.hbm, 3290, rfl⟩
abbrev main_v3014 : Ref sig .tc := ⟨.hbm, 3291, rfl⟩
abbrev main_v3015 : Ref sig .tc := ⟨.hbm, 3292, rfl⟩
abbrev main_v3016 : Ref sig .tc := ⟨.hbm, 3293, rfl⟩
abbrev main_v3017 : Ref sig .tc := ⟨.hbm, 3294, rfl⟩
abbrev main_cst_263 : Ref sig .tc := ⟨.hbm, 3295, rfl⟩
abbrev main_v3018 : Ref sig .tc := ⟨.hbm, 3296, rfl⟩
abbrev main_v3019 : Ref sig .tc := ⟨.hbm, 3297, rfl⟩
abbrev main_v3020 : Ref sig .tc := ⟨.hbm, 3298, rfl⟩
abbrev main_v3021 : Ref sig .tc := ⟨.hbm, 3299, rfl⟩
abbrev main_v3022 : Ref sig .tc := ⟨.hbm, 3300, rfl⟩
abbrev main_v3023 : Ref sig .tc := ⟨.hbm, 3301, rfl⟩
abbrev main_v3024 : Ref sig .tc := ⟨.hbm, 3302, rfl⟩
abbrev main_v3025 : Ref sig .tc := ⟨.hbm, 3303, rfl⟩
abbrev main_v3026 : Ref sig .tc := ⟨.hbm, 3304, rfl⟩
abbrev main_v3027 : Ref sig .tc := ⟨.hbm, 3305, rfl⟩
abbrev main_v3028 : Ref sig .tc := ⟨.hbm, 3306, rfl⟩
abbrev main_v3029 : Ref sig .tc := ⟨.hbm, 3307, rfl⟩
abbrev main_v3030 : Ref sig .tc := ⟨.hbm, 3308, rfl⟩
abbrev main_v3031 : Ref sig .tc := ⟨.hbm, 3309, rfl⟩
abbrev main_v3032 : Ref sig .tc := ⟨.hbm, 3310, rfl⟩
abbrev main_v3033 : Ref sig .tc := ⟨.hbm, 3311, rfl⟩
abbrev main_v3034 : Ref sig .tc := ⟨.hbm, 3312, rfl⟩
abbrev main_v3035 : Ref sig .tc := ⟨.hbm, 3313, rfl⟩
abbrev main_v3036 : Ref sig .tc := ⟨.hbm, 3314, rfl⟩
abbrev main_cst_264 : Ref sig .tc := ⟨.hbm, 3315, rfl⟩
abbrev main_v3037 : Ref sig .tc := ⟨.hbm, 3316, rfl⟩
abbrev main_v3038 : Ref sig .tc := ⟨.hbm, 3317, rfl⟩
abbrev main_cst_265 : Ref sig .tc := ⟨.hbm, 3318, rfl⟩
abbrev main_v3039 : Ref sig .tc := ⟨.hbm, 3319, rfl⟩
abbrev main_v3040 : Ref sig .tc := ⟨.hbm, 3320, rfl⟩
abbrev main_v3041 : Ref sig .tc := ⟨.hbm, 3321, rfl⟩
abbrev main_v3042 : Ref sig .tc := ⟨.hbm, 3322, rfl⟩
abbrev main_v3043 : Ref sig .tc := ⟨.hbm, 3323, rfl⟩
abbrev main_v3044 : Ref sig .tc := ⟨.hbm, 3324, rfl⟩
abbrev main_v3045 : Ref sig .tc := ⟨.hbm, 3325, rfl⟩
abbrev main_v3046 : Ref sig .tc := ⟨.hbm, 3326, rfl⟩
abbrev main_v3047 : Ref sig .tc := ⟨.hbm, 3327, rfl⟩
abbrev main_v3048 : Ref sig .tc := ⟨.hbm, 3328, rfl⟩
abbrev main_v3049 : Ref sig .tc := ⟨.hbm, 3329, rfl⟩
abbrev main_v3050 : Ref sig .tc := ⟨.hbm, 3330, rfl⟩
abbrev main_v3051 : Ref sig .tc := ⟨.hbm, 3331, rfl⟩
abbrev main_v3052 : Ref sig .tc := ⟨.hbm, 3332, rfl⟩
abbrev main_v3053 : Ref sig .tc := ⟨.hbm, 3333, rfl⟩
abbrev main_v3054 : Ref sig .tc := ⟨.hbm, 3334, rfl⟩
abbrev main_cst_266 : Ref sig .tc := ⟨.hbm, 3335, rfl⟩
abbrev main_v3055 : Ref sig .tc := ⟨.hbm, 3336, rfl⟩
abbrev main_v3056 : Ref sig .tc := ⟨.hbm, 3337, rfl⟩
abbrev main_cst_267 : Ref sig .tc := ⟨.hbm, 3338, rfl⟩
abbrev main_v3057 : Ref sig .tc := ⟨.hbm, 3339, rfl⟩
abbrev main_v3058 : Ref sig .tc := ⟨.hbm, 3340, rfl⟩
abbrev main_v3059 : Ref sig .tc := ⟨.hbm, 3341, rfl⟩
abbrev main_v3060 : Ref sig .tc := ⟨.hbm, 3342, rfl⟩
abbrev main_v3061 : Ref sig .tc := ⟨.hbm, 3343, rfl⟩
abbrev main_v3062 : Ref sig .tc := ⟨.hbm, 3344, rfl⟩
abbrev main_v3063 : Ref sig .tc := ⟨.hbm, 3345, rfl⟩
abbrev main_v3064 : Ref sig .tc := ⟨.hbm, 3346, rfl⟩
abbrev main_v3065 : Ref sig .tc := ⟨.hbm, 3347, rfl⟩
abbrev main_v3066 : Ref sig .tc := ⟨.hbm, 3348, rfl⟩
abbrev main_v3067 : Ref sig .tc := ⟨.hbm, 3349, rfl⟩
abbrev main_v3068 : Ref sig .tc := ⟨.hbm, 3350, rfl⟩
abbrev main_v3069 : Ref sig .tc := ⟨.hbm, 3351, rfl⟩
abbrev main_v3070 : Ref sig .tc := ⟨.hbm, 3352, rfl⟩
abbrev main_v3071 : Ref sig .tc := ⟨.hbm, 3353, rfl⟩
abbrev main_v3072 : Ref sig .tc := ⟨.hbm, 3354, rfl⟩
abbrev main_cst_268 : Ref sig .tc := ⟨.hbm, 3355, rfl⟩
abbrev main_v3073 : Ref sig .tc := ⟨.hbm, 3356, rfl⟩
abbrev main_v3074 : Ref sig .tc := ⟨.hbm, 3357, rfl⟩
abbrev main_v3075 : Ref sig .tc := ⟨.hbm, 3358, rfl⟩
abbrev main_v3076 : Ref sig .tc := ⟨.hbm, 3359, rfl⟩
abbrev main_v3077 : Ref sig .tc := ⟨.hbm, 3360, rfl⟩
abbrev main_v3078 : Ref sig .tc := ⟨.hbm, 3361, rfl⟩
abbrev main_v3079 : Ref sig .tc := ⟨.hbm, 3362, rfl⟩
abbrev main_v3080 : Ref sig .tc := ⟨.hbm, 3363, rfl⟩
abbrev main_v3081 : Ref sig .tc := ⟨.hbm, 3364, rfl⟩
abbrev main_v3082 : Ref sig .tc := ⟨.hbm, 3365, rfl⟩
abbrev main_v3083 : Ref sig .tc := ⟨.hbm, 3366, rfl⟩
abbrev main_v3084 : Ref sig .tc := ⟨.hbm, 3367, rfl⟩
abbrev main_v3085 : Ref sig .tc := ⟨.hbm, 3368, rfl⟩
abbrev main_v3086 : Ref sig .tc := ⟨.hbm, 3369, rfl⟩
abbrev main_v3087 : Ref sig .tc := ⟨.hbm, 3370, rfl⟩
abbrev main_v3088 : Ref sig .tc := ⟨.hbm, 3371, rfl⟩
abbrev main_v3089 : Ref sig .tc := ⟨.hbm, 3372, rfl⟩
abbrev main_v3090 : Ref sig .tc := ⟨.hbm, 3373, rfl⟩
abbrev main_v3091 : Ref sig .tc := ⟨.hbm, 3374, rfl⟩
abbrev main_cst_269 : Ref sig .tc := ⟨.hbm, 3375, rfl⟩
abbrev main_v3092 : Ref sig .tc := ⟨.hbm, 3376, rfl⟩
abbrev main_v3093 : Ref sig .tc := ⟨.hbm, 3377, rfl⟩
abbrev main_cst_270 : Ref sig .tc := ⟨.hbm, 3378, rfl⟩
abbrev main_v3094 : Ref sig .tc := ⟨.hbm, 3379, rfl⟩
abbrev main_v3095 : Ref sig .tc := ⟨.hbm, 3380, rfl⟩
abbrev main_v3096 : Ref sig .tc := ⟨.hbm, 3381, rfl⟩
abbrev main_v3097 : Ref sig .tc := ⟨.hbm, 3382, rfl⟩
abbrev main_v3098 : Ref sig .tc := ⟨.hbm, 3383, rfl⟩
abbrev main_v3099 : Ref sig .tc := ⟨.hbm, 3384, rfl⟩
abbrev main_v3100 : Ref sig .tc := ⟨.hbm, 3385, rfl⟩
abbrev main_v3101 : Ref sig .tc := ⟨.hbm, 3386, rfl⟩
abbrev main_v3102 : Ref sig .tc := ⟨.hbm, 3387, rfl⟩
abbrev main_v3103 : Ref sig .tc := ⟨.hbm, 3388, rfl⟩
abbrev main_v3104 : Ref sig .tc := ⟨.hbm, 3389, rfl⟩
abbrev main_v3105 : Ref sig .tc := ⟨.hbm, 3390, rfl⟩
abbrev main_v3106 : Ref sig .tc := ⟨.hbm, 3391, rfl⟩
abbrev main_v3107 : Ref sig .tc := ⟨.hbm, 3392, rfl⟩
abbrev main_v3108 : Ref sig .tc := ⟨.hbm, 3393, rfl⟩
abbrev main_v3109 : Ref sig .tc := ⟨.hbm, 3394, rfl⟩
abbrev main_cst_271 : Ref sig .tc := ⟨.hbm, 3395, rfl⟩
abbrev main_v3110 : Ref sig .tc := ⟨.hbm, 3396, rfl⟩
abbrev main_v3111 : Ref sig .tc := ⟨.hbm, 3397, rfl⟩
abbrev main_cst_272 : Ref sig .tc := ⟨.hbm, 3398, rfl⟩
abbrev main_v3112 : Ref sig .tc := ⟨.hbm, 3399, rfl⟩
abbrev main_v3113 : Ref sig .tc := ⟨.hbm, 3400, rfl⟩
abbrev main_v3114 : Ref sig .tc := ⟨.hbm, 3401, rfl⟩
abbrev main_v3115 : Ref sig .tc := ⟨.hbm, 3402, rfl⟩
abbrev main_v3116 : Ref sig .tc := ⟨.hbm, 3403, rfl⟩
abbrev main_v3117 : Ref sig .tc := ⟨.hbm, 3404, rfl⟩
abbrev main_v3118 : Ref sig .tc := ⟨.hbm, 3405, rfl⟩
abbrev main_v3119 : Ref sig .tc := ⟨.hbm, 3406, rfl⟩
abbrev main_v3120 : Ref sig .tc := ⟨.hbm, 3407, rfl⟩
abbrev main_v3121 : Ref sig .tc := ⟨.hbm, 3408, rfl⟩
abbrev main_v3122 : Ref sig .tc := ⟨.hbm, 3409, rfl⟩
abbrev main_v3123 : Ref sig .tc := ⟨.hbm, 3410, rfl⟩
abbrev main_v3124 : Ref sig .tc := ⟨.hbm, 3411, rfl⟩
abbrev main_v3125 : Ref sig .tc := ⟨.hbm, 3412, rfl⟩
abbrev main_v3126 : Ref sig .tc := ⟨.hbm, 3413, rfl⟩
abbrev main_v3127 : Ref sig .tc := ⟨.hbm, 3414, rfl⟩
abbrev main_cst_273 : Ref sig .tc := ⟨.hbm, 3415, rfl⟩
abbrev main_v3128 : Ref sig .tc := ⟨.hbm, 3416, rfl⟩
abbrev main_v3129 : Ref sig .tc := ⟨.hbm, 3417, rfl⟩
abbrev main_v3130 : Ref sig .tc := ⟨.hbm, 3418, rfl⟩
abbrev main_v3131 : Ref sig .tc := ⟨.hbm, 3419, rfl⟩
abbrev main_v3132 : Ref sig .tc := ⟨.hbm, 3420, rfl⟩
abbrev main_v3133 : Ref sig .tc := ⟨.hbm, 3421, rfl⟩
abbrev main_v3134 : Ref sig .tc := ⟨.hbm, 3422, rfl⟩
abbrev main_v3135 : Ref sig .tc := ⟨.hbm, 3423, rfl⟩
abbrev main_v3136 : Ref sig .tc := ⟨.hbm, 3424, rfl⟩
abbrev main_v3137 : Ref sig .tc := ⟨.hbm, 3425, rfl⟩
abbrev main_v3138 : Ref sig .tc := ⟨.hbm, 3426, rfl⟩
abbrev main_v3139 : Ref sig .tc := ⟨.hbm, 3427, rfl⟩
abbrev main_v3140 : Ref sig .tc := ⟨.hbm, 3428, rfl⟩
abbrev main_v3141 : Ref sig .tc := ⟨.hbm, 3429, rfl⟩
abbrev main_v3142 : Ref sig .tc := ⟨.hbm, 3430, rfl⟩
abbrev main_v3143 : Ref sig .tc := ⟨.hbm, 3431, rfl⟩
abbrev main_v3144 : Ref sig .tc := ⟨.hbm, 3432, rfl⟩
abbrev main_v3145 : Ref sig .tc := ⟨.hbm, 3433, rfl⟩
abbrev main_v3146 : Ref sig .tc := ⟨.hbm, 3434, rfl⟩
abbrev main_cst_274 : Ref sig .tc := ⟨.hbm, 3435, rfl⟩
abbrev main_v3147 : Ref sig .tc := ⟨.hbm, 3436, rfl⟩
abbrev main_v3148 : Ref sig .tc := ⟨.hbm, 3437, rfl⟩
abbrev main_cst_275 : Ref sig .tc := ⟨.hbm, 3438, rfl⟩
abbrev main_v3149 : Ref sig .tc := ⟨.hbm, 3439, rfl⟩
abbrev main_v3150 : Ref sig .tc := ⟨.hbm, 3440, rfl⟩
abbrev main_v3151 : Ref sig .tc := ⟨.hbm, 3441, rfl⟩
abbrev main_v3152 : Ref sig .tc := ⟨.hbm, 3442, rfl⟩
abbrev main_v3153 : Ref sig .tc := ⟨.hbm, 3443, rfl⟩
abbrev main_v3154 : Ref sig .tc := ⟨.hbm, 3444, rfl⟩
abbrev main_v3155 : Ref sig .tc := ⟨.hbm, 3445, rfl⟩
abbrev main_v3156 : Ref sig .tc := ⟨.hbm, 3446, rfl⟩
abbrev main_v3157 : Ref sig .tc := ⟨.hbm, 3447, rfl⟩
abbrev main_v3158 : Ref sig .tc := ⟨.hbm, 3448, rfl⟩
abbrev main_v3159 : Ref sig .tc := ⟨.hbm, 3449, rfl⟩
abbrev main_v3160 : Ref sig .tc := ⟨.hbm, 3450, rfl⟩
abbrev main_v3161 : Ref sig .tc := ⟨.hbm, 3451, rfl⟩
abbrev main_v3162 : Ref sig .tc := ⟨.hbm, 3452, rfl⟩
abbrev main_v3163 : Ref sig .tc := ⟨.hbm, 3453, rfl⟩
abbrev main_v3164 : Ref sig .tc := ⟨.hbm, 3454, rfl⟩
abbrev main_cst_276 : Ref sig .tc := ⟨.hbm, 3455, rfl⟩
abbrev main_v3165 : Ref sig .tc := ⟨.hbm, 3456, rfl⟩
abbrev main_v3166 : Ref sig .tc := ⟨.hbm, 3457, rfl⟩
abbrev main_cst_277 : Ref sig .tc := ⟨.hbm, 3458, rfl⟩
abbrev main_v3167 : Ref sig .tc := ⟨.hbm, 3459, rfl⟩
abbrev main_v3168 : Ref sig .tc := ⟨.hbm, 3460, rfl⟩
abbrev main_v3169 : Ref sig .tc := ⟨.hbm, 3461, rfl⟩
abbrev main_v3170 : Ref sig .tc := ⟨.hbm, 3462, rfl⟩
abbrev main_v3171 : Ref sig .tc := ⟨.hbm, 3463, rfl⟩
abbrev main_v3172 : Ref sig .tc := ⟨.hbm, 3464, rfl⟩
abbrev main_v3173 : Ref sig .tc := ⟨.hbm, 3465, rfl⟩
abbrev main_v3174 : Ref sig .tc := ⟨.hbm, 3466, rfl⟩
abbrev main_v3175 : Ref sig .tc := ⟨.hbm, 3467, rfl⟩
abbrev main_v3176 : Ref sig .tc := ⟨.hbm, 3468, rfl⟩
abbrev main_v3177 : Ref sig .tc := ⟨.hbm, 3469, rfl⟩
abbrev main_v3178 : Ref sig .tc := ⟨.hbm, 3470, rfl⟩
abbrev main_v3179 : Ref sig .tc := ⟨.hbm, 3471, rfl⟩
abbrev main_v3180 : Ref sig .tc := ⟨.hbm, 3472, rfl⟩
abbrev main_v3181 : Ref sig .tc := ⟨.hbm, 3473, rfl⟩
abbrev main_v3182 : Ref sig .tc := ⟨.hbm, 3474, rfl⟩
abbrev main_cst_278 : Ref sig .tc := ⟨.hbm, 3475, rfl⟩
abbrev main_v3183 : Ref sig .tc := ⟨.hbm, 3476, rfl⟩
abbrev main_v3184 : Ref sig .tc := ⟨.hbm, 3477, rfl⟩
abbrev main_v3185 : Ref sig .tc := ⟨.hbm, 3478, rfl⟩
abbrev main_v3186 : Ref sig .tc := ⟨.hbm, 3479, rfl⟩
abbrev main_v3187 : Ref sig .tc := ⟨.hbm, 3480, rfl⟩
abbrev main_v3188 : Ref sig .tc := ⟨.hbm, 3481, rfl⟩
abbrev main_v3189 : Ref sig .tc := ⟨.hbm, 3482, rfl⟩
abbrev main_v3190 : Ref sig .tc := ⟨.hbm, 3483, rfl⟩
abbrev main_v3191 : Ref sig .tc := ⟨.hbm, 3484, rfl⟩
abbrev main_v3192 : Ref sig .tc := ⟨.hbm, 3485, rfl⟩
abbrev main_v3193 : Ref sig .tc := ⟨.hbm, 3486, rfl⟩
abbrev main_v3194 : Ref sig .tc := ⟨.hbm, 3487, rfl⟩
abbrev main_v3195 : Ref sig .tc := ⟨.hbm, 3488, rfl⟩
abbrev main_v3196 : Ref sig .tc := ⟨.hbm, 3489, rfl⟩
abbrev main_v3197 : Ref sig .tc := ⟨.hbm, 3490, rfl⟩
abbrev main_v3198 : Ref sig .tc := ⟨.hbm, 3491, rfl⟩
abbrev main_v3199 : Ref sig .tc := ⟨.hbm, 3492, rfl⟩
abbrev main_v3200 : Ref sig .tc := ⟨.hbm, 3493, rfl⟩
abbrev main_v3201 : Ref sig .tc := ⟨.hbm, 3494, rfl⟩
abbrev main_v3202 : Ref sig .tc := ⟨.hbm, 3495, rfl⟩
abbrev main_v3203 : Ref sig .tc := ⟨.hbm, 3496, rfl⟩
abbrev main_v3204 : Ref sig .tc := ⟨.hbm, 3497, rfl⟩
abbrev main_v3205 : Ref sig .tc := ⟨.hbm, 3498, rfl⟩
abbrev main_v3206 : Ref sig .tc := ⟨.hbm, 3499, rfl⟩
abbrev main_v3207 : Ref sig .tc := ⟨.hbm, 3500, rfl⟩
abbrev main_v3208 : Ref sig .tc := ⟨.hbm, 3501, rfl⟩
abbrev main_v3209 : Ref sig .tc := ⟨.hbm, 3502, rfl⟩
abbrev main_v3210 : Ref sig .tc := ⟨.hbm, 3503, rfl⟩
abbrev main_v3211 : Ref sig .tc := ⟨.hbm, 3504, rfl⟩
abbrev main_v3212 : Ref sig .tc := ⟨.hbm, 3505, rfl⟩
abbrev main_v3213 : Ref sig .tc := ⟨.hbm, 3506, rfl⟩
abbrev main_v3214 : Ref sig .tc := ⟨.hbm, 3507, rfl⟩
abbrev main_v3215 : Ref sig .tc := ⟨.hbm, 3508, rfl⟩
abbrev main_v3216 : Ref sig .tc := ⟨.hbm, 3509, rfl⟩
abbrev main_cst_279 : Ref sig .tc := ⟨.hbm, 3510, rfl⟩
abbrev main_v3217 : Ref sig .tc := ⟨.hbm, 3511, rfl⟩
abbrev main_v3218 : Ref sig .tc := ⟨.hbm, 3512, rfl⟩
abbrev main_cst_280 : Ref sig .tc := ⟨.hbm, 3513, rfl⟩
abbrev main_v3219 : Ref sig .tc := ⟨.hbm, 3514, rfl⟩
abbrev main_v3220 : Ref sig .tc := ⟨.hbm, 3515, rfl⟩
abbrev main_v3221 : Ref sig .tc := ⟨.hbm, 3516, rfl⟩
abbrev main_v3222 : Ref sig .tc := ⟨.hbm, 3517, rfl⟩
abbrev main_v3223 : Ref sig .tc := ⟨.hbm, 3518, rfl⟩
abbrev main_v3224 : Ref sig .tc := ⟨.hbm, 3519, rfl⟩
abbrev main_v3225 : Ref sig .tc := ⟨.hbm, 3520, rfl⟩
abbrev main_v3226 : Ref sig .tc := ⟨.hbm, 3521, rfl⟩
abbrev main_v3227 : Ref sig .tc := ⟨.hbm, 3522, rfl⟩
abbrev main_v3228 : Ref sig .tc := ⟨.hbm, 3523, rfl⟩
abbrev main_v3229 : Ref sig .tc := ⟨.hbm, 3524, rfl⟩
abbrev main_v3230 : Ref sig .tc := ⟨.hbm, 3525, rfl⟩
abbrev main_v3231 : Ref sig .tc := ⟨.hbm, 3526, rfl⟩
abbrev main_v3232 : Ref sig .tc := ⟨.hbm, 3527, rfl⟩
abbrev main_v3233 : Ref sig .tc := ⟨.hbm, 3528, rfl⟩
abbrev main_v3234 : Ref sig .tc := ⟨.hbm, 3529, rfl⟩
abbrev main_cst_281 : Ref sig .tc := ⟨.hbm, 3530, rfl⟩
abbrev main_v3235 : Ref sig .tc := ⟨.hbm, 3531, rfl⟩
abbrev main_v3236 : Ref sig .tc := ⟨.hbm, 3532, rfl⟩
abbrev main_cst_282 : Ref sig .tc := ⟨.hbm, 3533, rfl⟩
abbrev main_v3237 : Ref sig .tc := ⟨.hbm, 3534, rfl⟩
abbrev main_v3238 : Ref sig .tc := ⟨.hbm, 3535, rfl⟩
abbrev main_v3239 : Ref sig .tc := ⟨.hbm, 3536, rfl⟩
abbrev main_v3240 : Ref sig .tc := ⟨.hbm, 3537, rfl⟩
abbrev main_v3241 : Ref sig .tc := ⟨.hbm, 3538, rfl⟩
abbrev main_v3242 : Ref sig .tc := ⟨.hbm, 3539, rfl⟩
abbrev main_v3243 : Ref sig .tc := ⟨.hbm, 3540, rfl⟩
abbrev main_v3244 : Ref sig .tc := ⟨.hbm, 3541, rfl⟩
abbrev main_v3245 : Ref sig .tc := ⟨.hbm, 3542, rfl⟩
abbrev main_v3246 : Ref sig .tc := ⟨.hbm, 3543, rfl⟩
abbrev main_v3247 : Ref sig .tc := ⟨.hbm, 3544, rfl⟩
abbrev main_v3248 : Ref sig .tc := ⟨.hbm, 3545, rfl⟩
abbrev main_v3249 : Ref sig .tc := ⟨.hbm, 3546, rfl⟩
abbrev main_v3250 : Ref sig .tc := ⟨.hbm, 3547, rfl⟩
abbrev main_v3251 : Ref sig .tc := ⟨.hbm, 3548, rfl⟩
abbrev main_v3252 : Ref sig .tc := ⟨.hbm, 3549, rfl⟩
abbrev main_cst_283 : Ref sig .tc := ⟨.hbm, 3550, rfl⟩
abbrev main_v3253 : Ref sig .tc := ⟨.hbm, 3551, rfl⟩
abbrev main_v3254 : Ref sig .tc := ⟨.hbm, 3552, rfl⟩
abbrev main_v3255 : Ref sig .tc := ⟨.hbm, 3553, rfl⟩
abbrev main_v3256 : Ref sig .tc := ⟨.hbm, 3554, rfl⟩
abbrev main_v3257 : Ref sig .tc := ⟨.hbm, 3555, rfl⟩
abbrev main_v3258 : Ref sig .tc := ⟨.hbm, 3556, rfl⟩
abbrev main_v3259 : Ref sig .tc := ⟨.hbm, 3557, rfl⟩
abbrev main_v3260 : Ref sig .tc := ⟨.hbm, 3558, rfl⟩
abbrev main_v3261 : Ref sig .tc := ⟨.hbm, 3559, rfl⟩
abbrev main_v3262 : Ref sig .tc := ⟨.hbm, 3560, rfl⟩
abbrev main_v3263 : Ref sig .tc := ⟨.hbm, 3561, rfl⟩
abbrev main_v3264 : Ref sig .tc := ⟨.hbm, 3562, rfl⟩
abbrev main_v3265 : Ref sig .tc := ⟨.hbm, 3563, rfl⟩
abbrev main_v3266 : Ref sig .tc := ⟨.hbm, 3564, rfl⟩
abbrev main_v3267 : Ref sig .tc := ⟨.hbm, 3565, rfl⟩
abbrev main_v3268 : Ref sig .tc := ⟨.hbm, 3566, rfl⟩
abbrev main_v3269 : Ref sig .tc := ⟨.hbm, 3567, rfl⟩
abbrev main_v3270 : Ref sig .tc := ⟨.hbm, 3568, rfl⟩
abbrev main_v3271 : Ref sig .tc := ⟨.hbm, 3569, rfl⟩
abbrev main_cst_284 : Ref sig .tc := ⟨.hbm, 3570, rfl⟩
abbrev main_v3272 : Ref sig .tc := ⟨.hbm, 3571, rfl⟩
abbrev main_v3273 : Ref sig .tc := ⟨.hbm, 3572, rfl⟩
abbrev main_cst_285 : Ref sig .tc := ⟨.hbm, 3573, rfl⟩
abbrev main_v3274 : Ref sig .tc := ⟨.hbm, 3574, rfl⟩
abbrev main_v3275 : Ref sig .tc := ⟨.hbm, 3575, rfl⟩
abbrev main_v3276 : Ref sig .tc := ⟨.hbm, 3576, rfl⟩
abbrev main_v3277 : Ref sig .tc := ⟨.hbm, 3577, rfl⟩
abbrev main_v3278 : Ref sig .tc := ⟨.hbm, 3578, rfl⟩
abbrev main_v3279 : Ref sig .tc := ⟨.hbm, 3579, rfl⟩
abbrev main_v3280 : Ref sig .tc := ⟨.hbm, 3580, rfl⟩
abbrev main_v3281 : Ref sig .tc := ⟨.hbm, 3581, rfl⟩
abbrev main_v3282 : Ref sig .tc := ⟨.hbm, 3582, rfl⟩
abbrev main_v3283 : Ref sig .tc := ⟨.hbm, 3583, rfl⟩
abbrev main_v3284 : Ref sig .tc := ⟨.hbm, 3584, rfl⟩
abbrev main_v3285 : Ref sig .tc := ⟨.hbm, 3585, rfl⟩
abbrev main_v3286 : Ref sig .tc := ⟨.hbm, 3586, rfl⟩
abbrev main_v3287 : Ref sig .tc := ⟨.hbm, 3587, rfl⟩
abbrev main_v3288 : Ref sig .tc := ⟨.hbm, 3588, rfl⟩
abbrev main_v3289 : Ref sig .tc := ⟨.hbm, 3589, rfl⟩
abbrev main_cst_286 : Ref sig .tc := ⟨.hbm, 3590, rfl⟩
abbrev main_v3290 : Ref sig .tc := ⟨.hbm, 3591, rfl⟩
abbrev main_v3291 : Ref sig .tc := ⟨.hbm, 3592, rfl⟩
abbrev main_cst_287 : Ref sig .tc := ⟨.hbm, 3593, rfl⟩
abbrev main_v3292 : Ref sig .tc := ⟨.hbm, 3594, rfl⟩
abbrev main_v3293 : Ref sig .tc := ⟨.hbm, 3595, rfl⟩
abbrev main_v3294 : Ref sig .tc := ⟨.hbm, 3596, rfl⟩
abbrev main_v3295 : Ref sig .tc := ⟨.hbm, 3597, rfl⟩
abbrev main_v3296 : Ref sig .tc := ⟨.hbm, 3598, rfl⟩
abbrev main_v3297 : Ref sig .tc := ⟨.hbm, 3599, rfl⟩
abbrev main_v3298 : Ref sig .tc := ⟨.hbm, 3600, rfl⟩
abbrev main_v3299 : Ref sig .tc := ⟨.hbm, 3601, rfl⟩
abbrev main_v3300 : Ref sig .tc := ⟨.hbm, 3602, rfl⟩
abbrev main_v3301 : Ref sig .tc := ⟨.hbm, 3603, rfl⟩
abbrev main_v3302 : Ref sig .tc := ⟨.hbm, 3604, rfl⟩
abbrev main_v3303 : Ref sig .tc := ⟨.hbm, 3605, rfl⟩
abbrev main_v3304 : Ref sig .tc := ⟨.hbm, 3606, rfl⟩
abbrev main_v3305 : Ref sig .tc := ⟨.hbm, 3607, rfl⟩
abbrev main_v3306 : Ref sig .tc := ⟨.hbm, 3608, rfl⟩
abbrev main_v3307 : Ref sig .tc := ⟨.hbm, 3609, rfl⟩
abbrev main_cst_288 : Ref sig .tc := ⟨.hbm, 3610, rfl⟩
abbrev main_v3308 : Ref sig .tc := ⟨.hbm, 3611, rfl⟩
abbrev main_v3309 : Ref sig .tc := ⟨.hbm, 3612, rfl⟩
abbrev main_v3310 : Ref sig .tc := ⟨.hbm, 3613, rfl⟩
abbrev main_v3311 : Ref sig .tc := ⟨.hbm, 3614, rfl⟩
abbrev main_v3312 : Ref sig .tc := ⟨.hbm, 3615, rfl⟩
abbrev main_v3313 : Ref sig .tc := ⟨.hbm, 3616, rfl⟩
abbrev main_v3314 : Ref sig .tc := ⟨.hbm, 3617, rfl⟩
abbrev main_v3315 : Ref sig .tc := ⟨.hbm, 3618, rfl⟩
abbrev main_v3316 : Ref sig .tc := ⟨.hbm, 3619, rfl⟩
abbrev main_v3317 : Ref sig .tc := ⟨.hbm, 3620, rfl⟩
abbrev main_v3318 : Ref sig .tc := ⟨.hbm, 3621, rfl⟩
abbrev main_v3319 : Ref sig .tc := ⟨.hbm, 3622, rfl⟩
abbrev main_v3320 : Ref sig .tc := ⟨.hbm, 3623, rfl⟩
abbrev main_v3321 : Ref sig .tc := ⟨.hbm, 3624, rfl⟩
abbrev main_v3322 : Ref sig .tc := ⟨.hbm, 3625, rfl⟩
abbrev main_v3323 : Ref sig .tc := ⟨.hbm, 3626, rfl⟩
abbrev main_v3324 : Ref sig .tc := ⟨.hbm, 3627, rfl⟩
abbrev main_v3325 : Ref sig .tc := ⟨.hbm, 3628, rfl⟩
abbrev main_v3326 : Ref sig .tc := ⟨.hbm, 3629, rfl⟩
abbrev main_cst_289 : Ref sig .tc := ⟨.hbm, 3630, rfl⟩
abbrev main_v3327 : Ref sig .tc := ⟨.hbm, 3631, rfl⟩
abbrev main_v3328 : Ref sig .tc := ⟨.hbm, 3632, rfl⟩
abbrev main_cst_290 : Ref sig .tc := ⟨.hbm, 3633, rfl⟩
abbrev main_v3329 : Ref sig .tc := ⟨.hbm, 3634, rfl⟩
abbrev main_v3330 : Ref sig .tc := ⟨.hbm, 3635, rfl⟩
abbrev main_v3331 : Ref sig .tc := ⟨.hbm, 3636, rfl⟩
abbrev main_v3332 : Ref sig .tc := ⟨.hbm, 3637, rfl⟩
abbrev main_v3333 : Ref sig .tc := ⟨.hbm, 3638, rfl⟩
abbrev main_v3334 : Ref sig .tc := ⟨.hbm, 3639, rfl⟩
abbrev main_v3335 : Ref sig .tc := ⟨.hbm, 3640, rfl⟩
abbrev main_v3336 : Ref sig .tc := ⟨.hbm, 3641, rfl⟩
abbrev main_v3337 : Ref sig .tc := ⟨.hbm, 3642, rfl⟩
abbrev main_v3338 : Ref sig .tc := ⟨.hbm, 3643, rfl⟩
abbrev main_v3339 : Ref sig .tc := ⟨.hbm, 3644, rfl⟩
abbrev main_v3340 : Ref sig .tc := ⟨.hbm, 3645, rfl⟩
abbrev main_v3341 : Ref sig .tc := ⟨.hbm, 3646, rfl⟩
abbrev main_v3342 : Ref sig .tc := ⟨.hbm, 3647, rfl⟩
abbrev main_v3343 : Ref sig .tc := ⟨.hbm, 3648, rfl⟩
abbrev main_v3344 : Ref sig .tc := ⟨.hbm, 3649, rfl⟩
abbrev main_cst_291 : Ref sig .tc := ⟨.hbm, 3650, rfl⟩
abbrev main_v3345 : Ref sig .tc := ⟨.hbm, 3651, rfl⟩
abbrev main_v3346 : Ref sig .tc := ⟨.hbm, 3652, rfl⟩
abbrev main_cst_292 : Ref sig .tc := ⟨.hbm, 3653, rfl⟩
abbrev main_v3347 : Ref sig .tc := ⟨.hbm, 3654, rfl⟩
abbrev main_v3348 : Ref sig .tc := ⟨.hbm, 3655, rfl⟩
abbrev main_v3349 : Ref sig .tc := ⟨.hbm, 3656, rfl⟩
abbrev main_v3350 : Ref sig .tc := ⟨.hbm, 3657, rfl⟩
abbrev main_v3351 : Ref sig .tc := ⟨.hbm, 3658, rfl⟩
abbrev main_v3352 : Ref sig .tc := ⟨.hbm, 3659, rfl⟩
abbrev main_v3353 : Ref sig .tc := ⟨.hbm, 3660, rfl⟩
abbrev main_v3354 : Ref sig .tc := ⟨.hbm, 3661, rfl⟩
abbrev main_v3355 : Ref sig .tc := ⟨.hbm, 3662, rfl⟩
abbrev main_v3356 : Ref sig .tc := ⟨.hbm, 3663, rfl⟩
abbrev main_v3357 : Ref sig .tc := ⟨.hbm, 3664, rfl⟩
abbrev main_v3358 : Ref sig .tc := ⟨.hbm, 3665, rfl⟩
abbrev main_v3359 : Ref sig .tc := ⟨.hbm, 3666, rfl⟩
abbrev main_v3360 : Ref sig .tc := ⟨.hbm, 3667, rfl⟩
abbrev main_v3361 : Ref sig .tc := ⟨.hbm, 3668, rfl⟩
abbrev main_v3362 : Ref sig .tc := ⟨.hbm, 3669, rfl⟩
abbrev main_cst_293 : Ref sig .tc := ⟨.hbm, 3670, rfl⟩
abbrev main_v3363 : Ref sig .tc := ⟨.hbm, 3671, rfl⟩
abbrev main_v3364 : Ref sig .tc := ⟨.hbm, 3672, rfl⟩
abbrev main_v3365 : Ref sig .tc := ⟨.hbm, 3673, rfl⟩
abbrev main_v3366 : Ref sig .tc := ⟨.hbm, 3674, rfl⟩
abbrev main_v3367 : Ref sig .tc := ⟨.hbm, 3675, rfl⟩
abbrev main_v3368 : Ref sig .tc := ⟨.hbm, 3676, rfl⟩
abbrev main_v3369 : Ref sig .tc := ⟨.hbm, 3677, rfl⟩
abbrev main_v3370 : Ref sig .tc := ⟨.hbm, 3678, rfl⟩
abbrev main_v3371 : Ref sig .tc := ⟨.hbm, 3679, rfl⟩
abbrev main_v3372 : Ref sig .tc := ⟨.hbm, 3680, rfl⟩
abbrev main_v3373 : Ref sig .tc := ⟨.hbm, 3681, rfl⟩
abbrev main_v3374 : Ref sig .tc := ⟨.hbm, 3682, rfl⟩
abbrev main_v3375 : Ref sig .tc := ⟨.hbm, 3683, rfl⟩
abbrev main_v3376 : Ref sig .tc := ⟨.hbm, 3684, rfl⟩
abbrev main_v3377 : Ref sig .tc := ⟨.hbm, 3685, rfl⟩
abbrev main_v3378 : Ref sig .tc := ⟨.hbm, 3686, rfl⟩
abbrev main_v3379 : Ref sig .tc := ⟨.hbm, 3687, rfl⟩
abbrev main_v3380 : Ref sig .tc := ⟨.hbm, 3688, rfl⟩
abbrev main_v3381 : Ref sig .tc := ⟨.hbm, 3689, rfl⟩
abbrev main_cst_294 : Ref sig .tc := ⟨.hbm, 3690, rfl⟩
abbrev main_v3382 : Ref sig .tc := ⟨.hbm, 3691, rfl⟩
abbrev main_v3383 : Ref sig .tc := ⟨.hbm, 3692, rfl⟩
abbrev main_cst_295 : Ref sig .tc := ⟨.hbm, 3693, rfl⟩
abbrev main_v3384 : Ref sig .tc := ⟨.hbm, 3694, rfl⟩
abbrev main_v3385 : Ref sig .tc := ⟨.hbm, 3695, rfl⟩
abbrev main_v3386 : Ref sig .tc := ⟨.hbm, 3696, rfl⟩
abbrev main_v3387 : Ref sig .tc := ⟨.hbm, 3697, rfl⟩
abbrev main_v3388 : Ref sig .tc := ⟨.hbm, 3698, rfl⟩
abbrev main_v3389 : Ref sig .tc := ⟨.hbm, 3699, rfl⟩
abbrev main_v3390 : Ref sig .tc := ⟨.hbm, 3700, rfl⟩
abbrev main_v3391 : Ref sig .tc := ⟨.hbm, 3701, rfl⟩
abbrev main_v3392 : Ref sig .tc := ⟨.hbm, 3702, rfl⟩
abbrev main_v3393 : Ref sig .tc := ⟨.hbm, 3703, rfl⟩
abbrev main_v3394 : Ref sig .tc := ⟨.hbm, 3704, rfl⟩
abbrev main_v3395 : Ref sig .tc := ⟨.hbm, 3705, rfl⟩
abbrev main_v3396 : Ref sig .tc := ⟨.hbm, 3706, rfl⟩
abbrev main_v3397 : Ref sig .tc := ⟨.hbm, 3707, rfl⟩
abbrev main_v3398 : Ref sig .tc := ⟨.hbm, 3708, rfl⟩
abbrev main_v3399 : Ref sig .tc := ⟨.hbm, 3709, rfl⟩
abbrev main_cst_296 : Ref sig .tc := ⟨.hbm, 3710, rfl⟩
abbrev main_v3400 : Ref sig .tc := ⟨.hbm, 3711, rfl⟩
abbrev main_v3401 : Ref sig .tc := ⟨.hbm, 3712, rfl⟩
abbrev main_cst_297 : Ref sig .tc := ⟨.hbm, 3713, rfl⟩
abbrev main_v3402 : Ref sig .tc := ⟨.hbm, 3714, rfl⟩
abbrev main_v3403 : Ref sig .tc := ⟨.hbm, 3715, rfl⟩
abbrev main_v3404 : Ref sig .tc := ⟨.hbm, 3716, rfl⟩
abbrev main_v3405 : Ref sig .tc := ⟨.hbm, 3717, rfl⟩
abbrev main_v3406 : Ref sig .tc := ⟨.hbm, 3718, rfl⟩
abbrev main_v3407 : Ref sig .tc := ⟨.hbm, 3719, rfl⟩
abbrev main_v3408 : Ref sig .tc := ⟨.hbm, 3720, rfl⟩
abbrev main_v3409 : Ref sig .tc := ⟨.hbm, 3721, rfl⟩
abbrev main_v3410 : Ref sig .tc := ⟨.hbm, 3722, rfl⟩
abbrev main_v3411 : Ref sig .tc := ⟨.hbm, 3723, rfl⟩
abbrev main_v3412 : Ref sig .tc := ⟨.hbm, 3724, rfl⟩
abbrev main_v3413 : Ref sig .tc := ⟨.hbm, 3725, rfl⟩
abbrev main_v3414 : Ref sig .tc := ⟨.hbm, 3726, rfl⟩
abbrev main_v3415 : Ref sig .tc := ⟨.hbm, 3727, rfl⟩
abbrev main_v3416 : Ref sig .tc := ⟨.hbm, 3728, rfl⟩
abbrev main_v3417 : Ref sig .tc := ⟨.hbm, 3729, rfl⟩
abbrev main_cst_298 : Ref sig .tc := ⟨.hbm, 3730, rfl⟩
abbrev main_v3418 : Ref sig .tc := ⟨.hbm, 3731, rfl⟩
abbrev main_v3419 : Ref sig .tc := ⟨.hbm, 3732, rfl⟩
abbrev main_v3420 : Ref sig .tc := ⟨.hbm, 3733, rfl⟩
abbrev main_v3421 : Ref sig .tc := ⟨.hbm, 3734, rfl⟩
abbrev main_v3422 : Ref sig .tc := ⟨.hbm, 3735, rfl⟩
abbrev main_v3423 : Ref sig .tc := ⟨.hbm, 3736, rfl⟩
abbrev main_v3424 : Ref sig .tc := ⟨.hbm, 3737, rfl⟩
abbrev main_v3425 : Ref sig .tc := ⟨.hbm, 3738, rfl⟩
abbrev main_v3426 : Ref sig .tc := ⟨.hbm, 3739, rfl⟩
abbrev main_v3427 : Ref sig .tc := ⟨.hbm, 3740, rfl⟩
abbrev main_v3428 : Ref sig .tc := ⟨.hbm, 3741, rfl⟩
abbrev main_v3429 : Ref sig .tc := ⟨.hbm, 3742, rfl⟩
abbrev main_v3430 : Ref sig .tc := ⟨.hbm, 3743, rfl⟩
abbrev main_v3431 : Ref sig .tc := ⟨.hbm, 3744, rfl⟩
abbrev main_v3432 : Ref sig .tc := ⟨.hbm, 3745, rfl⟩
abbrev main_v3433 : Ref sig .tc := ⟨.hbm, 3746, rfl⟩
abbrev main_v3434 : Ref sig .tc := ⟨.hbm, 3747, rfl⟩
abbrev main_v3435 : Ref sig .tc := ⟨.hbm, 3748, rfl⟩
abbrev main_v3436 : Ref sig .tc := ⟨.hbm, 3749, rfl⟩
abbrev main_cst_299 : Ref sig .tc := ⟨.hbm, 3750, rfl⟩
abbrev main_v3437 : Ref sig .tc := ⟨.hbm, 3751, rfl⟩
abbrev main_v3438 : Ref sig .tc := ⟨.hbm, 3752, rfl⟩
abbrev main_cst_300 : Ref sig .tc := ⟨.hbm, 3753, rfl⟩
abbrev main_v3439 : Ref sig .tc := ⟨.hbm, 3754, rfl⟩
abbrev main_v3440 : Ref sig .tc := ⟨.hbm, 3755, rfl⟩
abbrev main_v3441 : Ref sig .tc := ⟨.hbm, 3756, rfl⟩
abbrev main_v3442 : Ref sig .tc := ⟨.hbm, 3757, rfl⟩
abbrev main_v3443 : Ref sig .tc := ⟨.hbm, 3758, rfl⟩
abbrev main_v3444 : Ref sig .tc := ⟨.hbm, 3759, rfl⟩
abbrev main_v3445 : Ref sig .tc := ⟨.hbm, 3760, rfl⟩
abbrev main_v3446 : Ref sig .tc := ⟨.hbm, 3761, rfl⟩
abbrev main_v3447 : Ref sig .tc := ⟨.hbm, 3762, rfl⟩
abbrev main_v3448 : Ref sig .tc := ⟨.hbm, 3763, rfl⟩
abbrev main_v3449 : Ref sig .tc := ⟨.hbm, 3764, rfl⟩
abbrev main_v3450 : Ref sig .tc := ⟨.hbm, 3765, rfl⟩
abbrev main_v3451 : Ref sig .tc := ⟨.hbm, 3766, rfl⟩
abbrev main_v3452 : Ref sig .tc := ⟨.hbm, 3767, rfl⟩
abbrev main_v3453 : Ref sig .tc := ⟨.hbm, 3768, rfl⟩
abbrev main_v3454 : Ref sig .tc := ⟨.hbm, 3769, rfl⟩
abbrev main_cst_301 : Ref sig .tc := ⟨.hbm, 3770, rfl⟩
abbrev main_v3455 : Ref sig .tc := ⟨.hbm, 3771, rfl⟩
abbrev main_v3456 : Ref sig .tc := ⟨.hbm, 3772, rfl⟩
abbrev main_cst_302 : Ref sig .tc := ⟨.hbm, 3773, rfl⟩
abbrev main_v3457 : Ref sig .tc := ⟨.hbm, 3774, rfl⟩
abbrev main_v3458 : Ref sig .tc := ⟨.hbm, 3775, rfl⟩
abbrev main_v3459 : Ref sig .tc := ⟨.hbm, 3776, rfl⟩
abbrev main_v3460 : Ref sig .tc := ⟨.hbm, 3777, rfl⟩
abbrev main_v3461 : Ref sig .tc := ⟨.hbm, 3778, rfl⟩
abbrev main_v3462 : Ref sig .tc := ⟨.hbm, 3779, rfl⟩
abbrev main_v3463 : Ref sig .tc := ⟨.hbm, 3780, rfl⟩
abbrev main_v3464 : Ref sig .tc := ⟨.hbm, 3781, rfl⟩
abbrev main_v3465 : Ref sig .tc := ⟨.hbm, 3782, rfl⟩
abbrev main_v3466 : Ref sig .tc := ⟨.hbm, 3783, rfl⟩
abbrev main_v3467 : Ref sig .tc := ⟨.hbm, 3784, rfl⟩
abbrev main_v3468 : Ref sig .tc := ⟨.hbm, 3785, rfl⟩
abbrev main_v3469 : Ref sig .tc := ⟨.hbm, 3786, rfl⟩
abbrev main_v3470 : Ref sig .tc := ⟨.hbm, 3787, rfl⟩
abbrev main_v3471 : Ref sig .tc := ⟨.hbm, 3788, rfl⟩
abbrev main_v3472 : Ref sig .tc := ⟨.hbm, 3789, rfl⟩
abbrev main_cst_303 : Ref sig .tc := ⟨.hbm, 3790, rfl⟩
abbrev main_v3473 : Ref sig .tc := ⟨.hbm, 3791, rfl⟩
abbrev main_v3474 : Ref sig .tc := ⟨.hbm, 3792, rfl⟩
abbrev main_v3475 : Ref sig .tc := ⟨.hbm, 3793, rfl⟩
abbrev main_v3476 : Ref sig .tc := ⟨.hbm, 3794, rfl⟩
abbrev main_v3477 : Ref sig .tc := ⟨.hbm, 3795, rfl⟩
abbrev main_v3478 : Ref sig .tc := ⟨.hbm, 3796, rfl⟩
abbrev main_v3479 : Ref sig .tc := ⟨.hbm, 3797, rfl⟩
abbrev main_v3480 : Ref sig .tc := ⟨.hbm, 3798, rfl⟩
abbrev main_v3481 : Ref sig .tc := ⟨.hbm, 3799, rfl⟩
abbrev main_v3482 : Ref sig .tc := ⟨.hbm, 3800, rfl⟩
abbrev main_v3483 : Ref sig .tc := ⟨.hbm, 3801, rfl⟩
abbrev main_v3484 : Ref sig .tc := ⟨.hbm, 3802, rfl⟩
abbrev main_v3485 : Ref sig .tc := ⟨.hbm, 3803, rfl⟩
abbrev main_v3486 : Ref sig .tc := ⟨.hbm, 3804, rfl⟩
abbrev main_v3487 : Ref sig .tc := ⟨.hbm, 3805, rfl⟩
abbrev main_v3488 : Ref sig .tc := ⟨.hbm, 3806, rfl⟩
abbrev main_v3489 : Ref sig .tc := ⟨.hbm, 3807, rfl⟩
abbrev main_v3490 : Ref sig .tc := ⟨.hbm, 3808, rfl⟩
abbrev main_v3491 : Ref sig .tc := ⟨.hbm, 3809, rfl⟩
abbrev main_cst_304 : Ref sig .tc := ⟨.hbm, 3810, rfl⟩
abbrev main_v3492 : Ref sig .tc := ⟨.hbm, 3811, rfl⟩
abbrev main_v3493 : Ref sig .tc := ⟨.hbm, 3812, rfl⟩
abbrev main_cst_305 : Ref sig .tc := ⟨.hbm, 3813, rfl⟩
abbrev main_v3494 : Ref sig .tc := ⟨.hbm, 3814, rfl⟩
abbrev main_v3495 : Ref sig .tc := ⟨.hbm, 3815, rfl⟩
abbrev main_v3496 : Ref sig .tc := ⟨.hbm, 3816, rfl⟩
abbrev main_v3497 : Ref sig .tc := ⟨.hbm, 3817, rfl⟩
abbrev main_v3498 : Ref sig .tc := ⟨.hbm, 3818, rfl⟩
abbrev main_v3499 : Ref sig .tc := ⟨.hbm, 3819, rfl⟩
abbrev main_v3500 : Ref sig .tc := ⟨.hbm, 3820, rfl⟩
abbrev main_v3501 : Ref sig .tc := ⟨.hbm, 3821, rfl⟩
abbrev main_v3502 : Ref sig .tc := ⟨.hbm, 3822, rfl⟩
abbrev main_v3503 : Ref sig .tc := ⟨.hbm, 3823, rfl⟩
abbrev main_v3504 : Ref sig .tc := ⟨.hbm, 3824, rfl⟩
abbrev main_v3505 : Ref sig .tc := ⟨.hbm, 3825, rfl⟩
abbrev main_v3506 : Ref sig .tc := ⟨.hbm, 3826, rfl⟩
abbrev main_v3507 : Ref sig .tc := ⟨.hbm, 3827, rfl⟩
abbrev main_v3508 : Ref sig .tc := ⟨.hbm, 3828, rfl⟩
abbrev main_v3509 : Ref sig .tc := ⟨.hbm, 3829, rfl⟩
abbrev main_cst_306 : Ref sig .tc := ⟨.hbm, 3830, rfl⟩
abbrev main_v3510 : Ref sig .tc := ⟨.hbm, 3831, rfl⟩
abbrev main_v3511 : Ref sig .tc := ⟨.hbm, 3832, rfl⟩
abbrev main_cst_307 : Ref sig .tc := ⟨.hbm, 3833, rfl⟩
abbrev main_v3512 : Ref sig .tc := ⟨.hbm, 3834, rfl⟩
abbrev main_v3513 : Ref sig .tc := ⟨.hbm, 3835, rfl⟩
abbrev main_v3514 : Ref sig .tc := ⟨.hbm, 3836, rfl⟩
abbrev main_v3515 : Ref sig .tc := ⟨.hbm, 3837, rfl⟩
abbrev main_v3516 : Ref sig .tc := ⟨.hbm, 3838, rfl⟩
abbrev main_v3517 : Ref sig .tc := ⟨.hbm, 3839, rfl⟩
abbrev main_v3518 : Ref sig .tc := ⟨.hbm, 3840, rfl⟩
abbrev main_v3519 : Ref sig .tc := ⟨.hbm, 3841, rfl⟩
abbrev main_v3520 : Ref sig .tc := ⟨.hbm, 3842, rfl⟩
abbrev main_v3521 : Ref sig .tc := ⟨.hbm, 3843, rfl⟩
abbrev main_v3522 : Ref sig .tc := ⟨.hbm, 3844, rfl⟩
abbrev main_v3523 : Ref sig .tc := ⟨.hbm, 3845, rfl⟩
abbrev main_v3524 : Ref sig .tc := ⟨.hbm, 3846, rfl⟩
abbrev main_v3525 : Ref sig .tc := ⟨.hbm, 3847, rfl⟩
abbrev main_v3526 : Ref sig .tc := ⟨.hbm, 3848, rfl⟩
abbrev main_v3527 : Ref sig .tc := ⟨.hbm, 3849, rfl⟩
abbrev main_cst_308 : Ref sig .tc := ⟨.hbm, 3850, rfl⟩
abbrev main_v3528 : Ref sig .tc := ⟨.hbm, 3851, rfl⟩
abbrev main_v3529 : Ref sig .tc := ⟨.hbm, 3852, rfl⟩
abbrev main_v3530 : Ref sig .tc := ⟨.hbm, 3853, rfl⟩
abbrev main_v3531 : Ref sig .tc := ⟨.hbm, 3854, rfl⟩
abbrev main_v3532 : Ref sig .tc := ⟨.hbm, 3855, rfl⟩
abbrev main_v3533 : Ref sig .tc := ⟨.hbm, 3856, rfl⟩
abbrev main_v3534 : Ref sig .tc := ⟨.hbm, 3857, rfl⟩
abbrev main_v3535 : Ref sig .tc := ⟨.hbm, 3858, rfl⟩
abbrev main_v3536 : Ref sig .tc := ⟨.hbm, 3859, rfl⟩
abbrev main_v3537 : Ref sig .tc := ⟨.hbm, 3860, rfl⟩
abbrev main_v3538 : Ref sig .tc := ⟨.hbm, 3861, rfl⟩
abbrev main_v3539 : Ref sig .tc := ⟨.hbm, 3862, rfl⟩
abbrev main_v3540 : Ref sig .tc := ⟨.hbm, 3863, rfl⟩
abbrev main_v3541 : Ref sig .tc := ⟨.hbm, 3864, rfl⟩
abbrev main_v3542 : Ref sig .tc := ⟨.hbm, 3865, rfl⟩
abbrev main_v3543 : Ref sig .tc := ⟨.hbm, 3866, rfl⟩
abbrev main_v3544 : Ref sig .tc := ⟨.hbm, 3867, rfl⟩
abbrev main_v3545 : Ref sig .tc := ⟨.hbm, 3868, rfl⟩
abbrev main_v3546 : Ref sig .tc := ⟨.hbm, 3869, rfl⟩
abbrev main_cst_309 : Ref sig .tc := ⟨.hbm, 3870, rfl⟩
abbrev main_v3547 : Ref sig .tc := ⟨.hbm, 3871, rfl⟩
abbrev main_v3548 : Ref sig .tc := ⟨.hbm, 3872, rfl⟩
abbrev main_cst_310 : Ref sig .tc := ⟨.hbm, 3873, rfl⟩
abbrev main_v3549 : Ref sig .tc := ⟨.hbm, 3874, rfl⟩
abbrev main_v3550 : Ref sig .tc := ⟨.hbm, 3875, rfl⟩
abbrev main_v3551 : Ref sig .tc := ⟨.hbm, 3876, rfl⟩
abbrev main_v3552 : Ref sig .tc := ⟨.hbm, 3877, rfl⟩
abbrev main_v3553 : Ref sig .tc := ⟨.hbm, 3878, rfl⟩
abbrev main_v3554 : Ref sig .tc := ⟨.hbm, 3879, rfl⟩
abbrev main_v3555 : Ref sig .tc := ⟨.hbm, 3880, rfl⟩
abbrev main_v3556 : Ref sig .tc := ⟨.hbm, 3881, rfl⟩
abbrev main_v3557 : Ref sig .tc := ⟨.hbm, 3882, rfl⟩
abbrev main_v3558 : Ref sig .tc := ⟨.hbm, 3883, rfl⟩
abbrev main_v3559 : Ref sig .tc := ⟨.hbm, 3884, rfl⟩
abbrev main_v3560 : Ref sig .tc := ⟨.hbm, 3885, rfl⟩
abbrev main_v3561 : Ref sig .tc := ⟨.hbm, 3886, rfl⟩
abbrev main_v3562 : Ref sig .tc := ⟨.hbm, 3887, rfl⟩
abbrev main_v3563 : Ref sig .tc := ⟨.hbm, 3888, rfl⟩
abbrev main_v3564 : Ref sig .tc := ⟨.hbm, 3889, rfl⟩
abbrev main_cst_311 : Ref sig .tc := ⟨.hbm, 3890, rfl⟩
abbrev main_v3565 : Ref sig .tc := ⟨.hbm, 3891, rfl⟩
abbrev main_v3566 : Ref sig .tc := ⟨.hbm, 3892, rfl⟩
abbrev main_cst_312 : Ref sig .tc := ⟨.hbm, 3893, rfl⟩
abbrev main_v3567 : Ref sig .tc := ⟨.hbm, 3894, rfl⟩
abbrev main_v3568 : Ref sig .tc := ⟨.hbm, 3895, rfl⟩
abbrev main_v3569 : Ref sig .tc := ⟨.hbm, 3896, rfl⟩
abbrev main_v3570 : Ref sig .tc := ⟨.hbm, 3897, rfl⟩
abbrev main_v3571 : Ref sig .tc := ⟨.hbm, 3898, rfl⟩
abbrev main_v3572 : Ref sig .tc := ⟨.hbm, 3899, rfl⟩
abbrev main_v3573 : Ref sig .tc := ⟨.hbm, 3900, rfl⟩
abbrev main_v3574 : Ref sig .tc := ⟨.hbm, 3901, rfl⟩
abbrev main_v3575 : Ref sig .tc := ⟨.hbm, 3902, rfl⟩
abbrev main_v3576 : Ref sig .tc := ⟨.hbm, 3903, rfl⟩
abbrev main_v3577 : Ref sig .tc := ⟨.hbm, 3904, rfl⟩
abbrev main_v3578 : Ref sig .tc := ⟨.hbm, 3905, rfl⟩
abbrev main_v3579 : Ref sig .tc := ⟨.hbm, 3906, rfl⟩
abbrev main_v3580 : Ref sig .tc := ⟨.hbm, 3907, rfl⟩
abbrev main_v3581 : Ref sig .tc := ⟨.hbm, 3908, rfl⟩
abbrev main_v3582 : Ref sig .tc := ⟨.hbm, 3909, rfl⟩
abbrev main_cst_313 : Ref sig .tc := ⟨.hbm, 3910, rfl⟩
abbrev main_v3583 : Ref sig .tc := ⟨.hbm, 3911, rfl⟩
abbrev main_v3584 : Ref sig .tc := ⟨.hbm, 3912, rfl⟩
abbrev main_v3585 : Ref sig .tc := ⟨.hbm, 3913, rfl⟩
abbrev main_v3586 : Ref sig .tc := ⟨.hbm, 3914, rfl⟩
abbrev main_v3587 : Ref sig .tc := ⟨.hbm, 3915, rfl⟩
abbrev main_v3588 : Ref sig .tc := ⟨.hbm, 3916, rfl⟩
abbrev main_v3589 : Ref sig .tc := ⟨.hbm, 3917, rfl⟩
abbrev main_v3590 : Ref sig .tc := ⟨.hbm, 3918, rfl⟩
abbrev main_v3591 : Ref sig .tc := ⟨.hbm, 3919, rfl⟩
abbrev main_v3592 : Ref sig .tc := ⟨.hbm, 3920, rfl⟩
abbrev main_v3593 : Ref sig .tc := ⟨.hbm, 3921, rfl⟩
abbrev main_v3594 : Ref sig .tc := ⟨.hbm, 3922, rfl⟩
abbrev main_v3595 : Ref sig .tc := ⟨.hbm, 3923, rfl⟩
abbrev main_v3596 : Ref sig .tc := ⟨.hbm, 3924, rfl⟩
abbrev main_v3597 : Ref sig .tc := ⟨.hbm, 3925, rfl⟩
abbrev main_v3598 : Ref sig .tc := ⟨.hbm, 3926, rfl⟩
abbrev main_v3599 : Ref sig .tc := ⟨.hbm, 3927, rfl⟩
abbrev main_v3600 : Ref sig .tc := ⟨.hbm, 3928, rfl⟩
abbrev main_v3601 : Ref sig .tc := ⟨.hbm, 3929, rfl⟩
abbrev main_cst_314 : Ref sig .tc := ⟨.hbm, 3930, rfl⟩
abbrev main_v3602 : Ref sig .tc := ⟨.hbm, 3931, rfl⟩
abbrev main_v3603 : Ref sig .tc := ⟨.hbm, 3932, rfl⟩
abbrev main_cst_315 : Ref sig .tc := ⟨.hbm, 3933, rfl⟩
abbrev main_v3604 : Ref sig .tc := ⟨.hbm, 3934, rfl⟩
abbrev main_v3605 : Ref sig .tc := ⟨.hbm, 3935, rfl⟩
abbrev main_v3606 : Ref sig .tc := ⟨.hbm, 3936, rfl⟩
abbrev main_v3607 : Ref sig .tc := ⟨.hbm, 3937, rfl⟩
abbrev main_v3608 : Ref sig .tc := ⟨.hbm, 3938, rfl⟩
abbrev main_v3609 : Ref sig .tc := ⟨.hbm, 3939, rfl⟩
abbrev main_v3610 : Ref sig .tc := ⟨.hbm, 3940, rfl⟩
abbrev main_v3611 : Ref sig .tc := ⟨.hbm, 3941, rfl⟩
abbrev main_v3612 : Ref sig .tc := ⟨.hbm, 3942, rfl⟩
abbrev main_v3613 : Ref sig .tc := ⟨.hbm, 3943, rfl⟩
abbrev main_v3614 : Ref sig .tc := ⟨.hbm, 3944, rfl⟩
abbrev main_v3615 : Ref sig .tc := ⟨.hbm, 3945, rfl⟩
abbrev main_v3616 : Ref sig .tc := ⟨.hbm, 3946, rfl⟩
abbrev main_v3617 : Ref sig .tc := ⟨.hbm, 3947, rfl⟩
abbrev main_v3618 : Ref sig .tc := ⟨.hbm, 3948, rfl⟩
abbrev main_v3619 : Ref sig .tc := ⟨.hbm, 3949, rfl⟩
abbrev main_cst_316 : Ref sig .tc := ⟨.hbm, 3950, rfl⟩
abbrev main_v3620 : Ref sig .tc := ⟨.hbm, 3951, rfl⟩
abbrev main_v3621 : Ref sig .tc := ⟨.hbm, 3952, rfl⟩
abbrev main_cst_317 : Ref sig .tc := ⟨.hbm, 3953, rfl⟩
abbrev main_v3622 : Ref sig .tc := ⟨.hbm, 3954, rfl⟩
abbrev main_v3623 : Ref sig .tc := ⟨.hbm, 3955, rfl⟩
abbrev main_v3624 : Ref sig .tc := ⟨.hbm, 3956, rfl⟩
abbrev main_v3625 : Ref sig .tc := ⟨.hbm, 3957, rfl⟩
abbrev main_v3626 : Ref sig .tc := ⟨.hbm, 3958, rfl⟩
abbrev main_v3627 : Ref sig .tc := ⟨.hbm, 3959, rfl⟩
abbrev main_v3628 : Ref sig .tc := ⟨.hbm, 3960, rfl⟩
abbrev main_v3629 : Ref sig .tc := ⟨.hbm, 3961, rfl⟩
abbrev main_v3630 : Ref sig .tc := ⟨.hbm, 3962, rfl⟩
abbrev main_v3631 : Ref sig .tc := ⟨.hbm, 3963, rfl⟩
abbrev main_v3632 : Ref sig .tc := ⟨.hbm, 3964, rfl⟩
abbrev main_v3633 : Ref sig .tc := ⟨.hbm, 3965, rfl⟩
abbrev main_v3634 : Ref sig .tc := ⟨.hbm, 3966, rfl⟩
abbrev main_v3635 : Ref sig .tc := ⟨.hbm, 3967, rfl⟩
abbrev main_v3636 : Ref sig .tc := ⟨.hbm, 3968, rfl⟩
abbrev main_v3637 : Ref sig .tc := ⟨.hbm, 3969, rfl⟩
abbrev main_cst_318 : Ref sig .tc := ⟨.hbm, 3970, rfl⟩
abbrev main_v3638 : Ref sig .tc := ⟨.hbm, 3971, rfl⟩
abbrev main_v3639 : Ref sig .tc := ⟨.hbm, 3972, rfl⟩
abbrev main_v3640 : Ref sig .tc := ⟨.hbm, 3973, rfl⟩
abbrev main_v3641 : Ref sig .tc := ⟨.hbm, 3974, rfl⟩
abbrev main_v3642 : Ref sig .tc := ⟨.hbm, 3975, rfl⟩
abbrev main_v3643 : Ref sig .tc := ⟨.hbm, 3976, rfl⟩
abbrev main_v3644 : Ref sig .tc := ⟨.hbm, 3977, rfl⟩
abbrev main_v3645 : Ref sig .tc := ⟨.hbm, 3978, rfl⟩
abbrev main_v3646 : Ref sig .tc := ⟨.hbm, 3979, rfl⟩
abbrev main_v3647 : Ref sig .tc := ⟨.hbm, 3980, rfl⟩
abbrev main_v3648 : Ref sig .tc := ⟨.hbm, 3981, rfl⟩
abbrev main_v3649 : Ref sig .tc := ⟨.hbm, 3982, rfl⟩
abbrev main_v3650 : Ref sig .tc := ⟨.hbm, 3983, rfl⟩
abbrev main_v3651 : Ref sig .tc := ⟨.hbm, 3984, rfl⟩
abbrev main_v3652 : Ref sig .tc := ⟨.hbm, 3985, rfl⟩
abbrev main_v3653 : Ref sig .tc := ⟨.hbm, 3986, rfl⟩
abbrev main_v3654 : Ref sig .tc := ⟨.hbm, 3987, rfl⟩
abbrev main_v3655 : Ref sig .tc := ⟨.hbm, 3988, rfl⟩
abbrev main_v3656 : Ref sig .tc := ⟨.hbm, 3989, rfl⟩
abbrev main_v3657 : Ref sig .tc := ⟨.hbm, 3990, rfl⟩
abbrev main_v3658 : Ref sig .tc := ⟨.hbm, 3991, rfl⟩
abbrev main_v3659 : Ref sig .tc := ⟨.hbm, 3992, rfl⟩
abbrev main_v3660 : Ref sig .tc := ⟨.hbm, 3993, rfl⟩
abbrev main_v3661 : Ref sig .tc := ⟨.hbm, 3994, rfl⟩
abbrev main_v3662 : Ref sig .tc := ⟨.hbm, 3995, rfl⟩
abbrev main_v3663 : Ref sig .tc := ⟨.hbm, 3996, rfl⟩
abbrev main_v3664 : Ref sig .tc := ⟨.hbm, 3997, rfl⟩
abbrev main_v3665 : Ref sig .tc := ⟨.hbm, 3998, rfl⟩
abbrev main_v3666 : Ref sig .tc := ⟨.hbm, 3999, rfl⟩
abbrev main_v3667 : Ref sig .tc := ⟨.hbm, 4000, rfl⟩
abbrev main_v3668 : Ref sig .tc := ⟨.hbm, 4001, rfl⟩
abbrev main_v3669 : Ref sig .tc := ⟨.hbm, 4002, rfl⟩
abbrev main_v3670 : Ref sig .tc := ⟨.hbm, 4003, rfl⟩
abbrev main_v3671 : Ref sig .tc := ⟨.hbm, 4004, rfl⟩
abbrev main_v3672 : Ref sig .tc := ⟨.hbm, 4005, rfl⟩
abbrev main_v3673 : Ref sig .tc := ⟨.hbm, 4006, rfl⟩
abbrev main_v3674 : Ref sig .tc := ⟨.hbm, 4007, rfl⟩
abbrev main_v3675 : Ref sig .tc := ⟨.hbm, 4008, rfl⟩
abbrev main_v3676 : Ref sig .tc := ⟨.hbm, 4009, rfl⟩
abbrev main_v3677 : Ref sig .tc := ⟨.hbm, 4010, rfl⟩
abbrev main_v3678 : Ref sig .tc := ⟨.hbm, 4011, rfl⟩
abbrev main_v3679 : Ref sig .tc := ⟨.hbm, 4012, rfl⟩
abbrev main_v3680 : Ref sig .tc := ⟨.hbm, 4013, rfl⟩
abbrev main_v3681 : Ref sig .tc := ⟨.hbm, 4014, rfl⟩
abbrev main_v3682 : Ref sig .tc := ⟨.hbm, 4015, rfl⟩

abbrev nD : Nat := 1
abbrev τ : Topo := Topo.v7x

variable {F : FTy → Type} [FloatOps F]

class Facts₀ : Prop where
  slices_S8x512x1024_S1x512x1024_0_0_0 : S8x512x1024.Slices ![0, 0, 0] S1x512x1024
  shapeCasts_S1x512x1024_S512x1024 : S1x512x1024.ShapeCasts S512x1024
  slices_S8x512x1024_S1x512x1024_1_0_0 : S8x512x1024.Slices ![1, 0, 0] S1x512x1024
  slices_S8x512x1024_S1x512x1024_2_0_0 : S8x512x1024.Slices ![2, 0, 0] S1x512x1024
  slices_S8x512x1024_S1x512x1024_3_0_0 : S8x512x1024.Slices ![3, 0, 0] S1x512x1024
  slices_S8x512x1024_S1x512x1024_4_0_0 : S8x512x1024.Slices ![4, 0, 0] S1x512x1024
  slices_S8x512x1024_S1x512x1024_5_0_0 : S8x512x1024.Slices ![5, 0, 0] S1x512x1024
  slices_S8x512x1024_S1x512x1024_6_0_0 : S8x512x1024.Slices ![6, 0, 0] S1x512x1024
  slices_S8x512x1024_S1x512x1024_7_0_0 : S8x512x1024.Slices ![7, 0, 0] S1x512x1024
  slices_S512x128x1024_S512x1x1024_0_0_0 : S512x128x1024.Slices ![0, 0, 0] S512x1x1024
  shapeCasts_S512x1x1024_S512x1024 : S512x1x1024.ShapeCasts S512x1024
  slices_S8x1024x1024_S1x1024x1024_0_0_0 : S8x1024x1024.Slices ![0, 0, 0] S1x1024x1024
  shapeCasts_S1x1024x1024_S1024x1024 : S1x1024x1024.ShapeCasts S1024x1024
  slices_S8x1024_S1x1024_0_0 : S8x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  slices_S8x1024x1024_S1x1024x1024_1_0_0 : S8x1024x1024.Slices ![1, 0, 0] S1x1024x1024
  slices_S8x1024_S1x1024_1_0 : S8x1024.Slices ![1, 0] S1x1024
  slices_S8x1024x1024_S1x1024x1024_2_0_0 : S8x1024x1024.Slices ![2, 0, 0] S1x1024x1024
  slices_S8x1024_S1x1024_2_0 : S8x1024.Slices ![2, 0] S1x1024
  slices_S8x1024x1024_S1x1024x1024_3_0_0 : S8x1024x1024.Slices ![3, 0, 0] S1x1024x1024
  slices_S8x1024_S1x1024_3_0 : S8x1024.Slices ![3, 0] S1x1024
  slices_S8x1024x1024_S1x1024x1024_4_0_0 : S8x1024x1024.Slices ![4, 0, 0] S1x1024x1024
  slices_S8x1024_S1x1024_4_0 : S8x1024.Slices ![4, 0] S1x1024
  slices_S8x1024x1024_S1x1024x1024_5_0_0 : S8x1024x1024.Slices ![5, 0, 0] S1x1024x1024
  slices_S8x1024_S1x1024_5_0 : S8x1024.Slices ![5, 0] S1x1024
  slices_S8x1024x1024_S1x1024x1024_6_0_0 : S8x1024x1024.Slices ![6, 0, 0] S1x1024x1024
  slices_S8x1024_S1x1024_6_0 : S8x1024.Slices ![6, 0] S1x1024
  slices_S8x1024x1024_S1x1024x1024_7_0_0 : S8x1024x1024.Slices ![7, 0, 0] S1x1024x1024
  slices_S8x1024_S1x1024_7_0 : S8x1024.Slices ![7, 0] S1x1024
  bcast_S512x1024_S1x512x1024_1_2 : S512x1024.BroadcastsInDim S1x512x1024 (![1, 2] : Fin 2 → Fin S1x512x1024.rank)
  concatenates_S1x512x1024_S1x512x1024_S1x512x1024_S1x512x1024_S1x512x1024_S1x512x1024_S1x512x1024_S1x512x1024_S8x512x1024_d0 : Shape.Concatenates [S1x512x1024, S1x512x1024, S1x512x1024, S1x512x1024, S1x512x1024, S1x512x1024, S1x512x1024, S1x512x1024] S8x512x1024 0
  slices_S512x128x1024_S512x1x1024_0_1_0 : S512x128x1024.Slices ![0, 1, 0] S512x1x1024
  slices_S512x128x1024_S512x1x1024_0_2_0 : S512x128x1024.Slices ![0, 2, 0] S512x1x1024
  slices_S512x128x1024_S512x1x1024_0_3_0 : S512x128x1024.Slices ![0, 3, 0] S512x1x1024
  slices_S512x128x1024_S512x1x1024_0_4_0 : S512x128x1024.Slices ![0, 4, 0] S512x1x1024
  slices_S512x128x1024_S512x1x1024_0_5_0 : S512x128x1024.Slices ![0, 5, 0] S512x1x1024
  slices_S512x128x1024_S512x1x1024_0_6_0 : S512x128x1024.Slices ![0, 6, 0] S512x1x1024
  slices_S512x128x1024_S512x1x1024_0_7_0 : S512x128x1024.Slices ![0, 7, 0] S512x1x1024
  bcast_S512x1024_S512x1x1024_0_2 : S512x1024.BroadcastsInDim S512x1x1024 (![0, 2] : Fin 2 → Fin S512x1x1024.rank)
  concatenates_S512x1x1024_S512x1x1024_S512x1x1024_S512x1x1024_S512x1x1024_S512x1x1024_S512x1x1024_S512x1x1024_S512x8x1024_d1 : Shape.Concatenates [S512x1x1024, S512x1x1024, S512x1x1024, S512x1x1024, S512x1x1024, S512x1x1024, S512x1x1024, S512x1x1024] S512x8x1024 1
  bcast_S8x512x1024_S8x1x512x1024_0_2_3 : S8x512x1024.BroadcastsInDim S8x1x512x1024 (![0, 2, 3] : Fin 3 → Fin S8x1x512x1024.rank)
  concatenates_S8x1x512x1024_S8x1x512x1024_S8x1x512x1024_S8x1x512x1024_S8x1x512x1024_S8x1x512x1024_S8x1x512x1024_S8x1x512x1024_S8x8x512x1024_d1 : Shape.Concatenates [S8x1x512x1024, S8x1x512x1024, S8x1x512x1024, S8x1x512x1024, S8x1x512x1024, S8x1x512x1024, S8x1x512x1024, S8x1x512x1024] S8x8x512x1024 1
  dot_S512x1024_S1024x1024_S512x1024_1_0_0_1_n_n_wf : DotDims.WF S512x1024 S1024x1024 S512x1024 [1] [0] [0] [1] [] []

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

class Facts : Prop extends Facts₀ where

variable [Facts]
-- ==== Proof.K.Body0.lean ====
/- The kernel body of region 0 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.Kernel.Launch
import proofs.«428164_j36979668418798_3_alg».proof.Proof.Gen.Kernel.Skeleton
import proofs.«428164_j36979668418798_3_alg».proof.Proof.Gen.Kernel.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO0_8 : View sig .tc .vmem S8x128x1024 .f32 := (Memref.whole cc0_stg8_0 : Memref sig .tc .vmem S8x128x1024 .f32).view
abbrev VO0_9 : View sig .tc .vmem S128x1024 .f32 := (Memref.whole cc0_stg9_0 : Memref sig .tc .vmem S128x1024 .f32).view
/-- Each window's current staging memref at point `t`, spelled as the pipeline passes it, and its wholeness. -/
abbrev ms0_0 (t : Fin cfg0.N) : Memref sig .tc .vmem S8x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1024 .f32 := win0_9.stage (cfg0.slots t 9)
abbrev hs0_9 (t : Fin cfg0.N) : (ms0_9 t).IsWhole := hstage0_9 ((cfg0.slots t 9).cast nbuf0_9)
/-- The scratch operand: a whole scoped buffer of the kernel's own, passed beside the windows. -/
abbrev scM0_0 : Memref sig .tc .vmem S1024x3072 .bf16 := Memref.whole cc0_scratch0

/-- The region's invariant with the scratch operand as a memref owned at some contents, every other scoped buffer
    that is no staging buffer left unopened, and the pseudo-random register: what the body obligation hands the run
    and takes back. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun0_A (c : Dev nD) (i : grid0.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc0__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__gru_layer_kernel_eq_skeleton]; unfold cc0__gru_layer_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.Kernel.Gen

end
-- ==== Proof.K.Reg0.lean ====
/- Region 0 at the contents `V` the TensorCore's buffers hold when the region is entered: each window's block at a
   point, what the body leaves in the output windows there, the pipeline's proof data, and the body obligation. -/
import proofs.«428164_j36979668418798_3_alg».proof.Proof.K.Body0

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof data
    whose array is `V`'s (`hA`) and whose body leaves the block in place (`hafter`): unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer -/

/-- The run's pieces for output 8 — one slice of extent 1 along the leading axis per timestep — tile its block, so they cover it. -/
theorem cover0_A_8 (c : Dev nD) (i : grid0.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out0_A_8 (c : Dev nD) (i : grid0.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover0_A_9 (c : Dev nD) (i : grid0.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out0_A_9 (c : Dev nD) (i : grid0.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt0 (c : Dev nD) (t : Fin cfg0.N) : Vec F S8x128x1024 .f32 × Vec F S128x1024 .f32 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t),
   out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t))

/-! ## The pipeline's proof data -/

/-- The proof data of the region's pipeline on core `c`: the arrays as the region finds them (`V`); after the body at
    point `t` each input's buffer at its block and the outputs' at `outsAt0`; the invariant the scoped rest and the
    pseudo-random register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t).1
    | ⟨9, _⟩ => (outsAt0 V c t).2
  Φ _ := Pipeline.ΦA spec0 c
  q _ := fullShare
  owed _ := 0

/-- The proof data's arrays are the region-entry contents (the definition projected, so that `V` is never unfolded). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t).1 := by dsimp only [dat0]
theorem after0_9 (c : Dev nD) (t : Fin cfg0.N) : (dat0 V c).after 9 t = (outsAt0 V c t).2 := by dsimp only [dat0]
/-- The same with each output's contents spelled as the run's term at the point's memrefs and input blocks. -/
theorem after0_8_run (c : Dev nD) (t : Fin cfg0.N) : (dat0 V c).after 8 t
    = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) := by dsimp only [dat0, outsAt0]
theorem after0_9_run (c : Dev nD) (t : Fin cfg0.N) : (dat0 V c).after 9 t
    = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) := by dsimp only [dat0, outsAt0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  rw [show (dat0 V c).Φ t.castSucc = Pipeline.ΦA spec0 c from rfl, PhiA0_eq]
  unfold outsAt0
  unfold out0_A_8 out0_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.K.Body1.lean ====
/- The kernel body of region 1 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.Kernel.Launch
import proofs.«428164_j36979668418798_3_alg».proof.Proof.Gen.Kernel.Skeleton
import proofs.«428164_j36979668418798_3_alg».proof.Proof.Gen.Kernel.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO1_8 : View sig .tc .vmem S8x128x1024 .f32 := (Memref.whole cc1_stg8_0 : Memref sig .tc .vmem S8x128x1024 .f32).view
abbrev VO1_9 : View sig .tc .vmem S128x1024 .f32 := (Memref.whole cc1_stg9_0 : Memref sig .tc .vmem S128x1024 .f32).view
/-- Each window's current staging memref at point `t`, spelled as the pipeline passes it, and its wholeness. -/
abbrev ms1_0 (t : Fin cfg1.N) : Memref sig .tc .vmem S8x128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x3072 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x128x1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128x1024 .f32 := win1_9.stage (cfg1.slots t 9)
abbrev hs1_9 (t : Fin cfg1.N) : (ms1_9 t).IsWhole := hstage1_9 ((cfg1.slots t 9).cast nbuf1_9)
/-- The scratch operand: a whole scoped buffer of the kernel's own, passed beside the windows. -/
abbrev scM1_0 : Memref sig .tc .vmem S1024x3072 .bf16 := Memref.whole cc1_scratch0

/-- The region's invariant with the scratch operand as a memref owned at some contents, every other scoped buffer
    that is no staging buffer left unopened, and the pseudo-random register: what the body obligation hands the run
    and takes back. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun1_A (c : Dev nD) (i : grid1.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc1__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__gru_layer_kernel_eq_skeleton]; unfold cc1__gru_layer_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.Kernel.Gen

end
-- ==== Proof.K.Reg1.lean ====
/- Region 1 at the contents `V` the TensorCore's buffers hold when the region is entered: each window's block at a
   point, what the body leaves in the output windows there, the pipeline's proof data, and the body obligation. -/
import proofs.«428164_j36979668418798_3_alg».proof.Proof.K.Body1

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof data
    whose array is `V`'s (`hA`) and whose body leaves the block in place (`hafter`): unfetched, the block index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in each output window's buffer -/

/-- The run's pieces for output 8 — one slice of extent 1 along the leading axis per timestep — tile its block, so they cover it. -/
theorem cover1_A_8 (c : Dev nD) (i : grid1.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun1_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out1_A_8 (c : Dev nD) (i : grid1.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover1_A_9 (c : Dev nD) (i : grid1.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun1_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out1_A_9 (c : Dev nD) (i : grid1.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt1 (c : Dev nD) (t : Fin cfg1.N) : Vec F S8x128x1024 .f32 × Vec F S128x1024 .f32 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t),
   out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t))

/-! ## The pipeline's proof data -/

/-- The proof data of the region's pipeline on core `c`: the arrays as the region finds them (`V`); after the body at
    point `t` each input's buffer at its block and the outputs' at `outsAt1`; the invariant the scoped rest and the
    pseudo-random register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t).1
    | ⟨9, _⟩ => (outsAt1 V c t).2
  Φ _ := Pipeline.ΦA spec1 c
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t).1 := by dsimp only [dat1]
theorem after1_9 (c : Dev nD) (t : Fin cfg1.N) : (dat1 V c).after 9 t = (outsAt1 V c t).2 := by dsimp only [dat1]
/-- The same with each output's contents spelled as the run's term at the point's memrefs and input blocks. -/
theorem after1_8_run (c : Dev nD) (t : Fin cfg1.N) : (dat1 V c).after 8 t
    = out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) := by dsimp only [dat1, outsAt1]
theorem after1_9_run (c : Dev nD) (t : Fin cfg1.N) : (dat1 V c).after 9 t
    = out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) := by dsimp only [dat1, outsAt1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  rw [show (dat1 V c).Φ t.castSucc = Pipeline.ΦA spec1 c from rfl, PhiA1_eq]
  unfold outsAt1
  unfold out1_A_8 out1_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1_A c _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover1_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover1_A_9 c _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.Body2.lean ====
/- The kernel body of region 2 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.Kernel.Launch
import proofs.«428164_j36979668418798_3_alg».proof.Proof.Gen.Kernel.Skeleton
import proofs.«428164_j36979668418798_3_alg».proof.Proof.Gen.Kernel.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO2_8 : View sig .tc .vmem S8x128x1024 .f32 := (Memref.whole cc2_stg8_0 : Memref sig .tc .vmem S8x128x1024 .f32).view
abbrev VO2_9 : View sig .tc .vmem S128x1024 .f32 := (Memref.whole cc2_stg9_0 : Memref sig .tc .vmem S128x1024 .f32).view
/-- Each window's current staging memref at point `t`, spelled as the pipeline passes it, and its wholeness. -/
abbrev ms2_0 (t : Fin cfg2.N) : Memref sig .tc .vmem S8x128x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024x3072 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x2048 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024x1024 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x1x1024 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S8x128x1024 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S128x1024 .f32 := win2_9.stage (cfg2.slots t 9)
abbrev hs2_9 (t : Fin cfg2.N) : (ms2_9 t).IsWhole := hstage2_9 ((cfg2.slots t 9).cast nbuf2_9)
/-- The scratch operand: a whole scoped buffer of the kernel's own, passed beside the windows. -/
abbrev scM2_0 : Memref sig .tc .vmem S1024x3072 .bf16 := Memref.whole cc2_scratch0

/-- The region's invariant with the scratch operand as a memref owned at some contents, every other scoped buffer
    that is no staging buffer left unopened, and the pseudo-random register: what the body obligation hands the run
    and takes back. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun2_A (c : Dev nD) (i : grid2.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc2__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc2__gru_layer_kernel_eq_skeleton]; unfold cc2__gru_layer_kernel_skel
    simp only [k2_part1_eq_skeleton, k2_part2_eq_skeleton, k2_part3_eq_skeleton, k2_part4_eq_skeleton, k2_part5_eq_skeleton, k2_part6_eq_skeleton, k2_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.Kernel.Gen

end
-- ==== Proof.K.Reg2.lean ====
/- Region 2 at the contents `V` the TensorCore's buffers hold when the region is entered: each window's block at a
   point, what the body leaves in the output windows there, the pipeline's proof data, and the body obligation. -/
import proofs.«428164_j36979668418798_3_alg».proof.Proof.K.Body2

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for ANY proof data
    whose array is `V`'s (`hA`) and whose body leaves the block in place (`hafter`): unfetched, the block index has
    not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in each output window's buffer -/

/-- The run's pieces for output 8 — one slice of extent 1 along the leading axis per timestep — tile its block, so they cover it. -/
theorem cover2_A_8 (c : Dev nD) (i : grid2.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun2_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out2_A_8 (c : Dev nD) (i : grid2.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover2_A_9 (c : Dev nD) (i : grid2.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun2_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out2_A_9 (c : Dev nD) (i : grid2.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt2 (c : Dev nD) (t : Fin cfg2.N) : Vec F S8x128x1024 .f32 × Vec F S128x1024 .f32 :=
  (out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (iblk2 V c 0 t) (iblk2 V c 1 t) (iblk2 V c 2 t) (iblk2 V c 3 t) (iblk2 V c 4 t) (iblk2 V c 5 t) (iblk2 V c 6 t) (iblk2 V c 7 t),
   out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (iblk2 V c 0 t) (iblk2 V c 1 t) (iblk2 V c 2 t) (iblk2 V c 3 t) (iblk2 V c 4 t) (iblk2 V c 5 t) (iblk2 V c 6 t) (iblk2 V c 7 t))

/-! ## The pipeline's proof data -/

/-- The proof data of the region's pipeline on core `c`: the arrays as the region finds them (`V`); after the body at
    point `t` each input's buffer at its block and the outputs' at `outsAt2`; the invariant the scoped rest and the
    pseudo-random register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t).1
    | ⟨9, _⟩ => (outsAt2 V c t).2
  Φ _ := Pipeline.ΦA spec2 c
  q _ := fullShare
  owed _ := 0

/-- The proof data's arrays are the region-entry contents (the definition projected, so that `V` is never unfolded). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = (outsAt2 V c t).1 := by dsimp only [dat2]
theorem after2_9 (c : Dev nD) (t : Fin cfg2.N) : (dat2 V c).after 9 t = (outsAt2 V c t).2 := by dsimp only [dat2]
/-- The same with each output's contents spelled as the run's term at the point's memrefs and input blocks. -/
theorem after2_8_run (c : Dev nD) (t : Fin cfg2.N) : (dat2 V c).after 8 t
    = out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (iblk2 V c 0 t) (iblk2 V c 1 t) (iblk2 V c 2 t) (iblk2 V c 3 t) (iblk2 V c 4 t) (iblk2 V c 5 t) (iblk2 V c 6 t) (iblk2 V c 7 t) := by dsimp only [dat2, outsAt2]
theorem after2_9_run (c : Dev nD) (t : Fin cfg2.N) : (dat2 V c).after 9 t
    = out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (iblk2 V c 0 t) (iblk2 V c 1 t) (iblk2 V c 2 t) (iblk2 V c 3 t) (iblk2 V c 4 t) (iblk2 V c 5 t) (iblk2 V c 6 t) (iblk2 V c 7 t) := by dsimp only [dat2, outsAt2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  rw [show (dat2 V c).Φ t.castSucc = Pipeline.ΦA spec2 c from rfl, PhiA2_eq]
  unfold outsAt2
  unfold out2_A_8 out2_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun2_A c _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover2_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover2_A_9 c _ _ _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.K.Body3.lean ====
/- The kernel body of region 3 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.Kernel.Launch
import proofs.«428164_j36979668418798_3_alg».proof.Proof.Gen.Kernel.Skeleton
import proofs.«428164_j36979668418798_3_alg».proof.Proof.Gen.Kernel.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO3_8 : View sig .tc .vmem S8x128x1024 .f32 := (Memref.whole cc3_stg8_0 : Memref sig .tc .vmem S8x128x1024 .f32).view
abbrev VO3_9 : View sig .tc .vmem S128x1024 .f32 := (Memref.whole cc3_stg9_0 : Memref sig .tc .vmem S128x1024 .f32).view
/-- Each window's current staging memref at point `t`, spelled as the pipeline passes it, and its wholeness. -/
abbrev ms3_0 (t : Fin cfg3.N) : Memref sig .tc .vmem S8x128x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024x3072 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024x2048 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024x1024 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1x1024 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x1x1024 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x1x1024 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S8x128x1024 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S128x1024 .f32 := win3_9.stage (cfg3.slots t 9)
abbrev hs3_9 (t : Fin cfg3.N) : (ms3_9 t).IsWhole := hstage3_9 ((cfg3.slots t 9).cast nbuf3_9)
/-- The scratch operand: a whole scoped buffer of the kernel's own, passed beside the windows. -/
abbrev scM3_0 : Memref sig .tc .vmem S1024x3072 .bf16 := Memref.whole cc3_scratch0

/-- The region's invariant with the scratch operand as a memref owned at some contents, every other scoped buffer
    that is no staging buffer left unopened, and the pseudo-random register: what the body obligation hands the run
    and takes back. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun3_A (c : Dev nD) (i : grid3.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc3__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc3__gru_layer_kernel_eq_skeleton]; unfold cc3__gru_layer_kernel_skel
    simp only [k3_part1_eq_skeleton, k3_part2_eq_skeleton, k3_part3_eq_skeleton, k3_part4_eq_skeleton, k3_part5_eq_skeleton, k3_part6_eq_skeleton, k3_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.Kernel.Gen

end
-- ==== Proof.K.Reg3.lean ====
/- Region 3 at the contents `V` the TensorCore's buffers hold when the region is entered: each window's block at a
   point, what the body leaves in the output windows there, the pipeline's proof data, and the body obligation. -/
import proofs.«428164_j36979668418798_3_alg».proof.Proof.K.Body3

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for ANY proof data
    whose array is `V`'s (`hA`) and whose body leaves the block in place (`hafter`): unfetched, the block index has
    not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in each output window's buffer -/

/-- The run's pieces for output 8 — one slice of extent 1 along the leading axis per timestep — tile its block, so they cover it. -/
theorem cover3_A_8 (c : Dev nD) (i : grid3.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun3_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out3_A_8 (c : Dev nD) (i : grid3.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO3_8.read (Elt F) (VO3_8.writes (Elt F) VO3_8.junk (kernelRun3_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover3_A_9 (c : Dev nD) (i : grid3.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun3_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out3_A_9 (c : Dev nD) (i : grid3.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO3_9.read (Elt F) (VO3_9.writes (Elt F) VO3_9.junk (kernelRun3_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt3 (c : Dev nD) (t : Fin cfg3.N) : Vec F S8x128x1024 .f32 × Vec F S128x1024 .f32 :=
  (out3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t),
   out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t))

/-! ## The pipeline's proof data -/

/-- The proof data of the region's pipeline on core `c`: the arrays as the region finds them (`V`); after the body at
    point `t` each input's buffer at its block and the outputs' at `outsAt3`; the invariant the scoped rest and the
    pseudo-random register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => (outsAt3 V c t).1
    | ⟨9, _⟩ => (outsAt3 V c t).2
  Φ _ := Pipeline.ΦA spec3 c
  q _ := fullShare
  owed _ := 0

/-- The proof data's arrays are the region-entry contents (the definition projected, so that `V` is never unfolded). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = (outsAt3 V c t).1 := by dsimp only [dat3]
theorem after3_9 (c : Dev nD) (t : Fin cfg3.N) : (dat3 V c).after 9 t = (outsAt3 V c t).2 := by dsimp only [dat3]
/-- The same with each output's contents spelled as the run's term at the point's memrefs and input blocks. -/
theorem after3_8_run (c : Dev nD) (t : Fin cfg3.N) : (dat3 V c).after 8 t
    = out3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t) := by dsimp only [dat3, outsAt3]
theorem after3_9_run (c : Dev nD) (t : Fin cfg3.N) : (dat3 V c).after 9 t
    = out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t) := by dsimp only [dat3, outsAt3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t)
    ∗ owns (c : Thread nD τ) (ms3_7 t) fullShare ((dat3 V c).after 7 t)
    ∗ owns (c : Thread nD τ) (ms3_8 t) fullShare ((dat3 V c).after 8 t)
    ∗ owns (c : Thread nD τ) (ms3_9 t) fullShare ((dat3 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  rw [show (dat3 V c).Φ t.castSucc = Pipeline.ΦA spec3 c from rfl, PhiA3_eq]
  unfold outsAt3
  unfold out3_A_8 out3_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun3_A c _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover3_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover3_A_9 c _ _ _ _ _ _ _ _ _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.K.Body4.lean ====
/- The kernel body of region 4 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.Kernel.Launch
import proofs.«428164_j36979668418798_3_alg».proof.Proof.Gen.Kernel.Skeleton
import proofs.«428164_j36979668418798_3_alg».proof.Proof.Gen.Kernel.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO4_8 : View sig .tc .vmem S8x128x1024 .f32 := (Memref.whole cc4_stg8_0 : Memref sig .tc .vmem S8x128x1024 .f32).view
abbrev VO4_9 : View sig .tc .vmem S128x1024 .f32 := (Memref.whole cc4_stg9_0 : Memref sig .tc .vmem S128x1024 .f32).view
/-- Each window's current staging memref at point `t`, spelled as the pipeline passes it, and its wholeness. -/
abbrev ms4_0 (t : Fin cfg4.N) : Memref sig .tc .vmem S8x128x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024x3072 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1024x2048 .bf16 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1024x1024 .bf16 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x1x1024 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x1x1024 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x1x1024 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S8x128x1024 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S128x1024 .f32 := win4_9.stage (cfg4.slots t 9)
abbrev hs4_9 (t : Fin cfg4.N) : (ms4_9 t).IsWhole := hstage4_9 ((cfg4.slots t 9).cast nbuf4_9)
/-- The scratch operand: a whole scoped buffer of the kernel's own, passed beside the windows. -/
abbrev scM4_0 : Memref sig .tc .vmem S1024x3072 .bf16 := Memref.whole cc4_scratch0

/-- The region's invariant with the scratch operand as a memref owned at some contents, every other scoped buffer
    that is no staging buffer left unopened, and the pseudo-random register: what the body obligation hands the run
    and takes back. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun4_A (c : Dev nD) (i : grid4.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc4__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc4__gru_layer_kernel_eq_skeleton]; unfold cc4__gru_layer_kernel_skel
    simp only [k4_part1_eq_skeleton, k4_part2_eq_skeleton, k4_part3_eq_skeleton, k4_part4_eq_skeleton, k4_part5_eq_skeleton, k4_part6_eq_skeleton, k4_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.Kernel.Gen

end
-- ==== Proof.K.Reg4.lean ====
/- Region 4 at the contents `V` the TensorCore's buffers hold when the region is entered: each window's block at a
   point, what the body leaves in the output windows there, the pipeline's proof data, and the body obligation. -/
import proofs.«428164_j36979668418798_3_alg».proof.Proof.K.Body4

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for ANY proof data
    whose array is `V`'s (`hA`) and whose body leaves the block in place (`hafter`): unfetched, the block index has
    not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in each output window's buffer -/

/-- The run's pieces for output 8 — one slice of extent 1 along the leading axis per timestep — tile its block, so they cover it. -/
theorem cover4_A_8 (c : Dev nD) (i : grid4.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun4_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out4_A_8 (c : Dev nD) (i : grid4.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover4_A_9 (c : Dev nD) (i : grid4.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun4_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out4_A_9 (c : Dev nD) (i : grid4.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO4_9.read (Elt F) (VO4_9.writes (Elt F) VO4_9.junk (kernelRun4_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt4 (c : Dev nD) (t : Fin cfg4.N) : Vec F S8x128x1024 .f32 × Vec F S128x1024 .f32 :=
  (out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) (iblk4 V c 0 t) (iblk4 V c 1 t) (iblk4 V c 2 t) (iblk4 V c 3 t) (iblk4 V c 4 t) (iblk4 V c 5 t) (iblk4 V c 6 t) (iblk4 V c 7 t),
   out4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) (iblk4 V c 0 t) (iblk4 V c 1 t) (iblk4 V c 2 t) (iblk4 V c 3 t) (iblk4 V c 4 t) (iblk4 V c 5 t) (iblk4 V c 6 t) (iblk4 V c 7 t))

/-! ## The pipeline's proof data -/

/-- The proof data of the region's pipeline on core `c`: the arrays as the region finds them (`V`); after the body at
    point `t` each input's buffer at its block and the outputs' at `outsAt4`; the invariant the scoped rest and the
    pseudo-random register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => (outsAt4 V c t).1
    | ⟨9, _⟩ => (outsAt4 V c t).2
  Φ _ := Pipeline.ΦA spec4 c
  q _ := fullShare
  owed _ := 0

/-- The proof data's arrays are the region-entry contents (the definition projected, so that `V` is never unfolded). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = (outsAt4 V c t).1 := by dsimp only [dat4]
theorem after4_9 (c : Dev nD) (t : Fin cfg4.N) : (dat4 V c).after 9 t = (outsAt4 V c t).2 := by dsimp only [dat4]
/-- The same with each output's contents spelled as the run's term at the point's memrefs and input blocks. -/
theorem after4_8_run (c : Dev nD) (t : Fin cfg4.N) : (dat4 V c).after 8 t
    = out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) (iblk4 V c 0 t) (iblk4 V c 1 t) (iblk4 V c 2 t) (iblk4 V c 3 t) (iblk4 V c 4 t) (iblk4 V c 5 t) (iblk4 V c 6 t) (iblk4 V c 7 t) := by dsimp only [dat4, outsAt4]
theorem after4_9_run (c : Dev nD) (t : Fin cfg4.N) : (dat4 V c).after 9 t
    = out4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) (iblk4 V c 0 t) (iblk4 V c 1 t) (iblk4 V c 2 t) (iblk4 V c 3 t) (iblk4 V c 4 t) (iblk4 V c 5 t) (iblk4 V c 6 t) (iblk4 V c 7 t) := by dsimp only [dat4, outsAt4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t)
    ∗ owns (c : Thread nD τ) (ms4_9 t) fullShare ((dat4 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  rw [show (dat4 V c).Φ t.castSucc = Pipeline.ΦA spec4 c from rfl, PhiA4_eq]
  unfold outsAt4
  unfold out4_A_8 out4_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun4_A c _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover4_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover4_A_9 c _ _ _ _ _ _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Gen

end
-- ==== Proof.K.Body5.lean ====
/- The kernel body of region 5 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.Kernel.Launch
import proofs.«428164_j36979668418798_3_alg».proof.Proof.Gen.Kernel.Skeleton
import proofs.«428164_j36979668418798_3_alg».proof.Proof.Gen.Kernel.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO5_8 : View sig .tc .vmem S8x128x1024 .f32 := (Memref.whole cc5_stg8_0 : Memref sig .tc .vmem S8x128x1024 .f32).view
abbrev VO5_9 : View sig .tc .vmem S128x1024 .f32 := (Memref.whole cc5_stg9_0 : Memref sig .tc .vmem S128x1024 .f32).view
/-- Each window's current staging memref at point `t`, spelled as the pipeline passes it, and its wholeness. -/
abbrev ms5_0 (t : Fin cfg5.N) : Memref sig .tc .vmem S8x128x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x128x1024 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1024x3072 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1024x2048 .bf16 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x1024x1024 .bf16 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x1x1024 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x1x1024 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S1x1x1024 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S8x128x1024 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S128x1024 .f32 := win5_9.stage (cfg5.slots t 9)
abbrev hs5_9 (t : Fin cfg5.N) : (ms5_9 t).IsWhole := hstage5_9 ((cfg5.slots t 9).cast nbuf5_9)
/-- The scratch operand: a whole scoped buffer of the kernel's own, passed beside the windows. -/
abbrev scM5_0 : Memref sig .tc .vmem S1024x3072 .bf16 := Memref.whole cc5_scratch0

/-- The region's invariant with the scratch operand as a memref owned at some contents, every other scoped buffer
    that is no staging buffer left unopened, and the pseudo-random register: what the body obligation hands the run
    and takes back. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun5_A (c : Dev nD) (i : grid5.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc5__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc5__gru_layer_kernel_eq_skeleton]; unfold cc5__gru_layer_kernel_skel
    simp only [k5_part1_eq_skeleton, k5_part2_eq_skeleton, k5_part3_eq_skeleton, k5_part4_eq_skeleton, k5_part5_eq_skeleton, k5_part6_eq_skeleton, k5_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.Kernel.Gen

end
-- ==== Proof.K.Reg5.lean ====
/- Region 5 at the contents `V` the TensorCore's buffers hold when the region is entered: each window's block at a
   point, what the body leaves in the output windows there, the pipeline's proof data, and the body obligation. -/
import proofs.«428164_j36979668418798_3_alg».proof.Proof.K.Body5

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for ANY proof data
    whose array is `V`'s (`hA`) and whose body leaves the block in place (`hafter`): unfetched, the block index has
    not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-! ## What the body leaves in each output window's buffer -/

/-- The run's pieces for output 8 — one slice of extent 1 along the leading axis per timestep — tile its block, so they cover it. -/
theorem cover5_A_8 (c : Dev nD) (i : grid5.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun5_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out5_A_8 (c : Dev nD) (i : grid5.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO5_8.read (Elt F) (VO5_8.writes (Elt F) VO5_8.junk (kernelRun5_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover5_A_9 (c : Dev nD) (i : grid5.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun5_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out5_A_9 (c : Dev nD) (i : grid5.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO5_9.read (Elt F) (VO5_9.writes (Elt F) VO5_9.junk (kernelRun5_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt5 (c : Dev nD) (t : Fin cfg5.N) : Vec F S8x128x1024 .f32 × Vec F S128x1024 .f32 :=
  (out5_A_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) (iblk5 V c 0 t) (iblk5 V c 1 t) (iblk5 V c 2 t) (iblk5 V c 3 t) (iblk5 V c 4 t) (iblk5 V c 5 t) (iblk5 V c 6 t) (iblk5 V c 7 t),
   out5_A_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) (iblk5 V c 0 t) (iblk5 V c 1 t) (iblk5 V c 2 t) (iblk5 V c 3 t) (iblk5 V c 4 t) (iblk5 V c 5 t) (iblk5 V c 6 t) (iblk5 V c 7 t))

/-! ## The pipeline's proof data -/

/-- The proof data of the region's pipeline on core `c`: the arrays as the region finds them (`V`); after the body at
    point `t` each input's buffer at its block and the outputs' at `outsAt5`; the invariant the scoped rest and the
    pseudo-random register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => (outsAt5 V c t).1
    | ⟨9, _⟩ => (outsAt5 V c t).2
  Φ _ := Pipeline.ΦA spec5 c
  q _ := fullShare
  owed _ := 0

/-- The proof data's arrays are the region-entry contents (the definition projected, so that `V` is never unfolded). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = (outsAt5 V c t).1 := by dsimp only [dat5]
theorem after5_9 (c : Dev nD) (t : Fin cfg5.N) : (dat5 V c).after 9 t = (outsAt5 V c t).2 := by dsimp only [dat5]
/-- The same with each output's contents spelled as the run's term at the point's memrefs and input blocks. -/
theorem after5_8_run (c : Dev nD) (t : Fin cfg5.N) : (dat5 V c).after 8 t
    = out5_A_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) (iblk5 V c 0 t) (iblk5 V c 1 t) (iblk5 V c 2 t) (iblk5 V c 3 t) (iblk5 V c 4 t) (iblk5 V c 5 t) (iblk5 V c 6 t) (iblk5 V c 7 t) := by dsimp only [dat5, outsAt5]
theorem after5_9_run (c : Dev nD) (t : Fin cfg5.N) : (dat5 V c).after 9 t
    = out5_A_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) (iblk5 V c 0 t) (iblk5 V c 1 t) (iblk5 V c 2 t) (iblk5 V c 3 t) (iblk5 V c 4 t) (iblk5 V c 5 t) (iblk5 V c 6 t) (iblk5 V c 7 t) := by dsimp only [dat5, outsAt5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-! ## The body obligation, at a generic point -/

/-- What the body is called with at point `t` (the obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t)
    ∗ owns (c : Thread nD τ) (ms5_6 t) fullShare ((dat5 V c).after 6 t)
    ∗ owns (c : Thread nD τ) (ms5_7 t) fullShare ((dat5 V c).after 7 t)
    ∗ owns (c : Thread nD τ) (ms5_8 t) fullShare ((dat5 V c).after 8 t)
    ∗ owns (c : Thread nD τ) (ms5_9 t) fullShare ((dat5 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  rw [show (dat5 V c).Φ t.castSucc = Pipeline.ΦA spec5 c from rfl, PhiA5_eq]
  unfold outsAt5
  unfold out5_A_8 out5_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun5_A c _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover5_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover5_A_9 c _ _ _ _ _ _ _ _ _ _ _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.K.Body6.lean ====
/- The kernel body of region 6 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.Kernel.Launch
import proofs.«428164_j36979668418798_3_alg».proof.Proof.Gen.Kernel.Skeleton
import proofs.«428164_j36979668418798_3_alg».proof.Proof.Gen.Kernel.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO6_8 : View sig .tc .vmem S8x128x1024 .f32 := (Memref.whole cc6_stg8_0 : Memref sig .tc .vmem S8x128x1024 .f32).view
abbrev VO6_9 : View sig .tc .vmem S128x1024 .f32 := (Memref.whole cc6_stg9_0 : Memref sig .tc .vmem S128x1024 .f32).view
/-- Each window's current staging memref at point `t`, spelled as the pipeline passes it, and its wholeness. -/
abbrev ms6_0 (t : Fin cfg6.N) : Memref sig .tc .vmem S8x128x1024 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x128x1024 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x1024x3072 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x1024x2048 .bf16 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x1024x1024 .bf16 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x1x1024 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x1x1024 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x1x1024 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S8x128x1024 .f32 := win6_8.stage (cfg6.slots t 8)
abbrev hs6_8 (t : Fin cfg6.N) : (ms6_8 t).IsWhole := hstage6_8 ((cfg6.slots t 8).cast nbuf6_8)
abbrev ms6_9 (t : Fin cfg6.N) : Memref sig .tc .vmem S128x1024 .f32 := win6_9.stage (cfg6.slots t 9)
abbrev hs6_9 (t : Fin cfg6.N) : (ms6_9 t).IsWhole := hstage6_9 ((cfg6.slots t 9).cast nbuf6_9)
/-- The scratch operand: a whole scoped buffer of the kernel's own, passed beside the windows. -/
abbrev scM6_0 : Memref sig .tc .vmem S1024x3072 .bf16 := Memref.whole cc6_scratch0

/-- The region's invariant with the scratch operand as a memref owned at some contents, every other scoped buffer
    that is no staging buffer left unopened, and the pseudo-random register: what the body obligation hands the run
    and takes back. -/
theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun6_A (c : Dev nD) (i : grid6.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc6__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc6__gru_layer_kernel_eq_skeleton]; unfold cc6__gru_layer_kernel_skel
    simp only [k6_part1_eq_skeleton, k6_part2_eq_skeleton, k6_part3_eq_skeleton, k6_part4_eq_skeleton, k6_part5_eq_skeleton, k6_part6_eq_skeleton, k6_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.Kernel.Gen

end
-- ==== Proof.K.Reg6.lean ====
/- Region 6 at the contents `V` the TensorCore's buffers hold when the region is entered: each window's block at a
   point, what the body leaves in the output windows there, the pipeline's proof data, and the body obligation. -/
import proofs.«428164_j36979668418798_3_alg».proof.Proof.K.Body6

-- membership in a rectangle of large extents is decided coordinate by coordinate along the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for ANY proof data
    whose array is `V`'s (`hA`) and whose body leaves the block in place (`hafter`): unfetched, the block index has
    not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-! ## What the body leaves in each output window's buffer -/

/-- The run's pieces for output 8 — one slice of extent 1 along the leading axis per timestep — tile its block, so they cover it. -/
theorem cover6_A_8 (c : Dev nD) (i : grid6.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun6_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out6_A_8 (c : Dev nD) (i : grid6.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO6_8.read (Elt F) (VO6_8.writes (Elt F) VO6_8.junk (kernelRun6_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover6_A_9 (c : Dev nD) (i : grid6.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun6_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out6_A_9 (c : Dev nD) (i : grid6.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO6_9.read (Elt F) (VO6_9.writes (Elt F) VO6_9.junk (kernelRun6_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt6 (c : Dev nD) (t : Fin cfg6.N) : Vec F S8x128x1024 .f32 × Vec F S128x1024 .f32 :=
  (out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) (iblk6 V c 0 t) (iblk6 V c 1 t) (iblk6 V c 2 t) (iblk6 V c 3 t) (iblk6 V c 4 t) (iblk6 V c 5 t) (iblk6 V c 6 t) (iblk6 V c 7 t),
   out6_A_9 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) (iblk6 V c 0 t) (iblk6 V c 1 t) (iblk6 V c 2 t) (iblk6 V c 3 t) (iblk6 V c 4 t) (iblk6 V c 5 t) (iblk6 V c 6 t) (iblk6 V c 7 t))

/-! ## The pipeline's proof data -/

/-- The proof data of the region's pipeline on core `c`: the arrays as the region finds them (`V`); after the body at
    point `t` each input's buffer at its block and the outputs' at `outsAt6`; the invariant the scoped rest and the
    pseudo-random register; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => (outsAt6 V c t).1
    | ⟨9, _⟩ => (outsAt6 V c t).2
  Φ _ := Pipeline.ΦA spec6 c
  q _ := fullShare
  owed _ := 0

/-- The proof data's arrays are the region-entry contents (the definition projected, so that `V` is never unfolded). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = (outsAt6 V c t).1 := by dsimp only [dat6]
theorem after6_9 (c : Dev nD) (t : Fin cfg6.N) : (dat6 V c).after 9 t = (outsAt6 V c t).2 := by dsimp only [dat6]
/-- The same with each output's contents spelled as the run's term at the point's memrefs and input blocks. -/
theorem after6_8_run (c : Dev nD) (t : Fin cfg6.N) : (dat6 V c).after 8 t
    = out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) (iblk6 V c 0 t) (iblk6 V c 1 t) (iblk6 V c 2 t) (iblk6 V c 3 t) (iblk6 V c 4 t) (iblk6 V c 5 t) (iblk6 V c 6 t) (iblk6 V c 7 t) := by dsimp only [dat6, outsAt6]
theorem after6_9_run (c : Dev nD) (t : Fin cfg6.N) : (dat6 V c).after 9 t
    = out6_A_9 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) (iblk6 V c 0 t) (iblk6 V c 1 t) (iblk6 V c 2 t) (iblk6 V c 3 t) (iblk6 V c 4 t) (iblk6 V c 5 t) (iblk6 V c 6 t) (iblk6 V c 7 t) := by dsimp only [dat6, outsAt6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

/-! ## The body obligation, at a generic point -/

/-- What the body is called with at point `t` (the obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d))
    ∗ (∃ d, owns (c : Thread nD τ) (ms6_9 t) fullShare ((dat6 V c).before 9 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t)
    ∗ owns (c : Thread nD τ) (ms6_7 t) fullShare ((dat6 V c).after 7 t)
    ∗ owns (c : Thread nD τ) (ms6_8 t) fullShare ((dat6 V c).after 8 t)
    ∗ owns (c : Thread nD τ) (ms6_9 t) fullShare ((dat6 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  rw [show (dat6 V c).Φ t.castSucc = Pipeline.ΦA spec6 c from rfl, PhiA6_eq]
  unfold outsAt6
  unfold out6_A_8 out6_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun6_A c _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover6_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover6_A_9 c _ _ _ _ _ _ _ _ _ _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Gen

end
-- ==== Proof.K.Body7.lean ====
import proofs.«428164_j36979668418798_3_alg».proof.Proof.Gen.Kernel.Launch
import proofs.«428164_j36979668418798_3_alg».proof.Proof.Gen.Kernel.Skeleton
import proofs.«428164_j36979668418798_3_alg».proof.Proof.Gen.Kernel.Points
import Idealize.ShloMosaic.Lib.Pipeline.FrameBody
import Idealize.ShloMosaic.Lib.Ring
import Idealize.ShloMosaic.Lib.Tactic

-- membership in a rectangle of these extents is decided structurally, once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The last layer's body on any staging memrefs -/

/-- One staging buffer of output window 10, through which its contents are stated (the choice does not matter:
    a covering list of pieces reads back the same over any buffer). -/
abbrev VO7_10 : View sig .tc .vmem S8x64x1024 .f32 := (Memref.whole cc7_stg10_0 : Memref sig .tc .vmem S8x64x1024 .f32).view
/-- One staging buffer of output window 11, through which its contents are stated (the choice does not matter:
    a covering list of pieces reads back the same over any buffer). -/
abbrev VO7_11 : View sig .tc .vmem S64x1024 .f32 := (Memref.whole cc7_stg11_0 : Memref sig .tc .vmem S64x1024 .f32).view
/-- One staging buffer of output window 12, through which its contents are stated (the choice does not matter:
    a covering list of pieces reads back the same over any buffer). -/
abbrev VO7_12 : View sig .tc .vmem S8x64x1024 .f32 := (Memref.whole cc7_stg12_0 : Memref sig .tc .vmem S8x64x1024 .f32).view
/-- Each window's current staging memref at point `t`, as the pipeline passes it to the body, and its wholeness. -/
abbrev ms7_0 (t : Fin cfg7.N) : Memref sig .tc .vmem S8x64x1024 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64x1024 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x1024x3072 .bf16 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x1024x2048 .bf16 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x1024x1024 .bf16 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x1x1024 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x1x1024 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S1x1x1024 .f32 := win7_7.stage (cfg7.slots t 7)
abbrev hs7_7 (t : Fin cfg7.N) : (ms7_7 t).IsWhole := hstage7_7 ((cfg7.slots t 7).cast nbuf7_7)
abbrev ms7_8 (t : Fin cfg7.N) : Memref sig .tc .vmem S1024x1024 .bf16 := win7_8.stage (cfg7.slots t 8)
abbrev hs7_8 (t : Fin cfg7.N) : (ms7_8 t).IsWhole := hstage7_8 ((cfg7.slots t 8).cast nbuf7_8)
abbrev ms7_9 (t : Fin cfg7.N) : Memref sig .tc .vmem S1x1024 .f32 := win7_9.stage (cfg7.slots t 9)
abbrev hs7_9 (t : Fin cfg7.N) : (ms7_9 t).IsWhole := hstage7_9 ((cfg7.slots t 9).cast nbuf7_9)
abbrev ms7_10 (t : Fin cfg7.N) : Memref sig .tc .vmem S8x64x1024 .f32 := win7_10.stage (cfg7.slots t 10)
abbrev hs7_10 (t : Fin cfg7.N) : (ms7_10 t).IsWhole := hstage7_10 ((cfg7.slots t 10).cast nbuf7_10)
abbrev ms7_11 (t : Fin cfg7.N) : Memref sig .tc .vmem S64x1024 .f32 := win7_11.stage (cfg7.slots t 11)
abbrev hs7_11 (t : Fin cfg7.N) : (ms7_11 t).IsWhole := hstage7_11 ((cfg7.slots t 11).cast nbuf7_11)
abbrev ms7_12 (t : Fin cfg7.N) : Memref sig .tc .vmem S8x64x1024 .f32 := win7_12.stage (cfg7.slots t 12)
abbrev hs7_12 (t : Fin cfg7.N) : (ms7_12 t).IsWhole := hstage7_12 ((cfg7.slots t 12).cast nbuf7_12)
/-- The scratch operand: a whole scoped buffer of the kernel's own, passed beside the windows. -/
abbrev scM7_0 : Memref sig .tc .vmem S512x3072 .bf16 := Memref.whole cc7_scratch0

/-- The region's invariant with the scratch operand as a memref owned at some contents, the rest of the scoped
    buffers (the other calls' staging buffers and scratch) kept as one unopened factor, and the generator register:
    what the body obligation hands the run and takes back. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

set_option maxHeartbeats 2000000 in
/-- What the body's stores leave in each output's staging memref, as pieces (last first), WITH the proof that on whole
    staging memrefs — the inputs' at their contents, the outputs' at anything, the scratch buffer at anything — the body
    runs to the continuation holding the inputs' as they were, the scratch at some contents, and each output's buffer
    with its pieces written. Output 10 is stored in eight slices, one per timestep, and read back whole once they
    cover it; output 12 is read whole before its one store and that value is used nowhere; the scratch is stored
    whole before any slice of it is read. The pieces are the witness the run finds. -/
noncomputable def kernelRun7_A (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) :
    Σ' (L10 : List (View.Piece (Elt F) S8x64x1024 .f32)), Σ' (L11 : List (View.Piece (Elt F) S64x1024 .f32)), { L12 : List (View.Piece (Elt F) S8x64x1024 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ owns (c : Thread nD τ) arg10 fullShare x9
                ∗ (∃ f, arg11.view.loc (c : Thread nD τ) ↦[arg11.view.set]{fullShare} arg11.view.writes (Elt F) f L10)
                ∗ (∃ f, arg12.view.loc (c : Thread nD τ) ↦[arg12.view.set]{fullShare} arg12.view.writes (Elt F) f L11)
                ∗ (∃ f, arg13.view.loc (c : Thread nD τ) ↦[arg13.view.set]{fullShare} arg13.view.writes (Elt F) f L12)
                ∗ (∃ d, owns (c : Thread nD τ) arg14 fullShare d)) -∗ K ⟨⟩))
          ⊢ wp frame (wpE (defs₀ (F := F)) Variants.none c none) E (cc7__gru_layer_last_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc7__gru_layer_last_kernel_eq_skeleton]; unfold cc7__gru_layer_last_kernel_skel
    simp only [k7_part1_eq_skeleton, k7_part2_eq_skeleton, k7_part3_eq_skeleton, k7_part4_eq_skeleton, k7_part5_eq_skeleton, k7_part6_eq_skeleton, k7_part7_eq_skeleton, k7_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    iexists _, _; isplitr; swap; · iexact HS0
    ipureintro; rfl

end Cert.Kernel.Gen

end
-- ==== Proof.K.Reg7.lean ====
import proofs.«428164_j36979668418798_3_alg».proof.Proof.K.Body7

-- membership in a rectangle of these extents is decided structurally, once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
-- the TensorCore's buffer contents when the region is entered: the parameter this region's half is stated at
variable (V : (c : Dev nD) → (b : Ref sig .tc) → Buf (Elt F) ((c : Thread nD τ).loc b))

/-! # The last layer's region, at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof data
    whose array is `V`'s (`hA`) and whose body leaves the block in place (`hafter`): unfetched, the index has not
    moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for ANY proof data
    whose array is `V`'s (`hA`) and whose body leaves the block in place (`hafter`): unfetched, the index has not
    moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for ANY proof data
    whose array is `V`'s (`hA`) and whose body leaves the block in place (`hafter`): unfetched, the index has not
    moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for ANY proof data
    whose array is `V`'s (`hA`) and whose body leaves the block in place (`hafter`): unfetched, the index has not
    moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for ANY proof data
    whose array is `V`'s (`hA`) and whose body leaves the block in place (`hafter`): unfetched, the index has not
    moved; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for ANY proof data
    whose array is `V`'s (`hA`) and whose body leaves the block in place (`hafter`): unfetched, the index has not
    moved; the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not, for ANY proof data
    whose array is `V`'s (`hA`) and whose body leaves the block in place (`hafter`): unfetched, the index has not
    moved; the window is uncut and never idle. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, fetched there or not, for ANY proof data
    whose array is `V`'s (`hA`) and whose body leaves the block in place (`hafter`): unfetched, the index has not
    moved; the window is uncut and never idle. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, fetched there or not, for ANY proof data
    whose array is `V`'s (`hA`) and whose body leaves the block in place (`hafter`): unfetched, the index has not
    moved; the window is uncut and never idle. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-- Input window 9's current staging buffer holds its block at every point, fetched there or not, for ANY proof data
    whose array is `V`'s (`hA`) and whose body leaves the block in place (`hafter`): unfetched, the index has not
    moved; the window is uncut and never idle. -/
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)

/-! ## What the run leaves in the outputs -/

/-- The run's pieces for output 10 — eight stores, one timestep's slice each — tile its block, so they cover it. -/
theorem cover7_A_10 (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) (y : S8x64x1024.Idx) :
    ∃ pc ∈ (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1, y ∈ pc.1.set :=
  View.cover_of_tiledL (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 S1x64x1024.size (by sl_kernel_rfl) y

/-- What the run leaves in output 10's staging buffer: its pieces read back over junk. -/
def out7_A_10 (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) : Vec F S8x64x1024 .f32 :=
  VO7_10.read (Elt F) (VO7_10.writes (Elt F) VO7_10.junk (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1)

/-- The run's pieces for output 11 tile its block, so they cover it. -/
theorem cover7_A_11 (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) (y : S64x1024.Idx) :
    ∃ pc ∈ (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.1, y ∈ pc.1.set :=
  View.cover_of_tiledL (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.1 S64x1024.size (by sl_kernel_rfl) y

/-- What the run leaves in output 11's staging buffer: its pieces read back over junk. -/
def out7_A_11 (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) : Vec F S64x1024 .f32 :=
  VO7_11.read (Elt F) (VO7_11.writes (Elt F) VO7_11.junk (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.1)

/-- The run's pieces for output 12 tile its block, so they cover it. -/
theorem cover7_A_12 (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) (y : S8x64x1024.Idx) :
    ∃ pc ∈ (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.2.1, y ∈ pc.1.set :=
  View.cover_of_tiledL (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.2.1 S8x64x1024.size (by sl_kernel_rfl) y

/-- What the run leaves in output 12's staging buffer: its pieces read back over junk. -/
def out7_A_12 (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) : Vec F S8x64x1024 .f32 :=
  VO7_12.read (Elt F) (VO7_12.writes (Elt F) VO7_12.junk (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.2.1)

/-! ## What the outputs hold after each point -/

/-- What the outputs' staging buffers hold after the body at point `t`: the run's contents at the point's memrefs and
    input blocks, outputs 10, 11, 12 in that order. -/
def outsAt7 (c : Dev nD) (t : Fin cfg7.N) : Vec F S8x64x1024 .f32 × Vec F S64x1024 .f32 × Vec F S8x64x1024 .f32 :=
  (out7_A_10 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t),
   out7_A_11 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t),
   out7_A_12 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t))

/-! ## The pipeline's proof data -/

/-- The proof data of the region's pipeline on core `c`: the arrays as the region finds them (`V`); after the body at
    point `t` each input's buffer at its block and the outputs' at `outsAt7`; the invariant the scoped rest and the
    generator register; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => (outsAt7 V c t).1
    | ⟨11, _⟩ => (outsAt7 V c t).2.1
    | ⟨12, _⟩ => (outsAt7 V c t).2.2
  Φ _ := Pipeline.ΦA spec7 c
  q _ := fullShare
  owed _ := 0

/-- The proof data's arrays are the region-entry contents (the definition projected, so `V` is never unfolded). -/
theorem A_eq7 (c : Dev nD) (w : Fin cfg7.W) : (dat7 V c).A w = V c (Pipeline.arrRef spec7 w) := by
  dsimp only [dat7]

/-- What the body leaves, window by window (the proof data's `match` reduced). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = (outsAt7 V c t).1 := by dsimp only [dat7]
theorem after7_11 (c : Dev nD) (t : Fin cfg7.N) : (dat7 V c).after 11 t = (outsAt7 V c t).2.1 := by dsimp only [dat7]
theorem after7_12 (c : Dev nD) (t : Fin cfg7.N) : (dat7 V c).after 12 t = (outsAt7 V c t).2.2 := by dsimp only [dat7]

/-- The components of `outsAt7` are the run's output terms at the point's memrefs and input blocks. -/
theorem outsAt7_10 (c : Dev nD) (t : Fin cfg7.N) : (outsAt7 V c t).1 = out7_A_10 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) := by dsimp only [outsAt7]
theorem outsAt7_11 (c : Dev nD) (t : Fin cfg7.N) : (outsAt7 V c t).2.1 = out7_A_11 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) := by dsimp only [outsAt7]
theorem outsAt7_12 (c : Dev nD) (t : Fin cfg7.N) : (outsAt7 V c t).2.2 = out7_A_12 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) := by dsimp only [outsAt7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d

/-! ## The body obligation, at a generic point -/

/-- What the body is called with at point `t` (the obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d))
    ∗ (∃ d, owns (c : Thread nD τ) (ms7_8 t) fullShare ((dat7 V c).before 8 t d))
    ∗ (∃ d, owns (c : Thread nD τ) (ms7_9 t) fullShare ((dat7 V c).before 9 t d))
    ∗ (∃ d, owns (c : Thread nD τ) (ms7_10 t) fullShare ((dat7 V c).before 10 t d))
    ∗ (∃ d, owns (c : Thread nD τ) (ms7_11 t) fullShare ((dat7 V c).before 11 t d))
    ∗ (∃ d, owns (c : Thread nD τ) (ms7_12 t) fullShare ((dat7 V c).before 12 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t)
    ∗ owns (c : Thread nD τ) (ms7_6 t) fullShare ((dat7 V c).after 6 t)
    ∗ owns (c : Thread nD τ) (ms7_7 t) fullShare ((dat7 V c).after 7 t)
    ∗ owns (c : Thread nD τ) (ms7_8 t) fullShare ((dat7 V c).after 8 t)
    ∗ owns (c : Thread nD τ) (ms7_9 t) fullShare ((dat7 V c).after 9 t)
    ∗ owns (c : Thread nD τ) (ms7_10 t) fullShare ((dat7 V c).after 10 t)
    ∗ owns (c : Thread nD τ) (ms7_11 t) fullShare ((dat7 V c).after 11 t)
    ∗ owns (c : Thread nD τ) (ms7_12 t) fullShare ((dat7 V c).after 12 t))

/-- The body at any point: the inputs' memrefs hold their blocks, so the run applies; the invariant hands the body its
    scratch buffer at some contents and takes it back at some contents, the unopened rest of the scoped buffers and
    the generator register pass through untouched; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10, after7_11, after7_12]
  rw [show (dat7 V c).Φ t.castSucc = Pipeline.ΦA spec7 c from rfl, PhiA7_eq]
  rw [outsAt7_10, outsAt7_11, outsAt7_12]
  unfold out7_A_10 out7_A_11 out7_A_12
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun7_A c _ _ _ _ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  iintro ⟨H0, H1, H2, H3, H4, H5, H6, H7, H8, H9, ⟨%e10, H10⟩, ⟨%e11, H11⟩, ⟨%e12, H12⟩, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover7_A_10 c _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover7_A_11 c _ _ _ _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover7_A_12 c _ _ _ _ _ _ _ _ _ _ _ _ _ _ _ _ _ _ _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.Kernel.Gen

end
-- ==== Proof.K.Run.lean ====
import proofs.«428164_j36979668418798_3_alg».proof.Proof.Gen.Kernel.Launch
import proofs.«428164_j36979668418798_3_alg».proof.Proof.K.Reg0
import proofs.«428164_j36979668418798_3_alg».proof.Proof.K.Reg1
import proofs.«428164_j36979668418798_3_alg».proof.Proof.K.Reg2
import proofs.«428164_j36979668418798_3_alg».proof.Proof.K.Reg3
import proofs.«428164_j36979668418798_3_alg».proof.Proof.K.Reg4
import proofs.«428164_j36979668418798_3_alg».proof.Proof.K.Reg5
import proofs.«428164_j36979668418798_3_alg».proof.Proof.K.Reg6
import proofs.«428164_j36979668418798_3_alg».proof.Proof.K.Reg7
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves, every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves, every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves, every other buffer what it held at entry. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves, every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- The same read at the TensorCore's references (region 4's exit contents). -/
abbrev V6 : (c : Dev nD) → (b : Ref sig .tc) → Buf (Elt F) ((c : Thread nD τ).loc b) := fun c b => W6 m ρ c b
/-- At region 4's exit each of its arrays holds what the pipeline leaves, every other buffer what it held at entry. -/
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- At region 5's exit: its arrays at what the pipeline leaves, every other buffer as entered. -/
def W7 (c : Dev nD) : Valuation τ sig (Elt F) :=
  Pipeline.withArrays spec5 c (W6 m ρ c) fun w => (dat5 (V6 m ρ) c).arrAt w cfg5.N
theorem W7_arr (c : Dev nD) (w : Fin cfg5.W) :
    W7 m ρ c (Proc.devRef .tc (Pipeline.arrRef spec5 w)) = (dat5 (V6 m ρ) c).arrAt w cfg5.N := by
  unfold W7; exact Pipeline.withArrays_arr spec5 launch5.win.arr_inj c _ _ w
theorem W7_of_ne (c : Dev nD) (b : Ref sig .tc) (hb : ∀ w, Pipeline.arrRef spec5 w ≠ b) :
    W7 m ρ c (Proc.devRef .tc b) = W6 m ρ c (Proc.devRef .tc b) := by
  unfold W7; exact Pipeline.withArrays_of_ne spec5 c _ _ b hb
/-- The same read at the TensorCore's references (region 5's exit contents). -/
abbrev V7 : (c : Dev nD) → (b : Ref sig .tc) → Buf (Elt F) ((c : Thread nD τ).loc b) := fun c b => W7 m ρ c b
/-- At region 5's exit each of its arrays holds what the pipeline leaves, every other buffer what it held at entry. -/
theorem hF5 (c : Dev nD) (w : Fin cfg5.W) : (dat5 (V6 m ρ) c).arrAt w cfg5.N = V7 m ρ c (Pipeline.arrRef spec5 w) :=
  (W7_arr m ρ c w).symm
theorem hrest5 (c : Dev nD) : ∀ b, b ∉ Finset.univ.image (Pipeline.arrRef spec5) → V7 m ρ c b = V6 m ρ c b :=
  fun b hb => W7_of_ne m ρ c b fun w e => hb (Finset.mem_image.mpr ⟨w, Finset.mem_univ _, e⟩)

/-- At region 6's exit: its arrays at what the pipeline leaves, every other buffer as entered. -/
def W8 (c : Dev nD) : Valuation τ sig (Elt F) :=
  Pipeline.withArrays spec6 c (W7 m ρ c) fun w => (dat6 (V7 m ρ) c).arrAt w cfg6.N
theorem W8_arr (c : Dev nD) (w : Fin cfg6.W) :
    W8 m ρ c (Proc.devRef .tc (Pipeline.arrRef spec6 w)) = (dat6 (V7 m ρ) c).arrAt w cfg6.N := by
  unfold W8; exact Pipeline.withArrays_arr spec6 launch6.win.arr_inj c _ _ w
theorem W8_of_ne (c : Dev nD) (b : Ref sig .tc) (hb : ∀ w, Pipeline.arrRef spec6 w ≠ b) :
    W8 m ρ c (Proc.devRef .tc b) = W7 m ρ c (Proc.devRef .tc b) := by
  unfold W8; exact Pipeline.withArrays_of_ne spec6 c _ _ b hb
/-- The same read at the TensorCore's references (region 6's exit contents). -/
abbrev V8 : (c : Dev nD) → (b : Ref sig .tc) → Buf (Elt F) ((c : Thread nD τ).loc b) := fun c b => W8 m ρ c b
/-- At region 6's exit each of its arrays holds what the pipeline leaves, every other buffer what it held at entry. -/
theorem hF6 (c : Dev nD) (w : Fin cfg6.W) : (dat6 (V7 m ρ) c).arrAt w cfg6.N = V8 m ρ c (Pipeline.arrRef spec6 w) :=
  (W8_arr m ρ c w).symm
theorem hrest6 (c : Dev nD) : ∀ b, b ∉ Finset.univ.image (Pipeline.arrRef spec6) → V8 m ρ c b = V7 m ρ c b :=
  fun b hb => W8_of_ne m ρ c b fun w e => hb (Finset.mem_image.mpr ⟨w, Finset.mem_univ _, e⟩)

/-- At region 7's exit: its arrays at what the pipeline leaves, every other buffer as entered. -/
def W9 (c : Dev nD) : Valuation τ sig (Elt F) :=
  Pipeline.withArrays spec7 c (W8 m ρ c) fun w => (dat7 (V8 m ρ) c).arrAt w cfg7.N
theorem W9_arr (c : Dev nD) (w : Fin cfg7.W) :
    W9 m ρ c (Proc.devRef .tc (Pipeline.arrRef spec7 w)) = (dat7 (V8 m ρ) c).arrAt w cfg7.N := by
  unfold W9; exact Pipeline.withArrays_arr spec7 launch7.win.arr_inj c _ _ w
theorem W9_of_ne (c : Dev nD) (b : Ref sig .tc) (hb : ∀ w, Pipeline.arrRef spec7 w ≠ b) :
    W9 m ρ c (Proc.devRef .tc b) = W8 m ρ c (Proc.devRef .tc b) := by
  unfold W9; exact Pipeline.withArrays_of_ne spec7 c _ _ b hb
/-- The same read at the TensorCore's references (region 7's exit contents). -/
abbrev V9 : (c : Dev nD) → (b : Ref sig .tc) → Buf (Elt F) ((c : Thread nD τ).loc b) := fun c b => W9 m ρ c b
/-- At region 7's exit each of its arrays holds what the pipeline leaves, every other buffer what it held at entry. -/
theorem hF7 (c : Dev nD) (w : Fin cfg7.W) : (dat7 (V8 m ρ) c).arrAt w cfg7.N = V9 m ρ c (Pipeline.arrRef spec7 w) :=
  (W9_arr m ρ c w).symm
theorem hrest7 (c : Dev nD) : ∀ b, b ∉ Finset.univ.image (Pipeline.arrRef spec7) → V9 m ρ c b = V8 m ρ c b :=
  fun b hb => W9_of_ne m ρ c b fun w e => hb (Finset.mem_image.mpr ⟨w, Finset.mem_univ _, e⟩)

/-- After the last host stretch: the contents @main returns with. -/
abbrev W10 : Dev nD → Valuation τ sig (Elt F) := fun c => StableHlo.after hostOps8 (W9 m ρ c)

/-! # What the host stretches write -/

/-- No operation of the first host stretch allocates a buffer. -/
theorem hostOps0_fresh : (hostOps0 : List (HloOp τ sig (Elt F))).Forall fun op => op.fresh = ∅ := by
  simp only [List.Forall]; repeat' constructor
/-- No operation of the last host stretch allocates a buffer. -/
theorem hostOps8_fresh : (hostOps8 : List (HloOp τ sig (Elt F))).Forall fun op => op.fresh = ∅ := by
  simp only [List.Forall]; repeat' constructor
/-- The references the first host stretch writes. -/
abbrev hostOps0_W : List (Ref sig .tc) := [main_v0, main_v1, main_v2, main_v3, main_v4, main_v5, main_v6, main_v7, main_v8, main_v9, main_v10, main_v11, main_v12, main_v13, main_v14]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references the last host stretch writes. -/
abbrev hostOps8_W : List (Ref sig .tc) := [main_v23, main_v24, main_v25, main_v26, main_v27, main_v28, main_v29, main_v30, main_v31, main_v32, main_v33, main_v34, main_v35, main_v36, main_v37, main_v38, main_v39, main_v40, main_v41]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! # The arguments end as launched: no host operation writes one, and a region either stages it through an input window or bypasses it -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_writes_sub hostOps8 _ hostOps8_writes (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_writes_sub hostOps8 _ hostOps8_writes (by decide)
    _ = W8 m ρ c (Proc.devRef .tc main_arg1) := (W9_arr m ρ c 1).trans (((dat7 (V8 m ρ) c).arrAt_in 1 rfl _).trans (A_eq7 (V8 m ρ) c 1))
    _ = W7 m ρ c (Proc.devRef .tc main_arg1) := (W8_arr m ρ c 1).trans (((dat6 (V7 m ρ) c).arrAt_in 1 rfl _).trans (A_eq6 (V7 m ρ) c 1))
    _ = W6 m ρ c (Proc.devRef .tc main_arg1) := (W7_arr m ρ c 1).trans (((dat5 (V6 m ρ) c).arrAt_in 1 rfl _).trans (A_eq5 (V6 m ρ) c 1))
    _ = W5 m ρ c (Proc.devRef .tc main_arg1) := (W6_arr m ρ c 1).trans (((dat4 (V5 m ρ) c).arrAt_in 1 rfl _).trans (A_eq4 (V5 m ρ) c 1))
    _ = W4 m ρ c (Proc.devRef .tc main_arg1) := (W5_arr m ρ c 1).trans (((dat3 (V4 m ρ) c).arrAt_in 1 rfl _).trans (A_eq3 (V4 m ρ) c 1))
    _ = W3 m ρ c (Proc.devRef .tc main_arg1) := (W4_arr m ρ c 1).trans (((dat2 (V3 m ρ) c).arrAt_in 1 rfl _).trans (A_eq2 (V3 m ρ) c 1))
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := StableHlo.after_of_writes_sub hostOps8 _ hostOps8_writes (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := StableHlo.after_of_writes_sub hostOps8 _ hostOps8_writes (by decide)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := StableHlo.after_of_writes_sub hostOps8 _ hostOps8_writes (by decide)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := StableHlo.after_of_writes_sub hostOps8 _ hostOps8_writes (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := StableHlo.after_of_writes_sub hostOps8 _ hostOps8_writes (by decide)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := StableHlo.after_of_writes_sub hostOps8 _ hostOps8_writes (by decide)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := StableHlo.after_of_writes_sub hostOps8 _ hostOps8_writes (by decide)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := StableHlo.after_of_writes_sub hostOps8 _ hostOps8_writes (by decide)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := StableHlo.after_of_writes_sub hostOps8 _ hostOps8_writes (by decide)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W10_main_arg11 (c : Dev nD) : W10 m ρ c (Proc.devRef .tc main_arg11) = m ((c : Thread nD τ).loc main_arg11) :=
  calc W10 m ρ c (Proc.devRef .tc main_arg11)
    _ = W9 m ρ c (Proc.devRef .tc main_arg11) := StableHlo.after_of_writes_sub hostOps8 _ hostOps8_writes (by decide)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W10_main_arg12 (c : Dev nD) : W10 m ρ c (Proc.devRef .tc main_arg12) = m ((c : Thread nD τ).loc main_arg12) :=
  calc W10 m ρ c (Proc.devRef .tc main_arg12)
    _ = W9 m ρ c (Proc.devRef .tc main_arg12) := StableHlo.after_of_writes_sub hostOps8 _ hostOps8_writes (by decide)
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! # A region leaves an input window's array as entered -/

theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))

theorem W5_in (c : Dev nD) (w : Fin cfg3.W) (hw : (cfg3.win w).isOut = false) :
    W5 m ρ c (Proc.devRef .tc (Pipeline.arrRef spec3 w)) = W4 m ρ c (Proc.devRef .tc (Pipeline.arrRef spec3 w)) :=
  (W5_arr m ρ c w).trans (((dat3 (V4 m ρ) c).arrAt_in w hw _).trans (A_eq3 (V4 m ρ) c w))

theorem W6_in (c : Dev nD) (w : Fin cfg4.W) (hw : (cfg4.win w).isOut = false) :
    W6 m ρ c (Proc.devRef .tc (Pipeline.arrRef spec4 w)) = W5 m ρ c (Proc.devRef .tc (Pipeline.arrRef spec4 w)) :=
  (W6_arr m ρ c w).trans (((dat4 (V5 m ρ) c).arrAt_in w hw _).trans (A_eq4 (V5 m ρ) c w))

theorem W7_in (c : Dev nD) (w : Fin cfg5.W) (hw : (cfg5.win w).isOut = false) :
    W7 m ρ c (Proc.devRef .tc (Pipeline.arrRef spec5 w)) = W6 m ρ c (Proc.devRef .tc (Pipeline.arrRef spec5 w)) :=
  (W7_arr m ρ c w).trans (((dat5 (V6 m ρ) c).arrAt_in w hw _).trans (A_eq5 (V6 m ρ) c w))

theorem W8_in (c : Dev nD) (w : Fin cfg6.W) (hw : (cfg6.win w).isOut = false) :
    W8 m ρ c (Proc.devRef .tc (Pipeline.arrRef spec6 w)) = W7 m ρ c (Proc.devRef .tc (Pipeline.arrRef spec6 w)) :=
  (W8_arr m ρ c w).trans (((dat6 (V7 m ρ) c).arrAt_in w hw _).trans (A_eq6 (V7 m ρ) c w))

theorem W9_in (c : Dev nD) (w : Fin cfg7.W) (hw : (cfg7.win w).isOut = false) :
    W9 m ρ c (Proc.devRef .tc (Pipeline.arrRef spec7 w)) = W8 m ρ c (Proc.devRef .tc (Pipeline.arrRef spec7 w)) :=
  (W9_arr m ρ c w).trans (((dat7 (V8 m ρ) c).arrAt_in w hw _).trans (A_eq7 (V8 m ρ) c w))

/-! # The proof data family and the thread state -/

/-- The prefetched tables' admissible contents: no pipeline has a table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
  | ⟨6, _⟩ => fun c => dat6 (V7 m ρ) c
  | ⟨7, _⟩ => fun c => dat7 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W10 m ρ c) ∗ ∃ r, prngReg c r)

/-! # The regions as segments -/

set_option backward.isDefEq.respectTransparency.types false in
/-- Region 0 over the thread state: entered from every unscoped buffer at `W1`, left at `W2`. Its arrays split out of the
    unscoped buffers and put back at the exit contents; the generator register into the invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays split out of the
    unscoped buffers and put back at the exit contents; the generator register into the invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays split out of the
    unscoped buffers and put back at the exit contents; the generator register into the invariant and out; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`. Its arrays split out of the
    unscoped buffers and put back at the exit contents; the generator register into the invariant and out; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W5`, left at `W6`. Its arrays split out of the
    unscoped buffers and put back at the exit contents; the generator register into the invariant and out; nothing owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W6`, left at `W7`. Its arrays split out of the
    unscoped buffers and put back at the exit contents; the generator register into the invariant and out; nothing owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V6 m ρ) c).loose
  hwaits := Pipeline.hwaits_of_owed_zero _ _ _ _ L lv 5 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec5 c (V6 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V6 m ρ c) (V7 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W7`, left at `W8`. Its arrays split out of the
    unscoped buffers and put back at the exit contents; the generator register into the invariant and out; nothing owed. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V7 m ρ) c).loose
  hwaits := Pipeline.hwaits_of_owed_zero _ _ _ _ L lv 6 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec6 c (V7 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V7 m ρ c) (V8 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W8`, left at `W9`. Its arrays split out of the
    unscoped buffers and put back at the exit contents; the generator register into the invariant and out; nothing owed. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V8 m ρ) c).loose
  hwaits := Pipeline.hwaits_of_owed_zero _ _ _ _ L lv 7 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec7 c (V8 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V8 m ρ c) (V9 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's ten segments in order: the first host stretch, a region per kernel call, the last host stretch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .region (reg5 m ρ),
    .region (reg6 m ρ),
    .region (reg7 m ρ),
    .host (hseg hostOps8 hostOps8_sub hostOps8_fresh (W9 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The frame: @main terminates, nothing faulting, and every final state has the thirteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs (onTc (τ := τ) (main (F := F))) ⟨m, fun _ => 0, ρ⟩).mono
    (fun r h c => ⟨(h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c),
      (h c _ (mem_uc main_arg9 (by decide))).trans (W10_main_arg9 m ρ c),
      (h c _ (mem_uc main_arg10 (by decide))).trans (W10_main_arg10 m ρ c),
      (h c _ (mem_uc main_arg11 (by decide))).trans (W10_main_arg11 m ρ c),
      (h c _ (mem_uc main_arg12 (by decide))).trans (W10_main_arg12 m ρ c)⟩)
    (run_all m ρ)

/-- info: 'Cert.Kernel.Gen.frame' depends on axioms: [propext, Classical.choice, Quot.sound] -/
#guard_msgs in #print axioms frame

end Cert.Kernel.Gen

end
-- ==== Proof.KI.Body0.lean ====
/- The kernel body of region 0 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.KernelIdeal.Launch
import proofs.«428164_j36979668418798_3_alg».proof.Proof.Gen.KernelIdeal.Skeleton
import proofs.«428164_j36979668418798_3_alg».proof.Proof.Gen.KernelIdeal.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO0_8 : View sig .tc .vmem S8x128x1024 .f32 := (Memref.whole cc0_stg8_0 : Memref sig .tc .vmem S8x128x1024 .f32).view
abbrev VO0_9 : View sig .tc .vmem S128x1024 .f32 := (Memref.whole cc0_stg9_0 : Memref sig .tc .vmem S128x1024 .f32).view
/-- Each window's current staging memref at point `t`, spelled as the pipeline passes it, and its wholeness. -/
abbrev ms0_0 (t : Fin cfg0.N) : Memref sig .tc .vmem S8x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x3072 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1024 .f32 := win0_9.stage (cfg0.slots t 9)
abbrev hs0_9 (t : Fin cfg0.N) : (ms0_9 t).IsWhole := hstage0_9 ((cfg0.slots t 9).cast nbuf0_9)
/-- The scratch operand: a whole scoped buffer of the kernel's own, passed beside the windows. -/
abbrev scM0_0 : Memref sig .tc .vmem S1024x3072 .bf16 := Memref.whole cc0_scratch0

/-- The region's invariant with the scratch operand as a memref owned at some contents, every other scoped buffer
    that is no staging buffer left unopened, and the pseudo-random register: what the body obligation hands the run
    and takes back. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun0_A (c : Dev nD) (i : grid0.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc0__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__gru_layer_kernel_eq_skeleton]; unfold cc0__gru_layer_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.KernelIdeal.Gen

end
-- ==== Proof.KI.Reg0.lean ====
/- Region 0 at the contents `V` the TensorCore's buffers hold when the region is entered: each window's block at a
   point, what the body leaves in the output windows there, the pipeline's proof data, and the body obligation. -/
import proofs.«428164_j36979668418798_3_alg».proof.Proof.KI.Body0

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof data
    whose array is `V`'s (`hA`) and whose body leaves the block in place (`hafter`): unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output window's buffer -/

/-- The run's pieces for output 8 — one slice of extent 1 along the leading axis per timestep — tile its block, so they cover it. -/
theorem cover0_A_8 (c : Dev nD) (i : grid0.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out0_A_8 (c : Dev nD) (i : grid0.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover0_A_9 (c : Dev nD) (i : grid0.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out0_A_9 (c : Dev nD) (i : grid0.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt0 (c : Dev nD) (t : Fin cfg0.N) : Vec F S8x128x1024 .f32 × Vec F S128x1024 .f32 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t),
   out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t))

/-! ## The pipeline's proof data -/

/-- The proof data of the region's pipeline on core `c`: the arrays as the region finds them (`V`); after the body at
    point `t` each input's buffer at its block and the outputs' at `outsAt0`; the invariant the scoped rest and the
    pseudo-random register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t).1
    | ⟨9, _⟩ => (outsAt0 V c t).2
  Φ _ := Pipeline.ΦA spec0 c
  q _ := fullShare
  owed _ := 0

/-- The proof data's arrays are the region-entry contents (the definition projected, so that `V` is never unfolded). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t).1 := by dsimp only [dat0]
theorem after0_9 (c : Dev nD) (t : Fin cfg0.N) : (dat0 V c).after 9 t = (outsAt0 V c t).2 := by dsimp only [dat0]
/-- The same with each output's contents spelled as the run's term at the point's memrefs and input blocks. -/
theorem after0_8_run (c : Dev nD) (t : Fin cfg0.N) : (dat0 V c).after 8 t
    = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) := by dsimp only [dat0, outsAt0]
theorem after0_9_run (c : Dev nD) (t : Fin cfg0.N) : (dat0 V c).after 9 t
    = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) := by dsimp only [dat0, outsAt0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  rw [show (dat0 V c).Φ t.castSucc = Pipeline.ΦA spec0 c from rfl, PhiA0_eq]
  unfold outsAt0
  unfold out0_A_8 out0_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Body1.lean ====
/- The kernel body of region 1 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.KernelIdeal.Launch
import proofs.«428164_j36979668418798_3_alg».proof.Proof.Gen.KernelIdeal.Skeleton
import proofs.«428164_j36979668418798_3_alg».proof.Proof.Gen.KernelIdeal.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO1_8 : View sig .tc .vmem S8x128x1024 .f32 := (Memref.whole cc1_stg8_0 : Memref sig .tc .vmem S8x128x1024 .f32).view
abbrev VO1_9 : View sig .tc .vmem S128x1024 .f32 := (Memref.whole cc1_stg9_0 : Memref sig .tc .vmem S128x1024 .f32).view
/-- Each window's current staging memref at point `t`, spelled as the pipeline passes it, and its wholeness. -/
abbrev ms1_0 (t : Fin cfg1.N) : Memref sig .tc .vmem S8x128x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x3072 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x128x1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S128x1024 .f32 := win1_9.stage (cfg1.slots t 9)
abbrev hs1_9 (t : Fin cfg1.N) : (ms1_9 t).IsWhole := hstage1_9 ((cfg1.slots t 9).cast nbuf1_9)
/-- The scratch operand: a whole scoped buffer of the kernel's own, passed beside the windows. -/
abbrev scM1_0 : Memref sig .tc .vmem S1024x3072 .bf16 := Memref.whole cc1_scratch0

/-- The region's invariant with the scratch operand as a memref owned at some contents, every other scoped buffer
    that is no staging buffer left unopened, and the pseudo-random register: what the body obligation hands the run
    and takes back. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun1_A (c : Dev nD) (i : grid1.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc1__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__gru_layer_kernel_eq_skeleton]; unfold cc1__gru_layer_kernel_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.KernelIdeal.Gen

end
-- ==== Proof.KI.Reg1.lean ====
/- Region 1 at the contents `V` the TensorCore's buffers hold when the region is entered: each window's block at a
   point, what the body leaves in the output windows there, the pipeline's proof data, and the body obligation. -/
import proofs.«428164_j36979668418798_3_alg».proof.Proof.KI.Body1

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof data
    whose array is `V`'s (`hA`) and whose body leaves the block in place (`hafter`): unfetched, the block index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in each output window's buffer -/

/-- The run's pieces for output 8 — one slice of extent 1 along the leading axis per timestep — tile its block, so they cover it. -/
theorem cover1_A_8 (c : Dev nD) (i : grid1.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun1_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out1_A_8 (c : Dev nD) (i : grid1.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover1_A_9 (c : Dev nD) (i : grid1.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun1_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out1_A_9 (c : Dev nD) (i : grid1.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt1 (c : Dev nD) (t : Fin cfg1.N) : Vec F S8x128x1024 .f32 × Vec F S128x1024 .f32 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t),
   out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t))

/-! ## The pipeline's proof data -/

/-- The proof data of the region's pipeline on core `c`: the arrays as the region finds them (`V`); after the body at
    point `t` each input's buffer at its block and the outputs' at `outsAt1`; the invariant the scoped rest and the
    pseudo-random register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t).1
    | ⟨9, _⟩ => (outsAt1 V c t).2
  Φ _ := Pipeline.ΦA spec1 c
  q _ := fullShare
  owed _ := 0

/-- The proof data's arrays are the region-entry contents (the definition projected, so that `V` is never unfolded). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t).1 := by dsimp only [dat1]
theorem after1_9 (c : Dev nD) (t : Fin cfg1.N) : (dat1 V c).after 9 t = (outsAt1 V c t).2 := by dsimp only [dat1]
/-- The same with each output's contents spelled as the run's term at the point's memrefs and input blocks. -/
theorem after1_8_run (c : Dev nD) (t : Fin cfg1.N) : (dat1 V c).after 8 t
    = out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) := by dsimp only [dat1, outsAt1]
theorem after1_9_run (c : Dev nD) (t : Fin cfg1.N) : (dat1 V c).after 9 t
    = out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) := by dsimp only [dat1, outsAt1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  rw [show (dat1 V c).Φ t.castSucc = Pipeline.ΦA spec1 c from rfl, PhiA1_eq]
  unfold outsAt1
  unfold out1_A_8 out1_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1_A c _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover1_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover1_A_9 c _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Body2.lean ====
/- The kernel body of region 2 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.KernelIdeal.Launch
import proofs.«428164_j36979668418798_3_alg».proof.Proof.Gen.KernelIdeal.Skeleton
import proofs.«428164_j36979668418798_3_alg».proof.Proof.Gen.KernelIdeal.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO2_8 : View sig .tc .vmem S8x128x1024 .f32 := (Memref.whole cc2_stg8_0 : Memref sig .tc .vmem S8x128x1024 .f32).view
abbrev VO2_9 : View sig .tc .vmem S128x1024 .f32 := (Memref.whole cc2_stg9_0 : Memref sig .tc .vmem S128x1024 .f32).view
/-- Each window's current staging memref at point `t`, spelled as the pipeline passes it, and its wholeness. -/
abbrev ms2_0 (t : Fin cfg2.N) : Memref sig .tc .vmem S8x128x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024x3072 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024x2048 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024x1024 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x1024 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x1x1024 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S8x128x1024 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S128x1024 .f32 := win2_9.stage (cfg2.slots t 9)
abbrev hs2_9 (t : Fin cfg2.N) : (ms2_9 t).IsWhole := hstage2_9 ((cfg2.slots t 9).cast nbuf2_9)
/-- The scratch operand: a whole scoped buffer of the kernel's own, passed beside the windows. -/
abbrev scM2_0 : Memref sig .tc .vmem S1024x3072 .bf16 := Memref.whole cc2_scratch0

/-- The region's invariant with the scratch operand as a memref owned at some contents, every other scoped buffer
    that is no staging buffer left unopened, and the pseudo-random register: what the body obligation hands the run
    and takes back. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun2_A (c : Dev nD) (i : grid2.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc2__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc2__gru_layer_kernel_eq_skeleton]; unfold cc2__gru_layer_kernel_skel
    simp only [k2_part1_eq_skeleton, k2_part2_eq_skeleton, k2_part3_eq_skeleton, k2_part4_eq_skeleton, k2_part5_eq_skeleton, k2_part6_eq_skeleton, k2_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.KernelIdeal.Gen

end
-- ==== Proof.KI.Reg2.lean ====
/- Region 2 at the contents `V` the TensorCore's buffers hold when the region is entered: each window's block at a
   point, what the body leaves in the output windows there, the pipeline's proof data, and the body obligation. -/
import proofs.«428164_j36979668418798_3_alg».proof.Proof.KI.Body2

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for ANY proof data
    whose array is `V`'s (`hA`) and whose body leaves the block in place (`hafter`): unfetched, the block index has
    not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in each output window's buffer -/

/-- The run's pieces for output 8 — one slice of extent 1 along the leading axis per timestep — tile its block, so they cover it. -/
theorem cover2_A_8 (c : Dev nD) (i : grid2.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun2_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out2_A_8 (c : Dev nD) (i : grid2.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover2_A_9 (c : Dev nD) (i : grid2.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun2_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out2_A_9 (c : Dev nD) (i : grid2.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt2 (c : Dev nD) (t : Fin cfg2.N) : Vec F S8x128x1024 .f32 × Vec F S128x1024 .f32 :=
  (out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (iblk2 V c 0 t) (iblk2 V c 1 t) (iblk2 V c 2 t) (iblk2 V c 3 t) (iblk2 V c 4 t) (iblk2 V c 5 t) (iblk2 V c 6 t) (iblk2 V c 7 t),
   out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (iblk2 V c 0 t) (iblk2 V c 1 t) (iblk2 V c 2 t) (iblk2 V c 3 t) (iblk2 V c 4 t) (iblk2 V c 5 t) (iblk2 V c 6 t) (iblk2 V c 7 t))

/-! ## The pipeline's proof data -/

/-- The proof data of the region's pipeline on core `c`: the arrays as the region finds them (`V`); after the body at
    point `t` each input's buffer at its block and the outputs' at `outsAt2`; the invariant the scoped rest and the
    pseudo-random register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t).1
    | ⟨9, _⟩ => (outsAt2 V c t).2
  Φ _ := Pipeline.ΦA spec2 c
  q _ := fullShare
  owed _ := 0

/-- The proof data's arrays are the region-entry contents (the definition projected, so that `V` is never unfolded). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = (outsAt2 V c t).1 := by dsimp only [dat2]
theorem after2_9 (c : Dev nD) (t : Fin cfg2.N) : (dat2 V c).after 9 t = (outsAt2 V c t).2 := by dsimp only [dat2]
/-- The same with each output's contents spelled as the run's term at the point's memrefs and input blocks. -/
theorem after2_8_run (c : Dev nD) (t : Fin cfg2.N) : (dat2 V c).after 8 t
    = out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (iblk2 V c 0 t) (iblk2 V c 1 t) (iblk2 V c 2 t) (iblk2 V c 3 t) (iblk2 V c 4 t) (iblk2 V c 5 t) (iblk2 V c 6 t) (iblk2 V c 7 t) := by dsimp only [dat2, outsAt2]
theorem after2_9_run (c : Dev nD) (t : Fin cfg2.N) : (dat2 V c).after 9 t
    = out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (iblk2 V c 0 t) (iblk2 V c 1 t) (iblk2 V c 2 t) (iblk2 V c 3 t) (iblk2 V c 4 t) (iblk2 V c 5 t) (iblk2 V c 6 t) (iblk2 V c 7 t) := by dsimp only [dat2, outsAt2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  rw [show (dat2 V c).Φ t.castSucc = Pipeline.ΦA spec2 c from rfl, PhiA2_eq]
  unfold outsAt2
  unfold out2_A_8 out2_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun2_A c _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover2_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover2_A_9 c _ _ _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.Body3.lean ====
/- The kernel body of region 3 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.KernelIdeal.Launch
import proofs.«428164_j36979668418798_3_alg».proof.Proof.Gen.KernelIdeal.Skeleton
import proofs.«428164_j36979668418798_3_alg».proof.Proof.Gen.KernelIdeal.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO3_8 : View sig .tc .vmem S8x128x1024 .f32 := (Memref.whole cc3_stg8_0 : Memref sig .tc .vmem S8x128x1024 .f32).view
abbrev VO3_9 : View sig .tc .vmem S128x1024 .f32 := (Memref.whole cc3_stg9_0 : Memref sig .tc .vmem S128x1024 .f32).view
/-- Each window's current staging memref at point `t`, spelled as the pipeline passes it, and its wholeness. -/
abbrev ms3_0 (t : Fin cfg3.N) : Memref sig .tc .vmem S8x128x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024x3072 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024x2048 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024x1024 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1x1024 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x1x1024 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x1x1024 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S8x128x1024 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S128x1024 .f32 := win3_9.stage (cfg3.slots t 9)
abbrev hs3_9 (t : Fin cfg3.N) : (ms3_9 t).IsWhole := hstage3_9 ((cfg3.slots t 9).cast nbuf3_9)
/-- The scratch operand: a whole scoped buffer of the kernel's own, passed beside the windows. -/
abbrev scM3_0 : Memref sig .tc .vmem S1024x3072 .bf16 := Memref.whole cc3_scratch0

/-- The region's invariant with the scratch operand as a memref owned at some contents, every other scoped buffer
    that is no staging buffer left unopened, and the pseudo-random register: what the body obligation hands the run
    and takes back. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun3_A (c : Dev nD) (i : grid3.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc3__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc3__gru_layer_kernel_eq_skeleton]; unfold cc3__gru_layer_kernel_skel
    simp only [k3_part1_eq_skeleton, k3_part2_eq_skeleton, k3_part3_eq_skeleton, k3_part4_eq_skeleton, k3_part5_eq_skeleton, k3_part6_eq_skeleton, k3_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.KernelIdeal.Gen

end
-- ==== Proof.KI.Reg3.lean ====
/- Region 3 at the contents `V` the TensorCore's buffers hold when the region is entered: each window's block at a
   point, what the body leaves in the output windows there, the pipeline's proof data, and the body obligation. -/
import proofs.«428164_j36979668418798_3_alg».proof.Proof.KI.Body3

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for ANY proof data
    whose array is `V`'s (`hA`) and whose body leaves the block in place (`hafter`): unfetched, the block index has
    not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in each output window's buffer -/

/-- The run's pieces for output 8 — one slice of extent 1 along the leading axis per timestep — tile its block, so they cover it. -/
theorem cover3_A_8 (c : Dev nD) (i : grid3.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun3_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out3_A_8 (c : Dev nD) (i : grid3.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO3_8.read (Elt F) (VO3_8.writes (Elt F) VO3_8.junk (kernelRun3_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover3_A_9 (c : Dev nD) (i : grid3.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun3_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out3_A_9 (c : Dev nD) (i : grid3.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO3_9.read (Elt F) (VO3_9.writes (Elt F) VO3_9.junk (kernelRun3_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt3 (c : Dev nD) (t : Fin cfg3.N) : Vec F S8x128x1024 .f32 × Vec F S128x1024 .f32 :=
  (out3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t),
   out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t))

/-! ## The pipeline's proof data -/

/-- The proof data of the region's pipeline on core `c`: the arrays as the region finds them (`V`); after the body at
    point `t` each input's buffer at its block and the outputs' at `outsAt3`; the invariant the scoped rest and the
    pseudo-random register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => (outsAt3 V c t).1
    | ⟨9, _⟩ => (outsAt3 V c t).2
  Φ _ := Pipeline.ΦA spec3 c
  q _ := fullShare
  owed _ := 0

/-- The proof data's arrays are the region-entry contents (the definition projected, so that `V` is never unfolded). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = (outsAt3 V c t).1 := by dsimp only [dat3]
theorem after3_9 (c : Dev nD) (t : Fin cfg3.N) : (dat3 V c).after 9 t = (outsAt3 V c t).2 := by dsimp only [dat3]
/-- The same with each output's contents spelled as the run's term at the point's memrefs and input blocks. -/
theorem after3_8_run (c : Dev nD) (t : Fin cfg3.N) : (dat3 V c).after 8 t
    = out3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t) := by dsimp only [dat3, outsAt3]
theorem after3_9_run (c : Dev nD) (t : Fin cfg3.N) : (dat3 V c).after 9 t
    = out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t) := by dsimp only [dat3, outsAt3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t)
    ∗ owns (c : Thread nD τ) (ms3_7 t) fullShare ((dat3 V c).after 7 t)
    ∗ owns (c : Thread nD τ) (ms3_8 t) fullShare ((dat3 V c).after 8 t)
    ∗ owns (c : Thread nD τ) (ms3_9 t) fullShare ((dat3 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  rw [show (dat3 V c).Φ t.castSucc = Pipeline.ΦA spec3 c from rfl, PhiA3_eq]
  unfold outsAt3
  unfold out3_A_8 out3_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun3_A c _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover3_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover3_A_9 c _ _ _ _ _ _ _ _ _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Body4.lean ====
/- The kernel body of region 4 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.KernelIdeal.Launch
import proofs.«428164_j36979668418798_3_alg».proof.Proof.Gen.KernelIdeal.Skeleton
import proofs.«428164_j36979668418798_3_alg».proof.Proof.Gen.KernelIdeal.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO4_8 : View sig .tc .vmem S8x128x1024 .f32 := (Memref.whole cc4_stg8_0 : Memref sig .tc .vmem S8x128x1024 .f32).view
abbrev VO4_9 : View sig .tc .vmem S128x1024 .f32 := (Memref.whole cc4_stg9_0 : Memref sig .tc .vmem S128x1024 .f32).view
/-- Each window's current staging memref at point `t`, spelled as the pipeline passes it, and its wholeness. -/
abbrev ms4_0 (t : Fin cfg4.N) : Memref sig .tc .vmem S8x128x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024x3072 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1024x2048 .bf16 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x1024x1024 .bf16 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x1x1024 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x1x1024 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x1x1024 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S8x128x1024 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S128x1024 .f32 := win4_9.stage (cfg4.slots t 9)
abbrev hs4_9 (t : Fin cfg4.N) : (ms4_9 t).IsWhole := hstage4_9 ((cfg4.slots t 9).cast nbuf4_9)
/-- The scratch operand: a whole scoped buffer of the kernel's own, passed beside the windows. -/
abbrev scM4_0 : Memref sig .tc .vmem S1024x3072 .bf16 := Memref.whole cc4_scratch0

/-- The region's invariant with the scratch operand as a memref owned at some contents, every other scoped buffer
    that is no staging buffer left unopened, and the pseudo-random register: what the body obligation hands the run
    and takes back. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun4_A (c : Dev nD) (i : grid4.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc4__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc4__gru_layer_kernel_eq_skeleton]; unfold cc4__gru_layer_kernel_skel
    simp only [k4_part1_eq_skeleton, k4_part2_eq_skeleton, k4_part3_eq_skeleton, k4_part4_eq_skeleton, k4_part5_eq_skeleton, k4_part6_eq_skeleton, k4_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.KernelIdeal.Gen

end
-- ==== Proof.KI.Reg4.lean ====
/- Region 4 at the contents `V` the TensorCore's buffers hold when the region is entered: each window's block at a
   point, what the body leaves in the output windows there, the pipeline's proof data, and the body obligation. -/
import proofs.«428164_j36979668418798_3_alg».proof.Proof.KI.Body4

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for ANY proof data
    whose array is `V`'s (`hA`) and whose body leaves the block in place (`hafter`): unfetched, the block index has
    not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in each output window's buffer -/

/-- The run's pieces for output 8 — one slice of extent 1 along the leading axis per timestep — tile its block, so they cover it. -/
theorem cover4_A_8 (c : Dev nD) (i : grid4.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun4_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out4_A_8 (c : Dev nD) (i : grid4.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover4_A_9 (c : Dev nD) (i : grid4.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun4_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out4_A_9 (c : Dev nD) (i : grid4.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO4_9.read (Elt F) (VO4_9.writes (Elt F) VO4_9.junk (kernelRun4_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt4 (c : Dev nD) (t : Fin cfg4.N) : Vec F S8x128x1024 .f32 × Vec F S128x1024 .f32 :=
  (out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) (iblk4 V c 0 t) (iblk4 V c 1 t) (iblk4 V c 2 t) (iblk4 V c 3 t) (iblk4 V c 4 t) (iblk4 V c 5 t) (iblk4 V c 6 t) (iblk4 V c 7 t),
   out4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) (iblk4 V c 0 t) (iblk4 V c 1 t) (iblk4 V c 2 t) (iblk4 V c 3 t) (iblk4 V c 4 t) (iblk4 V c 5 t) (iblk4 V c 6 t) (iblk4 V c 7 t))

/-! ## The pipeline's proof data -/

/-- The proof data of the region's pipeline on core `c`: the arrays as the region finds them (`V`); after the body at
    point `t` each input's buffer at its block and the outputs' at `outsAt4`; the invariant the scoped rest and the
    pseudo-random register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => (outsAt4 V c t).1
    | ⟨9, _⟩ => (outsAt4 V c t).2
  Φ _ := Pipeline.ΦA spec4 c
  q _ := fullShare
  owed _ := 0

/-- The proof data's arrays are the region-entry contents (the definition projected, so that `V` is never unfolded). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = (outsAt4 V c t).1 := by dsimp only [dat4]
theorem after4_9 (c : Dev nD) (t : Fin cfg4.N) : (dat4 V c).after 9 t = (outsAt4 V c t).2 := by dsimp only [dat4]
/-- The same with each output's contents spelled as the run's term at the point's memrefs and input blocks. -/
theorem after4_8_run (c : Dev nD) (t : Fin cfg4.N) : (dat4 V c).after 8 t
    = out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) (iblk4 V c 0 t) (iblk4 V c 1 t) (iblk4 V c 2 t) (iblk4 V c 3 t) (iblk4 V c 4 t) (iblk4 V c 5 t) (iblk4 V c 6 t) (iblk4 V c 7 t) := by dsimp only [dat4, outsAt4]
theorem after4_9_run (c : Dev nD) (t : Fin cfg4.N) : (dat4 V c).after 9 t
    = out4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) (iblk4 V c 0 t) (iblk4 V c 1 t) (iblk4 V c 2 t) (iblk4 V c 3 t) (iblk4 V c 4 t) (iblk4 V c 5 t) (iblk4 V c 6 t) (iblk4 V c 7 t) := by dsimp only [dat4, outsAt4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t)
    ∗ owns (c : Thread nD τ) (ms4_9 t) fullShare ((dat4 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  rw [show (dat4 V c).Φ t.castSucc = Pipeline.ΦA spec4 c from rfl, PhiA4_eq]
  unfold outsAt4
  unfold out4_A_8 out4_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun4_A c _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover4_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover4_A_9 c _ _ _ _ _ _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.KI.Body5.lean ====
/- The kernel body of region 5 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.KernelIdeal.Launch
import proofs.«428164_j36979668418798_3_alg».proof.Proof.Gen.KernelIdeal.Skeleton
import proofs.«428164_j36979668418798_3_alg».proof.Proof.Gen.KernelIdeal.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO5_8 : View sig .tc .vmem S8x128x1024 .f32 := (Memref.whole cc5_stg8_0 : Memref sig .tc .vmem S8x128x1024 .f32).view
abbrev VO5_9 : View sig .tc .vmem S128x1024 .f32 := (Memref.whole cc5_stg9_0 : Memref sig .tc .vmem S128x1024 .f32).view
/-- Each window's current staging memref at point `t`, spelled as the pipeline passes it, and its wholeness. -/
abbrev ms5_0 (t : Fin cfg5.N) : Memref sig .tc .vmem S8x128x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x128x1024 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1024x3072 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1024x2048 .bf16 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x1024x1024 .bf16 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1x1x1024 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x1x1024 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S1x1x1024 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S8x128x1024 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S128x1024 .f32 := win5_9.stage (cfg5.slots t 9)
abbrev hs5_9 (t : Fin cfg5.N) : (ms5_9 t).IsWhole := hstage5_9 ((cfg5.slots t 9).cast nbuf5_9)
/-- The scratch operand: a whole scoped buffer of the kernel's own, passed beside the windows. -/
abbrev scM5_0 : Memref sig .tc .vmem S1024x3072 .bf16 := Memref.whole cc5_scratch0

/-- The region's invariant with the scratch operand as a memref owned at some contents, every other scoped buffer
    that is no staging buffer left unopened, and the pseudo-random register: what the body obligation hands the run
    and takes back. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun5_A (c : Dev nD) (i : grid5.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc5__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc5__gru_layer_kernel_eq_skeleton]; unfold cc5__gru_layer_kernel_skel
    simp only [k5_part1_eq_skeleton, k5_part2_eq_skeleton, k5_part3_eq_skeleton, k5_part4_eq_skeleton, k5_part5_eq_skeleton, k5_part6_eq_skeleton, k5_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.KernelIdeal.Gen

end
-- ==== Proof.KI.Reg5.lean ====
/- Region 5 at the contents `V` the TensorCore's buffers hold when the region is entered: each window's block at a
   point, what the body leaves in the output windows there, the pipeline's proof data, and the body obligation. -/
import proofs.«428164_j36979668418798_3_alg».proof.Proof.KI.Body5

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for ANY proof data
    whose array is `V`'s (`hA`) and whose body leaves the block in place (`hafter`): unfetched, the block index has
    not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-! ## What the body leaves in each output window's buffer -/

/-- The run's pieces for output 8 — one slice of extent 1 along the leading axis per timestep — tile its block, so they cover it. -/
theorem cover5_A_8 (c : Dev nD) (i : grid5.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun5_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out5_A_8 (c : Dev nD) (i : grid5.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO5_8.read (Elt F) (VO5_8.writes (Elt F) VO5_8.junk (kernelRun5_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover5_A_9 (c : Dev nD) (i : grid5.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun5_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out5_A_9 (c : Dev nD) (i : grid5.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO5_9.read (Elt F) (VO5_9.writes (Elt F) VO5_9.junk (kernelRun5_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt5 (c : Dev nD) (t : Fin cfg5.N) : Vec F S8x128x1024 .f32 × Vec F S128x1024 .f32 :=
  (out5_A_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) (iblk5 V c 0 t) (iblk5 V c 1 t) (iblk5 V c 2 t) (iblk5 V c 3 t) (iblk5 V c 4 t) (iblk5 V c 5 t) (iblk5 V c 6 t) (iblk5 V c 7 t),
   out5_A_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) (iblk5 V c 0 t) (iblk5 V c 1 t) (iblk5 V c 2 t) (iblk5 V c 3 t) (iblk5 V c 4 t) (iblk5 V c 5 t) (iblk5 V c 6 t) (iblk5 V c 7 t))

/-! ## The pipeline's proof data -/

/-- The proof data of the region's pipeline on core `c`: the arrays as the region finds them (`V`); after the body at
    point `t` each input's buffer at its block and the outputs' at `outsAt5`; the invariant the scoped rest and the
    pseudo-random register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => (outsAt5 V c t).1
    | ⟨9, _⟩ => (outsAt5 V c t).2
  Φ _ := Pipeline.ΦA spec5 c
  q _ := fullShare
  owed _ := 0

/-- The proof data's arrays are the region-entry contents (the definition projected, so that `V` is never unfolded). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = (outsAt5 V c t).1 := by dsimp only [dat5]
theorem after5_9 (c : Dev nD) (t : Fin cfg5.N) : (dat5 V c).after 9 t = (outsAt5 V c t).2 := by dsimp only [dat5]
/-- The same with each output's contents spelled as the run's term at the point's memrefs and input blocks. -/
theorem after5_8_run (c : Dev nD) (t : Fin cfg5.N) : (dat5 V c).after 8 t
    = out5_A_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) (iblk5 V c 0 t) (iblk5 V c 1 t) (iblk5 V c 2 t) (iblk5 V c 3 t) (iblk5 V c 4 t) (iblk5 V c 5 t) (iblk5 V c 6 t) (iblk5 V c 7 t) := by dsimp only [dat5, outsAt5]
theorem after5_9_run (c : Dev nD) (t : Fin cfg5.N) : (dat5 V c).after 9 t
    = out5_A_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) (iblk5 V c 0 t) (iblk5 V c 1 t) (iblk5 V c 2 t) (iblk5 V c 3 t) (iblk5 V c 4 t) (iblk5 V c 5 t) (iblk5 V c 6 t) (iblk5 V c 7 t) := by dsimp only [dat5, outsAt5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-! ## The body obligation, at a generic point -/

/-- What the body is called with at point `t` (the obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t)
    ∗ owns (c : Thread nD τ) (ms5_6 t) fullShare ((dat5 V c).after 6 t)
    ∗ owns (c : Thread nD τ) (ms5_7 t) fullShare ((dat5 V c).after 7 t)
    ∗ owns (c : Thread nD τ) (ms5_8 t) fullShare ((dat5 V c).after 8 t)
    ∗ owns (c : Thread nD τ) (ms5_9 t) fullShare ((dat5 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  rw [show (dat5 V c).Φ t.castSucc = Pipeline.ΦA spec5 c from rfl, PhiA5_eq]
  unfold outsAt5
  unfold out5_A_8 out5_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun5_A c _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover5_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover5_A_9 c _ _ _ _ _ _ _ _ _ _ _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.KI.Body6.lean ====
/- The kernel body of region 6 on whole staging memrefs: the staging and scratch memrefs the pipeline passes it at a
   point, the region's invariant with the scratch operand as a memref owned at some contents, and the body's whole
   run as a subtype — the pieces each output's staging memref ends with, together with the weakest-precondition
   triple that leaves them there. -/
import proofs.«428164_j36979668418798_3_alg».proof.Proof.Gen.KernelIdeal.Launch
import proofs.«428164_j36979668418798_3_alg».proof.Proof.Gen.KernelIdeal.Skeleton
import proofs.«428164_j36979668418798_3_alg».proof.Proof.Gen.KernelIdeal.Points
import Idealize.ShloMosaic.Lib.Pipeline.FrameBody
import Idealize.ShloMosaic.Lib.Ring
import Idealize.ShloMosaic.Lib.Tactic

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The staging and scratch memrefs -/

/-- One staging buffer of each output window, through which its contents are stated (the choice does not matter:
    a covered block reads the same through any whole view). -/
abbrev VO6_8 : View sig .tc .vmem S8x128x1024 .f32 := (Memref.whole cc6_stg8_0 : Memref sig .tc .vmem S8x128x1024 .f32).view
abbrev VO6_9 : View sig .tc .vmem S128x1024 .f32 := (Memref.whole cc6_stg9_0 : Memref sig .tc .vmem S128x1024 .f32).view
/-- Each window's current staging memref at point `t`, spelled as the pipeline passes it, and its wholeness. -/
abbrev ms6_0 (t : Fin cfg6.N) : Memref sig .tc .vmem S8x128x1024 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x128x1024 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x1024x3072 .bf16 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x1024x2048 .bf16 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x1024x1024 .bf16 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x1x1024 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x1x1024 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x1x1024 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S8x128x1024 .f32 := win6_8.stage (cfg6.slots t 8)
abbrev hs6_8 (t : Fin cfg6.N) : (ms6_8 t).IsWhole := hstage6_8 ((cfg6.slots t 8).cast nbuf6_8)
abbrev ms6_9 (t : Fin cfg6.N) : Memref sig .tc .vmem S128x1024 .f32 := win6_9.stage (cfg6.slots t 9)
abbrev hs6_9 (t : Fin cfg6.N) : (ms6_9 t).IsWhole := hstage6_9 ((cfg6.slots t 9).cast nbuf6_9)
/-- The scratch operand: a whole scoped buffer of the kernel's own, passed beside the windows. -/
abbrev scM6_0 : Memref sig .tc .vmem S1024x3072 .bf16 := Memref.whole cc6_scratch0

/-- The region's invariant with the scratch operand as a memref owned at some contents, every other scoped buffer
    that is no staging buffer left unopened, and the pseudo-random register: what the body obligation hands the run
    and takes back. -/
theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

/-! ## The body's whole run -/

set_option maxHeartbeats 4000000 in
/-- What the body's stores leave in each output's staging memref, as pieces (last first), WITH the proof that on
    whole staging memrefs — the inputs' at their contents, the outputs' at anything, the scratch buffer at anything —
    the body runs to the continuation holding the inputs' as they were, the scratch at some contents, and each
    output's buffer with its pieces written. The scratch is stored whole before any slice of it is loaded, so no
    payload names what it held at entry; the outputs are loaded only where nothing reads the loaded value. -/
noncomputable def kernelRun6_A (c : Dev nD) (i : grid6.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) :
    Σ' (L8 : List (View.Piece (Elt F) S8x128x1024 .f32)), { L9 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc6__gru_layer_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc6__gru_layer_kernel_eq_skeleton]; unfold cc6__gru_layer_kernel_skel
    simp only [k6_part1_eq_skeleton, k6_part2_eq_skeleton, k6_part3_eq_skeleton, k6_part4_eq_skeleton, k6_part5_eq_skeleton, k6_part6_eq_skeleton, k6_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    iexists _, _; isplitr; swap; · iexact HS0
    ipureintro; rfl

end Cert.KernelIdeal.Gen

end
-- ==== Proof.KI.Reg6.lean ====
/- Region 6 at the contents `V` the TensorCore's buffers hold when the region is entered: each window's block at a
   point, what the body leaves in the output windows there, the pipeline's proof data, and the body obligation. -/
import proofs.«428164_j36979668418798_3_alg».proof.Proof.KI.Body6

-- membership in a rectangle of large extents is decided coordinate by coordinate along the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for ANY proof data
    whose array is `V`'s (`hA`) and whose body leaves the block in place (`hafter`): unfetched, the block index has
    not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-! ## What the body leaves in each output window's buffer -/

/-- The run's pieces for output 8 — one slice of extent 1 along the leading axis per timestep — tile its block, so they cover it. -/
theorem cover6_A_8 (c : Dev nD) (i : grid6.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S8x128x1024.Idx) :
    ∃ pc ∈ (kernelRun6_A c i arg1 harg1 arg2 harg2 arg3 harg3 arg4 harg4 arg5 harg5 arg6 harg6 arg7 harg7 arg8 harg8 arg9 harg9 arg10 harg10 arg11 harg11 x0 x1 x2 x3 x4 x5 x6 x7).1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 x0 x1 x2 x3 x4 x5 x6 x7).1 S1x128x1024.size (by sl_kernel_rfl) y

/-- What the run leaves in output 8's staging buffer: its pieces read back over junk. -/
def out6_A_8 (c : Dev nD) (i : grid6.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S8x128x1024 .f32 :=
  VO6_8.read (Elt F) (VO6_8.writes (Elt F) VO6_8.junk (kernelRun6_A c i arg1 harg1 arg2 harg2 arg3 harg3 arg4 harg4 arg5 harg5 arg6 harg6 arg7 harg7 arg8 harg8 arg9 harg9 arg10 harg10 arg11 harg11 x0 x1 x2 x3 x4 x5 x6 x7).1)

/-- The run's pieces for output 9 tile its block, so they cover it. -/
theorem cover6_A_9 (c : Dev nD) (i : grid6.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (y : S128x1024.Idx) :
    ∃ pc ∈ (kernelRun6_A c i arg1 harg1 arg2 harg2 arg3 harg3 arg4 harg4 arg5 harg5 arg6 harg6 arg7 harg7 arg8 harg8 arg9 harg9 arg10 harg10 arg11 harg11 x0 x1 x2 x3 x4 x5 x6 x7).2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 x0 x1 x2 x3 x4 x5 x6 x7).2.1 S128x1024.size (by sl_kernel_rfl) y

/-- What the run leaves in output 9's staging buffer: its pieces read back over junk. -/
def out6_A_9 (c : Dev nD) (i : grid6.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec F S8x128x1024 .f32) (x1 : Vec F S1x128x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) : Vec F S128x1024 .f32 :=
  VO6_9.read (Elt F) (VO6_9.writes (Elt F) VO6_9.junk (kernelRun6_A c i arg1 harg1 arg2 harg2 arg3 harg3 arg4 harg4 arg5 harg5 arg6 harg6 arg7 harg7 arg8 harg8 arg9 harg9 arg10 harg10 arg11 harg11 x0 x1 x2 x3 x4 x5 x6 x7).2.1)

/-! ## What the outputs hold after each point -/

/-- What the outputs' staging buffers hold after the body at point `t`: the run's contents at the point's memrefs and
    input blocks. -/
def outsAt6 (c : Dev nD) (t : Fin cfg6.N) : Vec F S8x128x1024 .f32 × Vec F S128x1024 .f32 :=
  (out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) (iblk6 V c 0 t) (iblk6 V c 1 t) (iblk6 V c 2 t) (iblk6 V c 3 t) (iblk6 V c 4 t) (iblk6 V c 5 t) (iblk6 V c 6 t) (iblk6 V c 7 t),
   out6_A_9 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) (iblk6 V c 0 t) (iblk6 V c 1 t) (iblk6 V c 2 t) (iblk6 V c 3 t) (iblk6 V c 4 t) (iblk6 V c 5 t) (iblk6 V c 6 t) (iblk6 V c 7 t))

/-! ## The pipeline's proof data -/

/-- The proof data of the region's pipeline on core `c`: the arrays as the region finds them (`V`); after the body at
    point `t` each input's buffer at its block and the outputs' at `outsAt6`; the invariant the scoped rest and the
    pseudo-random register; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => (outsAt6 V c t).1
    | ⟨9, _⟩ => (outsAt6 V c t).2
  Φ _ := Pipeline.ΦA spec6 c
  q _ := fullShare
  owed _ := 0

/-- The proof data's arrays are the region-entry contents (the definition projected, so that `V` is never unfolded). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = (outsAt6 V c t).1 := by dsimp only [dat6]
theorem after6_9 (c : Dev nD) (t : Fin cfg6.N) : (dat6 V c).after 9 t = (outsAt6 V c t).2 := by dsimp only [dat6]
/-- The same with each output's contents spelled as the run's term at the point's memrefs and input blocks. -/
theorem after6_8_run (c : Dev nD) (t : Fin cfg6.N) : (dat6 V c).after 8 t
    = out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) (iblk6 V c 0 t) (iblk6 V c 1 t) (iblk6 V c 2 t) (iblk6 V c 3 t) (iblk6 V c 4 t) (iblk6 V c 5 t) (iblk6 V c 6 t) (iblk6 V c 7 t) := by dsimp only [dat6, outsAt6]
theorem after6_9_run (c : Dev nD) (t : Fin cfg6.N) : (dat6 V c).after 9 t
    = out6_A_9 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) (iblk6 V c 0 t) (iblk6 V c 1 t) (iblk6 V c 2 t) (iblk6 V c 3 t) (iblk6 V c 4 t) (iblk6 V c 5 t) (iblk6 V c 6 t) (iblk6 V c 7 t) := by dsimp only [dat6, outsAt6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

/-! ## The body obligation, at a generic point -/

/-- What the body is called with at point `t` (the obligation's precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d))
    ∗ (∃ d, owns (c : Thread nD τ) (ms6_9 t) fullShare ((dat6 V c).before 9 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t)
    ∗ owns (c : Thread nD τ) (ms6_7 t) fullShare ((dat6 V c).after 7 t)
    ∗ owns (c : Thread nD τ) (ms6_8 t) fullShare ((dat6 V c).after 8 t)
    ∗ owns (c : Thread nD τ) (ms6_9 t) fullShare ((dat6 V c).after 9 t))

set_option maxHeartbeats 1000000 in
/-- The body at any point: the inputs' memrefs hold their blocks, so the run applies; the invariant hands the body its
    scratch buffer at some contents and takes it back at some contents, the other scoped buffers and the pseudo-random
    register passing through unread; the core owes nothing throughout; each output's buffer reads as its pieces over
    junk because they cover it. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9]
  rw [show (dat6 V c).Φ t.castSucc = Pipeline.ΦA spec6 c from rfl, PhiA6_eq]
  unfold outsAt6
  unfold out6_A_8 out6_A_9; (try dsimp only)
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun6_A c _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  iintro ⟨H0, H1, H2, H3, H4, H5, H6, H7, ⟨%e8, H8⟩, ⟨%e9, H9⟩, HS0⟩
  isplitl [HS0 HR Hg]
  · isplitl [HS0 HR]
    · isplitl [HS0]
      · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover6_A_8 c _ _ _ _ _ _ _ _ _ _ _ _ _ _ _ _ _ _ _ _ _ _ _ _ _ _ _ _ _ _ _)
  unfold owns; iexists _; isplitr
  swap; · iexact H9
  ipureintro; exact View.read_writes_of_cover _ _ _ _ _ (cover6_A_9 c _ _ _ _ _ _ _ _ _ _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.KI.Body7.lean ====
import proofs.«428164_j36979668418798_3_alg».proof.Proof.Gen.KernelIdeal.Launch
import proofs.«428164_j36979668418798_3_alg».proof.Proof.Gen.KernelIdeal.Skeleton
import proofs.«428164_j36979668418798_3_alg».proof.Proof.Gen.KernelIdeal.Points
import Idealize.ShloMosaic.Lib.Pipeline.FrameBody
import Idealize.ShloMosaic.Lib.Ring
import Idealize.ShloMosaic.Lib.Tactic

-- membership in a rectangle of these extents is decided structurally, once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The last layer's body on any staging memrefs -/

/-- One staging buffer of output window 10, through which its contents are stated (the choice does not matter:
    a covering list of pieces reads back the same over any buffer). -/
abbrev VO7_10 : View sig .tc .vmem S8x64x1024 .f32 := (Memref.whole cc7_stg10_0 : Memref sig .tc .vmem S8x64x1024 .f32).view
/-- One staging buffer of output window 11, through which its contents are stated (the choice does not matter:
    a covering list of pieces reads back the same over any buffer). -/
abbrev VO7_11 : View sig .tc .vmem S64x1024 .f32 := (Memref.whole cc7_stg11_0 : Memref sig .tc .vmem S64x1024 .f32).view
/-- One staging buffer of output window 12, through which its contents are stated (the choice does not matter:
    a covering list of pieces reads back the same over any buffer). -/
abbrev VO7_12 : View sig .tc .vmem S8x64x1024 .f32 := (Memref.whole cc7_stg12_0 : Memref sig .tc .vmem S8x64x1024 .f32).view
/-- Each window's current staging memref at point `t`, as the pipeline passes it to the body, and its wholeness. -/
abbrev ms7_0 (t : Fin cfg7.N) : Memref sig .tc .vmem S8x64x1024 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64x1024 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x1024x3072 .bf16 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x1024x2048 .bf16 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x1024x1024 .bf16 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x1x1024 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S1x1x1024 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S1x1x1024 .f32 := win7_7.stage (cfg7.slots t 7)
abbrev hs7_7 (t : Fin cfg7.N) : (ms7_7 t).IsWhole := hstage7_7 ((cfg7.slots t 7).cast nbuf7_7)
abbrev ms7_8 (t : Fin cfg7.N) : Memref sig .tc .vmem S1024x1024 .bf16 := win7_8.stage (cfg7.slots t 8)
abbrev hs7_8 (t : Fin cfg7.N) : (ms7_8 t).IsWhole := hstage7_8 ((cfg7.slots t 8).cast nbuf7_8)
abbrev ms7_9 (t : Fin cfg7.N) : Memref sig .tc .vmem S1x1024 .f32 := win7_9.stage (cfg7.slots t 9)
abbrev hs7_9 (t : Fin cfg7.N) : (ms7_9 t).IsWhole := hstage7_9 ((cfg7.slots t 9).cast nbuf7_9)
abbrev ms7_10 (t : Fin cfg7.N) : Memref sig .tc .vmem S8x64x1024 .f32 := win7_10.stage (cfg7.slots t 10)
abbrev hs7_10 (t : Fin cfg7.N) : (ms7_10 t).IsWhole := hstage7_10 ((cfg7.slots t 10).cast nbuf7_10)
abbrev ms7_11 (t : Fin cfg7.N) : Memref sig .tc .vmem S64x1024 .f32 := win7_11.stage (cfg7.slots t 11)
abbrev hs7_11 (t : Fin cfg7.N) : (ms7_11 t).IsWhole := hstage7_11 ((cfg7.slots t 11).cast nbuf7_11)
abbrev ms7_12 (t : Fin cfg7.N) : Memref sig .tc .vmem S8x64x1024 .f32 := win7_12.stage (cfg7.slots t 12)
abbrev hs7_12 (t : Fin cfg7.N) : (ms7_12 t).IsWhole := hstage7_12 ((cfg7.slots t 12).cast nbuf7_12)
/-- The scratch operand: a whole scoped buffer of the kernel's own, passed beside the windows. -/
abbrev scM7_0 : Memref sig .tc .vmem S512x3072 .bf16 := Memref.whole cc7_scratch0

/-- The region's invariant with the scratch operand as a memref owned at some contents, the rest of the scoped
    buffers (the other calls' staging buffers and scratch) kept as one unopened factor, and the generator register:
    what the body obligation hands the run and takes back. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

set_option maxHeartbeats 2000000 in
/-- What the body's stores leave in each output's staging memref, as pieces (last first), WITH the proof that on whole
    staging memrefs — the inputs' at their contents, the outputs' at anything, the scratch buffer at anything — the body
    runs to the continuation holding the inputs' as they were, the scratch at some contents, and each output's buffer
    with its pieces written. Output 10 is stored in eight slices, one per timestep, and read back whole once they
    cover it; output 12 is read whole before its one store and that value is used nowhere; the scratch is stored
    whole before any slice of it is read. The pieces are the witness the run finds. -/
noncomputable def kernelRun7_A (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) :
    Σ' (L10 : List (View.Piece (Elt F) S8x64x1024 .f32)), Σ' (L11 : List (View.Piece (Elt F) S64x1024 .f32)), { L12 : List (View.Piece (Elt F) S8x64x1024 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ owns (c : Thread nD τ) arg6 fullShare x5
                ∗ owns (c : Thread nD τ) arg7 fullShare x6
                ∗ owns (c : Thread nD τ) arg8 fullShare x7
                ∗ owns (c : Thread nD τ) arg9 fullShare x8
                ∗ owns (c : Thread nD τ) arg10 fullShare x9
                ∗ (∃ f, arg11.view.loc (c : Thread nD τ) ↦[arg11.view.set]{fullShare} arg11.view.writes (Elt F) f L10)
                ∗ (∃ f, arg12.view.loc (c : Thread nD τ) ↦[arg12.view.set]{fullShare} arg12.view.writes (Elt F) f L11)
                ∗ (∃ f, arg13.view.loc (c : Thread nD τ) ↦[arg13.view.set]{fullShare} arg13.view.writes (Elt F) f L12)
                ∗ (∃ d, owns (c : Thread nD τ) arg14 fullShare d)) -∗ K ⟨⟩))
          ⊢ wp frame (wpE (defs₀ (F := F)) Variants.none c none) E (cc7__gru_layer_last_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc7__gru_layer_last_kernel_eq_skeleton]; unfold cc7__gru_layer_last_kernel_skel
    simp only [k7_part1_eq_skeleton, k7_part2_eq_skeleton, k7_part3_eq_skeleton, k7_part4_eq_skeleton, k7_part5_eq_skeleton, k7_part6_eq_skeleton, k7_part7_eq_skeleton, k7_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    iexists _, _; isplitr; swap; · iexact HS0
    ipureintro; rfl

end Cert.KernelIdeal.Gen

end
-- ==== Proof.KI.Reg7.lean ====
import proofs.«428164_j36979668418798_3_alg».proof.Proof.KI.Body7

-- membership in a rectangle of these extents is decided structurally, once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
-- the TensorCore's buffer contents when the region is entered: the parameter this region's half is stated at
variable (V : (c : Dev nD) → (b : Ref sig .tc) → Buf (Elt F) ((c : Thread nD τ).loc b))

/-! # The last layer's region, at the entry contents `V` -/

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof data
    whose array is `V`'s (`hA`) and whose body leaves the block in place (`hafter`): unfetched, the index has not
    moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for ANY proof data
    whose array is `V`'s (`hA`) and whose body leaves the block in place (`hafter`): unfetched, the index has not
    moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for ANY proof data
    whose array is `V`'s (`hA`) and whose body leaves the block in place (`hafter`): unfetched, the index has not
    moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for ANY proof data
    whose array is `V`'s (`hA`) and whose body leaves the block in place (`hafter`): unfetched, the index has not
    moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for ANY proof data
    whose array is `V`'s (`hA`) and whose body leaves the block in place (`hafter`): unfetched, the index has not
    moved; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not, for ANY proof data
    whose array is `V`'s (`hA`) and whose body leaves the block in place (`hafter`): unfetched, the index has not
    moved; the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not, for ANY proof data
    whose array is `V`'s (`hA`) and whose body leaves the block in place (`hafter`): unfetched, the index has not
    moved; the window is uncut and never idle. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, fetched there or not, for ANY proof data
    whose array is `V`'s (`hA`) and whose body leaves the block in place (`hafter`): unfetched, the index has not
    moved; the window is uncut and never idle. -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, fetched there or not, for ANY proof data
    whose array is `V`'s (`hA`) and whose body leaves the block in place (`hafter`): unfetched, the index has not
    moved; the window is uncut and never idle. -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-- Input window 9's current staging buffer holds its block at every point, fetched there or not, for ANY proof data
    whose array is `V`'s (`hA`) and whose body leaves the block in place (`hafter`): unfetched, the index has not
    moved; the window is uncut and never idle. -/
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)

/-! ## What the run leaves in the outputs -/

/-- The run's pieces for output 10 — eight stores, one timestep's slice each — tile its block, so they cover it. -/
theorem cover7_A_10 (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) (y : S8x64x1024.Idx) :
    ∃ pc ∈ (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1, y ∈ pc.1.set :=
  View.cover_of_tiledL (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 S1x64x1024.size (by sl_kernel_rfl) y

/-- What the run leaves in output 10's staging buffer: its pieces read back over junk. -/
def out7_A_10 (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) : Vec F S8x64x1024 .f32 :=
  VO7_10.read (Elt F) (VO7_10.writes (Elt F) VO7_10.junk (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1)

/-- The run's pieces for output 11 tile its block, so they cover it. -/
theorem cover7_A_11 (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) (y : S64x1024.Idx) :
    ∃ pc ∈ (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.1, y ∈ pc.1.set :=
  View.cover_of_tiledL (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.1 S64x1024.size (by sl_kernel_rfl) y

/-- What the run leaves in output 11's staging buffer: its pieces read back over junk. -/
def out7_A_11 (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) : Vec F S64x1024 .f32 :=
  VO7_11.read (Elt F) (VO7_11.writes (Elt F) VO7_11.junk (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.1)

/-- The run's pieces for output 12 tile its block, so they cover it. -/
theorem cover7_A_12 (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) (y : S8x64x1024.Idx) :
    ∃ pc ∈ (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.2.1, y ∈ pc.1.set :=
  View.cover_of_tiledL (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.2.1 S8x64x1024.size (by sl_kernel_rfl) y

/-- What the run leaves in output 12's staging buffer: its pieces read back over junk. -/
def out7_A_12 (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole)
    (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) : Vec F S8x64x1024 .f32 :=
  VO7_12.read (Elt F) (VO7_12.writes (Elt F) VO7_12.junk (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.2.1)

/-! ## What the outputs hold after each point -/

/-- What the outputs' staging buffers hold after the body at point `t`: the run's contents at the point's memrefs and
    input blocks, outputs 10, 11, 12 in that order. -/
def outsAt7 (c : Dev nD) (t : Fin cfg7.N) : Vec F S8x64x1024 .f32 × Vec F S64x1024 .f32 × Vec F S8x64x1024 .f32 :=
  (out7_A_10 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t),
   out7_A_11 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t),
   out7_A_12 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t))

/-! ## The pipeline's proof data -/

/-- The proof data of the region's pipeline on core `c`: the arrays as the region finds them (`V`); after the body at
    point `t` each input's buffer at its block and the outputs' at `outsAt7`; the invariant the scoped rest and the
    generator register; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => (outsAt7 V c t).1
    | ⟨11, _⟩ => (outsAt7 V c t).2.1
    | ⟨12, _⟩ => (outsAt7 V c t).2.2
  Φ _ := Pipeline.ΦA spec7 c
  q _ := fullShare
  owed _ := 0

/-- The proof data's arrays are the region-entry contents (the definition projected, so `V` is never unfolded). -/
theorem A_eq7 (c : Dev nD) (w : Fin cfg7.W) : (dat7 V c).A w = V c (Pipeline.arrRef spec7 w) := by
  dsimp only [dat7]

/-- What the body leaves, window by window (the proof data's `match` reduced). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = (outsAt7 V c t).1 := by dsimp only [dat7]
theorem after7_11 (c : Dev nD) (t : Fin cfg7.N) : (dat7 V c).after 11 t = (outsAt7 V c t).2.1 := by dsimp only [dat7]
theorem after7_12 (c : Dev nD) (t : Fin cfg7.N) : (dat7 V c).after 12 t = (outsAt7 V c t).2.2 := by dsimp only [dat7]

/-- The components of `outsAt7` are the run's output terms at the point's memrefs and input blocks. -/
theorem outsAt7_10 (c : Dev nD) (t : Fin cfg7.N) : (outsAt7 V c t).1 = out7_A_10 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) := by dsimp only [outsAt7]
theorem outsAt7_11 (c : Dev nD) (t : Fin cfg7.N) : (outsAt7 V c t).2.1 = out7_A_11 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) := by dsimp only [outsAt7]
theorem outsAt7_12 (c : Dev nD) (t : Fin cfg7.N) : (outsAt7 V c t).2.2 = out7_A_12 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) := by dsimp only [outsAt7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d

/-! ## The body obligation, at a generic point -/

/-- What the body is called with at point `t` (the obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d))
    ∗ (∃ d, owns (c : Thread nD τ) (ms7_8 t) fullShare ((dat7 V c).before 8 t d))
    ∗ (∃ d, owns (c : Thread nD τ) (ms7_9 t) fullShare ((dat7 V c).before 9 t d))
    ∗ (∃ d, owns (c : Thread nD τ) (ms7_10 t) fullShare ((dat7 V c).before 10 t d))
    ∗ (∃ d, owns (c : Thread nD τ) (ms7_11 t) fullShare ((dat7 V c).before 11 t d))
    ∗ (∃ d, owns (c : Thread nD τ) (ms7_12 t) fullShare ((dat7 V c).before 12 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t)
    ∗ owns (c : Thread nD τ) (ms7_6 t) fullShare ((dat7 V c).after 6 t)
    ∗ owns (c : Thread nD τ) (ms7_7 t) fullShare ((dat7 V c).after 7 t)
    ∗ owns (c : Thread nD τ) (ms7_8 t) fullShare ((dat7 V c).after 8 t)
    ∗ owns (c : Thread nD τ) (ms7_9 t) fullShare ((dat7 V c).after 9 t)
    ∗ owns (c : Thread nD τ) (ms7_10 t) fullShare ((dat7 V c).after 10 t)
    ∗ owns (c : Thread nD τ) (ms7_11 t) fullShare ((dat7 V c).after 11 t)
    ∗ owns (c : Thread nD τ) (ms7_12 t) fullShare ((dat7 V c).after 12 t))

/-- The body at any point: the inputs' memrefs hold their blocks, so the run applies; the invariant hands the body its
    scratch buffer at some contents and takes it back at some contents, the unopened rest of the scoped buffers and
    the generator register pass through untouched; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10, after7_11, after7_12]
  rw [show (dat7 V c).Φ t.castSucc = Pipeline.ΦA spec7 c from rfl, PhiA7_eq]
  rw [outsAt7_10, outsAt7_11, outsAt7_12]
  unfold out7_A_10 out7_A_11 out7_A_12
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun7_A c _ _ _ _ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  iintro ⟨H0, H1, H2, H3, H4, H5, H6, H7, H8, H9, ⟨%e10, H10⟩, ⟨%e11, H11⟩, ⟨%e12, H12⟩, HS0⟩
  isplitl [HS0 HR Hg]
  · isplitl [HS0 HR]
    · isplitl [HS0]; · iexact HS0
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover7_A_10 c _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover7_A_11 c _ _ _ _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover7_A_12 c _ _ _ _ _ _ _ _ _ _ _ _ _ _ _ _ _ _ _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.KernelIdeal.Gen

end
-- ==== Proof.KI.Run.lean ====
import proofs.«428164_j36979668418798_3_alg».proof.Proof.Gen.KernelIdeal.Launch
import proofs.«428164_j36979668418798_3_alg».proof.Proof.KI.Reg0
import proofs.«428164_j36979668418798_3_alg».proof.Proof.KI.Reg1
import proofs.«428164_j36979668418798_3_alg».proof.Proof.KI.Reg2
import proofs.«428164_j36979668418798_3_alg».proof.Proof.KI.Reg3
import proofs.«428164_j36979668418798_3_alg».proof.Proof.KI.Reg4
import proofs.«428164_j36979668418798_3_alg».proof.Proof.KI.Reg5
import proofs.«428164_j36979668418798_3_alg».proof.Proof.KI.Reg6
import proofs.«428164_j36979668418798_3_alg».proof.Proof.KI.Reg7
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves, every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves, every other buffer what it held at entry. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves, every other buffer what it held at entry. -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves, every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- The same read at the TensorCore's references (region 4's exit contents). -/
abbrev V6 : (c : Dev nD) → (b : Ref sig .tc) → Buf (Elt F) ((c : Thread nD τ).loc b) := fun c b => W6 m ρ c b
/-- At region 4's exit each of its arrays holds what the pipeline leaves, every other buffer what it held at entry. -/
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- At region 5's exit: its arrays at what the pipeline leaves, every other buffer as entered. -/
def W7 (c : Dev nD) : Valuation τ sig (Elt F) :=
  Pipeline.withArrays spec5 c (W6 m ρ c) fun w => (dat5 (V6 m ρ) c).arrAt w cfg5.N
theorem W7_arr (c : Dev nD) (w : Fin cfg5.W) :
    W7 m ρ c (Proc.devRef .tc (Pipeline.arrRef spec5 w)) = (dat5 (V6 m ρ) c).arrAt w cfg5.N := by
  unfold W7; exact Pipeline.withArrays_arr spec5 launch5.win.arr_inj c _ _ w
theorem W7_of_ne (c : Dev nD) (b : Ref sig .tc) (hb : ∀ w, Pipeline.arrRef spec5 w ≠ b) :
    W7 m ρ c (Proc.devRef .tc b) = W6 m ρ c (Proc.devRef .tc b) := by
  unfold W7; exact Pipeline.withArrays_of_ne spec5 c _ _ b hb
/-- The same read at the TensorCore's references (region 5's exit contents). -/
abbrev V7 : (c : Dev nD) → (b : Ref sig .tc) → Buf (Elt F) ((c : Thread nD τ).loc b) := fun c b => W7 m ρ c b
/-- At region 5's exit each of its arrays holds what the pipeline leaves, every other buffer what it held at entry. -/
theorem hF5 (c : Dev nD) (w : Fin cfg5.W) : (dat5 (V6 m ρ) c).arrAt w cfg5.N = V7 m ρ c (Pipeline.arrRef spec5 w) :=
  (W7_arr m ρ c w).symm
theorem hrest5 (c : Dev nD) : ∀ b, b ∉ Finset.univ.image (Pipeline.arrRef spec5) → V7 m ρ c b = V6 m ρ c b :=
  fun b hb => W7_of_ne m ρ c b fun w e => hb (Finset.mem_image.mpr ⟨w, Finset.mem_univ _, e⟩)

/-- At region 6's exit: its arrays at what the pipeline leaves, every other buffer as entered. -/
def W8 (c : Dev nD) : Valuation τ sig (Elt F) :=
  Pipeline.withArrays spec6 c (W7 m ρ c) fun w => (dat6 (V7 m ρ) c).arrAt w cfg6.N
theorem W8_arr (c : Dev nD) (w : Fin cfg6.W) :
    W8 m ρ c (Proc.devRef .tc (Pipeline.arrRef spec6 w)) = (dat6 (V7 m ρ) c).arrAt w cfg6.N := by
  unfold W8; exact Pipeline.withArrays_arr spec6 launch6.win.arr_inj c _ _ w
theorem W8_of_ne (c : Dev nD) (b : Ref sig .tc) (hb : ∀ w, Pipeline.arrRef spec6 w ≠ b) :
    W8 m ρ c (Proc.devRef .tc b) = W7 m ρ c (Proc.devRef .tc b) := by
  unfold W8; exact Pipeline.withArrays_of_ne spec6 c _ _ b hb
/-- The same read at the TensorCore's references (region 6's exit contents). -/
abbrev V8 : (c : Dev nD) → (b : Ref sig .tc) → Buf (Elt F) ((c : Thread nD τ).loc b) := fun c b => W8 m ρ c b
/-- At region 6's exit each of its arrays holds what the pipeline leaves, every other buffer what it held at entry. -/
theorem hF6 (c : Dev nD) (w : Fin cfg6.W) : (dat6 (V7 m ρ) c).arrAt w cfg6.N = V8 m ρ c (Pipeline.arrRef spec6 w) :=
  (W8_arr m ρ c w).symm
theorem hrest6 (c : Dev nD) : ∀ b, b ∉ Finset.univ.image (Pipeline.arrRef spec6) → V8 m ρ c b = V7 m ρ c b :=
  fun b hb => W8_of_ne m ρ c b fun w e => hb (Finset.mem_image.mpr ⟨w, Finset.mem_univ _, e⟩)

/-- At region 7's exit: its arrays at what the pipeline leaves, every other buffer as entered. -/
def W9 (c : Dev nD) : Valuation τ sig (Elt F) :=
  Pipeline.withArrays spec7 c (W8 m ρ c) fun w => (dat7 (V8 m ρ) c).arrAt w cfg7.N
theorem W9_arr (c : Dev nD) (w : Fin cfg7.W) :
    W9 m ρ c (Proc.devRef .tc (Pipeline.arrRef spec7 w)) = (dat7 (V8 m ρ) c).arrAt w cfg7.N := by
  unfold W9; exact Pipeline.withArrays_arr spec7 launch7.win.arr_inj c _ _ w
theorem W9_of_ne (c : Dev nD) (b : Ref sig .tc) (hb : ∀ w, Pipeline.arrRef spec7 w ≠ b) :
    W9 m ρ c (Proc.devRef .tc b) = W8 m ρ c (Proc.devRef .tc b) := by
  unfold W9; exact Pipeline.withArrays_of_ne spec7 c _ _ b hb
/-- The same read at the TensorCore's references (region 7's exit contents). -/
abbrev V9 : (c : Dev nD) → (b : Ref sig .tc) → Buf (Elt F) ((c : Thread nD τ).loc b) := fun c b => W9 m ρ c b
/-- At region 7's exit each of its arrays holds what the pipeline leaves, every other buffer what it held at entry. -/
theorem hF7 (c : Dev nD) (w : Fin cfg7.W) : (dat7 (V8 m ρ) c).arrAt w cfg7.N = V9 m ρ c (Pipeline.arrRef spec7 w) :=
  (W9_arr m ρ c w).symm
theorem hrest7 (c : Dev nD) : ∀ b, b ∉ Finset.univ.image (Pipeline.arrRef spec7) → V9 m ρ c b = V8 m ρ c b :=
  fun b hb => W9_of_ne m ρ c b fun w e => hb (Finset.mem_image.mpr ⟨w, Finset.mem_univ _, e⟩)

/-- After the last host stretch: the contents @main returns with. -/
abbrev W10 : Dev nD → Valuation τ sig (Elt F) := fun c => StableHlo.after hostOps8 (W9 m ρ c)

/-! # What the host stretches write -/

/-- No operation of the first host stretch allocates a buffer. -/
theorem hostOps0_fresh : (hostOps0 : List (HloOp τ sig (Elt F))).Forall fun op => op.fresh = ∅ := by
  simp only [List.Forall]; repeat' constructor
/-- No operation of the last host stretch allocates a buffer. -/
theorem hostOps8_fresh : (hostOps8 : List (HloOp τ sig (Elt F))).Forall fun op => op.fresh = ∅ := by
  simp only [List.Forall]; repeat' constructor
/-- The references the first host stretch writes. -/
abbrev hostOps0_W : List (Ref sig .tc) := [main_v0, main_v1, main_v2, main_v3, main_v4, main_v5, main_v6, main_v7, main_v8, main_v9, main_v10, main_v11, main_v12, main_v13, main_v14]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references the last host stretch writes. -/
abbrev hostOps8_W : List (Ref sig .tc) := [main_v23, main_v24, main_v25, main_v26, main_v27, main_v28, main_v29, main_v30, main_v31, main_v32, main_v33, main_v34, main_v35, main_v36, main_v37, main_v38, main_v39, main_v40, main_v41]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! # The arguments end as launched: no host operation writes one, and a region either stages it through an input window or bypasses it -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_writes_sub hostOps8 _ hostOps8_writes (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_writes_sub hostOps8 _ hostOps8_writes (by decide)
    _ = W8 m ρ c (Proc.devRef .tc main_arg1) := (W9_arr m ρ c 1).trans (((dat7 (V8 m ρ) c).arrAt_in 1 rfl _).trans (A_eq7 (V8 m ρ) c 1))
    _ = W7 m ρ c (Proc.devRef .tc main_arg1) := (W8_arr m ρ c 1).trans (((dat6 (V7 m ρ) c).arrAt_in 1 rfl _).trans (A_eq6 (V7 m ρ) c 1))
    _ = W6 m ρ c (Proc.devRef .tc main_arg1) := (W7_arr m ρ c 1).trans (((dat5 (V6 m ρ) c).arrAt_in 1 rfl _).trans (A_eq5 (V6 m ρ) c 1))
    _ = W5 m ρ c (Proc.devRef .tc main_arg1) := (W6_arr m ρ c 1).trans (((dat4 (V5 m ρ) c).arrAt_in 1 rfl _).trans (A_eq4 (V5 m ρ) c 1))
    _ = W4 m ρ c (Proc.devRef .tc main_arg1) := (W5_arr m ρ c 1).trans (((dat3 (V4 m ρ) c).arrAt_in 1 rfl _).trans (A_eq3 (V4 m ρ) c 1))
    _ = W3 m ρ c (Proc.devRef .tc main_arg1) := (W4_arr m ρ c 1).trans (((dat2 (V3 m ρ) c).arrAt_in 1 rfl _).trans (A_eq2 (V3 m ρ) c 1))
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := StableHlo.after_of_writes_sub hostOps8 _ hostOps8_writes (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := StableHlo.after_of_writes_sub hostOps8 _ hostOps8_writes (by decide)
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := StableHlo.after_of_writes_sub hostOps8 _ hostOps8_writes (by decide)
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := StableHlo.after_of_writes_sub hostOps8 _ hostOps8_writes (by decide)
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := StableHlo.after_of_writes_sub hostOps8 _ hostOps8_writes (by decide)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := StableHlo.after_of_writes_sub hostOps8 _ hostOps8_writes (by decide)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := StableHlo.after_of_writes_sub hostOps8 _ hostOps8_writes (by decide)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := StableHlo.after_of_writes_sub hostOps8 _ hostOps8_writes (by decide)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := StableHlo.after_of_writes_sub hostOps8 _ hostOps8_writes (by decide)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W10_main_arg11 (c : Dev nD) : W10 m ρ c (Proc.devRef .tc main_arg11) = m ((c : Thread nD τ).loc main_arg11) :=
  calc W10 m ρ c (Proc.devRef .tc main_arg11)
    _ = W9 m ρ c (Proc.devRef .tc main_arg11) := StableHlo.after_of_writes_sub hostOps8 _ hostOps8_writes (by decide)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W10_main_arg12 (c : Dev nD) : W10 m ρ c (Proc.devRef .tc main_arg12) = m ((c : Thread nD τ).loc main_arg12) :=
  calc W10 m ρ c (Proc.devRef .tc main_arg12)
    _ = W9 m ρ c (Proc.devRef .tc main_arg12) := StableHlo.after_of_writes_sub hostOps8 _ hostOps8_writes (by decide)
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! # A region leaves an input window's array as entered -/

theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))

theorem W5_in (c : Dev nD) (w : Fin cfg3.W) (hw : (cfg3.win w).isOut = false) :
    W5 m ρ c (Proc.devRef .tc (Pipeline.arrRef spec3 w)) = W4 m ρ c (Proc.devRef .tc (Pipeline.arrRef spec3 w)) :=
  (W5_arr m ρ c w).trans (((dat3 (V4 m ρ) c).arrAt_in w hw _).trans (A_eq3 (V4 m ρ) c w))

theorem W6_in (c : Dev nD) (w : Fin cfg4.W) (hw : (cfg4.win w).isOut = false) :
    W6 m ρ c (Proc.devRef .tc (Pipeline.arrRef spec4 w)) = W5 m ρ c (Proc.devRef .tc (Pipeline.arrRef spec4 w)) :=
  (W6_arr m ρ c w).trans (((dat4 (V5 m ρ) c).arrAt_in w hw _).trans (A_eq4 (V5 m ρ) c w))

theorem W7_in (c : Dev nD) (w : Fin cfg5.W) (hw : (cfg5.win w).isOut = false) :
    W7 m ρ c (Proc.devRef .tc (Pipeline.arrRef spec5 w)) = W6 m ρ c (Proc.devRef .tc (Pipeline.arrRef spec5 w)) :=
  (W7_arr m ρ c w).trans (((dat5 (V6 m ρ) c).arrAt_in w hw _).trans (A_eq5 (V6 m ρ) c w))

theorem W8_in (c : Dev nD) (w : Fin cfg6.W) (hw : (cfg6.win w).isOut = false) :
    W8 m ρ c (Proc.devRef .tc (Pipeline.arrRef spec6 w)) = W7 m ρ c (Proc.devRef .tc (Pipeline.arrRef spec6 w)) :=
  (W8_arr m ρ c w).trans (((dat6 (V7 m ρ) c).arrAt_in w hw _).trans (A_eq6 (V7 m ρ) c w))

theorem W9_in (c : Dev nD) (w : Fin cfg7.W) (hw : (cfg7.win w).isOut = false) :
    W9 m ρ c (Proc.devRef .tc (Pipeline.arrRef spec7 w)) = W8 m ρ c (Proc.devRef .tc (Pipeline.arrRef spec7 w)) :=
  (W9_arr m ρ c w).trans (((dat7 (V8 m ρ) c).arrAt_in w hw _).trans (A_eq7 (V8 m ρ) c w))

/-! # The proof data family and the thread state -/

/-- The prefetched tables' admissible contents: no pipeline has a table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
  | ⟨5, _⟩ => fun c => dat5 (V6 m ρ) c
  | ⟨6, _⟩ => fun c => dat6 (V7 m ρ) c
  | ⟨7, _⟩ => fun c => dat7 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W10 m ρ c) ∗ ∃ r, prngReg c r)

/-! # The regions as segments -/

set_option backward.isDefEq.respectTransparency.types false in
/-- Region 0 over the thread state: entered from every unscoped buffer at `W1`, left at `W2`. Its arrays split out of the
    unscoped buffers and put back at the exit contents; the generator register into the invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays split out of the
    unscoped buffers and put back at the exit contents; the generator register into the invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays split out of the
    unscoped buffers and put back at the exit contents; the generator register into the invariant and out; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`. Its arrays split out of the
    unscoped buffers and put back at the exit contents; the generator register into the invariant and out; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W5`, left at `W6`. Its arrays split out of the
    unscoped buffers and put back at the exit contents; the generator register into the invariant and out; nothing owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W6`, left at `W7`. Its arrays split out of the
    unscoped buffers and put back at the exit contents; the generator register into the invariant and out; nothing owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V6 m ρ) c).loose
  hwaits := Pipeline.hwaits_of_owed_zero _ _ _ _ L lv 5 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec5 c (V6 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V6 m ρ c) (V7 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W7`, left at `W8`. Its arrays split out of the
    unscoped buffers and put back at the exit contents; the generator register into the invariant and out; nothing owed. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V7 m ρ) c).loose
  hwaits := Pipeline.hwaits_of_owed_zero _ _ _ _ L lv 6 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec6 c (V7 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V7 m ρ c) (V8 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W8`, left at `W9`. Its arrays split out of the
    unscoped buffers and put back at the exit contents; the generator register into the invariant and out; nothing owed. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V8 m ρ) c).loose
  hwaits := Pipeline.hwaits_of_owed_zero _ _ _ _ L lv 7 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec7 c (V8 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V8 m ρ c) (V9 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's ten segments in order: the first host stretch, a region per kernel call, the last host stretch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .region (reg5 m ρ),
    .region (reg6 m ρ),
    .region (reg7 m ρ),
    .host (hseg hostOps8 hostOps8_sub hostOps8_fresh (W9 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The frame: @main terminates, nothing faulting, and every final state has the thirteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs (onTc (τ := τ) (main (F := F))) ⟨m, fun _ => 0, ρ⟩).mono
    (fun r h c => ⟨(h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c),
      (h c _ (mem_uc main_arg9 (by decide))).trans (W10_main_arg9 m ρ c),
      (h c _ (mem_uc main_arg10 (by decide))).trans (W10_main_arg10 m ρ c),
      (h c _ (mem_uc main_arg11 (by decide))).trans (W10_main_arg11 m ρ c),
      (h c _ (mem_uc main_arg12 (by decide))).trans (W10_main_arg12 m ρ c)⟩)
    (run_all m ρ)

/-- info: 'Cert.KernelIdeal.Gen.frame' depends on axioms: [propext, Classical.choice, Quot.sound] -/
#guard_msgs in #print axioms frame

end Cert.KernelIdeal.Gen

end
-- ==== Proof.KI.Val0Mat.lean ====
/-
  The three matrix products of a GRU layer's tile, read entry by entry over the extended reals: each is the sum over
  the 1024 contracted features of the products of the two operands' entries.
-/
import proofs.«428164_j36979668418798_3_alg».proof.Proof.Gen.KernelIdeal.Skeleton
import Idealize.ShloMosaic.PureOps.Ideal
import Idealize.ShloMosaic.PureOps.Ideal.Laws
import Idealize.ShloMosaic.Lib.ValueIdx

noncomputable section

namespace Cert.KernelIdeal.Value0

open Idealize.ShloMosaic Idealize.ShloMosaic.ValueIdx Cert.KernelIdeal Cert.KernelIdeal.Gen
open scoped BigOperators

/-! ### The input-side product: [1024, 1024] by [1024, 3072] -/

abbrev Dx := dot_S1024x1024_S1024x3072_S1024x3072_1_0_0_1_n_n

theorem lhsDx_0 (j : S1024x3072.Idx) (k : Dx.contr.Idx) : (Dx.lhsIdx j k 0 : ℕ) = j 0 := by
  simp [DotDims.lhsIdx, Dx, dot_S1024x1024_S1024x3072_S1024x3072_1_0_0_1_n_n]; rfl
theorem lhsDx_1 (j : S1024x3072.Idx) (k : Dx.contr.Idx) : (Dx.lhsIdx j k 1 : ℕ) = k ⟨0, by decide⟩ := by
  simp [DotDims.lhsIdx, Dx, dot_S1024x1024_S1024x3072_S1024x3072_1_0_0_1_n_n]; rfl
theorem rhsDx_0 (j : S1024x3072.Idx) (k : Dx.contr.Idx) : (Dx.rhsIdx j k 0 : ℕ) = k ⟨0, by decide⟩ := by
  simp [DotDims.rhsIdx, Dx, dot_S1024x1024_S1024x3072_S1024x3072_1_0_0_1_n_n]; rfl
theorem rhsDx_1 (j : S1024x3072.Idx) (k : Dx.contr.Idx) : (Dx.rhsIdx j k 1 : ℕ) = j 1 := by
  simp [DotDims.rhsIdx, Dx, dot_S1024x1024_S1024x3072_S1024x3072_1_0_0_1_n_n]; rfl

/-- Entry (r, c) of this product is the sum over k of A[r, k] · B[k, c]. -/
theorem mmDx_apply (A : FVec Ideal S1024x1024 .bf16) (B : FVec Ideal S1024x3072 .bf16) (r : Fin 1024) (c : Fin 3072) :
    matmul Dx none A B (constant S1024x3072 .f32 0x00000000#32) (ix2 r c) = ∑ k : Fin 1024, A (ix2 r k) * B (ix2 k c) := by
  show FloatOps.matmul Dx none A B _ (ix2 r c) = _
  rw [Ideal.matmul_constant_zero_apply, ← Equiv.sum_comp (contrEquiv1 Dx 1024 rfl rfl).symm]
  refine Finset.sum_congr rfl fun k _ => ?_
  have ck := contrEquiv1_symm_val Dx 1024 rfl rfl k
  have l : Dx.lhsIdx (ix2 r c) ((contrEquiv1 Dx 1024 rfl rfl).symm k) = ix2 r k := by
    funext ax; apply Fin.ext
    match ax with
    | ⟨0, _⟩ => exact lhsDx_0 _ _
    | ⟨1, _⟩ => exact (lhsDx_1 _ _).trans ck
  have rr : Dx.rhsIdx (ix2 r c) ((contrEquiv1 Dx 1024 rfl rfl).symm k) = ix2 k c := by
    funext ax; apply Fin.ext
    match ax with
    | ⟨0, _⟩ => exact (rhsDx_0 _ _).trans ck
    | ⟨1, _⟩ => exact rhsDx_1 _ _
  rw [l, rr]

/-! ### The hidden-side product of the two gates: [128, 1024] by [1024, 2048] -/

abbrev Dzr := dot_S128x1024_S1024x2048_S128x2048_1_0_0_1_n_n

theorem lhsDzr_0 (j : S128x2048.Idx) (k : Dzr.contr.Idx) : (Dzr.lhsIdx j k 0 : ℕ) = j 0 := by
  simp [DotDims.lhsIdx, Dzr, dot_S128x1024_S1024x2048_S128x2048_1_0_0_1_n_n]; rfl
theorem lhsDzr_1 (j : S128x2048.Idx) (k : Dzr.contr.Idx) : (Dzr.lhsIdx j k 1 : ℕ) = k ⟨0, by decide⟩ := by
  simp [DotDims.lhsIdx, Dzr, dot_S128x1024_S1024x2048_S128x2048_1_0_0_1_n_n]; rfl
theorem rhsDzr_0 (j : S128x2048.Idx) (k : Dzr.contr.Idx) : (Dzr.rhsIdx j k 0 : ℕ) = k ⟨0, by decide⟩ := by
  simp [DotDims.rhsIdx, Dzr, dot_S128x1024_S1024x2048_S128x2048_1_0_0_1_n_n]; rfl
theorem rhsDzr_1 (j : S128x2048.Idx) (k : Dzr.contr.Idx) : (Dzr.rhsIdx j k 1 : ℕ) = j 1 := by
  simp [DotDims.rhsIdx, Dzr, dot_S128x1024_S1024x2048_S128x2048_1_0_0_1_n_n]; rfl

/-- Entry (r, c) of this product is the sum over k of A[r, k] · B[k, c]. -/
theorem mmDzr_apply (A : FVec Ideal S128x1024 .bf16) (B : FVec Ideal S1024x2048 .bf16) (r : Fin 128) (c : Fin 2048) :
    matmul Dzr none A B (constant S128x2048 .f32 0x00000000#32) (ix2 r c) = ∑ k : Fin 1024, A (ix2 r k) * B (ix2 k c) := by
  show FloatOps.matmul Dzr none A B _ (ix2 r c) = _
  rw [Ideal.matmul_constant_zero_apply, ← Equiv.sum_comp (contrEquiv1 Dzr 1024 rfl rfl).symm]
  refine Finset.sum_congr rfl fun k _ => ?_
  have ck := contrEquiv1_symm_val Dzr 1024 rfl rfl k
  have l : Dzr.lhsIdx (ix2 r c) ((contrEquiv1 Dzr 1024 rfl rfl).symm k) = ix2 r k := by
    funext ax; apply Fin.ext
    match ax with
    | ⟨0, _⟩ => exact lhsDzr_0 _ _
    | ⟨1, _⟩ => exact (lhsDzr_1 _ _).trans ck
  have rr : Dzr.rhsIdx (ix2 r c) ((contrEquiv1 Dzr 1024 rfl rfl).symm k) = ix2 k c := by
    funext ax; apply Fin.ext
    match ax with
    | ⟨0, _⟩ => exact (rhsDzr_0 _ _).trans ck
    | ⟨1, _⟩ => exact rhsDzr_1 _ _
  rw [l, rr]

/-! ### The hidden-side product of the candidate: [128, 1024] by [1024, 1024] -/

abbrev Dh := dot_S128x1024_S1024x1024_S128x1024_1_0_0_1_n_n

theorem lhsDh_0 (j : S128x1024.Idx) (k : Dh.contr.Idx) : (Dh.lhsIdx j k 0 : ℕ) = j 0 := by
  simp [DotDims.lhsIdx, Dh, dot_S128x1024_S1024x1024_S128x1024_1_0_0_1_n_n]; rfl
theorem lhsDh_1 (j : S128x1024.Idx) (k : Dh.contr.Idx) : (Dh.lhsIdx j k 1 : ℕ) = k ⟨0, by decide⟩ := by
  simp [DotDims.lhsIdx, Dh, dot_S128x1024_S1024x1024_S128x1024_1_0_0_1_n_n]; rfl
theorem rhsDh_0 (j : S128x1024.Idx) (k : Dh.contr.Idx) : (Dh.rhsIdx j k 0 : ℕ) = k ⟨0, by decide⟩ := by
  simp [DotDims.rhsIdx, Dh, dot_S128x1024_S1024x1024_S128x1024_1_0_0_1_n_n]; rfl
theorem rhsDh_1 (j : S128x1024.Idx) (k : Dh.contr.Idx) : (Dh.rhsIdx j k 1 : ℕ) = j 1 := by
  simp [DotDims.rhsIdx, Dh, dot_S128x1024_S1024x1024_S128x1024_1_0_0_1_n_n]; rfl

/-- Entry (r, c) of this product is the sum over k of A[r, k] · B[k, c]. -/
theorem mmDh_apply (A : FVec Ideal S128x1024 .bf16) (B : FVec Ideal S1024x1024 .bf16) (r : Fin 128) (c : Fin 1024) :
    matmul Dh none A B (constant S128x1024 .f32 0x00000000#32) (ix2 r c) = ∑ k : Fin 1024, A (ix2 r k) * B (ix2 k c) := by
  show FloatOps.matmul Dh none A B _ (ix2 r c) = _
  rw [Ideal.matmul_constant_zero_apply, ← Equiv.sum_comp (contrEquiv1 Dh 1024 rfl rfl).symm]
  refine Finset.sum_congr rfl fun k _ => ?_
  have ck := contrEquiv1_symm_val Dh 1024 rfl rfl k
  have l : Dh.lhsIdx (ix2 r c) ((contrEquiv1 Dh 1024 rfl rfl).symm k) = ix2 r k := by
    funext ax; apply Fin.ext
    match ax with
    | ⟨0, _⟩ => exact lhsDh_0 _ _
    | ⟨1, _⟩ => exact (lhsDh_1 _ _).trans ck
  have rr : Dh.rhsIdx (ix2 r c) ((contrEquiv1 Dh 1024 rfl rfl).symm k) = ix2 k c := by
    funext ax; apply Fin.ext
    match ax with
    | ⟨0, _⟩ => exact (rhsDh_0 _ _).trans ck
    | ⟨1, _⟩ => exact rhsDh_1 _ _
  rw [l, rr]

end Cert.KernelIdeal.Value0

end
-- ==== Proof.KI.Val0Step.lean ====
/-
  One time step of a GRU layer on a tile of 128 batch rows, as one function of the tile's previous hidden state, the
  tile's rows of the input-side products, the two hidden-side weight blocks and the three bias rows; and the eight
  hidden states a tile goes through, each the step applied to the one before.
-/
import proofs.«428164_j36979668418798_3_alg».proof.Proof.Gen.KernelIdeal.Skeleton

noncomputable section

namespace Cert.KernelIdeal.Value0

open Idealize.ShloMosaic Cert.KernelIdeal Cert.KernelIdeal.Gen

variable {F : FTy → Type} [FloatOps F]

/-- The new hidden state of a tile: with `xg` the tile's rows of the input-side products (three bands of 1024 columns:
    update gate, reset gate, candidate), `h` the previous hidden state,
      z = σ(xg_z + h·W_z + b_z),  r = σ(xg_r + h·W_r + b_r),  c = tanh(xg_c + (r ⊙ h)·W_c + b_c),
      h' = (1 − z) ⊙ h + z ⊙ c. -/
def step (bz br bh : FVec F S1x1024 .f32) (h : FVec F S128x1024 .f32) (xg : FVec F S128x3072 .bf16)
    (whzr : FVec F S1x1024x2048 .bf16) (whh : FVec F S1x1024x1024 .bf16) : FVec F S128x1024 .f32 :=
  have xz : FVec F S128x1024 .bf16 := extractStridedSlice S128x1024 ![0, 0] xg slices_S128x3072_o0_0_S128x1024
  have xr : FVec F S128x1024 .bf16 := extractStridedSlice S128x1024 ![0, 1024] xg slices_S128x3072_o0_1024_S128x1024
  have xc : FVec F S128x1024 .bf16 := extractStridedSlice S128x1024 ![0, 2048] xg slices_S128x3072_o0_2048_S128x1024
  have hb : FVec F S128x1024 .bf16 := truncf .bf16 h bitsLt_bf16_f32
  have wzr : FVec F S1024x2048 .bf16 := shapeCast S1024x2048 whzr shapeCasts_S1x1024x2048_S1024x2048
  have z0 : FVec F S128x2048 .f32 := constant S128x2048 .f32 0x00000000#32
  have hg : FVec F S128x2048 .f32 := matmul dot_S128x1024_S1024x2048_S128x2048_1_0_0_1_n_n none hb wzr z0
  have hz : FVec F S128x1024 .f32 := extractStridedSlice S128x1024 ![0, 0] hg slices_S128x2048_o0_0_S128x1024
  have hr : FVec F S128x1024 .f32 := extractStridedSlice S128x1024 ![0, 1024] hg slices_S128x2048_o0_1024_S128x1024
  have a1 : FVec F S128x1024 .f32 := extf .f32 xz bitsLt_bf16_f32
  have a2 : FVec F S128x1024 .f32 := addf a1 hz
  have a3 : FVec F S128x1024 .f32 := broadcastTo S128x1024 bz broadcasts_S1x1024_S128x1024
  have a4 : FVec F S128x1024 .f32 := addf a2 a3
  have z : FVec F S128x1024 .f32 := logistic a4
  have b1 : FVec F S128x1024 .f32 := extf .f32 xr bitsLt_bf16_f32
  have b2 : FVec F S128x1024 .f32 := addf b1 hr
  have b3 : FVec F S128x1024 .f32 := broadcastTo S128x1024 br broadcasts_S1x1024_S128x1024
  have b4 : FVec F S128x1024 .f32 := addf b2 b3
  have r : FVec F S128x1024 .f32 := logistic b4
  have rh : FVec F S128x1024 .f32 := mulf r h
  have rhb : FVec F S128x1024 .bf16 := truncf .bf16 rh bitsLt_bf16_f32
  have wc : FVec F S1024x1024 .bf16 := shapeCast S1024x1024 whh shapeCasts_S1x1024x1024_S1024x1024
  have z1 : FVec F S128x1024 .f32 := constant S128x1024 .f32 0x00000000#32
  have hc : FVec F S128x1024 .f32 := matmul dot_S128x1024_S1024x1024_S128x1024_1_0_0_1_n_n none rhb wc z1
  have c1 : FVec F S128x1024 .f32 := extf .f32 xc bitsLt_bf16_f32
  have c2 : FVec F S128x1024 .f32 := addf c1 hc
  have c3 : FVec F S128x1024 .f32 := broadcastTo S128x1024 bh broadcasts_S1x1024_S128x1024
  have c4 : FVec F S128x1024 .f32 := addf c2 c3
  have c : FVec F S128x1024 .f32 := tanh c4
  have one : F .f32 := Scalar.ofBits .f32 0x3F800000#32
  have ones : FVec F S128x1024 .f32 := broadcast S128x1024 one
  have nz : FVec F S128x1024 .f32 := subf ones z
  have keep : FVec F S128x1024 .f32 := mulf nz h
  have upd : FVec F S128x1024 .f32 := mulf z c
  addf keep upd

/-! ### The eight hidden states of the program's body are eight steps

Each equation: the value the body holds as hidden state after time step t, written over the values it loaded, is the step
applied to the hidden state after step t − 1 (the loaded initial state at t = 0), the rows of the input-side products
loaded for step t, and the weight blocks and bias rows as loaded. -/

theorem hid0_eq (v11 : Vec F S1x128x1024 .f32) (v13 v15 v17 : Vec F S1x1x1024 .f32) (v19 : Vec F S128x3072 .bf16)
    (v24 : Vec F S1x1024x2048 .bf16) (v41 : Vec F S1x1024x1024 .bf16) :
    k0_pay13 (k0_pay4 v11) (k0_pay5 v13) (k0_pay6 v15) (k0_pay7 v17) (k0_pay8 v19) (k0_pay9 v19) (k0_pay11 v11 v24)
        (k0_pay12 v11 v19 v24) v41
      = step (k0_pay5 v13) (k0_pay6 v15) (k0_pay7 v17) (k0_pay4 v11) v19 v24 v41 := rfl

theorem hid1_eq (v12 : FVec F S128x1024 .f32) (v14 v16 v18 : FVec F S1x1024 .f32) (v21 v22 : FVec F S128x1024 .bf16)
    (v28 v30 : FVec F S128x1024 .f32) (v41 : Vec F S1x1024x1024 .bf16) (v57 : Vec F S128x3072 .bf16)
    (v62 : Vec F S1x1024x2048 .bf16) (v79 : Vec F S1x1024x1024 .bf16) :
    k0_pay19 v18 (k0_pay13 v12 v14 v16 v18 v21 v22 v28 v30 v41) (k0_pay15 v57)
        (k0_pay17 v12 v14 v16 v18 v21 v22 v28 v30 v41 v57 v62) (k0_pay18 v12 v14 v16 v18 v21 v22 v28 v30 v41 v57 v62) v79
      = step v14 v16 v18 (k0_pay13 v12 v14 v16 v18 v21 v22 v28 v30 v41) v57 v62 v79 := rfl

theorem hid2_eq (v14 v16 v18 : FVec F S1x1024 .f32) (v53 : FVec F S128x1024 .f32) (v60 : FVec F S128x1024 .bf16)
    (v71 v75 : FVec F S128x1024 .f32) (v79 : Vec F S1x1024x1024 .bf16) (v95 : Vec F S128x3072 .bf16)
    (v100 : Vec F S1x1024x2048 .bf16) (v117 : Vec F S1x1024x1024 .bf16) :
    k0_pay25 v18 (k0_pay19 v18 v53 v60 v71 v75 v79) (k0_pay21 v95) (k0_pay23 v14 v18 v53 v60 v71 v75 v79 v95 v100)
        (k0_pay24 v16 v18 v53 v60 v71 v75 v79 v95 v100) v117
      = step v14 v16 v18 (k0_pay19 v18 v53 v60 v71 v75 v79) v95 v100 v117 := rfl

theorem hid3_eq (v14 v16 v18 : FVec F S1x1024 .f32) (v91 : FVec F S128x1024 .f32) (v98 : FVec F S128x1024 .bf16)
    (v109 : FVec F S128x1024 .f32) (v116 : FVec F S128x1024 .bf16) (v117 : Vec F S1x1024x1024 .bf16)
    (v133 : Vec F S128x3072 .bf16) (v138 : Vec F S1x1024x2048 .bf16) (v155 : Vec F S1x1024x1024 .bf16) :
    k0_pay30 (k0_pay25 v18 v91 v98 v109 v116 v117) (k0_pay28 v14 v18 v91 v98 v109 v116 v117 v133 v138)
        (k0_pay29 v16 v18 v91 v98 v109 v116 v117 v133 v138 v155)
      = step v14 v16 v18 (k0_pay25 v18 v91 v98 v109 v116 v117) v133 v138 v155 := rfl

theorem hid4_eq (v14 v16 v18 : FVec F S1x1024 .f32) (v129 v147 v161 : FVec F S128x1024 .f32) (v171 : Vec F S128x3072 .bf16)
    (v176 : Vec F S1x1024x2048 .bf16) (v193 : Vec F S1x1024x1024 .bf16) :
    k0_pay32 v14 v16 v18 v129 v147 v161 v171 v176 v193 = step v14 v16 v18 (k0_pay30 v129 v147 v161) v171 v176 v193 := rfl

theorem hid5_eq (v14 v16 v18 : FVec F S1x1024 .f32) (v205 : FVec F S128x1024 .f32) (v209 : Vec F S128x3072 .bf16)
    (v214 : Vec F S1x1024x2048 .bf16) (v231 : Vec F S1x1024x1024 .bf16) :
    k0_pay34 v14 v16 v18 v205 v209 v214 v231 = step v14 v16 v18 v205 v209 v214 v231 := rfl

theorem hid6_eq (v14 v16 v18 : FVec F S1x1024 .f32) (v243 : FVec F S128x1024 .f32) (v247 : Vec F S128x3072 .bf16)
    (v252 : Vec F S1x1024x2048 .bf16) (v269 : Vec F S1x1024x1024 .bf16) :
    k0_pay36 v14 v16 v18 v243 v247 v252 v269 = step v14 v16 v18 v243 v247 v252 v269 := rfl

theorem hid7_eq (v14 v16 v18 : FVec F S1x1024 .f32) (v243 : FVec F S128x1024 .f32) (v247 : Vec F S128x3072 .bf16)
    (v252 : Vec F S1x1024x2048 .bf16) (v269 : Vec F S1x1024x1024 .bf16) (v285 : Vec F S128x3072 .bf16)
    (v290 : Vec F S1x1024x2048 .bf16) (v307 : Vec F S1x1024x1024 .bf16) :
    k0_pay1 v14 v16 v18 (k0_pay36 v14 v16 v18 v243 v247 v252 v269) (k0_pay38 v285) (k0_pay39 v285) (k0_pay40 v285)
        (k0_pay41 v14 v16 v18 v243 v247 v252 v269) v290 v307
      = step v14 v16 v18 (k0_pay36 v14 v16 v18 v243 v247 v252 v269) v285 v290 v307 := rfl

end Cert.KernelIdeal.Value0

end
-- ==== Proof.Spec.lean ====
/-
  The mathematics both programs compute, stated once over plain functions on the extended reals.

  One GRU cell acts on a single batch row: with input row `x` and previous hidden row `h` (both of width 1024) and the
  layer's nine parameter arrays,
    z = σ(x·Wxz + h·Whz + bz),   r = σ(x·Wxr + h·Whr + br),
    c = tanh(x·Wxh + (r ⊙ h)·Whh + bh),   h' = (1 − z) ⊙ h + z ⊙ c,
  every product a sum over the 1024 contracted features, σ the logistic function. A layer runs the cell along time,
  feeding each step its own previous output; the stack feeds each layer the whole output sequence of the layer below.
  Because a cell at (layer l, time t) reads only the cells (l−1, t) and (l, t−1), running the stack layer by layer
  or time step by time step visits the same cells with the same arguments.
-/
import Idealize.ShloMosaic.PureOps.Ideal
import Idealize.ShloMosaic.Lib.ValueIdx

noncomputable section

namespace Cert.Spec

open Idealize.ShloMosaic

/-- A row of 1024 features. -/
abbrev Row : Type := Fin 1024 → EReal
/-- A weight matrix, indexed [input feature, output feature]. -/
abbrev Mat : Type := Fin 1024 → Fin 1024 → EReal

/-- The parameters of one GRU layer. -/
structure LayerW where
  Wxz : Mat
  Whz : Mat
  bz : Row
  Wxr : Mat
  Whr : Mat
  br : Row
  Wxh : Mat
  Whh : Mat
  bh : Row

/-- The update gate of a row. -/
def gateZ (W : LayerW) (x h : Row) : Row := fun j =>
  Ideal.logistic (((∑ k, x k * W.Wxz k j) + (∑ k, h k * W.Whz k j)) + W.bz j)

/-- The reset gate of a row. -/
def gateR (W : LayerW) (x h : Row) : Row := fun j =>
  Ideal.logistic (((∑ k, x k * W.Wxr k j) + (∑ k, h k * W.Whr k j)) + W.br j)

/-- The candidate state of a row. -/
def cand (W : LayerW) (x h : Row) : Row := fun j =>
  Ideal.tanh (((∑ k, x k * W.Wxh k j) + (∑ k, (gateR W x h k * h k) * W.Whh k j)) + W.bh j)

/-- One GRU cell on one batch row: the new hidden row. -/
def cellRow (W : LayerW) (x h : Row) : Row := fun j =>
  (1 - gateZ W x h j) * h j + gateZ W x h j * cand W x h j

/-- A layer run along time on every batch row: step `t` reads the input sequence at `t` and its own output at `t − 1`
    (the initial state at `t = 0`). -/
def layer (W : LayerW) (xs : ℕ → Fin 512 → Row) (h0 : Fin 512 → Row) : ℕ → Fin 512 → Row
  | 0 => fun b => cellRow W (xs 0 b) (h0 b)
  | t + 1 => fun b => cellRow W (xs (t + 1) b) (layer W xs h0 t b)

theorem layer_zero (W : LayerW) (xs : ℕ → Fin 512 → Row) (h0 : Fin 512 → Row) (b : Fin 512) :
    layer W xs h0 0 b = cellRow W (xs 0 b) (h0 b) := rfl

theorem layer_succ (W : LayerW) (xs : ℕ → Fin 512 → Row) (h0 : Fin 512 → Row) (t : ℕ) (b : Fin 512) :
    layer W xs h0 (t + 1) b = cellRow W (xs (t + 1) b) (layer W xs h0 t b) := rfl

/-- The stack: layer 0 reads the input sequence, layer `l + 1` the output sequence of layer `l`. -/
def stack (W : ℕ → LayerW) (xs : ℕ → Fin 512 → Row) (h0 : ℕ → Fin 512 → Row) : ℕ → ℕ → Fin 512 → Row
  | 0 => layer (W 0) xs (h0 0)
  | l + 1 => layer (W (l + 1)) (stack W xs h0 l) (h0 (l + 1))

theorem stack_zero (W : ℕ → LayerW) (xs : ℕ → Fin 512 → Row) (h0 : ℕ → Fin 512 → Row) :
    stack W xs h0 0 = layer (W 0) xs (h0 0) := rfl

theorem stack_succ (W : ℕ → LayerW) (xs : ℕ → Fin 512 → Row) (h0 : ℕ → Fin 512 → Row) (l : ℕ) :
    stack W xs h0 (l + 1) = layer (W (l + 1)) (stack W xs h0 l) (h0 (l + 1)) := rfl

/-- The output projection of a hidden row. -/
def proj (Why : Mat) (by_ : Row) (h : Row) : Row := fun j => (∑ k, h k * Why k j) + by_ j

end Cert.Spec

end
-- ==== Proof.LayerOf.lean ====
/-
  One layer's parameters as the kernel finds them: the three input-side matrices side by side in one
  `[8, 1024, 3072]` array (columns 0–1023 the update gate's, 1024–2047 the reset gate's, 2048–3071 the candidate's), the
  update and reset gates' hidden-side matrices side by side in one `[8, 1024, 2048]` array, the candidate's hidden-side
  matrix `[8, 1024, 1024]`, and the three biases as `[8, 1, 1024]` arrays; layer `l` is the slab at leading index `l`.
-/
import proofs.«428164_j36979668418798_3_alg».proof.Proof.Spec

noncomputable section

namespace Cert.LayerOf

open Idealize.ShloMosaic Idealize.ShloMosaic.ValueIdx Cert.Spec

abbrev Swx : Shape := ⟨3, ![8, 1024, 3072]⟩
abbrev Swzr : Shape := ⟨3, ![8, 1024, 2048]⟩
abbrev Swh : Shape := ⟨3, ![8, 1024, 1024]⟩
abbrev Sb3 : Shape := ⟨3, ![8, 1, 1024]⟩
abbrev Sseq : Shape := ⟨3, ![8, 512, 1024]⟩
abbrev Sfin : Shape := ⟨2, ![512, 1024]⟩

/-- Column `j` of the `g`-th 1024-wide band of a 3072-wide row. -/
def col3 (g : Fin 3) (j : Fin 1024) : Fin 3072 := ⟨g.val * 1024 + j.val, by have := g.isLt; have := j.isLt; omega⟩
/-- Column `j` of the `g`-th 1024-wide band of a 2048-wide row. -/
def col2 (g : Fin 2) (j : Fin 1024) : Fin 2048 := ⟨g.val * 1024 + j.val, by have := g.isLt; have := j.isLt; omega⟩

/-- Layer `l`'s parameters read out of the side-by-side arrays. -/
def WofV (wx : Swx.Idx → EReal) (wzr : Swzr.Idx → EReal) (wh : Swh.Idx → EReal) (bz br bh : Sb3.Idx → EReal) (l : Fin 8) : LayerW where
  Wxz k j := wx (ix3 l k (col3 0 j))
  Wxr k j := wx (ix3 l k (col3 1 j))
  Wxh k j := wx (ix3 l k (col3 2 j))
  Whz k j := wzr (ix3 l k (col2 0 j))
  Whr k j := wzr (ix3 l k (col2 1 j))
  Whh k j := wh (ix3 l k j)
  bz j := bz (ix3 l 0 j)
  br j := br (ix3 l 0 j)
  bh j := bh (ix3 l 0 j)

/-- A `[time, batch, feature]` array as an input sequence (only the first eight steps occur). -/
def seqOf (u : Sseq.Idx → EReal) (t : ℕ) (b : Fin 512) : Row := fun k => u (ix3 ⟨t % 8, Nat.mod_lt _ (by decide)⟩ b k)
/-- Layer `l`'s initial state out of the stacked `[8, 512, 1024]` array. -/
def initOf (h : Sseq.Idx → EReal) (l : Fin 8) (b : Fin 512) : Row := fun k => h (ix3 l b k)

/-- What a layer's run leaves: its hidden sequence `[time, batch, feature]` … -/
def seqOut (W : LayerW) (u : Sseq.Idx → EReal) (h : Sseq.Idx → EReal) (l : Fin 8) : Sseq.Idx → EReal :=
  fun i => layer W (seqOf u) (initOf h l) (i 0).val (i 1) (i 2)
/-- … and its last hidden state `[batch, feature]`. -/
def finOut (W : LayerW) (u : Sseq.Idx → EReal) (h : Sseq.Idx → EReal) (l : Fin 8) : Sfin.Idx → EReal :=
  fun i => layer W (seqOf u) (initOf h l) 7 (i 0) (i 1)
/-- The projected hidden sequence `[time, batch, feature]`. -/
def projOut (Why : (⟨2, ![1024, 1024]⟩ : Shape).Idx → EReal) (by_ : (⟨2, ![1, 1024]⟩ : Shape).Idx → EReal)
    (W : LayerW) (u : Sseq.Idx → EReal) (h : Sseq.Idx → EReal) (l : Fin 8) : Sseq.Idx → EReal :=
  fun i => proj (fun k j => Why (ix2 k j)) (fun j => by_ (ix2 0 j)) (layer W (seqOf u) (initOf h l) (i 0).val (i 1)) (i 2)

end Cert.LayerOf

end
-- ==== Proof.KI.Val0Cell.lean ====
/-
  A step of the layer on a tile of 128 batch rows, read row by row over the extended reals: row r of the new hidden
  state is the GRU cell of row r — its update gate, reset gate and candidate are the specification's, because each matrix
  product is the sum over the 1024 contracted features and every change of float format is the identity there.
-/
import proofs.«428164_j36979668418798_3_alg».proof.Proof.KI.Val0Mat
import proofs.«428164_j36979668418798_3_alg».proof.Proof.KI.Val0Step
import proofs.«428164_j36979668418798_3_alg».proof.Proof.LayerOf
import Idealize.ShloMosaic.Lib.ValueLayout
import Idealize.ShloMosaic.Lib.Pipeline.Value
import Idealize.ShloMosaic.Lib.IdealHost

noncomputable section

namespace Cert.KernelIdeal.Value0

open Idealize.ShloMosaic Idealize.ShloMosaic.ValueIdx Cert.KernelIdeal Cert.KernelIdeal.Gen Cert.Spec Cert.LayerOf
open scoped BigOperators

/-! ### The two hidden-side products of a step, entry by entry -/

/-- Entry (r, c) of the gates' hidden-side product: the sum over k of h[r, k] · W[0, k, c]. -/
theorem hg_apply (h : FVec Ideal S128x1024 .f32) (whzr : FVec Ideal S1x1024x2048 .bf16) (r : Fin 128) (c : Fin 2048) :
    matmul Dzr none (truncf .bf16 h bitsLt_bf16_f32) (shapeCast S1024x2048 whzr shapeCasts_S1x1024x2048_S1024x2048)
        (constant S128x2048 .f32 0x00000000#32) (ix2 r c)
      = ∑ k : Fin 1024, h (ix2 r k) * whzr (ix3 0 k c) := by
  rw [mmDzr_apply]
  refine Finset.sum_congr rfl fun k _ => ?_
  rw [truncf_apply, shapeCast_1ab_ab_apply]

/-- Entry (r, j) of the candidate's hidden-side product: the sum over k of u[r, k] · W[0, k, j]. -/
theorem hc_apply (u : FVec Ideal S128x1024 .f32) (whh : FVec Ideal S1x1024x1024 .bf16) (r : Fin 128) (j : Fin 1024) :
    matmul Dh none (truncf .bf16 u bitsLt_bf16_f32) (shapeCast S1024x1024 whh shapeCasts_S1x1024x1024_S1024x1024)
        (constant S128x1024 .f32 0x00000000#32) (ix2 r j)
      = ∑ k : Fin 1024, u (ix2 r k) * whh (ix3 0 k j) := by
  rw [mmDh_apply]
  refine Finset.sum_congr rfl fun k _ => ?_
  rw [truncf_apply, shapeCast_1ab_ab_apply]

/-! ### The three parts of a step: update gate, reset gate, candidate -/

/-- The gates' hidden-side product of a tile. -/
def hgate (h : FVec Ideal S128x1024 .f32) (whzr : FVec Ideal S1x1024x2048 .bf16) : FVec Ideal S128x2048 .f32 :=
  matmul Dzr none (truncf .bf16 h bitsLt_bf16_f32) (shapeCast S1024x2048 whzr shapeCasts_S1x1024x2048_S1024x2048)
    (constant S128x2048 .f32 0x00000000#32)

/-- The update gate of a tile. -/
def zGate (bz : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 0] xg slices_S128x3072_o0_0_S128x1024) bitsLt_bf16_f32)
      (extractStridedSlice S128x1024 ![0, 0] (hgate h whzr) slices_S128x2048_o0_0_S128x1024))
    (broadcastTo S128x1024 bz broadcasts_S1x1024_S128x1024))

/-- The reset gate of a tile. -/
def rGate (br : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 1024] xg slices_S128x3072_o0_1024_S128x1024) bitsLt_bf16_f32)
      (extractStridedSlice S128x1024 ![0, 1024] (hgate h whzr) slices_S128x2048_o0_1024_S128x1024))
    (broadcastTo S128x1024 br broadcasts_S1x1024_S128x1024))

/-- The candidate state of a tile, from its reset gate `R`. -/
def cCand (bh : FVec Ideal S1x1024 .f32) (h R : FVec Ideal S128x1024 .f32) (xg : FVec Ideal S128x3072 .bf16)
    (whh : FVec Ideal S1x1024x1024 .bf16) : FVec Ideal S128x1024 .f32 :=
  tanh (addf (addf (extf .f32 (extractStridedSlice S128x1024 ![0, 2048] xg slices_S128x3072_o0_2048_S128x1024) bitsLt_bf16_f32)
      (matmul Dh none (truncf .bf16 (mulf R h) bitsLt_bf16_f32) (shapeCast S1024x1024 whh shapeCasts_S1x1024x1024_S1024x1024)
        (constant S128x1024 .f32 0x00000000#32)))
    (broadcastTo S128x1024 bh broadcasts_S1x1024_S128x1024))

/-- The step is (1 − z) ⊙ h + z ⊙ c over those three. -/
theorem step_eq (bz br bh : FVec Ideal S1x1024 .f32) (h : FVec Ideal S128x1024 .f32) (xg : FVec Ideal S128x3072 .bf16)
    (whzr : FVec Ideal S1x1024x2048 .bf16) (whh : FVec Ideal S1x1024x1024 .bf16) :
    step bz br bh h xg whzr whh
      = addf (mulf (subf (broadcast S128x1024 (Scalar.ofBits (F := Ideal) .f32 0x3F800000#32)) (zGate bz h xg whzr)) h)
          (mulf (zGate bz h xg whzr) (cCand bh h (rGate br h xg whzr) xg whh)) := rfl

/-! ### A step on a tile is the cell on each of its rows -/

section Row
variable (W : LayerW) (x hrow : Row)
  (bz br bh : FVec Ideal S1x1024 .f32) (h : FVec Ideal S128x1024 .f32) (xg : FVec Ideal S128x3072 .bf16)
  (whzr : FVec Ideal S1x1024x2048 .bf16) (whh : FVec Ideal S1x1024x1024 .bf16) (r : Fin 128)

/-- Row `r` of the update gate is the row's update gate. -/
theorem zGate_apply
    (hxz : ∀ j : Fin 1024, xg (ix2 r (col3 0 j)) = ∑ k, x k * W.Wxz k j)
    (hwz : ∀ (k j : Fin 1024), whzr (ix3 0 k (col2 0 j)) = W.Whz k j)
    (hbz : ∀ j : Fin 1024, bz (ix2 0 j) = W.bz j)
    (hh : ∀ k : Fin 1024, h (ix2 r k) = hrow k) (j : Fin 1024) :
    zGate bz h xg whzr (ix2 r j) = gateZ W x hrow j := by
  unfold zGate hgate
  show Ideal.logistic ((_ + _) + _) = _
  rw [extf_apply, slice2_axis1_apply 0 xg slices_S128x3072_o0_0_S128x1024 r j (col3 0 j) (by simp [col3]),
    slice2_axis1_apply 0 _ slices_S128x2048_o0_0_S128x1024 r j (col2 0 j) (by simp [col2]),
    broadcastTo_1b_ab_apply, hg_apply, hxz, hbz]
  unfold gateZ
  simp only [hh, hwz]

/-- Row `r` of the reset gate is the row's reset gate. -/
theorem rGate_apply
    (hxr : ∀ j : Fin 1024, xg (ix2 r (col3 1 j)) = ∑ k, x k * W.Wxr k j)
    (hwr : ∀ (k j : Fin 1024), whzr (ix3 0 k (col2 1 j)) = W.Whr k j)
    (hbr : ∀ j : Fin 1024, br (ix2 0 j) = W.br j)
    (hh : ∀ k : Fin 1024, h (ix2 r k) = hrow k) (j : Fin 1024) :
    rGate br h xg whzr (ix2 r j) = gateR W x hrow j := by
  unfold rGate hgate
  show Ideal.logistic ((_ + _) + _) = _
  rw [extf_apply,
    slice2_axis1_apply 1024 xg slices_S128x3072_o0_1024_S128x1024 r j (col3 1 j) (by show 1 * 1024 + j.val = 1024 + j.val; omega),
    slice2_axis1_apply 1024 _ slices_S128x2048_o0_1024_S128x1024 r j (col2 1 j) (by show 1 * 1024 + j.val = 1024 + j.val; omega),
    broadcastTo_1b_ab_apply, hg_apply, hxr, hbr]
  unfold gateR
  simp only [hh, hwr]

/-- Row `r` of the candidate is the row's candidate, when row `r` of `R` is the row's reset gate. -/
theorem cCand_apply (R : FVec Ideal S128x1024 .f32)
    (hxh : ∀ j : Fin 1024, xg (ix2 r (col3 2 j)) = ∑ k, x k * W.Wxh k j)
    (hwh : ∀ (k j : Fin 1024), whh (ix3 0 k j) = W.Whh k j)
    (hbh : ∀ j : Fin 1024, bh (ix2 0 j) = W.bh j)
    (hR : ∀ k : Fin 1024, R (ix2 r k) = gateR W x hrow k)
    (hh : ∀ k : Fin 1024, h (ix2 r k) = hrow k) (j : Fin 1024) :
    cCand bh h R xg whh (ix2 r j) = cand W x hrow j := by
  unfold cCand
  show Ideal.tanh ((_ + _) + _) = _
  rw [extf_apply,
    slice2_axis1_apply 2048 xg slices_S128x3072_o0_2048_S128x1024 r j (col3 2 j) (by show 2 * 1024 + j.val = 2048 + j.val; omega),
    broadcastTo_1b_ab_apply, hc_apply, hxh, hbh]
  unfold cand
  simp only [mulf_apply, hR, hh, hwh]

/-- Row `r` of the new hidden state is the cell of row `r`: given that row `r` of the input-side products holds x·Wxz,
    x·Wxr, x·Wxh in its three bands, that the weight blocks and bias rows hold the layer's parameters, and that row `r` of
    the previous hidden state is `hrow`. -/
theorem step_apply
    (hxz : ∀ j : Fin 1024, xg (ix2 r (col3 0 j)) = ∑ k, x k * W.Wxz k j)
    (hxr : ∀ j : Fin 1024, xg (ix2 r (col3 1 j)) = ∑ k, x k * W.Wxr k j)
    (hxh : ∀ j : Fin 1024, xg (ix2 r (col3 2 j)) = ∑ k, x k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h (ix2 r k) = hrow k) (j : Fin 1024) :
    step bz br bh h xg whzr whh (ix2 r j) = cellRow W x hrow j := by
  rw [step_eq]
  show (Ideal.ofBits .f32 0x3F800000#32 - zGate bz h xg whzr (ix2 r j)) * h (ix2 r j)
      + zGate bz h xg whzr (ix2 r j) * cCand bh h (rGate br h xg whzr) xg whh (ix2 r j) = _
  rw [Ideal.ofBits_one_f32, zGate_apply W x hrow bz h xg whzr r hxz hwz hbz hh,
    cCand_apply W x hrow bh h xg whh r _ hxh hwh hbh (rGate_apply W x hrow br h xg whzr r hxr hwr hbr hh) hh, hh]
  rfl

end Row

end Cert.KernelIdeal.Value0

end
-- ==== Proof.KI.Val0Xg.lean ====
/-
  The input-side products of a tile, read entry by entry over the extended reals: the tile's rows of the eight time steps are
  stacked, 128 rows per step, and multiplied at once by the layer's three input-side matrices side by side.
-/
import proofs.«428164_j36979668418798_3_alg».proof.Proof.KI.Val0Mat
import Idealize.ShloMosaic.Lib.ValueLayout
import Idealize.ShloMosaic.Lib.Pipeline.Value

noncomputable section

namespace Cert.KernelIdeal.Value0

open Idealize.ShloMosaic Idealize.ShloMosaic.ValueIdx Cert.KernelIdeal Cert.KernelIdeal.Gen
open scoped BigOperators

/-! ### The input-side products of a tile -/

/-- Entry (t·128 + r, c) of the tile's input-side products is the sum over k of inp[t, r, k] · Wx[0, k, c]: the eight time
    steps' rows of the tile are stacked, 128 rows per step, and multiplied by the three input-side matrices side by side. -/
theorem xgAll_apply (v0 : FVec Ideal S8x128x1024 .f32) (v4 : FVec Ideal S1x1024x3072 .bf16) (t : Fin 8) (r : Fin 128)
    (c : Fin 3072) (q : Fin 1024) (hq : q.val = t.val * 128 + r.val) :
    (k0_pay3 (F := Ideal) v0 v4 (ix2 q c) : EReal) = ∑ k : Fin 1024, (v0 (ix3 t r k) : EReal) * (v4 (ix3 0 k c) : EReal) := by
  dsimp only [k0_pay3]
  rw [shapeCast_self, truncf_apply]
  show matmul Dx none _ _ _ (ix2 q c) = _
  rw [mmDx_apply]
  refine Finset.sum_congr rfl fun k _ => ?_
  rw [truncf_apply, shapeCast_1ab_ab_apply, shapeCast_self]
  congr 1
  exact shapeCast_apply v0 _ (ix2 q k) (ix3 t r k) (by
    rw [Shape.rowMajor_val_three, Shape.rowMajor_val_two]
    show (t.val * 128 + r.val) * 1024 + k.val = q.val * 1024 + k.val
    rw [hq])

end Cert.KernelIdeal.Value0

end
-- ==== Proof.KI.Val0Tile.lean ====
/-
  A tile of 128 batch rows along the eight time steps: its hidden state after step t is the step applied t + 1 times, and
  row r of it is the layer's hidden row of the batch row the tile's row r holds — by induction on t from the one-step lemma,
  with the tile's blocks cut out of the arrays where the grid point's index maps say.
-/
import proofs.«428164_j36979668418798_3_alg».proof.Proof.KI.Val0Cell
import proofs.«428164_j36979668418798_3_alg».proof.Proof.KI.Val0Xg

noncomputable section

namespace Cert.KernelIdeal.Value0

open Idealize.ShloMosaic Idealize.ShloMosaic.ValueIdx Cert.KernelIdeal Cert.KernelIdeal.Gen Cert.Spec Cert.LayerOf
open scoped BigOperators

/-! ### The hidden states of a tile along time -/

/-- The hidden state of a tile after time step `t`: the step applied `t + 1` times from the initial state, each time to
    that step's rows of the input-side products. -/
def hidT {F : FTy → Type} [FloatOps F] (bz br bh : FVec F S1x1024 .f32) (h0 : FVec F S128x1024 .f32)
    (xg : ℕ → FVec F S128x3072 .bf16) (whzr : FVec F S1x1024x2048 .bf16) (whh : FVec F S1x1024x1024 .bf16) :
    ℕ → FVec F S128x1024 .f32
  | 0 => step bz br bh h0 (xg 0) whzr whh
  | t + 1 => step bz br bh (hidT bz br bh h0 xg whzr whh t) (xg (t + 1)) whzr whh

/-- A time step below eight of an input sequence read off a `[time, batch, feature]` array. -/
theorem seqOf_of_lt (u : Sseq.Idx → EReal) (t : ℕ) (ht : t < 8) (b : Fin 512) (k : Fin 1024) :
    seqOf u t b k = u (ix3 ⟨t, ht⟩ b k) := by
  unfold seqOf
  exact congrArg u (congrArg (fun s => ix3 s b k) (Fin.ext (Nat.mod_eq_of_lt ht)))

section Tile
variable (W : LayerW) (Xs : ℕ → Fin 512 → Row) (H0 : Fin 512 → Row) (b : Fin 512)
  (bz br bh : FVec Ideal S1x1024 .f32) (h0 : FVec Ideal S128x1024 .f32) (xg : ℕ → FVec Ideal S128x3072 .bf16)
  (whzr : FVec Ideal S1x1024x2048 .bf16) (whh : FVec Ideal S1x1024x1024 .bf16) (r : Fin 128)

/-- Row `r` of a tile's hidden state after step `t` is the layer's hidden row of batch row `b` at time `t`: given that row `r`
    of each step's input-side products holds batch row `b`'s products at that time, that the weight blocks and bias rows hold
    the layer's parameters, and that row `r` of the initial state is batch row `b`'s. -/
theorem hidT_apply
    (hxz : ∀ t < 8, ∀ j : Fin 1024, xg t (ix2 r (col3 0 j)) = ∑ k, Xs t b k * W.Wxz k j)
    (hxr : ∀ t < 8, ∀ j : Fin 1024, xg t (ix2 r (col3 1 j)) = ∑ k, Xs t b k * W.Wxr k j)
    (hxh : ∀ t < 8, ∀ j : Fin 1024, xg t (ix2 r (col3 2 j)) = ∑ k, Xs t b k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h0 (ix2 r k) = H0 b k) :
    ∀ t, t < 8 → ∀ j : Fin 1024, hidT bz br bh h0 xg whzr whh t (ix2 r j) = layer W Xs H0 t b j := by
  intro t
  induction t with
  | zero =>
    intro ht j
    rw [layer_zero]
    exact step_apply W (Xs 0 b) (H0 b) bz br bh h0 (xg 0) whzr whh r (hxz 0 ht) (hxr 0 ht) (hxh 0 ht) hwz hwr hwh hbz hbr hbh hh j
  | succ t ih =>
    intro ht j
    rw [layer_succ]
    exact step_apply W (Xs (t + 1) b) (layer W Xs H0 t b) bz br bh (hidT bz br bh h0 xg whzr whh t) (xg (t + 1)) whzr whh r
      (hxz _ ht) (hxr _ ht) (hxh _ ht) hwz hwr hwh hbz hbr hbh (ih (by omega)) j

end Tile

/-! ### A tile's hidden states, from its blocks of the arrays -/

section Blocks
variable (wx : Swx.Idx → EReal) (wzr : Swzr.Idx → EReal) (wh : Swh.Idx → EReal) (bzA brA bhA : Sb3.Idx → EReal)
  (inp hprev : Sseq.Idx → EReal) (l : Fin 8)
  (x0 : FVec Ideal S8x128x1024 .f32) (x1 : FVec Ideal S1x128x1024 .f32) (x2 : FVec Ideal S1x1024x3072 .bf16)
  (x3 : FVec Ideal S1x1024x2048 .bf16) (x4 : FVec Ideal S1x1024x1024 .bf16) (x5 x6 x7 : FVec Ideal S1x1x1024 .f32)
  (xg : ℕ → FVec Ideal S128x3072 .bf16) (b : Fin 512) (r : Fin 128)

/-- With the tile's blocks cut out of the arrays — the input sequence's and the initial state's rows of batch row `b` at
    row `r`, layer `l`'s slabs of the parameter arrays — and each step's rows of the input-side products read from the
    stacked products, row `r` of the tile's hidden state after step `s` is entry (s, b, ·) of the layer's hidden sequence. -/
theorem tile_apply
    (e0 : ∀ (s : Fin 8) (k : Fin 1024), x0 (ix3 s r k) = inp (ix3 s b k))
    (e1 : ∀ k : Fin 1024, x1 (ix3 0 r k) = hprev (ix3 l b k))
    (e2 : ∀ (k : Fin 1024) (c : Fin 3072), x2 (ix3 0 k c) = wx (ix3 l k c))
    (e3 : ∀ (k : Fin 1024) (c : Fin 2048), x3 (ix3 0 k c) = wzr (ix3 l k c))
    (e4 : ∀ (k j : Fin 1024), x4 (ix3 0 k j) = wh (ix3 l k j))
    (e5 : ∀ j : Fin 1024, x5 (ix3 0 0 j) = bzA (ix3 l 0 j))
    (e6 : ∀ j : Fin 1024, x6 (ix3 0 0 j) = brA (ix3 l 0 j))
    (e7 : ∀ j : Fin 1024, x7 (ix3 0 0 j) = bhA (ix3 l 0 j))
    (exg : ∀ (s : Fin 8) (c : Fin 3072),
      xg s.val (ix2 r c) = k0_pay3 (F := Ideal) x0 x2 (ix2 ⟨s.val * 128 + r.val, by have := s.isLt; have := r.isLt; omega⟩ c))
    (s : Fin 8) (j : Fin 1024) :
    hidT (k0_pay5 x5) (k0_pay6 x6) (k0_pay7 x7) (k0_pay4 x1) xg x3 x4 s.val (ix2 r j)
      = seqOut (WofV wx wzr wh bzA brA bhA l) inp hprev l (ix3 s b j) := by
  show _ = layer (WofV wx wzr wh bzA brA bhA l) (seqOf inp) (initOf hprev l) s.val b j
  have hx : ∀ t (ht : t < 8) (c : Fin 3072), xg t (ix2 r c) = ∑ k : Fin 1024, seqOf inp t b k * wx (ix3 l k c) := by
    intro t ht c
    rw [exg ⟨t, ht⟩ c, xgAll_apply x0 x2 ⟨t, ht⟩ r c _ rfl]
    refine Finset.sum_congr rfl fun k _ => ?_
    rw [e0, e2, seqOf_of_lt inp t ht]
  refine hidT_apply (WofV wx wzr wh bzA brA bhA l) (seqOf inp) (initOf hprev l) b _ _ _ _ xg x3 x4 r
    (fun t ht j => hx t ht _) (fun t ht j => hx t ht _) (fun t ht j => hx t ht _)
    (fun k j => e3 k _) (fun k j => e3 k _) (fun k j => e4 k j) ?_ ?_ ?_ ?_ s.val s.isLt j
  · intro j; dsimp only [k0_pay5]; rw [shapeCast_1ab_ab_apply]; exact e5 j
  · intro j; dsimp only [k0_pay6]; rw [shapeCast_1ab_ab_apply]; exact e6 j
  · intro j; dsimp only [k0_pay7]; rw [shapeCast_1ab_ab_apply]; exact e7 j
  · intro k; dsimp only [k0_pay4]; rw [shapeCast_1ab_ab_apply]; exact e1 k

end Blocks

end Cert.KernelIdeal.Value0

end
-- ==== Proof.KI.Val0Run.lean ====
/-
  What the layer's body leaves in its two outputs' staging memrefs, as lists of pieces over the blocks it loads: the hidden
  sequence's memref ends with eight slices of extent 1 along time, slice t the tile's hidden state after step t; the final
  state's memref with the hidden state after the last step. Each step reads its own 128 rows of the stacked input-side
  products, which the body stored whole before the first step.
-/
import proofs.«428164_j36979668418798_3_alg».proof.Proof.KI.Body0
import proofs.«428164_j36979668418798_3_alg».proof.Proof.KI.Val0Tile

set_option maxRecDepth 65536

noncomputable section

namespace Cert.KernelIdeal.Value0

open Idealize.ShloMosaic Idealize.ShloMosaic.TcCoe Idealize.ShloMosaic.Tactic Idealize.ShloMosaic.ValueIdx Idealize.SL.Sem
open Cert.KernelIdeal Cert.KernelIdeal.Gen

/-- The rows of the stacked input-side products that time step `t` of the body reads: rows t·128 … t·128 + 127. -/
def xgL (x0 : FVec Ideal S8x128x1024 .f32) (x2 : FVec Ideal S1x1024x3072 .bf16) : ℕ → FVec Ideal S128x3072 .bf16
  | 1 => fun j => k0_pay3 (F := Ideal) x0 x2 ((Rect.unit (s := S1024x3072) ![128, 0] S128x3072.size inb_S1024x3072_S128x3072_128_0).toLoadRect.idx j)
  | 2 => fun j => k0_pay3 (F := Ideal) x0 x2 ((Rect.unit (s := S1024x3072) ![256, 0] S128x3072.size inb_S1024x3072_S128x3072_256_0).toLoadRect.idx j)
  | 3 => fun j => k0_pay3 (F := Ideal) x0 x2 ((Rect.unit (s := S1024x3072) ![384, 0] S128x3072.size inb_S1024x3072_S128x3072_384_0).toLoadRect.idx j)
  | 4 => fun j => k0_pay3 (F := Ideal) x0 x2 ((Rect.unit (s := S1024x3072) ![512, 0] S128x3072.size inb_S1024x3072_S128x3072_512_0).toLoadRect.idx j)
  | 5 => fun j => k0_pay3 (F := Ideal) x0 x2 ((Rect.unit (s := S1024x3072) ![640, 0] S128x3072.size inb_S1024x3072_S128x3072_640_0).toLoadRect.idx j)
  | 6 => fun j => k0_pay3 (F := Ideal) x0 x2 ((Rect.unit (s := S1024x3072) ![768, 0] S128x3072.size inb_S1024x3072_S128x3072_768_0).toLoadRect.idx j)
  | 7 => fun j => k0_pay3 (F := Ideal) x0 x2 ((Rect.unit (s := S1024x3072) ![896, 0] S128x3072.size inb_S1024x3072_S128x3072_896_0).toLoadRect.idx j)
  | _ => fun j => k0_pay3 (F := Ideal) x0 x2 ((Rect.unit (s := S1024x3072) ![0, 0] S128x3072.size inb_S1024x3072_S128x3072_0_0).toLoadRect.idx j)

theorem hz3 : (![0, 0, 0] : Fin 3 → Nat) = fun _ => 0 := funext fun a => by fin_cases a <;> rfl
theorem hz2 : (![0, 0] : Fin 2 → Nat) = fun _ => 0 := funext fun a => by fin_cases a <;> rfl

/-- Row r, column c of the 128 rows loaded from row o of the stacked products is row o + r, column c. -/
theorem rows_idx (o : ℕ) (inb : ∀ a, (![o, 0] : Fin 2 → ℕ) a + S128x3072.size a ≤ S1024x3072.size a) (r : Fin 128)
    (c : Fin 3072) (q : Fin 1024) (hq : q.val = o + r.val) :
    (Rect.unit (s := S1024x3072) ![o, 0] S128x3072.size inb).toLoadRect.idx (ix2 r c) = ix2 q c := by
  funext a
  apply Fin.ext
  match a with
  | ⟨0, _⟩ =>
    simp only [LoadRect.idx_apply, Rect.emb_apply, Rect.off_unit, Rect.stride_unit, Nat.one_mul]
    show o + r.val = q.val
    omega
  | ⟨1, _⟩ =>
    simp only [LoadRect.idx_apply, Rect.emb_apply, Rect.off_unit, Rect.stride_unit, Nat.one_mul]
    show 0 + c.val = c.val
    omega

/-- Step s's rows of the input-side products are rows s·128 … s·128 + 127 of the stacked products. -/
theorem xgL_apply (x0 : FVec Ideal S8x128x1024 .f32) (x2 : FVec Ideal S1x1024x3072 .bf16) (s : Fin 8) (r : Fin 128) (c : Fin 3072) :
    xgL x0 x2 s.val (ix2 r c)
      = k0_pay3 (F := Ideal) x0 x2 (ix2 ⟨s.val * 128 + r.val, by have := s.isLt; have := r.isLt; omega⟩ c) := by
  match s with
  | ⟨0, _⟩ => exact congrArg (k0_pay3 (F := Ideal) x0 x2) (rows_idx 0 _ r c _ (by simp))
  | ⟨1, _⟩ => exact congrArg (k0_pay3 (F := Ideal) x0 x2) (rows_idx 128 _ r c _ (by simp))
  | ⟨2, _⟩ => exact congrArg (k0_pay3 (F := Ideal) x0 x2) (rows_idx 256 _ r c _ (by simp))
  | ⟨3, _⟩ => exact congrArg (k0_pay3 (F := Ideal) x0 x2) (rows_idx 384 _ r c _ (by simp))
  | ⟨4, _⟩ => exact congrArg (k0_pay3 (F := Ideal) x0 x2) (rows_idx 512 _ r c _ (by simp))
  | ⟨5, _⟩ => exact congrArg (k0_pay3 (F := Ideal) x0 x2) (rows_idx 640 _ r c _ (by simp))
  | ⟨6, _⟩ => exact congrArg (k0_pay3 (F := Ideal) x0 x2) (rows_idx 768 _ r c _ (by simp))
  | ⟨7, _⟩ => exact congrArg (k0_pay3 (F := Ideal) x0 x2) (rows_idx 896 _ r c _ (by simp))

/-- The hidden states of the tile over the blocks the body loads. -/
abbrev hidB (x0 : FVec Ideal S8x128x1024 .f32) (x1 : FVec Ideal S1x128x1024 .f32) (x2 : FVec Ideal S1x1024x3072 .bf16)
    (x3 : FVec Ideal S1x1024x2048 .bf16) (x4 : FVec Ideal S1x1024x1024 .bf16) (x5 x6 x7 : FVec Ideal S1x1x1024 .f32) (t : ℕ) :
    FVec Ideal S128x1024 .f32 :=
  hidT (k0_pay5 x5) (k0_pay6 x6) (k0_pay7 x7) (k0_pay4 x1) (xgL x0 x2) x3 x4 t

/-! ### The eight stores' payloads are the hidden states with a leading unit axis -/
section Stores
variable {F : FTy → Type} [FloatOps F]

theorem st0_eq (v12 : FVec F S128x1024 .f32) (v14 v16 v18 : FVec F S1x1024 .f32) (v21 v22 : FVec F S128x1024 .bf16)
    (v28 v30 : FVec F S128x1024 .f32) (v41 : Vec F S1x1024x1024 .bf16) :
    k0_pay14 v12 v14 v16 v18 v21 v22 v28 v30 v41
      = shapeCast S1x128x1024 (k0_pay13 v12 v14 v16 v18 v21 v22 v28 v30 v41) shapeCasts_S128x1024_S1x128x1024 := rfl
theorem st1_eq (v18 : FVec F S1x1024 .f32) (v53 : FVec F S128x1024 .f32) (v60 : FVec F S128x1024 .bf16)
    (v71 v75 : FVec F S128x1024 .f32) (v79 : Vec F S1x1024x1024 .bf16) :
    k0_pay20 v18 v53 v60 v71 v75 v79 = shapeCast S1x128x1024 (k0_pay19 v18 v53 v60 v71 v75 v79) shapeCasts_S128x1024_S1x128x1024 := rfl
theorem st2_eq (v18 : FVec F S1x1024 .f32) (v91 : FVec F S128x1024 .f32) (v98 : FVec F S128x1024 .bf16)
    (v109 : FVec F S128x1024 .f32) (v116 : FVec F S128x1024 .bf16) (v117 : Vec F S1x1024x1024 .bf16) :
    k0_pay26 v18 v91 v98 v109 v116 v117 = shapeCast S1x128x1024 (k0_pay25 v18 v91 v98 v109 v116 v117) shapeCasts_S128x1024_S1x128x1024 := rfl
theorem st3_eq (v129 v147 v161 : FVec F S128x1024 .f32) :
    k0_pay31 v129 v147 v161 = shapeCast S1x128x1024 (k0_pay30 v129 v147 v161) shapeCasts_S128x1024_S1x128x1024 := rfl
theorem st4_eq (v205 : FVec F S128x1024 .f32) :
    k0_pay33 v205 = shapeCast S1x128x1024 v205 shapeCasts_S128x1024_S1x128x1024 := rfl
theorem st5_eq (v14 v16 v18 : FVec F S1x1024 .f32) (v205 : FVec F S128x1024 .f32) (v209 : Vec F S128x3072 .bf16)
    (v214 : Vec F S1x1024x2048 .bf16) (v231 : Vec F S1x1024x1024 .bf16) :
    k0_pay35 v14 v16 v18 v205 v209 v214 v231
      = shapeCast S1x128x1024 (k0_pay34 v14 v16 v18 v205 v209 v214 v231) shapeCasts_S128x1024_S1x128x1024 := rfl
theorem st6_eq (v14 v16 v18 : FVec F S1x1024 .f32) (v243 : FVec F S128x1024 .f32) (v247 : Vec F S128x3072 .bf16)
    (v252 : Vec F S1x1024x2048 .bf16) (v269 : Vec F S1x1024x1024 .bf16) :
    k0_pay37 v14 v16 v18 v243 v247 v252 v269
      = shapeCast S1x128x1024 (k0_pay36 v14 v16 v18 v243 v247 v252 v269) shapeCasts_S128x1024_S1x128x1024 := rfl
theorem st7_eq (v14 v16 v18 : FVec F S1x1024 .f32) (v281 : FVec F S128x1024 .f32) (v286 v287 v288 v289 : FVec F S128x1024 .bf16)
    (v290 : Vec F S1x1024x2048 .bf16) (v307 : Vec F S1x1024x1024 .bf16) :
    k0_pay2 v14 v16 v18 v281 v286 v287 v288 v289 v290 v307
      = shapeCast S1x128x1024 (k0_pay1 v14 v16 v18 v281 v286 v287 v288 v289 v290 v307) shapeCasts_S128x1024_S1x128x1024 := rfl

end Stores

/-! ### The pieces the run leaves -/

set_option maxHeartbeats 1000000 in
/-- The hidden sequence's staging memref ends with eight pieces, last stored first: slice t along time holds the hidden
    state after step t. -/
theorem run8_eq (c : Dev nD) (i : grid0.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun0_A c i arg1 harg1 arg2 harg2 arg3 harg3 arg4 harg4 arg5 harg5 arg6 harg6 arg7 harg7 arg8 harg8 arg9 harg9 arg10 harg10 arg11 harg11 x0 x1 x2 x3 x4 x5 x6 x7).1 =
      [⟨Rect.unit ![7, 0, 0] S1x128x1024.size inb_S8x128x1024_S1x128x1024_7_0_0, shapeCast S1x128x1024 (hidB x0 x1 x2 x3 x4 x5 x6 x7 7) shapeCasts_S128x1024_S1x128x1024⟩,
       ⟨Rect.unit ![6, 0, 0] S1x128x1024.size inb_S8x128x1024_S1x128x1024_6_0_0, shapeCast S1x128x1024 (hidB x0 x1 x2 x3 x4 x5 x6 x7 6) shapeCasts_S128x1024_S1x128x1024⟩,
       ⟨Rect.unit ![5, 0, 0] S1x128x1024.size inb_S8x128x1024_S1x128x1024_5_0_0, shapeCast S1x128x1024 (hidB x0 x1 x2 x3 x4 x5 x6 x7 5) shapeCasts_S128x1024_S1x128x1024⟩,
       ⟨Rect.unit ![4, 0, 0] S1x128x1024.size inb_S8x128x1024_S1x128x1024_4_0_0, shapeCast S1x128x1024 (hidB x0 x1 x2 x3 x4 x5 x6 x7 4) shapeCasts_S128x1024_S1x128x1024⟩,
       ⟨Rect.unit ![3, 0, 0] S1x128x1024.size inb_S8x128x1024_S1x128x1024_3_0_0, shapeCast S1x128x1024 (hidB x0 x1 x2 x3 x4 x5 x6 x7 3) shapeCasts_S128x1024_S1x128x1024⟩,
       ⟨Rect.unit ![2, 0, 0] S1x128x1024.size inb_S8x128x1024_S1x128x1024_2_0_0, shapeCast S1x128x1024 (hidB x0 x1 x2 x3 x4 x5 x6 x7 2) shapeCasts_S128x1024_S1x128x1024⟩,
       ⟨Rect.unit ![1, 0, 0] S1x128x1024.size inb_S8x128x1024_S1x128x1024_1_0_0, shapeCast S1x128x1024 (hidB x0 x1 x2 x3 x4 x5 x6 x7 1) shapeCasts_S128x1024_S1x128x1024⟩,
       ⟨Rect.unit ![0, 0, 0] S1x128x1024.size inb_S8x128x1024_S1x128x1024_0_0_0, shapeCast S1x128x1024 (hidB x0 x1 x2 x3 x4 x5 x6 x7 0) shapeCasts_S128x1024_S1x128x1024⟩] := by
  unfold kernelRun0_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [st0_eq, st1_eq, st2_eq, st3_eq, st4_eq, st5_eq, st6_eq, st7_eq]
  simp only [hid7_eq]
  simp only [hid6_eq]
  simp only [hid5_eq]
  simp only [hid4_eq]
  simp only [hid3_eq]
  simp only [hid2_eq]
  simp only [hid1_eq]
  simp only [hid0_eq]
  rfl

set_option maxHeartbeats 1000000 in
/-- The final state's staging memref ends with one piece: the hidden state after the last step. -/
theorem run9_eq (c : Dev nD) (i : grid0.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun0_A c i arg1 harg1 arg2 harg2 arg3 harg3 arg4 harg4 arg5 harg5 arg6 harg6 arg7 harg7 arg8 harg8 arg9 harg9 arg10 harg10 arg11 harg11 x0 x1 x2 x3 x4 x5 x6 x7).2.1 =
      [⟨Rect.unit ![0, 0] S128x1024.size inb_S128x1024_S128x1024_0_0, hidB x0 x1 x2 x3 x4 x5 x6 x7 7⟩] := by
  unfold kernelRun0_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [hid7_eq]
  simp only [hid6_eq]
  simp only [hid5_eq]
  simp only [hid4_eq]
  simp only [hid3_eq]
  simp only [hid2_eq]
  simp only [hid1_eq]
  simp only [hid0_eq]
  rfl

end Cert.KernelIdeal.Value0

end
-- ==== Proof.KI.Val0Idx.lean ====
/-
  Where each window's block sits at a grid point of the layer's pipeline: the batch-tiled windows (the input sequence, the
  initial state, the two outputs) at block t of the batch axis, the parameter windows at the layer's slab.
-/
import proofs.«428164_j36979668418798_3_alg».proof.Proof.Gen.KernelIdeal.Launch
import Idealize.ShloMosaic.Lib.Decide

set_option Elab.async false

namespace Cert.KernelIdeal.Value0

open Idealize.ShloMosaic Idealize.SL.Sem Cert.KernelIdeal Cert.KernelIdeal.Gen

/-- The layer this region runs: the slab of the stacked parameter and initial-state arrays its windows read. -/
abbrev layerIx : Fin 8 := 0
/-- The array this region reads its input sequence from. -/
abbrev inpRef : Ref sig .tc := main_v1

/-! ### Where each window's block sits at a grid point: the index maps, decided over the four points -/

theorem idx0_0 : ∀ t : Fin cfg0.N, win0_0.index t 0 = 0 ∧ win0_0.index t 1 = t.val ∧ win0_0.index t 2 = 0 :=
  (by decide +kernel : ∀ t : Fin grid0.N, _)
theorem idx0_1 : ∀ t : Fin cfg0.N, win0_1.index t 0 = layerIx.val ∧ win0_1.index t 1 = t.val ∧ win0_1.index t 2 = 0 :=
  (by decide +kernel : ∀ t : Fin grid0.N, _)
theorem idx0_2 : ∀ t : Fin cfg0.N, win0_2.index t 0 = layerIx.val ∧ win0_2.index t 1 = 0 ∧ win0_2.index t 2 = 0 :=
  (by decide +kernel : ∀ t : Fin grid0.N, _)
theorem idx0_3 : ∀ t : Fin cfg0.N, win0_3.index t 0 = layerIx.val ∧ win0_3.index t 1 = 0 ∧ win0_3.index t 2 = 0 :=
  (by decide +kernel : ∀ t : Fin grid0.N, _)
theorem idx0_4 : ∀ t : Fin cfg0.N, win0_4.index t 0 = layerIx.val ∧ win0_4.index t 1 = 0 ∧ win0_4.index t 2 = 0 :=
  (by decide +kernel : ∀ t : Fin grid0.N, _)
theorem idx0_5 : ∀ t : Fin cfg0.N, win0_5.index t 0 = layerIx.val ∧ win0_5.index t 1 = 0 ∧ win0_5.index t 2 = 0 :=
  (by decide +kernel : ∀ t : Fin grid0.N, _)
theorem idx0_6 : ∀ t : Fin cfg0.N, win0_6.index t 0 = layerIx.val ∧ win0_6.index t 1 = 0 ∧ win0_6.index t 2 = 0 :=
  (by decide +kernel : ∀ t : Fin grid0.N, _)
theorem idx0_7 : ∀ t : Fin cfg0.N, win0_7.index t 0 = layerIx.val ∧ win0_7.index t 1 = 0 ∧ win0_7.index t 2 = 0 :=
  (by decide +kernel : ∀ t : Fin grid0.N, _)
theorem idx0_8 : ∀ t : Fin cfg0.N, win0_8.index t 0 = 0 ∧ win0_8.index t 1 = t.val ∧ win0_8.index t 2 = 0 :=
  (by decide +kernel : ∀ t : Fin grid0.N, _)
theorem idx0_9 : ∀ t : Fin cfg0.N, win0_9.index t 0 = t.val ∧ win0_9.index t 1 = 0 :=
  (by decide +kernel : ∀ t : Fin grid0.N, _)

end Cert.KernelIdeal.Value0
-- ==== Proof.KI.Val0Blk.lean ====
/-
  The blocks the layer's pipeline hands its body at a grid point, read off the arrays as the region finds them: batch rows
  t·128 … t·128 + 127 of the input sequence and of the layer's initial state, and the layer's slabs of the parameter arrays.
-/
import proofs.«428164_j36979668418798_3_alg».proof.Proof.KI.Reg0
import proofs.«428164_j36979668418798_3_alg».proof.Proof.KI.Val0Idx
import Idealize.ShloMosaic.Lib.Pipeline.Value
import Idealize.ShloMosaic.Lib.ValueIdx

noncomputable section

namespace Cert.KernelIdeal.Value0

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ### The windows' blocks at a grid point, read off the arrays -/

section Blocks
variable (c : Dev nD) (t : Fin cfg0.N)

/-- Window 0's block: batch rows t·128 … t·128 + 127 of the input sequence, all eight steps. -/
theorem iblk0_0_apply (s : Fin 8) (r : Fin 128) (k : Fin 1024) (b : Fin 512) (hb : b.val = t.val * 128 + r.val) :
    (iblk0 V c 0 t : Vec Ideal S8x128x1024 .f32) (ix3 s r k) = (V c inpRef : S8x512x1024.Idx → EReal) (ix3 s b k) := by
  unfold iblk0
  rw [View.read_apply]
  show V c inpRef _ = V c inpRef _
  congr 1
  funext a
  apply Fin.ext
  match a with
  | ⟨0, _⟩ => show win0_0.index t 0 * 8 + 1 * s.val = s.val; rw [(idx0_0 t).1]; omega
  | ⟨1, _⟩ => show win0_0.index t 1 * 128 + 1 * r.val = b.val; rw [(idx0_0 t).2.1, hb]; omega
  | ⟨2, _⟩ => show win0_0.index t 2 * 1024 + 1 * k.val = k.val; rw [(idx0_0 t).2.2]; omega

/-- Window 1's block: the same batch rows of the layer's initial state. -/
theorem iblk0_1_apply (r : Fin 128) (k : Fin 1024) (b : Fin 512) (hb : b.val = t.val * 128 + r.val) :
    (iblk0 V c 1 t : Vec Ideal S1x128x1024 .f32) (ix3 0 r k) = (V c main_arg1 : S8x512x1024.Idx → EReal) (ix3 layerIx b k) := by
  unfold iblk0
  rw [View.read_apply]
  show V c main_arg1 _ = V c main_arg1 _
  congr 1
  funext a
  apply Fin.ext
  match a with
  | ⟨0, _⟩ => show win0_1.index t 0 * 1 + 1 * (0 : Fin 1).val = layerIx.val; rw [(idx0_1 t).1]; simp
  | ⟨1, _⟩ => show win0_1.index t 1 * 128 + 1 * r.val = b.val; rw [(idx0_1 t).2.1, hb]; omega
  | ⟨2, _⟩ => show win0_1.index t 2 * 1024 + 1 * k.val = k.val; rw [(idx0_1 t).2.2]; omega

/-- Window 2's block: the layer's slab of the input-side matrices. -/
theorem iblk0_2_apply (k : Fin 1024) (j : Fin 3072) :
    (iblk0 V c 2 t : Vec Ideal S1x1024x3072 .bf16) (ix3 0 k j) = (V c main_v5 : S8x1024x3072.Idx → EReal) (ix3 layerIx k j) := by
  unfold iblk0
  rw [View.read_apply]
  show V c main_v5 _ = V c main_v5 _
  congr 1
  funext a
  apply Fin.ext
  match a with
  | ⟨0, _⟩ => show win0_2.index t 0 * 1 + 1 * (0 : Fin 1).val = layerIx.val; rw [(idx0_2 t).1]; simp
  | ⟨1, _⟩ => show win0_2.index t 1 * 1024 + 1 * k.val = k.val; rw [(idx0_2 t).2.1]; omega
  | ⟨2, _⟩ => show win0_2.index t 2 * 3072 + 1 * j.val = j.val; rw [(idx0_2 t).2.2]; omega

/-- Window 3's block: the layer's slab of the gates' hidden-side matrices. -/
theorem iblk0_3_apply (k : Fin 1024) (j : Fin 2048) :
    (iblk0 V c 3 t : Vec Ideal S1x1024x2048 .bf16) (ix3 0 k j) = (V c main_v8 : S8x1024x2048.Idx → EReal) (ix3 layerIx k j) := by
  unfold iblk0
  rw [View.read_apply]
  show V c main_v8 _ = V c main_v8 _
  congr 1
  funext a
  apply Fin.ext
  match a with
  | ⟨0, _⟩ => show win0_3.index t 0 * 1 + 1 * (0 : Fin 1).val = layerIx.val; rw [(idx0_3 t).1]; simp
  | ⟨1, _⟩ => show win0_3.index t 1 * 1024 + 1 * k.val = k.val; rw [(idx0_3 t).2.1]; omega
  | ⟨2, _⟩ => show win0_3.index t 2 * 2048 + 1 * j.val = j.val; rw [(idx0_3 t).2.2]; omega

/-- Window 4's block: the layer's slab of the candidate's hidden-side matrix. -/
theorem iblk0_4_apply (k j : Fin 1024) :
    (iblk0 V c 4 t : Vec Ideal S1x1024x1024 .bf16) (ix3 0 k j) = (V c main_v9 : S8x1024x1024.Idx → EReal) (ix3 layerIx k j) := by
  unfold iblk0
  rw [View.read_apply]
  show V c main_v9 _ = V c main_v9 _
  congr 1
  funext a
  apply Fin.ext
  match a with
  | ⟨0, _⟩ => show win0_4.index t 0 * 1 + 1 * (0 : Fin 1).val = layerIx.val; rw [(idx0_4 t).1]; simp
  | ⟨1, _⟩ => show win0_4.index t 1 * 1024 + 1 * k.val = k.val; rw [(idx0_4 t).2.1]; omega
  | ⟨2, _⟩ => show win0_4.index t 2 * 1024 + 1 * j.val = j.val; rw [(idx0_4 t).2.2]; omega

/-- Window 5's block: the layer's update-gate bias row. -/
theorem iblk0_5_apply (j : Fin 1024) :
    (iblk0 V c 5 t : Vec Ideal S1x1x1024 .f32) (ix3 0 0 j) = (V c main_v11 : S8x1x1024.Idx → EReal) (ix3 layerIx 0 j) := by
  unfold iblk0
  rw [View.read_apply]
  show V c main_v11 _ = V c main_v11 _
  congr 1
  funext a
  apply Fin.ext
  match a with
  | ⟨0, _⟩ => show win0_5.index t 0 * 1 + 1 * (0 : Fin 1).val = layerIx.val; rw [(idx0_5 t).1]; simp
  | ⟨1, _⟩ => show win0_5.index t 1 * 1 + 1 * (0 : Fin 1).val = (0 : Fin 1).val; rw [(idx0_5 t).2.1]; simp
  | ⟨2, _⟩ => show win0_5.index t 2 * 1024 + 1 * j.val = j.val; rw [(idx0_5 t).2.2]; omega

/-- Window 6's block: the layer's reset-gate bias row. -/
theorem iblk0_6_apply (j : Fin 1024) :
    (iblk0 V c 6 t : Vec Ideal S1x1x1024 .f32) (ix3 0 0 j) = (V c main_v12 : S8x1x1024.Idx → EReal) (ix3 layerIx 0 j) := by
  unfold iblk0
  rw [View.read_apply]
  show V c main_v12 _ = V c main_v12 _
  congr 1
  funext a
  apply Fin.ext
  match a with
  | ⟨0, _⟩ => show win0_6.index t 0 * 1 + 1 * (0 : Fin 1).val = layerIx.val; rw [(idx0_6 t).1]; simp
  | ⟨1, _⟩ => show win0_6.index t 1 * 1 + 1 * (0 : Fin 1).val = (0 : Fin 1).val; rw [(idx0_6 t).2.1]; simp
  | ⟨2, _⟩ => show win0_6.index t 2 * 1024 + 1 * j.val = j.val; rw [(idx0_6 t).2.2]; omega

/-- Window 7's block: the layer's candidate bias row. -/
theorem iblk0_7_apply (j : Fin 1024) :
    (iblk0 V c 7 t : Vec Ideal S1x1x1024 .f32) (ix3 0 0 j) = (V c main_v13 : S8x1x1024.Idx → EReal) (ix3 layerIx 0 j) := by
  unfold iblk0
  rw [View.read_apply]
  show V c main_v13 _ = V c main_v13 _
  congr 1
  funext a
  apply Fin.ext
  match a with
  | ⟨0, _⟩ => show win0_7.index t 0 * 1 + 1 * (0 : Fin 1).val = layerIx.val; rw [(idx0_7 t).1]; simp
  | ⟨1, _⟩ => show win0_7.index t 1 * 1 + 1 * (0 : Fin 1).val = (0 : Fin 1).val; rw [(idx0_7 t).2.1]; simp
  | ⟨2, _⟩ => show win0_7.index t 2 * 1024 + 1 * j.val = j.val; rw [(idx0_7 t).2.2]; omega

end Blocks

end Cert.KernelIdeal.Value0

end
-- ==== Proof.KI.Val0Final.lean ====
/-
  The two arrays a GRU layer's pipeline leaves: the hidden sequence [time, batch, feature] and the last hidden state
  [batch, feature] of the layer run on the region's input sequence from the layer's initial state. At grid point t the body
  writes the tile of batch rows t·128 … t·128 + 127: slice s along time of its first output is the tile's hidden state after
  step s, its second output the state after the last step; the four tiles cover the batch axis.
-/
import proofs.«428164_j36979668418798_3_alg».proof.Proof.KI.Reg0
import proofs.«428164_j36979668418798_3_alg».proof.Proof.KI.Val0Run
import proofs.«428164_j36979668418798_3_alg».proof.Proof.KI.Val0Blk

set_option maxRecDepth 65536

noncomputable section

namespace Cert.KernelIdeal.Value0

open Idealize.ShloMosaic Idealize.ShloMosaic.TcCoe Idealize.ShloMosaic.ValueIdx Idealize.SL.Sem
open Cert.KernelIdeal Cert.KernelIdeal.Gen Cert.LayerOf
open Idealize.ShloMosaic.Pipeline (Dat)

/-! ### The staging memrefs after the body, entry by entry -/

/-- A slice of extent 1 at time `t` holding `H t` with a leading unit axis is, at each of its entries, `H` at the entry's time
    on the entry's row and column. -/
theorem slice_piece (t : ℕ) (inb : ∀ a, (![t, 0, 0] : Fin 3 → ℕ) a + S1x128x1024.size a ≤ S8x128x1024.size a)
    (H : ℕ → FVec Ideal S128x1024 .f32) (x : S1x128x1024.Idx) :
    shapeCast S1x128x1024 (H t) shapeCasts_S128x1024_S1x128x1024 x
      = (fun y : S8x128x1024.Idx => H (y 0).val (ix2 (y 1) (y 2) : S128x1024.Idx))
          ((Rect.unit (s := S8x128x1024) ![t, 0, 0] S1x128x1024.size inb).emb x) := by
  obtain ⟨u, a, b, rfl⟩ : ∃ (u : Fin 1) (a : Fin 128) (b : Fin 1024), x = ix3 u a b := ⟨x 0, x 1, x 2, eq_ix3 x⟩
  have hu : u.val = 0 := by omega
  rw [shapeCast_ab_1ab_apply]
  have h0 : (((Rect.unit (s := S8x128x1024) ![t, 0, 0] S1x128x1024.size inb).emb (ix3 u a b)) 0).val = t := by
    rw [Rect.emb_apply]; simp [hu]
  have h1 : ((Rect.unit (s := S8x128x1024) ![t, 0, 0] S1x128x1024.size inb).emb (ix3 u a b)) 1 = a :=
    Fin.ext (by rw [Rect.emb_apply]; simp)
  have h2 : ((Rect.unit (s := S8x128x1024) ![t, 0, 0] S1x128x1024.size inb).emb (ix3 u a b)) 2 = b :=
    Fin.ext (by rw [Rect.emb_apply]; simp)
  show H t (ix2 a b) = H _ (ix2 _ _)
  rw [h0, h1, h2]

section Out
variable (c : Dev nD) (i : grid0.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32)

/-- The hidden sequence's staging memref after the body: entry (s, r, k) is entry (r, k) of the tile's hidden state after
    step s. -/
theorem out8_apply (s : Fin 8) (r : Fin 128) (k : Fin 1024) :
    out0_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k) = hidB x0 x1 x2 x3 x4 x5 x6 x7 s.val (ix2 r k) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6 x7)]
  have hc := cover0_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k)
  rw [run8_eq] at hc ⊢
  refine (View.canon_apply_of_pieces (fun y : S8x128x1024.Idx => hidB x0 x1 x2 x3 x4 x5 x6 x7 (y 0).val (ix2 (y 1) (y 2) : S128x1024.Idx))
    _ ?_ (ix3 s r k) hc).trans rfl
  intro p hp x
  simp only [List.mem_cons, List.not_mem_nil, or_false] at hp
  rcases hp with rfl | rfl | rfl | rfl | rfl | rfl | rfl | rfl
  · exact slice_piece 7 inb_S8x128x1024_S1x128x1024_7_0_0 (hidB x0 x1 x2 x3 x4 x5 x6 x7) x
  · exact slice_piece 6 inb_S8x128x1024_S1x128x1024_6_0_0 (hidB x0 x1 x2 x3 x4 x5 x6 x7) x
  · exact slice_piece 5 inb_S8x128x1024_S1x128x1024_5_0_0 (hidB x0 x1 x2 x3 x4 x5 x6 x7) x
  · exact slice_piece 4 inb_S8x128x1024_S1x128x1024_4_0_0 (hidB x0 x1 x2 x3 x4 x5 x6 x7) x
  · exact slice_piece 3 inb_S8x128x1024_S1x128x1024_3_0_0 (hidB x0 x1 x2 x3 x4 x5 x6 x7) x
  · exact slice_piece 2 inb_S8x128x1024_S1x128x1024_2_0_0 (hidB x0 x1 x2 x3 x4 x5 x6 x7) x
  · exact slice_piece 1 inb_S8x128x1024_S1x128x1024_1_0_0 (hidB x0 x1 x2 x3 x4 x5 x6 x7) x
  · exact slice_piece 0 inb_S8x128x1024_S1x128x1024_0_0_0 (hidB x0 x1 x2 x3 x4 x5 x6 x7) x

/-- The final state's staging memref after the body is the tile's hidden state after the last step. -/
theorem out9_eq : out0_A_9 c i arg1 harg1 arg2 harg2 arg3 harg3 arg4 harg4 arg5 harg5 arg6 harg6 arg7 harg7 arg8 harg8 arg9 harg9 arg10 harg10 arg11 harg11 x0 x1 x2 x3 x4 x5 x6 x7 = hidB x0 x1 x2 x3 x4 x5 x6 x7 7 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7), run9_eq, View.canon_unit_zero (S := S128x1024) hz2]

end Out

/-! ### What each grid point writes back, and the arrays the region leaves -/

variable (V : (c : Dev nD) → (b : Ref sig .tc) → Buf (Elt Ideal) ((c : Thread nD τ).loc b))

/-- The layer's parameters as the region finds them. -/
abbrev Wof (c : Dev nD) : Cert.Spec.LayerW :=
  WofV (V c main_v5) (V c main_v8) (V c main_v9) (V c main_v11) (V c main_v12) (V c main_v13) layerIx

/-- The hidden sequence the layer leaves. -/
abbrev seqG (c : Dev nD) : Sseq.Idx → EReal := seqOut (Wof V c) (V c inpRef) (V c main_arg1) layerIx
/-- The last hidden state the layer leaves. -/
abbrev finG (c : Dev nD) : Sfin.Idx → EReal := finOut (Wof V c) (V c inpRef) (V c main_arg1) layerIx

/-- Row r of the tile of grid point t after step s is batch row t·128 + r of the layer's hidden sequence at time s. -/
theorem tile_at (c : Dev nD) (t : Fin cfg0.N) (s : Fin 8) (r : Fin 128) (k : Fin 1024) (b : Fin 512)
    (hb : b.val = t.val * 128 + r.val) :
    hidB (iblk0 V c 0 t) (iblk0 V c 1 t) (iblk0 V c 2 t) (iblk0 V c 3 t) (iblk0 V c 4 t) (iblk0 V c 5 t) (iblk0 V c 6 t)
        (iblk0 V c 7 t) s.val (ix2 r k)
      = seqG V c (ix3 s b k) :=
  tile_apply (V c main_v5) (V c main_v8) (V c main_v9) (V c main_v11) (V c main_v12) (V c main_v13) (V c inpRef) (V c main_arg1)
    layerIx (iblk0 V c 0 t) (iblk0 V c 1 t) (iblk0 V c 2 t) (iblk0 V c 3 t) (iblk0 V c 4 t) (iblk0 V c 5 t) (iblk0 V c 6 t)
    (iblk0 V c 7 t) (xgL (iblk0 V c 0 t) (iblk0 V c 2 t)) b r
    (fun s k => iblk0_0_apply V c t s r k b hb) (fun k => iblk0_1_apply V c t r k b hb) (fun k j => iblk0_2_apply V c t k j)
    (fun k j => iblk0_3_apply V c t k j) (fun k j => iblk0_4_apply V c t k j) (fun j => iblk0_5_apply V c t j)
    (fun j => iblk0_6_apply V c t j) (fun j => iblk0_7_apply V c t j)
    (fun s c' => xgL_apply (iblk0 V c 0 t) (iblk0 V c 2 t) s r c') s k

/-- WHAT POINT t WRITES BACK to the hidden sequence: block t of the layer's hidden sequence. -/
theorem flushed8_eq (c : Dev nD) (t : Fin cfg0.N) :
    (dat0 V c).flushed 8 t = ((cfg0.win 8).blk t).view.read (Elt Ideal) (seqG V c) := by
  show (cfg0.win 8).cut (grid0.coords t) ((dat0 V c).after 8 t) = _
  rw [after0_8]
  unfold outsAt0
  dsimp only
  funext j
  obtain ⟨s, r, k, rfl⟩ : ∃ (s : Fin 8) (r : Fin 128) (k : Fin 1024), j = ix3 s r k := ⟨j 0, j 1, j 2, eq_ix3 j⟩
  have ht : t.val < 4 := by have := t.isLt; have hN : cfg0.N = 4 := N_0; omega
  show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (ix3 s r k)
    = seqG V c (((cfg0.win 8).blk t).view.emb (ix3 s r k))
  rw [out8_apply]
  have hb : ((cfg0.win 8).blk t).view.emb (ix3 s r k)
      = (ix3 s (⟨t.val * 128 + r.val, by have := r.isLt; omega⟩ : Fin 512) k : S8x512x1024.Idx) := by
    funext a
    apply Fin.ext
    match a with
    | ⟨0, _⟩ => show win0_8.index t 0 * 8 + 1 * s.val = s.val; rw [(idx0_8 t).1]; omega
    | ⟨1, _⟩ => show win0_8.index t 1 * 128 + 1 * r.val = t.val * 128 + r.val; rw [(idx0_8 t).2.1]; omega
    | ⟨2, _⟩ => show win0_8.index t 2 * 1024 + 1 * k.val = k.val; rw [(idx0_8 t).2.2]; omega
  rw [hb]
  exact tile_at V c t s r k _ rfl

/-- WHAT POINT t WRITES BACK to the last hidden state: block t of the layer's last hidden state. -/
theorem flushed9_eq (c : Dev nD) (t : Fin cfg0.N) :
    (dat0 V c).flushed 9 t = ((cfg0.win 9).blk t).view.read (Elt Ideal) (finG V c) := by
  show (cfg0.win 9).cut (grid0.coords t) ((dat0 V c).after 9 t) = _
  rw [after0_9]
  unfold outsAt0
  dsimp only
  funext j
  obtain ⟨r, k, rfl⟩ : ∃ (r : Fin 128) (k : Fin 1024), j = ix2 r k := ⟨j 0, j 1, eq_ix2 j⟩
  have ht : t.val < 4 := by have := t.isLt; have hN : cfg0.N = 4 := N_0; omega
  show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (ix2 r k)
    = finG V c (((cfg0.win 9).blk t).view.emb (ix2 r k))
  rw [out9_eq]
  have hb : ((cfg0.win 9).blk t).view.emb (ix2 r k)
      = (ix2 (⟨t.val * 128 + r.val, by have := r.isLt; omega⟩ : Fin 512) k : S512x1024.Idx) := by
    funext a
    apply Fin.ext
    match a with
    | ⟨0, _⟩ => show win0_9.index t 0 * 128 + 1 * r.val = t.val * 128 + r.val; rw [(idx0_9 t).1]; omega
    | ⟨1, _⟩ => show win0_9.index t 1 * 1024 + 1 * k.val = k.val; rw [(idx0_9 t).2]; omega
  rw [hb]
  exact tile_at V c t 7 r k _ rfl

/-- An index of the hidden sequence is in point t's block iff each coordinate is in the block's range on its axis. -/
theorem mem_blk8 (t : Fin cfg0.N) (i : S8x512x1024.Idx) :
    i ∈ ((cfg0.win 8).blk t).view.set ↔ ∀ a : Fin 3, win0_8.index t a * S8x128x1024.size a ≤ (i a).val
      ∧ (i a).val < win0_8.index t a * S8x128x1024.size a + S8x128x1024.size a := by
  show i ∈ ((View.whole main_v15_0).slice (win0_8.rect t)).set ↔ _
  rw [View.set_slice_whole, Rect.mem_set_unit]
  exact Iff.rfl

/-- An index of the last hidden state is in point t's block iff each coordinate is in the block's range on its axis. -/
theorem mem_blk9 (t : Fin cfg0.N) (i : S512x1024.Idx) :
    i ∈ ((cfg0.win 9).blk t).view.set ↔ ∀ a : Fin 2, win0_9.index t a * S128x1024.size a ≤ (i a).val
      ∧ (i a).val < win0_9.index t a * S128x1024.size a + S128x1024.size a := by
  show i ∈ ((View.whole main_v15_1).slice (win0_9.rect t)).set ↔ _
  rw [View.set_slice_whole, Rect.mem_set_unit]
  exact Iff.rfl

/-- The four tiles cover the hidden sequence: batch row b is in the block of point b / 128. -/
theorem cover8 (i : S8x512x1024.Idx) : ∃ t : Fin cfg0.N, (cfg0.win 8).flush t = true ∧ i ∈ ((cfg0.win 8).blk t).view.set := by
  have h0 : (i 0).val < 8 := (i 0).isLt
  have h1 : (i 1).val < 512 := (i 1).isLt
  have h2 : (i 2).val < 1024 := (i 2).isLt
  have hN : cfg0.N = 4 := N_0
  refine ⟨⟨(i 1).val / 128, by rw [hN]; omega⟩, flush0_8 _, ?_⟩
  rw [mem_blk8]
  obtain ⟨e0, e1, e2⟩ := idx0_8 ⟨(i 1).val / 128, by rw [hN]; omega⟩
  intro a
  match a with
  | ⟨0, _⟩ =>
    show win0_8.index _ 0 * 8 ≤ (i 0).val ∧ (i 0).val < win0_8.index _ 0 * 8 + 8
    rw [e0]; omega
  | ⟨1, _⟩ =>
    show win0_8.index _ 1 * 128 ≤ (i 1).val ∧ (i 1).val < win0_8.index _ 1 * 128 + 128
    rw [e1]; show (i 1).val / 128 * 128 ≤ (i 1).val ∧ (i 1).val < (i 1).val / 128 * 128 + 128; omega
  | ⟨2, _⟩ =>
    show win0_8.index _ 2 * 1024 ≤ (i 2).val ∧ (i 2).val < win0_8.index _ 2 * 1024 + 1024
    rw [e2]; omega

/-- The four tiles cover the last hidden state. -/
theorem cover9 (i : S512x1024.Idx) : ∃ t : Fin cfg0.N, (cfg0.win 9).flush t = true ∧ i ∈ ((cfg0.win 9).blk t).view.set := by
  have h0 : (i 0).val < 512 := (i 0).isLt
  have h1 : (i 1).val < 1024 := (i 1).isLt
  have hN : cfg0.N = 4 := N_0
  refine ⟨⟨(i 0).val / 128, by rw [hN]; omega⟩, flush0_9 _, ?_⟩
  rw [mem_blk9]
  obtain ⟨e0, e1⟩ := idx0_9 ⟨(i 0).val / 128, by rw [hN]; omega⟩
  intro a
  match a with
  | ⟨0, _⟩ =>
    show win0_9.index _ 0 * 128 ≤ (i 0).val ∧ (i 0).val < win0_9.index _ 0 * 128 + 128
    rw [e0]; show (i 0).val / 128 * 128 ≤ (i 0).val ∧ (i 0).val < (i 0).val / 128 * 128 + 128; omega
  | ⟨1, _⟩ =>
    show win0_9.index _ 1 * 1024 ≤ (i 1).val ∧ (i 1).val < win0_9.index _ 1 * 1024 + 1024
    rw [e1]; omega

/-- THE HIDDEN SEQUENCE the region leaves is the layer's, run on the region's input sequence from the layer's initial state. -/
theorem seq_value0 (c : Dev nD) :
    (dat0 V c).arrAt 8 cfg0.N
      = seqOut (WofV (V c main_v5) (V c main_v8) (V c main_v9) (V c main_v11) (V c main_v12) (V c main_v13) layerIx)
          (V c inpRef) (V c main_arg1) layerIx :=
  (dat0 V c).arrAt_eq_of_cover 8 (seqG V c) (fun t _ => flushed8_eq V c t) cover8

/-- THE LAST HIDDEN STATE the region leaves is the layer's. -/
theorem fin_value0 (c : Dev nD) :
    (dat0 V c).arrAt 9 cfg0.N
      = finOut (WofV (V c main_v5) (V c main_v8) (V c main_v9) (V c main_v11) (V c main_v12) (V c main_v13) layerIx)
          (V c inpRef) (V c main_arg1) layerIx :=
  (dat0 V c).arrAt_eq_of_cover 9 (finG V c) (fun t _ => flushed9_eq V c t) cover9

end Cert.KernelIdeal.Value0

end
-- ==== Proof.KI.Val1Mat.lean ====
/-
  The three matrix products of a GRU layer's tile, read entry by entry over the extended reals: each is the sum over
  the 1024 contracted features of the products of the two operands' entries.
-/
import proofs.«428164_j36979668418798_3_alg».proof.Proof.Gen.KernelIdeal.Skeleton
import Idealize.ShloMosaic.PureOps.Ideal
import Idealize.ShloMosaic.PureOps.Ideal.Laws
import Idealize.ShloMosaic.Lib.ValueIdx

noncomputable section

namespace Cert.KernelIdeal.Value1

open Idealize.ShloMosaic Idealize.ShloMosaic.ValueIdx Cert.KernelIdeal Cert.KernelIdeal.Gen
open scoped BigOperators

/-! ### The input-side product: [1024, 1024] by [1024, 3072] -/

abbrev Dx := dot_S1024x1024_S1024x3072_S1024x3072_1_0_0_1_n_n

theorem lhsDx_0 (j : S1024x3072.Idx) (k : Dx.contr.Idx) : (Dx.lhsIdx j k 0 : ℕ) = j 0 := by
  simp [DotDims.lhsIdx, Dx, dot_S1024x1024_S1024x3072_S1024x3072_1_0_0_1_n_n]; rfl
theorem lhsDx_1 (j : S1024x3072.Idx) (k : Dx.contr.Idx) : (Dx.lhsIdx j k 1 : ℕ) = k ⟨0, by decide⟩ := by
  simp [DotDims.lhsIdx, Dx, dot_S1024x1024_S1024x3072_S1024x3072_1_0_0_1_n_n]; rfl
theorem rhsDx_0 (j : S1024x3072.Idx) (k : Dx.contr.Idx) : (Dx.rhsIdx j k 0 : ℕ) = k ⟨0, by decide⟩ := by
  simp [DotDims.rhsIdx, Dx, dot_S1024x1024_S1024x3072_S1024x3072_1_0_0_1_n_n]; rfl
theorem rhsDx_1 (j : S1024x3072.Idx) (k : Dx.contr.Idx) : (Dx.rhsIdx j k 1 : ℕ) = j 1 := by
  simp [DotDims.rhsIdx, Dx, dot_S1024x1024_S1024x3072_S1024x3072_1_0_0_1_n_n]; rfl

/-- Entry (r, c) of this product is the sum over k of A[r, k] · B[k, c]. -/
theorem mmDx_apply (A : FVec Ideal S1024x1024 .bf16) (B : FVec Ideal S1024x3072 .bf16) (r : Fin 1024) (c : Fin 3072) :
    matmul Dx none A B (constant S1024x3072 .f32 0x00000000#32) (ix2 r c) = ∑ k : Fin 1024, A (ix2 r k) * B (ix2 k c) := by
  show FloatOps.matmul Dx none A B _ (ix2 r c) = _
  rw [Ideal.matmul_constant_zero_apply, ← Equiv.sum_comp (contrEquiv1 Dx 1024 rfl rfl).symm]
  refine Finset.sum_congr rfl fun k _ => ?_
  have ck := contrEquiv1_symm_val Dx 1024 rfl rfl k
  have l : Dx.lhsIdx (ix2 r c) ((contrEquiv1 Dx 1024 rfl rfl).symm k) = ix2 r k := by
    funext ax; apply Fin.ext
    match ax with
    | ⟨0, _⟩ => exact lhsDx_0 _ _
    | ⟨1, _⟩ => exact (lhsDx_1 _ _).trans ck
  have rr : Dx.rhsIdx (ix2 r c) ((contrEquiv1 Dx 1024 rfl rfl).symm k) = ix2 k c := by
    funext ax; apply Fin.ext
    match ax with
    | ⟨0, _⟩ => exact (rhsDx_0 _ _).trans ck
    | ⟨1, _⟩ => exact rhsDx_1 _ _
  rw [l, rr]

/-! ### The hidden-side product of the two gates: [128, 1024] by [1024, 2048] -/

abbrev Dzr := dot_S128x1024_S1024x2048_S128x2048_1_0_0_1_n_n

theorem lhsDzr_0 (j : S128x2048.Idx) (k : Dzr.contr.Idx) : (Dzr.lhsIdx j k 0 : ℕ) = j 0 := by
  simp [DotDims.lhsIdx, Dzr, dot_S128x1024_S1024x2048_S128x2048_1_0_0_1_n_n]; rfl
theorem lhsDzr_1 (j : S128x2048.Idx) (k : Dzr.contr.Idx) : (Dzr.lhsIdx j k 1 : ℕ) = k ⟨0, by decide⟩ := by
  simp [DotDims.lhsIdx, Dzr, dot_S128x1024_S1024x2048_S128x2048_1_0_0_1_n_n]; rfl
theorem rhsDzr_0 (j : S128x2048.Idx) (k : Dzr.contr.Idx) : (Dzr.rhsIdx j k 0 : ℕ) = k ⟨0, by decide⟩ := by
  simp [DotDims.rhsIdx, Dzr, dot_S128x1024_S1024x2048_S128x2048_1_0_0_1_n_n]; rfl
theorem rhsDzr_1 (j : S128x2048.Idx) (k : Dzr.contr.Idx) : (Dzr.rhsIdx j k 1 : ℕ) = j 1 := by
  simp [DotDims.rhsIdx, Dzr, dot_S128x1024_S1024x2048_S128x2048_1_0_0_1_n_n]; rfl

/-- Entry (r, c) of this product is the sum over k of A[r, k] · B[k, c]. -/
theorem mmDzr_apply (A : FVec Ideal S128x1024 .bf16) (B : FVec Ideal S1024x2048 .bf16) (r : Fin 128) (c : Fin 2048) :
    matmul Dzr none A B (constant S128x2048 .f32 0x00000000#32) (ix2 r c) = ∑ k : Fin 1024, A (ix2 r k) * B (ix2 k c) := by
  show FloatOps.matmul Dzr none A B _ (ix2 r c) = _
  rw [Ideal.matmul_constant_zero_apply, ← Equiv.sum_comp (contrEquiv1 Dzr 1024 rfl rfl).symm]
  refine Finset.sum_congr rfl fun k _ => ?_
  have ck := contrEquiv1_symm_val Dzr 1024 rfl rfl k
  have l : Dzr.lhsIdx (ix2 r c) ((contrEquiv1 Dzr 1024 rfl rfl).symm k) = ix2 r k := by
    funext ax; apply Fin.ext
    match ax with
    | ⟨0, _⟩ => exact lhsDzr_0 _ _
    | ⟨1, _⟩ => exact (lhsDzr_1 _ _).trans ck
  have rr : Dzr.rhsIdx (ix2 r c) ((contrEquiv1 Dzr 1024 rfl rfl).symm k) = ix2 k c := by
    funext ax; apply Fin.ext
    match ax with
    | ⟨0, _⟩ => exact (rhsDzr_0 _ _).trans ck
    | ⟨1, _⟩ => exact rhsDzr_1 _ _
  rw [l, rr]

/-! ### The hidden-side product of the candidate: [128, 1024] by [1024, 1024] -/

abbrev Dh := dot_S128x1024_S1024x1024_S128x1024_1_0_0_1_n_n

theorem lhsDh_0 (j : S128x1024.Idx) (k : Dh.contr.Idx) : (Dh.lhsIdx j k 0 : ℕ) = j 0 := by
  simp [DotDims.lhsIdx, Dh, dot_S128x1024_S1024x1024_S128x1024_1_0_0_1_n_n]; rfl
theorem lhsDh_1 (j : S128x1024.Idx) (k : Dh.contr.Idx) : (Dh.lhsIdx j k 1 : ℕ) = k ⟨0, by decide⟩ := by
  simp [DotDims.lhsIdx, Dh, dot_S128x1024_S1024x1024_S128x1024_1_0_0_1_n_n]; rfl
theorem rhsDh_0 (j : S128x1024.Idx) (k : Dh.contr.Idx) : (Dh.rhsIdx j k 0 : ℕ) = k ⟨0, by decide⟩ := by
  simp [DotDims.rhsIdx, Dh, dot_S128x1024_S1024x1024_S128x1024_1_0_0_1_n_n]; rfl
theorem rhsDh_1 (j : S128x1024.Idx) (k : Dh.contr.Idx) : (Dh.rhsIdx j k 1 : ℕ) = j 1 := by
  simp [DotDims.rhsIdx, Dh, dot_S128x1024_S1024x1024_S128x1024_1_0_0_1_n_n]; rfl

/-- Entry (r, c) of this product is the sum over k of A[r, k] · B[k, c]. -/
theorem mmDh_apply (A : FVec Ideal S128x1024 .bf16) (B : FVec Ideal S1024x1024 .bf16) (r : Fin 128) (c : Fin 1024) :
    matmul Dh none A B (constant S128x1024 .f32 0x00000000#32) (ix2 r c) = ∑ k : Fin 1024, A (ix2 r k) * B (ix2 k c) := by
  show FloatOps.matmul Dh none A B _ (ix2 r c) = _
  rw [Ideal.matmul_constant_zero_apply, ← Equiv.sum_comp (contrEquiv1 Dh 1024 rfl rfl).symm]
  refine Finset.sum_congr rfl fun k _ => ?_
  have ck := contrEquiv1_symm_val Dh 1024 rfl rfl k
  have l : Dh.lhsIdx (ix2 r c) ((contrEquiv1 Dh 1024 rfl rfl).symm k) = ix2 r k := by
    funext ax; apply Fin.ext
    match ax with
    | ⟨0, _⟩ => exact lhsDh_0 _ _
    | ⟨1, _⟩ => exact (lhsDh_1 _ _).trans ck
  have rr : Dh.rhsIdx (ix2 r c) ((contrEquiv1 Dh 1024 rfl rfl).symm k) = ix2 k c := by
    funext ax; apply Fin.ext
    match ax with
    | ⟨0, _⟩ => exact (rhsDh_0 _ _).trans ck
    | ⟨1, _⟩ => exact rhsDh_1 _ _
  rw [l, rr]

end Cert.KernelIdeal.Value1

end
-- ==== Proof.KI.Val1Step.lean ====
/-
  One time step of a GRU layer on a tile of 128 batch rows, as one function of the tile's previous hidden state, the
  tile's rows of the input-side products, the two hidden-side weight blocks and the three bias rows; and the eight
  hidden states a tile goes through, each the step applied to the one before.
-/
import proofs.«428164_j36979668418798_3_alg».proof.Proof.Gen.KernelIdeal.Skeleton

noncomputable section

namespace Cert.KernelIdeal.Value1

open Idealize.ShloMosaic Cert.KernelIdeal Cert.KernelIdeal.Gen

variable {F : FTy → Type} [FloatOps F]

/-- The new hidden state of a tile: with `xg` the tile's rows of the input-side products (three bands of 1024 columns:
    update gate, reset gate, candidate), `h` the previous hidden state,
      z = σ(xg_z + h·W_z + b_z),  r = σ(xg_r + h·W_r + b_r),  c = tanh(xg_c + (r ⊙ h)·W_c + b_c),
      h' = (1 − z) ⊙ h + z ⊙ c. -/
def step (bz br bh : FVec F S1x1024 .f32) (h : FVec F S128x1024 .f32) (xg : FVec F S128x3072 .bf16)
    (whzr : FVec F S1x1024x2048 .bf16) (whh : FVec F S1x1024x1024 .bf16) : FVec F S128x1024 .f32 :=
  have xz : FVec F S128x1024 .bf16 := extractStridedSlice S128x1024 ![0, 0] xg slices_S128x3072_o0_0_S128x1024
  have xr : FVec F S128x1024 .bf16 := extractStridedSlice S128x1024 ![0, 1024] xg slices_S128x3072_o0_1024_S128x1024
  have xc : FVec F S128x1024 .bf16 := extractStridedSlice S128x1024 ![0, 2048] xg slices_S128x3072_o0_2048_S128x1024
  have hb : FVec F S128x1024 .bf16 := truncf .bf16 h bitsLt_bf16_f32
  have wzr : FVec F S1024x2048 .bf16 := shapeCast S1024x2048 whzr shapeCasts_S1x1024x2048_S1024x2048
  have z0 : FVec F S128x2048 .f32 := constant S128x2048 .f32 0x00000000#32
  have hg : FVec F S128x2048 .f32 := matmul dot_S128x1024_S1024x2048_S128x2048_1_0_0_1_n_n none hb wzr z0
  have hz : FVec F S128x1024 .f32 := extractStridedSlice S128x1024 ![0, 0] hg slices_S128x2048_o0_0_S128x1024
  have hr : FVec F S128x1024 .f32 := extractStridedSlice S128x1024 ![0, 1024] hg slices_S128x2048_o0_1024_S128x1024
  have a1 : FVec F S128x1024 .f32 := extf .f32 xz bitsLt_bf16_f32
  have a2 : FVec F S128x1024 .f32 := addf a1 hz
  have a3 : FVec F S128x1024 .f32 := broadcastTo S128x1024 bz broadcasts_S1x1024_S128x1024
  have a4 : FVec F S128x1024 .f32 := addf a2 a3
  have z : FVec F S128x1024 .f32 := logistic a4
  have b1 : FVec F S128x1024 .f32 := extf .f32 xr bitsLt_bf16_f32
  have b2 : FVec F S128x1024 .f32 := addf b1 hr
  have b3 : FVec F S128x1024 .f32 := broadcastTo S128x1024 br broadcasts_S1x1024_S128x1024
  have b4 : FVec F S128x1024 .f32 := addf b2 b3
  have r : FVec F S128x1024 .f32 := logistic b4
  have rh : FVec F S128x1024 .f32 := mulf r h
  have rhb : FVec F S128x1024 .bf16 := truncf .bf16 rh bitsLt_bf16_f32
  have wc : FVec F S1024x1024 .bf16 := shapeCast S1024x1024 whh shapeCasts_S1x1024x1024_S1024x1024
  have z1 : FVec F S128x1024 .f32 := constant S128x1024 .f32 0x00000000#32
  have hc : FVec F S128x1024 .f32 := matmul dot_S128x1024_S1024x1024_S128x1024_1_0_0_1_n_n none rhb wc z1
  have c1 : FVec F S128x1024 .f32 := extf .f32 xc bitsLt_bf16_f32
  have c2 : FVec F S128x1024 .f32 := addf c1 hc
  have c3 : FVec F S128x1024 .f32 := broadcastTo S128x1024 bh broadcasts_S1x1024_S128x1024
  have c4 : FVec F S128x1024 .f32 := addf c2 c3
  have c : FVec F S128x1024 .f32 := tanh c4
  have one : F .f32 := Scalar.ofBits .f32 0x3F800000#32
  have ones : FVec F S128x1024 .f32 := broadcast S128x1024 one
  have nz : FVec F S128x1024 .f32 := subf ones z
  have keep : FVec F S128x1024 .f32 := mulf nz h
  have upd : FVec F S128x1024 .f32 := mulf z c
  addf keep upd

/-! ### The eight hidden states of the program's body are eight steps

Each equation: the value the body holds as hidden state after time step t, written over the values it loaded, is the step
applied to the hidden state after step t − 1 (the loaded initial state at t = 0), the rows of the input-side products
loaded for step t, and the weight blocks and bias rows as loaded. -/

theorem hid0_eq (v11 : Vec F S1x128x1024 .f32) (v13 v15 v17 : Vec F S1x1x1024 .f32) (v19 : Vec F S128x3072 .bf16)
    (v24 : Vec F S1x1024x2048 .bf16) (v41 : Vec F S1x1024x1024 .bf16) :
    k1_pay13 (k1_pay4 v11) (k1_pay5 v13) (k1_pay6 v15) (k1_pay7 v17) (k1_pay8 v19) (k1_pay9 v19) (k1_pay11 v11 v24)
        (k1_pay12 v11 v19 v24) v41
      = step (k1_pay5 v13) (k1_pay6 v15) (k1_pay7 v17) (k1_pay4 v11) v19 v24 v41 := rfl

theorem hid1_eq (v12 : FVec F S128x1024 .f32) (v14 v16 v18 : FVec F S1x1024 .f32) (v21 v22 : FVec F S128x1024 .bf16)
    (v28 v30 : FVec F S128x1024 .f32) (v41 : Vec F S1x1024x1024 .bf16) (v57 : Vec F S128x3072 .bf16)
    (v62 : Vec F S1x1024x2048 .bf16) (v79 : Vec F S1x1024x1024 .bf16) :
    k1_pay19 v18 (k1_pay13 v12 v14 v16 v18 v21 v22 v28 v30 v41) (k1_pay15 v57)
        (k1_pay17 v12 v14 v16 v18 v21 v22 v28 v30 v41 v57 v62) (k1_pay18 v12 v14 v16 v18 v21 v22 v28 v30 v41 v57 v62) v79
      = step v14 v16 v18 (k1_pay13 v12 v14 v16 v18 v21 v22 v28 v30 v41) v57 v62 v79 := rfl

theorem hid2_eq (v14 v16 v18 : FVec F S1x1024 .f32) (v53 : FVec F S128x1024 .f32) (v60 : FVec F S128x1024 .bf16)
    (v71 v75 : FVec F S128x1024 .f32) (v79 : Vec F S1x1024x1024 .bf16) (v95 : Vec F S128x3072 .bf16)
    (v100 : Vec F S1x1024x2048 .bf16) (v117 : Vec F S1x1024x1024 .bf16) :
    k1_pay25 v18 (k1_pay19 v18 v53 v60 v71 v75 v79) (k1_pay21 v95) (k1_pay23 v14 v18 v53 v60 v71 v75 v79 v95 v100)
        (k1_pay24 v16 v18 v53 v60 v71 v75 v79 v95 v100) v117
      = step v14 v16 v18 (k1_pay19 v18 v53 v60 v71 v75 v79) v95 v100 v117 := rfl

theorem hid3_eq (v14 v16 v18 : FVec F S1x1024 .f32) (v91 : FVec F S128x1024 .f32) (v98 : FVec F S128x1024 .bf16)
    (v109 : FVec F S128x1024 .f32) (v116 : FVec F S128x1024 .bf16) (v117 : Vec F S1x1024x1024 .bf16)
    (v133 : Vec F S128x3072 .bf16) (v138 : Vec F S1x1024x2048 .bf16) (v155 : Vec F S1x1024x1024 .bf16) :
    k1_pay30 (k1_pay25 v18 v91 v98 v109 v116 v117) (k1_pay28 v14 v18 v91 v98 v109 v116 v117 v133 v138)
        (k1_pay29 v16 v18 v91 v98 v109 v116 v117 v133 v138 v155)
      = step v14 v16 v18 (k1_pay25 v18 v91 v98 v109 v116 v117) v133 v138 v155 := rfl

theorem hid4_eq (v14 v16 v18 : FVec F S1x1024 .f32) (v129 v147 v161 : FVec F S128x1024 .f32) (v171 : Vec F S128x3072 .bf16)
    (v176 : Vec F S1x1024x2048 .bf16) (v193 : Vec F S1x1024x1024 .bf16) :
    k1_pay32 v14 v16 v18 v129 v147 v161 v171 v176 v193 = step v14 v16 v18 (k1_pay30 v129 v147 v161) v171 v176 v193 := rfl

theorem hid5_eq (v14 v16 v18 : FVec F S1x1024 .f32) (v205 : FVec F S128x1024 .f32) (v209 : Vec F S128x3072 .bf16)
    (v214 : Vec F S1x1024x2048 .bf16) (v231 : Vec F S1x1024x1024 .bf16) :
    k1_pay34 v14 v16 v18 v205 v209 v214 v231 = step v14 v16 v18 v205 v209 v214 v231 := rfl

theorem hid6_eq (v14 v16 v18 : FVec F S1x1024 .f32) (v243 : FVec F S128x1024 .f32) (v247 : Vec F S128x3072 .bf16)
    (v252 : Vec F S1x1024x2048 .bf16) (v269 : Vec F S1x1024x1024 .bf16) :
    k1_pay36 v14 v16 v18 v243 v247 v252 v269 = step v14 v16 v18 v243 v247 v252 v269 := rfl

theorem hid7_eq (v14 v16 v18 : FVec F S1x1024 .f32) (v243 : FVec F S128x1024 .f32) (v247 : Vec F S128x3072 .bf16)
    (v252 : Vec F S1x1024x2048 .bf16) (v269 : Vec F S1x1024x1024 .bf16) (v285 : Vec F S128x3072 .bf16)
    (v290 : Vec F S1x1024x2048 .bf16) (v307 : Vec F S1x1024x1024 .bf16) :
    k1_pay1 v14 v16 v18 (k1_pay36 v14 v16 v18 v243 v247 v252 v269) (k1_pay38 v285) (k1_pay39 v285) (k1_pay40 v285)
        (k1_pay41 v14 v16 v18 v243 v247 v252 v269) v290 v307
      = step v14 v16 v18 (k1_pay36 v14 v16 v18 v243 v247 v252 v269) v285 v290 v307 := rfl

end Cert.KernelIdeal.Value1

end
-- ==== Proof.KI.Val1Cell.lean ====
/-
  A step of the layer on a tile of 128 batch rows, read row by row over the extended reals: row r of the new hidden
  state is the GRU cell of row r — its update gate, reset gate and candidate are the specification's, because each matrix
  product is the sum over the 1024 contracted features and every change of float format is the identity there.
-/
import proofs.«428164_j36979668418798_3_alg».proof.Proof.KI.Val1Mat
import proofs.«428164_j36979668418798_3_alg».proof.Proof.KI.Val1Step
import proofs.«428164_j36979668418798_3_alg».proof.Proof.LayerOf
import Idealize.ShloMosaic.Lib.ValueLayout
import Idealize.ShloMosaic.Lib.Pipeline.Value
import Idealize.ShloMosaic.Lib.IdealHost

noncomputable section

namespace Cert.KernelIdeal.Value1

open Idealize.ShloMosaic Idealize.ShloMosaic.ValueIdx Cert.KernelIdeal Cert.KernelIdeal.Gen Cert.Spec Cert.LayerOf
open scoped BigOperators

/-! ### The two hidden-side products of a step, entry by entry -/

/-- Entry (r, c) of the gates' hidden-side product: the sum over k of h[r, k] · W[0, k, c]. -/
theorem hg_apply (h : FVec Ideal S128x1024 .f32) (whzr : FVec Ideal S1x1024x2048 .bf16) (r : Fin 128) (c : Fin 2048) :
    matmul Dzr none (truncf .bf16 h bitsLt_bf16_f32) (shapeCast S1024x2048 whzr shapeCasts_S1x1024x2048_S1024x2048)
        (constant S128x2048 .f32 0x00000000#32) (ix2 r c)
      = ∑ k : Fin 1024, h (ix2 r k) * whzr (ix3 0 k c) := by
  rw [mmDzr_apply]
  refine Finset.sum_congr rfl fun k _ => ?_
  rw [truncf_apply, shapeCast_1ab_ab_apply]

/-- Entry (r, j) of the candidate's hidden-side product: the sum over k of u[r, k] · W[0, k, j]. -/
theorem hc_apply (u : FVec Ideal S128x1024 .f32) (whh : FVec Ideal S1x1024x1024 .bf16) (r : Fin 128) (j : Fin 1024) :
    matmul Dh none (truncf .bf16 u bitsLt_bf16_f32) (shapeCast S1024x1024 whh shapeCasts_S1x1024x1024_S1024x1024)
        (constant S128x1024 .f32 0x00000000#32) (ix2 r j)
      = ∑ k : Fin 1024, u (ix2 r k) * whh (ix3 0 k j) := by
  rw [mmDh_apply]
  refine Finset.sum_congr rfl fun k _ => ?_
  rw [truncf_apply, shapeCast_1ab_ab_apply]

/-! ### The three parts of a step: update gate, reset gate, candidate -/

/-- The gates' hidden-side product of a tile. -/
def hgate (h : FVec Ideal S128x1024 .f32) (whzr : FVec Ideal S1x1024x2048 .bf16) : FVec Ideal S128x2048 .f32 :=
  matmul Dzr none (truncf .bf16 h bitsLt_bf16_f32) (shapeCast S1024x2048 whzr shapeCasts_S1x1024x2048_S1024x2048)
    (constant S128x2048 .f32 0x00000000#32)

/-- The update gate of a tile. -/
def zGate (bz : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 0] xg slices_S128x3072_o0_0_S128x1024) bitsLt_bf16_f32)
      (extractStridedSlice S128x1024 ![0, 0] (hgate h whzr) slices_S128x2048_o0_0_S128x1024))
    (broadcastTo S128x1024 bz broadcasts_S1x1024_S128x1024))

/-- The reset gate of a tile. -/
def rGate (br : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 1024] xg slices_S128x3072_o0_1024_S128x1024) bitsLt_bf16_f32)
      (extractStridedSlice S128x1024 ![0, 1024] (hgate h whzr) slices_S128x2048_o0_1024_S128x1024))
    (broadcastTo S128x1024 br broadcasts_S1x1024_S128x1024))

/-- The candidate state of a tile, from its reset gate `R`. -/
def cCand (bh : FVec Ideal S1x1024 .f32) (h R : FVec Ideal S128x1024 .f32) (xg : FVec Ideal S128x3072 .bf16)
    (whh : FVec Ideal S1x1024x1024 .bf16) : FVec Ideal S128x1024 .f32 :=
  tanh (addf (addf (extf .f32 (extractStridedSlice S128x1024 ![0, 2048] xg slices_S128x3072_o0_2048_S128x1024) bitsLt_bf16_f32)
      (matmul Dh none (truncf .bf16 (mulf R h) bitsLt_bf16_f32) (shapeCast S1024x1024 whh shapeCasts_S1x1024x1024_S1024x1024)
        (constant S128x1024 .f32 0x00000000#32)))
    (broadcastTo S128x1024 bh broadcasts_S1x1024_S128x1024))

/-- The step is (1 − z) ⊙ h + z ⊙ c over those three. -/
theorem step_eq (bz br bh : FVec Ideal S1x1024 .f32) (h : FVec Ideal S128x1024 .f32) (xg : FVec Ideal S128x3072 .bf16)
    (whzr : FVec Ideal S1x1024x2048 .bf16) (whh : FVec Ideal S1x1024x1024 .bf16) :
    step bz br bh h xg whzr whh
      = addf (mulf (subf (broadcast S128x1024 (Scalar.ofBits (F := Ideal) .f32 0x3F800000#32)) (zGate bz h xg whzr)) h)
          (mulf (zGate bz h xg whzr) (cCand bh h (rGate br h xg whzr) xg whh)) := rfl

/-! ### A step on a tile is the cell on each of its rows -/

section Row
variable (W : LayerW) (x hrow : Row)
  (bz br bh : FVec Ideal S1x1024 .f32) (h : FVec Ideal S128x1024 .f32) (xg : FVec Ideal S128x3072 .bf16)
  (whzr : FVec Ideal S1x1024x2048 .bf16) (whh : FVec Ideal S1x1024x1024 .bf16) (r : Fin 128)

/-- Row `r` of the update gate is the row's update gate. -/
theorem zGate_apply
    (hxz : ∀ j : Fin 1024, xg (ix2 r (col3 0 j)) = ∑ k, x k * W.Wxz k j)
    (hwz : ∀ (k j : Fin 1024), whzr (ix3 0 k (col2 0 j)) = W.Whz k j)
    (hbz : ∀ j : Fin 1024, bz (ix2 0 j) = W.bz j)
    (hh : ∀ k : Fin 1024, h (ix2 r k) = hrow k) (j : Fin 1024) :
    zGate bz h xg whzr (ix2 r j) = gateZ W x hrow j := by
  unfold zGate hgate
  show Ideal.logistic ((_ + _) + _) = _
  rw [extf_apply, slice2_axis1_apply 0 xg slices_S128x3072_o0_0_S128x1024 r j (col3 0 j) (by simp [col3]),
    slice2_axis1_apply 0 _ slices_S128x2048_o0_0_S128x1024 r j (col2 0 j) (by simp [col2]),
    broadcastTo_1b_ab_apply, hg_apply, hxz, hbz]
  unfold gateZ
  simp only [hh, hwz]

/-- Row `r` of the reset gate is the row's reset gate. -/
theorem rGate_apply
    (hxr : ∀ j : Fin 1024, xg (ix2 r (col3 1 j)) = ∑ k, x k * W.Wxr k j)
    (hwr : ∀ (k j : Fin 1024), whzr (ix3 0 k (col2 1 j)) = W.Whr k j)
    (hbr : ∀ j : Fin 1024, br (ix2 0 j) = W.br j)
    (hh : ∀ k : Fin 1024, h (ix2 r k) = hrow k) (j : Fin 1024) :
    rGate br h xg whzr (ix2 r j) = gateR W x hrow j := by
  unfold rGate hgate
  show Ideal.logistic ((_ + _) + _) = _
  rw [extf_apply,
    slice2_axis1_apply 1024 xg slices_S128x3072_o0_1024_S128x1024 r j (col3 1 j) (by show 1 * 1024 + j.val = 1024 + j.val; omega),
    slice2_axis1_apply 1024 _ slices_S128x2048_o0_1024_S128x1024 r j (col2 1 j) (by show 1 * 1024 + j.val = 1024 + j.val; omega),
    broadcastTo_1b_ab_apply, hg_apply, hxr, hbr]
  unfold gateR
  simp only [hh, hwr]

/-- Row `r` of the candidate is the row's candidate, when row `r` of `R` is the row's reset gate. -/
theorem cCand_apply (R : FVec Ideal S128x1024 .f32)
    (hxh : ∀ j : Fin 1024, xg (ix2 r (col3 2 j)) = ∑ k, x k * W.Wxh k j)
    (hwh : ∀ (k j : Fin 1024), whh (ix3 0 k j) = W.Whh k j)
    (hbh : ∀ j : Fin 1024, bh (ix2 0 j) = W.bh j)
    (hR : ∀ k : Fin 1024, R (ix2 r k) = gateR W x hrow k)
    (hh : ∀ k : Fin 1024, h (ix2 r k) = hrow k) (j : Fin 1024) :
    cCand bh h R xg whh (ix2 r j) = cand W x hrow j := by
  unfold cCand
  show Ideal.tanh ((_ + _) + _) = _
  rw [extf_apply,
    slice2_axis1_apply 2048 xg slices_S128x3072_o0_2048_S128x1024 r j (col3 2 j) (by show 2 * 1024 + j.val = 2048 + j.val; omega),
    broadcastTo_1b_ab_apply, hc_apply, hxh, hbh]
  unfold cand
  simp only [mulf_apply, hR, hh, hwh]

/-- Row `r` of the new hidden state is the cell of row `r`: given that row `r` of the input-side products holds x·Wxz,
    x·Wxr, x·Wxh in its three bands, that the weight blocks and bias rows hold the layer's parameters, and that row `r` of
    the previous hidden state is `hrow`. -/
theorem step_apply
    (hxz : ∀ j : Fin 1024, xg (ix2 r (col3 0 j)) = ∑ k, x k * W.Wxz k j)
    (hxr : ∀ j : Fin 1024, xg (ix2 r (col3 1 j)) = ∑ k, x k * W.Wxr k j)
    (hxh : ∀ j : Fin 1024, xg (ix2 r (col3 2 j)) = ∑ k, x k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h (ix2 r k) = hrow k) (j : Fin 1024) :
    step bz br bh h xg whzr whh (ix2 r j) = cellRow W x hrow j := by
  rw [step_eq]
  show (Ideal.ofBits .f32 0x3F800000#32 - zGate bz h xg whzr (ix2 r j)) * h (ix2 r j)
      + zGate bz h xg whzr (ix2 r j) * cCand bh h (rGate br h xg whzr) xg whh (ix2 r j) = _
  rw [Ideal.ofBits_one_f32, zGate_apply W x hrow bz h xg whzr r hxz hwz hbz hh,
    cCand_apply W x hrow bh h xg whh r _ hxh hwh hbh (rGate_apply W x hrow br h xg whzr r hxr hwr hbr hh) hh, hh]
  rfl

end Row

end Cert.KernelIdeal.Value1

end
-- ==== Proof.KI.Val1Xg.lean ====
/-
  The input-side products of a tile, read entry by entry over the extended reals: the tile's rows of the eight time steps are
  stacked, 128 rows per step, and multiplied at once by the layer's three input-side matrices side by side.
-/
import proofs.«428164_j36979668418798_3_alg».proof.Proof.KI.Val1Mat
import Idealize.ShloMosaic.Lib.ValueLayout
import Idealize.ShloMosaic.Lib.Pipeline.Value

noncomputable section

namespace Cert.KernelIdeal.Value1

open Idealize.ShloMosaic Idealize.ShloMosaic.ValueIdx Cert.KernelIdeal Cert.KernelIdeal.Gen
open scoped BigOperators

/-! ### The input-side products of a tile -/

/-- Entry (t·128 + r, c) of the tile's input-side products is the sum over k of inp[t, r, k] · Wx[0, k, c]: the eight time
    steps' rows of the tile are stacked, 128 rows per step, and multiplied by the three input-side matrices side by side. -/
theorem xgAll_apply (v0 : FVec Ideal S8x128x1024 .f32) (v4 : FVec Ideal S1x1024x3072 .bf16) (t : Fin 8) (r : Fin 128)
    (c : Fin 3072) (q : Fin 1024) (hq : q.val = t.val * 128 + r.val) :
    (k1_pay3 (F := Ideal) v0 v4 (ix2 q c) : EReal) = ∑ k : Fin 1024, (v0 (ix3 t r k) : EReal) * (v4 (ix3 0 k c) : EReal) := by
  dsimp only [k1_pay3]
  rw [shapeCast_self, truncf_apply]
  show matmul Dx none _ _ _ (ix2 q c) = _
  rw [mmDx_apply]
  refine Finset.sum_congr rfl fun k _ => ?_
  rw [truncf_apply, shapeCast_1ab_ab_apply, shapeCast_self]
  congr 1
  exact shapeCast_apply v0 _ (ix2 q k) (ix3 t r k) (by
    rw [Shape.rowMajor_val_three, Shape.rowMajor_val_two]
    show (t.val * 128 + r.val) * 1024 + k.val = q.val * 1024 + k.val
    rw [hq])

end Cert.KernelIdeal.Value1

end
-- ==== Proof.KI.Val1Tile.lean ====
/-
  A tile of 128 batch rows along the eight time steps: its hidden state after step t is the step applied t + 1 times, and
  row r of it is the layer's hidden row of the batch row the tile's row r holds — by induction on t from the one-step lemma,
  with the tile's blocks cut out of the arrays where the grid point's index maps say.
-/
import proofs.«428164_j36979668418798_3_alg».proof.Proof.KI.Val1Cell
import proofs.«428164_j36979668418798_3_alg».proof.Proof.KI.Val1Xg

noncomputable section

namespace Cert.KernelIdeal.Value1

open Idealize.ShloMosaic Idealize.ShloMosaic.ValueIdx Cert.KernelIdeal Cert.KernelIdeal.Gen Cert.Spec Cert.LayerOf
open scoped BigOperators

/-! ### The hidden states of a tile along time -/

/-- The hidden state of a tile after time step `t`: the step applied `t + 1` times from the initial state, each time to
    that step's rows of the input-side products. -/
def hidT {F : FTy → Type} [FloatOps F] (bz br bh : FVec F S1x1024 .f32) (h0 : FVec F S128x1024 .f32)
    (xg : ℕ → FVec F S128x3072 .bf16) (whzr : FVec F S1x1024x2048 .bf16) (whh : FVec F S1x1024x1024 .bf16) :
    ℕ → FVec F S128x1024 .f32
  | 0 => step bz br bh h0 (xg 0) whzr whh
  | t + 1 => step bz br bh (hidT bz br bh h0 xg whzr whh t) (xg (t + 1)) whzr whh

/-- A time step below eight of an input sequence read off a `[time, batch, feature]` array. -/
theorem seqOf_of_lt (u : Sseq.Idx → EReal) (t : ℕ) (ht : t < 8) (b : Fin 512) (k : Fin 1024) :
    seqOf u t b k = u (ix3 ⟨t, ht⟩ b k) := by
  unfold seqOf
  exact congrArg u (congrArg (fun s => ix3 s b k) (Fin.ext (Nat.mod_eq_of_lt ht)))

section Tile
variable (W : LayerW) (Xs : ℕ → Fin 512 → Row) (H0 : Fin 512 → Row) (b : Fin 512)
  (bz br bh : FVec Ideal S1x1024 .f32) (h0 : FVec Ideal S128x1024 .f32) (xg : ℕ → FVec Ideal S128x3072 .bf16)
  (whzr : FVec Ideal S1x1024x2048 .bf16) (whh : FVec Ideal S1x1024x1024 .bf16) (r : Fin 128)

/-- Row `r` of a tile's hidden state after step `t` is the layer's hidden row of batch row `b` at time `t`: given that row `r`
    of each step's input-side products holds batch row `b`'s products at that time, that the weight blocks and bias rows hold
    the layer's parameters, and that row `r` of the initial state is batch row `b`'s. -/
theorem hidT_apply
    (hxz : ∀ t < 8, ∀ j : Fin 1024, xg t (ix2 r (col3 0 j)) = ∑ k, Xs t b k * W.Wxz k j)
    (hxr : ∀ t < 8, ∀ j : Fin 1024, xg t (ix2 r (col3 1 j)) = ∑ k, Xs t b k * W.Wxr k j)
    (hxh : ∀ t < 8, ∀ j : Fin 1024, xg t (ix2 r (col3 2 j)) = ∑ k, Xs t b k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h0 (ix2 r k) = H0 b k) :
    ∀ t, t < 8 → ∀ j : Fin 1024, hidT bz br bh h0 xg whzr whh t (ix2 r j) = layer W Xs H0 t b j := by
  intro t
  induction t with
  | zero =>
    intro ht j
    rw [layer_zero]
    exact step_apply W (Xs 0 b) (H0 b) bz br bh h0 (xg 0) whzr whh r (hxz 0 ht) (hxr 0 ht) (hxh 0 ht) hwz hwr hwh hbz hbr hbh hh j
  | succ t ih =>
    intro ht j
    rw [layer_succ]
    exact step_apply W (Xs (t + 1) b) (layer W Xs H0 t b) bz br bh (hidT bz br bh h0 xg whzr whh t) (xg (t + 1)) whzr whh r
      (hxz _ ht) (hxr _ ht) (hxh _ ht) hwz hwr hwh hbz hbr hbh (ih (by omega)) j

end Tile

/-! ### A tile's hidden states, from its blocks of the arrays -/

section Blocks
variable (wx : Swx.Idx → EReal) (wzr : Swzr.Idx → EReal) (wh : Swh.Idx → EReal) (bzA brA bhA : Sb3.Idx → EReal)
  (inp hprev : Sseq.Idx → EReal) (l : Fin 8)
  (x0 : FVec Ideal S8x128x1024 .f32) (x1 : FVec Ideal S1x128x1024 .f32) (x2 : FVec Ideal S1x1024x3072 .bf16)
  (x3 : FVec Ideal S1x1024x2048 .bf16) (x4 : FVec Ideal S1x1024x1024 .bf16) (x5 x6 x7 : FVec Ideal S1x1x1024 .f32)
  (xg : ℕ → FVec Ideal S128x3072 .bf16) (b : Fin 512) (r : Fin 128)

/-- With the tile's blocks cut out of the arrays — the input sequence's and the initial state's rows of batch row `b` at
    row `r`, layer `l`'s slabs of the parameter arrays — and each step's rows of the input-side products read from the
    stacked products, row `r` of the tile's hidden state after step `s` is entry (s, b, ·) of the layer's hidden sequence. -/
theorem tile_apply
    (e0 : ∀ (s : Fin 8) (k : Fin 1024), x0 (ix3 s r k) = inp (ix3 s b k))
    (e1 : ∀ k : Fin 1024, x1 (ix3 0 r k) = hprev (ix3 l b k))
    (e2 : ∀ (k : Fin 1024) (c : Fin 3072), x2 (ix3 0 k c) = wx (ix3 l k c))
    (e3 : ∀ (k : Fin 1024) (c : Fin 2048), x3 (ix3 0 k c) = wzr (ix3 l k c))
    (e4 : ∀ (k j : Fin 1024), x4 (ix3 0 k j) = wh (ix3 l k j))
    (e5 : ∀ j : Fin 1024, x5 (ix3 0 0 j) = bzA (ix3 l 0 j))
    (e6 : ∀ j : Fin 1024, x6 (ix3 0 0 j) = brA (ix3 l 0 j))
    (e7 : ∀ j : Fin 1024, x7 (ix3 0 0 j) = bhA (ix3 l 0 j))
    (exg : ∀ (s : Fin 8) (c : Fin 3072),
      xg s.val (ix2 r c) = k1_pay3 (F := Ideal) x0 x2 (ix2 ⟨s.val * 128 + r.val, by have := s.isLt; have := r.isLt; omega⟩ c))
    (s : Fin 8) (j : Fin 1024) :
    hidT (k1_pay5 x5) (k1_pay6 x6) (k1_pay7 x7) (k1_pay4 x1) xg x3 x4 s.val (ix2 r j)
      = seqOut (WofV wx wzr wh bzA brA bhA l) inp hprev l (ix3 s b j) := by
  show _ = layer (WofV wx wzr wh bzA brA bhA l) (seqOf inp) (initOf hprev l) s.val b j
  have hx : ∀ t (ht : t < 8) (c : Fin 3072), xg t (ix2 r c) = ∑ k : Fin 1024, seqOf inp t b k * wx (ix3 l k c) := by
    intro t ht c
    rw [exg ⟨t, ht⟩ c, xgAll_apply x0 x2 ⟨t, ht⟩ r c _ rfl]
    refine Finset.sum_congr rfl fun k _ => ?_
    rw [e0, e2, seqOf_of_lt inp t ht]
  refine hidT_apply (WofV wx wzr wh bzA brA bhA l) (seqOf inp) (initOf hprev l) b _ _ _ _ xg x3 x4 r
    (fun t ht j => hx t ht _) (fun t ht j => hx t ht _) (fun t ht j => hx t ht _)
    (fun k j => e3 k _) (fun k j => e3 k _) (fun k j => e4 k j) ?_ ?_ ?_ ?_ s.val s.isLt j
  · intro j; dsimp only [k1_pay5]; rw [shapeCast_1ab_ab_apply]; exact e5 j
  · intro j; dsimp only [k1_pay6]; rw [shapeCast_1ab_ab_apply]; exact e6 j
  · intro j; dsimp only [k1_pay7]; rw [shapeCast_1ab_ab_apply]; exact e7 j
  · intro k; dsimp only [k1_pay4]; rw [shapeCast_1ab_ab_apply]; exact e1 k

end Blocks

end Cert.KernelIdeal.Value1

end
-- ==== Proof.KI.Val1Run.lean ====
/-
  What the layer's body leaves in its two outputs' staging memrefs, as lists of pieces over the blocks it loads: the hidden
  sequence's memref ends with eight slices of extent 1 along time, slice t the tile's hidden state after step t; the final
  state's memref with the hidden state after the last step. Each step reads its own 128 rows of the stacked input-side
  products, which the body stored whole before the first step.
-/
import proofs.«428164_j36979668418798_3_alg».proof.Proof.KI.Body1
import proofs.«428164_j36979668418798_3_alg».proof.Proof.KI.Val1Tile

set_option maxRecDepth 65536

noncomputable section

namespace Cert.KernelIdeal.Value1

open Idealize.ShloMosaic Idealize.ShloMosaic.TcCoe Idealize.ShloMosaic.Tactic Idealize.ShloMosaic.ValueIdx Idealize.SL.Sem
open Cert.KernelIdeal Cert.KernelIdeal.Gen

/-- The rows of the stacked input-side products that time step `t` of the body reads: rows t·128 … t·128 + 127. -/
def xgL (x0 : FVec Ideal S8x128x1024 .f32) (x2 : FVec Ideal S1x1024x3072 .bf16) : ℕ → FVec Ideal S128x3072 .bf16
  | 1 => fun j => k1_pay3 (F := Ideal) x0 x2 ((Rect.unit (s := S1024x3072) ![128, 0] S128x3072.size inb_S1024x3072_S128x3072_128_0).toLoadRect.idx j)
  | 2 => fun j => k1_pay3 (F := Ideal) x0 x2 ((Rect.unit (s := S1024x3072) ![256, 0] S128x3072.size inb_S1024x3072_S128x3072_256_0).toLoadRect.idx j)
  | 3 => fun j => k1_pay3 (F := Ideal) x0 x2 ((Rect.unit (s := S1024x3072) ![384, 0] S128x3072.size inb_S1024x3072_S128x3072_384_0).toLoadRect.idx j)
  | 4 => fun j => k1_pay3 (F := Ideal) x0 x2 ((Rect.unit (s := S1024x3072) ![512, 0] S128x3072.size inb_S1024x3072_S128x3072_512_0).toLoadRect.idx j)
  | 5 => fun j => k1_pay3 (F := Ideal) x0 x2 ((Rect.unit (s := S1024x3072) ![640, 0] S128x3072.size inb_S1024x3072_S128x3072_640_0).toLoadRect.idx j)
  | 6 => fun j => k1_pay3 (F := Ideal) x0 x2 ((Rect.unit (s := S1024x3072) ![768, 0] S128x3072.size inb_S1024x3072_S128x3072_768_0).toLoadRect.idx j)
  | 7 => fun j => k1_pay3 (F := Ideal) x0 x2 ((Rect.unit (s := S1024x3072) ![896, 0] S128x3072.size inb_S1024x3072_S128x3072_896_0).toLoadRect.idx j)
  | _ => fun j => k1_pay3 (F := Ideal) x0 x2 ((Rect.unit (s := S1024x3072) ![0, 0] S128x3072.size inb_S1024x3072_S128x3072_0_0).toLoadRect.idx j)

theorem hz3 : (![0, 0, 0] : Fin 3 → Nat) = fun _ => 0 := funext fun a => by fin_cases a <;> rfl
theorem hz2 : (![0, 0] : Fin 2 → Nat) = fun _ => 0 := funext fun a => by fin_cases a <;> rfl

/-- Row r, column c of the 128 rows loaded from row o of the stacked products is row o + r, column c. -/
theorem rows_idx (o : ℕ) (inb : ∀ a, (![o, 0] : Fin 2 → ℕ) a + S128x3072.size a ≤ S1024x3072.size a) (r : Fin 128)
    (c : Fin 3072) (q : Fin 1024) (hq : q.val = o + r.val) :
    (Rect.unit (s := S1024x3072) ![o, 0] S128x3072.size inb).toLoadRect.idx (ix2 r c) = ix2 q c := by
  funext a
  apply Fin.ext
  match a with
  | ⟨0, _⟩ =>
    simp only [LoadRect.idx_apply, Rect.emb_apply, Rect.off_unit, Rect.stride_unit, Nat.one_mul]
    show o + r.val = q.val
    omega
  | ⟨1, _⟩ =>
    simp only [LoadRect.idx_apply, Rect.emb_apply, Rect.off_unit, Rect.stride_unit, Nat.one_mul]
    show 0 + c.val = c.val
    omega

/-- Step s's rows of the input-side products are rows s·128 … s·128 + 127 of the stacked products. -/
theorem xgL_apply (x0 : FVec Ideal S8x128x1024 .f32) (x2 : FVec Ideal S1x1024x3072 .bf16) (s : Fin 8) (r : Fin 128) (c : Fin 3072) :
    xgL x0 x2 s.val (ix2 r c)
      = k1_pay3 (F := Ideal) x0 x2 (ix2 ⟨s.val * 128 + r.val, by have := s.isLt; have := r.isLt; omega⟩ c) := by
  match s with
  | ⟨0, _⟩ => exact congrArg (k1_pay3 (F := Ideal) x0 x2) (rows_idx 0 _ r c _ (by simp))
  | ⟨1, _⟩ => exact congrArg (k1_pay3 (F := Ideal) x0 x2) (rows_idx 128 _ r c _ (by simp))
  | ⟨2, _⟩ => exact congrArg (k1_pay3 (F := Ideal) x0 x2) (rows_idx 256 _ r c _ (by simp))
  | ⟨3, _⟩ => exact congrArg (k1_pay3 (F := Ideal) x0 x2) (rows_idx 384 _ r c _ (by simp))
  | ⟨4, _⟩ => exact congrArg (k1_pay3 (F := Ideal) x0 x2) (rows_idx 512 _ r c _ (by simp))
  | ⟨5, _⟩ => exact congrArg (k1_pay3 (F := Ideal) x0 x2) (rows_idx 640 _ r c _ (by simp))
  | ⟨6, _⟩ => exact congrArg (k1_pay3 (F := Ideal) x0 x2) (rows_idx 768 _ r c _ (by simp))
  | ⟨7, _⟩ => exact congrArg (k1_pay3 (F := Ideal) x0 x2) (rows_idx 896 _ r c _ (by simp))

/-- The hidden states of the tile over the blocks the body loads. -/
abbrev hidB (x0 : FVec Ideal S8x128x1024 .f32) (x1 : FVec Ideal S1x128x1024 .f32) (x2 : FVec Ideal S1x1024x3072 .bf16)
    (x3 : FVec Ideal S1x1024x2048 .bf16) (x4 : FVec Ideal S1x1024x1024 .bf16) (x5 x6 x7 : FVec Ideal S1x1x1024 .f32) (t : ℕ) :
    FVec Ideal S128x1024 .f32 :=
  hidT (k1_pay5 x5) (k1_pay6 x6) (k1_pay7 x7) (k1_pay4 x1) (xgL x0 x2) x3 x4 t

/-! ### The eight stores' payloads are the hidden states with a leading unit axis -/
section Stores
variable {F : FTy → Type} [FloatOps F]

theorem st0_eq (v12 : FVec F S128x1024 .f32) (v14 v16 v18 : FVec F S1x1024 .f32) (v21 v22 : FVec F S128x1024 .bf16)
    (v28 v30 : FVec F S128x1024 .f32) (v41 : Vec F S1x1024x1024 .bf16) :
    k1_pay14 v12 v14 v16 v18 v21 v22 v28 v30 v41
      = shapeCast S1x128x1024 (k1_pay13 v12 v14 v16 v18 v21 v22 v28 v30 v41) shapeCasts_S128x1024_S1x128x1024 := rfl
theorem st1_eq (v18 : FVec F S1x1024 .f32) (v53 : FVec F S128x1024 .f32) (v60 : FVec F S128x1024 .bf16)
    (v71 v75 : FVec F S128x1024 .f32) (v79 : Vec F S1x1024x1024 .bf16) :
    k1_pay20 v18 v53 v60 v71 v75 v79 = shapeCast S1x128x1024 (k1_pay19 v18 v53 v60 v71 v75 v79) shapeCasts_S128x1024_S1x128x1024 := rfl
theorem st2_eq (v18 : FVec F S1x1024 .f32) (v91 : FVec F S128x1024 .f32) (v98 : FVec F S128x1024 .bf16)
    (v109 : FVec F S128x1024 .f32) (v116 : FVec F S128x1024 .bf16) (v117 : Vec F S1x1024x1024 .bf16) :
    k1_pay26 v18 v91 v98 v109 v116 v117 = shapeCast S1x128x1024 (k1_pay25 v18 v91 v98 v109 v116 v117) shapeCasts_S128x1024_S1x128x1024 := rfl
theorem st3_eq (v129 v147 v161 : FVec F S128x1024 .f32) :
    k1_pay31 v129 v147 v161 = shapeCast S1x128x1024 (k1_pay30 v129 v147 v161) shapeCasts_S128x1024_S1x128x1024 := rfl
theorem st4_eq (v205 : FVec F S128x1024 .f32) :
    k1_pay33 v205 = shapeCast S1x128x1024 v205 shapeCasts_S128x1024_S1x128x1024 := rfl
theorem st5_eq (v14 v16 v18 : FVec F S1x1024 .f32) (v205 : FVec F S128x1024 .f32) (v209 : Vec F S128x3072 .bf16)
    (v214 : Vec F S1x1024x2048 .bf16) (v231 : Vec F S1x1024x1024 .bf16) :
    k1_pay35 v14 v16 v18 v205 v209 v214 v231
      = shapeCast S1x128x1024 (k1_pay34 v14 v16 v18 v205 v209 v214 v231) shapeCasts_S128x1024_S1x128x1024 := rfl
theorem st6_eq (v14 v16 v18 : FVec F S1x1024 .f32) (v243 : FVec F S128x1024 .f32) (v247 : Vec F S128x3072 .bf16)
    (v252 : Vec F S1x1024x2048 .bf16) (v269 : Vec F S1x1024x1024 .bf16) :
    k1_pay37 v14 v16 v18 v243 v247 v252 v269
      = shapeCast S1x128x1024 (k1_pay36 v14 v16 v18 v243 v247 v252 v269) shapeCasts_S128x1024_S1x128x1024 := rfl
theorem st7_eq (v14 v16 v18 : FVec F S1x1024 .f32) (v281 : FVec F S128x1024 .f32) (v286 v287 v288 v289 : FVec F S128x1024 .bf16)
    (v290 : Vec F S1x1024x2048 .bf16) (v307 : Vec F S1x1024x1024 .bf16) :
    k1_pay2 v14 v16 v18 v281 v286 v287 v288 v289 v290 v307
      = shapeCast S1x128x1024 (k1_pay1 v14 v16 v18 v281 v286 v287 v288 v289 v290 v307) shapeCasts_S128x1024_S1x128x1024 := rfl

end Stores

/-! ### The pieces the run leaves -/

set_option maxHeartbeats 1000000 in
/-- The hidden sequence's staging memref ends with eight pieces, last stored first: slice t along time holds the hidden
    state after step t. -/
theorem run8_eq (c : Dev nD) (i : grid1.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun1_A c i arg1 harg1 arg2 harg2 arg3 harg3 arg4 harg4 arg5 harg5 arg6 harg6 arg7 harg7 arg8 harg8 arg9 harg9 arg10 harg10 arg11 harg11 x0 x1 x2 x3 x4 x5 x6 x7).1 =
      [⟨Rect.unit ![7, 0, 0] S1x128x1024.size inb_S8x128x1024_S1x128x1024_7_0_0, shapeCast S1x128x1024 (hidB x0 x1 x2 x3 x4 x5 x6 x7 7) shapeCasts_S128x1024_S1x128x1024⟩,
       ⟨Rect.unit ![6, 0, 0] S1x128x1024.size inb_S8x128x1024_S1x128x1024_6_0_0, shapeCast S1x128x1024 (hidB x0 x1 x2 x3 x4 x5 x6 x7 6) shapeCasts_S128x1024_S1x128x1024⟩,
       ⟨Rect.unit ![5, 0, 0] S1x128x1024.size inb_S8x128x1024_S1x128x1024_5_0_0, shapeCast S1x128x1024 (hidB x0 x1 x2 x3 x4 x5 x6 x7 5) shapeCasts_S128x1024_S1x128x1024⟩,
       ⟨Rect.unit ![4, 0, 0] S1x128x1024.size inb_S8x128x1024_S1x128x1024_4_0_0, shapeCast S1x128x1024 (hidB x0 x1 x2 x3 x4 x5 x6 x7 4) shapeCasts_S128x1024_S1x128x1024⟩,
       ⟨Rect.unit ![3, 0, 0] S1x128x1024.size inb_S8x128x1024_S1x128x1024_3_0_0, shapeCast S1x128x1024 (hidB x0 x1 x2 x3 x4 x5 x6 x7 3) shapeCasts_S128x1024_S1x128x1024⟩,
       ⟨Rect.unit ![2, 0, 0] S1x128x1024.size inb_S8x128x1024_S1x128x1024_2_0_0, shapeCast S1x128x1024 (hidB x0 x1 x2 x3 x4 x5 x6 x7 2) shapeCasts_S128x1024_S1x128x1024⟩,
       ⟨Rect.unit ![1, 0, 0] S1x128x1024.size inb_S8x128x1024_S1x128x1024_1_0_0, shapeCast S1x128x1024 (hidB x0 x1 x2 x3 x4 x5 x6 x7 1) shapeCasts_S128x1024_S1x128x1024⟩,
       ⟨Rect.unit ![0, 0, 0] S1x128x1024.size inb_S8x128x1024_S1x128x1024_0_0_0, shapeCast S1x128x1024 (hidB x0 x1 x2 x3 x4 x5 x6 x7 0) shapeCasts_S128x1024_S1x128x1024⟩] := by
  unfold kernelRun1_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [st0_eq, st1_eq, st2_eq, st3_eq, st4_eq, st5_eq, st6_eq, st7_eq]
  simp only [hid7_eq]
  simp only [hid6_eq]
  simp only [hid5_eq]
  simp only [hid4_eq]
  simp only [hid3_eq]
  simp only [hid2_eq]
  simp only [hid1_eq]
  simp only [hid0_eq]
  rfl

set_option maxHeartbeats 1000000 in
/-- The final state's staging memref ends with one piece: the hidden state after the last step. -/
theorem run9_eq (c : Dev nD) (i : grid1.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun1_A c i arg1 harg1 arg2 harg2 arg3 harg3 arg4 harg4 arg5 harg5 arg6 harg6 arg7 harg7 arg8 harg8 arg9 harg9 arg10 harg10 arg11 harg11 x0 x1 x2 x3 x4 x5 x6 x7).2.1 =
      [⟨Rect.unit ![0, 0] S128x1024.size inb_S128x1024_S128x1024_0_0, hidB x0 x1 x2 x3 x4 x5 x6 x7 7⟩] := by
  unfold kernelRun1_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [hid7_eq]
  simp only [hid6_eq]
  simp only [hid5_eq]
  simp only [hid4_eq]
  simp only [hid3_eq]
  simp only [hid2_eq]
  simp only [hid1_eq]
  simp only [hid0_eq]
  rfl

end Cert.KernelIdeal.Value1

end
-- ==== Proof.KI.Val1Idx.lean ====
/-
  Where each window's block sits at a grid point of the layer's pipeline: the batch-tiled windows (the input sequence, the
  initial state, the two outputs) at block t of the batch axis, the parameter windows at the layer's slab.
-/
import proofs.«428164_j36979668418798_3_alg».proof.Proof.Gen.KernelIdeal.Launch
import Idealize.ShloMosaic.Lib.Decide

set_option Elab.async false

namespace Cert.KernelIdeal.Value1

open Idealize.ShloMosaic Idealize.SL.Sem Cert.KernelIdeal Cert.KernelIdeal.Gen

/-- The layer this region runs: the slab of the stacked parameter and initial-state arrays its windows read. -/
abbrev layerIx : Fin 8 := 1
/-- The array this region reads its input sequence from. -/
abbrev inpRef : Ref sig .tc := main_v15_0

/-! ### Where each window's block sits at a grid point: the index maps, decided over the four points -/

theorem idx1_0 : ∀ t : Fin cfg1.N, win1_0.index t 0 = 0 ∧ win1_0.index t 1 = t.val ∧ win1_0.index t 2 = 0 :=
  (by decide +kernel : ∀ t : Fin grid1.N, _)
theorem idx1_1 : ∀ t : Fin cfg1.N, win1_1.index t 0 = layerIx.val ∧ win1_1.index t 1 = t.val ∧ win1_1.index t 2 = 0 :=
  (by decide +kernel : ∀ t : Fin grid1.N, _)
theorem idx1_2 : ∀ t : Fin cfg1.N, win1_2.index t 0 = layerIx.val ∧ win1_2.index t 1 = 0 ∧ win1_2.index t 2 = 0 :=
  (by decide +kernel : ∀ t : Fin grid1.N, _)
theorem idx1_3 : ∀ t : Fin cfg1.N, win1_3.index t 0 = layerIx.val ∧ win1_3.index t 1 = 0 ∧ win1_3.index t 2 = 0 :=
  (by decide +kernel : ∀ t : Fin grid1.N, _)
theorem idx1_4 : ∀ t : Fin cfg1.N, win1_4.index t 0 = layerIx.val ∧ win1_4.index t 1 = 0 ∧ win1_4.index t 2 = 0 :=
  (by decide +kernel : ∀ t : Fin grid1.N, _)
theorem idx1_5 : ∀ t : Fin cfg1.N, win1_5.index t 0 = layerIx.val ∧ win1_5.index t 1 = 0 ∧ win1_5.index t 2 = 0 :=
  (by decide +kernel : ∀ t : Fin grid1.N, _)
theorem idx1_6 : ∀ t : Fin cfg1.N, win1_6.index t 0 = layerIx.val ∧ win1_6.index t 1 = 0 ∧ win1_6.index t 2 = 0 :=
  (by decide +kernel : ∀ t : Fin grid1.N, _)
theorem idx1_7 : ∀ t : Fin cfg1.N, win1_7.index t 0 = layerIx.val ∧ win1_7.index t 1 = 0 ∧ win1_7.index t 2 = 0 :=
  (by decide +kernel : ∀ t : Fin grid1.N, _)
theorem idx1_8 : ∀ t : Fin cfg1.N, win1_8.index t 0 = 0 ∧ win1_8.index t 1 = t.val ∧ win1_8.index t 2 = 0 :=
  (by decide +kernel : ∀ t : Fin grid1.N, _)
theorem idx1_9 : ∀ t : Fin cfg1.N, win1_9.index t 0 = t.val ∧ win1_9.index t 1 = 0 :=
  (by decide +kernel : ∀ t : Fin grid1.N, _)

end Cert.KernelIdeal.Value1
-- ==== Proof.KI.Val1Blk.lean ====
/-
  The blocks the layer's pipeline hands its body at a grid point, read off the arrays as the region finds them: batch rows
  t·128 … t·128 + 127 of the input sequence and of the layer's initial state, and the layer's slabs of the parameter arrays.
-/
import proofs.«428164_j36979668418798_3_alg».proof.Proof.KI.Reg1
import proofs.«428164_j36979668418798_3_alg».proof.Proof.KI.Val1Idx
import Idealize.ShloMosaic.Lib.Pipeline.Value
import Idealize.ShloMosaic.Lib.ValueIdx

noncomputable section

namespace Cert.KernelIdeal.Value1

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ### The windows' blocks at a grid point, read off the arrays -/

section Blocks
variable (c : Dev nD) (t : Fin cfg1.N)

/-- Window 0's block: batch rows t·128 … t·128 + 127 of the input sequence, all eight steps. -/
theorem iblk1_0_apply (s : Fin 8) (r : Fin 128) (k : Fin 1024) (b : Fin 512) (hb : b.val = t.val * 128 + r.val) :
    (iblk1 V c 0 t : Vec Ideal S8x128x1024 .f32) (ix3 s r k) = (V c inpRef : S8x512x1024.Idx → EReal) (ix3 s b k) := by
  unfold iblk1
  rw [View.read_apply]
  show V c inpRef _ = V c inpRef _
  congr 1
  funext a
  apply Fin.ext
  match a with
  | ⟨0, _⟩ => show win1_0.index t 0 * 8 + 1 * s.val = s.val; rw [(idx1_0 t).1]; omega
  | ⟨1, _⟩ => show win1_0.index t 1 * 128 + 1 * r.val = b.val; rw [(idx1_0 t).2.1, hb]; omega
  | ⟨2, _⟩ => show win1_0.index t 2 * 1024 + 1 * k.val = k.val; rw [(idx1_0 t).2.2]; omega

/-- Window 1's block: the same batch rows of the layer's initial state. -/
theorem iblk1_1_apply (r : Fin 128) (k : Fin 1024) (b : Fin 512) (hb : b.val = t.val * 128 + r.val) :
    (iblk1 V c 1 t : Vec Ideal S1x128x1024 .f32) (ix3 0 r k) = (V c main_arg1 : S8x512x1024.Idx → EReal) (ix3 layerIx b k) := by
  unfold iblk1
  rw [View.read_apply]
  show V c main_arg1 _ = V c main_arg1 _
  congr 1
  funext a
  apply Fin.ext
  match a with
  | ⟨0, _⟩ => show win1_1.index t 0 * 1 + 1 * (0 : Fin 1).val = layerIx.val; rw [(idx1_1 t).1]; simp
  | ⟨1, _⟩ => show win1_1.index t 1 * 128 + 1 * r.val = b.val; rw [(idx1_1 t).2.1, hb]; omega
  | ⟨2, _⟩ => show win1_1.index t 2 * 1024 + 1 * k.val = k.val; rw [(idx1_1 t).2.2]; omega

/-- Window 2's block: the layer's slab of the input-side matrices. -/
theorem iblk1_2_apply (k : Fin 1024) (j : Fin 3072) :
    (iblk1 V c 2 t : Vec Ideal S1x1024x3072 .bf16) (ix3 0 k j) = (V c main_v5 : S8x1024x3072.Idx → EReal) (ix3 layerIx k j) := by
  unfold iblk1
  rw [View.read_apply]
  show V c main_v5 _ = V c main_v5 _
  congr 1
  funext a
  apply Fin.ext
  match a with
  | ⟨0, _⟩ => show win1_2.index t 0 * 1 + 1 * (0 : Fin 1).val = layerIx.val; rw [(idx1_2 t).1]; simp
  | ⟨1, _⟩ => show win1_2.index t 1 * 1024 + 1 * k.val = k.val; rw [(idx1_2 t).2.1]; omega
  | ⟨2, _⟩ => show win1_2.index t 2 * 3072 + 1 * j.val = j.val; rw [(idx1_2 t).2.2]; omega

/-- Window 3's block: the layer's slab of the gates' hidden-side matrices. -/
theorem iblk1_3_apply (k : Fin 1024) (j : Fin 2048) :
    (iblk1 V c 3 t : Vec Ideal S1x1024x2048 .bf16) (ix3 0 k j) = (V c main_v8 : S8x1024x2048.Idx → EReal) (ix3 layerIx k j) := by
  unfold iblk1
  rw [View.read_apply]
  show V c main_v8 _ = V c main_v8 _
  congr 1
  funext a
  apply Fin.ext
  match a with
  | ⟨0, _⟩ => show win1_3.index t 0 * 1 + 1 * (0 : Fin 1).val = layerIx.val; rw [(idx1_3 t).1]; simp
  | ⟨1, _⟩ => show win1_3.index t 1 * 1024 + 1 * k.val = k.val; rw [(idx1_3 t).2.1]; omega
  | ⟨2, _⟩ => show win1_3.index t 2 * 2048 + 1 * j.val = j.val; rw [(idx1_3 t).2.2]; omega

/-- Window 4's block: the layer's slab of the candidate's hidden-side matrix. -/
theorem iblk1_4_apply (k j : Fin 1024) :
    (iblk1 V c 4 t : Vec Ideal S1x1024x1024 .bf16) (ix3 0 k j) = (V c main_v9 : S8x1024x1024.Idx → EReal) (ix3 layerIx k j) := by
  unfold iblk1
  rw [View.read_apply]
  show V c main_v9 _ = V c main_v9 _
  congr 1
  funext a
  apply Fin.ext
  match a with
  | ⟨0, _⟩ => show win1_4.index t 0 * 1 + 1 * (0 : Fin 1).val = layerIx.val; rw [(idx1_4 t).1]; simp
  | ⟨1, _⟩ => show win1_4.index t 1 * 1024 + 1 * k.val = k.val; rw [(idx1_4 t).2.1]; omega
  | ⟨2, _⟩ => show win1_4.index t 2 * 1024 + 1 * j.val = j.val; rw [(idx1_4 t).2.2]; omega

/-- Window 5's block: the layer's update-gate bias row. -/
theorem iblk1_5_apply (j : Fin 1024) :
    (iblk1 V c 5 t : Vec Ideal S1x1x1024 .f32) (ix3 0 0 j) = (V c main_v11 : S8x1x1024.Idx → EReal) (ix3 layerIx 0 j) := by
  unfold iblk1
  rw [View.read_apply]
  show V c main_v11 _ = V c main_v11 _
  congr 1
  funext a
  apply Fin.ext
  match a with
  | ⟨0, _⟩ => show win1_5.index t 0 * 1 + 1 * (0 : Fin 1).val = layerIx.val; rw [(idx1_5 t).1]; simp
  | ⟨1, _⟩ => show win1_5.index t 1 * 1 + 1 * (0 : Fin 1).val = (0 : Fin 1).val; rw [(idx1_5 t).2.1]; simp
  | ⟨2, _⟩ => show win1_5.index t 2 * 1024 + 1 * j.val = j.val; rw [(idx1_5 t).2.2]; omega

/-- Window 6's block: the layer's reset-gate bias row. -/
theorem iblk1_6_apply (j : Fin 1024) :
    (iblk1 V c 6 t : Vec Ideal S1x1x1024 .f32) (ix3 0 0 j) = (V c main_v12 : S8x1x1024.Idx → EReal) (ix3 layerIx 0 j) := by
  unfold iblk1
  rw [View.read_apply]
  show V c main_v12 _ = V c main_v12 _
  congr 1
  funext a
  apply Fin.ext
  match a with
  | ⟨0, _⟩ => show win1_6.index t 0 * 1 + 1 * (0 : Fin 1).val = layerIx.val; rw [(idx1_6 t).1]; simp
  | ⟨1, _⟩ => show win1_6.index t 1 * 1 + 1 * (0 : Fin 1).val = (0 : Fin 1).val; rw [(idx1_6 t).2.1]; simp
  | ⟨2, _⟩ => show win1_6.index t 2 * 1024 + 1 * j.val = j.val; rw [(idx1_6 t).2.2]; omega

/-- Window 7's block: the layer's candidate bias row. -/
theorem iblk1_7_apply (j : Fin 1024) :
    (iblk1 V c 7 t : Vec Ideal S1x1x1024 .f32) (ix3 0 0 j) = (V c main_v13 : S8x1x1024.Idx → EReal) (ix3 layerIx 0 j) := by
  unfold iblk1
  rw [View.read_apply]
  show V c main_v13 _ = V c main_v13 _
  congr 1
  funext a
  apply Fin.ext
  match a with
  | ⟨0, _⟩ => show win1_7.index t 0 * 1 + 1 * (0 : Fin 1).val = layerIx.val; rw [(idx1_7 t).1]; simp
  | ⟨1, _⟩ => show win1_7.index t 1 * 1 + 1 * (0 : Fin 1).val = (0 : Fin 1).val; rw [(idx1_7 t).2.1]; simp
  | ⟨2, _⟩ => show win1_7.index t 2 * 1024 + 1 * j.val = j.val; rw [(idx1_7 t).2.2]; omega

end Blocks

end Cert.KernelIdeal.Value1

end
-- ==== Proof.KI.Val1Final.lean ====
/-
  The two arrays a GRU layer's pipeline leaves: the hidden sequence [time, batch, feature] and the last hidden state
  [batch, feature] of the layer run on the region's input sequence from the layer's initial state. At grid point t the body
  writes the tile of batch rows t·128 … t·128 + 127: slice s along time of its first output is the tile's hidden state after
  step s, its second output the state after the last step; the four tiles cover the batch axis.
-/
import proofs.«428164_j36979668418798_3_alg».proof.Proof.KI.Reg1
import proofs.«428164_j36979668418798_3_alg».proof.Proof.KI.Val1Run
import proofs.«428164_j36979668418798_3_alg».proof.Proof.KI.Val1Blk

set_option maxRecDepth 65536

noncomputable section

namespace Cert.KernelIdeal.Value1

open Idealize.ShloMosaic Idealize.ShloMosaic.TcCoe Idealize.ShloMosaic.ValueIdx Idealize.SL.Sem
open Cert.KernelIdeal Cert.KernelIdeal.Gen Cert.LayerOf
open Idealize.ShloMosaic.Pipeline (Dat)

/-! ### The staging memrefs after the body, entry by entry -/

/-- A slice of extent 1 at time `t` holding `H t` with a leading unit axis is, at each of its entries, `H` at the entry's time
    on the entry's row and column. -/
theorem slice_piece (t : ℕ) (inb : ∀ a, (![t, 0, 0] : Fin 3 → ℕ) a + S1x128x1024.size a ≤ S8x128x1024.size a)
    (H : ℕ → FVec Ideal S128x1024 .f32) (x : S1x128x1024.Idx) :
    shapeCast S1x128x1024 (H t) shapeCasts_S128x1024_S1x128x1024 x
      = (fun y : S8x128x1024.Idx => H (y 0).val (ix2 (y 1) (y 2) : S128x1024.Idx))
          ((Rect.unit (s := S8x128x1024) ![t, 0, 0] S1x128x1024.size inb).emb x) := by
  obtain ⟨u, a, b, rfl⟩ : ∃ (u : Fin 1) (a : Fin 128) (b : Fin 1024), x = ix3 u a b := ⟨x 0, x 1, x 2, eq_ix3 x⟩
  have hu : u.val = 0 := by omega
  rw [shapeCast_ab_1ab_apply]
  have h0 : (((Rect.unit (s := S8x128x1024) ![t, 0, 0] S1x128x1024.size inb).emb (ix3 u a b)) 0).val = t := by
    rw [Rect.emb_apply]; simp [hu]
  have h1 : ((Rect.unit (s := S8x128x1024) ![t, 0, 0] S1x128x1024.size inb).emb (ix3 u a b)) 1 = a :=
    Fin.ext (by rw [Rect.emb_apply]; simp)
  have h2 : ((Rect.unit (s := S8x128x1024) ![t, 0, 0] S1x128x1024.size inb).emb (ix3 u a b)) 2 = b :=
    Fin.ext (by rw [Rect.emb_apply]; simp)
  show H t (ix2 a b) = H _ (ix2 _ _)
  rw [h0, h1, h2]

section Out
variable (c : Dev nD) (i : grid1.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32)

/-- The hidden sequence's staging memref after the body: entry (s, r, k) is entry (r, k) of the tile's hidden state after
    step s. -/
theorem out8_apply (s : Fin 8) (r : Fin 128) (k : Fin 1024) :
    out1_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k) = hidB x0 x1 x2 x3 x4 x5 x6 x7 s.val (ix2 r k) := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 arg11 harg11 x0 x1 x2 x3 x4 x5 x6 x7)]
  have hc := cover1_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k)
  rw [run8_eq] at hc ⊢
  refine (View.canon_apply_of_pieces (fun y : S8x128x1024.Idx => hidB x0 x1 x2 x3 x4 x5 x6 x7 (y 0).val (ix2 (y 1) (y 2) : S128x1024.Idx))
    _ ?_ (ix3 s r k) hc).trans rfl
  intro p hp x
  simp only [List.mem_cons, List.not_mem_nil, or_false] at hp
  rcases hp with rfl | rfl | rfl | rfl | rfl | rfl | rfl | rfl
  · exact slice_piece 7 inb_S8x128x1024_S1x128x1024_7_0_0 (hidB x0 x1 x2 x3 x4 x5 x6 x7) x
  · exact slice_piece 6 inb_S8x128x1024_S1x128x1024_6_0_0 (hidB x0 x1 x2 x3 x4 x5 x6 x7) x
  · exact slice_piece 5 inb_S8x128x1024_S1x128x1024_5_0_0 (hidB x0 x1 x2 x3 x4 x5 x6 x7) x
  · exact slice_piece 4 inb_S8x128x1024_S1x128x1024_4_0_0 (hidB x0 x1 x2 x3 x4 x5 x6 x7) x
  · exact slice_piece 3 inb_S8x128x1024_S1x128x1024_3_0_0 (hidB x0 x1 x2 x3 x4 x5 x6 x7) x
  · exact slice_piece 2 inb_S8x128x1024_S1x128x1024_2_0_0 (hidB x0 x1 x2 x3 x4 x5 x6 x7) x
  · exact slice_piece 1 inb_S8x128x1024_S1x128x1024_1_0_0 (hidB x0 x1 x2 x3 x4 x5 x6 x7) x
  · exact slice_piece 0 inb_S8x128x1024_S1x128x1024_0_0_0 (hidB x0 x1 x2 x3 x4 x5 x6 x7) x

/-- The final state's staging memref after the body is the tile's hidden state after the last step. -/
theorem out9_eq : out1_A_9 c i arg1 harg1 arg2 harg2 arg3 harg3 arg4 harg4 arg5 harg5 arg6 harg6 arg7 harg7 arg8 harg8 arg9 harg9 arg10 harg10 arg11 harg11 x0 x1 x2 x3 x4 x5 x6 x7 = hidB x0 x1 x2 x3 x4 x5 x6 x7 7 := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 x0 x1 x2 x3 x4 x5 x6 x7), run9_eq, View.canon_unit_zero (S := S128x1024) hz2]

end Out

/-! ### What each grid point writes back, and the arrays the region leaves -/

variable (V : (c : Dev nD) → (b : Ref sig .tc) → Buf (Elt Ideal) ((c : Thread nD τ).loc b))

/-- The layer's parameters as the region finds them. -/
abbrev Wof (c : Dev nD) : Cert.Spec.LayerW :=
  WofV (V c main_v5) (V c main_v8) (V c main_v9) (V c main_v11) (V c main_v12) (V c main_v13) layerIx

/-- The hidden sequence the layer leaves. -/
abbrev seqG (c : Dev nD) : Sseq.Idx → EReal := seqOut (Wof V c) (V c inpRef) (V c main_arg1) layerIx
/-- The last hidden state the layer leaves. -/
abbrev finG (c : Dev nD) : Sfin.Idx → EReal := finOut (Wof V c) (V c inpRef) (V c main_arg1) layerIx

/-- Row r of the tile of grid point t after step s is batch row t·128 + r of the layer's hidden sequence at time s. -/
theorem tile_at (c : Dev nD) (t : Fin cfg1.N) (s : Fin 8) (r : Fin 128) (k : Fin 1024) (b : Fin 512)
    (hb : b.val = t.val * 128 + r.val) :
    hidB (iblk1 V c 0 t) (iblk1 V c 1 t) (iblk1 V c 2 t) (iblk1 V c 3 t) (iblk1 V c 4 t) (iblk1 V c 5 t) (iblk1 V c 6 t)
        (iblk1 V c 7 t) s.val (ix2 r k)
      = seqG V c (ix3 s b k) :=
  tile_apply (V c main_v5) (V c main_v8) (V c main_v9) (V c main_v11) (V c main_v12) (V c main_v13) (V c inpRef) (V c main_arg1)
    layerIx (iblk1 V c 0 t) (iblk1 V c 1 t) (iblk1 V c 2 t) (iblk1 V c 3 t) (iblk1 V c 4 t) (iblk1 V c 5 t) (iblk1 V c 6 t)
    (iblk1 V c 7 t) (xgL (iblk1 V c 0 t) (iblk1 V c 2 t)) b r
    (fun s k => iblk1_0_apply V c t s r k b hb) (fun k => iblk1_1_apply V c t r k b hb) (fun k j => iblk1_2_apply V c t k j)
    (fun k j => iblk1_3_apply V c t k j) (fun k j => iblk1_4_apply V c t k j) (fun j => iblk1_5_apply V c t j)
    (fun j => iblk1_6_apply V c t j) (fun j => iblk1_7_apply V c t j)
    (fun s c' => xgL_apply (iblk1 V c 0 t) (iblk1 V c 2 t) s r c') s k

/-- WHAT POINT t WRITES BACK to the hidden sequence: block t of the layer's hidden sequence. -/
theorem flushed8_eq (c : Dev nD) (t : Fin cfg1.N) :
    (dat1 V c).flushed 8 t = ((cfg1.win 8).blk t).view.read (Elt Ideal) (seqG V c) := by
  show (cfg1.win 8).cut (grid1.coords t) ((dat1 V c).after 8 t) = _
  rw [after1_8]
  unfold outsAt1
  dsimp only
  funext j
  obtain ⟨s, r, k, rfl⟩ : ∃ (s : Fin 8) (r : Fin 128) (k : Fin 1024), j = ix3 s r k := ⟨j 0, j 1, j 2, eq_ix3 j⟩
  have ht : t.val < 4 := by have := t.isLt; have hN : cfg1.N = 4 := N_1; omega
  show out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (ix3 s r k)
    = seqG V c (((cfg1.win 8).blk t).view.emb (ix3 s r k))
  rw [out8_apply]
  have hb : ((cfg1.win 8).blk t).view.emb (ix3 s r k)
      = (ix3 s (⟨t.val * 128 + r.val, by have := r.isLt; omega⟩ : Fin 512) k : S8x512x1024.Idx) := by
    funext a
    apply Fin.ext
    match a with
    | ⟨0, _⟩ => show win1_8.index t 0 * 8 + 1 * s.val = s.val; rw [(idx1_8 t).1]; omega
    | ⟨1, _⟩ => show win1_8.index t 1 * 128 + 1 * r.val = t.val * 128 + r.val; rw [(idx1_8 t).2.1]; omega
    | ⟨2, _⟩ => show win1_8.index t 2 * 1024 + 1 * k.val = k.val; rw [(idx1_8 t).2.2]; omega
  rw [hb]
  exact tile_at V c t s r k _ rfl

/-- WHAT POINT t WRITES BACK to the last hidden state: block t of the layer's last hidden state. -/
theorem flushed9_eq (c : Dev nD) (t : Fin cfg1.N) :
    (dat1 V c).flushed 9 t = ((cfg1.win 9).blk t).view.read (Elt Ideal) (finG V c) := by
  show (cfg1.win 9).cut (grid1.coords t) ((dat1 V c).after 9 t) = _
  rw [after1_9]
  unfold outsAt1
  dsimp only
  funext j
  obtain ⟨r, k, rfl⟩ : ∃ (r : Fin 128) (k : Fin 1024), j = ix2 r k := ⟨j 0, j 1, eq_ix2 j⟩
  have ht : t.val < 4 := by have := t.isLt; have hN : cfg1.N = 4 := N_1; omega
  show out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (ix2 r k)
    = finG V c (((cfg1.win 9).blk t).view.emb (ix2 r k))
  rw [out9_eq]
  have hb : ((cfg1.win 9).blk t).view.emb (ix2 r k)
      = (ix2 (⟨t.val * 128 + r.val, by have := r.isLt; omega⟩ : Fin 512) k : S512x1024.Idx) := by
    funext a
    apply Fin.ext
    match a with
    | ⟨0, _⟩ => show win1_9.index t 0 * 128 + 1 * r.val = t.val * 128 + r.val; rw [(idx1_9 t).1]; omega
    | ⟨1, _⟩ => show win1_9.index t 1 * 1024 + 1 * k.val = k.val; rw [(idx1_9 t).2]; omega
  rw [hb]
  exact tile_at V c t 7 r k _ rfl

/-- An index of the hidden sequence is in point t's block iff each coordinate is in the block's range on its axis. -/
theorem mem_blk8 (t : Fin cfg1.N) (i : S8x512x1024.Idx) :
    i ∈ ((cfg1.win 8).blk t).view.set ↔ ∀ a : Fin 3, win1_8.index t a * S8x128x1024.size a ≤ (i a).val
      ∧ (i a).val < win1_8.index t a * S8x128x1024.size a + S8x128x1024.size a := by
  show i ∈ ((View.whole main_v16_0).slice (win1_8.rect t)).set ↔ _
  rw [View.set_slice_whole, Rect.mem_set_unit]
  exact Iff.rfl

/-- An index of the last hidden state is in point t's block iff each coordinate is in the block's range on its axis. -/
theorem mem_blk9 (t : Fin cfg1.N) (i : S512x1024.Idx) :
    i ∈ ((cfg1.win 9).blk t).view.set ↔ ∀ a : Fin 2, win1_9.index t a * S128x1024.size a ≤ (i a).val
      ∧ (i a).val < win1_9.index t a * S128x1024.size a + S128x1024.size a := by
  show i ∈ ((View.whole main_v16_1).slice (win1_9.rect t)).set ↔ _
  rw [View.set_slice_whole, Rect.mem_set_unit]
  exact Iff.rfl

/-- The four tiles cover the hidden sequence: batch row b is in the block of point b / 128. -/
theorem cover8 (i : S8x512x1024.Idx) : ∃ t : Fin cfg1.N, (cfg1.win 8).flush t = true ∧ i ∈ ((cfg1.win 8).blk t).view.set := by
  have h0 : (i 0).val < 8 := (i 0).isLt
  have h1 : (i 1).val < 512 := (i 1).isLt
  have h2 : (i 2).val < 1024 := (i 2).isLt
  have hN : cfg1.N = 4 := N_1
  refine ⟨⟨(i 1).val / 128, by rw [hN]; omega⟩, flush1_8 _, ?_⟩
  rw [mem_blk8]
  obtain ⟨e0, e1, e2⟩ := idx1_8 ⟨(i 1).val / 128, by rw [hN]; omega⟩
  intro a
  match a with
  | ⟨0, _⟩ =>
    show win1_8.index _ 0 * 8 ≤ (i 0).val ∧ (i 0).val < win1_8.index _ 0 * 8 + 8
    rw [e0]; omega
  | ⟨1, _⟩ =>
    show win1_8.index _ 1 * 128 ≤ (i 1).val ∧ (i 1).val < win1_8.index _ 1 * 128 + 128
    rw [e1]; show (i 1).val / 128 * 128 ≤ (i 1).val ∧ (i 1).val < (i 1).val / 128 * 128 + 128; omega
  | ⟨2, _⟩ =>
    show win1_8.index _ 2 * 1024 ≤ (i 2).val ∧ (i 2).val < win1_8.index _ 2 * 1024 + 1024
    rw [e2]; omega

/-- The four tiles cover the last hidden state. -/
theorem cover9 (i : S512x1024.Idx) : ∃ t : Fin cfg1.N, (cfg1.win 9).flush t = true ∧ i ∈ ((cfg1.win 9).blk t).view.set := by
  have h0 : (i 0).val < 512 := (i 0).isLt
  have h1 : (i 1).val < 1024 := (i 1).isLt
  have hN : cfg1.N = 4 := N_1
  refine ⟨⟨(i 0).val / 128, by rw [hN]; omega⟩, flush1_9 _, ?_⟩
  rw [mem_blk9]
  obtain ⟨e0, e1⟩ := idx1_9 ⟨(i 0).val / 128, by rw [hN]; omega⟩
  intro a
  match a with
  | ⟨0, _⟩ =>
    show win1_9.index _ 0 * 128 ≤ (i 0).val ∧ (i 0).val < win1_9.index _ 0 * 128 + 128
    rw [e0]; show (i 0).val / 128 * 128 ≤ (i 0).val ∧ (i 0).val < (i 0).val / 128 * 128 + 128; omega
  | ⟨1, _⟩ =>
    show win1_9.index _ 1 * 1024 ≤ (i 1).val ∧ (i 1).val < win1_9.index _ 1 * 1024 + 1024
    rw [e1]; omega

/-- THE HIDDEN SEQUENCE the region leaves is the layer's, run on the region's input sequence from the layer's initial state. -/
theorem seq_value1 (c : Dev nD) :
    (dat1 V c).arrAt 8 cfg1.N
      = seqOut (WofV (V c main_v5) (V c main_v8) (V c main_v9) (V c main_v11) (V c main_v12) (V c main_v13) layerIx)
          (V c inpRef) (V c main_arg1) layerIx :=
  (dat1 V c).arrAt_eq_of_cover 8 (seqG V c) (fun t _ => flushed8_eq V c t) cover8

/-- THE LAST HIDDEN STATE the region leaves is the layer's. -/
theorem fin_value1 (c : Dev nD) :
    (dat1 V c).arrAt 9 cfg1.N
      = finOut (WofV (V c main_v5) (V c main_v8) (V c main_v9) (V c main_v11) (V c main_v12) (V c main_v13) layerIx)
          (V c inpRef) (V c main_arg1) layerIx :=
  (dat1 V c).arrAt_eq_of_cover 9 (finG V c) (fun t _ => flushed9_eq V c t) cover9

end Cert.KernelIdeal.Value1

end
-- ==== Proof.KI.Val2Mat.lean ====
/-
  The three matrix products of a GRU layer's tile, read entry by entry over the extended reals: each is the sum over
  the 1024 contracted features of the products of the two operands' entries.
-/
import proofs.«428164_j36979668418798_3_alg».proof.Proof.Gen.KernelIdeal.Skeleton
import Idealize.ShloMosaic.PureOps.Ideal
import Idealize.ShloMosaic.PureOps.Ideal.Laws
import Idealize.ShloMosaic.Lib.ValueIdx

noncomputable section

namespace Cert.KernelIdeal.Value2

open Idealize.ShloMosaic Idealize.ShloMosaic.ValueIdx Cert.KernelIdeal Cert.KernelIdeal.Gen
open scoped BigOperators

/-! ### The input-side product: [1024, 1024] by [1024, 3072] -/

abbrev Dx := dot_S1024x1024_S1024x3072_S1024x3072_1_0_0_1_n_n

theorem lhsDx_0 (j : S1024x3072.Idx) (k : Dx.contr.Idx) : (Dx.lhsIdx j k 0 : ℕ) = j 0 := by
  simp [DotDims.lhsIdx, Dx, dot_S1024x1024_S1024x3072_S1024x3072_1_0_0_1_n_n]; rfl
theorem lhsDx_1 (j : S1024x3072.Idx) (k : Dx.contr.Idx) : (Dx.lhsIdx j k 1 : ℕ) = k ⟨0, by decide⟩ := by
  simp [DotDims.lhsIdx, Dx, dot_S1024x1024_S1024x3072_S1024x3072_1_0_0_1_n_n]; rfl
theorem rhsDx_0 (j : S1024x3072.Idx) (k : Dx.contr.Idx) : (Dx.rhsIdx j k 0 : ℕ) = k ⟨0, by decide⟩ := by
  simp [DotDims.rhsIdx, Dx, dot_S1024x1024_S1024x3072_S1024x3072_1_0_0_1_n_n]; rfl
theorem rhsDx_1 (j : S1024x3072.Idx) (k : Dx.contr.Idx) : (Dx.rhsIdx j k 1 : ℕ) = j 1 := by
  simp [DotDims.rhsIdx, Dx, dot_S1024x1024_S1024x3072_S1024x3072_1_0_0_1_n_n]; rfl

/-- Entry (r, c) of this product is the sum over k of A[r, k] · B[k, c]. -/
theorem mmDx_apply (A : FVec Ideal S1024x1024 .bf16) (B : FVec Ideal S1024x3072 .bf16) (r : Fin 1024) (c : Fin 3072) :
    matmul Dx none A B (constant S1024x3072 .f32 0x00000000#32) (ix2 r c) = ∑ k : Fin 1024, A (ix2 r k) * B (ix2 k c) := by
  show FloatOps.matmul Dx none A B _ (ix2 r c) = _
  rw [Ideal.matmul_constant_zero_apply, ← Equiv.sum_comp (contrEquiv1 Dx 1024 rfl rfl).symm]
  refine Finset.sum_congr rfl fun k _ => ?_
  have ck := contrEquiv1_symm_val Dx 1024 rfl rfl k
  have l : Dx.lhsIdx (ix2 r c) ((contrEquiv1 Dx 1024 rfl rfl).symm k) = ix2 r k := by
    funext ax; apply Fin.ext
    match ax with
    | ⟨0, _⟩ => exact lhsDx_0 _ _
    | ⟨1, _⟩ => exact (lhsDx_1 _ _).trans ck
  have rr : Dx.rhsIdx (ix2 r c) ((contrEquiv1 Dx 1024 rfl rfl).symm k) = ix2 k c := by
    funext ax; apply Fin.ext
    match ax with
    | ⟨0, _⟩ => exact (rhsDx_0 _ _).trans ck
    | ⟨1, _⟩ => exact rhsDx_1 _ _
  rw [l, rr]

/-! ### The hidden-side product of the two gates: [128, 1024] by [1024, 2048] -/

abbrev Dzr := dot_S128x1024_S1024x2048_S128x2048_1_0_0_1_n_n

theorem lhsDzr_0 (j : S128x2048.Idx) (k : Dzr.contr.Idx) : (Dzr.lhsIdx j k 0 : ℕ) = j 0 := by
  simp [DotDims.lhsIdx, Dzr, dot_S128x1024_S1024x2048_S128x2048_1_0_0_1_n_n]; rfl
theorem lhsDzr_1 (j : S128x2048.Idx) (k : Dzr.contr.Idx) : (Dzr.lhsIdx j k 1 : ℕ) = k ⟨0, by decide⟩ := by
  simp [DotDims.lhsIdx, Dzr, dot_S128x1024_S1024x2048_S128x2048_1_0_0_1_n_n]; rfl
theorem rhsDzr_0 (j : S128x2048.Idx) (k : Dzr.contr.Idx) : (Dzr.rhsIdx j k 0 : ℕ) = k ⟨0, by decide⟩ := by
  simp [DotDims.rhsIdx, Dzr, dot_S128x1024_S1024x2048_S128x2048_1_0_0_1_n_n]; rfl
theorem rhsDzr_1 (j : S128x2048.Idx) (k : Dzr.contr.Idx) : (Dzr.rhsIdx j k 1 : ℕ) = j 1 := by
  simp [DotDims.rhsIdx, Dzr, dot_S128x1024_S1024x2048_S128x2048_1_0_0_1_n_n]; rfl

/-- Entry (r, c) of this product is the sum over k of A[r, k] · B[k, c]. -/
theorem mmDzr_apply (A : FVec Ideal S128x1024 .bf16) (B : FVec Ideal S1024x2048 .bf16) (r : Fin 128) (c : Fin 2048) :
    matmul Dzr none A B (constant S128x2048 .f32 0x00000000#32) (ix2 r c) = ∑ k : Fin 1024, A (ix2 r k) * B (ix2 k c) := by
  show FloatOps.matmul Dzr none A B _ (ix2 r c) = _
  rw [Ideal.matmul_constant_zero_apply, ← Equiv.sum_comp (contrEquiv1 Dzr 1024 rfl rfl).symm]
  refine Finset.sum_congr rfl fun k _ => ?_
  have ck := contrEquiv1_symm_val Dzr 1024 rfl rfl k
  have l : Dzr.lhsIdx (ix2 r c) ((contrEquiv1 Dzr 1024 rfl rfl).symm k) = ix2 r k := by
    funext ax; apply Fin.ext
    match ax with
    | ⟨0, _⟩ => exact lhsDzr_0 _ _
    | ⟨1, _⟩ => exact (lhsDzr_1 _ _).trans ck
  have rr : Dzr.rhsIdx (ix2 r c) ((contrEquiv1 Dzr 1024 rfl rfl).symm k) = ix2 k c := by
    funext ax; apply Fin.ext
    match ax with
    | ⟨0, _⟩ => exact (rhsDzr_0 _ _).trans ck
    | ⟨1, _⟩ => exact rhsDzr_1 _ _
  rw [l, rr]

/-! ### The hidden-side product of the candidate: [128, 1024] by [1024, 1024] -/

abbrev Dh := dot_S128x1024_S1024x1024_S128x1024_1_0_0_1_n_n

theorem lhsDh_0 (j : S128x1024.Idx) (k : Dh.contr.Idx) : (Dh.lhsIdx j k 0 : ℕ) = j 0 := by
  simp [DotDims.lhsIdx, Dh, dot_S128x1024_S1024x1024_S128x1024_1_0_0_1_n_n]; rfl
theorem lhsDh_1 (j : S128x1024.Idx) (k : Dh.contr.Idx) : (Dh.lhsIdx j k 1 : ℕ) = k ⟨0, by decide⟩ := by
  simp [DotDims.lhsIdx, Dh, dot_S128x1024_S1024x1024_S128x1024_1_0_0_1_n_n]; rfl
theorem rhsDh_0 (j : S128x1024.Idx) (k : Dh.contr.Idx) : (Dh.rhsIdx j k 0 : ℕ) = k ⟨0, by decide⟩ := by
  simp [DotDims.rhsIdx, Dh, dot_S128x1024_S1024x1024_S128x1024_1_0_0_1_n_n]; rfl
theorem rhsDh_1 (j : S128x1024.Idx) (k : Dh.contr.Idx) : (Dh.rhsIdx j k 1 : ℕ) = j 1 := by
  simp [DotDims.rhsIdx, Dh, dot_S128x1024_S1024x1024_S128x1024_1_0_0_1_n_n]; rfl

/-- Entry (r, c) of this product is the sum over k of A[r, k] · B[k, c]. -/
theorem mmDh_apply (A : FVec Ideal S128x1024 .bf16) (B : FVec Ideal S1024x1024 .bf16) (r : Fin 128) (c : Fin 1024) :
    matmul Dh none A B (constant S128x1024 .f32 0x00000000#32) (ix2 r c) = ∑ k : Fin 1024, A (ix2 r k) * B (ix2 k c) := by
  show FloatOps.matmul Dh none A B _ (ix2 r c) = _
  rw [Ideal.matmul_constant_zero_apply, ← Equiv.sum_comp (contrEquiv1 Dh 1024 rfl rfl).symm]
  refine Finset.sum_congr rfl fun k _ => ?_
  have ck := contrEquiv1_symm_val Dh 1024 rfl rfl k
  have l : Dh.lhsIdx (ix2 r c) ((contrEquiv1 Dh 1024 rfl rfl).symm k) = ix2 r k := by
    funext ax; apply Fin.ext
    match ax with
    | ⟨0, _⟩ => exact lhsDh_0 _ _
    | ⟨1, _⟩ => exact (lhsDh_1 _ _).trans ck
  have rr : Dh.rhsIdx (ix2 r c) ((contrEquiv1 Dh 1024 rfl rfl).symm k) = ix2 k c := by
    funext ax; apply Fin.ext
    match ax with
    | ⟨0, _⟩ => exact (rhsDh_0 _ _).trans ck
    | ⟨1, _⟩ => exact rhsDh_1 _ _
  rw [l, rr]

end Cert.KernelIdeal.Value2

end
-- ==== Proof.KI.Val2Step.lean ====
/-
  One time step of a GRU layer on a tile of 128 batch rows, as one function of the tile's previous hidden state, the
  tile's rows of the input-side products, the two hidden-side weight blocks and the three bias rows; and the eight
  hidden states a tile goes through, each the step applied to the one before.
-/
import proofs.«428164_j36979668418798_3_alg».proof.Proof.Gen.KernelIdeal.Skeleton

noncomputable section

namespace Cert.KernelIdeal.Value2

open Idealize.ShloMosaic Cert.KernelIdeal Cert.KernelIdeal.Gen

variable {F : FTy → Type} [FloatOps F]

/-- The new hidden state of a tile: with `xg` the tile's rows of the input-side products (three bands of 1024 columns:
    update gate, reset gate, candidate), `h` the previous hidden state,
      z = σ(xg_z + h·W_z + b_z),  r = σ(xg_r + h·W_r + b_r),  c = tanh(xg_c + (r ⊙ h)·W_c + b_c),
      h' = (1 − z) ⊙ h + z ⊙ c. -/
def step (bz br bh : FVec F S1x1024 .f32) (h : FVec F S128x1024 .f32) (xg : FVec F S128x3072 .bf16)
    (whzr : FVec F S1x1024x2048 .bf16) (whh : FVec F S1x1024x1024 .bf16) : FVec F S128x1024 .f32 :=
  have xz : FVec F S128x1024 .bf16 := extractStridedSlice S128x1024 ![0, 0] xg slices_S128x3072_o0_0_S128x1024
  have xr : FVec F S128x1024 .bf16 := extractStridedSlice S128x1024 ![0, 1024] xg slices_S128x3072_o0_1024_S128x1024
  have xc : FVec F S128x1024 .bf16 := extractStridedSlice S128x1024 ![0, 2048] xg slices_S128x3072_o0_2048_S128x1024
  have hb : FVec F S128x1024 .bf16 := truncf .bf16 h bitsLt_bf16_f32
  have wzr : FVec F S1024x2048 .bf16 := shapeCast S1024x2048 whzr shapeCasts_S1x1024x2048_S1024x2048
  have z0 : FVec F S128x2048 .f32 := constant S128x2048 .f32 0x00000000#32
  have hg : FVec F S128x2048 .f32 := matmul dot_S128x1024_S1024x2048_S128x2048_1_0_0_1_n_n none hb wzr z0
  have hz : FVec F S128x1024 .f32 := extractStridedSlice S128x1024 ![0, 0] hg slices_S128x2048_o0_0_S128x1024
  have hr : FVec F S128x1024 .f32 := extractStridedSlice S128x1024 ![0, 1024] hg slices_S128x2048_o0_1024_S128x1024
  have a1 : FVec F S128x1024 .f32 := extf .f32 xz bitsLt_bf16_f32
  have a2 : FVec F S128x1024 .f32 := addf a1 hz
  have a3 : FVec F S128x1024 .f32 := broadcastTo S128x1024 bz broadcasts_S1x1024_S128x1024
  have a4 : FVec F S128x1024 .f32 := addf a2 a3
  have z : FVec F S128x1024 .f32 := logistic a4
  have b1 : FVec F S128x1024 .f32 := extf .f32 xr bitsLt_bf16_f32
  have b2 : FVec F S128x1024 .f32 := addf b1 hr
  have b3 : FVec F S128x1024 .f32 := broadcastTo S128x1024 br broadcasts_S1x1024_S128x1024
  have b4 : FVec F S128x1024 .f32 := addf b2 b3
  have r : FVec F S128x1024 .f32 := logistic b4
  have rh : FVec F S128x1024 .f32 := mulf r h
  have rhb : FVec F S128x1024 .bf16 := truncf .bf16 rh bitsLt_bf16_f32
  have wc : FVec F S1024x1024 .bf16 := shapeCast S1024x1024 whh shapeCasts_S1x1024x1024_S1024x1024
  have z1 : FVec F S128x1024 .f32 := constant S128x1024 .f32 0x00000000#32
  have hc : FVec F S128x1024 .f32 := matmul dot_S128x1024_S1024x1024_S128x1024_1_0_0_1_n_n none rhb wc z1
  have c1 : FVec F S128x1024 .f32 := extf .f32 xc bitsLt_bf16_f32
  have c2 : FVec F S128x1024 .f32 := addf c1 hc
  have c3 : FVec F S128x1024 .f32 := broadcastTo S128x1024 bh broadcasts_S1x1024_S128x1024
  have c4 : FVec F S128x1024 .f32 := addf c2 c3
  have c : FVec F S128x1024 .f32 := tanh c4
  have one : F .f32 := Scalar.ofBits .f32 0x3F800000#32
  have ones : FVec F S128x1024 .f32 := broadcast S128x1024 one
  have nz : FVec F S128x1024 .f32 := subf ones z
  have keep : FVec F S128x1024 .f32 := mulf nz h
  have upd : FVec F S128x1024 .f32 := mulf z c
  addf keep upd

/-! ### The eight hidden states of the program's body are eight steps

Each equation: the value the body holds as hidden state after time step t, written over the values it loaded, is the step
applied to the hidden state after step t − 1 (the loaded initial state at t = 0), the rows of the input-side products
loaded for step t, and the weight blocks and bias rows as loaded. -/

theorem hid0_eq (v11 : Vec F S1x128x1024 .f32) (v13 v15 v17 : Vec F S1x1x1024 .f32) (v19 : Vec F S128x3072 .bf16)
    (v24 : Vec F S1x1024x2048 .bf16) (v41 : Vec F S1x1024x1024 .bf16) :
    k2_pay13 (k2_pay4 v11) (k2_pay5 v13) (k2_pay6 v15) (k2_pay7 v17) (k2_pay8 v19) (k2_pay9 v19) (k2_pay11 v11 v24)
        (k2_pay12 v11 v19 v24) v41
      = step (k2_pay5 v13) (k2_pay6 v15) (k2_pay7 v17) (k2_pay4 v11) v19 v24 v41 := rfl

theorem hid1_eq (v12 : FVec F S128x1024 .f32) (v14 v16 v18 : FVec F S1x1024 .f32) (v21 v22 : FVec F S128x1024 .bf16)
    (v28 v30 : FVec F S128x1024 .f32) (v41 : Vec F S1x1024x1024 .bf16) (v57 : Vec F S128x3072 .bf16)
    (v62 : Vec F S1x1024x2048 .bf16) (v79 : Vec F S1x1024x1024 .bf16) :
    k2_pay19 v18 (k2_pay13 v12 v14 v16 v18 v21 v22 v28 v30 v41) (k2_pay15 v57)
        (k2_pay17 v12 v14 v16 v18 v21 v22 v28 v30 v41 v57 v62) (k2_pay18 v12 v14 v16 v18 v21 v22 v28 v30 v41 v57 v62) v79
      = step v14 v16 v18 (k2_pay13 v12 v14 v16 v18 v21 v22 v28 v30 v41) v57 v62 v79 := rfl

theorem hid2_eq (v14 v16 v18 : FVec F S1x1024 .f32) (v53 : FVec F S128x1024 .f32) (v60 : FVec F S128x1024 .bf16)
    (v71 v75 : FVec F S128x1024 .f32) (v79 : Vec F S1x1024x1024 .bf16) (v95 : Vec F S128x3072 .bf16)
    (v100 : Vec F S1x1024x2048 .bf16) (v117 : Vec F S1x1024x1024 .bf16) :
    k2_pay25 v18 (k2_pay19 v18 v53 v60 v71 v75 v79) (k2_pay21 v95) (k2_pay23 v14 v18 v53 v60 v71 v75 v79 v95 v100)
        (k2_pay24 v16 v18 v53 v60 v71 v75 v79 v95 v100) v117
      = step v14 v16 v18 (k2_pay19 v18 v53 v60 v71 v75 v79) v95 v100 v117 := rfl

theorem hid3_eq (v14 v16 v18 : FVec F S1x1024 .f32) (v91 : FVec F S128x1024 .f32) (v98 : FVec F S128x1024 .bf16)
    (v109 : FVec F S128x1024 .f32) (v116 : FVec F S128x1024 .bf16) (v117 : Vec F S1x1024x1024 .bf16)
    (v133 : Vec F S128x3072 .bf16) (v138 : Vec F S1x1024x2048 .bf16) (v155 : Vec F S1x1024x1024 .bf16) :
    k2_pay30 (k2_pay25 v18 v91 v98 v109 v116 v117) (k2_pay28 v14 v18 v91 v98 v109 v116 v117 v133 v138)
        (k2_pay29 v16 v18 v91 v98 v109 v116 v117 v133 v138 v155)
      = step v14 v16 v18 (k2_pay25 v18 v91 v98 v109 v116 v117) v133 v138 v155 := rfl

theorem hid4_eq (v14 v16 v18 : FVec F S1x1024 .f32) (v129 v147 v161 : FVec F S128x1024 .f32) (v171 : Vec F S128x3072 .bf16)
    (v176 : Vec F S1x1024x2048 .bf16) (v193 : Vec F S1x1024x1024 .bf16) :
    k2_pay32 v14 v16 v18 v129 v147 v161 v171 v176 v193 = step v14 v16 v18 (k2_pay30 v129 v147 v161) v171 v176 v193 := rfl

theorem hid5_eq (v14 v16 v18 : FVec F S1x1024 .f32) (v205 : FVec F S128x1024 .f32) (v209 : Vec F S128x3072 .bf16)
    (v214 : Vec F S1x1024x2048 .bf16) (v231 : Vec F S1x1024x1024 .bf16) :
    k2_pay34 v14 v16 v18 v205 v209 v214 v231 = step v14 v16 v18 v205 v209 v214 v231 := rfl

theorem hid6_eq (v14 v16 v18 : FVec F S1x1024 .f32) (v243 : FVec F S128x1024 .f32) (v247 : Vec F S128x3072 .bf16)
    (v252 : Vec F S1x1024x2048 .bf16) (v269 : Vec F S1x1024x1024 .bf16) :
    k2_pay36 v14 v16 v18 v243 v247 v252 v269 = step v14 v16 v18 v243 v247 v252 v269 := rfl

theorem hid7_eq (v14 v16 v18 : FVec F S1x1024 .f32) (v243 : FVec F S128x1024 .f32) (v247 : Vec F S128x3072 .bf16)
    (v252 : Vec F S1x1024x2048 .bf16) (v269 : Vec F S1x1024x1024 .bf16) (v285 : Vec F S128x3072 .bf16)
    (v290 : Vec F S1x1024x2048 .bf16) (v307 : Vec F S1x1024x1024 .bf16) :
    k2_pay1 v14 v16 v18 (k2_pay36 v14 v16 v18 v243 v247 v252 v269) (k2_pay38 v285) (k2_pay39 v285) (k2_pay40 v285)
        (k2_pay41 v14 v16 v18 v243 v247 v252 v269) v290 v307
      = step v14 v16 v18 (k2_pay36 v14 v16 v18 v243 v247 v252 v269) v285 v290 v307 := rfl

end Cert.KernelIdeal.Value2

end
-- ==== Proof.KI.Val2Cell.lean ====
/-
  A step of the layer on a tile of 128 batch rows, read row by row over the extended reals: row r of the new hidden
  state is the GRU cell of row r — its update gate, reset gate and candidate are the specification's, because each matrix
  product is the sum over the 1024 contracted features and every change of float format is the identity there.
-/
import proofs.«428164_j36979668418798_3_alg».proof.Proof.KI.Val2Mat
import proofs.«428164_j36979668418798_3_alg».proof.Proof.KI.Val2Step
import proofs.«428164_j36979668418798_3_alg».proof.Proof.LayerOf
import Idealize.ShloMosaic.Lib.ValueLayout
import Idealize.ShloMosaic.Lib.Pipeline.Value
import Idealize.ShloMosaic.Lib.IdealHost

noncomputable section

namespace Cert.KernelIdeal.Value2

open Idealize.ShloMosaic Idealize.ShloMosaic.ValueIdx Cert.KernelIdeal Cert.KernelIdeal.Gen Cert.Spec Cert.LayerOf
open scoped BigOperators

/-! ### The two hidden-side products of a step, entry by entry -/

/-- Entry (r, c) of the gates' hidden-side product: the sum over k of h[r, k] · W[0, k, c]. -/
theorem hg_apply (h : FVec Ideal S128x1024 .f32) (whzr : FVec Ideal S1x1024x2048 .bf16) (r : Fin 128) (c : Fin 2048) :
    matmul Dzr none (truncf .bf16 h bitsLt_bf16_f32) (shapeCast S1024x2048 whzr shapeCasts_S1x1024x2048_S1024x2048)
        (constant S128x2048 .f32 0x00000000#32) (ix2 r c)
      = ∑ k : Fin 1024, h (ix2 r k) * whzr (ix3 0 k c) := by
  rw [mmDzr_apply]
  refine Finset.sum_congr rfl fun k _ => ?_
  rw [truncf_apply, shapeCast_1ab_ab_apply]

/-- Entry (r, j) of the candidate's hidden-side product: the sum over k of u[r, k] · W[0, k, j]. -/
theorem hc_apply (u : FVec Ideal S128x1024 .f32) (whh : FVec Ideal S1x1024x1024 .bf16) (r : Fin 128) (j : Fin 1024) :
    matmul Dh none (truncf .bf16 u bitsLt_bf16_f32) (shapeCast S1024x1024 whh shapeCasts_S1x1024x1024_S1024x1024)
        (constant S128x1024 .f32 0x00000000#32) (ix2 r j)
      = ∑ k : Fin 1024, u (ix2 r k) * whh (ix3 0 k j) := by
  rw [mmDh_apply]
  refine Finset.sum_congr rfl fun k _ => ?_
  rw [truncf_apply, shapeCast_1ab_ab_apply]

/-! ### The three parts of a step: update gate, reset gate, candidate -/

/-- The gates' hidden-side product of a tile. -/
def hgate (h : FVec Ideal S128x1024 .f32) (whzr : FVec Ideal S1x1024x2048 .bf16) : FVec Ideal S128x2048 .f32 :=
  matmul Dzr none (truncf .bf16 h bitsLt_bf16_f32) (shapeCast S1024x2048 whzr shapeCasts_S1x1024x2048_S1024x2048)
    (constant S128x2048 .f32 0x00000000#32)

/-- The update gate of a tile. -/
def zGate (bz : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 0] xg slices_S128x3072_o0_0_S128x1024) bitsLt_bf16_f32)
      (extractStridedSlice S128x1024 ![0, 0] (hgate h whzr) slices_S128x2048_o0_0_S128x1024))
    (broadcastTo S128x1024 bz broadcasts_S1x1024_S128x1024))

/-- The reset gate of a tile. -/
def rGate (br : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 1024] xg slices_S128x3072_o0_1024_S128x1024) bitsLt_bf16_f32)
      (extractStridedSlice S128x1024 ![0, 1024] (hgate h whzr) slices_S128x2048_o0_1024_S128x1024))
    (broadcastTo S128x1024 br broadcasts_S1x1024_S128x1024))

/-- The candidate state of a tile, from its reset gate `R`. -/
def cCand (bh : FVec Ideal S1x1024 .f32) (h R : FVec Ideal S128x1024 .f32) (xg : FVec Ideal S128x3072 .bf16)
    (whh : FVec Ideal S1x1024x1024 .bf16) : FVec Ideal S128x1024 .f32 :=
  tanh (addf (addf (extf .f32 (extractStridedSlice S128x1024 ![0, 2048] xg slices_S128x3072_o0_2048_S128x1024) bitsLt_bf16_f32)
      (matmul Dh none (truncf .bf16 (mulf R h) bitsLt_bf16_f32) (shapeCast S1024x1024 whh shapeCasts_S1x1024x1024_S1024x1024)
        (constant S128x1024 .f32 0x00000000#32)))
    (broadcastTo S128x1024 bh broadcasts_S1x1024_S128x1024))

/-- The step is (1 − z) ⊙ h + z ⊙ c over those three. -/
theorem step_eq (bz br bh : FVec Ideal S1x1024 .f32) (h : FVec Ideal S128x1024 .f32) (xg : FVec Ideal S128x3072 .bf16)
    (whzr : FVec Ideal S1x1024x2048 .bf16) (whh : FVec Ideal S1x1024x1024 .bf16) :
    step bz br bh h xg whzr whh
      = addf (mulf (subf (broadcast S128x1024 (Scalar.ofBits (F := Ideal) .f32 0x3F800000#32)) (zGate bz h xg whzr)) h)
          (mulf (zGate bz h xg whzr) (cCand bh h (rGate br h xg whzr) xg whh)) := rfl

/-! ### A step on a tile is the cell on each of its rows -/

section Row
variable (W : LayerW) (x hrow : Row)
  (bz br bh : FVec Ideal S1x1024 .f32) (h : FVec Ideal S128x1024 .f32) (xg : FVec Ideal S128x3072 .bf16)
  (whzr : FVec Ideal S1x1024x2048 .bf16) (whh : FVec Ideal S1x1024x1024 .bf16) (r : Fin 128)

/-- Row `r` of the update gate is the row's update gate. -/
theorem zGate_apply
    (hxz : ∀ j : Fin 1024, xg (ix2 r (col3 0 j)) = ∑ k, x k * W.Wxz k j)
    (hwz : ∀ (k j : Fin 1024), whzr (ix3 0 k (col2 0 j)) = W.Whz k j)
    (hbz : ∀ j : Fin 1024, bz (ix2 0 j) = W.bz j)
    (hh : ∀ k : Fin 1024, h (ix2 r k) = hrow k) (j : Fin 1024) :
    zGate bz h xg whzr (ix2 r j) = gateZ W x hrow j := by
  unfold zGate hgate
  show Ideal.logistic ((_ + _) + _) = _
  rw [extf_apply, slice2_axis1_apply 0 xg slices_S128x3072_o0_0_S128x1024 r j (col3 0 j) (by simp [col3]),
    slice2_axis1_apply 0 _ slices_S128x2048_o0_0_S128x1024 r j (col2 0 j) (by simp [col2]),
    broadcastTo_1b_ab_apply, hg_apply, hxz, hbz]
  unfold gateZ
  simp only [hh, hwz]

/-- Row `r` of the reset gate is the row's reset gate. -/
theorem rGate_apply
    (hxr : ∀ j : Fin 1024, xg (ix2 r (col3 1 j)) = ∑ k, x k * W.Wxr k j)
    (hwr : ∀ (k j : Fin 1024), whzr (ix3 0 k (col2 1 j)) = W.Whr k j)
    (hbr : ∀ j : Fin 1024, br (ix2 0 j) = W.br j)
    (hh : ∀ k : Fin 1024, h (ix2 r k) = hrow k) (j : Fin 1024) :
    rGate br h xg whzr (ix2 r j) = gateR W x hrow j := by
  unfold rGate hgate
  show Ideal.logistic ((_ + _) + _) = _
  rw [extf_apply,
    slice2_axis1_apply 1024 xg slices_S128x3072_o0_1024_S128x1024 r j (col3 1 j) (by show 1 * 1024 + j.val = 1024 + j.val; omega),
    slice2_axis1_apply 1024 _ slices_S128x2048_o0_1024_S128x1024 r j (col2 1 j) (by show 1 * 1024 + j.val = 1024 + j.val; omega),
    broadcastTo_1b_ab_apply, hg_apply, hxr, hbr]
  unfold gateR
  simp only [hh, hwr]

/-- Row `r` of the candidate is the row's candidate, when row `r` of `R` is the row's reset gate. -/
theorem cCand_apply (R : FVec Ideal S128x1024 .f32)
    (hxh : ∀ j : Fin 1024, xg (ix2 r (col3 2 j)) = ∑ k, x k * W.Wxh k j)
    (hwh : ∀ (k j : Fin 1024), whh (ix3 0 k j) = W.Whh k j)
    (hbh : ∀ j : Fin 1024, bh (ix2 0 j) = W.bh j)
    (hR : ∀ k : Fin 1024, R (ix2 r k) = gateR W x hrow k)
    (hh : ∀ k : Fin 1024, h (ix2 r k) = hrow k) (j : Fin 1024) :
    cCand bh h R xg whh (ix2 r j) = cand W x hrow j := by
  unfold cCand
  show Ideal.tanh ((_ + _) + _) = _
  rw [extf_apply,
    slice2_axis1_apply 2048 xg slices_S128x3072_o0_2048_S128x1024 r j (col3 2 j) (by show 2 * 1024 + j.val = 2048 + j.val; omega),
    broadcastTo_1b_ab_apply, hc_apply, hxh, hbh]
  unfold cand
  simp only [mulf_apply, hR, hh, hwh]

/-- Row `r` of the new hidden state is the cell of row `r`: given that row `r` of the input-side products holds x·Wxz,
    x·Wxr, x·Wxh in its three bands, that the weight blocks and bias rows hold the layer's parameters, and that row `r` of
    the previous hidden state is `hrow`. -/
theorem step_apply
    (hxz : ∀ j : Fin 1024, xg (ix2 r (col3 0 j)) = ∑ k, x k * W.Wxz k j)
    (hxr : ∀ j : Fin 1024, xg (ix2 r (col3 1 j)) = ∑ k, x k * W.Wxr k j)
    (hxh : ∀ j : Fin 1024, xg (ix2 r (col3 2 j)) = ∑ k, x k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h (ix2 r k) = hrow k) (j : Fin 1024) :
    step bz br bh h xg whzr whh (ix2 r j) = cellRow W x hrow j := by
  rw [step_eq]
  show (Ideal.ofBits .f32 0x3F800000#32 - zGate bz h xg whzr (ix2 r j)) * h (ix2 r j)
      + zGate bz h xg whzr (ix2 r j) * cCand bh h (rGate br h xg whzr) xg whh (ix2 r j) = _
  rw [Ideal.ofBits_one_f32, zGate_apply W x hrow bz h xg whzr r hxz hwz hbz hh,
    cCand_apply W x hrow bh h xg whh r _ hxh hwh hbh (rGate_apply W x hrow br h xg whzr r hxr hwr hbr hh) hh, hh]
  rfl

end Row

end Cert.KernelIdeal.Value2

end
-- ==== Proof.KI.Val2Xg.lean ====
/-
  The input-side products of a tile, read entry by entry over the extended reals: the tile's rows of the eight time steps are
  stacked, 128 rows per step, and multiplied at once by the layer's three input-side matrices side by side.
-/
import proofs.«428164_j36979668418798_3_alg».proof.Proof.KI.Val2Mat
import Idealize.ShloMosaic.Lib.ValueLayout
import Idealize.ShloMosaic.Lib.Pipeline.Value

noncomputable section

namespace Cert.KernelIdeal.Value2

open Idealize.ShloMosaic Idealize.ShloMosaic.ValueIdx Cert.KernelIdeal Cert.KernelIdeal.Gen
open scoped BigOperators

/-! ### The input-side products of a tile -/

/-- Entry (t·128 + r, c) of the tile's input-side products is the sum over k of inp[t, r, k] · Wx[0, k, c]: the eight time
    steps' rows of the tile are stacked, 128 rows per step, and multiplied by the three input-side matrices side by side. -/
theorem xgAll_apply (v0 : FVec Ideal S8x128x1024 .f32) (v4 : FVec Ideal S1x1024x3072 .bf16) (t : Fin 8) (r : Fin 128)
    (c : Fin 3072) (q : Fin 1024) (hq : q.val = t.val * 128 + r.val) :
    (k2_pay3 (F := Ideal) v0 v4 (ix2 q c) : EReal) = ∑ k : Fin 1024, (v0 (ix3 t r k) : EReal) * (v4 (ix3 0 k c) : EReal) := by
  dsimp only [k2_pay3]
  rw [shapeCast_self, truncf_apply]
  show matmul Dx none _ _ _ (ix2 q c) = _
  rw [mmDx_apply]
  refine Finset.sum_congr rfl fun k _ => ?_
  rw [truncf_apply, shapeCast_1ab_ab_apply, shapeCast_self]
  congr 1
  exact shapeCast_apply v0 _ (ix2 q k) (ix3 t r k) (by
    rw [Shape.rowMajor_val_three, Shape.rowMajor_val_two]
    show (t.val * 128 + r.val) * 1024 + k.val = q.val * 1024 + k.val
    rw [hq])

end Cert.KernelIdeal.Value2

end
-- ==== Proof.KI.Val2Tile.lean ====
/-
  A tile of 128 batch rows along the eight time steps: its hidden state after step t is the step applied t + 1 times, and
  row r of it is the layer's hidden row of the batch row the tile's row r holds — by induction on t from the one-step lemma,
  with the tile's blocks cut out of the arrays where the grid point's index maps say.
-/
import proofs.«428164_j36979668418798_3_alg».proof.Proof.KI.Val2Cell
import proofs.«428164_j36979668418798_3_alg».proof.Proof.KI.Val2Xg

noncomputable section

namespace Cert.KernelIdeal.Value2

open Idealize.ShloMosaic Idealize.ShloMosaic.ValueIdx Cert.KernelIdeal Cert.KernelIdeal.Gen Cert.Spec Cert.LayerOf
open scoped BigOperators

/-! ### The hidden states of a tile along time -/

/-- The hidden state of a tile after time step `t`: the step applied `t + 1` times from the initial state, each time to
    that step's rows of the input-side products. -/
def hidT {F : FTy → Type} [FloatOps F] (bz br bh : FVec F S1x1024 .f32) (h0 : FVec F S128x1024 .f32)
    (xg : ℕ → FVec F S128x3072 .bf16) (whzr : FVec F S1x1024x2048 .bf16) (whh : FVec F S1x1024x1024 .bf16) :
    ℕ → FVec F S128x1024 .f32
  | 0 => step bz br bh h0 (xg 0) whzr whh
  | t + 1 => step bz br bh (hidT bz br bh h0 xg whzr whh t) (xg (t + 1)) whzr whh

/-- A time step below eight of an input sequence read off a `[time, batch, feature]` array. -/
theorem seqOf_of_lt (u : Sseq.Idx → EReal) (t : ℕ) (ht : t < 8) (b : Fin 512) (k : Fin 1024) :
    seqOf u t b k = u (ix3 ⟨t, ht⟩ b k) := by
  unfold seqOf
  exact congrArg u (congrArg (fun s => ix3 s b k) (Fin.ext (Nat.mod_eq_of_lt ht)))

section Tile
variable (W : LayerW) (Xs : ℕ → Fin 512 → Row) (H0 : Fin 512 → Row) (b : Fin 512)
  (bz br bh : FVec Ideal S1x1024 .f32) (h0 : FVec Ideal S128x1024 .f32) (xg : ℕ → FVec Ideal S128x3072 .bf16)
  (whzr : FVec Ideal S1x1024x2048 .bf16) (whh : FVec Ideal S1x1024x1024 .bf16) (r : Fin 128)

/-- Row `r` of a tile's hidden state after step `t` is the layer's hidden row of batch row `b` at time `t`: given that row `r`
    of each step's input-side products holds batch row `b`'s products at that time, that the weight blocks and bias rows hold
    the layer's parameters, and that row `r` of the initial state is batch row `b`'s. -/
theorem hidT_apply
    (hxz : ∀ t < 8, ∀ j : Fin 1024, xg t (ix2 r (col3 0 j)) = ∑ k, Xs t b k * W.Wxz k j)
    (hxr : ∀ t < 8, ∀ j : Fin 1024, xg t (ix2 r (col3 1 j)) = ∑ k, Xs t b k * W.Wxr k j)
    (hxh : ∀ t < 8, ∀ j : Fin 1024, xg t (ix2 r (col3 2 j)) = ∑ k, Xs t b k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h0 (ix2 r k) = H0 b k) :
    ∀ t, t < 8 → ∀ j : Fin 1024, hidT bz br bh h0 xg whzr whh t (ix2 r j) = layer W Xs H0 t b j := by
  intro t
  induction t with
  | zero =>
    intro ht j
    rw [layer_zero]
    exact step_apply W (Xs 0 b) (H0 b) bz br bh h0 (xg 0) whzr whh r (hxz 0 ht) (hxr 0 ht) (hxh 0 ht) hwz hwr hwh hbz hbr hbh hh j
  | succ t ih =>
    intro ht j
    rw [layer_succ]
    exact step_apply W (Xs (t + 1) b) (layer W Xs H0 t b) bz br bh (hidT bz br bh h0 xg whzr whh t) (xg (t + 1)) whzr whh r
      (hxz _ ht) (hxr _ ht) (hxh _ ht) hwz hwr hwh hbz hbr hbh (ih (by omega)) j

end Tile

/-! ### A tile's hidden states, from its blocks of the arrays -/

section Blocks
variable (wx : Swx.Idx → EReal) (wzr : Swzr.Idx → EReal) (wh : Swh.Idx → EReal) (bzA brA bhA : Sb3.Idx → EReal)
  (inp hprev : Sseq.Idx → EReal) (l : Fin 8)
  (x0 : FVec Ideal S8x128x1024 .f32) (x1 : FVec Ideal S1x128x1024 .f32) (x2 : FVec Ideal S1x1024x3072 .bf16)
  (x3 : FVec Ideal S1x1024x2048 .bf16) (x4 : FVec Ideal S1x1024x1024 .bf16) (x5 x6 x7 : FVec Ideal S1x1x1024 .f32)
  (xg : ℕ → FVec Ideal S128x3072 .bf16) (b : Fin 512) (r : Fin 128)

/-- With the tile's blocks cut out of the arrays — the input sequence's and the initial state's rows of batch row `b` at
    row `r`, layer `l`'s slabs of the parameter arrays — and each step's rows of the input-side products read from the
    stacked products, row `r` of the tile's hidden state after step `s` is entry (s, b, ·) of the layer's hidden sequence. -/
theorem tile_apply
    (e0 : ∀ (s : Fin 8) (k : Fin 1024), x0 (ix3 s r k) = inp (ix3 s b k))
    (e1 : ∀ k : Fin 1024, x1 (ix3 0 r k) = hprev (ix3 l b k))
    (e2 : ∀ (k : Fin 1024) (c : Fin 3072), x2 (ix3 0 k c) = wx (ix3 l k c))
    (e3 : ∀ (k : Fin 1024) (c : Fin 2048), x3 (ix3 0 k c) = wzr (ix3 l k c))
    (e4 : ∀ (k j : Fin 1024), x4 (ix3 0 k j) = wh (ix3 l k j))
    (e5 : ∀ j : Fin 1024, x5 (ix3 0 0 j) = bzA (ix3 l 0 j))
    (e6 : ∀ j : Fin 1024, x6 (ix3 0 0 j) = brA (ix3 l 0 j))
    (e7 : ∀ j : Fin 1024, x7 (ix3 0 0 j) = bhA (ix3 l 0 j))
    (exg : ∀ (s : Fin 8) (c : Fin 3072),
      xg s.val (ix2 r c) = k2_pay3 (F := Ideal) x0 x2 (ix2 ⟨s.val * 128 + r.val, by have := s.isLt; have := r.isLt; omega⟩ c))
    (s : Fin 8) (j : Fin 1024) :
    hidT (k2_pay5 x5) (k2_pay6 x6) (k2_pay7 x7) (k2_pay4 x1) xg x3 x4 s.val (ix2 r j)
      = seqOut (WofV wx wzr wh bzA brA bhA l) inp hprev l (ix3 s b j) := by
  show _ = layer (WofV wx wzr wh bzA brA bhA l) (seqOf inp) (initOf hprev l) s.val b j
  have hx : ∀ t (ht : t < 8) (c : Fin 3072), xg t (ix2 r c) = ∑ k : Fin 1024, seqOf inp t b k * wx (ix3 l k c) := by
    intro t ht c
    rw [exg ⟨t, ht⟩ c, xgAll_apply x0 x2 ⟨t, ht⟩ r c _ rfl]
    refine Finset.sum_congr rfl fun k _ => ?_
    rw [e0, e2, seqOf_of_lt inp t ht]
  refine hidT_apply (WofV wx wzr wh bzA brA bhA l) (seqOf inp) (initOf hprev l) b _ _ _ _ xg x3 x4 r
    (fun t ht j => hx t ht _) (fun t ht j => hx t ht _) (fun t ht j => hx t ht _)
    (fun k j => e3 k _) (fun k j => e3 k _) (fun k j => e4 k j) ?_ ?_ ?_ ?_ s.val s.isLt j
  · intro j; dsimp only [k2_pay5]; rw [shapeCast_1ab_ab_apply]; exact e5 j
  · intro j; dsimp only [k2_pay6]; rw [shapeCast_1ab_ab_apply]; exact e6 j
  · intro j; dsimp only [k2_pay7]; rw [shapeCast_1ab_ab_apply]; exact e7 j
  · intro k; dsimp only [k2_pay4]; rw [shapeCast_1ab_ab_apply]; exact e1 k

end Blocks

end Cert.KernelIdeal.Value2

end
-- ==== Proof.KI.Val2Run.lean ====
/-
  What the layer's body leaves in its two outputs' staging memrefs, as lists of pieces over the blocks it loads: the hidden
  sequence's memref ends with eight slices of extent 1 along time, slice t the tile's hidden state after step t; the final
  state's memref with the hidden state after the last step. Each step reads its own 128 rows of the stacked input-side
  products, which the body stored whole before the first step.
-/
import proofs.«428164_j36979668418798_3_alg».proof.Proof.KI.Body2
import proofs.«428164_j36979668418798_3_alg».proof.Proof.KI.Val2Tile

set_option maxRecDepth 65536

noncomputable section

namespace Cert.KernelIdeal.Value2

open Idealize.ShloMosaic Idealize.ShloMosaic.TcCoe Idealize.ShloMosaic.Tactic Idealize.ShloMosaic.ValueIdx Idealize.SL.Sem
open Cert.KernelIdeal Cert.KernelIdeal.Gen

/-- The rows of the stacked input-side products that time step `t` of the body reads: rows t·128 … t·128 + 127. -/
def xgL (x0 : FVec Ideal S8x128x1024 .f32) (x2 : FVec Ideal S1x1024x3072 .bf16) : ℕ → FVec Ideal S128x3072 .bf16
  | 1 => fun j => k2_pay3 (F := Ideal) x0 x2 ((Rect.unit (s := S1024x3072) ![128, 0] S128x3072.size inb_S1024x3072_S128x3072_128_0).toLoadRect.idx j)
  | 2 => fun j => k2_pay3 (F := Ideal) x0 x2 ((Rect.unit (s := S1024x3072) ![256, 0] S128x3072.size inb_S1024x3072_S128x3072_256_0).toLoadRect.idx j)
  | 3 => fun j => k2_pay3 (F := Ideal) x0 x2 ((Rect.unit (s := S1024x3072) ![384, 0] S128x3072.size inb_S1024x3072_S128x3072_384_0).toLoadRect.idx j)
  | 4 => fun j => k2_pay3 (F := Ideal) x0 x2 ((Rect.unit (s := S1024x3072) ![512, 0] S128x3072.size inb_S1024x3072_S128x3072_512_0).toLoadRect.idx j)
  | 5 => fun j => k2_pay3 (F := Ideal) x0 x2 ((Rect.unit (s := S1024x3072) ![640, 0] S128x3072.size inb_S1024x3072_S128x3072_640_0).toLoadRect.idx j)
  | 6 => fun j => k2_pay3 (F := Ideal) x0 x2 ((Rect.unit (s := S1024x3072) ![768, 0] S128x3072.size inb_S1024x3072_S128x3072_768_0).toLoadRect.idx j)
  | 7 => fun j => k2_pay3 (F := Ideal) x0 x2 ((Rect.unit (s := S1024x3072) ![896, 0] S128x3072.size inb_S1024x3072_S128x3072_896_0).toLoadRect.idx j)
  | _ => fun j => k2_pay3 (F := Ideal) x0 x2 ((Rect.unit (s := S1024x3072) ![0, 0] S128x3072.size inb_S1024x3072_S128x3072_0_0).toLoadRect.idx j)

theorem hz3 : (![0, 0, 0] : Fin 3 → Nat) = fun _ => 0 := funext fun a => by fin_cases a <;> rfl
theorem hz2 : (![0, 0] : Fin 2 → Nat) = fun _ => 0 := funext fun a => by fin_cases a <;> rfl

/-- Row r, column c of the 128 rows loaded from row o of the stacked products is row o + r, column c. -/
theorem rows_idx (o : ℕ) (inb : ∀ a, (![o, 0] : Fin 2 → ℕ) a + S128x3072.size a ≤ S1024x3072.size a) (r : Fin 128)
    (c : Fin 3072) (q : Fin 1024) (hq : q.val = o + r.val) :
    (Rect.unit (s := S1024x3072) ![o, 0] S128x3072.size inb).toLoadRect.idx (ix2 r c) = ix2 q c := by
  funext a
  apply Fin.ext
  match a with
  | ⟨0, _⟩ =>
    simp only [LoadRect.idx_apply, Rect.emb_apply, Rect.off_unit, Rect.stride_unit, Nat.one_mul]
    show o + r.val = q.val
    omega
  | ⟨1, _⟩ =>
    simp only [LoadRect.idx_apply, Rect.emb_apply, Rect.off_unit, Rect.stride_unit, Nat.one_mul]
    show 0 + c.val = c.val
    omega

/-- Step s's rows of the input-side products are rows s·128 … s·128 + 127 of the stacked products. -/
theorem xgL_apply (x0 : FVec Ideal S8x128x1024 .f32) (x2 : FVec Ideal S1x1024x3072 .bf16) (s : Fin 8) (r : Fin 128) (c : Fin 3072) :
    xgL x0 x2 s.val (ix2 r c)
      = k2_pay3 (F := Ideal) x0 x2 (ix2 ⟨s.val * 128 + r.val, by have := s.isLt; have := r.isLt; omega⟩ c) := by
  match s with
  | ⟨0, _⟩ => exact congrArg (k2_pay3 (F := Ideal) x0 x2) (rows_idx 0 _ r c _ (by simp))
  | ⟨1, _⟩ => exact congrArg (k2_pay3 (F := Ideal) x0 x2) (rows_idx 128 _ r c _ (by simp))
  | ⟨2, _⟩ => exact congrArg (k2_pay3 (F := Ideal) x0 x2) (rows_idx 256 _ r c _ (by simp))
  | ⟨3, _⟩ => exact congrArg (k2_pay3 (F := Ideal) x0 x2) (rows_idx 384 _ r c _ (by simp))
  | ⟨4, _⟩ => exact congrArg (k2_pay3 (F := Ideal) x0 x2) (rows_idx 512 _ r c _ (by simp))
  | ⟨5, _⟩ => exact congrArg (k2_pay3 (F := Ideal) x0 x2) (rows_idx 640 _ r c _ (by simp))
  | ⟨6, _⟩ => exact congrArg (k2_pay3 (F := Ideal) x0 x2) (rows_idx 768 _ r c _ (by simp))
  | ⟨7, _⟩ => exact congrArg (k2_pay3 (F := Ideal) x0 x2) (rows_idx 896 _ r c _ (by simp))

/-- The hidden states of the tile over the blocks the body loads. -/
abbrev hidB (x0 : FVec Ideal S8x128x1024 .f32) (x1 : FVec Ideal S1x128x1024 .f32) (x2 : FVec Ideal S1x1024x3072 .bf16)
    (x3 : FVec Ideal S1x1024x2048 .bf16) (x4 : FVec Ideal S1x1024x1024 .bf16) (x5 x6 x7 : FVec Ideal S1x1x1024 .f32) (t : ℕ) :
    FVec Ideal S128x1024 .f32 :=
  hidT (k2_pay5 x5) (k2_pay6 x6) (k2_pay7 x7) (k2_pay4 x1) (xgL x0 x2) x3 x4 t

/-! ### The eight stores' payloads are the hidden states with a leading unit axis -/
section Stores
variable {F : FTy → Type} [FloatOps F]

theorem st0_eq (v12 : FVec F S128x1024 .f32) (v14 v16 v18 : FVec F S1x1024 .f32) (v21 v22 : FVec F S128x1024 .bf16)
    (v28 v30 : FVec F S128x1024 .f32) (v41 : Vec F S1x1024x1024 .bf16) :
    k2_pay14 v12 v14 v16 v18 v21 v22 v28 v30 v41
      = shapeCast S1x128x1024 (k2_pay13 v12 v14 v16 v18 v21 v22 v28 v30 v41) shapeCasts_S128x1024_S1x128x1024 := rfl
theorem st1_eq (v18 : FVec F S1x1024 .f32) (v53 : FVec F S128x1024 .f32) (v60 : FVec F S128x1024 .bf16)
    (v71 v75 : FVec F S128x1024 .f32) (v79 : Vec F S1x1024x1024 .bf16) :
    k2_pay20 v18 v53 v60 v71 v75 v79 = shapeCast S1x128x1024 (k2_pay19 v18 v53 v60 v71 v75 v79) shapeCasts_S128x1024_S1x128x1024 := rfl
theorem st2_eq (v18 : FVec F S1x1024 .f32) (v91 : FVec F S128x1024 .f32) (v98 : FVec F S128x1024 .bf16)
    (v109 : FVec F S128x1024 .f32) (v116 : FVec F S128x1024 .bf16) (v117 : Vec F S1x1024x1024 .bf16) :
    k2_pay26 v18 v91 v98 v109 v116 v117 = shapeCast S1x128x1024 (k2_pay25 v18 v91 v98 v109 v116 v117) shapeCasts_S128x1024_S1x128x1024 := rfl
theorem st3_eq (v129 v147 v161 : FVec F S128x1024 .f32) :
    k2_pay31 v129 v147 v161 = shapeCast S1x128x1024 (k2_pay30 v129 v147 v161) shapeCasts_S128x1024_S1x128x1024 := rfl
theorem st4_eq (v205 : FVec F S128x1024 .f32) :
    k2_pay33 v205 = shapeCast S1x128x1024 v205 shapeCasts_S128x1024_S1x128x1024 := rfl
theorem st5_eq (v14 v16 v18 : FVec F S1x1024 .f32) (v205 : FVec F S128x1024 .f32) (v209 : Vec F S128x3072 .bf16)
    (v214 : Vec F S1x1024x2048 .bf16) (v231 : Vec F S1x1024x1024 .bf16) :
    k2_pay35 v14 v16 v18 v205 v209 v214 v231
      = shapeCast S1x128x1024 (k2_pay34 v14 v16 v18 v205 v209 v214 v231) shapeCasts_S128x1024_S1x128x1024 := rfl
theorem st6_eq (v14 v16 v18 : FVec F S1x1024 .f32) (v243 : FVec F S128x1024 .f32) (v247 : Vec F S128x3072 .bf16)
    (v252 : Vec F S1x1024x2048 .bf16) (v269 : Vec F S1x1024x1024 .bf16) :
    k2_pay37 v14 v16 v18 v243 v247 v252 v269
      = shapeCast S1x128x1024 (k2_pay36 v14 v16 v18 v243 v247 v252 v269) shapeCasts_S128x1024_S1x128x1024 := rfl
theorem st7_eq (v14 v16 v18 : FVec F S1x1024 .f32) (v281 : FVec F S128x1024 .f32) (v286 v287 v288 v289 : FVec F S128x1024 .bf16)
    (v290 : Vec F S1x1024x2048 .bf16) (v307 : Vec F S1x1024x1024 .bf16) :
    k2_pay2 v14 v16 v18 v281 v286 v287 v288 v289 v290 v307
      = shapeCast S1x128x1024 (k2_pay1 v14 v16 v18 v281 v286 v287 v288 v289 v290 v307) shapeCasts_S128x1024_S1x128x1024 := rfl

end Stores

/-! ### The pieces the run leaves -/

set_option maxHeartbeats 1000000 in
/-- The hidden sequence's staging memref ends with eight pieces, last stored first: slice t along time holds the hidden
    state after step t. -/
theorem run8_eq (c : Dev nD) (i : grid2.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun2_A c i arg1 harg1 arg2 harg2 arg3 harg3 arg4 harg4 arg5 harg5 arg6 harg6 arg7 harg7 arg8 harg8 arg9 harg9 arg10 harg10 arg11 harg11 x0 x1 x2 x3 x4 x5 x6 x7).1 =
      [⟨Rect.unit ![7, 0, 0] S1x128x1024.size inb_S8x128x1024_S1x128x1024_7_0_0, shapeCast S1x128x1024 (hidB x0 x1 x2 x3 x4 x5 x6 x7 7) shapeCasts_S128x1024_S1x128x1024⟩,
       ⟨Rect.unit ![6, 0, 0] S1x128x1024.size inb_S8x128x1024_S1x128x1024_6_0_0, shapeCast S1x128x1024 (hidB x0 x1 x2 x3 x4 x5 x6 x7 6) shapeCasts_S128x1024_S1x128x1024⟩,
       ⟨Rect.unit ![5, 0, 0] S1x128x1024.size inb_S8x128x1024_S1x128x1024_5_0_0, shapeCast S1x128x1024 (hidB x0 x1 x2 x3 x4 x5 x6 x7 5) shapeCasts_S128x1024_S1x128x1024⟩,
       ⟨Rect.unit ![4, 0, 0] S1x128x1024.size inb_S8x128x1024_S1x128x1024_4_0_0, shapeCast S1x128x1024 (hidB x0 x1 x2 x3 x4 x5 x6 x7 4) shapeCasts_S128x1024_S1x128x1024⟩,
       ⟨Rect.unit ![3, 0, 0] S1x128x1024.size inb_S8x128x1024_S1x128x1024_3_0_0, shapeCast S1x128x1024 (hidB x0 x1 x2 x3 x4 x5 x6 x7 3) shapeCasts_S128x1024_S1x128x1024⟩,
       ⟨Rect.unit ![2, 0, 0] S1x128x1024.size inb_S8x128x1024_S1x128x1024_2_0_0, shapeCast S1x128x1024 (hidB x0 x1 x2 x3 x4 x5 x6 x7 2) shapeCasts_S128x1024_S1x128x1024⟩,
       ⟨Rect.unit ![1, 0, 0] S1x128x1024.size inb_S8x128x1024_S1x128x1024_1_0_0, shapeCast S1x128x1024 (hidB x0 x1 x2 x3 x4 x5 x6 x7 1) shapeCasts_S128x1024_S1x128x1024⟩,
       ⟨Rect.unit ![0, 0, 0] S1x128x1024.size inb_S8x128x1024_S1x128x1024_0_0_0, shapeCast S1x128x1024 (hidB x0 x1 x2 x3 x4 x5 x6 x7 0) shapeCasts_S128x1024_S1x128x1024⟩] := by
  unfold kernelRun2_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [st0_eq, st1_eq, st2_eq, st3_eq, st4_eq, st5_eq, st6_eq, st7_eq]
  simp only [hid7_eq]
  simp only [hid6_eq]
  simp only [hid5_eq]
  simp only [hid4_eq]
  simp only [hid3_eq]
  simp only [hid2_eq]
  simp only [hid1_eq]
  simp only [hid0_eq]
  rfl

set_option maxHeartbeats 1000000 in
/-- The final state's staging memref ends with one piece: the hidden state after the last step. -/
theorem run9_eq (c : Dev nD) (i : grid2.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun2_A c i arg1 harg1 arg2 harg2 arg3 harg3 arg4 harg4 arg5 harg5 arg6 harg6 arg7 harg7 arg8 harg8 arg9 harg9 arg10 harg10 arg11 harg11 x0 x1 x2 x3 x4 x5 x6 x7).2.1 =
      [⟨Rect.unit ![0, 0] S128x1024.size inb_S128x1024_S128x1024_0_0, hidB x0 x1 x2 x3 x4 x5 x6 x7 7⟩] := by
  unfold kernelRun2_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [hid7_eq]
  simp only [hid6_eq]
  simp only [hid5_eq]
  simp only [hid4_eq]
  simp only [hid3_eq]
  simp only [hid2_eq]
  simp only [hid1_eq]
  simp only [hid0_eq]
  rfl

end Cert.KernelIdeal.Value2

end
-- ==== Proof.KI.Val2Idx.lean ====
/-
  Where each window's block sits at a grid point of the layer's pipeline: the batch-tiled windows (the input sequence, the
  initial state, the two outputs) at block t of the batch axis, the parameter windows at the layer's slab.
-/
import proofs.«428164_j36979668418798_3_alg».proof.Proof.Gen.KernelIdeal.Launch
import Idealize.ShloMosaic.Lib.Decide

set_option Elab.async false

namespace Cert.KernelIdeal.Value2

open Idealize.ShloMosaic Idealize.SL.Sem Cert.KernelIdeal Cert.KernelIdeal.Gen

/-- The layer this region runs: the slab of the stacked parameter and initial-state arrays its windows read. -/
abbrev layerIx : Fin 8 := 2
/-- The array this region reads its input sequence from. -/
abbrev inpRef : Ref sig .tc := main_v16_0

/-! ### Where each window's block sits at a grid point: the index maps, decided over the four points -/

theorem idx2_0 : ∀ t : Fin cfg2.N, win2_0.index t 0 = 0 ∧ win2_0.index t 1 = t.val ∧ win2_0.index t 2 = 0 :=
  (by decide +kernel : ∀ t : Fin grid2.N, _)
theorem idx2_1 : ∀ t : Fin cfg2.N, win2_1.index t 0 = layerIx.val ∧ win2_1.index t 1 = t.val ∧ win2_1.index t 2 = 0 :=
  (by decide +kernel : ∀ t : Fin grid2.N, _)
theorem idx2_2 : ∀ t : Fin cfg2.N, win2_2.index t 0 = layerIx.val ∧ win2_2.index t 1 = 0 ∧ win2_2.index t 2 = 0 :=
  (by decide +kernel : ∀ t : Fin grid2.N, _)
theorem idx2_3 : ∀ t : Fin cfg2.N, win2_3.index t 0 = layerIx.val ∧ win2_3.index t 1 = 0 ∧ win2_3.index t 2 = 0 :=
  (by decide +kernel : ∀ t : Fin grid2.N, _)
theorem idx2_4 : ∀ t : Fin cfg2.N, win2_4.index t 0 = layerIx.val ∧ win2_4.index t 1 = 0 ∧ win2_4.index t 2 = 0 :=
  (by decide +kernel : ∀ t : Fin grid2.N, _)
theorem idx2_5 : ∀ t : Fin cfg2.N, win2_5.index t 0 = layerIx.val ∧ win2_5.index t 1 = 0 ∧ win2_5.index t 2 = 0 :=
  (by decide +kernel : ∀ t : Fin grid2.N, _)
theorem idx2_6 : ∀ t : Fin cfg2.N, win2_6.index t 0 = layerIx.val ∧ win2_6.index t 1 = 0 ∧ win2_6.index t 2 = 0 :=
  (by decide +kernel : ∀ t : Fin grid2.N, _)
theorem idx2_7 : ∀ t : Fin cfg2.N, win2_7.index t 0 = layerIx.val ∧ win2_7.index t 1 = 0 ∧ win2_7.index t 2 = 0 :=
  (by decide +kernel : ∀ t : Fin grid2.N, _)
theorem idx2_8 : ∀ t : Fin cfg2.N, win2_8.index t 0 = 0 ∧ win2_8.index t 1 = t.val ∧ win2_8.index t 2 = 0 :=
  (by decide +kernel : ∀ t : Fin grid2.N, _)
theorem idx2_9 : ∀ t : Fin cfg2.N, win2_9.index t 0 = t.val ∧ win2_9.index t 1 = 0 :=
  (by decide +kernel : ∀ t : Fin grid2.N, _)

end Cert.KernelIdeal.Value2
-- ==== Proof.KI.Val2Blk.lean ====
/-
  The blocks the layer's pipeline hands its body at a grid point, read off the arrays as the region finds them: batch rows
  t·128 … t·128 + 127 of the input sequence and of the layer's initial state, and the layer's slabs of the parameter arrays.
-/
import proofs.«428164_j36979668418798_3_alg».proof.Proof.KI.Reg2
import proofs.«428164_j36979668418798_3_alg».proof.Proof.KI.Val2Idx
import Idealize.ShloMosaic.Lib.Pipeline.Value
import Idealize.ShloMosaic.Lib.ValueIdx

noncomputable section

namespace Cert.KernelIdeal.Value2

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ### The windows' blocks at a grid point, read off the arrays -/

section Blocks
variable (c : Dev nD) (t : Fin cfg2.N)

/-- Window 0's block: batch rows t·128 … t·128 + 127 of the input sequence, all eight steps. -/
theorem iblk2_0_apply (s : Fin 8) (r : Fin 128) (k : Fin 1024) (b : Fin 512) (hb : b.val = t.val * 128 + r.val) :
    (iblk2 V c 0 t : Vec Ideal S8x128x1024 .f32) (ix3 s r k) = (V c inpRef : S8x512x1024.Idx → EReal) (ix3 s b k) := by
  unfold iblk2
  rw [View.read_apply]
  show V c inpRef _ = V c inpRef _
  congr 1
  funext a
  apply Fin.ext
  match a with
  | ⟨0, _⟩ => show win2_0.index t 0 * 8 + 1 * s.val = s.val; rw [(idx2_0 t).1]; omega
  | ⟨1, _⟩ => show win2_0.index t 1 * 128 + 1 * r.val = b.val; rw [(idx2_0 t).2.1, hb]; omega
  | ⟨2, _⟩ => show win2_0.index t 2 * 1024 + 1 * k.val = k.val; rw [(idx2_0 t).2.2]; omega

/-- Window 1's block: the same batch rows of the layer's initial state. -/
theorem iblk2_1_apply (r : Fin 128) (k : Fin 1024) (b : Fin 512) (hb : b.val = t.val * 128 + r.val) :
    (iblk2 V c 1 t : Vec Ideal S1x128x1024 .f32) (ix3 0 r k) = (V c main_arg1 : S8x512x1024.Idx → EReal) (ix3 layerIx b k) := by
  unfold iblk2
  rw [View.read_apply]
  show V c main_arg1 _ = V c main_arg1 _
  congr 1
  funext a
  apply Fin.ext
  match a with
  | ⟨0, _⟩ => show win2_1.index t 0 * 1 + 1 * (0 : Fin 1).val = layerIx.val; rw [(idx2_1 t).1]; simp
  | ⟨1, _⟩ => show win2_1.index t 1 * 128 + 1 * r.val = b.val; rw [(idx2_1 t).2.1, hb]; omega
  | ⟨2, _⟩ => show win2_1.index t 2 * 1024 + 1 * k.val = k.val; rw [(idx2_1 t).2.2]; omega

/-- Window 2's block: the layer's slab of the input-side matrices. -/
theorem iblk2_2_apply (k : Fin 1024) (j : Fin 3072) :
    (iblk2 V c 2 t : Vec Ideal S1x1024x3072 .bf16) (ix3 0 k j) = (V c main_v5 : S8x1024x3072.Idx → EReal) (ix3 layerIx k j) := by
  unfold iblk2
  rw [View.read_apply]
  show V c main_v5 _ = V c main_v5 _
  congr 1
  funext a
  apply Fin.ext
  match a with
  | ⟨0, _⟩ => show win2_2.index t 0 * 1 + 1 * (0 : Fin 1).val = layerIx.val; rw [(idx2_2 t).1]; simp
  | ⟨1, _⟩ => show win2_2.index t 1 * 1024 + 1 * k.val = k.val; rw [(idx2_2 t).2.1]; omega
  | ⟨2, _⟩ => show win2_2.index t 2 * 3072 + 1 * j.val = j.val; rw [(idx2_2 t).2.2]; omega

/-- Window 3's block: the layer's slab of the gates' hidden-side matrices. -/
theorem iblk2_3_apply (k : Fin 1024) (j : Fin 2048) :
    (iblk2 V c 3 t : Vec Ideal S1x1024x2048 .bf16) (ix3 0 k j) = (V c main_v8 : S8x1024x2048.Idx → EReal) (ix3 layerIx k j) := by
  unfold iblk2
  rw [View.read_apply]
  show V c main_v8 _ = V c main_v8 _
  congr 1
  funext a
  apply Fin.ext
  match a with
  | ⟨0, _⟩ => show win2_3.index t 0 * 1 + 1 * (0 : Fin 1).val = layerIx.val; rw [(idx2_3 t).1]; simp
  | ⟨1, _⟩ => show win2_3.index t 1 * 1024 + 1 * k.val = k.val; rw [(idx2_3 t).2.1]; omega
  | ⟨2, _⟩ => show win2_3.index t 2 * 2048 + 1 * j.val = j.val; rw [(idx2_3 t).2.2]; omega

/-- Window 4's block: the layer's slab of the candidate's hidden-side matrix. -/
theorem iblk2_4_apply (k j : Fin 1024) :
    (iblk2 V c 4 t : Vec Ideal S1x1024x1024 .bf16) (ix3 0 k j) = (V c main_v9 : S8x1024x1024.Idx → EReal) (ix3 layerIx k j) := by
  unfold iblk2
  rw [View.read_apply]
  show V c main_v9 _ = V c main_v9 _
  congr 1
  funext a
  apply Fin.ext
  match a with
  | ⟨0, _⟩ => show win2_4.index t 0 * 1 + 1 * (0 : Fin 1).val = layerIx.val; rw [(idx2_4 t).1]; simp
  | ⟨1, _⟩ => show win2_4.index t 1 * 1024 + 1 * k.val = k.val; rw [(idx2_4 t).2.1]; omega
  | ⟨2, _⟩ => show win2_4.index t 2 * 1024 + 1 * j.val = j.val; rw [(idx2_4 t).2.2]; omega

/-- Window 5's block: the layer's update-gate bias row. -/
theorem iblk2_5_apply (j : Fin 1024) :
    (iblk2 V c 5 t : Vec Ideal S1x1x1024 .f32) (ix3 0 0 j) = (V c main_v11 : S8x1x1024.Idx → EReal) (ix3 layerIx 0 j) := by
  unfold iblk2
  rw [View.read_apply]
  show V c main_v11 _ = V c main_v11 _
  congr 1
  funext a
  apply Fin.ext
  match a with
  | ⟨0, _⟩ => show win2_5.index t 0 * 1 + 1 * (0 : Fin 1).val = layerIx.val; rw [(idx2_5 t).1]; simp
  | ⟨1, _⟩ => show win2_5.index t 1 * 1 + 1 * (0 : Fin 1).val = (0 : Fin 1).val; rw [(idx2_5 t).2.1]; simp
  | ⟨2, _⟩ => show win2_5.index t 2 * 1024 + 1 * j.val = j.val; rw [(idx2_5 t).2.2]; omega

/-- Window 6's block: the layer's reset-gate bias row. -/
theorem iblk2_6_apply (j : Fin 1024) :
    (iblk2 V c 6 t : Vec Ideal S1x1x1024 .f32) (ix3 0 0 j) = (V c main_v12 : S8x1x1024.Idx → EReal) (ix3 layerIx 0 j) := by
  unfold iblk2
  rw [View.read_apply]
  show V c main_v12 _ = V c main_v12 _
  congr 1
  funext a
  apply Fin.ext
  match a with
  | ⟨0, _⟩ => show win2_6.index t 0 * 1 + 1 * (0 : Fin 1).val = layerIx.val; rw [(idx2_6 t).1]; simp
  | ⟨1, _⟩ => show win2_6.index t 1 * 1 + 1 * (0 : Fin 1).val = (0 : Fin 1).val; rw [(idx2_6 t).2.1]; simp
  | ⟨2, _⟩ => show win2_6.index t 2 * 1024 + 1 * j.val = j.val; rw [(idx2_6 t).2.2]; omega

/-- Window 7's block: the layer's candidate bias row. -/
theorem iblk2_7_apply (j : Fin 1024) :
    (iblk2 V c 7 t : Vec Ideal S1x1x1024 .f32) (ix3 0 0 j) = (V c main_v13 : S8x1x1024.Idx → EReal) (ix3 layerIx 0 j) := by
  unfold iblk2
  rw [View.read_apply]
  show V c main_v13 _ = V c main_v13 _
  congr 1
  funext a
  apply Fin.ext
  match a with
  | ⟨0, _⟩ => show win2_7.index t 0 * 1 + 1 * (0 : Fin 1).val = layerIx.val; rw [(idx2_7 t).1]; simp
  | ⟨1, _⟩ => show win2_7.index t 1 * 1 + 1 * (0 : Fin 1).val = (0 : Fin 1).val; rw [(idx2_7 t).2.1]; simp
  | ⟨2, _⟩ => show win2_7.index t 2 * 1024 + 1 * j.val = j.val; rw [(idx2_7 t).2.2]; omega

end Blocks

end Cert.KernelIdeal.Value2

end
-- ==== Proof.KI.Val2Final.lean ====
/-
  The two arrays a GRU layer's pipeline leaves: the hidden sequence [time, batch, feature] and the last hidden state
  [batch, feature] of the layer run on the region's input sequence from the layer's initial state. At grid point t the body
  writes the tile of batch rows t·128 … t·128 + 127: slice s along time of its first output is the tile's hidden state after
  step s, its second output the state after the last step; the four tiles cover the batch axis.
-/
import proofs.«428164_j36979668418798_3_alg».proof.Proof.KI.Reg2
import proofs.«428164_j36979668418798_3_alg».proof.Proof.KI.Val2Run
import proofs.«428164_j36979668418798_3_alg».proof.Proof.KI.Val2Blk

set_option maxRecDepth 65536

noncomputable section

namespace Cert.KernelIdeal.Value2

open Idealize.ShloMosaic Idealize.ShloMosaic.TcCoe Idealize.ShloMosaic.ValueIdx Idealize.SL.Sem
open Cert.KernelIdeal Cert.KernelIdeal.Gen Cert.LayerOf
open Idealize.ShloMosaic.Pipeline (Dat)

/-! ### The staging memrefs after the body, entry by entry -/

/-- A slice of extent 1 at time `t` holding `H t` with a leading unit axis is, at each of its entries, `H` at the entry's time
    on the entry's row and column. -/
theorem slice_piece (t : ℕ) (inb : ∀ a, (![t, 0, 0] : Fin 3 → ℕ) a + S1x128x1024.size a ≤ S8x128x1024.size a)
    (H : ℕ → FVec Ideal S128x1024 .f32) (x : S1x128x1024.Idx) :
    shapeCast S1x128x1024 (H t) shapeCasts_S128x1024_S1x128x1024 x
      = (fun y : S8x128x1024.Idx => H (y 0).val (ix2 (y 1) (y 2) : S128x1024.Idx))
          ((Rect.unit (s := S8x128x1024) ![t, 0, 0] S1x128x1024.size inb).emb x) := by
  obtain ⟨u, a, b, rfl⟩ : ∃ (u : Fin 1) (a : Fin 128) (b : Fin 1024), x = ix3 u a b := ⟨x 0, x 1, x 2, eq_ix3 x⟩
  have hu : u.val = 0 := by omega
  rw [shapeCast_ab_1ab_apply]
  have h0 : (((Rect.unit (s := S8x128x1024) ![t, 0, 0] S1x128x1024.size inb).emb (ix3 u a b)) 0).val = t := by
    rw [Rect.emb_apply]; simp [hu]
  have h1 : ((Rect.unit (s := S8x128x1024) ![t, 0, 0] S1x128x1024.size inb).emb (ix3 u a b)) 1 = a :=
    Fin.ext (by rw [Rect.emb_apply]; simp)
  have h2 : ((Rect.unit (s := S8x128x1024) ![t, 0, 0] S1x128x1024.size inb).emb (ix3 u a b)) 2 = b :=
    Fin.ext (by rw [Rect.emb_apply]; simp)
  show H t (ix2 a b) = H _ (ix2 _ _)
  rw [h0, h1, h2]

section Out
variable (c : Dev nD) (i : grid2.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32)

/-- The hidden sequence's staging memref after the body: entry (s, r, k) is entry (r, k) of the tile's hidden state after
    step s. -/
theorem out8_apply (s : Fin 8) (r : Fin 128) (k : Fin 1024) :
    out2_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k) = hidB x0 x1 x2 x3 x4 x5 x6 x7 s.val (ix2 r k) := by
  unfold out2_A_8
  rw [View.read_writes_eq_canon _ _ _ (cover2_A_8 c i arg1 harg1 arg2 harg2 arg3 harg3 arg4 harg4 arg5 harg5 arg6 harg6 arg7 harg7 arg8 harg8 arg9 harg9 arg10 harg10 arg11 harg11 x0 x1 x2 x3 x4 x5 x6 x7)]
  have hc := cover2_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k)
  rw [run8_eq] at hc ⊢
  refine (View.canon_apply_of_pieces (fun y : S8x128x1024.Idx => hidB x0 x1 x2 x3 x4 x5 x6 x7 (y 0).val (ix2 (y 1) (y 2) : S128x1024.Idx))
    _ ?_ (ix3 s r k) hc).trans rfl
  intro p hp x
  simp only [List.mem_cons, List.not_mem_nil, or_false] at hp
  rcases hp with rfl | rfl | rfl | rfl | rfl | rfl | rfl | rfl
  · exact slice_piece 7 inb_S8x128x1024_S1x128x1024_7_0_0 (hidB x0 x1 x2 x3 x4 x5 x6 x7) x
  · exact slice_piece 6 inb_S8x128x1024_S1x128x1024_6_0_0 (hidB x0 x1 x2 x3 x4 x5 x6 x7) x
  · exact slice_piece 5 inb_S8x128x1024_S1x128x1024_5_0_0 (hidB x0 x1 x2 x3 x4 x5 x6 x7) x
  · exact slice_piece 4 inb_S8x128x1024_S1x128x1024_4_0_0 (hidB x0 x1 x2 x3 x4 x5 x6 x7) x
  · exact slice_piece 3 inb_S8x128x1024_S1x128x1024_3_0_0 (hidB x0 x1 x2 x3 x4 x5 x6 x7) x
  · exact slice_piece 2 inb_S8x128x1024_S1x128x1024_2_0_0 (hidB x0 x1 x2 x3 x4 x5 x6 x7) x
  · exact slice_piece 1 inb_S8x128x1024_S1x128x1024_1_0_0 (hidB x0 x1 x2 x3 x4 x5 x6 x7) x
  · exact slice_piece 0 inb_S8x128x1024_S1x128x1024_0_0_0 (hidB x0 x1 x2 x3 x4 x5 x6 x7) x

/-- The final state's staging memref after the body is the tile's hidden state after the last step. -/
theorem out9_eq : out2_A_9 c i arg1 harg1 arg2 harg2 arg3 harg3 arg4 harg4 arg5 harg5 arg6 harg6 arg7 harg7 arg8 harg8 arg9 harg9 arg10 harg10 arg11 harg11 x0 x1 x2 x3 x4 x5 x6 x7 = hidB x0 x1 x2 x3 x4 x5 x6 x7 7 := by
  unfold out2_A_9
  rw [View.read_writes_eq_canon _ _ _ (cover2_A_9 c i arg1 harg1 arg2 harg2 arg3 harg3 arg4 harg4 arg5 harg5 arg6 harg6 arg7 harg7 arg8 harg8 arg9 harg9 arg10 harg10 arg11 harg11 x0 x1 x2 x3 x4 x5 x6 x7), run9_eq, View.canon_unit_zero (S := S128x1024) hz2]

end Out

/-! ### What each grid point writes back, and the arrays the region leaves -/

variable (V : (c : Dev nD) → (b : Ref sig .tc) → Buf (Elt Ideal) ((c : Thread nD τ).loc b))

/-- The layer's parameters as the region finds them. -/
abbrev Wof (c : Dev nD) : Cert.Spec.LayerW :=
  WofV (V c main_v5) (V c main_v8) (V c main_v9) (V c main_v11) (V c main_v12) (V c main_v13) layerIx

/-- The hidden sequence the layer leaves. -/
abbrev seqG (c : Dev nD) : Sseq.Idx → EReal := seqOut (Wof V c) (V c inpRef) (V c main_arg1) layerIx
/-- The last hidden state the layer leaves. -/
abbrev finG (c : Dev nD) : Sfin.Idx → EReal := finOut (Wof V c) (V c inpRef) (V c main_arg1) layerIx

/-- Row r of the tile of grid point t after step s is batch row t·128 + r of the layer's hidden sequence at time s. -/
theorem tile_at (c : Dev nD) (t : Fin cfg2.N) (s : Fin 8) (r : Fin 128) (k : Fin 1024) (b : Fin 512)
    (hb : b.val = t.val * 128 + r.val) :
    hidB (iblk2 V c 0 t) (iblk2 V c 1 t) (iblk2 V c 2 t) (iblk2 V c 3 t) (iblk2 V c 4 t) (iblk2 V c 5 t) (iblk2 V c 6 t)
        (iblk2 V c 7 t) s.val (ix2 r k)
      = seqG V c (ix3 s b k) :=
  tile_apply (V c main_v5) (V c main_v8) (V c main_v9) (V c main_v11) (V c main_v12) (V c main_v13) (V c inpRef) (V c main_arg1)
    layerIx (iblk2 V c 0 t) (iblk2 V c 1 t) (iblk2 V c 2 t) (iblk2 V c 3 t) (iblk2 V c 4 t) (iblk2 V c 5 t) (iblk2 V c 6 t)
    (iblk2 V c 7 t) (xgL (iblk2 V c 0 t) (iblk2 V c 2 t)) b r
    (fun s k => iblk2_0_apply V c t s r k b hb) (fun k => iblk2_1_apply V c t r k b hb) (fun k j => iblk2_2_apply V c t k j)
    (fun k j => iblk2_3_apply V c t k j) (fun k j => iblk2_4_apply V c t k j) (fun j => iblk2_5_apply V c t j)
    (fun j => iblk2_6_apply V c t j) (fun j => iblk2_7_apply V c t j)
    (fun s c' => xgL_apply (iblk2 V c 0 t) (iblk2 V c 2 t) s r c') s k

/-- WHAT POINT t WRITES BACK to the hidden sequence: block t of the layer's hidden sequence. -/
theorem flushed8_eq (c : Dev nD) (t : Fin cfg2.N) :
    (dat2 V c).flushed 8 t = ((cfg2.win 8).blk t).view.read (Elt Ideal) (seqG V c) := by
  show (cfg2.win 8).cut (grid2.coords t) ((dat2 V c).after 8 t) = _
  rw [after2_8]
  unfold outsAt2
  dsimp only
  funext j
  obtain ⟨s, r, k, rfl⟩ : ∃ (s : Fin 8) (r : Fin 128) (k : Fin 1024), j = ix3 s r k := ⟨j 0, j 1, j 2, eq_ix3 j⟩
  have ht : t.val < 4 := by have := t.isLt; have hN : cfg2.N = 4 := N_2; omega
  show out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (iblk2 V c 0 t) (iblk2 V c 1 t) (iblk2 V c 2 t) (iblk2 V c 3 t) (iblk2 V c 4 t) (iblk2 V c 5 t) (iblk2 V c 6 t) (iblk2 V c 7 t) (ix3 s r k)
    = seqG V c (((cfg2.win 8).blk t).view.emb (ix3 s r k))
  rw [out8_apply]
  have hb : ((cfg2.win 8).blk t).view.emb (ix3 s r k)
      = (ix3 s (⟨t.val * 128 + r.val, by have := r.isLt; omega⟩ : Fin 512) k : S8x512x1024.Idx) := by
    funext a
    apply Fin.ext
    match a with
    | ⟨0, _⟩ => show win2_8.index t 0 * 8 + 1 * s.val = s.val; rw [(idx2_8 t).1]; omega
    | ⟨1, _⟩ => show win2_8.index t 1 * 128 + 1 * r.val = t.val * 128 + r.val; rw [(idx2_8 t).2.1]; omega
    | ⟨2, _⟩ => show win2_8.index t 2 * 1024 + 1 * k.val = k.val; rw [(idx2_8 t).2.2]; omega
  rw [hb]
  exact tile_at V c t s r k _ rfl

/-- WHAT POINT t WRITES BACK to the last hidden state: block t of the layer's last hidden state. -/
theorem flushed9_eq (c : Dev nD) (t : Fin cfg2.N) :
    (dat2 V c).flushed 9 t = ((cfg2.win 9).blk t).view.read (Elt Ideal) (finG V c) := by
  show (cfg2.win 9).cut (grid2.coords t) ((dat2 V c).after 9 t) = _
  rw [after2_9]
  unfold outsAt2
  dsimp only
  funext j
  obtain ⟨r, k, rfl⟩ : ∃ (r : Fin 128) (k : Fin 1024), j = ix2 r k := ⟨j 0, j 1, eq_ix2 j⟩
  have ht : t.val < 4 := by have := t.isLt; have hN : cfg2.N = 4 := N_2; omega
  show out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (iblk2 V c 0 t) (iblk2 V c 1 t) (iblk2 V c 2 t) (iblk2 V c 3 t) (iblk2 V c 4 t) (iblk2 V c 5 t) (iblk2 V c 6 t) (iblk2 V c 7 t) (ix2 r k)
    = finG V c (((cfg2.win 9).blk t).view.emb (ix2 r k))
  rw [out9_eq]
  have hb : ((cfg2.win 9).blk t).view.emb (ix2 r k)
      = (ix2 (⟨t.val * 128 + r.val, by have := r.isLt; omega⟩ : Fin 512) k : S512x1024.Idx) := by
    funext a
    apply Fin.ext
    match a with
    | ⟨0, _⟩ => show win2_9.index t 0 * 128 + 1 * r.val = t.val * 128 + r.val; rw [(idx2_9 t).1]; omega
    | ⟨1, _⟩ => show win2_9.index t 1 * 1024 + 1 * k.val = k.val; rw [(idx2_9 t).2]; omega
  rw [hb]
  exact tile_at V c t 7 r k _ rfl

/-- An index of the hidden sequence is in point t's block iff each coordinate is in the block's range on its axis. -/
theorem mem_blk8 (t : Fin cfg2.N) (i : S8x512x1024.Idx) :
    i ∈ ((cfg2.win 8).blk t).view.set ↔ ∀ a : Fin 3, win2_8.index t a * S8x128x1024.size a ≤ (i a).val
      ∧ (i a).val < win2_8.index t a * S8x128x1024.size a + S8x128x1024.size a := by
  show i ∈ ((View.whole main_v17_0).slice (win2_8.rect t)).set ↔ _
  rw [View.set_slice_whole, Rect.mem_set_unit]
  exact Iff.rfl

/-- An index of the last hidden state is in point t's block iff each coordinate is in the block's range on its axis. -/
theorem mem_blk9 (t : Fin cfg2.N) (i : S512x1024.Idx) :
    i ∈ ((cfg2.win 9).blk t).view.set ↔ ∀ a : Fin 2, win2_9.index t a * S128x1024.size a ≤ (i a).val
      ∧ (i a).val < win2_9.index t a * S128x1024.size a + S128x1024.size a := by
  show i ∈ ((View.whole main_v17_1).slice (win2_9.rect t)).set ↔ _
  rw [View.set_slice_whole, Rect.mem_set_unit]
  exact Iff.rfl

/-- The four tiles cover the hidden sequence: batch row b is in the block of point b / 128. -/
theorem cover8 (i : S8x512x1024.Idx) : ∃ t : Fin cfg2.N, (cfg2.win 8).flush t = true ∧ i ∈ ((cfg2.win 8).blk t).view.set := by
  have h0 : (i 0).val < 8 := (i 0).isLt
  have h1 : (i 1).val < 512 := (i 1).isLt
  have h2 : (i 2).val < 1024 := (i 2).isLt
  have hN : cfg2.N = 4 := N_2
  refine ⟨⟨(i 1).val / 128, by rw [hN]; omega⟩, flush2_8 _, ?_⟩
  rw [mem_blk8]
  obtain ⟨e0, e1, e2⟩ := idx2_8 ⟨(i 1).val / 128, by rw [hN]; omega⟩
  intro a
  match a with
  | ⟨0, _⟩ =>
    show win2_8.index _ 0 * 8 ≤ (i 0).val ∧ (i 0).val < win2_8.index _ 0 * 8 + 8
    rw [e0]; omega
  | ⟨1, _⟩ =>
    show win2_8.index _ 1 * 128 ≤ (i 1).val ∧ (i 1).val < win2_8.index _ 1 * 128 + 128
    rw [e1]; show (i 1).val / 128 * 128 ≤ (i 1).val ∧ (i 1).val < (i 1).val / 128 * 128 + 128; omega
  | ⟨2, _⟩ =>
    show win2_8.index _ 2 * 1024 ≤ (i 2).val ∧ (i 2).val < win2_8.index _ 2 * 1024 + 1024
    rw [e2]; omega

/-- The four tiles cover the last hidden state. -/
theorem cover9 (i : S512x1024.Idx) : ∃ t : Fin cfg2.N, (cfg2.win 9).flush t = true ∧ i ∈ ((cfg2.win 9).blk t).view.set := by
  have h0 : (i 0).val < 512 := (i 0).isLt
  have h1 : (i 1).val < 1024 := (i 1).isLt
  have hN : cfg2.N = 4 := N_2
  refine ⟨⟨(i 0).val / 128, by rw [hN]; omega⟩, flush2_9 _, ?_⟩
  rw [mem_blk9]
  obtain ⟨e0, e1⟩ := idx2_9 ⟨(i 0).val / 128, by rw [hN]; omega⟩
  intro a
  match a with
  | ⟨0, _⟩ =>
    show win2_9.index _ 0 * 128 ≤ (i 0).val ∧ (i 0).val < win2_9.index _ 0 * 128 + 128
    rw [e0]; show (i 0).val / 128 * 128 ≤ (i 0).val ∧ (i 0).val < (i 0).val / 128 * 128 + 128; omega
  | ⟨1, _⟩ =>
    show win2_9.index _ 1 * 1024 ≤ (i 1).val ∧ (i 1).val < win2_9.index _ 1 * 1024 + 1024
    rw [e1]; omega

/-- THE HIDDEN SEQUENCE the region leaves is the layer's, run on the region's input sequence from the layer's initial state. -/
theorem seq_value2 (c : Dev nD) :
    (dat2 V c).arrAt 8 cfg2.N
      = seqOut (WofV (V c main_v5) (V c main_v8) (V c main_v9) (V c main_v11) (V c main_v12) (V c main_v13) layerIx)
          (V c inpRef) (V c main_arg1) layerIx :=
  (dat2 V c).arrAt_eq_of_cover 8 (seqG V c) (fun t _ => flushed8_eq V c t) cover8

/-- THE LAST HIDDEN STATE the region leaves is the layer's. -/
theorem fin_value2 (c : Dev nD) :
    (dat2 V c).arrAt 9 cfg2.N
      = finOut (WofV (V c main_v5) (V c main_v8) (V c main_v9) (V c main_v11) (V c main_v12) (V c main_v13) layerIx)
          (V c inpRef) (V c main_arg1) layerIx :=
  (dat2 V c).arrAt_eq_of_cover 9 (finG V c) (fun t _ => flushed9_eq V c t) cover9

end Cert.KernelIdeal.Value2

end
-- ==== Proof.KI.Val3Mat.lean ====
/-
  The three matrix products of a GRU layer's tile, read entry by entry over the extended reals: each is the sum over
  the 1024 contracted features of the products of the two operands' entries.
-/
import proofs.«428164_j36979668418798_3_alg».proof.Proof.Gen.KernelIdeal.Skeleton
import Idealize.ShloMosaic.PureOps.Ideal
import Idealize.ShloMosaic.PureOps.Ideal.Laws
import Idealize.ShloMosaic.Lib.ValueIdx

noncomputable section

namespace Cert.KernelIdeal.Value3

open Idealize.ShloMosaic Idealize.ShloMosaic.ValueIdx Cert.KernelIdeal Cert.KernelIdeal.Gen
open scoped BigOperators

/-! ### The input-side product: [1024, 1024] by [1024, 3072] -/

abbrev Dx := dot_S1024x1024_S1024x3072_S1024x3072_1_0_0_1_n_n

theorem lhsDx_0 (j : S1024x3072.Idx) (k : Dx.contr.Idx) : (Dx.lhsIdx j k 0 : ℕ) = j 0 := by
  simp [DotDims.lhsIdx, Dx, dot_S1024x1024_S1024x3072_S1024x3072_1_0_0_1_n_n]; rfl
theorem lhsDx_1 (j : S1024x3072.Idx) (k : Dx.contr.Idx) : (Dx.lhsIdx j k 1 : ℕ) = k ⟨0, by decide⟩ := by
  simp [DotDims.lhsIdx, Dx, dot_S1024x1024_S1024x3072_S1024x3072_1_0_0_1_n_n]; rfl
theorem rhsDx_0 (j : S1024x3072.Idx) (k : Dx.contr.Idx) : (Dx.rhsIdx j k 0 : ℕ) = k ⟨0, by decide⟩ := by
  simp [DotDims.rhsIdx, Dx, dot_S1024x1024_S1024x3072_S1024x3072_1_0_0_1_n_n]; rfl
theorem rhsDx_1 (j : S1024x3072.Idx) (k : Dx.contr.Idx) : (Dx.rhsIdx j k 1 : ℕ) = j 1 := by
  simp [DotDims.rhsIdx, Dx, dot_S1024x1024_S1024x3072_S1024x3072_1_0_0_1_n_n]; rfl

/-- Entry (r, c) of this product is the sum over k of A[r, k] · B[k, c]. -/
theorem mmDx_apply (A : FVec Ideal S1024x1024 .bf16) (B : FVec Ideal S1024x3072 .bf16) (r : Fin 1024) (c : Fin 3072) :
    matmul Dx none A B (constant S1024x3072 .f32 0x00000000#32) (ix2 r c) = ∑ k : Fin 1024, A (ix2 r k) * B (ix2 k c) := by
  show FloatOps.matmul Dx none A B _ (ix2 r c) = _
  rw [Ideal.matmul_constant_zero_apply, ← Equiv.sum_comp (contrEquiv1 Dx 1024 rfl rfl).symm]
  refine Finset.sum_congr rfl fun k _ => ?_
  have ck := contrEquiv1_symm_val Dx 1024 rfl rfl k
  have l : Dx.lhsIdx (ix2 r c) ((contrEquiv1 Dx 1024 rfl rfl).symm k) = ix2 r k := by
    funext ax; apply Fin.ext
    match ax with
    | ⟨0, _⟩ => exact lhsDx_0 _ _
    | ⟨1, _⟩ => exact (lhsDx_1 _ _).trans ck
  have rr : Dx.rhsIdx (ix2 r c) ((contrEquiv1 Dx 1024 rfl rfl).symm k) = ix2 k c := by
    funext ax; apply Fin.ext
    match ax with
    | ⟨0, _⟩ => exact (rhsDx_0 _ _).trans ck
    | ⟨1, _⟩ => exact rhsDx_1 _ _
  rw [l, rr]

/-! ### The hidden-side product of the two gates: [128, 1024] by [1024, 2048] -/

abbrev Dzr := dot_S128x1024_S1024x2048_S128x2048_1_0_0_1_n_n

theorem lhsDzr_0 (j : S128x2048.Idx) (k : Dzr.contr.Idx) : (Dzr.lhsIdx j k 0 : ℕ) = j 0 := by
  simp [DotDims.lhsIdx, Dzr, dot_S128x1024_S1024x2048_S128x2048_1_0_0_1_n_n]; rfl
theorem lhsDzr_1 (j : S128x2048.Idx) (k : Dzr.contr.Idx) : (Dzr.lhsIdx j k 1 : ℕ) = k ⟨0, by decide⟩ := by
  simp [DotDims.lhsIdx, Dzr, dot_S128x1024_S1024x2048_S128x2048_1_0_0_1_n_n]; rfl
theorem rhsDzr_0 (j : S128x2048.Idx) (k : Dzr.contr.Idx) : (Dzr.rhsIdx j k 0 : ℕ) = k ⟨0, by decide⟩ := by
  simp [DotDims.rhsIdx, Dzr, dot_S128x1024_S1024x2048_S128x2048_1_0_0_1_n_n]; rfl
theorem rhsDzr_1 (j : S128x2048.Idx) (k : Dzr.contr.Idx) : (Dzr.rhsIdx j k 1 : ℕ) = j 1 := by
  simp [DotDims.rhsIdx, Dzr, dot_S128x1024_S1024x2048_S128x2048_1_0_0_1_n_n]; rfl

/-- Entry (r, c) of this product is the sum over k of A[r, k] · B[k, c]. -/
theorem mmDzr_apply (A : FVec Ideal S128x1024 .bf16) (B : FVec Ideal S1024x2048 .bf16) (r : Fin 128) (c : Fin 2048) :
    matmul Dzr none A B (constant S128x2048 .f32 0x00000000#32) (ix2 r c) = ∑ k : Fin 1024, A (ix2 r k) * B (ix2 k c) := by
  show FloatOps.matmul Dzr none A B _ (ix2 r c) = _
  rw [Ideal.matmul_constant_zero_apply, ← Equiv.sum_comp (contrEquiv1 Dzr 1024 rfl rfl).symm]
  refine Finset.sum_congr rfl fun k _ => ?_
  have ck := contrEquiv1_symm_val Dzr 1024 rfl rfl k
  have l : Dzr.lhsIdx (ix2 r c) ((contrEquiv1 Dzr 1024 rfl rfl).symm k) = ix2 r k := by
    funext ax; apply Fin.ext
    match ax with
    | ⟨0, _⟩ => exact lhsDzr_0 _ _
    | ⟨1, _⟩ => exact (lhsDzr_1 _ _).trans ck
  have rr : Dzr.rhsIdx (ix2 r c) ((contrEquiv1 Dzr 1024 rfl rfl).symm k) = ix2 k c := by
    funext ax; apply Fin.ext
    match ax with
    | ⟨0, _⟩ => exact (rhsDzr_0 _ _).trans ck
    | ⟨1, _⟩ => exact rhsDzr_1 _ _
  rw [l, rr]

/-! ### The hidden-side product of the candidate: [128, 1024] by [1024, 1024] -/

abbrev Dh := dot_S128x1024_S1024x1024_S128x1024_1_0_0_1_n_n

theorem lhsDh_0 (j : S128x1024.Idx) (k : Dh.contr.Idx) : (Dh.lhsIdx j k 0 : ℕ) = j 0 := by
  simp [DotDims.lhsIdx, Dh, dot_S128x1024_S1024x1024_S128x1024_1_0_0_1_n_n]; rfl
theorem lhsDh_1 (j : S128x1024.Idx) (k : Dh.contr.Idx) : (Dh.lhsIdx j k 1 : ℕ) = k ⟨0, by decide⟩ := by
  simp [DotDims.lhsIdx, Dh, dot_S128x1024_S1024x1024_S128x1024_1_0_0_1_n_n]; rfl
theorem rhsDh_0 (j : S128x1024.Idx) (k : Dh.contr.Idx) : (Dh.rhsIdx j k 0 : ℕ) = k ⟨0, by decide⟩ := by
  simp [DotDims.rhsIdx, Dh, dot_S128x1024_S1024x1024_S128x1024_1_0_0_1_n_n]; rfl
theorem rhsDh_1 (j : S128x1024.Idx) (k : Dh.contr.Idx) : (Dh.rhsIdx j k 1 : ℕ) = j 1 := by
  simp [DotDims.rhsIdx, Dh, dot_S128x1024_S1024x1024_S128x1024_1_0_0_1_n_n]; rfl

/-- Entry (r, c) of this product is the sum over k of A[r, k] · B[k, c]. -/
theorem mmDh_apply (A : FVec Ideal S128x1024 .bf16) (B : FVec Ideal S1024x1024 .bf16) (r : Fin 128) (c : Fin 1024) :
    matmul Dh none A B (constant S128x1024 .f32 0x00000000#32) (ix2 r c) = ∑ k : Fin 1024, A (ix2 r k) * B (ix2 k c) := by
  show FloatOps.matmul Dh none A B _ (ix2 r c) = _
  rw [Ideal.matmul_constant_zero_apply, ← Equiv.sum_comp (contrEquiv1 Dh 1024 rfl rfl).symm]
  refine Finset.sum_congr rfl fun k _ => ?_
  have ck := contrEquiv1_symm_val Dh 1024 rfl rfl k
  have l : Dh.lhsIdx (ix2 r c) ((contrEquiv1 Dh 1024 rfl rfl).symm k) = ix2 r k := by
    funext ax; apply Fin.ext
    match ax with
    | ⟨0, _⟩ => exact lhsDh_0 _ _
    | ⟨1, _⟩ => exact (lhsDh_1 _ _).trans ck
  have rr : Dh.rhsIdx (ix2 r c) ((contrEquiv1 Dh 1024 rfl rfl).symm k) = ix2 k c := by
    funext ax; apply Fin.ext
    match ax with
    | ⟨0, _⟩ => exact (rhsDh_0 _ _).trans ck
    | ⟨1, _⟩ => exact rhsDh_1 _ _
  rw [l, rr]

end Cert.KernelIdeal.Value3

end
-- ==== Proof.KI.Val3Step.lean ====
/-
  One time step of a GRU layer on a tile of 128 batch rows, as one function of the tile's previous hidden state, the
  tile's rows of the input-side products, the two hidden-side weight blocks and the three bias rows; and the eight
  hidden states a tile goes through, each the step applied to the one before.
-/
import proofs.«428164_j36979668418798_3_alg».proof.Proof.Gen.KernelIdeal.Skeleton

noncomputable section

namespace Cert.KernelIdeal.Value3

open Idealize.ShloMosaic Cert.KernelIdeal Cert.KernelIdeal.Gen

variable {F : FTy → Type} [FloatOps F]

/-- The new hidden state of a tile: with `xg` the tile's rows of the input-side products (three bands of 1024 columns:
    update gate, reset gate, candidate), `h` the previous hidden state,
      z = σ(xg_z + h·W_z + b_z),  r = σ(xg_r + h·W_r + b_r),  c = tanh(xg_c + (r ⊙ h)·W_c + b_c),
      h' = (1 − z) ⊙ h + z ⊙ c. -/
def step (bz br bh : FVec F S1x1024 .f32) (h : FVec F S128x1024 .f32) (xg : FVec F S128x3072 .bf16)
    (whzr : FVec F S1x1024x2048 .bf16) (whh : FVec F S1x1024x1024 .bf16) : FVec F S128x1024 .f32 :=
  have xz : FVec F S128x1024 .bf16 := extractStridedSlice S128x1024 ![0, 0] xg slices_S128x3072_o0_0_S128x1024
  have xr : FVec F S128x1024 .bf16 := extractStridedSlice S128x1024 ![0, 1024] xg slices_S128x3072_o0_1024_S128x1024
  have xc : FVec F S128x1024 .bf16 := extractStridedSlice S128x1024 ![0, 2048] xg slices_S128x3072_o0_2048_S128x1024
  have hb : FVec F S128x1024 .bf16 := truncf .bf16 h bitsLt_bf16_f32
  have wzr : FVec F S1024x2048 .bf16 := shapeCast S1024x2048 whzr shapeCasts_S1x1024x2048_S1024x2048
  have z0 : FVec F S128x2048 .f32 := constant S128x2048 .f32 0x00000000#32
  have hg : FVec F S128x2048 .f32 := matmul dot_S128x1024_S1024x2048_S128x2048_1_0_0_1_n_n none hb wzr z0
  have hz : FVec F S128x1024 .f32 := extractStridedSlice S128x1024 ![0, 0] hg slices_S128x2048_o0_0_S128x1024
  have hr : FVec F S128x1024 .f32 := extractStridedSlice S128x1024 ![0, 1024] hg slices_S128x2048_o0_1024_S128x1024
  have a1 : FVec F S128x1024 .f32 := extf .f32 xz bitsLt_bf16_f32
  have a2 : FVec F S128x1024 .f32 := addf a1 hz
  have a3 : FVec F S128x1024 .f32 := broadcastTo S128x1024 bz broadcasts_S1x1024_S128x1024
  have a4 : FVec F S128x1024 .f32 := addf a2 a3
  have z : FVec F S128x1024 .f32 := logistic a4
  have b1 : FVec F S128x1024 .f32 := extf .f32 xr bitsLt_bf16_f32
  have b2 : FVec F S128x1024 .f32 := addf b1 hr
  have b3 : FVec F S128x1024 .f32 := broadcastTo S128x1024 br broadcasts_S1x1024_S128x1024
  have b4 : FVec F S128x1024 .f32 := addf b2 b3
  have r : FVec F S128x1024 .f32 := logistic b4
  have rh : FVec F S128x1024 .f32 := mulf r h
  have rhb : FVec F S128x1024 .bf16 := truncf .bf16 rh bitsLt_bf16_f32
  have wc : FVec F S1024x1024 .bf16 := shapeCast S1024x1024 whh shapeCasts_S1x1024x1024_S1024x1024
  have z1 : FVec F S128x1024 .f32 := constant S128x1024 .f32 0x00000000#32
  have hc : FVec F S128x1024 .f32 := matmul dot_S128x1024_S1024x1024_S128x1024_1_0_0_1_n_n none rhb wc z1
  have c1 : FVec F S128x1024 .f32 := extf .f32 xc bitsLt_bf16_f32
  have c2 : FVec F S128x1024 .f32 := addf c1 hc
  have c3 : FVec F S128x1024 .f32 := broadcastTo S128x1024 bh broadcasts_S1x1024_S128x1024
  have c4 : FVec F S128x1024 .f32 := addf c2 c3
  have c : FVec F S128x1024 .f32 := tanh c4
  have one : F .f32 := Scalar.ofBits .f32 0x3F800000#32
  have ones : FVec F S128x1024 .f32 := broadcast S128x1024 one
  have nz : FVec F S128x1024 .f32 := subf ones z
  have keep : FVec F S128x1024 .f32 := mulf nz h
  have upd : FVec F S128x1024 .f32 := mulf z c
  addf keep upd

/-! ### The eight hidden states of the program's body are eight steps

Each equation: the value the body holds as hidden state after time step t, written over the values it loaded, is the step
applied to the hidden state after step t − 1 (the loaded initial state at t = 0), the rows of the input-side products
loaded for step t, and the weight blocks and bias rows as loaded. -/

theorem hid0_eq (v11 : Vec F S1x128x1024 .f32) (v13 v15 v17 : Vec F S1x1x1024 .f32) (v19 : Vec F S128x3072 .bf16)
    (v24 : Vec F S1x1024x2048 .bf16) (v41 : Vec F S1x1024x1024 .bf16) :
    k3_pay13 (k3_pay4 v11) (k3_pay5 v13) (k3_pay6 v15) (k3_pay7 v17) (k3_pay8 v19) (k3_pay9 v19) (k3_pay11 v11 v24)
        (k3_pay12 v11 v19 v24) v41
      = step (k3_pay5 v13) (k3_pay6 v15) (k3_pay7 v17) (k3_pay4 v11) v19 v24 v41 := rfl

theorem hid1_eq (v12 : FVec F S128x1024 .f32) (v14 v16 v18 : FVec F S1x1024 .f32) (v21 v22 : FVec F S128x1024 .bf16)
    (v28 v30 : FVec F S128x1024 .f32) (v41 : Vec F S1x1024x1024 .bf16) (v57 : Vec F S128x3072 .bf16)
    (v62 : Vec F S1x1024x2048 .bf16) (v79 : Vec F S1x1024x1024 .bf16) :
    k3_pay19 v18 (k3_pay13 v12 v14 v16 v18 v21 v22 v28 v30 v41) (k3_pay15 v57)
        (k3_pay17 v12 v14 v16 v18 v21 v22 v28 v30 v41 v57 v62) (k3_pay18 v12 v14 v16 v18 v21 v22 v28 v30 v41 v57 v62) v79
      = step v14 v16 v18 (k3_pay13 v12 v14 v16 v18 v21 v22 v28 v30 v41) v57 v62 v79 := rfl

theorem hid2_eq (v14 v16 v18 : FVec F S1x1024 .f32) (v53 : FVec F S128x1024 .f32) (v60 : FVec F S128x1024 .bf16)
    (v71 v75 : FVec F S128x1024 .f32) (v79 : Vec F S1x1024x1024 .bf16) (v95 : Vec F S128x3072 .bf16)
    (v100 : Vec F S1x1024x2048 .bf16) (v117 : Vec F S1x1024x1024 .bf16) :
    k3_pay25 v18 (k3_pay19 v18 v53 v60 v71 v75 v79) (k3_pay21 v95) (k3_pay23 v14 v18 v53 v60 v71 v75 v79 v95 v100)
        (k3_pay24 v16 v18 v53 v60 v71 v75 v79 v95 v100) v117
      = step v14 v16 v18 (k3_pay19 v18 v53 v60 v71 v75 v79) v95 v100 v117 := rfl

theorem hid3_eq (v14 v16 v18 : FVec F S1x1024 .f32) (v91 : FVec F S128x1024 .f32) (v98 : FVec F S128x1024 .bf16)
    (v109 : FVec F S128x1024 .f32) (v116 : FVec F S128x1024 .bf16) (v117 : Vec F S1x1024x1024 .bf16)
    (v133 : Vec F S128x3072 .bf16) (v138 : Vec F S1x1024x2048 .bf16) (v155 : Vec F S1x1024x1024 .bf16) :
    k3_pay30 (k3_pay25 v18 v91 v98 v109 v116 v117) (k3_pay28 v14 v18 v91 v98 v109 v116 v117 v133 v138)
        (k3_pay29 v16 v18 v91 v98 v109 v116 v117 v133 v138 v155)
      = step v14 v16 v18 (k3_pay25 v18 v91 v98 v109 v116 v117) v133 v138 v155 := rfl

theorem hid4_eq (v14 v16 v18 : FVec F S1x1024 .f32) (v129 v147 v161 : FVec F S128x1024 .f32) (v171 : Vec F S128x3072 .bf16)
    (v176 : Vec F S1x1024x2048 .bf16) (v193 : Vec F S1x1024x1024 .bf16) :
    k3_pay32 v14 v16 v18 v129 v147 v161 v171 v176 v193 = step v14 v16 v18 (k3_pay30 v129 v147 v161) v171 v176 v193 := rfl

theorem hid5_eq (v14 v16 v18 : FVec F S1x1024 .f32) (v205 : FVec F S128x1024 .f32) (v209 : Vec F S128x3072 .bf16)
    (v214 : Vec F S1x1024x2048 .bf16) (v231 : Vec F S1x1024x1024 .bf16) :
    k3_pay34 v14 v16 v18 v205 v209 v214 v231 = step v14 v16 v18 v205 v209 v214 v231 := rfl

theorem hid6_eq (v14 v16 v18 : FVec F S1x1024 .f32) (v243 : FVec F S128x1024 .f32) (v247 : Vec F S128x3072 .bf16)
    (v252 : Vec F S1x1024x2048 .bf16) (v269 : Vec F S1x1024x1024 .bf16) :
    k3_pay36 v14 v16 v18 v243 v247 v252 v269 = step v14 v16 v18 v243 v247 v252 v269 := rfl

theorem hid7_eq (v14 v16 v18 : FVec F S1x1024 .f32) (v243 : FVec F S128x1024 .f32) (v247 : Vec F S128x3072 .bf16)
    (v252 : Vec F S1x1024x2048 .bf16) (v269 : Vec F S1x1024x1024 .bf16) (v285 : Vec F S128x3072 .bf16)
    (v290 : Vec F S1x1024x2048 .bf16) (v307 : Vec F S1x1024x1024 .bf16) :
    k3_pay1 v14 v16 v18 (k3_pay36 v14 v16 v18 v243 v247 v252 v269) (k3_pay38 v285) (k3_pay39 v285) (k3_pay40 v285)
        (k3_pay41 v14 v16 v18 v243 v247 v252 v269) v290 v307
      = step v14 v16 v18 (k3_pay36 v14 v16 v18 v243 v247 v252 v269) v285 v290 v307 := rfl

end Cert.KernelIdeal.Value3

end
-- ==== Proof.KI.Val3Cell.lean ====
/-
  A step of the layer on a tile of 128 batch rows, read row by row over the extended reals: row r of the new hidden
  state is the GRU cell of row r — its update gate, reset gate and candidate are the specification's, because each matrix
  product is the sum over the 1024 contracted features and every change of float format is the identity there.
-/
import proofs.«428164_j36979668418798_3_alg».proof.Proof.KI.Val3Mat
import proofs.«428164_j36979668418798_3_alg».proof.Proof.KI.Val3Step
import proofs.«428164_j36979668418798_3_alg».proof.Proof.LayerOf
import Idealize.ShloMosaic.Lib.ValueLayout
import Idealize.ShloMosaic.Lib.Pipeline.Value
import Idealize.ShloMosaic.Lib.IdealHost

noncomputable section

namespace Cert.KernelIdeal.Value3

open Idealize.ShloMosaic Idealize.ShloMosaic.ValueIdx Cert.KernelIdeal Cert.KernelIdeal.Gen Cert.Spec Cert.LayerOf
open scoped BigOperators

/-! ### The two hidden-side products of a step, entry by entry -/

/-- Entry (r, c) of the gates' hidden-side product: the sum over k of h[r, k] · W[0, k, c]. -/
theorem hg_apply (h : FVec Ideal S128x1024 .f32) (whzr : FVec Ideal S1x1024x2048 .bf16) (r : Fin 128) (c : Fin 2048) :
    matmul Dzr none (truncf .bf16 h bitsLt_bf16_f32) (shapeCast S1024x2048 whzr shapeCasts_S1x1024x2048_S1024x2048)
        (constant S128x2048 .f32 0x00000000#32) (ix2 r c)
      = ∑ k : Fin 1024, h (ix2 r k) * whzr (ix3 0 k c) := by
  rw [mmDzr_apply]
  refine Finset.sum_congr rfl fun k _ => ?_
  rw [truncf_apply, shapeCast_1ab_ab_apply]

/-- Entry (r, j) of the candidate's hidden-side product: the sum over k of u[r, k] · W[0, k, j]. -/
theorem hc_apply (u : FVec Ideal S128x1024 .f32) (whh : FVec Ideal S1x1024x1024 .bf16) (r : Fin 128) (j : Fin 1024) :
    matmul Dh none (truncf .bf16 u bitsLt_bf16_f32) (shapeCast S1024x1024 whh shapeCasts_S1x1024x1024_S1024x1024)
        (constant S128x1024 .f32 0x00000000#32) (ix2 r j)
      = ∑ k : Fin 1024, u (ix2 r k) * whh (ix3 0 k j) := by
  rw [mmDh_apply]
  refine Finset.sum_congr rfl fun k _ => ?_
  rw [truncf_apply, shapeCast_1ab_ab_apply]

/-! ### The three parts of a step: update gate, reset gate, candidate -/

/-- The gates' hidden-side product of a tile. -/
def hgate (h : FVec Ideal S128x1024 .f32) (whzr : FVec Ideal S1x1024x2048 .bf16) : FVec Ideal S128x2048 .f32 :=
  matmul Dzr none (truncf .bf16 h bitsLt_bf16_f32) (shapeCast S1024x2048 whzr shapeCasts_S1x1024x2048_S1024x2048)
    (constant S128x2048 .f32 0x00000000#32)

/-- The update gate of a tile. -/
def zGate (bz : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 0] xg slices_S128x3072_o0_0_S128x1024) bitsLt_bf16_f32)
      (extractStridedSlice S128x1024 ![0, 0] (hgate h whzr) slices_S128x2048_o0_0_S128x1024))
    (broadcastTo S128x1024 bz broadcasts_S1x1024_S128x1024))

/-- The reset gate of a tile. -/
def rGate (br : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 1024] xg slices_S128x3072_o0_1024_S128x1024) bitsLt_bf16_f32)
      (extractStridedSlice S128x1024 ![0, 1024] (hgate h whzr) slices_S128x2048_o0_1024_S128x1024))
    (broadcastTo S128x1024 br broadcasts_S1x1024_S128x1024))

/-- The candidate state of a tile, from its reset gate `R`. -/
def cCand (bh : FVec Ideal S1x1024 .f32) (h R : FVec Ideal S128x1024 .f32) (xg : FVec Ideal S128x3072 .bf16)
    (whh : FVec Ideal S1x1024x1024 .bf16) : FVec Ideal S128x1024 .f32 :=
  tanh (addf (addf (extf .f32 (extractStridedSlice S128x1024 ![0, 2048] xg slices_S128x3072_o0_2048_S128x1024) bitsLt_bf16_f32)
      (matmul Dh none (truncf .bf16 (mulf R h) bitsLt_bf16_f32) (shapeCast S1024x1024 whh shapeCasts_S1x1024x1024_S1024x1024)
        (constant S128x1024 .f32 0x00000000#32)))
    (broadcastTo S128x1024 bh broadcasts_S1x1024_S128x1024))

/-- The step is (1 − z) ⊙ h + z ⊙ c over those three. -/
theorem step_eq (bz br bh : FVec Ideal S1x1024 .f32) (h : FVec Ideal S128x1024 .f32) (xg : FVec Ideal S128x3072 .bf16)
    (whzr : FVec Ideal S1x1024x2048 .bf16) (whh : FVec Ideal S1x1024x1024 .bf16) :
    step bz br bh h xg whzr whh
      = addf (mulf (subf (broadcast S128x1024 (Scalar.ofBits (F := Ideal) .f32 0x3F800000#32)) (zGate bz h xg whzr)) h)
          (mulf (zGate bz h xg whzr) (cCand bh h (rGate br h xg whzr) xg whh)) := rfl

/-! ### A step on a tile is the cell on each of its rows -/

section Row
variable (W : LayerW) (x hrow : Row)
  (bz br bh : FVec Ideal S1x1024 .f32) (h : FVec Ideal S128x1024 .f32) (xg : FVec Ideal S128x3072 .bf16)
  (whzr : FVec Ideal S1x1024x2048 .bf16) (whh : FVec Ideal S1x1024x1024 .bf16) (r : Fin 128)

/-- Row `r` of the update gate is the row's update gate. -/
theorem zGate_apply
    (hxz : ∀ j : Fin 1024, xg (ix2 r (col3 0 j)) = ∑ k, x k * W.Wxz k j)
    (hwz : ∀ (k j : Fin 1024), whzr (ix3 0 k (col2 0 j)) = W.Whz k j)
    (hbz : ∀ j : Fin 1024, bz (ix2 0 j) = W.bz j)
    (hh : ∀ k : Fin 1024, h (ix2 r k) = hrow k) (j : Fin 1024) :
    zGate bz h xg whzr (ix2 r j) = gateZ W x hrow j := by
  unfold zGate hgate
  show Ideal.logistic ((_ + _) + _) = _
  rw [extf_apply, slice2_axis1_apply 0 xg slices_S128x3072_o0_0_S128x1024 r j (col3 0 j) (by simp [col3]),
    slice2_axis1_apply 0 _ slices_S128x2048_o0_0_S128x1024 r j (col2 0 j) (by simp [col2]),
    broadcastTo_1b_ab_apply, hg_apply, hxz, hbz]
  unfold gateZ
  simp only [hh, hwz]

/-- Row `r` of the reset gate is the row's reset gate. -/
theorem rGate_apply
    (hxr : ∀ j : Fin 1024, xg (ix2 r (col3 1 j)) = ∑ k, x k * W.Wxr k j)
    (hwr : ∀ (k j : Fin 1024), whzr (ix3 0 k (col2 1 j)) = W.Whr k j)
    (hbr : ∀ j : Fin 1024, br (ix2 0 j) = W.br j)
    (hh : ∀ k : Fin 1024, h (ix2 r k) = hrow k) (j : Fin 1024) :
    rGate br h xg whzr (ix2 r j) = gateR W x hrow j := by
  unfold rGate hgate
  show Ideal.logistic ((_ + _) + _) = _
  rw [extf_apply,
    slice2_axis1_apply 1024 xg slices_S128x3072_o0_1024_S128x1024 r j (col3 1 j) (by show 1 * 1024 + j.val = 1024 + j.val; omega),
    slice2_axis1_apply 1024 _ slices_S128x2048_o0_1024_S128x1024 r j (col2 1 j) (by show 1 * 1024 + j.val = 1024 + j.val; omega),
    broadcastTo_1b_ab_apply, hg_apply, hxr, hbr]
  unfold gateR
  simp only [hh, hwr]

/-- Row `r` of the candidate is the row's candidate, when row `r` of `R` is the row's reset gate. -/
theorem cCand_apply (R : FVec Ideal S128x1024 .f32)
    (hxh : ∀ j : Fin 1024, xg (ix2 r (col3 2 j)) = ∑ k, x k * W.Wxh k j)
    (hwh : ∀ (k j : Fin 1024), whh (ix3 0 k j) = W.Whh k j)
    (hbh : ∀ j : Fin 1024, bh (ix2 0 j) = W.bh j)
    (hR : ∀ k : Fin 1024, R (ix2 r k) = gateR W x hrow k)
    (hh : ∀ k : Fin 1024, h (ix2 r k) = hrow k) (j : Fin 1024) :
    cCand bh h R xg whh (ix2 r j) = cand W x hrow j := by
  unfold cCand
  show Ideal.tanh ((_ + _) + _) = _
  rw [extf_apply,
    slice2_axis1_apply 2048 xg slices_S128x3072_o0_2048_S128x1024 r j (col3 2 j) (by show 2 * 1024 + j.val = 2048 + j.val; omega),
    broadcastTo_1b_ab_apply, hc_apply, hxh, hbh]
  unfold cand
  simp only [mulf_apply, hR, hh, hwh]

/-- Row `r` of the new hidden state is the cell of row `r`: given that row `r` of the input-side products holds x·Wxz,
    x·Wxr, x·Wxh in its three bands, that the weight blocks and bias rows hold the layer's parameters, and that row `r` of
    the previous hidden state is `hrow`. -/
theorem step_apply
    (hxz : ∀ j : Fin 1024, xg (ix2 r (col3 0 j)) = ∑ k, x k * W.Wxz k j)
    (hxr : ∀ j : Fin 1024, xg (ix2 r (col3 1 j)) = ∑ k, x k * W.Wxr k j)
    (hxh : ∀ j : Fin 1024, xg (ix2 r (col3 2 j)) = ∑ k, x k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h (ix2 r k) = hrow k) (j : Fin 1024) :
    step bz br bh h xg whzr whh (ix2 r j) = cellRow W x hrow j := by
  rw [step_eq]
  show (Ideal.ofBits .f32 0x3F800000#32 - zGate bz h xg whzr (ix2 r j)) * h (ix2 r j)
      + zGate bz h xg whzr (ix2 r j) * cCand bh h (rGate br h xg whzr) xg whh (ix2 r j) = _
  rw [Ideal.ofBits_one_f32, zGate_apply W x hrow bz h xg whzr r hxz hwz hbz hh,
    cCand_apply W x hrow bh h xg whh r _ hxh hwh hbh (rGate_apply W x hrow br h xg whzr r hxr hwr hbr hh) hh, hh]
  rfl

end Row

end Cert.KernelIdeal.Value3

end
-- ==== Proof.KI.Val3Xg.lean ====
/-
  The input-side products of a tile, read entry by entry over the extended reals: the tile's rows of the eight time steps are
  stacked, 128 rows per step, and multiplied at once by the layer's three input-side matrices side by side.
-/
import proofs.«428164_j36979668418798_3_alg».proof.Proof.KI.Val3Mat
import Idealize.ShloMosaic.Lib.ValueLayout
import Idealize.ShloMosaic.Lib.Pipeline.Value

noncomputable section

namespace Cert.KernelIdeal.Value3

open Idealize.ShloMosaic Idealize.ShloMosaic.ValueIdx Cert.KernelIdeal Cert.KernelIdeal.Gen
open scoped BigOperators

/-! ### The input-side products of a tile -/

/-- Entry (t·128 + r, c) of the tile's input-side products is the sum over k of inp[t, r, k] · Wx[0, k, c]: the eight time
    steps' rows of the tile are stacked, 128 rows per step, and multiplied by the three input-side matrices side by side. -/
theorem xgAll_apply (v0 : FVec Ideal S8x128x1024 .f32) (v4 : FVec Ideal S1x1024x3072 .bf16) (t : Fin 8) (r : Fin 128)
    (c : Fin 3072) (q : Fin 1024) (hq : q.val = t.val * 128 + r.val) :
    (k3_pay3 (F := Ideal) v0 v4 (ix2 q c) : EReal) = ∑ k : Fin 1024, (v0 (ix3 t r k) : EReal) * (v4 (ix3 0 k c) : EReal) := by
  dsimp only [k3_pay3]
  rw [shapeCast_self, truncf_apply]
  show matmul Dx none _ _ _ (ix2 q c) = _
  rw [mmDx_apply]
  refine Finset.sum_congr rfl fun k _ => ?_
  rw [truncf_apply, shapeCast_1ab_ab_apply, shapeCast_self]
  congr 1
  exact shapeCast_apply v0 _ (ix2 q k) (ix3 t r k) (by
    rw [Shape.rowMajor_val_three, Shape.rowMajor_val_two]
    show (t.val * 128 + r.val) * 1024 + k.val = q.val * 1024 + k.val
    rw [hq])

end Cert.KernelIdeal.Value3

end
-- ==== Proof.KI.Val3Tile.lean ====
/-
  A tile of 128 batch rows along the eight time steps: its hidden state after step t is the step applied t + 1 times, and
  row r of it is the layer's hidden row of the batch row the tile's row r holds — by induction on t from the one-step lemma,
  with the tile's blocks cut out of the arrays where the grid point's index maps say.
-/
import proofs.«428164_j36979668418798_3_alg».proof.Proof.KI.Val3Cell
import proofs.«428164_j36979668418798_3_alg».proof.Proof.KI.Val3Xg

noncomputable section

namespace Cert.KernelIdeal.Value3

open Idealize.ShloMosaic Idealize.ShloMosaic.ValueIdx Cert.KernelIdeal Cert.KernelIdeal.Gen Cert.Spec Cert.LayerOf
open scoped BigOperators

/-! ### The hidden states of a tile along time -/

/-- The hidden state of a tile after time step `t`: the step applied `t + 1` times from the initial state, each time to
    that step's rows of the input-side products. -/
def hidT {F : FTy → Type} [FloatOps F] (bz br bh : FVec F S1x1024 .f32) (h0 : FVec F S128x1024 .f32)
    (xg : ℕ → FVec F S128x3072 .bf16) (whzr : FVec F S1x1024x2048 .bf16) (whh : FVec F S1x1024x1024 .bf16) :
    ℕ → FVec F S128x1024 .f32
  | 0 => step bz br bh h0 (xg 0) whzr whh
  | t + 1 => step bz br bh (hidT bz br bh h0 xg whzr whh t) (xg (t + 1)) whzr whh

/-- A time step below eight of an input sequence read off a `[time, batch, feature]` array. -/
theorem seqOf_of_lt (u : Sseq.Idx → EReal) (t : ℕ) (ht : t < 8) (b : Fin 512) (k : Fin 1024) :
    seqOf u t b k = u (ix3 ⟨t, ht⟩ b k) := by
  unfold seqOf
  exact congrArg u (congrArg (fun s => ix3 s b k) (Fin.ext (Nat.mod_eq_of_lt ht)))

section Tile
variable (W : LayerW) (Xs : ℕ → Fin 512 → Row) (H0 : Fin 512 → Row) (b : Fin 512)
  (bz br bh : FVec Ideal S1x1024 .f32) (h0 : FVec Ideal S128x1024 .f32) (xg : ℕ → FVec Ideal S128x3072 .bf16)
  (whzr : FVec Ideal S1x1024x2048 .bf16) (whh : FVec Ideal S1x1024x1024 .bf16) (r : Fin 128)

/-- Row `r` of a tile's hidden state after step `t` is the layer's hidden row of batch row `b` at time `t`: given that row `r`
    of each step's input-side products holds batch row `b`'s products at that time, that the weight blocks and bias rows hold
    the layer's parameters, and that row `r` of the initial state is batch row `b`'s. -/
theorem hidT_apply
    (hxz : ∀ t < 8, ∀ j : Fin 1024, xg t (ix2 r (col3 0 j)) = ∑ k, Xs t b k * W.Wxz k j)
    (hxr : ∀ t < 8, ∀ j : Fin 1024, xg t (ix2 r (col3 1 j)) = ∑ k, Xs t b k * W.Wxr k j)
    (hxh : ∀ t < 8, ∀ j : Fin 1024, xg t (ix2 r (col3 2 j)) = ∑ k, Xs t b k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h0 (ix2 r k) = H0 b k) :
    ∀ t, t < 8 → ∀ j : Fin 1024, hidT bz br bh h0 xg whzr whh t (ix2 r j) = layer W Xs H0 t b j := by
  intro t
  induction t with
  | zero =>
    intro ht j
    rw [layer_zero]
    exact step_apply W (Xs 0 b) (H0 b) bz br bh h0 (xg 0) whzr whh r (hxz 0 ht) (hxr 0 ht) (hxh 0 ht) hwz hwr hwh hbz hbr hbh hh j
  | succ t ih =>
    intro ht j
    rw [layer_succ]
    exact step_apply W (Xs (t + 1) b) (layer W Xs H0 t b) bz br bh (hidT bz br bh h0 xg whzr whh t) (xg (t + 1)) whzr whh r
      (hxz _ ht) (hxr _ ht) (hxh _ ht) hwz hwr hwh hbz hbr hbh (ih (by omega)) j

end Tile

/-! ### A tile's hidden states, from its blocks of the arrays -/

section Blocks
variable (wx : Swx.Idx → EReal) (wzr : Swzr.Idx → EReal) (wh : Swh.Idx → EReal) (bzA brA bhA : Sb3.Idx → EReal)
  (inp hprev : Sseq.Idx → EReal) (l : Fin 8)
  (x0 : FVec Ideal S8x128x1024 .f32) (x1 : FVec Ideal S1x128x1024 .f32) (x2 : FVec Ideal S1x1024x3072 .bf16)
  (x3 : FVec Ideal S1x1024x2048 .bf16) (x4 : FVec Ideal S1x1024x1024 .bf16) (x5 x6 x7 : FVec Ideal S1x1x1024 .f32)
  (xg : ℕ → FVec Ideal S128x3072 .bf16) (b : Fin 512) (r : Fin 128)

/-- With the tile's blocks cut out of the arrays — the input sequence's and the initial state's rows of batch row `b` at
    row `r`, layer `l`'s slabs of the parameter arrays — and each step's rows of the input-side products read from the
    stacked products, row `r` of the tile's hidden state after step `s` is entry (s, b, ·) of the layer's hidden sequence. -/
theorem tile_apply
    (e0 : ∀ (s : Fin 8) (k : Fin 1024), x0 (ix3 s r k) = inp (ix3 s b k))
    (e1 : ∀ k : Fin 1024, x1 (ix3 0 r k) = hprev (ix3 l b k))
    (e2 : ∀ (k : Fin 1024) (c : Fin 3072), x2 (ix3 0 k c) = wx (ix3 l k c))
    (e3 : ∀ (k : Fin 1024) (c : Fin 2048), x3 (ix3 0 k c) = wzr (ix3 l k c))
    (e4 : ∀ (k j : Fin 1024), x4 (ix3 0 k j) = wh (ix3 l k j))
    (e5 : ∀ j : Fin 1024, x5 (ix3 0 0 j) = bzA (ix3 l 0 j))
    (e6 : ∀ j : Fin 1024, x6 (ix3 0 0 j) = brA (ix3 l 0 j))
    (e7 : ∀ j : Fin 1024, x7 (ix3 0 0 j) = bhA (ix3 l 0 j))
    (exg : ∀ (s : Fin 8) (c : Fin 3072),
      xg s.val (ix2 r c) = k3_pay3 (F := Ideal) x0 x2 (ix2 ⟨s.val * 128 + r.val, by have := s.isLt; have := r.isLt; omega⟩ c))
    (s : Fin 8) (j : Fin 1024) :
    hidT (k3_pay5 x5) (k3_pay6 x6) (k3_pay7 x7) (k3_pay4 x1) xg x3 x4 s.val (ix2 r j)
      = seqOut (WofV wx wzr wh bzA brA bhA l) inp hprev l (ix3 s b j) := by
  show _ = layer (WofV wx wzr wh bzA brA bhA l) (seqOf inp) (initOf hprev l) s.val b j
  have hx : ∀ t (ht : t < 8) (c : Fin 3072), xg t (ix2 r c) = ∑ k : Fin 1024, seqOf inp t b k * wx (ix3 l k c) := by
    intro t ht c
    rw [exg ⟨t, ht⟩ c, xgAll_apply x0 x2 ⟨t, ht⟩ r c _ rfl]
    refine Finset.sum_congr rfl fun k _ => ?_
    rw [e0, e2, seqOf_of_lt inp t ht]
  refine hidT_apply (WofV wx wzr wh bzA brA bhA l) (seqOf inp) (initOf hprev l) b _ _ _ _ xg x3 x4 r
    (fun t ht j => hx t ht _) (fun t ht j => hx t ht _) (fun t ht j => hx t ht _)
    (fun k j => e3 k _) (fun k j => e3 k _) (fun k j => e4 k j) ?_ ?_ ?_ ?_ s.val s.isLt j
  · intro j; dsimp only [k3_pay5]; rw [shapeCast_1ab_ab_apply]; exact e5 j
  · intro j; dsimp only [k3_pay6]; rw [shapeCast_1ab_ab_apply]; exact e6 j
  · intro j; dsimp only [k3_pay7]; rw [shapeCast_1ab_ab_apply]; exact e7 j
  · intro k; dsimp only [k3_pay4]; rw [shapeCast_1ab_ab_apply]; exact e1 k

end Blocks

end Cert.KernelIdeal.Value3

end
-- ==== Proof.KI.Val3Run.lean ====
/-
  What the layer's body leaves in its two outputs' staging memrefs, as lists of pieces over the blocks it loads: the hidden
  sequence's memref ends with eight slices of extent 1 along time, slice t the tile's hidden state after step t; the final
  state's memref with the hidden state after the last step. Each step reads its own 128 rows of the stacked input-side
  products, which the body stored whole before the first step.
-/
import proofs.«428164_j36979668418798_3_alg».proof.Proof.KI.Body3
import proofs.«428164_j36979668418798_3_alg».proof.Proof.KI.Val3Tile

set_option maxRecDepth 65536

noncomputable section

namespace Cert.KernelIdeal.Value3

open Idealize.ShloMosaic Idealize.ShloMosaic.TcCoe Idealize.ShloMosaic.Tactic Idealize.ShloMosaic.ValueIdx Idealize.SL.Sem
open Cert.KernelIdeal Cert.KernelIdeal.Gen

/-- The rows of the stacked input-side products that time step `t` of the body reads: rows t·128 … t·128 + 127. -/
def xgL (x0 : FVec Ideal S8x128x1024 .f32) (x2 : FVec Ideal S1x1024x3072 .bf16) : ℕ → FVec Ideal S128x3072 .bf16
  | 1 => fun j => k3_pay3 (F := Ideal) x0 x2 ((Rect.unit (s := S1024x3072) ![128, 0] S128x3072.size inb_S1024x3072_S128x3072_128_0).toLoadRect.idx j)
  | 2 => fun j => k3_pay3 (F := Ideal) x0 x2 ((Rect.unit (s := S1024x3072) ![256, 0] S128x3072.size inb_S1024x3072_S128x3072_256_0).toLoadRect.idx j)
  | 3 => fun j => k3_pay3 (F := Ideal) x0 x2 ((Rect.unit (s := S1024x3072) ![384, 0] S128x3072.size inb_S1024x3072_S128x3072_384_0).toLoadRect.idx j)
  | 4 => fun j => k3_pay3 (F := Ideal) x0 x2 ((Rect.unit (s := S1024x3072) ![512, 0] S128x3072.size inb_S1024x3072_S128x3072_512_0).toLoadRect.idx j)
  | 5 => fun j => k3_pay3 (F := Ideal) x0 x2 ((Rect.unit (s := S1024x3072) ![640, 0] S128x3072.size inb_S1024x3072_S128x3072_640_0).toLoadRect.idx j)
  | 6 => fun j => k3_pay3 (F := Ideal) x0 x2 ((Rect.unit (s := S1024x3072) ![768, 0] S128x3072.size inb_S1024x3072_S128x3072_768_0).toLoadRect.idx j)
  | 7 => fun j => k3_pay3 (F := Ideal) x0 x2 ((Rect.unit (s := S1024x3072) ![896, 0] S128x3072.size inb_S1024x3072_S128x3072_896_0).toLoadRect.idx j)
  | _ => fun j => k3_pay3 (F := Ideal) x0 x2 ((Rect.unit (s := S1024x3072) ![0, 0] S128x3072.size inb_S1024x3072_S128x3072_0_0).toLoadRect.idx j)

theorem hz3 : (![0, 0, 0] : Fin 3 → Nat) = fun _ => 0 := funext fun a => by fin_cases a <;> rfl
theorem hz2 : (![0, 0] : Fin 2 → Nat) = fun _ => 0 := funext fun a => by fin_cases a <;> rfl

/-- Row r, column c of the 128 rows loaded from row o of the stacked products is row o + r, column c. -/
theorem rows_idx (o : ℕ) (inb : ∀ a, (![o, 0] : Fin 2 → ℕ) a + S128x3072.size a ≤ S1024x3072.size a) (r : Fin 128)
    (c : Fin 3072) (q : Fin 1024) (hq : q.val = o + r.val) :
    (Rect.unit (s := S1024x3072) ![o, 0] S128x3072.size inb).toLoadRect.idx (ix2 r c) = ix2 q c := by
  funext a
  apply Fin.ext
  match a with
  | ⟨0, _⟩ =>
    simp only [LoadRect.idx_apply, Rect.emb_apply, Rect.off_unit, Rect.stride_unit, Nat.one_mul]
    show o + r.val = q.val
    omega
  | ⟨1, _⟩ =>
    simp only [LoadRect.idx_apply, Rect.emb_apply, Rect.off_unit, Rect.stride_unit, Nat.one_mul]
    show 0 + c.val = c.val
    omega

/-- Step s's rows of the input-side products are rows s·128 … s·128 + 127 of the stacked products. -/
theorem xgL_apply (x0 : FVec Ideal S8x128x1024 .f32) (x2 : FVec Ideal S1x1024x3072 .bf16) (s : Fin 8) (r : Fin 128) (c : Fin 3072) :
    xgL x0 x2 s.val (ix2 r c)
      = k3_pay3 (F := Ideal) x0 x2 (ix2 ⟨s.val * 128 + r.val, by have := s.isLt; have := r.isLt; omega⟩ c) := by
  match s with
  | ⟨0, _⟩ => exact congrArg (k3_pay3 (F := Ideal) x0 x2) (rows_idx 0 _ r c _ (by simp))
  | ⟨1, _⟩ => exact congrArg (k3_pay3 (F := Ideal) x0 x2) (rows_idx 128 _ r c _ (by simp))
  | ⟨2, _⟩ => exact congrArg (k3_pay3 (F := Ideal) x0 x2) (rows_idx 256 _ r c _ (by simp))
  | ⟨3, _⟩ => exact congrArg (k3_pay3 (F := Ideal) x0 x2) (rows_idx 384 _ r c _ (by simp))
  | ⟨4, _⟩ => exact congrArg (k3_pay3 (F := Ideal) x0 x2) (rows_idx 512 _ r c _ (by simp))
  | ⟨5, _⟩ => exact congrArg (k3_pay3 (F := Ideal) x0 x2) (rows_idx 640 _ r c _ (by simp))
  | ⟨6, _⟩ => exact congrArg (k3_pay3 (F := Ideal) x0 x2) (rows_idx 768 _ r c _ (by simp))
  | ⟨7, _⟩ => exact congrArg (k3_pay3 (F := Ideal) x0 x2) (rows_idx 896 _ r c _ (by simp))

/-- The hidden states of the tile over the blocks the body loads. -/
abbrev hidB (x0 : FVec Ideal S8x128x1024 .f32) (x1 : FVec Ideal S1x128x1024 .f32) (x2 : FVec Ideal S1x1024x3072 .bf16)
    (x3 : FVec Ideal S1x1024x2048 .bf16) (x4 : FVec Ideal S1x1024x1024 .bf16) (x5 x6 x7 : FVec Ideal S1x1x1024 .f32) (t : ℕ) :
    FVec Ideal S128x1024 .f32 :=
  hidT (k3_pay5 x5) (k3_pay6 x6) (k3_pay7 x7) (k3_pay4 x1) (xgL x0 x2) x3 x4 t

/-! ### The eight stores' payloads are the hidden states with a leading unit axis -/
section Stores
variable {F : FTy → Type} [FloatOps F]

theorem st0_eq (v12 : FVec F S128x1024 .f32) (v14 v16 v18 : FVec F S1x1024 .f32) (v21 v22 : FVec F S128x1024 .bf16)
    (v28 v30 : FVec F S128x1024 .f32) (v41 : Vec F S1x1024x1024 .bf16) :
    k3_pay14 v12 v14 v16 v18 v21 v22 v28 v30 v41
      = shapeCast S1x128x1024 (k3_pay13 v12 v14 v16 v18 v21 v22 v28 v30 v41) shapeCasts_S128x1024_S1x128x1024 := rfl
theorem st1_eq (v18 : FVec F S1x1024 .f32) (v53 : FVec F S128x1024 .f32) (v60 : FVec F S128x1024 .bf16)
    (v71 v75 : FVec F S128x1024 .f32) (v79 : Vec F S1x1024x1024 .bf16) :
    k3_pay20 v18 v53 v60 v71 v75 v79 = shapeCast S1x128x1024 (k3_pay19 v18 v53 v60 v71 v75 v79) shapeCasts_S128x1024_S1x128x1024 := rfl
theorem st2_eq (v18 : FVec F S1x1024 .f32) (v91 : FVec F S128x1024 .f32) (v98 : FVec F S128x1024 .bf16)
    (v109 : FVec F S128x1024 .f32) (v116 : FVec F S128x1024 .bf16) (v117 : Vec F S1x1024x1024 .bf16) :
    k3_pay26 v18 v91 v98 v109 v116 v117 = shapeCast S1x128x1024 (k3_pay25 v18 v91 v98 v109 v116 v117) shapeCasts_S128x1024_S1x128x1024 := rfl
theorem st3_eq (v129 v147 v161 : FVec F S128x1024 .f32) :
    k3_pay31 v129 v147 v161 = shapeCast S1x128x1024 (k3_pay30 v129 v147 v161) shapeCasts_S128x1024_S1x128x1024 := rfl
theorem st4_eq (v205 : FVec F S128x1024 .f32) :
    k3_pay33 v205 = shapeCast S1x128x1024 v205 shapeCasts_S128x1024_S1x128x1024 := rfl
theorem st5_eq (v14 v16 v18 : FVec F S1x1024 .f32) (v205 : FVec F S128x1024 .f32) (v209 : Vec F S128x3072 .bf16)
    (v214 : Vec F S1x1024x2048 .bf16) (v231 : Vec F S1x1024x1024 .bf16) :
    k3_pay35 v14 v16 v18 v205 v209 v214 v231
      = shapeCast S1x128x1024 (k3_pay34 v14 v16 v18 v205 v209 v214 v231) shapeCasts_S128x1024_S1x128x1024 := rfl
theorem st6_eq (v14 v16 v18 : FVec F S1x1024 .f32) (v243 : FVec F S128x1024 .f32) (v247 : Vec F S128x3072 .bf16)
    (v252 : Vec F S1x1024x2048 .bf16) (v269 : Vec F S1x1024x1024 .bf16) :
    k3_pay37 v14 v16 v18 v243 v247 v252 v269
      = shapeCast S1x128x1024 (k3_pay36 v14 v16 v18 v243 v247 v252 v269) shapeCasts_S128x1024_S1x128x1024 := rfl
theorem st7_eq (v14 v16 v18 : FVec F S1x1024 .f32) (v281 : FVec F S128x1024 .f32) (v286 v287 v288 v289 : FVec F S128x1024 .bf16)
    (v290 : Vec F S1x1024x2048 .bf16) (v307 : Vec F S1x1024x1024 .bf16) :
    k3_pay2 v14 v16 v18 v281 v286 v287 v288 v289 v290 v307
      = shapeCast S1x128x1024 (k3_pay1 v14 v16 v18 v281 v286 v287 v288 v289 v290 v307) shapeCasts_S128x1024_S1x128x1024 := rfl

end Stores

/-! ### The pieces the run leaves -/

set_option maxHeartbeats 1000000 in
/-- The hidden sequence's staging memref ends with eight pieces, last stored first: slice t along time holds the hidden
    state after step t. -/
theorem run8_eq (c : Dev nD) (i : grid3.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun3_A c i arg1 harg1 arg2 harg2 arg3 harg3 arg4 harg4 arg5 harg5 arg6 harg6 arg7 harg7 arg8 harg8 arg9 harg9 arg10 harg10 arg11 harg11 x0 x1 x2 x3 x4 x5 x6 x7).1 =
      [⟨Rect.unit ![7, 0, 0] S1x128x1024.size inb_S8x128x1024_S1x128x1024_7_0_0, shapeCast S1x128x1024 (hidB x0 x1 x2 x3 x4 x5 x6 x7 7) shapeCasts_S128x1024_S1x128x1024⟩,
       ⟨Rect.unit ![6, 0, 0] S1x128x1024.size inb_S8x128x1024_S1x128x1024_6_0_0, shapeCast S1x128x1024 (hidB x0 x1 x2 x3 x4 x5 x6 x7 6) shapeCasts_S128x1024_S1x128x1024⟩,
       ⟨Rect.unit ![5, 0, 0] S1x128x1024.size inb_S8x128x1024_S1x128x1024_5_0_0, shapeCast S1x128x1024 (hidB x0 x1 x2 x3 x4 x5 x6 x7 5) shapeCasts_S128x1024_S1x128x1024⟩,
       ⟨Rect.unit ![4, 0, 0] S1x128x1024.size inb_S8x128x1024_S1x128x1024_4_0_0, shapeCast S1x128x1024 (hidB x0 x1 x2 x3 x4 x5 x6 x7 4) shapeCasts_S128x1024_S1x128x1024⟩,
       ⟨Rect.unit ![3, 0, 0] S1x128x1024.size inb_S8x128x1024_S1x128x1024_3_0_0, shapeCast S1x128x1024 (hidB x0 x1 x2 x3 x4 x5 x6 x7 3) shapeCasts_S128x1024_S1x128x1024⟩,
       ⟨Rect.unit ![2, 0, 0] S1x128x1024.size inb_S8x128x1024_S1x128x1024_2_0_0, shapeCast S1x128x1024 (hidB x0 x1 x2 x3 x4 x5 x6 x7 2) shapeCasts_S128x1024_S1x128x1024⟩,
       ⟨Rect.unit ![1, 0, 0] S1x128x1024.size inb_S8x128x1024_S1x128x1024_1_0_0, shapeCast S1x128x1024 (hidB x0 x1 x2 x3 x4 x5 x6 x7 1) shapeCasts_S128x1024_S1x128x1024⟩,
       ⟨Rect.unit ![0, 0, 0] S1x128x1024.size inb_S8x128x1024_S1x128x1024_0_0_0, shapeCast S1x128x1024 (hidB x0 x1 x2 x3 x4 x5 x6 x7 0) shapeCasts_S128x1024_S1x128x1024⟩] := by
  unfold kernelRun3_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [st0_eq, st1_eq, st2_eq, st3_eq, st4_eq, st5_eq, st6_eq, st7_eq]
  simp only [hid7_eq]
  simp only [hid6_eq]
  simp only [hid5_eq]
  simp only [hid4_eq]
  simp only [hid3_eq]
  simp only [hid2_eq]
  simp only [hid1_eq]
  simp only [hid0_eq]
  rfl

set_option maxHeartbeats 1000000 in
/-- The final state's staging memref ends with one piece: the hidden state after the last step. -/
theorem run9_eq (c : Dev nD) (i : grid3.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun3_A c i arg1 harg1 arg2 harg2 arg3 harg3 arg4 harg4 arg5 harg5 arg6 harg6 arg7 harg7 arg8 harg8 arg9 harg9 arg10 harg10 arg11 harg11 x0 x1 x2 x3 x4 x5 x6 x7).2.1 =
      [⟨Rect.unit ![0, 0] S128x1024.size inb_S128x1024_S128x1024_0_0, hidB x0 x1 x2 x3 x4 x5 x6 x7 7⟩] := by
  unfold kernelRun3_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [hid7_eq]
  simp only [hid6_eq]
  simp only [hid5_eq]
  simp only [hid4_eq]
  simp only [hid3_eq]
  simp only [hid2_eq]
  simp only [hid1_eq]
  simp only [hid0_eq]
  rfl

end Cert.KernelIdeal.Value3

end
-- ==== Proof.KI.Val3Idx.lean ====
/-
  Where each window's block sits at a grid point of the layer's pipeline: the batch-tiled windows (the input sequence, the
  initial state, the two outputs) at block t of the batch axis, the parameter windows at the layer's slab.
-/
import proofs.«428164_j36979668418798_3_alg».proof.Proof.Gen.KernelIdeal.Launch
import Idealize.ShloMosaic.Lib.Decide

set_option Elab.async false

namespace Cert.KernelIdeal.Value3

open Idealize.ShloMosaic Idealize.SL.Sem Cert.KernelIdeal Cert.KernelIdeal.Gen

/-- The layer this region runs: the slab of the stacked parameter and initial-state arrays its windows read. -/
abbrev layerIx : Fin 8 := 3
/-- The array this region reads its input sequence from. -/
abbrev inpRef : Ref sig .tc := main_v17_0

/-! ### Where each window's block sits at a grid point: the index maps, decided over the four points -/

theorem idx3_0 : ∀ t : Fin cfg3.N, win3_0.index t 0 = 0 ∧ win3_0.index t 1 = t.val ∧ win3_0.index t 2 = 0 :=
  (by decide +kernel : ∀ t : Fin grid3.N, _)
theorem idx3_1 : ∀ t : Fin cfg3.N, win3_1.index t 0 = layerIx.val ∧ win3_1.index t 1 = t.val ∧ win3_1.index t 2 = 0 :=
  (by decide +kernel : ∀ t : Fin grid3.N, _)
theorem idx3_2 : ∀ t : Fin cfg3.N, win3_2.index t 0 = layerIx.val ∧ win3_2.index t 1 = 0 ∧ win3_2.index t 2 = 0 :=
  (by decide +kernel : ∀ t : Fin grid3.N, _)
theorem idx3_3 : ∀ t : Fin cfg3.N, win3_3.index t 0 = layerIx.val ∧ win3_3.index t 1 = 0 ∧ win3_3.index t 2 = 0 :=
  (by decide +kernel : ∀ t : Fin grid3.N, _)
theorem idx3_4 : ∀ t : Fin cfg3.N, win3_4.index t 0 = layerIx.val ∧ win3_4.index t 1 = 0 ∧ win3_4.index t 2 = 0 :=
  (by decide +kernel : ∀ t : Fin grid3.N, _)
theorem idx3_5 : ∀ t : Fin cfg3.N, win3_5.index t 0 = layerIx.val ∧ win3_5.index t 1 = 0 ∧ win3_5.index t 2 = 0 :=
  (by decide +kernel : ∀ t : Fin grid3.N, _)
theorem idx3_6 : ∀ t : Fin cfg3.N, win3_6.index t 0 = layerIx.val ∧ win3_6.index t 1 = 0 ∧ win3_6.index t 2 = 0 :=
  (by decide +kernel : ∀ t : Fin grid3.N, _)
theorem idx3_7 : ∀ t : Fin cfg3.N, win3_7.index t 0 = layerIx.val ∧ win3_7.index t 1 = 0 ∧ win3_7.index t 2 = 0 :=
  (by decide +kernel : ∀ t : Fin grid3.N, _)
theorem idx3_8 : ∀ t : Fin cfg3.N, win3_8.index t 0 = 0 ∧ win3_8.index t 1 = t.val ∧ win3_8.index t 2 = 0 :=
  (by decide +kernel : ∀ t : Fin grid3.N, _)
theorem idx3_9 : ∀ t : Fin cfg3.N, win3_9.index t 0 = t.val ∧ win3_9.index t 1 = 0 :=
  (by decide +kernel : ∀ t : Fin grid3.N, _)

end Cert.KernelIdeal.Value3
-- ==== Proof.KI.Val3Blk.lean ====
/-
  The blocks the layer's pipeline hands its body at a grid point, read off the arrays as the region finds them: batch rows
  t·128 … t·128 + 127 of the input sequence and of the layer's initial state, and the layer's slabs of the parameter arrays.
-/
import proofs.«428164_j36979668418798_3_alg».proof.Proof.KI.Reg3
import proofs.«428164_j36979668418798_3_alg».proof.Proof.KI.Val3Idx
import Idealize.ShloMosaic.Lib.Pipeline.Value
import Idealize.ShloMosaic.Lib.ValueIdx

noncomputable section

namespace Cert.KernelIdeal.Value3

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ### The windows' blocks at a grid point, read off the arrays -/

section Blocks
variable (c : Dev nD) (t : Fin cfg3.N)

/-- Window 0's block: batch rows t·128 … t·128 + 127 of the input sequence, all eight steps. -/
theorem iblk3_0_apply (s : Fin 8) (r : Fin 128) (k : Fin 1024) (b : Fin 512) (hb : b.val = t.val * 128 + r.val) :
    (iblk3 V c 0 t : Vec Ideal S8x128x1024 .f32) (ix3 s r k) = (V c inpRef : S8x512x1024.Idx → EReal) (ix3 s b k) := by
  unfold iblk3
  rw [View.read_apply]
  show V c inpRef _ = V c inpRef _
  congr 1
  funext a
  apply Fin.ext
  match a with
  | ⟨0, _⟩ => show win3_0.index t 0 * 8 + 1 * s.val = s.val; rw [(idx3_0 t).1]; omega
  | ⟨1, _⟩ => show win3_0.index t 1 * 128 + 1 * r.val = b.val; rw [(idx3_0 t).2.1, hb]; omega
  | ⟨2, _⟩ => show win3_0.index t 2 * 1024 + 1 * k.val = k.val; rw [(idx3_0 t).2.2]; omega

/-- Window 1's block: the same batch rows of the layer's initial state. -/
theorem iblk3_1_apply (r : Fin 128) (k : Fin 1024) (b : Fin 512) (hb : b.val = t.val * 128 + r.val) :
    (iblk3 V c 1 t : Vec Ideal S1x128x1024 .f32) (ix3 0 r k) = (V c main_arg1 : S8x512x1024.Idx → EReal) (ix3 layerIx b k) := by
  unfold iblk3
  rw [View.read_apply]
  show V c main_arg1 _ = V c main_arg1 _
  congr 1
  funext a
  apply Fin.ext
  match a with
  | ⟨0, _⟩ => show win3_1.index t 0 * 1 + 1 * (0 : Fin 1).val = layerIx.val; rw [(idx3_1 t).1]; simp
  | ⟨1, _⟩ => show win3_1.index t 1 * 128 + 1 * r.val = b.val; rw [(idx3_1 t).2.1, hb]; omega
  | ⟨2, _⟩ => show win3_1.index t 2 * 1024 + 1 * k.val = k.val; rw [(idx3_1 t).2.2]; omega

/-- Window 2's block: the layer's slab of the input-side matrices. -/
theorem iblk3_2_apply (k : Fin 1024) (j : Fin 3072) :
    (iblk3 V c 2 t : Vec Ideal S1x1024x3072 .bf16) (ix3 0 k j) = (V c main_v5 : S8x1024x3072.Idx → EReal) (ix3 layerIx k j) := by
  unfold iblk3
  rw [View.read_apply]
  show V c main_v5 _ = V c main_v5 _
  congr 1
  funext a
  apply Fin.ext
  match a with
  | ⟨0, _⟩ => show win3_2.index t 0 * 1 + 1 * (0 : Fin 1).val = layerIx.val; rw [(idx3_2 t).1]; simp
  | ⟨1, _⟩ => show win3_2.index t 1 * 1024 + 1 * k.val = k.val; rw [(idx3_2 t).2.1]; omega
  | ⟨2, _⟩ => show win3_2.index t 2 * 3072 + 1 * j.val = j.val; rw [(idx3_2 t).2.2]; omega

/-- Window 3's block: the layer's slab of the gates' hidden-side matrices. -/
theorem iblk3_3_apply (k : Fin 1024) (j : Fin 2048) :
    (iblk3 V c 3 t : Vec Ideal S1x1024x2048 .bf16) (ix3 0 k j) = (V c main_v8 : S8x1024x2048.Idx → EReal) (ix3 layerIx k j) := by
  unfold iblk3
  rw [View.read_apply]
  show V c main_v8 _ = V c main_v8 _
  congr 1
  funext a
  apply Fin.ext
  match a with
  | ⟨0, _⟩ => show win3_3.index t 0 * 1 + 1 * (0 : Fin 1).val = layerIx.val; rw [(idx3_3 t).1]; simp
  | ⟨1, _⟩ => show win3_3.index t 1 * 1024 + 1 * k.val = k.val; rw [(idx3_3 t).2.1]; omega
  | ⟨2, _⟩ => show win3_3.index t 2 * 2048 + 1 * j.val = j.val; rw [(idx3_3 t).2.2]; omega

/-- Window 4's block: the layer's slab of the candidate's hidden-side matrix. -/
theorem iblk3_4_apply (k j : Fin 1024) :
    (iblk3 V c 4 t : Vec Ideal S1x1024x1024 .bf16) (ix3 0 k j) = (V c main_v9 : S8x1024x1024.Idx → EReal) (ix3 layerIx k j) := by
  unfold iblk3
  rw [View.read_apply]
  show V c main_v9 _ = V c main_v9 _
  congr 1
  funext a
  apply Fin.ext
  match a with
  | ⟨0, _⟩ => show win3_4.index t 0 * 1 + 1 * (0 : Fin 1).val = layerIx.val; rw [(idx3_4 t).1]; simp
  | ⟨1, _⟩ => show win3_4.index t 1 * 1024 + 1 * k.val = k.val; rw [(idx3_4 t).2.1]; omega
  | ⟨2, _⟩ => show win3_4.index t 2 * 1024 + 1 * j.val = j.val; rw [(idx3_4 t).2.2]; omega

/-- Window 5's block: the layer's update-gate bias row. -/
theorem iblk3_5_apply (j : Fin 1024) :
    (iblk3 V c 5 t : Vec Ideal S1x1x1024 .f32) (ix3 0 0 j) = (V c main_v11 : S8x1x1024.Idx → EReal) (ix3 layerIx 0 j) := by
  unfold iblk3
  rw [View.read_apply]
  show V c main_v11 _ = V c main_v11 _
  congr 1
  funext a
  apply Fin.ext
  match a with
  | ⟨0, _⟩ => show win3_5.index t 0 * 1 + 1 * (0 : Fin 1).val = layerIx.val; rw [(idx3_5 t).1]; simp
  | ⟨1, _⟩ => show win3_5.index t 1 * 1 + 1 * (0 : Fin 1).val = (0 : Fin 1).val; rw [(idx3_5 t).2.1]; simp
  | ⟨2, _⟩ => show win3_5.index t 2 * 1024 + 1 * j.val = j.val; rw [(idx3_5 t).2.2]; omega

/-- Window 6's block: the layer's reset-gate bias row. -/
theorem iblk3_6_apply (j : Fin 1024) :
    (iblk3 V c 6 t : Vec Ideal S1x1x1024 .f32) (ix3 0 0 j) = (V c main_v12 : S8x1x1024.Idx → EReal) (ix3 layerIx 0 j) := by
  unfold iblk3
  rw [View.read_apply]
  show V c main_v12 _ = V c main_v12 _
  congr 1
  funext a
  apply Fin.ext
  match a with
  | ⟨0, _⟩ => show win3_6.index t 0 * 1 + 1 * (0 : Fin 1).val = layerIx.val; rw [(idx3_6 t).1]; simp
  | ⟨1, _⟩ => show win3_6.index t 1 * 1 + 1 * (0 : Fin 1).val = (0 : Fin 1).val; rw [(idx3_6 t).2.1]; simp
  | ⟨2, _⟩ => show win3_6.index t 2 * 1024 + 1 * j.val = j.val; rw [(idx3_6 t).2.2]; omega

/-- Window 7's block: the layer's candidate bias row. -/
theorem iblk3_7_apply (j : Fin 1024) :
    (iblk3 V c 7 t : Vec Ideal S1x1x1024 .f32) (ix3 0 0 j) = (V c main_v13 : S8x1x1024.Idx → EReal) (ix3 layerIx 0 j) := by
  unfold iblk3
  rw [View.read_apply]
  show V c main_v13 _ = V c main_v13 _
  congr 1
  funext a
  apply Fin.ext
  match a with
  | ⟨0, _⟩ => show win3_7.index t 0 * 1 + 1 * (0 : Fin 1).val = layerIx.val; rw [(idx3_7 t).1]; simp
  | ⟨1, _⟩ => show win3_7.index t 1 * 1 + 1 * (0 : Fin 1).val = (0 : Fin 1).val; rw [(idx3_7 t).2.1]; simp
  | ⟨2, _⟩ => show win3_7.index t 2 * 1024 + 1 * j.val = j.val; rw [(idx3_7 t).2.2]; omega

end Blocks

end Cert.KernelIdeal.Value3

end
-- ==== Proof.KI.Val3Final.lean ====
/-
  The two arrays a GRU layer's pipeline leaves: the hidden sequence [time, batch, feature] and the last hidden state
  [batch, feature] of the layer run on the region's input sequence from the layer's initial state. At grid point t the body
  writes the tile of batch rows t·128 … t·128 + 127: slice s along time of its first output is the tile's hidden state after
  step s, its second output the state after the last step; the four tiles cover the batch axis.
-/
import proofs.«428164_j36979668418798_3_alg».proof.Proof.KI.Reg3
import proofs.«428164_j36979668418798_3_alg».proof.Proof.KI.Val3Run
import proofs.«428164_j36979668418798_3_alg».proof.Proof.KI.Val3Blk

set_option maxRecDepth 65536

noncomputable section

namespace Cert.KernelIdeal.Value3

open Idealize.ShloMosaic Idealize.ShloMosaic.TcCoe Idealize.ShloMosaic.ValueIdx Idealize.SL.Sem
open Cert.KernelIdeal Cert.KernelIdeal.Gen Cert.LayerOf
open Idealize.ShloMosaic.Pipeline (Dat)

/-! ### The staging memrefs after the body, entry by entry -/

/-- A slice of extent 1 at time `t` holding `H t` with a leading unit axis is, at each of its entries, `H` at the entry's time
    on the entry's row and column. -/
theorem slice_piece (t : ℕ) (inb : ∀ a, (![t, 0, 0] : Fin 3 → ℕ) a + S1x128x1024.size a ≤ S8x128x1024.size a)
    (H : ℕ → FVec Ideal S128x1024 .f32) (x : S1x128x1024.Idx) :
    shapeCast S1x128x1024 (H t) shapeCasts_S128x1024_S1x128x1024 x
      = (fun y : S8x128x1024.Idx => H (y 0).val (ix2 (y 1) (y 2) : S128x1024.Idx))
          ((Rect.unit (s := S8x128x1024) ![t, 0, 0] S1x128x1024.size inb).emb x) := by
  obtain ⟨u, a, b, rfl⟩ : ∃ (u : Fin 1) (a : Fin 128) (b : Fin 1024), x = ix3 u a b := ⟨x 0, x 1, x 2, eq_ix3 x⟩
  have hu : u.val = 0 := by omega
  rw [shapeCast_ab_1ab_apply]
  have h0 : (((Rect.unit (s := S8x128x1024) ![t, 0, 0] S1x128x1024.size inb).emb (ix3 u a b)) 0).val = t := by
    rw [Rect.emb_apply]; simp [hu]
  have h1 : ((Rect.unit (s := S8x128x1024) ![t, 0, 0] S1x128x1024.size inb).emb (ix3 u a b)) 1 = a :=
    Fin.ext (by rw [Rect.emb_apply]; simp)
  have h2 : ((Rect.unit (s := S8x128x1024) ![t, 0, 0] S1x128x1024.size inb).emb (ix3 u a b)) 2 = b :=
    Fin.ext (by rw [Rect.emb_apply]; simp)
  show H t (ix2 a b) = H _ (ix2 _ _)
  rw [h0, h1, h2]

section Out
variable (c : Dev nD) (i : grid3.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32)

/-- The hidden sequence's staging memref after the body: entry (s, r, k) is entry (r, k) of the tile's hidden state after
    step s. -/
theorem out8_apply (s : Fin 8) (r : Fin 128) (k : Fin 1024) :
    out3_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k) = hidB x0 x1 x2 x3 x4 x5 x6 x7 s.val (ix2 r k) := by
  unfold out3_A_8
  rw [View.read_writes_eq_canon _ _ _ (cover3_A_8 c i arg1 harg1 arg2 harg2 arg3 harg3 arg4 harg4 arg5 harg5 arg6 harg6 arg7 harg7 arg8 harg8 arg9 harg9 arg10 harg10 arg11 harg11 x0 x1 x2 x3 x4 x5 x6 x7)]
  have hc := cover3_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k)
  rw [run8_eq] at hc ⊢
  refine (View.canon_apply_of_pieces (fun y : S8x128x1024.Idx => hidB x0 x1 x2 x3 x4 x5 x6 x7 (y 0).val (ix2 (y 1) (y 2) : S128x1024.Idx))
    _ ?_ (ix3 s r k) hc).trans rfl
  intro p hp x
  simp only [List.mem_cons, List.not_mem_nil, or_false] at hp
  rcases hp with rfl | rfl | rfl | rfl | rfl | rfl | rfl | rfl
  · exact slice_piece 7 inb_S8x128x1024_S1x128x1024_7_0_0 (hidB x0 x1 x2 x3 x4 x5 x6 x7) x
  · exact slice_piece 6 inb_S8x128x1024_S1x128x1024_6_0_0 (hidB x0 x1 x2 x3 x4 x5 x6 x7) x
  · exact slice_piece 5 inb_S8x128x1024_S1x128x1024_5_0_0 (hidB x0 x1 x2 x3 x4 x5 x6 x7) x
  · exact slice_piece 4 inb_S8x128x1024_S1x128x1024_4_0_0 (hidB x0 x1 x2 x3 x4 x5 x6 x7) x
  · exact slice_piece 3 inb_S8x128x1024_S1x128x1024_3_0_0 (hidB x0 x1 x2 x3 x4 x5 x6 x7) x
  · exact slice_piece 2 inb_S8x128x1024_S1x128x1024_2_0_0 (hidB x0 x1 x2 x3 x4 x5 x6 x7) x
  · exact slice_piece 1 inb_S8x128x1024_S1x128x1024_1_0_0 (hidB x0 x1 x2 x3 x4 x5 x6 x7) x
  · exact slice_piece 0 inb_S8x128x1024_S1x128x1024_0_0_0 (hidB x0 x1 x2 x3 x4 x5 x6 x7) x

/-- The final state's staging memref after the body is the tile's hidden state after the last step. -/
theorem out9_eq : out3_A_9 c i arg1 harg1 arg2 harg2 arg3 harg3 arg4 harg4 arg5 harg5 arg6 harg6 arg7 harg7 arg8 harg8 arg9 harg9 arg10 harg10 arg11 harg11 x0 x1 x2 x3 x4 x5 x6 x7 = hidB x0 x1 x2 x3 x4 x5 x6 x7 7 := by
  unfold out3_A_9
  rw [View.read_writes_eq_canon _ _ _ (cover3_A_9 c i arg1 harg1 arg2 harg2 arg3 harg3 arg4 harg4 arg5 harg5 arg6 harg6 arg7 harg7 arg8 harg8 arg9 harg9 arg10 harg10 arg11 harg11 x0 x1 x2 x3 x4 x5 x6 x7), run9_eq, View.canon_unit_zero (S := S128x1024) hz2]

end Out

/-! ### What each grid point writes back, and the arrays the region leaves -/

variable (V : (c : Dev nD) → (b : Ref sig .tc) → Buf (Elt Ideal) ((c : Thread nD τ).loc b))

/-- The layer's parameters as the region finds them. -/
abbrev Wof (c : Dev nD) : Cert.Spec.LayerW :=
  WofV (V c main_v5) (V c main_v8) (V c main_v9) (V c main_v11) (V c main_v12) (V c main_v13) layerIx

/-- The hidden sequence the layer leaves. -/
abbrev seqG (c : Dev nD) : Sseq.Idx → EReal := seqOut (Wof V c) (V c inpRef) (V c main_arg1) layerIx
/-- The last hidden state the layer leaves. -/
abbrev finG (c : Dev nD) : Sfin.Idx → EReal := finOut (Wof V c) (V c inpRef) (V c main_arg1) layerIx

/-- Row r of the tile of grid point t after step s is batch row t·128 + r of the layer's hidden sequence at time s. -/
theorem tile_at (c : Dev nD) (t : Fin cfg3.N) (s : Fin 8) (r : Fin 128) (k : Fin 1024) (b : Fin 512)
    (hb : b.val = t.val * 128 + r.val) :
    hidB (iblk3 V c 0 t) (iblk3 V c 1 t) (iblk3 V c 2 t) (iblk3 V c 3 t) (iblk3 V c 4 t) (iblk3 V c 5 t) (iblk3 V c 6 t)
        (iblk3 V c 7 t) s.val (ix2 r k)
      = seqG V c (ix3 s b k) :=
  tile_apply (V c main_v5) (V c main_v8) (V c main_v9) (V c main_v11) (V c main_v12) (V c main_v13) (V c inpRef) (V c main_arg1)
    layerIx (iblk3 V c 0 t) (iblk3 V c 1 t) (iblk3 V c 2 t) (iblk3 V c 3 t) (iblk3 V c 4 t) (iblk3 V c 5 t) (iblk3 V c 6 t)
    (iblk3 V c 7 t) (xgL (iblk3 V c 0 t) (iblk3 V c 2 t)) b r
    (fun s k => iblk3_0_apply V c t s r k b hb) (fun k => iblk3_1_apply V c t r k b hb) (fun k j => iblk3_2_apply V c t k j)
    (fun k j => iblk3_3_apply V c t k j) (fun k j => iblk3_4_apply V c t k j) (fun j => iblk3_5_apply V c t j)
    (fun j => iblk3_6_apply V c t j) (fun j => iblk3_7_apply V c t j)
    (fun s c' => xgL_apply (iblk3 V c 0 t) (iblk3 V c 2 t) s r c') s k

/-- WHAT POINT t WRITES BACK to the hidden sequence: block t of the layer's hidden sequence. -/
theorem flushed8_eq (c : Dev nD) (t : Fin cfg3.N) :
    (dat3 V c).flushed 8 t = ((cfg3.win 8).blk t).view.read (Elt Ideal) (seqG V c) := by
  show (cfg3.win 8).cut (grid3.coords t) ((dat3 V c).after 8 t) = _
  rw [after3_8]
  unfold outsAt3
  dsimp only
  funext j
  obtain ⟨s, r, k, rfl⟩ : ∃ (s : Fin 8) (r : Fin 128) (k : Fin 1024), j = ix3 s r k := ⟨j 0, j 1, j 2, eq_ix3 j⟩
  have ht : t.val < 4 := by have := t.isLt; have hN : cfg3.N = 4 := N_3; omega
  show out3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t) (ix3 s r k)
    = seqG V c (((cfg3.win 8).blk t).view.emb (ix3 s r k))
  rw [out8_apply]
  have hb : ((cfg3.win 8).blk t).view.emb (ix3 s r k)
      = (ix3 s (⟨t.val * 128 + r.val, by have := r.isLt; omega⟩ : Fin 512) k : S8x512x1024.Idx) := by
    funext a
    apply Fin.ext
    match a with
    | ⟨0, _⟩ => show win3_8.index t 0 * 8 + 1 * s.val = s.val; rw [(idx3_8 t).1]; omega
    | ⟨1, _⟩ => show win3_8.index t 1 * 128 + 1 * r.val = t.val * 128 + r.val; rw [(idx3_8 t).2.1]; omega
    | ⟨2, _⟩ => show win3_8.index t 2 * 1024 + 1 * k.val = k.val; rw [(idx3_8 t).2.2]; omega
  rw [hb]
  exact tile_at V c t s r k _ rfl

/-- WHAT POINT t WRITES BACK to the last hidden state: block t of the layer's last hidden state. -/
theorem flushed9_eq (c : Dev nD) (t : Fin cfg3.N) :
    (dat3 V c).flushed 9 t = ((cfg3.win 9).blk t).view.read (Elt Ideal) (finG V c) := by
  show (cfg3.win 9).cut (grid3.coords t) ((dat3 V c).after 9 t) = _
  rw [after3_9]
  unfold outsAt3
  dsimp only
  funext j
  obtain ⟨r, k, rfl⟩ : ∃ (r : Fin 128) (k : Fin 1024), j = ix2 r k := ⟨j 0, j 1, eq_ix2 j⟩
  have ht : t.val < 4 := by have := t.isLt; have hN : cfg3.N = 4 := N_3; omega
  show out3_A_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) (iblk3 V c 0 t) (iblk3 V c 1 t) (iblk3 V c 2 t) (iblk3 V c 3 t) (iblk3 V c 4 t) (iblk3 V c 5 t) (iblk3 V c 6 t) (iblk3 V c 7 t) (ix2 r k)
    = finG V c (((cfg3.win 9).blk t).view.emb (ix2 r k))
  rw [out9_eq]
  have hb : ((cfg3.win 9).blk t).view.emb (ix2 r k)
      = (ix2 (⟨t.val * 128 + r.val, by have := r.isLt; omega⟩ : Fin 512) k : S512x1024.Idx) := by
    funext a
    apply Fin.ext
    match a with
    | ⟨0, _⟩ => show win3_9.index t 0 * 128 + 1 * r.val = t.val * 128 + r.val; rw [(idx3_9 t).1]; omega
    | ⟨1, _⟩ => show win3_9.index t 1 * 1024 + 1 * k.val = k.val; rw [(idx3_9 t).2]; omega
  rw [hb]
  exact tile_at V c t 7 r k _ rfl

/-- An index of the hidden sequence is in point t's block iff each coordinate is in the block's range on its axis. -/
theorem mem_blk8 (t : Fin cfg3.N) (i : S8x512x1024.Idx) :
    i ∈ ((cfg3.win 8).blk t).view.set ↔ ∀ a : Fin 3, win3_8.index t a * S8x128x1024.size a ≤ (i a).val
      ∧ (i a).val < win3_8.index t a * S8x128x1024.size a + S8x128x1024.size a := by
  show i ∈ ((View.whole main_v18_0).slice (win3_8.rect t)).set ↔ _
  rw [View.set_slice_whole, Rect.mem_set_unit]
  exact Iff.rfl

/-- An index of the last hidden state is in point t's block iff each coordinate is in the block's range on its axis. -/
theorem mem_blk9 (t : Fin cfg3.N) (i : S512x1024.Idx) :
    i ∈ ((cfg3.win 9).blk t).view.set ↔ ∀ a : Fin 2, win3_9.index t a * S128x1024.size a ≤ (i a).val
      ∧ (i a).val < win3_9.index t a * S128x1024.size a + S128x1024.size a := by
  show i ∈ ((View.whole main_v18_1).slice (win3_9.rect t)).set ↔ _
  rw [View.set_slice_whole, Rect.mem_set_unit]
  exact Iff.rfl

/-- The four tiles cover the hidden sequence: batch row b is in the block of point b / 128. -/
theorem cover8 (i : S8x512x1024.Idx) : ∃ t : Fin cfg3.N, (cfg3.win 8).flush t = true ∧ i ∈ ((cfg3.win 8).blk t).view.set := by
  have h0 : (i 0).val < 8 := (i 0).isLt
  have h1 : (i 1).val < 512 := (i 1).isLt
  have h2 : (i 2).val < 1024 := (i 2).isLt
  have hN : cfg3.N = 4 := N_3
  refine ⟨⟨(i 1).val / 128, by rw [hN]; omega⟩, flush3_8 _, ?_⟩
  rw [mem_blk8]
  obtain ⟨e0, e1, e2⟩ := idx3_8 ⟨(i 1).val / 128, by rw [hN]; omega⟩
  intro a
  match a with
  | ⟨0, _⟩ =>
    show win3_8.index _ 0 * 8 ≤ (i 0).val ∧ (i 0).val < win3_8.index _ 0 * 8 + 8
    rw [e0]; omega
  | ⟨1, _⟩ =>
    show win3_8.index _ 1 * 128 ≤ (i 1).val ∧ (i 1).val < win3_8.index _ 1 * 128 + 128
    rw [e1]; show (i 1).val / 128 * 128 ≤ (i 1).val ∧ (i 1).val < (i 1).val / 128 * 128 + 128; omega
  | ⟨2, _⟩ =>
    show win3_8.index _ 2 * 1024 ≤ (i 2).val ∧ (i 2).val < win3_8.index _ 2 * 1024 + 1024
    rw [e2]; omega

/-- The four tiles cover the last hidden state. -/
theorem cover9 (i : S512x1024.Idx) : ∃ t : Fin cfg3.N, (cfg3.win 9).flush t = true ∧ i ∈ ((cfg3.win 9).blk t).view.set := by
  have h0 : (i 0).val < 512 := (i 0).isLt
  have h1 : (i 1).val < 1024 := (i 1).isLt
  have hN : cfg3.N = 4 := N_3
  refine ⟨⟨(i 0).val / 128, by rw [hN]; omega⟩, flush3_9 _, ?_⟩
  rw [mem_blk9]
  obtain ⟨e0, e1⟩ := idx3_9 ⟨(i 0).val / 128, by rw [hN]; omega⟩
  intro a
  match a with
  | ⟨0, _⟩ =>
    show win3_9.index _ 0 * 128 ≤ (i 0).val ∧ (i 0).val < win3_9.index _ 0 * 128 + 128
    rw [e0]; show (i 0).val / 128 * 128 ≤ (i 0).val ∧ (i 0).val < (i 0).val / 128 * 128 + 128; omega
  | ⟨1, _⟩ =>
    show win3_9.index _ 1 * 1024 ≤ (i 1).val ∧ (i 1).val < win3_9.index _ 1 * 1024 + 1024
    rw [e1]; omega

/-- THE HIDDEN SEQUENCE the region leaves is the layer's, run on the region's input sequence from the layer's initial state. -/
theorem seq_value3 (c : Dev nD) :
    (dat3 V c).arrAt 8 cfg3.N
      = seqOut (WofV (V c main_v5) (V c main_v8) (V c main_v9) (V c main_v11) (V c main_v12) (V c main_v13) layerIx)
          (V c inpRef) (V c main_arg1) layerIx :=
  (dat3 V c).arrAt_eq_of_cover 8 (seqG V c) (fun t _ => flushed8_eq V c t) cover8

/-- THE LAST HIDDEN STATE the region leaves is the layer's. -/
theorem fin_value3 (c : Dev nD) :
    (dat3 V c).arrAt 9 cfg3.N
      = finOut (WofV (V c main_v5) (V c main_v8) (V c main_v9) (V c main_v11) (V c main_v12) (V c main_v13) layerIx)
          (V c inpRef) (V c main_arg1) layerIx :=
  (dat3 V c).arrAt_eq_of_cover 9 (finG V c) (fun t _ => flushed9_eq V c t) cover9

end Cert.KernelIdeal.Value3

end
-- ==== Proof.KI.Val4Mat.lean ====
/-
  The three matrix products of a GRU layer's tile, read entry by entry over the extended reals: each is the sum over
  the 1024 contracted features of the products of the two operands' entries.
-/
import proofs.«428164_j36979668418798_3_alg».proof.Proof.Gen.KernelIdeal.Skeleton
import Idealize.ShloMosaic.PureOps.Ideal
import Idealize.ShloMosaic.PureOps.Ideal.Laws
import Idealize.ShloMosaic.Lib.ValueIdx

noncomputable section

namespace Cert.KernelIdeal.Value4

open Idealize.ShloMosaic Idealize.ShloMosaic.ValueIdx Cert.KernelIdeal Cert.KernelIdeal.Gen
open scoped BigOperators

/-! ### The input-side product: [1024, 1024] by [1024, 3072] -/

abbrev Dx := dot_S1024x1024_S1024x3072_S1024x3072_1_0_0_1_n_n

theorem lhsDx_0 (j : S1024x3072.Idx) (k : Dx.contr.Idx) : (Dx.lhsIdx j k 0 : ℕ) = j 0 := by
  simp [DotDims.lhsIdx, Dx, dot_S1024x1024_S1024x3072_S1024x3072_1_0_0_1_n_n]; rfl
theorem lhsDx_1 (j : S1024x3072.Idx) (k : Dx.contr.Idx) : (Dx.lhsIdx j k 1 : ℕ) = k ⟨0, by decide⟩ := by
  simp [DotDims.lhsIdx, Dx, dot_S1024x1024_S1024x3072_S1024x3072_1_0_0_1_n_n]; rfl
theorem rhsDx_0 (j : S1024x3072.Idx) (k : Dx.contr.Idx) : (Dx.rhsIdx j k 0 : ℕ) = k ⟨0, by decide⟩ := by
  simp [DotDims.rhsIdx, Dx, dot_S1024x1024_S1024x3072_S1024x3072_1_0_0_1_n_n]; rfl
theorem rhsDx_1 (j : S1024x3072.Idx) (k : Dx.contr.Idx) : (Dx.rhsIdx j k 1 : ℕ) = j 1 := by
  simp [DotDims.rhsIdx, Dx, dot_S1024x1024_S1024x3072_S1024x3072_1_0_0_1_n_n]; rfl

/-- Entry (r, c) of this product is the sum over k of A[r, k] · B[k, c]. -/
theorem mmDx_apply (A : FVec Ideal S1024x1024 .bf16) (B : FVec Ideal S1024x3072 .bf16) (r : Fin 1024) (c : Fin 3072) :
    matmul Dx none A B (constant S1024x3072 .f32 0x00000000#32) (ix2 r c) = ∑ k : Fin 1024, A (ix2 r k) * B (ix2 k c) := by
  show FloatOps.matmul Dx none A B _ (ix2 r c) = _
  rw [Ideal.matmul_constant_zero_apply, ← Equiv.sum_comp (contrEquiv1 Dx 1024 rfl rfl).symm]
  refine Finset.sum_congr rfl fun k _ => ?_
  have ck := contrEquiv1_symm_val Dx 1024 rfl rfl k
  have l : Dx.lhsIdx (ix2 r c) ((contrEquiv1 Dx 1024 rfl rfl).symm k) = ix2 r k := by
    funext ax; apply Fin.ext
    match ax with
    | ⟨0, _⟩ => exact lhsDx_0 _ _
    | ⟨1, _⟩ => exact (lhsDx_1 _ _).trans ck
  have rr : Dx.rhsIdx (ix2 r c) ((contrEquiv1 Dx 1024 rfl rfl).symm k) = ix2 k c := by
    funext ax; apply Fin.ext
    match ax with
    | ⟨0, _⟩ => exact (rhsDx_0 _ _).trans ck
    | ⟨1, _⟩ => exact rhsDx_1 _ _
  rw [l, rr]

/-! ### The hidden-side product of the two gates: [128, 1024] by [1024, 2048] -/

abbrev Dzr := dot_S128x1024_S1024x2048_S128x2048_1_0_0_1_n_n

theorem lhsDzr_0 (j : S128x2048.Idx) (k : Dzr.contr.Idx) : (Dzr.lhsIdx j k 0 : ℕ) = j 0 := by
  simp [DotDims.lhsIdx, Dzr, dot_S128x1024_S1024x2048_S128x2048_1_0_0_1_n_n]; rfl
theorem lhsDzr_1 (j : S128x2048.Idx) (k : Dzr.contr.Idx) : (Dzr.lhsIdx j k 1 : ℕ) = k ⟨0, by decide⟩ := by
  simp [DotDims.lhsIdx, Dzr, dot_S128x1024_S1024x2048_S128x2048_1_0_0_1_n_n]; rfl
theorem rhsDzr_0 (j : S128x2048.Idx) (k : Dzr.contr.Idx) : (Dzr.rhsIdx j k 0 : ℕ) = k ⟨0, by decide⟩ := by
  simp [DotDims.rhsIdx, Dzr, dot_S128x1024_S1024x2048_S128x2048_1_0_0_1_n_n]; rfl
theorem rhsDzr_1 (j : S128x2048.Idx) (k : Dzr.contr.Idx) : (Dzr.rhsIdx j k 1 : ℕ) = j 1 := by
  simp [DotDims.rhsIdx, Dzr, dot_S128x1024_S1024x2048_S128x2048_1_0_0_1_n_n]; rfl

/-- Entry (r, c) of this product is the sum over k of A[r, k] · B[k, c]. -/
theorem mmDzr_apply (A : FVec Ideal S128x1024 .bf16) (B : FVec Ideal S1024x2048 .bf16) (r : Fin 128) (c : Fin 2048) :
    matmul Dzr none A B (constant S128x2048 .f32 0x00000000#32) (ix2 r c) = ∑ k : Fin 1024, A (ix2 r k) * B (ix2 k c) := by
  show FloatOps.matmul Dzr none A B _ (ix2 r c) = _
  rw [Ideal.matmul_constant_zero_apply, ← Equiv.sum_comp (contrEquiv1 Dzr 1024 rfl rfl).symm]
  refine Finset.sum_congr rfl fun k _ => ?_
  have ck := contrEquiv1_symm_val Dzr 1024 rfl rfl k
  have l : Dzr.lhsIdx (ix2 r c) ((contrEquiv1 Dzr 1024 rfl rfl).symm k) = ix2 r k := by
    funext ax; apply Fin.ext
    match ax with
    | ⟨0, _⟩ => exact lhsDzr_0 _ _
    | ⟨1, _⟩ => exact (lhsDzr_1 _ _).trans ck
  have rr : Dzr.rhsIdx (ix2 r c) ((contrEquiv1 Dzr 1024 rfl rfl).symm k) = ix2 k c := by
    funext ax; apply Fin.ext
    match ax with
    | ⟨0, _⟩ => exact (rhsDzr_0 _ _).trans ck
    | ⟨1, _⟩ => exact rhsDzr_1 _ _
  rw [l, rr]

/-! ### The hidden-side product of the candidate: [128, 1024] by [1024, 1024] -/

abbrev Dh := dot_S128x1024_S1024x1024_S128x1024_1_0_0_1_n_n

theorem lhsDh_0 (j : S128x1024.Idx) (k : Dh.contr.Idx) : (Dh.lhsIdx j k 0 : ℕ) = j 0 := by
  simp [DotDims.lhsIdx, Dh, dot_S128x1024_S1024x1024_S128x1024_1_0_0_1_n_n]; rfl
theorem lhsDh_1 (j : S128x1024.Idx) (k : Dh.contr.Idx) : (Dh.lhsIdx j k 1 : ℕ) = k ⟨0, by decide⟩ := by
  simp [DotDims.lhsIdx, Dh, dot_S128x1024_S1024x1024_S128x1024_1_0_0_1_n_n]; rfl
theorem rhsDh_0 (j : S128x1024.Idx) (k : Dh.contr.Idx) : (Dh.rhsIdx j k 0 : ℕ) = k ⟨0, by decide⟩ := by
  simp [DotDims.rhsIdx, Dh, dot_S128x1024_S1024x1024_S128x1024_1_0_0_1_n_n]; rfl
theorem rhsDh_1 (j : S128x1024.Idx) (k : Dh.contr.Idx) : (Dh.rhsIdx j k 1 : ℕ) = j 1 := by
  simp [DotDims.rhsIdx, Dh, dot_S128x1024_S1024x1024_S128x1024_1_0_0_1_n_n]; rfl

/-- Entry (r, c) of this product is the sum over k of A[r, k] · B[k, c]. -/
theorem mmDh_apply (A : FVec Ideal S128x1024 .bf16) (B : FVec Ideal S1024x1024 .bf16) (r : Fin 128) (c : Fin 1024) :
    matmul Dh none A B (constant S128x1024 .f32 0x00000000#32) (ix2 r c) = ∑ k : Fin 1024, A (ix2 r k) * B (ix2 k c) := by
  show FloatOps.matmul Dh none A B _ (ix2 r c) = _
  rw [Ideal.matmul_constant_zero_apply, ← Equiv.sum_comp (contrEquiv1 Dh 1024 rfl rfl).symm]
  refine Finset.sum_congr rfl fun k _ => ?_
  have ck := contrEquiv1_symm_val Dh 1024 rfl rfl k
  have l : Dh.lhsIdx (ix2 r c) ((contrEquiv1 Dh 1024 rfl rfl).symm k) = ix2 r k := by
    funext ax; apply Fin.ext
    match ax with
    | ⟨0, _⟩ => exact lhsDh_0 _ _
    | ⟨1, _⟩ => exact (lhsDh_1 _ _).trans ck
  have rr : Dh.rhsIdx (ix2 r c) ((contrEquiv1 Dh 1024 rfl rfl).symm k) = ix2 k c := by
    funext ax; apply Fin.ext
    match ax with
    | ⟨0, _⟩ => exact (rhsDh_0 _ _).trans ck
    | ⟨1, _⟩ => exact rhsDh_1 _ _
  rw [l, rr]

end Cert.KernelIdeal.Value4

end
-- ==== Proof.KI.Val4Step.lean ====
/-
  One time step of a GRU layer on a tile of 128 batch rows, as one function of the tile's previous hidden state, the
  tile's rows of the input-side products, the two hidden-side weight blocks and the three bias rows; and the eight
  hidden states a tile goes through, each the step applied to the one before.
-/
import proofs.«428164_j36979668418798_3_alg».proof.Proof.Gen.KernelIdeal.Skeleton

noncomputable section

namespace Cert.KernelIdeal.Value4

open Idealize.ShloMosaic Cert.KernelIdeal Cert.KernelIdeal.Gen

variable {F : FTy → Type} [FloatOps F]

/-- The new hidden state of a tile: with `xg` the tile's rows of the input-side products (three bands of 1024 columns:
    update gate, reset gate, candidate), `h` the previous hidden state,
      z = σ(xg_z + h·W_z + b_z),  r = σ(xg_r + h·W_r + b_r),  c = tanh(xg_c + (r ⊙ h)·W_c + b_c),
      h' = (1 − z) ⊙ h + z ⊙ c. -/
def step (bz br bh : FVec F S1x1024 .f32) (h : FVec F S128x1024 .f32) (xg : FVec F S128x3072 .bf16)
    (whzr : FVec F S1x1024x2048 .bf16) (whh : FVec F S1x1024x1024 .bf16) : FVec F S128x1024 .f32 :=
  have xz : FVec F S128x1024 .bf16 := extractStridedSlice S128x1024 ![0, 0] xg slices_S128x3072_o0_0_S128x1024
  have xr : FVec F S128x1024 .bf16 := extractStridedSlice S128x1024 ![0, 1024] xg slices_S128x3072_o0_1024_S128x1024
  have xc : FVec F S128x1024 .bf16 := extractStridedSlice S128x1024 ![0, 2048] xg slices_S128x3072_o0_2048_S128x1024
  have hb : FVec F S128x1024 .bf16 := truncf .bf16 h bitsLt_bf16_f32
  have wzr : FVec F S1024x2048 .bf16 := shapeCast S1024x2048 whzr shapeCasts_S1x1024x2048_S1024x2048
  have z0 : FVec F S128x2048 .f32 := constant S128x2048 .f32 0x00000000#32
  have hg : FVec F S128x2048 .f32 := matmul dot_S128x1024_S1024x2048_S128x2048_1_0_0_1_n_n none hb wzr z0
  have hz : FVec F S128x1024 .f32 := extractStridedSlice S128x1024 ![0, 0] hg slices_S128x2048_o0_0_S128x1024
  have hr : FVec F S128x1024 .f32 := extractStridedSlice S128x1024 ![0, 1024] hg slices_S128x2048_o0_1024_S128x1024
  have a1 : FVec F S128x1024 .f32 := extf .f32 xz bitsLt_bf16_f32
  have a2 : FVec F S128x1024 .f32 := addf a1 hz
  have a3 : FVec F S128x1024 .f32 := broadcastTo S128x1024 bz broadcasts_S1x1024_S128x1024
  have a4 : FVec F S128x1024 .f32 := addf a2 a3
  have z : FVec F S128x1024 .f32 := logistic a4
  have b1 : FVec F S128x1024 .f32 := extf .f32 xr bitsLt_bf16_f32
  have b2 : FVec F S128x1024 .f32 := addf b1 hr
  have b3 : FVec F S128x1024 .f32 := broadcastTo S128x1024 br broadcasts_S1x1024_S128x1024
  have b4 : FVec F S128x1024 .f32 := addf b2 b3
  have r : FVec F S128x1024 .f32 := logistic b4
  have rh : FVec F S128x1024 .f32 := mulf r h
  have rhb : FVec F S128x1024 .bf16 := truncf .bf16 rh bitsLt_bf16_f32
  have wc : FVec F S1024x1024 .bf16 := shapeCast S1024x1024 whh shapeCasts_S1x1024x1024_S1024x1024
  have z1 : FVec F S128x1024 .f32 := constant S128x1024 .f32 0x00000000#32
  have hc : FVec F S128x1024 .f32 := matmul dot_S128x1024_S1024x1024_S128x1024_1_0_0_1_n_n none rhb wc z1
  have c1 : FVec F S128x1024 .f32 := extf .f32 xc bitsLt_bf16_f32
  have c2 : FVec F S128x1024 .f32 := addf c1 hc
  have c3 : FVec F S128x1024 .f32 := broadcastTo S128x1024 bh broadcasts_S1x1024_S128x1024
  have c4 : FVec F S128x1024 .f32 := addf c2 c3
  have c : FVec F S128x1024 .f32 := tanh c4
  have one : F .f32 := Scalar.ofBits .f32 0x3F800000#32
  have ones : FVec F S128x1024 .f32 := broadcast S128x1024 one
  have nz : FVec F S128x1024 .f32 := subf ones z
  have keep : FVec F S128x1024 .f32 := mulf nz h
  have upd : FVec F S128x1024 .f32 := mulf z c
  addf keep upd

/-! ### The eight hidden states of the program's body are eight steps

Each equation: the value the body holds as hidden state after time step t, written over the values it loaded, is the step
applied to the hidden state after step t − 1 (the loaded initial state at t = 0), the rows of the input-side products
loaded for step t, and the weight blocks and bias rows as loaded. -/

theorem hid0_eq (v11 : Vec F S1x128x1024 .f32) (v13 v15 v17 : Vec F S1x1x1024 .f32) (v19 : Vec F S128x3072 .bf16)
    (v24 : Vec F S1x1024x2048 .bf16) (v41 : Vec F S1x1024x1024 .bf16) :
    k4_pay13 (k4_pay4 v11) (k4_pay5 v13) (k4_pay6 v15) (k4_pay7 v17) (k4_pay8 v19) (k4_pay9 v19) (k4_pay11 v11 v24)
        (k4_pay12 v11 v19 v24) v41
      = step (k4_pay5 v13) (k4_pay6 v15) (k4_pay7 v17) (k4_pay4 v11) v19 v24 v41 := rfl

theorem hid1_eq (v12 : FVec F S128x1024 .f32) (v14 v16 v18 : FVec F S1x1024 .f32) (v21 v22 : FVec F S128x1024 .bf16)
    (v28 v30 : FVec F S128x1024 .f32) (v41 : Vec F S1x1024x1024 .bf16) (v57 : Vec F S128x3072 .bf16)
    (v62 : Vec F S1x1024x2048 .bf16) (v79 : Vec F S1x1024x1024 .bf16) :
    k4_pay19 v18 (k4_pay13 v12 v14 v16 v18 v21 v22 v28 v30 v41) (k4_pay15 v57)
        (k4_pay17 v12 v14 v16 v18 v21 v22 v28 v30 v41 v57 v62) (k4_pay18 v12 v14 v16 v18 v21 v22 v28 v30 v41 v57 v62) v79
      = step v14 v16 v18 (k4_pay13 v12 v14 v16 v18 v21 v22 v28 v30 v41) v57 v62 v79 := rfl

theorem hid2_eq (v14 v16 v18 : FVec F S1x1024 .f32) (v53 : FVec F S128x1024 .f32) (v60 : FVec F S128x1024 .bf16)
    (v71 v75 : FVec F S128x1024 .f32) (v79 : Vec F S1x1024x1024 .bf16) (v95 : Vec F S128x3072 .bf16)
    (v100 : Vec F S1x1024x2048 .bf16) (v117 : Vec F S1x1024x1024 .bf16) :
    k4_pay25 v18 (k4_pay19 v18 v53 v60 v71 v75 v79) (k4_pay21 v95) (k4_pay23 v14 v18 v53 v60 v71 v75 v79 v95 v100)
        (k4_pay24 v16 v18 v53 v60 v71 v75 v79 v95 v100) v117
      = step v14 v16 v18 (k4_pay19 v18 v53 v60 v71 v75 v79) v95 v100 v117 := rfl

theorem hid3_eq (v14 v16 v18 : FVec F S1x1024 .f32) (v91 : FVec F S128x1024 .f32) (v98 : FVec F S128x1024 .bf16)
    (v109 : FVec F S128x1024 .f32) (v116 : FVec F S128x1024 .bf16) (v117 : Vec F S1x1024x1024 .bf16)
    (v133 : Vec F S128x3072 .bf16) (v138 : Vec F S1x1024x2048 .bf16) (v155 : Vec F S1x1024x1024 .bf16) :
    k4_pay30 (k4_pay25 v18 v91 v98 v109 v116 v117) (k4_pay28 v14 v18 v91 v98 v109 v116 v117 v133 v138)
        (k4_pay29 v16 v18 v91 v98 v109 v116 v117 v133 v138 v155)
      = step v14 v16 v18 (k4_pay25 v18 v91 v98 v109 v116 v117) v133 v138 v155 := rfl

theorem hid4_eq (v14 v16 v18 : FVec F S1x1024 .f32) (v129 v147 v161 : FVec F S128x1024 .f32) (v171 : Vec F S128x3072 .bf16)
    (v176 : Vec F S1x1024x2048 .bf16) (v193 : Vec F S1x1024x1024 .bf16) :
    k4_pay32 v14 v16 v18 v129 v147 v161 v171 v176 v193 = step v14 v16 v18 (k4_pay30 v129 v147 v161) v171 v176 v193 := rfl

theorem hid5_eq (v14 v16 v18 : FVec F S1x1024 .f32) (v205 : FVec F S128x1024 .f32) (v209 : Vec F S128x3072 .bf16)
    (v214 : Vec F S1x1024x2048 .bf16) (v231 : Vec F S1x1024x1024 .bf16) :
    k4_pay34 v14 v16 v18 v205 v209 v214 v231 = step v14 v16 v18 v205 v209 v214 v231 := rfl

theorem hid6_eq (v14 v16 v18 : FVec F S1x1024 .f32) (v243 : FVec F S128x1024 .f32) (v247 : Vec F S128x3072 .bf16)
    (v252 : Vec F S1x1024x2048 .bf16) (v269 : Vec F S1x1024x1024 .bf16) :
    k4_pay36 v14 v16 v18 v243 v247 v252 v269 = step v14 v16 v18 v243 v247 v252 v269 := rfl

theorem hid7_eq (v14 v16 v18 : FVec F S1x1024 .f32) (v243 : FVec F S128x1024 .f32) (v247 : Vec F S128x3072 .bf16)
    (v252 : Vec F S1x1024x2048 .bf16) (v269 : Vec F S1x1024x1024 .bf16) (v285 : Vec F S128x3072 .bf16)
    (v290 : Vec F S1x1024x2048 .bf16) (v307 : Vec F S1x1024x1024 .bf16) :
    k4_pay1 v14 v16 v18 (k4_pay36 v14 v16 v18 v243 v247 v252 v269) (k4_pay38 v285) (k4_pay39 v285) (k4_pay40 v285)
        (k4_pay41 v14 v16 v18 v243 v247 v252 v269) v290 v307
      = step v14 v16 v18 (k4_pay36 v14 v16 v18 v243 v247 v252 v269) v285 v290 v307 := rfl

end Cert.KernelIdeal.Value4

end
-- ==== Proof.KI.Val4Cell.lean ====
/-
  A step of the layer on a tile of 128 batch rows, read row by row over the extended reals: row r of the new hidden
  state is the GRU cell of row r — its update gate, reset gate and candidate are the specification's, because each matrix
  product is the sum over the 1024 contracted features and every change of float format is the identity there.
-/
import proofs.«428164_j36979668418798_3_alg».proof.Proof.KI.Val4Mat
import proofs.«428164_j36979668418798_3_alg».proof.Proof.KI.Val4Step
import proofs.«428164_j36979668418798_3_alg».proof.Proof.LayerOf
import Idealize.ShloMosaic.Lib.ValueLayout
import Idealize.ShloMosaic.Lib.Pipeline.Value
import Idealize.ShloMosaic.Lib.IdealHost

noncomputable section

namespace Cert.KernelIdeal.Value4

open Idealize.ShloMosaic Idealize.ShloMosaic.ValueIdx Cert.KernelIdeal Cert.KernelIdeal.Gen Cert.Spec Cert.LayerOf
open scoped BigOperators

/-! ### The two hidden-side products of a step, entry by entry -/

/-- Entry (r, c) of the gates' hidden-side product: the sum over k of h[r, k] · W[0, k, c]. -/
theorem hg_apply (h : FVec Ideal S128x1024 .f32) (whzr : FVec Ideal S1x1024x2048 .bf16) (r : Fin 128) (c : Fin 2048) :
    matmul Dzr none (truncf .bf16 h bitsLt_bf16_f32) (shapeCast S1024x2048 whzr shapeCasts_S1x1024x2048_S1024x2048)
        (constant S128x2048 .f32 0x00000000#32) (ix2 r c)
      = ∑ k : Fin 1024, h (ix2 r k) * whzr (ix3 0 k c) := by
  rw [mmDzr_apply]
  refine Finset.sum_congr rfl fun k _ => ?_
  rw [truncf_apply, shapeCast_1ab_ab_apply]

/-- Entry (r, j) of the candidate's hidden-side product: the sum over k of u[r, k] · W[0, k, j]. -/
theorem hc_apply (u : FVec Ideal S128x1024 .f32) (whh : FVec Ideal S1x1024x1024 .bf16) (r : Fin 128) (j : Fin 1024) :
    matmul Dh none (truncf .bf16 u bitsLt_bf16_f32) (shapeCast S1024x1024 whh shapeCasts_S1x1024x1024_S1024x1024)
        (constant S128x1024 .f32 0x00000000#32) (ix2 r j)
      = ∑ k : Fin 1024, u (ix2 r k) * whh (ix3 0 k j) := by
  rw [mmDh_apply]
  refine Finset.sum_congr rfl fun k _ => ?_
  rw [truncf_apply, shapeCast_1ab_ab_apply]

/-! ### The three parts of a step: update gate, reset gate, candidate -/

/-- The gates' hidden-side product of a tile. -/
def hgate (h : FVec Ideal S128x1024 .f32) (whzr : FVec Ideal S1x1024x2048 .bf16) : FVec Ideal S128x2048 .f32 :=
  matmul Dzr none (truncf .bf16 h bitsLt_bf16_f32) (shapeCast S1024x2048 whzr shapeCasts_S1x1024x2048_S1024x2048)
    (constant S128x2048 .f32 0x00000000#32)

/-- The update gate of a tile. -/
def zGate (bz : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 0] xg slices_S128x3072_o0_0_S128x1024) bitsLt_bf16_f32)
      (extractStridedSlice S128x1024 ![0, 0] (hgate h whzr) slices_S128x2048_o0_0_S128x1024))
    (broadcastTo S128x1024 bz broadcasts_S1x1024_S128x1024))

/-- The reset gate of a tile. -/
def rGate (br : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 1024] xg slices_S128x3072_o0_1024_S128x1024) bitsLt_bf16_f32)
      (extractStridedSlice S128x1024 ![0, 1024] (hgate h whzr) slices_S128x2048_o0_1024_S128x1024))
    (broadcastTo S128x1024 br broadcasts_S1x1024_S128x1024))

/-- The candidate state of a tile, from its reset gate `R`. -/
def cCand (bh : FVec Ideal S1x1024 .f32) (h R : FVec Ideal S128x1024 .f32) (xg : FVec Ideal S128x3072 .bf16)
    (whh : FVec Ideal S1x1024x1024 .bf16) : FVec Ideal S128x1024 .f32 :=
  tanh (addf (addf (extf .f32 (extractStridedSlice S128x1024 ![0, 2048] xg slices_S128x3072_o0_2048_S128x1024) bitsLt_bf16_f32)
      (matmul Dh none (truncf .bf16 (mulf R h) bitsLt_bf16_f32) (shapeCast S1024x1024 whh shapeCasts_S1x1024x1024_S1024x1024)
        (constant S128x1024 .f32 0x00000000#32)))
    (broadcastTo S128x1024 bh broadcasts_S1x1024_S128x1024))

/-- The step is (1 − z) ⊙ h + z ⊙ c over those three. -/
theorem step_eq (bz br bh : FVec Ideal S1x1024 .f32) (h : FVec Ideal S128x1024 .f32) (xg : FVec Ideal S128x3072 .bf16)
    (whzr : FVec Ideal S1x1024x2048 .bf16) (whh : FVec Ideal S1x1024x1024 .bf16) :
    step bz br bh h xg whzr whh
      = addf (mulf (subf (broadcast S128x1024 (Scalar.ofBits (F := Ideal) .f32 0x3F800000#32)) (zGate bz h xg whzr)) h)
          (mulf (zGate bz h xg whzr) (cCand bh h (rGate br h xg whzr) xg whh)) := rfl

/-! ### A step on a tile is the cell on each of its rows -/

section Row
variable (W : LayerW) (x hrow : Row)
  (bz br bh : FVec Ideal S1x1024 .f32) (h : FVec Ideal S128x1024 .f32) (xg : FVec Ideal S128x3072 .bf16)
  (whzr : FVec Ideal S1x1024x2048 .bf16) (whh : FVec Ideal S1x1024x1024 .bf16) (r : Fin 128)

/-- Row `r` of the update gate is the row's update gate. -/
theorem zGate_apply
    (hxz : ∀ j : Fin 1024, xg (ix2 r (col3 0 j)) = ∑ k, x k * W.Wxz k j)
    (hwz : ∀ (k j : Fin 1024), whzr (ix3 0 k (col2 0 j)) = W.Whz k j)
    (hbz : ∀ j : Fin 1024, bz (ix2 0 j) = W.bz j)
    (hh : ∀ k : Fin 1024, h (ix2 r k) = hrow k) (j : Fin 1024) :
    zGate bz h xg whzr (ix2 r j) = gateZ W x hrow j := by
  unfold zGate hgate
  show Ideal.logistic ((_ + _) + _) = _
  rw [extf_apply, slice2_axis1_apply 0 xg slices_S128x3072_o0_0_S128x1024 r j (col3 0 j) (by simp [col3]),
    slice2_axis1_apply 0 _ slices_S128x2048_o0_0_S128x1024 r j (col2 0 j) (by simp [col2]),
    broadcastTo_1b_ab_apply, hg_apply, hxz, hbz]
  unfold gateZ
  simp only [hh, hwz]

/-- Row `r` of the reset gate is the row's reset gate. -/
theorem rGate_apply
    (hxr : ∀ j : Fin 1024, xg (ix2 r (col3 1 j)) = ∑ k, x k * W.Wxr k j)
    (hwr : ∀ (k j : Fin 1024), whzr (ix3 0 k (col2 1 j)) = W.Whr k j)
    (hbr : ∀ j : Fin 1024, br (ix2 0 j) = W.br j)
    (hh : ∀ k : Fin 1024, h (ix2 r k) = hrow k) (j : Fin 1024) :
    rGate br h xg whzr (ix2 r j) = gateR W x hrow j := by
  unfold rGate hgate
  show Ideal.logistic ((_ + _) + _) = _
  rw [extf_apply,
    slice2_axis1_apply 1024 xg slices_S128x3072_o0_1024_S128x1024 r j (col3 1 j) (by show 1 * 1024 + j.val = 1024 + j.val; omega),
    slice2_axis1_apply 1024 _ slices_S128x2048_o0_1024_S128x1024 r j (col2 1 j) (by show 1 * 1024 + j.val = 1024 + j.val; omega),
    broadcastTo_1b_ab_apply, hg_apply, hxr, hbr]
  unfold gateR
  simp only [hh, hwr]

/-- Row `r` of the candidate is the row's candidate, when row `r` of `R` is the row's reset gate. -/
theorem cCand_apply (R : FVec Ideal S128x1024 .f32)
    (hxh : ∀ j : Fin 1024, xg (ix2 r (col3 2 j)) = ∑ k, x k * W.Wxh k j)
    (hwh : ∀ (k j : Fin 1024), whh (ix3 0 k j) = W.Whh k j)
    (hbh : ∀ j : Fin 1024, bh (ix2 0 j) = W.bh j)
    (hR : ∀ k : Fin 1024, R (ix2 r k) = gateR W x hrow k)
    (hh : ∀ k : Fin 1024, h (ix2 r k) = hrow k) (j : Fin 1024) :
    cCand bh h R xg whh (ix2 r j) = cand W x hrow j := by
  unfold cCand
  show Ideal.tanh ((_ + _) + _) = _
  rw [extf_apply,
    slice2_axis1_apply 2048 xg slices_S128x3072_o0_2048_S128x1024 r j (col3 2 j) (by show 2 * 1024 + j.val = 2048 + j.val; omega),
    broadcastTo_1b_ab_apply, hc_apply, hxh, hbh]
  unfold cand
  simp only [mulf_apply, hR, hh, hwh]

/-- Row `r` of the new hidden state is the cell of row `r`: given that row `r` of the input-side products holds x·Wxz,
    x·Wxr, x·Wxh in its three bands, that the weight blocks and bias rows hold the layer's parameters, and that row `r` of
    the previous hidden state is `hrow`. -/
theorem step_apply
    (hxz : ∀ j : Fin 1024, xg (ix2 r (col3 0 j)) = ∑ k, x k * W.Wxz k j)
    (hxr : ∀ j : Fin 1024, xg (ix2 r (col3 1 j)) = ∑ k, x k * W.Wxr k j)
    (hxh : ∀ j : Fin 1024, xg (ix2 r (col3 2 j)) = ∑ k, x k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h (ix2 r k) = hrow k) (j : Fin 1024) :
    step bz br bh h xg whzr whh (ix2 r j) = cellRow W x hrow j := by
  rw [step_eq]
  show (Ideal.ofBits .f32 0x3F800000#32 - zGate bz h xg whzr (ix2 r j)) * h (ix2 r j)
      + zGate bz h xg whzr (ix2 r j) * cCand bh h (rGate br h xg whzr) xg whh (ix2 r j) = _
  rw [Ideal.ofBits_one_f32, zGate_apply W x hrow bz h xg whzr r hxz hwz hbz hh,
    cCand_apply W x hrow bh h xg whh r _ hxh hwh hbh (rGate_apply W x hrow br h xg whzr r hxr hwr hbr hh) hh, hh]
  rfl

end Row

end Cert.KernelIdeal.Value4

end
-- ==== Proof.KI.Val4Xg.lean ====
/-
  The input-side products of a tile, read entry by entry over the extended reals: the tile's rows of the eight time steps are
  stacked, 128 rows per step, and multiplied at once by the layer's three input-side matrices side by side.
-/
import proofs.«428164_j36979668418798_3_alg».proof.Proof.KI.Val4Mat
import Idealize.ShloMosaic.Lib.ValueLayout
import Idealize.ShloMosaic.Lib.Pipeline.Value

noncomputable section

namespace Cert.KernelIdeal.Value4

open Idealize.ShloMosaic Idealize.ShloMosaic.ValueIdx Cert.KernelIdeal Cert.KernelIdeal.Gen
open scoped BigOperators

/-! ### The input-side products of a tile -/

/-- Entry (t·128 + r, c) of the tile's input-side products is the sum over k of inp[t, r, k] · Wx[0, k, c]: the eight time
    steps' rows of the tile are stacked, 128 rows per step, and multiplied by the three input-side matrices side by side. -/
theorem xgAll_apply (v0 : FVec Ideal S8x128x1024 .f32) (v4 : FVec Ideal S1x1024x3072 .bf16) (t : Fin 8) (r : Fin 128)
    (c : Fin 3072) (q : Fin 1024) (hq : q.val = t.val * 128 + r.val) :
    (k4_pay3 (F := Ideal) v0 v4 (ix2 q c) : EReal) = ∑ k : Fin 1024, (v0 (ix3 t r k) : EReal) * (v4 (ix3 0 k c) : EReal) := by
  dsimp only [k4_pay3]
  rw [shapeCast_self, truncf_apply]
  show matmul Dx none _ _ _ (ix2 q c) = _
  rw [mmDx_apply]
  refine Finset.sum_congr rfl fun k _ => ?_
  rw [truncf_apply, shapeCast_1ab_ab_apply, shapeCast_self]
  congr 1
  exact shapeCast_apply v0 _ (ix2 q k) (ix3 t r k) (by
    rw [Shape.rowMajor_val_three, Shape.rowMajor_val_two]
    show (t.val * 128 + r.val) * 1024 + k.val = q.val * 1024 + k.val
    rw [hq])

end Cert.KernelIdeal.Value4

end
-- ==== Proof.KI.Val4Tile.lean ====
/-
  A tile of 128 batch rows along the eight time steps: its hidden state after step t is the step applied t + 1 times, and
  row r of it is the layer's hidden row of the batch row the tile's row r holds — by induction on t from the one-step lemma,
  with the tile's blocks cut out of the arrays where the grid point's index maps say.
-/
import proofs.«428164_j36979668418798_3_alg».proof.Proof.KI.Val4Cell
import proofs.«428164_j36979668418798_3_alg».proof.Proof.KI.Val4Xg

noncomputable section

namespace Cert.KernelIdeal.Value4

open Idealize.ShloMosaic Idealize.ShloMosaic.ValueIdx Cert.KernelIdeal Cert.KernelIdeal.Gen Cert.Spec Cert.LayerOf
open scoped BigOperators

/-! ### The hidden states of a tile along time -/

/-- The hidden state of a tile after time step `t`: the step applied `t + 1` times from the initial state, each time to
    that step's rows of the input-side products. -/
def hidT {F : FTy → Type} [FloatOps F] (bz br bh : FVec F S1x1024 .f32) (h0 : FVec F S128x1024 .f32)
    (xg : ℕ → FVec F S128x3072 .bf16) (whzr : FVec F S1x1024x2048 .bf16) (whh : FVec F S1x1024x1024 .bf16) :
    ℕ → FVec F S128x1024 .f32
  | 0 => step bz br bh h0 (xg 0) whzr whh
  | t + 1 => step bz br bh (hidT bz br bh h0 xg whzr whh t) (xg (t + 1)) whzr whh

/-- A time step below eight of an input sequence read off a `[time, batch, feature]` array. -/
theorem seqOf_of_lt (u : Sseq.Idx → EReal) (t : ℕ) (ht : t < 8) (b : Fin 512) (k : Fin 1024) :
    seqOf u t b k = u (ix3 ⟨t, ht⟩ b k) := by
  unfold seqOf
  exact congrArg u (congrArg (fun s => ix3 s b k) (Fin.ext (Nat.mod_eq_of_lt ht)))

section Tile
variable (W : LayerW) (Xs : ℕ → Fin 512 → Row) (H0 : Fin 512 → Row) (b : Fin 512)
  (bz br bh : FVec Ideal S1x1024 .f32) (h0 : FVec Ideal S128x1024 .f32) (xg : ℕ → FVec Ideal S128x3072 .bf16)
  (whzr : FVec Ideal S1x1024x2048 .bf16) (whh : FVec Ideal S1x1024x1024 .bf16) (r : Fin 128)

/-- Row `r` of a tile's hidden state after step `t` is the layer's hidden row of batch row `b` at time `t`: given that row `r`
    of each step's input-side products holds batch row `b`'s products at that time, that the weight blocks and bias rows hold
    the layer's parameters, and that row `r` of the initial state is batch row `b`'s. -/
theorem hidT_apply
    (hxz : ∀ t < 8, ∀ j : Fin 1024, xg t (ix2 r (col3 0 j)) = ∑ k, Xs t b k * W.Wxz k j)
    (hxr : ∀ t < 8, ∀ j : Fin 1024, xg t (ix2 r (col3 1 j)) = ∑ k, Xs t b k * W.Wxr k j)
    (hxh : ∀ t < 8, ∀ j : Fin 1024, xg t (ix2 r (col3 2 j)) = ∑ k, Xs t b k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h0 (ix2 r k) = H0 b k) :
    ∀ t, t < 8 → ∀ j : Fin 1024, hidT bz br bh h0 xg whzr whh t (ix2 r j) = layer W Xs H0 t b j := by
  intro t
  induction t with
  | zero =>
    intro ht j
    rw [layer_zero]
    exact step_apply W (Xs 0 b) (H0 b) bz br bh h0 (xg 0) whzr whh r (hxz 0 ht) (hxr 0 ht) (hxh 0 ht) hwz hwr hwh hbz hbr hbh hh j
  | succ t ih =>
    intro ht j
    rw [layer_succ]
    exact step_apply W (Xs (t + 1) b) (layer W Xs H0 t b) bz br bh (hidT bz br bh h0 xg whzr whh t) (xg (t + 1)) whzr whh r
      (hxz _ ht) (hxr _ ht) (hxh _ ht) hwz hwr hwh hbz hbr hbh (ih (by omega)) j

end Tile

/-! ### A tile's hidden states, from its blocks of the arrays -/

section Blocks
variable (wx : Swx.Idx → EReal) (wzr : Swzr.Idx → EReal) (wh : Swh.Idx → EReal) (bzA brA bhA : Sb3.Idx → EReal)
  (inp hprev : Sseq.Idx → EReal) (l : Fin 8)
  (x0 : FVec Ideal S8x128x1024 .f32) (x1 : FVec Ideal S1x128x1024 .f32) (x2 : FVec Ideal S1x1024x3072 .bf16)
  (x3 : FVec Ideal S1x1024x2048 .bf16) (x4 : FVec Ideal S1x1024x1024 .bf16) (x5 x6 x7 : FVec Ideal S1x1x1024 .f32)
  (xg : ℕ → FVec Ideal S128x3072 .bf16) (b : Fin 512) (r : Fin 128)

/-- With the tile's blocks cut out of the arrays — the input sequence's and the initial state's rows of batch row `b` at
    row `r`, layer `l`'s slabs of the parameter arrays — and each step's rows of the input-side products read from the
    stacked products, row `r` of the tile's hidden state after step `s` is entry (s, b, ·) of the layer's hidden sequence. -/
theorem tile_apply
    (e0 : ∀ (s : Fin 8) (k : Fin 1024), x0 (ix3 s r k) = inp (ix3 s b k))
    (e1 : ∀ k : Fin 1024, x1 (ix3 0 r k) = hprev (ix3 l b k))
    (e2 : ∀ (k : Fin 1024) (c : Fin 3072), x2 (ix3 0 k c) = wx (ix3 l k c))
    (e3 : ∀ (k : Fin 1024) (c : Fin 2048), x3 (ix3 0 k c) = wzr (ix3 l k c))
    (e4 : ∀ (k j : Fin 1024), x4 (ix3 0 k j) = wh (ix3 l k j))
    (e5 : ∀ j : Fin 1024, x5 (ix3 0 0 j) = bzA (ix3 l 0 j))
    (e6 : ∀ j : Fin 1024, x6 (ix3 0 0 j) = brA (ix3 l 0 j))
    (e7 : ∀ j : Fin 1024, x7 (ix3 0 0 j) = bhA (ix3 l 0 j))
    (exg : ∀ (s : Fin 8) (c : Fin 3072),
      xg s.val (ix2 r c) = k4_pay3 (F := Ideal) x0 x2 (ix2 ⟨s.val * 128 + r.val, by have := s.isLt; have := r.isLt; omega⟩ c))
    (s : Fin 8) (j : Fin 1024) :
    hidT (k4_pay5 x5) (k4_pay6 x6) (k4_pay7 x7) (k4_pay4 x1) xg x3 x4 s.val (ix2 r j)
      = seqOut (WofV wx wzr wh bzA brA bhA l) inp hprev l (ix3 s b j) := by
  show _ = layer (WofV wx wzr wh bzA brA bhA l) (seqOf inp) (initOf hprev l) s.val b j
  have hx : ∀ t (ht : t < 8) (c : Fin 3072), xg t (ix2 r c) = ∑ k : Fin 1024, seqOf inp t b k * wx (ix3 l k c) := by
    intro t ht c
    rw [exg ⟨t, ht⟩ c, xgAll_apply x0 x2 ⟨t, ht⟩ r c _ rfl]
    refine Finset.sum_congr rfl fun k _ => ?_
    rw [e0, e2, seqOf_of_lt inp t ht]
  refine hidT_apply (WofV wx wzr wh bzA brA bhA l) (seqOf inp) (initOf hprev l) b _ _ _ _ xg x3 x4 r
    (fun t ht j => hx t ht _) (fun t ht j => hx t ht _) (fun t ht j => hx t ht _)
    (fun k j => e3 k _) (fun k j => e3 k _) (fun k j => e4 k j) ?_ ?_ ?_ ?_ s.val s.isLt j
  · intro j; dsimp only [k4_pay5]; rw [shapeCast_1ab_ab_apply]; exact e5 j
  · intro j; dsimp only [k4_pay6]; rw [shapeCast_1ab_ab_apply]; exact e6 j
  · intro j; dsimp only [k4_pay7]; rw [shapeCast_1ab_ab_apply]; exact e7 j
  · intro k; dsimp only [k4_pay4]; rw [shapeCast_1ab_ab_apply]; exact e1 k

end Blocks

end Cert.KernelIdeal.Value4

end
-- ==== Proof.KI.Val4Run.lean ====
/-
  What the layer's body leaves in its two outputs' staging memrefs, as lists of pieces over the blocks it loads: the hidden
  sequence's memref ends with eight slices of extent 1 along time, slice t the tile's hidden state after step t; the final
  state's memref with the hidden state after the last step. Each step reads its own 128 rows of the stacked input-side
  products, which the body stored whole before the first step.
-/
import proofs.«428164_j36979668418798_3_alg».proof.Proof.KI.Body4
import proofs.«428164_j36979668418798_3_alg».proof.Proof.KI.Val4Tile

set_option maxRecDepth 65536

noncomputable section

namespace Cert.KernelIdeal.Value4

open Idealize.ShloMosaic Idealize.ShloMosaic.TcCoe Idealize.ShloMosaic.Tactic Idealize.ShloMosaic.ValueIdx Idealize.SL.Sem
open Cert.KernelIdeal Cert.KernelIdeal.Gen

/-- The rows of the stacked input-side products that time step `t` of the body reads: rows t·128 … t·128 + 127. -/
def xgL (x0 : FVec Ideal S8x128x1024 .f32) (x2 : FVec Ideal S1x1024x3072 .bf16) : ℕ → FVec Ideal S128x3072 .bf16
  | 1 => fun j => k4_pay3 (F := Ideal) x0 x2 ((Rect.unit (s := S1024x3072) ![128, 0] S128x3072.size inb_S1024x3072_S128x3072_128_0).toLoadRect.idx j)
  | 2 => fun j => k4_pay3 (F := Ideal) x0 x2 ((Rect.unit (s := S1024x3072) ![256, 0] S128x3072.size inb_S1024x3072_S128x3072_256_0).toLoadRect.idx j)
  | 3 => fun j => k4_pay3 (F := Ideal) x0 x2 ((Rect.unit (s := S1024x3072) ![384, 0] S128x3072.size inb_S1024x3072_S128x3072_384_0).toLoadRect.idx j)
  | 4 => fun j => k4_pay3 (F := Ideal) x0 x2 ((Rect.unit (s := S1024x3072) ![512, 0] S128x3072.size inb_S1024x3072_S128x3072_512_0).toLoadRect.idx j)
  | 5 => fun j => k4_pay3 (F := Ideal) x0 x2 ((Rect.unit (s := S1024x3072) ![640, 0] S128x3072.size inb_S1024x3072_S128x3072_640_0).toLoadRect.idx j)
  | 6 => fun j => k4_pay3 (F := Ideal) x0 x2 ((Rect.unit (s := S1024x3072) ![768, 0] S128x3072.size inb_S1024x3072_S128x3072_768_0).toLoadRect.idx j)
  | 7 => fun j => k4_pay3 (F := Ideal) x0 x2 ((Rect.unit (s := S1024x3072) ![896, 0] S128x3072.size inb_S1024x3072_S128x3072_896_0).toLoadRect.idx j)
  | _ => fun j => k4_pay3 (F := Ideal) x0 x2 ((Rect.unit (s := S1024x3072) ![0, 0] S128x3072.size inb_S1024x3072_S128x3072_0_0).toLoadRect.idx j)

theorem hz3 : (![0, 0, 0] : Fin 3 → Nat) = fun _ => 0 := funext fun a => by fin_cases a <;> rfl
theorem hz2 : (![0, 0] : Fin 2 → Nat) = fun _ => 0 := funext fun a => by fin_cases a <;> rfl

/-- Row r, column c of the 128 rows loaded from row o of the stacked products is row o + r, column c. -/
theorem rows_idx (o : ℕ) (inb : ∀ a, (![o, 0] : Fin 2 → ℕ) a + S128x3072.size a ≤ S1024x3072.size a) (r : Fin 128)
    (c : Fin 3072) (q : Fin 1024) (hq : q.val = o + r.val) :
    (Rect.unit (s := S1024x3072) ![o, 0] S128x3072.size inb).toLoadRect.idx (ix2 r c) = ix2 q c := by
  funext a
  apply Fin.ext
  match a with
  | ⟨0, _⟩ =>
    simp only [LoadRect.idx_apply, Rect.emb_apply, Rect.off_unit, Rect.stride_unit, Nat.one_mul]
    show o + r.val = q.val
    omega
  | ⟨1, _⟩ =>
    simp only [LoadRect.idx_apply, Rect.emb_apply, Rect.off_unit, Rect.stride_unit, Nat.one_mul]
    show 0 + c.val = c.val
    omega

/-- Step s's rows of the input-side products are rows s·128 … s·128 + 127 of the stacked products. -/
theorem xgL_apply (x0 : FVec Ideal S8x128x1024 .f32) (x2 : FVec Ideal S1x1024x3072 .bf16) (s : Fin 8) (r : Fin 128) (c : Fin 3072) :
    xgL x0 x2 s.val (ix2 r c)
      = k4_pay3 (F := Ideal) x0 x2 (ix2 ⟨s.val * 128 + r.val, by have := s.isLt; have := r.isLt; omega⟩ c) := by
  match s with
  | ⟨0, _⟩ => exact congrArg (k4_pay3 (F := Ideal) x0 x2) (rows_idx 0 _ r c _ (by simp))
  | ⟨1, _⟩ => exact congrArg (k4_pay3 (F := Ideal) x0 x2) (rows_idx 128 _ r c _ (by simp))
  | ⟨2, _⟩ => exact congrArg (k4_pay3 (F := Ideal) x0 x2) (rows_idx 256 _ r c _ (by simp))
  | ⟨3, _⟩ => exact congrArg (k4_pay3 (F := Ideal) x0 x2) (rows_idx 384 _ r c _ (by simp))
  | ⟨4, _⟩ => exact congrArg (k4_pay3 (F := Ideal) x0 x2) (rows_idx 512 _ r c _ (by simp))
  | ⟨5, _⟩ => exact congrArg (k4_pay3 (F := Ideal) x0 x2) (rows_idx 640 _ r c _ (by simp))
  | ⟨6, _⟩ => exact congrArg (k4_pay3 (F := Ideal) x0 x2) (rows_idx 768 _ r c _ (by simp))
  | ⟨7, _⟩ => exact congrArg (k4_pay3 (F := Ideal) x0 x2) (rows_idx 896 _ r c _ (by simp))

/-- The hidden states of the tile over the blocks the body loads. -/
abbrev hidB (x0 : FVec Ideal S8x128x1024 .f32) (x1 : FVec Ideal S1x128x1024 .f32) (x2 : FVec Ideal S1x1024x3072 .bf16)
    (x3 : FVec Ideal S1x1024x2048 .bf16) (x4 : FVec Ideal S1x1024x1024 .bf16) (x5 x6 x7 : FVec Ideal S1x1x1024 .f32) (t : ℕ) :
    FVec Ideal S128x1024 .f32 :=
  hidT (k4_pay5 x5) (k4_pay6 x6) (k4_pay7 x7) (k4_pay4 x1) (xgL x0 x2) x3 x4 t

/-! ### The eight stores' payloads are the hidden states with a leading unit axis -/
section Stores
variable {F : FTy → Type} [FloatOps F]

theorem st0_eq (v12 : FVec F S128x1024 .f32) (v14 v16 v18 : FVec F S1x1024 .f32) (v21 v22 : FVec F S128x1024 .bf16)
    (v28 v30 : FVec F S128x1024 .f32) (v41 : Vec F S1x1024x1024 .bf16) :
    k4_pay14 v12 v14 v16 v18 v21 v22 v28 v30 v41
      = shapeCast S1x128x1024 (k4_pay13 v12 v14 v16 v18 v21 v22 v28 v30 v41) shapeCasts_S128x1024_S1x128x1024 := rfl
theorem st1_eq (v18 : FVec F S1x1024 .f32) (v53 : FVec F S128x1024 .f32) (v60 : FVec F S128x1024 .bf16)
    (v71 v75 : FVec F S128x1024 .f32) (v79 : Vec F S1x1024x1024 .bf16) :
    k4_pay20 v18 v53 v60 v71 v75 v79 = shapeCast S1x128x1024 (k4_pay19 v18 v53 v60 v71 v75 v79) shapeCasts_S128x1024_S1x128x1024 := rfl
theorem st2_eq (v18 : FVec F S1x1024 .f32) (v91 : FVec F S128x1024 .f32) (v98 : FVec F S128x1024 .bf16)
    (v109 : FVec F S128x1024 .f32) (v116 : FVec F S128x1024 .bf16) (v117 : Vec F S1x1024x1024 .bf16) :
    k4_pay26 v18 v91 v98 v109 v116 v117 = shapeCast S1x128x1024 (k4_pay25 v18 v91 v98 v109 v116 v117) shapeCasts_S128x1024_S1x128x1024 := rfl
theorem st3_eq (v129 v147 v161 : FVec F S128x1024 .f32) :
    k4_pay31 v129 v147 v161 = shapeCast S1x128x1024 (k4_pay30 v129 v147 v161) shapeCasts_S128x1024_S1x128x1024 := rfl
theorem st4_eq (v205 : FVec F S128x1024 .f32) :
    k4_pay33 v205 = shapeCast S1x128x1024 v205 shapeCasts_S128x1024_S1x128x1024 := rfl
theorem st5_eq (v14 v16 v18 : FVec F S1x1024 .f32) (v205 : FVec F S128x1024 .f32) (v209 : Vec F S128x3072 .bf16)
    (v214 : Vec F S1x1024x2048 .bf16) (v231 : Vec F S1x1024x1024 .bf16) :
    k4_pay35 v14 v16 v18 v205 v209 v214 v231
      = shapeCast S1x128x1024 (k4_pay34 v14 v16 v18 v205 v209 v214 v231) shapeCasts_S128x1024_S1x128x1024 := rfl
theorem st6_eq (v14 v16 v18 : FVec F S1x1024 .f32) (v243 : FVec F S128x1024 .f32) (v247 : Vec F S128x3072 .bf16)
    (v252 : Vec F S1x1024x2048 .bf16) (v269 : Vec F S1x1024x1024 .bf16) :
    k4_pay37 v14 v16 v18 v243 v247 v252 v269
      = shapeCast S1x128x1024 (k4_pay36 v14 v16 v18 v243 v247 v252 v269) shapeCasts_S128x1024_S1x128x1024 := rfl
theorem st7_eq (v14 v16 v18 : FVec F S1x1024 .f32) (v281 : FVec F S128x1024 .f32) (v286 v287 v288 v289 : FVec F S128x1024 .bf16)
    (v290 : Vec F S1x1024x2048 .bf16) (v307 : Vec F S1x1024x1024 .bf16) :
    k4_pay2 v14 v16 v18 v281 v286 v287 v288 v289 v290 v307
      = shapeCast S1x128x1024 (k4_pay1 v14 v16 v18 v281 v286 v287 v288 v289 v290 v307) shapeCasts_S128x1024_S1x128x1024 := rfl

end Stores

/-! ### The pieces the run leaves -/

set_option maxHeartbeats 1000000 in
/-- The hidden sequence's staging memref ends with eight pieces, last stored first: slice t along time holds the hidden
    state after step t. -/
theorem run8_eq (c : Dev nD) (i : grid4.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun4_A c i arg1 harg1 arg2 harg2 arg3 harg3 arg4 harg4 arg5 harg5 arg6 harg6 arg7 harg7 arg8 harg8 arg9 harg9 arg10 harg10 arg11 harg11 x0 x1 x2 x3 x4 x5 x6 x7).1 =
      [⟨Rect.unit ![7, 0, 0] S1x128x1024.size inb_S8x128x1024_S1x128x1024_7_0_0, shapeCast S1x128x1024 (hidB x0 x1 x2 x3 x4 x5 x6 x7 7) shapeCasts_S128x1024_S1x128x1024⟩,
       ⟨Rect.unit ![6, 0, 0] S1x128x1024.size inb_S8x128x1024_S1x128x1024_6_0_0, shapeCast S1x128x1024 (hidB x0 x1 x2 x3 x4 x5 x6 x7 6) shapeCasts_S128x1024_S1x128x1024⟩,
       ⟨Rect.unit ![5, 0, 0] S1x128x1024.size inb_S8x128x1024_S1x128x1024_5_0_0, shapeCast S1x128x1024 (hidB x0 x1 x2 x3 x4 x5 x6 x7 5) shapeCasts_S128x1024_S1x128x1024⟩,
       ⟨Rect.unit ![4, 0, 0] S1x128x1024.size inb_S8x128x1024_S1x128x1024_4_0_0, shapeCast S1x128x1024 (hidB x0 x1 x2 x3 x4 x5 x6 x7 4) shapeCasts_S128x1024_S1x128x1024⟩,
       ⟨Rect.unit ![3, 0, 0] S1x128x1024.size inb_S8x128x1024_S1x128x1024_3_0_0, shapeCast S1x128x1024 (hidB x0 x1 x2 x3 x4 x5 x6 x7 3) shapeCasts_S128x1024_S1x128x1024⟩,
       ⟨Rect.unit ![2, 0, 0] S1x128x1024.size inb_S8x128x1024_S1x128x1024_2_0_0, shapeCast S1x128x1024 (hidB x0 x1 x2 x3 x4 x5 x6 x7 2) shapeCasts_S128x1024_S1x128x1024⟩,
       ⟨Rect.unit ![1, 0, 0] S1x128x1024.size inb_S8x128x1024_S1x128x1024_1_0_0, shapeCast S1x128x1024 (hidB x0 x1 x2 x3 x4 x5 x6 x7 1) shapeCasts_S128x1024_S1x128x1024⟩,
       ⟨Rect.unit ![0, 0, 0] S1x128x1024.size inb_S8x128x1024_S1x128x1024_0_0_0, shapeCast S1x128x1024 (hidB x0 x1 x2 x3 x4 x5 x6 x7 0) shapeCasts_S128x1024_S1x128x1024⟩] := by
  unfold kernelRun4_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [st0_eq, st1_eq, st2_eq, st3_eq, st4_eq, st5_eq, st6_eq, st7_eq]
  simp only [hid7_eq]
  simp only [hid6_eq]
  simp only [hid5_eq]
  simp only [hid4_eq]
  simp only [hid3_eq]
  simp only [hid2_eq]
  simp only [hid1_eq]
  simp only [hid0_eq]
  rfl

set_option maxHeartbeats 1000000 in
/-- The final state's staging memref ends with one piece: the hidden state after the last step. -/
theorem run9_eq (c : Dev nD) (i : grid4.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun4_A c i arg1 harg1 arg2 harg2 arg3 harg3 arg4 harg4 arg5 harg5 arg6 harg6 arg7 harg7 arg8 harg8 arg9 harg9 arg10 harg10 arg11 harg11 x0 x1 x2 x3 x4 x5 x6 x7).2.1 =
      [⟨Rect.unit ![0, 0] S128x1024.size inb_S128x1024_S128x1024_0_0, hidB x0 x1 x2 x3 x4 x5 x6 x7 7⟩] := by
  unfold kernelRun4_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [hid7_eq]
  simp only [hid6_eq]
  simp only [hid5_eq]
  simp only [hid4_eq]
  simp only [hid3_eq]
  simp only [hid2_eq]
  simp only [hid1_eq]
  simp only [hid0_eq]
  rfl

end Cert.KernelIdeal.Value4

end
-- ==== Proof.KI.Val4Idx.lean ====
/-
  Where each window's block sits at a grid point of the layer's pipeline: the batch-tiled windows (the input sequence, the
  initial state, the two outputs) at block t of the batch axis, the parameter windows at the layer's slab.
-/
import proofs.«428164_j36979668418798_3_alg».proof.Proof.Gen.KernelIdeal.Launch
import Idealize.ShloMosaic.Lib.Decide

set_option Elab.async false

namespace Cert.KernelIdeal.Value4

open Idealize.ShloMosaic Idealize.SL.Sem Cert.KernelIdeal Cert.KernelIdeal.Gen

/-- The layer this region runs: the slab of the stacked parameter and initial-state arrays its windows read. -/
abbrev layerIx : Fin 8 := 4
/-- The array this region reads its input sequence from. -/
abbrev inpRef : Ref sig .tc := main_v18_0

/-! ### Where each window's block sits at a grid point: the index maps, decided over the four points -/

theorem idx4_0 : ∀ t : Fin cfg4.N, win4_0.index t 0 = 0 ∧ win4_0.index t 1 = t.val ∧ win4_0.index t 2 = 0 :=
  (by decide +kernel : ∀ t : Fin grid4.N, _)
theorem idx4_1 : ∀ t : Fin cfg4.N, win4_1.index t 0 = layerIx.val ∧ win4_1.index t 1 = t.val ∧ win4_1.index t 2 = 0 :=
  (by decide +kernel : ∀ t : Fin grid4.N, _)
theorem idx4_2 : ∀ t : Fin cfg4.N, win4_2.index t 0 = layerIx.val ∧ win4_2.index t 1 = 0 ∧ win4_2.index t 2 = 0 :=
  (by decide +kernel : ∀ t : Fin grid4.N, _)
theorem idx4_3 : ∀ t : Fin cfg4.N, win4_3.index t 0 = layerIx.val ∧ win4_3.index t 1 = 0 ∧ win4_3.index t 2 = 0 :=
  (by decide +kernel : ∀ t : Fin grid4.N, _)
theorem idx4_4 : ∀ t : Fin cfg4.N, win4_4.index t 0 = layerIx.val ∧ win4_4.index t 1 = 0 ∧ win4_4.index t 2 = 0 :=
  (by decide +kernel : ∀ t : Fin grid4.N, _)
theorem idx4_5 : ∀ t : Fin cfg4.N, win4_5.index t 0 = layerIx.val ∧ win4_5.index t 1 = 0 ∧ win4_5.index t 2 = 0 :=
  (by decide +kernel : ∀ t : Fin grid4.N, _)
theorem idx4_6 : ∀ t : Fin cfg4.N, win4_6.index t 0 = layerIx.val ∧ win4_6.index t 1 = 0 ∧ win4_6.index t 2 = 0 :=
  (by decide +kernel : ∀ t : Fin grid4.N, _)
theorem idx4_7 : ∀ t : Fin cfg4.N, win4_7.index t 0 = layerIx.val ∧ win4_7.index t 1 = 0 ∧ win4_7.index t 2 = 0 :=
  (by decide +kernel : ∀ t : Fin grid4.N, _)
theorem idx4_8 : ∀ t : Fin cfg4.N, win4_8.index t 0 = 0 ∧ win4_8.index t 1 = t.val ∧ win4_8.index t 2 = 0 :=
  (by decide +kernel : ∀ t : Fin grid4.N, _)
theorem idx4_9 : ∀ t : Fin cfg4.N, win4_9.index t 0 = t.val ∧ win4_9.index t 1 = 0 :=
  (by decide +kernel : ∀ t : Fin grid4.N, _)

end Cert.KernelIdeal.Value4
-- ==== Proof.KI.Val4Blk.lean ====
/-
  The blocks the layer's pipeline hands its body at a grid point, read off the arrays as the region finds them: batch rows
  t·128 … t·128 + 127 of the input sequence and of the layer's initial state, and the layer's slabs of the parameter arrays.
-/
import proofs.«428164_j36979668418798_3_alg».proof.Proof.KI.Reg4
import proofs.«428164_j36979668418798_3_alg».proof.Proof.KI.Val4Idx
import Idealize.ShloMosaic.Lib.Pipeline.Value
import Idealize.ShloMosaic.Lib.ValueIdx

noncomputable section

namespace Cert.KernelIdeal.Value4

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ### The windows' blocks at a grid point, read off the arrays -/

section Blocks
variable (c : Dev nD) (t : Fin cfg4.N)

/-- Window 0's block: batch rows t·128 … t·128 + 127 of the input sequence, all eight steps. -/
theorem iblk4_0_apply (s : Fin 8) (r : Fin 128) (k : Fin 1024) (b : Fin 512) (hb : b.val = t.val * 128 + r.val) :
    (iblk4 V c 0 t : Vec Ideal S8x128x1024 .f32) (ix3 s r k) = (V c inpRef : S8x512x1024.Idx → EReal) (ix3 s b k) := by
  unfold iblk4
  rw [View.read_apply]
  show V c inpRef _ = V c inpRef _
  congr 1
  funext a
  apply Fin.ext
  match a with
  | ⟨0, _⟩ => show win4_0.index t 0 * 8 + 1 * s.val = s.val; rw [(idx4_0 t).1]; omega
  | ⟨1, _⟩ => show win4_0.index t 1 * 128 + 1 * r.val = b.val; rw [(idx4_0 t).2.1, hb]; omega
  | ⟨2, _⟩ => show win4_0.index t 2 * 1024 + 1 * k.val = k.val; rw [(idx4_0 t).2.2]; omega

/-- Window 1's block: the same batch rows of the layer's initial state. -/
theorem iblk4_1_apply (r : Fin 128) (k : Fin 1024) (b : Fin 512) (hb : b.val = t.val * 128 + r.val) :
    (iblk4 V c 1 t : Vec Ideal S1x128x1024 .f32) (ix3 0 r k) = (V c main_arg1 : S8x512x1024.Idx → EReal) (ix3 layerIx b k) := by
  unfold iblk4
  rw [View.read_apply]
  show V c main_arg1 _ = V c main_arg1 _
  congr 1
  funext a
  apply Fin.ext
  match a with
  | ⟨0, _⟩ => show win4_1.index t 0 * 1 + 1 * (0 : Fin 1).val = layerIx.val; rw [(idx4_1 t).1]; simp
  | ⟨1, _⟩ => show win4_1.index t 1 * 128 + 1 * r.val = b.val; rw [(idx4_1 t).2.1, hb]; omega
  | ⟨2, _⟩ => show win4_1.index t 2 * 1024 + 1 * k.val = k.val; rw [(idx4_1 t).2.2]; omega

/-- Window 2's block: the layer's slab of the input-side matrices. -/
theorem iblk4_2_apply (k : Fin 1024) (j : Fin 3072) :
    (iblk4 V c 2 t : Vec Ideal S1x1024x3072 .bf16) (ix3 0 k j) = (V c main_v5 : S8x1024x3072.Idx → EReal) (ix3 layerIx k j) := by
  unfold iblk4
  rw [View.read_apply]
  show V c main_v5 _ = V c main_v5 _
  congr 1
  funext a
  apply Fin.ext
  match a with
  | ⟨0, _⟩ => show win4_2.index t 0 * 1 + 1 * (0 : Fin 1).val = layerIx.val; rw [(idx4_2 t).1]; simp
  | ⟨1, _⟩ => show win4_2.index t 1 * 1024 + 1 * k.val = k.val; rw [(idx4_2 t).2.1]; omega
  | ⟨2, _⟩ => show win4_2.index t 2 * 3072 + 1 * j.val = j.val; rw [(idx4_2 t).2.2]; omega

/-- Window 3's block: the layer's slab of the gates' hidden-side matrices. -/
theorem iblk4_3_apply (k : Fin 1024) (j : Fin 2048) :
    (iblk4 V c 3 t : Vec Ideal S1x1024x2048 .bf16) (ix3 0 k j) = (V c main_v8 : S8x1024x2048.Idx → EReal) (ix3 layerIx k j) := by
  unfold iblk4
  rw [View.read_apply]
  show V c main_v8 _ = V c main_v8 _
  congr 1
  funext a
  apply Fin.ext
  match a with
  | ⟨0, _⟩ => show win4_3.index t 0 * 1 + 1 * (0 : Fin 1).val = layerIx.val; rw [(idx4_3 t).1]; simp
  | ⟨1, _⟩ => show win4_3.index t 1 * 1024 + 1 * k.val = k.val; rw [(idx4_3 t).2.1]; omega
  | ⟨2, _⟩ => show win4_3.index t 2 * 2048 + 1 * j.val = j.val; rw [(idx4_3 t).2.2]; omega

/-- Window 4's block: the layer's slab of the candidate's hidden-side matrix. -/
theorem iblk4_4_apply (k j : Fin 1024) :
    (iblk4 V c 4 t : Vec Ideal S1x1024x1024 .bf16) (ix3 0 k j) = (V c main_v9 : S8x1024x1024.Idx → EReal) (ix3 layerIx k j) := by
  unfold iblk4
  rw [View.read_apply]
  show V c main_v9 _ = V c main_v9 _
  congr 1
  funext a
  apply Fin.ext
  match a with
  | ⟨0, _⟩ => show win4_4.index t 0 * 1 + 1 * (0 : Fin 1).val = layerIx.val; rw [(idx4_4 t).1]; simp
  | ⟨1, _⟩ => show win4_4.index t 1 * 1024 + 1 * k.val = k.val; rw [(idx4_4 t).2.1]; omega
  | ⟨2, _⟩ => show win4_4.index t 2 * 1024 + 1 * j.val = j.val; rw [(idx4_4 t).2.2]; omega

/-- Window 5's block: the layer's update-gate bias row. -/
theorem iblk4_5_apply (j : Fin 1024) :
    (iblk4 V c 5 t : Vec Ideal S1x1x1024 .f32) (ix3 0 0 j) = (V c main_v11 : S8x1x1024.Idx → EReal) (ix3 layerIx 0 j) := by
  unfold iblk4
  rw [View.read_apply]
  show V c main_v11 _ = V c main_v11 _
  congr 1
  funext a
  apply Fin.ext
  match a with
  | ⟨0, _⟩ => show win4_5.index t 0 * 1 + 1 * (0 : Fin 1).val = layerIx.val; rw [(idx4_5 t).1]; simp
  | ⟨1, _⟩ => show win4_5.index t 1 * 1 + 1 * (0 : Fin 1).val = (0 : Fin 1).val; rw [(idx4_5 t).2.1]; simp
  | ⟨2, _⟩ => show win4_5.index t 2 * 1024 + 1 * j.val = j.val; rw [(idx4_5 t).2.2]; omega

/-- Window 6's block: the layer's reset-gate bias row. -/
theorem iblk4_6_apply (j : Fin 1024) :
    (iblk4 V c 6 t : Vec Ideal S1x1x1024 .f32) (ix3 0 0 j) = (V c main_v12 : S8x1x1024.Idx → EReal) (ix3 layerIx 0 j) := by
  unfold iblk4
  rw [View.read_apply]
  show V c main_v12 _ = V c main_v12 _
  congr 1
  funext a
  apply Fin.ext
  match a with
  | ⟨0, _⟩ => show win4_6.index t 0 * 1 + 1 * (0 : Fin 1).val = layerIx.val; rw [(idx4_6 t).1]; simp
  | ⟨1, _⟩ => show win4_6.index t 1 * 1 + 1 * (0 : Fin 1).val = (0 : Fin 1).val; rw [(idx4_6 t).2.1]; simp
  | ⟨2, _⟩ => show win4_6.index t 2 * 1024 + 1 * j.val = j.val; rw [(idx4_6 t).2.2]; omega

/-- Window 7's block: the layer's candidate bias row. -/
theorem iblk4_7_apply (j : Fin 1024) :
    (iblk4 V c 7 t : Vec Ideal S1x1x1024 .f32) (ix3 0 0 j) = (V c main_v13 : S8x1x1024.Idx → EReal) (ix3 layerIx 0 j) := by
  unfold iblk4
  rw [View.read_apply]
  show V c main_v13 _ = V c main_v13 _
  congr 1
  funext a
  apply Fin.ext
  match a with
  | ⟨0, _⟩ => show win4_7.index t 0 * 1 + 1 * (0 : Fin 1).val = layerIx.val; rw [(idx4_7 t).1]; simp
  | ⟨1, _⟩ => show win4_7.index t 1 * 1 + 1 * (0 : Fin 1).val = (0 : Fin 1).val; rw [(idx4_7 t).2.1]; simp
  | ⟨2, _⟩ => show win4_7.index t 2 * 1024 + 1 * j.val = j.val; rw [(idx4_7 t).2.2]; omega

end Blocks

end Cert.KernelIdeal.Value4

end
-- ==== Proof.KI.Val4Final.lean ====
/-
  The two arrays a GRU layer's pipeline leaves: the hidden sequence [time, batch, feature] and the last hidden state
  [batch, feature] of the layer run on the region's input sequence from the layer's initial state. At grid point t the body
  writes the tile of batch rows t·128 … t·128 + 127: slice s along time of its first output is the tile's hidden state after
  step s, its second output the state after the last step; the four tiles cover the batch axis.
-/
import proofs.«428164_j36979668418798_3_alg».proof.Proof.KI.Reg4
import proofs.«428164_j36979668418798_3_alg».proof.Proof.KI.Val4Run
import proofs.«428164_j36979668418798_3_alg».proof.Proof.KI.Val4Blk

set_option maxRecDepth 65536

noncomputable section

namespace Cert.KernelIdeal.Value4

open Idealize.ShloMosaic Idealize.ShloMosaic.TcCoe Idealize.ShloMosaic.ValueIdx Idealize.SL.Sem
open Cert.KernelIdeal Cert.KernelIdeal.Gen Cert.LayerOf
open Idealize.ShloMosaic.Pipeline (Dat)

/-! ### The staging memrefs after the body, entry by entry -/

/-- A slice of extent 1 at time `t` holding `H t` with a leading unit axis is, at each of its entries, `H` at the entry's time
    on the entry's row and column. -/
theorem slice_piece (t : ℕ) (inb : ∀ a, (![t, 0, 0] : Fin 3 → ℕ) a + S1x128x1024.size a ≤ S8x128x1024.size a)
    (H : ℕ → FVec Ideal S128x1024 .f32) (x : S1x128x1024.Idx) :
    shapeCast S1x128x1024 (H t) shapeCasts_S128x1024_S1x128x1024 x
      = (fun y : S8x128x1024.Idx => H (y 0).val (ix2 (y 1) (y 2) : S128x1024.Idx))
          ((Rect.unit (s := S8x128x1024) ![t, 0, 0] S1x128x1024.size inb).emb x) := by
  obtain ⟨u, a, b, rfl⟩ : ∃ (u : Fin 1) (a : Fin 128) (b : Fin 1024), x = ix3 u a b := ⟨x 0, x 1, x 2, eq_ix3 x⟩
  have hu : u.val = 0 := by omega
  rw [shapeCast_ab_1ab_apply]
  have h0 : (((Rect.unit (s := S8x128x1024) ![t, 0, 0] S1x128x1024.size inb).emb (ix3 u a b)) 0).val = t := by
    rw [Rect.emb_apply]; simp [hu]
  have h1 : ((Rect.unit (s := S8x128x1024) ![t, 0, 0] S1x128x1024.size inb).emb (ix3 u a b)) 1 = a :=
    Fin.ext (by rw [Rect.emb_apply]; simp)
  have h2 : ((Rect.unit (s := S8x128x1024) ![t, 0, 0] S1x128x1024.size inb).emb (ix3 u a b)) 2 = b :=
    Fin.ext (by rw [Rect.emb_apply]; simp)
  show H t (ix2 a b) = H _ (ix2 _ _)
  rw [h0, h1, h2]

section Out
variable (c : Dev nD) (i : grid4.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32)

/-- The hidden sequence's staging memref after the body: entry (s, r, k) is entry (r, k) of the tile's hidden state after
    step s. -/
theorem out8_apply (s : Fin 8) (r : Fin 128) (k : Fin 1024) :
    out4_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k) = hidB x0 x1 x2 x3 x4 x5 x6 x7 s.val (ix2 r k) := by
  unfold out4_A_8
  rw [View.read_writes_eq_canon _ _ _ (cover4_A_8 c i arg1 harg1 arg2 harg2 arg3 harg3 arg4 harg4 arg5 harg5 arg6 harg6 arg7 harg7 arg8 harg8 arg9 harg9 arg10 harg10 arg11 harg11 x0 x1 x2 x3 x4 x5 x6 x7)]
  have hc := cover4_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k)
  rw [run8_eq] at hc ⊢
  refine (View.canon_apply_of_pieces (fun y : S8x128x1024.Idx => hidB x0 x1 x2 x3 x4 x5 x6 x7 (y 0).val (ix2 (y 1) (y 2) : S128x1024.Idx))
    _ ?_ (ix3 s r k) hc).trans rfl
  intro p hp x
  simp only [List.mem_cons, List.not_mem_nil, or_false] at hp
  rcases hp with rfl | rfl | rfl | rfl | rfl | rfl | rfl | rfl
  · exact slice_piece 7 inb_S8x128x1024_S1x128x1024_7_0_0 (hidB x0 x1 x2 x3 x4 x5 x6 x7) x
  · exact slice_piece 6 inb_S8x128x1024_S1x128x1024_6_0_0 (hidB x0 x1 x2 x3 x4 x5 x6 x7) x
  · exact slice_piece 5 inb_S8x128x1024_S1x128x1024_5_0_0 (hidB x0 x1 x2 x3 x4 x5 x6 x7) x
  · exact slice_piece 4 inb_S8x128x1024_S1x128x1024_4_0_0 (hidB x0 x1 x2 x3 x4 x5 x6 x7) x
  · exact slice_piece 3 inb_S8x128x1024_S1x128x1024_3_0_0 (hidB x0 x1 x2 x3 x4 x5 x6 x7) x
  · exact slice_piece 2 inb_S8x128x1024_S1x128x1024_2_0_0 (hidB x0 x1 x2 x3 x4 x5 x6 x7) x
  · exact slice_piece 1 inb_S8x128x1024_S1x128x1024_1_0_0 (hidB x0 x1 x2 x3 x4 x5 x6 x7) x
  · exact slice_piece 0 inb_S8x128x1024_S1x128x1024_0_0_0 (hidB x0 x1 x2 x3 x4 x5 x6 x7) x

/-- The final state's staging memref after the body is the tile's hidden state after the last step. -/
theorem out9_eq : out4_A_9 c i arg1 harg1 arg2 harg2 arg3 harg3 arg4 harg4 arg5 harg5 arg6 harg6 arg7 harg7 arg8 harg8 arg9 harg9 arg10 harg10 arg11 harg11 x0 x1 x2 x3 x4 x5 x6 x7 = hidB x0 x1 x2 x3 x4 x5 x6 x7 7 := by
  unfold out4_A_9
  rw [View.read_writes_eq_canon _ _ _ (cover4_A_9 c i arg1 harg1 arg2 harg2 arg3 harg3 arg4 harg4 arg5 harg5 arg6 harg6 arg7 harg7 arg8 harg8 arg9 harg9 arg10 harg10 arg11 harg11 x0 x1 x2 x3 x4 x5 x6 x7), run9_eq, View.canon_unit_zero (S := S128x1024) hz2]

end Out

/-! ### What each grid point writes back, and the arrays the region leaves -/

variable (V : (c : Dev nD) → (b : Ref sig .tc) → Buf (Elt Ideal) ((c : Thread nD τ).loc b))

/-- The layer's parameters as the region finds them. -/
abbrev Wof (c : Dev nD) : Cert.Spec.LayerW :=
  WofV (V c main_v5) (V c main_v8) (V c main_v9) (V c main_v11) (V c main_v12) (V c main_v13) layerIx

/-- The hidden sequence the layer leaves. -/
abbrev seqG (c : Dev nD) : Sseq.Idx → EReal := seqOut (Wof V c) (V c inpRef) (V c main_arg1) layerIx
/-- The last hidden state the layer leaves. -/
abbrev finG (c : Dev nD) : Sfin.Idx → EReal := finOut (Wof V c) (V c inpRef) (V c main_arg1) layerIx

/-- Row r of the tile of grid point t after step s is batch row t·128 + r of the layer's hidden sequence at time s. -/
theorem tile_at (c : Dev nD) (t : Fin cfg4.N) (s : Fin 8) (r : Fin 128) (k : Fin 1024) (b : Fin 512)
    (hb : b.val = t.val * 128 + r.val) :
    hidB (iblk4 V c 0 t) (iblk4 V c 1 t) (iblk4 V c 2 t) (iblk4 V c 3 t) (iblk4 V c 4 t) (iblk4 V c 5 t) (iblk4 V c 6 t)
        (iblk4 V c 7 t) s.val (ix2 r k)
      = seqG V c (ix3 s b k) :=
  tile_apply (V c main_v5) (V c main_v8) (V c main_v9) (V c main_v11) (V c main_v12) (V c main_v13) (V c inpRef) (V c main_arg1)
    layerIx (iblk4 V c 0 t) (iblk4 V c 1 t) (iblk4 V c 2 t) (iblk4 V c 3 t) (iblk4 V c 4 t) (iblk4 V c 5 t) (iblk4 V c 6 t)
    (iblk4 V c 7 t) (xgL (iblk4 V c 0 t) (iblk4 V c 2 t)) b r
    (fun s k => iblk4_0_apply V c t s r k b hb) (fun k => iblk4_1_apply V c t r k b hb) (fun k j => iblk4_2_apply V c t k j)
    (fun k j => iblk4_3_apply V c t k j) (fun k j => iblk4_4_apply V c t k j) (fun j => iblk4_5_apply V c t j)
    (fun j => iblk4_6_apply V c t j) (fun j => iblk4_7_apply V c t j)
    (fun s c' => xgL_apply (iblk4 V c 0 t) (iblk4 V c 2 t) s r c') s k

/-- WHAT POINT t WRITES BACK to the hidden sequence: block t of the layer's hidden sequence. -/
theorem flushed8_eq (c : Dev nD) (t : Fin cfg4.N) :
    (dat4 V c).flushed 8 t = ((cfg4.win 8).blk t).view.read (Elt Ideal) (seqG V c) := by
  show (cfg4.win 8).cut (grid4.coords t) ((dat4 V c).after 8 t) = _
  rw [after4_8]
  unfold outsAt4
  dsimp only
  funext j
  obtain ⟨s, r, k, rfl⟩ : ∃ (s : Fin 8) (r : Fin 128) (k : Fin 1024), j = ix3 s r k := ⟨j 0, j 1, j 2, eq_ix3 j⟩
  have ht : t.val < 4 := by have := t.isLt; have hN : cfg4.N = 4 := N_4; omega
  show out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) (iblk4 V c 0 t) (iblk4 V c 1 t) (iblk4 V c 2 t) (iblk4 V c 3 t) (iblk4 V c 4 t) (iblk4 V c 5 t) (iblk4 V c 6 t) (iblk4 V c 7 t) (ix3 s r k)
    = seqG V c (((cfg4.win 8).blk t).view.emb (ix3 s r k))
  rw [out8_apply]
  have hb : ((cfg4.win 8).blk t).view.emb (ix3 s r k)
      = (ix3 s (⟨t.val * 128 + r.val, by have := r.isLt; omega⟩ : Fin 512) k : S8x512x1024.Idx) := by
    funext a
    apply Fin.ext
    match a with
    | ⟨0, _⟩ => show win4_8.index t 0 * 8 + 1 * s.val = s.val; rw [(idx4_8 t).1]; omega
    | ⟨1, _⟩ => show win4_8.index t 1 * 128 + 1 * r.val = t.val * 128 + r.val; rw [(idx4_8 t).2.1]; omega
    | ⟨2, _⟩ => show win4_8.index t 2 * 1024 + 1 * k.val = k.val; rw [(idx4_8 t).2.2]; omega
  rw [hb]
  exact tile_at V c t s r k _ rfl

/-- WHAT POINT t WRITES BACK to the last hidden state: block t of the layer's last hidden state. -/
theorem flushed9_eq (c : Dev nD) (t : Fin cfg4.N) :
    (dat4 V c).flushed 9 t = ((cfg4.win 9).blk t).view.read (Elt Ideal) (finG V c) := by
  show (cfg4.win 9).cut (grid4.coords t) ((dat4 V c).after 9 t) = _
  rw [after4_9]
  unfold outsAt4
  dsimp only
  funext j
  obtain ⟨r, k, rfl⟩ : ∃ (r : Fin 128) (k : Fin 1024), j = ix2 r k := ⟨j 0, j 1, eq_ix2 j⟩
  have ht : t.val < 4 := by have := t.isLt; have hN : cfg4.N = 4 := N_4; omega
  show out4_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) scM4_0 (Memref.isWhole_whole _) (iblk4 V c 0 t) (iblk4 V c 1 t) (iblk4 V c 2 t) (iblk4 V c 3 t) (iblk4 V c 4 t) (iblk4 V c 5 t) (iblk4 V c 6 t) (iblk4 V c 7 t) (ix2 r k)
    = finG V c (((cfg4.win 9).blk t).view.emb (ix2 r k))
  rw [out9_eq]
  have hb : ((cfg4.win 9).blk t).view.emb (ix2 r k)
      = (ix2 (⟨t.val * 128 + r.val, by have := r.isLt; omega⟩ : Fin 512) k : S512x1024.Idx) := by
    funext a
    apply Fin.ext
    match a with
    | ⟨0, _⟩ => show win4_9.index t 0 * 128 + 1 * r.val = t.val * 128 + r.val; rw [(idx4_9 t).1]; omega
    | ⟨1, _⟩ => show win4_9.index t 1 * 1024 + 1 * k.val = k.val; rw [(idx4_9 t).2]; omega
  rw [hb]
  exact tile_at V c t 7 r k _ rfl

/-- An index of the hidden sequence is in point t's block iff each coordinate is in the block's range on its axis. -/
theorem mem_blk8 (t : Fin cfg4.N) (i : S8x512x1024.Idx) :
    i ∈ ((cfg4.win 8).blk t).view.set ↔ ∀ a : Fin 3, win4_8.index t a * S8x128x1024.size a ≤ (i a).val
      ∧ (i a).val < win4_8.index t a * S8x128x1024.size a + S8x128x1024.size a := by
  show i ∈ ((View.whole main_v19_0).slice (win4_8.rect t)).set ↔ _
  rw [View.set_slice_whole, Rect.mem_set_unit]
  exact Iff.rfl

/-- An index of the last hidden state is in point t's block iff each coordinate is in the block's range on its axis. -/
theorem mem_blk9 (t : Fin cfg4.N) (i : S512x1024.Idx) :
    i ∈ ((cfg4.win 9).blk t).view.set ↔ ∀ a : Fin 2, win4_9.index t a * S128x1024.size a ≤ (i a).val
      ∧ (i a).val < win4_9.index t a * S128x1024.size a + S128x1024.size a := by
  show i ∈ ((View.whole main_v19_1).slice (win4_9.rect t)).set ↔ _
  rw [View.set_slice_whole, Rect.mem_set_unit]
  exact Iff.rfl

/-- The four tiles cover the hidden sequence: batch row b is in the block of point b / 128. -/
theorem cover8 (i : S8x512x1024.Idx) : ∃ t : Fin cfg4.N, (cfg4.win 8).flush t = true ∧ i ∈ ((cfg4.win 8).blk t).view.set := by
  have h0 : (i 0).val < 8 := (i 0).isLt
  have h1 : (i 1).val < 512 := (i 1).isLt
  have h2 : (i 2).val < 1024 := (i 2).isLt
  have hN : cfg4.N = 4 := N_4
  refine ⟨⟨(i 1).val / 128, by rw [hN]; omega⟩, flush4_8 _, ?_⟩
  rw [mem_blk8]
  obtain ⟨e0, e1, e2⟩ := idx4_8 ⟨(i 1).val / 128, by rw [hN]; omega⟩
  intro a
  match a with
  | ⟨0, _⟩ =>
    show win4_8.index _ 0 * 8 ≤ (i 0).val ∧ (i 0).val < win4_8.index _ 0 * 8 + 8
    rw [e0]; omega
  | ⟨1, _⟩ =>
    show win4_8.index _ 1 * 128 ≤ (i 1).val ∧ (i 1).val < win4_8.index _ 1 * 128 + 128
    rw [e1]; show (i 1).val / 128 * 128 ≤ (i 1).val ∧ (i 1).val < (i 1).val / 128 * 128 + 128; omega
  | ⟨2, _⟩ =>
    show win4_8.index _ 2 * 1024 ≤ (i 2).val ∧ (i 2).val < win4_8.index _ 2 * 1024 + 1024
    rw [e2]; omega

/-- The four tiles cover the last hidden state. -/
theorem cover9 (i : S512x1024.Idx) : ∃ t : Fin cfg4.N, (cfg4.win 9).flush t = true ∧ i ∈ ((cfg4.win 9).blk t).view.set := by
  have h0 : (i 0).val < 512 := (i 0).isLt
  have h1 : (i 1).val < 1024 := (i 1).isLt
  have hN : cfg4.N = 4 := N_4
  refine ⟨⟨(i 0).val / 128, by rw [hN]; omega⟩, flush4_9 _, ?_⟩
  rw [mem_blk9]
  obtain ⟨e0, e1⟩ := idx4_9 ⟨(i 0).val / 128, by rw [hN]; omega⟩
  intro a
  match a with
  | ⟨0, _⟩ =>
    show win4_9.index _ 0 * 128 ≤ (i 0).val ∧ (i 0).val < win4_9.index _ 0 * 128 + 128
    rw [e0]; show (i 0).val / 128 * 128 ≤ (i 0).val ∧ (i 0).val < (i 0).val / 128 * 128 + 128; omega
  | ⟨1, _⟩ =>
    show win4_9.index _ 1 * 1024 ≤ (i 1).val ∧ (i 1).val < win4_9.index _ 1 * 1024 + 1024
    rw [e1]; omega

/-- THE HIDDEN SEQUENCE the region leaves is the layer's, run on the region's input sequence from the layer's initial state. -/
theorem seq_value4 (c : Dev nD) :
    (dat4 V c).arrAt 8 cfg4.N
      = seqOut (WofV (V c main_v5) (V c main_v8) (V c main_v9) (V c main_v11) (V c main_v12) (V c main_v13) layerIx)
          (V c inpRef) (V c main_arg1) layerIx :=
  (dat4 V c).arrAt_eq_of_cover 8 (seqG V c) (fun t _ => flushed8_eq V c t) cover8

/-- THE LAST HIDDEN STATE the region leaves is the layer's. -/
theorem fin_value4 (c : Dev nD) :
    (dat4 V c).arrAt 9 cfg4.N
      = finOut (WofV (V c main_v5) (V c main_v8) (V c main_v9) (V c main_v11) (V c main_v12) (V c main_v13) layerIx)
          (V c inpRef) (V c main_arg1) layerIx :=
  (dat4 V c).arrAt_eq_of_cover 9 (finG V c) (fun t _ => flushed9_eq V c t) cover9

end Cert.KernelIdeal.Value4

end
-- ==== Proof.KI.Val5Mat.lean ====
/-
  The three matrix products of a GRU layer's tile, read entry by entry over the extended reals: each is the sum over
  the 1024 contracted features of the products of the two operands' entries.
-/
import proofs.«428164_j36979668418798_3_alg».proof.Proof.Gen.KernelIdeal.Skeleton
import Idealize.ShloMosaic.PureOps.Ideal
import Idealize.ShloMosaic.PureOps.Ideal.Laws
import Idealize.ShloMosaic.Lib.ValueIdx

noncomputable section

namespace Cert.KernelIdeal.Value5

open Idealize.ShloMosaic Idealize.ShloMosaic.ValueIdx Cert.KernelIdeal Cert.KernelIdeal.Gen
open scoped BigOperators

/-! ### The input-side product: [1024, 1024] by [1024, 3072] -/

abbrev Dx := dot_S1024x1024_S1024x3072_S1024x3072_1_0_0_1_n_n

theorem lhsDx_0 (j : S1024x3072.Idx) (k : Dx.contr.Idx) : (Dx.lhsIdx j k 0 : ℕ) = j 0 := by
  simp [DotDims.lhsIdx, Dx, dot_S1024x1024_S1024x3072_S1024x3072_1_0_0_1_n_n]; rfl
theorem lhsDx_1 (j : S1024x3072.Idx) (k : Dx.contr.Idx) : (Dx.lhsIdx j k 1 : ℕ) = k ⟨0, by decide⟩ := by
  simp [DotDims.lhsIdx, Dx, dot_S1024x1024_S1024x3072_S1024x3072_1_0_0_1_n_n]; rfl
theorem rhsDx_0 (j : S1024x3072.Idx) (k : Dx.contr.Idx) : (Dx.rhsIdx j k 0 : ℕ) = k ⟨0, by decide⟩ := by
  simp [DotDims.rhsIdx, Dx, dot_S1024x1024_S1024x3072_S1024x3072_1_0_0_1_n_n]; rfl
theorem rhsDx_1 (j : S1024x3072.Idx) (k : Dx.contr.Idx) : (Dx.rhsIdx j k 1 : ℕ) = j 1 := by
  simp [DotDims.rhsIdx, Dx, dot_S1024x1024_S1024x3072_S1024x3072_1_0_0_1_n_n]; rfl

/-- Entry (r, c) of this product is the sum over k of A[r, k] · B[k, c]. -/
theorem mmDx_apply (A : FVec Ideal S1024x1024 .bf16) (B : FVec Ideal S1024x3072 .bf16) (r : Fin 1024) (c : Fin 3072) :
    matmul Dx none A B (constant S1024x3072 .f32 0x00000000#32) (ix2 r c) = ∑ k : Fin 1024, A (ix2 r k) * B (ix2 k c) := by
  show FloatOps.matmul Dx none A B _ (ix2 r c) = _
  rw [Ideal.matmul_constant_zero_apply, ← Equiv.sum_comp (contrEquiv1 Dx 1024 rfl rfl).symm]
  refine Finset.sum_congr rfl fun k _ => ?_
  have ck := contrEquiv1_symm_val Dx 1024 rfl rfl k
  have l : Dx.lhsIdx (ix2 r c) ((contrEquiv1 Dx 1024 rfl rfl).symm k) = ix2 r k := by
    funext ax; apply Fin.ext
    match ax with
    | ⟨0, _⟩ => exact lhsDx_0 _ _
    | ⟨1, _⟩ => exact (lhsDx_1 _ _).trans ck
  have rr : Dx.rhsIdx (ix2 r c) ((contrEquiv1 Dx 1024 rfl rfl).symm k) = ix2 k c := by
    funext ax; apply Fin.ext
    match ax with
    | ⟨0, _⟩ => exact (rhsDx_0 _ _).trans ck
    | ⟨1, _⟩ => exact rhsDx_1 _ _
  rw [l, rr]

/-! ### The hidden-side product of the two gates: [128, 1024] by [1024, 2048] -/

abbrev Dzr := dot_S128x1024_S1024x2048_S128x2048_1_0_0_1_n_n

theorem lhsDzr_0 (j : S128x2048.Idx) (k : Dzr.contr.Idx) : (Dzr.lhsIdx j k 0 : ℕ) = j 0 := by
  simp [DotDims.lhsIdx, Dzr, dot_S128x1024_S1024x2048_S128x2048_1_0_0_1_n_n]; rfl
theorem lhsDzr_1 (j : S128x2048.Idx) (k : Dzr.contr.Idx) : (Dzr.lhsIdx j k 1 : ℕ) = k ⟨0, by decide⟩ := by
  simp [DotDims.lhsIdx, Dzr, dot_S128x1024_S1024x2048_S128x2048_1_0_0_1_n_n]; rfl
theorem rhsDzr_0 (j : S128x2048.Idx) (k : Dzr.contr.Idx) : (Dzr.rhsIdx j k 0 : ℕ) = k ⟨0, by decide⟩ := by
  simp [DotDims.rhsIdx, Dzr, dot_S128x1024_S1024x2048_S128x2048_1_0_0_1_n_n]; rfl
theorem rhsDzr_1 (j : S128x2048.Idx) (k : Dzr.contr.Idx) : (Dzr.rhsIdx j k 1 : ℕ) = j 1 := by
  simp [DotDims.rhsIdx, Dzr, dot_S128x1024_S1024x2048_S128x2048_1_0_0_1_n_n]; rfl

/-- Entry (r, c) of this product is the sum over k of A[r, k] · B[k, c]. -/
theorem mmDzr_apply (A : FVec Ideal S128x1024 .bf16) (B : FVec Ideal S1024x2048 .bf16) (r : Fin 128) (c : Fin 2048) :
    matmul Dzr none A B (constant S128x2048 .f32 0x00000000#32) (ix2 r c) = ∑ k : Fin 1024, A (ix2 r k) * B (ix2 k c) := by
  show FloatOps.matmul Dzr none A B _ (ix2 r c) = _
  rw [Ideal.matmul_constant_zero_apply, ← Equiv.sum_comp (contrEquiv1 Dzr 1024 rfl rfl).symm]
  refine Finset.sum_congr rfl fun k _ => ?_
  have ck := contrEquiv1_symm_val Dzr 1024 rfl rfl k
  have l : Dzr.lhsIdx (ix2 r c) ((contrEquiv1 Dzr 1024 rfl rfl).symm k) = ix2 r k := by
    funext ax; apply Fin.ext
    match ax with
    | ⟨0, _⟩ => exact lhsDzr_0 _ _
    | ⟨1, _⟩ => exact (lhsDzr_1 _ _).trans ck
  have rr : Dzr.rhsIdx (ix2 r c) ((contrEquiv1 Dzr 1024 rfl rfl).symm k) = ix2 k c := by
    funext ax; apply Fin.ext
    match ax with
    | ⟨0, _⟩ => exact (rhsDzr_0 _ _).trans ck
    | ⟨1, _⟩ => exact rhsDzr_1 _ _
  rw [l, rr]

/-! ### The hidden-side product of the candidate: [128, 1024] by [1024, 1024] -/

abbrev Dh := dot_S128x1024_S1024x1024_S128x1024_1_0_0_1_n_n

theorem lhsDh_0 (j : S128x1024.Idx) (k : Dh.contr.Idx) : (Dh.lhsIdx j k 0 : ℕ) = j 0 := by
  simp [DotDims.lhsIdx, Dh, dot_S128x1024_S1024x1024_S128x1024_1_0_0_1_n_n]; rfl
theorem lhsDh_1 (j : S128x1024.Idx) (k : Dh.contr.Idx) : (Dh.lhsIdx j k 1 : ℕ) = k ⟨0, by decide⟩ := by
  simp [DotDims.lhsIdx, Dh, dot_S128x1024_S1024x1024_S128x1024_1_0_0_1_n_n]; rfl
theorem rhsDh_0 (j : S128x1024.Idx) (k : Dh.contr.Idx) : (Dh.rhsIdx j k 0 : ℕ) = k ⟨0, by decide⟩ := by
  simp [DotDims.rhsIdx, Dh, dot_S128x1024_S1024x1024_S128x1024_1_0_0_1_n_n]; rfl
theorem rhsDh_1 (j : S128x1024.Idx) (k : Dh.contr.Idx) : (Dh.rhsIdx j k 1 : ℕ) = j 1 := by
  simp [DotDims.rhsIdx, Dh, dot_S128x1024_S1024x1024_S128x1024_1_0_0_1_n_n]; rfl

/-- Entry (r, c) of this product is the sum over k of A[r, k] · B[k, c]. -/
theorem mmDh_apply (A : FVec Ideal S128x1024 .bf16) (B : FVec Ideal S1024x1024 .bf16) (r : Fin 128) (c : Fin 1024) :
    matmul Dh none A B (constant S128x1024 .f32 0x00000000#32) (ix2 r c) = ∑ k : Fin 1024, A (ix2 r k) * B (ix2 k c) := by
  show FloatOps.matmul Dh none A B _ (ix2 r c) = _
  rw [Ideal.matmul_constant_zero_apply, ← Equiv.sum_comp (contrEquiv1 Dh 1024 rfl rfl).symm]
  refine Finset.sum_congr rfl fun k _ => ?_
  have ck := contrEquiv1_symm_val Dh 1024 rfl rfl k
  have l : Dh.lhsIdx (ix2 r c) ((contrEquiv1 Dh 1024 rfl rfl).symm k) = ix2 r k := by
    funext ax; apply Fin.ext
    match ax with
    | ⟨0, _⟩ => exact lhsDh_0 _ _
    | ⟨1, _⟩ => exact (lhsDh_1 _ _).trans ck
  have rr : Dh.rhsIdx (ix2 r c) ((contrEquiv1 Dh 1024 rfl rfl).symm k) = ix2 k c := by
    funext ax; apply Fin.ext
    match ax with
    | ⟨0, _⟩ => exact (rhsDh_0 _ _).trans ck
    | ⟨1, _⟩ => exact rhsDh_1 _ _
  rw [l, rr]

end Cert.KernelIdeal.Value5

end
-- ==== Proof.KI.Val5Step.lean ====
/-
  One time step of a GRU layer on a tile of 128 batch rows, as one function of the tile's previous hidden state, the
  tile's rows of the input-side products, the two hidden-side weight blocks and the three bias rows; and the eight
  hidden states a tile goes through, each the step applied to the one before.
-/
import proofs.«428164_j36979668418798_3_alg».proof.Proof.Gen.KernelIdeal.Skeleton

noncomputable section

namespace Cert.KernelIdeal.Value5

open Idealize.ShloMosaic Cert.KernelIdeal Cert.KernelIdeal.Gen

variable {F : FTy → Type} [FloatOps F]

/-- The new hidden state of a tile: with `xg` the tile's rows of the input-side products (three bands of 1024 columns:
    update gate, reset gate, candidate), `h` the previous hidden state,
      z = σ(xg_z + h·W_z + b_z),  r = σ(xg_r + h·W_r + b_r),  c = tanh(xg_c + (r ⊙ h)·W_c + b_c),
      h' = (1 − z) ⊙ h + z ⊙ c. -/
def step (bz br bh : FVec F S1x1024 .f32) (h : FVec F S128x1024 .f32) (xg : FVec F S128x3072 .bf16)
    (whzr : FVec F S1x1024x2048 .bf16) (whh : FVec F S1x1024x1024 .bf16) : FVec F S128x1024 .f32 :=
  have xz : FVec F S128x1024 .bf16 := extractStridedSlice S128x1024 ![0, 0] xg slices_S128x3072_o0_0_S128x1024
  have xr : FVec F S128x1024 .bf16 := extractStridedSlice S128x1024 ![0, 1024] xg slices_S128x3072_o0_1024_S128x1024
  have xc : FVec F S128x1024 .bf16 := extractStridedSlice S128x1024 ![0, 2048] xg slices_S128x3072_o0_2048_S128x1024
  have hb : FVec F S128x1024 .bf16 := truncf .bf16 h bitsLt_bf16_f32
  have wzr : FVec F S1024x2048 .bf16 := shapeCast S1024x2048 whzr shapeCasts_S1x1024x2048_S1024x2048
  have z0 : FVec F S128x2048 .f32 := constant S128x2048 .f32 0x00000000#32
  have hg : FVec F S128x2048 .f32 := matmul dot_S128x1024_S1024x2048_S128x2048_1_0_0_1_n_n none hb wzr z0
  have hz : FVec F S128x1024 .f32 := extractStridedSlice S128x1024 ![0, 0] hg slices_S128x2048_o0_0_S128x1024
  have hr : FVec F S128x1024 .f32 := extractStridedSlice S128x1024 ![0, 1024] hg slices_S128x2048_o0_1024_S128x1024
  have a1 : FVec F S128x1024 .f32 := extf .f32 xz bitsLt_bf16_f32
  have a2 : FVec F S128x1024 .f32 := addf a1 hz
  have a3 : FVec F S128x1024 .f32 := broadcastTo S128x1024 bz broadcasts_S1x1024_S128x1024
  have a4 : FVec F S128x1024 .f32 := addf a2 a3
  have z : FVec F S128x1024 .f32 := logistic a4
  have b1 : FVec F S128x1024 .f32 := extf .f32 xr bitsLt_bf16_f32
  have b2 : FVec F S128x1024 .f32 := addf b1 hr
  have b3 : FVec F S128x1024 .f32 := broadcastTo S128x1024 br broadcasts_S1x1024_S128x1024
  have b4 : FVec F S128x1024 .f32 := addf b2 b3
  have r : FVec F S128x1024 .f32 := logistic b4
  have rh : FVec F S128x1024 .f32 := mulf r h
  have rhb : FVec F S128x1024 .bf16 := truncf .bf16 rh bitsLt_bf16_f32
  have wc : FVec F S1024x1024 .bf16 := shapeCast S1024x1024 whh shapeCasts_S1x1024x1024_S1024x1024
  have z1 : FVec F S128x1024 .f32 := constant S128x1024 .f32 0x00000000#32
  have hc : FVec F S128x1024 .f32 := matmul dot_S128x1024_S1024x1024_S128x1024_1_0_0_1_n_n none rhb wc z1
  have c1 : FVec F S128x1024 .f32 := extf .f32 xc bitsLt_bf16_f32
  have c2 : FVec F S128x1024 .f32 := addf c1 hc
  have c3 : FVec F S128x1024 .f32 := broadcastTo S128x1024 bh broadcasts_S1x1024_S128x1024
  have c4 : FVec F S128x1024 .f32 := addf c2 c3
  have c : FVec F S128x1024 .f32 := tanh c4
  have one : F .f32 := Scalar.ofBits .f32 0x3F800000#32
  have ones : FVec F S128x1024 .f32 := broadcast S128x1024 one
  have nz : FVec F S128x1024 .f32 := subf ones z
  have keep : FVec F S128x1024 .f32 := mulf nz h
  have upd : FVec F S128x1024 .f32 := mulf z c
  addf keep upd

/-! ### The eight hidden states of the program's body are eight steps

Each equation: the value the body holds as hidden state after time step t, written over the values it loaded, is the step
applied to the hidden state after step t − 1 (the loaded initial state at t = 0), the rows of the input-side products
loaded for step t, and the weight blocks and bias rows as loaded. -/

theorem hid0_eq (v11 : Vec F S1x128x1024 .f32) (v13 v15 v17 : Vec F S1x1x1024 .f32) (v19 : Vec F S128x3072 .bf16)
    (v24 : Vec F S1x1024x2048 .bf16) (v41 : Vec F S1x1024x1024 .bf16) :
    k5_pay13 (k5_pay4 v11) (k5_pay5 v13) (k5_pay6 v15) (k5_pay7 v17) (k5_pay8 v19) (k5_pay9 v19) (k5_pay11 v11 v24)
        (k5_pay12 v11 v19 v24) v41
      = step (k5_pay5 v13) (k5_pay6 v15) (k5_pay7 v17) (k5_pay4 v11) v19 v24 v41 := rfl

theorem hid1_eq (v12 : FVec F S128x1024 .f32) (v14 v16 v18 : FVec F S1x1024 .f32) (v21 v22 : FVec F S128x1024 .bf16)
    (v28 v30 : FVec F S128x1024 .f32) (v41 : Vec F S1x1024x1024 .bf16) (v57 : Vec F S128x3072 .bf16)
    (v62 : Vec F S1x1024x2048 .bf16) (v79 : Vec F S1x1024x1024 .bf16) :
    k5_pay19 v18 (k5_pay13 v12 v14 v16 v18 v21 v22 v28 v30 v41) (k5_pay15 v57)
        (k5_pay17 v12 v14 v16 v18 v21 v22 v28 v30 v41 v57 v62) (k5_pay18 v12 v14 v16 v18 v21 v22 v28 v30 v41 v57 v62) v79
      = step v14 v16 v18 (k5_pay13 v12 v14 v16 v18 v21 v22 v28 v30 v41) v57 v62 v79 := rfl

theorem hid2_eq (v14 v16 v18 : FVec F S1x1024 .f32) (v53 : FVec F S128x1024 .f32) (v60 : FVec F S128x1024 .bf16)
    (v71 v75 : FVec F S128x1024 .f32) (v79 : Vec F S1x1024x1024 .bf16) (v95 : Vec F S128x3072 .bf16)
    (v100 : Vec F S1x1024x2048 .bf16) (v117 : Vec F S1x1024x1024 .bf16) :
    k5_pay25 v18 (k5_pay19 v18 v53 v60 v71 v75 v79) (k5_pay21 v95) (k5_pay23 v14 v18 v53 v60 v71 v75 v79 v95 v100)
        (k5_pay24 v16 v18 v53 v60 v71 v75 v79 v95 v100) v117
      = step v14 v16 v18 (k5_pay19 v18 v53 v60 v71 v75 v79) v95 v100 v117 := rfl

theorem hid3_eq (v14 v16 v18 : FVec F S1x1024 .f32) (v91 : FVec F S128x1024 .f32) (v98 : FVec F S128x1024 .bf16)
    (v109 : FVec F S128x1024 .f32) (v116 : FVec F S128x1024 .bf16) (v117 : Vec F S1x1024x1024 .bf16)
    (v133 : Vec F S128x3072 .bf16) (v138 : Vec F S1x1024x2048 .bf16) (v155 : Vec F S1x1024x1024 .bf16) :
    k5_pay30 (k5_pay25 v18 v91 v98 v109 v116 v117) (k5_pay28 v14 v18 v91 v98 v109 v116 v117 v133 v138)
        (k5_pay29 v16 v18 v91 v98 v109 v116 v117 v133 v138 v155)
      = step v14 v16 v18 (k5_pay25 v18 v91 v98 v109 v116 v117) v133 v138 v155 := rfl

theorem hid4_eq (v14 v16 v18 : FVec F S1x1024 .f32) (v129 v147 v161 : FVec F S128x1024 .f32) (v171 : Vec F S128x3072 .bf16)
    (v176 : Vec F S1x1024x2048 .bf16) (v193 : Vec F S1x1024x1024 .bf16) :
    k5_pay32 v14 v16 v18 v129 v147 v161 v171 v176 v193 = step v14 v16 v18 (k5_pay30 v129 v147 v161) v171 v176 v193 := rfl

theorem hid5_eq (v14 v16 v18 : FVec F S1x1024 .f32) (v205 : FVec F S128x1024 .f32) (v209 : Vec F S128x3072 .bf16)
    (v214 : Vec F S1x1024x2048 .bf16) (v231 : Vec F S1x1024x1024 .bf16) :
    k5_pay34 v14 v16 v18 v205 v209 v214 v231 = step v14 v16 v18 v205 v209 v214 v231 := rfl

theorem hid6_eq (v14 v16 v18 : FVec F S1x1024 .f32) (v243 : FVec F S128x1024 .f32) (v247 : Vec F S128x3072 .bf16)
    (v252 : Vec F S1x1024x2048 .bf16) (v269 : Vec F S1x1024x1024 .bf16) :
    k5_pay36 v14 v16 v18 v243 v247 v252 v269 = step v14 v16 v18 v243 v247 v252 v269 := rfl

theorem hid7_eq (v14 v16 v18 : FVec F S1x1024 .f32) (v243 : FVec F S128x1024 .f32) (v247 : Vec F S128x3072 .bf16)
    (v252 : Vec F S1x1024x2048 .bf16) (v269 : Vec F S1x1024x1024 .bf16) (v285 : Vec F S128x3072 .bf16)
    (v290 : Vec F S1x1024x2048 .bf16) (v307 : Vec F S1x1024x1024 .bf16) :
    k5_pay1 v14 v16 v18 (k5_pay36 v14 v16 v18 v243 v247 v252 v269) (k5_pay38 v285) (k5_pay39 v285) (k5_pay40 v285)
        (k5_pay41 v14 v16 v18 v243 v247 v252 v269) v290 v307
      = step v14 v16 v18 (k5_pay36 v14 v16 v18 v243 v247 v252 v269) v285 v290 v307 := rfl

end Cert.KernelIdeal.Value5

end
-- ==== Proof.KI.Val5Cell.lean ====
/-
  A step of the layer on a tile of 128 batch rows, read row by row over the extended reals: row r of the new hidden
  state is the GRU cell of row r — its update gate, reset gate and candidate are the specification's, because each matrix
  product is the sum over the 1024 contracted features and every change of float format is the identity there.
-/
import proofs.«428164_j36979668418798_3_alg».proof.Proof.KI.Val5Mat
import proofs.«428164_j36979668418798_3_alg».proof.Proof.KI.Val5Step
import proofs.«428164_j36979668418798_3_alg».proof.Proof.LayerOf
import Idealize.ShloMosaic.Lib.ValueLayout
import Idealize.ShloMosaic.Lib.Pipeline.Value
import Idealize.ShloMosaic.Lib.IdealHost

noncomputable section

namespace Cert.KernelIdeal.Value5

open Idealize.ShloMosaic Idealize.ShloMosaic.ValueIdx Cert.KernelIdeal Cert.KernelIdeal.Gen Cert.Spec Cert.LayerOf
open scoped BigOperators

/-! ### The two hidden-side products of a step, entry by entry -/

/-- Entry (r, c) of the gates' hidden-side product: the sum over k of h[r, k] · W[0, k, c]. -/
theorem hg_apply (h : FVec Ideal S128x1024 .f32) (whzr : FVec Ideal S1x1024x2048 .bf16) (r : Fin 128) (c : Fin 2048) :
    matmul Dzr none (truncf .bf16 h bitsLt_bf16_f32) (shapeCast S1024x2048 whzr shapeCasts_S1x1024x2048_S1024x2048)
        (constant S128x2048 .f32 0x00000000#32) (ix2 r c)
      = ∑ k : Fin 1024, h (ix2 r k) * whzr (ix3 0 k c) := by
  rw [mmDzr_apply]
  refine Finset.sum_congr rfl fun k _ => ?_
  rw [truncf_apply, shapeCast_1ab_ab_apply]

/-- Entry (r, j) of the candidate's hidden-side product: the sum over k of u[r, k] · W[0, k, j]. -/
theorem hc_apply (u : FVec Ideal S128x1024 .f32) (whh : FVec Ideal S1x1024x1024 .bf16) (r : Fin 128) (j : Fin 1024) :
    matmul Dh none (truncf .bf16 u bitsLt_bf16_f32) (shapeCast S1024x1024 whh shapeCasts_S1x1024x1024_S1024x1024)
        (constant S128x1024 .f32 0x00000000#32) (ix2 r j)
      = ∑ k : Fin 1024, u (ix2 r k) * whh (ix3 0 k j) := by
  rw [mmDh_apply]
  refine Finset.sum_congr rfl fun k _ => ?_
  rw [truncf_apply, shapeCast_1ab_ab_apply]

/-! ### The three parts of a step: update gate, reset gate, candidate -/

/-- The gates' hidden-side product of a tile. -/
def hgate (h : FVec Ideal S128x1024 .f32) (whzr : FVec Ideal S1x1024x2048 .bf16) : FVec Ideal S128x2048 .f32 :=
  matmul Dzr none (truncf .bf16 h bitsLt_bf16_f32) (shapeCast S1024x2048 whzr shapeCasts_S1x1024x2048_S1024x2048)
    (constant S128x2048 .f32 0x00000000#32)

/-- The update gate of a tile. -/
def zGate (bz : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 0] xg slices_S128x3072_o0_0_S128x1024) bitsLt_bf16_f32)
      (extractStridedSlice S128x1024 ![0, 0] (hgate h whzr) slices_S128x2048_o0_0_S128x1024))
    (broadcastTo S128x1024 bz broadcasts_S1x1024_S128x1024))

/-- The reset gate of a tile. -/
def rGate (br : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 1024] xg slices_S128x3072_o0_1024_S128x1024) bitsLt_bf16_f32)
      (extractStridedSlice S128x1024 ![0, 1024] (hgate h whzr) slices_S128x2048_o0_1024_S128x1024))
    (broadcastTo S128x1024 br broadcasts_S1x1024_S128x1024))

/-- The candidate state of a tile, from its reset gate `R`. -/
def cCand (bh : FVec Ideal S1x1024 .f32) (h R : FVec Ideal S128x1024 .f32) (xg : FVec Ideal S128x3072 .bf16)
    (whh : FVec Ideal S1x1024x1024 .bf16) : FVec Ideal S128x1024 .f32 :=
  tanh (addf (addf (extf .f32 (extractStridedSlice S128x1024 ![0, 2048] xg slices_S128x3072_o0_2048_S128x1024) bitsLt_bf16_f32)
      (matmul Dh none (truncf .bf16 (mulf R h) bitsLt_bf16_f32) (shapeCast S1024x1024 whh shapeCasts_S1x1024x1024_S1024x1024)
        (constant S128x1024 .f32 0x00000000#32)))
    (broadcastTo S128x1024 bh broadcasts_S1x1024_S128x1024))

/-- The step is (1 − z) ⊙ h + z ⊙ c over those three. -/
theorem step_eq (bz br bh : FVec Ideal S1x1024 .f32) (h : FVec Ideal S128x1024 .f32) (xg : FVec Ideal S128x3072 .bf16)
    (whzr : FVec Ideal S1x1024x2048 .bf16) (whh : FVec Ideal S1x1024x1024 .bf16) :
    step bz br bh h xg whzr whh
      = addf (mulf (subf (broadcast S128x1024 (Scalar.ofBits (F := Ideal) .f32 0x3F800000#32)) (zGate bz h xg whzr)) h)
          (mulf (zGate bz h xg whzr) (cCand bh h (rGate br h xg whzr) xg whh)) := rfl

/-! ### A step on a tile is the cell on each of its rows -/

section Row
variable (W : LayerW) (x hrow : Row)
  (bz br bh : FVec Ideal S1x1024 .f32) (h : FVec Ideal S128x1024 .f32) (xg : FVec Ideal S128x3072 .bf16)
  (whzr : FVec Ideal S1x1024x2048 .bf16) (whh : FVec Ideal S1x1024x1024 .bf16) (r : Fin 128)

/-- Row `r` of the update gate is the row's update gate. -/
theorem zGate_apply
    (hxz : ∀ j : Fin 1024, xg (ix2 r (col3 0 j)) = ∑ k, x k * W.Wxz k j)
    (hwz : ∀ (k j : Fin 1024), whzr (ix3 0 k (col2 0 j)) = W.Whz k j)
    (hbz : ∀ j : Fin 1024, bz (ix2 0 j) = W.bz j)
    (hh : ∀ k : Fin 1024, h (ix2 r k) = hrow k) (j : Fin 1024) :
    zGate bz h xg whzr (ix2 r j) = gateZ W x hrow j := by
  unfold zGate hgate
  show Ideal.logistic ((_ + _) + _) = _
  rw [extf_apply, slice2_axis1_apply 0 xg slices_S128x3072_o0_0_S128x1024 r j (col3 0 j) (by simp [col3]),
    slice2_axis1_apply 0 _ slices_S128x2048_o0_0_S128x1024 r j (col2 0 j) (by simp [col2]),
    broadcastTo_1b_ab_apply, hg_apply, hxz, hbz]
  unfold gateZ
  simp only [hh, hwz]

/-- Row `r` of the reset gate is the row's reset gate. -/
theorem rGate_apply
    (hxr : ∀ j : Fin 1024, xg (ix2 r (col3 1 j)) = ∑ k, x k * W.Wxr k j)
    (hwr : ∀ (k j : Fin 1024), whzr (ix3 0 k (col2 1 j)) = W.Whr k j)
    (hbr : ∀ j : Fin 1024, br (ix2 0 j) = W.br j)
    (hh : ∀ k : Fin 1024, h (ix2 r k) = hrow k) (j : Fin 1024) :
    rGate br h xg whzr (ix2 r j) = gateR W x hrow j := by
  unfold rGate hgate
  show Ideal.logistic ((_ + _) + _) = _
  rw [extf_apply,
    slice2_axis1_apply 1024 xg slices_S128x3072_o0_1024_S128x1024 r j (col3 1 j) (by show 1 * 1024 + j.val = 1024 + j.val; omega),
    slice2_axis1_apply 1024 _ slices_S128x2048_o0_1024_S128x1024 r j (col2 1 j) (by show 1 * 1024 + j.val = 1024 + j.val; omega),
    broadcastTo_1b_ab_apply, hg_apply, hxr, hbr]
  unfold gateR
  simp only [hh, hwr]

/-- Row `r` of the candidate is the row's candidate, when row `r` of `R` is the row's reset gate. -/
theorem cCand_apply (R : FVec Ideal S128x1024 .f32)
    (hxh : ∀ j : Fin 1024, xg (ix2 r (col3 2 j)) = ∑ k, x k * W.Wxh k j)
    (hwh : ∀ (k j : Fin 1024), whh (ix3 0 k j) = W.Whh k j)
    (hbh : ∀ j : Fin 1024, bh (ix2 0 j) = W.bh j)
    (hR : ∀ k : Fin 1024, R (ix2 r k) = gateR W x hrow k)
    (hh : ∀ k : Fin 1024, h (ix2 r k) = hrow k) (j : Fin 1024) :
    cCand bh h R xg whh (ix2 r j) = cand W x hrow j := by
  unfold cCand
  show Ideal.tanh ((_ + _) + _) = _
  rw [extf_apply,
    slice2_axis1_apply 2048 xg slices_S128x3072_o0_2048_S128x1024 r j (col3 2 j) (by show 2 * 1024 + j.val = 2048 + j.val; omega),
    broadcastTo_1b_ab_apply, hc_apply, hxh, hbh]
  unfold cand
  simp only [mulf_apply, hR, hh, hwh]

/-- Row `r` of the new hidden state is the cell of row `r`: given that row `r` of the input-side products holds x·Wxz,
    x·Wxr, x·Wxh in its three bands, that the weight blocks and bias rows hold the layer's parameters, and that row `r` of
    the previous hidden state is `hrow`. -/
theorem step_apply
    (hxz : ∀ j : Fin 1024, xg (ix2 r (col3 0 j)) = ∑ k, x k * W.Wxz k j)
    (hxr : ∀ j : Fin 1024, xg (ix2 r (col3 1 j)) = ∑ k, x k * W.Wxr k j)
    (hxh : ∀ j : Fin 1024, xg (ix2 r (col3 2 j)) = ∑ k, x k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h (ix2 r k) = hrow k) (j : Fin 1024) :
    step bz br bh h xg whzr whh (ix2 r j) = cellRow W x hrow j := by
  rw [step_eq]
  show (Ideal.ofBits .f32 0x3F800000#32 - zGate bz h xg whzr (ix2 r j)) * h (ix2 r j)
      + zGate bz h xg whzr (ix2 r j) * cCand bh h (rGate br h xg whzr) xg whh (ix2 r j) = _
  rw [Ideal.ofBits_one_f32, zGate_apply W x hrow bz h xg whzr r hxz hwz hbz hh,
    cCand_apply W x hrow bh h xg whh r _ hxh hwh hbh (rGate_apply W x hrow br h xg whzr r hxr hwr hbr hh) hh, hh]
  rfl

end Row

end Cert.KernelIdeal.Value5

end
-- ==== Proof.KI.Val5Xg.lean ====
/-
  The input-side products of a tile, read entry by entry over the extended reals: the tile's rows of the eight time steps are
  stacked, 128 rows per step, and multiplied at once by the layer's three input-side matrices side by side.
-/
import proofs.«428164_j36979668418798_3_alg».proof.Proof.KI.Val5Mat
import Idealize.ShloMosaic.Lib.ValueLayout
import Idealize.ShloMosaic.Lib.Pipeline.Value

noncomputable section

namespace Cert.KernelIdeal.Value5

open Idealize.ShloMosaic Idealize.ShloMosaic.ValueIdx Cert.KernelIdeal Cert.KernelIdeal.Gen
open scoped BigOperators

/-! ### The input-side products of a tile -/

/-- Entry (t·128 + r, c) of the tile's input-side products is the sum over k of inp[t, r, k] · Wx[0, k, c]: the eight time
    steps' rows of the tile are stacked, 128 rows per step, and multiplied by the three input-side matrices side by side. -/
theorem xgAll_apply (v0 : FVec Ideal S8x128x1024 .f32) (v4 : FVec Ideal S1x1024x3072 .bf16) (t : Fin 8) (r : Fin 128)
    (c : Fin 3072) (q : Fin 1024) (hq : q.val = t.val * 128 + r.val) :
    (k5_pay3 (F := Ideal) v0 v4 (ix2 q c) : EReal) = ∑ k : Fin 1024, (v0 (ix3 t r k) : EReal) * (v4 (ix3 0 k c) : EReal) := by
  dsimp only [k5_pay3]
  rw [shapeCast_self, truncf_apply]
  show matmul Dx none _ _ _ (ix2 q c) = _
  rw [mmDx_apply]
  refine Finset.sum_congr rfl fun k _ => ?_
  rw [truncf_apply, shapeCast_1ab_ab_apply, shapeCast_self]
  congr 1
  exact shapeCast_apply v0 _ (ix2 q k) (ix3 t r k) (by
    rw [Shape.rowMajor_val_three, Shape.rowMajor_val_two]
    show (t.val * 128 + r.val) * 1024 + k.val = q.val * 1024 + k.val
    rw [hq])

end Cert.KernelIdeal.Value5

end
-- ==== Proof.KI.Val5Tile.lean ====
/-
  A tile of 128 batch rows along the eight time steps: its hidden state after step t is the step applied t + 1 times, and
  row r of it is the layer's hidden row of the batch row the tile's row r holds — by induction on t from the one-step lemma,
  with the tile's blocks cut out of the arrays where the grid point's index maps say.
-/
import proofs.«428164_j36979668418798_3_alg».proof.Proof.KI.Val5Cell
import proofs.«428164_j36979668418798_3_alg».proof.Proof.KI.Val5Xg

noncomputable section

namespace Cert.KernelIdeal.Value5

open Idealize.ShloMosaic Idealize.ShloMosaic.ValueIdx Cert.KernelIdeal Cert.KernelIdeal.Gen Cert.Spec Cert.LayerOf
open scoped BigOperators

/-! ### The hidden states of a tile along time -/

/-- The hidden state of a tile after time step `t`: the step applied `t + 1` times from the initial state, each time to
    that step's rows of the input-side products. -/
def hidT {F : FTy → Type} [FloatOps F] (bz br bh : FVec F S1x1024 .f32) (h0 : FVec F S128x1024 .f32)
    (xg : ℕ → FVec F S128x3072 .bf16) (whzr : FVec F S1x1024x2048 .bf16) (whh : FVec F S1x1024x1024 .bf16) :
    ℕ → FVec F S128x1024 .f32
  | 0 => step bz br bh h0 (xg 0) whzr whh
  | t + 1 => step bz br bh (hidT bz br bh h0 xg whzr whh t) (xg (t + 1)) whzr whh

/-- A time step below eight of an input sequence read off a `[time, batch, feature]` array. -/
theorem seqOf_of_lt (u : Sseq.Idx → EReal) (t : ℕ) (ht : t < 8) (b : Fin 512) (k : Fin 1024) :
    seqOf u t b k = u (ix3 ⟨t, ht⟩ b k) := by
  unfold seqOf
  exact congrArg u (congrArg (fun s => ix3 s b k) (Fin.ext (Nat.mod_eq_of_lt ht)))

section Tile
variable (W : LayerW) (Xs : ℕ → Fin 512 → Row) (H0 : Fin 512 → Row) (b : Fin 512)
  (bz br bh : FVec Ideal S1x1024 .f32) (h0 : FVec Ideal S128x1024 .f32) (xg : ℕ → FVec Ideal S128x3072 .bf16)
  (whzr : FVec Ideal S1x1024x2048 .bf16) (whh : FVec Ideal S1x1024x1024 .bf16) (r : Fin 128)

/-- Row `r` of a tile's hidden state after step `t` is the layer's hidden row of batch row `b` at time `t`: given that row `r`
    of each step's input-side products holds batch row `b`'s products at that time, that the weight blocks and bias rows hold
    the layer's parameters, and that row `r` of the initial state is batch row `b`'s. -/
theorem hidT_apply
    (hxz : ∀ t < 8, ∀ j : Fin 1024, xg t (ix2 r (col3 0 j)) = ∑ k, Xs t b k * W.Wxz k j)
    (hxr : ∀ t < 8, ∀ j : Fin 1024, xg t (ix2 r (col3 1 j)) = ∑ k, Xs t b k * W.Wxr k j)
    (hxh : ∀ t < 8, ∀ j : Fin 1024, xg t (ix2 r (col3 2 j)) = ∑ k, Xs t b k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h0 (ix2 r k) = H0 b k) :
    ∀ t, t < 8 → ∀ j : Fin 1024, hidT bz br bh h0 xg whzr whh t (ix2 r j) = layer W Xs H0 t b j := by
  intro t
  induction t with
  | zero =>
    intro ht j
    rw [layer_zero]
    exact step_apply W (Xs 0 b) (H0 b) bz br bh h0 (xg 0) whzr whh r (hxz 0 ht) (hxr 0 ht) (hxh 0 ht) hwz hwr hwh hbz hbr hbh hh j
  | succ t ih =>
    intro ht j
    rw [layer_succ]
    exact step_apply W (Xs (t + 1) b) (layer W Xs H0 t b) bz br bh (hidT bz br bh h0 xg whzr whh t) (xg (t + 1)) whzr whh r
      (hxz _ ht) (hxr _ ht) (hxh _ ht) hwz hwr hwh hbz hbr hbh (ih (by omega)) j

end Tile

/-! ### A tile's hidden states, from its blocks of the arrays -/

section Blocks
variable (wx : Swx.Idx → EReal) (wzr : Swzr.Idx → EReal) (wh : Swh.Idx → EReal) (bzA brA bhA : Sb3.Idx → EReal)
  (inp hprev : Sseq.Idx → EReal) (l : Fin 8)
  (x0 : FVec Ideal S8x128x1024 .f32) (x1 : FVec Ideal S1x128x1024 .f32) (x2 : FVec Ideal S1x1024x3072 .bf16)
  (x3 : FVec Ideal S1x1024x2048 .bf16) (x4 : FVec Ideal S1x1024x1024 .bf16) (x5 x6 x7 : FVec Ideal S1x1x1024 .f32)
  (xg : ℕ → FVec Ideal S128x3072 .bf16) (b : Fin 512) (r : Fin 128)

/-- With the tile's blocks cut out of the arrays — the input sequence's and the initial state's rows of batch row `b` at
    row `r`, layer `l`'s slabs of the parameter arrays — and each step's rows of the input-side products read from the
    stacked products, row `r` of the tile's hidden state after step `s` is entry (s, b, ·) of the layer's hidden sequence. -/
theorem tile_apply
    (e0 : ∀ (s : Fin 8) (k : Fin 1024), x0 (ix3 s r k) = inp (ix3 s b k))
    (e1 : ∀ k : Fin 1024, x1 (ix3 0 r k) = hprev (ix3 l b k))
    (e2 : ∀ (k : Fin 1024) (c : Fin 3072), x2 (ix3 0 k c) = wx (ix3 l k c))
    (e3 : ∀ (k : Fin 1024) (c : Fin 2048), x3 (ix3 0 k c) = wzr (ix3 l k c))
    (e4 : ∀ (k j : Fin 1024), x4 (ix3 0 k j) = wh (ix3 l k j))
    (e5 : ∀ j : Fin 1024, x5 (ix3 0 0 j) = bzA (ix3 l 0 j))
    (e6 : ∀ j : Fin 1024, x6 (ix3 0 0 j) = brA (ix3 l 0 j))
    (e7 : ∀ j : Fin 1024, x7 (ix3 0 0 j) = bhA (ix3 l 0 j))
    (exg : ∀ (s : Fin 8) (c : Fin 3072),
      xg s.val (ix2 r c) = k5_pay3 (F := Ideal) x0 x2 (ix2 ⟨s.val * 128 + r.val, by have := s.isLt; have := r.isLt; omega⟩ c))
    (s : Fin 8) (j : Fin 1024) :
    hidT (k5_pay5 x5) (k5_pay6 x6) (k5_pay7 x7) (k5_pay4 x1) xg x3 x4 s.val (ix2 r j)
      = seqOut (WofV wx wzr wh bzA brA bhA l) inp hprev l (ix3 s b j) := by
  show _ = layer (WofV wx wzr wh bzA brA bhA l) (seqOf inp) (initOf hprev l) s.val b j
  have hx : ∀ t (ht : t < 8) (c : Fin 3072), xg t (ix2 r c) = ∑ k : Fin 1024, seqOf inp t b k * wx (ix3 l k c) := by
    intro t ht c
    rw [exg ⟨t, ht⟩ c, xgAll_apply x0 x2 ⟨t, ht⟩ r c _ rfl]
    refine Finset.sum_congr rfl fun k _ => ?_
    rw [e0, e2, seqOf_of_lt inp t ht]
  refine hidT_apply (WofV wx wzr wh bzA brA bhA l) (seqOf inp) (initOf hprev l) b _ _ _ _ xg x3 x4 r
    (fun t ht j => hx t ht _) (fun t ht j => hx t ht _) (fun t ht j => hx t ht _)
    (fun k j => e3 k _) (fun k j => e3 k _) (fun k j => e4 k j) ?_ ?_ ?_ ?_ s.val s.isLt j
  · intro j; dsimp only [k5_pay5]; rw [shapeCast_1ab_ab_apply]; exact e5 j
  · intro j; dsimp only [k5_pay6]; rw [shapeCast_1ab_ab_apply]; exact e6 j
  · intro j; dsimp only [k5_pay7]; rw [shapeCast_1ab_ab_apply]; exact e7 j
  · intro k; dsimp only [k5_pay4]; rw [shapeCast_1ab_ab_apply]; exact e1 k

end Blocks

end Cert.KernelIdeal.Value5

end
-- ==== Proof.KI.Val5Run.lean ====
/-
  What the layer's body leaves in its two outputs' staging memrefs, as lists of pieces over the blocks it loads: the hidden
  sequence's memref ends with eight slices of extent 1 along time, slice t the tile's hidden state after step t; the final
  state's memref with the hidden state after the last step. Each step reads its own 128 rows of the stacked input-side
  products, which the body stored whole before the first step.
-/
import proofs.«428164_j36979668418798_3_alg».proof.Proof.KI.Body5
import proofs.«428164_j36979668418798_3_alg».proof.Proof.KI.Val5Tile

set_option maxRecDepth 65536

noncomputable section

namespace Cert.KernelIdeal.Value5

open Idealize.ShloMosaic Idealize.ShloMosaic.TcCoe Idealize.ShloMosaic.Tactic Idealize.ShloMosaic.ValueIdx Idealize.SL.Sem
open Cert.KernelIdeal Cert.KernelIdeal.Gen

/-- The rows of the stacked input-side products that time step `t` of the body reads: rows t·128 … t·128 + 127. -/
def xgL (x0 : FVec Ideal S8x128x1024 .f32) (x2 : FVec Ideal S1x1024x3072 .bf16) : ℕ → FVec Ideal S128x3072 .bf16
  | 1 => fun j => k5_pay3 (F := Ideal) x0 x2 ((Rect.unit (s := S1024x3072) ![128, 0] S128x3072.size inb_S1024x3072_S128x3072_128_0).toLoadRect.idx j)
  | 2 => fun j => k5_pay3 (F := Ideal) x0 x2 ((Rect.unit (s := S1024x3072) ![256, 0] S128x3072.size inb_S1024x3072_S128x3072_256_0).toLoadRect.idx j)
  | 3 => fun j => k5_pay3 (F := Ideal) x0 x2 ((Rect.unit (s := S1024x3072) ![384, 0] S128x3072.size inb_S1024x3072_S128x3072_384_0).toLoadRect.idx j)
  | 4 => fun j => k5_pay3 (F := Ideal) x0 x2 ((Rect.unit (s := S1024x3072) ![512, 0] S128x3072.size inb_S1024x3072_S128x3072_512_0).toLoadRect.idx j)
  | 5 => fun j => k5_pay3 (F := Ideal) x0 x2 ((Rect.unit (s := S1024x3072) ![640, 0] S128x3072.size inb_S1024x3072_S128x3072_640_0).toLoadRect.idx j)
  | 6 => fun j => k5_pay3 (F := Ideal) x0 x2 ((Rect.unit (s := S1024x3072) ![768, 0] S128x3072.size inb_S1024x3072_S128x3072_768_0).toLoadRect.idx j)
  | 7 => fun j => k5_pay3 (F := Ideal) x0 x2 ((Rect.unit (s := S1024x3072) ![896, 0] S128x3072.size inb_S1024x3072_S128x3072_896_0).toLoadRect.idx j)
  | _ => fun j => k5_pay3 (F := Ideal) x0 x2 ((Rect.unit (s := S1024x3072) ![0, 0] S128x3072.size inb_S1024x3072_S128x3072_0_0).toLoadRect.idx j)

theorem hz3 : (![0, 0, 0] : Fin 3 → Nat) = fun _ => 0 := funext fun a => by fin_cases a <;> rfl
theorem hz2 : (![0, 0] : Fin 2 → Nat) = fun _ => 0 := funext fun a => by fin_cases a <;> rfl

/-- Row r, column c of the 128 rows loaded from row o of the stacked products is row o + r, column c. -/
theorem rows_idx (o : ℕ) (inb : ∀ a, (![o, 0] : Fin 2 → ℕ) a + S128x3072.size a ≤ S1024x3072.size a) (r : Fin 128)
    (c : Fin 3072) (q : Fin 1024) (hq : q.val = o + r.val) :
    (Rect.unit (s := S1024x3072) ![o, 0] S128x3072.size inb).toLoadRect.idx (ix2 r c) = ix2 q c := by
  funext a
  apply Fin.ext
  match a with
  | ⟨0, _⟩ =>
    simp only [LoadRect.idx_apply, Rect.emb_apply, Rect.off_unit, Rect.stride_unit, Nat.one_mul]
    show o + r.val = q.val
    omega
  | ⟨1, _⟩ =>
    simp only [LoadRect.idx_apply, Rect.emb_apply, Rect.off_unit, Rect.stride_unit, Nat.one_mul]
    show 0 + c.val = c.val
    omega

/-- Step s's rows of the input-side products are rows s·128 … s·128 + 127 of the stacked products. -/
theorem xgL_apply (x0 : FVec Ideal S8x128x1024 .f32) (x2 : FVec Ideal S1x1024x3072 .bf16) (s : Fin 8) (r : Fin 128) (c : Fin 3072) :
    xgL x0 x2 s.val (ix2 r c)
      = k5_pay3 (F := Ideal) x0 x2 (ix2 ⟨s.val * 128 + r.val, by have := s.isLt; have := r.isLt; omega⟩ c) := by
  match s with
  | ⟨0, _⟩ => exact congrArg (k5_pay3 (F := Ideal) x0 x2) (rows_idx 0 _ r c _ (by simp))
  | ⟨1, _⟩ => exact congrArg (k5_pay3 (F := Ideal) x0 x2) (rows_idx 128 _ r c _ (by simp))
  | ⟨2, _⟩ => exact congrArg (k5_pay3 (F := Ideal) x0 x2) (rows_idx 256 _ r c _ (by simp))
  | ⟨3, _⟩ => exact congrArg (k5_pay3 (F := Ideal) x0 x2) (rows_idx 384 _ r c _ (by simp))
  | ⟨4, _⟩ => exact congrArg (k5_pay3 (F := Ideal) x0 x2) (rows_idx 512 _ r c _ (by simp))
  | ⟨5, _⟩ => exact congrArg (k5_pay3 (F := Ideal) x0 x2) (rows_idx 640 _ r c _ (by simp))
  | ⟨6, _⟩ => exact congrArg (k5_pay3 (F := Ideal) x0 x2) (rows_idx 768 _ r c _ (by simp))
  | ⟨7, _⟩ => exact congrArg (k5_pay3 (F := Ideal) x0 x2) (rows_idx 896 _ r c _ (by simp))

/-- The hidden states of the tile over the blocks the body loads. -/
abbrev hidB (x0 : FVec Ideal S8x128x1024 .f32) (x1 : FVec Ideal S1x128x1024 .f32) (x2 : FVec Ideal S1x1024x3072 .bf16)
    (x3 : FVec Ideal S1x1024x2048 .bf16) (x4 : FVec Ideal S1x1024x1024 .bf16) (x5 x6 x7 : FVec Ideal S1x1x1024 .f32) (t : ℕ) :
    FVec Ideal S128x1024 .f32 :=
  hidT (k5_pay5 x5) (k5_pay6 x6) (k5_pay7 x7) (k5_pay4 x1) (xgL x0 x2) x3 x4 t

/-! ### The eight stores' payloads are the hidden states with a leading unit axis -/
section Stores
variable {F : FTy → Type} [FloatOps F]

theorem st0_eq (v12 : FVec F S128x1024 .f32) (v14 v16 v18 : FVec F S1x1024 .f32) (v21 v22 : FVec F S128x1024 .bf16)
    (v28 v30 : FVec F S128x1024 .f32) (v41 : Vec F S1x1024x1024 .bf16) :
    k5_pay14 v12 v14 v16 v18 v21 v22 v28 v30 v41
      = shapeCast S1x128x1024 (k5_pay13 v12 v14 v16 v18 v21 v22 v28 v30 v41) shapeCasts_S128x1024_S1x128x1024 := rfl
theorem st1_eq (v18 : FVec F S1x1024 .f32) (v53 : FVec F S128x1024 .f32) (v60 : FVec F S128x1024 .bf16)
    (v71 v75 : FVec F S128x1024 .f32) (v79 : Vec F S1x1024x1024 .bf16) :
    k5_pay20 v18 v53 v60 v71 v75 v79 = shapeCast S1x128x1024 (k5_pay19 v18 v53 v60 v71 v75 v79) shapeCasts_S128x1024_S1x128x1024 := rfl
theorem st2_eq (v18 : FVec F S1x1024 .f32) (v91 : FVec F S128x1024 .f32) (v98 : FVec F S128x1024 .bf16)
    (v109 : FVec F S128x1024 .f32) (v116 : FVec F S128x1024 .bf16) (v117 : Vec F S1x1024x1024 .bf16) :
    k5_pay26 v18 v91 v98 v109 v116 v117 = shapeCast S1x128x1024 (k5_pay25 v18 v91 v98 v109 v116 v117) shapeCasts_S128x1024_S1x128x1024 := rfl
theorem st3_eq (v129 v147 v161 : FVec F S128x1024 .f32) :
    k5_pay31 v129 v147 v161 = shapeCast S1x128x1024 (k5_pay30 v129 v147 v161) shapeCasts_S128x1024_S1x128x1024 := rfl
theorem st4_eq (v205 : FVec F S128x1024 .f32) :
    k5_pay33 v205 = shapeCast S1x128x1024 v205 shapeCasts_S128x1024_S1x128x1024 := rfl
theorem st5_eq (v14 v16 v18 : FVec F S1x1024 .f32) (v205 : FVec F S128x1024 .f32) (v209 : Vec F S128x3072 .bf16)
    (v214 : Vec F S1x1024x2048 .bf16) (v231 : Vec F S1x1024x1024 .bf16) :
    k5_pay35 v14 v16 v18 v205 v209 v214 v231
      = shapeCast S1x128x1024 (k5_pay34 v14 v16 v18 v205 v209 v214 v231) shapeCasts_S128x1024_S1x128x1024 := rfl
theorem st6_eq (v14 v16 v18 : FVec F S1x1024 .f32) (v243 : FVec F S128x1024 .f32) (v247 : Vec F S128x3072 .bf16)
    (v252 : Vec F S1x1024x2048 .bf16) (v269 : Vec F S1x1024x1024 .bf16) :
    k5_pay37 v14 v16 v18 v243 v247 v252 v269
      = shapeCast S1x128x1024 (k5_pay36 v14 v16 v18 v243 v247 v252 v269) shapeCasts_S128x1024_S1x128x1024 := rfl
theorem st7_eq (v14 v16 v18 : FVec F S1x1024 .f32) (v281 : FVec F S128x1024 .f32) (v286 v287 v288 v289 : FVec F S128x1024 .bf16)
    (v290 : Vec F S1x1024x2048 .bf16) (v307 : Vec F S1x1024x1024 .bf16) :
    k5_pay2 v14 v16 v18 v281 v286 v287 v288 v289 v290 v307
      = shapeCast S1x128x1024 (k5_pay1 v14 v16 v18 v281 v286 v287 v288 v289 v290 v307) shapeCasts_S128x1024_S1x128x1024 := rfl

end Stores

/-! ### The pieces the run leaves -/

set_option maxHeartbeats 1000000 in
/-- The hidden sequence's staging memref ends with eight pieces, last stored first: slice t along time holds the hidden
    state after step t. -/
theorem run8_eq (c : Dev nD) (i : grid5.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun5_A c i arg1 harg1 arg2 harg2 arg3 harg3 arg4 harg4 arg5 harg5 arg6 harg6 arg7 harg7 arg8 harg8 arg9 harg9 arg10 harg10 arg11 harg11 x0 x1 x2 x3 x4 x5 x6 x7).1 =
      [⟨Rect.unit ![7, 0, 0] S1x128x1024.size inb_S8x128x1024_S1x128x1024_7_0_0, shapeCast S1x128x1024 (hidB x0 x1 x2 x3 x4 x5 x6 x7 7) shapeCasts_S128x1024_S1x128x1024⟩,
       ⟨Rect.unit ![6, 0, 0] S1x128x1024.size inb_S8x128x1024_S1x128x1024_6_0_0, shapeCast S1x128x1024 (hidB x0 x1 x2 x3 x4 x5 x6 x7 6) shapeCasts_S128x1024_S1x128x1024⟩,
       ⟨Rect.unit ![5, 0, 0] S1x128x1024.size inb_S8x128x1024_S1x128x1024_5_0_0, shapeCast S1x128x1024 (hidB x0 x1 x2 x3 x4 x5 x6 x7 5) shapeCasts_S128x1024_S1x128x1024⟩,
       ⟨Rect.unit ![4, 0, 0] S1x128x1024.size inb_S8x128x1024_S1x128x1024_4_0_0, shapeCast S1x128x1024 (hidB x0 x1 x2 x3 x4 x5 x6 x7 4) shapeCasts_S128x1024_S1x128x1024⟩,
       ⟨Rect.unit ![3, 0, 0] S1x128x1024.size inb_S8x128x1024_S1x128x1024_3_0_0, shapeCast S1x128x1024 (hidB x0 x1 x2 x3 x4 x5 x6 x7 3) shapeCasts_S128x1024_S1x128x1024⟩,
       ⟨Rect.unit ![2, 0, 0] S1x128x1024.size inb_S8x128x1024_S1x128x1024_2_0_0, shapeCast S1x128x1024 (hidB x0 x1 x2 x3 x4 x5 x6 x7 2) shapeCasts_S128x1024_S1x128x1024⟩,
       ⟨Rect.unit ![1, 0, 0] S1x128x1024.size inb_S8x128x1024_S1x128x1024_1_0_0, shapeCast S1x128x1024 (hidB x0 x1 x2 x3 x4 x5 x6 x7 1) shapeCasts_S128x1024_S1x128x1024⟩,
       ⟨Rect.unit ![0, 0, 0] S1x128x1024.size inb_S8x128x1024_S1x128x1024_0_0_0, shapeCast S1x128x1024 (hidB x0 x1 x2 x3 x4 x5 x6 x7 0) shapeCasts_S128x1024_S1x128x1024⟩] := by
  unfold kernelRun5_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [st0_eq, st1_eq, st2_eq, st3_eq, st4_eq, st5_eq, st6_eq, st7_eq]
  simp only [hid7_eq]
  simp only [hid6_eq]
  simp only [hid5_eq]
  simp only [hid4_eq]
  simp only [hid3_eq]
  simp only [hid2_eq]
  simp only [hid1_eq]
  simp only [hid0_eq]
  rfl

set_option maxHeartbeats 1000000 in
/-- The final state's staging memref ends with one piece: the hidden state after the last step. -/
theorem run9_eq (c : Dev nD) (i : grid5.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun5_A c i arg1 harg1 arg2 harg2 arg3 harg3 arg4 harg4 arg5 harg5 arg6 harg6 arg7 harg7 arg8 harg8 arg9 harg9 arg10 harg10 arg11 harg11 x0 x1 x2 x3 x4 x5 x6 x7).2.1 =
      [⟨Rect.unit ![0, 0] S128x1024.size inb_S128x1024_S128x1024_0_0, hidB x0 x1 x2 x3 x4 x5 x6 x7 7⟩] := by
  unfold kernelRun5_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [hid7_eq]
  simp only [hid6_eq]
  simp only [hid5_eq]
  simp only [hid4_eq]
  simp only [hid3_eq]
  simp only [hid2_eq]
  simp only [hid1_eq]
  simp only [hid0_eq]
  rfl

end Cert.KernelIdeal.Value5

end
-- ==== Proof.KI.Val5Idx.lean ====
/-
  Where each window's block sits at a grid point of the layer's pipeline: the batch-tiled windows (the input sequence, the
  initial state, the two outputs) at block t of the batch axis, the parameter windows at the layer's slab.
-/
import proofs.«428164_j36979668418798_3_alg».proof.Proof.Gen.KernelIdeal.Launch
import Idealize.ShloMosaic.Lib.Decide

set_option Elab.async false

namespace Cert.KernelIdeal.Value5

open Idealize.ShloMosaic Idealize.SL.Sem Cert.KernelIdeal Cert.KernelIdeal.Gen

/-- The layer this region runs: the slab of the stacked parameter and initial-state arrays its windows read. -/
abbrev layerIx : Fin 8 := 5
/-- The array this region reads its input sequence from. -/
abbrev inpRef : Ref sig .tc := main_v19_0

/-! ### Where each window's block sits at a grid point: the index maps, decided over the four points -/

theorem idx5_0 : ∀ t : Fin cfg5.N, win5_0.index t 0 = 0 ∧ win5_0.index t 1 = t.val ∧ win5_0.index t 2 = 0 :=
  (by decide +kernel : ∀ t : Fin grid5.N, _)
theorem idx5_1 : ∀ t : Fin cfg5.N, win5_1.index t 0 = layerIx.val ∧ win5_1.index t 1 = t.val ∧ win5_1.index t 2 = 0 :=
  (by decide +kernel : ∀ t : Fin grid5.N, _)
theorem idx5_2 : ∀ t : Fin cfg5.N, win5_2.index t 0 = layerIx.val ∧ win5_2.index t 1 = 0 ∧ win5_2.index t 2 = 0 :=
  (by decide +kernel : ∀ t : Fin grid5.N, _)
theorem idx5_3 : ∀ t : Fin cfg5.N, win5_3.index t 0 = layerIx.val ∧ win5_3.index t 1 = 0 ∧ win5_3.index t 2 = 0 :=
  (by decide +kernel : ∀ t : Fin grid5.N, _)
theorem idx5_4 : ∀ t : Fin cfg5.N, win5_4.index t 0 = layerIx.val ∧ win5_4.index t 1 = 0 ∧ win5_4.index t 2 = 0 :=
  (by decide +kernel : ∀ t : Fin grid5.N, _)
theorem idx5_5 : ∀ t : Fin cfg5.N, win5_5.index t 0 = layerIx.val ∧ win5_5.index t 1 = 0 ∧ win5_5.index t 2 = 0 :=
  (by decide +kernel : ∀ t : Fin grid5.N, _)
theorem idx5_6 : ∀ t : Fin cfg5.N, win5_6.index t 0 = layerIx.val ∧ win5_6.index t 1 = 0 ∧ win5_6.index t 2 = 0 :=
  (by decide +kernel : ∀ t : Fin grid5.N, _)
theorem idx5_7 : ∀ t : Fin cfg5.N, win5_7.index t 0 = layerIx.val ∧ win5_7.index t 1 = 0 ∧ win5_7.index t 2 = 0 :=
  (by decide +kernel : ∀ t : Fin grid5.N, _)
theorem idx5_8 : ∀ t : Fin cfg5.N, win5_8.index t 0 = 0 ∧ win5_8.index t 1 = t.val ∧ win5_8.index t 2 = 0 :=
  (by decide +kernel : ∀ t : Fin grid5.N, _)
theorem idx5_9 : ∀ t : Fin cfg5.N, win5_9.index t 0 = t.val ∧ win5_9.index t 1 = 0 :=
  (by decide +kernel : ∀ t : Fin grid5.N, _)

end Cert.KernelIdeal.Value5
-- ==== Proof.KI.Val5Blk.lean ====
/-
  The blocks the layer's pipeline hands its body at a grid point, read off the arrays as the region finds them: batch rows
  t·128 … t·128 + 127 of the input sequence and of the layer's initial state, and the layer's slabs of the parameter arrays.
-/
import proofs.«428164_j36979668418798_3_alg».proof.Proof.KI.Reg5
import proofs.«428164_j36979668418798_3_alg».proof.Proof.KI.Val5Idx
import Idealize.ShloMosaic.Lib.Pipeline.Value
import Idealize.ShloMosaic.Lib.ValueIdx

noncomputable section

namespace Cert.KernelIdeal.Value5

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ### The windows' blocks at a grid point, read off the arrays -/

section Blocks
variable (c : Dev nD) (t : Fin cfg5.N)

/-- Window 0's block: batch rows t·128 … t·128 + 127 of the input sequence, all eight steps. -/
theorem iblk5_0_apply (s : Fin 8) (r : Fin 128) (k : Fin 1024) (b : Fin 512) (hb : b.val = t.val * 128 + r.val) :
    (iblk5 V c 0 t : Vec Ideal S8x128x1024 .f32) (ix3 s r k) = (V c inpRef : S8x512x1024.Idx → EReal) (ix3 s b k) := by
  unfold iblk5
  rw [View.read_apply]
  show V c inpRef _ = V c inpRef _
  congr 1
  funext a
  apply Fin.ext
  match a with
  | ⟨0, _⟩ => show win5_0.index t 0 * 8 + 1 * s.val = s.val; rw [(idx5_0 t).1]; omega
  | ⟨1, _⟩ => show win5_0.index t 1 * 128 + 1 * r.val = b.val; rw [(idx5_0 t).2.1, hb]; omega
  | ⟨2, _⟩ => show win5_0.index t 2 * 1024 + 1 * k.val = k.val; rw [(idx5_0 t).2.2]; omega

/-- Window 1's block: the same batch rows of the layer's initial state. -/
theorem iblk5_1_apply (r : Fin 128) (k : Fin 1024) (b : Fin 512) (hb : b.val = t.val * 128 + r.val) :
    (iblk5 V c 1 t : Vec Ideal S1x128x1024 .f32) (ix3 0 r k) = (V c main_arg1 : S8x512x1024.Idx → EReal) (ix3 layerIx b k) := by
  unfold iblk5
  rw [View.read_apply]
  show V c main_arg1 _ = V c main_arg1 _
  congr 1
  funext a
  apply Fin.ext
  match a with
  | ⟨0, _⟩ => show win5_1.index t 0 * 1 + 1 * (0 : Fin 1).val = layerIx.val; rw [(idx5_1 t).1]; simp
  | ⟨1, _⟩ => show win5_1.index t 1 * 128 + 1 * r.val = b.val; rw [(idx5_1 t).2.1, hb]; omega
  | ⟨2, _⟩ => show win5_1.index t 2 * 1024 + 1 * k.val = k.val; rw [(idx5_1 t).2.2]; omega

/-- Window 2's block: the layer's slab of the input-side matrices. -/
theorem iblk5_2_apply (k : Fin 1024) (j : Fin 3072) :
    (iblk5 V c 2 t : Vec Ideal S1x1024x3072 .bf16) (ix3 0 k j) = (V c main_v5 : S8x1024x3072.Idx → EReal) (ix3 layerIx k j) := by
  unfold iblk5
  rw [View.read_apply]
  show V c main_v5 _ = V c main_v5 _
  congr 1
  funext a
  apply Fin.ext
  match a with
  | ⟨0, _⟩ => show win5_2.index t 0 * 1 + 1 * (0 : Fin 1).val = layerIx.val; rw [(idx5_2 t).1]; simp
  | ⟨1, _⟩ => show win5_2.index t 1 * 1024 + 1 * k.val = k.val; rw [(idx5_2 t).2.1]; omega
  | ⟨2, _⟩ => show win5_2.index t 2 * 3072 + 1 * j.val = j.val; rw [(idx5_2 t).2.2]; omega

/-- Window 3's block: the layer's slab of the gates' hidden-side matrices. -/
theorem iblk5_3_apply (k : Fin 1024) (j : Fin 2048) :
    (iblk5 V c 3 t : Vec Ideal S1x1024x2048 .bf16) (ix3 0 k j) = (V c main_v8 : S8x1024x2048.Idx → EReal) (ix3 layerIx k j) := by
  unfold iblk5
  rw [View.read_apply]
  show V c main_v8 _ = V c main_v8 _
  congr 1
  funext a
  apply Fin.ext
  match a with
  | ⟨0, _⟩ => show win5_3.index t 0 * 1 + 1 * (0 : Fin 1).val = layerIx.val; rw [(idx5_3 t).1]; simp
  | ⟨1, _⟩ => show win5_3.index t 1 * 1024 + 1 * k.val = k.val; rw [(idx5_3 t).2.1]; omega
  | ⟨2, _⟩ => show win5_3.index t 2 * 2048 + 1 * j.val = j.val; rw [(idx5_3 t).2.2]; omega

/-- Window 4's block: the layer's slab of the candidate's hidden-side matrix. -/
theorem iblk5_4_apply (k j : Fin 1024) :
    (iblk5 V c 4 t : Vec Ideal S1x1024x1024 .bf16) (ix3 0 k j) = (V c main_v9 : S8x1024x1024.Idx → EReal) (ix3 layerIx k j) := by
  unfold iblk5
  rw [View.read_apply]
  show V c main_v9 _ = V c main_v9 _
  congr 1
  funext a
  apply Fin.ext
  match a with
  | ⟨0, _⟩ => show win5_4.index t 0 * 1 + 1 * (0 : Fin 1).val = layerIx.val; rw [(idx5_4 t).1]; simp
  | ⟨1, _⟩ => show win5_4.index t 1 * 1024 + 1 * k.val = k.val; rw [(idx5_4 t).2.1]; omega
  | ⟨2, _⟩ => show win5_4.index t 2 * 1024 + 1 * j.val = j.val; rw [(idx5_4 t).2.2]; omega

/-- Window 5's block: the layer's update-gate bias row. -/
theorem iblk5_5_apply (j : Fin 1024) :
    (iblk5 V c 5 t : Vec Ideal S1x1x1024 .f32) (ix3 0 0 j) = (V c main_v11 : S8x1x1024.Idx → EReal) (ix3 layerIx 0 j) := by
  unfold iblk5
  rw [View.read_apply]
  show V c main_v11 _ = V c main_v11 _
  congr 1
  funext a
  apply Fin.ext
  match a with
  | ⟨0, _⟩ => show win5_5.index t 0 * 1 + 1 * (0 : Fin 1).val = layerIx.val; rw [(idx5_5 t).1]; simp
  | ⟨1, _⟩ => show win5_5.index t 1 * 1 + 1 * (0 : Fin 1).val = (0 : Fin 1).val; rw [(idx5_5 t).2.1]; simp
  | ⟨2, _⟩ => show win5_5.index t 2 * 1024 + 1 * j.val = j.val; rw [(idx5_5 t).2.2]; omega

/-- Window 6's block: the layer's reset-gate bias row. -/
theorem iblk5_6_apply (j : Fin 1024) :
    (iblk5 V c 6 t : Vec Ideal S1x1x1024 .f32) (ix3 0 0 j) = (V c main_v12 : S8x1x1024.Idx → EReal) (ix3 layerIx 0 j) := by
  unfold iblk5
  rw [View.read_apply]
  show V c main_v12 _ = V c main_v12 _
  congr 1
  funext a
  apply Fin.ext
  match a with
  | ⟨0, _⟩ => show win5_6.index t 0 * 1 + 1 * (0 : Fin 1).val = layerIx.val; rw [(idx5_6 t).1]; simp
  | ⟨1, _⟩ => show win5_6.index t 1 * 1 + 1 * (0 : Fin 1).val = (0 : Fin 1).val; rw [(idx5_6 t).2.1]; simp
  | ⟨2, _⟩ => show win5_6.index t 2 * 1024 + 1 * j.val = j.val; rw [(idx5_6 t).2.2]; omega

/-- Window 7's block: the layer's candidate bias row. -/
theorem iblk5_7_apply (j : Fin 1024) :
    (iblk5 V c 7 t : Vec Ideal S1x1x1024 .f32) (ix3 0 0 j) = (V c main_v13 : S8x1x1024.Idx → EReal) (ix3 layerIx 0 j) := by
  unfold iblk5
  rw [View.read_apply]
  show V c main_v13 _ = V c main_v13 _
  congr 1
  funext a
  apply Fin.ext
  match a with
  | ⟨0, _⟩ => show win5_7.index t 0 * 1 + 1 * (0 : Fin 1).val = layerIx.val; rw [(idx5_7 t).1]; simp
  | ⟨1, _⟩ => show win5_7.index t 1 * 1 + 1 * (0 : Fin 1).val = (0 : Fin 1).val; rw [(idx5_7 t).2.1]; simp
  | ⟨2, _⟩ => show win5_7.index t 2 * 1024 + 1 * j.val = j.val; rw [(idx5_7 t).2.2]; omega

end Blocks

end Cert.KernelIdeal.Value5

end
-- ==== Proof.KI.Val5Final.lean ====
/-
  The two arrays a GRU layer's pipeline leaves: the hidden sequence [time, batch, feature] and the last hidden state
  [batch, feature] of the layer run on the region's input sequence from the layer's initial state. At grid point t the body
  writes the tile of batch rows t·128 … t·128 + 127: slice s along time of its first output is the tile's hidden state after
  step s, its second output the state after the last step; the four tiles cover the batch axis.
-/
import proofs.«428164_j36979668418798_3_alg».proof.Proof.KI.Reg5
import proofs.«428164_j36979668418798_3_alg».proof.Proof.KI.Val5Run
import proofs.«428164_j36979668418798_3_alg».proof.Proof.KI.Val5Blk

set_option maxRecDepth 65536

noncomputable section

namespace Cert.KernelIdeal.Value5

open Idealize.ShloMosaic Idealize.ShloMosaic.TcCoe Idealize.ShloMosaic.ValueIdx Idealize.SL.Sem
open Cert.KernelIdeal Cert.KernelIdeal.Gen Cert.LayerOf
open Idealize.ShloMosaic.Pipeline (Dat)

/-! ### The staging memrefs after the body, entry by entry -/

/-- A slice of extent 1 at time `t` holding `H t` with a leading unit axis is, at each of its entries, `H` at the entry's time
    on the entry's row and column. -/
theorem slice_piece (t : ℕ) (inb : ∀ a, (![t, 0, 0] : Fin 3 → ℕ) a + S1x128x1024.size a ≤ S8x128x1024.size a)
    (H : ℕ → FVec Ideal S128x1024 .f32) (x : S1x128x1024.Idx) :
    shapeCast S1x128x1024 (H t) shapeCasts_S128x1024_S1x128x1024 x
      = (fun y : S8x128x1024.Idx => H (y 0).val (ix2 (y 1) (y 2) : S128x1024.Idx))
          ((Rect.unit (s := S8x128x1024) ![t, 0, 0] S1x128x1024.size inb).emb x) := by
  obtain ⟨u, a, b, rfl⟩ : ∃ (u : Fin 1) (a : Fin 128) (b : Fin 1024), x = ix3 u a b := ⟨x 0, x 1, x 2, eq_ix3 x⟩
  have hu : u.val = 0 := by omega
  rw [shapeCast_ab_1ab_apply]
  have h0 : (((Rect.unit (s := S8x128x1024) ![t, 0, 0] S1x128x1024.size inb).emb (ix3 u a b)) 0).val = t := by
    rw [Rect.emb_apply]; simp [hu]
  have h1 : ((Rect.unit (s := S8x128x1024) ![t, 0, 0] S1x128x1024.size inb).emb (ix3 u a b)) 1 = a :=
    Fin.ext (by rw [Rect.emb_apply]; simp)
  have h2 : ((Rect.unit (s := S8x128x1024) ![t, 0, 0] S1x128x1024.size inb).emb (ix3 u a b)) 2 = b :=
    Fin.ext (by rw [Rect.emb_apply]; simp)
  show H t (ix2 a b) = H _ (ix2 _ _)
  rw [h0, h1, h2]

section Out
variable (c : Dev nD) (i : grid5.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32)

/-- The hidden sequence's staging memref after the body: entry (s, r, k) is entry (r, k) of the tile's hidden state after
    step s. -/
theorem out8_apply (s : Fin 8) (r : Fin 128) (k : Fin 1024) :
    out5_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k) = hidB x0 x1 x2 x3 x4 x5 x6 x7 s.val (ix2 r k) := by
  unfold out5_A_8
  rw [View.read_writes_eq_canon _ _ _ (cover5_A_8 c i arg1 harg1 arg2 harg2 arg3 harg3 arg4 harg4 arg5 harg5 arg6 harg6 arg7 harg7 arg8 harg8 arg9 harg9 arg10 harg10 arg11 harg11 x0 x1 x2 x3 x4 x5 x6 x7)]
  have hc := cover5_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k)
  rw [run8_eq] at hc ⊢
  refine (View.canon_apply_of_pieces (fun y : S8x128x1024.Idx => hidB x0 x1 x2 x3 x4 x5 x6 x7 (y 0).val (ix2 (y 1) (y 2) : S128x1024.Idx))
    _ ?_ (ix3 s r k) hc).trans rfl
  intro p hp x
  simp only [List.mem_cons, List.not_mem_nil, or_false] at hp
  rcases hp with rfl | rfl | rfl | rfl | rfl | rfl | rfl | rfl
  · exact slice_piece 7 inb_S8x128x1024_S1x128x1024_7_0_0 (hidB x0 x1 x2 x3 x4 x5 x6 x7) x
  · exact slice_piece 6 inb_S8x128x1024_S1x128x1024_6_0_0 (hidB x0 x1 x2 x3 x4 x5 x6 x7) x
  · exact slice_piece 5 inb_S8x128x1024_S1x128x1024_5_0_0 (hidB x0 x1 x2 x3 x4 x5 x6 x7) x
  · exact slice_piece 4 inb_S8x128x1024_S1x128x1024_4_0_0 (hidB x0 x1 x2 x3 x4 x5 x6 x7) x
  · exact slice_piece 3 inb_S8x128x1024_S1x128x1024_3_0_0 (hidB x0 x1 x2 x3 x4 x5 x6 x7) x
  · exact slice_piece 2 inb_S8x128x1024_S1x128x1024_2_0_0 (hidB x0 x1 x2 x3 x4 x5 x6 x7) x
  · exact slice_piece 1 inb_S8x128x1024_S1x128x1024_1_0_0 (hidB x0 x1 x2 x3 x4 x5 x6 x7) x
  · exact slice_piece 0 inb_S8x128x1024_S1x128x1024_0_0_0 (hidB x0 x1 x2 x3 x4 x5 x6 x7) x

/-- The final state's staging memref after the body is the tile's hidden state after the last step. -/
theorem out9_eq : out5_A_9 c i arg1 harg1 arg2 harg2 arg3 harg3 arg4 harg4 arg5 harg5 arg6 harg6 arg7 harg7 arg8 harg8 arg9 harg9 arg10 harg10 arg11 harg11 x0 x1 x2 x3 x4 x5 x6 x7 = hidB x0 x1 x2 x3 x4 x5 x6 x7 7 := by
  unfold out5_A_9
  rw [View.read_writes_eq_canon _ _ _ (cover5_A_9 c i arg1 harg1 arg2 harg2 arg3 harg3 arg4 harg4 arg5 harg5 arg6 harg6 arg7 harg7 arg8 harg8 arg9 harg9 arg10 harg10 arg11 harg11 x0 x1 x2 x3 x4 x5 x6 x7), run9_eq, View.canon_unit_zero (S := S128x1024) hz2]

end Out

/-! ### What each grid point writes back, and the arrays the region leaves -/

variable (V : (c : Dev nD) → (b : Ref sig .tc) → Buf (Elt Ideal) ((c : Thread nD τ).loc b))

/-- The layer's parameters as the region finds them. -/
abbrev Wof (c : Dev nD) : Cert.Spec.LayerW :=
  WofV (V c main_v5) (V c main_v8) (V c main_v9) (V c main_v11) (V c main_v12) (V c main_v13) layerIx

/-- The hidden sequence the layer leaves. -/
abbrev seqG (c : Dev nD) : Sseq.Idx → EReal := seqOut (Wof V c) (V c inpRef) (V c main_arg1) layerIx
/-- The last hidden state the layer leaves. -/
abbrev finG (c : Dev nD) : Sfin.Idx → EReal := finOut (Wof V c) (V c inpRef) (V c main_arg1) layerIx

/-- Row r of the tile of grid point t after step s is batch row t·128 + r of the layer's hidden sequence at time s. -/
theorem tile_at (c : Dev nD) (t : Fin cfg5.N) (s : Fin 8) (r : Fin 128) (k : Fin 1024) (b : Fin 512)
    (hb : b.val = t.val * 128 + r.val) :
    hidB (iblk5 V c 0 t) (iblk5 V c 1 t) (iblk5 V c 2 t) (iblk5 V c 3 t) (iblk5 V c 4 t) (iblk5 V c 5 t) (iblk5 V c 6 t)
        (iblk5 V c 7 t) s.val (ix2 r k)
      = seqG V c (ix3 s b k) :=
  tile_apply (V c main_v5) (V c main_v8) (V c main_v9) (V c main_v11) (V c main_v12) (V c main_v13) (V c inpRef) (V c main_arg1)
    layerIx (iblk5 V c 0 t) (iblk5 V c 1 t) (iblk5 V c 2 t) (iblk5 V c 3 t) (iblk5 V c 4 t) (iblk5 V c 5 t) (iblk5 V c 6 t)
    (iblk5 V c 7 t) (xgL (iblk5 V c 0 t) (iblk5 V c 2 t)) b r
    (fun s k => iblk5_0_apply V c t s r k b hb) (fun k => iblk5_1_apply V c t r k b hb) (fun k j => iblk5_2_apply V c t k j)
    (fun k j => iblk5_3_apply V c t k j) (fun k j => iblk5_4_apply V c t k j) (fun j => iblk5_5_apply V c t j)
    (fun j => iblk5_6_apply V c t j) (fun j => iblk5_7_apply V c t j)
    (fun s c' => xgL_apply (iblk5 V c 0 t) (iblk5 V c 2 t) s r c') s k

/-- WHAT POINT t WRITES BACK to the hidden sequence: block t of the layer's hidden sequence. -/
theorem flushed8_eq (c : Dev nD) (t : Fin cfg5.N) :
    (dat5 V c).flushed 8 t = ((cfg5.win 8).blk t).view.read (Elt Ideal) (seqG V c) := by
  show (cfg5.win 8).cut (grid5.coords t) ((dat5 V c).after 8 t) = _
  rw [after5_8]
  unfold outsAt5
  dsimp only
  funext j
  obtain ⟨s, r, k, rfl⟩ : ∃ (s : Fin 8) (r : Fin 128) (k : Fin 1024), j = ix3 s r k := ⟨j 0, j 1, j 2, eq_ix3 j⟩
  have ht : t.val < 4 := by have := t.isLt; have hN : cfg5.N = 4 := N_5; omega
  show out5_A_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) (iblk5 V c 0 t) (iblk5 V c 1 t) (iblk5 V c 2 t) (iblk5 V c 3 t) (iblk5 V c 4 t) (iblk5 V c 5 t) (iblk5 V c 6 t) (iblk5 V c 7 t) (ix3 s r k)
    = seqG V c (((cfg5.win 8).blk t).view.emb (ix3 s r k))
  rw [out8_apply]
  have hb : ((cfg5.win 8).blk t).view.emb (ix3 s r k)
      = (ix3 s (⟨t.val * 128 + r.val, by have := r.isLt; omega⟩ : Fin 512) k : S8x512x1024.Idx) := by
    funext a
    apply Fin.ext
    match a with
    | ⟨0, _⟩ => show win5_8.index t 0 * 8 + 1 * s.val = s.val; rw [(idx5_8 t).1]; omega
    | ⟨1, _⟩ => show win5_8.index t 1 * 128 + 1 * r.val = t.val * 128 + r.val; rw [(idx5_8 t).2.1]; omega
    | ⟨2, _⟩ => show win5_8.index t 2 * 1024 + 1 * k.val = k.val; rw [(idx5_8 t).2.2]; omega
  rw [hb]
  exact tile_at V c t s r k _ rfl

/-- WHAT POINT t WRITES BACK to the last hidden state: block t of the layer's last hidden state. -/
theorem flushed9_eq (c : Dev nD) (t : Fin cfg5.N) :
    (dat5 V c).flushed 9 t = ((cfg5.win 9).blk t).view.read (Elt Ideal) (finG V c) := by
  show (cfg5.win 9).cut (grid5.coords t) ((dat5 V c).after 9 t) = _
  rw [after5_9]
  unfold outsAt5
  dsimp only
  funext j
  obtain ⟨r, k, rfl⟩ : ∃ (r : Fin 128) (k : Fin 1024), j = ix2 r k := ⟨j 0, j 1, eq_ix2 j⟩
  have ht : t.val < 4 := by have := t.isLt; have hN : cfg5.N = 4 := N_5; omega
  show out5_A_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) (iblk5 V c 0 t) (iblk5 V c 1 t) (iblk5 V c 2 t) (iblk5 V c 3 t) (iblk5 V c 4 t) (iblk5 V c 5 t) (iblk5 V c 6 t) (iblk5 V c 7 t) (ix2 r k)
    = finG V c (((cfg5.win 9).blk t).view.emb (ix2 r k))
  rw [out9_eq]
  have hb : ((cfg5.win 9).blk t).view.emb (ix2 r k)
      = (ix2 (⟨t.val * 128 + r.val, by have := r.isLt; omega⟩ : Fin 512) k : S512x1024.Idx) := by
    funext a
    apply Fin.ext
    match a with
    | ⟨0, _⟩ => show win5_9.index t 0 * 128 + 1 * r.val = t.val * 128 + r.val; rw [(idx5_9 t).1]; omega
    | ⟨1, _⟩ => show win5_9.index t 1 * 1024 + 1 * k.val = k.val; rw [(idx5_9 t).2]; omega
  rw [hb]
  exact tile_at V c t 7 r k _ rfl

/-- An index of the hidden sequence is in point t's block iff each coordinate is in the block's range on its axis. -/
theorem mem_blk8 (t : Fin cfg5.N) (i : S8x512x1024.Idx) :
    i ∈ ((cfg5.win 8).blk t).view.set ↔ ∀ a : Fin 3, win5_8.index t a * S8x128x1024.size a ≤ (i a).val
      ∧ (i a).val < win5_8.index t a * S8x128x1024.size a + S8x128x1024.size a := by
  show i ∈ ((View.whole main_v20_0).slice (win5_8.rect t)).set ↔ _
  rw [View.set_slice_whole, Rect.mem_set_unit]
  exact Iff.rfl

/-- An index of the last hidden state is in point t's block iff each coordinate is in the block's range on its axis. -/
theorem mem_blk9 (t : Fin cfg5.N) (i : S512x1024.Idx) :
    i ∈ ((cfg5.win 9).blk t).view.set ↔ ∀ a : Fin 2, win5_9.index t a * S128x1024.size a ≤ (i a).val
      ∧ (i a).val < win5_9.index t a * S128x1024.size a + S128x1024.size a := by
  show i ∈ ((View.whole main_v20_1).slice (win5_9.rect t)).set ↔ _
  rw [View.set_slice_whole, Rect.mem_set_unit]
  exact Iff.rfl

/-- The four tiles cover the hidden sequence: batch row b is in the block of point b / 128. -/
theorem cover8 (i : S8x512x1024.Idx) : ∃ t : Fin cfg5.N, (cfg5.win 8).flush t = true ∧ i ∈ ((cfg5.win 8).blk t).view.set := by
  have h0 : (i 0).val < 8 := (i 0).isLt
  have h1 : (i 1).val < 512 := (i 1).isLt
  have h2 : (i 2).val < 1024 := (i 2).isLt
  have hN : cfg5.N = 4 := N_5
  refine ⟨⟨(i 1).val / 128, by rw [hN]; omega⟩, flush5_8 _, ?_⟩
  rw [mem_blk8]
  obtain ⟨e0, e1, e2⟩ := idx5_8 ⟨(i 1).val / 128, by rw [hN]; omega⟩
  intro a
  match a with
  | ⟨0, _⟩ =>
    show win5_8.index _ 0 * 8 ≤ (i 0).val ∧ (i 0).val < win5_8.index _ 0 * 8 + 8
    rw [e0]; omega
  | ⟨1, _⟩ =>
    show win5_8.index _ 1 * 128 ≤ (i 1).val ∧ (i 1).val < win5_8.index _ 1 * 128 + 128
    rw [e1]; show (i 1).val / 128 * 128 ≤ (i 1).val ∧ (i 1).val < (i 1).val / 128 * 128 + 128; omega
  | ⟨2, _⟩ =>
    show win5_8.index _ 2 * 1024 ≤ (i 2).val ∧ (i 2).val < win5_8.index _ 2 * 1024 + 1024
    rw [e2]; omega

/-- The four tiles cover the last hidden state. -/
theorem cover9 (i : S512x1024.Idx) : ∃ t : Fin cfg5.N, (cfg5.win 9).flush t = true ∧ i ∈ ((cfg5.win 9).blk t).view.set := by
  have h0 : (i 0).val < 512 := (i 0).isLt
  have h1 : (i 1).val < 1024 := (i 1).isLt
  have hN : cfg5.N = 4 := N_5
  refine ⟨⟨(i 0).val / 128, by rw [hN]; omega⟩, flush5_9 _, ?_⟩
  rw [mem_blk9]
  obtain ⟨e0, e1⟩ := idx5_9 ⟨(i 0).val / 128, by rw [hN]; omega⟩
  intro a
  match a with
  | ⟨0, _⟩ =>
    show win5_9.index _ 0 * 128 ≤ (i 0).val ∧ (i 0).val < win5_9.index _ 0 * 128 + 128
    rw [e0]; show (i 0).val / 128 * 128 ≤ (i 0).val ∧ (i 0).val < (i 0).val / 128 * 128 + 128; omega
  | ⟨1, _⟩ =>
    show win5_9.index _ 1 * 1024 ≤ (i 1).val ∧ (i 1).val < win5_9.index _ 1 * 1024 + 1024
    rw [e1]; omega

/-- THE HIDDEN SEQUENCE the region leaves is the layer's, run on the region's input sequence from the layer's initial state. -/
theorem seq_value5 (c : Dev nD) :
    (dat5 V c).arrAt 8 cfg5.N
      = seqOut (WofV (V c main_v5) (V c main_v8) (V c main_v9) (V c main_v11) (V c main_v12) (V c main_v13) layerIx)
          (V c inpRef) (V c main_arg1) layerIx :=
  (dat5 V c).arrAt_eq_of_cover 8 (seqG V c) (fun t _ => flushed8_eq V c t) cover8

/-- THE LAST HIDDEN STATE the region leaves is the layer's. -/
theorem fin_value5 (c : Dev nD) :
    (dat5 V c).arrAt 9 cfg5.N
      = finOut (WofV (V c main_v5) (V c main_v8) (V c main_v9) (V c main_v11) (V c main_v12) (V c main_v13) layerIx)
          (V c inpRef) (V c main_arg1) layerIx :=
  (dat5 V c).arrAt_eq_of_cover 9 (finG V c) (fun t _ => flushed9_eq V c t) cover9

end Cert.KernelIdeal.Value5

end
-- ==== Proof.KI.Val6Mat.lean ====
/-
  The three matrix products of a GRU layer's tile, read entry by entry over the extended reals: each is the sum over
  the 1024 contracted features of the products of the two operands' entries.
-/
import proofs.«428164_j36979668418798_3_alg».proof.Proof.Gen.KernelIdeal.Skeleton
import Idealize.ShloMosaic.PureOps.Ideal
import Idealize.ShloMosaic.PureOps.Ideal.Laws
import Idealize.ShloMosaic.Lib.ValueIdx

noncomputable section

namespace Cert.KernelIdeal.Value6

open Idealize.ShloMosaic Idealize.ShloMosaic.ValueIdx Cert.KernelIdeal Cert.KernelIdeal.Gen
open scoped BigOperators

/-! ### The input-side product: [1024, 1024] by [1024, 3072] -/

abbrev Dx := dot_S1024x1024_S1024x3072_S1024x3072_1_0_0_1_n_n

theorem lhsDx_0 (j : S1024x3072.Idx) (k : Dx.contr.Idx) : (Dx.lhsIdx j k 0 : ℕ) = j 0 := by
  simp [DotDims.lhsIdx, Dx, dot_S1024x1024_S1024x3072_S1024x3072_1_0_0_1_n_n]; rfl
theorem lhsDx_1 (j : S1024x3072.Idx) (k : Dx.contr.Idx) : (Dx.lhsIdx j k 1 : ℕ) = k ⟨0, by decide⟩ := by
  simp [DotDims.lhsIdx, Dx, dot_S1024x1024_S1024x3072_S1024x3072_1_0_0_1_n_n]; rfl
theorem rhsDx_0 (j : S1024x3072.Idx) (k : Dx.contr.Idx) : (Dx.rhsIdx j k 0 : ℕ) = k ⟨0, by decide⟩ := by
  simp [DotDims.rhsIdx, Dx, dot_S1024x1024_S1024x3072_S1024x3072_1_0_0_1_n_n]; rfl
theorem rhsDx_1 (j : S1024x3072.Idx) (k : Dx.contr.Idx) : (Dx.rhsIdx j k 1 : ℕ) = j 1 := by
  simp [DotDims.rhsIdx, Dx, dot_S1024x1024_S1024x3072_S1024x3072_1_0_0_1_n_n]; rfl

/-- Entry (r, c) of this product is the sum over k of A[r, k] · B[k, c]. -/
theorem mmDx_apply (A : FVec Ideal S1024x1024 .bf16) (B : FVec Ideal S1024x3072 .bf16) (r : Fin 1024) (c : Fin 3072) :
    matmul Dx none A B (constant S1024x3072 .f32 0x00000000#32) (ix2 r c) = ∑ k : Fin 1024, A (ix2 r k) * B (ix2 k c) := by
  show FloatOps.matmul Dx none A B _ (ix2 r c) = _
  rw [Ideal.matmul_constant_zero_apply, ← Equiv.sum_comp (contrEquiv1 Dx 1024 rfl rfl).symm]
  refine Finset.sum_congr rfl fun k _ => ?_
  have ck := contrEquiv1_symm_val Dx 1024 rfl rfl k
  have l : Dx.lhsIdx (ix2 r c) ((contrEquiv1 Dx 1024 rfl rfl).symm k) = ix2 r k := by
    funext ax; apply Fin.ext
    match ax with
    | ⟨0, _⟩ => exact lhsDx_0 _ _
    | ⟨1, _⟩ => exact (lhsDx_1 _ _).trans ck
  have rr : Dx.rhsIdx (ix2 r c) ((contrEquiv1 Dx 1024 rfl rfl).symm k) = ix2 k c := by
    funext ax; apply Fin.ext
    match ax with
    | ⟨0, _⟩ => exact (rhsDx_0 _ _).trans ck
    | ⟨1, _⟩ => exact rhsDx_1 _ _
  rw [l, rr]

/-! ### The hidden-side product of the two gates: [128, 1024] by [1024, 2048] -/

abbrev Dzr := dot_S128x1024_S1024x2048_S128x2048_1_0_0_1_n_n

theorem lhsDzr_0 (j : S128x2048.Idx) (k : Dzr.contr.Idx) : (Dzr.lhsIdx j k 0 : ℕ) = j 0 := by
  simp [DotDims.lhsIdx, Dzr, dot_S128x1024_S1024x2048_S128x2048_1_0_0_1_n_n]; rfl
theorem lhsDzr_1 (j : S128x2048.Idx) (k : Dzr.contr.Idx) : (Dzr.lhsIdx j k 1 : ℕ) = k ⟨0, by decide⟩ := by
  simp [DotDims.lhsIdx, Dzr, dot_S128x1024_S1024x2048_S128x2048_1_0_0_1_n_n]; rfl
theorem rhsDzr_0 (j : S128x2048.Idx) (k : Dzr.contr.Idx) : (Dzr.rhsIdx j k 0 : ℕ) = k ⟨0, by decide⟩ := by
  simp [DotDims.rhsIdx, Dzr, dot_S128x1024_S1024x2048_S128x2048_1_0_0_1_n_n]; rfl
theorem rhsDzr_1 (j : S128x2048.Idx) (k : Dzr.contr.Idx) : (Dzr.rhsIdx j k 1 : ℕ) = j 1 := by
  simp [DotDims.rhsIdx, Dzr, dot_S128x1024_S1024x2048_S128x2048_1_0_0_1_n_n]; rfl

/-- Entry (r, c) of this product is the sum over k of A[r, k] · B[k, c]. -/
theorem mmDzr_apply (A : FVec Ideal S128x1024 .bf16) (B : FVec Ideal S1024x2048 .bf16) (r : Fin 128) (c : Fin 2048) :
    matmul Dzr none A B (constant S128x2048 .f32 0x00000000#32) (ix2 r c) = ∑ k : Fin 1024, A (ix2 r k) * B (ix2 k c) := by
  show FloatOps.matmul Dzr none A B _ (ix2 r c) = _
  rw [Ideal.matmul_constant_zero_apply, ← Equiv.sum_comp (contrEquiv1 Dzr 1024 rfl rfl).symm]
  refine Finset.sum_congr rfl fun k _ => ?_
  have ck := contrEquiv1_symm_val Dzr 1024 rfl rfl k
  have l : Dzr.lhsIdx (ix2 r c) ((contrEquiv1 Dzr 1024 rfl rfl).symm k) = ix2 r k := by
    funext ax; apply Fin.ext
    match ax with
    | ⟨0, _⟩ => exact lhsDzr_0 _ _
    | ⟨1, _⟩ => exact (lhsDzr_1 _ _).trans ck
  have rr : Dzr.rhsIdx (ix2 r c) ((contrEquiv1 Dzr 1024 rfl rfl).symm k) = ix2 k c := by
    funext ax; apply Fin.ext
    match ax with
    | ⟨0, _⟩ => exact (rhsDzr_0 _ _).trans ck
    | ⟨1, _⟩ => exact rhsDzr_1 _ _
  rw [l, rr]

/-! ### The hidden-side product of the candidate: [128, 1024] by [1024, 1024] -/

abbrev Dh := dot_S128x1024_S1024x1024_S128x1024_1_0_0_1_n_n

theorem lhsDh_0 (j : S128x1024.Idx) (k : Dh.contr.Idx) : (Dh.lhsIdx j k 0 : ℕ) = j 0 := by
  simp [DotDims.lhsIdx, Dh, dot_S128x1024_S1024x1024_S128x1024_1_0_0_1_n_n]; rfl
theorem lhsDh_1 (j : S128x1024.Idx) (k : Dh.contr.Idx) : (Dh.lhsIdx j k 1 : ℕ) = k ⟨0, by decide⟩ := by
  simp [DotDims.lhsIdx, Dh, dot_S128x1024_S1024x1024_S128x1024_1_0_0_1_n_n]; rfl
theorem rhsDh_0 (j : S128x1024.Idx) (k : Dh.contr.Idx) : (Dh.rhsIdx j k 0 : ℕ) = k ⟨0, by decide⟩ := by
  simp [DotDims.rhsIdx, Dh, dot_S128x1024_S1024x1024_S128x1024_1_0_0_1_n_n]; rfl
theorem rhsDh_1 (j : S128x1024.Idx) (k : Dh.contr.Idx) : (Dh.rhsIdx j k 1 : ℕ) = j 1 := by
  simp [DotDims.rhsIdx, Dh, dot_S128x1024_S1024x1024_S128x1024_1_0_0_1_n_n]; rfl

/-- Entry (r, c) of this product is the sum over k of A[r, k] · B[k, c]. -/
theorem mmDh_apply (A : FVec Ideal S128x1024 .bf16) (B : FVec Ideal S1024x1024 .bf16) (r : Fin 128) (c : Fin 1024) :
    matmul Dh none A B (constant S128x1024 .f32 0x00000000#32) (ix2 r c) = ∑ k : Fin 1024, A (ix2 r k) * B (ix2 k c) := by
  show FloatOps.matmul Dh none A B _ (ix2 r c) = _
  rw [Ideal.matmul_constant_zero_apply, ← Equiv.sum_comp (contrEquiv1 Dh 1024 rfl rfl).symm]
  refine Finset.sum_congr rfl fun k _ => ?_
  have ck := contrEquiv1_symm_val Dh 1024 rfl rfl k
  have l : Dh.lhsIdx (ix2 r c) ((contrEquiv1 Dh 1024 rfl rfl).symm k) = ix2 r k := by
    funext ax; apply Fin.ext
    match ax with
    | ⟨0, _⟩ => exact lhsDh_0 _ _
    | ⟨1, _⟩ => exact (lhsDh_1 _ _).trans ck
  have rr : Dh.rhsIdx (ix2 r c) ((contrEquiv1 Dh 1024 rfl rfl).symm k) = ix2 k c := by
    funext ax; apply Fin.ext
    match ax with
    | ⟨0, _⟩ => exact (rhsDh_0 _ _).trans ck
    | ⟨1, _⟩ => exact rhsDh_1 _ _
  rw [l, rr]

end Cert.KernelIdeal.Value6

end
-- ==== Proof.KI.Val6Step.lean ====
/-
  One time step of a GRU layer on a tile of 128 batch rows, as one function of the tile's previous hidden state, the
  tile's rows of the input-side products, the two hidden-side weight blocks and the three bias rows; and the eight
  hidden states a tile goes through, each the step applied to the one before.
-/
import proofs.«428164_j36979668418798_3_alg».proof.Proof.Gen.KernelIdeal.Skeleton

noncomputable section

namespace Cert.KernelIdeal.Value6

open Idealize.ShloMosaic Cert.KernelIdeal Cert.KernelIdeal.Gen

variable {F : FTy → Type} [FloatOps F]

/-- The new hidden state of a tile: with `xg` the tile's rows of the input-side products (three bands of 1024 columns:
    update gate, reset gate, candidate), `h` the previous hidden state,
      z = σ(xg_z + h·W_z + b_z),  r = σ(xg_r + h·W_r + b_r),  c = tanh(xg_c + (r ⊙ h)·W_c + b_c),
      h' = (1 − z) ⊙ h + z ⊙ c. -/
def step (bz br bh : FVec F S1x1024 .f32) (h : FVec F S128x1024 .f32) (xg : FVec F S128x3072 .bf16)
    (whzr : FVec F S1x1024x2048 .bf16) (whh : FVec F S1x1024x1024 .bf16) : FVec F S128x1024 .f32 :=
  have xz : FVec F S128x1024 .bf16 := extractStridedSlice S128x1024 ![0, 0] xg slices_S128x3072_o0_0_S128x1024
  have xr : FVec F S128x1024 .bf16 := extractStridedSlice S128x1024 ![0, 1024] xg slices_S128x3072_o0_1024_S128x1024
  have xc : FVec F S128x1024 .bf16 := extractStridedSlice S128x1024 ![0, 2048] xg slices_S128x3072_o0_2048_S128x1024
  have hb : FVec F S128x1024 .bf16 := truncf .bf16 h bitsLt_bf16_f32
  have wzr : FVec F S1024x2048 .bf16 := shapeCast S1024x2048 whzr shapeCasts_S1x1024x2048_S1024x2048
  have z0 : FVec F S128x2048 .f32 := constant S128x2048 .f32 0x00000000#32
  have hg : FVec F S128x2048 .f32 := matmul dot_S128x1024_S1024x2048_S128x2048_1_0_0_1_n_n none hb wzr z0
  have hz : FVec F S128x1024 .f32 := extractStridedSlice S128x1024 ![0, 0] hg slices_S128x2048_o0_0_S128x1024
  have hr : FVec F S128x1024 .f32 := extractStridedSlice S128x1024 ![0, 1024] hg slices_S128x2048_o0_1024_S128x1024
  have a1 : FVec F S128x1024 .f32 := extf .f32 xz bitsLt_bf16_f32
  have a2 : FVec F S128x1024 .f32 := addf a1 hz
  have a3 : FVec F S128x1024 .f32 := broadcastTo S128x1024 bz broadcasts_S1x1024_S128x1024
  have a4 : FVec F S128x1024 .f32 := addf a2 a3
  have z : FVec F S128x1024 .f32 := logistic a4
  have b1 : FVec F S128x1024 .f32 := extf .f32 xr bitsLt_bf16_f32
  have b2 : FVec F S128x1024 .f32 := addf b1 hr
  have b3 : FVec F S128x1024 .f32 := broadcastTo S128x1024 br broadcasts_S1x1024_S128x1024
  have b4 : FVec F S128x1024 .f32 := addf b2 b3
  have r : FVec F S128x1024 .f32 := logistic b4
  have rh : FVec F S128x1024 .f32 := mulf r h
  have rhb : FVec F S128x1024 .bf16 := truncf .bf16 rh bitsLt_bf16_f32
  have wc : FVec F S1024x1024 .bf16 := shapeCast S1024x1024 whh shapeCasts_S1x1024x1024_S1024x1024
  have z1 : FVec F S128x1024 .f32 := constant S128x1024 .f32 0x00000000#32
  have hc : FVec F S128x1024 .f32 := matmul dot_S128x1024_S1024x1024_S128x1024_1_0_0_1_n_n none rhb wc z1
  have c1 : FVec F S128x1024 .f32 := extf .f32 xc bitsLt_bf16_f32
  have c2 : FVec F S128x1024 .f32 := addf c1 hc
  have c3 : FVec F S128x1024 .f32 := broadcastTo S128x1024 bh broadcasts_S1x1024_S128x1024
  have c4 : FVec F S128x1024 .f32 := addf c2 c3
  have c : FVec F S128x1024 .f32 := tanh c4
  have one : F .f32 := Scalar.ofBits .f32 0x3F800000#32
  have ones : FVec F S128x1024 .f32 := broadcast S128x1024 one
  have nz : FVec F S128x1024 .f32 := subf ones z
  have keep : FVec F S128x1024 .f32 := mulf nz h
  have upd : FVec F S128x1024 .f32 := mulf z c
  addf keep upd

/-! ### The eight hidden states of the program's body are eight steps

Each equation: the value the body holds as hidden state after time step t, written over the values it loaded, is the step
applied to the hidden state after step t − 1 (the loaded initial state at t = 0), the rows of the input-side products
loaded for step t, and the weight blocks and bias rows as loaded. -/

theorem hid0_eq (v11 : Vec F S1x128x1024 .f32) (v13 v15 v17 : Vec F S1x1x1024 .f32) (v19 : Vec F S128x3072 .bf16)
    (v24 : Vec F S1x1024x2048 .bf16) (v41 : Vec F S1x1024x1024 .bf16) :
    k6_pay13 (k6_pay4 v11) (k6_pay5 v13) (k6_pay6 v15) (k6_pay7 v17) (k6_pay8 v19) (k6_pay9 v19) (k6_pay11 v11 v24)
        (k6_pay12 v11 v19 v24) v41
      = step (k6_pay5 v13) (k6_pay6 v15) (k6_pay7 v17) (k6_pay4 v11) v19 v24 v41 := rfl

theorem hid1_eq (v12 : FVec F S128x1024 .f32) (v14 v16 v18 : FVec F S1x1024 .f32) (v21 v22 : FVec F S128x1024 .bf16)
    (v28 v30 : FVec F S128x1024 .f32) (v41 : Vec F S1x1024x1024 .bf16) (v57 : Vec F S128x3072 .bf16)
    (v62 : Vec F S1x1024x2048 .bf16) (v79 : Vec F S1x1024x1024 .bf16) :
    k6_pay19 v18 (k6_pay13 v12 v14 v16 v18 v21 v22 v28 v30 v41) (k6_pay15 v57)
        (k6_pay17 v12 v14 v16 v18 v21 v22 v28 v30 v41 v57 v62) (k6_pay18 v12 v14 v16 v18 v21 v22 v28 v30 v41 v57 v62) v79
      = step v14 v16 v18 (k6_pay13 v12 v14 v16 v18 v21 v22 v28 v30 v41) v57 v62 v79 := rfl

theorem hid2_eq (v14 v16 v18 : FVec F S1x1024 .f32) (v53 : FVec F S128x1024 .f32) (v60 : FVec F S128x1024 .bf16)
    (v71 v75 : FVec F S128x1024 .f32) (v79 : Vec F S1x1024x1024 .bf16) (v95 : Vec F S128x3072 .bf16)
    (v100 : Vec F S1x1024x2048 .bf16) (v117 : Vec F S1x1024x1024 .bf16) :
    k6_pay25 v18 (k6_pay19 v18 v53 v60 v71 v75 v79) (k6_pay21 v95) (k6_pay23 v14 v18 v53 v60 v71 v75 v79 v95 v100)
        (k6_pay24 v16 v18 v53 v60 v71 v75 v79 v95 v100) v117
      = step v14 v16 v18 (k6_pay19 v18 v53 v60 v71 v75 v79) v95 v100 v117 := rfl

theorem hid3_eq (v14 v16 v18 : FVec F S1x1024 .f32) (v91 : FVec F S128x1024 .f32) (v98 : FVec F S128x1024 .bf16)
    (v109 : FVec F S128x1024 .f32) (v116 : FVec F S128x1024 .bf16) (v117 : Vec F S1x1024x1024 .bf16)
    (v133 : Vec F S128x3072 .bf16) (v138 : Vec F S1x1024x2048 .bf16) (v155 : Vec F S1x1024x1024 .bf16) :
    k6_pay30 (k6_pay25 v18 v91 v98 v109 v116 v117) (k6_pay28 v14 v18 v91 v98 v109 v116 v117 v133 v138)
        (k6_pay29 v16 v18 v91 v98 v109 v116 v117 v133 v138 v155)
      = step v14 v16 v18 (k6_pay25 v18 v91 v98 v109 v116 v117) v133 v138 v155 := rfl

theorem hid4_eq (v14 v16 v18 : FVec F S1x1024 .f32) (v129 v147 v161 : FVec F S128x1024 .f32) (v171 : Vec F S128x3072 .bf16)
    (v176 : Vec F S1x1024x2048 .bf16) (v193 : Vec F S1x1024x1024 .bf16) :
    k6_pay32 v14 v16 v18 v129 v147 v161 v171 v176 v193 = step v14 v16 v18 (k6_pay30 v129 v147 v161) v171 v176 v193 := rfl

theorem hid5_eq (v14 v16 v18 : FVec F S1x1024 .f32) (v205 : FVec F S128x1024 .f32) (v209 : Vec F S128x3072 .bf16)
    (v214 : Vec F S1x1024x2048 .bf16) (v231 : Vec F S1x1024x1024 .bf16) :
    k6_pay34 v14 v16 v18 v205 v209 v214 v231 = step v14 v16 v18 v205 v209 v214 v231 := rfl

theorem hid6_eq (v14 v16 v18 : FVec F S1x1024 .f32) (v243 : FVec F S128x1024 .f32) (v247 : Vec F S128x3072 .bf16)
    (v252 : Vec F S1x1024x2048 .bf16) (v269 : Vec F S1x1024x1024 .bf16) :
    k6_pay36 v14 v16 v18 v243 v247 v252 v269 = step v14 v16 v18 v243 v247 v252 v269 := rfl

theorem hid7_eq (v14 v16 v18 : FVec F S1x1024 .f32) (v243 : FVec F S128x1024 .f32) (v247 : Vec F S128x3072 .bf16)
    (v252 : Vec F S1x1024x2048 .bf16) (v269 : Vec F S1x1024x1024 .bf16) (v285 : Vec F S128x3072 .bf16)
    (v290 : Vec F S1x1024x2048 .bf16) (v307 : Vec F S1x1024x1024 .bf16) :
    k6_pay1 v14 v16 v18 (k6_pay36 v14 v16 v18 v243 v247 v252 v269) (k6_pay38 v285) (k6_pay39 v285) (k6_pay40 v285)
        (k6_pay41 v14 v16 v18 v243 v247 v252 v269) v290 v307
      = step v14 v16 v18 (k6_pay36 v14 v16 v18 v243 v247 v252 v269) v285 v290 v307 := rfl

end Cert.KernelIdeal.Value6

end
-- ==== Proof.KI.Val6Cell.lean ====
/-
  A step of the layer on a tile of 128 batch rows, read row by row over the extended reals: row r of the new hidden
  state is the GRU cell of row r — its update gate, reset gate and candidate are the specification's, because each matrix
  product is the sum over the 1024 contracted features and every change of float format is the identity there.
-/
import proofs.«428164_j36979668418798_3_alg».proof.Proof.KI.Val6Mat
import proofs.«428164_j36979668418798_3_alg».proof.Proof.KI.Val6Step
import proofs.«428164_j36979668418798_3_alg».proof.Proof.LayerOf
import Idealize.ShloMosaic.Lib.ValueLayout
import Idealize.ShloMosaic.Lib.Pipeline.Value
import Idealize.ShloMosaic.Lib.IdealHost

noncomputable section

namespace Cert.KernelIdeal.Value6

open Idealize.ShloMosaic Idealize.ShloMosaic.ValueIdx Cert.KernelIdeal Cert.KernelIdeal.Gen Cert.Spec Cert.LayerOf
open scoped BigOperators

/-! ### The two hidden-side products of a step, entry by entry -/

/-- Entry (r, c) of the gates' hidden-side product: the sum over k of h[r, k] · W[0, k, c]. -/
theorem hg_apply (h : FVec Ideal S128x1024 .f32) (whzr : FVec Ideal S1x1024x2048 .bf16) (r : Fin 128) (c : Fin 2048) :
    matmul Dzr none (truncf .bf16 h bitsLt_bf16_f32) (shapeCast S1024x2048 whzr shapeCasts_S1x1024x2048_S1024x2048)
        (constant S128x2048 .f32 0x00000000#32) (ix2 r c)
      = ∑ k : Fin 1024, h (ix2 r k) * whzr (ix3 0 k c) := by
  rw [mmDzr_apply]
  refine Finset.sum_congr rfl fun k _ => ?_
  rw [truncf_apply, shapeCast_1ab_ab_apply]

/-- Entry (r, j) of the candidate's hidden-side product: the sum over k of u[r, k] · W[0, k, j]. -/
theorem hc_apply (u : FVec Ideal S128x1024 .f32) (whh : FVec Ideal S1x1024x1024 .bf16) (r : Fin 128) (j : Fin 1024) :
    matmul Dh none (truncf .bf16 u bitsLt_bf16_f32) (shapeCast S1024x1024 whh shapeCasts_S1x1024x1024_S1024x1024)
        (constant S128x1024 .f32 0x00000000#32) (ix2 r j)
      = ∑ k : Fin 1024, u (ix2 r k) * whh (ix3 0 k j) := by
  rw [mmDh_apply]
  refine Finset.sum_congr rfl fun k _ => ?_
  rw [truncf_apply, shapeCast_1ab_ab_apply]

/-! ### The three parts of a step: update gate, reset gate, candidate -/

/-- The gates' hidden-side product of a tile. -/
def hgate (h : FVec Ideal S128x1024 .f32) (whzr : FVec Ideal S1x1024x2048 .bf16) : FVec Ideal S128x2048 .f32 :=
  matmul Dzr none (truncf .bf16 h bitsLt_bf16_f32) (shapeCast S1024x2048 whzr shapeCasts_S1x1024x2048_S1024x2048)
    (constant S128x2048 .f32 0x00000000#32)

/-- The update gate of a tile. -/
def zGate (bz : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 0] xg slices_S128x3072_o0_0_S128x1024) bitsLt_bf16_f32)
      (extractStridedSlice S128x1024 ![0, 0] (hgate h whzr) slices_S128x2048_o0_0_S128x1024))
    (broadcastTo S128x1024 bz broadcasts_S1x1024_S128x1024))

/-- The reset gate of a tile. -/
def rGate (br : FVec Ideal S1x1024 .f32) (h : FVec Ideal S128x1024 .f32) (xg : FVec Ideal S128x3072 .bf16)
    (whzr : FVec Ideal S1x1024x2048 .bf16) : FVec Ideal S128x1024 .f32 :=
  logistic (addf (addf (extf .f32 (extractStridedSlice S128x1024 ![0, 1024] xg slices_S128x3072_o0_1024_S128x1024) bitsLt_bf16_f32)
      (extractStridedSlice S128x1024 ![0, 1024] (hgate h whzr) slices_S128x2048_o0_1024_S128x1024))
    (broadcastTo S128x1024 br broadcasts_S1x1024_S128x1024))

/-- The candidate state of a tile, from its reset gate `R`. -/
def cCand (bh : FVec Ideal S1x1024 .f32) (h R : FVec Ideal S128x1024 .f32) (xg : FVec Ideal S128x3072 .bf16)
    (whh : FVec Ideal S1x1024x1024 .bf16) : FVec Ideal S128x1024 .f32 :=
  tanh (addf (addf (extf .f32 (extractStridedSlice S128x1024 ![0, 2048] xg slices_S128x3072_o0_2048_S128x1024) bitsLt_bf16_f32)
      (matmul Dh none (truncf .bf16 (mulf R h) bitsLt_bf16_f32) (shapeCast S1024x1024 whh shapeCasts_S1x1024x1024_S1024x1024)
        (constant S128x1024 .f32 0x00000000#32)))
    (broadcastTo S128x1024 bh broadcasts_S1x1024_S128x1024))

/-- The step is (1 − z) ⊙ h + z ⊙ c over those three. -/
theorem step_eq (bz br bh : FVec Ideal S1x1024 .f32) (h : FVec Ideal S128x1024 .f32) (xg : FVec Ideal S128x3072 .bf16)
    (whzr : FVec Ideal S1x1024x2048 .bf16) (whh : FVec Ideal S1x1024x1024 .bf16) :
    step bz br bh h xg whzr whh
      = addf (mulf (subf (broadcast S128x1024 (Scalar.ofBits (F := Ideal) .f32 0x3F800000#32)) (zGate bz h xg whzr)) h)
          (mulf (zGate bz h xg whzr) (cCand bh h (rGate br h xg whzr) xg whh)) := rfl

/-! ### A step on a tile is the cell on each of its rows -/

section Row
variable (W : LayerW) (x hrow : Row)
  (bz br bh : FVec Ideal S1x1024 .f32) (h : FVec Ideal S128x1024 .f32) (xg : FVec Ideal S128x3072 .bf16)
  (whzr : FVec Ideal S1x1024x2048 .bf16) (whh : FVec Ideal S1x1024x1024 .bf16) (r : Fin 128)

/-- Row `r` of the update gate is the row's update gate. -/
theorem zGate_apply
    (hxz : ∀ j : Fin 1024, xg (ix2 r (col3 0 j)) = ∑ k, x k * W.Wxz k j)
    (hwz : ∀ (k j : Fin 1024), whzr (ix3 0 k (col2 0 j)) = W.Whz k j)
    (hbz : ∀ j : Fin 1024, bz (ix2 0 j) = W.bz j)
    (hh : ∀ k : Fin 1024, h (ix2 r k) = hrow k) (j : Fin 1024) :
    zGate bz h xg whzr (ix2 r j) = gateZ W x hrow j := by
  unfold zGate hgate
  show Ideal.logistic ((_ + _) + _) = _
  rw [extf_apply, slice2_axis1_apply 0 xg slices_S128x3072_o0_0_S128x1024 r j (col3 0 j) (by simp [col3]),
    slice2_axis1_apply 0 _ slices_S128x2048_o0_0_S128x1024 r j (col2 0 j) (by simp [col2]),
    broadcastTo_1b_ab_apply, hg_apply, hxz, hbz]
  unfold gateZ
  simp only [hh, hwz]

/-- Row `r` of the reset gate is the row's reset gate. -/
theorem rGate_apply
    (hxr : ∀ j : Fin 1024, xg (ix2 r (col3 1 j)) = ∑ k, x k * W.Wxr k j)
    (hwr : ∀ (k j : Fin 1024), whzr (ix3 0 k (col2 1 j)) = W.Whr k j)
    (hbr : ∀ j : Fin 1024, br (ix2 0 j) = W.br j)
    (hh : ∀ k : Fin 1024, h (ix2 r k) = hrow k) (j : Fin 1024) :
    rGate br h xg whzr (ix2 r j) = gateR W x hrow j := by
  unfold rGate hgate
  show Ideal.logistic ((_ + _) + _) = _
  rw [extf_apply,
    slice2_axis1_apply 1024 xg slices_S128x3072_o0_1024_S128x1024 r j (col3 1 j) (by show 1 * 1024 + j.val = 1024 + j.val; omega),
    slice2_axis1_apply 1024 _ slices_S128x2048_o0_1024_S128x1024 r j (col2 1 j) (by show 1 * 1024 + j.val = 1024 + j.val; omega),
    broadcastTo_1b_ab_apply, hg_apply, hxr, hbr]
  unfold gateR
  simp only [hh, hwr]

/-- Row `r` of the candidate is the row's candidate, when row `r` of `R` is the row's reset gate. -/
theorem cCand_apply (R : FVec Ideal S128x1024 .f32)
    (hxh : ∀ j : Fin 1024, xg (ix2 r (col3 2 j)) = ∑ k, x k * W.Wxh k j)
    (hwh : ∀ (k j : Fin 1024), whh (ix3 0 k j) = W.Whh k j)
    (hbh : ∀ j : Fin 1024, bh (ix2 0 j) = W.bh j)
    (hR : ∀ k : Fin 1024, R (ix2 r k) = gateR W x hrow k)
    (hh : ∀ k : Fin 1024, h (ix2 r k) = hrow k) (j : Fin 1024) :
    cCand bh h R xg whh (ix2 r j) = cand W x hrow j := by
  unfold cCand
  show Ideal.tanh ((_ + _) + _) = _
  rw [extf_apply,
    slice2_axis1_apply 2048 xg slices_S128x3072_o0_2048_S128x1024 r j (col3 2 j) (by show 2 * 1024 + j.val = 2048 + j.val; omega),
    broadcastTo_1b_ab_apply, hc_apply, hxh, hbh]
  unfold cand
  simp only [mulf_apply, hR, hh, hwh]

/-- Row `r` of the new hidden state is the cell of row `r`: given that row `r` of the input-side products holds x·Wxz,
    x·Wxr, x·Wxh in its three bands, that the weight blocks and bias rows hold the layer's parameters, and that row `r` of
    the previous hidden state is `hrow`. -/
theorem step_apply
    (hxz : ∀ j : Fin 1024, xg (ix2 r (col3 0 j)) = ∑ k, x k * W.Wxz k j)
    (hxr : ∀ j : Fin 1024, xg (ix2 r (col3 1 j)) = ∑ k, x k * W.Wxr k j)
    (hxh : ∀ j : Fin 1024, xg (ix2 r (col3 2 j)) = ∑ k, x k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h (ix2 r k) = hrow k) (j : Fin 1024) :
    step bz br bh h xg whzr whh (ix2 r j) = cellRow W x hrow j := by
  rw [step_eq]
  show (Ideal.ofBits .f32 0x3F800000#32 - zGate bz h xg whzr (ix2 r j)) * h (ix2 r j)
      + zGate bz h xg whzr (ix2 r j) * cCand bh h (rGate br h xg whzr) xg whh (ix2 r j) = _
  rw [Ideal.ofBits_one_f32, zGate_apply W x hrow bz h xg whzr r hxz hwz hbz hh,
    cCand_apply W x hrow bh h xg whh r _ hxh hwh hbh (rGate_apply W x hrow br h xg whzr r hxr hwr hbr hh) hh, hh]
  rfl

end Row

end Cert.KernelIdeal.Value6

end
-- ==== Proof.KI.Val6Xg.lean ====
/-
  The input-side products of a tile, read entry by entry over the extended reals: the tile's rows of the eight time steps are
  stacked, 128 rows per step, and multiplied at once by the layer's three input-side matrices side by side.
-/
import proofs.«428164_j36979668418798_3_alg».proof.Proof.KI.Val6Mat
import Idealize.ShloMosaic.Lib.ValueLayout
import Idealize.ShloMosaic.Lib.Pipeline.Value

noncomputable section

namespace Cert.KernelIdeal.Value6

open Idealize.ShloMosaic Idealize.ShloMosaic.ValueIdx Cert.KernelIdeal Cert.KernelIdeal.Gen
open scoped BigOperators

/-! ### The input-side products of a tile -/

/-- Entry (t·128 + r, c) of the tile's input-side products is the sum over k of inp[t, r, k] · Wx[0, k, c]: the eight time
    steps' rows of the tile are stacked, 128 rows per step, and multiplied by the three input-side matrices side by side. -/
theorem xgAll_apply (v0 : FVec Ideal S8x128x1024 .f32) (v4 : FVec Ideal S1x1024x3072 .bf16) (t : Fin 8) (r : Fin 128)
    (c : Fin 3072) (q : Fin 1024) (hq : q.val = t.val * 128 + r.val) :
    (k6_pay3 (F := Ideal) v0 v4 (ix2 q c) : EReal) = ∑ k : Fin 1024, (v0 (ix3 t r k) : EReal) * (v4 (ix3 0 k c) : EReal) := by
  dsimp only [k6_pay3]
  rw [shapeCast_self, truncf_apply]
  show matmul Dx none _ _ _ (ix2 q c) = _
  rw [mmDx_apply]
  refine Finset.sum_congr rfl fun k _ => ?_
  rw [truncf_apply, shapeCast_1ab_ab_apply, shapeCast_self]
  congr 1
  exact shapeCast_apply v0 _ (ix2 q k) (ix3 t r k) (by
    rw [Shape.rowMajor_val_three, Shape.rowMajor_val_two]
    show (t.val * 128 + r.val) * 1024 + k.val = q.val * 1024 + k.val
    rw [hq])

end Cert.KernelIdeal.Value6

end
-- ==== Proof.KI.Val6Tile.lean ====
/-
  A tile of 128 batch rows along the eight time steps: its hidden state after step t is the step applied t + 1 times, and
  row r of it is the layer's hidden row of the batch row the tile's row r holds — by induction on t from the one-step lemma,
  with the tile's blocks cut out of the arrays where the grid point's index maps say.
-/
import proofs.«428164_j36979668418798_3_alg».proof.Proof.KI.Val6Cell
import proofs.«428164_j36979668418798_3_alg».proof.Proof.KI.Val6Xg

noncomputable section

namespace Cert.KernelIdeal.Value6

open Idealize.ShloMosaic Idealize.ShloMosaic.ValueIdx Cert.KernelIdeal Cert.KernelIdeal.Gen Cert.Spec Cert.LayerOf
open scoped BigOperators

/-! ### The hidden states of a tile along time -/

/-- The hidden state of a tile after time step `t`: the step applied `t + 1` times from the initial state, each time to
    that step's rows of the input-side products. -/
def hidT {F : FTy → Type} [FloatOps F] (bz br bh : FVec F S1x1024 .f32) (h0 : FVec F S128x1024 .f32)
    (xg : ℕ → FVec F S128x3072 .bf16) (whzr : FVec F S1x1024x2048 .bf16) (whh : FVec F S1x1024x1024 .bf16) :
    ℕ → FVec F S128x1024 .f32
  | 0 => step bz br bh h0 (xg 0) whzr whh
  | t + 1 => step bz br bh (hidT bz br bh h0 xg whzr whh t) (xg (t + 1)) whzr whh

/-- A time step below eight of an input sequence read off a `[time, batch, feature]` array. -/
theorem seqOf_of_lt (u : Sseq.Idx → EReal) (t : ℕ) (ht : t < 8) (b : Fin 512) (k : Fin 1024) :
    seqOf u t b k = u (ix3 ⟨t, ht⟩ b k) := by
  unfold seqOf
  exact congrArg u (congrArg (fun s => ix3 s b k) (Fin.ext (Nat.mod_eq_of_lt ht)))

section Tile
variable (W : LayerW) (Xs : ℕ → Fin 512 → Row) (H0 : Fin 512 → Row) (b : Fin 512)
  (bz br bh : FVec Ideal S1x1024 .f32) (h0 : FVec Ideal S128x1024 .f32) (xg : ℕ → FVec Ideal S128x3072 .bf16)
  (whzr : FVec Ideal S1x1024x2048 .bf16) (whh : FVec Ideal S1x1024x1024 .bf16) (r : Fin 128)

/-- Row `r` of a tile's hidden state after step `t` is the layer's hidden row of batch row `b` at time `t`: given that row `r`
    of each step's input-side products holds batch row `b`'s products at that time, that the weight blocks and bias rows hold
    the layer's parameters, and that row `r` of the initial state is batch row `b`'s. -/
theorem hidT_apply
    (hxz : ∀ t < 8, ∀ j : Fin 1024, xg t (ix2 r (col3 0 j)) = ∑ k, Xs t b k * W.Wxz k j)
    (hxr : ∀ t < 8, ∀ j : Fin 1024, xg t (ix2 r (col3 1 j)) = ∑ k, Xs t b k * W.Wxr k j)
    (hxh : ∀ t < 8, ∀ j : Fin 1024, xg t (ix2 r (col3 2 j)) = ∑ k, Xs t b k * W.Wxh k j)
    (hwz : ∀ (k j : Fin 1024), whzr (ix3 0 k (col2 0 j)) = W.Whz k j)
    (hwr : ∀ (k j : Fin 1024), whzr (ix3 0 k (col2 1 j)) = W.Whr k j)
    (hwh : ∀ (k j : Fin 1024), whh (ix3 0 k j) = W.Whh k j)
    (hbz : ∀ j : Fin 1024, bz (ix2 0 j) = W.bz j) (hbr : ∀ j : Fin 1024, br (ix2 0 j) = W.br j)
    (hbh : ∀ j : Fin 1024, bh (ix2 0 j) = W.bh j)
    (hh : ∀ k : Fin 1024, h0 (ix2 r k) = H0 b k) :
    ∀ t, t < 8 → ∀ j : Fin 1024, hidT bz br bh h0 xg whzr whh t (ix2 r j) = layer W Xs H0 t b j := by
  intro t
  induction t with
  | zero =>
    intro ht j
    rw [layer_zero]
    exact step_apply W (Xs 0 b) (H0 b) bz br bh h0 (xg 0) whzr whh r (hxz 0 ht) (hxr 0 ht) (hxh 0 ht) hwz hwr hwh hbz hbr hbh hh j
  | succ t ih =>
    intro ht j
    rw [layer_succ]
    exact step_apply W (Xs (t + 1) b) (layer W Xs H0 t b) bz br bh (hidT bz br bh h0 xg whzr whh t) (xg (t + 1)) whzr whh r
      (hxz _ ht) (hxr _ ht) (hxh _ ht) hwz hwr hwh hbz hbr hbh (ih (by omega)) j

end Tile

/-! ### A tile's hidden states, from its blocks of the arrays -/

section Blocks
variable (wx : Swx.Idx → EReal) (wzr : Swzr.Idx → EReal) (wh : Swh.Idx → EReal) (bzA brA bhA : Sb3.Idx → EReal)
  (inp hprev : Sseq.Idx → EReal) (l : Fin 8)
  (x0 : FVec Ideal S8x128x1024 .f32) (x1 : FVec Ideal S1x128x1024 .f32) (x2 : FVec Ideal S1x1024x3072 .bf16)
  (x3 : FVec Ideal S1x1024x2048 .bf16) (x4 : FVec Ideal S1x1024x1024 .bf16) (x5 x6 x7 : FVec Ideal S1x1x1024 .f32)
  (xg : ℕ → FVec Ideal S128x3072 .bf16) (b : Fin 512) (r : Fin 128)

/-- With the tile's blocks cut out of the arrays — the input sequence's and the initial state's rows of batch row `b` at
    row `r`, layer `l`'s slabs of the parameter arrays — and each step's rows of the input-side products read from the
    stacked products, row `r` of the tile's hidden state after step `s` is entry (s, b, ·) of the layer's hidden sequence. -/
theorem tile_apply
    (e0 : ∀ (s : Fin 8) (k : Fin 1024), x0 (ix3 s r k) = inp (ix3 s b k))
    (e1 : ∀ k : Fin 1024, x1 (ix3 0 r k) = hprev (ix3 l b k))
    (e2 : ∀ (k : Fin 1024) (c : Fin 3072), x2 (ix3 0 k c) = wx (ix3 l k c))
    (e3 : ∀ (k : Fin 1024) (c : Fin 2048), x3 (ix3 0 k c) = wzr (ix3 l k c))
    (e4 : ∀ (k j : Fin 1024), x4 (ix3 0 k j) = wh (ix3 l k j))
    (e5 : ∀ j : Fin 1024, x5 (ix3 0 0 j) = bzA (ix3 l 0 j))
    (e6 : ∀ j : Fin 1024, x6 (ix3 0 0 j) = brA (ix3 l 0 j))
    (e7 : ∀ j : Fin 1024, x7 (ix3 0 0 j) = bhA (ix3 l 0 j))
    (exg : ∀ (s : Fin 8) (c : Fin 3072),
      xg s.val (ix2 r c) = k6_pay3 (F := Ideal) x0 x2 (ix2 ⟨s.val * 128 + r.val, by have := s.isLt; have := r.isLt; omega⟩ c))
    (s : Fin 8) (j : Fin 1024) :
    hidT (k6_pay5 x5) (k6_pay6 x6) (k6_pay7 x7) (k6_pay4 x1) xg x3 x4 s.val (ix2 r j)
      = seqOut (WofV wx wzr wh bzA brA bhA l) inp hprev l (ix3 s b j) := by
  show _ = layer (WofV wx wzr wh bzA brA bhA l) (seqOf inp) (initOf hprev l) s.val b j
  have hx : ∀ t (ht : t < 8) (c : Fin 3072), xg t (ix2 r c) = ∑ k : Fin 1024, seqOf inp t b k * wx (ix3 l k c) := by
    intro t ht c
    rw [exg ⟨t, ht⟩ c, xgAll_apply x0 x2 ⟨t, ht⟩ r c _ rfl]
    refine Finset.sum_congr rfl fun k _ => ?_
    rw [e0, e2, seqOf_of_lt inp t ht]
  refine hidT_apply (WofV wx wzr wh bzA brA bhA l) (seqOf inp) (initOf hprev l) b _ _ _ _ xg x3 x4 r
    (fun t ht j => hx t ht _) (fun t ht j => hx t ht _) (fun t ht j => hx t ht _)
    (fun k j => e3 k _) (fun k j => e3 k _) (fun k j => e4 k j) ?_ ?_ ?_ ?_ s.val s.isLt j
  · intro j; dsimp only [k6_pay5]; rw [shapeCast_1ab_ab_apply]; exact e5 j
  · intro j; dsimp only [k6_pay6]; rw [shapeCast_1ab_ab_apply]; exact e6 j
  · intro j; dsimp only [k6_pay7]; rw [shapeCast_1ab_ab_apply]; exact e7 j
  · intro k; dsimp only [k6_pay4]; rw [shapeCast_1ab_ab_apply]; exact e1 k

end Blocks

end Cert.KernelIdeal.Value6

end
-- ==== Proof.KI.Val6Run.lean ====
/-
  What the layer's body leaves in its two outputs' staging memrefs, as lists of pieces over the blocks it loads: the hidden
  sequence's memref ends with eight slices of extent 1 along time, slice t the tile's hidden state after step t; the final
  state's memref with the hidden state after the last step. Each step reads its own 128 rows of the stacked input-side
  products, which the body stored whole before the first step.
-/
import proofs.«428164_j36979668418798_3_alg».proof.Proof.KI.Body6
import proofs.«428164_j36979668418798_3_alg».proof.Proof.KI.Val6Tile

set_option maxRecDepth 65536

noncomputable section

namespace Cert.KernelIdeal.Value6

open Idealize.ShloMosaic Idealize.ShloMosaic.TcCoe Idealize.ShloMosaic.Tactic Idealize.ShloMosaic.ValueIdx Idealize.SL.Sem
open Cert.KernelIdeal Cert.KernelIdeal.Gen

/-- The rows of the stacked input-side products that time step `t` of the body reads: rows t·128 … t·128 + 127. -/
def xgL (x0 : FVec Ideal S8x128x1024 .f32) (x2 : FVec Ideal S1x1024x3072 .bf16) : ℕ → FVec Ideal S128x3072 .bf16
  | 1 => fun j => k6_pay3 (F := Ideal) x0 x2 ((Rect.unit (s := S1024x3072) ![128, 0] S128x3072.size inb_S1024x3072_S128x3072_128_0).toLoadRect.idx j)
  | 2 => fun j => k6_pay3 (F := Ideal) x0 x2 ((Rect.unit (s := S1024x3072) ![256, 0] S128x3072.size inb_S1024x3072_S128x3072_256_0).toLoadRect.idx j)
  | 3 => fun j => k6_pay3 (F := Ideal) x0 x2 ((Rect.unit (s := S1024x3072) ![384, 0] S128x3072.size inb_S1024x3072_S128x3072_384_0).toLoadRect.idx j)
  | 4 => fun j => k6_pay3 (F := Ideal) x0 x2 ((Rect.unit (s := S1024x3072) ![512, 0] S128x3072.size inb_S1024x3072_S128x3072_512_0).toLoadRect.idx j)
  | 5 => fun j => k6_pay3 (F := Ideal) x0 x2 ((Rect.unit (s := S1024x3072) ![640, 0] S128x3072.size inb_S1024x3072_S128x3072_640_0).toLoadRect.idx j)
  | 6 => fun j => k6_pay3 (F := Ideal) x0 x2 ((Rect.unit (s := S1024x3072) ![768, 0] S128x3072.size inb_S1024x3072_S128x3072_768_0).toLoadRect.idx j)
  | 7 => fun j => k6_pay3 (F := Ideal) x0 x2 ((Rect.unit (s := S1024x3072) ![896, 0] S128x3072.size inb_S1024x3072_S128x3072_896_0).toLoadRect.idx j)
  | _ => fun j => k6_pay3 (F := Ideal) x0 x2 ((Rect.unit (s := S1024x3072) ![0, 0] S128x3072.size inb_S1024x3072_S128x3072_0_0).toLoadRect.idx j)

theorem hz3 : (![0, 0, 0] : Fin 3 → Nat) = fun _ => 0 := funext fun a => by fin_cases a <;> rfl
theorem hz2 : (![0, 0] : Fin 2 → Nat) = fun _ => 0 := funext fun a => by fin_cases a <;> rfl

/-- Row r, column c of the 128 rows loaded from row o of the stacked products is row o + r, column c. -/
theorem rows_idx (o : ℕ) (inb : ∀ a, (![o, 0] : Fin 2 → ℕ) a + S128x3072.size a ≤ S1024x3072.size a) (r : Fin 128)
    (c : Fin 3072) (q : Fin 1024) (hq : q.val = o + r.val) :
    (Rect.unit (s := S1024x3072) ![o, 0] S128x3072.size inb).toLoadRect.idx (ix2 r c) = ix2 q c := by
  funext a
  apply Fin.ext
  match a with
  | ⟨0, _⟩ =>
    simp only [LoadRect.idx_apply, Rect.emb_apply, Rect.off_unit, Rect.stride_unit, Nat.one_mul]
    show o + r.val = q.val
    omega
  | ⟨1, _⟩ =>
    simp only [LoadRect.idx_apply, Rect.emb_apply, Rect.off_unit, Rect.stride_unit, Nat.one_mul]
    show 0 + c.val = c.val
    omega

/-- Step s's rows of the input-side products are rows s·128 … s·128 + 127 of the stacked products. -/
theorem xgL_apply (x0 : FVec Ideal S8x128x1024 .f32) (x2 : FVec Ideal S1x1024x3072 .bf16) (s : Fin 8) (r : Fin 128) (c : Fin 3072) :
    xgL x0 x2 s.val (ix2 r c)
      = k6_pay3 (F := Ideal) x0 x2 (ix2 ⟨s.val * 128 + r.val, by have := s.isLt; have := r.isLt; omega⟩ c) := by
  match s with
  | ⟨0, _⟩ => exact congrArg (k6_pay3 (F := Ideal) x0 x2) (rows_idx 0 _ r c _ (by simp))
  | ⟨1, _⟩ => exact congrArg (k6_pay3 (F := Ideal) x0 x2) (rows_idx 128 _ r c _ (by simp))
  | ⟨2, _⟩ => exact congrArg (k6_pay3 (F := Ideal) x0 x2) (rows_idx 256 _ r c _ (by simp))
  | ⟨3, _⟩ => exact congrArg (k6_pay3 (F := Ideal) x0 x2) (rows_idx 384 _ r c _ (by simp))
  | ⟨4, _⟩ => exact congrArg (k6_pay3 (F := Ideal) x0 x2) (rows_idx 512 _ r c _ (by simp))
  | ⟨5, _⟩ => exact congrArg (k6_pay3 (F := Ideal) x0 x2) (rows_idx 640 _ r c _ (by simp))
  | ⟨6, _⟩ => exact congrArg (k6_pay3 (F := Ideal) x0 x2) (rows_idx 768 _ r c _ (by simp))
  | ⟨7, _⟩ => exact congrArg (k6_pay3 (F := Ideal) x0 x2) (rows_idx 896 _ r c _ (by simp))

/-- The hidden states of the tile over the blocks the body loads. -/
abbrev hidB (x0 : FVec Ideal S8x128x1024 .f32) (x1 : FVec Ideal S1x128x1024 .f32) (x2 : FVec Ideal S1x1024x3072 .bf16)
    (x3 : FVec Ideal S1x1024x2048 .bf16) (x4 : FVec Ideal S1x1024x1024 .bf16) (x5 x6 x7 : FVec Ideal S1x1x1024 .f32) (t : ℕ) :
    FVec Ideal S128x1024 .f32 :=
  hidT (k6_pay5 x5) (k6_pay6 x6) (k6_pay7 x7) (k6_pay4 x1) (xgL x0 x2) x3 x4 t

/-! ### The eight stores' payloads are the hidden states with a leading unit axis -/
section Stores
variable {F : FTy → Type} [FloatOps F]

theorem st0_eq (v12 : FVec F S128x1024 .f32) (v14 v16 v18 : FVec F S1x1024 .f32) (v21 v22 : FVec F S128x1024 .bf16)
    (v28 v30 : FVec F S128x1024 .f32) (v41 : Vec F S1x1024x1024 .bf16) :
    k6_pay14 v12 v14 v16 v18 v21 v22 v28 v30 v41
      = shapeCast S1x128x1024 (k6_pay13 v12 v14 v16 v18 v21 v22 v28 v30 v41) shapeCasts_S128x1024_S1x128x1024 := rfl
theorem st1_eq (v18 : FVec F S1x1024 .f32) (v53 : FVec F S128x1024 .f32) (v60 : FVec F S128x1024 .bf16)
    (v71 v75 : FVec F S128x1024 .f32) (v79 : Vec F S1x1024x1024 .bf16) :
    k6_pay20 v18 v53 v60 v71 v75 v79 = shapeCast S1x128x1024 (k6_pay19 v18 v53 v60 v71 v75 v79) shapeCasts_S128x1024_S1x128x1024 := rfl
theorem st2_eq (v18 : FVec F S1x1024 .f32) (v91 : FVec F S128x1024 .f32) (v98 : FVec F S128x1024 .bf16)
    (v109 : FVec F S128x1024 .f32) (v116 : FVec F S128x1024 .bf16) (v117 : Vec F S1x1024x1024 .bf16) :
    k6_pay26 v18 v91 v98 v109 v116 v117 = shapeCast S1x128x1024 (k6_pay25 v18 v91 v98 v109 v116 v117) shapeCasts_S128x1024_S1x128x1024 := rfl
theorem st3_eq (v129 v147 v161 : FVec F S128x1024 .f32) :
    k6_pay31 v129 v147 v161 = shapeCast S1x128x1024 (k6_pay30 v129 v147 v161) shapeCasts_S128x1024_S1x128x1024 := rfl
theorem st4_eq (v205 : FVec F S128x1024 .f32) :
    k6_pay33 v205 = shapeCast S1x128x1024 v205 shapeCasts_S128x1024_S1x128x1024 := rfl
theorem st5_eq (v14 v16 v18 : FVec F S1x1024 .f32) (v205 : FVec F S128x1024 .f32) (v209 : Vec F S128x3072 .bf16)
    (v214 : Vec F S1x1024x2048 .bf16) (v231 : Vec F S1x1024x1024 .bf16) :
    k6_pay35 v14 v16 v18 v205 v209 v214 v231
      = shapeCast S1x128x1024 (k6_pay34 v14 v16 v18 v205 v209 v214 v231) shapeCasts_S128x1024_S1x128x1024 := rfl
theorem st6_eq (v14 v16 v18 : FVec F S1x1024 .f32) (v243 : FVec F S128x1024 .f32) (v247 : Vec F S128x3072 .bf16)
    (v252 : Vec F S1x1024x2048 .bf16) (v269 : Vec F S1x1024x1024 .bf16) :
    k6_pay37 v14 v16 v18 v243 v247 v252 v269
      = shapeCast S1x128x1024 (k6_pay36 v14 v16 v18 v243 v247 v252 v269) shapeCasts_S128x1024_S1x128x1024 := rfl
theorem st7_eq (v14 v16 v18 : FVec F S1x1024 .f32) (v281 : FVec F S128x1024 .f32) (v286 v287 v288 v289 : FVec F S128x1024 .bf16)
    (v290 : Vec F S1x1024x2048 .bf16) (v307 : Vec F S1x1024x1024 .bf16) :
    k6_pay2 v14 v16 v18 v281 v286 v287 v288 v289 v290 v307
      = shapeCast S1x128x1024 (k6_pay1 v14 v16 v18 v281 v286 v287 v288 v289 v290 v307) shapeCasts_S128x1024_S1x128x1024 := rfl

end Stores

/-! ### The pieces the run leaves -/

set_option maxHeartbeats 1000000 in
/-- The hidden sequence's staging memref ends with eight pieces, last stored first: slice t along time holds the hidden
    state after step t. -/
theorem run8_eq (c : Dev nD) (i : grid6.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun6_A c i arg1 harg1 arg2 harg2 arg3 harg3 arg4 harg4 arg5 harg5 arg6 harg6 arg7 harg7 arg8 harg8 arg9 harg9 arg10 harg10 arg11 harg11 x0 x1 x2 x3 x4 x5 x6 x7).1 =
      [⟨Rect.unit ![7, 0, 0] S1x128x1024.size inb_S8x128x1024_S1x128x1024_7_0_0, shapeCast S1x128x1024 (hidB x0 x1 x2 x3 x4 x5 x6 x7 7) shapeCasts_S128x1024_S1x128x1024⟩,
       ⟨Rect.unit ![6, 0, 0] S1x128x1024.size inb_S8x128x1024_S1x128x1024_6_0_0, shapeCast S1x128x1024 (hidB x0 x1 x2 x3 x4 x5 x6 x7 6) shapeCasts_S128x1024_S1x128x1024⟩,
       ⟨Rect.unit ![5, 0, 0] S1x128x1024.size inb_S8x128x1024_S1x128x1024_5_0_0, shapeCast S1x128x1024 (hidB x0 x1 x2 x3 x4 x5 x6 x7 5) shapeCasts_S128x1024_S1x128x1024⟩,
       ⟨Rect.unit ![4, 0, 0] S1x128x1024.size inb_S8x128x1024_S1x128x1024_4_0_0, shapeCast S1x128x1024 (hidB x0 x1 x2 x3 x4 x5 x6 x7 4) shapeCasts_S128x1024_S1x128x1024⟩,
       ⟨Rect.unit ![3, 0, 0] S1x128x1024.size inb_S8x128x1024_S1x128x1024_3_0_0, shapeCast S1x128x1024 (hidB x0 x1 x2 x3 x4 x5 x6 x7 3) shapeCasts_S128x1024_S1x128x1024⟩,
       ⟨Rect.unit ![2, 0, 0] S1x128x1024.size inb_S8x128x1024_S1x128x1024_2_0_0, shapeCast S1x128x1024 (hidB x0 x1 x2 x3 x4 x5 x6 x7 2) shapeCasts_S128x1024_S1x128x1024⟩,
       ⟨Rect.unit ![1, 0, 0] S1x128x1024.size inb_S8x128x1024_S1x128x1024_1_0_0, shapeCast S1x128x1024 (hidB x0 x1 x2 x3 x4 x5 x6 x7 1) shapeCasts_S128x1024_S1x128x1024⟩,
       ⟨Rect.unit ![0, 0, 0] S1x128x1024.size inb_S8x128x1024_S1x128x1024_0_0_0, shapeCast S1x128x1024 (hidB x0 x1 x2 x3 x4 x5 x6 x7 0) shapeCasts_S128x1024_S1x128x1024⟩] := by
  unfold kernelRun6_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [st0_eq, st1_eq, st2_eq, st3_eq, st4_eq, st5_eq, st6_eq, st7_eq]
  simp only [hid7_eq]
  simp only [hid6_eq]
  simp only [hid5_eq]
  simp only [hid4_eq]
  simp only [hid3_eq]
  simp only [hid2_eq]
  simp only [hid1_eq]
  simp only [hid0_eq]
  rfl

set_option maxHeartbeats 1000000 in
/-- The final state's staging memref ends with one piece: the hidden state after the last step. -/
theorem run9_eq (c : Dev nD) (i : grid6.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) :
    (kernelRun6_A c i arg1 harg1 arg2 harg2 arg3 harg3 arg4 harg4 arg5 harg5 arg6 harg6 arg7 harg7 arg8 harg8 arg9 harg9 arg10 harg10 arg11 harg11 x0 x1 x2 x3 x4 x5 x6 x7).2.1 =
      [⟨Rect.unit ![0, 0] S128x1024.size inb_S128x1024_S128x1024_0_0, hidB x0 x1 x2 x3 x4 x5 x6 x7 7⟩] := by
  unfold kernelRun6_A
  dsimp only
  sl_unfold_run_names
  simp only [View.readAt_eq_ld, harg1.read_unread, harg2.read_unread, harg3.read_unread, harg4.read_unread, harg5.read_unread,
    harg6.read_unread, harg7.read_unread, harg8.read_unread,
    View.ld_unit_zero (S := S8x128x1024) hz3, View.ld_unit_zero (S := S1x128x1024) hz3, View.ld_unit_zero (S := S1x1024x3072) hz3,
    View.ld_unit_zero (S := S1x1024x2048) hz3, View.ld_unit_zero (S := S1x1024x1024) hz3, View.ld_unit_zero (S := S1x1x1024) hz3,
    View.readCov_eq_canon', View.canon_unit_zero (S := S1024x3072) hz2]
  simp only [hid7_eq]
  simp only [hid6_eq]
  simp only [hid5_eq]
  simp only [hid4_eq]
  simp only [hid3_eq]
  simp only [hid2_eq]
  simp only [hid1_eq]
  simp only [hid0_eq]
  rfl

end Cert.KernelIdeal.Value6

end
-- ==== Proof.KI.Val6Idx.lean ====
/-
  Where each window's block sits at a grid point of the layer's pipeline: the batch-tiled windows (the input sequence, the
  initial state, the two outputs) at block t of the batch axis, the parameter windows at the layer's slab.
-/
import proofs.«428164_j36979668418798_3_alg».proof.Proof.Gen.KernelIdeal.Launch
import Idealize.ShloMosaic.Lib.Decide

set_option Elab.async false

namespace Cert.KernelIdeal.Value6

open Idealize.ShloMosaic Idealize.SL.Sem Cert.KernelIdeal Cert.KernelIdeal.Gen

/-- The layer this region runs: the slab of the stacked parameter and initial-state arrays its windows read. -/
abbrev layerIx : Fin 8 := 6
/-- The array this region reads its input sequence from. -/
abbrev inpRef : Ref sig .tc := main_v20_0

/-! ### Where each window's block sits at a grid point: the index maps, decided over the four points -/

theorem idx6_0 : ∀ t : Fin cfg6.N, win6_0.index t 0 = 0 ∧ win6_0.index t 1 = t.val ∧ win6_0.index t 2 = 0 :=
  (by decide +kernel : ∀ t : Fin grid6.N, _)
theorem idx6_1 : ∀ t : Fin cfg6.N, win6_1.index t 0 = layerIx.val ∧ win6_1.index t 1 = t.val ∧ win6_1.index t 2 = 0 :=
  (by decide +kernel : ∀ t : Fin grid6.N, _)
theorem idx6_2 : ∀ t : Fin cfg6.N, win6_2.index t 0 = layerIx.val ∧ win6_2.index t 1 = 0 ∧ win6_2.index t 2 = 0 :=
  (by decide +kernel : ∀ t : Fin grid6.N, _)
theorem idx6_3 : ∀ t : Fin cfg6.N, win6_3.index t 0 = layerIx.val ∧ win6_3.index t 1 = 0 ∧ win6_3.index t 2 = 0 :=
  (by decide +kernel : ∀ t : Fin grid6.N, _)
theorem idx6_4 : ∀ t : Fin cfg6.N, win6_4.index t 0 = layerIx.val ∧ win6_4.index t 1 = 0 ∧ win6_4.index t 2 = 0 :=
  (by decide +kernel : ∀ t : Fin grid6.N, _)
theorem idx6_5 : ∀ t : Fin cfg6.N, win6_5.index t 0 = layerIx.val ∧ win6_5.index t 1 = 0 ∧ win6_5.index t 2 = 0 :=
  (by decide +kernel : ∀ t : Fin grid6.N, _)
theorem idx6_6 : ∀ t : Fin cfg6.N, win6_6.index t 0 = layerIx.val ∧ win6_6.index t 1 = 0 ∧ win6_6.index t 2 = 0 :=
  (by decide +kernel : ∀ t : Fin grid6.N, _)
theorem idx6_7 : ∀ t : Fin cfg6.N, win6_7.index t 0 = layerIx.val ∧ win6_7.index t 1 = 0 ∧ win6_7.index t 2 = 0 :=
  (by decide +kernel : ∀ t : Fin grid6.N, _)
theorem idx6_8 : ∀ t : Fin cfg6.N, win6_8.index t 0 = 0 ∧ win6_8.index t 1 = t.val ∧ win6_8.index t 2 = 0 :=
  (by decide +kernel : ∀ t : Fin grid6.N, _)
theorem idx6_9 : ∀ t : Fin cfg6.N, win6_9.index t 0 = t.val ∧ win6_9.index t 1 = 0 :=
  (by decide +kernel : ∀ t : Fin grid6.N, _)

end Cert.KernelIdeal.Value6
-- ==== Proof.KI.Val6Blk.lean ====
/-
  The blocks the layer's pipeline hands its body at a grid point, read off the arrays as the region finds them: batch rows
  t·128 … t·128 + 127 of the input sequence and of the layer's initial state, and the layer's slabs of the parameter arrays.
-/
import proofs.«428164_j36979668418798_3_alg».proof.Proof.KI.Reg6
import proofs.«428164_j36979668418798_3_alg».proof.Proof.KI.Val6Idx
import Idealize.ShloMosaic.Lib.Pipeline.Value
import Idealize.ShloMosaic.Lib.ValueIdx

noncomputable section

namespace Cert.KernelIdeal.Value6

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ### The windows' blocks at a grid point, read off the arrays -/

section Blocks
variable (c : Dev nD) (t : Fin cfg6.N)

/-- Window 0's block: batch rows t·128 … t·128 + 127 of the input sequence, all eight steps. -/
theorem iblk6_0_apply (s : Fin 8) (r : Fin 128) (k : Fin 1024) (b : Fin 512) (hb : b.val = t.val * 128 + r.val) :
    (iblk6 V c 0 t : Vec Ideal S8x128x1024 .f32) (ix3 s r k) = (V c inpRef : S8x512x1024.Idx → EReal) (ix3 s b k) := by
  unfold iblk6
  rw [View.read_apply]
  show V c inpRef _ = V c inpRef _
  congr 1
  funext a
  apply Fin.ext
  match a with
  | ⟨0, _⟩ => show win6_0.index t 0 * 8 + 1 * s.val = s.val; rw [(idx6_0 t).1]; omega
  | ⟨1, _⟩ => show win6_0.index t 1 * 128 + 1 * r.val = b.val; rw [(idx6_0 t).2.1, hb]; omega
  | ⟨2, _⟩ => show win6_0.index t 2 * 1024 + 1 * k.val = k.val; rw [(idx6_0 t).2.2]; omega

/-- Window 1's block: the same batch rows of the layer's initial state. -/
theorem iblk6_1_apply (r : Fin 128) (k : Fin 1024) (b : Fin 512) (hb : b.val = t.val * 128 + r.val) :
    (iblk6 V c 1 t : Vec Ideal S1x128x1024 .f32) (ix3 0 r k) = (V c main_arg1 : S8x512x1024.Idx → EReal) (ix3 layerIx b k) := by
  unfold iblk6
  rw [View.read_apply]
  show V c main_arg1 _ = V c main_arg1 _
  congr 1
  funext a
  apply Fin.ext
  match a with
  | ⟨0, _⟩ => show win6_1.index t 0 * 1 + 1 * (0 : Fin 1).val = layerIx.val; rw [(idx6_1 t).1]; simp
  | ⟨1, _⟩ => show win6_1.index t 1 * 128 + 1 * r.val = b.val; rw [(idx6_1 t).2.1, hb]; omega
  | ⟨2, _⟩ => show win6_1.index t 2 * 1024 + 1 * k.val = k.val; rw [(idx6_1 t).2.2]; omega

/-- Window 2's block: the layer's slab of the input-side matrices. -/
theorem iblk6_2_apply (k : Fin 1024) (j : Fin 3072) :
    (iblk6 V c 2 t : Vec Ideal S1x1024x3072 .bf16) (ix3 0 k j) = (V c main_v5 : S8x1024x3072.Idx → EReal) (ix3 layerIx k j) := by
  unfold iblk6
  rw [View.read_apply]
  show V c main_v5 _ = V c main_v5 _
  congr 1
  funext a
  apply Fin.ext
  match a with
  | ⟨0, _⟩ => show win6_2.index t 0 * 1 + 1 * (0 : Fin 1).val = layerIx.val; rw [(idx6_2 t).1]; simp
  | ⟨1, _⟩ => show win6_2.index t 1 * 1024 + 1 * k.val = k.val; rw [(idx6_2 t).2.1]; omega
  | ⟨2, _⟩ => show win6_2.index t 2 * 3072 + 1 * j.val = j.val; rw [(idx6_2 t).2.2]; omega

/-- Window 3's block: the layer's slab of the gates' hidden-side matrices. -/
theorem iblk6_3_apply (k : Fin 1024) (j : Fin 2048) :
    (iblk6 V c 3 t : Vec Ideal S1x1024x2048 .bf16) (ix3 0 k j) = (V c main_v8 : S8x1024x2048.Idx → EReal) (ix3 layerIx k j) := by
  unfold iblk6
  rw [View.read_apply]
  show V c main_v8 _ = V c main_v8 _
  congr 1
  funext a
  apply Fin.ext
  match a with
  | ⟨0, _⟩ => show win6_3.index t 0 * 1 + 1 * (0 : Fin 1).val = layerIx.val; rw [(idx6_3 t).1]; simp
  | ⟨1, _⟩ => show win6_3.index t 1 * 1024 + 1 * k.val = k.val; rw [(idx6_3 t).2.1]; omega
  | ⟨2, _⟩ => show win6_3.index t 2 * 2048 + 1 * j.val = j.val; rw [(idx6_3 t).2.2]; omega

/-- Window 4's block: the layer's slab of the candidate's hidden-side matrix. -/
theorem iblk6_4_apply (k j : Fin 1024) :
    (iblk6 V c 4 t : Vec Ideal S1x1024x1024 .bf16) (ix3 0 k j) = (V c main_v9 : S8x1024x1024.Idx → EReal) (ix3 layerIx k j) := by
  unfold iblk6
  rw [View.read_apply]
  show V c main_v9 _ = V c main_v9 _
  congr 1
  funext a
  apply Fin.ext
  match a with
  | ⟨0, _⟩ => show win6_4.index t 0 * 1 + 1 * (0 : Fin 1).val = layerIx.val; rw [(idx6_4 t).1]; simp
  | ⟨1, _⟩ => show win6_4.index t 1 * 1024 + 1 * k.val = k.val; rw [(idx6_4 t).2.1]; omega
  | ⟨2, _⟩ => show win6_4.index t 2 * 1024 + 1 * j.val = j.val; rw [(idx6_4 t).2.2]; omega

/-- Window 5's block: the layer's update-gate bias row. -/
theorem iblk6_5_apply (j : Fin 1024) :
    (iblk6 V c 5 t : Vec Ideal S1x1x1024 .f32) (ix3 0 0 j) = (V c main_v11 : S8x1x1024.Idx → EReal) (ix3 layerIx 0 j) := by
  unfold iblk6
  rw [View.read_apply]
  show V c main_v11 _ = V c main_v11 _
  congr 1
  funext a
  apply Fin.ext
  match a with
  | ⟨0, _⟩ => show win6_5.index t 0 * 1 + 1 * (0 : Fin 1).val = layerIx.val; rw [(idx6_5 t).1]; simp
  | ⟨1, _⟩ => show win6_5.index t 1 * 1 + 1 * (0 : Fin 1).val = (0 : Fin 1).val; rw [(idx6_5 t).2.1]; simp
  | ⟨2, _⟩ => show win6_5.index t 2 * 1024 + 1 * j.val = j.val; rw [(idx6_5 t).2.2]; omega

/-- Window 6's block: the layer's reset-gate bias row. -/
theorem iblk6_6_apply (j : Fin 1024) :
    (iblk6 V c 6 t : Vec Ideal S1x1x1024 .f32) (ix3 0 0 j) = (V c main_v12 : S8x1x1024.Idx → EReal) (ix3 layerIx 0 j) := by
  unfold iblk6
  rw [View.read_apply]
  show V c main_v12 _ = V c main_v12 _
  congr 1
  funext a
  apply Fin.ext
  match a with
  | ⟨0, _⟩ => show win6_6.index t 0 * 1 + 1 * (0 : Fin 1).val = layerIx.val; rw [(idx6_6 t).1]; simp
  | ⟨1, _⟩ => show win6_6.index t 1 * 1 + 1 * (0 : Fin 1).val = (0 : Fin 1).val; rw [(idx6_6 t).2.1]; simp
  | ⟨2, _⟩ => show win6_6.index t 2 * 1024 + 1 * j.val = j.val; rw [(idx6_6 t).2.2]; omega

/-- Window 7's block: the layer's candidate bias row. -/
theorem iblk6_7_apply (j : Fin 1024) :
    (iblk6 V c 7 t : Vec Ideal S1x1x1024 .f32) (ix3 0 0 j) = (V c main_v13 : S8x1x1024.Idx → EReal) (ix3 layerIx 0 j) := by
  unfold iblk6
  rw [View.read_apply]
  show V c main_v13 _ = V c main_v13 _
  congr 1
  funext a
  apply Fin.ext
  match a with
  | ⟨0, _⟩ => show win6_7.index t 0 * 1 + 1 * (0 : Fin 1).val = layerIx.val; rw [(idx6_7 t).1]; simp
  | ⟨1, _⟩ => show win6_7.index t 1 * 1 + 1 * (0 : Fin 1).val = (0 : Fin 1).val; rw [(idx6_7 t).2.1]; simp
  | ⟨2, _⟩ => show win6_7.index t 2 * 1024 + 1 * j.val = j.val; rw [(idx6_7 t).2.2]; omega

end Blocks

end Cert.KernelIdeal.Value6

end
-- ==== Proof.KI.Val6Final.lean ====
/-
  The two arrays a GRU layer's pipeline leaves: the hidden sequence [time, batch, feature] and the last hidden state
  [batch, feature] of the layer run on the region's input sequence from the layer's initial state. At grid point t the body
  writes the tile of batch rows t·128 … t·128 + 127: slice s along time of its first output is the tile's hidden state after
  step s, its second output the state after the last step; the four tiles cover the batch axis.
-/
import proofs.«428164_j36979668418798_3_alg».proof.Proof.KI.Reg6
import proofs.«428164_j36979668418798_3_alg».proof.Proof.KI.Val6Run
import proofs.«428164_j36979668418798_3_alg».proof.Proof.KI.Val6Blk

set_option maxRecDepth 65536

noncomputable section

namespace Cert.KernelIdeal.Value6

open Idealize.ShloMosaic Idealize.ShloMosaic.TcCoe Idealize.ShloMosaic.ValueIdx Idealize.SL.Sem
open Cert.KernelIdeal Cert.KernelIdeal.Gen Cert.LayerOf
open Idealize.ShloMosaic.Pipeline (Dat)

/-! ### The staging memrefs after the body, entry by entry -/

/-- A slice of extent 1 at time `t` holding `H t` with a leading unit axis is, at each of its entries, `H` at the entry's time
    on the entry's row and column. -/
theorem slice_piece (t : ℕ) (inb : ∀ a, (![t, 0, 0] : Fin 3 → ℕ) a + S1x128x1024.size a ≤ S8x128x1024.size a)
    (H : ℕ → FVec Ideal S128x1024 .f32) (x : S1x128x1024.Idx) :
    shapeCast S1x128x1024 (H t) shapeCasts_S128x1024_S1x128x1024 x
      = (fun y : S8x128x1024.Idx => H (y 0).val (ix2 (y 1) (y 2) : S128x1024.Idx))
          ((Rect.unit (s := S8x128x1024) ![t, 0, 0] S1x128x1024.size inb).emb x) := by
  obtain ⟨u, a, b, rfl⟩ : ∃ (u : Fin 1) (a : Fin 128) (b : Fin 1024), x = ix3 u a b := ⟨x 0, x 1, x 2, eq_ix3 x⟩
  have hu : u.val = 0 := by omega
  rw [shapeCast_ab_1ab_apply]
  have h0 : (((Rect.unit (s := S8x128x1024) ![t, 0, 0] S1x128x1024.size inb).emb (ix3 u a b)) 0).val = t := by
    rw [Rect.emb_apply]; simp [hu]
  have h1 : ((Rect.unit (s := S8x128x1024) ![t, 0, 0] S1x128x1024.size inb).emb (ix3 u a b)) 1 = a :=
    Fin.ext (by rw [Rect.emb_apply]; simp)
  have h2 : ((Rect.unit (s := S8x128x1024) ![t, 0, 0] S1x128x1024.size inb).emb (ix3 u a b)) 2 = b :=
    Fin.ext (by rw [Rect.emb_apply]; simp)
  show H t (ix2 a b) = H _ (ix2 _ _)
  rw [h0, h1, h2]

section Out
variable (c : Dev nD) (i : grid6.Coords) (arg1 : Memref sig .tc .vmem S8x128x1024 .f32) (harg1 : arg1.IsWhole) (arg2 : Memref sig .tc .vmem S1x128x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S8x128x1024 .f32) (harg9 : arg9.IsWhole) (arg10 : Memref sig .tc .vmem S128x1024 .f32) (harg10 : arg10.IsWhole) (arg11 : Memref sig .tc .vmem S1024x3072 .bf16) (harg11 : arg11.IsWhole)
    (x0 : Vec Ideal S8x128x1024 .f32) (x1 : Vec Ideal S1x128x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32)

/-- The hidden sequence's staging memref after the body: entry (s, r, k) is entry (r, k) of the tile's hidden state after
    step s. -/
theorem out8_apply (s : Fin 8) (r : Fin 128) (k : Fin 1024) :
    out6_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k) = hidB x0 x1 x2 x3 x4 x5 x6 x7 s.val (ix2 r k) := by
  unfold out6_A_8
  rw [View.read_writes_eq_canon _ _ _ (cover6_A_8 c i arg1 harg1 arg2 harg2 arg3 harg3 arg4 harg4 arg5 harg5 arg6 harg6 arg7 harg7 arg8 harg8 arg9 harg9 arg10 harg10 arg11 harg11 x0 x1 x2 x3 x4 x5 x6 x7)]
  have hc := cover6_A_8 c i arg1 harg1 arg2 harg2 arg3 harg3 arg4 harg4 arg5 harg5 arg6 harg6 arg7 harg7 arg8 harg8 arg9 harg9 arg10 harg10 arg11 harg11 x0 x1 x2 x3 x4 x5 x6 x7 (ix3 s r k)
  rw [run8_eq] at hc ⊢
  refine (View.canon_apply_of_pieces (fun y : S8x128x1024.Idx => hidB x0 x1 x2 x3 x4 x5 x6 x7 (y 0).val (ix2 (y 1) (y 2) : S128x1024.Idx))
    _ ?_ (ix3 s r k) hc).trans rfl
  intro p hp x
  simp only [List.mem_cons, List.not_mem_nil, or_false] at hp
  rcases hp with rfl | rfl | rfl | rfl | rfl | rfl | rfl | rfl
  · exact slice_piece 7 inb_S8x128x1024_S1x128x1024_7_0_0 (hidB x0 x1 x2 x3 x4 x5 x6 x7) x
  · exact slice_piece 6 inb_S8x128x1024_S1x128x1024_6_0_0 (hidB x0 x1 x2 x3 x4 x5 x6 x7) x
  · exact slice_piece 5 inb_S8x128x1024_S1x128x1024_5_0_0 (hidB x0 x1 x2 x3 x4 x5 x6 x7) x
  · exact slice_piece 4 inb_S8x128x1024_S1x128x1024_4_0_0 (hidB x0 x1 x2 x3 x4 x5 x6 x7) x
  · exact slice_piece 3 inb_S8x128x1024_S1x128x1024_3_0_0 (hidB x0 x1 x2 x3 x4 x5 x6 x7) x
  · exact slice_piece 2 inb_S8x128x1024_S1x128x1024_2_0_0 (hidB x0 x1 x2 x3 x4 x5 x6 x7) x
  · exact slice_piece 1 inb_S8x128x1024_S1x128x1024_1_0_0 (hidB x0 x1 x2 x3 x4 x5 x6 x7) x
  · exact slice_piece 0 inb_S8x128x1024_S1x128x1024_0_0_0 (hidB x0 x1 x2 x3 x4 x5 x6 x7) x

/-- The final state's staging memref after the body is the tile's hidden state after the last step. -/
theorem out9_eq : out6_A_9 c i arg1 harg1 arg2 harg2 arg3 harg3 arg4 harg4 arg5 harg5 arg6 harg6 arg7 harg7 arg8 harg8 arg9 harg9 arg10 harg10 arg11 harg11 x0 x1 x2 x3 x4 x5 x6 x7 = hidB x0 x1 x2 x3 x4 x5 x6 x7 7 := by
  unfold out6_A_9
  rw [View.read_writes_eq_canon _ _ _ (cover6_A_9 c i arg1 harg1 arg2 harg2 arg3 harg3 arg4 harg4 arg5 harg5 arg6 harg6 arg7 harg7 arg8 harg8 arg9 harg9 arg10 harg10 arg11 harg11 x0 x1 x2 x3 x4 x5 x6 x7), run9_eq, View.canon_unit_zero (S := S128x1024) hz2]

end Out

/-! ### What each grid point writes back, and the arrays the region leaves -/

variable (V : (c : Dev nD) → (b : Ref sig .tc) → Buf (Elt Ideal) ((c : Thread nD τ).loc b))

/-- The layer's parameters as the region finds them. -/
abbrev Wof (c : Dev nD) : Cert.Spec.LayerW :=
  WofV (V c main_v5) (V c main_v8) (V c main_v9) (V c main_v11) (V c main_v12) (V c main_v13) layerIx

/-- The hidden sequence the layer leaves. -/
abbrev seqG (c : Dev nD) : Sseq.Idx → EReal := seqOut (Wof V c) (V c inpRef) (V c main_arg1) layerIx
/-- The last hidden state the layer leaves. -/
abbrev finG (c : Dev nD) : Sfin.Idx → EReal := finOut (Wof V c) (V c inpRef) (V c main_arg1) layerIx

/-- Row r of the tile of grid point t after step s is batch row t·128 + r of the layer's hidden sequence at time s. -/
theorem tile_at (c : Dev nD) (t : Fin cfg6.N) (s : Fin 8) (r : Fin 128) (k : Fin 1024) (b : Fin 512)
    (hb : b.val = t.val * 128 + r.val) :
    hidB (iblk6 V c 0 t) (iblk6 V c 1 t) (iblk6 V c 2 t) (iblk6 V c 3 t) (iblk6 V c 4 t) (iblk6 V c 5 t) (iblk6 V c 6 t)
        (iblk6 V c 7 t) s.val (ix2 r k)
      = seqG V c (ix3 s b k) :=
  tile_apply (V c main_v5) (V c main_v8) (V c main_v9) (V c main_v11) (V c main_v12) (V c main_v13) (V c inpRef) (V c main_arg1)
    layerIx (iblk6 V c 0 t) (iblk6 V c 1 t) (iblk6 V c 2 t) (iblk6 V c 3 t) (iblk6 V c 4 t) (iblk6 V c 5 t) (iblk6 V c 6 t)
    (iblk6 V c 7 t) (xgL (iblk6 V c 0 t) (iblk6 V c 2 t)) b r
    (fun s k => iblk6_0_apply V c t s r k b hb) (fun k => iblk6_1_apply V c t r k b hb) (fun k j => iblk6_2_apply V c t k j)
    (fun k j => iblk6_3_apply V c t k j) (fun k j => iblk6_4_apply V c t k j) (fun j => iblk6_5_apply V c t j)
    (fun j => iblk6_6_apply V c t j) (fun j => iblk6_7_apply V c t j)
    (fun s c' => xgL_apply (iblk6 V c 0 t) (iblk6 V c 2 t) s r c') s k

/-- WHAT POINT t WRITES BACK to the hidden sequence: block t of the layer's hidden sequence. -/
theorem flushed8_eq (c : Dev nD) (t : Fin cfg6.N) :
    (dat6 V c).flushed 8 t = ((cfg6.win 8).blk t).view.read (Elt Ideal) (seqG V c) := by
  show (cfg6.win 8).cut (grid6.coords t) ((dat6 V c).after 8 t) = _
  rw [after6_8]
  unfold outsAt6
  dsimp only
  funext j
  obtain ⟨s, r, k, rfl⟩ : ∃ (s : Fin 8) (r : Fin 128) (k : Fin 1024), j = ix3 s r k := ⟨j 0, j 1, j 2, eq_ix3 j⟩
  have ht : t.val < 4 := by have := t.isLt; have hN : cfg6.N = 4 := N_6; omega
  show out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) (iblk6 V c 0 t) (iblk6 V c 1 t) (iblk6 V c 2 t) (iblk6 V c 3 t) (iblk6 V c 4 t) (iblk6 V c 5 t) (iblk6 V c 6 t) (iblk6 V c 7 t) (ix3 s r k)
    = seqG V c (((cfg6.win 8).blk t).view.emb (ix3 s r k))
  rw [out8_apply]
  have hb : ((cfg6.win 8).blk t).view.emb (ix3 s r k)
      = (ix3 s (⟨t.val * 128 + r.val, by have := r.isLt; omega⟩ : Fin 512) k : S8x512x1024.Idx) := by
    funext a
    apply Fin.ext
    match a with
    | ⟨0, _⟩ => show win6_8.index t 0 * 8 + 1 * s.val = s.val; rw [(idx6_8 t).1]; omega
    | ⟨1, _⟩ => show win6_8.index t 1 * 128 + 1 * r.val = t.val * 128 + r.val; rw [(idx6_8 t).2.1]; omega
    | ⟨2, _⟩ => show win6_8.index t 2 * 1024 + 1 * k.val = k.val; rw [(idx6_8 t).2.2]; omega
  rw [hb]
  exact tile_at V c t s r k _ rfl

/-- WHAT POINT t WRITES BACK to the last hidden state: block t of the layer's last hidden state. -/
theorem flushed9_eq (c : Dev nD) (t : Fin cfg6.N) :
    (dat6 V c).flushed 9 t = ((cfg6.win 9).blk t).view.read (Elt Ideal) (finG V c) := by
  show (cfg6.win 9).cut (grid6.coords t) ((dat6 V c).after 9 t) = _
  rw [after6_9]
  unfold outsAt6
  dsimp only
  funext j
  obtain ⟨r, k, rfl⟩ : ∃ (r : Fin 128) (k : Fin 1024), j = ix2 r k := ⟨j 0, j 1, eq_ix2 j⟩
  have ht : t.val < 4 := by have := t.isLt; have hN : cfg6.N = 4 := N_6; omega
  show out6_A_9 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) scM6_0 (Memref.isWhole_whole _) (iblk6 V c 0 t) (iblk6 V c 1 t) (iblk6 V c 2 t) (iblk6 V c 3 t) (iblk6 V c 4 t) (iblk6 V c 5 t) (iblk6 V c 6 t) (iblk6 V c 7 t) (ix2 r k)
    = finG V c (((cfg6.win 9).blk t).view.emb (ix2 r k))
  rw [out9_eq]
  have hb : ((cfg6.win 9).blk t).view.emb (ix2 r k)
      = (ix2 (⟨t.val * 128 + r.val, by have := r.isLt; omega⟩ : Fin 512) k : S512x1024.Idx) := by
    funext a
    apply Fin.ext
    match a with
    | ⟨0, _⟩ => show win6_9.index t 0 * 128 + 1 * r.val = t.val * 128 + r.val; rw [(idx6_9 t).1]; omega
    | ⟨1, _⟩ => show win6_9.index t 1 * 1024 + 1 * k.val = k.val; rw [(idx6_9 t).2]; omega
  rw [hb]
  exact tile_at V c t 7 r k _ rfl

/-- An index of the hidden sequence is in point t's block iff each coordinate is in the block's range on its axis. -/
theorem mem_blk8 (t : Fin cfg6.N) (i : S8x512x1024.Idx) :
    i ∈ ((cfg6.win 8).blk t).view.set ↔ ∀ a : Fin 3, win6_8.index t a * S8x128x1024.size a ≤ (i a).val
      ∧ (i a).val < win6_8.index t a * S8x128x1024.size a + S8x128x1024.size a := by
  show i ∈ ((View.whole main_v21_0).slice (win6_8.rect t)).set ↔ _
  rw [View.set_slice_whole, Rect.mem_set_unit]
  exact Iff.rfl

/-- An index of the last hidden state is in point t's block iff each coordinate is in the block's range on its axis. -/
theorem mem_blk9 (t : Fin cfg6.N) (i : S512x1024.Idx) :
    i ∈ ((cfg6.win 9).blk t).view.set ↔ ∀ a : Fin 2, win6_9.index t a * S128x1024.size a ≤ (i a).val
      ∧ (i a).val < win6_9.index t a * S128x1024.size a + S128x1024.size a := by
  show i ∈ ((View.whole main_v21_1).slice (win6_9.rect t)).set ↔ _
  rw [View.set_slice_whole, Rect.mem_set_unit]
  exact Iff.rfl

/-- The four tiles cover the hidden sequence: batch row b is in the block of point b / 128. -/
theorem cover8 (i : S8x512x1024.Idx) : ∃ t : Fin cfg6.N, (cfg6.win 8).flush t = true ∧ i ∈ ((cfg6.win 8).blk t).view.set := by
  have h0 : (i 0).val < 8 := (i 0).isLt
  have h1 : (i 1).val < 512 := (i 1).isLt
  have h2 : (i 2).val < 1024 := (i 2).isLt
  have hN : cfg6.N = 4 := N_6
  refine ⟨⟨(i 1).val / 128, by rw [hN]; omega⟩, flush6_8 _, ?_⟩
  rw [mem_blk8]
  obtain ⟨e0, e1, e2⟩ := idx6_8 ⟨(i 1).val / 128, by rw [hN]; omega⟩
  intro a
  match a with
  | ⟨0, _⟩ =>
    show win6_8.index _ 0 * 8 ≤ (i 0).val ∧ (i 0).val < win6_8.index _ 0 * 8 + 8
    rw [e0]; omega
  | ⟨1, _⟩ =>
    show win6_8.index _ 1 * 128 ≤ (i 1).val ∧ (i 1).val < win6_8.index _ 1 * 128 + 128
    rw [e1]; show (i 1).val / 128 * 128 ≤ (i 1).val ∧ (i 1).val < (i 1).val / 128 * 128 + 128; omega
  | ⟨2, _⟩ =>
    show win6_8.index _ 2 * 1024 ≤ (i 2).val ∧ (i 2).val < win6_8.index _ 2 * 1024 + 1024
    rw [e2]; omega

/-- The four tiles cover the last hidden state. -/
theorem cover9 (i : S512x1024.Idx) : ∃ t : Fin cfg6.N, (cfg6.win 9).flush t = true ∧ i ∈ ((cfg6.win 9).blk t).view.set := by
  have h0 : (i 0).val < 512 := (i 0).isLt
  have h1 : (i 1).val < 1024 := (i 1).isLt
  have hN : cfg6.N = 4 := N_6
  refine ⟨⟨(i 0).val / 128, by rw [hN]; omega⟩, flush6_9 _, ?_⟩
  rw [mem_blk9]
  obtain ⟨e0, e1⟩ := idx6_9 ⟨(i 0).val / 128, by rw [hN]; omega⟩
  intro a
  match a with
  | ⟨0, _⟩ =>
    show win6_9.index _ 0 * 128 ≤ (i 0).val ∧ (i 0).val < win6_9.index _ 0 * 128 + 128
    rw [e0]; show (i 0).val / 128 * 128 ≤ (i 0).val ∧ (i 0).val < (i 0).val / 128 * 128 + 128; omega
  | ⟨1, _⟩ =>
    show win6_9.index _ 1 * 1024 ≤ (i 1).val ∧ (i 1).val < win6_9.index _ 1 * 1024 + 1024
    rw [e1]; omega

/-- THE HIDDEN SEQUENCE the region leaves is the layer's, run on the region's input sequence from the layer's initial state. -/
theorem seq_value6 (c : Dev nD) :
    (dat6 V c).arrAt 8 cfg6.N
      = seqOut (WofV (V c main_v5) (V c main_v8) (V c main_v9) (V c main_v11) (V c main_v12) (V c main_v13) layerIx)
          (V c inpRef) (V c main_arg1) layerIx :=
  (dat6 V c).arrAt_eq_of_cover 8 (seqG V c) (fun t _ => flushed8_eq V c t) cover8

/-- THE LAST HIDDEN STATE the region leaves is the layer's. -/
theorem fin_value6 (c : Dev nD) :
    (dat6 V c).arrAt 9 cfg6.N
      = finOut (WofV (V c main_v5) (V c main_v8) (V c main_v9) (V c main_v11) (V c main_v12) (V c main_v13) layerIx)
          (V c inpRef) (V c main_arg1) layerIx :=
  (dat6 V c).arrAt_eq_of_cover 9 (finG V c) (fun t _ => flushed9_eq V c t) cover9

end Cert.KernelIdeal.Value6

end
-- ==== Proof.KI.Val7Mat.lean ====
/-
  The four matrix products of the last layer's kernel read at an index, at the ideal values: each entry of a product into a
  zero accumulator is the sum, over the 1024 contracted features, of the left operand's row entry times the right operand's
  column entry.
-/
import proofs.«428164_j36979668418798_3_alg».proof.Proof.Gen.KernelIdeal.Skeleton
import Idealize.ShloMosaic.PureOps.Ideal.Laws
import Idealize.ShloMosaic.Lib.ValueIdx

noncomputable section

namespace Cert.KernelIdeal.Value7

open Idealize.ShloMosaic Idealize.ShloMosaic.ValueIdx Cert.KernelIdeal Cert.KernelIdeal.Gen

/-! ## The hidden-side product of the update and reset gates: a 64×1024 tile by the 1024×2048 matrix pair. -/

theorem lhs_zr_0 (i : S64x2048.Idx) (q : dot_S64x1024_S1024x2048_S64x2048_1_0_0_1_n_n.contr.Idx) :
    (dot_S64x1024_S1024x2048_S64x2048_1_0_0_1_n_n.lhsIdx i q 0).val = (i 0).val := by
  unfold DotDims.lhsIdx
  rw [dif_neg (show ¬(0 : Fin S64x1024.rank) ∈ dot_S64x1024_S1024x2048_S64x2048_1_0_0_1_n_n.lhsBatch by decide), dif_pos (show (0 : Fin S64x1024.rank) ∈ dot_S64x1024_S1024x2048_S64x2048_1_0_0_1_n_n.lhsNonContracting by decide)]
  rfl

theorem lhs_zr_1 (i : S64x2048.Idx) (q : dot_S64x1024_S1024x2048_S64x2048_1_0_0_1_n_n.contr.Idx) :
    (dot_S64x1024_S1024x2048_S64x2048_1_0_0_1_n_n.lhsIdx i q 1).val = (q ⟨0, by decide⟩).val :=
  dot_S64x1024_S1024x2048_S64x2048_1_0_0_1_n_n.lhsIdx_val_of_single rfl i q

theorem rhs_zr_0 (i : S64x2048.Idx) (q : dot_S64x1024_S1024x2048_S64x2048_1_0_0_1_n_n.contr.Idx) :
    (dot_S64x1024_S1024x2048_S64x2048_1_0_0_1_n_n.rhsIdx i q 0).val = (q ⟨0, by decide⟩).val :=
  dot_S64x1024_S1024x2048_S64x2048_1_0_0_1_n_n.rhsIdx_val_of_single rfl i q

theorem rhs_zr_1 (i : S64x2048.Idx) (q : dot_S64x1024_S1024x2048_S64x2048_1_0_0_1_n_n.contr.Idx) :
    (dot_S64x1024_S1024x2048_S64x2048_1_0_0_1_n_n.rhsIdx i q 1).val = (i 1).val := by
  unfold DotDims.rhsIdx
  rw [dif_neg (show ¬(1 : Fin S1024x2048.rank) ∈ dot_S64x1024_S1024x2048_S64x2048_1_0_0_1_n_n.rhsBatch by decide), dif_pos (show (1 : Fin S1024x2048.rank) ∈ dot_S64x1024_S1024x2048_S64x2048_1_0_0_1_n_n.rhsNonContracting by decide)]
  rfl

/-- The product into a zero accumulator, read at row `r` and column `c`: the sum over the 1024 contracted features. -/
theorem matmul_zr_apply (a : FVec Ideal S64x1024 .bf16) (b : FVec Ideal S1024x2048 .bf16) (r : Fin 64) (c : Fin 2048) :
    matmul dot_S64x1024_S1024x2048_S64x2048_1_0_0_1_n_n none a b (constant (F := Ideal) S64x2048 .f32 0x00000000#32) (ix2 r c) = ∑ k : Fin 1024, a (ix2 r k) * b (ix2 k c) := by
  show FloatOps.matmul dot_S64x1024_S1024x2048_S64x2048_1_0_0_1_n_n none a b (constant (F := Ideal) S64x2048 .f32 0x00000000#32) (ix2 r c) = _
  rw [Ideal.matmul_constant_zero_apply, ← Equiv.sum_comp (contrEquiv1 dot_S64x1024_S1024x2048_S64x2048_1_0_0_1_n_n 1024 rfl rfl).symm]
  refine Finset.sum_congr rfl fun k _ => ?_
  have hk := contrEquiv1_symm_val dot_S64x1024_S1024x2048_S64x2048_1_0_0_1_n_n 1024 rfl rfl k
  have el : dot_S64x1024_S1024x2048_S64x2048_1_0_0_1_n_n.lhsIdx (ix2 r c) ((contrEquiv1 dot_S64x1024_S1024x2048_S64x2048_1_0_0_1_n_n 1024 rfl rfl).symm k) = ix2 r k := funext fun a => Fin.ext (by
    match a with
    | ⟨0, _⟩ => exact lhs_zr_0 _ _
    | ⟨1, _⟩ => exact (lhs_zr_1 _ _).trans hk)
  have er : dot_S64x1024_S1024x2048_S64x2048_1_0_0_1_n_n.rhsIdx (ix2 r c) ((contrEquiv1 dot_S64x1024_S1024x2048_S64x2048_1_0_0_1_n_n 1024 rfl rfl).symm k) = ix2 k c := funext fun a => Fin.ext (by
    match a with
    | ⟨0, _⟩ => exact (rhs_zr_0 _ _).trans hk
    | ⟨1, _⟩ => exact rhs_zr_1 _ _)
  rw [el, er]

/-! ## The hidden-side product of the candidate: a 64×1024 tile by the 1024×1024 matrix. -/

theorem lhs_hh_0 (i : S64x1024.Idx) (q : dot_S64x1024_S1024x1024_S64x1024_1_0_0_1_n_n.contr.Idx) :
    (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
  rfl

theorem lhs_hh_1 (i : S64x1024.Idx) (q : dot_S64x1024_S1024x1024_S64x1024_1_0_0_1_n_n.contr.Idx) :
    (dot_S64x1024_S1024x1024_S64x1024_1_0_0_1_n_n.lhsIdx i q 1).val = (q ⟨0, by decide⟩).val :=
  dot_S64x1024_S1024x1024_S64x1024_1_0_0_1_n_n.lhsIdx_val_of_single rfl i q

theorem rhs_hh_0 (i : S64x1024.Idx) (q : dot_S64x1024_S1024x1024_S64x1024_1_0_0_1_n_n.contr.Idx) :
    (dot_S64x1024_S1024x1024_S64x1024_1_0_0_1_n_n.rhsIdx i q 0).val = (q ⟨0, by decide⟩).val :=
  dot_S64x1024_S1024x1024_S64x1024_1_0_0_1_n_n.rhsIdx_val_of_single rfl i q

theorem rhs_hh_1 (i : S64x1024.Idx) (q : dot_S64x1024_S1024x1024_S64x1024_1_0_0_1_n_n.contr.Idx) :
    (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
  rfl

/-- The product into a zero accumulator, read at row `r` and column `c`: the sum over the 1024 contracted features. -/
theorem matmul_hh_apply (a : FVec Ideal S64x1024 .bf16) (b : FVec Ideal S1024x1024 .bf16) (r : Fin 64) (c : Fin 1024) :
    matmul dot_S64x1024_S1024x1024_S64x1024_1_0_0_1_n_n none a b (constant (F := Ideal) S64x1024 .f32 0x00000000#32) (ix2 r c) = ∑ k : Fin 1024, a (ix2 r k) * b (ix2 k c) := by
  show FloatOps.matmul dot_S64x1024_S1024x1024_S64x1024_1_0_0_1_n_n none a b (constant (F := Ideal) S64x1024 .f32 0x00000000#32) (ix2 r c) = _
  rw [Ideal.matmul_constant_zero_apply, ← Equiv.sum_comp (contrEquiv1 dot_S64x1024_S1024x1024_S64x1024_1_0_0_1_n_n 1024 rfl rfl).symm]
  refine Finset.sum_congr rfl fun k _ => ?_
  have hk := contrEquiv1_symm_val dot_S64x1024_S1024x1024_S64x1024_1_0_0_1_n_n 1024 rfl rfl k
  have el : dot_S64x1024_S1024x1024_S64x1024_1_0_0_1_n_n.lhsIdx (ix2 r c) ((contrEquiv1 dot_S64x1024_S1024x1024_S64x1024_1_0_0_1_n_n 1024 rfl rfl).symm k) = ix2 r k := funext fun a => Fin.ext (by
    match a with
    | ⟨0, _⟩ => exact lhs_hh_0 _ _
    | ⟨1, _⟩ => exact (lhs_hh_1 _ _).trans hk)
  have er : dot_S64x1024_S1024x1024_S64x1024_1_0_0_1_n_n.rhsIdx (ix2 r c) ((contrEquiv1 dot_S64x1024_S1024x1024_S64x1024_1_0_0_1_n_n 1024 rfl rfl).symm k) = ix2 k c := funext fun a => Fin.ext (by
    match a with
    | ⟨0, _⟩ => exact (rhs_hh_0 _ _).trans hk
    | ⟨1, _⟩ => exact rhs_hh_1 _ _)
  rw [el, er]

/-! ## The input-side product of all three gates over the eight time steps: 512×1024 by 1024×3072. -/

theorem lhs_xg_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl

theorem lhs_xg_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q

theorem rhs_xg_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q

theorem rhs_xg_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product into a zero accumulator, read at row `r` and column `c`: the sum over the 1024 contracted features. -/
theorem matmul_xg_apply (a : FVec Ideal S512x1024 .bf16) (b : FVec Ideal S1024x3072 .bf16) (r : Fin 512) (c : Fin 3072) :
    matmul dot_S512x1024_S1024x3072_S512x3072_1_0_0_1_n_n none a b (constant (F := Ideal) S512x3072 .f32 0x00000000#32) (ix2 r c) = ∑ k : Fin 1024, a (ix2 r k) * b (ix2 k c) := by
  show FloatOps.matmul dot_S512x1024_S1024x3072_S512x3072_1_0_0_1_n_n none a b (constant (F := Ideal) S512x3072 .f32 0x00000000#32) (ix2 r c) = _
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r c) ((contrEquiv1 dot_S512x1024_S1024x3072_S512x3072_1_0_0_1_n_n 1024 rfl rfl).symm k) = ix2 r k := funext fun a => Fin.ext (by
    match a with
    | ⟨0, _⟩ => exact lhs_xg_0 _ _
    | ⟨1, _⟩ => exact (lhs_xg_1 _ _).trans hk)
  have er : dot_S512x1024_S1024x3072_S512x3072_1_0_0_1_n_n.rhsIdx (ix2 r c) ((contrEquiv1 dot_S512x1024_S1024x3072_S512x3072_1_0_0_1_n_n 1024 rfl rfl).symm k) = ix2 k c := funext fun a => Fin.ext (by
    match a with
    | ⟨0, _⟩ => exact (rhs_xg_0 _ _).trans hk
    | ⟨1, _⟩ => exact rhs_xg_1 _ _)
  rw [el, er]

/-! ## The output projection over the eight time steps: 512×1024 by 1024×1024. -/

theorem lhs_hy_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

theorem lhs_hy_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

theorem rhs_hy_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

theorem rhs_hy_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into a zero accumulator, read at row `r` and column `c`: the sum over the 1024 contracted features. -/
theorem matmul_hy_apply (a : FVec Ideal S512x1024 .bf16) (b : FVec Ideal S1024x1024 .bf16) (r : Fin 512) (c : Fin 1024) :
    matmul dot_S512x1024_S1024x1024_S512x1024_1_0_0_1_n_n none a b (constant (F := Ideal) S512x1024 .f32 0x00000000#32) (ix2 r c) = ∑ k : Fin 1024, a (ix2 r k) * b (ix2 k c) := by
  show FloatOps.matmul dot_S512x1024_S1024x1024_S512x1024_1_0_0_1_n_n none a b (constant (F := Ideal) S512x1024 .f32 0x00000000#32) (ix2 r c) = _
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c) ((contrEquiv1 dot_S512x1024_S1024x1024_S512x1024_1_0_0_1_n_n 1024 rfl rfl).symm k) = ix2 r k := funext fun a => Fin.ext (by
    match a with
    | ⟨0, _⟩ => exact lhs_hy_0 _ _
    | ⟨1, _⟩ => exact (lhs_hy_1 _ _).trans hk)
  have er : dot_S512x1024_S1024x1024_S512x1024_1_0_0_1_n_n.rhsIdx (ix2 r c) ((contrEquiv1 dot_S512x1024_S1024x1024_S512x1024_1_0_0_1_n_n 1024 rfl rfl).symm k) = ix2 k c := funext fun a => Fin.ext (by
    match a with
    | ⟨0, _⟩ => exact (rhs_hy_0 _ _).trans hk
    | ⟨1, _⟩ => exact rhs_hy_1 _ _)
  rw [el, er]

end Cert.KernelIdeal.Value7

end
-- ==== Proof.KI.Val7Step.lean ====
/-
  One time step of the last layer's kernel on a tile of 64 batch rows, written once as a function of the step's rows of the
  input-side products, the previous state, the hidden-side matrices and the biases. The values the kernel's body hands from one
  stretch of its text to the next are this function applied again and again. Read at a row and a feature at the ideal values, a
  step is the GRU cell of that row; the tile's input-side products and its output projection are read at an index likewise.
-/
import proofs.«428164_j36979668418798_3_alg».proof.Proof.KI.Val7Mat
import proofs.«428164_j36979668418798_3_alg».proof.Proof.LayerOf
import Idealize.ShloMosaic.Lib.ValueLayout
import Idealize.ShloMosaic.Lib.Pipeline.Value
import Idealize.ShloMosaic.Lib.IdealHost

noncomputable section

namespace Cert.KernelIdeal.Value7

open Idealize.ShloMosaic Idealize.ShloMosaic.ValueIdx Cert.KernelIdeal Cert.KernelIdeal.Gen

section Generic
variable {F : FTy → Type} [FloatOps F]

/-- The hidden-side products of the update and reset gates of a tile: the state in bf16 times the 1024×2048 matrix pair. -/
def hidZR (h : FVec F S64x1024 .f32) (whzr : Vec F S1x1024x2048 .bf16) : FVec F S64x2048 .f32 :=
  have hb : FVec F S64x1024 .bf16 := truncf .bf16 h bitsLt_bf16_f32
  have w : FVec F S1024x2048 .bf16 := shapeCast S1024x2048 whzr shapeCasts_S1x1024x2048_S1024x2048
  matmul dot_S64x1024_S1024x2048_S64x2048_1_0_0_1_n_n none hb w (constant S64x2048 .f32 0x00000000#32)

/-- The update gate of a tile: σ(x·Wxz + h·Whz + bz), the input-side product read out of columns 0–1023 of the step's rows. -/
def gZ (xg : Vec F S64x3072 .bf16) (h : FVec F S64x1024 .f32) (whzr : Vec F S1x1024x2048 .bf16) (bz : FVec F S1x1024 .f32) :
    FVec F S64x1024 .f32 :=
  have xz : FVec F S64x1024 .bf16 := extractStridedSlice S64x1024 ![0, 0] xg slices_S64x3072_o0_0_S64x1024
  have hz : FVec F S64x1024 .f32 := extractStridedSlice S64x1024 ![0, 0] (hidZR h whzr) slices_S64x2048_o0_0_S64x1024
  logistic (addf (addf (extf .f32 xz bitsLt_bf16_f32) hz) (broadcastTo S64x1024 bz broadcasts_S1x1024_S64x1024))

/-- The reset gate of a tile: σ(x·Wxr + h·Whr + br), the input-side product read out of columns 1024–2047. -/
def gR (xg : Vec F S64x3072 .bf16) (h : FVec F S64x1024 .f32) (whzr : Vec F S1x1024x2048 .bf16) (br : FVec F S1x1024 .f32) :
    FVec F S64x1024 .f32 :=
  have xr : FVec F S64x1024 .bf16 := extractStridedSlice S64x1024 ![0, 1024] xg slices_S64x3072_o0_1024_S64x1024
  have hr : FVec F S64x1024 .f32 := extractStridedSlice S64x1024 ![0, 1024] (hidZR h whzr) slices_S64x2048_o0_1024_S64x1024
  logistic (addf (addf (extf .f32 xr bitsLt_bf16_f32) hr) (broadcastTo S64x1024 br broadcasts_S1x1024_S64x1024))

/-- The candidate state of a tile: tanh(x·Wxh + (r ⊙ h)·Whh + bh), the input-side product read out of columns 2048–3071. -/
def cnd (xg : Vec F S64x3072 .bf16) (h : FVec F S64x1024 .f32) (whzr : Vec F S1x1024x2048 .bf16)
    (whh : Vec F S1x1024x1024 .bf16) (br bh : FVec F S1x1024 .f32) : FVec F S64x1024 .f32 :=
  have xh : FVec F S64x1024 .bf16 := extractStridedSlice S64x1024 ![0, 2048] xg slices_S64x3072_o0_2048_S64x1024
  have rh : FVec F S64x1024 .bf16 := truncf .bf16 (mulf (gR xg h whzr br) h) bitsLt_bf16_f32
  have w : FVec F S1024x1024 .bf16 := shapeCast S1024x1024 whh shapeCasts_S1x1024x1024_S1024x1024
  have hh : FVec F S64x1024 .f32 := matmul dot_S64x1024_S1024x1024_S64x1024_1_0_0_1_n_n none rh w (constant S64x1024 .f32 0x00000000#32)
  tanh (addf (addf (extf .f32 xh bitsLt_bf16_f32) hh) (broadcastTo S64x1024 bh broadcasts_S1x1024_S64x1024))

/-- One time step on a tile of 64 batch rows: h' = (1 − z) ⊙ h + z ⊙ c, from the step's 64 rows `xg` of the input-side
    products, the previous state `h`, the hidden-side matrices and the three biases. -/
def step (xg : Vec F S64x3072 .bf16) (h : FVec F S64x1024 .f32) (whzr : Vec F S1x1024x2048 .bf16)
    (whh : Vec F S1x1024x1024 .bf16) (bz br bh : FVec F S1x1024 .f32) : FVec F S64x1024 .f32 :=
  have one : FVec F S64x1024 .f32 := broadcast S64x1024 (Scalar.ofBits .f32 0x3F800000#32)
  addf (mulf (subf one (gZ xg h whzr bz)) h) (mulf (gZ xg h whzr bz) (cnd xg h whzr whh br bh))

/-- The tile's state after steps 0 … s: step `s` reads rows `X s` of the input-side products and the state before it. -/
def hseq (X : ℕ → Vec F S64x3072 .bf16) (h0 : FVec F S64x1024 .f32) (whzr : Vec F S1x1024x2048 .bf16)
    (whh : Vec F S1x1024x1024 .bf16) (bz br bh : FVec F S1x1024 .f32) : ℕ → FVec F S64x1024 .f32
  | 0 => step (X 0) h0 whzr whh bz br bh
  | s + 1 => step (X (s + 1)) (hseq X h0 whzr whh bz br bh s) whzr whh bz br bh

/-! ### The values the kernel's body passes from one stretch of its text to the next are steps -/

theorem step_first (B1 : Vec F S1x64x1024 .f32) (X0 : Vec F S64x3072 .bf16) (B3 : Vec F S1x1024x2048 .bf16)
    (B4 : Vec F S1x1024x1024 .bf16) (v14 v16 v18 : FVec F S1x1024 .f32) :
    k7_pay12 (k7_pay3 B1) v14 v16 v18 (k7_pay7 X0) (k7_pay8 X0) (k7_pay10 B1 B3) (k7_pay11 B1 X0 B3) B4
      = step X0 (k7_pay3 B1) B3 B4 v14 v16 v18 := rfl

theorem step_second (v12 : FVec F S64x1024 .f32) (v14 v16 v18 : FVec F S1x1024 .f32) (v21 v22 : FVec F S64x1024 .bf16)
    (v28 v30 : FVec F S64x1024 .f32) (v41 : Vec F S1x1024x1024 .bf16) (X1 : Vec F S64x3072 .bf16)
    (B3 : Vec F S1x1024x2048 .bf16) (B4 : Vec F S1x1024x1024 .bf16) :
    k7_pay18 v18 (k7_pay12 v12 v14 v16 v18 v21 v22 v28 v30 v41) (k7_pay14 X1)
        (k7_pay16 v12 v14 v16 v18 v21 v22 v28 v30 v41 X1 B3) (k7_pay17 v12 v14 v16 v18 v21 v22 v28 v30 v41 X1 B3) B4
      = step X1 (k7_pay12 v12 v14 v16 v18 v21 v22 v28 v30 v41) B3 B4 v14 v16 v18 := rfl

theorem step_third (v14 v16 v18 : FVec F S1x1024 .f32) (v53 : FVec F S64x1024 .f32) (v60 : FVec F S64x1024 .bf16)
    (v71 v75 : FVec F S64x1024 .f32) (v79 : Vec F S1x1024x1024 .bf16) (X2 : Vec F S64x3072 .bf16)
    (B3 : Vec F S1x1024x2048 .bf16) (B4 : Vec F S1x1024x1024 .bf16) :
    k7_pay24 v18 (k7_pay18 v18 v53 v60 v71 v75 v79) (k7_pay20 X2) (k7_pay22 v14 v18 v53 v60 v71 v75 v79 X2 B3)
        (k7_pay23 v16 v18 v53 v60 v71 v75 v79 X2 B3) B4
      = step X2 (k7_pay18 v18 v53 v60 v71 v75 v79) B3 B4 v14 v16 v18 := rfl

theorem step_fourth (v14 v16 v18 : FVec F S1x1024 .f32) (v91 : FVec F S64x1024 .f32) (v98 : FVec F S64x1024 .bf16)
    (v109 : FVec F S64x1024 .f32) (v116 : FVec F S64x1024 .bf16) (v117 : Vec F S1x1024x1024 .bf16)
    (X3 : Vec F S64x3072 .bf16) (B3 : Vec F S1x1024x2048 .bf16) (B4 : Vec F S1x1024x1024 .bf16) :
    k7_pay29 (k7_pay24 v18 v91 v98 v109 v116 v117) (k7_pay27 v14 v18 v91 v98 v109 v116 v117 X3 B3)
        (k7_pay28 v16 v18 v91 v98 v109 v116 v117 X3 B3 B4)
      = step X3 (k7_pay24 v18 v91 v98 v109 v116 v117) B3 B4 v14 v16 v18 := rfl

theorem step_fifth (v14 v16 v18 : FVec F S1x1024 .f32) (v129 v147 v161 : FVec F S64x1024 .f32) (X4 : Vec F S64x3072 .bf16)
    (B3 : Vec F S1x1024x2048 .bf16) (B4 : Vec F S1x1024x1024 .bf16) :
    k7_pay31 v14 v16 v18 v129 v147 v161 X4 B3 B4 = step X4 (k7_pay29 v129 v147 v161) B3 B4 v14 v16 v18 := rfl

theorem step_sixth (v14 v16 v18 : FVec F S1x1024 .f32) (h : FVec F S64x1024 .f32) (X5 : Vec F S64x3072 .bf16)
    (B3 : Vec F S1x1024x2048 .bf16) (B4 : Vec F S1x1024x1024 .bf16) :
    k7_pay33 v14 v16 v18 h X5 B3 B4 = step X5 h B3 B4 v14 v16 v18 := rfl

theorem step_seventh (v14 v16 v18 : FVec F S1x1024 .f32) (h : FVec F S64x1024 .f32) (X6 : Vec F S64x3072 .bf16)
    (B3 : Vec F S1x1024x2048 .bf16) (B4 : Vec F S1x1024x1024 .bf16) :
    k7_pay35 v14 v16 v18 h X6 B3 B4 = step X6 h B3 B4 v14 v16 v18 := rfl

theorem step_eighth (v14 v16 v18 : FVec F S1x1024 .f32) (v243 : FVec F S64x1024 .f32) (v247 : Vec F S64x3072 .bf16)
    (v252 : Vec F S1x1024x2048 .bf16) (v269 : Vec F S1x1024x1024 .bf16) (X7 : Vec F S64x3072 .bf16)
    (B3 : Vec F S1x1024x2048 .bf16) (B4 : Vec F S1x1024x1024 .bf16) :
    k7_pay41 v14 v16 v18 (k7_pay35 v14 v16 v18 v243 v247 v252 v269) (k7_pay37 X7) (k7_pay38 X7) (k7_pay39 X7)
        (k7_pay40 v14 v16 v18 v243 v247 v252 v269) B3 B4
      = step X7 (k7_pay35 v14 v16 v18 v243 v247 v252 v269) B3 B4 v14 v16 v18 := rfl

end Generic

section AtIdeal

open Cert.LayerOf (col3 col2)

/-- Row `r` of time step `s` among the 512 rows of a tile's eight steps laid one after another. -/
def row8 (s : Fin 8) (r : Fin 64) : Fin 512 := ⟨s.val * 64 + r.val, by have := s.isLt; have := r.isLt; omega⟩

/-! ### The column bands of the side-by-side products -/

theorem band3_z {α : Type} (x : S64x3072.Idx → α) (r : Fin 64) (j : Fin 1024) :
    extractStridedSlice S64x1024 ![0, 0] x slices_S64x3072_o0_0_S64x1024 (ix2 r j) = x (ix2 r (col3 0 j)) :=
  extractStridedSlice_apply _ x _ _ _ (by
    intro a
    match a with
    | ⟨0, _⟩ => show r.val = 0 + r.val; omega
    | ⟨1, _⟩ => show 0 * 1024 + j.val = 0 + j.val; omega)

theorem band3_r {α : Type} (x : S64x3072.Idx → α) (r : Fin 64) (j : Fin 1024) :
    extractStridedSlice S64x1024 ![0, 1024] x slices_S64x3072_o0_1024_S64x1024 (ix2 r j) = x (ix2 r (col3 1 j)) :=
  extractStridedSlice_apply _ x _ _ _ (by
    intro a
    match a with
    | ⟨0, _⟩ => show r.val = 0 + r.val; omega
    | ⟨1, _⟩ => show 1 * 1024 + j.val = 1024 + j.val; omega)

theorem band3_h {α : Type} (x : S64x3072.Idx → α) (r : Fin 64) (j : Fin 1024) :
    extractStridedSlice S64x1024 ![0, 2048] x slices_S64x3072_o0_2048_S64x1024 (ix2 r j) = x (ix2 r (col3 2 j)) :=
  extractStridedSlice_apply _ x _ _ _ (by
    intro a
    match a with
    | ⟨0, _⟩ => show r.val = 0 + r.val; omega
    | ⟨1, _⟩ => show 2 * 1024 + j.val = 2048 + j.val; omega)

theorem band2_z {α : Type} (x : S64x2048.Idx → α) (r : Fin 64) (j : Fin 1024) :
    extractStridedSlice S64x1024 ![0, 0] x slices_S64x2048_o0_0_S64x1024 (ix2 r j) = x (ix2 r (col2 0 j)) :=
  extractStridedSlice_apply _ x _ _ _ (by
    intro a
    match a with
    | ⟨0, _⟩ => show r.val = 0 + r.val; omega
    | ⟨1, _⟩ => show 0 * 1024 + j.val = 0 + j.val; omega)

theorem band2_r {α : Type} (x : S64x2048.Idx → α) (r : Fin 64) (j : Fin 1024) :
    extractStridedSlice S64x1024 ![0, 1024] x slices_S64x2048_o0_1024_S64x1024 (ix2 r j) = x (ix2 r (col2 1 j)) :=
  extractStridedSlice_apply _ x _ _ _ (by
    intro a
    match a with
    | ⟨0, _⟩ => show r.val = 0 + r.val; omega
    | ⟨1, _⟩ => show 1 * 1024 + j.val = 1024 + j.val; omega)

/-- A bias row laid along the 64 rows of a tile. -/
theorem bias_apply {α : Type} (b : S1x1024.Idx → α) (r : Fin 64) (j : Fin 1024) :
    broadcastTo S64x1024 b broadcasts_S1x1024_S64x1024 (ix2 r j) = b (ix2 (0 : Fin 1) j) :=
  broadcastTo_apply b _ _ _ (by
    intro a
    match a with
    | ⟨0, _⟩ => rfl
    | ⟨1, _⟩ => rfl)

/-! ### A step read at a row and a feature -/

theorem hidZR_apply (h : FVec Ideal S64x1024 .f32) (whzr : Vec Ideal S1x1024x2048 .bf16) (r : Fin 64) (c : Fin 2048) :
    hidZR h whzr (ix2 r c) = ∑ k : Fin 1024, h (ix2 r k) * whzr (ix3 (0 : Fin 1) k c) := by
  unfold hidZR
  show matmul dot_S64x1024_S1024x2048_S64x2048_1_0_0_1_n_n none (truncf .bf16 h bitsLt_bf16_f32)
    (shapeCast S1024x2048 whzr shapeCasts_S1x1024x2048_S1024x2048) (constant (F := Ideal) S64x2048 .f32 0x00000000#32) (ix2 r c) = _
  rw [matmul_zr_apply]
  refine Finset.sum_congr rfl fun k _ => ?_
  rw [shapeCast_1ab_ab_apply]
  rfl

theorem gZ_apply (xg : Vec Ideal S64x3072 .bf16) (h : FVec Ideal S64x1024 .f32) (whzr : Vec Ideal S1x1024x2048 .bf16)
    (bz : FVec Ideal S1x1024 .f32) (r : Fin 64) (j : Fin 1024) :
    gZ xg h whzr bz (ix2 r j) = Ideal.logistic ((xg (ix2 r (col3 0 j))
      + ∑ k : Fin 1024, h (ix2 r k) * whzr (ix3 (0 : Fin 1) k (col2 0 j))) + bz (ix2 (0 : Fin 1) j)) := by
  unfold gZ
  show Ideal.logistic ((extractStridedSlice S64x1024 ![0, 0] xg slices_S64x3072_o0_0_S64x1024 (ix2 r j)
    + extractStridedSlice S64x1024 ![0, 0] (hidZR h whzr) slices_S64x2048_o0_0_S64x1024 (ix2 r j))
    + broadcastTo S64x1024 bz broadcasts_S1x1024_S64x1024 (ix2 r j)) = _
  rw [band3_z, band2_z, bias_apply, hidZR_apply]

theorem gR_apply (xg : Vec Ideal S64x3072 .bf16) (h : FVec Ideal S64x1024 .f32) (whzr : Vec Ideal S1x1024x2048 .bf16)
    (br : FVec Ideal S1x1024 .f32) (r : Fin 64) (j : Fin 1024) :
    gR xg h whzr br (ix2 r j) = Ideal.logistic ((xg (ix2 r (col3 1 j))
      + ∑ k : Fin 1024, h (ix2 r k) * whzr (ix3 (0 : Fin 1) k (col2 1 j))) + br (ix2 (0 : Fin 1) j)) := by
  unfold gR
  show Ideal.logistic ((extractStridedSlice S64x1024 ![0, 1024] xg slices_S64x3072_o0_1024_S64x1024 (ix2 r j)
    + extractStridedSlice S64x1024 ![0, 1024] (hidZR h whzr) slices_S64x2048_o0_1024_S64x1024 (ix2 r j))
    + broadcastTo S64x1024 br broadcasts_S1x1024_S64x1024 (ix2 r j)) = _
  rw [band3_r, band2_r, bias_apply, hidZR_apply]

theorem cnd_apply (xg : Vec Ideal S64x3072 .bf16) (h : FVec Ideal S64x1024 .f32) (whzr : Vec Ideal S1x1024x2048 .bf16)
    (whh : Vec Ideal S1x1024x1024 .bf16) (br bh : FVec Ideal S1x1024 .f32) (r : Fin 64) (j : Fin 1024) :
    cnd xg h whzr whh br bh (ix2 r j) = Ideal.tanh ((xg (ix2 r (col3 2 j))
      + ∑ k : Fin 1024, (gR xg h whzr br (ix2 r k) * h (ix2 r k)) * whh (ix3 (0 : Fin 1) k j)) + bh (ix2 (0 : Fin 1) j)) := by
  unfold cnd
  show Ideal.tanh ((extractStridedSlice S64x1024 ![0, 2048] xg slices_S64x3072_o0_2048_S64x1024 (ix2 r j)
    + matmul dot_S64x1024_S1024x1024_S64x1024_1_0_0_1_n_n none (truncf .bf16 (mulf (gR xg h whzr br) h) bitsLt_bf16_f32)
        (shapeCast S1024x1024 whh shapeCasts_S1x1024x1024_S1024x1024) (constant (F := Ideal) S64x1024 .f32 0x00000000#32) (ix2 r j))
    + broadcastTo S64x1024 bh broadcasts_S1x1024_S64x1024 (ix2 r j)) = _
  rw [band3_h, bias_apply, matmul_hh_apply]
  congr 3
  refine Finset.sum_congr rfl fun k _ => ?_
  rw [shapeCast_1ab_ab_apply]
  rfl

theorem step_apply (xg : Vec Ideal S64x3072 .bf16) (h : FVec Ideal S64x1024 .f32) (whzr : Vec Ideal S1x1024x2048 .bf16)
    (whh : Vec Ideal S1x1024x1024 .bf16) (bz br bh : FVec Ideal S1x1024 .f32) (r : Fin 64) (j : Fin 1024) :
    step xg h whzr whh bz br bh (ix2 r j)
      = (1 - gZ xg h whzr bz (ix2 r j)) * h (ix2 r j) + gZ xg h whzr bz (ix2 r j) * cnd xg h whzr whh br bh (ix2 r j) := by
  unfold step
  show (Ideal.ofBits .f32 0x3F800000#32 - gZ xg h whzr bz (ix2 r j)) * h (ix2 r j)
    + gZ xg h whzr bz (ix2 r j) * cnd xg h whzr whh br bh (ix2 r j) = _
  rw [Ideal.ofBits_one_f32]

/-- A step on a tile, read at row `r`, is the cell of that row: when the step's rows of the input-side products are the
    row's products with the layer's input-side matrices, and the hidden-side matrices and biases are the layer's. -/
theorem step_cell (xg : Vec Ideal S64x3072 .bf16) (h : FVec Ideal S64x1024 .f32) (whzr : Vec Ideal S1x1024x2048 .bf16)
    (whh : Vec Ideal S1x1024x1024 .bf16) (bz br bh : FVec Ideal S1x1024 .f32) (W : Cert.Spec.LayerW) (x : Cert.Spec.Row) (r : Fin 64)
    (hxz : ∀ j, xg (ix2 r (col3 0 j)) = ∑ k, x k * W.Wxz k j)
    (hxr : ∀ j, xg (ix2 r (col3 1 j)) = ∑ k, x k * W.Wxr k j)
    (hxh : ∀ j, xg (ix2 r (col3 2 j)) = ∑ k, x k * W.Wxh k j)
    (hwz : ∀ k j, whzr (ix3 (0 : Fin 1) k (col2 0 j)) = W.Whz k j)
    (hwr : ∀ k j, whzr (ix3 (0 : Fin 1) k (col2 1 j)) = W.Whr k j)
    (hwh : ∀ k j, whh (ix3 (0 : Fin 1) k j) = W.Whh k j)
    (hbz : ∀ j, bz (ix2 (0 : Fin 1) j) = W.bz j) (hbr : ∀ j, br (ix2 (0 : Fin 1) j) = W.br j)
    (hbh : ∀ j, bh (ix2 (0 : Fin 1) j) = W.bh j) (j : Fin 1024) :
    step xg h whzr whh bz br bh (ix2 r j) = Cert.Spec.cellRow W x (fun k => h (ix2 r k)) j := by
  rw [step_apply, gZ_apply, cnd_apply]
  simp only [gR_apply, hxz, hxr, hxh, hwz, hwr, hwh, hbz, hbr, hbh]
  rfl

/-! ### The input-side products of the whole tile, and the projection -/

/-- The eight steps' rows flattened: row `s·64 + r` of the 512 is row `r` of step `s`. -/
theorem flat8_apply {α : Type} (x : S8x64x1024.Idx → α) (s : Fin 8) (r : Fin 64) (k : Fin 1024) :
    shapeCast S512x1024 x shapeCasts_S8x64x1024_S512x1024 (ix2 (row8 s r) k) = x (ix3 s r k) :=
  shapeCast_apply x _ _ _ (by
    rw [Shape.rowMajor_val_three, Shape.rowMajor_val_two]
    rfl)

/-- … and back: entry `(s, r)` of the eight steps is row `s·64 + r` of the 512. -/
theorem unflat8_apply {α : Type} (x : S512x1024.Idx → α) (s : Fin 8) (r : Fin 64) (k : Fin 1024) :
    shapeCast S8x64x1024 x shapeCasts_S512x1024_S8x64x1024 (ix3 s r k) = x (ix2 (row8 s r) k) :=
  shapeCast_apply x _ _ _ (by
    rw [Shape.rowMajor_val_three, Shape.rowMajor_val_two]
    rfl)

/-- The tile's input-side products: row `s·64 + r`, column `c` is the product of step `s`'s input row `r` with column `c`
    of the side-by-side input-side matrices. -/
theorem pay2_apply (x0 : Vec Ideal S8x64x1024 .f32) (wx : Vec Ideal S1x1024x3072 .bf16) (s : Fin 8) (r : Fin 64) (c : Fin 3072) :
    k7_pay2 x0 wx (ix2 (row8 s r) c) = ∑ k : Fin 1024, x0 (ix3 s r k) * wx (ix3 (0 : Fin 1) k c) := by
  unfold k7_pay2
  show shapeCast S512x3072 (truncf .bf16 (matmul dot_S512x1024_S1024x3072_S512x3072_1_0_0_1_n_n none
      (truncf .bf16 (shapeCast S512x1024 (shapeCast S8x64x1024 x0 shapeCasts_S8x64x1024_S8x64x1024) shapeCasts_S8x64x1024_S512x1024) bitsLt_bf16_f32)
      (shapeCast S1024x3072 wx shapeCasts_S1x1024x3072_S1024x3072) (constant (F := Ideal) S512x3072 .f32 0x00000000#32)) bitsLt_bf16_f32)
    shapeCasts_S512x3072_S512x3072 (ix2 (row8 s r) c) = _
  rw [shapeCast_self]
  show matmul dot_S512x1024_S1024x3072_S512x3072_1_0_0_1_n_n none _ _ (constant (F := Ideal) S512x3072 .f32 0x00000000#32) (ix2 (row8 s r) c) = _
  rw [matmul_xg_apply]
  refine Finset.sum_congr rfl fun k _ => ?_
  rw [shapeCast_1ab_ab_apply, shapeCast_self]
  show shapeCast S512x1024 x0 shapeCasts_S8x64x1024_S512x1024 (ix2 (row8 s r) k) * _ = _
  rw [flat8_apply]

/-- The hidden sequence read back whole and flattened, in bf16: the same entries. -/
theorem pay43_apply (v : Vec Ideal S8x64x1024 .f32) (s : Fin 8) (r : Fin 64) (k : Fin 1024) :
    k7_pay43 v (ix2 (row8 s r) k) = v (ix3 s r k) := by
  unfold k7_pay43
  show shapeCast S512x1024 (shapeCast S8x64x1024 v shapeCasts_S8x64x1024_S8x64x1024) shapeCasts_S8x64x1024_S512x1024 (ix2 (row8 s r) k) = _
  rw [shapeCast_self, flat8_apply]

/-- The projection of the tile: entry `(s, r, j)` is the product of row `s·64 + r` with column `j` of the output matrix, plus
    the output bias. -/
theorem pay1_apply (hs : FVec Ideal S512x1024 .bf16) (why : Vec Ideal S1024x1024 .bf16) (by_ : Vec Ideal S1x1024 .f32)
    (s : Fin 8) (r : Fin 64) (j : Fin 1024) :
    k7_pay1 hs why by_ (ix3 s r j) = (∑ k : Fin 1024, hs (ix2 (row8 s r) k) * why (ix2 k j)) + by_ (ix2 (0 : Fin 1) j) := by
  unfold k7_pay1
  show shapeCast S8x64x1024 (addf (matmul dot_S512x1024_S1024x1024_S512x1024_1_0_0_1_n_n none hs
      (shapeCast S1024x1024 why shapeCasts_S1024x1024_S1024x1024) (constant (F := Ideal) S512x1024 .f32 0x00000000#32))
      (broadcastTo S512x1024 (shapeCast S1x1024 by_ shapeCasts_S1x1024_S1x1024) broadcasts_S1x1024_S512x1024))
    shapeCasts_S512x1024_S8x64x1024 (ix3 s r j) = _
  rw [unflat8_apply, shapeCast_self, shapeCast_self]
  show matmul dot_S512x1024_S1024x1024_S512x1024_1_0_0_1_n_n none hs why (constant (F := Ideal) S512x1024 .f32 0x00000000#32) (ix2 (row8 s r) j)
    + broadcastTo S512x1024 by_ broadcasts_S1x1024_S512x1024 (ix2 (row8 s r) j) = _
  rw [matmul_hy_apply]
  congr 1
  exact broadcastTo_apply by_ _ _ _ (by
    intro a
    match a with
    | ⟨0, _⟩ => rfl
    | ⟨1, _⟩ => rfl)

end AtIdeal

end Cert.KernelIdeal.Value7

end
-- ==== Proof.KI.Val7Run.lean ====
/-
  What the last layer's body leaves in its three outputs at a grid point, as the pieces its run found, stated through the step
  function: output 10 holds the eight slabs of the tile's states, one per time step; output 11 the last state; output 12 the
  projection of the eight slabs read back whole. Each time step's 64 rows of the input-side products are loaded out of the
  scratch buffer after the one store that fills it.
-/
import proofs.«428164_j36979668418798_3_alg».proof.Proof.KI.Body7
import proofs.«428164_j36979668418798_3_alg».proof.Proof.KI.Val7Step
import Idealize.ShloMosaic.Lib.Pipeline.Value
import Idealize.ShloMosaic.Lib.Pipeline.FrameBody
import Idealize.ShloMosaic.Lib.ValueIdx
import Idealize.ShloMosaic.Lib.ValueLayout
import Idealize.ShloMosaic.Lib.Ring
import Idealize.ShloMosaic.Lib.Tactic

set_option maxRecDepth 16384

noncomputable section

namespace Cert.KernelIdeal.Value7

open Idealize.ShloMosaic Idealize.ShloMosaic.TcCoe Idealize.ShloMosaic.Tactic Idealize.ShloMosaic.ValueIdx
open Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ### Each stored slab is the state after its step, with a unit leading axis -/

theorem store_first (v12 : FVec F S64x1024 .f32) (v14 v16 v18 : FVec F S1x1024 .f32) (v21 v22 : FVec F S64x1024 .bf16)
    (v28 v30 : FVec F S64x1024 .f32) (v41 : Vec F S1x1024x1024 .bf16) :
    k7_pay13 v12 v14 v16 v18 v21 v22 v28 v30 v41
      = shapeCast S1x64x1024 (k7_pay12 v12 v14 v16 v18 v21 v22 v28 v30 v41) shapeCasts_S64x1024_S1x64x1024 := rfl

theorem store_second (v18 : FVec F S1x1024 .f32) (v53 : FVec F S64x1024 .f32) (v60 : FVec F S64x1024 .bf16)
    (v71 v75 : FVec F S64x1024 .f32) (v79 : Vec F S1x1024x1024 .bf16) :
    k7_pay19 v18 v53 v60 v71 v75 v79 = shapeCast S1x64x1024 (k7_pay18 v18 v53 v60 v71 v75 v79) shapeCasts_S64x1024_S1x64x1024 := rfl

theorem store_third (v18 : FVec F S1x1024 .f32) (v91 : FVec F S64x1024 .f32) (v98 : FVec F S64x1024 .bf16)
    (v109 : FVec F S64x1024 .f32) (v116 : FVec F S64x1024 .bf16) (v117 : Vec F S1x1024x1024 .bf16) :
    k7_pay25 v18 v91 v98 v109 v116 v117 = shapeCast S1x64x1024 (k7_pay24 v18 v91 v98 v109 v116 v117) shapeCasts_S64x1024_S1x64x1024 := rfl

theorem store_fourth (v129 v147 v161 : FVec F S64x1024 .f32) :
    k7_pay30 v129 v147 v161 = shapeCast S1x64x1024 (k7_pay29 v129 v147 v161) shapeCasts_S64x1024_S1x64x1024 := rfl

theorem store_fifth (v205 : FVec F S64x1024 .f32) :
    k7_pay32 v205 = shapeCast S1x64x1024 v205 shapeCasts_S64x1024_S1x64x1024 := rfl

theorem store_sixth (v14 v16 v18 : FVec F S1x1024 .f32) (v205 : FVec F S64x1024 .f32) (v209 : Vec F S64x3072 .bf16)
    (v214 : Vec F S1x1024x2048 .bf16) (v231 : Vec F S1x1024x1024 .bf16) :
    k7_pay34 v14 v16 v18 v205 v209 v214 v231
      = shapeCast S1x64x1024 (k7_pay33 v14 v16 v18 v205 v209 v214 v231) shapeCasts_S64x1024_S1x64x1024 := rfl

theorem store_seventh (v14 v16 v18 : FVec F S1x1024 .f32) (v243 : FVec F S64x1024 .f32) (v247 : Vec F S64x3072 .bf16)
    (v252 : Vec F S1x1024x2048 .bf16) (v269 : Vec F S1x1024x1024 .bf16) :
    k7_pay36 v14 v16 v18 v243 v247 v252 v269
      = shapeCast S1x64x1024 (k7_pay35 v14 v16 v18 v243 v247 v252 v269) shapeCasts_S64x1024_S1x64x1024 := rfl

theorem store_eighth (v14 v16 v18 : FVec F S1x1024 .f32) (v281 : FVec F S64x1024 .f32) (v286 v287 v288 v289 : FVec F S64x1024 .bf16)
    (v290 : Vec F S1x1024x2048 .bf16) (v307 : Vec F S1x1024x1024 .bf16) :
    k7_pay42 v14 v16 v18 v281 v286 v287 v288 v289 v290 v307
      = shapeCast S1x64x1024 (k7_pay41 v14 v16 v18 v281 v286 v287 v288 v289 v290 v307) shapeCasts_S64x1024_S1x64x1024 := rfl

/-! ### The scratch buffer's rows, and the eight slabs -/

/-- The whole-buffer store of the tile's input-side products, as the one piece the scratch buffer holds. -/
abbrev scrPiece (x0 : Vec F S8x64x1024 .f32) (x2 : Vec F S1x1024x3072 .bf16) : View.Piece (Elt F) S512x3072 .bf16 :=
  ⟨Rect.unit ![0, 0] S512x3072.size inb_S512x3072_S512x3072_0_0, k7_pay2 x0 x2⟩

/-- Time step `s`'s 64 rows of the input-side products, loaded back out of the scratch buffer after that store. -/
def scrRows (v : View sig .tc .vmem S512x3072 .bf16) (x0 : Vec F S8x64x1024 .f32) (x2 : Vec F S1x1024x3072 .bf16) :
    ℕ → Vec F S64x3072 .bf16
  | 0 => v.readCov [scrPiece x0 x2] (Rect.unit (s := S512x3072) ![0, 0] S64x3072.size inb_S512x3072_S64x3072_0_0).toLoadRect
  | 1 => v.readCov [scrPiece x0 x2] (Rect.unit (s := S512x3072) ![64, 0] S64x3072.size inb_S512x3072_S64x3072_64_0).toLoadRect
  | 2 => v.readCov [scrPiece x0 x2] (Rect.unit (s := S512x3072) ![128, 0] S64x3072.size inb_S512x3072_S64x3072_128_0).toLoadRect
  | 3 => v.readCov [scrPiece x0 x2] (Rect.unit (s := S512x3072) ![192, 0] S64x3072.size inb_S512x3072_S64x3072_192_0).toLoadRect
  | 4 => v.readCov [scrPiece x0 x2] (Rect.unit (s := S512x3072) ![256, 0] S64x3072.size inb_S512x3072_S64x3072_256_0).toLoadRect
  | 5 => v.readCov [scrPiece x0 x2] (Rect.unit (s := S512x3072) ![320, 0] S64x3072.size inb_S512x3072_S64x3072_320_0).toLoadRect
  | 6 => v.readCov [scrPiece x0 x2] (Rect.unit (s := S512x3072) ![384, 0] S64x3072.size inb_S512x3072_S64x3072_384_0).toLoadRect
  | _ => v.readCov [scrPiece x0 x2] (Rect.unit (s := S512x3072) ![448, 0] S64x3072.size inb_S512x3072_S64x3072_448_0).toLoadRect

/-- The eight stores of the hidden sequence, last first: time step `s`'s state as the slab at leading index `s`. -/
def seqPieces (hs : ℕ → FVec F S64x1024 .f32) : List (View.Piece (Elt F) S8x64x1024 .f32) :=
  [⟨Rect.unit ![7, 0, 0] S1x64x1024.size inb_S8x64x1024_S1x64x1024_7_0_0, shapeCast S1x64x1024 (hs 7) shapeCasts_S64x1024_S1x64x1024⟩,
   ⟨Rect.unit ![6, 0, 0] S1x64x1024.size inb_S8x64x1024_S1x64x1024_6_0_0, shapeCast S1x64x1024 (hs 6) shapeCasts_S64x1024_S1x64x1024⟩,
   ⟨Rect.unit ![5, 0, 0] S1x64x1024.size inb_S8x64x1024_S1x64x1024_5_0_0, shapeCast S1x64x1024 (hs 5) shapeCasts_S64x1024_S1x64x1024⟩,
   ⟨Rect.unit ![4, 0, 0] S1x64x1024.size inb_S8x64x1024_S1x64x1024_4_0_0, shapeCast S1x64x1024 (hs 4) shapeCasts_S64x1024_S1x64x1024⟩,
   ⟨Rect.unit ![3, 0, 0] S1x64x1024.size inb_S8x64x1024_S1x64x1024_3_0_0, shapeCast S1x64x1024 (hs 3) shapeCasts_S64x1024_S1x64x1024⟩,
   ⟨Rect.unit ![2, 0, 0] S1x64x1024.size inb_S8x64x1024_S1x64x1024_2_0_0, shapeCast S1x64x1024 (hs 2) shapeCasts_S64x1024_S1x64x1024⟩,
   ⟨Rect.unit ![1, 0, 0] S1x64x1024.size inb_S8x64x1024_S1x64x1024_1_0_0, shapeCast S1x64x1024 (hs 1) shapeCasts_S64x1024_S1x64x1024⟩,
   ⟨Rect.unit ![0, 0, 0] S1x64x1024.size inb_S8x64x1024_S1x64x1024_0_0_0, shapeCast S1x64x1024 (hs 0) shapeCasts_S64x1024_S1x64x1024⟩]

/-- The hidden sequence those stores leave, as one function of the block's index. -/
def seqBlk (hs : ℕ → FVec F S64x1024 .f32) : Vec F S8x64x1024 .f32 := fun y => hs (y 0).val (ix2 (y 1) (y 2))

theorem slab_emb (n : ℕ) (hn : n < 8) (inb : ∀ a, (![n, 0, 0] : Fin 3 → ℕ) a + S1x64x1024.size a ≤ S8x64x1024.size a)
    (u : Fin 1) (i : Fin 64) (j : Fin 1024) :
    (Rect.unit (s := S8x64x1024) ![n, 0, 0] S1x64x1024.size inb).emb (ix3 u i j) = ix3 (⟨n, hn⟩ : Fin 8) i j := by
  funext a
  apply Fin.ext
  match a with
  | ⟨0, _⟩ => show n + 1 * u.val = n; omega
  | ⟨1, _⟩ => show 0 + 1 * i.val = i.val; omega
  | ⟨2, _⟩ => show 0 + 1 * j.val = j.val; omega

theorem seqPieces_canon [∀ e, Nonempty (Elt F e)] (hs : ℕ → FVec F S64x1024 .f32) (y : S8x64x1024.Idx) :
    View.canon (seqPieces hs) y = seqBlk hs y := by
  refine View.canon_apply_of_pieces (seqBlk hs) (seqPieces hs) ?_ y
    (View.cover_of_tiledL (seqPieces hs) S1x64x1024.size (by sl_kernel_rfl) y)
  intro p hp
  simp only [seqPieces, List.mem_cons, List.mem_nil_iff, or_false] at hp
  rcases hp with rfl | rfl | rfl | rfl | rfl | rfl | rfl | rfl
  · intro (x : S1x64x1024.Idx)
    obtain ⟨u, i, j, rfl⟩ : ∃ (u : Fin 1) (i : Fin 64) (j : Fin 1024), x = ix3 u i j := ⟨x 0, x 1, x 2, eq_ix3 x⟩
    show shapeCast S1x64x1024 (hs 7) shapeCasts_S64x1024_S1x64x1024 (ix3 u i j) = seqBlk hs _
    rw [shapeCast_ab_1ab_apply]
    exact congrArg (seqBlk hs) (slab_emb 7 (by decide) inb_S8x64x1024_S1x64x1024_7_0_0 u i j).symm
  · intro (x : S1x64x1024.Idx)
    obtain ⟨u, i, j, rfl⟩ : ∃ (u : Fin 1) (i : Fin 64) (j : Fin 1024), x = ix3 u i j := ⟨x 0, x 1, x 2, eq_ix3 x⟩
    show shapeCast S1x64x1024 (hs 6) shapeCasts_S64x1024_S1x64x1024 (ix3 u i j) = seqBlk hs _
    rw [shapeCast_ab_1ab_apply]
    exact congrArg (seqBlk hs) (slab_emb 6 (by decide) inb_S8x64x1024_S1x64x1024_6_0_0 u i j).symm
  · intro (x : S1x64x1024.Idx)
    obtain ⟨u, i, j, rfl⟩ : ∃ (u : Fin 1) (i : Fin 64) (j : Fin 1024), x = ix3 u i j := ⟨x 0, x 1, x 2, eq_ix3 x⟩
    show shapeCast S1x64x1024 (hs 5) shapeCasts_S64x1024_S1x64x1024 (ix3 u i j) = seqBlk hs _
    rw [shapeCast_ab_1ab_apply]
    exact congrArg (seqBlk hs) (slab_emb 5 (by decide) inb_S8x64x1024_S1x64x1024_5_0_0 u i j).symm
  · intro (x : S1x64x1024.Idx)
    obtain ⟨u, i, j, rfl⟩ : ∃ (u : Fin 1) (i : Fin 64) (j : Fin 1024), x = ix3 u i j := ⟨x 0, x 1, x 2, eq_ix3 x⟩
    show shapeCast S1x64x1024 (hs 4) shapeCasts_S64x1024_S1x64x1024 (ix3 u i j) = seqBlk hs _
    rw [shapeCast_ab_1ab_apply]
    exact congrArg (seqBlk hs) (slab_emb 4 (by decide) inb_S8x64x1024_S1x64x1024_4_0_0 u i j).symm
  · intro (x : S1x64x1024.Idx)
    obtain ⟨u, i, j, rfl⟩ : ∃ (u : Fin 1) (i : Fin 64) (j : Fin 1024), x = ix3 u i j := ⟨x 0, x 1, x 2, eq_ix3 x⟩
    show shapeCast S1x64x1024 (hs 3) shapeCasts_S64x1024_S1x64x1024 (ix3 u i j) = seqBlk hs _
    rw [shapeCast_ab_1ab_apply]
    exact congrArg (seqBlk hs) (slab_emb 3 (by decide) inb_S8x64x1024_S1x64x1024_3_0_0 u i j).symm
  · intro (x : S1x64x1024.Idx)
    obtain ⟨u, i, j, rfl⟩ : ∃ (u : Fin 1) (i : Fin 64) (j : Fin 1024), x = ix3 u i j := ⟨x 0, x 1, x 2, eq_ix3 x⟩
    show shapeCast S1x64x1024 (hs 2) shapeCasts_S64x1024_S1x64x1024 (ix3 u i j) = seqBlk hs _
    rw [shapeCast_ab_1ab_apply]
    exact congrArg (seqBlk hs) (slab_emb 2 (by decide) inb_S8x64x1024_S1x64x1024_2_0_0 u i j).symm
  · intro (x : S1x64x1024.Idx)
    obtain ⟨u, i, j, rfl⟩ : ∃ (u : Fin 1) (i : Fin 64) (j : Fin 1024), x = ix3 u i j := ⟨x 0, x 1, x 2, eq_ix3 x⟩
    show shapeCast S1x64x1024 (hs 1) shapeCasts_S64x1024_S1x64x1024 (ix3 u i j) = seqBlk hs _
    rw [shapeCast_ab_1ab_apply]
    exact congrArg (seqBlk hs) (slab_emb 1 (by decide) inb_S8x64x1024_S1x64x1024_1_0_0 u i j).symm
  · intro (x : S1x64x1024.Idx)
    obtain ⟨u, i, j, rfl⟩ : ∃ (u : Fin 1) (i : Fin 64) (j : Fin 1024), x = ix3 u i j := ⟨x 0, x 1, x 2, eq_ix3 x⟩
    show shapeCast S1x64x1024 (hs 0) shapeCasts_S64x1024_S1x64x1024 (ix3 u i j) = seqBlk hs _
    rw [shapeCast_ab_1ab_apply]
    exact congrArg (seqBlk hs) (slab_emb 0 (by decide) inb_S8x64x1024_S1x64x1024_0_0_0 u i j).symm

/-! ### The pieces the body's run leaves in the three outputs -/

set_option maxHeartbeats 1000000 in
/-- Output 10: the eight slabs of the tile's states. -/
theorem run7_seq (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole) (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) :
    (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 = seqPieces (hseq (scrRows arg14.view x0 x2) (k7_pay3 x1) x3 x4 (k7_pay4 x5) (k7_pay5 x6) (k7_pay6 x7)) := by
  unfold kernelRun7_A
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread,
    View.ld_unit_zero (S := S8x64x1024) hz3, View.ld_unit_zero (S := S1x64x1024) hz3, View.ld_unit_zero (S := S1x1024x3072) hz3,
    View.ld_unit_zero (S := S1x1024x2048) hz3, View.ld_unit_zero (S := S1x1024x1024) hz3, View.ld_unit_zero (S := S1x1x1024) hz3,
    View.ld_unit_zero (S := S1024x1024) hz2, View.ld_unit_zero (S := S1x1024) hz2]
  first | rw [store_eighth, store_seventh, store_sixth, store_fifth, store_fourth, store_third, store_second, store_first] | fail "the store rewrites failed"
  first | rw [step_eighth, step_seventh, step_sixth, step_fifth, step_fourth, step_third, step_second, step_first] | fail "the step rewrites failed"
  first | rfl | fail "rfl after the chain failed"

set_option maxHeartbeats 1000000 in
/-- Output 11: the tile's last state. -/
theorem run7_fin (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole) (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) :
    (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.1
      = [⟨Rect.unit ![0, 0] S64x1024.size inb_S64x1024_S64x1024_0_0, hseq (scrRows arg14.view x0 x2) (k7_pay3 x1) x3 x4 (k7_pay4 x5) (k7_pay5 x6) (k7_pay6 x7) 7⟩] := by
  unfold kernelRun7_A
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread,
    View.ld_unit_zero (S := S8x64x1024) hz3, View.ld_unit_zero (S := S1x64x1024) hz3, View.ld_unit_zero (S := S1x1024x3072) hz3,
    View.ld_unit_zero (S := S1x1024x2048) hz3, View.ld_unit_zero (S := S1x1024x1024) hz3, View.ld_unit_zero (S := S1x1x1024) hz3,
    View.ld_unit_zero (S := S1024x1024) hz2, View.ld_unit_zero (S := S1x1024) hz2]
  first | rw [step_eighth, step_seventh, step_sixth, step_fifth, step_fourth, step_third, step_second, step_first] | fail "the step rewrites failed"
  first | rfl | fail "rfl after the chain failed"

set_option maxHeartbeats 1000000 in
/-- Output 12: the projection of the eight slabs read back whole. -/
theorem run7_proj (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole) (x0 : Vec F S8x64x1024 .f32) (x1 : Vec F S1x64x1024 .f32) (x2 : Vec F S1x1024x3072 .bf16) (x3 : Vec F S1x1024x2048 .bf16) (x4 : Vec F S1x1024x1024 .bf16) (x5 : Vec F S1x1x1024 .f32) (x6 : Vec F S1x1x1024 .f32) (x7 : Vec F S1x1x1024 .f32) (x8 : Vec F S1024x1024 .bf16) (x9 : Vec F S1x1024 .f32) :
    (kernelRun7_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.2.1
      = [⟨Rect.unit ![0, 0, 0] S8x64x1024.size inb_S8x64x1024_S8x64x1024_0_0_0,
          k7_pay1 (k7_pay43 (arg11.view.readCov (seqPieces (hseq (scrRows arg14.view x0 x2) (k7_pay3 x1) x3 x4 (k7_pay4 x5) (k7_pay5 x6) (k7_pay6 x7)))
            (Rect.unit (s := S8x64x1024) ![0, 0, 0] S8x64x1024.size inb_S8x64x1024_S8x64x1024_0_0_0).toLoadRect)) x8 x9⟩] := by
  unfold kernelRun7_A
  dsimp only
  sl_unfold_words
  simp only [View.readAt_eq_ld, harg1.read_unread, harg2.read_unread, harg3.read_unread, harg4.read_unread, harg5.read_unread,
    harg6.read_unread, harg7.read_unread, harg8.read_unread, harg9.read_unread, harg10.read_unread,
    View.ld_unit_zero (S := S8x64x1024) hz3, View.ld_unit_zero (S := S1x64x1024) hz3, View.ld_unit_zero (S := S1x1024x3072) hz3,
    View.ld_unit_zero (S := S1x1024x2048) hz3, View.ld_unit_zero (S := S1x1024x1024) hz3, View.ld_unit_zero (S := S1x1x1024) hz3,
    View.ld_unit_zero (S := S1024x1024) hz2, View.ld_unit_zero (S := S1x1024) hz2]
  first | rw [store_eighth, store_seventh, store_sixth, store_fifth, store_fourth, store_third, store_second, store_first] | fail "the store rewrites failed"
  first | rw [step_eighth, step_seventh, step_sixth, step_fifth, step_fourth, step_third, step_second, step_first] | fail "the step rewrites failed"
  first | rfl | fail "rfl after the chain failed"

end Cert.KernelIdeal.Value7

end
-- ==== Proof.KI.Val7Tile.lean ====
/-
  A tile of 64 batch rows through the eight time steps: at each row the tile's states are that row's run of GRU cells, which is
  the layer's run of Spec at the row's place in the batch; the projected tile is the projection of that run.
-/
import proofs.«428164_j36979668418798_3_alg».proof.Proof.KI.Val7Step

noncomputable section

namespace Cert.KernelIdeal.Value7

open Idealize.ShloMosaic Idealize.ShloMosaic.ValueIdx Cert.KernelIdeal Cert.KernelIdeal.Gen

section Tile

open Cert.Spec Cert.LayerOf

/-- One batch row's run of cells along time: step `s` reads the row's input at `s` and its own output at `s − 1`. -/
def rowRun (W : LayerW) (x : ℕ → Row) (h0 : Row) : ℕ → Row
  | 0 => cellRow W (x 0) h0
  | s + 1 => cellRow W (x (s + 1)) (rowRun W x h0 s)

/-- A layer's run, at one batch row, is that row's run. -/
theorem layer_row (W : LayerW) (xs : ℕ → Fin 512 → Row) (h0 : Fin 512 → Row) (t : ℕ) (b : Fin 512) :
    layer W xs h0 t b = rowRun W (fun s => xs s b) (h0 b) t := by
  induction t with
  | zero => rfl
  | succ n ih => rw [layer_succ, ih]; rfl

/-- The tile's state after step `s`, at row `r`, is the row's run of cells: when each step's rows of the input-side products
    are the row's products with the layer's input-side matrices, and the hidden-side matrices and biases are the layer's. -/
theorem hseq_row (X : ℕ → Vec Ideal S64x3072 .bf16) (h0 : FVec Ideal S64x1024 .f32) (whzr : Vec Ideal S1x1024x2048 .bf16)
    (whh : Vec Ideal S1x1024x1024 .bf16) (bz br bh : FVec Ideal S1x1024 .f32) (W : LayerW) (x : ℕ → Row) (r : Fin 64) (N : ℕ)
    (hxz : ∀ s, s < N → ∀ j, X s (ix2 r (col3 0 j)) = ∑ k, x s k * W.Wxz k j)
    (hxr : ∀ s, s < N → ∀ j, X s (ix2 r (col3 1 j)) = ∑ k, x s k * W.Wxr k j)
    (hxh : ∀ s, s < N → ∀ j, X s (ix2 r (col3 2 j)) = ∑ k, x s k * W.Wxh k j)
    (hwz : ∀ k j, whzr (ix3 (0 : Fin 1) k (col2 0 j)) = W.Whz k j)
    (hwr : ∀ k j, whzr (ix3 (0 : Fin 1) k (col2 1 j)) = W.Whr k j)
    (hwh : ∀ k j, whh (ix3 (0 : Fin 1) k j) = W.Whh k j)
    (hbz : ∀ j, bz (ix2 (0 : Fin 1) j) = W.bz j) (hbr : ∀ j, br (ix2 (0 : Fin 1) j) = W.br j)
    (hbh : ∀ j, bh (ix2 (0 : Fin 1) j) = W.bh j) :
    ∀ s, s < N → ∀ j, hseq X h0 whzr whh bz br bh s (ix2 r j) = rowRun W x (fun k => h0 (ix2 r k)) s j := by
  intro s
  induction s with
  | zero =>
    intro hs j
    exact step_cell (X 0) h0 whzr whh bz br bh W (x 0) r (hxz 0 hs) (hxr 0 hs) (hxh 0 hs) hwz hwr hwh hbz hbr hbh j
  | succ n ih =>
    intro hs j
    show step (X (n + 1)) (hseq X h0 whzr whh bz br bh n) whzr whh bz br bh (ix2 r j)
      = cellRow W (x (n + 1)) (rowRun W x (fun k => h0 (ix2 r k)) n) j
    rw [step_cell (X (n + 1)) (hseq X h0 whzr whh bz br bh n) whzr whh bz br bh W (x (n + 1)) r (hxz _ hs) (hxr _ hs) (hxh _ hs)
      hwz hwr hwh hbz hbr hbh j]
    congr 1
    funext k
    exact ih (by omega) k

/-- THE TILE: with the blocks a grid point loads — the eight steps' inputs `x0`, the initial state `B1`, the layer's matrices
    `B2`, `B3`, `B4` and biases `B5`, `B6`, `B7` — sitting in the whole arrays at batch row `b` for the tile's row `r` and at
    layer 7, and each step's rows `X s` read out of the tile's input-side products, the state after step `s` at row `r` is
    the layer's run at time `s` and batch row `b`. -/
theorem tile_layer (x0 : Vec Ideal S8x64x1024 .f32) (B1 : Vec Ideal S1x64x1024 .f32) (B2 : Vec Ideal S1x1024x3072 .bf16)
    (B3 : Vec Ideal S1x1024x2048 .bf16) (B4 : Vec Ideal S1x1024x1024 .bf16) (B5 B6 B7 : Vec Ideal S1x1x1024 .f32)
    (X : ℕ → Vec Ideal S64x3072 .bf16)
    (wx : Swx.Idx → EReal) (wzr : Swzr.Idx → EReal) (wh : Swh.Idx → EReal) (bz br bh : Sb3.Idx → EReal)
    (u hA : Sseq.Idx → EReal) (b : Fin 512) (r : Fin 64)
    (hX : ∀ (s : Fin 8) (c : Fin 3072), X s.val (ix2 r c) = k7_pay2 x0 B2 (ix2 (row8 s r) c))
    (e0 : ∀ (s : Fin 8) (k : Fin 1024), x0 (ix3 s r k) = u (ix3 s b k))
    (e1 : ∀ k : Fin 1024, B1 (ix3 (0 : Fin 1) r k) = hA (ix3 (7 : Fin 8) b k))
    (e2 : ∀ (k : Fin 1024) (c : Fin 3072), B2 (ix3 (0 : Fin 1) k c) = wx (ix3 (7 : Fin 8) k c))
    (e3 : ∀ (k : Fin 1024) (c : Fin 2048), B3 (ix3 (0 : Fin 1) k c) = wzr (ix3 (7 : Fin 8) k c))
    (e4 : ∀ (k j : Fin 1024), B4 (ix3 (0 : Fin 1) k j) = wh (ix3 (7 : Fin 8) k j))
    (e5 : ∀ j : Fin 1024, B5 (ix3 (0 : Fin 1) (0 : Fin 1) j) = bz (ix3 (7 : Fin 8) (0 : Fin 1) j))
    (e6 : ∀ j : Fin 1024, B6 (ix3 (0 : Fin 1) (0 : Fin 1) j) = br (ix3 (7 : Fin 8) (0 : Fin 1) j))
    (e7 : ∀ j : Fin 1024, B7 (ix3 (0 : Fin 1) (0 : Fin 1) j) = bh (ix3 (7 : Fin 8) (0 : Fin 1) j))
    (s : Fin 8) (j : Fin 1024) :
    hseq X (k7_pay3 B1) B3 B4 (k7_pay4 B5) (k7_pay5 B6) (k7_pay6 B7) s.val (ix2 r j)
      = layer (WofV wx wzr wh bz br bh 7) (seqOf u) (initOf hA 7) s.val b j := by
  rw [layer_row]
  have hx : ∀ n, n < 8 → ∀ c : Fin 3072, X n (ix2 r c) = ∑ k, seqOf u n b k * wx (ix3 (7 : Fin 8) k c) := by
    intro n hn c
    rw [hX ⟨n, hn⟩ c, pay2_apply]
    refine Finset.sum_congr rfl fun k _ => ?_
    rw [e0, e2]
    show u (ix3 ⟨n, hn⟩ b k) * _ = u (ix3 ⟨n % 8, _⟩ b k) * _
    congr 3
    exact Fin.ext (Nat.mod_eq_of_lt hn).symm
  have h0 : (fun k => k7_pay3 B1 (ix2 r k)) = initOf hA 7 b := by
    funext k
    unfold k7_pay3
    show shapeCast S64x1024 B1 shapeCasts_S1x64x1024_S64x1024 (ix2 r k) = _
    rw [shapeCast_1ab_ab_apply, e1]
    rfl
  have hb : ∀ (B : Vec Ideal S1x1x1024 .f32) (j : Fin 1024),
      shapeCast S1x1024 B shapeCasts_S1x1x1024_S1x1024 (ix2 (0 : Fin 1) j) = B (ix3 (0 : Fin 1) (0 : Fin 1) j) :=
    fun B j => shapeCast_1ab_ab_apply B _ _ _
  rw [← h0]
  exact hseq_row X (k7_pay3 B1) B3 B4 (k7_pay4 B5) (k7_pay5 B6) (k7_pay6 B7) (WofV wx wzr wh bz br bh 7) (fun n => seqOf u n b) r 8
    (fun n hn j => hx n hn _) (fun n hn j => hx n hn _) (fun n hn j => hx n hn _)
    (fun k j => e3 k _) (fun k j => e3 k _) (fun k j => e4 k j)
    (fun j => (hb B5 j).trans (e5 j)) (fun j => (hb B6 j).trans (e6 j)) (fun j => (hb B7 j).trans (e7 j)) s.val s.isLt j

/-- The projection of the tile: when the hidden sequence read back, `H`, holds the layer's run at the tile's rows, the projected
    entry `(s, r, j)` is the projection of the run at time `s` and batch row `b`. -/
theorem tile_proj (H : Vec Ideal S8x64x1024 .f32) (B8 : Vec Ideal S1024x1024 .bf16) (B9 : Vec Ideal S1x1024 .f32)
    (L : ℕ → Fin 512 → Row) (b : Fin 512) (s : Fin 8) (r : Fin 64) (hH : ∀ k : Fin 1024, H (ix3 s r k) = L s.val b k) (j : Fin 1024) :
    k7_pay1 (k7_pay43 H) B8 B9 (ix3 s r j) = proj (fun k j => B8 (ix2 k j)) (fun j => B9 (ix2 (0 : Fin 1) j)) (L s.val b) j := by
  rw [pay1_apply]
  unfold proj
  congr 1
  refine Finset.sum_congr rfl fun k _ => ?_
  rw [pay43_apply, hH]

end Tile

end Cert.KernelIdeal.Value7

end
-- ==== Proof.KI.Val7Blk.lean ====
/-
  Where the last layer's windows sit in their arrays: at grid point `t` the batch-tiled windows hold batch rows
  `t·64 … t·64 + 63`, the layer's parameter windows hold layer 7's slab, the projection's parameters are whole; a block's
  coordinate is its index times its size plus the coordinate inside it. The three outputs' blocks cover their arrays.
-/
import proofs.«428164_j36979668418798_3_alg».proof.Proof.Gen.KernelIdeal.Launch
import proofs.«428164_j36979668418798_3_alg».proof.Proof.Gen.KernelIdeal.Points
import proofs.«428164_j36979668418798_3_alg».proof.Proof.LayerOf
import Idealize.ShloMosaic.Lib.ValueIdx
import Idealize.ShloMosaic.Lib.Pipeline.Value

noncomputable section

namespace Cert.KernelIdeal.Value7

open Idealize.ShloMosaic Idealize.ShloMosaic.TcCoe Idealize.ShloMosaic.ValueIdx Idealize.SL.Sem
open Idealize.ShloMosaic.Pipeline (Dat)
open Cert.KernelIdeal Cert.KernelIdeal.Gen

/-- Batch row `r` of tile `t`: row `t·64 + r` of the 512. -/
def brow (t : Fin cfg7.N) (r : Fin 64) : Fin 512 :=
  ⟨t.val * 64 + r.val, by have := t.isLt; have h : cfg7.N = 8 := N_7; have := r.isLt; omega⟩

/-! ## Where each window's block sits at a grid point, decided over the grid -/

theorem idx7_0 : ∀ t : Fin cfg7.N, win7_0.index t 0 = 0 ∧ win7_0.index t 1 = t.val ∧ win7_0.index t 2 = 0 :=
  (by decide +kernel : ∀ t : Fin grid7.N, _)

theorem idx7_1 : ∀ t : Fin cfg7.N, win7_1.index t 0 = 7 ∧ win7_1.index t 1 = t.val ∧ win7_1.index t 2 = 0 :=
  (by decide +kernel : ∀ t : Fin grid7.N, _)

theorem idx7_2 : ∀ t : Fin cfg7.N, win7_2.index t 0 = 7 ∧ win7_2.index t 1 = 0 ∧ win7_2.index t 2 = 0 :=
  (by decide +kernel : ∀ t : Fin grid7.N, _)

theorem idx7_3 : ∀ t : Fin cfg7.N, win7_3.index t 0 = 7 ∧ win7_3.index t 1 = 0 ∧ win7_3.index t 2 = 0 :=
  (by decide +kernel : ∀ t : Fin grid7.N, _)

theorem idx7_4 : ∀ t : Fin cfg7.N, win7_4.index t 0 = 7 ∧ win7_4.index t 1 = 0 ∧ win7_4.index t 2 = 0 :=
  (by decide +kernel : ∀ t : Fin grid7.N, _)

theorem idx7_5 : ∀ t : Fin cfg7.N, win7_5.index t 0 = 7 ∧ win7_5.index t 1 = 0 ∧ win7_5.index t 2 = 0 :=
  (by decide +kernel : ∀ t : Fin grid7.N, _)

theorem idx7_6 : ∀ t : Fin cfg7.N, win7_6.index t 0 = 7 ∧ win7_6.index t 1 = 0 ∧ win7_6.index t 2 = 0 :=
  (by decide +kernel : ∀ t : Fin grid7.N, _)

theorem idx7_7 : ∀ t : Fin cfg7.N, win7_7.index t 0 = 7 ∧ win7_7.index t 1 = 0 ∧ win7_7.index t 2 = 0 :=
  (by decide +kernel : ∀ t : Fin grid7.N, _)

theorem idx7_8 : ∀ t : Fin cfg7.N, win7_8.index t 0 = 0 ∧ win7_8.index t 1 = 0 :=
  (by decide +kernel : ∀ t : Fin grid7.N, _)

theorem idx7_9 : ∀ t : Fin cfg7.N, win7_9.index t 0 = 0 ∧ win7_9.index t 1 = 0 :=
  (by decide +kernel : ∀ t : Fin grid7.N, _)

theorem idx7_10 : ∀ t : Fin cfg7.N, win7_10.index t 0 = 0 ∧ win7_10.index t 1 = t.val ∧ win7_10.index t 2 = 0 :=
  (by decide +kernel : ∀ t : Fin grid7.N, _)

theorem idx7_11 : ∀ t : Fin cfg7.N, win7_11.index t 0 = t.val ∧ win7_11.index t 1 = 0 :=
  (by decide +kernel : ∀ t : Fin grid7.N, _)

theorem idx7_12 : ∀ t : Fin cfg7.N, win7_12.index t 0 = 0 ∧ win7_12.index t 1 = t.val ∧ win7_12.index t 2 = 0 :=
  (by decide +kernel : ∀ t : Fin grid7.N, _)

/-! ## A window's block read off its array -/

theorem read7_0 (c : Dev nD) (t : Fin cfg7.N) (A : Buf (Elt Ideal) ((cfg7.win 0).arr.view.loc (c : Thread nD τ))) (x : S8x64x1024.Idx) :
    (((cfg7.win 0).blk t).view.read (Elt Ideal) A : S8x64x1024.Idx → EReal) x
      = (A : Cert.LayerOf.Sseq.Idx → EReal) (ix3 (x 0) (brow t (x 1)) (x 2)) := by
  obtain ⟨h0, h1, h2⟩ := idx7_0 t
  rw [View.read_apply]
  show A _ = A _
  congr 1
  funext a
  apply Fin.ext
  match a with
  | ⟨0, _⟩ => show win7_0.index t 0 * 8 + 1 * (x 0).val = (x 0).val; rw [h0]; omega
  | ⟨1, _⟩ => show win7_0.index t 1 * 64 + 1 * (x 1).val = t.val * 64 + (x 1).val; rw [h1]; omega
  | ⟨2, _⟩ => show win7_0.index t 2 * 1024 + 1 * (x 2).val = (x 2).val; rw [h2]; omega

theorem read7_1 (c : Dev nD) (t : Fin cfg7.N) (A : Buf (Elt Ideal) ((cfg7.win 1).arr.view.loc (c : Thread nD τ))) (x : S1x64x1024.Idx) :
    (((cfg7.win 1).blk t).view.read (Elt Ideal) A : S1x64x1024.Idx → EReal) x
      = (A : Cert.LayerOf.Sseq.Idx → EReal) (ix3 (7 : Fin 8) (brow t (x 1)) (x 2)) := by
  obtain ⟨h0, h1, h2⟩ := idx7_1 t
  rw [View.read_apply]
  show A _ = A _
  congr 1
  funext a
  apply Fin.ext
  match a with
  | ⟨0, _⟩ => show win7_1.index t 0 * 1 + 1 * (x 0).val = 7; rw [h0]; have hx : (x 0).val < 1 := (x 0).isLt; omega
  | ⟨1, _⟩ => show win7_1.index t 1 * 64 + 1 * (x 1).val = t.val * 64 + (x 1).val; rw [h1]; omega
  | ⟨2, _⟩ => show win7_1.index t 2 * 1024 + 1 * (x 2).val = (x 2).val; rw [h2]; omega

theorem read7_2 (c : Dev nD) (t : Fin cfg7.N) (A : Buf (Elt Ideal) ((cfg7.win 2).arr.view.loc (c : Thread nD τ))) (x : S1x1024x3072.Idx) :
    (((cfg7.win 2).blk t).view.read (Elt Ideal) A : S1x1024x3072.Idx → EReal) x
      = (A : Cert.LayerOf.Swx.Idx → EReal) (ix3 (7 : Fin 8) (x 1) (x 2)) := by
  obtain ⟨h0, h1, h2⟩ := idx7_2 t
  rw [View.read_apply]
  show A _ = A _
  congr 1
  funext a
  apply Fin.ext
  match a with
  | ⟨0, _⟩ => show win7_2.index t 0 * 1 + 1 * (x 0).val = 7; rw [h0]; have hx : (x 0).val < 1 := (x 0).isLt; omega
  | ⟨1, _⟩ => show win7_2.index t 1 * 1024 + 1 * (x 1).val = (x 1).val; rw [h1]; omega
  | ⟨2, _⟩ => show win7_2.index t 2 * 3072 + 1 * (x 2).val = (x 2).val; rw [h2]; omega

theorem read7_3 (c : Dev nD) (t : Fin cfg7.N) (A : Buf (Elt Ideal) ((cfg7.win 3).arr.view.loc (c : Thread nD τ))) (x : S1x1024x2048.Idx) :
    (((cfg7.win 3).blk t).view.read (Elt Ideal) A : S1x1024x2048.Idx → EReal) x
      = (A : Cert.LayerOf.Swzr.Idx → EReal) (ix3 (7 : Fin 8) (x 1) (x 2)) := by
  obtain ⟨h0, h1, h2⟩ := idx7_3 t
  rw [View.read_apply]
  show A _ = A _
  congr 1
  funext a
  apply Fin.ext
  match a with
  | ⟨0, _⟩ => show win7_3.index t 0 * 1 + 1 * (x 0).val = 7; rw [h0]; have hx : (x 0).val < 1 := (x 0).isLt; omega
  | ⟨1, _⟩ => show win7_3.index t 1 * 1024 + 1 * (x 1).val = (x 1).val; rw [h1]; omega
  | ⟨2, _⟩ => show win7_3.index t 2 * 2048 + 1 * (x 2).val = (x 2).val; rw [h2]; omega

theorem read7_4 (c : Dev nD) (t : Fin cfg7.N) (A : Buf (Elt Ideal) ((cfg7.win 4).arr.view.loc (c : Thread nD τ))) (x : S1x1024x1024.Idx) :
    (((cfg7.win 4).blk t).view.read (Elt Ideal) A : S1x1024x1024.Idx → EReal) x
      = (A : Cert.LayerOf.Swh.Idx → EReal) (ix3 (7 : Fin 8) (x 1) (x 2)) := by
  obtain ⟨h0, h1, h2⟩ := idx7_4 t
  rw [View.read_apply]
  show A _ = A _
  congr 1
  funext a
  apply Fin.ext
  match a with
  | ⟨0, _⟩ => show win7_4.index t 0 * 1 + 1 * (x 0).val = 7; rw [h0]; have hx : (x 0).val < 1 := (x 0).isLt; omega
  | ⟨1, _⟩ => show win7_4.index t 1 * 1024 + 1 * (x 1).val = (x 1).val; rw [h1]; omega
  | ⟨2, _⟩ => show win7_4.index t 2 * 1024 + 1 * (x 2).val = (x 2).val; rw [h2]; omega

theorem read7_5 (c : Dev nD) (t : Fin cfg7.N) (A : Buf (Elt Ideal) ((cfg7.win 5).arr.view.loc (c : Thread nD τ))) (x : S1x1x1024.Idx) :
    (((cfg7.win 5).blk t).view.read (Elt Ideal) A : S1x1x1024.Idx → EReal) x
      = (A : Cert.LayerOf.Sb3.Idx → EReal) (ix3 (7 : Fin 8) (x 1) (x 2)) := by
  obtain ⟨h0, h1, h2⟩ := idx7_5 t
  rw [View.read_apply]
  show A _ = A _
  congr 1
  funext a
  apply Fin.ext
  match a with
  | ⟨0, _⟩ => show win7_5.index t 0 * 1 + 1 * (x 0).val = 7; rw [h0]; have hx : (x 0).val < 1 := (x 0).isLt; omega
  | ⟨1, _⟩ => show win7_5.index t 1 * 1 + 1 * (x 1).val = (x 1).val; rw [h1]; have hx : (x 1).val < 1 := (x 1).isLt; omega
  | ⟨2, _⟩ => show win7_5.index t 2 * 1024 + 1 * (x 2).val = (x 2).val; rw [h2]; omega

theorem read7_6 (c : Dev nD) (t : Fin cfg7.N) (A : Buf (Elt Ideal) ((cfg7.win 6).arr.view.loc (c : Thread nD τ))) (x : S1x1x1024.Idx) :
    (((cfg7.win 6).blk t).view.read (Elt Ideal) A : S1x1x1024.Idx → EReal) x
      = (A : Cert.LayerOf.Sb3.Idx → EReal) (ix3 (7 : Fin 8) (x 1) (x 2)) := by
  obtain ⟨h0, h1, h2⟩ := idx7_6 t
  rw [View.read_apply]
  show A _ = A _
  congr 1
  funext a
  apply Fin.ext
  match a with
  | ⟨0, _⟩ => show win7_6.index t 0 * 1 + 1 * (x 0).val = 7; rw [h0]; have hx : (x 0).val < 1 := (x 0).isLt; omega
  | ⟨1, _⟩ => show win7_6.index t 1 * 1 + 1 * (x 1).val = (x 1).val; rw [h1]; have hx : (x 1).val < 1 := (x 1).isLt; omega
  | ⟨2, _⟩ => show win7_6.index t 2 * 1024 + 1 * (x 2).val = (x 2).val; rw [h2]; omega

theorem read7_7 (c : Dev nD) (t : Fin cfg7.N) (A : Buf (Elt Ideal) ((cfg7.win 7).arr.view.loc (c : Thread nD τ))) (x : S1x1x1024.Idx) :
    (((cfg7.win 7).blk t).view.read (Elt Ideal) A : S1x1x1024.Idx → EReal) x
      = (A : Cert.LayerOf.Sb3.Idx → EReal) (ix3 (7 : Fin 8) (x 1) (x 2)) := by
  obtain ⟨h0, h1, h2⟩ := idx7_7 t
  rw [View.read_apply]
  show A _ = A _
  congr 1
  funext a
  apply Fin.ext
  match a with
  | ⟨0, _⟩ => show win7_7.index t 0 * 1 + 1 * (x 0).val = 7; rw [h0]; have hx : (x 0).val < 1 := (x 0).isLt; omega
  | ⟨1, _⟩ => show win7_7.index t 1 * 1 + 1 * (x 1).val = (x 1).val; rw [h1]; have hx : (x 1).val < 1 := (x 1).isLt; omega
  | ⟨2, _⟩ => show win7_7.index t 2 * 1024 + 1 * (x 2).val = (x 2).val; rw [h2]; omega

theorem read7_8 (c : Dev nD) (t : Fin cfg7.N) (A : Buf (Elt Ideal) ((cfg7.win 8).arr.view.loc (c : Thread nD τ))) (x : S1024x1024.Idx) :
    (((cfg7.win 8).blk t).view.read (Elt Ideal) A : S1024x1024.Idx → EReal) x
      = (A : (⟨2, ![1024, 1024]⟩ : Shape).Idx → EReal) (ix2 (x 0) (x 1)) := by
  obtain ⟨h0, h1⟩ := idx7_8 t
  rw [View.read_apply]
  show A _ = A _
  congr 1
  funext a
  apply Fin.ext
  match a with
  | ⟨0, _⟩ => show win7_8.index t 0 * 1024 + 1 * (x 0).val = (x 0).val; rw [h0]; omega
  | ⟨1, _⟩ => show win7_8.index t 1 * 1024 + 1 * (x 1).val = (x 1).val; rw [h1]; omega

theorem read7_9 (c : Dev nD) (t : Fin cfg7.N) (A : Buf (Elt Ideal) ((cfg7.win 9).arr.view.loc (c : Thread nD τ))) (x : S1x1024.Idx) :
    (((cfg7.win 9).blk t).view.read (Elt Ideal) A : S1x1024.Idx → EReal) x
      = (A : (⟨2, ![1, 1024]⟩ : Shape).Idx → EReal) (ix2 (x 0) (x 1)) := by
  obtain ⟨h0, h1⟩ := idx7_9 t
  rw [View.read_apply]
  show A _ = A _
  congr 1
  funext a
  apply Fin.ext
  match a with
  | ⟨0, _⟩ => show win7_9.index t 0 * 1 + 1 * (x 0).val = (x 0).val; rw [h0]; have hx : (x 0).val < 1 := (x 0).isLt; omega
  | ⟨1, _⟩ => show win7_9.index t 1 * 1024 + 1 * (x 1).val = (x 1).val; rw [h1]; omega

theorem read7_10 (c : Dev nD) (t : Fin cfg7.N) (A : Buf (Elt Ideal) ((cfg7.win 10).arr.view.loc (c : Thread nD τ))) (x : S8x64x1024.Idx) :
    (((cfg7.win 10).blk t).view.read (Elt Ideal) A : S8x64x1024.Idx → EReal) x
      = (A : Cert.LayerOf.Sseq.Idx → EReal) (ix3 (x 0) (brow t (x 1)) (x 2)) := by
  obtain ⟨h0, h1, h2⟩ := idx7_10 t
  rw [View.read_apply]
  show A _ = A _
  congr 1
  funext a
  apply Fin.ext
  match a with
  | ⟨0, _⟩ => show win7_10.index t 0 * 8 + 1 * (x 0).val = (x 0).val; rw [h0]; omega
  | ⟨1, _⟩ => show win7_10.index t 1 * 64 + 1 * (x 1).val = t.val * 64 + (x 1).val; rw [h1]; omega
  | ⟨2, _⟩ => show win7_10.index t 2 * 1024 + 1 * (x 2).val = (x 2).val; rw [h2]; omega

theorem read7_11 (c : Dev nD) (t : Fin cfg7.N) (A : Buf (Elt Ideal) ((cfg7.win 11).arr.view.loc (c : Thread nD τ))) (x : S64x1024.Idx) :
    (((cfg7.win 11).blk t).view.read (Elt Ideal) A : S64x1024.Idx → EReal) x
      = (A : Cert.LayerOf.Sfin.Idx → EReal) (ix2 (brow t (x 0)) (x 1)) := by
  obtain ⟨h0, h1⟩ := idx7_11 t
  rw [View.read_apply]
  show A _ = A _
  congr 1
  funext a
  apply Fin.ext
  match a with
  | ⟨0, _⟩ => show win7_11.index t 0 * 64 + 1 * (x 0).val = t.val * 64 + (x 0).val; rw [h0]; omega
  | ⟨1, _⟩ => show win7_11.index t 1 * 1024 + 1 * (x 1).val = (x 1).val; rw [h1]; omega

theorem read7_12 (c : Dev nD) (t : Fin cfg7.N) (A : Buf (Elt Ideal) ((cfg7.win 12).arr.view.loc (c : Thread nD τ))) (x : S8x64x1024.Idx) :
    (((cfg7.win 12).blk t).view.read (Elt Ideal) A : S8x64x1024.Idx → EReal) x
      = (A : Cert.LayerOf.Sseq.Idx → EReal) (ix3 (x 0) (brow t (x 1)) (x 2)) := by
  obtain ⟨h0, h1, h2⟩ := idx7_12 t
  rw [View.read_apply]
  show A _ = A _
  congr 1
  funext a
  apply Fin.ext
  match a with
  | ⟨0, _⟩ => show win7_12.index t 0 * 8 + 1 * (x 0).val = (x 0).val; rw [h0]; omega
  | ⟨1, _⟩ => show win7_12.index t 1 * 64 + 1 * (x 1).val = t.val * 64 + (x 1).val; rw [h1]; omega
  | ⟨2, _⟩ => show win7_12.index t 2 * 1024 + 1 * (x 2).val = (x 2).val; rw [h2]; omega

/-! ## The outputs' blocks cover their arrays -/

theorem mem_blk7_10 (t : Fin cfg7.N) (i : Cert.LayerOf.Sseq.Idx) :
    i ∈ ((cfg7.win 10).blk t).view.set ↔ ∀ a : Fin 3, win7_10.index t a * S8x64x1024.size a ≤ (i a).val
      ∧ (i a).val < win7_10.index t a * S8x64x1024.size a + S8x64x1024.size a := by
  show i ∈ ((View.whole main_v22_0).slice (win7_10.rect t)).set ↔ _
  rw [View.set_slice_whole, Rect.mem_set_unit]
  exact Iff.rfl

theorem mem_blk7_11 (t : Fin cfg7.N) (i : Cert.LayerOf.Sfin.Idx) :
    i ∈ ((cfg7.win 11).blk t).view.set ↔ ∀ a : Fin 2, win7_11.index t a * S64x1024.size a ≤ (i a).val
      ∧ (i a).val < win7_11.index t a * S64x1024.size a + S64x1024.size a := by
  show i ∈ ((View.whole main_v22_1).slice (win7_11.rect t)).set ↔ _
  rw [View.set_slice_whole, Rect.mem_set_unit]
  exact Iff.rfl

theorem mem_blk7_12 (t : Fin cfg7.N) (i : Cert.LayerOf.Sseq.Idx) :
    i ∈ ((cfg7.win 12).blk t).view.set ↔ ∀ a : Fin 3, win7_12.index t a * S8x64x1024.size a ≤ (i a).val
      ∧ (i a).val < win7_12.index t a * S8x64x1024.size a + S8x64x1024.size a := by
  show i ∈ ((View.whole main_v22_2).slice (win7_12.rect t)).set ↔ _
  rw [View.set_slice_whole, Rect.mem_set_unit]
  exact Iff.rfl

/-- Every entry of the `[8, 512, 1024]` array is in the block of the tile its batch row falls in. -/
theorem cover7_10 (i : Cert.LayerOf.Sseq.Idx) : ∃ t : Fin cfg7.N, (cfg7.win 10).flush t = true ∧ i ∈ ((cfg7.win 10).blk t).view.set := by
  have hN : cfg7.N = 8 := N_7
  have hi0 : (i 0).val < 8 := (i 0).isLt
  have hi1 : (i 1).val < 512 := (i 1).isLt
  have hi2 : (i 2).val < 1024 := (i 2).isLt
  refine ⟨⟨(i 1).val / 64, by omega⟩, flush7_10 _, ?_⟩
  rw [mem_blk7_10]
  obtain ⟨h0, h1, h2⟩ := idx7_10 ⟨(i 1).val / 64, by omega⟩
  intro a
  match a with
  | ⟨0, _⟩ => show win7_10.index _ 0 * 8 ≤ (i 0).val ∧ (i 0).val < win7_10.index _ 0 * 8 + 8; rw [h0]; omega
  | ⟨1, _⟩ => show win7_10.index _ 1 * 64 ≤ (i 1).val ∧ (i 1).val < win7_10.index _ 1 * 64 + 64; rw [h1]; show (i 1).val / 64 * 64 ≤ _ ∧ _ < (i 1).val / 64 * 64 + 64; omega
  | ⟨2, _⟩ => show win7_10.index _ 2 * 1024 ≤ (i 2).val ∧ (i 2).val < win7_10.index _ 2 * 1024 + 1024; rw [h2]; omega

/-- Every entry of the `[512, 1024]` array is in the block of the tile its batch row falls in. -/
theorem cover7_11 (i : Cert.LayerOf.Sfin.Idx) : ∃ t : Fin cfg7.N, (cfg7.win 11).flush t = true ∧ i ∈ ((cfg7.win 11).blk t).view.set := by
  have hN : cfg7.N = 8 := N_7
  have hi0 : (i 0).val < 512 := (i 0).isLt
  have hi1 : (i 1).val < 1024 := (i 1).isLt
  refine ⟨⟨(i 0).val / 64, by omega⟩, flush7_11 _, ?_⟩
  rw [mem_blk7_11]
  obtain ⟨h0, h1⟩ := idx7_11 ⟨(i 0).val / 64, by omega⟩
  intro a
  match a with
  | ⟨0, _⟩ => show win7_11.index _ 0 * 64 ≤ (i 0).val ∧ (i 0).val < win7_11.index _ 0 * 64 + 64; rw [h0]; show (i 0).val / 64 * 64 ≤ _ ∧ _ < (i 0).val / 64 * 64 + 64; omega
  | ⟨1, _⟩ => show win7_11.index _ 1 * 1024 ≤ (i 1).val ∧ (i 1).val < win7_11.index _ 1 * 1024 + 1024; rw [h1]; omega

/-- Every entry of the `[8, 512, 1024]` array is in the block of the tile its batch row falls in. -/
theorem cover7_12 (i : Cert.LayerOf.Sseq.Idx) : ∃ t : Fin cfg7.N, (cfg7.win 12).flush t = true ∧ i ∈ ((cfg7.win 12).blk t).view.set := by
  have hN : cfg7.N = 8 := N_7
  have hi0 : (i 0).val < 8 := (i 0).isLt
  have hi1 : (i 1).val < 512 := (i 1).isLt
  have hi2 : (i 2).val < 1024 := (i 2).isLt
  refine ⟨⟨(i 1).val / 64, by omega⟩, flush7_12 _, ?_⟩
  rw [mem_blk7_12]
  obtain ⟨h0, h1, h2⟩ := idx7_12 ⟨(i 1).val / 64, by omega⟩
  intro a
  match a with
  | ⟨0, _⟩ => show win7_12.index _ 0 * 8 ≤ (i 0).val ∧ (i 0).val < win7_12.index _ 0 * 8 + 8; rw [h0]; omega
  | ⟨1, _⟩ => show win7_12.index _ 1 * 64 ≤ (i 1).val ∧ (i 1).val < win7_12.index _ 1 * 64 + 64; rw [h1]; show (i 1).val / 64 * 64 ≤ _ ∧ _ < (i 1).val / 64 * 64 + 64; omega
  | ⟨2, _⟩ => show win7_12.index _ 2 * 1024 ≤ (i 2).val ∧ (i 2).val < win7_12.index _ 2 * 1024 + 1024; rw [h2]; omega

end Cert.KernelIdeal.Value7

end
-- ==== Proof.KI.Val7.lean ====
/-
  THE VALUE OF THE LAST LAYER'S CALL, at the ideal values: after all eight grid points' write-backs, its first output holds the
  layer's hidden sequence, its second the last hidden state, its third the projected hidden sequence — each as Spec's layer run
  from the arrays the call finds. At a grid point the outputs' buffers hold the tile's states (the run's pieces read back), a
  tile's rows are batch rows `t·64 … t·64 + 63`, and the eight tiles cover the batch.
-/
import proofs.«428164_j36979668418798_3_alg».proof.Proof.KI.Reg7
import proofs.«428164_j36979668418798_3_alg».proof.Proof.KI.Val7Run
import proofs.«428164_j36979668418798_3_alg».proof.Proof.KI.Val7Tile
import proofs.«428164_j36979668418798_3_alg».proof.Proof.KI.Val7Blk

set_option maxRecDepth 16384

noncomputable section

namespace Cert.KernelIdeal.Value7

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.LayerOf

/-! ## The scratch buffer's rows are rows of the tile's input-side products -/

theorem scr_load (v : View sig .tc .vmem S512x3072 .bf16) (x0 : Vec Ideal S8x64x1024 .f32) (x2 : Vec Ideal S1x1024x3072 .bf16) (o : ℕ)
    (inb : ∀ a, (![o, 0] : Fin 2 → ℕ) a + S64x3072.size a ≤ S512x3072.size a) (r : Fin 64) (c : Fin 3072) (q : Fin 512)
    (hq : q.val = o + r.val) :
    v.readCov [scrPiece x0 x2] (Rect.unit (s := S512x3072) ![o, 0] S64x3072.size inb).toLoadRect (ix2 r c) = k7_pay2 x0 x2 (ix2 q c) := by
  rw [View.readCov_eq_canon']
  show View.canon [scrPiece x0 x2] _ = _
  rw [View.canon_unit_zero hz2]
  congr 1
  funext a
  apply Fin.ext
  match a with
  | ⟨0, _⟩ => show o + 1 * r.val = q.val; omega
  | ⟨1, _⟩ => show 0 + 1 * c.val = c.val; omega

theorem scrRows_apply (v : View sig .tc .vmem S512x3072 .bf16) (x0 : Vec Ideal S8x64x1024 .f32) (x2 : Vec Ideal S1x1024x3072 .bf16)
    (s : Fin 8) (r : Fin 64) (c : Fin 3072) : scrRows v x0 x2 s.val (ix2 r c) = k7_pay2 x0 x2 (ix2 (row8 s r) c) := by
  obtain ⟨n, hn⟩ := s
  match n, hn with
  | 0, _ => exact scr_load v x0 x2 0 _ r c _ rfl
  | 1, _ => exact scr_load v x0 x2 64 _ r c _ rfl
  | 2, _ => exact scr_load v x0 x2 128 _ r c _ rfl
  | 3, _ => exact scr_load v x0 x2 192 _ r c _ rfl
  | 4, _ => exact scr_load v x0 x2 256 _ r c _ rfl
  | 5, _ => exact scr_load v x0 x2 320 _ r c _ rfl
  | 6, _ => exact scr_load v x0 x2 384 _ r c _ rfl
  | 7, _ => exact scr_load v x0 x2 448 _ r c _ rfl
  | n + 8, h => exact absurd h (by omega)

/-! ## What the body leaves in each output, over any blocks -/

theorem out10_eq (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole) (x0 : Vec Ideal S8x64x1024 .f32) (x1 : Vec Ideal S1x64x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) (x8 : Vec Ideal S1024x1024 .bf16) (x9 : Vec Ideal S1x1024 .f32) :
    out7_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = seqBlk (hseq (scrRows arg14.view x0 x2) (k7_pay3 x1) x3 x4 (k7_pay4 x5) (k7_pay5 x6) (k7_pay6 x7)) := by
  unfold out7_A_10
  rw [View.read_writes_junk_eq_canon, run7_seq]
  funext y
  exact seqPieces_canon _ y

theorem out11_eq (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole) (x0 : Vec Ideal S8x64x1024 .f32) (x1 : Vec Ideal S1x64x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) (x8 : Vec Ideal S1024x1024 .bf16) (x9 : Vec Ideal S1x1024 .f32) :
    out7_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = hseq (scrRows arg14.view x0 x2) (k7_pay3 x1) x3 x4 (k7_pay4 x5) (k7_pay5 x6) (k7_pay6 x7) 7 := by
  unfold out7_A_11
  rw [View.read_writes_junk_eq_canon, run7_fin]
  exact View.canon_unit_zero hz2 _ _

theorem out12_eq (c : Dev nD) (i : grid7.Coords) (arg1 : Memref sig .tc .vmem S8x64x1024 .f32) (harg1 : arg1.IsWhole) (arg2 : Memref sig .tc .vmem S1x64x1024 .f32) (harg2 : arg2.IsWhole) (arg3 : Memref sig .tc .vmem S1x1024x3072 .bf16) (harg3 : arg3.IsWhole) (arg4 : Memref sig .tc .vmem S1x1024x2048 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S8x64x1024 .f32) (harg11 : arg11.IsWhole) (arg12 : Memref sig .tc .vmem S64x1024 .f32) (harg12 : arg12.IsWhole) (arg13 : Memref sig .tc .vmem S8x64x1024 .f32) (harg13 : arg13.IsWhole) (arg14 : Memref sig .tc .vmem S512x3072 .bf16) (harg14 : arg14.IsWhole) (x0 : Vec Ideal S8x64x1024 .f32) (x1 : Vec Ideal S1x64x1024 .f32) (x2 : Vec Ideal S1x1024x3072 .bf16) (x3 : Vec Ideal S1x1024x2048 .bf16) (x4 : Vec Ideal S1x1024x1024 .bf16) (x5 : Vec Ideal S1x1x1024 .f32) (x6 : Vec Ideal S1x1x1024 .f32) (x7 : Vec Ideal S1x1x1024 .f32) (x8 : Vec Ideal S1024x1024 .bf16) (x9 : Vec Ideal S1x1024 .f32) :
    out7_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = k7_pay1 (k7_pay43 (seqBlk (hseq (scrRows arg14.view x0 x2) (k7_pay3 x1) x3 x4 (k7_pay4 x5) (k7_pay5 x6) (k7_pay6 x7)))) x8 x9 := by
  have hc : View.canon (seqPieces (hseq (scrRows arg14.view x0 x2) (k7_pay3 x1) x3 x4 (k7_pay4 x5) (k7_pay5 x6) (k7_pay6 x7))) = seqBlk (hseq (scrRows arg14.view x0 x2) (k7_pay3 x1) x3 x4 (k7_pay4 x5) (k7_pay5 x6) (k7_pay6 x7)) :=
    funext fun y => seqPieces_canon _ y
  have hl : arg11.view.readCov (seqPieces (hseq (scrRows arg14.view x0 x2) (k7_pay3 x1) x3 x4 (k7_pay4 x5) (k7_pay5 x6) (k7_pay6 x7)))
      (Rect.unit (s := S8x64x1024) ![0, 0, 0] S8x64x1024.size inb_S8x64x1024_S8x64x1024_0_0_0).toLoadRect
        = seqBlk (hseq (scrRows arg14.view x0 x2) (k7_pay3 x1) x3 x4 (k7_pay4 x5) (k7_pay5 x6) (k7_pay6 x7)) := by
    rw [View.readCov_eq_canon']
    show View.ld (View.canon (seqPieces (hseq (scrRows arg14.view x0 x2) (k7_pay3 x1) x3 x4 (k7_pay4 x5) (k7_pay5 x6) (k7_pay6 x7)))) (Rect.unit ![0, 0, 0] S8x64x1024.size inb_S8x64x1024_S8x64x1024_0_0_0) = _
    rw [View.ld_unit_zero (S := S8x64x1024) hz3, hc]
  unfold out7_A_12
  rw [View.read_writes_junk_eq_canon, run7_proj, View.canon_unit_zero hz3, hl]

/-! ## At a grid point -/

variable (V : (c : Dev nD) → (b : Ref sig .tc) → Buf (Elt Ideal) ((c : Thread nD τ).loc b))

/-- Layer 7's parameters out of the arrays the call finds. -/
abbrev W7 (c : Dev nD) : LayerW :=
  WofV (V c main_v5) (V c main_v8) (V c main_v9) (V c main_v11) (V c main_v12) (V c main_v13) 7

/-- The layer's run from the arrays the call finds. -/
abbrev run7 (c : Dev nD) : ℕ → Fin 512 → Row := layer (W7 V c) (seqOf (V c main_v21_0)) (initOf (V c main_arg1) 7)

/-- THE TILE AT POINT `t`: its state after step `s`, at row `r`, is the layer's run at time `s` and batch row `t·64 + r`. -/
theorem tile_at (c : Dev nD) (t : Fin cfg7.N) (s : Fin 8) (r : Fin 64) (j : Fin 1024) :
    hseq (scrRows scM7_0.view (iblk7 V c 0 t) (iblk7 V c 2 t)) (k7_pay3 (iblk7 V c 1 t)) (iblk7 V c 3 t) (iblk7 V c 4 t) (k7_pay4 (iblk7 V c 5 t)) (k7_pay5 (iblk7 V c 6 t)) (k7_pay6 (iblk7 V c 7 t)) s.val (ix2 r j) = run7 V c s.val (brow t r) j :=
  tile_layer (iblk7 V c 0 t) (iblk7 V c 1 t) (iblk7 V c 2 t) (iblk7 V c 3 t) (iblk7 V c 4 t) (iblk7 V c 5 t) (iblk7 V c 6 t) (iblk7 V c 7 t)
    (scrRows scM7_0.view (iblk7 V c 0 t) (iblk7 V c 2 t))
    (V c main_v5) (V c main_v8) (V c main_v9) (V c main_v11) (V c main_v12) (V c main_v13) (V c main_v21_0) (V c main_arg1) (brow t r) r
    (fun s c' => scrRows_apply _ _ _ s r c')
    (fun s k => read7_0 c t (V c (Pipeline.arrRef spec7 0)) (ix3 s r k))
    (fun k => read7_1 c t (V c (Pipeline.arrRef spec7 1)) (ix3 (0 : Fin 1) r k))
    (fun k c' => read7_2 c t (V c (Pipeline.arrRef spec7 2)) (ix3 (0 : Fin 1) k c'))
    (fun k c' => read7_3 c t (V c (Pipeline.arrRef spec7 3)) (ix3 (0 : Fin 1) k c'))
    (fun k j => read7_4 c t (V c (Pipeline.arrRef spec7 4)) (ix3 (0 : Fin 1) k j))
    (fun j => read7_5 c t (V c (Pipeline.arrRef spec7 5)) (ix3 (0 : Fin 1) (0 : Fin 1) j))
    (fun j => read7_6 c t (V c (Pipeline.arrRef spec7 6)) (ix3 (0 : Fin 1) (0 : Fin 1) j))
    (fun j => read7_7 c t (V c (Pipeline.arrRef spec7 7)) (ix3 (0 : Fin 1) (0 : Fin 1) j))
    s j

/-! ## What each point writes back is its block of the layer's run -/

/-- The hidden sequence, as the first output's array. -/
abbrev G10 (c : Dev nD) : Buf (Elt Ideal) ((cfg7.win 10).arr.view.loc (c : Thread nD τ)) :=
  seqOut (W7 V c) (V c main_v21_0) (V c main_arg1) 7
/-- The last hidden state, as the second output's array. -/
abbrev G11 (c : Dev nD) : Buf (Elt Ideal) ((cfg7.win 11).arr.view.loc (c : Thread nD τ)) :=
  finOut (W7 V c) (V c main_v21_0) (V c main_arg1) 7
/-- The projected hidden sequence, as the third output's array. -/
abbrev G12 (c : Dev nD) : Buf (Elt Ideal) ((cfg7.win 12).arr.view.loc (c : Thread nD τ)) :=
  projOut (V c main_v10) (V c main_v14) (W7 V c) (V c main_v21_0) (V c main_arg1) 7

theorem flushed7_10 (c : Dev nD) (t : Fin cfg7.N) :
    (dat7 V c).flushed 10 t = ((cfg7.win 10).blk t).view.read (Elt Ideal) (G10 V c) := by
  have h := out10_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t)
  show (cfg7.win 10).cut (grid7.coords t) ((dat7 V c).after 10 t) = _
  rw [after7_10, outsAt7_10, h]
  refine funext fun (y : S8x64x1024.Idx) => ?_
  obtain ⟨s, r, j, rfl⟩ : ∃ (s : Fin 8) (r : Fin 64) (j : Fin 1024), y = ix3 s r j := ⟨y 0, y 1, y 2, eq_ix3 y⟩
  refine Eq.trans ?_ (read7_10 c t (G10 V c) (ix3 s r j)).symm
  exact tile_at V c t s r j

theorem flushed7_11 (c : Dev nD) (t : Fin cfg7.N) :
    (dat7 V c).flushed 11 t = ((cfg7.win 11).blk t).view.read (Elt Ideal) (G11 V c) := by
  have h := out11_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t)
  show (cfg7.win 11).cut (grid7.coords t) ((dat7 V c).after 11 t) = _
  rw [after7_11, outsAt7_11, h]
  refine funext fun (y : S64x1024.Idx) => ?_
  obtain ⟨r, j, rfl⟩ : ∃ (r : Fin 64) (j : Fin 1024), y = ix2 r j := ⟨y 0, y 1, eq_ix2 y⟩
  refine Eq.trans ?_ (read7_11 c t (G11 V c) (ix2 r j)).symm
  exact tile_at V c t (7 : Fin 8) r j

theorem flushed7_12 (c : Dev nD) (t : Fin cfg7.N) :
    (dat7 V c).flushed 12 t = ((cfg7.win 12).blk t).view.read (Elt Ideal) (G12 V c) := by
  have h := out12_eq c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (ms7_11 t) (hs7_11 t) (ms7_12 t) (hs7_12 t) scM7_0 (Memref.isWhole_whole _) (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t)
  show (cfg7.win 12).cut (grid7.coords t) ((dat7 V c).after 12 t) = _
  rw [after7_12, outsAt7_12, h]
  refine funext fun (y : S8x64x1024.Idx) => ?_
  obtain ⟨s, r, j, rfl⟩ : ∃ (s : Fin 8) (r : Fin 64) (j : Fin 1024), y = ix3 s r j := ⟨y 0, y 1, y 2, eq_ix3 y⟩
  refine Eq.trans ?_ (read7_12 c t (G12 V c) (ix3 s r j)).symm
  refine (tile_proj (seqBlk (hseq (scrRows scM7_0.view (iblk7 V c 0 t) (iblk7 V c 2 t)) (k7_pay3 (iblk7 V c 1 t)) (iblk7 V c 3 t) (iblk7 V c 4 t) (k7_pay4 (iblk7 V c 5 t)) (k7_pay5 (iblk7 V c 6 t)) (k7_pay6 (iblk7 V c 7 t)))) (iblk7 V c 8 t) (iblk7 V c 9 t) (run7 V c) (brow t r) s r
    (fun k => tile_at V c t s r k) j).trans ?_
  have e8 : (fun (k j : Fin 1024) => (iblk7 V c 8 t : S1024x1024.Idx → EReal) (ix2 k j)) = fun k j => (V c main_v10 : (⟨2, ![1024, 1024]⟩ : Shape).Idx → EReal) (ix2 k j) :=
    funext fun k => funext fun j => read7_8 c t (V c (Pipeline.arrRef spec7 8)) (ix2 k j)
  have e9 : (fun (j : Fin 1024) => (iblk7 V c 9 t : S1x1024.Idx → EReal) (ix2 (0 : Fin 1) j)) = fun j => (V c main_v14 : (⟨2, ![1, 1024]⟩ : Shape).Idx → EReal) (ix2 (0 : Fin 1) j) :=
    funext fun j => read7_9 c t (V c (Pipeline.arrRef spec7 9)) (ix2 (0 : Fin 1) j)
  show proj (fun k j => (iblk7 V c 8 t : S1024x1024.Idx → EReal) (ix2 k j)) (fun j => (iblk7 V c 9 t : S1x1024.Idx → EReal) (ix2 (0 : Fin 1) j)) (run7 V c s.val (brow t r)) j = _
  rw [e8, e9]
  rfl

/-! ## The arrays after the call -/

/-- The first output ends holding the layer's hidden sequence. -/
theorem seq_value7 (c : Dev nD) : (dat7 V c).arrAt 10 cfg7.N = G10 V c :=
  (dat7 V c).arrAt_eq_of_cover 10 (G10 V c) (fun t _ => flushed7_10 V c t) (fun i => cover7_10 i)

/-- The second output ends holding the layer's last hidden state. -/
theorem fin_value7 (c : Dev nD) : (dat7 V c).arrAt 11 cfg7.N = G11 V c :=
  (dat7 V c).arrAt_eq_of_cover 11 (G11 V c) (fun t _ => flushed7_11 V c t) (fun i => cover7_11 i)

/-- The third output ends holding the projected hidden sequence. -/
theorem proj_value7 (c : Dev nD) : (dat7 V c).arrAt 12 cfg7.N = G12 V c :=
  (dat7 V c).arrAt_eq_of_cover 12 (G12 V c) (fun t _ => flushed7_12 V c t) (fun i => cover7_12 i)

end Cert.KernelIdeal.Value7

end
-- ==== Proof.Out.lean ====
/-
  The three results as functions of the thirteen argument arrays, over the extended reals.

  From the arguments `x : [512, 128, 1024]`, `h_prev : [8, 512, 1024]`, the nine per-layer parameter arrays
  (`[8, 1024, 1024]` matrices, `[8, 1024]` biases) and the output projection `W_hy : [1024, 1024]`, `b_y : [1024]`:
  the stack of eight GRU layers is run for the first eight time steps of `x`;
    `hseq [l, t, b, ·]`  is the hidden row of layer `l` at time `t` for batch row `b`,
    `hlast [l, b, ·]`    the same at the last time step `t = 7`,
    `youts [b, t, ·]`    the projection of the top layer's hidden row at time `t`.
-/
import proofs.«428164_j36979668418798_3_alg».proof.Proof.Spec

noncomputable section

namespace Cert.Out

open Idealize.ShloMosaic Idealize.ShloMosaic.ValueIdx Cert.Spec

abbrev Sx : Shape := ⟨3, ![512, 128, 1024]⟩
abbrev Sh : Shape := ⟨3, ![8, 512, 1024]⟩
abbrev Sw : Shape := ⟨3, ![8, 1024, 1024]⟩
abbrev Sb : Shape := ⟨2, ![8, 1024]⟩
abbrev Swy : Shape := ⟨2, ![1024, 1024]⟩
abbrev Sby : Shape := ⟨1, ![1024]⟩
abbrev Sy : Shape := ⟨3, ![512, 8, 1024]⟩
abbrev Sseq : Shape := ⟨4, ![8, 8, 512, 1024]⟩

/-- The thirteen argument arrays. -/
structure Args where
  x : Sx.Idx → EReal
  hprev : Sh.Idx → EReal
  Wxz : Sw.Idx → EReal
  Whz : Sw.Idx → EReal
  bz : Sb.Idx → EReal
  Wxr : Sw.Idx → EReal
  Whr : Sw.Idx → EReal
  br : Sb.Idx → EReal
  Wxh : Sw.Idx → EReal
  Whh : Sw.Idx → EReal
  bh : Sb.Idx → EReal
  Why : Swy.Idx → EReal
  by_ : Sby.Idx → EReal

/-- A layer number as an index of the parameter arrays' leading axis (layers past the eighth do not occur). -/
def lay (l : ℕ) : Fin 8 := ⟨l % 8, Nat.mod_lt _ (by decide)⟩
/-- A time step as an index of `x`'s time axis (only the first eight occur). -/
def tim (t : ℕ) : Fin 128 := ⟨t % 128, Nat.mod_lt _ (by decide)⟩

/-- Layer `l`'s parameters, cut out of the stacked arrays. -/
def W (a : Args) (l : ℕ) : LayerW where
  Wxz k j := a.Wxz (ix3 (lay l) k j)
  Whz k j := a.Whz (ix3 (lay l) k j)
  bz j := a.bz (ix2 (lay l) j)
  Wxr k j := a.Wxr (ix3 (lay l) k j)
  Whr k j := a.Whr (ix3 (lay l) k j)
  br j := a.br (ix2 (lay l) j)
  Wxh k j := a.Wxh (ix3 (lay l) k j)
  Whh k j := a.Whh (ix3 (lay l) k j)
  bh j := a.bh (ix2 (lay l) j)

/-- The input sequence: time step `t` of `x`, batch row by batch row. -/
def xs (a : Args) (t : ℕ) (b : Fin 512) : Row := fun k => a.x (ix3 b (tim t) k)
/-- Layer `l`'s initial hidden state. -/
def h0 (a : Args) (l : ℕ) (b : Fin 512) : Row := fun k => a.hprev (ix3 (lay l) b k)

/-- The hidden row of layer `l` at time `t` for batch row `b`. -/
def hid (a : Args) (l t : ℕ) (b : Fin 512) : Row := stack (W a) (xs a) (h0 a) l t b

/-- Result 1: every layer's hidden sequence, `[layer, time, batch, feature]`. -/
def hseq (a : Args) : Sseq.Idx → EReal := fun i => hid a (i 0).val (i 1).val (i 2) (i 3)
/-- Result 2: every layer's last hidden state, `[layer, batch, feature]`. -/
def hlast (a : Args) : Sh.Idx → EReal := fun i => hid a (i 0).val 7 (i 1) (i 2)
/-- Result 0: the projected top-layer hidden rows, `[batch, time, feature]`. -/
def youts (a : Args) : Sy.Idx → EReal := fun i =>
  proj (fun k j => a.Why (ix2 k j)) (fun j => a.by_ (ix1 j)) (hid a 7 (i 1).val (i 0)) (i 2)

end Cert.Out

end
-- ==== Proof.KI.ValHost0.lean ====
/-
  The first host stretch read at an index.

  From any contents `V0` of the TensorCore's buffers, what the fifteen operations before the first region leave:
  the time-major first eight steps of `x`, the input-side matrices side by side, the two gates' hidden-side matrices side
  by side, the remaining matrices unchanged (the conversion to bf16 is the identity over the extended reals), the biases
  with a unit axis inserted; the initial states are not written.
-/
import proofs.«428164_j36979668418798_3_alg».proof.Proof.Gen.KernelIdeal.Launch
import proofs.«428164_j36979668418798_3_alg».proof.Proof.LayerOf
import proofs.«428164_j36979668418798_3_alg».proof.Proof.Out
import Idealize.ShloMosaic.Lib.StableHlo.Run
import Idealize.ShloMosaic.Lib.Pipeline.Value
import Idealize.ShloMosaic.Lib.ValueIdx

set_option maxRecDepth 4096

noncomputable section

namespace Cert.KernelIdeal.Value

open Idealize.ShloMosaic Idealize.ShloMosaic.TcCoe Idealize.ShloMosaic.ValueIdx
open Cert.KernelIdeal Cert.KernelIdeal.Gen

variable (V0 : Valuation τ sig (Elt Ideal))

/-! ## The input sequence -/

theorem host0_v1_term :
    (StableHlo.after hostOps0 V0 (Proc.devRef .tc main_v1) : S8x512x1024.Idx → EReal)
      = transpose S8x512x1024 [1, 0, 2] (extractStridedSlice S512x8x1024 ![0, 0, 0] (V0 (Proc.devRef .tc main_arg0) : S512x128x1024.Idx → EReal) slices_S512x128x1024_S512x8x1024_0_0_0) transposes_S512x8x1024_S8x512x1024_1_0_2 := by
  show StableHlo.after hostOps0 V0 (Proc.devRef .tc main_v1) = _
  after_results

/-- The first eight time steps of `x`, time-major. -/
theorem host0_v1 (t : Fin 8) (b : Fin 512) (k : Fin 1024) :
    (StableHlo.after hostOps0 V0 (Proc.devRef .tc main_v1) : S8x512x1024.Idx → EReal) (ix3 t b k)
      = (V0 (Proc.devRef .tc main_arg0) : S512x128x1024.Idx → EReal) (ix3 b ⟨t.val, by have := t.isLt; omega⟩ k) := by
  rw [host0_v1_term]
  refine (transpose_apply [1, 0, 2] _ transposes_S512x8x1024_S8x512x1024_1_0_2 (ix3 t b k) (ix3 b t k) ?_).trans ?_
  · intro d
    match d with
    | ⟨0, _⟩ => rfl
    | ⟨1, _⟩ => rfl
    | ⟨2, _⟩ => rfl
  · refine extractStridedSlice_apply ![0, 0, 0] _ slices_S512x128x1024_S512x8x1024_0_0_0 (ix3 b t k) (ix3 b ⟨t.val, by have := t.isLt; omega⟩ k) ?_
    intro d
    match d with
    | ⟨0, _⟩ => show b.val = 0 + b.val; omega
    | ⟨1, _⟩ => show t.val = 0 + t.val; omega
    | ⟨2, _⟩ => show k.val = 0 + k.val; omega

/-! ## The input-side matrices, side by side -/

theorem host0_v5_term :
    (StableHlo.after hostOps0 V0 (Proc.devRef .tc main_v5) : S8x1024x3072.Idx → EReal)
      = concatenate S8x1024x3072 2 [⟨S8x1024x1024, (V0 (Proc.devRef .tc main_arg2) : S8x1024x1024.Idx → EReal)⟩, ⟨S8x1024x1024, (V0 (Proc.devRef .tc main_arg5) : S8x1024x1024.Idx → EReal)⟩, ⟨S8x1024x1024, (V0 (Proc.devRef .tc main_arg8) : S8x1024x1024.Idx → EReal)⟩] concatenates_S8x1024x1024_S8x1024x1024_S8x1024x1024_S8x1024x3072_d2 := by
  show StableHlo.after hostOps0 V0 (Proc.devRef .tc main_v5) = _
  after_results_simp
  rfl

/-- Three matrices side by side, read at a column of band `g`: the `g`-th matrix at that column. -/
theorem cat3_z (x0 x1 x2 : S8x1024x1024.Idx → EReal) (l : Fin 8) (k j : Fin 1024) :
    concatenate S8x1024x3072 2 [⟨S8x1024x1024, x0⟩, ⟨S8x1024x1024, x1⟩, ⟨S8x1024x1024, x2⟩]
        concatenates_S8x1024x1024_S8x1024x1024_S8x1024x1024_S8x1024x3072_d2 (ix3 l k (Cert.LayerOf.col3 0 j)) = x0 (ix3 l k j) := by
  refine concatenate_apply_piece (t := S8x1024x3072) 2 [⟨S8x1024x1024, x0⟩, ⟨S8x1024x1024, x1⟩, ⟨S8x1024x1024, x2⟩]
    concatenates_S8x1024x1024_S8x1024x1024_S8x1024x1024_S8x1024x3072_d2
    (ix3 l k (Cert.LayerOf.col3 0 j)) 0 (by show 0 < 3; decide) S8x1024x1024 x0 rfl rfl 0 rfl (ix3 l k j) ?_ ?_
  · intro d hd
    match d with
    | ⟨0, _⟩ => rfl
    | ⟨1, _⟩ => rfl
    | ⟨2, _⟩ => exact absurd rfl hd
  · show 0 + j.val = 0 * 1024 + j.val; omega

theorem cat3_r (x0 x1 x2 : S8x1024x1024.Idx → EReal) (l : Fin 8) (k j : Fin 1024) :
    concatenate S8x1024x3072 2 [⟨S8x1024x1024, x0⟩, ⟨S8x1024x1024, x1⟩, ⟨S8x1024x1024, x2⟩]
        concatenates_S8x1024x1024_S8x1024x1024_S8x1024x1024_S8x1024x3072_d2 (ix3 l k (Cert.LayerOf.col3 1 j)) = x1 (ix3 l k j) := by
  refine concatenate_apply_piece (t := S8x1024x3072) 2 [⟨S8x1024x1024, x0⟩, ⟨S8x1024x1024, x1⟩, ⟨S8x1024x1024, x2⟩]
    concatenates_S8x1024x1024_S8x1024x1024_S8x1024x1024_S8x1024x3072_d2
    (ix3 l k (Cert.LayerOf.col3 1 j)) 1 (by show 1 < 3; decide) S8x1024x1024 x1 rfl rfl 1024 rfl (ix3 l k j) ?_ ?_
  · intro d hd
    match d with
    | ⟨0, _⟩ => rfl
    | ⟨1, _⟩ => rfl
    | ⟨2, _⟩ => exact absurd rfl hd
  · show 1024 + j.val = 1 * 1024 + j.val; omega

theorem cat3_h (x0 x1 x2 : S8x1024x1024.Idx → EReal) (l : Fin 8) (k j : Fin 1024) :
    concatenate S8x1024x3072 2 [⟨S8x1024x1024, x0⟩, ⟨S8x1024x1024, x1⟩, ⟨S8x1024x1024, x2⟩]
        concatenates_S8x1024x1024_S8x1024x1024_S8x1024x1024_S8x1024x3072_d2 (ix3 l k (Cert.LayerOf.col3 2 j)) = x2 (ix3 l k j) := by
  refine concatenate_apply_piece (t := S8x1024x3072) 2 [⟨S8x1024x1024, x0⟩, ⟨S8x1024x1024, x1⟩, ⟨S8x1024x1024, x2⟩]
    concatenates_S8x1024x1024_S8x1024x1024_S8x1024x1024_S8x1024x3072_d2
    (ix3 l k (Cert.LayerOf.col3 2 j)) 2 (by show 2 < 3; decide) S8x1024x1024 x2 rfl rfl 2048 rfl (ix3 l k j) ?_ ?_
  · intro d hd
    match d with
    | ⟨0, _⟩ => rfl
    | ⟨1, _⟩ => rfl
    | ⟨2, _⟩ => exact absurd rfl hd
  · show 2048 + j.val = 2 * 1024 + j.val; omega

/-- Band 0 of the side-by-side array is the update gate's matrix, band 1 the reset gate's, band 2 the candidate's. -/
theorem host0_v5_z (l : Fin 8) (k j : Fin 1024) :
    (StableHlo.after hostOps0 V0 (Proc.devRef .tc main_v5) : S8x1024x3072.Idx → EReal) (ix3 l k (Cert.LayerOf.col3 0 j))
      = (V0 (Proc.devRef .tc main_arg2) : S8x1024x1024.Idx → EReal) (ix3 l k j) := by
  rw [host0_v5_term]; exact cat3_z _ _ _ l k j

theorem host0_v5_r (l : Fin 8) (k j : Fin 1024) :
    (StableHlo.after hostOps0 V0 (Proc.devRef .tc main_v5) : S8x1024x3072.Idx → EReal) (ix3 l k (Cert.LayerOf.col3 1 j))
      = (V0 (Proc.devRef .tc main_arg5) : S8x1024x1024.Idx → EReal) (ix3 l k j) := by
  rw [host0_v5_term]; exact cat3_r _ _ _ l k j

theorem host0_v5_h (l : Fin 8) (k j : Fin 1024) :
    (StableHlo.after hostOps0 V0 (Proc.devRef .tc main_v5) : S8x1024x3072.Idx → EReal) (ix3 l k (Cert.LayerOf.col3 2 j))
      = (V0 (Proc.devRef .tc main_arg8) : S8x1024x1024.Idx → EReal) (ix3 l k j) := by
  rw [host0_v5_term]; exact cat3_h _ _ _ l k j

/-! ## The two gates' hidden-side matrices, side by side -/

theorem host0_v8_term :
    (StableHlo.after hostOps0 V0 (Proc.devRef .tc main_v8) : S8x1024x2048.Idx → EReal)
      = concatenate S8x1024x2048 2 [⟨S8x1024x1024, (V0 (Proc.devRef .tc main_arg3) : S8x1024x1024.Idx → EReal)⟩, ⟨S8x1024x1024, (V0 (Proc.devRef .tc main_arg6) : S8x1024x1024.Idx → EReal)⟩] concatenates_S8x1024x1024_S8x1024x1024_S8x1024x2048_d2 := by
  show StableHlo.after hostOps0 V0 (Proc.devRef .tc main_v8) = _
  after_results
  rfl

/-- Two matrices side by side, read at a column of band `g`. -/
theorem cat2_z (x0 x1 : S8x1024x1024.Idx → EReal) (l : Fin 8) (k j : Fin 1024) :
    concatenate S8x1024x2048 2 [⟨S8x1024x1024, x0⟩, ⟨S8x1024x1024, x1⟩]
        concatenates_S8x1024x1024_S8x1024x1024_S8x1024x2048_d2 (ix3 l k (Cert.LayerOf.col2 0 j)) = x0 (ix3 l k j) := by
  refine concatenate_apply_piece (t := S8x1024x2048) 2 [⟨S8x1024x1024, x0⟩, ⟨S8x1024x1024, x1⟩]
    concatenates_S8x1024x1024_S8x1024x1024_S8x1024x2048_d2
    (ix3 l k (Cert.LayerOf.col2 0 j)) 0 (by show 0 < 2; decide) S8x1024x1024 x0 rfl rfl 0 rfl (ix3 l k j) ?_ ?_
  · intro d hd
    match d with
    | ⟨0, _⟩ => rfl
    | ⟨1, _⟩ => rfl
    | ⟨2, _⟩ => exact absurd rfl hd
  · show 0 + j.val = 0 * 1024 + j.val; omega

theorem cat2_r (x0 x1 : S8x1024x1024.Idx → EReal) (l : Fin 8) (k j : Fin 1024) :
    concatenate S8x1024x2048 2 [⟨S8x1024x1024, x0⟩, ⟨S8x1024x1024, x1⟩]
        concatenates_S8x1024x1024_S8x1024x1024_S8x1024x2048_d2 (ix3 l k (Cert.LayerOf.col2 1 j)) = x1 (ix3 l k j) := by
  refine concatenate_apply_piece (t := S8x1024x2048) 2 [⟨S8x1024x1024, x0⟩, ⟨S8x1024x1024, x1⟩]
    concatenates_S8x1024x1024_S8x1024x1024_S8x1024x2048_d2
    (ix3 l k (Cert.LayerOf.col2 1 j)) 1 (by show 1 < 2; decide) S8x1024x1024 x1 rfl rfl 1024 rfl (ix3 l k j) ?_ ?_
  · intro d hd
    match d with
    | ⟨0, _⟩ => rfl
    | ⟨1, _⟩ => rfl
    | ⟨2, _⟩ => exact absurd rfl hd
  · show 1024 + j.val = 1 * 1024 + j.val; omega

theorem host0_v8_z (l : Fin 8) (k j : Fin 1024) :
    (StableHlo.after hostOps0 V0 (Proc.devRef .tc main_v8) : S8x1024x2048.Idx → EReal) (ix3 l k (Cert.LayerOf.col2 0 j))
      = (V0 (Proc.devRef .tc main_arg3) : S8x1024x1024.Idx → EReal) (ix3 l k j) := by
  rw [host0_v8_term]; exact cat2_z _ _ l k j

theorem host0_v8_r (l : Fin 8) (k j : Fin 1024) :
    (StableHlo.after hostOps0 V0 (Proc.devRef .tc main_v8) : S8x1024x2048.Idx → EReal) (ix3 l k (Cert.LayerOf.col2 1 j))
      = (V0 (Proc.devRef .tc main_arg6) : S8x1024x1024.Idx → EReal) (ix3 l k j) := by
  rw [host0_v8_term]; exact cat2_r _ _ l k j

/-! ## The matrices that are only converted -/

theorem host0_v9 :
    (StableHlo.after hostOps0 V0 (Proc.devRef .tc main_v9) : S8x1024x1024.Idx → EReal)
      = (V0 (Proc.devRef .tc main_arg9) : S8x1024x1024.Idx → EReal) := by
  show StableHlo.after hostOps0 V0 (Proc.devRef .tc main_v9) = _
  after_results
  rfl

theorem host0_v10 :
    (StableHlo.after hostOps0 V0 (Proc.devRef .tc main_v10) : S1024x1024.Idx → EReal)
      = (V0 (Proc.devRef .tc main_arg11) : S1024x1024.Idx → EReal) := by
  show StableHlo.after hostOps0 V0 (Proc.devRef .tc main_v10) = _
  after_results
  rfl

/-! ## The biases -/

theorem host0_v11 (l : Fin 8) (j : Fin 1024) :
    (StableHlo.after hostOps0 V0 (Proc.devRef .tc main_v11) : S8x1x1024.Idx → EReal) (ix3 l 0 j)
      = (V0 (Proc.devRef .tc main_arg4) : S8x1024.Idx → EReal) (ix2 l j) := by
  have e : (StableHlo.after hostOps0 V0 (Proc.devRef .tc main_v11) : S8x1x1024.Idx → EReal)
      = broadcastInDim S8x1x1024 ![0, 2] bcast_S8x1024_S8x1x1024_0_2 (V0 (Proc.devRef .tc main_arg4) : S8x1024.Idx → EReal) := by
    show StableHlo.after hostOps0 V0 (Proc.devRef .tc main_v11) = _
    after_results
  rw [e]
  refine broadcastInDim_apply ![0, 2] bcast_S8x1024_S8x1x1024_0_2 _ (ix3 l 0 j) (ix2 l j) ?_
  intro d
  match d with
  | ⟨0, _⟩ => rfl
  | ⟨1, _⟩ => rfl

theorem host0_v12 (l : Fin 8) (j : Fin 1024) :
    (StableHlo.after hostOps0 V0 (Proc.devRef .tc main_v12) : S8x1x1024.Idx → EReal) (ix3 l 0 j)
      = (V0 (Proc.devRef .tc main_arg7) : S8x1024.Idx → EReal) (ix2 l j) := by
  have e : (StableHlo.after hostOps0 V0 (Proc.devRef .tc main_v12) : S8x1x1024.Idx → EReal)
      = broadcastInDim S8x1x1024 ![0, 2] bcast_S8x1024_S8x1x1024_0_2 (V0 (Proc.devRef .tc main_arg7) : S8x1024.Idx → EReal) := by
    show StableHlo.after hostOps0 V0 (Proc.devRef .tc main_v12) = _
    after_results
  rw [e]
  refine broadcastInDim_apply ![0, 2] bcast_S8x1024_S8x1x1024_0_2 _ (ix3 l 0 j) (ix2 l j) ?_
  intro d
  match d with
  | ⟨0, _⟩ => rfl
  | ⟨1, _⟩ => rfl

theorem host0_v13 (l : Fin 8) (j : Fin 1024) :
    (StableHlo.after hostOps0 V0 (Proc.devRef .tc main_v13) : S8x1x1024.Idx → EReal) (ix3 l 0 j)
      = (V0 (Proc.devRef .tc main_arg10) : S8x1024.Idx → EReal) (ix2 l j) := by
  have e : (StableHlo.after hostOps0 V0 (Proc.devRef .tc main_v13) : S8x1x1024.Idx → EReal)
      = broadcastInDim S8x1x1024 ![0, 2] bcast_S8x1024_S8x1x1024_0_2 (V0 (Proc.devRef .tc main_arg10) : S8x1024.Idx → EReal) := by
    show StableHlo.after hostOps0 V0 (Proc.devRef .tc main_v13) = _
    after_results
  rw [e]
  refine broadcastInDim_apply ![0, 2] bcast_S8x1024_S8x1x1024_0_2 _ (ix3 l 0 j) (ix2 l j) ?_
  intro d
  match d with
  | ⟨0, _⟩ => rfl
  | ⟨1, _⟩ => rfl

theorem host0_v14 (j : Fin 1024) :
    (StableHlo.after hostOps0 V0 (Proc.devRef .tc main_v14) : S1x1024.Idx → EReal) (ix2 0 j)
      = (V0 (Proc.devRef .tc main_arg12) : S1024.Idx → EReal) (ix1 j) := by
  have e : (StableHlo.after hostOps0 V0 (Proc.devRef .tc main_v14) : S1x1024.Idx → EReal)
      = shapeCast S1x1024 (V0 (Proc.devRef .tc main_arg12) : S1024.Idx → EReal) shapeCasts_S1024_S1x1024 := by
    show StableHlo.after hostOps0 V0 (Proc.devRef .tc main_v14) = _
    after_results
    rfl
  rw [e]
  refine shapeCast_apply _ shapeCasts_S1024_S1x1024 (ix2 0 j) (ix1 j) ?_
  rw [Shape.rowMajor_val_one, Shape.rowMajor_val_two]
  show j.val = 0 * 1024 + j.val
  omega

/-! ## The initial states are not written -/

theorem host0_arg1 :
    StableHlo.after hostOps0 V0 (Proc.devRef .tc main_arg1) = V0 (Proc.devRef .tc main_arg1) := by
  after_results

/-! ## The arguments, and the layers' parameters, input sequence and initial states read from them -/

/-- The thirteen argument arrays as some buffer contents hold them. -/
def argsOfV : Cert.Out.Args :=
  ⟨V0 (Proc.devRef .tc main_arg0), V0 (Proc.devRef .tc main_arg1), V0 (Proc.devRef .tc main_arg2), V0 (Proc.devRef .tc main_arg3),
   V0 (Proc.devRef .tc main_arg4), V0 (Proc.devRef .tc main_arg5), V0 (Proc.devRef .tc main_arg6), V0 (Proc.devRef .tc main_arg7),
   V0 (Proc.devRef .tc main_arg8), V0 (Proc.devRef .tc main_arg9), V0 (Proc.devRef .tc main_arg10), V0 (Proc.devRef .tc main_arg11),
   V0 (Proc.devRef .tc main_arg12)⟩

theorem lay_val (l : Fin 8) : Cert.Out.lay l.val = l := Fin.ext (Nat.mod_eq_of_lt l.isLt)

/-- Two parameter sets with equal fields are equal. -/
theorem layerW_ext (A B : Cert.Spec.LayerW) (h1 : A.Wxz = B.Wxz) (h2 : A.Whz = B.Whz) (h3 : A.bz = B.bz)
    (h4 : A.Wxr = B.Wxr) (h5 : A.Whr = B.Whr) (h6 : A.br = B.br) (h7 : A.Wxh = B.Wxh) (h8 : A.Whh = B.Whh) (h9 : A.bh = B.bh) :
    A = B := by
  cases A; cases B
  simp only at h1 h2 h3 h4 h5 h6 h7 h8 h9
  subst h1 h2 h3 h4 h5 h6 h7 h8 h9
  rfl

/-- Layer `l`'s parameters read out of side-by-side arrays are the ones cut out of the arguments, when the arrays hold
    the arguments band by band. -/
theorem WofV_eq (a : Cert.Out.Args) (wx : Cert.LayerOf.Swx.Idx → EReal) (wzr : Cert.LayerOf.Swzr.Idx → EReal)
    (wh : Cert.LayerOf.Swh.Idx → EReal) (bz br bh : Cert.LayerOf.Sb3.Idx → EReal) (l : Fin 8)
    (hxz : ∀ k j, wx (ix3 l k (Cert.LayerOf.col3 0 j)) = a.Wxz (ix3 l k j))
    (hxr : ∀ k j, wx (ix3 l k (Cert.LayerOf.col3 1 j)) = a.Wxr (ix3 l k j))
    (hxh : ∀ k j, wx (ix3 l k (Cert.LayerOf.col3 2 j)) = a.Wxh (ix3 l k j))
    (hhz : ∀ k j, wzr (ix3 l k (Cert.LayerOf.col2 0 j)) = a.Whz (ix3 l k j))
    (hhr : ∀ k j, wzr (ix3 l k (Cert.LayerOf.col2 1 j)) = a.Whr (ix3 l k j))
    (hhh : ∀ k j, wh (ix3 l k j) = a.Whh (ix3 l k j))
    (hbz : ∀ j, bz (ix3 l 0 j) = a.bz (ix2 l j)) (hbr : ∀ j, br (ix3 l 0 j) = a.br (ix2 l j))
    (hbh : ∀ j, bh (ix3 l 0 j) = a.bh (ix2 l j)) :
    Cert.LayerOf.WofV wx wzr wh bz br bh l = Cert.Out.W a l.val := by
  refine layerW_ext _ _ ?_ ?_ ?_ ?_ ?_ ?_ ?_ ?_ ?_
  · funext k j
    show wx (ix3 l k (Cert.LayerOf.col3 0 j)) = a.Wxz (ix3 (Cert.Out.lay l.val) k j)
    rw [lay_val]; exact hxz k j
  · funext k j
    show wzr (ix3 l k (Cert.LayerOf.col2 0 j)) = a.Whz (ix3 (Cert.Out.lay l.val) k j)
    rw [lay_val]; exact hhz k j
  · funext j
    show bz (ix3 l 0 j) = a.bz (ix2 (Cert.Out.lay l.val) j)
    rw [lay_val]; exact hbz j
  · funext k j
    show wx (ix3 l k (Cert.LayerOf.col3 1 j)) = a.Wxr (ix3 (Cert.Out.lay l.val) k j)
    rw [lay_val]; exact hxr k j
  · funext k j
    show wzr (ix3 l k (Cert.LayerOf.col2 1 j)) = a.Whr (ix3 (Cert.Out.lay l.val) k j)
    rw [lay_val]; exact hhr k j
  · funext j
    show br (ix3 l 0 j) = a.br (ix2 (Cert.Out.lay l.val) j)
    rw [lay_val]; exact hbr j
  · funext k j
    show wx (ix3 l k (Cert.LayerOf.col3 2 j)) = a.Wxh (ix3 (Cert.Out.lay l.val) k j)
    rw [lay_val]; exact hxh k j
  · funext k j
    show wh (ix3 l k j) = a.Whh (ix3 (Cert.Out.lay l.val) k j)
    rw [lay_val]; exact hhh k j
  · funext j
    show bh (ix3 l 0 j) = a.bh (ix2 (Cert.Out.lay l.val) j)
    rw [lay_val]; exact hbh j

/-- After the first host stretch the side-by-side arrays hold layer `l`'s parameters as the arguments give them. -/
theorem host0_W (l : Fin 8) :
    Cert.LayerOf.WofV
        (StableHlo.after hostOps0 V0 (Proc.devRef .tc main_v5)) (StableHlo.after hostOps0 V0 (Proc.devRef .tc main_v8))
        (StableHlo.after hostOps0 V0 (Proc.devRef .tc main_v9)) (StableHlo.after hostOps0 V0 (Proc.devRef .tc main_v11))
        (StableHlo.after hostOps0 V0 (Proc.devRef .tc main_v12)) (StableHlo.after hostOps0 V0 (Proc.devRef .tc main_v13)) l
      = Cert.Out.W (argsOfV V0) l.val :=
  WofV_eq (argsOfV V0) _ _ _ _ _ _ l
    (fun k j => host0_v5_z V0 l k j) (fun k j => host0_v5_r V0 l k j) (fun k j => host0_v5_h V0 l k j)
    (fun k j => host0_v8_z V0 l k j) (fun k j => host0_v8_r V0 l k j)
    (fun k j => congrFun (host0_v9 V0) (ix3 l k j))
    (fun j => host0_v11 V0 l j) (fun j => host0_v12 V0 l j) (fun j => host0_v13 V0 l j)

/-- The time-major array is the input sequence at the first eight steps. -/
theorem host0_xs (t : ℕ) (ht : t < 8) :
    Cert.LayerOf.seqOf (StableHlo.after hostOps0 V0 (Proc.devRef .tc main_v1)) t = Cert.Out.xs (argsOfV V0) t := by
  funext b k
  show (StableHlo.after hostOps0 V0 (Proc.devRef .tc main_v1) : S8x512x1024.Idx → EReal) (ix3 ⟨t % 8, Nat.mod_lt _ (by decide)⟩ b k)
    = (V0 (Proc.devRef .tc main_arg0) : S512x128x1024.Idx → EReal) (ix3 b (Cert.Out.tim t) k)
  rw [host0_v1]
  exact congrArg (fun q : Fin 128 => (V0 (Proc.devRef .tc main_arg0) : S512x128x1024.Idx → EReal) (ix3 b q k))
    (Fin.ext (by show t % 8 = t % 128; omega))

/-- The initial states are the argument's. -/
theorem host0_h0 (l : Fin 8) :
    Cert.LayerOf.initOf (StableHlo.after hostOps0 V0 (Proc.devRef .tc main_arg1)) l = Cert.Out.h0 (argsOfV V0) l.val := by
  funext b k
  show (StableHlo.after hostOps0 V0 (Proc.devRef .tc main_arg1) : S8x512x1024.Idx → EReal) (ix3 l b k)
    = (V0 (Proc.devRef .tc main_arg1) : S8x512x1024.Idx → EReal) (ix3 (Cert.Out.lay l.val) b k)
  rw [lay_val, host0_arg1]

/-- The output projection's matrix and bias. -/
theorem host0_Why (k j : Fin 1024) :
    (StableHlo.after hostOps0 V0 (Proc.devRef .tc main_v10) : S1024x1024.Idx → EReal) (ix2 k j) = (argsOfV V0).Why (ix2 k j) :=
  congrFun (host0_v10 V0) (ix2 k j)

theorem host0_by (j : Fin 1024) :
    (StableHlo.after hostOps0 V0 (Proc.devRef .tc main_v14) : S1x1024.Idx → EReal) (ix2 0 j) = (argsOfV V0).by_ (ix1 j) :=
  host0_v14 V0 j

end Cert.KernelIdeal.Value

end
-- ==== Proof.KI.ValMath.lean ====
/-
  The stack of layers read out of arrays.

  A layer's run reads its input sequence at step `t` only at the steps `s ≤ t`; so the run of layer `l + 1` on the array
  holding layer `l`'s hidden sequence is the stack's layer `l + 1`, and the three kinds of array a layer's run leaves —
  its hidden sequence, its last hidden state, the projected sequence — are the stack's rows, layer by layer.
-/
import proofs.«428164_j36979668418798_3_alg».proof.Proof.Spec
import proofs.«428164_j36979668418798_3_alg».proof.Proof.LayerOf
import proofs.«428164_j36979668418798_3_alg».proof.Proof.Out

noncomputable section

namespace Cert.KernelIdeal.Value

open Idealize.ShloMosaic Idealize.ShloMosaic.ValueIdx Cert.Spec

/-- A layer's output at step `t` depends on the input sequence only at the steps `s ≤ t`. -/
theorem layer_congr (W : LayerW) (xs xs' : ℕ → Fin 512 → Row) (h0 : Fin 512 → Row) (t : ℕ)
    (h : ∀ s, s ≤ t → xs s = xs' s) : layer W xs h0 t = layer W xs' h0 t := by
  induction t with
  | zero =>
    funext b
    rw [layer_zero, layer_zero, h 0 (Nat.le_refl 0)]
  | succ n ih =>
    funext b
    rw [layer_succ, layer_succ, h (n + 1) (Nat.le_refl _), ih (fun s hs => h s (Nat.le_succ_of_le hs))]

/-- Layer `l`'s hidden sequence as a `[time, batch, feature]` array. -/
def Hs (a : Cert.Out.Args) (l : ℕ) : Cert.LayerOf.Sseq.Idx → EReal := fun i => Cert.Out.hid a l (i 0).val (i 1) (i 2)
/-- Layer `l`'s last hidden state as a `[batch, feature]` array. -/
def Hf (a : Cert.Out.Args) (l : ℕ) : Cert.LayerOf.Sfin.Idx → EReal := fun i => Cert.Out.hid a l 7 (i 0) (i 1)
/-- The projected top-layer hidden rows as a `[time, batch, feature]` array. -/
def Hy (a : Cert.Out.Args) : Cert.LayerOf.Sseq.Idx → EReal := fun i =>
  proj (fun k j => a.Why (ix2 k j)) (fun j => a.by_ (ix1 j)) (Cert.Out.hid a 7 (i 0).val (i 1)) (i 2)

/-- The array of layer `l`'s hidden sequence, read as an input sequence, is the stack's layer `l` at the first eight steps. -/
theorem seqOf_Hs (a : Cert.Out.Args) (l t : ℕ) (ht : t < 8) :
    Cert.LayerOf.seqOf (Hs a l) t = stack (Cert.Out.W a) (Cert.Out.xs a) (Cert.Out.h0 a) l t := by
  funext b k
  show Cert.Out.hid a l (t % 8) b k = _
  rw [Nat.mod_eq_of_lt ht]
  rfl

/-- The bottom layer's row at step `t`: its run on any array that holds the input sequence at the first eight steps. -/
theorem layer_bottom (a : Cert.Out.Args) (Wl : LayerW) (u h : Cert.LayerOf.Sseq.Idx → EReal) (l : Fin 8)
    (hl : l.val = 0) (hW : Wl = Cert.Out.W a 0)
    (hu : ∀ t, t < 8 → Cert.LayerOf.seqOf u t = Cert.Out.xs a t) (hh : Cert.LayerOf.initOf h l = Cert.Out.h0 a 0)
    (t : ℕ) (ht : t < 8) :
    layer Wl (Cert.LayerOf.seqOf u) (Cert.LayerOf.initOf h l) t = fun b => Cert.Out.hid a 0 t b := by
  rw [hW, hh]
  show _ = layer (Cert.Out.W a 0) (Cert.Out.xs a) (Cert.Out.h0 a 0) t
  exact layer_congr _ _ _ _ t fun s hs => hu s (Nat.lt_of_le_of_lt hs ht)

/-- An upper layer's row at step `t`: its run on the array of the layer below. -/
theorem layer_upper (a : Cert.Out.Args) (Wl : LayerW) (h : Cert.LayerOf.Sseq.Idx → EReal) (l : Fin 8) (K : ℕ)
    (hl : l.val = K + 1) (hW : Wl = Cert.Out.W a (K + 1))
    (hh : Cert.LayerOf.initOf h l = Cert.Out.h0 a (K + 1))
    (t : ℕ) (ht : t < 8) :
    layer Wl (Cert.LayerOf.seqOf (Hs a K)) (Cert.LayerOf.initOf h l) t = fun b => Cert.Out.hid a (K + 1) t b := by
  rw [hW, hh]
  show _ = layer (Cert.Out.W a (K + 1)) (stack (Cert.Out.W a) (Cert.Out.xs a) (Cert.Out.h0 a) K) (Cert.Out.h0 a (K + 1)) t
  exact layer_congr _ _ _ _ t fun s hs => seqOf_Hs a K s (Nat.lt_of_le_of_lt hs ht)

/-- The bottom layer's run leaves the stack's layer 0 … -/
theorem seqOut_bottom (a : Cert.Out.Args) (Wl : LayerW) (u h : Cert.LayerOf.Sseq.Idx → EReal) (l : Fin 8)
    (hl : l.val = 0) (hW : Wl = Cert.Out.W a 0)
    (hu : ∀ t, t < 8 → Cert.LayerOf.seqOf u t = Cert.Out.xs a t) (hh : Cert.LayerOf.initOf h l = Cert.Out.h0 a 0) :
    Cert.LayerOf.seqOut Wl u h l = Hs a 0 := by
  funext i
  show layer Wl (Cert.LayerOf.seqOf u) (Cert.LayerOf.initOf h l) (i 0).val (i 1) (i 2) = _
  rw [layer_bottom a Wl u h l hl hW hu hh (i 0).val (i 0).isLt]
  rfl

/-- … and its last row. -/
theorem finOut_bottom (a : Cert.Out.Args) (Wl : LayerW) (u h : Cert.LayerOf.Sseq.Idx → EReal) (l : Fin 8)
    (hl : l.val = 0) (hW : Wl = Cert.Out.W a 0)
    (hu : ∀ t, t < 8 → Cert.LayerOf.seqOf u t = Cert.Out.xs a t) (hh : Cert.LayerOf.initOf h l = Cert.Out.h0 a 0) :
    Cert.LayerOf.finOut Wl u h l = Hf a 0 := by
  funext i
  show layer Wl (Cert.LayerOf.seqOf u) (Cert.LayerOf.initOf h l) 7 (i 0) (i 1) = _
  rw [layer_bottom a Wl u h l hl hW hu hh 7 (by decide)]
  rfl

/-- An upper layer's run on the array of the layer below leaves the stack's next layer … -/
theorem seqOut_upper (a : Cert.Out.Args) (Wl : LayerW) (h : Cert.LayerOf.Sseq.Idx → EReal) (l : Fin 8) (K : ℕ)
    (hl : l.val = K + 1) (hW : Wl = Cert.Out.W a (K + 1))
    (hh : Cert.LayerOf.initOf h l = Cert.Out.h0 a (K + 1)) :
    Cert.LayerOf.seqOut Wl (Hs a K) h l = Hs a (K + 1) := by
  funext i
  show layer Wl (Cert.LayerOf.seqOf (Hs a K)) (Cert.LayerOf.initOf h l) (i 0).val (i 1) (i 2) = _
  rw [layer_upper a Wl h l K hl hW hh (i 0).val (i 0).isLt]
  rfl

/-- … its last row … -/
theorem finOut_upper (a : Cert.Out.Args) (Wl : LayerW) (h : Cert.LayerOf.Sseq.Idx → EReal) (l : Fin 8) (K : ℕ)
    (hl : l.val = K + 1) (hW : Wl = Cert.Out.W a (K + 1))
    (hh : Cert.LayerOf.initOf h l = Cert.Out.h0 a (K + 1)) :
    Cert.LayerOf.finOut Wl (Hs a K) h l = Hf a (K + 1) := by
  funext i
  show layer Wl (Cert.LayerOf.seqOf (Hs a K)) (Cert.LayerOf.initOf h l) 7 (i 0) (i 1) = _
  rw [layer_upper a Wl h l K hl hW hh 7 (by decide)]
  rfl

/-- … and, for the top layer, the projected rows. -/
theorem projOut_top (a : Cert.Out.Args) (Wl : LayerW) (h : Cert.LayerOf.Sseq.Idx → EReal) (l : Fin 8)
    (Why : (⟨2, ![1024, 1024]⟩ : Shape).Idx → EReal) (by_ : (⟨2, ![1, 1024]⟩ : Shape).Idx → EReal)
    (hl : l.val = 7) (hW : Wl = Cert.Out.W a 7)
    (hh : Cert.LayerOf.initOf h l = Cert.Out.h0 a 7)
    (hWy : ∀ k j, Why (ix2 k j) = a.Why (ix2 k j)) (hby : ∀ j, by_ (ix2 0 j) = a.by_ (ix1 j)) :
    Cert.LayerOf.projOut Why by_ Wl (Hs a 6) h l = Hy a := by
  funext i
  show proj (fun k j => Why (ix2 k j)) (fun j => by_ (ix2 0 j))
      (layer Wl (Cert.LayerOf.seqOf (Hs a 6)) (Cert.LayerOf.initOf h l) (i 0).val (i 1)) (i 2) = _
  rw [layer_upper a Wl h l 6 hl hW hh (i 0).val (i 0).isLt,
    show (fun k j => Why (ix2 k j)) = fun k j => a.Why (ix2 k j) from funext fun k => funext fun j => hWy k j,
    show (fun j => by_ (ix2 0 j)) = fun j => a.by_ (ix1 j) from funext hby]
  rfl

end Cert.KernelIdeal.Value

end
-- ==== Proof.KI.ValHost8.lean ====
/-
  The last host stretch read at an index.

  From any contents `V9` of the TensorCore's buffers, what the nineteen operations after the last region leave in the
  three result buffers: the projected sequence with its batch and time axes exchanged; the eight hidden sequences stacked
  along a new leading axis; the eight last hidden states stacked along a new leading axis.
-/
import proofs.«428164_j36979668418798_3_alg».proof.Proof.Gen.KernelIdeal.Launch
import Idealize.ShloMosaic.Lib.StableHlo.Run
import Idealize.ShloMosaic.Lib.Pipeline.Value
import Idealize.ShloMosaic.Lib.ValueIdx

set_option maxRecDepth 4096

noncomputable section

namespace Cert.KernelIdeal.Value

open Idealize.ShloMosaic Idealize.ShloMosaic.TcCoe Idealize.ShloMosaic.ValueIdx
open Cert.KernelIdeal Cert.KernelIdeal.Gen

variable (V9 : Valuation τ sig (Elt Ideal))

/-! ## The projected sequence, batch-major -/

theorem host8_v23_term :
    (StableHlo.after hostOps8 V9 (Proc.devRef .tc main_v23) : S512x8x1024.Idx → EReal)
      = transpose S512x8x1024 [1, 0, 2] (V9 (Proc.devRef .tc main_v22_2) : S8x512x1024.Idx → EReal) transposes_S8x512x1024_S512x8x1024_1_0_2 := by
  show StableHlo.after hostOps8 V9 (Proc.devRef .tc main_v23) = _
  after_results

theorem host8_v23 (b : Fin 512) (t : Fin 8) (k : Fin 1024) :
    (StableHlo.after hostOps8 V9 (Proc.devRef .tc main_v23) : S512x8x1024.Idx → EReal) (ix3 b t k)
      = (V9 (Proc.devRef .tc main_v22_2) : S8x512x1024.Idx → EReal) (ix3 t b k) := by
  rw [host8_v23_term]
  refine transpose_apply [1, 0, 2] _ transposes_S8x512x1024_S512x8x1024_1_0_2 (ix3 b t k) (ix3 t b k) ?_
  intro d
  match d with
  | ⟨0, _⟩ => rfl
  | ⟨1, _⟩ => rfl
  | ⟨2, _⟩ => rfl

/-! ## Eight arrays stacked along a new leading axis -/

/-- A `[8, 512, 1024]` array given a leading unit axis, read at its only leading index. -/
theorem lead4 (x : S8x512x1024.Idx → EReal) (t : Fin 8) (b : Fin 512) (k : Fin 1024) :
    broadcastInDim S1x8x512x1024 ![1, 2, 3] bcast_S8x512x1024_S1x8x512x1024_1_2_3 x (ix4 0 t b k) = x (ix3 t b k) := by
  refine broadcastInDim_apply ![1, 2, 3] bcast_S8x512x1024_S1x8x512x1024_1_2_3 x (ix4 0 t b k) (ix3 t b k) ?_
  intro d
  match d with
  | ⟨0, _⟩ => rfl
  | ⟨1, _⟩ => rfl
  | ⟨2, _⟩ => rfl

/-- A `[512, 1024]` array given a leading unit axis, read at its only leading index. -/
theorem lead3 (x : S512x1024.Idx → EReal) (b : Fin 512) (k : Fin 1024) :
    broadcastInDim S1x512x1024 ![1, 2] bcast_S512x1024_S1x512x1024_1_2 x (ix3 0 b k) = x (ix2 b k) := by
  refine broadcastInDim_apply ![1, 2] bcast_S512x1024_S1x512x1024_1_2 x (ix3 0 b k) (ix2 b k) ?_
  intro d
  match d with
  | ⟨0, _⟩ => rfl
  | ⟨1, _⟩ => rfl

/-- Eight `[1, 8, 512, 1024]` pieces stacked along axis 0: leading index `l` reads piece `l`. -/
theorem stack4 (y : Fin 8 → S1x8x512x1024.Idx → EReal) (l : Fin 8) (t : Fin 8) (b : Fin 512) (k : Fin 1024) :
    concatenate S8x8x512x1024 0
        [⟨S1x8x512x1024, y 0⟩, ⟨S1x8x512x1024, y 1⟩, ⟨S1x8x512x1024, y 2⟩, ⟨S1x8x512x1024, y 3⟩,
         ⟨S1x8x512x1024, y 4⟩, ⟨S1x8x512x1024, y 5⟩, ⟨S1x8x512x1024, y 6⟩, ⟨S1x8x512x1024, y 7⟩]
        concatenates_S1x8x512x1024_S1x8x512x1024_S1x8x512x1024_S1x8x512x1024_S1x8x512x1024_S1x8x512x1024_S1x8x512x1024_S1x8x512x1024_S8x8x512x1024_d0
        (ix4 l t b k) = y l (ix4 0 t b k) := by
  refine concatenate_ofFn_unit_apply (t := S8x8x512x1024) (s₁ := S1x8x512x1024) 0 y
    concatenates_S1x8x512x1024_S1x8x512x1024_S1x8x512x1024_S1x8x512x1024_S1x8x512x1024_S1x8x512x1024_S1x8x512x1024_S1x8x512x1024_S8x8x512x1024_d0
    rfl rfl (ix4 l t b k) l rfl (ix4 0 t b k) ?_
  intro d hd
  match d with
  | ⟨0, _⟩ => exact absurd rfl hd
  | ⟨1, _⟩ => rfl
  | ⟨2, _⟩ => rfl
  | ⟨3, _⟩ => rfl

/-- Eight `[1, 512, 1024]` pieces stacked along axis 0: leading index `l` reads piece `l`. -/
theorem stack3 (y : Fin 8 → S1x512x1024.Idx → EReal) (l : Fin 8) (b : Fin 512) (k : Fin 1024) :
    concatenate S8x512x1024 0
        [⟨S1x512x1024, y 0⟩, ⟨S1x512x1024, y 1⟩, ⟨S1x512x1024, y 2⟩, ⟨S1x512x1024, y 3⟩,
         ⟨S1x512x1024, y 4⟩, ⟨S1x512x1024, y 5⟩, ⟨S1x512x1024, y 6⟩, ⟨S1x512x1024, y 7⟩]
        concatenates_S1x512x1024_S1x512x1024_S1x512x1024_S1x512x1024_S1x512x1024_S1x512x1024_S1x512x1024_S1x512x1024_S8x512x1024_d0
        (ix3 l b k) = y l (ix3 0 b k) := by
  refine concatenate_ofFn_unit_apply (t := S8x512x1024) (s₁ := S1x512x1024) 0 y
    concatenates_S1x512x1024_S1x512x1024_S1x512x1024_S1x512x1024_S1x512x1024_S1x512x1024_S1x512x1024_S1x512x1024_S8x512x1024_d0
    rfl rfl (ix3 l b k) l rfl (ix3 0 b k) ?_
  intro d hd
  match d with
  | ⟨0, _⟩ => exact absurd rfl hd
  | ⟨1, _⟩ => rfl
  | ⟨2, _⟩ => rfl

/-! ## The hidden sequences, layer-major -/

theorem host8_v32_term :
    (StableHlo.after hostOps8 V9 (Proc.devRef .tc main_v32) : S8x8x512x1024.Idx → EReal)
      = concatenate S8x8x512x1024 0
        [⟨S1x8x512x1024, broadcastInDim S1x8x512x1024 ![1, 2, 3] bcast_S8x512x1024_S1x8x512x1024_1_2_3 (V9 (Proc.devRef .tc main_v15_0) : S8x512x1024.Idx → EReal)⟩,
         ⟨S1x8x512x1024, broadcastInDim S1x8x512x1024 ![1, 2, 3] bcast_S8x512x1024_S1x8x512x1024_1_2_3 (V9 (Proc.devRef .tc main_v16_0) : S8x512x1024.Idx → EReal)⟩,
         ⟨S1x8x512x1024, broadcastInDim S1x8x512x1024 ![1, 2, 3] bcast_S8x512x1024_S1x8x512x1024_1_2_3 (V9 (Proc.devRef .tc main_v17_0) : S8x512x1024.Idx → EReal)⟩,
         ⟨S1x8x512x1024, broadcastInDim S1x8x512x1024 ![1, 2, 3] bcast_S8x512x1024_S1x8x512x1024_1_2_3 (V9 (Proc.devRef .tc main_v18_0) : S8x512x1024.Idx → EReal)⟩,
         ⟨S1x8x512x1024, broadcastInDim S1x8x512x1024 ![1, 2, 3] bcast_S8x512x1024_S1x8x512x1024_1_2_3 (V9 (Proc.devRef .tc main_v19_0) : S8x512x1024.Idx → EReal)⟩,
         ⟨S1x8x512x1024, broadcastInDim S1x8x512x1024 ![1, 2, 3] bcast_S8x512x1024_S1x8x512x1024_1_2_3 (V9 (Proc.devRef .tc main_v20_0) : S8x512x1024.Idx → EReal)⟩,
         ⟨S1x8x512x1024, broadcastInDim S1x8x512x1024 ![1, 2, 3] bcast_S8x512x1024_S1x8x512x1024_1_2_3 (V9 (Proc.devRef .tc main_v21_0) : S8x512x1024.Idx → EReal)⟩,
         ⟨S1x8x512x1024, broadcastInDim S1x8x512x1024 ![1, 2, 3] bcast_S8x512x1024_S1x8x512x1024_1_2_3 (V9 (Proc.devRef .tc main_v22_0) : S8x512x1024.Idx → EReal)⟩]
        concatenates_S1x8x512x1024_S1x8x512x1024_S1x8x512x1024_S1x8x512x1024_S1x8x512x1024_S1x8x512x1024_S1x8x512x1024_S1x8x512x1024_S8x8x512x1024_d0 := by
  show StableHlo.after hostOps8 V9 (Proc.devRef .tc main_v32) = _
  after_results_simp
  rfl

/-- Leading index `l` of the stacked hidden sequences reads layer `l`'s array. -/
theorem host8_v32 (S : ℕ → S8x512x1024.Idx → EReal)
    (h0 : (V9 (Proc.devRef .tc main_v15_0) : S8x512x1024.Idx → EReal) = S 0)
    (h1 : (V9 (Proc.devRef .tc main_v16_0) : S8x512x1024.Idx → EReal) = S 1)
    (h2 : (V9 (Proc.devRef .tc main_v17_0) : S8x512x1024.Idx → EReal) = S 2)
    (h3 : (V9 (Proc.devRef .tc main_v18_0) : S8x512x1024.Idx → EReal) = S 3)
    (h4 : (V9 (Proc.devRef .tc main_v19_0) : S8x512x1024.Idx → EReal) = S 4)
    (h5 : (V9 (Proc.devRef .tc main_v20_0) : S8x512x1024.Idx → EReal) = S 5)
    (h6 : (V9 (Proc.devRef .tc main_v21_0) : S8x512x1024.Idx → EReal) = S 6)
    (h7 : (V9 (Proc.devRef .tc main_v22_0) : S8x512x1024.Idx → EReal) = S 7)
    (l : Fin 8) (t : Fin 8) (b : Fin 512) (k : Fin 1024) :
    (StableHlo.after hostOps8 V9 (Proc.devRef .tc main_v32) : S8x8x512x1024.Idx → EReal) (ix4 l t b k) = S l.val (ix3 t b k) := by
  rw [host8_v32_term]
  refine (stack4 ![
      broadcastInDim S1x8x512x1024 ![1, 2, 3] bcast_S8x512x1024_S1x8x512x1024_1_2_3 (V9 (Proc.devRef .tc main_v15_0) : S8x512x1024.Idx → EReal),
      broadcastInDim S1x8x512x1024 ![1, 2, 3] bcast_S8x512x1024_S1x8x512x1024_1_2_3 (V9 (Proc.devRef .tc main_v16_0) : S8x512x1024.Idx → EReal),
      broadcastInDim S1x8x512x1024 ![1, 2, 3] bcast_S8x512x1024_S1x8x512x1024_1_2_3 (V9 (Proc.devRef .tc main_v17_0) : S8x512x1024.Idx → EReal),
      broadcastInDim S1x8x512x1024 ![1, 2, 3] bcast_S8x512x1024_S1x8x512x1024_1_2_3 (V9 (Proc.devRef .tc main_v18_0) : S8x512x1024.Idx → EReal),
      broadcastInDim S1x8x512x1024 ![1, 2, 3] bcast_S8x512x1024_S1x8x512x1024_1_2_3 (V9 (Proc.devRef .tc main_v19_0) : S8x512x1024.Idx → EReal),
      broadcastInDim S1x8x512x1024 ![1, 2, 3] bcast_S8x512x1024_S1x8x512x1024_1_2_3 (V9 (Proc.devRef .tc main_v20_0) : S8x512x1024.Idx → EReal),
      broadcastInDim S1x8x512x1024 ![1, 2, 3] bcast_S8x512x1024_S1x8x512x1024_1_2_3 (V9 (Proc.devRef .tc main_v21_0) : S8x512x1024.Idx → EReal),
      broadcastInDim S1x8x512x1024 ![1, 2, 3] bcast_S8x512x1024_S1x8x512x1024_1_2_3 (V9 (Proc.devRef .tc main_v22_0) : S8x512x1024.Idx → EReal)] l t b k).trans ?_
  match l with
  | ⟨0, _⟩ => exact (lead4 _ t b k).trans (congrFun h0 _)
  | ⟨1, _⟩ => exact (lead4 _ t b k).trans (congrFun h1 _)
  | ⟨2, _⟩ => exact (lead4 _ t b k).trans (congrFun h2 _)
  | ⟨3, _⟩ => exact (lead4 _ t b k).trans (congrFun h3 _)
  | ⟨4, _⟩ => exact (lead4 _ t b k).trans (congrFun h4 _)
  | ⟨5, _⟩ => exact (lead4 _ t b k).trans (congrFun h5 _)
  | ⟨6, _⟩ => exact (lead4 _ t b k).trans (congrFun h6 _)
  | ⟨7, _⟩ => exact (lead4 _ t b k).trans (congrFun h7 _)

/-! ## The last hidden states, layer-major -/

theorem host8_v41_term :
    (StableHlo.after hostOps8 V9 (Proc.devRef .tc main_v41) : S8x512x1024.Idx → EReal)
      = concatenate S8x512x1024 0
        [⟨S1x512x1024, broadcastInDim S1x512x1024 ![1, 2] bcast_S512x1024_S1x512x1024_1_2 (V9 (Proc.devRef .tc main_v15_1) : S512x1024.Idx → EReal)⟩,
         ⟨S1x512x1024, broadcastInDim S1x512x1024 ![1, 2] bcast_S512x1024_S1x512x1024_1_2 (V9 (Proc.devRef .tc main_v16_1) : S512x1024.Idx → EReal)⟩,
         ⟨S1x512x1024, broadcastInDim S1x512x1024 ![1, 2] bcast_S512x1024_S1x512x1024_1_2 (V9 (Proc.devRef .tc main_v17_1) : S512x1024.Idx → EReal)⟩,
         ⟨S1x512x1024, broadcastInDim S1x512x1024 ![1, 2] bcast_S512x1024_S1x512x1024_1_2 (V9 (Proc.devRef .tc main_v18_1) : S512x1024.Idx → EReal)⟩,
         ⟨S1x512x1024, broadcastInDim S1x512x1024 ![1, 2] bcast_S512x1024_S1x512x1024_1_2 (V9 (Proc.devRef .tc main_v19_1) : S512x1024.Idx → EReal)⟩,
         ⟨S1x512x1024, broadcastInDim S1x512x1024 ![1, 2] bcast_S512x1024_S1x512x1024_1_2 (V9 (Proc.devRef .tc main_v20_1) : S512x1024.Idx → EReal)⟩,
         ⟨S1x512x1024, broadcastInDim S1x512x1024 ![1, 2] bcast_S512x1024_S1x512x1024_1_2 (V9 (Proc.devRef .tc main_v21_1) : S512x1024.Idx → EReal)⟩,
         ⟨S1x512x1024, broadcastInDim S1x512x1024 ![1, 2] bcast_S512x1024_S1x512x1024_1_2 (V9 (Proc.devRef .tc main_v22_1) : S512x1024.Idx → EReal)⟩]
        concatenates_S1x512x1024_S1x512x1024_S1x512x1024_S1x512x1024_S1x512x1024_S1x512x1024_S1x512x1024_S1x512x1024_S8x512x1024_d0 := by
  show StableHlo.after hostOps8 V9 (Proc.devRef .tc main_v41) = _
  after_results_simp
  rfl

/-- Leading index `l` of the stacked last states reads layer `l`'s array. -/
theorem host8_v41 (S : ℕ → S512x1024.Idx → EReal)
    (h0 : (V9 (Proc.devRef .tc main_v15_1) : S512x1024.Idx → EReal) = S 0)
    (h1 : (V9 (Proc.devRef .tc main_v16_1) : S512x1024.Idx → EReal) = S 1)
    (h2 : (V9 (Proc.devRef .tc main_v17_1) : S512x1024.Idx → EReal) = S 2)
    (h3 : (V9 (Proc.devRef .tc main_v18_1) : S512x1024.Idx → EReal) = S 3)
    (h4 : (V9 (Proc.devRef .tc main_v19_1) : S512x1024.Idx → EReal) = S 4)
    (h5 : (V9 (Proc.devRef .tc main_v20_1) : S512x1024.Idx → EReal) = S 5)
    (h6 : (V9 (Proc.devRef .tc main_v21_1) : S512x1024.Idx → EReal) = S 6)
    (h7 : (V9 (Proc.devRef .tc main_v22_1) : S512x1024.Idx → EReal) = S 7)
    (l : Fin 8) (b : Fin 512) (k : Fin 1024) :
    (StableHlo.after hostOps8 V9 (Proc.devRef .tc main_v41) : S8x512x1024.Idx → EReal) (ix3 l b k) = S l.val (ix2 b k) := by
  rw [host8_v41_term]
  refine (stack3 ![
      broadcastInDim S1x512x1024 ![1, 2] bcast_S512x1024_S1x512x1024_1_2 (V9 (Proc.devRef .tc main_v15_1) : S512x1024.Idx → EReal),
      broadcastInDim S1x512x1024 ![1, 2] bcast_S512x1024_S1x512x1024_1_2 (V9 (Proc.devRef .tc main_v16_1) : S512x1024.Idx → EReal),
      broadcastInDim S1x512x1024 ![1, 2] bcast_S512x1024_S1x512x1024_1_2 (V9 (Proc.devRef .tc main_v17_1) : S512x1024.Idx → EReal),
      broadcastInDim S1x512x1024 ![1, 2] bcast_S512x1024_S1x512x1024_1_2 (V9 (Proc.devRef .tc main_v18_1) : S512x1024.Idx → EReal),
      broadcastInDim S1x512x1024 ![1, 2] bcast_S512x1024_S1x512x1024_1_2 (V9 (Proc.devRef .tc main_v19_1) : S512x1024.Idx → EReal),
      broadcastInDim S1x512x1024 ![1, 2] bcast_S512x1024_S1x512x1024_1_2 (V9 (Proc.devRef .tc main_v20_1) : S512x1024.Idx → EReal),
      broadcastInDim S1x512x1024 ![1, 2] bcast_S512x1024_S1x512x1024_1_2 (V9 (Proc.devRef .tc main_v21_1) : S512x1024.Idx → EReal),
      broadcastInDim S1x512x1024 ![1, 2] bcast_S512x1024_S1x512x1024_1_2 (V9 (Proc.devRef .tc main_v22_1) : S512x1024.Idx → EReal)] l b k).trans ?_
  match l with
  | ⟨0, _⟩ => exact (lead3 _ b k).trans (congrFun h0 _)
  | ⟨1, _⟩ => exact (lead3 _ b k).trans (congrFun h1 _)
  | ⟨2, _⟩ => exact (lead3 _ b k).trans (congrFun h2 _)
  | ⟨3, _⟩ => exact (lead3 _ b k).trans (congrFun h3 _)
  | ⟨4, _⟩ => exact (lead3 _ b k).trans (congrFun h4 _)
  | ⟨5, _⟩ => exact (lead3 _ b k).trans (congrFun h5 _)
  | ⟨6, _⟩ => exact (lead3 _ b k).trans (congrFun h6 _)
  | ⟨7, _⟩ => exact (lead3 _ b k).trans (congrFun h7 _)

end Cert.KernelIdeal.Value

end
-- ==== Proof.KI.ValChain.lean ====
/-
  The chain through the eight regions.

  Over buffer contents `W1 … W9` at the nine boundaries between the first host stretch, the eight regions and the last
  host stretch: if the parameters, the input sequence and the initial states are the arguments' at `W1`, every region
  leaves alone whatever none of its output windows is on, and region `K` leaves in its output arrays its layer's run on
  the arrays it entered with, then at `W9` region `K`'s hidden-sequence array holds the stack's layer `K`, its last-state
  array that layer's row at the last step, and the top region's third array the projected rows.
-/
import proofs.«428164_j36979668418798_3_alg».proof.Proof.Gen.KernelIdeal.Launch
import proofs.«428164_j36979668418798_3_alg».proof.Proof.KI.ValMath
import proofs.«428164_j36979668418798_3_alg».proof.Proof.KI.ValHost8

set_option maxRecDepth 4096

noncomputable section

namespace Cert.KernelIdeal.Value

open Idealize.ShloMosaic Idealize.ShloMosaic.TcCoe Idealize.ShloMosaic.ValueIdx
open Cert.KernelIdeal Cert.KernelIdeal.Gen

/-- Layer `l`'s parameters as buffer contents `V` hold them. -/
abbrev Wof (V : Valuation τ sig (Elt Ideal)) (l : Fin 8) : Cert.Spec.LayerW :=
  Cert.LayerOf.WofV (V (Proc.devRef .tc main_v5)) (V (Proc.devRef .tc main_v8)) (V (Proc.devRef .tc main_v9))
    (V (Proc.devRef .tc main_v11)) (V (Proc.devRef .tc main_v12)) (V (Proc.devRef .tc main_v13)) l

/-- What the regions read and never write — the parameters, the initial states, the output projection — is the
    arguments'. -/
structure ReadOnly (a : Cert.Out.Args) (V : Valuation τ sig (Elt Ideal)) : Prop where
  W : ∀ l : Fin 8, Wof V l = Cert.Out.W a l.val
  h0 : ∀ l : Fin 8, Cert.LayerOf.initOf (V (Proc.devRef .tc main_arg1)) l = Cert.Out.h0 a l.val
  Why : ∀ k j : Fin 1024, (V (Proc.devRef .tc main_v10) : S1024x1024.Idx → EReal) (ix2 k j) = a.Why (ix2 k j)
  by_ : ∀ j : Fin 1024, (V (Proc.devRef .tc main_v14) : S1x1024.Idx → EReal) (ix2 0 j) = a.by_ (ix1 j)

theorem ReadOnly.of_eq {a : Cert.Out.Args} {V V' : Valuation τ sig (Elt Ideal)} (h : ReadOnly a V)
    (e5 : V' (Proc.devRef .tc main_v5) = V (Proc.devRef .tc main_v5))
    (e8 : V' (Proc.devRef .tc main_v8) = V (Proc.devRef .tc main_v8))
    (e9 : V' (Proc.devRef .tc main_v9) = V (Proc.devRef .tc main_v9))
    (e10 : V' (Proc.devRef .tc main_v10) = V (Proc.devRef .tc main_v10))
    (e11 : V' (Proc.devRef .tc main_v11) = V (Proc.devRef .tc main_v11))
    (e12 : V' (Proc.devRef .tc main_v12) = V (Proc.devRef .tc main_v12))
    (e13 : V' (Proc.devRef .tc main_v13) = V (Proc.devRef .tc main_v13))
    (e14 : V' (Proc.devRef .tc main_v14) = V (Proc.devRef .tc main_v14))
    (e1 : V' (Proc.devRef .tc main_arg1) = V (Proc.devRef .tc main_arg1)) : ReadOnly a V' := by
  refine ⟨?_, ?_, ?_, ?_⟩
  · intro l
    show Cert.LayerOf.WofV (V' (Proc.devRef .tc main_v5)) (V' (Proc.devRef .tc main_v8)) (V' (Proc.devRef .tc main_v9))
      (V' (Proc.devRef .tc main_v11)) (V' (Proc.devRef .tc main_v12)) (V' (Proc.devRef .tc main_v13)) l = _
    rw [e5, e8, e9, e11, e12, e13]
    exact h.W l
  · intro l; rw [e1]; exact h.h0 l
  · intro k j; rw [e10]; exact h.Why k j
  · intro j; rw [e14]; exact h.by_ j

/-- None of region `K`'s output windows is on buffer `b`. -/
abbrev NotOut0 (b : Ref sig .tc) : Prop := ∀ w : Fin cfg0.W, (cfg0.win w).isOut = true → Pipeline.arrRef spec0 w ≠ b
abbrev NotOut1 (b : Ref sig .tc) : Prop := ∀ w : Fin cfg1.W, (cfg1.win w).isOut = true → Pipeline.arrRef spec1 w ≠ b
abbrev NotOut2 (b : Ref sig .tc) : Prop := ∀ w : Fin cfg2.W, (cfg2.win w).isOut = true → Pipeline.arrRef spec2 w ≠ b
abbrev NotOut3 (b : Ref sig .tc) : Prop := ∀ w : Fin cfg3.W, (cfg3.win w).isOut = true → Pipeline.arrRef spec3 w ≠ b
abbrev NotOut4 (b : Ref sig .tc) : Prop := ∀ w : Fin cfg4.W, (cfg4.win w).isOut = true → Pipeline.arrRef spec4 w ≠ b
abbrev NotOut5 (b : Ref sig .tc) : Prop := ∀ w : Fin cfg5.W, (cfg5.win w).isOut = true → Pipeline.arrRef spec5 w ≠ b
abbrev NotOut6 (b : Ref sig .tc) : Prop := ∀ w : Fin cfg6.W, (cfg6.win w).isOut = true → Pipeline.arrRef spec6 w ≠ b
abbrev NotOut7 (b : Ref sig .tc) : Prop := ∀ w : Fin cfg7.W, (cfg7.win w).isOut = true → Pipeline.arrRef spec7 w ≠ b

/-- The facts of the run the chain needs, over the contents `W1 … W9` at the boundaries. -/
structure Chain (a : Cert.Out.Args) (W1 W2 W3 W4 W5 W6 W7 W8 W9 : Valuation τ sig (Elt Ideal)) : Prop where
  ro : ReadOnly a W1
  xs : ∀ t, t < 8 → Cert.LayerOf.seqOf (W1 (Proc.devRef .tc main_v1)) t = Cert.Out.xs a t
  keep0 : ∀ b : Ref sig .tc, NotOut0 b → W2 (Proc.devRef .tc b) = W1 (Proc.devRef .tc b)
  keep1 : ∀ b : Ref sig .tc, NotOut1 b → W3 (Proc.devRef .tc b) = W2 (Proc.devRef .tc b)
  keep2 : ∀ b : Ref sig .tc, NotOut2 b → W4 (Proc.devRef .tc b) = W3 (Proc.devRef .tc b)
  keep3 : ∀ b : Ref sig .tc, NotOut3 b → W5 (Proc.devRef .tc b) = W4 (Proc.devRef .tc b)
  keep4 : ∀ b : Ref sig .tc, NotOut4 b → W6 (Proc.devRef .tc b) = W5 (Proc.devRef .tc b)
  keep5 : ∀ b : Ref sig .tc, NotOut5 b → W7 (Proc.devRef .tc b) = W6 (Proc.devRef .tc b)
  keep6 : ∀ b : Ref sig .tc, NotOut6 b → W8 (Proc.devRef .tc b) = W7 (Proc.devRef .tc b)
  keep7 : ∀ b : Ref sig .tc, NotOut7 b → W9 (Proc.devRef .tc b) = W8 (Proc.devRef .tc b)
  seq0 : (W2 (Proc.devRef .tc main_v15_0) : S8x512x1024.Idx → EReal)
    = Cert.LayerOf.seqOut (Wof W1 0) (W1 (Proc.devRef .tc main_v1)) (W1 (Proc.devRef .tc main_arg1)) 0
  fin0 : (W2 (Proc.devRef .tc main_v15_1) : S512x1024.Idx → EReal)
    = Cert.LayerOf.finOut (Wof W1 0) (W1 (Proc.devRef .tc main_v1)) (W1 (Proc.devRef .tc main_arg1)) 0
  seq1 : (W3 (Proc.devRef .tc main_v16_0) : S8x512x1024.Idx → EReal)
    = Cert.LayerOf.seqOut (Wof W2 1) (W2 (Proc.devRef .tc main_v15_0)) (W2 (Proc.devRef .tc main_arg1)) 1
  fin1 : (W3 (Proc.devRef .tc main_v16_1) : S512x1024.Idx → EReal)
    = Cert.LayerOf.finOut (Wof W2 1) (W2 (Proc.devRef .tc main_v15_0)) (W2 (Proc.devRef .tc main_arg1)) 1
  seq2 : (W4 (Proc.devRef .tc main_v17_0) : S8x512x1024.Idx → EReal)
    = Cert.LayerOf.seqOut (Wof W3 2) (W3 (Proc.devRef .tc main_v16_0)) (W3 (Proc.devRef .tc main_arg1)) 2
  fin2 : (W4 (Proc.devRef .tc main_v17_1) : S512x1024.Idx → EReal)
    = Cert.LayerOf.finOut (Wof W3 2) (W3 (Proc.devRef .tc main_v16_0)) (W3 (Proc.devRef .tc main_arg1)) 2
  seq3 : (W5 (Proc.devRef .tc main_v18_0) : S8x512x1024.Idx → EReal)
    = Cert.LayerOf.seqOut (Wof W4 3) (W4 (Proc.devRef .tc main_v17_0)) (W4 (Proc.devRef .tc main_arg1)) 3
  fin3 : (W5 (Proc.devRef .tc main_v18_1) : S512x1024.Idx → EReal)
    = Cert.LayerOf.finOut (Wof W4 3) (W4 (Proc.devRef .tc main_v17_0)) (W4 (Proc.devRef .tc main_arg1)) 3
  seq4 : (W6 (Proc.devRef .tc main_v19_0) : S8x512x1024.Idx → EReal)
    = Cert.LayerOf.seqOut (Wof W5 4) (W5 (Proc.devRef .tc main_v18_0)) (W5 (Proc.devRef .tc main_arg1)) 4
  fin4 : (W6 (Proc.devRef .tc main_v19_1) : S512x1024.Idx → EReal)
    = Cert.LayerOf.finOut (Wof W5 4) (W5 (Proc.devRef .tc main_v18_0)) (W5 (Proc.devRef .tc main_arg1)) 4
  seq5 : (W7 (Proc.devRef .tc main_v20_0) : S8x512x1024.Idx → EReal)
    = Cert.LayerOf.seqOut (Wof W6 5) (W6 (Proc.devRef .tc main_v19_0)) (W6 (Proc.devRef .tc main_arg1)) 5
  fin5 : (W7 (Proc.devRef .tc main_v20_1) : S512x1024.Idx → EReal)
    = Cert.LayerOf.finOut (Wof W6 5) (W6 (Proc.devRef .tc main_v19_0)) (W6 (Proc.devRef .tc main_arg1)) 5
  seq6 : (W8 (Proc.devRef .tc main_v21_0) : S8x512x1024.Idx → EReal)
    = Cert.LayerOf.seqOut (Wof W7 6) (W7 (Proc.devRef .tc main_v20_0)) (W7 (Proc.devRef .tc main_arg1)) 6
  fin6 : (W8 (Proc.devRef .tc main_v21_1) : S512x1024.Idx → EReal)
    = Cert.LayerOf.finOut (Wof W7 6) (W7 (Proc.devRef .tc main_v20_0)) (W7 (Proc.devRef .tc main_arg1)) 6
  seq7 : (W9 (Proc.devRef .tc main_v22_0) : S8x512x1024.Idx → EReal)
    = Cert.LayerOf.seqOut (Wof W8 7) (W8 (Proc.devRef .tc main_v21_0)) (W8 (Proc.devRef .tc main_arg1)) 7
  fin7 : (W9 (Proc.devRef .tc main_v22_1) : S512x1024.Idx → EReal)
    = Cert.LayerOf.finOut (Wof W8 7) (W8 (Proc.devRef .tc main_v21_0)) (W8 (Proc.devRef .tc main_arg1)) 7
  proj7 : (W9 (Proc.devRef .tc main_v22_2) : S8x512x1024.Idx → EReal)
    = Cert.LayerOf.projOut (W8 (Proc.devRef .tc main_v10)) (W8 (Proc.devRef .tc main_v14)) (Wof W8 7)
        (W8 (Proc.devRef .tc main_v21_0)) (W8 (Proc.devRef .tc main_arg1)) 7

namespace Chain

variable {a : Cert.Out.Args} {W1 W2 W3 W4 W5 W6 W7 W8 W9 : Valuation τ sig (Elt Ideal)}
variable (R : Chain a W1 W2 W3 W4 W5 W6 W7 W8 W9)
include R

/-! ## What is only read stays the arguments' at every region's entry -/

theorem ro2 : ReadOnly a W2 :=
  R.ro.of_eq (R.keep0 main_v5 (by decide)) (R.keep0 main_v8 (by decide)) (R.keep0 main_v9 (by decide)) (R.keep0 main_v10 (by decide))
    (R.keep0 main_v11 (by decide)) (R.keep0 main_v12 (by decide)) (R.keep0 main_v13 (by decide)) (R.keep0 main_v14 (by decide))
    (R.keep0 main_arg1 (by decide))

theorem ro3 : ReadOnly a W3 :=
  R.ro2.of_eq (R.keep1 main_v5 (by decide)) (R.keep1 main_v8 (by decide)) (R.keep1 main_v9 (by decide)) (R.keep1 main_v10 (by decide))
    (R.keep1 main_v11 (by decide)) (R.keep1 main_v12 (by decide)) (R.keep1 main_v13 (by decide)) (R.keep1 main_v14 (by decide))
    (R.keep1 main_arg1 (by decide))

theorem ro4 : ReadOnly a W4 :=
  R.ro3.of_eq (R.keep2 main_v5 (by decide)) (R.keep2 main_v8 (by decide)) (R.keep2 main_v9 (by decide)) (R.keep2 main_v10 (by decide))
    (R.keep2 main_v11 (by decide)) (R.keep2 main_v12 (by decide)) (R.keep2 main_v13 (by decide)) (R.keep2 main_v14 (by decide))
    (R.keep2 main_arg1 (by decide))

theorem ro5 : ReadOnly a W5 :=
  R.ro4.of_eq (R.keep3 main_v5 (by decide)) (R.keep3 main_v8 (by decide)) (R.keep3 main_v9 (by decide)) (R.keep3 main_v10 (by decide))
    (R.keep3 main_v11 (by decide)) (R.keep3 main_v12 (by decide)) (R.keep3 main_v13 (by decide)) (R.keep3 main_v14 (by decide))
    (R.keep3 main_arg1 (by decide))

theorem ro6 : ReadOnly a W6 :=
  R.ro5.of_eq (R.keep4 main_v5 (by decide)) (R.keep4 main_v8 (by decide)) (R.keep4 main_v9 (by decide)) (R.keep4 main_v10 (by decide))
    (R.keep4 main_v11 (by decide)) (R.keep4 main_v12 (by decide)) (R.keep4 main_v13 (by decide)) (R.keep4 main_v14 (by decide))
    (R.keep4 main_arg1 (by decide))

theorem ro7 : ReadOnly a W7 :=
  R.ro6.of_eq (R.keep5 main_v5 (by decide)) (R.keep5 main_v8 (by decide)) (R.keep5 main_v9 (by decide)) (R.keep5 main_v10 (by decide))
    (R.keep5 main_v11 (by decide)) (R.keep5 main_v12 (by decide)) (R.keep5 main_v13 (by decide)) (R.keep5 main_v14 (by decide))
    (R.keep5 main_arg1 (by decide))

theorem ro8 : ReadOnly a W8 :=
  R.ro7.of_eq (R.keep6 main_v5 (by decide)) (R.keep6 main_v8 (by decide)) (R.keep6 main_v9 (by decide)) (R.keep6 main_v10 (by decide))
    (R.keep6 main_v11 (by decide)) (R.keep6 main_v12 (by decide)) (R.keep6 main_v13 (by decide)) (R.keep6 main_v14 (by decide))
    (R.keep6 main_arg1 (by decide))

/-! ## Region by region: each leaves its layer of the stack -/

theorem s0 : (W2 (Proc.devRef .tc main_v15_0) : S8x512x1024.Idx → EReal) = Hs a 0 :=
  R.seq0.trans (seqOut_bottom a _ _ _ 0 rfl (R.ro.W 0) R.xs (R.ro.h0 0))
theorem f0 : (W2 (Proc.devRef .tc main_v15_1) : S512x1024.Idx → EReal) = Hf a 0 :=
  R.fin0.trans (finOut_bottom a _ _ _ 0 rfl (R.ro.W 0) R.xs (R.ro.h0 0))

theorem s1 : (W3 (Proc.devRef .tc main_v16_0) : S8x512x1024.Idx → EReal) = Hs a 1 := by
  refine R.seq1.trans ?_
  rw [R.s0]; exact seqOut_upper a _ _ 1 0 rfl (R.ro2.W 1) (R.ro2.h0 1)
theorem f1 : (W3 (Proc.devRef .tc main_v16_1) : S512x1024.Idx → EReal) = Hf a 1 := by
  refine R.fin1.trans ?_
  rw [R.s0]; exact finOut_upper a _ _ 1 0 rfl (R.ro2.W 1) (R.ro2.h0 1)

theorem s2 : (W4 (Proc.devRef .tc main_v17_0) : S8x512x1024.Idx → EReal) = Hs a 2 := by
  refine R.seq2.trans ?_
  rw [R.s1]; exact seqOut_upper a _ _ 2 1 rfl (R.ro3.W 2) (R.ro3.h0 2)
theorem f2 : (W4 (Proc.devRef .tc main_v17_1) : S512x1024.Idx → EReal) = Hf a 2 := by
  refine R.fin2.trans ?_
  rw [R.s1]; exact finOut_upper a _ _ 2 1 rfl (R.ro3.W 2) (R.ro3.h0 2)

theorem s3 : (W5 (Proc.devRef .tc main_v18_0) : S8x512x1024.Idx → EReal) = Hs a 3 := by
  refine R.seq3.trans ?_
  rw [R.s2]; exact seqOut_upper a _ _ 3 2 rfl (R.ro4.W 3) (R.ro4.h0 3)
theorem f3 : (W5 (Proc.devRef .tc main_v18_1) : S512x1024.Idx → EReal) = Hf a 3 := by
  refine R.fin3.trans ?_
  rw [R.s2]; exact finOut_upper a _ _ 3 2 rfl (R.ro4.W 3) (R.ro4.h0 3)

theorem s4 : (W6 (Proc.devRef .tc main_v19_0) : S8x512x1024.Idx → EReal) = Hs a 4 := by
  refine R.seq4.trans ?_
  rw [R.s3]; exact seqOut_upper a _ _ 4 3 rfl (R.ro5.W 4) (R.ro5.h0 4)
theorem f4 : (W6 (Proc.devRef .tc main_v19_1) : S512x1024.Idx → EReal) = Hf a 4 := by
  refine R.fin4.trans ?_
  rw [R.s3]; exact finOut_upper a _ _ 4 3 rfl (R.ro5.W 4) (R.ro5.h0 4)

theorem s5 : (W7 (Proc.devRef .tc main_v20_0) : S8x512x1024.Idx → EReal) = Hs a 5 := by
  refine R.seq5.trans ?_
  rw [R.s4]; exact seqOut_upper a _ _ 5 4 rfl (R.ro6.W 5) (R.ro6.h0 5)
theorem f5 : (W7 (Proc.devRef .tc main_v20_1) : S512x1024.Idx → EReal) = Hf a 5 := by
  refine R.fin5.trans ?_
  rw [R.s4]; exact finOut_upper a _ _ 5 4 rfl (R.ro6.W 5) (R.ro6.h0 5)

theorem s6 : (W8 (Proc.devRef .tc main_v21_0) : S8x512x1024.Idx → EReal) = Hs a 6 := by
  refine R.seq6.trans ?_
  rw [R.s5]; exact seqOut_upper a _ _ 6 5 rfl (R.ro7.W 6) (R.ro7.h0 6)
theorem f6 : (W8 (Proc.devRef .tc main_v21_1) : S512x1024.Idx → EReal) = Hf a 6 := by
  refine R.fin6.trans ?_
  rw [R.s5]; exact finOut_upper a _ _ 6 5 rfl (R.ro7.W 6) (R.ro7.h0 6)

theorem s7 : (W9 (Proc.devRef .tc main_v22_0) : S8x512x1024.Idx → EReal) = Hs a 7 := by
  refine R.seq7.trans ?_
  rw [R.s6]; exact seqOut_upper a _ _ 7 6 rfl (R.ro8.W 7) (R.ro8.h0 7)
theorem f7 : (W9 (Proc.devRef .tc main_v22_1) : S512x1024.Idx → EReal) = Hf a 7 := by
  refine R.fin7.trans ?_
  rw [R.s6]; exact finOut_upper a _ _ 7 6 rfl (R.ro8.W 7) (R.ro8.h0 7)
theorem p7 : (W9 (Proc.devRef .tc main_v22_2) : S8x512x1024.Idx → EReal) = Hy a := by
  refine R.proj7.trans ?_
  rw [R.s6]; exact projOut_top a _ _ 7 _ _ rfl (R.ro8.W 7) (R.ro8.h0 7) R.ro8.Why R.ro8.by_

/-! ## Each region's outputs reach the last boundary unchanged -/

theorem k8 (b : Ref sig .tc) (h7 : NotOut7 b) : W9 (Proc.devRef .tc b) = W8 (Proc.devRef .tc b) := R.keep7 b h7
theorem k7 (b : Ref sig .tc) (h6 : NotOut6 b) (h7 : NotOut7 b) : W9 (Proc.devRef .tc b) = W7 (Proc.devRef .tc b) :=
  (R.k8 b h7).trans (R.keep6 b h6)
theorem k6 (b : Ref sig .tc) (h5 : NotOut5 b) (h6 : NotOut6 b) (h7 : NotOut7 b) :
    W9 (Proc.devRef .tc b) = W6 (Proc.devRef .tc b) := (R.k7 b h6 h7).trans (R.keep5 b h5)
theorem k5 (b : Ref sig .tc) (h4 : NotOut4 b) (h5 : NotOut5 b) (h6 : NotOut6 b) (h7 : NotOut7 b) :
    W9 (Proc.devRef .tc b) = W5 (Proc.devRef .tc b) := (R.k6 b h5 h6 h7).trans (R.keep4 b h4)
theorem k4 (b : Ref sig .tc) (h3 : NotOut3 b) (h4 : NotOut4 b) (h5 : NotOut5 b) (h6 : NotOut6 b) (h7 : NotOut7 b) :
    W9 (Proc.devRef .tc b) = W4 (Proc.devRef .tc b) := (R.k5 b h4 h5 h6 h7).trans (R.keep3 b h3)
theorem k3 (b : Ref sig .tc) (h2 : NotOut2 b) (h3 : NotOut3 b) (h4 : NotOut4 b) (h5 : NotOut5 b) (h6 : NotOut6 b)
    (h7 : NotOut7 b) : W9 (Proc.devRef .tc b) = W3 (Proc.devRef .tc b) := (R.k4 b h3 h4 h5 h6 h7).trans (R.keep2 b h2)
theorem k2 (b : Ref sig .tc) (h1 : NotOut1 b) (h2 : NotOut2 b) (h3 : NotOut3 b) (h4 : NotOut4 b) (h5 : NotOut5 b)
    (h6 : NotOut6 b) (h7 : NotOut7 b) : W9 (Proc.devRef .tc b) = W2 (Proc.devRef .tc b) :=
  (R.k3 b h2 h3 h4 h5 h6 h7).trans (R.keep1 b h1)

theorem c0s : (W9 (Proc.devRef .tc main_v15_0) : S8x512x1024.Idx → EReal) = Hs a 0 :=
  (R.k2 main_v15_0 (by decide) (by decide) (by decide) (by decide) (by decide) (by decide) (by decide)).trans R.s0
theorem c1s : (W9 (Proc.devRef .tc main_v16_0) : S8x512x1024.Idx → EReal) = Hs a 1 :=
  (R.k3 main_v16_0 (by decide) (by decide) (by decide) (by decide) (by decide) (by decide)).trans R.s1
theorem c2s : (W9 (Proc.devRef .tc main_v17_0) : S8x512x1024.Idx → EReal) = Hs a 2 :=
  (R.k4 main_v17_0 (by decide) (by decide) (by decide) (by decide) (by decide)).trans R.s2
theorem c3s : (W9 (Proc.devRef .tc main_v18_0) : S8x512x1024.Idx → EReal) = Hs a 3 :=
  (R.k5 main_v18_0 (by decide) (by decide) (by decide) (by decide)).trans R.s3
theorem c4s : (W9 (Proc.devRef .tc main_v19_0) : S8x512x1024.Idx → EReal) = Hs a 4 :=
  (R.k6 main_v19_0 (by decide) (by decide) (by decide)).trans R.s4
theorem c5s : (W9 (Proc.devRef .tc main_v20_0) : S8x512x1024.Idx → EReal) = Hs a 5 :=
  (R.k7 main_v20_0 (by decide) (by decide)).trans R.s5
theorem c6s : (W9 (Proc.devRef .tc main_v21_0) : S8x512x1024.Idx → EReal) = Hs a 6 :=
  (R.k8 main_v21_0 (by decide)).trans R.s6

theorem c0f : (W9 (Proc.devRef .tc main_v15_1) : S512x1024.Idx → EReal) = Hf a 0 :=
  (R.k2 main_v15_1 (by decide) (by decide) (by decide) (by decide) (by decide) (by decide) (by decide)).trans R.f0
theorem c1f : (W9 (Proc.devRef .tc main_v16_1) : S512x1024.Idx → EReal) = Hf a 1 :=
  (R.k3 main_v16_1 (by decide) (by decide) (by decide) (by decide) (by decide) (by decide)).trans R.f1
theorem c2f : (W9 (Proc.devRef .tc main_v17_1) : S512x1024.Idx → EReal) = Hf a 2 :=
  (R.k4 main_v17_1 (by decide) (by decide) (by decide) (by decide) (by decide)).trans R.f2
theorem c3f : (W9 (Proc.devRef .tc main_v18_1) : S512x1024.Idx → EReal) = Hf a 3 :=
  (R.k5 main_v18_1 (by decide) (by decide) (by decide) (by decide)).trans R.f3
theorem c4f : (W9 (Proc.devRef .tc main_v19_1) : S512x1024.Idx → EReal) = Hf a 4 :=
  (R.k6 main_v19_1 (by decide) (by decide) (by decide)).trans R.f4
theorem c5f : (W9 (Proc.devRef .tc main_v20_1) : S512x1024.Idx → EReal) = Hf a 5 :=
  (R.k7 main_v20_1 (by decide) (by decide)).trans R.f5
theorem c6f : (W9 (Proc.devRef .tc main_v21_1) : S512x1024.Idx → EReal) = Hf a 6 :=
  (R.k8 main_v21_1 (by decide)).trans R.f6

/-! ## The three results after the last host stretch -/

theorem v23 : (StableHlo.after hostOps8 W9 (Proc.devRef .tc main_v23) : S512x8x1024.Idx → EReal) = Cert.Out.youts a := by
  funext i
  obtain ⟨b, t, k, rfl⟩ : ∃ b t k, i = ix3 b t k := ⟨_, _, _, eq_ix3 i⟩
  rw [host8_v23, R.p7]
  rfl

theorem v32 : (StableHlo.after hostOps8 W9 (Proc.devRef .tc main_v32) : S8x8x512x1024.Idx → EReal) = Cert.Out.hseq a := by
  funext i
  obtain ⟨l, t, b, k, rfl⟩ : ∃ l t b k, i = ix4 l t b k := ⟨_, _, _, _, eq_ix4 i⟩
  exact (host8_v32 W9 (Hs a) R.c0s R.c1s R.c2s R.c3s R.c4s R.c5s R.c6s R.s7 l t b k).trans rfl

theorem v41 : (StableHlo.after hostOps8 W9 (Proc.devRef .tc main_v41) : S8x512x1024.Idx → EReal) = Cert.Out.hlast a := by
  funext i
  obtain ⟨l, b, k, rfl⟩ : ∃ l b k, i = ix3 l b k := ⟨_, _, _, eq_ix3 i⟩
  exact (host8_v41 W9 (Hf a) R.c0f R.c1f R.c2f R.c3f R.c4f R.c5f R.c6f R.f7 l b k).trans rfl

end Chain

end Cert.KernelIdeal.Value

end
-- ==== Proof.KI.ValRun.lean ====
/-
  The kernel's three results as functions of its arguments.

  The buffer contents at the boundaries of the run — after the first host stretch, after each of the eight regions —
  satisfy the chain's hypotheses: the first host stretch lays the arguments out as the regions read them, a region
  changes only the arrays of its output windows, and region `K` leaves its layer's run there. So after the last host
  stretch the three result buffers hold the projected top-layer rows, every layer's hidden sequence and every layer's
  last hidden state of the stack run on the arguments.
-/
import proofs.«428164_j36979668418798_3_alg».proof.Proof.KI.Run
import proofs.«428164_j36979668418798_3_alg».proof.Proof.KI.Val0Final
import proofs.«428164_j36979668418798_3_alg».proof.Proof.KI.Val1Final
import proofs.«428164_j36979668418798_3_alg».proof.Proof.KI.Val2Final
import proofs.«428164_j36979668418798_3_alg».proof.Proof.KI.Val3Final
import proofs.«428164_j36979668418798_3_alg».proof.Proof.KI.Val4Final
import proofs.«428164_j36979668418798_3_alg».proof.Proof.KI.Val5Final
import proofs.«428164_j36979668418798_3_alg».proof.Proof.KI.Val6Final
import proofs.«428164_j36979668418798_3_alg».proof.Proof.KI.Val7
import proofs.«428164_j36979668418798_3_alg».proof.Proof.KI.ValHost0
import proofs.«428164_j36979668418798_3_alg».proof.Proof.KI.ValChain

set_option maxRecDepth 4096

noncomputable section

namespace Cert.KernelIdeal.Value

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg)

/-- The thirteen argument arrays as the launch memory holds them on core `c`. -/
def argsOf (c : Dev nD) : Cert.Out.Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12)⟩

/-- They are the arguments read off the contents at launch. -/
theorem argsOf_eq (c : Dev nD) : argsOfV (W0 m ρ c) = argsOf m c := rfl

/-! ## A region leaves alone every buffer none of its output windows is on -/

theorem keep0 (c : Dev nD) (b : Ref sig .tc) (hb : NotOut0 b) :
    W2 m ρ c (Proc.devRef .tc b) = W1 m ρ c (Proc.devRef .tc b) := by
  by_cases h : ∃ w, Pipeline.arrRef spec0 w = b
  · obtain ⟨w, rfl⟩ := h
    cases hw : (cfg0.win w).isOut
    · exact W2_in m ρ c w hw
    · exact absurd rfl (hb w hw)
  · exact W2_of_ne m ρ c b fun w e => h ⟨w, e⟩

theorem keep1 (c : Dev nD) (b : Ref sig .tc) (hb : NotOut1 b) :
    W3 m ρ c (Proc.devRef .tc b) = W2 m ρ c (Proc.devRef .tc b) := by
  by_cases h : ∃ w, Pipeline.arrRef spec1 w = b
  · obtain ⟨w, rfl⟩ := h
    cases hw : (cfg1.win w).isOut
    · exact W3_in m ρ c w hw
    · exact absurd rfl (hb w hw)
  · exact W3_of_ne m ρ c b fun w e => h ⟨w, e⟩

theorem keep2 (c : Dev nD) (b : Ref sig .tc) (hb : NotOut2 b) :
    W4 m ρ c (Proc.devRef .tc b) = W3 m ρ c (Proc.devRef .tc b) := by
  by_cases h : ∃ w, Pipeline.arrRef spec2 w = b
  · obtain ⟨w, rfl⟩ := h
    cases hw : (cfg2.win w).isOut
    · exact W4_in m ρ c w hw
    · exact absurd rfl (hb w hw)
  · exact W4_of_ne m ρ c b fun w e => h ⟨w, e⟩

theorem keep3 (c : Dev nD) (b : Ref sig .tc) (hb : NotOut3 b) :
    W5 m ρ c (Proc.devRef .tc b) = W4 m ρ c (Proc.devRef .tc b) := by
  by_cases h : ∃ w, Pipeline.arrRef spec3 w = b
  · obtain ⟨w, rfl⟩ := h
    cases hw : (cfg3.win w).isOut
    · exact W5_in m ρ c w hw
    · exact absurd rfl (hb w hw)
  · exact W5_of_ne m ρ c b fun w e => h ⟨w, e⟩

theorem keep4 (c : Dev nD) (b : Ref sig .tc) (hb : NotOut4 b) :
    W6 m ρ c (Proc.devRef .tc b) = W5 m ρ c (Proc.devRef .tc b) := by
  by_cases h : ∃ w, Pipeline.arrRef spec4 w = b
  · obtain ⟨w, rfl⟩ := h
    cases hw : (cfg4.win w).isOut
    · exact W6_in m ρ c w hw
    · exact absurd rfl (hb w hw)
  · exact W6_of_ne m ρ c b fun w e => h ⟨w, e⟩

theorem keep5 (c : Dev nD) (b : Ref sig .tc) (hb : NotOut5 b) :
    W7 m ρ c (Proc.devRef .tc b) = W6 m ρ c (Proc.devRef .tc b) := by
  by_cases h : ∃ w, Pipeline.arrRef spec5 w = b
  · obtain ⟨w, rfl⟩ := h
    cases hw : (cfg5.win w).isOut
    · exact W7_in m ρ c w hw
    · exact absurd rfl (hb w hw)
  · exact W7_of_ne m ρ c b fun w e => h ⟨w, e⟩

theorem keep6 (c : Dev nD) (b : Ref sig .tc) (hb : NotOut6 b) :
    W8 m ρ c (Proc.devRef .tc b) = W7 m ρ c (Proc.devRef .tc b) := by
  by_cases h : ∃ w, Pipeline.arrRef spec6 w = b
  · obtain ⟨w, rfl⟩ := h
    cases hw : (cfg6.win w).isOut
    · exact W8_in m ρ c w hw
    · exact absurd rfl (hb w hw)
  · exact W8_of_ne m ρ c b fun w e => h ⟨w, e⟩

theorem keep7 (c : Dev nD) (b : Ref sig .tc) (hb : NotOut7 b) :
    W9 m ρ c (Proc.devRef .tc b) = W8 m ρ c (Proc.devRef .tc b) := by
  by_cases h : ∃ w, Pipeline.arrRef spec7 w = b
  · obtain ⟨w, rfl⟩ := h
    cases hw : (cfg7.win w).isOut
    · exact W9_in m ρ c w hw
    · exact absurd rfl (hb w hw)
  · exact W9_of_ne m ρ c b fun w e => h ⟨w, e⟩

/-! ## The run's boundary contents satisfy the chain's hypotheses -/

theorem chain (c : Dev nD) :
    Chain (argsOfV (W0 m ρ c)) (W1 m ρ c) (W2 m ρ c) (W3 m ρ c) (W4 m ρ c) (W5 m ρ c) (W6 m ρ c) (W7 m ρ c) (W8 m ρ c)
      (W9 m ρ c) where
  ro := ⟨fun l => host0_W (W0 m ρ c) l, fun l => host0_h0 (W0 m ρ c) l, fun k j => host0_Why (W0 m ρ c) k j,
    fun j => host0_by (W0 m ρ c) j⟩
  xs := fun t ht => host0_xs (W0 m ρ c) t ht
  keep0 := keep0 m ρ c
  keep1 := keep1 m ρ c
  keep2 := keep2 m ρ c
  keep3 := keep3 m ρ c
  keep4 := keep4 m ρ c
  keep5 := keep5 m ρ c
  keep6 := keep6 m ρ c
  keep7 := keep7 m ρ c
  seq0 := (W2_arr m ρ c 8).trans (Cert.KernelIdeal.Value0.seq_value0 (V1 m ρ) c)
  fin0 := (W2_arr m ρ c 9).trans (Cert.KernelIdeal.Value0.fin_value0 (V1 m ρ) c)
  seq1 := (W3_arr m ρ c 8).trans (Cert.KernelIdeal.Value1.seq_value1 (V2 m ρ) c)
  fin1 := (W3_arr m ρ c 9).trans (Cert.KernelIdeal.Value1.fin_value1 (V2 m ρ) c)
  seq2 := (W4_arr m ρ c 8).trans (Cert.KernelIdeal.Value2.seq_value2 (V3 m ρ) c)
  fin2 := (W4_arr m ρ c 9).trans (Cert.KernelIdeal.Value2.fin_value2 (V3 m ρ) c)
  seq3 := (W5_arr m ρ c 8).trans (Cert.KernelIdeal.Value3.seq_value3 (V4 m ρ) c)
  fin3 := (W5_arr m ρ c 9).trans (Cert.KernelIdeal.Value3.fin_value3 (V4 m ρ) c)
  seq4 := (W6_arr m ρ c 8).trans (Cert.KernelIdeal.Value4.seq_value4 (V5 m ρ) c)
  fin4 := (W6_arr m ρ c 9).trans (Cert.KernelIdeal.Value4.fin_value4 (V5 m ρ) c)
  seq5 := (W7_arr m ρ c 8).trans (Cert.KernelIdeal.Value5.seq_value5 (V6 m ρ) c)
  fin5 := (W7_arr m ρ c 9).trans (Cert.KernelIdeal.Value5.fin_value5 (V6 m ρ) c)
  seq6 := (W8_arr m ρ c 8).trans (Cert.KernelIdeal.Value6.seq_value6 (V7 m ρ) c)
  fin6 := (W8_arr m ρ c 9).trans (Cert.KernelIdeal.Value6.fin_value6 (V7 m ρ) c)
  seq7 := (W9_arr m ρ c 10).trans (Cert.KernelIdeal.Value7.seq_value7 (V8 m ρ) c)
  fin7 := (W9_arr m ρ c 11).trans (Cert.KernelIdeal.Value7.fin_value7 (V8 m ρ) c)
  proj7 := (W9_arr m ρ c 12).trans (Cert.KernelIdeal.Value7.proj_value7 (V8 m ρ) c)

/-! ## The three results -/

/-- Result 0: the projected top-layer hidden rows. -/
theorem W10_v23 (c : Dev nD) : W10 m ρ c (Proc.devRef .tc main_v23) = Cert.Out.youts (argsOf m c) := by
  rw [← argsOf_eq m ρ c]; exact (chain m ρ c).v23

/-- Result 1: every layer's hidden sequence. -/
theorem W10_v32 (c : Dev nD) : W10 m ρ c (Proc.devRef .tc main_v32) = Cert.Out.hseq (argsOf m c) := by
  rw [← argsOf_eq m ρ c]; exact (chain m ρ c).v32

/-- Result 2: every layer's last hidden state. -/
theorem W10_v41 (c : Dev nD) : W10 m ρ c (Proc.devRef .tc main_v41) = Cert.Out.hlast (argsOf m c) := by
  rw [← argsOf_eq m ρ c]; exact (chain m ρ c).v41

end Cert.KernelIdeal.Value

end
-- ==== Proof.Ref.Dot.lean ====
import proofs.«428164_j36979668418798_3_alg».proof.Proof.Gen.ReferenceIdeal
import Idealize.ShloMosaic.PureOps.Ideal.Laws
import Idealize.ShloMosaic.Lib.ValueIdx

/-
  A [512, 1024] × [1024, 1024] matrix product at the ideal values, read at one element: the sum over the contracted
  feature of the row's entry times the column's entry.
-/

noncomputable section

namespace Cert.ReferenceIdeal.RefValue

open Cert.ReferenceIdeal Cert.ReferenceIdeal.Gen Idealize.ShloMosaic Idealize.ShloMosaic.ValueIdx

/-- Left operand, axis 0 (free): the output's row. -/
theorem lhs_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- Left operand, axis 1 (contracted): the contraction position. -/
theorem lhs_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- Right operand, axis 0 (contracted): the contraction position. -/
theorem rhs_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- Right operand, axis 1 (free): the output's column. -/
theorem rhs_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A [512,1024] × [1024,1024] product at the ideal values, read at (b, j): the sum over the contracted feature. -/
theorem dot_apply (x : FVec Ideal S512x1024 .f32) (w : FVec Ideal S1024x1024 .f32) (b : Fin 512) (j : Fin 1024) :
    Host.dotGeneral (F := Ideal) dot_S512x1024_S1024x1024_S512x1024_1_0_0_1_n_n none x w (ix2 b j)
      = ∑ k : Fin 1024, x (ix2 b k) * w (ix2 k j) := by
  simp only [Host.dotGeneral]
  rw [Ideal.dotGeneral_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 b j) ((ValueIdx.contrEquiv1 dot_S512x1024_S1024x1024_S512x1024_1_0_0_1_n_n 1024 rfl rfl).symm k) = ix2 b k := funext fun a => Fin.ext (by
    match a with
    | ⟨0, _⟩ => exact lhs_dot_0 _ _
    | ⟨1, _⟩ => exact (lhs_dot_1 _ _).trans hk)
  have er : dot_S512x1024_S1024x1024_S512x1024_1_0_0_1_n_n.rhsIdx (ix2 b j) ((ValueIdx.contrEquiv1 dot_S512x1024_S1024x1024_S512x1024_1_0_0_1_n_n 1024 rfl rfl).symm k) = ix2 k j := funext fun a => Fin.ext (by
    match a with
    | ⟨0, _⟩ => exact (rhs_dot_0 _ _).trans hk
    | ⟨1, _⟩ => exact rhs_dot_1 _ _)
  rw [el, er]

end Cert.ReferenceIdeal.RefValue

end
-- ==== Proof.Ref.Layout.lean ====
import proofs.«428164_j36979668418798_3_alg».proof.Proof.Gen.ReferenceIdeal
import Idealize.ShloMosaic.Lib.IdealHost
import Idealize.ShloMosaic.Lib.ValueIdx
import Idealize.ShloMosaic.Lib.ValueLayout
import Idealize.ShloMosaic.Lib.Pipeline.Value

/-
  The layout operations of one GRU cell, each as a function with its reading at an index: member `o` of a stacked
  argument (a slice of extent one on the stacking axis, then the reshape that drops that axis), a bias row copied into
  every batch row, and the constant one.
-/

noncomputable section

namespace Cert.ReferenceIdeal.RefValue

open Cert.ReferenceIdeal Cert.ReferenceIdeal.Gen Idealize.ShloMosaic Idealize.ShloMosaic.ValueIdx

/-- A [batch, feature] array of extended reals. -/
abbrev Act : Type := FVec Ideal S512x1024 .f32

/-- Matrix `o` of a stack of eight [1024, 1024] matrices. -/
def wMat (o : ℕ) (A : FVec Ideal S8x1024x1024 .f32) (h : S8x1024x1024.Slices ![o, 0, 0] S1x1024x1024) :
    FVec Ideal S1024x1024 .f32 :=
  shapeCast S1024x1024 (extractStridedSlice S1x1024x1024 ![o, 0, 0] A h) shapeCasts_S1x1024x1024_S1024x1024

/-- Row `o` of a stack of eight bias rows. -/
def bVec (o : ℕ) (B : FVec Ideal S8x1024 .f32) (h : S8x1024.Slices ![o, 0] S1x1024) : FVec Ideal S1024 .f32 :=
  shapeCast S1024 (extractStridedSlice S1x1024 ![o, 0] B h) shapeCasts_S1x1024_S1024

/-- Layer `o`'s initial hidden state. -/
def hInit (o : ℕ) (H : FVec Ideal S8x512x1024 .f32) (h : S8x512x1024.Slices ![o, 0, 0] S1x512x1024) : Act :=
  shapeCast S512x1024 (extractStridedSlice S1x512x1024 ![o, 0, 0] H h) shapeCasts_S1x512x1024_S512x1024

/-- Time step `o` of the input sequence. -/
def xAt (o : ℕ) (X : FVec Ideal S512x128x1024 .f32) (h : S512x128x1024.Slices ![0, o, 0] S512x1x1024) : Act :=
  shapeCast S512x1024 (extractStridedSlice S512x1x1024 ![0, o, 0] X h) shapeCasts_S512x1x1024_S512x1024

/-- A bias row copied into every batch row. -/
def biasArr (v : FVec Ideal S1024 .f32) : Act :=
  broadcastInDim S512x1024 ![0, 1] bcast_S1x1024_S512x1024_0_1 (broadcastInDim S1x1024 ![1] bcast_S1024_S1x1024_1 v)

/-- The constant one at every position. -/
def oneArr : Act := broadcastInDim S512x1024 ![] bcast_S_S512x1024 (constant S_ .f32 0x3F800000#32)

theorem wMat_apply (o : ℕ) (ho : o < 8) (A : FVec Ideal S8x1024x1024 .f32)
    (h : S8x1024x1024.Slices ![o, 0, 0] S1x1024x1024) (k j : Fin 1024) :
    wMat o A h (ix2 k j) = A (ix3 (⟨o, ho⟩ : Fin 8) k j) := by
  unfold wMat
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)

theorem bVec_apply (o : ℕ) (ho : o < 8) (B : FVec Ideal S8x1024 .f32) (h : S8x1024.Slices ![o, 0] S1x1024)
    (j : Fin 1024) : bVec o B h (ix1 j) = B (ix2 (⟨o, ho⟩ : Fin 8) j) := by
  unfold bVec
  rw [shapeCast_1a_a_apply]
  exact extractStridedSlice_apply _ _ _ _ _ (fun a => by
    match a with
    | ⟨0, _⟩ => rfl
    | ⟨1, _⟩ => exact (Nat.zero_add _).symm)

theorem hInit_apply (o : ℕ) (ho : o < 8) (H : FVec Ideal S8x512x1024 .f32)
    (h : S8x512x1024.Slices ![o, 0, 0] S1x512x1024) (b : Fin 512) (k : Fin 1024) :
    hInit o H h (ix2 b k) = H (ix3 (⟨o, ho⟩ : Fin 8) b k) := by
  unfold hInit
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)

theorem xAt_apply (o : ℕ) (ho : o < 128) (X : FVec Ideal S512x128x1024 .f32)
    (h : S512x128x1024.Slices ![0, o, 0] S512x1x1024) (b : Fin 512) (k : Fin 1024) :
    xAt o X h (ix2 b k) = X (ix3 b (⟨o, ho⟩ : Fin 128) k) := by
  unfold xAt
  rw [shapeCast_apply _ _ _ (ix3 b (0 : Fin 1) k) (by
    rw [Shape.rowMajor_val_three, Shape.rowMajor_val_two]
    show (b.val * 1 + 0) * 1024 + k.val = b.val * 1024 + k.val
    omega)]
  exact extractStridedSlice_apply _ _ _ _ _ (fun a => by
    match a with
    | ⟨0, _⟩ => exact (Nat.zero_add _).symm
    | ⟨1, _⟩ => rfl
    | ⟨2, _⟩ => exact (Nat.zero_add _).symm)

theorem biasArr_apply (v : FVec Ideal S1024 .f32) (b : Fin 512) (j : Fin 1024) : biasArr v (ix2 b j) = v (ix1 j) := by
  unfold biasArr
  rw [broadcastInDim_apply _ _ _ _ (ix2 (0 : Fin 1) j) (fun a => by
    match a with
    | ⟨0, _⟩ => rfl
    | ⟨1, _⟩ => rfl)]
  exact broadcastInDim_apply _ _ _ _ (ix1 j) (fun a => by
    match a with
    | ⟨0, _⟩ => rfl)

theorem oneArr_apply (i : S512x1024.Idx) : oneArr i = 1 := by
  unfold oneArr
  rw [broadcastInDim_apply _ _ _ _ (fun a => a.elim0) (fun a => a.elim0)]
  exact Ideal.ofBits_one_f32

end Cert.ReferenceIdeal.RefValue

end
-- ==== Proof.Ref.Cell.lean ====
import proofs.«428164_j36979668418798_3_alg».proof.Proof.Ref.Dot
import proofs.«428164_j36979668418798_3_alg».proof.Proof.Ref.Layout
import proofs.«428164_j36979668418798_3_alg».proof.Proof.Out

/-
  One GRU cell of the reference as a function of arrays — the input, the previous hidden state, the update gate and the
  layer's parameter matrices and bias rows — and its reading at one element: batch row b, feature j of the new hidden
  state is `Cert.Spec.cellRow` of the layer's parameters on row b of the input and row b of the previous state.
-/

noncomputable section

namespace Cert.ReferenceIdeal.RefValue

open Cert.ReferenceIdeal Cert.ReferenceIdeal.Gen Idealize.ShloMosaic Idealize.ShloMosaic.ValueIdx

/-- A gate of the cell as an array: the logistic function of x·Wx + h·Wh + bias, spelled 1 / (1 + exp (−·)). -/
def gateArr (x h : Act) (Wx Wh : FVec Ideal S1024x1024 .f32) (bb : FVec Ideal S1024 .f32) : Act :=
  Host.divf oneArr (addf oneArr (Host.exp (Host.negf (addf (addf (Host.dotGeneral dot_S512x1024_S1024x1024_S512x1024_1_0_0_1_n_n none x Wx) (Host.dotGeneral dot_S512x1024_S1024x1024_S512x1024_1_0_0_1_n_n none h Wh)) (biasArr bb)))))

/-- The cell's new hidden state as an array, from the input `x`, the previous state `h` and the update gate `z`:
    (1 − z) ⊙ h + z ⊙ tanh (x·Wxh + (r ⊙ h)·Whh + bh), with r the reset gate. -/
def cellArr (x h z : Act) (Wxr Whr Wxh Whh : FVec Ideal S1024x1024 .f32) (br bh : FVec Ideal S1024 .f32) : Act :=
  addf (mulf (subf oneArr z) h) (mulf z (Host.tanh (addf (addf (Host.dotGeneral dot_S512x1024_S1024x1024_S512x1024_1_0_0_1_n_n none x Wxh) (Host.dotGeneral dot_S512x1024_S1024x1024_S512x1024_1_0_0_1_n_n none (mulf (gateArr x h Wxr Whr br) h) Whh)) (biasArr bh))))

/-- A gate read at (b, j). -/
theorem gateArr_apply (x h : Act) (Wx Wh : FVec Ideal S1024x1024 .f32) (bb : FVec Ideal S1024 .f32) (b : Fin 512) (j : Fin 1024) :
    gateArr x h Wx Wh bb (ix2 b j)
      = Ideal.logistic (((∑ k : Fin 1024, x (ix2 b k) * Wx (ix2 k j)) + (∑ k : Fin 1024, h (ix2 b k) * Wh (ix2 k j))) + bb (ix1 j)) := by
  show Ideal.div (oneArr (ix2 b j)) (oneArr (ix2 b j) + Ideal.exp (-((Host.dotGeneral (F := Ideal) dot_S512x1024_S1024x1024_S512x1024_1_0_0_1_n_n none x Wx (ix2 b j) + Host.dotGeneral (F := Ideal) dot_S512x1024_S1024x1024_S512x1024_1_0_0_1_n_n none h Wh (ix2 b j)) + biasArr bb (ix2 b j)))) = _
  rw [oneArr_apply, dot_apply, dot_apply, biasArr_apply]
  rfl

/-- The cell's new state read at (b, j). -/
theorem cellArr_apply (x h z : Act) (Wxr Whr Wxh Whh : FVec Ideal S1024x1024 .f32) (br bh : FVec Ideal S1024 .f32) (b : Fin 512) (j : Fin 1024) :
    cellArr x h z Wxr Whr Wxh Whh br bh (ix2 b j)
      = (1 - z (ix2 b j)) * h (ix2 b j) + z (ix2 b j) * Ideal.tanh (((∑ k : Fin 1024, x (ix2 b k) * Wxh (ix2 k j))
          + (∑ k : Fin 1024, (Ideal.logistic (((∑ k' : Fin 1024, x (ix2 b k') * Wxr (ix2 k' k)) + (∑ k' : Fin 1024, h (ix2 b k') * Whr (ix2 k' k))) + br (ix1 k)) * h (ix2 b k)) * Whh (ix2 k j))) + bh (ix1 j)) := by
  show (oneArr (ix2 b j) - z (ix2 b j)) * h (ix2 b j) + z (ix2 b j) * Ideal.tanh ((Host.dotGeneral (F := Ideal) dot_S512x1024_S1024x1024_S512x1024_1_0_0_1_n_n none x Wxh (ix2 b j) + Host.dotGeneral (F := Ideal) dot_S512x1024_S1024x1024_S512x1024_1_0_0_1_n_n none (mulf (gateArr x h Wxr Whr br) h) Whh (ix2 b j)) + biasArr bh (ix2 b j)) = _
  rw [oneArr_apply, dot_apply, dot_apply, biasArr_apply]
  have e : ∀ k : Fin 1024, (mulf (gateArr x h Wxr Whr br) h) (ix2 b k)
      = Ideal.logistic (((∑ k' : Fin 1024, x (ix2 b k') * Wxr (ix2 k' k)) + (∑ k' : Fin 1024, h (ix2 b k') * Whr (ix2 k' k))) + br (ix1 k)) * h (ix2 b k) := fun k => by
    show gateArr x h Wxr Whr br (ix2 b k) * h (ix2 b k) = _
    rw [gateArr_apply]
  simp only [e]

/-- One cell against the specification: with layer `l`'s parameters cut out of the stacked arguments, and the input and
    previous-state arrays holding, batch row by batch row, the rows `xr` and `hr`, the cell's array holds `cellRow`. -/
theorem cell_spec (a : Cert.Out.Args) (l : ℕ) (hl : l < 8) (x h : Act) (xr hr : Fin 512 → Cert.Spec.Row)
    (hx : ∀ b k, x (ix2 b k) = xr b k) (hh : ∀ b k, h (ix2 b k) = hr b k)
    (sw : S8x1024x1024.Slices ![l, 0, 0] S1x1024x1024) (sb : S8x1024.Slices ![l, 0] S1x1024) (b : Fin 512) (j : Fin 1024) :
    cellArr x h (gateArr x h (wMat l a.Wxz sw) (wMat l a.Whz sw) (bVec l a.bz sb)) (wMat l a.Wxr sw) (wMat l a.Whr sw)
        (wMat l a.Wxh sw) (wMat l a.Whh sw) (bVec l a.br sb) (bVec l a.bh sb) (ix2 b j)
      = Cert.Spec.cellRow (Cert.Out.W a l) (xr b) (hr b) j := by
  rw [cellArr_apply, gateArr_apply]
  simp only [wMat_apply l hl, bVec_apply l hl, hx, hh]
  have e : (⟨l, hl⟩ : Fin 8) = Cert.Out.lay l := Fin.ext (Nat.mod_eq_of_lt hl).symm
  rw [e]
  rfl

end Cert.ReferenceIdeal.RefValue

end
-- ==== Proof.Ref.Hid.lean ====
import proofs.«428164_j36979668418798_3_alg».proof.Proof.Ref.Cell
import Idealize.ShloMosaic.Lib.StableHlo.Run

/-
  The argument arrays read off a device's buffer contents, and the four equations by which the hidden row of layer l at
  time t unfolds into one cell applied to its two neighbours: the layer below at the same time (the input sequence for
  the bottom layer) and the same layer one step earlier (the initial state at the first step).
-/

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

/-- The thirteen argument arrays as a device's buffers hold them. -/
def argsV (V0 : Valuation τ sig (Elt Ideal)) : Cert.Out.Args where
  x := V0 (Proc.devRef .tc main_arg0)
  hprev := V0 (Proc.devRef .tc main_arg1)
  Wxz := V0 (Proc.devRef .tc main_arg2)
  Whz := V0 (Proc.devRef .tc main_arg3)
  bz := V0 (Proc.devRef .tc main_arg4)
  Wxr := V0 (Proc.devRef .tc main_arg5)
  Whr := V0 (Proc.devRef .tc main_arg6)
  br := V0 (Proc.devRef .tc main_arg7)
  Wxh := V0 (Proc.devRef .tc main_arg8)
  Whh := V0 (Proc.devRef .tc main_arg9)
  bh := V0 (Proc.devRef .tc main_arg10)
  Why := V0 (Proc.devRef .tc main_arg11)
  by_ := V0 (Proc.devRef .tc main_arg12)

/-- The bottom layer's first step reads the input sequence and the initial state. -/
theorem hid_zero_zero (a : Cert.Out.Args) (b : Fin 512) :
    Cert.Out.hid a 0 0 b = Cert.Spec.cellRow (Cert.Out.W a 0) (Cert.Out.xs a 0 b) (Cert.Out.h0 a 0 b) := rfl
/-- The bottom layer's later steps read the input sequence and their own previous output. -/
theorem hid_zero_succ (a : Cert.Out.Args) (t : ℕ) (b : Fin 512) :
    Cert.Out.hid a 0 (t + 1) b = Cert.Spec.cellRow (Cert.Out.W a 0) (Cert.Out.xs a (t + 1) b) (Cert.Out.hid a 0 t b) := rfl
/-- A higher layer's first step reads the layer below and the initial state. -/
theorem hid_succ_zero (a : Cert.Out.Args) (l : ℕ) (b : Fin 512) :
    Cert.Out.hid a (l + 1) 0 b = Cert.Spec.cellRow (Cert.Out.W a (l + 1)) (Cert.Out.hid a l 0 b) (Cert.Out.h0 a (l + 1) b) := rfl
/-- A higher layer's later steps read the layer below at the same time and their own previous output. -/
theorem hid_succ_succ (a : Cert.Out.Args) (l t : ℕ) (b : Fin 512) :
    Cert.Out.hid a (l + 1) (t + 1) b
      = Cert.Spec.cellRow (Cert.Out.W a (l + 1)) (Cert.Out.hid a l (t + 1) b) (Cert.Out.hid a (l + 1) t b) := rfl

end Cert.ReferenceIdeal.RefValue

end
-- ==== Proof.Ref.Inputs.lean ====
import proofs.«428164_j36979668418798_3_alg».proof.Proof.Ref.Hid
import proofs.«428164_j36979668418798_3_alg».proof.Proof.Ref.RunP00

/-
  The eight initial hidden states and the first eight time steps of the input, as the reference cuts them out of its
  arguments: each, read at (b, k), is the specification's row.
-/

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

set_option maxRecDepth 8192 in
theorem h_0 (V0 : Valuation τ sig (Elt Ideal)) : (Value.res_main_v1 V0 : Act) = hInit 0 (V0 (Proc.devRef .tc main_arg1)) slices_S8x512x1024_S1x512x1024_0_0_0 := rfl
set_option maxRecDepth 8192 in
theorem hrow_0 (V0 : Valuation τ sig (Elt Ideal)) (b : Fin 512) (k : Fin 1024) : (Value.res_main_v1 V0 : Act) (ix2 b k) = Cert.Out.h0 (argsV V0) 0 b k := by
  rw [h_0, hInit_apply 0 (by decide)]; rfl
set_option maxRecDepth 8192 in
theorem h_1 (V0 : Valuation τ sig (Elt Ideal)) : (Value.res_main_v3 V0 : Act) = hInit 1 (V0 (Proc.devRef .tc main_arg1)) slices_S8x512x1024_S1x512x1024_1_0_0 := rfl
set_option maxRecDepth 8192 in
theorem hrow_1 (V0 : Valuation τ sig (Elt Ideal)) (b : Fin 512) (k : Fin 1024) : (Value.res_main_v3 V0 : Act) (ix2 b k) = Cert.Out.h0 (argsV V0) 1 b k := by
  rw [h_1, hInit_apply 1 (by decide)]; rfl
set_option maxRecDepth 8192 in
theorem h_2 (V0 : Valuation τ sig (Elt Ideal)) : (Value.res_main_v5 V0 : Act) = hInit 2 (V0 (Proc.devRef .tc main_arg1)) slices_S8x512x1024_S1x512x1024_2_0_0 := rfl
set_option maxRecDepth 8192 in
theorem hrow_2 (V0 : Valuation τ sig (Elt Ideal)) (b : Fin 512) (k : Fin 1024) : (Value.res_main_v5 V0 : Act) (ix2 b k) = Cert.Out.h0 (argsV V0) 2 b k := by
  rw [h_2, hInit_apply 2 (by decide)]; rfl
set_option maxRecDepth 8192 in
theorem h_3 (V0 : Valuation τ sig (Elt Ideal)) : (Value.res_main_v7 V0 : Act) = hInit 3 (V0 (Proc.devRef .tc main_arg1)) slices_S8x512x1024_S1x512x1024_3_0_0 := rfl
set_option maxRecDepth 8192 in
theorem hrow_3 (V0 : Valuation τ sig (Elt Ideal)) (b : Fin 512) (k : Fin 1024) : (Value.res_main_v7 V0 : Act) (ix2 b k) = Cert.Out.h0 (argsV V0) 3 b k := by
  rw [h_3, hInit_apply 3 (by decide)]; rfl
set_option maxRecDepth 8192 in
theorem h_4 (V0 : Valuation τ sig (Elt Ideal)) : (Value.res_main_v9 V0 : Act) = hInit 4 (V0 (Proc.devRef .tc main_arg1)) slices_S8x512x1024_S1x512x1024_4_0_0 := rfl
set_option maxRecDepth 8192 in
theorem hrow_4 (V0 : Valuation τ sig (Elt Ideal)) (b : Fin 512) (k : Fin 1024) : (Value.res_main_v9 V0 : Act) (ix2 b k) = Cert.Out.h0 (argsV V0) 4 b k := by
  rw [h_4, hInit_apply 4 (by decide)]; rfl
set_option maxRecDepth 8192 in
theorem h_5 (V0 : Valuation τ sig (Elt Ideal)) : (Value.res_main_v11 V0 : Act) = hInit 5 (V0 (Proc.devRef .tc main_arg1)) slices_S8x512x1024_S1x512x1024_5_0_0 := rfl
set_option maxRecDepth 8192 in
theorem hrow_5 (V0 : Valuation τ sig (Elt Ideal)) (b : Fin 512) (k : Fin 1024) : (Value.res_main_v11 V0 : Act) (ix2 b k) = Cert.Out.h0 (argsV V0) 5 b k := by
  rw [h_5, hInit_apply 5 (by decide)]; rfl
set_option maxRecDepth 8192 in
theorem h_6 (V0 : Valuation τ sig (Elt Ideal)) : (Value.res_main_v13 V0 : Act) = hInit 6 (V0 (Proc.devRef .tc main_arg1)) slices_S8x512x1024_S1x512x1024_6_0_0 := rfl
set_option maxRecDepth 8192 in
theorem hrow_6 (V0 : Valuation τ sig (Elt Ideal)) (b : Fin 512) (k : Fin 1024) : (Value.res_main_v13 V0 : Act) (ix2 b k) = Cert.Out.h0 (argsV V0) 6 b k := by
  rw [h_6, hInit_apply 6 (by decide)]; rfl
set_option maxRecDepth 8192 in
theorem h_7 (V0 : Valuation τ sig (Elt Ideal)) : (Value.res_main_v15 V0 : Act) = hInit 7 (V0 (Proc.devRef .tc main_arg1)) slices_S8x512x1024_S1x512x1024_7_0_0 := rfl
set_option maxRecDepth 8192 in
theorem hrow_7 (V0 : Valuation τ sig (Elt Ideal)) (b : Fin 512) (k : Fin 1024) : (Value.res_main_v15 V0 : Act) (ix2 b k) = Cert.Out.h0 (argsV V0) 7 b k := by
  rw [h_7, hInit_apply 7 (by decide)]; rfl
set_option maxRecDepth 8192 in
theorem x_0 (V0 : Valuation τ sig (Elt Ideal)) : (Value.res_main_v17 V0 : Act) = xAt 0 (V0 (Proc.devRef .tc main_arg0)) slices_S512x128x1024_S512x1x1024_0_0_0 := rfl
set_option maxRecDepth 8192 in
theorem xrow_0 (V0 : Valuation τ sig (Elt Ideal)) (b : Fin 512) (k : Fin 1024) : (Value.res_main_v17 V0 : Act) (ix2 b k) = Cert.Out.xs (argsV V0) 0 b k := by
  rw [x_0, xAt_apply 0 (by decide)]; rfl
set_option maxRecDepth 8192 in
theorem x_1 (V0 : Valuation τ sig (Elt Ideal)) : (Value.res_main_v472 V0 : Act) = xAt 1 (V0 (Proc.devRef .tc main_arg0)) slices_S512x128x1024_S512x1x1024_0_1_0 := rfl
set_option maxRecDepth 8192 in
theorem xrow_1 (V0 : Valuation τ sig (Elt Ideal)) (b : Fin 512) (k : Fin 1024) : (Value.res_main_v472 V0 : Act) (ix2 b k) = Cert.Out.xs (argsV V0) 1 b k := by
  rw [x_1, xAt_apply 1 (by decide)]; rfl
set_option maxRecDepth 8192 in
theorem x_2 (V0 : Valuation τ sig (Elt Ideal)) : (Value.res_main_v927 V0 : Act) = xAt 2 (V0 (Proc.devRef .tc main_arg0)) slices_S512x128x1024_S512x1x1024_0_2_0 := rfl
set_option maxRecDepth 8192 in
theorem xrow_2 (V0 : Valuation τ sig (Elt Ideal)) (b : Fin 512) (k : Fin 1024) : (Value.res_main_v927 V0 : Act) (ix2 b k) = Cert.Out.xs (argsV V0) 2 b k := by
  rw [x_2, xAt_apply 2 (by decide)]; rfl
set_option maxRecDepth 8192 in
theorem x_3 (V0 : Valuation τ sig (Elt Ideal)) : (Value.res_main_v1382 V0 : Act) = xAt 3 (V0 (Proc.devRef .tc main_arg0)) slices_S512x128x1024_S512x1x1024_0_3_0 := rfl
set_option maxRecDepth 8192 in
theorem xrow_3 (V0 : Valuation τ sig (Elt Ideal)) (b : Fin 512) (k : Fin 1024) : (Value.res_main_v1382 V0 : Act) (ix2 b k) = Cert.Out.xs (argsV V0) 3 b k := by
  rw [x_3, xAt_apply 3 (by decide)]; rfl
set_option maxRecDepth 8192 in
theorem x_4 (V0 : Valuation τ sig (Elt Ideal)) : (Value.res_main_v1837 V0 : Act) = xAt 4 (V0 (Proc.devRef .tc main_arg0)) slices_S512x128x1024_S512x1x1024_0_4_0 := rfl
set_option maxRecDepth 8192 in
theorem xrow_4 (V0 : Valuation τ sig (Elt Ideal)) (b : Fin 512) (k : Fin 1024) : (Value.res_main_v1837 V0 : Act) (ix2 b k) = Cert.Out.xs (argsV V0) 4 b k := by
  rw [x_4, xAt_apply 4 (by decide)]; rfl
set_option maxRecDepth 8192 in
theorem x_5 (V0 : Valuation τ sig (Elt Ideal)) : (Value.res_main_v2292 V0 : Act) = xAt 5 (V0 (Proc.devRef .tc main_arg0)) slices_S512x128x1024_S512x1x1024_0_5_0 := rfl
set_option maxRecDepth 8192 in
theorem xrow_5 (V0 : Valuation τ sig (Elt Ideal)) (b : Fin 512) (k : Fin 1024) : (Value.res_main_v2292 V0 : Act) (ix2 b k) = Cert.Out.xs (argsV V0) 5 b k := by
  rw [x_5, xAt_apply 5 (by decide)]; rfl
set_option maxRecDepth 8192 in
theorem x_6 (V0 : Valuation τ sig (Elt Ideal)) : (Value.res_main_v2747 V0 : Act) = xAt 6 (V0 (Proc.devRef .tc main_arg0)) slices_S512x128x1024_S512x1x1024_0_6_0 := rfl
set_option maxRecDepth 8192 in
theorem xrow_6 (V0 : Valuation τ sig (Elt Ideal)) (b : Fin 512) (k : Fin 1024) : (Value.res_main_v2747 V0 : Act) (ix2 b k) = Cert.Out.xs (argsV V0) 6 b k := by
  rw [x_6, xAt_apply 6 (by decide)]; rfl
set_option maxRecDepth 8192 in
theorem x_7 (V0 : Valuation τ sig (Elt Ideal)) : (Value.res_main_v3202 V0 : Act) = xAt 7 (V0 (Proc.devRef .tc main_arg0)) slices_S512x128x1024_S512x1x1024_0_7_0 := rfl
set_option maxRecDepth 8192 in
theorem xrow_7 (V0 : Valuation τ sig (Elt Ideal)) (b : Fin 512) (k : Fin 1024) : (Value.res_main_v3202 V0 : Act) (ix2 b k) = Cert.Out.xs (argsV V0) 7 b k := by
  rw [x_7, xAt_apply 7 (by decide)]; rfl

end Cert.ReferenceIdeal.RefValue

end
-- ==== Proof.Ref.CellsT0.lean ====
import proofs.«428164_j36979668418798_3_alg».proof.Proof.Ref.Inputs

/-
  Time step 0 of the reference: its eight cells, bottom layer first. Each cell's two named arrays are the gate and
  the cell function of Cell.lean on the cell's input and previous-state arrays and layer l's parameters; hence, from
  the two neighbouring cells, its output read at (b, j) is the hidden row of layer l at time 0.
-/

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

set_option maxRecDepth 8192 in
theorem z_0_0 (V0 : Valuation τ sig (Elt Ideal)) : (Value.res_main_v35 V0 : Act) = gateArr (Value.res_main_v17 V0 : Act) (Value.res_main_v1 V0 : Act) (wMat 0 (V0 (Proc.devRef .tc main_arg2)) slices_S8x1024x1024_S1x1024x1024_0_0_0) (wMat 0 (V0 (Proc.devRef .tc main_arg3)) slices_S8x1024x1024_S1x1024x1024_0_0_0) (bVec 0 (V0 (Proc.devRef .tc main_arg4)) slices_S8x1024_S1x1024_0_0) := rfl
set_option maxRecDepth 8192 in
theorem o_0_0 (V0 : Valuation τ sig (Elt Ideal)) : (Value.res_main_v72 V0 : Act) = cellArr (Value.res_main_v17 V0 : Act) (Value.res_main_v1 V0 : Act) (Value.res_main_v35 V0 : Act) (wMat 0 (V0 (Proc.devRef .tc main_arg5)) slices_S8x1024x1024_S1x1024x1024_0_0_0) (wMat 0 (V0 (Proc.devRef .tc main_arg6)) slices_S8x1024x1024_S1x1024x1024_0_0_0) (wMat 0 (V0 (Proc.devRef .tc main_arg8)) slices_S8x1024x1024_S1x1024x1024_0_0_0) (wMat 0 (V0 (Proc.devRef .tc main_arg9)) slices_S8x1024x1024_S1x1024x1024_0_0_0) (bVec 0 (V0 (Proc.devRef .tc main_arg7)) slices_S8x1024_S1x1024_0_0) (bVec 0 (V0 (Proc.devRef .tc main_arg10)) slices_S8x1024_S1x1024_0_0) := rfl
set_option maxRecDepth 8192 in
theorem hid_0_0 (V0 : Valuation τ sig (Elt Ideal)) (b : Fin 512) (j : Fin 1024) : (Value.res_main_v72 V0 : Act) (ix2 b j) = Cert.Out.hid (argsV V0) 0 0 b j := by
  rw [o_0_0, z_0_0]
  exact (cell_spec (argsV V0) 0 (by decide) _ _ (Cert.Out.xs (argsV V0) 0) (Cert.Out.h0 (argsV V0) 0) (xrow_0 V0) (hrow_0 V0) _ _ b j).trans (congrFun (hid_zero_zero (argsV V0) b) j).symm
set_option maxRecDepth 8192 in
theorem z_0_1 (V0 : Valuation τ sig (Elt Ideal)) : (Value.res_main_v90 V0 : Act) = gateArr (Value.res_main_v72 V0 : Act) (Value.res_main_v3 V0 : Act) (wMat 1 (V0 (Proc.devRef .tc main_arg2)) slices_S8x1024x1024_S1x1024x1024_1_0_0) (wMat 1 (V0 (Proc.devRef .tc main_arg3)) slices_S8x1024x1024_S1x1024x1024_1_0_0) (bVec 1 (V0 (Proc.devRef .tc main_arg4)) slices_S8x1024_S1x1024_1_0) := rfl
set_option maxRecDepth 8192 in
theorem o_0_1 (V0 : Valuation τ sig (Elt Ideal)) : (Value.res_main_v127 V0 : Act) = cellArr (Value.res_main_v72 V0 : Act) (Value.res_main_v3 V0 : Act) (Value.res_main_v90 V0 : Act) (wMat 1 (V0 (Proc.devRef .tc main_arg5)) slices_S8x1024x1024_S1x1024x1024_1_0_0) (wMat 1 (V0 (Proc.devRef .tc main_arg6)) slices_S8x1024x1024_S1x1024x1024_1_0_0) (wMat 1 (V0 (Proc.devRef .tc main_arg8)) slices_S8x1024x1024_S1x1024x1024_1_0_0) (wMat 1 (V0 (Proc.devRef .tc main_arg9)) slices_S8x1024x1024_S1x1024x1024_1_0_0) (bVec 1 (V0 (Proc.devRef .tc main_arg7)) slices_S8x1024_S1x1024_1_0) (bVec 1 (V0 (Proc.devRef .tc main_arg10)) slices_S8x1024_S1x1024_1_0) := rfl
set_option maxRecDepth 8192 in
theorem hid_0_1 (V0 : Valuation τ sig (Elt Ideal)) (b : Fin 512) (j : Fin 1024) : (Value.res_main_v127 V0 : Act) (ix2 b j) = Cert.Out.hid (argsV V0) 1 0 b j := by
  rw [o_0_1, z_0_1]
  exact (cell_spec (argsV V0) 1 (by decide) _ _ (Cert.Out.hid (argsV V0) 0 0) (Cert.Out.h0 (argsV V0) 1) (hid_0_0 V0) (hrow_1 V0) _ _ b j).trans (congrFun (hid_succ_zero (argsV V0) 0 b) j).symm
set_option maxRecDepth 8192 in
theorem z_0_2 (V0 : Valuation τ sig (Elt Ideal)) : (Value.res_main_v145 V0 : Act) = gateArr (Value.res_main_v127 V0 : Act) (Value.res_main_v5 V0 : Act) (wMat 2 (V0 (Proc.devRef .tc main_arg2)) slices_S8x1024x1024_S1x1024x1024_2_0_0) (wMat 2 (V0 (Proc.devRef .tc main_arg3)) slices_S8x1024x1024_S1x1024x1024_2_0_0) (bVec 2 (V0 (Proc.devRef .tc main_arg4)) slices_S8x1024_S1x1024_2_0) := rfl
set_option maxRecDepth 8192 in
theorem o_0_2 (V0 : Valuation τ sig (Elt Ideal)) : (Value.res_main_v182 V0 : Act) = cellArr (Value.res_main_v127 V0 : Act) (Value.res_main_v5 V0 : Act) (Value.res_main_v145 V0 : Act) (wMat 2 (V0 (Proc.devRef .tc main_arg5)) slices_S8x1024x1024_S1x1024x1024_2_0_0) (wMat 2 (V0 (Proc.devRef .tc main_arg6)) slices_S8x1024x1024_S1x1024x1024_2_0_0) (wMat 2 (V0 (Proc.devRef .tc main_arg8)) slices_S8x1024x1024_S1x1024x1024_2_0_0) (wMat 2 (V0 (Proc.devRef .tc main_arg9)) slices_S8x1024x1024_S1x1024x1024_2_0_0) (bVec 2 (V0 (Proc.devRef .tc main_arg7)) slices_S8x1024_S1x1024_2_0) (bVec 2 (V0 (Proc.devRef .tc main_arg10)) slices_S8x1024_S1x1024_2_0) := rfl
set_option maxRecDepth 8192 in
theorem hid_0_2 (V0 : Valuation τ sig (Elt Ideal)) (b : Fin 512) (j : Fin 1024) : (Value.res_main_v182 V0 : Act) (ix2 b j) = Cert.Out.hid (argsV V0) 2 0 b j := by
  rw [o_0_2, z_0_2]
  exact (cell_spec (argsV V0) 2 (by decide) _ _ (Cert.Out.hid (argsV V0) 1 0) (Cert.Out.h0 (argsV V0) 2) (hid_0_1 V0) (hrow_2 V0) _ _ b j).trans (congrFun (hid_succ_zero (argsV V0) 1 b) j).symm
set_option maxRecDepth 8192 in
theorem z_0_3 (V0 : Valuation τ sig (Elt Ideal)) : (Value.res_main_v200 V0 : Act) = gateArr (Value.res_main_v182 V0 : Act) (Value.res_main_v7 V0 : Act) (wMat 3 (V0 (Proc.devRef .tc main_arg2)) slices_S8x1024x1024_S1x1024x1024_3_0_0) (wMat 3 (V0 (Proc.devRef .tc main_arg3)) slices_S8x1024x1024_S1x1024x1024_3_0_0) (bVec 3 (V0 (Proc.devRef .tc main_arg4)) slices_S8x1024_S1x1024_3_0) := rfl
set_option maxRecDepth 8192 in
theorem o_0_3 (V0 : Valuation τ sig (Elt Ideal)) : (Value.res_main_v237 V0 : Act) = cellArr (Value.res_main_v182 V0 : Act) (Value.res_main_v7 V0 : Act) (Value.res_main_v200 V0 : Act) (wMat 3 (V0 (Proc.devRef .tc main_arg5)) slices_S8x1024x1024_S1x1024x1024_3_0_0) (wMat 3 (V0 (Proc.devRef .tc main_arg6)) slices_S8x1024x1024_S1x1024x1024_3_0_0) (wMat 3 (V0 (Proc.devRef .tc main_arg8)) slices_S8x1024x1024_S1x1024x1024_3_0_0) (wMat 3 (V0 (Proc.devRef .tc main_arg9)) slices_S8x1024x1024_S1x1024x1024_3_0_0) (bVec 3 (V0 (Proc.devRef .tc main_arg7)) slices_S8x1024_S1x1024_3_0) (bVec 3 (V0 (Proc.devRef .tc main_arg10)) slices_S8x1024_S1x1024_3_0) := rfl
set_option maxRecDepth 8192 in
theorem hid_0_3 (V0 : Valuation τ sig (Elt Ideal)) (b : Fin 512) (j : Fin 1024) : (Value.res_main_v237 V0 : Act) (ix2 b j) = Cert.Out.hid (argsV V0) 3 0 b j := by
  rw [o_0_3, z_0_3]
  exact (cell_spec (argsV V0) 3 (by decide) _ _ (Cert.Out.hid (argsV V0) 2 0) (Cert.Out.h0 (argsV V0) 3) (hid_0_2 V0) (hrow_3 V0) _ _ b j).trans (congrFun (hid_succ_zero (argsV V0) 2 b) j).symm
set_option maxRecDepth 8192 in
theorem z_0_4 (V0 : Valuation τ sig (Elt Ideal)) : (Value.res_main_v255 V0 : Act) = gateArr (Value.res_main_v237 V0 : Act) (Value.res_main_v9 V0 : Act) (wMat 4 (V0 (Proc.devRef .tc main_arg2)) slices_S8x1024x1024_S1x1024x1024_4_0_0) (wMat 4 (V0 (Proc.devRef .tc main_arg3)) slices_S8x1024x1024_S1x1024x1024_4_0_0) (bVec 4 (V0 (Proc.devRef .tc main_arg4)) slices_S8x1024_S1x1024_4_0) := rfl
set_option maxRecDepth 8192 in
theorem o_0_4 (V0 : Valuation τ sig (Elt Ideal)) : (Value.res_main_v292 V0 : Act) = cellArr (Value.res_main_v237 V0 : Act) (Value.res_main_v9 V0 : Act) (Value.res_main_v255 V0 : Act) (wMat 4 (V0 (Proc.devRef .tc main_arg5)) slices_S8x1024x1024_S1x1024x1024_4_0_0) (wMat 4 (V0 (Proc.devRef .tc main_arg6)) slices_S8x1024x1024_S1x1024x1024_4_0_0) (wMat 4 (V0 (Proc.devRef .tc main_arg8)) slices_S8x1024x1024_S1x1024x1024_4_0_0) (wMat 4 (V0 (Proc.devRef .tc main_arg9)) slices_S8x1024x1024_S1x1024x1024_4_0_0) (bVec 4 (V0 (Proc.devRef .tc main_arg7)) slices_S8x1024_S1x1024_4_0) (bVec 4 (V0 (Proc.devRef .tc main_arg10)) slices_S8x1024_S1x1024_4_0) := rfl
set_option maxRecDepth 8192 in
theorem hid_0_4 (V0 : Valuation τ sig (Elt Ideal)) (b : Fin 512) (j : Fin 1024) : (Value.res_main_v292 V0 : Act) (ix2 b j) = Cert.Out.hid (argsV V0) 4 0 b j := by
  rw [o_0_4, z_0_4]
  exact (cell_spec (argsV V0) 4 (by decide) _ _ (Cert.Out.hid (argsV V0) 3 0) (Cert.Out.h0 (argsV V0) 4) (hid_0_3 V0) (hrow_4 V0) _ _ b j).trans (congrFun (hid_succ_zero (argsV V0) 3 b) j).symm
set_option maxRecDepth 8192 in
theorem z_0_5 (V0 : Valuation τ sig (Elt Ideal)) : (Value.res_main_v310 V0 : Act) = gateArr (Value.res_main_v292 V0 : Act) (Value.res_main_v11 V0 : Act) (wMat 5 (V0 (Proc.devRef .tc main_arg2)) slices_S8x1024x1024_S1x1024x1024_5_0_0) (wMat 5 (V0 (Proc.devRef .tc main_arg3)) slices_S8x1024x1024_S1x1024x1024_5_0_0) (bVec 5 (V0 (Proc.devRef .tc main_arg4)) slices_S8x1024_S1x1024_5_0) := rfl
set_option maxRecDepth 8192 in
theorem o_0_5 (V0 : Valuation τ sig (Elt Ideal)) : (Value.res_main_v347 V0 : Act) = cellArr (Value.res_main_v292 V0 : Act) (Value.res_main_v11 V0 : Act) (Value.res_main_v310 V0 : Act) (wMat 5 (V0 (Proc.devRef .tc main_arg5)) slices_S8x1024x1024_S1x1024x1024_5_0_0) (wMat 5 (V0 (Proc.devRef .tc main_arg6)) slices_S8x1024x1024_S1x1024x1024_5_0_0) (wMat 5 (V0 (Proc.devRef .tc main_arg8)) slices_S8x1024x1024_S1x1024x1024_5_0_0) (wMat 5 (V0 (Proc.devRef .tc main_arg9)) slices_S8x1024x1024_S1x1024x1024_5_0_0) (bVec 5 (V0 (Proc.devRef .tc main_arg7)) slices_S8x1024_S1x1024_5_0) (bVec 5 (V0 (Proc.devRef .tc main_arg10)) slices_S8x1024_S1x1024_5_0) := rfl
set_option maxRecDepth 8192 in
theorem hid_0_5 (V0 : Valuation τ sig (Elt Ideal)) (b : Fin 512) (j : Fin 1024) : (Value.res_main_v347 V0 : Act) (ix2 b j) = Cert.Out.hid (argsV V0) 5 0 b j := by
  rw [o_0_5, z_0_5]
  exact (cell_spec (argsV V0) 5 (by decide) _ _ (Cert.Out.hid (argsV V0) 4 0) (Cert.Out.h0 (argsV V0) 5) (hid_0_4 V0) (hrow_5 V0) _ _ b j).trans (congrFun (hid_succ_zero (argsV V0) 4 b) j).symm
set_option maxRecDepth 8192 in
theorem z_0_6 (V0 : Valuation τ sig (Elt Ideal)) : (Value.res_main_v365 V0 : Act) = gateArr (Value.res_main_v347 V0 : Act) (Value.res_main_v13 V0 : Act) (wMat 6 (V0 (Proc.devRef .tc main_arg2)) slices_S8x1024x1024_S1x1024x1024_6_0_0) (wMat 6 (V0 (Proc.devRef .tc main_arg3)) slices_S8x1024x1024_S1x1024x1024_6_0_0) (bVec 6 (V0 (Proc.devRef .tc main_arg4)) slices_S8x1024_S1x1024_6_0) := rfl
set_option maxRecDepth 8192 in
theorem o_0_6 (V0 : Valuation τ sig (Elt Ideal)) : (Value.res_main_v402 V0 : Act) = cellArr (Value.res_main_v347 V0 : Act) (Value.res_main_v13 V0 : Act) (Value.res_main_v365 V0 : Act) (wMat 6 (V0 (Proc.devRef .tc main_arg5)) slices_S8x1024x1024_S1x1024x1024_6_0_0) (wMat 6 (V0 (Proc.devRef .tc main_arg6)) slices_S8x1024x1024_S1x1024x1024_6_0_0) (wMat 6 (V0 (Proc.devRef .tc main_arg8)) slices_S8x1024x1024_S1x1024x1024_6_0_0) (wMat 6 (V0 (Proc.devRef .tc main_arg9)) slices_S8x1024x1024_S1x1024x1024_6_0_0) (bVec 6 (V0 (Proc.devRef .tc main_arg7)) slices_S8x1024_S1x1024_6_0) (bVec 6 (V0 (Proc.devRef .tc main_arg10)) slices_S8x1024_S1x1024_6_0) := rfl
set_option maxRecDepth 8192 in
theorem hid_0_6 (V0 : Valuation τ sig (Elt Ideal)) (b : Fin 512) (j : Fin 1024) : (Value.res_main_v402 V0 : Act) (ix2 b j) = Cert.Out.hid (argsV V0) 6 0 b j := by
  rw [o_0_6, z_0_6]
  exact (cell_spec (argsV V0) 6 (by decide) _ _ (Cert.Out.hid (argsV V0) 5 0) (Cert.Out.h0 (argsV V0) 6) (hid_0_5 V0) (hrow_6 V0) _ _ b j).trans (congrFun (hid_succ_zero (argsV V0) 5 b) j).symm
set_option maxRecDepth 8192 in
theorem z_0_7 (V0 : Valuation τ sig (Elt Ideal)) : (Value.res_main_v420 V0 : Act) = gateArr (Value.res_main_v402 V0 : Act) (Value.res_main_v15 V0 : Act) (wMat 7 (V0 (Proc.devRef .tc main_arg2)) slices_S8x1024x1024_S1x1024x1024_7_0_0) (wMat 7 (V0 (Proc.devRef .tc main_arg3)) slices_S8x1024x1024_S1x1024x1024_7_0_0) (bVec 7 (V0 (Proc.devRef .tc main_arg4)) slices_S8x1024_S1x1024_7_0) := rfl
set_option maxRecDepth 8192 in
theorem o_0_7 (V0 : Valuation τ sig (Elt Ideal)) : (Value.res_main_v457 V0 : Act) = cellArr (Value.res_main_v402 V0 : Act) (Value.res_main_v15 V0 : Act) (Value.res_main_v420 V0 : Act) (wMat 7 (V0 (Proc.devRef .tc main_arg5)) slices_S8x1024x1024_S1x1024x1024_7_0_0) (wMat 7 (V0 (Proc.devRef .tc main_arg6)) slices_S8x1024x1024_S1x1024x1024_7_0_0) (wMat 7 (V0 (Proc.devRef .tc main_arg8)) slices_S8x1024x1024_S1x1024x1024_7_0_0) (wMat 7 (V0 (Proc.devRef .tc main_arg9)) slices_S8x1024x1024_S1x1024x1024_7_0_0) (bVec 7 (V0 (Proc.devRef .tc main_arg7)) slices_S8x1024_S1x1024_7_0) (bVec 7 (V0 (Proc.devRef .tc main_arg10)) slices_S8x1024_S1x1024_7_0) := rfl
set_option maxRecDepth 8192 in
theorem hid_0_7 (V0 : Valuation τ sig (Elt Ideal)) (b : Fin 512) (j : Fin 1024) : (Value.res_main_v457 V0 : Act) (ix2 b j) = Cert.Out.hid (argsV V0) 7 0 b j := by
  rw [o_0_7, z_0_7]
  exact (cell_spec (argsV V0) 7 (by decide) _ _ (Cert.Out.hid (argsV V0) 6 0) (Cert.Out.h0 (argsV V0) 7) (hid_0_6 V0) (hrow_7 V0) _ _ b j).trans (congrFun (hid_succ_zero (argsV V0) 6 b) j).symm

end Cert.ReferenceIdeal.RefValue

end
-- ==== Proof.Ref.CellsT1.lean ====
import proofs.«428164_j36979668418798_3_alg».proof.Proof.Ref.CellsT0

/-
  Time step 1 of the reference: its eight cells, bottom layer first. Each cell's two named arrays are the gate and
  the cell function of Cell.lean on the cell's input and previous-state arrays and layer l's parameters; hence, from
  the two neighbouring cells, its output read at (b, j) is the hidden row of layer l at time 1.
-/

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

set_option maxRecDepth 8192 in
theorem z_1_0 (V0 : Valuation τ sig (Elt Ideal)) : (Value.res_main_v490 V0 : Act) = gateArr (Value.res_main_v472 V0 : Act) (Value.res_main_v72 V0 : Act) (wMat 0 (V0 (Proc.devRef .tc main_arg2)) slices_S8x1024x1024_S1x1024x1024_0_0_0) (wMat 0 (V0 (Proc.devRef .tc main_arg3)) slices_S8x1024x1024_S1x1024x1024_0_0_0) (bVec 0 (V0 (Proc.devRef .tc main_arg4)) slices_S8x1024_S1x1024_0_0) := rfl
set_option maxRecDepth 8192 in
theorem o_1_0 (V0 : Valuation τ sig (Elt Ideal)) : (Value.res_main_v527 V0 : Act) = cellArr (Value.res_main_v472 V0 : Act) (Value.res_main_v72 V0 : Act) (Value.res_main_v490 V0 : Act) (wMat 0 (V0 (Proc.devRef .tc main_arg5)) slices_S8x1024x1024_S1x1024x1024_0_0_0) (wMat 0 (V0 (Proc.devRef .tc main_arg6)) slices_S8x1024x1024_S1x1024x1024_0_0_0) (wMat 0 (V0 (Proc.devRef .tc main_arg8)) slices_S8x1024x1024_S1x1024x1024_0_0_0) (wMat 0 (V0 (Proc.devRef .tc main_arg9)) slices_S8x1024x1024_S1x1024x1024_0_0_0) (bVec 0 (V0 (Proc.devRef .tc main_arg7)) slices_S8x1024_S1x1024_0_0) (bVec 0 (V0 (Proc.devRef .tc main_arg10)) slices_S8x1024_S1x1024_0_0) := rfl
set_option maxRecDepth 8192 in
theorem hid_1_0 (V0 : Valuation τ sig (Elt Ideal)) (b : Fin 512) (j : Fin 1024) : (Value.res_main_v527 V0 : Act) (ix2 b j) = Cert.Out.hid (argsV V0) 0 1 b j := by
  rw [o_1_0, z_1_0]
  exact (cell_spec (argsV V0) 0 (by decide) _ _ (Cert.Out.xs (argsV V0) 1) (Cert.Out.hid (argsV V0) 0 0) (xrow_1 V0) (hid_0_0 V0) _ _ b j).trans (congrFun (hid_zero_succ (argsV V0) 0 b) j).symm
set_option maxRecDepth 8192 in
theorem z_1_1 (V0 : Valuation τ sig (Elt Ideal)) : (Value.res_main_v545 V0 : Act) = gateArr (Value.res_main_v527 V0 : Act) (Value.res_main_v127 V0 : Act) (wMat 1 (V0 (Proc.devRef .tc main_arg2)) slices_S8x1024x1024_S1x1024x1024_1_0_0) (wMat 1 (V0 (Proc.devRef .tc main_arg3)) slices_S8x1024x1024_S1x1024x1024_1_0_0) (bVec 1 (V0 (Proc.devRef .tc main_arg4)) slices_S8x1024_S1x1024_1_0) := rfl
set_option maxRecDepth 8192 in
theorem o_1_1 (V0 : Valuation τ sig (Elt Ideal)) : (Value.res_main_v582 V0 : Act) = cellArr (Value.res_main_v527 V0 : Act) (Value.res_main_v127 V0 : Act) (Value.res_main_v545 V0 : Act) (wMat 1 (V0 (Proc.devRef .tc main_arg5)) slices_S8x1024x1024_S1x1024x1024_1_0_0) (wMat 1 (V0 (Proc.devRef .tc main_arg6)) slices_S8x1024x1024_S1x1024x1024_1_0_0) (wMat 1 (V0 (Proc.devRef .tc main_arg8)) slices_S8x1024x1024_S1x1024x1024_1_0_0) (wMat 1 (V0 (Proc.devRef .tc main_arg9)) slices_S8x1024x1024_S1x1024x1024_1_0_0) (bVec 1 (V0 (Proc.devRef .tc main_arg7)) slices_S8x1024_S1x1024_1_0) (bVec 1 (V0 (Proc.devRef .tc main_arg10)) slices_S8x1024_S1x1024_1_0) := rfl
set_option maxRecDepth 8192 in
theorem hid_1_1 (V0 : Valuation τ sig (Elt Ideal)) (b : Fin 512) (j : Fin 1024) : (Value.res_main_v582 V0 : Act) (ix2 b j) = Cert.Out.hid (argsV V0) 1 1 b j := by
  rw [o_1_1, z_1_1]
  exact (cell_spec (argsV V0) 1 (by decide) _ _ (Cert.Out.hid (argsV V0) 0 1) (Cert.Out.hid (argsV V0) 1 0) (hid_1_0 V0) (hid_0_1 V0) _ _ b j).trans (congrFun (hid_succ_succ (argsV V0) 0 0 b) j).symm
set_option maxRecDepth 8192 in
theorem z_1_2 (V0 : Valuation τ sig (Elt Ideal)) : (Value.res_main_v600 V0 : Act) = gateArr (Value.res_main_v582 V0 : Act) (Value.res_main_v182 V0 : Act) (wMat 2 (V0 (Proc.devRef .tc main_arg2)) slices_S8x1024x1024_S1x1024x1024_2_0_0) (wMat 2 (V0 (Proc.devRef .tc main_arg3)) slices_S8x1024x1024_S1x1024x1024_2_0_0) (bVec 2 (V0 (Proc.devRef .tc main_arg4)) slices_S8x1024_S1x1024_2_0) := rfl
set_option maxRecDepth 8192 in
theorem o_1_2 (V0 : Valuation τ sig (Elt Ideal)) : (Value.res_main_v637 V0 : Act) = cellArr (Value.res_main_v582 V0 : Act) (Value.res_main_v182 V0 : Act) (Value.res_main_v600 V0 : Act) (wMat 2 (V0 (Proc.devRef .tc main_arg5)) slices_S8x1024x1024_S1x1024x1024_2_0_0) (wMat 2 (V0 (Proc.devRef .tc main_arg6)) slices_S8x1024x1024_S1x1024x1024_2_0_0) (wMat 2 (V0 (Proc.devRef .tc main_arg8)) slices_S8x1024x1024_S1x1024x1024_2_0_0) (wMat 2 (V0 (Proc.devRef .tc main_arg9)) slices_S8x1024x1024_S1x1024x1024_2_0_0) (bVec 2 (V0 (Proc.devRef .tc main_arg7)) slices_S8x1024_S1x1024_2_0) (bVec 2 (V0 (Proc.devRef .tc main_arg10)) slices_S8x1024_S1x1024_2_0) := rfl
set_option maxRecDepth 8192 in
theorem hid_1_2 (V0 : Valuation τ sig (Elt Ideal)) (b : Fin 512) (j : Fin 1024) : (Value.res_main_v637 V0 : Act) (ix2 b j) = Cert.Out.hid (argsV V0) 2 1 b j := by
  rw [o_1_2, z_1_2]
  exact (cell_spec (argsV V0) 2 (by decide) _ _ (Cert.Out.hid (argsV V0) 1 1) (Cert.Out.hid (argsV V0) 2 0) (hid_1_1 V0) (hid_0_2 V0) _ _ b j).trans (congrFun (hid_succ_succ (argsV V0) 1 0 b) j).symm
set_option maxRecDepth 8192 in
theorem z_1_3 (V0 : Valuation τ sig (Elt Ideal)) : (Value.res_main_v655 V0 : Act) = gateArr (Value.res_main_v637 V0 : Act) (Value.res_main_v237 V0 : Act) (wMat 3 (V0 (Proc.devRef .tc main_arg2)) slices_S8x1024x1024_S1x1024x1024_3_0_0) (wMat 3 (V0 (Proc.devRef .tc main_arg3)) slices_S8x1024x1024_S1x1024x1024_3_0_0) (bVec 3 (V0 (Proc.devRef .tc main_arg4)) slices_S8x1024_S1x1024_3_0) := rfl
set_option maxRecDepth 8192 in
theorem o_1_3 (V0 : Valuation τ sig (Elt Ideal)) : (Value.res_main_v692 V0 : Act) = cellArr (Value.res_main_v637 V0 : Act) (Value.res_main_v237 V0 : Act) (Value.res_main_v655 V0 : Act) (wMat 3 (V0 (Proc.devRef .tc main_arg5)) slices_S8x1024x1024_S1x1024x1024_3_0_0) (wMat 3 (V0 (Proc.devRef .tc main_arg6)) slices_S8x1024x1024_S1x1024x1024_3_0_0) (wMat 3 (V0 (Proc.devRef .tc main_arg8)) slices_S8x1024x1024_S1x1024x1024_3_0_0) (wMat 3 (V0 (Proc.devRef .tc main_arg9)) slices_S8x1024x1024_S1x1024x1024_3_0_0) (bVec 3 (V0 (Proc.devRef .tc main_arg7)) slices_S8x1024_S1x1024_3_0) (bVec 3 (V0 (Proc.devRef .tc main_arg10)) slices_S8x1024_S1x1024_3_0) := rfl
set_option maxRecDepth 8192 in
theorem hid_1_3 (V0 : Valuation τ sig (Elt Ideal)) (b : Fin 512) (j : Fin 1024) : (Value.res_main_v692 V0 : Act) (ix2 b j) = Cert.Out.hid (argsV V0) 3 1 b j := by
  rw [o_1_3, z_1_3]
  exact (cell_spec (argsV V0) 3 (by decide) _ _ (Cert.Out.hid (argsV V0) 2 1) (Cert.Out.hid (argsV V0) 3 0) (hid_1_2 V0) (hid_0_3 V0) _ _ b j).trans (congrFun (hid_succ_succ (argsV V0) 2 0 b) j).symm
set_option maxRecDepth 8192 in
theorem z_1_4 (V0 : Valuation τ sig (Elt Ideal)) : (Value.res_main_v710 V0 : Act) = gateArr (Value.res_main_v692 V0 : Act) (Value.res_main_v292 V0 : Act) (wMat 4 (V0 (Proc.devRef .tc main_arg2)) slices_S8x1024x1024_S1x1024x1024_4_0_0) (wMat 4 (V0 (Proc.devRef .tc main_arg3)) slices_S8x1024x1024_S1x1024x1024_4_0_0) (bVec 4 (V0 (Proc.devRef .tc main_arg4)) slices_S8x1024_S1x1024_4_0) := rfl
set_option maxRecDepth 8192 in
theorem o_1_4 (V0 : Valuation τ sig (Elt Ideal)) : (Value.res_main_v747 V0 : Act) = cellArr (Value.res_main_v692 V0 : Act) (Value.res_main_v292 V0 : Act) (Value.res_main_v710 V0 : Act) (wMat 4 (V0 (Proc.devRef .tc main_arg5)) slices_S8x1024x1024_S1x1024x1024_4_0_0) (wMat 4 (V0 (Proc.devRef .tc main_arg6)) slices_S8x1024x1024_S1x1024x1024_4_0_0) (wMat 4 (V0 (Proc.devRef .tc main_arg8)) slices_S8x1024x1024_S1x1024x1024_4_0_0) (wMat 4 (V0 (Proc.devRef .tc main_arg9)) slices_S8x1024x1024_S1x1024x1024_4_0_0) (bVec 4 (V0 (Proc.devRef .tc main_arg7)) slices_S8x1024_S1x1024_4_0) (bVec 4 (V0 (Proc.devRef .tc main_arg10)) slices_S8x1024_S1x1024_4_0) := rfl
set_option maxRecDepth 8192 in
theorem hid_1_4 (V0 : Valuation τ sig (Elt Ideal)) (b : Fin 512) (j : Fin 1024) : (Value.res_main_v747 V0 : Act) (ix2 b j) = Cert.Out.hid (argsV V0) 4 1 b j := by
  rw [o_1_4, z_1_4]
  exact (cell_spec (argsV V0) 4 (by decide) _ _ (Cert.Out.hid (argsV V0) 3 1) (Cert.Out.hid (argsV V0) 4 0) (hid_1_3 V0) (hid_0_4 V0) _ _ b j).trans (congrFun (hid_succ_succ (argsV V0) 3 0 b) j).symm
set_option maxRecDepth 8192 in
theorem z_1_5 (V0 : Valuation τ sig (Elt Ideal)) : (Value.res_main_v765 V0 : Act) = gateArr (Value.res_main_v747 V0 : Act) (Value.res_main_v347 V0 : Act) (wMat 5 (V0 (Proc.devRef .tc main_arg2)) slices_S8x1024x1024_S1x1024x1024_5_0_0) (wMat 5 (V0 (Proc.devRef .tc main_arg3)) slices_S8x1024x1024_S1x1024x1024_5_0_0) (bVec 5 (V0 (Proc.devRef .tc main_arg4)) slices_S8x1024_S1x1024_5_0) := rfl
set_option maxRecDepth 8192 in
theorem o_1_5 (V0 : Valuation τ sig (Elt Ideal)) : (Value.res_main_v802 V0 : Act) = cellArr (Value.res_main_v747 V0 : Act) (Value.res_main_v347 V0 : Act) (Value.res_main_v765 V0 : Act) (wMat 5 (V0 (Proc.devRef .tc main_arg5)) slices_S8x1024x1024_S1x1024x1024_5_0_0) (wMat 5 (V0 (Proc.devRef .tc main_arg6)) slices_S8x1024x1024_S1x1024x1024_5_0_0) (wMat 5 (V0 (Proc.devRef .tc main_arg8)) slices_S8x1024x1024_S1x1024x1024_5_0_0) (wMat 5 (V0 (Proc.devRef .tc main_arg9)) slices_S8x1024x1024_S1x1024x1024_5_0_0) (bVec 5 (V0 (Proc.devRef .tc main_arg7)) slices_S8x1024_S1x1024_5_0) (bVec 5 (V0 (Proc.devRef .tc main_arg10)) slices_S8x1024_S1x1024_5_0) := rfl
set_option maxRecDepth 8192 in
theorem hid_1_5 (V0 : Valuation τ sig (Elt Ideal)) (b : Fin 512) (j : Fin 1024) : (Value.res_main_v802 V0 : Act) (ix2 b j) = Cert.Out.hid (argsV V0) 5 1 b j := by
  rw [o_1_5, z_1_5]
  exact (cell_spec (argsV V0) 5 (by decide) _ _ (Cert.Out.hid (argsV V0) 4 1) (Cert.Out.hid (argsV V0) 5 0) (hid_1_4 V0) (hid_0_5 V0) _ _ b j).trans (congrFun (hid_succ_succ (argsV V0) 4 0 b) j).symm
set_option maxRecDepth 8192 in
theorem z_1_6 (V0 : Valuation τ sig (Elt Ideal)) : (Value.res_main_v820 V0 : Act) = gateArr (Value.res_main_v802 V0 : Act) (Value.res_main_v402 V0 : Act) (wMat 6 (V0 (Proc.devRef .tc main_arg2)) slices_S8x1024x1024_S1x1024x1024_6_0_0) (wMat 6 (V0 (Proc.devRef .tc main_arg3)) slices_S8x1024x1024_S1x1024x1024_6_0_0) (bVec 6 (V0 (Proc.devRef .tc main_arg4)) slices_S8x1024_S1x1024_6_0) := rfl
set_option maxRecDepth 8192 in
theorem o_1_6 (V0 : Valuation τ sig (Elt Ideal)) : (Value.res_main_v857 V0 : Act) = cellArr (Value.res_main_v802 V0 : Act) (Value.res_main_v402 V0 : Act) (Value.res_main_v820 V0 : Act) (wMat 6 (V0 (Proc.devRef .tc main_arg5)) slices_S8x1024x1024_S1x1024x1024_6_0_0) (wMat 6 (V0 (Proc.devRef .tc main_arg6)) slices_S8x1024x1024_S1x1024x1024_6_0_0) (wMat 6 (V0 (Proc.devRef .tc main_arg8)) slices_S8x1024x1024_S1x1024x1024_6_0_0) (wMat 6 (V0 (Proc.devRef .tc main_arg9)) slices_S8x1024x1024_S1x1024x1024_6_0_0) (bVec 6 (V0 (Proc.devRef .tc main_arg7)) slices_S8x1024_S1x1024_6_0) (bVec 6 (V0 (Proc.devRef .tc main_arg10)) slices_S8x1024_S1x1024_6_0) := rfl
set_option maxRecDepth 8192 in
theorem hid_1_6 (V0 : Valuation τ sig (Elt Ideal)) (b : Fin 512) (j : Fin 1024) : (Value.res_main_v857 V0 : Act) (ix2 b j) = Cert.Out.hid (argsV V0) 6 1 b j := by
  rw [o_1_6, z_1_6]
  exact (cell_spec (argsV V0) 6 (by decide) _ _ (Cert.Out.hid (argsV V0) 5 1) (Cert.Out.hid (argsV V0) 6 0) (hid_1_5 V0) (hid_0_6 V0) _ _ b j).trans (congrFun (hid_succ_succ (argsV V0) 5 0 b) j).symm
set_option maxRecDepth 8192 in
theorem z_1_7 (V0 : Valuation τ sig (Elt Ideal)) : (Value.res_main_v875 V0 : Act) = gateArr (Value.res_main_v857 V0 : Act) (Value.res_main_v457 V0 : Act) (wMat 7 (V0 (Proc.devRef .tc main_arg2)) slices_S8x1024x1024_S1x1024x1024_7_0_0) (wMat 7 (V0 (Proc.devRef .tc main_arg3)) slices_S8x1024x1024_S1x1024x1024_7_0_0) (bVec 7 (V0 (Proc.devRef .tc main_arg4)) slices_S8x1024_S1x1024_7_0) := rfl
set_option maxRecDepth 8192 in
theorem o_1_7 (V0 : Valuation τ sig (Elt Ideal)) : (Value.res_main_v912 V0 : Act) = cellArr (Value.res_main_v857 V0 : Act) (Value.res_main_v457 V0 : Act) (Value.res_main_v875 V0 : Act) (wMat 7 (V0 (Proc.devRef .tc main_arg5)) slices_S8x1024x1024_S1x1024x1024_7_0_0) (wMat 7 (V0 (Proc.devRef .tc main_arg6)) slices_S8x1024x1024_S1x1024x1024_7_0_0) (wMat 7 (V0 (Proc.devRef .tc main_arg8)) slices_S8x1024x1024_S1x1024x1024_7_0_0) (wMat 7 (V0 (Proc.devRef .tc main_arg9)) slices_S8x1024x1024_S1x1024x1024_7_0_0) (bVec 7 (V0 (Proc.devRef .tc main_arg7)) slices_S8x1024_S1x1024_7_0) (bVec 7 (V0 (Proc.devRef .tc main_arg10)) slices_S8x1024_S1x1024_7_0) := rfl
set_option maxRecDepth 8192 in
theorem hid_1_7 (V0 : Valuation τ sig (Elt Ideal)) (b : Fin 512) (j : Fin 1024) : (Value.res_main_v912 V0 : Act) (ix2 b j) = Cert.Out.hid (argsV V0) 7 1 b j := by
  rw [o_1_7, z_1_7]
  exact (cell_spec (argsV V0) 7 (by decide) _ _ (Cert.Out.hid (argsV V0) 6 1) (Cert.Out.hid (argsV V0) 7 0) (hid_1_6 V0) (hid_0_7 V0) _ _ b j).trans (congrFun (hid_succ_succ (argsV V0) 6 0 b) j).symm

end Cert.ReferenceIdeal.RefValue

end
-- ==== Proof.Ref.CellsT2.lean ====
import proofs.«428164_j36979668418798_3_alg».proof.Proof.Ref.CellsT1

/-
  Time step 2 of the reference: its eight cells, bottom layer first. Each cell's two named arrays are the gate and
  the cell function of Cell.lean on the cell's input and previous-state arrays and layer l's parameters; hence, from
  the two neighbouring cells, its output read at (b, j) is the hidden row of layer l at time 2.
-/

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

set_option maxRecDepth 8192 in
theorem z_2_0 (V0 : Valuation τ sig (Elt Ideal)) : (Value.res_main_v945 V0 : Act) = gateArr (Value.res_main_v927 V0 : Act) (Value.res_main_v527 V0 : Act) (wMat 0 (V0 (Proc.devRef .tc main_arg2)) slices_S8x1024x1024_S1x1024x1024_0_0_0) (wMat 0 (V0 (Proc.devRef .tc main_arg3)) slices_S8x1024x1024_S1x1024x1024_0_0_0) (bVec 0 (V0 (Proc.devRef .tc main_arg4)) slices_S8x1024_S1x1024_0_0) := rfl
set_option maxRecDepth 8192 in
theorem o_2_0 (V0 : Valuation τ sig (Elt Ideal)) : (Value.res_main_v982 V0 : Act) = cellArr (Value.res_main_v927 V0 : Act) (Value.res_main_v527 V0 : Act) (Value.res_main_v945 V0 : Act) (wMat 0 (V0 (Proc.devRef .tc main_arg5)) slices_S8x1024x1024_S1x1024x1024_0_0_0) (wMat 0 (V0 (Proc.devRef .tc main_arg6)) slices_S8x1024x1024_S1x1024x1024_0_0_0) (wMat 0 (V0 (Proc.devRef .tc main_arg8)) slices_S8x1024x1024_S1x1024x1024_0_0_0) (wMat 0 (V0 (Proc.devRef .tc main_arg9)) slices_S8x1024x1024_S1x1024x1024_0_0_0) (bVec 0 (V0 (Proc.devRef .tc main_arg7)) slices_S8x1024_S1x1024_0_0) (bVec 0 (V0 (Proc.devRef .tc main_arg10)) slices_S8x1024_S1x1024_0_0) := rfl
set_option maxRecDepth 8192 in
theorem hid_2_0 (V0 : Valuation τ sig (Elt Ideal)) (b : Fin 512) (j : Fin 1024) : (Value.res_main_v982 V0 : Act) (ix2 b j) = Cert.Out.hid (argsV V0) 0 2 b j := by
  rw [o_2_0, z_2_0]
  exact (cell_spec (argsV V0) 0 (by decide) _ _ (Cert.Out.xs (argsV V0) 2) (Cert.Out.hid (argsV V0) 0 1) (xrow_2 V0) (hid_1_0 V0) _ _ b j).trans (congrFun (hid_zero_succ (argsV V0) 1 b) j).symm
set_option maxRecDepth 8192 in
theorem z_2_1 (V0 : Valuation τ sig (Elt Ideal)) : (Value.res_main_v1000 V0 : Act) = gateArr (Value.res_main_v982 V0 : Act) (Value.res_main_v582 V0 : Act) (wMat 1 (V0 (Proc.devRef .tc main_arg2)) slices_S8x1024x1024_S1x1024x1024_1_0_0) (wMat 1 (V0 (Proc.devRef .tc main_arg3)) slices_S8x1024x1024_S1x1024x1024_1_0_0) (bVec 1 (V0 (Proc.devRef .tc main_arg4)) slices_S8x1024_S1x1024_1_0) := rfl
set_option maxRecDepth 8192 in
theorem o_2_1 (V0 : Valuation τ sig (Elt Ideal)) : (Value.res_main_v1037 V0 : Act) = cellArr (Value.res_main_v982 V0 : Act) (Value.res_main_v582 V0 : Act) (Value.res_main_v1000 V0 : Act) (wMat 1 (V0 (Proc.devRef .tc main_arg5)) slices_S8x1024x1024_S1x1024x1024_1_0_0) (wMat 1 (V0 (Proc.devRef .tc main_arg6)) slices_S8x1024x1024_S1x1024x1024_1_0_0) (wMat 1 (V0 (Proc.devRef .tc main_arg8)) slices_S8x1024x1024_S1x1024x1024_1_0_0) (wMat 1 (V0 (Proc.devRef .tc main_arg9)) slices_S8x1024x1024_S1x1024x1024_1_0_0) (bVec 1 (V0 (Proc.devRef .tc main_arg7)) slices_S8x1024_S1x1024_1_0) (bVec 1 (V0 (Proc.devRef .tc main_arg10)) slices_S8x1024_S1x1024_1_0) := rfl
set_option maxRecDepth 8192 in
theorem hid_2_1 (V0 : Valuation τ sig (Elt Ideal)) (b : Fin 512) (j : Fin 1024) : (Value.res_main_v1037 V0 : Act) (ix2 b j) = Cert.Out.hid (argsV V0) 1 2 b j := by
  rw [o_2_1, z_2_1]
  exact (cell_spec (argsV V0) 1 (by decide) _ _ (Cert.Out.hid (argsV V0) 0 2) (Cert.Out.hid (argsV V0) 1 1) (hid_2_0 V0) (hid_1_1 V0) _ _ b j).trans (congrFun (hid_succ_succ (argsV V0) 0 1 b) j).symm
set_option maxRecDepth 8192 in
theorem z_2_2 (V0 : Valuation τ sig (Elt Ideal)) : (Value.res_main_v1055 V0 : Act) = gateArr (Value.res_main_v1037 V0 : Act) (Value.res_main_v637 V0 : Act) (wMat 2 (V0 (Proc.devRef .tc main_arg2)) slices_S8x1024x1024_S1x1024x1024_2_0_0) (wMat 2 (V0 (Proc.devRef .tc main_arg3)) slices_S8x1024x1024_S1x1024x1024_2_0_0) (bVec 2 (V0 (Proc.devRef .tc main_arg4)) slices_S8x1024_S1x1024_2_0) := rfl
set_option maxRecDepth 8192 in
theorem o_2_2 (V0 : Valuation τ sig (Elt Ideal)) : (Value.res_main_v1092 V0 : Act) = cellArr (Value.res_main_v1037 V0 : Act) (Value.res_main_v637 V0 : Act) (Value.res_main_v1055 V0 : Act) (wMat 2 (V0 (Proc.devRef .tc main_arg5)) slices_S8x1024x1024_S1x1024x1024_2_0_0) (wMat 2 (V0 (Proc.devRef .tc main_arg6)) slices_S8x1024x1024_S1x1024x1024_2_0_0) (wMat 2 (V0 (Proc.devRef .tc main_arg8)) slices_S8x1024x1024_S1x1024x1024_2_0_0) (wMat 2 (V0 (Proc.devRef .tc main_arg9)) slices_S8x1024x1024_S1x1024x1024_2_0_0) (bVec 2 (V0 (Proc.devRef .tc main_arg7)) slices_S8x1024_S1x1024_2_0) (bVec 2 (V0 (Proc.devRef .tc main_arg10)) slices_S8x1024_S1x1024_2_0) := rfl
set_option maxRecDepth 8192 in
theorem hid_2_2 (V0 : Valuation τ sig (Elt Ideal)) (b : Fin 512) (j : Fin 1024) : (Value.res_main_v1092 V0 : Act) (ix2 b j) = Cert.Out.hid (argsV V0) 2 2 b j := by
  rw [o_2_2, z_2_2]
  exact (cell_spec (argsV V0) 2 (by decide) _ _ (Cert.Out.hid (argsV V0) 1 2) (Cert.Out.hid (argsV V0) 2 1) (hid_2_1 V0) (hid_1_2 V0) _ _ b j).trans (congrFun (hid_succ_succ (argsV V0) 1 1 b) j).symm
set_option maxRecDepth 8192 in
theorem z_2_3 (V0 : Valuation τ sig (Elt Ideal)) : (Value.res_main_v1110 V0 : Act) = gateArr (Value.res_main_v1092 V0 : Act) (Value.res_main_v692 V0 : Act) (wMat 3 (V0 (Proc.devRef .tc main_arg2)) slices_S8x1024x1024_S1x1024x1024_3_0_0) (wMat 3 (V0 (Proc.devRef .tc main_arg3)) slices_S8x1024x1024_S1x1024x1024_3_0_0) (bVec 3 (V0 (Proc.devRef .tc main_arg4)) slices_S8x1024_S1x1024_3_0) := rfl
set_option maxRecDepth 8192 in
theorem o_2_3 (V0 : Valuation τ sig (Elt Ideal)) : (Value.res_main_v1147 V0 : Act) = cellArr (Value.res_main_v1092 V0 : Act) (Value.res_main_v692 V0 : Act) (Value.res_main_v1110 V0 : Act) (wMat 3 (V0 (Proc.devRef .tc main_arg5)) slices_S8x1024x1024_S1x1024x1024_3_0_0) (wMat 3 (V0 (Proc.devRef .tc main_arg6)) slices_S8x1024x1024_S1x1024x1024_3_0_0) (wMat 3 (V0 (Proc.devRef .tc main_arg8)) slices_S8x1024x1024_S1x1024x1024_3_0_0) (wMat 3 (V0 (Proc.devRef .tc main_arg9)) slices_S8x1024x1024_S1x1024x1024_3_0_0) (bVec 3 (V0 (Proc.devRef .tc main_arg7)) slices_S8x1024_S1x1024_3_0) (bVec 3 (V0 (Proc.devRef .tc main_arg10)) slices_S8x1024_S1x1024_3_0) := rfl
set_option maxRecDepth 8192 in
theorem hid_2_3 (V0 : Valuation τ sig (Elt Ideal)) (b : Fin 512) (j : Fin 1024) : (Value.res_main_v1147 V0 : Act) (ix2 b j) = Cert.Out.hid (argsV V0) 3 2 b j := by
  rw [o_2_3, z_2_3]
  exact (cell_spec (argsV V0) 3 (by decide) _ _ (Cert.Out.hid (argsV V0) 2 2) (Cert.Out.hid (argsV V0) 3 1) (hid_2_2 V0) (hid_1_3 V0) _ _ b j).trans (congrFun (hid_succ_succ (argsV V0) 2 1 b) j).symm
set_option maxRecDepth 8192 in
theorem z_2_4 (V0 : Valuation τ sig (Elt Ideal)) : (Value.res_main_v1165 V0 : Act) = gateArr (Value.res_main_v1147 V0 : Act) (Value.res_main_v747 V0 : Act) (wMat 4 (V0 (Proc.devRef .tc main_arg2)) slices_S8x1024x1024_S1x1024x1024_4_0_0) (wMat 4 (V0 (Proc.devRef .tc main_arg3)) slices_S8x1024x1024_S1x1024x1024_4_0_0) (bVec 4 (V0 (Proc.devRef .tc main_arg4)) slices_S8x1024_S1x1024_4_0) := rfl
set_option maxRecDepth 8192 in
theorem o_2_4 (V0 : Valuation τ sig (Elt Ideal)) : (Value.res_main_v1202 V0 : Act) = cellArr (Value.res_main_v1147 V0 : Act) (Value.res_main_v747 V0 : Act) (Value.res_main_v1165 V0 : Act) (wMat 4 (V0 (Proc.devRef .tc main_arg5)) slices_S8x1024x1024_S1x1024x1024_4_0_0) (wMat 4 (V0 (Proc.devRef .tc main_arg6)) slices_S8x1024x1024_S1x1024x1024_4_0_0) (wMat 4 (V0 (Proc.devRef .tc main_arg8)) slices_S8x1024x1024_S1x1024x1024_4_0_0) (wMat 4 (V0 (Proc.devRef .tc main_arg9)) slices_S8x1024x1024_S1x1024x1024_4_0_0) (bVec 4 (V0 (Proc.devRef .tc main_arg7)) slices_S8x1024_S1x1024_4_0) (bVec 4 (V0 (Proc.devRef .tc main_arg10)) slices_S8x1024_S1x1024_4_0) := rfl
set_option maxRecDepth 8192 in
theorem hid_2_4 (V0 : Valuation τ sig (Elt Ideal)) (b : Fin 512) (j : Fin 1024) : (Value.res_main_v1202 V0 : Act) (ix2 b j) = Cert.Out.hid (argsV V0) 4 2 b j := by
  rw [o_2_4, z_2_4]
  exact (cell_spec (argsV V0) 4 (by decide) _ _ (Cert.Out.hid (argsV V0) 3 2) (Cert.Out.hid (argsV V0) 4 1) (hid_2_3 V0) (hid_1_4 V0) _ _ b j).trans (congrFun (hid_succ_succ (argsV V0) 3 1 b) j).symm
set_option maxRecDepth 8192 in
theorem z_2_5 (V0 : Valuation τ sig (Elt Ideal)) : (Value.res_main_v1220 V0 : Act) = gateArr (Value.res_main_v1202 V0 : Act) (Value.res_main_v802 V0 : Act) (wMat 5 (V0 (Proc.devRef .tc main_arg2)) slices_S8x1024x1024_S1x1024x1024_5_0_0) (wMat 5 (V0 (Proc.devRef .tc main_arg3)) slices_S8x1024x1024_S1x1024x1024_5_0_0) (bVec 5 (V0 (Proc.devRef .tc main_arg4)) slices_S8x1024_S1x1024_5_0) := rfl
set_option maxRecDepth 8192 in
theorem o_2_5 (V0 : Valuation τ sig (Elt Ideal)) : (Value.res_main_v1257 V0 : Act) = cellArr (Value.res_main_v1202 V0 : Act) (Value.res_main_v802 V0 : Act) (Value.res_main_v1220 V0 : Act) (wMat 5 (V0 (Proc.devRef .tc main_arg5)) slices_S8x1024x1024_S1x1024x1024_5_0_0) (wMat 5 (V0 (Proc.devRef .tc main_arg6)) slices_S8x1024x1024_S1x1024x1024_5_0_0) (wMat 5 (V0 (Proc.devRef .tc main_arg8)) slices_S8x1024x1024_S1x1024x1024_5_0_0) (wMat 5 (V0 (Proc.devRef .tc main_arg9)) slices_S8x1024x1024_S1x1024x1024_5_0_0) (bVec 5 (V0 (Proc.devRef .tc main_arg7)) slices_S8x1024_S1x1024_5_0) (bVec 5 (V0 (Proc.devRef .tc main_arg10)) slices_S8x1024_S1x1024_5_0) := rfl
set_option maxRecDepth 8192 in
theorem hid_2_5 (V0 : Valuation τ sig (Elt Ideal)) (b : Fin 512) (j : Fin 1024) : (Value.res_main_v1257 V0 : Act) (ix2 b j) = Cert.Out.hid (argsV V0) 5 2 b j := by
  rw [o_2_5, z_2_5]
  exact (cell_spec (argsV V0) 5 (by decide) _ _ (Cert.Out.hid (argsV V0) 4 2) (Cert.Out.hid (argsV V0) 5 1) (hid_2_4 V0) (hid_1_5 V0) _ _ b j).trans (congrFun (hid_succ_succ (argsV V0) 4 1 b) j).symm
set_option maxRecDepth 8192 in
theorem z_2_6 (V0 : Valuation τ sig (Elt Ideal)) : (Value.res_main_v1275 V0 : Act) = gateArr (Value.res_main_v1257 V0 : Act) (Value.res_main_v857 V0 : Act) (wMat 6 (V0 (Proc.devRef .tc main_arg2)) slices_S8x1024x1024_S1x1024x1024_6_0_0) (wMat 6 (V0 (Proc.devRef .tc main_arg3)) slices_S8x1024x1024_S1x1024x1024_6_0_0) (bVec 6 (V0 (Proc.devRef .tc main_arg4)) slices_S8x1024_S1x1024_6_0) := rfl
set_option maxRecDepth 8192 in
theorem o_2_6 (V0 : Valuation τ sig (Elt Ideal)) : (Value.res_main_v1312 V0 : Act) = cellArr (Value.res_main_v1257 V0 : Act) (Value.res_main_v857 V0 : Act) (Value.res_main_v1275 V0 : Act) (wMat 6 (V0 (Proc.devRef .tc main_arg5)) slices_S8x1024x1024_S1x1024x1024_6_0_0) (wMat 6 (V0 (Proc.devRef .tc main_arg6)) slices_S8x1024x1024_S1x1024x1024_6_0_0) (wMat 6 (V0 (Proc.devRef .tc main_arg8)) slices_S8x1024x1024_S1x1024x1024_6_0_0) (wMat 6 (V0 (Proc.devRef .tc main_arg9)) slices_S8x1024x1024_S1x1024x1024_6_0_0) (bVec 6 (V0 (Proc.devRef .tc main_arg7)) slices_S8x1024_S1x1024_6_0) (bVec 6 (V0 (Proc.devRef .tc main_arg10)) slices_S8x1024_S1x1024_6_0) := rfl
set_option maxRecDepth 8192 in
theorem hid_2_6 (V0 : Valuation τ sig (Elt Ideal)) (b : Fin 512) (j : Fin 1024) : (Value.res_main_v1312 V0 : Act) (ix2 b j) = Cert.Out.hid (argsV V0) 6 2 b j := by
  rw [o_2_6, z_2_6]
  exact (cell_spec (argsV V0) 6 (by decide) _ _ (Cert.Out.hid (argsV V0) 5 2) (Cert.Out.hid (argsV V0) 6 1) (hid_2_5 V0) (hid_1_6 V0) _ _ b j).trans (congrFun (hid_succ_succ (argsV V0) 5 1 b) j).symm
set_option maxRecDepth 8192 in
theorem z_2_7 (V0 : Valuation τ sig (Elt Ideal)) : (Value.res_main_v1330 V0 : Act) = gateArr (Value.res_main_v1312 V0 : Act) (Value.res_main_v912 V0 : Act) (wMat 7 (V0 (Proc.devRef .tc main_arg2)) slices_S8x1024x1024_S1x1024x1024_7_0_0) (wMat 7 (V0 (Proc.devRef .tc main_arg3)) slices_S8x1024x1024_S1x1024x1024_7_0_0) (bVec 7 (V0 (Proc.devRef .tc main_arg4)) slices_S8x1024_S1x1024_7_0) := rfl
set_option maxRecDepth 8192 in
theorem o_2_7 (V0 : Valuation τ sig (Elt Ideal)) : (Value.res_main_v1367 V0 : Act) = cellArr (Value.res_main_v1312 V0 : Act) (Value.res_main_v912 V0 : Act) (Value.res_main_v1330 V0 : Act) (wMat 7 (V0 (Proc.devRef .tc main_arg5)) slices_S8x1024x1024_S1x1024x1024_7_0_0) (wMat 7 (V0 (Proc.devRef .tc main_arg6)) slices_S8x1024x1024_S1x1024x1024_7_0_0) (wMat 7 (V0 (Proc.devRef .tc main_arg8)) slices_S8x1024x1024_S1x1024x1024_7_0_0) (wMat 7 (V0 (Proc.devRef .tc main_arg9)) slices_S8x1024x1024_S1x1024x1024_7_0_0) (bVec 7 (V0 (Proc.devRef .tc main_arg7)) slices_S8x1024_S1x1024_7_0) (bVec 7 (V0 (Proc.devRef .tc main_arg10)) slices_S8x1024_S1x1024_7_0) := rfl
set_option maxRecDepth 8192 in
theorem hid_2_7 (V0 : Valuation τ sig (Elt Ideal)) (b : Fin 512) (j : Fin 1024) : (Value.res_main_v1367 V0 : Act) (ix2 b j) = Cert.Out.hid (argsV V0) 7 2 b j := by
  rw [o_2_7, z_2_7]
  exact (cell_spec (argsV V0) 7 (by decide) _ _ (Cert.Out.hid (argsV V0) 6 2) (Cert.Out.hid (argsV V0) 7 1) (hid_2_6 V0) (hid_1_7 V0) _ _ b j).trans (congrFun (hid_succ_succ (argsV V0) 6 1 b) j).symm

end Cert.ReferenceIdeal.RefValue

end
-- ==== Proof.Ref.CellsT3.lean ====
import proofs.«428164_j36979668418798_3_alg».proof.Proof.Ref.CellsT2

/-
  Time step 3 of the reference: its eight cells, bottom layer first. Each cell's two named arrays are the gate and
  the cell function of Cell.lean on the cell's input and previous-state arrays and layer l's parameters; hence, from
  the two neighbouring cells, its output read at (b, j) is the hidden row of layer l at time 3.
-/

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

set_option maxRecDepth 8192 in
theorem z_3_0 (V0 : Valuation τ sig (Elt Ideal)) : (Value.res_main_v1400 V0 : Act) = gateArr (Value.res_main_v1382 V0 : Act) (Value.res_main_v982 V0 : Act) (wMat 0 (V0 (Proc.devRef .tc main_arg2)) slices_S8x1024x1024_S1x1024x1024_0_0_0) (wMat 0 (V0 (Proc.devRef .tc main_arg3)) slices_S8x1024x1024_S1x1024x1024_0_0_0) (bVec 0 (V0 (Proc.devRef .tc main_arg4)) slices_S8x1024_S1x1024_0_0) := rfl
set_option maxRecDepth 8192 in
theorem o_3_0 (V0 : Valuation τ sig (Elt Ideal)) : (Value.res_main_v1437 V0 : Act) = cellArr (Value.res_main_v1382 V0 : Act) (Value.res_main_v982 V0 : Act) (Value.res_main_v1400 V0 : Act) (wMat 0 (V0 (Proc.devRef .tc main_arg5)) slices_S8x1024x1024_S1x1024x1024_0_0_0) (wMat 0 (V0 (Proc.devRef .tc main_arg6)) slices_S8x1024x1024_S1x1024x1024_0_0_0) (wMat 0 (V0 (Proc.devRef .tc main_arg8)) slices_S8x1024x1024_S1x1024x1024_0_0_0) (wMat 0 (V0 (Proc.devRef .tc main_arg9)) slices_S8x1024x1024_S1x1024x1024_0_0_0) (bVec 0 (V0 (Proc.devRef .tc main_arg7)) slices_S8x1024_S1x1024_0_0) (bVec 0 (V0 (Proc.devRef .tc main_arg10)) slices_S8x1024_S1x1024_0_0) := rfl
set_option maxRecDepth 8192 in
theorem hid_3_0 (V0 : Valuation τ sig (Elt Ideal)) (b : Fin 512) (j : Fin 1024) : (Value.res_main_v1437 V0 : Act) (ix2 b j) = Cert.Out.hid (argsV V0) 0 3 b j := by
  rw [o_3_0, z_3_0]
  exact (cell_spec (argsV V0) 0 (by decide) _ _ (Cert.Out.xs (argsV V0) 3) (Cert.Out.hid (argsV V0) 0 2) (xrow_3 V0) (hid_2_0 V0) _ _ b j).trans (congrFun (hid_zero_succ (argsV V0) 2 b) j).symm
set_option maxRecDepth 8192 in
theorem z_3_1 (V0 : Valuation τ sig (Elt Ideal)) : (Value.res_main_v1455 V0 : Act) = gateArr (Value.res_main_v1437 V0 : Act) (Value.res_main_v1037 V0 : Act) (wMat 1 (V0 (Proc.devRef .tc main_arg2)) slices_S8x1024x1024_S1x1024x1024_1_0_0) (wMat 1 (V0 (Proc.devRef .tc main_arg3)) slices_S8x1024x1024_S1x1024x1024_1_0_0) (bVec 1 (V0 (Proc.devRef .tc main_arg4)) slices_S8x1024_S1x1024_1_0) := rfl
set_option maxRecDepth 8192 in
theorem o_3_1 (V0 : Valuation τ sig (Elt Ideal)) : (Value.res_main_v1492 V0 : Act) = cellArr (Value.res_main_v1437 V0 : Act) (Value.res_main_v1037 V0 : Act) (Value.res_main_v1455 V0 : Act) (wMat 1 (V0 (Proc.devRef .tc main_arg5)) slices_S8x1024x1024_S1x1024x1024_1_0_0) (wMat 1 (V0 (Proc.devRef .tc main_arg6)) slices_S8x1024x1024_S1x1024x1024_1_0_0) (wMat 1 (V0 (Proc.devRef .tc main_arg8)) slices_S8x1024x1024_S1x1024x1024_1_0_0) (wMat 1 (V0 (Proc.devRef .tc main_arg9)) slices_S8x1024x1024_S1x1024x1024_1_0_0) (bVec 1 (V0 (Proc.devRef .tc main_arg7)) slices_S8x1024_S1x1024_1_0) (bVec 1 (V0 (Proc.devRef .tc main_arg10)) slices_S8x1024_S1x1024_1_0) := rfl
set_option maxRecDepth 8192 in
theorem hid_3_1 (V0 : Valuation τ sig (Elt Ideal)) (b : Fin 512) (j : Fin 1024) : (Value.res_main_v1492 V0 : Act) (ix2 b j) = Cert.Out.hid (argsV V0) 1 3 b j := by
  rw [o_3_1, z_3_1]
  exact (cell_spec (argsV V0) 1 (by decide) _ _ (Cert.Out.hid (argsV V0) 0 3) (Cert.Out.hid (argsV V0) 1 2) (hid_3_0 V0) (hid_2_1 V0) _ _ b j).trans (congrFun (hid_succ_succ (argsV V0) 0 2 b) j).symm
set_option maxRecDepth 8192 in
theorem z_3_2 (V0 : Valuation τ sig (Elt Ideal)) : (Value.res_main_v1510 V0 : Act) = gateArr (Value.res_main_v1492 V0 : Act) (Value.res_main_v1092 V0 : Act) (wMat 2 (V0 (Proc.devRef .tc main_arg2)) slices_S8x1024x1024_S1x1024x1024_2_0_0) (wMat 2 (V0 (Proc.devRef .tc main_arg3)) slices_S8x1024x1024_S1x1024x1024_2_0_0) (bVec 2 (V0 (Proc.devRef .tc main_arg4)) slices_S8x1024_S1x1024_2_0) := rfl
set_option maxRecDepth 8192 in
theorem o_3_2 (V0 : Valuation τ sig (Elt Ideal)) : (Value.res_main_v1547 V0 : Act) = cellArr (Value.res_main_v1492 V0 : Act) (Value.res_main_v1092 V0 : Act) (Value.res_main_v1510 V0 : Act) (wMat 2 (V0 (Proc.devRef .tc main_arg5)) slices_S8x1024x1024_S1x1024x1024_2_0_0) (wMat 2 (V0 (Proc.devRef .tc main_arg6)) slices_S8x1024x1024_S1x1024x1024_2_0_0) (wMat 2 (V0 (Proc.devRef .tc main_arg8)) slices_S8x1024x1024_S1x1024x1024_2_0_0) (wMat 2 (V0 (Proc.devRef .tc main_arg9)) slices_S8x1024x1024_S1x1024x1024_2_0_0) (bVec 2 (V0 (Proc.devRef .tc main_arg7)) slices_S8x1024_S1x1024_2_0) (bVec 2 (V0 (Proc.devRef .tc main_arg10)) slices_S8x1024_S1x1024_2_0) := rfl
set_option maxRecDepth 8192 in
theorem hid_3_2 (V0 : Valuation τ sig (Elt Ideal)) (b : Fin 512) (j : Fin 1024) : (Value.res_main_v1547 V0 : Act) (ix2 b j) = Cert.Out.hid (argsV V0) 2 3 b j := by
  rw [o_3_2, z_3_2]
  exact (cell_spec (argsV V0) 2 (by decide) _ _ (Cert.Out.hid (argsV V0) 1 3) (Cert.Out.hid (argsV V0) 2 2) (hid_3_1 V0) (hid_2_2 V0) _ _ b j).trans (congrFun (hid_succ_succ (argsV V0) 1 2 b) j).symm
set_option maxRecDepth 8192 in
theorem z_3_3 (V0 : Valuation τ sig (Elt Ideal)) : (Value.res_main_v1565 V0 : Act) = gateArr (Value.res_main_v1547 V0 : Act) (Value.res_main_v1147 V0 : Act) (wMat 3 (V0 (Proc.devRef .tc main_arg2)) slices_S8x1024x1024_S1x1024x1024_3_0_0) (wMat 3 (V0 (Proc.devRef .tc main_arg3)) slices_S8x1024x1024_S1x1024x1024_3_0_0) (bVec 3 (V0 (Proc.devRef .tc main_arg4)) slices_S8x1024_S1x1024_3_0) := rfl
set_option maxRecDepth 8192 in
theorem o_3_3 (V0 : Valuation τ sig (Elt Ideal)) : (Value.res_main_v1602 V0 : Act) = cellArr (Value.res_main_v1547 V0 : Act) (Value.res_main_v1147 V0 : Act) (Value.res_main_v1565 V0 : Act) (wMat 3 (V0 (Proc.devRef .tc main_arg5)) slices_S8x1024x1024_S1x1024x1024_3_0_0) (wMat 3 (V0 (Proc.devRef .tc main_arg6)) slices_S8x1024x1024_S1x1024x1024_3_0_0) (wMat 3 (V0 (Proc.devRef .tc main_arg8)) slices_S8x1024x1024_S1x1024x1024_3_0_0) (wMat 3 (V0 (Proc.devRef .tc main_arg9)) slices_S8x1024x1024_S1x1024x1024_3_0_0) (bVec 3 (V0 (Proc.devRef .tc main_arg7)) slices_S8x1024_S1x1024_3_0) (bVec 3 (V0 (Proc.devRef .tc main_arg10)) slices_S8x1024_S1x1024_3_0) := rfl
set_option maxRecDepth 8192 in
theorem hid_3_3 (V0 : Valuation τ sig (Elt Ideal)) (b : Fin 512) (j : Fin 1024) : (Value.res_main_v1602 V0 : Act) (ix2 b j) = Cert.Out.hid (argsV V0) 3 3 b j := by
  rw [o_3_3, z_3_3]
  exact (cell_spec (argsV V0) 3 (by decide) _ _ (Cert.Out.hid (argsV V0) 2 3) (Cert.Out.hid (argsV V0) 3 2) (hid_3_2 V0) (hid_2_3 V0) _ _ b j).trans (congrFun (hid_succ_succ (argsV V0) 2 2 b) j).symm
set_option maxRecDepth 8192 in
theorem z_3_4 (V0 : Valuation τ sig (Elt Ideal)) : (Value.res_main_v1620 V0 : Act) = gateArr (Value.res_main_v1602 V0 : Act) (Value.res_main_v1202 V0 : Act) (wMat 4 (V0 (Proc.devRef .tc main_arg2)) slices_S8x1024x1024_S1x1024x1024_4_0_0) (wMat 4 (V0 (Proc.devRef .tc main_arg3)) slices_S8x1024x1024_S1x1024x1024_4_0_0) (bVec 4 (V0 (Proc.devRef .tc main_arg4)) slices_S8x1024_S1x1024_4_0) := rfl
set_option maxRecDepth 8192 in
theorem o_3_4 (V0 : Valuation τ sig (Elt Ideal)) : (Value.res_main_v1657 V0 : Act) = cellArr (Value.res_main_v1602 V0 : Act) (Value.res_main_v1202 V0 : Act) (Value.res_main_v1620 V0 : Act) (wMat 4 (V0 (Proc.devRef .tc main_arg5)) slices_S8x1024x1024_S1x1024x1024_4_0_0) (wMat 4 (V0 (Proc.devRef .tc main_arg6)) slices_S8x1024x1024_S1x1024x1024_4_0_0) (wMat 4 (V0 (Proc.devRef .tc main_arg8)) slices_S8x1024x1024_S1x1024x1024_4_0_0) (wMat 4 (V0 (Proc.devRef .tc main_arg9)) slices_S8x1024x1024_S1x1024x1024_4_0_0) (bVec 4 (V0 (Proc.devRef .tc main_arg7)) slices_S8x1024_S1x1024_4_0) (bVec 4 (V0 (Proc.devRef .tc main_arg10)) slices_S8x1024_S1x1024_4_0) := rfl
set_option maxRecDepth 8192 in
theorem hid_3_4 (V0 : Valuation τ sig (Elt Ideal)) (b : Fin 512) (j : Fin 1024) : (Value.res_main_v1657 V0 : Act) (ix2 b j) = Cert.Out.hid (argsV V0) 4 3 b j := by
  rw [o_3_4, z_3_4]
  exact (cell_spec (argsV V0) 4 (by decide) _ _ (Cert.Out.hid (argsV V0) 3 3) (Cert.Out.hid (argsV V0) 4 2) (hid_3_3 V0) (hid_2_4 V0) _ _ b j).trans (congrFun (hid_succ_succ (argsV V0) 3 2 b) j).symm
set_option maxRecDepth 8192 in
theorem z_3_5 (V0 : Valuation τ sig (Elt Ideal)) : (Value.res_main_v1675 V0 : Act) = gateArr (Value.res_main_v1657 V0 : Act) (Value.res_main_v1257 V0 : Act) (wMat 5 (V0 (Proc.devRef .tc main_arg2)) slices_S8x1024x1024_S1x1024x1024_5_0_0) (wMat 5 (V0 (Proc.devRef .tc main_arg3)) slices_S8x1024x1024_S1x1024x1024_5_0_0) (bVec 5 (V0 (Proc.devRef .tc main_arg4)) slices_S8x1024_S1x1024_5_0) := rfl
set_option maxRecDepth 8192 in
theorem o_3_5 (V0 : Valuation τ sig (Elt Ideal)) : (Value.res_main_v1712 V0 : Act) = cellArr (Value.res_main_v1657 V0 : Act) (Value.res_main_v1257 V0 : Act) (Value.res_main_v1675 V0 : Act) (wMat 5 (V0 (Proc.devRef .tc main_arg5)) slices_S8x1024x1024_S1x1024x1024_5_0_0) (wMat 5 (V0 (Proc.devRef .tc main_arg6)) slices_S8x1024x1024_S1x1024x1024_5_0_0) (wMat 5 (V0 (Proc.devRef .tc main_arg8)) slices_S8x1024x1024_S1x1024x1024_5_0_0) (wMat 5 (V0 (Proc.devRef .tc main_arg9)) slices_S8x1024x1024_S1x1024x1024_5_0_0) (bVec 5 (V0 (Proc.devRef .tc main_arg7)) slices_S8x1024_S1x1024_5_0) (bVec 5 (V0 (Proc.devRef .tc main_arg10)) slices_S8x1024_S1x1024_5_0) := rfl
set_option maxRecDepth 8192 in
theorem hid_3_5 (V0 : Valuation τ sig (Elt Ideal)) (b : Fin 512) (j : Fin 1024) : (Value.res_main_v1712 V0 : Act) (ix2 b j) = Cert.Out.hid (argsV V0) 5 3 b j := by
  rw [o_3_5, z_3_5]
  exact (cell_spec (argsV V0) 5 (by decide) _ _ (Cert.Out.hid (argsV V0) 4 3) (Cert.Out.hid (argsV V0) 5 2) (hid_3_4 V0) (hid_2_5 V0) _ _ b j).trans (congrFun (hid_succ_succ (argsV V0) 4 2 b) j).symm
set_option maxRecDepth 8192 in
theorem z_3_6 (V0 : Valuation τ sig (Elt Ideal)) : (Value.res_main_v1730 V0 : Act) = gateArr (Value.res_main_v1712 V0 : Act) (Value.res_main_v1312 V0 : Act) (wMat 6 (V0 (Proc.devRef .tc main_arg2)) slices_S8x1024x1024_S1x1024x1024_6_0_0) (wMat 6 (V0 (Proc.devRef .tc main_arg3)) slices_S8x1024x1024_S1x1024x1024_6_0_0) (bVec 6 (V0 (Proc.devRef .tc main_arg4)) slices_S8x1024_S1x1024_6_0) := rfl
set_option maxRecDepth 8192 in
theorem o_3_6 (V0 : Valuation τ sig (Elt Ideal)) : (Value.res_main_v1767 V0 : Act) = cellArr (Value.res_main_v1712 V0 : Act) (Value.res_main_v1312 V0 : Act) (Value.res_main_v1730 V0 : Act) (wMat 6 (V0 (Proc.devRef .tc main_arg5)) slices_S8x1024x1024_S1x1024x1024_6_0_0) (wMat 6 (V0 (Proc.devRef .tc main_arg6)) slices_S8x1024x1024_S1x1024x1024_6_0_0) (wMat 6 (V0 (Proc.devRef .tc main_arg8)) slices_S8x1024x1024_S1x1024x1024_6_0_0) (wMat 6 (V0 (Proc.devRef .tc main_arg9)) slices_S8x1024x1024_S1x1024x1024_6_0_0) (bVec 6 (V0 (Proc.devRef .tc main_arg7)) slices_S8x1024_S1x1024_6_0) (bVec 6 (V0 (Proc.devRef .tc main_arg10)) slices_S8x1024_S1x1024_6_0) := rfl
set_option maxRecDepth 8192 in
theorem hid_3_6 (V0 : Valuation τ sig (Elt Ideal)) (b : Fin 512) (j : Fin 1024) : (Value.res_main_v1767 V0 : Act) (ix2 b j) = Cert.Out.hid (argsV V0) 6 3 b j := by
  rw [o_3_6, z_3_6]
  exact (cell_spec (argsV V0) 6 (by decide) _ _ (Cert.Out.hid (argsV V0) 5 3) (Cert.Out.hid (argsV V0) 6 2) (hid_3_5 V0) (hid_2_6 V0) _ _ b j).trans (congrFun (hid_succ_succ (argsV V0) 5 2 b) j).symm
set_option maxRecDepth 8192 in
theorem z_3_7 (V0 : Valuation τ sig (Elt Ideal)) : (Value.res_main_v1785 V0 : Act) = gateArr (Value.res_main_v1767 V0 : Act) (Value.res_main_v1367 V0 : Act) (wMat 7 (V0 (Proc.devRef .tc main_arg2)) slices_S8x1024x1024_S1x1024x1024_7_0_0) (wMat 7 (V0 (Proc.devRef .tc main_arg3)) slices_S8x1024x1024_S1x1024x1024_7_0_0) (bVec 7 (V0 (Proc.devRef .tc main_arg4)) slices_S8x1024_S1x1024_7_0) := rfl
set_option maxRecDepth 8192 in
theorem o_3_7 (V0 : Valuation τ sig (Elt Ideal)) : (Value.res_main_v1822 V0 : Act) = cellArr (Value.res_main_v1767 V0 : Act) (Value.res_main_v1367 V0 : Act) (Value.res_main_v1785 V0 : Act) (wMat 7 (V0 (Proc.devRef .tc main_arg5)) slices_S8x1024x1024_S1x1024x1024_7_0_0) (wMat 7 (V0 (Proc.devRef .tc main_arg6)) slices_S8x1024x1024_S1x1024x1024_7_0_0) (wMat 7 (V0 (Proc.devRef .tc main_arg8)) slices_S8x1024x1024_S1x1024x1024_7_0_0) (wMat 7 (V0 (Proc.devRef .tc main_arg9)) slices_S8x1024x1024_S1x1024x1024_7_0_0) (bVec 7 (V0 (Proc.devRef .tc main_arg7)) slices_S8x1024_S1x1024_7_0) (bVec 7 (V0 (Proc.devRef .tc main_arg10)) slices_S8x1024_S1x1024_7_0) := rfl
set_option maxRecDepth 8192 in
theorem hid_3_7 (V0 : Valuation τ sig (Elt Ideal)) (b : Fin 512) (j : Fin 1024) : (Value.res_main_v1822 V0 : Act) (ix2 b j) = Cert.Out.hid (argsV V0) 7 3 b j := by
  rw [o_3_7, z_3_7]
  exact (cell_spec (argsV V0) 7 (by decide) _ _ (Cert.Out.hid (argsV V0) 6 3) (Cert.Out.hid (argsV V0) 7 2) (hid_3_6 V0) (hid_2_7 V0) _ _ b j).trans (congrFun (hid_succ_succ (argsV V0) 6 2 b) j).symm

end Cert.ReferenceIdeal.RefValue

end
-- ==== Proof.Ref.CellsT4.lean ====
import proofs.«428164_j36979668418798_3_alg».proof.Proof.Ref.CellsT3

/-
  Time step 4 of the reference: its eight cells, bottom layer first. Each cell's two named arrays are the gate and
  the cell function of Cell.lean on the cell's input and previous-state arrays and layer l's parameters; hence, from
  the two neighbouring cells, its output read at (b, j) is the hidden row of layer l at time 4.
-/

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

set_option maxRecDepth 8192 in
theorem z_4_0 (V0 : Valuation τ sig (Elt Ideal)) : (Value.res_main_v1855 V0 : Act) = gateArr (Value.res_main_v1837 V0 : Act) (Value.res_main_v1437 V0 : Act) (wMat 0 (V0 (Proc.devRef .tc main_arg2)) slices_S8x1024x1024_S1x1024x1024_0_0_0) (wMat 0 (V0 (Proc.devRef .tc main_arg3)) slices_S8x1024x1024_S1x1024x1024_0_0_0) (bVec 0 (V0 (Proc.devRef .tc main_arg4)) slices_S8x1024_S1x1024_0_0) := rfl
set_option maxRecDepth 8192 in
theorem o_4_0 (V0 : Valuation τ sig (Elt Ideal)) : (Value.res_main_v1892 V0 : Act) = cellArr (Value.res_main_v1837 V0 : Act) (Value.res_main_v1437 V0 : Act) (Value.res_main_v1855 V0 : Act) (wMat 0 (V0 (Proc.devRef .tc main_arg5)) slices_S8x1024x1024_S1x1024x1024_0_0_0) (wMat 0 (V0 (Proc.devRef .tc main_arg6)) slices_S8x1024x1024_S1x1024x1024_0_0_0) (wMat 0 (V0 (Proc.devRef .tc main_arg8)) slices_S8x1024x1024_S1x1024x1024_0_0_0) (wMat 0 (V0 (Proc.devRef .tc main_arg9)) slices_S8x1024x1024_S1x1024x1024_0_0_0) (bVec 0 (V0 (Proc.devRef .tc main_arg7)) slices_S8x1024_S1x1024_0_0) (bVec 0 (V0 (Proc.devRef .tc main_arg10)) slices_S8x1024_S1x1024_0_0) := rfl
set_option maxRecDepth 8192 in
theorem hid_4_0 (V0 : Valuation τ sig (Elt Ideal)) (b : Fin 512) (j : Fin 1024) : (Value.res_main_v1892 V0 : Act) (ix2 b j) = Cert.Out.hid (argsV V0) 0 4 b j := by
  rw [o_4_0, z_4_0]
  exact (cell_spec (argsV V0) 0 (by decide) _ _ (Cert.Out.xs (argsV V0) 4) (Cert.Out.hid (argsV V0) 0 3) (xrow_4 V0) (hid_3_0 V0) _ _ b j).trans (congrFun (hid_zero_succ (argsV V0) 3 b) j).symm
set_option maxRecDepth 8192 in
theorem z_4_1 (V0 : Valuation τ sig (Elt Ideal)) : (Value.res_main_v1910 V0 : Act) = gateArr (Value.res_main_v1892 V0 : Act) (Value.res_main_v1492 V0 : Act) (wMat 1 (V0 (Proc.devRef .tc main_arg2)) slices_S8x1024x1024_S1x1024x1024_1_0_0) (wMat 1 (V0 (Proc.devRef .tc main_arg3)) slices_S8x1024x1024_S1x1024x1024_1_0_0) (bVec 1 (V0 (Proc.devRef .tc main_arg4)) slices_S8x1024_S1x1024_1_0) := rfl
set_option maxRecDepth 8192 in
theorem o_4_1 (V0 : Valuation τ sig (Elt Ideal)) : (Value.res_main_v1947 V0 : Act) = cellArr (Value.res_main_v1892 V0 : Act) (Value.res_main_v1492 V0 : Act) (Value.res_main_v1910 V0 : Act) (wMat 1 (V0 (Proc.devRef .tc main_arg5)) slices_S8x1024x1024_S1x1024x1024_1_0_0) (wMat 1 (V0 (Proc.devRef .tc main_arg6)) slices_S8x1024x1024_S1x1024x1024_1_0_0) (wMat 1 (V0 (Proc.devRef .tc main_arg8)) slices_S8x1024x1024_S1x1024x1024_1_0_0) (wMat 1 (V0 (Proc.devRef .tc main_arg9)) slices_S8x1024x1024_S1x1024x1024_1_0_0) (bVec 1 (V0 (Proc.devRef .tc main_arg7)) slices_S8x1024_S1x1024_1_0) (bVec 1 (V0 (Proc.devRef .tc main_arg10)) slices_S8x1024_S1x1024_1_0) := rfl
set_option maxRecDepth 8192 in
theorem hid_4_1 (V0 : Valuation τ sig (Elt Ideal)) (b : Fin 512) (j : Fin 1024) : (Value.res_main_v1947 V0 : Act) (ix2 b j) = Cert.Out.hid (argsV V0) 1 4 b j := by
  rw [o_4_1, z_4_1]
  exact (cell_spec (argsV V0) 1 (by decide) _ _ (Cert.Out.hid (argsV V0) 0 4) (Cert.Out.hid (argsV V0) 1 3) (hid_4_0 V0) (hid_3_1 V0) _ _ b j).trans (congrFun (hid_succ_succ (argsV V0) 0 3 b) j).symm
set_option maxRecDepth 8192 in
theorem z_4_2 (V0 : Valuation τ sig (Elt Ideal)) : (Value.res_main_v1965 V0 : Act) = gateArr (Value.res_main_v1947 V0 : Act) (Value.res_main_v1547 V0 : Act) (wMat 2 (V0 (Proc.devRef .tc main_arg2)) slices_S8x1024x1024_S1x1024x1024_2_0_0) (wMat 2 (V0 (Proc.devRef .tc main_arg3)) slices_S8x1024x1024_S1x1024x1024_2_0_0) (bVec 2 (V0 (Proc.devRef .tc main_arg4)) slices_S8x1024_S1x1024_2_0) := rfl
set_option maxRecDepth 8192 in
theorem o_4_2 (V0 : Valuation τ sig (Elt Ideal)) : (Value.res_main_v2002 V0 : Act) = cellArr (Value.res_main_v1947 V0 : Act) (Value.res_main_v1547 V0 : Act) (Value.res_main_v1965 V0 : Act) (wMat 2 (V0 (Proc.devRef .tc main_arg5)) slices_S8x1024x1024_S1x1024x1024_2_0_0) (wMat 2 (V0 (Proc.devRef .tc main_arg6)) slices_S8x1024x1024_S1x1024x1024_2_0_0) (wMat 2 (V0 (Proc.devRef .tc main_arg8)) slices_S8x1024x1024_S1x1024x1024_2_0_0) (wMat 2 (V0 (Proc.devRef .tc main_arg9)) slices_S8x1024x1024_S1x1024x1024_2_0_0) (bVec 2 (V0 (Proc.devRef .tc main_arg7)) slices_S8x1024_S1x1024_2_0) (bVec 2 (V0 (Proc.devRef .tc main_arg10)) slices_S8x1024_S1x1024_2_0) := rfl
set_option maxRecDepth 8192 in
theorem hid_4_2 (V0 : Valuation τ sig (Elt Ideal)) (b : Fin 512) (j : Fin 1024) : (Value.res_main_v2002 V0 : Act) (ix2 b j) = Cert.Out.hid (argsV V0) 2 4 b j := by
  rw [o_4_2, z_4_2]
  exact (cell_spec (argsV V0) 2 (by decide) _ _ (Cert.Out.hid (argsV V0) 1 4) (Cert.Out.hid (argsV V0) 2 3) (hid_4_1 V0) (hid_3_2 V0) _ _ b j).trans (congrFun (hid_succ_succ (argsV V0) 1 3 b) j).symm
set_option maxRecDepth 8192 in
theorem z_4_3 (V0 : Valuation τ sig (Elt Ideal)) : (Value.res_main_v2020 V0 : Act) = gateArr (Value.res_main_v2002 V0 : Act) (Value.res_main_v1602 V0 : Act) (wMat 3 (V0 (Proc.devRef .tc main_arg2)) slices_S8x1024x1024_S1x1024x1024_3_0_0) (wMat 3 (V0 (Proc.devRef .tc main_arg3)) slices_S8x1024x1024_S1x1024x1024_3_0_0) (bVec 3 (V0 (Proc.devRef .tc main_arg4)) slices_S8x1024_S1x1024_3_0) := rfl
set_option maxRecDepth 8192 in
theorem o_4_3 (V0 : Valuation τ sig (Elt Ideal)) : (Value.res_main_v2057 V0 : Act) = cellArr (Value.res_main_v2002 V0 : Act) (Value.res_main_v1602 V0 : Act) (Value.res_main_v2020 V0 : Act) (wMat 3 (V0 (Proc.devRef .tc main_arg5)) slices_S8x1024x1024_S1x1024x1024_3_0_0) (wMat 3 (V0 (Proc.devRef .tc main_arg6)) slices_S8x1024x1024_S1x1024x1024_3_0_0) (wMat 3 (V0 (Proc.devRef .tc main_arg8)) slices_S8x1024x1024_S1x1024x1024_3_0_0) (wMat 3 (V0 (Proc.devRef .tc main_arg9)) slices_S8x1024x1024_S1x1024x1024_3_0_0) (bVec 3 (V0 (Proc.devRef .tc main_arg7)) slices_S8x1024_S1x1024_3_0) (bVec 3 (V0 (Proc.devRef .tc main_arg10)) slices_S8x1024_S1x1024_3_0) := rfl
set_option maxRecDepth 8192 in
theorem hid_4_3 (V0 : Valuation τ sig (Elt Ideal)) (b : Fin 512) (j : Fin 1024) : (Value.res_main_v2057 V0 : Act) (ix2 b j) = Cert.Out.hid (argsV V0) 3 4 b j := by
  rw [o_4_3, z_4_3]
  exact (cell_spec (argsV V0) 3 (by decide) _ _ (Cert.Out.hid (argsV V0) 2 4) (Cert.Out.hid (argsV V0) 3 3) (hid_4_2 V0) (hid_3_3 V0) _ _ b j).trans (congrFun (hid_succ_succ (argsV V0) 2 3 b) j).symm
set_option maxRecDepth 8192 in
theorem z_4_4 (V0 : Valuation τ sig (Elt Ideal)) : (Value.res_main_v2075 V0 : Act) = gateArr (Value.res_main_v2057 V0 : Act) (Value.res_main_v1657 V0 : Act) (wMat 4 (V0 (Proc.devRef .tc main_arg2)) slices_S8x1024x1024_S1x1024x1024_4_0_0) (wMat 4 (V0 (Proc.devRef .tc main_arg3)) slices_S8x1024x1024_S1x1024x1024_4_0_0) (bVec 4 (V0 (Proc.devRef .tc main_arg4)) slices_S8x1024_S1x1024_4_0) := rfl
set_option maxRecDepth 8192 in
theorem o_4_4 (V0 : Valuation τ sig (Elt Ideal)) : (Value.res_main_v2112 V0 : Act) = cellArr (Value.res_main_v2057 V0 : Act) (Value.res_main_v1657 V0 : Act) (Value.res_main_v2075 V0 : Act) (wMat 4 (V0 (Proc.devRef .tc main_arg5)) slices_S8x1024x1024_S1x1024x1024_4_0_0) (wMat 4 (V0 (Proc.devRef .tc main_arg6)) slices_S8x1024x1024_S1x1024x1024_4_0_0) (wMat 4 (V0 (Proc.devRef .tc main_arg8)) slices_S8x1024x1024_S1x1024x1024_4_0_0) (wMat 4 (V0 (Proc.devRef .tc main_arg9)) slices_S8x1024x1024_S1x1024x1024_4_0_0) (bVec 4 (V0 (Proc.devRef .tc main_arg7)) slices_S8x1024_S1x1024_4_0) (bVec 4 (V0 (Proc.devRef .tc main_arg10)) slices_S8x1024_S1x1024_4_0) := rfl
set_option maxRecDepth 8192 in
theorem hid_4_4 (V0 : Valuation τ sig (Elt Ideal)) (b : Fin 512) (j : Fin 1024) : (Value.res_main_v2112 V0 : Act) (ix2 b j) = Cert.Out.hid (argsV V0) 4 4 b j := by
  rw [o_4_4, z_4_4]
  exact (cell_spec (argsV V0) 4 (by decide) _ _ (Cert.Out.hid (argsV V0) 3 4) (Cert.Out.hid (argsV V0) 4 3) (hid_4_3 V0) (hid_3_4 V0) _ _ b j).trans (congrFun (hid_succ_succ (argsV V0) 3 3 b) j).symm
set_option maxRecDepth 8192 in
theorem z_4_5 (V0 : Valuation τ sig (Elt Ideal)) : (Value.res_main_v2130 V0 : Act) = gateArr (Value.res_main_v2112 V0 : Act) (Value.res_main_v1712 V0 : Act) (wMat 5 (V0 (Proc.devRef .tc main_arg2)) slices_S8x1024x1024_S1x1024x1024_5_0_0) (wMat 5 (V0 (Proc.devRef .tc main_arg3)) slices_S8x1024x1024_S1x1024x1024_5_0_0) (bVec 5 (V0 (Proc.devRef .tc main_arg4)) slices_S8x1024_S1x1024_5_0) := rfl
set_option maxRecDepth 8192 in
theorem o_4_5 (V0 : Valuation τ sig (Elt Ideal)) : (Value.res_main_v2167 V0 : Act) = cellArr (Value.res_main_v2112 V0 : Act) (Value.res_main_v1712 V0 : Act) (Value.res_main_v2130 V0 : Act) (wMat 5 (V0 (Proc.devRef .tc main_arg5)) slices_S8x1024x1024_S1x1024x1024_5_0_0) (wMat 5 (V0 (Proc.devRef .tc main_arg6)) slices_S8x1024x1024_S1x1024x1024_5_0_0) (wMat 5 (V0 (Proc.devRef .tc main_arg8)) slices_S8x1024x1024_S1x1024x1024_5_0_0) (wMat 5 (V0 (Proc.devRef .tc main_arg9)) slices_S8x1024x1024_S1x1024x1024_5_0_0) (bVec 5 (V0 (Proc.devRef .tc main_arg7)) slices_S8x1024_S1x1024_5_0) (bVec 5 (V0 (Proc.devRef .tc main_arg10)) slices_S8x1024_S1x1024_5_0) := rfl
set_option maxRecDepth 8192 in
theorem hid_4_5 (V0 : Valuation τ sig (Elt Ideal)) (b : Fin 512) (j : Fin 1024) : (Value.res_main_v2167 V0 : Act) (ix2 b j) = Cert.Out.hid (argsV V0) 5 4 b j := by
  rw [o_4_5, z_4_5]
  exact (cell_spec (argsV V0) 5 (by decide) _ _ (Cert.Out.hid (argsV V0) 4 4) (Cert.Out.hid (argsV V0) 5 3) (hid_4_4 V0) (hid_3_5 V0) _ _ b j).trans (congrFun (hid_succ_succ (argsV V0) 4 3 b) j).symm
set_option maxRecDepth 8192 in
theorem z_4_6 (V0 : Valuation τ sig (Elt Ideal)) : (Value.res_main_v2185 V0 : Act) = gateArr (Value.res_main_v2167 V0 : Act) (Value.res_main_v1767 V0 : Act) (wMat 6 (V0 (Proc.devRef .tc main_arg2)) slices_S8x1024x1024_S1x1024x1024_6_0_0) (wMat 6 (V0 (Proc.devRef .tc main_arg3)) slices_S8x1024x1024_S1x1024x1024_6_0_0) (bVec 6 (V0 (Proc.devRef .tc main_arg4)) slices_S8x1024_S1x1024_6_0) := rfl
set_option maxRecDepth 8192 in
theorem o_4_6 (V0 : Valuation τ sig (Elt Ideal)) : (Value.res_main_v2222 V0 : Act) = cellArr (Value.res_main_v2167 V0 : Act) (Value.res_main_v1767 V0 : Act) (Value.res_main_v2185 V0 : Act) (wMat 6 (V0 (Proc.devRef .tc main_arg5)) slices_S8x1024x1024_S1x1024x1024_6_0_0) (wMat 6 (V0 (Proc.devRef .tc main_arg6)) slices_S8x1024x1024_S1x1024x1024_6_0_0) (wMat 6 (V0 (Proc.devRef .tc main_arg8)) slices_S8x1024x1024_S1x1024x1024_6_0_0) (wMat 6 (V0 (Proc.devRef .tc main_arg9)) slices_S8x1024x1024_S1x1024x1024_6_0_0) (bVec 6 (V0 (Proc.devRef .tc main_arg7)) slices_S8x1024_S1x1024_6_0) (bVec 6 (V0 (Proc.devRef .tc main_arg10)) slices_S8x1024_S1x1024_6_0) := rfl
set_option maxRecDepth 8192 in
theorem hid_4_6 (V0 : Valuation τ sig (Elt Ideal)) (b : Fin 512) (j : Fin 1024) : (Value.res_main_v2222 V0 : Act) (ix2 b j) = Cert.Out.hid (argsV V0) 6 4 b j := by
  rw [o_4_6, z_4_6]
  exact (cell_spec (argsV V0) 6 (by decide) _ _ (Cert.Out.hid (argsV V0) 5 4) (Cert.Out.hid (argsV V0) 6 3) (hid_4_5 V0) (hid_3_6 V0) _ _ b j).trans (congrFun (hid_succ_succ (argsV V0) 5 3 b) j).symm
set_option maxRecDepth 8192 in
theorem z_4_7 (V0 : Valuation τ sig (Elt Ideal)) : (Value.res_main_v2240 V0 : Act) = gateArr (Value.res_main_v2222 V0 : Act) (Value.res_main_v1822 V0 : Act) (wMat 7 (V0 (Proc.devRef .tc main_arg2)) slices_S8x1024x1024_S1x1024x1024_7_0_0) (wMat 7 (V0 (Proc.devRef .tc main_arg3)) slices_S8x1024x1024_S1x1024x1024_7_0_0) (bVec 7 (V0 (Proc.devRef .tc main_arg4)) slices_S8x1024_S1x1024_7_0) := rfl
set_option maxRecDepth 8192 in
theorem o_4_7 (V0 : Valuation τ sig (Elt Ideal)) : (Value.res_main_v2277 V0 : Act) = cellArr (Value.res_main_v2222 V0 : Act) (Value.res_main_v1822 V0 : Act) (Value.res_main_v2240 V0 : Act) (wMat 7 (V0 (Proc.devRef .tc main_arg5)) slices_S8x1024x1024_S1x1024x1024_7_0_0) (wMat 7 (V0 (Proc.devRef .tc main_arg6)) slices_S8x1024x1024_S1x1024x1024_7_0_0) (wMat 7 (V0 (Proc.devRef .tc main_arg8)) slices_S8x1024x1024_S1x1024x1024_7_0_0) (wMat 7 (V0 (Proc.devRef .tc main_arg9)) slices_S8x1024x1024_S1x1024x1024_7_0_0) (bVec 7 (V0 (Proc.devRef .tc main_arg7)) slices_S8x1024_S1x1024_7_0) (bVec 7 (V0 (Proc.devRef .tc main_arg10)) slices_S8x1024_S1x1024_7_0) := rfl
set_option maxRecDepth 8192 in
theorem hid_4_7 (V0 : Valuation τ sig (Elt Ideal)) (b : Fin 512) (j : Fin 1024) : (Value.res_main_v2277 V0 : Act) (ix2 b j) = Cert.Out.hid (argsV V0) 7 4 b j := by
  rw [o_4_7, z_4_7]
  exact (cell_spec (argsV V0) 7 (by decide) _ _ (Cert.Out.hid (argsV V0) 6 4) (Cert.Out.hid (argsV V0) 7 3) (hid_4_6 V0) (hid_3_7 V0) _ _ b j).trans (congrFun (hid_succ_succ (argsV V0) 6 3 b) j).symm

end Cert.ReferenceIdeal.RefValue

end
-- ==== Proof.Ref.CellsT5.lean ====
import proofs.«428164_j36979668418798_3_alg».proof.Proof.Ref.CellsT4

/-
  Time step 5 of the reference: its eight cells, bottom layer first. Each cell's two named arrays are the gate and
  the cell function of Cell.lean on the cell's input and previous-state arrays and layer l's parameters; hence, from
  the two neighbouring cells, its output read at (b, j) is the hidden row of layer l at time 5.
-/

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

set_option maxRecDepth 8192 in
theorem z_5_0 (V0 : Valuation τ sig (Elt Ideal)) : (Value.res_main_v2310 V0 : Act) = gateArr (Value.res_main_v2292 V0 : Act) (Value.res_main_v1892 V0 : Act) (wMat 0 (V0 (Proc.devRef .tc main_arg2)) slices_S8x1024x1024_S1x1024x1024_0_0_0) (wMat 0 (V0 (Proc.devRef .tc main_arg3)) slices_S8x1024x1024_S1x1024x1024_0_0_0) (bVec 0 (V0 (Proc.devRef .tc main_arg4)) slices_S8x1024_S1x1024_0_0) := rfl
set_option maxRecDepth 8192 in
theorem o_5_0 (V0 : Valuation τ sig (Elt Ideal)) : (Value.res_main_v2347 V0 : Act) = cellArr (Value.res_main_v2292 V0 : Act) (Value.res_main_v1892 V0 : Act) (Value.res_main_v2310 V0 : Act) (wMat 0 (V0 (Proc.devRef .tc main_arg5)) slices_S8x1024x1024_S1x1024x1024_0_0_0) (wMat 0 (V0 (Proc.devRef .tc main_arg6)) slices_S8x1024x1024_S1x1024x1024_0_0_0) (wMat 0 (V0 (Proc.devRef .tc main_arg8)) slices_S8x1024x1024_S1x1024x1024_0_0_0) (wMat 0 (V0 (Proc.devRef .tc main_arg9)) slices_S8x1024x1024_S1x1024x1024_0_0_0) (bVec 0 (V0 (Proc.devRef .tc main_arg7)) slices_S8x1024_S1x1024_0_0) (bVec 0 (V0 (Proc.devRef .tc main_arg10)) slices_S8x1024_S1x1024_0_0) := rfl
set_option maxRecDepth 8192 in
theorem hid_5_0 (V0 : Valuation τ sig (Elt Ideal)) (b : Fin 512) (j : Fin 1024) : (Value.res_main_v2347 V0 : Act) (ix2 b j) = Cert.Out.hid (argsV V0) 0 5 b j := by
  rw [o_5_0, z_5_0]
  exact (cell_spec (argsV V0) 0 (by decide) _ _ (Cert.Out.xs (argsV V0) 5) (Cert.Out.hid (argsV V0) 0 4) (xrow_5 V0) (hid_4_0 V0) _ _ b j).trans (congrFun (hid_zero_succ (argsV V0) 4 b) j).symm
set_option maxRecDepth 8192 in
theorem z_5_1 (V0 : Valuation τ sig (Elt Ideal)) : (Value.res_main_v2365 V0 : Act) = gateArr (Value.res_main_v2347 V0 : Act) (Value.res_main_v1947 V0 : Act) (wMat 1 (V0 (Proc.devRef .tc main_arg2)) slices_S8x1024x1024_S1x1024x1024_1_0_0) (wMat 1 (V0 (Proc.devRef .tc main_arg3)) slices_S8x1024x1024_S1x1024x1024_1_0_0) (bVec 1 (V0 (Proc.devRef .tc main_arg4)) slices_S8x1024_S1x1024_1_0) := rfl
set_option maxRecDepth 8192 in
theorem o_5_1 (V0 : Valuation τ sig (Elt Ideal)) : (Value.res_main_v2402 V0 : Act) = cellArr (Value.res_main_v2347 V0 : Act) (Value.res_main_v1947 V0 : Act) (Value.res_main_v2365 V0 : Act) (wMat 1 (V0 (Proc.devRef .tc main_arg5)) slices_S8x1024x1024_S1x1024x1024_1_0_0) (wMat 1 (V0 (Proc.devRef .tc main_arg6)) slices_S8x1024x1024_S1x1024x1024_1_0_0) (wMat 1 (V0 (Proc.devRef .tc main_arg8)) slices_S8x1024x1024_S1x1024x1024_1_0_0) (wMat 1 (V0 (Proc.devRef .tc main_arg9)) slices_S8x1024x1024_S1x1024x1024_1_0_0) (bVec 1 (V0 (Proc.devRef .tc main_arg7)) slices_S8x1024_S1x1024_1_0) (bVec 1 (V0 (Proc.devRef .tc main_arg10)) slices_S8x1024_S1x1024_1_0) := rfl
set_option maxRecDepth 8192 in
theorem hid_5_1 (V0 : Valuation τ sig (Elt Ideal)) (b : Fin 512) (j : Fin 1024) : (Value.res_main_v2402 V0 : Act) (ix2 b j) = Cert.Out.hid (argsV V0) 1 5 b j := by
  rw [o_5_1, z_5_1]
  exact (cell_spec (argsV V0) 1 (by decide) _ _ (Cert.Out.hid (argsV V0) 0 5) (Cert.Out.hid (argsV V0) 1 4) (hid_5_0 V0) (hid_4_1 V0) _ _ b j).trans (congrFun (hid_succ_succ (argsV V0) 0 4 b) j).symm
set_option maxRecDepth 8192 in
theorem z_5_2 (V0 : Valuation τ sig (Elt Ideal)) : (Value.res_main_v2420 V0 : Act) = gateArr (Value.res_main_v2402 V0 : Act) (Value.res_main_v2002 V0 : Act) (wMat 2 (V0 (Proc.devRef .tc main_arg2)) slices_S8x1024x1024_S1x1024x1024_2_0_0) (wMat 2 (V0 (Proc.devRef .tc main_arg3)) slices_S8x1024x1024_S1x1024x1024_2_0_0) (bVec 2 (V0 (Proc.devRef .tc main_arg4)) slices_S8x1024_S1x1024_2_0) := rfl
set_option maxRecDepth 8192 in
theorem o_5_2 (V0 : Valuation τ sig (Elt Ideal)) : (Value.res_main_v2457 V0 : Act) = cellArr (Value.res_main_v2402 V0 : Act) (Value.res_main_v2002 V0 : Act) (Value.res_main_v2420 V0 : Act) (wMat 2 (V0 (Proc.devRef .tc main_arg5)) slices_S8x1024x1024_S1x1024x1024_2_0_0) (wMat 2 (V0 (Proc.devRef .tc main_arg6)) slices_S8x1024x1024_S1x1024x1024_2_0_0) (wMat 2 (V0 (Proc.devRef .tc main_arg8)) slices_S8x1024x1024_S1x1024x1024_2_0_0) (wMat 2 (V0 (Proc.devRef .tc main_arg9)) slices_S8x1024x1024_S1x1024x1024_2_0_0) (bVec 2 (V0 (Proc.devRef .tc main_arg7)) slices_S8x1024_S1x1024_2_0) (bVec 2 (V0 (Proc.devRef .tc main_arg10)) slices_S8x1024_S1x1024_2_0) := rfl
set_option maxRecDepth 8192 in
theorem hid_5_2 (V0 : Valuation τ sig (Elt Ideal)) (b : Fin 512) (j : Fin 1024) : (Value.res_main_v2457 V0 : Act) (ix2 b j) = Cert.Out.hid (argsV V0) 2 5 b j := by
  rw [o_5_2, z_5_2]
  exact (cell_spec (argsV V0) 2 (by decide) _ _ (Cert.Out.hid (argsV V0) 1 5) (Cert.Out.hid (argsV V0) 2 4) (hid_5_1 V0) (hid_4_2 V0) _ _ b j).trans (congrFun (hid_succ_succ (argsV V0) 1 4 b) j).symm
set_option maxRecDepth 8192 in
theorem z_5_3 (V0 : Valuation τ sig (Elt Ideal)) : (Value.res_main_v2475 V0 : Act) = gateArr (Value.res_main_v2457 V0 : Act) (Value.res_main_v2057 V0 : Act) (wMat 3 (V0 (Proc.devRef .tc main_arg2)) slices_S8x1024x1024_S1x1024x1024_3_0_0) (wMat 3 (V0 (Proc.devRef .tc main_arg3)) slices_S8x1024x1024_S1x1024x1024_3_0_0) (bVec 3 (V0 (Proc.devRef .tc main_arg4)) slices_S8x1024_S1x1024_3_0) := rfl
set_option maxRecDepth 8192 in
theorem o_5_3 (V0 : Valuation τ sig (Elt Ideal)) : (Value.res_main_v2512 V0 : Act) = cellArr (Value.res_main_v2457 V0 : Act) (Value.res_main_v2057 V0 : Act) (Value.res_main_v2475 V0 : Act) (wMat 3 (V0 (Proc.devRef .tc main_arg5)) slices_S8x1024x1024_S1x1024x1024_3_0_0) (wMat 3 (V0 (Proc.devRef .tc main_arg6)) slices_S8x1024x1024_S1x1024x1024_3_0_0) (wMat 3 (V0 (Proc.devRef .tc main_arg8)) slices_S8x1024x1024_S1x1024x1024_3_0_0) (wMat 3 (V0 (Proc.devRef .tc main_arg9)) slices_S8x1024x1024_S1x1024x1024_3_0_0) (bVec 3 (V0 (Proc.devRef .tc main_arg7)) slices_S8x1024_S1x1024_3_0) (bVec 3 (V0 (Proc.devRef .tc main_arg10)) slices_S8x1024_S1x1024_3_0) := rfl
set_option maxRecDepth 8192 in
theorem hid_5_3 (V0 : Valuation τ sig (Elt Ideal)) (b : Fin 512) (j : Fin 1024) : (Value.res_main_v2512 V0 : Act) (ix2 b j) = Cert.Out.hid (argsV V0) 3 5 b j := by
  rw [o_5_3, z_5_3]
  exact (cell_spec (argsV V0) 3 (by decide) _ _ (Cert.Out.hid (argsV V0) 2 5) (Cert.Out.hid (argsV V0) 3 4) (hid_5_2 V0) (hid_4_3 V0) _ _ b j).trans (congrFun (hid_succ_succ (argsV V0) 2 4 b) j).symm
set_option maxRecDepth 8192 in
theorem z_5_4 (V0 : Valuation τ sig (Elt Ideal)) : (Value.res_main_v2530 V0 : Act) = gateArr (Value.res_main_v2512 V0 : Act) (Value.res_main_v2112 V0 : Act) (wMat 4 (V0 (Proc.devRef .tc main_arg2)) slices_S8x1024x1024_S1x1024x1024_4_0_0) (wMat 4 (V0 (Proc.devRef .tc main_arg3)) slices_S8x1024x1024_S1x1024x1024_4_0_0) (bVec 4 (V0 (Proc.devRef .tc main_arg4)) slices_S8x1024_S1x1024_4_0) := rfl
set_option maxRecDepth 8192 in
theorem o_5_4 (V0 : Valuation τ sig (Elt Ideal)) : (Value.res_main_v2567 V0 : Act) = cellArr (Value.res_main_v2512 V0 : Act) (Value.res_main_v2112 V0 : Act) (Value.res_main_v2530 V0 : Act) (wMat 4 (V0 (Proc.devRef .tc main_arg5)) slices_S8x1024x1024_S1x1024x1024_4_0_0) (wMat 4 (V0 (Proc.devRef .tc main_arg6)) slices_S8x1024x1024_S1x1024x1024_4_0_0) (wMat 4 (V0 (Proc.devRef .tc main_arg8)) slices_S8x1024x1024_S1x1024x1024_4_0_0) (wMat 4 (V0 (Proc.devRef .tc main_arg9)) slices_S8x1024x1024_S1x1024x1024_4_0_0) (bVec 4 (V0 (Proc.devRef .tc main_arg7)) slices_S8x1024_S1x1024_4_0) (bVec 4 (V0 (Proc.devRef .tc main_arg10)) slices_S8x1024_S1x1024_4_0) := rfl
set_option maxRecDepth 8192 in
theorem hid_5_4 (V0 : Valuation τ sig (Elt Ideal)) (b : Fin 512) (j : Fin 1024) : (Value.res_main_v2567 V0 : Act) (ix2 b j) = Cert.Out.hid (argsV V0) 4 5 b j := by
  rw [o_5_4, z_5_4]
  exact (cell_spec (argsV V0) 4 (by decide) _ _ (Cert.Out.hid (argsV V0) 3 5) (Cert.Out.hid (argsV V0) 4 4) (hid_5_3 V0) (hid_4_4 V0) _ _ b j).trans (congrFun (hid_succ_succ (argsV V0) 3 4 b) j).symm
set_option maxRecDepth 8192 in
theorem z_5_5 (V0 : Valuation τ sig (Elt Ideal)) : (Value.res_main_v2585 V0 : Act) = gateArr (Value.res_main_v2567 V0 : Act) (Value.res_main_v2167 V0 : Act) (wMat 5 (V0 (Proc.devRef .tc main_arg2)) slices_S8x1024x1024_S1x1024x1024_5_0_0) (wMat 5 (V0 (Proc.devRef .tc main_arg3)) slices_S8x1024x1024_S1x1024x1024_5_0_0) (bVec 5 (V0 (Proc.devRef .tc main_arg4)) slices_S8x1024_S1x1024_5_0) := rfl
set_option maxRecDepth 8192 in
theorem o_5_5 (V0 : Valuation τ sig (Elt Ideal)) : (Value.res_main_v2622 V0 : Act) = cellArr (Value.res_main_v2567 V0 : Act) (Value.res_main_v2167 V0 : Act) (Value.res_main_v2585 V0 : Act) (wMat 5 (V0 (Proc.devRef .tc main_arg5)) slices_S8x1024x1024_S1x1024x1024_5_0_0) (wMat 5 (V0 (Proc.devRef .tc main_arg6)) slices_S8x1024x1024_S1x1024x1024_5_0_0) (wMat 5 (V0 (Proc.devRef .tc main_arg8)) slices_S8x1024x1024_S1x1024x1024_5_0_0) (wMat 5 (V0 (Proc.devRef .tc main_arg9)) slices_S8x1024x1024_S1x1024x1024_5_0_0) (bVec 5 (V0 (Proc.devRef .tc main_arg7)) slices_S8x1024_S1x1024_5_0) (bVec 5 (V0 (Proc.devRef .tc main_arg10)) slices_S8x1024_S1x1024_5_0) := rfl
set_option maxRecDepth 8192 in
theorem hid_5_5 (V0 : Valuation τ sig (Elt Ideal)) (b : Fin 512) (j : Fin 1024) : (Value.res_main_v2622 V0 : Act) (ix2 b j) = Cert.Out.hid (argsV V0) 5 5 b j := by
  rw [o_5_5, z_5_5]
  exact (cell_spec (argsV V0) 5 (by decide) _ _ (Cert.Out.hid (argsV V0) 4 5) (Cert.Out.hid (argsV V0) 5 4) (hid_5_4 V0) (hid_4_5 V0) _ _ b j).trans (congrFun (hid_succ_succ (argsV V0) 4 4 b) j).symm
set_option maxRecDepth 8192 in
theorem z_5_6 (V0 : Valuation τ sig (Elt Ideal)) : (Value.res_main_v2640 V0 : Act) = gateArr (Value.res_main_v2622 V0 : Act) (Value.res_main_v2222 V0 : Act) (wMat 6 (V0 (Proc.devRef .tc main_arg2)) slices_S8x1024x1024_S1x1024x1024_6_0_0) (wMat 6 (V0 (Proc.devRef .tc main_arg3)) slices_S8x1024x1024_S1x1024x1024_6_0_0) (bVec 6 (V0 (Proc.devRef .tc main_arg4)) slices_S8x1024_S1x1024_6_0) := rfl
set_option maxRecDepth 8192 in
theorem o_5_6 (V0 : Valuation τ sig (Elt Ideal)) : (Value.res_main_v2677 V0 : Act) = cellArr (Value.res_main_v2622 V0 : Act) (Value.res_main_v2222 V0 : Act) (Value.res_main_v2640 V0 : Act) (wMat 6 (V0 (Proc.devRef .tc main_arg5)) slices_S8x1024x1024_S1x1024x1024_6_0_0) (wMat 6 (V0 (Proc.devRef .tc main_arg6)) slices_S8x1024x1024_S1x1024x1024_6_0_0) (wMat 6 (V0 (Proc.devRef .tc main_arg8)) slices_S8x1024x1024_S1x1024x1024_6_0_0) (wMat 6 (V0 (Proc.devRef .tc main_arg9)) slices_S8x1024x1024_S1x1024x1024_6_0_0) (bVec 6 (V0 (Proc.devRef .tc main_arg7)) slices_S8x1024_S1x1024_6_0) (bVec 6 (V0 (Proc.devRef .tc main_arg10)) slices_S8x1024_S1x1024_6_0) := rfl
set_option maxRecDepth 8192 in
theorem hid_5_6 (V0 : Valuation τ sig (Elt Ideal)) (b : Fin 512) (j : Fin 1024) : (Value.res_main_v2677 V0 : Act) (ix2 b j) = Cert.Out.hid (argsV V0) 6 5 b j := by
  rw [o_5_6, z_5_6]
  exact (cell_spec (argsV V0) 6 (by decide) _ _ (Cert.Out.hid (argsV V0) 5 5) (Cert.Out.hid (argsV V0) 6 4) (hid_5_5 V0) (hid_4_6 V0) _ _ b j).trans (congrFun (hid_succ_succ (argsV V0) 5 4 b) j).symm
set_option maxRecDepth 8192 in
theorem z_5_7 (V0 : Valuation τ sig (Elt Ideal)) : (Value.res_main_v2695 V0 : Act) = gateArr (Value.res_main_v2677 V0 : Act) (Value.res_main_v2277 V0 : Act) (wMat 7 (V0 (Proc.devRef .tc main_arg2)) slices_S8x1024x1024_S1x1024x1024_7_0_0) (wMat 7 (V0 (Proc.devRef .tc main_arg3)) slices_S8x1024x1024_S1x1024x1024_7_0_0) (bVec 7 (V0 (Proc.devRef .tc main_arg4)) slices_S8x1024_S1x1024_7_0) := rfl
set_option maxRecDepth 8192 in
theorem o_5_7 (V0 : Valuation τ sig (Elt Ideal)) : (Value.res_main_v2732 V0 : Act) = cellArr (Value.res_main_v2677 V0 : Act) (Value.res_main_v2277 V0 : Act) (Value.res_main_v2695 V0 : Act) (wMat 7 (V0 (Proc.devRef .tc main_arg5)) slices_S8x1024x1024_S1x1024x1024_7_0_0) (wMat 7 (V0 (Proc.devRef .tc main_arg6)) slices_S8x1024x1024_S1x1024x1024_7_0_0) (wMat 7 (V0 (Proc.devRef .tc main_arg8)) slices_S8x1024x1024_S1x1024x1024_7_0_0) (wMat 7 (V0 (Proc.devRef .tc main_arg9)) slices_S8x1024x1024_S1x1024x1024_7_0_0) (bVec 7 (V0 (Proc.devRef .tc main_arg7)) slices_S8x1024_S1x1024_7_0) (bVec 7 (V0 (Proc.devRef .tc main_arg10)) slices_S8x1024_S1x1024_7_0) := rfl
set_option maxRecDepth 8192 in
theorem hid_5_7 (V0 : Valuation τ sig (Elt Ideal)) (b : Fin 512) (j : Fin 1024) : (Value.res_main_v2732 V0 : Act) (ix2 b j) = Cert.Out.hid (argsV V0) 7 5 b j := by
  rw [o_5_7, z_5_7]
  exact (cell_spec (argsV V0) 7 (by decide) _ _ (Cert.Out.hid (argsV V0) 6 5) (Cert.Out.hid (argsV V0) 7 4) (hid_5_6 V0) (hid_4_7 V0) _ _ b j).trans (congrFun (hid_succ_succ (argsV V0) 6 4 b) j).symm

end Cert.ReferenceIdeal.RefValue

end
-- ==== Proof.Ref.CellsT6.lean ====
import proofs.«428164_j36979668418798_3_alg».proof.Proof.Ref.CellsT5

/-
  Time step 6 of the reference: its eight cells, bottom layer first. Each cell's two named arrays are the gate and
  the cell function of Cell.lean on the cell's input and previous-state arrays and layer l's parameters; hence, from
  the two neighbouring cells, its output read at (b, j) is the hidden row of layer l at time 6.
-/

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

set_option maxRecDepth 8192 in
theorem z_6_0 (V0 : Valuation τ sig (Elt Ideal)) : (Value.res_main_v2765 V0 : Act) = gateArr (Value.res_main_v2747 V0 : Act) (Value.res_main_v2347 V0 : Act) (wMat 0 (V0 (Proc.devRef .tc main_arg2)) slices_S8x1024x1024_S1x1024x1024_0_0_0) (wMat 0 (V0 (Proc.devRef .tc main_arg3)) slices_S8x1024x1024_S1x1024x1024_0_0_0) (bVec 0 (V0 (Proc.devRef .tc main_arg4)) slices_S8x1024_S1x1024_0_0) := rfl
set_option maxRecDepth 8192 in
theorem o_6_0 (V0 : Valuation τ sig (Elt Ideal)) : (Value.res_main_v2802 V0 : Act) = cellArr (Value.res_main_v2747 V0 : Act) (Value.res_main_v2347 V0 : Act) (Value.res_main_v2765 V0 : Act) (wMat 0 (V0 (Proc.devRef .tc main_arg5)) slices_S8x1024x1024_S1x1024x1024_0_0_0) (wMat 0 (V0 (Proc.devRef .tc main_arg6)) slices_S8x1024x1024_S1x1024x1024_0_0_0) (wMat 0 (V0 (Proc.devRef .tc main_arg8)) slices_S8x1024x1024_S1x1024x1024_0_0_0) (wMat 0 (V0 (Proc.devRef .tc main_arg9)) slices_S8x1024x1024_S1x1024x1024_0_0_0) (bVec 0 (V0 (Proc.devRef .tc main_arg7)) slices_S8x1024_S1x1024_0_0) (bVec 0 (V0 (Proc.devRef .tc main_arg10)) slices_S8x1024_S1x1024_0_0) := rfl
set_option maxRecDepth 8192 in
theorem hid_6_0 (V0 : Valuation τ sig (Elt Ideal)) (b : Fin 512) (j : Fin 1024) : (Value.res_main_v2802 V0 : Act) (ix2 b j) = Cert.Out.hid (argsV V0) 0 6 b j := by
  rw [o_6_0, z_6_0]
  exact (cell_spec (argsV V0) 0 (by decide) _ _ (Cert.Out.xs (argsV V0) 6) (Cert.Out.hid (argsV V0) 0 5) (xrow_6 V0) (hid_5_0 V0) _ _ b j).trans (congrFun (hid_zero_succ (argsV V0) 5 b) j).symm
set_option maxRecDepth 8192 in
theorem z_6_1 (V0 : Valuation τ sig (Elt Ideal)) : (Value.res_main_v2820 V0 : Act) = gateArr (Value.res_main_v2802 V0 : Act) (Value.res_main_v2402 V0 : Act) (wMat 1 (V0 (Proc.devRef .tc main_arg2)) slices_S8x1024x1024_S1x1024x1024_1_0_0) (wMat 1 (V0 (Proc.devRef .tc main_arg3)) slices_S8x1024x1024_S1x1024x1024_1_0_0) (bVec 1 (V0 (Proc.devRef .tc main_arg4)) slices_S8x1024_S1x1024_1_0) := rfl
set_option maxRecDepth 8192 in
theorem o_6_1 (V0 : Valuation τ sig (Elt Ideal)) : (Value.res_main_v2857 V0 : Act) = cellArr (Value.res_main_v2802 V0 : Act) (Value.res_main_v2402 V0 : Act) (Value.res_main_v2820 V0 : Act) (wMat 1 (V0 (Proc.devRef .tc main_arg5)) slices_S8x1024x1024_S1x1024x1024_1_0_0) (wMat 1 (V0 (Proc.devRef .tc main_arg6)) slices_S8x1024x1024_S1x1024x1024_1_0_0) (wMat 1 (V0 (Proc.devRef .tc main_arg8)) slices_S8x1024x1024_S1x1024x1024_1_0_0) (wMat 1 (V0 (Proc.devRef .tc main_arg9)) slices_S8x1024x1024_S1x1024x1024_1_0_0) (bVec 1 (V0 (Proc.devRef .tc main_arg7)) slices_S8x1024_S1x1024_1_0) (bVec 1 (V0 (Proc.devRef .tc main_arg10)) slices_S8x1024_S1x1024_1_0) := rfl
set_option maxRecDepth 8192 in
theorem hid_6_1 (V0 : Valuation τ sig (Elt Ideal)) (b : Fin 512) (j : Fin 1024) : (Value.res_main_v2857 V0 : Act) (ix2 b j) = Cert.Out.hid (argsV V0) 1 6 b j := by
  rw [o_6_1, z_6_1]
  exact (cell_spec (argsV V0) 1 (by decide) _ _ (Cert.Out.hid (argsV V0) 0 6) (Cert.Out.hid (argsV V0) 1 5) (hid_6_0 V0) (hid_5_1 V0) _ _ b j).trans (congrFun (hid_succ_succ (argsV V0) 0 5 b) j).symm
set_option maxRecDepth 8192 in
theorem z_6_2 (V0 : Valuation τ sig (Elt Ideal)) : (Value.res_main_v2875 V0 : Act) = gateArr (Value.res_main_v2857 V0 : Act) (Value.res_main_v2457 V0 : Act) (wMat 2 (V0 (Proc.devRef .tc main_arg2)) slices_S8x1024x1024_S1x1024x1024_2_0_0) (wMat 2 (V0 (Proc.devRef .tc main_arg3)) slices_S8x1024x1024_S1x1024x1024_2_0_0) (bVec 2 (V0 (Proc.devRef .tc main_arg4)) slices_S8x1024_S1x1024_2_0) := rfl
set_option maxRecDepth 8192 in
theorem o_6_2 (V0 : Valuation τ sig (Elt Ideal)) : (Value.res_main_v2912 V0 : Act) = cellArr (Value.res_main_v2857 V0 : Act) (Value.res_main_v2457 V0 : Act) (Value.res_main_v2875 V0 : Act) (wMat 2 (V0 (Proc.devRef .tc main_arg5)) slices_S8x1024x1024_S1x1024x1024_2_0_0) (wMat 2 (V0 (Proc.devRef .tc main_arg6)) slices_S8x1024x1024_S1x1024x1024_2_0_0) (wMat 2 (V0 (Proc.devRef .tc main_arg8)) slices_S8x1024x1024_S1x1024x1024_2_0_0) (wMat 2 (V0 (Proc.devRef .tc main_arg9)) slices_S8x1024x1024_S1x1024x1024_2_0_0) (bVec 2 (V0 (Proc.devRef .tc main_arg7)) slices_S8x1024_S1x1024_2_0) (bVec 2 (V0 (Proc.devRef .tc main_arg10)) slices_S8x1024_S1x1024_2_0) := rfl
set_option maxRecDepth 8192 in
theorem hid_6_2 (V0 : Valuation τ sig (Elt Ideal)) (b : Fin 512) (j : Fin 1024) : (Value.res_main_v2912 V0 : Act) (ix2 b j) = Cert.Out.hid (argsV V0) 2 6 b j := by
  rw [o_6_2, z_6_2]
  exact (cell_spec (argsV V0) 2 (by decide) _ _ (Cert.Out.hid (argsV V0) 1 6) (Cert.Out.hid (argsV V0) 2 5) (hid_6_1 V0) (hid_5_2 V0) _ _ b j).trans (congrFun (hid_succ_succ (argsV V0) 1 5 b) j).symm
set_option maxRecDepth 8192 in
theorem z_6_3 (V0 : Valuation τ sig (Elt Ideal)) : (Value.res_main_v2930 V0 : Act) = gateArr (Value.res_main_v2912 V0 : Act) (Value.res_main_v2512 V0 : Act) (wMat 3 (V0 (Proc.devRef .tc main_arg2)) slices_S8x1024x1024_S1x1024x1024_3_0_0) (wMat 3 (V0 (Proc.devRef .tc main_arg3)) slices_S8x1024x1024_S1x1024x1024_3_0_0) (bVec 3 (V0 (Proc.devRef .tc main_arg4)) slices_S8x1024_S1x1024_3_0) := rfl
set_option maxRecDepth 8192 in
theorem o_6_3 (V0 : Valuation τ sig (Elt Ideal)) : (Value.res_main_v2967 V0 : Act) = cellArr (Value.res_main_v2912 V0 : Act) (Value.res_main_v2512 V0 : Act) (Value.res_main_v2930 V0 : Act) (wMat 3 (V0 (Proc.devRef .tc main_arg5)) slices_S8x1024x1024_S1x1024x1024_3_0_0) (wMat 3 (V0 (Proc.devRef .tc main_arg6)) slices_S8x1024x1024_S1x1024x1024_3_0_0) (wMat 3 (V0 (Proc.devRef .tc main_arg8)) slices_S8x1024x1024_S1x1024x1024_3_0_0) (wMat 3 (V0 (Proc.devRef .tc main_arg9)) slices_S8x1024x1024_S1x1024x1024_3_0_0) (bVec 3 (V0 (Proc.devRef .tc main_arg7)) slices_S8x1024_S1x1024_3_0) (bVec 3 (V0 (Proc.devRef .tc main_arg10)) slices_S8x1024_S1x1024_3_0) := rfl
set_option maxRecDepth 8192 in
theorem hid_6_3 (V0 : Valuation τ sig (Elt Ideal)) (b : Fin 512) (j : Fin 1024) : (Value.res_main_v2967 V0 : Act) (ix2 b j) = Cert.Out.hid (argsV V0) 3 6 b j := by
  rw [o_6_3, z_6_3]
  exact (cell_spec (argsV V0) 3 (by decide) _ _ (Cert.Out.hid (argsV V0) 2 6) (Cert.Out.hid (argsV V0) 3 5) (hid_6_2 V0) (hid_5_3 V0) _ _ b j).trans (congrFun (hid_succ_succ (argsV V0) 2 5 b) j).symm
set_option maxRecDepth 8192 in
theorem z_6_4 (V0 : Valuation τ sig (Elt Ideal)) : (Value.res_main_v2985 V0 : Act) = gateArr (Value.res_main_v2967 V0 : Act) (Value.res_main_v2567 V0 : Act) (wMat 4 (V0 (Proc.devRef .tc main_arg2)) slices_S8x1024x1024_S1x1024x1024_4_0_0) (wMat 4 (V0 (Proc.devRef .tc main_arg3)) slices_S8x1024x1024_S1x1024x1024_4_0_0) (bVec 4 (V0 (Proc.devRef .tc main_arg4)) slices_S8x1024_S1x1024_4_0) := rfl
set_option maxRecDepth 8192 in
theorem o_6_4 (V0 : Valuation τ sig (Elt Ideal)) : (Value.res_main_v3022 V0 : Act) = cellArr (Value.res_main_v2967 V0 : Act) (Value.res_main_v2567 V0 : Act) (Value.res_main_v2985 V0 : Act) (wMat 4 (V0 (Proc.devRef .tc main_arg5)) slices_S8x1024x1024_S1x1024x1024_4_0_0) (wMat 4 (V0 (Proc.devRef .tc main_arg6)) slices_S8x1024x1024_S1x1024x1024_4_0_0) (wMat 4 (V0 (Proc.devRef .tc main_arg8)) slices_S8x1024x1024_S1x1024x1024_4_0_0) (wMat 4 (V0 (Proc.devRef .tc main_arg9)) slices_S8x1024x1024_S1x1024x1024_4_0_0) (bVec 4 (V0 (Proc.devRef .tc main_arg7)) slices_S8x1024_S1x1024_4_0) (bVec 4 (V0 (Proc.devRef .tc main_arg10)) slices_S8x1024_S1x1024_4_0) := rfl
set_option maxRecDepth 8192 in
theorem hid_6_4 (V0 : Valuation τ sig (Elt Ideal)) (b : Fin 512) (j : Fin 1024) : (Value.res_main_v3022 V0 : Act) (ix2 b j) = Cert.Out.hid (argsV V0) 4 6 b j := by
  rw [o_6_4, z_6_4]
  exact (cell_spec (argsV V0) 4 (by decide) _ _ (Cert.Out.hid (argsV V0) 3 6) (Cert.Out.hid (argsV V0) 4 5) (hid_6_3 V0) (hid_5_4 V0) _ _ b j).trans (congrFun (hid_succ_succ (argsV V0) 3 5 b) j).symm
set_option maxRecDepth 8192 in
theorem z_6_5 (V0 : Valuation τ sig (Elt Ideal)) : (Value.res_main_v3040 V0 : Act) = gateArr (Value.res_main_v3022 V0 : Act) (Value.res_main_v2622 V0 : Act) (wMat 5 (V0 (Proc.devRef .tc main_arg2)) slices_S8x1024x1024_S1x1024x1024_5_0_0) (wMat 5 (V0 (Proc.devRef .tc main_arg3)) slices_S8x1024x1024_S1x1024x1024_5_0_0) (bVec 5 (V0 (Proc.devRef .tc main_arg4)) slices_S8x1024_S1x1024_5_0) := rfl
set_option maxRecDepth 8192 in
theorem o_6_5 (V0 : Valuation τ sig (Elt Ideal)) : (Value.res_main_v3077 V0 : Act) = cellArr (Value.res_main_v3022 V0 : Act) (Value.res_main_v2622 V0 : Act) (Value.res_main_v3040 V0 : Act) (wMat 5 (V0 (Proc.devRef .tc main_arg5)) slices_S8x1024x1024_S1x1024x1024_5_0_0) (wMat 5 (V0 (Proc.devRef .tc main_arg6)) slices_S8x1024x1024_S1x1024x1024_5_0_0) (wMat 5 (V0 (Proc.devRef .tc main_arg8)) slices_S8x1024x1024_S1x1024x1024_5_0_0) (wMat 5 (V0 (Proc.devRef .tc main_arg9)) slices_S8x1024x1024_S1x1024x1024_5_0_0) (bVec 5 (V0 (Proc.devRef .tc main_arg7)) slices_S8x1024_S1x1024_5_0) (bVec 5 (V0 (Proc.devRef .tc main_arg10)) slices_S8x1024_S1x1024_5_0) := rfl
set_option maxRecDepth 8192 in
theorem hid_6_5 (V0 : Valuation τ sig (Elt Ideal)) (b : Fin 512) (j : Fin 1024) : (Value.res_main_v3077 V0 : Act) (ix2 b j) = Cert.Out.hid (argsV V0) 5 6 b j := by
  rw [o_6_5, z_6_5]
  exact (cell_spec (argsV V0) 5 (by decide) _ _ (Cert.Out.hid (argsV V0) 4 6) (Cert.Out.hid (argsV V0) 5 5) (hid_6_4 V0) (hid_5_5 V0) _ _ b j).trans (congrFun (hid_succ_succ (argsV V0) 4 5 b) j).symm
set_option maxRecDepth 8192 in
theorem z_6_6 (V0 : Valuation τ sig (Elt Ideal)) : (Value.res_main_v3095 V0 : Act) = gateArr (Value.res_main_v3077 V0 : Act) (Value.res_main_v2677 V0 : Act) (wMat 6 (V0 (Proc.devRef .tc main_arg2)) slices_S8x1024x1024_S1x1024x1024_6_0_0) (wMat 6 (V0 (Proc.devRef .tc main_arg3)) slices_S8x1024x1024_S1x1024x1024_6_0_0) (bVec 6 (V0 (Proc.devRef .tc main_arg4)) slices_S8x1024_S1x1024_6_0) := rfl
set_option maxRecDepth 8192 in
theorem o_6_6 (V0 : Valuation τ sig (Elt Ideal)) : (Value.res_main_v3132 V0 : Act) = cellArr (Value.res_main_v3077 V0 : Act) (Value.res_main_v2677 V0 : Act) (Value.res_main_v3095 V0 : Act) (wMat 6 (V0 (Proc.devRef .tc main_arg5)) slices_S8x1024x1024_S1x1024x1024_6_0_0) (wMat 6 (V0 (Proc.devRef .tc main_arg6)) slices_S8x1024x1024_S1x1024x1024_6_0_0) (wMat 6 (V0 (Proc.devRef .tc main_arg8)) slices_S8x1024x1024_S1x1024x1024_6_0_0) (wMat 6 (V0 (Proc.devRef .tc main_arg9)) slices_S8x1024x1024_S1x1024x1024_6_0_0) (bVec 6 (V0 (Proc.devRef .tc main_arg7)) slices_S8x1024_S1x1024_6_0) (bVec 6 (V0 (Proc.devRef .tc main_arg10)) slices_S8x1024_S1x1024_6_0) := rfl
set_option maxRecDepth 8192 in
theorem hid_6_6 (V0 : Valuation τ sig (Elt Ideal)) (b : Fin 512) (j : Fin 1024) : (Value.res_main_v3132 V0 : Act) (ix2 b j) = Cert.Out.hid (argsV V0) 6 6 b j := by
  rw [o_6_6, z_6_6]
  exact (cell_spec (argsV V0) 6 (by decide) _ _ (Cert.Out.hid (argsV V0) 5 6) (Cert.Out.hid (argsV V0) 6 5) (hid_6_5 V0) (hid_5_6 V0) _ _ b j).trans (congrFun (hid_succ_succ (argsV V0) 5 5 b) j).symm
set_option maxRecDepth 8192 in
theorem z_6_7 (V0 : Valuation τ sig (Elt Ideal)) : (Value.res_main_v3150 V0 : Act) = gateArr (Value.res_main_v3132 V0 : Act) (Value.res_main_v2732 V0 : Act) (wMat 7 (V0 (Proc.devRef .tc main_arg2)) slices_S8x1024x1024_S1x1024x1024_7_0_0) (wMat 7 (V0 (Proc.devRef .tc main_arg3)) slices_S8x1024x1024_S1x1024x1024_7_0_0) (bVec 7 (V0 (Proc.devRef .tc main_arg4)) slices_S8x1024_S1x1024_7_0) := rfl
set_option maxRecDepth 8192 in
theorem o_6_7 (V0 : Valuation τ sig (Elt Ideal)) : (Value.res_main_v3187 V0 : Act) = cellArr (Value.res_main_v3132 V0 : Act) (Value.res_main_v2732 V0 : Act) (Value.res_main_v3150 V0 : Act) (wMat 7 (V0 (Proc.devRef .tc main_arg5)) slices_S8x1024x1024_S1x1024x1024_7_0_0) (wMat 7 (V0 (Proc.devRef .tc main_arg6)) slices_S8x1024x1024_S1x1024x1024_7_0_0) (wMat 7 (V0 (Proc.devRef .tc main_arg8)) slices_S8x1024x1024_S1x1024x1024_7_0_0) (wMat 7 (V0 (Proc.devRef .tc main_arg9)) slices_S8x1024x1024_S1x1024x1024_7_0_0) (bVec 7 (V0 (Proc.devRef .tc main_arg7)) slices_S8x1024_S1x1024_7_0) (bVec 7 (V0 (Proc.devRef .tc main_arg10)) slices_S8x1024_S1x1024_7_0) := rfl
set_option maxRecDepth 8192 in
theorem hid_6_7 (V0 : Valuation τ sig (Elt Ideal)) (b : Fin 512) (j : Fin 1024) : (Value.res_main_v3187 V0 : Act) (ix2 b j) = Cert.Out.hid (argsV V0) 7 6 b j := by
  rw [o_6_7, z_6_7]
  exact (cell_spec (argsV V0) 7 (by decide) _ _ (Cert.Out.hid (argsV V0) 6 6) (Cert.Out.hid (argsV V0) 7 5) (hid_6_6 V0) (hid_5_7 V0) _ _ b j).trans (congrFun (hid_succ_succ (argsV V0) 6 5 b) j).symm

end Cert.ReferenceIdeal.RefValue

end
-- ==== Proof.Ref.CellsT7.lean ====
import proofs.«428164_j36979668418798_3_alg».proof.Proof.Ref.CellsT6

/-
  Time step 7 of the reference: its eight cells, bottom layer first. Each cell's two named arrays are the gate and
  the cell function of Cell.lean on the cell's input and previous-state arrays and layer l's parameters; hence, from
  the two neighbouring cells, its output read at (b, j) is the hidden row of layer l at time 7.
-/

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

set_option maxRecDepth 8192 in
theorem z_7_0 (V0 : Valuation τ sig (Elt Ideal)) : (Value.res_main_v3220 V0 : Act) = gateArr (Value.res_main_v3202 V0 : Act) (Value.res_main_v2802 V0 : Act) (wMat 0 (V0 (Proc.devRef .tc main_arg2)) slices_S8x1024x1024_S1x1024x1024_0_0_0) (wMat 0 (V0 (Proc.devRef .tc main_arg3)) slices_S8x1024x1024_S1x1024x1024_0_0_0) (bVec 0 (V0 (Proc.devRef .tc main_arg4)) slices_S8x1024_S1x1024_0_0) := rfl
set_option maxRecDepth 8192 in
theorem o_7_0 (V0 : Valuation τ sig (Elt Ideal)) : (Value.res_main_v3257 V0 : Act) = cellArr (Value.res_main_v3202 V0 : Act) (Value.res_main_v2802 V0 : Act) (Value.res_main_v3220 V0 : Act) (wMat 0 (V0 (Proc.devRef .tc main_arg5)) slices_S8x1024x1024_S1x1024x1024_0_0_0) (wMat 0 (V0 (Proc.devRef .tc main_arg6)) slices_S8x1024x1024_S1x1024x1024_0_0_0) (wMat 0 (V0 (Proc.devRef .tc main_arg8)) slices_S8x1024x1024_S1x1024x1024_0_0_0) (wMat 0 (V0 (Proc.devRef .tc main_arg9)) slices_S8x1024x1024_S1x1024x1024_0_0_0) (bVec 0 (V0 (Proc.devRef .tc main_arg7)) slices_S8x1024_S1x1024_0_0) (bVec 0 (V0 (Proc.devRef .tc main_arg10)) slices_S8x1024_S1x1024_0_0) := rfl
set_option maxRecDepth 8192 in
theorem hid_7_0 (V0 : Valuation τ sig (Elt Ideal)) (b : Fin 512) (j : Fin 1024) : (Value.res_main_v3257 V0 : Act) (ix2 b j) = Cert.Out.hid (argsV V0) 0 7 b j := by
  rw [o_7_0, z_7_0]
  exact (cell_spec (argsV V0) 0 (by decide) _ _ (Cert.Out.xs (argsV V0) 7) (Cert.Out.hid (argsV V0) 0 6) (xrow_7 V0) (hid_6_0 V0) _ _ b j).trans (congrFun (hid_zero_succ (argsV V0) 6 b) j).symm
set_option maxRecDepth 8192 in
theorem z_7_1 (V0 : Valuation τ sig (Elt Ideal)) : (Value.res_main_v3275 V0 : Act) = gateArr (Value.res_main_v3257 V0 : Act) (Value.res_main_v2857 V0 : Act) (wMat 1 (V0 (Proc.devRef .tc main_arg2)) slices_S8x1024x1024_S1x1024x1024_1_0_0) (wMat 1 (V0 (Proc.devRef .tc main_arg3)) slices_S8x1024x1024_S1x1024x1024_1_0_0) (bVec 1 (V0 (Proc.devRef .tc main_arg4)) slices_S8x1024_S1x1024_1_0) := rfl
set_option maxRecDepth 8192 in
theorem o_7_1 (V0 : Valuation τ sig (Elt Ideal)) : (Value.res_main_v3312 V0 : Act) = cellArr (Value.res_main_v3257 V0 : Act) (Value.res_main_v2857 V0 : Act) (Value.res_main_v3275 V0 : Act) (wMat 1 (V0 (Proc.devRef .tc main_arg5)) slices_S8x1024x1024_S1x1024x1024_1_0_0) (wMat 1 (V0 (Proc.devRef .tc main_arg6)) slices_S8x1024x1024_S1x1024x1024_1_0_0) (wMat 1 (V0 (Proc.devRef .tc main_arg8)) slices_S8x1024x1024_S1x1024x1024_1_0_0) (wMat 1 (V0 (Proc.devRef .tc main_arg9)) slices_S8x1024x1024_S1x1024x1024_1_0_0) (bVec 1 (V0 (Proc.devRef .tc main_arg7)) slices_S8x1024_S1x1024_1_0) (bVec 1 (V0 (Proc.devRef .tc main_arg10)) slices_S8x1024_S1x1024_1_0) := rfl
set_option maxRecDepth 8192 in
theorem hid_7_1 (V0 : Valuation τ sig (Elt Ideal)) (b : Fin 512) (j : Fin 1024) : (Value.res_main_v3312 V0 : Act) (ix2 b j) = Cert.Out.hid (argsV V0) 1 7 b j := by
  rw [o_7_1, z_7_1]
  exact (cell_spec (argsV V0) 1 (by decide) _ _ (Cert.Out.hid (argsV V0) 0 7) (Cert.Out.hid (argsV V0) 1 6) (hid_7_0 V0) (hid_6_1 V0) _ _ b j).trans (congrFun (hid_succ_succ (argsV V0) 0 6 b) j).symm
set_option maxRecDepth 8192 in
theorem z_7_2 (V0 : Valuation τ sig (Elt Ideal)) : (Value.res_main_v3330 V0 : Act) = gateArr (Value.res_main_v3312 V0 : Act) (Value.res_main_v2912 V0 : Act) (wMat 2 (V0 (Proc.devRef .tc main_arg2)) slices_S8x1024x1024_S1x1024x1024_2_0_0) (wMat 2 (V0 (Proc.devRef .tc main_arg3)) slices_S8x1024x1024_S1x1024x1024_2_0_0) (bVec 2 (V0 (Proc.devRef .tc main_arg4)) slices_S8x1024_S1x1024_2_0) := rfl
set_option maxRecDepth 8192 in
theorem o_7_2 (V0 : Valuation τ sig (Elt Ideal)) : (Value.res_main_v3367 V0 : Act) = cellArr (Value.res_main_v3312 V0 : Act) (Value.res_main_v2912 V0 : Act) (Value.res_main_v3330 V0 : Act) (wMat 2 (V0 (Proc.devRef .tc main_arg5)) slices_S8x1024x1024_S1x1024x1024_2_0_0) (wMat 2 (V0 (Proc.devRef .tc main_arg6)) slices_S8x1024x1024_S1x1024x1024_2_0_0) (wMat 2 (V0 (Proc.devRef .tc main_arg8)) slices_S8x1024x1024_S1x1024x1024_2_0_0) (wMat 2 (V0 (Proc.devRef .tc main_arg9)) slices_S8x1024x1024_S1x1024x1024_2_0_0) (bVec 2 (V0 (Proc.devRef .tc main_arg7)) slices_S8x1024_S1x1024_2_0) (bVec 2 (V0 (Proc.devRef .tc main_arg10)) slices_S8x1024_S1x1024_2_0) := rfl
set_option maxRecDepth 8192 in
theorem hid_7_2 (V0 : Valuation τ sig (Elt Ideal)) (b : Fin 512) (j : Fin 1024) : (Value.res_main_v3367 V0 : Act) (ix2 b j) = Cert.Out.hid (argsV V0) 2 7 b j := by
  rw [o_7_2, z_7_2]
  exact (cell_spec (argsV V0) 2 (by decide) _ _ (Cert.Out.hid (argsV V0) 1 7) (Cert.Out.hid (argsV V0) 2 6) (hid_7_1 V0) (hid_6_2 V0) _ _ b j).trans (congrFun (hid_succ_succ (argsV V0) 1 6 b) j).symm
set_option maxRecDepth 8192 in
theorem z_7_3 (V0 : Valuation τ sig (Elt Ideal)) : (Value.res_main_v3385 V0 : Act) = gateArr (Value.res_main_v3367 V0 : Act) (Value.res_main_v2967 V0 : Act) (wMat 3 (V0 (Proc.devRef .tc main_arg2)) slices_S8x1024x1024_S1x1024x1024_3_0_0) (wMat 3 (V0 (Proc.devRef .tc main_arg3)) slices_S8x1024x1024_S1x1024x1024_3_0_0) (bVec 3 (V0 (Proc.devRef .tc main_arg4)) slices_S8x1024_S1x1024_3_0) := rfl
set_option maxRecDepth 8192 in
theorem o_7_3 (V0 : Valuation τ sig (Elt Ideal)) : (Value.res_main_v3422 V0 : Act) = cellArr (Value.res_main_v3367 V0 : Act) (Value.res_main_v2967 V0 : Act) (Value.res_main_v3385 V0 : Act) (wMat 3 (V0 (Proc.devRef .tc main_arg5)) slices_S8x1024x1024_S1x1024x1024_3_0_0) (wMat 3 (V0 (Proc.devRef .tc main_arg6)) slices_S8x1024x1024_S1x1024x1024_3_0_0) (wMat 3 (V0 (Proc.devRef .tc main_arg8)) slices_S8x1024x1024_S1x1024x1024_3_0_0) (wMat 3 (V0 (Proc.devRef .tc main_arg9)) slices_S8x1024x1024_S1x1024x1024_3_0_0) (bVec 3 (V0 (Proc.devRef .tc main_arg7)) slices_S8x1024_S1x1024_3_0) (bVec 3 (V0 (Proc.devRef .tc main_arg10)) slices_S8x1024_S1x1024_3_0) := rfl
set_option maxRecDepth 8192 in
theorem hid_7_3 (V0 : Valuation τ sig (Elt Ideal)) (b : Fin 512) (j : Fin 1024) : (Value.res_main_v3422 V0 : Act) (ix2 b j) = Cert.Out.hid (argsV V0) 3 7 b j := by
  rw [o_7_3, z_7_3]
  exact (cell_spec (argsV V0) 3 (by decide) _ _ (Cert.Out.hid (argsV V0) 2 7) (Cert.Out.hid (argsV V0) 3 6) (hid_7_2 V0) (hid_6_3 V0) _ _ b j).trans (congrFun (hid_succ_succ (argsV V0) 2 6 b) j).symm
set_option maxRecDepth 8192 in
theorem z_7_4 (V0 : Valuation τ sig (Elt Ideal)) : (Value.res_main_v3440 V0 : Act) = gateArr (Value.res_main_v3422 V0 : Act) (Value.res_main_v3022 V0 : Act) (wMat 4 (V0 (Proc.devRef .tc main_arg2)) slices_S8x1024x1024_S1x1024x1024_4_0_0) (wMat 4 (V0 (Proc.devRef .tc main_arg3)) slices_S8x1024x1024_S1x1024x1024_4_0_0) (bVec 4 (V0 (Proc.devRef .tc main_arg4)) slices_S8x1024_S1x1024_4_0) := rfl
set_option maxRecDepth 8192 in
theorem o_7_4 (V0 : Valuation τ sig (Elt Ideal)) : (Value.res_main_v3477 V0 : Act) = cellArr (Value.res_main_v3422 V0 : Act) (Value.res_main_v3022 V0 : Act) (Value.res_main_v3440 V0 : Act) (wMat 4 (V0 (Proc.devRef .tc main_arg5)) slices_S8x1024x1024_S1x1024x1024_4_0_0) (wMat 4 (V0 (Proc.devRef .tc main_arg6)) slices_S8x1024x1024_S1x1024x1024_4_0_0) (wMat 4 (V0 (Proc.devRef .tc main_arg8)) slices_S8x1024x1024_S1x1024x1024_4_0_0) (wMat 4 (V0 (Proc.devRef .tc main_arg9)) slices_S8x1024x1024_S1x1024x1024_4_0_0) (bVec 4 (V0 (Proc.devRef .tc main_arg7)) slices_S8x1024_S1x1024_4_0) (bVec 4 (V0 (Proc.devRef .tc main_arg10)) slices_S8x1024_S1x1024_4_0) := rfl
set_option maxRecDepth 8192 in
theorem hid_7_4 (V0 : Valuation τ sig (Elt Ideal)) (b : Fin 512) (j : Fin 1024) : (Value.res_main_v3477 V0 : Act) (ix2 b j) = Cert.Out.hid (argsV V0) 4 7 b j := by
  rw [o_7_4, z_7_4]
  exact (cell_spec (argsV V0) 4 (by decide) _ _ (Cert.Out.hid (argsV V0) 3 7) (Cert.Out.hid (argsV V0) 4 6) (hid_7_3 V0) (hid_6_4 V0) _ _ b j).trans (congrFun (hid_succ_succ (argsV V0) 3 6 b) j).symm
set_option maxRecDepth 8192 in
theorem z_7_5 (V0 : Valuation τ sig (Elt Ideal)) : (Value.res_main_v3495 V0 : Act) = gateArr (Value.res_main_v3477 V0 : Act) (Value.res_main_v3077 V0 : Act) (wMat 5 (V0 (Proc.devRef .tc main_arg2)) slices_S8x1024x1024_S1x1024x1024_5_0_0) (wMat 5 (V0 (Proc.devRef .tc main_arg3)) slices_S8x1024x1024_S1x1024x1024_5_0_0) (bVec 5 (V0 (Proc.devRef .tc main_arg4)) slices_S8x1024_S1x1024_5_0) := rfl
set_option maxRecDepth 8192 in
theorem o_7_5 (V0 : Valuation τ sig (Elt Ideal)) : (Value.res_main_v3532 V0 : Act) = cellArr (Value.res_main_v3477 V0 : Act) (Value.res_main_v3077 V0 : Act) (Value.res_main_v3495 V0 : Act) (wMat 5 (V0 (Proc.devRef .tc main_arg5)) slices_S8x1024x1024_S1x1024x1024_5_0_0) (wMat 5 (V0 (Proc.devRef .tc main_arg6)) slices_S8x1024x1024_S1x1024x1024_5_0_0) (wMat 5 (V0 (Proc.devRef .tc main_arg8)) slices_S8x1024x1024_S1x1024x1024_5_0_0) (wMat 5 (V0 (Proc.devRef .tc main_arg9)) slices_S8x1024x1024_S1x1024x1024_5_0_0) (bVec 5 (V0 (Proc.devRef .tc main_arg7)) slices_S8x1024_S1x1024_5_0) (bVec 5 (V0 (Proc.devRef .tc main_arg10)) slices_S8x1024_S1x1024_5_0) := rfl
set_option maxRecDepth 8192 in
theorem hid_7_5 (V0 : Valuation τ sig (Elt Ideal)) (b : Fin 512) (j : Fin 1024) : (Value.res_main_v3532 V0 : Act) (ix2 b j) = Cert.Out.hid (argsV V0) 5 7 b j := by
  rw [o_7_5, z_7_5]
  exact (cell_spec (argsV V0) 5 (by decide) _ _ (Cert.Out.hid (argsV V0) 4 7) (Cert.Out.hid (argsV V0) 5 6) (hid_7_4 V0) (hid_6_5 V0) _ _ b j).trans (congrFun (hid_succ_succ (argsV V0) 4 6 b) j).symm
set_option maxRecDepth 8192 in
theorem z_7_6 (V0 : Valuation τ sig (Elt Ideal)) : (Value.res_main_v3550 V0 : Act) = gateArr (Value.res_main_v3532 V0 : Act) (Value.res_main_v3132 V0 : Act) (wMat 6 (V0 (Proc.devRef .tc main_arg2)) slices_S8x1024x1024_S1x1024x1024_6_0_0) (wMat 6 (V0 (Proc.devRef .tc main_arg3)) slices_S8x1024x1024_S1x1024x1024_6_0_0) (bVec 6 (V0 (Proc.devRef .tc main_arg4)) slices_S8x1024_S1x1024_6_0) := rfl
set_option maxRecDepth 8192 in
theorem o_7_6 (V0 : Valuation τ sig (Elt Ideal)) : (Value.res_main_v3587 V0 : Act) = cellArr (Value.res_main_v3532 V0 : Act) (Value.res_main_v3132 V0 : Act) (Value.res_main_v3550 V0 : Act) (wMat 6 (V0 (Proc.devRef .tc main_arg5)) slices_S8x1024x1024_S1x1024x1024_6_0_0) (wMat 6 (V0 (Proc.devRef .tc main_arg6)) slices_S8x1024x1024_S1x1024x1024_6_0_0) (wMat 6 (V0 (Proc.devRef .tc main_arg8)) slices_S8x1024x1024_S1x1024x1024_6_0_0) (wMat 6 (V0 (Proc.devRef .tc main_arg9)) slices_S8x1024x1024_S1x1024x1024_6_0_0) (bVec 6 (V0 (Proc.devRef .tc main_arg7)) slices_S8x1024_S1x1024_6_0) (bVec 6 (V0 (Proc.devRef .tc main_arg10)) slices_S8x1024_S1x1024_6_0) := rfl
set_option maxRecDepth 8192 in
theorem hid_7_6 (V0 : Valuation τ sig (Elt Ideal)) (b : Fin 512) (j : Fin 1024) : (Value.res_main_v3587 V0 : Act) (ix2 b j) = Cert.Out.hid (argsV V0) 6 7 b j := by
  rw [o_7_6, z_7_6]
  exact (cell_spec (argsV V0) 6 (by decide) _ _ (Cert.Out.hid (argsV V0) 5 7) (Cert.Out.hid (argsV V0) 6 6) (hid_7_5 V0) (hid_6_6 V0) _ _ b j).trans (congrFun (hid_succ_succ (argsV V0) 5 6 b) j).symm
set_option maxRecDepth 8192 in
theorem z_7_7 (V0 : Valuation τ sig (Elt Ideal)) : (Value.res_main_v3605 V0 : Act) = gateArr (Value.res_main_v3587 V0 : Act) (Value.res_main_v3187 V0 : Act) (wMat 7 (V0 (Proc.devRef .tc main_arg2)) slices_S8x1024x1024_S1x1024x1024_7_0_0) (wMat 7 (V0 (Proc.devRef .tc main_arg3)) slices_S8x1024x1024_S1x1024x1024_7_0_0) (bVec 7 (V0 (Proc.devRef .tc main_arg4)) slices_S8x1024_S1x1024_7_0) := rfl
set_option maxRecDepth 8192 in
theorem o_7_7 (V0 : Valuation τ sig (Elt Ideal)) : (Value.res_main_v3642 V0 : Act) = cellArr (Value.res_main_v3587 V0 : Act) (Value.res_main_v3187 V0 : Act) (Value.res_main_v3605 V0 : Act) (wMat 7 (V0 (Proc.devRef .tc main_arg5)) slices_S8x1024x1024_S1x1024x1024_7_0_0) (wMat 7 (V0 (Proc.devRef .tc main_arg6)) slices_S8x1024x1024_S1x1024x1024_7_0_0) (wMat 7 (V0 (Proc.devRef .tc main_arg8)) slices_S8x1024x1024_S1x1024x1024_7_0_0) (wMat 7 (V0 (Proc.devRef .tc main_arg9)) slices_S8x1024x1024_S1x1024x1024_7_0_0) (bVec 7 (V0 (Proc.devRef .tc main_arg7)) slices_S8x1024_S1x1024_7_0) (bVec 7 (V0 (Proc.devRef .tc main_arg10)) slices_S8x1024_S1x1024_7_0) := rfl
set_option maxRecDepth 8192 in
theorem hid_7_7 (V0 : Valuation τ sig (Elt Ideal)) (b : Fin 512) (j : Fin 1024) : (Value.res_main_v3642 V0 : Act) (ix2 b j) = Cert.Out.hid (argsV V0) 7 7 b j := by
  rw [o_7_7, z_7_7]
  exact (cell_spec (argsV V0) 7 (by decide) _ _ (Cert.Out.hid (argsV V0) 6 7) (Cert.Out.hid (argsV V0) 7 6) (hid_7_6 V0) (hid_6_7 V0) _ _ b j).trans (congrFun (hid_succ_succ (argsV V0) 6 6 b) j).symm

end Cert.ReferenceIdeal.RefValue

end
-- ==== Proof.Ref.Stack.lean ====
import proofs.«428164_j36979668418798_3_alg».proof.Proof.Ref.Dot
import proofs.«428164_j36979668418798_3_alg».proof.Proof.Ref.Layout

/-
  The layout of the reference's results: an array given a unit axis, eight such arrays joined along that axis and read at
  an index (the piece the axis coordinate names), and the output projection of a hidden-state array.
-/

noncomputable section

namespace Cert.ReferenceIdeal.RefValue

open Cert.ReferenceIdeal Cert.ReferenceIdeal.Gen Idealize.ShloMosaic Idealize.ShloMosaic.ValueIdx

/-- A [512, 1024] array as the one member of a [1, 512, 1024] stack. -/
abbrev lift1 (q : Act) : FVec Ideal S1x512x1024 .f32 :=
  broadcastInDim S1x512x1024 ![1, 2] bcast_S512x1024_S1x512x1024_1_2 q
theorem lift1_apply (q : Act) (u : Fin 1) (b : Fin 512) (j : Fin 1024) : lift1 q (ix3 u b j) = q (ix2 b j) := by
  unfold lift1
  exact broadcastInDim_apply _ _ _ _ (ix2 b j) (fun a => by
    match a with
    | ⟨0, _⟩ => rfl
    | ⟨1, _⟩ => rfl)

/-- An [8, 512, 1024] array with a unit time axis inserted. -/
abbrev lift2 (q : FVec Ideal S8x512x1024 .f32) : FVec Ideal S8x1x512x1024 .f32 :=
  broadcastInDim S8x1x512x1024 ![0, 2, 3] bcast_S8x512x1024_S8x1x512x1024_0_2_3 q
theorem lift2_apply (q : FVec Ideal S8x512x1024 .f32) (l : Fin 8) (u : Fin 1) (b : Fin 512) (j : Fin 1024) :
    lift2 q (ix4 l u b j) = q (ix3 l b j) := by
  unfold lift2
  exact broadcastInDim_apply _ _ _ _ (ix3 l b j) (fun a => by
    match a with
    | ⟨0, _⟩ => rfl
    | ⟨1, _⟩ => rfl
    | ⟨2, _⟩ => rfl)

/-- A [512, 1024] array with a unit time axis inserted in the middle. -/
abbrev lift3 (q : Act) : FVec Ideal S512x1x1024 .f32 :=
  broadcastInDim S512x1x1024 ![0, 2] bcast_S512x1024_S512x1x1024_0_2 q
theorem lift3_apply (q : Act) (b : Fin 512) (u : Fin 1) (j : Fin 1024) : lift3 q (ix3 b u j) = q (ix2 b j) := by
  unfold lift3
  exact broadcastInDim_apply _ _ _ _ (ix2 b j) (fun a => by
    match a with
    | ⟨0, _⟩ => rfl
    | ⟨1, _⟩ => rfl)

/-- Eight one-member stacks joined along the leading axis, read at (l, b, j): member l. -/
theorem layers_apply (u0 u1 u2 u3 u4 u5 u6 u7 : FVec Ideal S1x512x1024 .f32)
    (h : Shape.Concatenates [S1x512x1024, S1x512x1024, S1x512x1024, S1x512x1024, S1x512x1024, S1x512x1024, S1x512x1024, S1x512x1024] S8x512x1024 0)
    (l : Fin 8) (b : Fin 512) (j : Fin 1024) :
    concatenate S8x512x1024 0 [⟨S1x512x1024, u0⟩, ⟨S1x512x1024, u1⟩, ⟨S1x512x1024, u2⟩, ⟨S1x512x1024, u3⟩, ⟨S1x512x1024, u4⟩, ⟨S1x512x1024, u5⟩, ⟨S1x512x1024, u6⟩, ⟨S1x512x1024, u7⟩] h (ix3 l b j)
      = (![u0, u1, u2, u3, u4, u5, u6, u7] : Fin 8 → FVec Ideal S1x512x1024 .f32) l (ix3 (0 : Fin 1) b j) :=
  concatenate_ofFn_unit_apply (t := S8x512x1024) (s₁ := S1x512x1024) 0
    (![u0, u1, u2, u3, u4, u5, u6, u7] : Fin 8 → FVec Ideal S1x512x1024 .f32) h rfl rfl (ix3 l b j) l rfl (ix3 (0 : Fin 1) b j)
    (fun a ha => by
      match a with
      | ⟨0, _⟩ => exact absurd rfl ha
      | ⟨1, _⟩ => rfl
      | ⟨2, _⟩ => rfl)

/-- Eight [8, 1, 512, 1024] arrays joined along the time axis, read at (l, t, b, j): piece t. -/
theorem times_apply (u0 u1 u2 u3 u4 u5 u6 u7 : FVec Ideal S8x1x512x1024 .f32)
    (h : Shape.Concatenates [S8x1x512x1024, S8x1x512x1024, S8x1x512x1024, S8x1x512x1024, S8x1x512x1024, S8x1x512x1024, S8x1x512x1024, S8x1x512x1024] S8x8x512x1024 1)
    (l : Fin 8) (t : Fin 8) (b : Fin 512) (j : Fin 1024) :
    concatenate S8x8x512x1024 1 [⟨S8x1x512x1024, u0⟩, ⟨S8x1x512x1024, u1⟩, ⟨S8x1x512x1024, u2⟩, ⟨S8x1x512x1024, u3⟩, ⟨S8x1x512x1024, u4⟩, ⟨S8x1x512x1024, u5⟩, ⟨S8x1x512x1024, u6⟩, ⟨S8x1x512x1024, u7⟩] h (ix4 l t b j)
      = (![u0, u1, u2, u3, u4, u5, u6, u7] : Fin 8 → FVec Ideal S8x1x512x1024 .f32) t (ix4 l (0 : Fin 1) b j) :=
  concatenate_ofFn_unit_apply (t := S8x8x512x1024) (s₁ := S8x1x512x1024) 1
    (![u0, u1, u2, u3, u4, u5, u6, u7] : Fin 8 → FVec Ideal S8x1x512x1024 .f32) h rfl rfl (ix4 l t b j) t rfl (ix4 l (0 : Fin 1) b j)
    (fun a ha => by
      match a with
      | ⟨0, _⟩ => rfl
      | ⟨1, _⟩ => exact absurd rfl ha
      | ⟨2, _⟩ => rfl
      | ⟨3, _⟩ => rfl)

/-- Eight [512, 1, 1024] arrays joined along the time axis, read at (b, t, j): piece t. -/
theorem steps_apply (u0 u1 u2 u3 u4 u5 u6 u7 : FVec Ideal S512x1x1024 .f32)
    (h : Shape.Concatenates [S512x1x1024, S512x1x1024, S512x1x1024, S512x1x1024, S512x1x1024, S512x1x1024, S512x1x1024, S512x1x1024] S512x8x1024 1)
    (b : Fin 512) (t : Fin 8) (j : Fin 1024) :
    concatenate S512x8x1024 1 [⟨S512x1x1024, u0⟩, ⟨S512x1x1024, u1⟩, ⟨S512x1x1024, u2⟩, ⟨S512x1x1024, u3⟩, ⟨S512x1x1024, u4⟩, ⟨S512x1x1024, u5⟩, ⟨S512x1x1024, u6⟩, ⟨S512x1x1024, u7⟩] h (ix3 b t j)
      = (![u0, u1, u2, u3, u4, u5, u6, u7] : Fin 8 → FVec Ideal S512x1x1024 .f32) t (ix3 b (0 : Fin 1) j) :=
  concatenate_ofFn_unit_apply (t := S512x8x1024) (s₁ := S512x1x1024) 1
    (![u0, u1, u2, u3, u4, u5, u6, u7] : Fin 8 → FVec Ideal S512x1x1024 .f32) h rfl rfl (ix3 b t j) t rfl (ix3 b (0 : Fin 1) j)
    (fun a ha => by
      match a with
      | ⟨0, _⟩ => rfl
      | ⟨1, _⟩ => exact absurd rfl ha
      | ⟨2, _⟩ => rfl)

/-- The output projection of a hidden-state array. -/
abbrev projArr (q : Act) (Why : FVec Ideal S1024x1024 .f32) (by_ : FVec Ideal S1024 .f32) : Act :=
  addf (Host.dotGeneral dot_S512x1024_S1024x1024_S512x1024_1_0_0_1_n_n none q Why) (biasArr by_)
theorem projArr_apply (q : Act) (Why : FVec Ideal S1024x1024 .f32) (by_ : FVec Ideal S1024 .f32) (b : Fin 512) (j : Fin 1024) :
    projArr q Why by_ (ix2 b j) = (∑ k : Fin 1024, q (ix2 b k) * Why (ix2 k j)) + by_ (ix1 j) := by
  show Host.dotGeneral (F := Ideal) dot_S512x1024_S1024x1024_S512x1024_1_0_0_1_n_n none q Why (ix2 b j) + biasArr by_ (ix2 b j) = _
  rw [dot_apply, biasArr_apply]

end Cert.ReferenceIdeal.RefValue

end
-- ==== Proof.Ref.Results.lean ====
import proofs.«428164_j36979668418798_3_alg».proof.Proof.Ref.Stack
import proofs.«428164_j36979668418798_3_alg».proof.Proof.Out

/-
  The three results against the specification, given for every cell that its output array holds the hidden rows of its
  layer and time: the layers' outputs at one time step stacked, those stacks joined along time (`hseq`), the last one
  (`hlast`), and the top layer's outputs projected and joined along time (`youts`).
-/

noncomputable section

namespace Cert.ReferenceIdeal.RefValue

open Cert.ReferenceIdeal Cert.ReferenceIdeal.Gen Idealize.ShloMosaic Idealize.ShloMosaic.ValueIdx

/-- The eight layers' outputs at one time step, stacked: read at (l, b, j) it is layer l's hidden row. -/
theorem layerStack_spec (a : Cert.Out.Args) (t : ℕ) (o0 o1 o2 o3 o4 o5 o6 o7 : Act)
    (h : Shape.Concatenates [S1x512x1024, S1x512x1024, S1x512x1024, S1x512x1024, S1x512x1024, S1x512x1024, S1x512x1024, S1x512x1024] S8x512x1024 0)
    (H0 : ∀ b j, o0 (ix2 b j) = Cert.Out.hid a 0 t b j)
    (H1 : ∀ b j, o1 (ix2 b j) = Cert.Out.hid a 1 t b j)
    (H2 : ∀ b j, o2 (ix2 b j) = Cert.Out.hid a 2 t b j)
    (H3 : ∀ b j, o3 (ix2 b j) = Cert.Out.hid a 3 t b j)
    (H4 : ∀ b j, o4 (ix2 b j) = Cert.Out.hid a 4 t b j)
    (H5 : ∀ b j, o5 (ix2 b j) = Cert.Out.hid a 5 t b j)
    (H6 : ∀ b j, o6 (ix2 b j) = Cert.Out.hid a 6 t b j)
    (H7 : ∀ b j, o7 (ix2 b j) = Cert.Out.hid a 7 t b j)
    (l : Fin 8) (b : Fin 512) (j : Fin 1024) :
    concatenate S8x512x1024 0 [⟨S1x512x1024, lift1 o0⟩, ⟨S1x512x1024, lift1 o1⟩, ⟨S1x512x1024, lift1 o2⟩, ⟨S1x512x1024, lift1 o3⟩, ⟨S1x512x1024, lift1 o4⟩, ⟨S1x512x1024, lift1 o5⟩, ⟨S1x512x1024, lift1 o6⟩, ⟨S1x512x1024, lift1 o7⟩] h (ix3 l b j)
      = Cert.Out.hid a l.val t b j := by
  rw [layers_apply]
  match l with
  | ⟨0, _⟩ => exact (lift1_apply o0 0 b j).trans (H0 b j)
  | ⟨1, _⟩ => exact (lift1_apply o1 0 b j).trans (H1 b j)
  | ⟨2, _⟩ => exact (lift1_apply o2 0 b j).trans (H2 b j)
  | ⟨3, _⟩ => exact (lift1_apply o3 0 b j).trans (H3 b j)
  | ⟨4, _⟩ => exact (lift1_apply o4 0 b j).trans (H4 b j)
  | ⟨5, _⟩ => exact (lift1_apply o5 0 b j).trans (H5 b j)
  | ⟨6, _⟩ => exact (lift1_apply o6 0 b j).trans (H6 b j)
  | ⟨7, _⟩ => exact (lift1_apply o7 0 b j).trans (H7 b j)

/-- The eight time steps' layer stacks joined along time are the first result, every layer's hidden sequence. -/
theorem hseq_spec (a : Cert.Out.Args) (T0 T1 T2 T3 T4 T5 T6 T7 : FVec Ideal S8x512x1024 .f32)
    (h : Shape.Concatenates [S8x1x512x1024, S8x1x512x1024, S8x1x512x1024, S8x1x512x1024, S8x1x512x1024, S8x1x512x1024, S8x1x512x1024, S8x1x512x1024] S8x8x512x1024 1)
    (HT0 : ∀ l b j, T0 (ix3 l b j) = Cert.Out.hid a l.val 0 b j)
    (HT1 : ∀ l b j, T1 (ix3 l b j) = Cert.Out.hid a l.val 1 b j)
    (HT2 : ∀ l b j, T2 (ix3 l b j) = Cert.Out.hid a l.val 2 b j)
    (HT3 : ∀ l b j, T3 (ix3 l b j) = Cert.Out.hid a l.val 3 b j)
    (HT4 : ∀ l b j, T4 (ix3 l b j) = Cert.Out.hid a l.val 4 b j)
    (HT5 : ∀ l b j, T5 (ix3 l b j) = Cert.Out.hid a l.val 5 b j)
    (HT6 : ∀ l b j, T6 (ix3 l b j) = Cert.Out.hid a l.val 6 b j)
    (HT7 : ∀ l b j, T7 (ix3 l b j) = Cert.Out.hid a l.val 7 b j)
    (i : S8x8x512x1024.Idx) :
    concatenate S8x8x512x1024 1 [⟨S8x1x512x1024, lift2 T0⟩, ⟨S8x1x512x1024, lift2 T1⟩, ⟨S8x1x512x1024, lift2 T2⟩, ⟨S8x1x512x1024, lift2 T3⟩, ⟨S8x1x512x1024, lift2 T4⟩, ⟨S8x1x512x1024, lift2 T5⟩, ⟨S8x1x512x1024, lift2 T6⟩, ⟨S8x1x512x1024, lift2 T7⟩] h i = Cert.Out.hseq a i := by
  obtain ⟨l, t, b, j, rfl⟩ : ∃ (l : Fin 8) (t : Fin 8) (b : Fin 512) (j : Fin 1024), i = ix4 l t b j :=
    ⟨i 0, i 1, i 2, i 3, eq_ix4 i⟩
  rw [times_apply]
  match t with
  | ⟨0, _⟩ => exact (lift2_apply T0 l 0 b j).trans (HT0 l b j)
  | ⟨1, _⟩ => exact (lift2_apply T1 l 0 b j).trans (HT1 l b j)
  | ⟨2, _⟩ => exact (lift2_apply T2 l 0 b j).trans (HT2 l b j)
  | ⟨3, _⟩ => exact (lift2_apply T3 l 0 b j).trans (HT3 l b j)
  | ⟨4, _⟩ => exact (lift2_apply T4 l 0 b j).trans (HT4 l b j)
  | ⟨5, _⟩ => exact (lift2_apply T5 l 0 b j).trans (HT5 l b j)
  | ⟨6, _⟩ => exact (lift2_apply T6 l 0 b j).trans (HT6 l b j)
  | ⟨7, _⟩ => exact (lift2_apply T7 l 0 b j).trans (HT7 l b j)

/-- The last time step's layer stack is the second result, every layer's last hidden state. -/
theorem hlast_spec (a : Cert.Out.Args) (T7 : FVec Ideal S8x512x1024 .f32)
    (HT7 : ∀ l b j, T7 (ix3 l b j) = Cert.Out.hid a l.val 7 b j) (i : S8x512x1024.Idx) : T7 i = Cert.Out.hlast a i := by
  obtain ⟨l, b, j, rfl⟩ : ∃ (l : Fin 8) (b : Fin 512) (j : Fin 1024), i = ix3 l b j := ⟨i 0, i 1, i 2, eq_ix3 i⟩
  exact HT7 l b j

/-- The projection of the top layer's output array at time t, read at (b, j). -/
theorem proj_row (a : Cert.Out.Args) (o : Act) (t : ℕ) (H : ∀ b j, o (ix2 b j) = Cert.Out.hid a 7 t b j) (b : Fin 512) (j : Fin 1024) :
    projArr o a.Why a.by_ (ix2 b j)
      = Cert.Spec.proj (fun k j => a.Why (ix2 k j)) (fun j => a.by_ (ix1 j)) (Cert.Out.hid a 7 t b) j := by
  rw [projArr_apply]
  simp only [H]
  rfl

/-- The eight time steps' projections joined along time are the result `youts`. -/
theorem youts_spec (a : Cert.Out.Args) (o0 o1 o2 o3 o4 o5 o6 o7 : Act)
    (h : Shape.Concatenates [S512x1x1024, S512x1x1024, S512x1x1024, S512x1x1024, S512x1x1024, S512x1x1024, S512x1x1024, S512x1x1024] S512x8x1024 1)
    (H0 : ∀ b j, o0 (ix2 b j) = Cert.Out.hid a 7 0 b j)
    (H1 : ∀ b j, o1 (ix2 b j) = Cert.Out.hid a 7 1 b j)
    (H2 : ∀ b j, o2 (ix2 b j) = Cert.Out.hid a 7 2 b j)
    (H3 : ∀ b j, o3 (ix2 b j) = Cert.Out.hid a 7 3 b j)
    (H4 : ∀ b j, o4 (ix2 b j) = Cert.Out.hid a 7 4 b j)
    (H5 : ∀ b j, o5 (ix2 b j) = Cert.Out.hid a 7 5 b j)
    (H6 : ∀ b j, o6 (ix2 b j) = Cert.Out.hid a 7 6 b j)
    (H7 : ∀ b j, o7 (ix2 b j) = Cert.Out.hid a 7 7 b j)
    (i : S512x8x1024.Idx) :
    concatenate S512x8x1024 1 [⟨S512x1x1024, lift3 (projArr o0 a.Why a.by_)⟩, ⟨S512x1x1024, lift3 (projArr o1 a.Why a.by_)⟩, ⟨S512x1x1024, lift3 (projArr o2 a.Why a.by_)⟩, ⟨S512x1x1024, lift3 (projArr o3 a.Why a.by_)⟩, ⟨S512x1x1024, lift3 (projArr o4 a.Why a.by_)⟩, ⟨S512x1x1024, lift3 (projArr o5 a.Why a.by_)⟩, ⟨S512x1x1024, lift3 (projArr o6 a.Why a.by_)⟩, ⟨S512x1x1024, lift3 (projArr o7 a.Why a.by_)⟩] h i = Cert.Out.youts a i := by
  obtain ⟨b, t, j, rfl⟩ : ∃ (b : Fin 512) (t : Fin 8) (j : Fin 1024), i = ix3 b t j := ⟨i 0, i 1, i 2, eq_ix3 i⟩
  rw [steps_apply]
  match t with
  | ⟨0, _⟩ => exact (lift3_apply _ b 0 j).trans (proj_row a o0 0 H0 b j)
  | ⟨1, _⟩ => exact (lift3_apply _ b 0 j).trans (proj_row a o1 1 H1 b j)
  | ⟨2, _⟩ => exact (lift3_apply _ b 0 j).trans (proj_row a o2 2 H2 b j)
  | ⟨3, _⟩ => exact (lift3_apply _ b 0 j).trans (proj_row a o3 3 H3 b j)
  | ⟨4, _⟩ => exact (lift3_apply _ b 0 j).trans (proj_row a o4 4 H4 b j)
  | ⟨5, _⟩ => exact (lift3_apply _ b 0 j).trans (proj_row a o5 5 H5 b j)
  | ⟨6, _⟩ => exact (lift3_apply _ b 0 j).trans (proj_row a o6 6 H6 b j)
  | ⟨7, _⟩ => exact (lift3_apply _ b 0 j).trans (proj_row a o7 7 H7 b j)

end Cert.ReferenceIdeal.RefValue

end
-- ==== Proof.Ref.Results64.lean ====
import proofs.«428164_j36979668418798_3_alg».proof.Proof.Ref.CellsT7
import proofs.«428164_j36979668418798_3_alg».proof.Proof.Ref.Results

/-
  The reference's three results, from its 64 cells: the stack of the eight layers' outputs at each time step, these
  joined along time (every layer's hidden sequence), the last step's stack (every layer's last state), and the top
  layer's outputs projected and joined along time.
-/

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

set_option maxRecDepth 8192 in
theorem stack_0 (V0 : Valuation τ sig (Elt Ideal)) (l : Fin 8) (b : Fin 512) (j : Fin 1024) :
    (concatenate S8x512x1024 0 [⟨S1x512x1024, lift1 (Value.res_main_v72 V0 : Act)⟩, ⟨S1x512x1024, lift1 (Value.res_main_v127 V0 : Act)⟩, ⟨S1x512x1024, lift1 (Value.res_main_v182 V0 : Act)⟩, ⟨S1x512x1024, lift1 (Value.res_main_v237 V0 : Act)⟩, ⟨S1x512x1024, lift1 (Value.res_main_v292 V0 : Act)⟩, ⟨S1x512x1024, lift1 (Value.res_main_v347 V0 : Act)⟩, ⟨S1x512x1024, lift1 (Value.res_main_v402 V0 : Act)⟩, ⟨S1x512x1024, lift1 (Value.res_main_v457 V0 : Act)⟩] concatenates_S1x512x1024_S1x512x1024_S1x512x1024_S1x512x1024_S1x512x1024_S1x512x1024_S1x512x1024_S1x512x1024_S8x512x1024_d0) (ix3 l b j) = Cert.Out.hid (argsV V0) l.val 0 b j :=
  layerStack_spec (argsV V0) 0 (Value.res_main_v72 V0 : Act) (Value.res_main_v127 V0 : Act) (Value.res_main_v182 V0 : Act) (Value.res_main_v237 V0 : Act) (Value.res_main_v292 V0 : Act) (Value.res_main_v347 V0 : Act) (Value.res_main_v402 V0 : Act) (Value.res_main_v457 V0 : Act) concatenates_S1x512x1024_S1x512x1024_S1x512x1024_S1x512x1024_S1x512x1024_S1x512x1024_S1x512x1024_S1x512x1024_S8x512x1024_d0 (hid_0_0 V0) (hid_0_1 V0) (hid_0_2 V0) (hid_0_3 V0) (hid_0_4 V0) (hid_0_5 V0) (hid_0_6 V0) (hid_0_7 V0) l b j
set_option maxRecDepth 8192 in
theorem stack_1 (V0 : Valuation τ sig (Elt Ideal)) (l : Fin 8) (b : Fin 512) (j : Fin 1024) :
    (concatenate S8x512x1024 0 [⟨S1x512x1024, lift1 (Value.res_main_v527 V0 : Act)⟩, ⟨S1x512x1024, lift1 (Value.res_main_v582 V0 : Act)⟩, ⟨S1x512x1024, lift1 (Value.res_main_v637 V0 : Act)⟩, ⟨S1x512x1024, lift1 (Value.res_main_v692 V0 : Act)⟩, ⟨S1x512x1024, lift1 (Value.res_main_v747 V0 : Act)⟩, ⟨S1x512x1024, lift1 (Value.res_main_v802 V0 : Act)⟩, ⟨S1x512x1024, lift1 (Value.res_main_v857 V0 : Act)⟩, ⟨S1x512x1024, lift1 (Value.res_main_v912 V0 : Act)⟩] concatenates_S1x512x1024_S1x512x1024_S1x512x1024_S1x512x1024_S1x512x1024_S1x512x1024_S1x512x1024_S1x512x1024_S8x512x1024_d0) (ix3 l b j) = Cert.Out.hid (argsV V0) l.val 1 b j :=
  layerStack_spec (argsV V0) 1 (Value.res_main_v527 V0 : Act) (Value.res_main_v582 V0 : Act) (Value.res_main_v637 V0 : Act) (Value.res_main_v692 V0 : Act) (Value.res_main_v747 V0 : Act) (Value.res_main_v802 V0 : Act) (Value.res_main_v857 V0 : Act) (Value.res_main_v912 V0 : Act) concatenates_S1x512x1024_S1x512x1024_S1x512x1024_S1x512x1024_S1x512x1024_S1x512x1024_S1x512x1024_S1x512x1024_S8x512x1024_d0 (hid_1_0 V0) (hid_1_1 V0) (hid_1_2 V0) (hid_1_3 V0) (hid_1_4 V0) (hid_1_5 V0) (hid_1_6 V0) (hid_1_7 V0) l b j
set_option maxRecDepth 8192 in
theorem stack_2 (V0 : Valuation τ sig (Elt Ideal)) (l : Fin 8) (b : Fin 512) (j : Fin 1024) :
    (concatenate S8x512x1024 0 [⟨S1x512x1024, lift1 (Value.res_main_v982 V0 : Act)⟩, ⟨S1x512x1024, lift1 (Value.res_main_v1037 V0 : Act)⟩, ⟨S1x512x1024, lift1 (Value.res_main_v1092 V0 : Act)⟩, ⟨S1x512x1024, lift1 (Value.res_main_v1147 V0 : Act)⟩, ⟨S1x512x1024, lift1 (Value.res_main_v1202 V0 : Act)⟩, ⟨S1x512x1024, lift1 (Value.res_main_v1257 V0 : Act)⟩, ⟨S1x512x1024, lift1 (Value.res_main_v1312 V0 : Act)⟩, ⟨S1x512x1024, lift1 (Value.res_main_v1367 V0 : Act)⟩] concatenates_S1x512x1024_S1x512x1024_S1x512x1024_S1x512x1024_S1x512x1024_S1x512x1024_S1x512x1024_S1x512x1024_S8x512x1024_d0) (ix3 l b j) = Cert.Out.hid (argsV V0) l.val 2 b j :=
  layerStack_spec (argsV V0) 2 (Value.res_main_v982 V0 : Act) (Value.res_main_v1037 V0 : Act) (Value.res_main_v1092 V0 : Act) (Value.res_main_v1147 V0 : Act) (Value.res_main_v1202 V0 : Act) (Value.res_main_v1257 V0 : Act) (Value.res_main_v1312 V0 : Act) (Value.res_main_v1367 V0 : Act) concatenates_S1x512x1024_S1x512x1024_S1x512x1024_S1x512x1024_S1x512x1024_S1x512x1024_S1x512x1024_S1x512x1024_S8x512x1024_d0 (hid_2_0 V0) (hid_2_1 V0) (hid_2_2 V0) (hid_2_3 V0) (hid_2_4 V0) (hid_2_5 V0) (hid_2_6 V0) (hid_2_7 V0) l b j
set_option maxRecDepth 8192 in
theorem stack_3 (V0 : Valuation τ sig (Elt Ideal)) (l : Fin 8) (b : Fin 512) (j : Fin 1024) :
    (concatenate S8x512x1024 0 [⟨S1x512x1024, lift1 (Value.res_main_v1437 V0 : Act)⟩, ⟨S1x512x1024, lift1 (Value.res_main_v1492 V0 : Act)⟩, ⟨S1x512x1024, lift1 (Value.res_main_v1547 V0 : Act)⟩, ⟨S1x512x1024, lift1 (Value.res_main_v1602 V0 : Act)⟩, ⟨S1x512x1024, lift1 (Value.res_main_v1657 V0 : Act)⟩, ⟨S1x512x1024, lift1 (Value.res_main_v1712 V0 : Act)⟩, ⟨S1x512x1024, lift1 (Value.res_main_v1767 V0 : Act)⟩, ⟨S1x512x1024, lift1 (Value.res_main_v1822 V0 : Act)⟩] concatenates_S1x512x1024_S1x512x1024_S1x512x1024_S1x512x1024_S1x512x1024_S1x512x1024_S1x512x1024_S1x512x1024_S8x512x1024_d0) (ix3 l b j) = Cert.Out.hid (argsV V0) l.val 3 b j :=
  layerStack_spec (argsV V0) 3 (Value.res_main_v1437 V0 : Act) (Value.res_main_v1492 V0 : Act) (Value.res_main_v1547 V0 : Act) (Value.res_main_v1602 V0 : Act) (Value.res_main_v1657 V0 : Act) (Value.res_main_v1712 V0 : Act) (Value.res_main_v1767 V0 : Act) (Value.res_main_v1822 V0 : Act) concatenates_S1x512x1024_S1x512x1024_S1x512x1024_S1x512x1024_S1x512x1024_S1x512x1024_S1x512x1024_S1x512x1024_S8x512x1024_d0 (hid_3_0 V0) (hid_3_1 V0) (hid_3_2 V0) (hid_3_3 V0) (hid_3_4 V0) (hid_3_5 V0) (hid_3_6 V0) (hid_3_7 V0) l b j
set_option maxRecDepth 8192 in
theorem stack_4 (V0 : Valuation τ sig (Elt Ideal)) (l : Fin 8) (b : Fin 512) (j : Fin 1024) :
    (concatenate S8x512x1024 0 [⟨S1x512x1024, lift1 (Value.res_main_v1892 V0 : Act)⟩, ⟨S1x512x1024, lift1 (Value.res_main_v1947 V0 : Act)⟩, ⟨S1x512x1024, lift1 (Value.res_main_v2002 V0 : Act)⟩, ⟨S1x512x1024, lift1 (Value.res_main_v2057 V0 : Act)⟩, ⟨S1x512x1024, lift1 (Value.res_main_v2112 V0 : Act)⟩, ⟨S1x512x1024, lift1 (Value.res_main_v2167 V0 : Act)⟩, ⟨S1x512x1024, lift1 (Value.res_main_v2222 V0 : Act)⟩, ⟨S1x512x1024, lift1 (Value.res_main_v2277 V0 : Act)⟩] concatenates_S1x512x1024_S1x512x1024_S1x512x1024_S1x512x1024_S1x512x1024_S1x512x1024_S1x512x1024_S1x512x1024_S8x512x1024_d0) (ix3 l b j) = Cert.Out.hid (argsV V0) l.val 4 b j :=
  layerStack_spec (argsV V0) 4 (Value.res_main_v1892 V0 : Act) (Value.res_main_v1947 V0 : Act) (Value.res_main_v2002 V0 : Act) (Value.res_main_v2057 V0 : Act) (Value.res_main_v2112 V0 : Act) (Value.res_main_v2167 V0 : Act) (Value.res_main_v2222 V0 : Act) (Value.res_main_v2277 V0 : Act) concatenates_S1x512x1024_S1x512x1024_S1x512x1024_S1x512x1024_S1x512x1024_S1x512x1024_S1x512x1024_S1x512x1024_S8x512x1024_d0 (hid_4_0 V0) (hid_4_1 V0) (hid_4_2 V0) (hid_4_3 V0) (hid_4_4 V0) (hid_4_5 V0) (hid_4_6 V0) (hid_4_7 V0) l b j
set_option maxRecDepth 8192 in
theorem stack_5 (V0 : Valuation τ sig (Elt Ideal)) (l : Fin 8) (b : Fin 512) (j : Fin 1024) :
    (concatenate S8x512x1024 0 [⟨S1x512x1024, lift1 (Value.res_main_v2347 V0 : Act)⟩, ⟨S1x512x1024, lift1 (Value.res_main_v2402 V0 : Act)⟩, ⟨S1x512x1024, lift1 (Value.res_main_v2457 V0 : Act)⟩, ⟨S1x512x1024, lift1 (Value.res_main_v2512 V0 : Act)⟩, ⟨S1x512x1024, lift1 (Value.res_main_v2567 V0 : Act)⟩, ⟨S1x512x1024, lift1 (Value.res_main_v2622 V0 : Act)⟩, ⟨S1x512x1024, lift1 (Value.res_main_v2677 V0 : Act)⟩, ⟨S1x512x1024, lift1 (Value.res_main_v2732 V0 : Act)⟩] concatenates_S1x512x1024_S1x512x1024_S1x512x1024_S1x512x1024_S1x512x1024_S1x512x1024_S1x512x1024_S1x512x1024_S8x512x1024_d0) (ix3 l b j) = Cert.Out.hid (argsV V0) l.val 5 b j :=
  layerStack_spec (argsV V0) 5 (Value.res_main_v2347 V0 : Act) (Value.res_main_v2402 V0 : Act) (Value.res_main_v2457 V0 : Act) (Value.res_main_v2512 V0 : Act) (Value.res_main_v2567 V0 : Act) (Value.res_main_v2622 V0 : Act) (Value.res_main_v2677 V0 : Act) (Value.res_main_v2732 V0 : Act) concatenates_S1x512x1024_S1x512x1024_S1x512x1024_S1x512x1024_S1x512x1024_S1x512x1024_S1x512x1024_S1x512x1024_S8x512x1024_d0 (hid_5_0 V0) (hid_5_1 V0) (hid_5_2 V0) (hid_5_3 V0) (hid_5_4 V0) (hid_5_5 V0) (hid_5_6 V0) (hid_5_7 V0) l b j
set_option maxRecDepth 8192 in
theorem stack_6 (V0 : Valuation τ sig (Elt Ideal)) (l : Fin 8) (b : Fin 512) (j : Fin 1024) :
    (concatenate S8x512x1024 0 [⟨S1x512x1024, lift1 (Value.res_main_v2802 V0 : Act)⟩, ⟨S1x512x1024, lift1 (Value.res_main_v2857 V0 : Act)⟩, ⟨S1x512x1024, lift1 (Value.res_main_v2912 V0 : Act)⟩, ⟨S1x512x1024, lift1 (Value.res_main_v2967 V0 : Act)⟩, ⟨S1x512x1024, lift1 (Value.res_main_v3022 V0 : Act)⟩, ⟨S1x512x1024, lift1 (Value.res_main_v3077 V0 : Act)⟩, ⟨S1x512x1024, lift1 (Value.res_main_v3132 V0 : Act)⟩, ⟨S1x512x1024, lift1 (Value.res_main_v3187 V0 : Act)⟩] concatenates_S1x512x1024_S1x512x1024_S1x512x1024_S1x512x1024_S1x512x1024_S1x512x1024_S1x512x1024_S1x512x1024_S8x512x1024_d0) (ix3 l b j) = Cert.Out.hid (argsV V0) l.val 6 b j :=
  layerStack_spec (argsV V0) 6 (Value.res_main_v2802 V0 : Act) (Value.res_main_v2857 V0 : Act) (Value.res_main_v2912 V0 : Act) (Value.res_main_v2967 V0 : Act) (Value.res_main_v3022 V0 : Act) (Value.res_main_v3077 V0 : Act) (Value.res_main_v3132 V0 : Act) (Value.res_main_v3187 V0 : Act) concatenates_S1x512x1024_S1x512x1024_S1x512x1024_S1x512x1024_S1x512x1024_S1x512x1024_S1x512x1024_S1x512x1024_S8x512x1024_d0 (hid_6_0 V0) (hid_6_1 V0) (hid_6_2 V0) (hid_6_3 V0) (hid_6_4 V0) (hid_6_5 V0) (hid_6_6 V0) (hid_6_7 V0) l b j
set_option maxRecDepth 8192 in
theorem stack_7 (V0 : Valuation τ sig (Elt Ideal)) (l : Fin 8) (b : Fin 512) (j : Fin 1024) :
    (concatenate S8x512x1024 0 [⟨S1x512x1024, lift1 (Value.res_main_v3257 V0 : Act)⟩, ⟨S1x512x1024, lift1 (Value.res_main_v3312 V0 : Act)⟩, ⟨S1x512x1024, lift1 (Value.res_main_v3367 V0 : Act)⟩, ⟨S1x512x1024, lift1 (Value.res_main_v3422 V0 : Act)⟩, ⟨S1x512x1024, lift1 (Value.res_main_v3477 V0 : Act)⟩, ⟨S1x512x1024, lift1 (Value.res_main_v3532 V0 : Act)⟩, ⟨S1x512x1024, lift1 (Value.res_main_v3587 V0 : Act)⟩, ⟨S1x512x1024, lift1 (Value.res_main_v3642 V0 : Act)⟩] concatenates_S1x512x1024_S1x512x1024_S1x512x1024_S1x512x1024_S1x512x1024_S1x512x1024_S1x512x1024_S1x512x1024_S8x512x1024_d0) (ix3 l b j) = Cert.Out.hid (argsV V0) l.val 7 b j :=
  layerStack_spec (argsV V0) 7 (Value.res_main_v3257 V0 : Act) (Value.res_main_v3312 V0 : Act) (Value.res_main_v3367 V0 : Act) (Value.res_main_v3422 V0 : Act) (Value.res_main_v3477 V0 : Act) (Value.res_main_v3532 V0 : Act) (Value.res_main_v3587 V0 : Act) (Value.res_main_v3642 V0 : Act) concatenates_S1x512x1024_S1x512x1024_S1x512x1024_S1x512x1024_S1x512x1024_S1x512x1024_S1x512x1024_S1x512x1024_S8x512x1024_d0 (hid_7_0 V0) (hid_7_1 V0) (hid_7_2 V0) (hid_7_3 V0) (hid_7_4 V0) (hid_7_5 V0) (hid_7_6 V0) (hid_7_7 V0) l b j
set_option maxRecDepth 8192 in
theorem hseq_eq (V0 : Valuation τ sig (Elt Ideal)) : (Value.res_main_v3673 V0 : FVec Ideal S8x8x512x1024 .f32) = Cert.Out.hseq (argsV V0) :=
  funext fun i => hseq_spec (argsV V0) (concatenate S8x512x1024 0 [⟨S1x512x1024, lift1 (Value.res_main_v72 V0 : Act)⟩, ⟨S1x512x1024, lift1 (Value.res_main_v127 V0 : Act)⟩, ⟨S1x512x1024, lift1 (Value.res_main_v182 V0 : Act)⟩, ⟨S1x512x1024, lift1 (Value.res_main_v237 V0 : Act)⟩, ⟨S1x512x1024, lift1 (Value.res_main_v292 V0 : Act)⟩, ⟨S1x512x1024, lift1 (Value.res_main_v347 V0 : Act)⟩, ⟨S1x512x1024, lift1 (Value.res_main_v402 V0 : Act)⟩, ⟨S1x512x1024, lift1 (Value.res_main_v457 V0 : Act)⟩] concatenates_S1x512x1024_S1x512x1024_S1x512x1024_S1x512x1024_S1x512x1024_S1x512x1024_S1x512x1024_S1x512x1024_S8x512x1024_d0) (concatenate S8x512x1024 0 [⟨S1x512x1024, lift1 (Value.res_main_v527 V0 : Act)⟩, ⟨S1x512x1024, lift1 (Value.res_main_v582 V0 : Act)⟩, ⟨S1x512x1024, lift1 (Value.res_main_v637 V0 : Act)⟩, ⟨S1x512x1024, lift1 (Value.res_main_v692 V0 : Act)⟩, ⟨S1x512x1024, lift1 (Value.res_main_v747 V0 : Act)⟩, ⟨S1x512x1024, lift1 (Value.res_main_v802 V0 : Act)⟩, ⟨S1x512x1024, lift1 (Value.res_main_v857 V0 : Act)⟩, ⟨S1x512x1024, lift1 (Value.res_main_v912 V0 : Act)⟩] concatenates_S1x512x1024_S1x512x1024_S1x512x1024_S1x512x1024_S1x512x1024_S1x512x1024_S1x512x1024_S1x512x1024_S8x512x1024_d0) (concatenate S8x512x1024 0 [⟨S1x512x1024, lift1 (Value.res_main_v982 V0 : Act)⟩, ⟨S1x512x1024, lift1 (Value.res_main_v1037 V0 : Act)⟩, ⟨S1x512x1024, lift1 (Value.res_main_v1092 V0 : Act)⟩, ⟨S1x512x1024, lift1 (Value.res_main_v1147 V0 : Act)⟩, ⟨S1x512x1024, lift1 (Value.res_main_v1202 V0 : Act)⟩, ⟨S1x512x1024, lift1 (Value.res_main_v1257 V0 : Act)⟩, ⟨S1x512x1024, lift1 (Value.res_main_v1312 V0 : Act)⟩, ⟨S1x512x1024, lift1 (Value.res_main_v1367 V0 : Act)⟩] concatenates_S1x512x1024_S1x512x1024_S1x512x1024_S1x512x1024_S1x512x1024_S1x512x1024_S1x512x1024_S1x512x1024_S8x512x1024_d0) (concatenate S8x512x1024 0 [⟨S1x512x1024, lift1 (Value.res_main_v1437 V0 : Act)⟩, ⟨S1x512x1024, lift1 (Value.res_main_v1492 V0 : Act)⟩, ⟨S1x512x1024, lift1 (Value.res_main_v1547 V0 : Act)⟩, ⟨S1x512x1024, lift1 (Value.res_main_v1602 V0 : Act)⟩, ⟨S1x512x1024, lift1 (Value.res_main_v1657 V0 : Act)⟩, ⟨S1x512x1024, lift1 (Value.res_main_v1712 V0 : Act)⟩, ⟨S1x512x1024, lift1 (Value.res_main_v1767 V0 : Act)⟩, ⟨S1x512x1024, lift1 (Value.res_main_v1822 V0 : Act)⟩] concatenates_S1x512x1024_S1x512x1024_S1x512x1024_S1x512x1024_S1x512x1024_S1x512x1024_S1x512x1024_S1x512x1024_S8x512x1024_d0) (concatenate S8x512x1024 0 [⟨S1x512x1024, lift1 (Value.res_main_v1892 V0 : Act)⟩, ⟨S1x512x1024, lift1 (Value.res_main_v1947 V0 : Act)⟩, ⟨S1x512x1024, lift1 (Value.res_main_v2002 V0 : Act)⟩, ⟨S1x512x1024, lift1 (Value.res_main_v2057 V0 : Act)⟩, ⟨S1x512x1024, lift1 (Value.res_main_v2112 V0 : Act)⟩, ⟨S1x512x1024, lift1 (Value.res_main_v2167 V0 : Act)⟩, ⟨S1x512x1024, lift1 (Value.res_main_v2222 V0 : Act)⟩, ⟨S1x512x1024, lift1 (Value.res_main_v2277 V0 : Act)⟩] concatenates_S1x512x1024_S1x512x1024_S1x512x1024_S1x512x1024_S1x512x1024_S1x512x1024_S1x512x1024_S1x512x1024_S8x512x1024_d0) (concatenate S8x512x1024 0 [⟨S1x512x1024, lift1 (Value.res_main_v2347 V0 : Act)⟩, ⟨S1x512x1024, lift1 (Value.res_main_v2402 V0 : Act)⟩, ⟨S1x512x1024, lift1 (Value.res_main_v2457 V0 : Act)⟩, ⟨S1x512x1024, lift1 (Value.res_main_v2512 V0 : Act)⟩, ⟨S1x512x1024, lift1 (Value.res_main_v2567 V0 : Act)⟩, ⟨S1x512x1024, lift1 (Value.res_main_v2622 V0 : Act)⟩, ⟨S1x512x1024, lift1 (Value.res_main_v2677 V0 : Act)⟩, ⟨S1x512x1024, lift1 (Value.res_main_v2732 V0 : Act)⟩] concatenates_S1x512x1024_S1x512x1024_S1x512x1024_S1x512x1024_S1x512x1024_S1x512x1024_S1x512x1024_S1x512x1024_S8x512x1024_d0) (concatenate S8x512x1024 0 [⟨S1x512x1024, lift1 (Value.res_main_v2802 V0 : Act)⟩, ⟨S1x512x1024, lift1 (Value.res_main_v2857 V0 : Act)⟩, ⟨S1x512x1024, lift1 (Value.res_main_v2912 V0 : Act)⟩, ⟨S1x512x1024, lift1 (Value.res_main_v2967 V0 : Act)⟩, ⟨S1x512x1024, lift1 (Value.res_main_v3022 V0 : Act)⟩, ⟨S1x512x1024, lift1 (Value.res_main_v3077 V0 : Act)⟩, ⟨S1x512x1024, lift1 (Value.res_main_v3132 V0 : Act)⟩, ⟨S1x512x1024, lift1 (Value.res_main_v3187 V0 : Act)⟩] concatenates_S1x512x1024_S1x512x1024_S1x512x1024_S1x512x1024_S1x512x1024_S1x512x1024_S1x512x1024_S1x512x1024_S8x512x1024_d0) (concatenate S8x512x1024 0 [⟨S1x512x1024, lift1 (Value.res_main_v3257 V0 : Act)⟩, ⟨S1x512x1024, lift1 (Value.res_main_v3312 V0 : Act)⟩, ⟨S1x512x1024, lift1 (Value.res_main_v3367 V0 : Act)⟩, ⟨S1x512x1024, lift1 (Value.res_main_v3422 V0 : Act)⟩, ⟨S1x512x1024, lift1 (Value.res_main_v3477 V0 : Act)⟩, ⟨S1x512x1024, lift1 (Value.res_main_v3532 V0 : Act)⟩, ⟨S1x512x1024, lift1 (Value.res_main_v3587 V0 : Act)⟩, ⟨S1x512x1024, lift1 (Value.res_main_v3642 V0 : Act)⟩] concatenates_S1x512x1024_S1x512x1024_S1x512x1024_S1x512x1024_S1x512x1024_S1x512x1024_S1x512x1024_S1x512x1024_S8x512x1024_d0) concatenates_S8x1x512x1024_S8x1x512x1024_S8x1x512x1024_S8x1x512x1024_S8x1x512x1024_S8x1x512x1024_S8x1x512x1024_S8x1x512x1024_S8x8x512x1024_d1 (stack_0 V0) (stack_1 V0) (stack_2 V0) (stack_3 V0) (stack_4 V0) (stack_5 V0) (stack_6 V0) (stack_7 V0) i
set_option maxRecDepth 8192 in
theorem hlast_eq (V0 : Valuation τ sig (Elt Ideal)) : (concatenate S8x512x1024 0 [⟨S1x512x1024, lift1 (Value.res_main_v3257 V0 : Act)⟩, ⟨S1x512x1024, lift1 (Value.res_main_v3312 V0 : Act)⟩, ⟨S1x512x1024, lift1 (Value.res_main_v3367 V0 : Act)⟩, ⟨S1x512x1024, lift1 (Value.res_main_v3422 V0 : Act)⟩, ⟨S1x512x1024, lift1 (Value.res_main_v3477 V0 : Act)⟩, ⟨S1x512x1024, lift1 (Value.res_main_v3532 V0 : Act)⟩, ⟨S1x512x1024, lift1 (Value.res_main_v3587 V0 : Act)⟩, ⟨S1x512x1024, lift1 (Value.res_main_v3642 V0 : Act)⟩] concatenates_S1x512x1024_S1x512x1024_S1x512x1024_S1x512x1024_S1x512x1024_S1x512x1024_S1x512x1024_S1x512x1024_S8x512x1024_d0) = Cert.Out.hlast (argsV V0) :=
  funext fun i => hlast_spec (argsV V0) _ (stack_7 V0) i
set_option maxRecDepth 8192 in
theorem youts_eq (V0 : Valuation τ sig (Elt Ideal)) :
    (concatenate S512x8x1024 1 [⟨S512x1x1024, lift3 (projArr (Value.res_main_v457 V0 : Act) (V0 (Proc.devRef .tc main_arg11)) (V0 (Proc.devRef .tc main_arg12)))⟩, ⟨S512x1x1024, lift3 (projArr (Value.res_main_v912 V0 : Act) (V0 (Proc.devRef .tc main_arg11)) (V0 (Proc.devRef .tc main_arg12)))⟩, ⟨S512x1x1024, lift3 (projArr (Value.res_main_v1367 V0 : Act) (V0 (Proc.devRef .tc main_arg11)) (V0 (Proc.devRef .tc main_arg12)))⟩, ⟨S512x1x1024, lift3 (projArr (Value.res_main_v1822 V0 : Act) (V0 (Proc.devRef .tc main_arg11)) (V0 (Proc.devRef .tc main_arg12)))⟩, ⟨S512x1x1024, lift3 (projArr (Value.res_main_v2277 V0 : Act) (V0 (Proc.devRef .tc main_arg11)) (V0 (Proc.devRef .tc main_arg12)))⟩, ⟨S512x1x1024, lift3 (projArr (Value.res_main_v2732 V0 : Act) (V0 (Proc.devRef .tc main_arg11)) (V0 (Proc.devRef .tc main_arg12)))⟩, ⟨S512x1x1024, lift3 (projArr (Value.res_main_v3187 V0 : Act) (V0 (Proc.devRef .tc main_arg11)) (V0 (Proc.devRef .tc main_arg12)))⟩, ⟨S512x1x1024, lift3 (projArr (Value.res_main_v3642 V0 : Act) (V0 (Proc.devRef .tc main_arg11)) (V0 (Proc.devRef .tc main_arg12)))⟩] concatenates_S512x1x1024_S512x1x1024_S512x1x1024_S512x1x1024_S512x1x1024_S512x1x1024_S512x1x1024_S512x1x1024_S512x8x1024_d1) = Cert.Out.youts (argsV V0) :=
  funext fun i => youts_spec (argsV V0) (Value.res_main_v457 V0 : Act) (Value.res_main_v912 V0 : Act) (Value.res_main_v1367 V0 : Act) (Value.res_main_v1822 V0 : Act) (Value.res_main_v2277 V0 : Act) (Value.res_main_v2732 V0 : Act) (Value.res_main_v3187 V0 : Act) (Value.res_main_v3642 V0 : Act) concatenates_S512x1x1024_S512x1x1024_S512x1x1024_S512x1x1024_S512x1x1024_S512x1x1024_S512x1x1024_S512x1x1024_S512x8x1024_d1 (hid_0_7 V0) (hid_1_7 V0) (hid_2_7 V0) (hid_3_7 V0) (hid_4_7 V0) (hid_5_7 V0) (hid_6_7 V0) (hid_7_7 V0) i

end Cert.ReferenceIdeal.RefValue

end
-- ==== Proof.Ref.RunFresh.lean ====
/-
  No host operation of the reference allocates a buffer: every operation determines its results. Stated window by window
  (sixty operations at a time) and then for the whole list, which is the windows' concatenation.
-/
import proofs.«428164_j36979668418798_3_alg».proof.Proof.Ref.RunP03

noncomputable section

namespace Cert.ReferenceIdeal.RefFresh

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

theorem fresh0 : ∀ op ∈ (ops_part0 : List (HloOp τ sig (Elt F))), op.fresh = ∅ := by
  intro _ h; (repeat (cases h with | head => rfl | tail _ h => ?_)); exact nomatch h
theorem fresh1 : ∀ op ∈ (ops_part1 : List (HloOp τ sig (Elt F))), op.fresh = ∅ := by
  intro _ h; (repeat (cases h with | head => rfl | tail _ h => ?_)); exact nomatch h
theorem fresh2 : ∀ op ∈ (ops_part2 : List (HloOp τ sig (Elt F))), op.fresh = ∅ := by
  intro _ h; (repeat (cases h with | head => rfl | tail _ h => ?_)); exact nomatch h
theorem fresh3 : ∀ op ∈ (ops_part3 : List (HloOp τ sig (Elt F))), op.fresh = ∅ := by
  intro _ h; (repeat (cases h with | head => rfl | tail _ h => ?_)); exact nomatch h
theorem fresh4 : ∀ op ∈ (ops_part4 : List (HloOp τ sig (Elt F))), op.fresh = ∅ := by
  intro _ h; (repeat (cases h with | head => rfl | tail _ h => ?_)); exact nomatch h
theorem fresh5 : ∀ op ∈ (ops_part5 : List (HloOp τ sig (Elt F))), op.fresh = ∅ := by
  intro _ h; (repeat (cases h with | head => rfl | tail _ h => ?_)); exact nomatch h
theorem fresh6 : ∀ op ∈ (ops_part6 : List (HloOp τ sig (Elt F))), op.fresh = ∅ := by
  intro _ h; (repeat (cases h with | head => rfl | tail _ h => ?_)); exact nomatch h
theorem fresh7 : ∀ op ∈ (ops_part7 : List (HloOp τ sig (Elt F))), op.fresh = ∅ := by
  intro _ h; (repeat (cases h with | head => rfl | tail _ h => ?_)); exact nomatch h
theorem fresh8 : ∀ op ∈ (ops_part8 : List (HloOp τ sig (Elt F))), op.fresh = ∅ := by
  intro _ h; (repeat (cases h with | head => rfl | tail _ h => ?_)); exact nomatch h
theorem fresh9 : ∀ op ∈ (ops_part9 : List (HloOp τ sig (Elt F))), op.fresh = ∅ := by
  intro _ h; (repeat (cases h with | head => rfl | tail _ h => ?_)); exact nomatch h
theorem fresh10 : ∀ op ∈ (ops_part10 : List (HloOp τ sig (Elt F))), op.fresh = ∅ := by
  intro _ h; (repeat (cases h with | head => rfl | tail _ h => ?_)); exact nomatch h
theorem fresh11 : ∀ op ∈ (ops_part11 : List (HloOp τ sig (Elt F))), op.fresh = ∅ := by
  intro _ h; (repeat (cases h with | head => rfl | tail _ h => ?_)); exact nomatch h
theorem fresh12 : ∀ op ∈ (ops_part12 : List (HloOp τ sig (Elt F))), op.fresh = ∅ := by
  intro _ h; (repeat (cases h with | head => rfl | tail _ h => ?_)); exact nomatch h
theorem fresh13 : ∀ op ∈ (ops_part13 : List (HloOp τ sig (Elt F))), op.fresh = ∅ := by
  intro _ h; (repeat (cases h with | head => rfl | tail _ h => ?_)); exact nomatch h
theorem fresh14 : ∀ op ∈ (ops_part14 : List (HloOp τ sig (Elt F))), op.fresh = ∅ := by
  intro _ h; (repeat (cases h with | head => rfl | tail _ h => ?_)); exact nomatch h
theorem fresh15 : ∀ op ∈ (ops_part15 : List (HloOp τ sig (Elt F))), op.fresh = ∅ := by
  intro _ h; (repeat (cases h with | head => rfl | tail _ h => ?_)); exact nomatch h
theorem fresh16 : ∀ op ∈ (ops_part16 : List (HloOp τ sig (Elt F))), op.fresh = ∅ := by
  intro _ h; (repeat (cases h with | head => rfl | tail _ h => ?_)); exact nomatch h
theorem fresh17 : ∀ op ∈ (ops_part17 : List (HloOp τ sig (Elt F))), op.fresh = ∅ := by
  intro _ h; (repeat (cases h with | head => rfl | tail _ h => ?_)); exact nomatch h
theorem fresh18 : ∀ op ∈ (ops_part18 : List (HloOp τ sig (Elt F))), op.fresh = ∅ := by
  intro _ h; (repeat (cases h with | head => rfl | tail _ h => ?_)); exact nomatch h
theorem fresh19 : ∀ op ∈ (ops_part19 : List (HloOp τ sig (Elt F))), op.fresh = ∅ := by
  intro _ h; (repeat (cases h with | head => rfl | tail _ h => ?_)); exact nomatch h
theorem fresh20 : ∀ op ∈ (ops_part20 : List (HloOp τ sig (Elt F))), op.fresh = ∅ := by
  intro _ h; (repeat (cases h with | head => rfl | tail _ h => ?_)); exact nomatch h
theorem fresh21 : ∀ op ∈ (ops_part21 : List (HloOp τ sig (Elt F))), op.fresh = ∅ := by
  intro _ h; (repeat (cases h with | head => rfl | tail _ h => ?_)); exact nomatch h
theorem fresh22 : ∀ op ∈ (ops_part22 : List (HloOp τ sig (Elt F))), op.fresh = ∅ := by
  intro _ h; (repeat (cases h with | head => rfl | tail _ h => ?_)); exact nomatch h
theorem fresh23 : ∀ op ∈ (ops_part23 : List (HloOp τ sig (Elt F))), op.fresh = ∅ := by
  intro _ h; (repeat (cases h with | head => rfl | tail _ h => ?_)); exact nomatch h
theorem fresh24 : ∀ op ∈ (ops_part24 : List (HloOp τ sig (Elt F))), op.fresh = ∅ := by
  intro _ h; (repeat (cases h with | head => rfl | tail _ h => ?_)); exact nomatch h
theorem fresh25 : ∀ op ∈ (ops_part25 : List (HloOp τ sig (Elt F))), op.fresh = ∅ := by
  intro _ h; (repeat (cases h with | head => rfl | tail _ h => ?_)); exact nomatch h
theorem fresh26 : ∀ op ∈ (ops_part26 : List (HloOp τ sig (Elt F))), op.fresh = ∅ := by
  intro _ h; (repeat (cases h with | head => rfl | tail _ h => ?_)); exact nomatch h
theorem fresh27 : ∀ op ∈ (ops_part27 : List (HloOp τ sig (Elt F))), op.fresh = ∅ := by
  intro _ h; (repeat (cases h with | head => rfl | tail _ h => ?_)); exact nomatch h
theorem fresh28 : ∀ op ∈ (ops_part28 : List (HloOp τ sig (Elt F))), op.fresh = ∅ := by
  intro _ h; (repeat (cases h with | head => rfl | tail _ h => ?_)); exact nomatch h
theorem fresh29 : ∀ op ∈ (ops_part29 : List (HloOp τ sig (Elt F))), op.fresh = ∅ := by
  intro _ h; (repeat (cases h with | head => rfl | tail _ h => ?_)); exact nomatch h
theorem fresh30 : ∀ op ∈ (ops_part30 : List (HloOp τ sig (Elt F))), op.fresh = ∅ := by
  intro _ h; (repeat (cases h with | head => rfl | tail _ h => ?_)); exact nomatch h
theorem fresh31 : ∀ op ∈ (ops_part31 : List (HloOp τ sig (Elt F))), op.fresh = ∅ := by
  intro _ h; (repeat (cases h with | head => rfl | tail _ h => ?_)); exact nomatch h
theorem fresh32 : ∀ op ∈ (ops_part32 : List (HloOp τ sig (Elt F))), op.fresh = ∅ := by
  intro _ h; (repeat (cases h with | head => rfl | tail _ h => ?_)); exact nomatch h
theorem fresh33 : ∀ op ∈ (ops_part33 : List (HloOp τ sig (Elt F))), op.fresh = ∅ := by
  intro _ h; (repeat (cases h with | head => rfl | tail _ h => ?_)); exact nomatch h
theorem fresh34 : ∀ op ∈ (ops_part34 : List (HloOp τ sig (Elt F))), op.fresh = ∅ := by
  intro _ h; (repeat (cases h with | head => rfl | tail _ h => ?_)); exact nomatch h
theorem fresh35 : ∀ op ∈ (ops_part35 : List (HloOp τ sig (Elt F))), op.fresh = ∅ := by
  intro _ h; (repeat (cases h with | head => rfl | tail _ h => ?_)); exact nomatch h
theorem fresh36 : ∀ op ∈ (ops_part36 : List (HloOp τ sig (Elt F))), op.fresh = ∅ := by
  intro _ h; (repeat (cases h with | head => rfl | tail _ h => ?_)); exact nomatch h
theorem fresh37 : ∀ op ∈ (ops_part37 : List (HloOp τ sig (Elt F))), op.fresh = ∅ := by
  intro _ h; (repeat (cases h with | head => rfl | tail _ h => ?_)); exact nomatch h
theorem fresh38 : ∀ op ∈ (ops_part38 : List (HloOp τ sig (Elt F))), op.fresh = ∅ := by
  intro _ h; (repeat (cases h with | head => rfl | tail _ h => ?_)); exact nomatch h
theorem fresh39 : ∀ op ∈ (ops_part39 : List (HloOp τ sig (Elt F))), op.fresh = ∅ := by
  intro _ h; (repeat (cases h with | head => rfl | tail _ h => ?_)); exact nomatch h
theorem fresh40 : ∀ op ∈ (ops_part40 : List (HloOp τ sig (Elt F))), op.fresh = ∅ := by
  intro _ h; (repeat (cases h with | head => rfl | tail _ h => ?_)); exact nomatch h
theorem fresh41 : ∀ op ∈ (ops_part41 : List (HloOp τ sig (Elt F))), op.fresh = ∅ := by
  intro _ h; (repeat (cases h with | head => rfl | tail _ h => ?_)); exact nomatch h
theorem fresh42 : ∀ op ∈ (ops_part42 : List (HloOp τ sig (Elt F))), op.fresh = ∅ := by
  intro _ h; (repeat (cases h with | head => rfl | tail _ h => ?_)); exact nomatch h
theorem fresh43 : ∀ op ∈ (ops_part43 : List (HloOp τ sig (Elt F))), op.fresh = ∅ := by
  intro _ h; (repeat (cases h with | head => rfl | tail _ h => ?_)); exact nomatch h
theorem fresh44 : ∀ op ∈ (ops_part44 : List (HloOp τ sig (Elt F))), op.fresh = ∅ := by
  intro _ h; (repeat (cases h with | head => rfl | tail _ h => ?_)); exact nomatch h
theorem fresh45 : ∀ op ∈ (ops_part45 : List (HloOp τ sig (Elt F))), op.fresh = ∅ := by
  intro _ h; (repeat (cases h with | head => rfl | tail _ h => ?_)); exact nomatch h
theorem fresh46 : ∀ op ∈ (ops_part46 : List (HloOp τ sig (Elt F))), op.fresh = ∅ := by
  intro _ h; (repeat (cases h with | head => rfl | tail _ h => ?_)); exact nomatch h
theorem fresh47 : ∀ op ∈ (ops_part47 : List (HloOp τ sig (Elt F))), op.fresh = ∅ := by
  intro _ h; (repeat (cases h with | head => rfl | tail _ h => ?_)); exact nomatch h
theorem fresh48 : ∀ op ∈ (ops_part48 : List (HloOp τ sig (Elt F))), op.fresh = ∅ := by
  intro _ h; (repeat (cases h with | head => rfl | tail _ h => ?_)); exact nomatch h
theorem fresh49 : ∀ op ∈ (ops_part49 : List (HloOp τ sig (Elt F))), op.fresh = ∅ := by
  intro _ h; (repeat (cases h with | head => rfl | tail _ h => ?_)); exact nomatch h
theorem fresh50 : ∀ op ∈ (ops_part50 : List (HloOp τ sig (Elt F))), op.fresh = ∅ := by
  intro _ h; (repeat (cases h with | head => rfl | tail _ h => ?_)); exact nomatch h
theorem fresh51 : ∀ op ∈ (ops_part51 : List (HloOp τ sig (Elt F))), op.fresh = ∅ := by
  intro _ h; (repeat (cases h with | head => rfl | tail _ h => ?_)); exact nomatch h
theorem fresh52 : ∀ op ∈ (ops_part52 : List (HloOp τ sig (Elt F))), op.fresh = ∅ := by
  intro _ h; (repeat (cases h with | head => rfl | tail _ h => ?_)); exact nomatch h
theorem fresh53 : ∀ op ∈ (ops_part53 : List (HloOp τ sig (Elt F))), op.fresh = ∅ := by
  intro _ h; (repeat (cases h with | head => rfl | tail _ h => ?_)); exact nomatch h
theorem fresh54 : ∀ op ∈ (ops_part54 : List (HloOp τ sig (Elt F))), op.fresh = ∅ := by
  intro _ h; (repeat (cases h with | head => rfl | tail _ h => ?_)); exact nomatch h
theorem fresh55 : ∀ op ∈ (ops_part55 : List (HloOp τ sig (Elt F))), op.fresh = ∅ := by
  intro _ h; (repeat (cases h with | head => rfl | tail _ h => ?_)); exact nomatch h
theorem fresh56 : ∀ op ∈ (ops_part56 : List (HloOp τ sig (Elt F))), op.fresh = ∅ := by
  intro _ h; (repeat (cases h with | head => rfl | tail _ h => ?_)); exact nomatch h
theorem fresh57 : ∀ op ∈ (ops_part57 : List (HloOp τ sig (Elt F))), op.fresh = ∅ := by
  intro _ h; (repeat (cases h with | head => rfl | tail _ h => ?_)); exact nomatch h
theorem fresh58 : ∀ op ∈ (ops_part58 : List (HloOp τ sig (Elt F))), op.fresh = ∅ := by
  intro _ h; (repeat (cases h with | head => rfl | tail _ h => ?_)); exact nomatch h
theorem fresh59 : ∀ op ∈ (ops_part59 : List (HloOp τ sig (Elt F))), op.fresh = ∅ := by
  intro _ h; (repeat (cases h with | head => rfl | tail _ h => ?_)); exact nomatch h
theorem fresh60 : ∀ op ∈ (ops_part60 : List (HloOp τ sig (Elt F))), op.fresh = ∅ := by
  intro _ h; (repeat (cases h with | head => rfl | tail _ h => ?_)); exact nomatch h
theorem fresh61 : ∀ op ∈ (ops_part61 : List (HloOp τ sig (Elt F))), op.fresh = ∅ := by
  intro _ h; (repeat (cases h with | head => rfl | tail _ h => ?_)); exact nomatch h
theorem fresh62 : ∀ op ∈ (ops_part62 : List (HloOp τ sig (Elt F))), op.fresh = ∅ := by
  intro _ h; (repeat (cases h with | head => rfl | tail _ h => ?_)); exact nomatch h
theorem fresh63 : ∀ op ∈ (ops_part63 : List (HloOp τ sig (Elt F))), op.fresh = ∅ := by
  intro _ h; (repeat (cases h with | head => rfl | tail _ h => ?_)); exact nomatch h
theorem fresh64 : ∀ op ∈ (ops_part64 : List (HloOp τ sig (Elt F))), op.fresh = ∅ := by
  intro _ h; (repeat (cases h with | head => rfl | tail _ h => ?_)); exact nomatch h
theorem fresh65 : ∀ op ∈ (ops_part65 : List (HloOp τ sig (Elt F))), op.fresh = ∅ := by
  intro _ h; (repeat (cases h with | head => rfl | tail _ h => ?_)); exact nomatch h
theorem fresh66 : ∀ op ∈ (ops_part66 : List (HloOp τ sig (Elt F))), op.fresh = ∅ := by
  intro _ h; (repeat (cases h with | head => rfl | tail _ h => ?_)); exact nomatch h

/-- The whole operation list is the windows' concatenation, so none of its operations allocates. -/
theorem ops_fresh : ∀ op ∈ (ops : List (HloOp τ sig (Elt F))), op.fresh = ∅ := fun op h => by
  simp only [ops, List.mem_append] at h
  rcases h with h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h | h
  exacts [fresh0 op h, fresh1 op h, fresh2 op h, fresh3 op h, fresh4 op h, fresh5 op h, fresh6 op h, fresh7 op h, fresh8 op h, fresh9 op h, fresh10 op h, fresh11 op h, fresh12 op h, fresh13 op h, fresh14 op h, fresh15 op h, fresh16 op h, fresh17 op h, fresh18 op h, fresh19 op h, fresh20 op h, fresh21 op h, fresh22 op h, fresh23 op h, fresh24 op h, fresh25 op h, fresh26 op h, fresh27 op h, fresh28 op h, fresh29 op h, fresh30 op h, fresh31 op h, fresh32 op h, fresh33 op h, fresh34 op h, fresh35 op h, fresh36 op h, fresh37 op h, fresh38 op h, fresh39 op h, fresh40 op h, fresh41 op h, fresh42 op h, fresh43 op h, fresh44 op h, fresh45 op h, fresh46 op h, fresh47 op h, fresh48 op h, fresh49 op h, fresh50 op h, fresh51 op h, fresh52 op h, fresh53 op h, fresh54 op h, fresh55 op h, fresh56 op h, fresh57 op h, fresh58 op h, fresh59 op h, fresh60 op h, fresh61 op h, fresh62 op h, fresh63 op h, fresh64 op h, fresh65 op h, fresh66 op h]

end Cert.ReferenceIdeal.RefFresh

end
-- ==== Proof.Ref.RunSpec.lean ====
import proofs.«428164_j36979668418798_3_alg».proof.Proof.Ref.Results64
import proofs.«428164_j36979668418798_3_alg».proof.Proof.Ref.RunP15
import proofs.«428164_j36979668418798_3_alg».proof.Defs
import proofs.«428164_j36979668418798_3_alg».proof.Proof.Gen.Pre_finite_inputs

/-
  The reference program's run against the specification: every weakly fair execution terminates with its three results
  at `youts`, `hseq` and `hlast` of the argument arrays the launch memory holds, and those arrays unchanged; and,
  forgetting the results, its frame.
-/

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

/-- The thirteen argument arrays as the launch memory holds them on device `c`. -/
def argsOf (m' : (ℓ : Loc Cert.ReferenceIdeal.nD Cert.ReferenceIdeal.τ Cert.ReferenceIdeal.sig) → Buf (Elt Ideal) ℓ)
    (c : Dev Cert.ReferenceIdeal.nD) : Cert.Out.Args where
  x := m' ((c.tc : Thread Cert.ReferenceIdeal.nD Cert.ReferenceIdeal.τ).loc Cert.ReferenceIdeal.main_arg0)
  hprev := m' ((c.tc : Thread Cert.ReferenceIdeal.nD Cert.ReferenceIdeal.τ).loc Cert.ReferenceIdeal.main_arg1)
  Wxz := m' ((c.tc : Thread Cert.ReferenceIdeal.nD Cert.ReferenceIdeal.τ).loc Cert.ReferenceIdeal.main_arg2)
  Whz := m' ((c.tc : Thread Cert.ReferenceIdeal.nD Cert.ReferenceIdeal.τ).loc Cert.ReferenceIdeal.main_arg3)
  bz := m' ((c.tc : Thread Cert.ReferenceIdeal.nD Cert.ReferenceIdeal.τ).loc Cert.ReferenceIdeal.main_arg4)
  Wxr := m' ((c.tc : Thread Cert.ReferenceIdeal.nD Cert.ReferenceIdeal.τ).loc Cert.ReferenceIdeal.main_arg5)
  Whr := m' ((c.tc : Thread Cert.ReferenceIdeal.nD Cert.ReferenceIdeal.τ).loc Cert.ReferenceIdeal.main_arg6)
  br := m' ((c.tc : Thread Cert.ReferenceIdeal.nD Cert.ReferenceIdeal.τ).loc Cert.ReferenceIdeal.main_arg7)
  Wxh := m' ((c.tc : Thread Cert.ReferenceIdeal.nD Cert.ReferenceIdeal.τ).loc Cert.ReferenceIdeal.main_arg8)
  Whh := m' ((c.tc : Thread Cert.ReferenceIdeal.nD Cert.ReferenceIdeal.τ).loc Cert.ReferenceIdeal.main_arg9)
  bh := m' ((c.tc : Thread Cert.ReferenceIdeal.nD Cert.ReferenceIdeal.τ).loc Cert.ReferenceIdeal.main_arg10)
  Why := m' ((c.tc : Thread Cert.ReferenceIdeal.nD Cert.ReferenceIdeal.τ).loc Cert.ReferenceIdeal.main_arg11)
  by_ := m' ((c.tc : Thread Cert.ReferenceIdeal.nD Cert.ReferenceIdeal.τ).loc Cert.ReferenceIdeal.main_arg12)

/-- A run from the launch memory reads the arguments the launch memory holds. -/
theorem argsV_launch (m' : (ℓ : Loc Cert.ReferenceIdeal.nD Cert.ReferenceIdeal.τ Cert.ReferenceIdeal.sig) → Buf (Elt Ideal) ℓ)
    (c : Dev Cert.ReferenceIdeal.nD) : argsV (launchContents m' c) = argsOf m' c := rfl

set_option maxRecDepth 8192 in
/-- The reference computes the specification's three results and leaves its arguments unchanged. -/
theorem run_spec (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v3664) = Cert.Out.youts (argsOf m' c)
          ∧ r.2.mem ((c.tc : Thread Cert.ReferenceIdeal.nD Cert.ReferenceIdeal.τ).loc Cert.ReferenceIdeal.main_v3673) = Cert.Out.hseq (argsOf m' c)
          ∧ r.2.mem ((c.tc : Thread Cert.ReferenceIdeal.nD Cert.ReferenceIdeal.τ).loc Cert.ReferenceIdeal.main_v3682) = Cert.Out.hlast (argsOf m' c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)) :=
  (θ_run (Cert.ReferenceIdeal.defs (F := Ideal)) _ _).mono (fun r h c => by
    obtain ⟨hA, hB, hC, hargs⟩ := h c
    rw [← argsV_launch]
    exact ⟨hA.trans (youts_eq (launchContents m' c)), hB.trans (hseq_eq (launchContents m' c)),
      hC.trans (hlast_eq (launchContents m' c)), hargs⟩)
    (Value.run m' ρ')

set_option maxRecDepth 8192 in
/-- The reference runs to the end, faults nowhere and leaves its arguments unchanged. -/
theorem frame : Cert.frame_ReferenceIdeal :=
  fun m g _ => (θ_run (Cert.ReferenceIdeal.defs (F := Ideal)) _ _).mono (fun r h c => (h c).2.2.2) (Value.run m g)

end Cert.ReferenceIdeal.RefValue

end
-- ==== Proof.lean ====
/-
  An eight-layer GRU run for eight time steps: the kernel runs the stack LAYER BY LAYER (one pallas_call per layer, each
  keeping that layer's matrices resident and walking the eight time steps on a tile of batch rows), the reference TIME STEP
  BY TIME STEP (eight cells per step). A cell at (layer l, time t) reads only the cells (l − 1, t) and (l, t − 1), so both
  orders evaluate the same cells on the same arguments; at the extended reals a change of float format is the identity, a
  matrix product against side-by-side matrices followed by a column slice is the product against the one matrix, and the
  logistic function is 1 / (1 + e⁻ˣ) on both sides. Both programs' three results are therefore the functions
  `Cert.Out.youts`, `Cert.Out.hseq`, `Cert.Out.hlast` of the thirteen arguments (no finiteness is used: nothing is
  regrouped across a sum).

  The frames: @main of the kernel's program is a host stretch, eight kernel regions and a host stretch; each region's body
  is run once symbolically on whole staging buffers, and the ten segments are launched together; every argument array
  is an input of the regions or untouched, and ends as launched. The reference is host operations only.
-/
import proofs.«428164_j36979668418798_3_alg».proof.Defs
import proofs.«428164_j36979668418798_3_alg».proof.Proof.Gen.Pre_finite_inputs
import proofs.«428164_j36979668418798_3_alg».proof.Proof.K.Run
import proofs.«428164_j36979668418798_3_alg».proof.Proof.KI.Run
import proofs.«428164_j36979668418798_3_alg».proof.Proof.KI.ValRun
import proofs.«428164_j36979668418798_3_alg».proof.Proof.Ref.RunSpec

noncomputable section

namespace Cert.Proof

open Idealize.ShloMosaic Idealize.SL.Sem

/-- The word-level program terminates, faults nowhere, and leaves its arguments as launched. -/
theorem frame_p : Cert.frame_Kernel := fun m ρ _ => Cert.Kernel.Gen.frame m ρ

/-- So does its reading at the extended reals. -/
theorem frame_pi : Cert.frame_KernelIdeal := fun m ρ _ => Cert.KernelIdeal.Gen.frame m ρ

/-- The reference, host operations only, runs to its end with the arguments unchanged. -/
theorem frame_ri : Cert.frame_ReferenceIdeal := Cert.ReferenceIdeal.RefValue.frame

/-- The ideal pass rewrote nothing: there is nothing to preserve. -/
theorem preserves : Cert.preserves_Kernel_KernelIdeal := trivial

/-- Both programs end with the hidden rows of the stack and their projection, as functions of the arguments. -/
theorem algebraic : Cert.algebraic_KernelIdeal_ReferenceIdeal := by
  intro m ρ m' ρ' _ hagree
  refine ⟨fun c => Cert.Out.youts (Cert.KernelIdeal.Value.argsOf m c), fun c => Cert.Out.hseq (Cert.KernelIdeal.Value.argsOf m c),
    fun c => Cert.Out.hlast (Cert.KernelIdeal.Value.argsOf m c), ?_, ?_⟩
  · refine (θ_run Cert.KernelIdeal.defs _ _).mono (fun r h c => ?_) (Cert.KernelIdeal.Gen.run_all (F := Ideal) m ρ)
    exact ⟨(h c _ (Cert.KernelIdeal.Gen.mem_uc Cert.KernelIdeal.main_v23 (by decide))).trans (Cert.KernelIdeal.Value.W10_v23 m ρ c),
      (h c _ (Cert.KernelIdeal.Gen.mem_uc Cert.KernelIdeal.main_v32 (by decide))).trans (Cert.KernelIdeal.Value.W10_v32 m ρ c),
      (h c _ (Cert.KernelIdeal.Gen.mem_uc Cert.KernelIdeal.main_v41 (by decide))).trans (Cert.KernelIdeal.Value.W10_v41 m ρ c),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c),
      (h c _ (Cert.KernelIdeal.Gen.mem_uc Cert.KernelIdeal.main_arg7 (by decide))).trans (Cert.KernelIdeal.Gen.W10_main_arg7 m ρ c),
      (h c _ (Cert.KernelIdeal.Gen.mem_uc Cert.KernelIdeal.main_arg8 (by decide))).trans (Cert.KernelIdeal.Gen.W10_main_arg8 m ρ c),
      (h c _ (Cert.KernelIdeal.Gen.mem_uc Cert.KernelIdeal.main_arg9 (by decide))).trans (Cert.KernelIdeal.Gen.W10_main_arg9 m ρ c),
      (h c _ (Cert.KernelIdeal.Gen.mem_uc Cert.KernelIdeal.main_arg10 (by decide))).trans (Cert.KernelIdeal.Gen.W10_main_arg10 m ρ c),
      (h c _ (Cert.KernelIdeal.Gen.mem_uc Cert.KernelIdeal.main_arg11 (by decide))).trans (Cert.KernelIdeal.Gen.W10_main_arg11 m ρ c),
      (h c _ (Cert.KernelIdeal.Gen.mem_uc Cert.KernelIdeal.main_arg12 (by decide))).trans (Cert.KernelIdeal.Gen.W10_main_arg12 m ρ c)⟩
  · have hargs : ∀ c, Cert.ReferenceIdeal.RefValue.argsOf m' c = Cert.KernelIdeal.Value.argsOf m c := fun c => by
      obtain ⟨h0, h1, h2, h3, h4, h5, h6, h7, h8, h9, h10, h11, h12⟩ := hagree c
      unfold Cert.ReferenceIdeal.RefValue.argsOf Cert.KernelIdeal.Value.argsOf
      rw [Cert.Out.Args.mk.injEq]
      exact ⟨h0, h1, h2, h3, h4, h5, h6, h7, h8, h9, h10, h11, h12⟩
    refine (θ_run Cert.ReferenceIdeal.defs _ _).mono (fun r h c => ?_) (Cert.ReferenceIdeal.RefValue.run_spec m' ρ')
    have hc := h c
    rw [hargs c] at hc
    exact hc

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
